-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1)) (v1 : (c : Dev Cert.KernelIdeal.nD) → Buf (Elt Ideal) ((c.tc : Thread Cert.KernelIdeal.nD Cert.KernelIdeal.τ).loc Cert.KernelIdeal.main_v2)) (v2 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_v2) = v1 c
          ∧ r.2.mem ((c.tc : Thread Cert.KernelIdeal.nD Cert.KernelIdeal.τ).loc Cert.KernelIdeal.main_v16) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_v24) = v1 c
          ∧ r.2.mem ((c.tc : Thread Cert.ReferenceIdeal.nD Cert.ReferenceIdeal.τ).loc Cert.ReferenceIdeal.main_v38) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000x64 : Shape := ⟨2, ![1000000, 64]⟩
abbrev S500000x64 : Shape := ⟨2, ![500000, 64]⟩
abbrev S16384 : Shape := ⟨1, ![16384]⟩
abbrev S_ : Shape := ⟨0, ![]⟩

class Facts : Prop where
  bcast_S_S1000000x64 : S_.BroadcastsInDim S1000000x64 (![] : Fin 0 → Fin S1000000x64.rank)
  reducesTo_S1000000x64_S_d0_1 : S1000000x64.ReducesTo [0, 1] S_
  h_S_ : 0 < S_.numel
  bcast_S_S500000x64 : S_.BroadcastsInDim S500000x64 (![] : Fin 0 → Fin S500000x64.rank)
  reducesTo_S500000x64_S_d0_1 : S500000x64.ReducesTo [0, 1] S_
  bcast_S_S16384 : S_.BroadcastsInDim S16384 (![] : Fin 0 → Fin S16384.rank)
  reducesTo_S16384_S_d0 : S16384.ReducesTo [0] S_

variable [Facts]

def fn_part1 {F : FTy → Type} [FloatOps F] (main_arg3 : IVec S16384 32) (main_arg4 : IVec S16384 32) (main_v15 : IVec S_ 1) (main_c_5 : IVec S_ 32) : IVec S_ 1 :=
  let main_v16 : IVec S16384 32 := broadcastInDim S16384 ![] bcast_S_S16384 main_c_5
  let main_v17 : IVec S16384 1 := cmpi .sge main_arg3 main_v16
  let main_c_6 : IVec S_ 32 := constantI S_ 32 500000#32
  let main_v18 : IVec S16384 32 := broadcastInDim S16384 ![] bcast_S_S16384 main_c_6
  let main_v19 : IVec S16384 1 := cmpi .slt main_arg3 main_v18
  let main_v20 : IVec S16384 1 := andi main_v17 main_v19
  let main_c_7 : IVec S_ 1 := constantI S_ 1 1#1
  let main_v21 : IVec S_ 1 := (fun x v => Host.reduce IntOp.andi x v reducesTo_S16384_S_d0 h_S_) main_v20 main_c_7
  let main_v22 : IVec S_ 1 := andi main_v15 main_v21
  let main_c_8 : IVec S_ 32 := constantI S_ 32 0#32
  let main_v23 : IVec S16384 32 := broadcastInDim S16384 ![] bcast_S_S16384 main_c_8
  let main_v24 : IVec S16384 1 := cmpi .sge main_arg4 main_v23
  let main_c_9 : IVec S_ 32 := constantI S_ 32 500000#32
  let main_v25 : IVec S16384 32 := broadcastInDim S16384 ![] bcast_S_S16384 main_c_9
  let main_v26 : IVec S16384 1 := cmpi .slt main_arg4 main_v25
  let main_v27 : IVec S16384 1 := andi main_v24 main_v26
  let main_c_10 : IVec S_ 1 := constantI S_ 1 1#1
  let main_v28 : IVec S_ 1 := (fun x v => Host.reduce IntOp.andi x v reducesTo_S16384_S_d0 h_S_) main_v27 main_c_10
  let main_v29 : IVec S_ 1 := andi main_v22 main_v28
  main_v29

def fn {F : FTy → Type} [FloatOps F] (main_arg0 : FVec F S1000000x64 .f32) (main_arg1 : FVec F S500000x64 .f32) (main_arg2 : IVec S16384 32) (main_arg3 : IVec S16384 32) (main_arg4 : IVec S16384 32) : IVec S_ 1 :=
  let main_v0 : FVec F S1000000x64 .f32 := Host.absf main_arg0
  let main_cst : FVec F S_ .f32 := constant S_ .f32 0x7F800000#32
  let main_v1 : FVec F S1000000x64 .f32 := broadcastInDim S1000000x64 ![] bcast_S_S1000000x64 main_cst
  let main_v2 : IVec S1000000x64 1 := cmpf .olt main_v0 main_v1
  let main_c : IVec S_ 1 := constantI S_ 1 1#1
  let main_v3 : IVec S_ 1 := (fun x v => Host.reduce IntOp.andi x v reducesTo_S1000000x64_S_d0_1 h_S_) main_v2 main_c
  let main_v4 : FVec F S500000x64 .f32 := Host.absf main_arg1
  let main_cst_0 : FVec F S_ .f32 := constant S_ .f32 0x7F800000#32
  let main_v5 : FVec F S500000x64 .f32 := broadcastInDim S500000x64 ![] bcast_S_S500000x64 main_cst_0
  let main_v6 : IVec S500000x64 1 := cmpf .olt main_v4 main_v5
  let main_c_1 : IVec S_ 1 := constantI S_ 1 1#1
  let main_v7 : IVec S_ 1 := (fun x v => Host.reduce IntOp.andi x v reducesTo_S500000x64_S_d0_1 h_S_) main_v6 main_c_1
  let main_v8 : IVec S_ 1 := andi main_v3 main_v7
  let main_c_2 : IVec S_ 32 := constantI S_ 32 0#32
  let main_v9 : IVec S16384 32 := broadcastInDim S16384 ![] bcast_S_S16384 main_c_2
  let main_v10 : IVec S16384 1 := cmpi .sge main_arg2 main_v9
  let main_c_3 : IVec S_ 32 := constantI S_ 32 1000000#32
  let main_v11 : IVec S16384 32 := broadcastInDim S16384 ![] bcast_S_S16384 main_c_3
  let main_v12 : IVec S16384 1 := cmpi .slt main_arg2 main_v11
  let main_v13 : IVec S16384 1 := andi main_v10 main_v12
  let main_c_4 : IVec S_ 1 := constantI S_ 1 1#1
  let main_v14 : IVec S_ 1 := (fun x v => Host.reduce IntOp.andi x v reducesTo_S16384_S_d0 h_S_) main_v13 main_c_4
  let main_v15 : IVec S_ 1 := andi main_v8 main_v14
  let main_c_5 : IVec S_ 32 := constantI S_ 32 0#32
  fn_part1 (F := F) main_arg3 main_arg4 main_v15 main_c_5
-- ==== Kernel.lean ====
abbrev S1000000x64 : Shape := ⟨2, ![1000000, 64]⟩
abbrev S500000x64 : Shape := ⟨2, ![500000, 64]⟩
abbrev S16384 : Shape := ⟨1, ![16384]⟩
abbrev S16384x1 : Shape := ⟨2, ![16384, 1]⟩
abbrev S128x1 : Shape := ⟨2, ![128, 1]⟩
abbrev S128x64 : Shape := ⟨2, ![128, 64]⟩
abbrev S128 : Shape := ⟨1, ![128]⟩
abbrev S1 : Shape := ⟨1, ![1]⟩
abbrev S_ : Shape := ⟨0, ![]⟩
abbrev S1x64 : Shape := ⟨2, ![1, 64]⟩
abbrev S64 : Shape := ⟨1, ![64]⟩

abbrev nBuf : Space → Nat
  | .hbm => 44
  | .vmem => 13
  | .smem => 3
  | _ => 0

abbrev bufTy : (tb : Table) → Fin (tcTables nBuf tb) → BufTy
  | .hbm, ⟨0, _⟩ => ⟨S1000000x64, .f32⟩
  | .hbm, ⟨1, _⟩ => ⟨S500000x64, .f32⟩
  | .hbm, ⟨2, _⟩ => ⟨S16384x1, .f32⟩
  | .hbm, ⟨3, _⟩ => ⟨S16384x1, .f32⟩
  | .hbm, ⟨4, _⟩ => ⟨S16384x1, .f32⟩
  | .hbm, ⟨5, _⟩ => ⟨S16384x1, .f32⟩
  | .hbm, ⟨6, _⟩ => ⟨S16384x1, .f32⟩
  | .hbm, ⟨7, _⟩ => ⟨S16384, .f32⟩
  | .hbm, ⟨8, _⟩ => ⟨S16384, .f32⟩
  | .hbm, ⟨9, _⟩ => ⟨S16384, .f32⟩
  | .hbm, ⟨10, _⟩ => ⟨S16384, .f32⟩
  | .hbm, ⟨11, _⟩ => ⟨S16384, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S16384, .f32⟩
  | .hbm, ⟨23, _⟩ => ⟨S16384, .f32⟩
  | .hbm, ⟨24, _⟩ => ⟨S_, .f32⟩
  | .hbm, ⟨25, _⟩ => ⟨S16384, .f32⟩
  | .hbm, ⟨26, _⟩ => ⟨S16384, .f32⟩
  | .hbm, ⟨27, _⟩ => ⟨S16384, .f32⟩
  | .hbm, ⟨28, _⟩ => ⟨S16384, .f32⟩
  | .hbm, ⟨29, _⟩ => ⟨S16384, .i1⟩
  | .hbm, ⟨30, _⟩ => ⟨S16384, .f32⟩
  | .hbm, ⟨31, _⟩ => ⟨S16384, .f32⟩
  | .hbm, ⟨32, _⟩ => ⟨S16384, .f32⟩
  | .hbm, ⟨33, _⟩ => ⟨S16384, .f32⟩
  | .hbm, ⟨34, _⟩ => ⟨S16384, .f32⟩
  | .hbm, ⟨35, _⟩ => ⟨S16384, .f32⟩
  | .hbm, ⟨36, _⟩ => ⟨S16384, .f32⟩
  | .hbm, ⟨37, _⟩ => ⟨S16384, .f32⟩
  | .hbm, ⟨38, _⟩ => ⟨S16384, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .local _ .vmem, ⟨0, _⟩ => ⟨S128x1, .f32⟩
  | .local _ .vmem, ⟨1, _⟩ => ⟨S128x1, .f32⟩
  | .local _ .vmem, ⟨2, _⟩ => ⟨S128x1, .f32⟩
  | .local _ .vmem, ⟨3, _⟩ => ⟨S128x1, .f32⟩
  | .local _ .vmem, ⟨4, _⟩ => ⟨S128x1, .f32⟩
  | .local _ .vmem, ⟨5, _⟩ => ⟨S128x1, .f32⟩
  | .local _ .vmem, ⟨6, _⟩ => ⟨S128x1, .f32⟩
  | .local _ .vmem, ⟨7, _⟩ => ⟨S128x1, .f32⟩
  | .local _ .vmem, ⟨8, _⟩ => ⟨S128x1, .f32⟩
  | .local _ .vmem, ⟨9, _⟩ => ⟨S128x1, .f32⟩
  | .local _ .vmem, ⟨10, _⟩ => ⟨S128x64, .f32⟩
  | .local _ .vmem, ⟨11, _⟩ => ⟨S128x64, .f32⟩
  | .local _ .vmem, ⟨12, _⟩ => ⟨S128x64, .f32⟩
  | .local _ .smem, ⟨0, _⟩ => ⟨S16384, .i32⟩
  | .local _ .smem, ⟨1, _⟩ => ⟨S16384, .i32⟩
  | .local _ .smem, ⟨2, _⟩ => ⟨S16384, .i32⟩
  | _, _ => ⟨S1000000x64, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_2 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_3 (i : Nat) : Bool := match i % 128 with
  | 0 => true
  | 1 => true
  | 2 => true
  | 3 => true
  | 4 => true
  | 5 => true
  | 6 => true
  | 7 => true
  | 8 => true
  | 9 => true
  | _ => false

abbrev dmaSemScopedAt (i : Nat) : Bool := match i / 128 with
  | 0 => dmaSemScopedAt0_0 i
  | 1 => dmaSemScopedAt0_1 i
  | 2 => dmaSemScopedAt0_2 i
  | 3 => dmaSemScopedAt0_3 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 394 → Bool
  | ⟨i, _⟩ => dmaSemScopedAt i

abbrev sig : RefSig :=
  ofTc nBuf bufTy 0 394 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev main_v0_3 : Ref sig .tc := ⟨.hbm, 5, rfl⟩
abbrev main_v0_4 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_call0_v0 : Ref sig .tc := ⟨.hbm, 23, rfl⟩
abbrev main_call0_call0_cst : Ref sig .tc := ⟨.hbm, 24, rfl⟩
abbrev main_call0_call0_v0 : Ref sig .tc := ⟨.hbm, 25, rfl⟩
abbrev main_call0_call0_v1 : Ref sig .tc := ⟨.hbm, 26, rfl⟩
abbrev main_call0_call0_v2 : Ref sig .tc := ⟨.hbm, 27, rfl⟩
abbrev main_call0_call0_v3 : Ref sig .tc := ⟨.hbm, 28, rfl⟩
abbrev main_call0_call0_v4 : Ref sig .tc := ⟨.hbm, 29, rfl⟩
abbrev main_call0_call0_v5 : Ref sig .tc := ⟨.hbm, 30, rfl⟩
abbrev main_call0_call0_v6 : Ref sig .tc := ⟨.hbm, 31, rfl⟩
abbrev main_call0_call0_v7 : Ref sig .tc := ⟨.hbm, 32, rfl⟩
abbrev main_call0_call0_v8 : Ref sig .tc := ⟨.hbm, 33, rfl⟩
abbrev main_call0_call0_v9 : Ref sig .tc := ⟨.hbm, 34, rfl⟩
abbrev main_call0_call0_v10 : Ref sig .tc := ⟨.hbm, 35, rfl⟩
abbrev main_call0_call0_v11 : Ref sig .tc := ⟨.hbm, 36, rfl⟩
abbrev main_call0_v1 : Ref sig .tc := ⟨.hbm, 37, rfl⟩
abbrev main_v13 : Ref sig .tc := ⟨.hbm, 38, rfl⟩
abbrev main_cst_3 : Ref sig .tc := ⟨.hbm, 39, rfl⟩
abbrev main_v14 : Ref sig .tc := ⟨.hbm, 40, rfl⟩
abbrev main_cst_4 : Ref sig .tc := ⟨.hbm, 41, rfl⟩
abbrev main_v15 : Ref sig .tc := ⟨.hbm, 42, rfl⟩
abbrev main_v16 : Ref sig .tc := ⟨.hbm, 43, rfl⟩
abbrev main_arg2 : Ref sig .tc := ⟨.smem, 0, rfl⟩
abbrev main_arg3 : Ref sig .tc := ⟨.smem, 1, rfl⟩
abbrev main_arg4 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![128], ![false]⟩

abbrev pre0 : Pipeline.Prefetch sig := ⟨3, ![main_arg2.idx, main_arg3.idx, main_arg4.idx], fun | 0 => main_arg2.names | 1 => main_arg3.names | 2 => main_arg4.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg0 : BitVec 32 := BitVec.ofNat 32 (i 0).val
  let c128_i32 : BitVec 32 := 128#32
  let v0 : BitVec 32 := Scalar.muli arg0 c128_i32
  let c0_i32 : BitVec 32 := 0#32
  let v1 : BitVec 32 := Scalar.addi v0 c0_i32
  let v2 : Index := Scalar.indexCast v1
  ![v2.toNat]
def k0_off2 (v3 : BitVec 32) : Fin 2 → Nat :=
  let c0_i32_1 : BitVec 32 := 0#32
  ![v3.toNat, 0]

def k0_chk1 (v3 : BitVec 32) : Prop :=
  (∀ a, (k0_off2 v3) a + S1x64.size a ≤ S1000000x64.size a)
instance k0_chk1.dec : ∀ (v3 : BitVec 32), Decidable (k0_chk1 v3) := fun v3 => decidable_of_iff' _ (Iff.of_eq (k0_chk1.eq_1 v3))
theorem k0_off2_inb : ∀ (v3 : BitVec 32) (k0_hw1 : k0_chk1 v3), ∀ a, (k0_off2 v3) a + S1x64.size a ≤ S1000000x64.size a := fun v3 k0_hw1 => k0_hw1

def k0_off3 (v5 : BitVec 32) : Fin 2 → Nat :=
  let c0_i32_3 : BitVec 32 := 0#32
  ![v5.toNat, 0]

def k0_chk2 (v5 : BitVec 32) : Prop :=
  (∀ a, (k0_off3 v5) a + S1x64.size a ≤ S500000x64.size a)
instance k0_chk2.dec : ∀ (v5 : BitVec 32), Decidable (k0_chk2 v5) := fun v5 => decidable_of_iff' _ (Iff.of_eq (k0_chk2.eq_1 v5))
theorem k0_off3_inb : ∀ (v5 : BitVec 32) (k0_hw2 : k0_chk2 v5), ∀ a, (k0_off3 v5) a + S1x64.size a ≤ S500000x64.size a := fun v5 k0_hw2 => k0_hw2

def k0_off4 (v7 : BitVec 32) : Fin 2 → Nat :=
  let c0_i32_5 : BitVec 32 := 0#32
  ![v7.toNat, 0]

def k0_chk3 (v7 : BitVec 32) : Prop :=
  (∀ a, (k0_off4 v7) a + S1x64.size a ≤ S500000x64.size a)
instance k0_chk3.dec : ∀ (v7 : BitVec 32), Decidable (k0_chk3 v7) := fun v7 => decidable_of_iff' _ (Iff.of_eq (k0_chk3.eq_1 v7))
theorem k0_off4_inb : ∀ (v7 : BitVec 32) (k0_hw3 : k0_chk3 v7), ∀ a, (k0_off4 v7) a + S1x64.size a ≤ S500000x64.size a := fun v7 k0_hw3 => k0_hw3

def k0_off5 (i : grid0.Coords) : Fin 1 → Nat :=
  let arg0 : BitVec 32 := BitVec.ofNat 32 (i 0).val
  let c128_i32 : BitVec 32 := 128#32
  let v0 : BitVec 32 := Scalar.muli arg0 c128_i32
  let c1_i32 : BitVec 32 := 1#32
  let v26 : BitVec 32 := Scalar.addi v0 c1_i32
  let v27 : Index := Scalar.indexCast v26
  ![v27.toNat]
def k0_off6 (v28 : BitVec 32) : Fin 2 → Nat :=
  let c0_i32_7 : BitVec 32 := 0#32
  ![v28.toNat, 0]

def k0_chk4 (v28 : BitVec 32) : Prop :=
  (∀ a, (k0_off6 v28) a + S1x64.size a ≤ S1000000x64.size a)
instance k0_chk4.dec : ∀ (v28 : BitVec 32), Decidable (k0_chk4 v28) := fun v28 => decidable_of_iff' _ (Iff.of_eq (k0_chk4.eq_1 v28))
theorem k0_off6_inb : ∀ (v28 : BitVec 32) (k0_hw4 : k0_chk4 v28), ∀ a, (k0_off6 v28) a + S1x64.size a ≤ S1000000x64.size a := fun v28 k0_hw4 => k0_hw4

def k0_off7 (v30 : BitVec 32) : Fin 2 → Nat :=
  let c0_i32_9 : BitVec 32 := 0#32
  ![v30.toNat, 0]

def k0_chk5 (v30 : BitVec 32) : Prop :=
  (∀ a, (k0_off7 v30) a + S1x64.size a ≤ S500000x64.size a)
instance k0_chk5.dec : ∀ (v30 : BitVec 32), Decidable (k0_chk5 v30) := fun v30 => decidable_of_iff' _ (Iff.of_eq (k0_chk5.eq_1 v30))
theorem k0_off7_inb : ∀ (v30 : BitVec 32) (k0_hw5 : k0_chk5 v30), ∀ a, (k0_off7 v30) a + S1x64.size a ≤ S500000x64.size a := fun v30 k0_hw5 => k0_hw5

def k0_off8 (v32 : BitVec 32) : Fin 2 → Nat :=
  let c0_i32_11 : BitVec 32 := 0#32
  ![v32.toNat, 0]

def k0_chk6 (v32 : BitVec 32) : Prop :=
  (∀ a, (k0_off8 v32) a + S1x64.size a ≤ S500000x64.size a)
instance k0_chk6.dec : ∀ (v32 : BitVec 32), Decidable (k0_chk6 v32) := fun v32 => decidable_of_iff' _ (Iff.of_eq (k0_chk6.eq_1 v32))
theorem k0_off8_inb : ∀ (v32 : BitVec 32) (k0_hw6 : k0_chk6 v32), ∀ a, (k0_off8 v32) a + S1x64.size a ≤ S500000x64.size a := fun v32 k0_hw6 => k0_hw6

def k0_off9 (i : grid0.Coords) : Fin 1 → Nat :=
  let arg0 : BitVec 32 := BitVec.ofNat 32 (i 0).val
  let c128_i32 : BitVec 32 := 128#32
  let v0 : BitVec 32 := Scalar.muli arg0 c128_i32
  let c2_i32 : BitVec 32 := 2#32
  let v51 : BitVec 32 := Scalar.addi v0 c2_i32
  let v52 : Index := Scalar.indexCast v51
  ![v52.toNat]
def k0_off10 (v53 : BitVec 32) : Fin 2 → Nat :=
  let c0_i32_13 : BitVec 32 := 0#32
  ![v53.toNat, 0]

def k0_chk7 (v53 : BitVec 32) : Prop :=
  (∀ a, (k0_off10 v53) a + S1x64.size a ≤ S1000000x64.size a)
instance k0_chk7.dec : ∀ (v53 : BitVec 32), Decidable (k0_chk7 v53) := fun v53 => decidable_of_iff' _ (Iff.of_eq (k0_chk7.eq_1 v53))
theorem k0_off10_inb : ∀ (v53 : BitVec 32) (k0_hw7 : k0_chk7 v53), ∀ a, (k0_off10 v53) a + S1x64.size a ≤ S1000000x64.size a := fun v53 k0_hw7 => k0_hw7

def k0_off11 (v55 : BitVec 32) : Fin 2 → Nat :=
  let c0_i32_15 : BitVec 32 := 0#32
  ![v55.toNat, 0]

def k0_chk8 (v55 : BitVec 32) : Prop :=
  (∀ a, (k0_off11 v55) a + S1x64.size a ≤ S500000x64.size a)
instance k0_chk8.dec : ∀ (v55 : BitVec 32), Decidable (k0_chk8 v55) := fun v55 => decidable_of_iff' _ (Iff.of_eq (k0_chk8.eq_1 v55))
theorem k0_off11_inb : ∀ (v55 : BitVec 32) (k0_hw8 : k0_chk8 v55), ∀ a, (k0_off11 v55) a + S1x64.size a ≤ S500000x64.size a := fun v55 k0_hw8 => k0_hw8

def k0_off12 (v57 : BitVec 32) : Fin 2 → Nat :=
  let c0_i32_17 : BitVec 32 := 0#32
  ![v57.toNat, 0]

def k0_chk9 (v57 : BitVec 32) : Prop :=
  (∀ a, (k0_off12 v57) a + S1x64.size a ≤ S500000x64.size a)
instance k0_chk9.dec : ∀ (v57 : BitVec 32), Decidable (k0_chk9 v57) := fun v57 => decidable_of_iff' _ (Iff.of_eq (k0_chk9.eq_1 v57))
theorem k0_off12_inb : ∀ (v57 : BitVec 32) (k0_hw9 : k0_chk9 v57), ∀ a, (k0_off12 v57) a + S1x64.size a ≤ S500000x64.size a := fun v57 k0_hw9 => k0_hw9

def k0_off13 (i : grid0.Coords) : Fin 1 → Nat :=
  let arg0 : BitVec 32 := BitVec.ofNat 32 (i 0).val
  let c128_i32 : BitVec 32 := 128#32
  let v0 : BitVec 32 := Scalar.muli arg0 c128_i32
  let c3_i32 : BitVec 32 := 3#32
  let v76 : BitVec 32 := Scalar.addi v0 c3_i32
  let v77 : Index := Scalar.indexCast v76
  ![v77.toNat]
def k0_off14 (v78 : BitVec 32) : Fin 2 → Nat :=
  let c0_i32_19 : BitVec 32 := 0#32
  ![v78.toNat, 0]

def k0_chk10 (v78 : BitVec 32) : Prop :=
  (∀ a, (k0_off14 v78) a + S1x64.size a ≤ S1000000x64.size a)
instance k0_chk10.dec : ∀ (v78 : BitVec 32), Decidable (k0_chk10 v78) := fun v78 => decidable_of_iff' _ (Iff.of_eq (k0_chk10.eq_1 v78))
theorem k0_off14_inb : ∀ (v78 : BitVec 32) (k0_hw10 : k0_chk10 v78), ∀ a, (k0_off14 v78) a + S1x64.size a ≤ S1000000x64.size a := fun v78 k0_hw10 => k0_hw10

def k0_off15 (v80 : BitVec 32) : Fin 2 → Nat :=
  let c0_i32_21 : BitVec 32 := 0#32
  ![v80.toNat, 0]

def k0_chk11 (v80 : BitVec 32) : Prop :=
  (∀ a, (k0_off15 v80) a + S1x64.size a ≤ S500000x64.size a)
instance k0_chk11.dec : ∀ (v80 : BitVec 32), Decidable (k0_chk11 v80) := fun v80 => decidable_of_iff' _ (Iff.of_eq (k0_chk11.eq_1 v80))
theorem k0_off15_inb : ∀ (v80 : BitVec 32) (k0_hw11 : k0_chk11 v80), ∀ a, (k0_off15 v80) a + S1x64.size a ≤ S500000x64.size a := fun v80 k0_hw11 => k0_hw11

def k0_off16 (v82 : BitVec 32) : Fin 2 → Nat :=
  let c0_i32_23 : BitVec 32 := 0#32
  ![v82.toNat, 0]

def k0_chk12 (v82 : BitVec 32) : Prop :=
  (∀ a, (k0_off16 v82) a + S1x64.size a ≤ S500000x64.size a)
instance k0_chk12.dec : ∀ (v82 : BitVec 32), Decidable (k0_chk12 v82) := fun v82 => decidable_of_iff' _ (Iff.of_eq (k0_chk12.eq_1 v82))
theorem k0_off16_inb : ∀ (v82 : BitVec 32) (k0_hw12 : k0_chk12 v82), ∀ a, (k0_off16 v82) a + S1x64.size a ≤ S500000x64.size a := fun v82 k0_hw12 => k0_hw12

def k0_off17 (i : grid0.Coords) : Fin 1 → Nat :=
  let arg0 : BitVec 32 := BitVec.ofNat 32 (i 0).val
  let c128_i32 : BitVec 32 := 128#32
  let v0 : BitVec 32 := Scalar.muli arg0 c128_i32
  let c4_i32 : BitVec 32 := 4#32
  let v101 : BitVec 32 := Scalar.addi v0 c4_i32
  let v102 : Index := Scalar.indexCast v101
  ![v102.toNat]
def k0_off18 (v103 : BitVec 32) : Fin 2 → Nat :=
  let c0_i32_25 : BitVec 32 := 0#32
  ![v103.toNat, 0]

def k0_chk13 (v103 : BitVec 32) : Prop :=
  (∀ a, (k0_off18 v103) a + S1x64.size a ≤ S1000000x64.size a)
instance k0_chk13.dec : ∀ (v103 : BitVec 32), Decidable (k0_chk13 v103) := fun v103 => decidable_of_iff' _ (Iff.of_eq (k0_chk13.eq_1 v103))
theorem k0_off18_inb : ∀ (v103 : BitVec 32) (k0_hw13 : k0_chk13 v103), ∀ a, (k0_off18 v103) a + S1x64.size a ≤ S1000000x64.size a := fun v103 k0_hw13 => k0_hw13

def k0_off19 (v105 : BitVec 32) : Fin 2 → Nat :=
  let c0_i32_27 : BitVec 32 := 0#32
  ![v105.toNat, 0]

def k0_chk14 (v105 : BitVec 32) : Prop :=
  (∀ a, (k0_off19 v105) a + S1x64.size a ≤ S500000x64.size a)
instance k0_chk14.dec : ∀ (v105 : BitVec 32), Decidable (k0_chk14 v105) := fun v105 => decidable_of_iff' _ (Iff.of_eq (k0_chk14.eq_1 v105))
theorem k0_off19_inb : ∀ (v105 : BitVec 32) (k0_hw14 : k0_chk14 v105), ∀ a, (k0_off19 v105) a + S1x64.size a ≤ S500000x64.size a := fun v105 k0_hw14 => k0_hw14

def k0_off20 (v107 : BitVec 32) : Fin 2 → Nat :=
  let c0_i32_29 : BitVec 32 := 0#32
  ![v107.toNat, 0]

def k0_chk15 (v107 : BitVec 32) : Prop :=
  (∀ a, (k0_off20 v107) a + S1x64.size a ≤ S500000x64.size a)
instance k0_chk15.dec : ∀ (v107 : BitVec 32), Decidable (k0_chk15 v107) := fun v107 => decidable_of_iff' _ (Iff.of_eq (k0_chk15.eq_1 v107))
theorem k0_off20_inb : ∀ (v107 : BitVec 32) (k0_hw15 : k0_chk15 v107), ∀ a, (k0_off20 v107) a + S1x64.size a ≤ S500000x64.size a := fun v107 k0_hw15 => k0_hw15

def k0_off21 (i : grid0.Coords) : Fin 1 → Nat :=
  let arg0 : BitVec 32 := BitVec.ofNat 32 (i 0).val
  let c128_i32 : BitVec 32 := 128#32
  let v0 : BitVec 32 := Scalar.muli arg0 c128_i32
  let c5_i32 : BitVec 32 := 5#32
  let v126 : BitVec 32 := Scalar.addi v0 c5_i32
  let v127 : Index := Scalar.indexCast v126
  ![v127.toNat]
def k0_off22 (v128 : BitVec 32) : Fin 2 → Nat :=
  let c0_i32_31 : BitVec 32 := 0#32
  ![v128.toNat, 0]

def k0_chk16 (v128 : BitVec 32) : Prop :=
  (∀ a, (k0_off22 v128) a + S1x64.size a ≤ S1000000x64.size a)
instance k0_chk16.dec : ∀ (v128 : BitVec 32), Decidable (k0_chk16 v128) := fun v128 => decidable_of_iff' _ (Iff.of_eq (k0_chk16.eq_1 v128))
theorem k0_off22_inb : ∀ (v128 : BitVec 32) (k0_hw16 : k0_chk16 v128), ∀ a, (k0_off22 v128) a + S1x64.size a ≤ S1000000x64.size a := fun v128 k0_hw16 => k0_hw16

def k0_off23 (v130 : BitVec 32) : Fin 2 → Nat :=
  let c0_i32_33 : BitVec 32 := 0#32
  ![v130.toNat, 0]

def k0_chk17 (v130 : BitVec 32) : Prop :=
  (∀ a, (k0_off23 v130) a + S1x64.size a ≤ S500000x64.size a)
instance k0_chk17.dec : ∀ (v130 : BitVec 32), Decidable (k0_chk17 v130) := fun v130 => decidable_of_iff' _ (Iff.of_eq (k0_chk17.eq_1 v130))
theorem k0_off23_inb : ∀ (v130 : BitVec 32) (k0_hw17 : k0_chk17 v130), ∀ a, (k0_off23 v130) a + S1x64.size a ≤ S500000x64.size a := fun v130 k0_hw17 => k0_hw17

def k0_off24 (v132 : BitVec 32) : Fin 2 → Nat :=
  let c0_i32_35 : BitVec 32 := 0#32
  ![v132.toNat, 0]

def k0_chk18 (v132 : BitVec 32) : Prop :=
  (∀ a, (k0_off24 v132) a + S1x64.size a ≤ S500000x64.size a)
instance k0_chk18.dec : ∀ (v132 : BitVec 32), Decidable (k0_chk18 v132) := fun v132 => decidable_of_iff' _ (Iff.of_eq (k0_chk18.eq_1 v132))
theorem k0_off24_inb : ∀ (v132 : BitVec 32) (k0_hw18 : k0_chk18 v132), ∀ a, (k0_off24 v132) a + S1x64.size a ≤ S500000x64.size a := fun v132 k0_hw18 => k0_hw18

def k0_off25 (i : grid0.Coords) : Fin 1 → Nat :=
  let arg0 : BitVec 32 := BitVec.ofNat 32 (i 0).val
  let c128_i32 : BitVec 32 := 128#32
  let v0 : BitVec 32 := Scalar.muli arg0 c128_i32
  let c6_i32 : BitVec 32 := 6#32
  let v151 : BitVec 32 := Scalar.addi v0 c6_i32
  let v152 : Index := Scalar.indexCast v151
  ![v152.toNat]
def k0_off26 (v153 : BitVec 32) : Fin 2 → Nat :=
  let c0_i32_37 : BitVec 32 := 0#32
  ![v153.toNat, 0]

def k0_chk19 (v153 : BitVec 32) : Prop :=
  (∀ a, (k0_off26 v153) a + S1x64.size a ≤ S1000000x64.size a)
instance k0_chk19.dec : ∀ (v153 : BitVec 32), Decidable (k0_chk19 v153) := fun v153 => decidable_of_iff' _ (Iff.of_eq (k0_chk19.eq_1 v153))
theorem k0_off26_inb : ∀ (v153 : BitVec 32) (k0_hw19 : k0_chk19 v153), ∀ a, (k0_off26 v153) a + S1x64.size a ≤ S1000000x64.size a := fun v153 k0_hw19 => k0_hw19

def k0_off27 (v155 : BitVec 32) : Fin 2 → Nat :=
  let c0_i32_39 : BitVec 32 := 0#32
  ![v155.toNat, 0]

def k0_chk20 (v155 : BitVec 32) : Prop :=
  (∀ a, (k0_off27 v155) a + S1x64.size a ≤ S500000x64.size a)
instance k0_chk20.dec : ∀ (v155 : BitVec 32), Decidable (k0_chk20 v155) := fun v155 => decidable_of_iff' _ (Iff.of_eq (k0_chk20.eq_1 v155))
theorem k0_off27_inb : ∀ (v155 : BitVec 32) (k0_hw20 : k0_chk20 v155), ∀ a, (k0_off27 v155) a + S1x64.size a ≤ S500000x64.size a := fun v155 k0_hw20 => k0_hw20

def k0_off28 (v157 : BitVec 32) : Fin 2 → Nat :=
  let c0_i32_41 : BitVec 32 := 0#32
  ![v157.toNat, 0]

def k0_chk21 (v157 : BitVec 32) : Prop :=
  (∀ a, (k0_off28 v157) a + S1x64.size a ≤ S500000x64.size a)
instance k0_chk21.dec : ∀ (v157 : BitVec 32), Decidable (k0_chk21 v157) := fun v157 => decidable_of_iff' _ (Iff.of_eq (k0_chk21.eq_1 v157))
theorem k0_off28_inb : ∀ (v157 : BitVec 32) (k0_hw21 : k0_chk21 v157), ∀ a, (k0_off28 v157) a + S1x64.size a ≤ S500000x64.size a := fun v157 k0_hw21 => k0_hw21

def k0_off29 (i : grid0.Coords) : Fin 1 → Nat :=
  let arg0 : BitVec 32 := BitVec.ofNat 32 (i 0).val
  let c128_i32 : BitVec 32 := 128#32
  let v0 : BitVec 32 := Scalar.muli arg0 c128_i32
  let c7_i32 : BitVec 32 := 7#32
  let v176 : BitVec 32 := Scalar.addi v0 c7_i32
  let v177 : Index := Scalar.indexCast v176
  ![v177.toNat]
def k0_off30 (v178 : BitVec 32) : Fin 2 → Nat :=
  let c0_i32_43 : BitVec 32 := 0#32
  ![v178.toNat, 0]

def k0_chk22 (v178 : BitVec 32) : Prop :=
  (∀ a, (k0_off30 v178) a + S1x64.size a ≤ S1000000x64.size a)
instance k0_chk22.dec : ∀ (v178 : BitVec 32), Decidable (k0_chk22 v178) := fun v178 => decidable_of_iff' _ (Iff.of_eq (k0_chk22.eq_1 v178))
theorem k0_off30_inb : ∀ (v178 : BitVec 32) (k0_hw22 : k0_chk22 v178), ∀ a, (k0_off30 v178) a + S1x64.size a ≤ S1000000x64.size a := fun v178 k0_hw22 => k0_hw22

def k0_off31 (v180 : BitVec 32) : Fin 2 → Nat :=
  let c0_i32_45 : BitVec 32 := 0#32
  ![v180.toNat, 0]

def k0_chk23 (v180 : BitVec 32) : Prop :=
  (∀ a, (k0_off31 v180) a + S1x64.size a ≤ S500000x64.size a)
instance k0_chk23.dec : ∀ (v180 : BitVec 32), Decidable (k0_chk23 v180) := fun v180 => decidable_of_iff' _ (Iff.of_eq (k0_chk23.eq_1 v180))
theorem k0_off31_inb : ∀ (v180 : BitVec 32) (k0_hw23 : k0_chk23 v180), ∀ a, (k0_off31 v180) a + S1x64.size a ≤ S500000x64.size a := fun v180 k0_hw23 => k0_hw23

def k0_off32 (v182 : BitVec 32) : Fin 2 → Nat :=
  let c0_i32_47 : BitVec 32 := 0#32
  ![v182.toNat, 0]

def k0_chk24 (v182 : BitVec 32) : Prop :=
  (∀ a, (k0_off32 v182) a + S1x64.size a ≤ S500000x64.size a)
instance k0_chk24.dec : ∀ (v182 : BitVec 32), Decidable (k0_chk24 v182) := fun v182 => decidable_of_iff' _ (Iff.of_eq (k0_chk24.eq_1 v182))
theorem k0_off32_inb : ∀ (v182 : BitVec 32) (k0_hw24 : k0_chk24 v182), ∀ a, (k0_off32 v182) a + S1x64.size a ≤ S500000x64.size a := fun v182 k0_hw24 => k0_hw24

def k0_off33 (i : grid0.Coords) : Fin 1 → Nat :=
  let arg0 : BitVec 32 := BitVec.ofNat 32 (i 0).val
  let c128_i32 : BitVec 32 := 128#32
  let v0 : BitVec 32 := Scalar.muli arg0 c128_i32
  let c8_i32 : BitVec 32 := 8#32
  let v201 : BitVec 32 := Scalar.addi v0 c8_i32
  let v202 : Index := Scalar.indexCast v201
  ![v202.toNat]
def k0_off34 (v203 : BitVec 32) : Fin 2 → Nat :=
  let c0_i32_49 : BitVec 32 := 0#32
  ![v203.toNat, 0]

def k0_chk25 (v203 : BitVec 32) : Prop :=
  (∀ a, (k0_off34 v203) a + S1x64.size a ≤ S1000000x64.size a)
instance k0_chk25.dec : ∀ (v203 : BitVec 32), Decidable (k0_chk25 v203) := fun v203 => decidable_of_iff' _ (Iff.of_eq (k0_chk25.eq_1 v203))
theorem k0_off34_inb : ∀ (v203 : BitVec 32) (k0_hw25 : k0_chk25 v203), ∀ a, (k0_off34 v203) a + S1x64.size a ≤ S1000000x64.size a := fun v203 k0_hw25 => k0_hw25

def k0_off35 (v205 : BitVec 32) : Fin 2 → Nat :=
  let c0_i32_51 : BitVec 32 := 0#32
  ![v205.toNat, 0]

def k0_chk26 (v205 : BitVec 32) : Prop :=
  (∀ a, (k0_off35 v205) a + S1x64.size a ≤ S500000x64.size a)
instance k0_chk26.dec : ∀ (v205 : BitVec 32), Decidable (k0_chk26 v205) := fun v205 => decidable_of_iff' _ (Iff.of_eq (k0_chk26.eq_1 v205))
theorem k0_off35_inb : ∀ (v205 : BitVec 32) (k0_hw26 : k0_chk26 v205), ∀ a, (k0_off35 v205) a + S1x64.size a ≤ S500000x64.size a := fun v205 k0_hw26 => k0_hw26

def k0_off36 (v207 : BitVec 32) : Fin 2 → Nat :=
  let c0_i32_53 : BitVec 32 := 0#32
  ![v207.toNat, 0]

def k0_chk27 (v207 : BitVec 32) : Prop :=
  (∀ a, (k0_off36 v207) a + S1x64.size a ≤ S500000x64.size a)
instance k0_chk27.dec : ∀ (v207 : BitVec 32), Decidable (k0_chk27 v207) := fun v207 => decidable_of_iff' _ (Iff.of_eq (k0_chk27.eq_1 v207))
theorem k0_off36_inb : ∀ (v207 : BitVec 32) (k0_hw27 : k0_chk27 v207), ∀ a, (k0_off36 v207) a + S1x64.size a ≤ S500000x64.size a := fun v207 k0_hw27 => k0_hw27

def k0_off37 (i : grid0.Coords) : Fin 1 → Nat :=
  let arg0 : BitVec 32 := BitVec.ofNat 32 (i 0).val
  let c128_i32 : BitVec 32 := 128#32
  let v0 : BitVec 32 := Scalar.muli arg0 c128_i32
  let c9_i32 : BitVec 32 := 9#32
  let v226 : BitVec 32 := Scalar.addi v0 c9_i32
  let v227 : Index := Scalar.indexCast v226
  ![v227.toNat]
def k0_off38 (v228 : BitVec 32) : Fin 2 → Nat :=
  let c0_i32_55 : BitVec 32 := 0#32
  ![v228.toNat, 0]

def k0_chk28 (v228 : BitVec 32) : Prop :=
  (∀ a, (k0_off38 v228) a + S1x64.size a ≤ S1000000x64.size a)
instance k0_chk28.dec : ∀ (v228 : BitVec 32), Decidable (k0_chk28 v228) := fun v228 => decidable_of_iff' _ (Iff.of_eq (k0_chk28.eq_1 v228))
theorem k0_off38_inb : ∀ (v228 : BitVec 32) (k0_hw28 : k0_chk28 v228), ∀ a, (k0_off38 v228) a + S1x64.size a ≤ S1000000x64.size a := fun v228 k0_hw28 => k0_hw28

def k0_off39 (v230 : BitVec 32) : Fin 2 → Nat :=
  let c0_i32_57 : BitVec 32 := 0#32
  ![v230.toNat, 0]

def k0_chk29 (v230 : BitVec 32) : Prop :=
  (∀ a, (k0_off39 v230) a + S1x64.size a ≤ S500000x64.size a)
instance k0_chk29.dec : ∀ (v230 : BitVec 32), Decidable (k0_chk29 v230) := fun v230 => decidable_of_iff' _ (Iff.of_eq (k0_chk29.eq_1 v230))
theorem k0_off39_inb : ∀ (v230 : BitVec 32) (k0_hw29 : k0_chk29 v230), ∀ a, (k0_off39 v230) a + S1x64.size a ≤ S500000x64.size a := fun v230 k0_hw29 => k0_hw29

def k0_off40 (v232 : BitVec 32) : Fin 2 → Nat :=
  let c0_i32_59 : BitVec 32 := 0#32
  ![v232.toNat, 0]

def k0_chk30 (v232 : BitVec 32) : Prop :=
  (∀ a, (k0_off40 v232) a + S1x64.size a ≤ S500000x64.size a)
instance k0_chk30.dec : ∀ (v232 : BitVec 32), Decidable (k0_chk30 v232) := fun v232 => decidable_of_iff' _ (Iff.of_eq (k0_chk30.eq_1 v232))
theorem k0_off40_inb : ∀ (v232 : BitVec 32) (k0_hw30 : k0_chk30 v232), ∀ a, (k0_off40 v232) a + S1x64.size a ≤ S500000x64.size a := fun v232 k0_hw30 => k0_hw30

def k0_off41 (i : grid0.Coords) : Fin 1 → Nat :=
  let arg0 : BitVec 32 := BitVec.ofNat 32 (i 0).val
  let c128_i32 : BitVec 32 := 128#32
  let v0 : BitVec 32 := Scalar.muli arg0 c128_i32
  let c10_i32 : BitVec 32 := 10#32
  let v251 : BitVec 32 := Scalar.addi v0 c10_i32
  let v252 : Index := Scalar.indexCast v251
  ![v252.toNat]
def k0_off42 (v253 : BitVec 32) : Fin 2 → Nat :=
  let c0_i32_61 : BitVec 32 := 0#32
  ![v253.toNat, 0]

def k0_chk31 (v253 : BitVec 32) : Prop :=
  (∀ a, (k0_off42 v253) a + S1x64.size a ≤ S1000000x64.size a)
instance k0_chk31.dec : ∀ (v253 : BitVec 32), Decidable (k0_chk31 v253) := fun v253 => decidable_of_iff' _ (Iff.of_eq (k0_chk31.eq_1 v253))
theorem k0_off42_inb : ∀ (v253 : BitVec 32) (k0_hw31 : k0_chk31 v253), ∀ a, (k0_off42 v253) a + S1x64.size a ≤ S1000000x64.size a := fun v253 k0_hw31 => k0_hw31

def k0_off43 (v255 : BitVec 32) : Fin 2 → Nat :=
  let c0_i32_63 : BitVec 32 := 0#32
  ![v255.toNat, 0]

def k0_chk32 (v255 : BitVec 32) : Prop :=
  (∀ a, (k0_off43 v255) a + S1x64.size a ≤ S500000x64.size a)
instance k0_chk32.dec : ∀ (v255 : BitVec 32), Decidable (k0_chk32 v255) := fun v255 => decidable_of_iff' _ (Iff.of_eq (k0_chk32.eq_1 v255))
theorem k0_off43_inb : ∀ (v255 : BitVec 32) (k0_hw32 : k0_chk32 v255), ∀ a, (k0_off43 v255) a + S1x64.size a ≤ S500000x64.size a := fun v255 k0_hw32 => k0_hw32

def k0_off44 (v257 : BitVec 32) : Fin 2 → Nat :=
  let c0_i32_65 : BitVec 32 := 0#32
  ![v257.toNat, 0]

def k0_chk33 (v257 : BitVec 32) : Prop :=
  (∀ a, (k0_off44 v257) a + S1x64.size a ≤ S500000x64.size a)
instance k0_chk33.dec : ∀ (v257 : BitVec 32), Decidable (k0_chk33 v257) := fun v257 => decidable_of_iff' _ (Iff.of_eq (k0_chk33.eq_1 v257))
theorem k0_off44_inb : ∀ (v257 : BitVec 32) (k0_hw33 : k0_chk33 v257), ∀ a, (k0_off44 v257) a + S1x64.size a ≤ S500000x64.size a := fun v257 k0_hw33 => k0_hw33

def k0_off45 (i : grid0.Coords) : Fin 1 → Nat :=
  let arg0 : BitVec 32 := BitVec.ofNat 32 (i 0).val
  let c128_i32 : BitVec 32 := 128#32
  let v0 : BitVec 32 := Scalar.muli arg0 c128_i32
  let c11_i32 : BitVec 32 := 11#32
  let v276 : BitVec 32 := Scalar.addi v0 c11_i32
  let v277 : Index := Scalar.indexCast v276
  ![v277.toNat]
def k0_off46 (v278 : BitVec 32) : Fin 2 → Nat :=
  let c0_i32_67 : BitVec 32 := 0#32
  ![v278.toNat, 0]

def k0_chk34 (v278 : BitVec 32) : Prop :=
  (∀ a, (k0_off46 v278) a + S1x64.size a ≤ S1000000x64.size a)
instance k0_chk34.dec : ∀ (v278 : BitVec 32), Decidable (k0_chk34 v278) := fun v278 => decidable_of_iff' _ (Iff.of_eq (k0_chk34.eq_1 v278))
theorem k0_off46_inb : ∀ (v278 : BitVec 32) (k0_hw34 : k0_chk34 v278), ∀ a, (k0_off46 v278) a + S1x64.size a ≤ S1000000x64.size a := fun v278 k0_hw34 => k0_hw34

def k0_off47 (v280 : BitVec 32) : Fin 2 → Nat :=
  let c0_i32_69 : BitVec 32 := 0#32
  ![v280.toNat, 0]

def k0_chk35 (v280 : BitVec 32) : Prop :=
  (∀ a, (k0_off47 v280) a + S1x64.size a ≤ S500000x64.size a)
instance k0_chk35.dec : ∀ (v280 : BitVec 32), Decidable (k0_chk35 v280) := fun v280 => decidable_of_iff' _ (Iff.of_eq (k0_chk35.eq_1 v280))
theorem k0_off47_inb : ∀ (v280 : BitVec 32) (k0_hw35 : k0_chk35 v280), ∀ a, (k0_off47 v280) a + S1x64.size a ≤ S500000x64.size a := fun v280 k0_hw35 => k0_hw35

def k0_off48 (v282 : BitVec 32) : Fin 2 → Nat :=
  let c0_i32_71 : BitVec 32 := 0#32
  ![v282.toNat, 0]

def k0_chk36 (v282 : BitVec 32) : Prop :=
  (∀ a, (k0_off48 v282) a + S1x64.size a ≤ S500000x64.size a)
instance k0_chk36.dec : ∀ (v282 : BitVec 32), Decidable (k0_chk36 v282) := fun v282 => decidable_of_iff' _ (Iff.of_eq (k0_chk36.eq_1 v282))
theorem k0_off48_inb : ∀ (v282 : BitVec 32) (k0_hw36 : k0_chk36 v282), ∀ a, (k0_off48 v282) a + S1x64.size a ≤ S500000x64.size a := fun v282 k0_hw36 => k0_hw36

def k0_off49 (i : grid0.Coords) : Fin 1 → Nat :=
  let arg0 : BitVec 32 := BitVec.ofNat 32 (i 0).val
  let c128_i32 : BitVec 32 := 128#32
  let v0 : BitVec 32 := Scalar.muli arg0 c128_i32
  let c12_i32 : BitVec 32 := 12#32
  let v301 : BitVec 32 := Scalar.addi v0 c12_i32
  let v302 : Index := Scalar.indexCast v301
  ![v302.toNat]
def k0_off50 (v303 : BitVec 32) : Fin 2 → Nat :=
  let c0_i32_73 : BitVec 32 := 0#32
  ![v303.toNat, 0]

def k0_chk37 (v303 : BitVec 32) : Prop :=
  (∀ a, (k0_off50 v303) a + S1x64.size a ≤ S1000000x64.size a)
instance k0_chk37.dec : ∀ (v303 : BitVec 32), Decidable (k0_chk37 v303) := fun v303 => decidable_of_iff' _ (Iff.of_eq (k0_chk37.eq_1 v303))
theorem k0_off50_inb : ∀ (v303 : BitVec 32) (k0_hw37 : k0_chk37 v303), ∀ a, (k0_off50 v303) a + S1x64.size a ≤ S1000000x64.size a := fun v303 k0_hw37 => k0_hw37

def k0_off51 (v305 : BitVec 32) : Fin 2 → Nat :=
  let c0_i32_75 : BitVec 32 := 0#32
  ![v305.toNat, 0]

def k0_chk38 (v305 : BitVec 32) : Prop :=
  (∀ a, (k0_off51 v305) a + S1x64.size a ≤ S500000x64.size a)
instance k0_chk38.dec : ∀ (v305 : BitVec 32), Decidable (k0_chk38 v305) := fun v305 => decidable_of_iff' _ (Iff.of_eq (k0_chk38.eq_1 v305))
theorem k0_off51_inb : ∀ (v305 : BitVec 32) (k0_hw38 : k0_chk38 v305), ∀ a, (k0_off51 v305) a + S1x64.size a ≤ S500000x64.size a := fun v305 k0_hw38 => k0_hw38

def k0_off52 (v307 : BitVec 32) : Fin 2 → Nat :=
  let c0_i32_77 : BitVec 32 := 0#32
  ![v307.toNat, 0]

def k0_chk39 (v307 : BitVec 32) : Prop :=
  (∀ a, (k0_off52 v307) a + S1x64.size a ≤ S500000x64.size a)
instance k0_chk39.dec : ∀ (v307 : BitVec 32), Decidable (k0_chk39 v307) := fun v307 => decidable_of_iff' _ (Iff.of_eq (k0_chk39.eq_1 v307))
theorem k0_off52_inb : ∀ (v307 : BitVec 32) (k0_hw39 : k0_chk39 v307), ∀ a, (k0_off52 v307) a + S1x64.size a ≤ S500000x64.size a := fun v307 k0_hw39 => k0_hw39

def k0_off53 (i : grid0.Coords) : Fin 1 → Nat :=
  let arg0 : BitVec 32 := BitVec.ofNat 32 (i 0).val
  let c128_i32 : BitVec 32 := 128#32
  let v0 : BitVec 32 := Scalar.muli arg0 c128_i32
  let c13_i32 : BitVec 32 := 13#32
  let v326 : BitVec 32 := Scalar.addi v0 c13_i32
  let v327 : Index := Scalar.indexCast v326
  ![v327.toNat]
def k0_off54 (v328 : BitVec 32) : Fin 2 → Nat :=
  let c0_i32_79 : BitVec 32 := 0#32
  ![v328.toNat, 0]

def k0_chk40 (v328 : BitVec 32) : Prop :=
  (∀ a, (k0_off54 v328) a + S1x64.size a ≤ S1000000x64.size a)
instance k0_chk40.dec : ∀ (v328 : BitVec 32), Decidable (k0_chk40 v328) := fun v328 => decidable_of_iff' _ (Iff.of_eq (k0_chk40.eq_1 v328))
theorem k0_off54_inb : ∀ (v328 : BitVec 32) (k0_hw40 : k0_chk40 v328), ∀ a, (k0_off54 v328) a + S1x64.size a ≤ S1000000x64.size a := fun v328 k0_hw40 => k0_hw40

def k0_off55 (v330 : BitVec 32) : Fin 2 → Nat :=
  let c0_i32_81 : BitVec 32 := 0#32
  ![v330.toNat, 0]

def k0_chk41 (v330 : BitVec 32) : Prop :=
  (∀ a, (k0_off55 v330) a + S1x64.size a ≤ S500000x64.size a)
instance k0_chk41.dec : ∀ (v330 : BitVec 32), Decidable (k0_chk41 v330) := fun v330 => decidable_of_iff' _ (Iff.of_eq (k0_chk41.eq_1 v330))
theorem k0_off55_inb : ∀ (v330 : BitVec 32) (k0_hw41 : k0_chk41 v330), ∀ a, (k0_off55 v330) a + S1x64.size a ≤ S500000x64.size a := fun v330 k0_hw41 => k0_hw41

def k0_off56 (v332 : BitVec 32) : Fin 2 → Nat :=
  let c0_i32_83 : BitVec 32 := 0#32
  ![v332.toNat, 0]

def k0_chk42 (v332 : BitVec 32) : Prop :=
  (∀ a, (k0_off56 v332) a + S1x64.size a ≤ S500000x64.size a)
instance k0_chk42.dec : ∀ (v332 : BitVec 32), Decidable (k0_chk42 v332) := fun v332 => decidable_of_iff' _ (Iff.of_eq (k0_chk42.eq_1 v332))
theorem k0_off56_inb : ∀ (v332 : BitVec 32) (k0_hw42 : k0_chk42 v332), ∀ a, (k0_off56 v332) a + S1x64.size a ≤ S500000x64.size a := fun v332 k0_hw42 => k0_hw42

def k0_off57 (i : grid0.Coords) : Fin 1 → Nat :=
  let arg0 : BitVec 32 := BitVec.ofNat 32 (i 0).val
  let c128_i32 : BitVec 32 := 128#32
  let v0 : BitVec 32 := Scalar.muli arg0 c128_i32
  let c14_i32 : BitVec 32 := 14#32
  let v351 : BitVec 32 := Scalar.addi v0 c14_i32
  let v352 : Index := Scalar.indexCast v351
  ![v352.toNat]
def k0_off58 (v353 : BitVec 32) : Fin 2 → Nat :=
  let c0_i32_85 : BitVec 32 := 0#32
  ![v353.toNat, 0]

def k0_chk43 (v353 : BitVec 32) : Prop :=
  (∀ a, (k0_off58 v353) a + S1x64.size a ≤ S1000000x64.size a)
instance k0_chk43.dec : ∀ (v353 : BitVec 32), Decidable (k0_chk43 v353) := fun v353 => decidable_of_iff' _ (Iff.of_eq (k0_chk43.eq_1 v353))
theorem k0_off58_inb : ∀ (v353 : BitVec 32) (k0_hw43 : k0_chk43 v353), ∀ a, (k0_off58 v353) a + S1x64.size a ≤ S1000000x64.size a := fun v353 k0_hw43 => k0_hw43

def k0_off59 (v355 : BitVec 32) : Fin 2 → Nat :=
  let c0_i32_87 : BitVec 32 := 0#32
  ![v355.toNat, 0]

def k0_chk44 (v355 : BitVec 32) : Prop :=
  (∀ a, (k0_off59 v355) a + S1x64.size a ≤ S500000x64.size a)
instance k0_chk44.dec : ∀ (v355 : BitVec 32), Decidable (k0_chk44 v355) := fun v355 => decidable_of_iff' _ (Iff.of_eq (k0_chk44.eq_1 v355))
theorem k0_off59_inb : ∀ (v355 : BitVec 32) (k0_hw44 : k0_chk44 v355), ∀ a, (k0_off59 v355) a + S1x64.size a ≤ S500000x64.size a := fun v355 k0_hw44 => k0_hw44

def k0_off60 (v357 : BitVec 32) : Fin 2 → Nat :=
  let c0_i32_89 : BitVec 32 := 0#32
  ![v357.toNat, 0]

def k0_chk45 (v357 : BitVec 32) : Prop :=
  (∀ a, (k0_off60 v357) a + S1x64.size a ≤ S500000x64.size a)
instance k0_chk45.dec : ∀ (v357 : BitVec 32), Decidable (k0_chk45 v357) := fun v357 => decidable_of_iff' _ (Iff.of_eq (k0_chk45.eq_1 v357))
theorem k0_off60_inb : ∀ (v357 : BitVec 32) (k0_hw45 : k0_chk45 v357), ∀ a, (k0_off60 v357) a + S1x64.size a ≤ S500000x64.size a := fun v357 k0_hw45 => k0_hw45

def k0_off61 (i : grid0.Coords) : Fin 1 → Nat :=
  let arg0 : BitVec 32 := BitVec.ofNat 32 (i 0).val
  let c128_i32 : BitVec 32 := 128#32
  let v0 : BitVec 32 := Scalar.muli arg0 c128_i32
  let c15_i32 : BitVec 32 := 15#32
  let v376 : BitVec 32 := Scalar.addi v0 c15_i32
  let v377 : Index := Scalar.indexCast v376
  ![v377.toNat]
def k0_off62 (v378 : BitVec 32) : Fin 2 → Nat :=
  let c0_i32_91 : BitVec 32 := 0#32
  ![v378.toNat, 0]

def k0_chk46 (v378 : BitVec 32) : Prop :=
  (∀ a, (k0_off62 v378) a + S1x64.size a ≤ S1000000x64.size a)
instance k0_chk46.dec : ∀ (v378 : BitVec 32), Decidable (k0_chk46 v378) := fun v378 => decidable_of_iff' _ (Iff.of_eq (k0_chk46.eq_1 v378))
theorem k0_off62_inb : ∀ (v378 : BitVec 32) (k0_hw46 : k0_chk46 v378), ∀ a, (k0_off62 v378) a + S1x64.size a ≤ S1000000x64.size a := fun v378 k0_hw46 => k0_hw46

def k0_off63 (v380 : BitVec 32) : Fin 2 → Nat :=
  let c0_i32_93 : BitVec 32 := 0#32
  ![v380.toNat, 0]

def k0_chk47 (v380 : BitVec 32) : Prop :=
  (∀ a, (k0_off63 v380) a + S1x64.size a ≤ S500000x64.size a)
instance k0_chk47.dec : ∀ (v380 : BitVec 32), Decidable (k0_chk47 v380) := fun v380 => decidable_of_iff' _ (Iff.of_eq (k0_chk47.eq_1 v380))
theorem k0_off63_inb : ∀ (v380 : BitVec 32) (k0_hw47 : k0_chk47 v380), ∀ a, (k0_off63 v380) a + S1x64.size a ≤ S500000x64.size a := fun v380 k0_hw47 => k0_hw47

def k0_off64 (v382 : BitVec 32) : Fin 2 → Nat :=
  let c0_i32_95 : BitVec 32 := 0#32
  ![v382.toNat, 0]

def k0_chk48 (v382 : BitVec 32) : Prop :=
  (∀ a, (k0_off64 v382) a + S1x64.size a ≤ S500000x64.size a)
instance k0_chk48.dec : ∀ (v382 : BitVec 32), Decidable (k0_chk48 v382) := fun v382 => decidable_of_iff' _ (Iff.of_eq (k0_chk48.eq_1 v382))
theorem k0_off64_inb : ∀ (v382 : BitVec 32) (k0_hw48 : k0_chk48 v382), ∀ a, (k0_off64 v382) a + S1x64.size a ≤ S500000x64.size a := fun v382 k0_hw48 => k0_hw48

def k0_off65 (i : grid0.Coords) : Fin 1 → Nat :=
  let arg0 : BitVec 32 := BitVec.ofNat 32 (i 0).val
  let c128_i32 : BitVec 32 := 128#32
  let v0 : BitVec 32 := Scalar.muli arg0 c128_i32
  let c16_i32 : BitVec 32 := 16#32
  let v401 : BitVec 32 := Scalar.addi v0 c16_i32
  let v402 : Index := Scalar.indexCast v401
  ![v402.toNat]
def k0_off66 (v403 : BitVec 32) : Fin 2 → Nat :=
  let c0_i32_97 : BitVec 32 := 0#32
  ![v403.toNat, 0]

def k0_chk49 (v403 : BitVec 32) : Prop :=
  (∀ a, (k0_off66 v403) a + S1x64.size a ≤ S1000000x64.size a)
instance k0_chk49.dec : ∀ (v403 : BitVec 32), Decidable (k0_chk49 v403) := fun v403 => decidable_of_iff' _ (Iff.of_eq (k0_chk49.eq_1 v403))
theorem k0_off66_inb : ∀ (v403 : BitVec 32) (k0_hw49 : k0_chk49 v403), ∀ a, (k0_off66 v403) a + S1x64.size a ≤ S1000000x64.size a := fun v403 k0_hw49 => k0_hw49

def k0_off67 (v405 : BitVec 32) : Fin 2 → Nat :=
  let c0_i32_99 : BitVec 32 := 0#32
  ![v405.toNat, 0]

def k0_chk50 (v405 : BitVec 32) : Prop :=
  (∀ a, (k0_off67 v405) a + S1x64.size a ≤ S500000x64.size a)
instance k0_chk50.dec : ∀ (v405 : BitVec 32), Decidable (k0_chk50 v405) := fun v405 => decidable_of_iff' _ (Iff.of_eq (k0_chk50.eq_1 v405))
theorem k0_off67_inb : ∀ (v405 : BitVec 32) (k0_hw50 : k0_chk50 v405), ∀ a, (k0_off67 v405) a + S1x64.size a ≤ S500000x64.size a := fun v405 k0_hw50 => k0_hw50

def k0_off68 (v407 : BitVec 32) : Fin 2 → Nat :=
  let c0_i32_101 : BitVec 32 := 0#32
  ![v407.toNat, 0]

def k0_chk51 (v407 : BitVec 32) : Prop :=
  (∀ a, (k0_off68 v407) a + S1x64.size a ≤ S500000x64.size a)
instance k0_chk51.dec : ∀ (v407 : BitVec 32), Decidable (k0_chk51 v407) := fun v407 => decidable_of_iff' _ (Iff.of_eq (k0_chk51.eq_1 v407))
theorem k0_off68_inb : ∀ (v407 : BitVec 32) (k0_hw51 : k0_chk51 v407), ∀ a, (k0_off68 v407) a + S1x64.size a ≤ S500000x64.size a := fun v407 k0_hw51 => k0_hw51

def k0_off69 (i : grid0.Coords) : Fin 1 → Nat :=
  let arg0 : BitVec 32 := BitVec.ofNat 32 (i 0).val
  let c128_i32 : BitVec 32 := 128#32
  let v0 : BitVec 32 := Scalar.muli arg0 c128_i32
  let c17_i32 : BitVec 32 := 17#32
  let v426 : BitVec 32 := Scalar.addi v0 c17_i32
  let v427 : Index := Scalar.indexCast v426
  ![v427.toNat]
def k0_off70 (v428 : BitVec 32) : Fin 2 → Nat :=
  let c0_i32_103 : BitVec 32 := 0#32
  ![v428.toNat, 0]

def k0_chk52 (v428 : BitVec 32) : Prop :=
  (∀ a, (k0_off70 v428) a + S1x64.size a ≤ S1000000x64.size a)
instance k0_chk52.dec : ∀ (v428 : BitVec 32), Decidable (k0_chk52 v428) := fun v428 => decidable_of_iff' _ (Iff.of_eq (k0_chk52.eq_1 v428))
theorem k0_off70_inb : ∀ (v428 : BitVec 32) (k0_hw52 : k0_chk52 v428), ∀ a, (k0_off70 v428) a + S1x64.size a ≤ S1000000x64.size a := fun v428 k0_hw52 => k0_hw52

def k0_off71 (v430 : BitVec 32) : Fin 2 → Nat :=
  let c0_i32_105 : BitVec 32 := 0#32
  ![v430.toNat, 0]

def k0_chk53 (v430 : BitVec 32) : Prop :=
  (∀ a, (k0_off71 v430) a + S1x64.size a ≤ S500000x64.size a)
instance k0_chk53.dec : ∀ (v430 : BitVec 32), Decidable (k0_chk53 v430) := fun v430 => decidable_of_iff' _ (Iff.of_eq (k0_chk53.eq_1 v430))
theorem k0_off71_inb : ∀ (v430 : BitVec 32) (k0_hw53 : k0_chk53 v430), ∀ a, (k0_off71 v430) a + S1x64.size a ≤ S500000x64.size a := fun v430 k0_hw53 => k0_hw53

def k0_off72 (v432 : BitVec 32) : Fin 2 → Nat :=
  let c0_i32_107 : BitVec 32 := 0#32
  ![v432.toNat, 0]

def k0_chk54 (v432 : BitVec 32) : Prop :=
  (∀ a, (k0_off72 v432) a + S1x64.size a ≤ S500000x64.size a)
instance k0_chk54.dec : ∀ (v432 : BitVec 32), Decidable (k0_chk54 v432) := fun v432 => decidable_of_iff' _ (Iff.of_eq (k0_chk54.eq_1 v432))
theorem k0_off72_inb : ∀ (v432 : BitVec 32) (k0_hw54 : k0_chk54 v432), ∀ a, (k0_off72 v432) a + S1x64.size a ≤ S500000x64.size a := fun v432 k0_hw54 => k0_hw54

def k0_off73 (i : grid0.Coords) : Fin 1 → Nat :=
  let arg0 : BitVec 32 := BitVec.ofNat 32 (i 0).val
  let c128_i32 : BitVec 32 := 128#32
  let v0 : BitVec 32 := Scalar.muli arg0 c128_i32
  let c18_i32 : BitVec 32 := 18#32
  let v451 : BitVec 32 := Scalar.addi v0 c18_i32
  let v452 : Index := Scalar.indexCast v451
  ![v452.toNat]
def k0_off74 (v453 : BitVec 32) : Fin 2 → Nat :=
  let c0_i32_109 : BitVec 32 := 0#32
  ![v453.toNat, 0]

def k0_chk55 (v453 : BitVec 32) : Prop :=
  (∀ a, (k0_off74 v453) a + S1x64.size a ≤ S1000000x64.size a)
instance k0_chk55.dec : ∀ (v453 : BitVec 32), Decidable (k0_chk55 v453) := fun v453 => decidable_of_iff' _ (Iff.of_eq (k0_chk55.eq_1 v453))
theorem k0_off74_inb : ∀ (v453 : BitVec 32) (k0_hw55 : k0_chk55 v453), ∀ a, (k0_off74 v453) a + S1x64.size a ≤ S1000000x64.size a := fun v453 k0_hw55 => k0_hw55

def k0_off75 (v455 : BitVec 32) : Fin 2 → Nat :=
  let c0_i32_111 : BitVec 32 := 0#32
  ![v455.toNat, 0]

def k0_chk56 (v455 : BitVec 32) : Prop :=
  (∀ a, (k0_off75 v455) a + S1x64.size a ≤ S500000x64.size a)
instance k0_chk56.dec : ∀ (v455 : BitVec 32), Decidable (k0_chk56 v455) := fun v455 => decidable_of_iff' _ (Iff.of_eq (k0_chk56.eq_1 v455))
theorem k0_off75_inb : ∀ (v455 : BitVec 32) (k0_hw56 : k0_chk56 v455), ∀ a, (k0_off75 v455) a + S1x64.size a ≤ S500000x64.size a := fun v455 k0_hw56 => k0_hw56

def k0_off76 (v457 : BitVec 32) : Fin 2 → Nat :=
  let c0_i32_113 : BitVec 32 := 0#32
  ![v457.toNat, 0]

def k0_chk57 (v457 : BitVec 32) : Prop :=
  (∀ a, (k0_off76 v457) a + S1x64.size a ≤ S500000x64.size a)
instance k0_chk57.dec : ∀ (v457 : BitVec 32), Decidable (k0_chk57 v457) := fun v457 => decidable_of_iff' _ (Iff.of_eq (k0_chk57.eq_1 v457))
theorem k0_off76_inb : ∀ (v457 : BitVec 32) (k0_hw57 : k0_chk57 v457), ∀ a, (k0_off76 v457) a + S1x64.size a ≤ S500000x64.size a := fun v457 k0_hw57 => k0_hw57

def k0_off77 (i : grid0.Coords) : Fin 1 → Nat :=
  let arg0 : BitVec 32 := BitVec.ofNat 32 (i 0).val
  let c128_i32 : BitVec 32 := 128#32
  let v0 : BitVec 32 := Scalar.muli arg0 c128_i32
  let c19_i32 : BitVec 32 := 19#32
  let v476 : BitVec 32 := Scalar.addi v0 c19_i32
  let v477 : Index := Scalar.indexCast v476
  ![v477.toNat]
def k0_off78 (v478 : BitVec 32) : Fin 2 → Nat :=
  let c0_i32_115 : BitVec 32 := 0#32
  ![v478.toNat, 0]

def k0_chk58 (v478 : BitVec 32) : Prop :=
  (∀ a, (k0_off78 v478) a + S1x64.size a ≤ S1000000x64.size a)
instance k0_chk58.dec : ∀ (v478 : BitVec 32), Decidable (k0_chk58 v478) := fun v478 => decidable_of_iff' _ (Iff.of_eq (k0_chk58.eq_1 v478))
theorem k0_off78_inb : ∀ (v478 : BitVec 32) (k0_hw58 : k0_chk58 v478), ∀ a, (k0_off78 v478) a + S1x64.size a ≤ S1000000x64.size a := fun v478 k0_hw58 => k0_hw58

def k0_off79 (v480 : BitVec 32) : Fin 2 → Nat :=
  let c0_i32_117 : BitVec 32 := 0#32
  ![v480.toNat, 0]

def k0_chk59 (v480 : BitVec 32) : Prop :=
  (∀ a, (k0_off79 v480) a + S1x64.size a ≤ S500000x64.size a)
instance k0_chk59.dec : ∀ (v480 : BitVec 32), Decidable (k0_chk59 v480) := fun v480 => decidable_of_iff' _ (Iff.of_eq (k0_chk59.eq_1 v480))
theorem k0_off79_inb : ∀ (v480 : BitVec 32) (k0_hw59 : k0_chk59 v480), ∀ a, (k0_off79 v480) a + S1x64.size a ≤ S500000x64.size a := fun v480 k0_hw59 => k0_hw59

def k0_off80 (v482 : BitVec 32) : Fin 2 → Nat :=
  let c0_i32_119 : BitVec 32 := 0#32
  ![v482.toNat, 0]

def k0_chk60 (v482 : BitVec 32) : Prop :=
  (∀ a, (k0_off80 v482) a + S1x64.size a ≤ S500000x64.size a)
instance k0_chk60.dec : ∀ (v482 : BitVec 32), Decidable (k0_chk60 v482) := fun v482 => decidable_of_iff' _ (Iff.of_eq (k0_chk60.eq_1 v482))
theorem k0_off80_inb : ∀ (v482 : BitVec 32) (k0_hw60 : k0_chk60 v482), ∀ a, (k0_off80 v482) a + S1x64.size a ≤ S500000x64.size a := fun v482 k0_hw60 => k0_hw60

def k0_off81 (i : grid0.Coords) : Fin 1 → Nat :=
  let arg0 : BitVec 32 := BitVec.ofNat 32 (i 0).val
  let c128_i32 : BitVec 32 := 128#32
  let v0 : BitVec 32 := Scalar.muli arg0 c128_i32
  let c20_i32 : BitVec 32 := 20#32
  let v501 : BitVec 32 := Scalar.addi v0 c20_i32
  let v502 : Index := Scalar.indexCast v501
  ![v502.toNat]
def k0_off82 (v503 : BitVec 32) : Fin 2 → Nat :=
  let c0_i32_121 : BitVec 32 := 0#32
  ![v503.toNat, 0]

def k0_chk61 (v503 : BitVec 32) : Prop :=
  (∀ a, (k0_off82 v503) a + S1x64.size a ≤ S1000000x64.size a)
instance k0_chk61.dec : ∀ (v503 : BitVec 32), Decidable (k0_chk61 v503) := fun v503 => decidable_of_iff' _ (Iff.of_eq (k0_chk61.eq_1 v503))
theorem k0_off82_inb : ∀ (v503 : BitVec 32) (k0_hw61 : k0_chk61 v503), ∀ a, (k0_off82 v503) a + S1x64.size a ≤ S1000000x64.size a := fun v503 k0_hw61 => k0_hw61

def k0_off83 (v505 : BitVec 32) : Fin 2 → Nat :=
  let c0_i32_123 : BitVec 32 := 0#32
  ![v505.toNat, 0]

def k0_chk62 (v505 : BitVec 32) : Prop :=
  (∀ a, (k0_off83 v505) a + S1x64.size a ≤ S500000x64.size a)
instance k0_chk62.dec : ∀ (v505 : BitVec 32), Decidable (k0_chk62 v505) := fun v505 => decidable_of_iff' _ (Iff.of_eq (k0_chk62.eq_1 v505))
theorem k0_off83_inb : ∀ (v505 : BitVec 32) (k0_hw62 : k0_chk62 v505), ∀ a, (k0_off83 v505) a + S1x64.size a ≤ S500000x64.size a := fun v505 k0_hw62 => k0_hw62

def k0_off84 (v507 : BitVec 32) : Fin 2 → Nat :=
  let c0_i32_125 : BitVec 32 := 0#32
  ![v507.toNat, 0]

def k0_chk63 (v507 : BitVec 32) : Prop :=
  (∀ a, (k0_off84 v507) a + S1x64.size a ≤ S500000x64.size a)
instance k0_chk63.dec : ∀ (v507 : BitVec 32), Decidable (k0_chk63 v507) := fun v507 => decidable_of_iff' _ (Iff.of_eq (k0_chk63.eq_1 v507))
theorem k0_off84_inb : ∀ (v507 : BitVec 32) (k0_hw63 : k0_chk63 v507), ∀ a, (k0_off84 v507) a + S1x64.size a ≤ S500000x64.size a := fun v507 k0_hw63 => k0_hw63

def k0_off85 (i : grid0.Coords) : Fin 1 → Nat :=
  let arg0 : BitVec 32 := BitVec.ofNat 32 (i 0).val
  let c128_i32 : BitVec 32 := 128#32
  let v0 : BitVec 32 := Scalar.muli arg0 c128_i32
  let c21_i32 : BitVec 32 := 21#32
  let v526 : BitVec 32 := Scalar.addi v0 c21_i32
  let v527 : Index := Scalar.indexCast v526
  ![v527.toNat]
def k0_off86 (v528 : BitVec 32) : Fin 2 → Nat :=
  let c0_i32_127 : BitVec 32 := 0#32
  ![v528.toNat, 0]

def k0_chk64 (v528 : BitVec 32) : Prop :=
  (∀ a, (k0_off86 v528) a + S1x64.size a ≤ S1000000x64.size a)
instance k0_chk64.dec : ∀ (v528 : BitVec 32), Decidable (k0_chk64 v528) := fun v528 => decidable_of_iff' _ (Iff.of_eq (k0_chk64.eq_1 v528))
theorem k0_off86_inb : ∀ (v528 : BitVec 32) (k0_hw64 : k0_chk64 v528), ∀ a, (k0_off86 v528) a + S1x64.size a ≤ S1000000x64.size a := fun v528 k0_hw64 => k0_hw64

def k0_off87 (v530 : BitVec 32) : Fin 2 → Nat :=
  let c0_i32_129 : BitVec 32 := 0#32
  ![v530.toNat, 0]

def k0_chk65 (v530 : BitVec 32) : Prop :=
  (∀ a, (k0_off87 v530) a + S1x64.size a ≤ S500000x64.size a)
instance k0_chk65.dec : ∀ (v530 : BitVec 32), Decidable (k0_chk65 v530) := fun v530 => decidable_of_iff' _ (Iff.of_eq (k0_chk65.eq_1 v530))
theorem k0_off87_inb : ∀ (v530 : BitVec 32) (k0_hw65 : k0_chk65 v530), ∀ a, (k0_off87 v530) a + S1x64.size a ≤ S500000x64.size a := fun v530 k0_hw65 => k0_hw65

def k0_off88 (v532 : BitVec 32) : Fin 2 → Nat :=
  let c0_i32_131 : BitVec 32 := 0#32
  ![v532.toNat, 0]

def k0_chk66 (v532 : BitVec 32) : Prop :=
  (∀ a, (k0_off88 v532) a + S1x64.size a ≤ S500000x64.size a)
instance k0_chk66.dec : ∀ (v532 : BitVec 32), Decidable (k0_chk66 v532) := fun v532 => decidable_of_iff' _ (Iff.of_eq (k0_chk66.eq_1 v532))
theorem k0_off88_inb : ∀ (v532 : BitVec 32) (k0_hw66 : k0_chk66 v532), ∀ a, (k0_off88 v532) a + S1x64.size a ≤ S500000x64.size a := fun v532 k0_hw66 => k0_hw66

def k0_off89 (i : grid0.Coords) : Fin 1 → Nat :=
  let arg0 : BitVec 32 := BitVec.ofNat 32 (i 0).val
  let c128_i32 : BitVec 32 := 128#32
  let v0 : BitVec 32 := Scalar.muli arg0 c128_i32
  let c22_i32 : BitVec 32 := 22#32
  let v551 : BitVec 32 := Scalar.addi v0 c22_i32
  let v552 : Index := Scalar.indexCast v551
  ![v552.toNat]
def k0_off90 (v553 : BitVec 32) : Fin 2 → Nat :=
  let c0_i32_133 : BitVec 32 := 0#32
  ![v553.toNat, 0]

def k0_chk67 (v553 : BitVec 32) : Prop :=
  (∀ a, (k0_off90 v553) a + S1x64.size a ≤ S1000000x64.size a)
instance k0_chk67.dec : ∀ (v553 : BitVec 32), Decidable (k0_chk67 v553) := fun v553 => decidable_of_iff' _ (Iff.of_eq (k0_chk67.eq_1 v553))
theorem k0_off90_inb : ∀ (v553 : BitVec 32) (k0_hw67 : k0_chk67 v553), ∀ a, (k0_off90 v553) a + S1x64.size a ≤ S1000000x64.size a := fun v553 k0_hw67 => k0_hw67

def k0_off91 (v555 : BitVec 32) : Fin 2 → Nat :=
  let c0_i32_135 : BitVec 32 := 0#32
  ![v555.toNat, 0]

def k0_chk68 (v555 : BitVec 32) : Prop :=
  (∀ a, (k0_off91 v555) a + S1x64.size a ≤ S500000x64.size a)
instance k0_chk68.dec : ∀ (v555 : BitVec 32), Decidable (k0_chk68 v555) := fun v555 => decidable_of_iff' _ (Iff.of_eq (k0_chk68.eq_1 v555))
theorem k0_off91_inb : ∀ (v555 : BitVec 32) (k0_hw68 : k0_chk68 v555), ∀ a, (k0_off91 v555) a + S1x64.size a ≤ S500000x64.size a := fun v555 k0_hw68 => k0_hw68

def k0_off92 (v557 : BitVec 32) : Fin 2 → Nat :=
  let c0_i32_137 : BitVec 32 := 0#32
  ![v557.toNat, 0]

def k0_chk69 (v557 : BitVec 32) : Prop :=
  (∀ a, (k0_off92 v557) a + S1x64.size a ≤ S500000x64.size a)
instance k0_chk69.dec : ∀ (v557 : BitVec 32), Decidable (k0_chk69 v557) := fun v557 => decidable_of_iff' _ (Iff.of_eq (k0_chk69.eq_1 v557))
theorem k0_off92_inb : ∀ (v557 : BitVec 32) (k0_hw69 : k0_chk69 v557), ∀ a, (k0_off92 v557) a + S1x64.size a ≤ S500000x64.size a := fun v557 k0_hw69 => k0_hw69

def k0_off93 (i : grid0.Coords) : Fin 1 → Nat :=
  let arg0 : BitVec 32 := BitVec.ofNat 32 (i 0).val
  let c128_i32 : BitVec 32 := 128#32
  let v0 : BitVec 32 := Scalar.muli arg0 c128_i32
  let c23_i32 : BitVec 32 := 23#32
  let v576 : BitVec 32 := Scalar.addi v0 c23_i32
  let v577 : Index := Scalar.indexCast v576
  ![v577.toNat]
def k0_off94 (v578 : BitVec 32) : Fin 2 → Nat :=
  let c0_i32_139 : BitVec 32 := 0#32
  ![v578.toNat, 0]

def k0_chk70 (v578 : BitVec 32) : Prop :=
  (∀ a, (k0_off94 v578) a + S1x64.size a ≤ S1000000x64.size a)
instance k0_chk70.dec : ∀ (v578 : BitVec 32), Decidable (k0_chk70 v578) := fun v578 => decidable_of_iff' _ (Iff.of_eq (k0_chk70.eq_1 v578))
theorem k0_off94_inb : ∀ (v578 : BitVec 32) (k0_hw70 : k0_chk70 v578), ∀ a, (k0_off94 v578) a + S1x64.size a ≤ S1000000x64.size a := fun v578 k0_hw70 => k0_hw70

def k0_off95 (v580 : BitVec 32) : Fin 2 → Nat :=
  let c0_i32_141 : BitVec 32 := 0#32
  ![v580.toNat, 0]

def k0_chk71 (v580 : BitVec 32) : Prop :=
  (∀ a, (k0_off95 v580) a + S1x64.size a ≤ S500000x64.size a)
instance k0_chk71.dec : ∀ (v580 : BitVec 32), Decidable (k0_chk71 v580) := fun v580 => decidable_of_iff' _ (Iff.of_eq (k0_chk71.eq_1 v580))
theorem k0_off95_inb : ∀ (v580 : BitVec 32) (k0_hw71 : k0_chk71 v580), ∀ a, (k0_off95 v580) a + S1x64.size a ≤ S500000x64.size a := fun v580 k0_hw71 => k0_hw71

def k0_off96 (v582 : BitVec 32) : Fin 2 → Nat :=
  let c0_i32_143 : BitVec 32 := 0#32
  ![v582.toNat, 0]

def k0_chk72 (v582 : BitVec 32) : Prop :=
  (∀ a, (k0_off96 v582) a + S1x64.size a ≤ S500000x64.size a)
instance k0_chk72.dec : ∀ (v582 : BitVec 32), Decidable (k0_chk72 v582) := fun v582 => decidable_of_iff' _ (Iff.of_eq (k0_chk72.eq_1 v582))
theorem k0_off96_inb : ∀ (v582 : BitVec 32) (k0_hw72 : k0_chk72 v582), ∀ a, (k0_off96 v582) a + S1x64.size a ≤ S500000x64.size a := fun v582 k0_hw72 => k0_hw72

def k0_off97 (i : grid0.Coords) : Fin 1 → Nat :=
  let arg0 : BitVec 32 := BitVec.ofNat 32 (i 0).val
  let c128_i32 : BitVec 32 := 128#32
  let v0 : BitVec 32 := Scalar.muli arg0 c128_i32
  let c24_i32 : BitVec 32 := 24#32
  let v601 : BitVec 32 := Scalar.addi v0 c24_i32
  let v602 : Index := Scalar.indexCast v601
  ![v602.toNat]
def k0_off98 (v603 : BitVec 32) : Fin 2 → Nat :=
  let c0_i32_145 : BitVec 32 := 0#32
  ![v603.toNat, 0]

def k0_chk73 (v603 : BitVec 32) : Prop :=
  (∀ a, (k0_off98 v603) a + S1x64.size a ≤ S1000000x64.size a)
instance k0_chk73.dec : ∀ (v603 : BitVec 32), Decidable (k0_chk73 v603) := fun v603 => decidable_of_iff' _ (Iff.of_eq (k0_chk73.eq_1 v603))
theorem k0_off98_inb : ∀ (v603 : BitVec 32) (k0_hw73 : k0_chk73 v603), ∀ a, (k0_off98 v603) a + S1x64.size a ≤ S1000000x64.size a := fun v603 k0_hw73 => k0_hw73

def k0_off99 (v605 : BitVec 32) : Fin 2 → Nat :=
  let c0_i32_147 : BitVec 32 := 0#32
  ![v605.toNat, 0]

def k0_chk74 (v605 : BitVec 32) : Prop :=
  (∀ a, (k0_off99 v605) a + S1x64.size a ≤ S500000x64.size a)
instance k0_chk74.dec : ∀ (v605 : BitVec 32), Decidable (k0_chk74 v605) := fun v605 => decidable_of_iff' _ (Iff.of_eq (k0_chk74.eq_1 v605))
theorem k0_off99_inb : ∀ (v605 : BitVec 32) (k0_hw74 : k0_chk74 v605), ∀ a, (k0_off99 v605) a + S1x64.size a ≤ S500000x64.size a := fun v605 k0_hw74 => k0_hw74

def k0_off100 (v607 : BitVec 32) : Fin 2 → Nat :=
  let c0_i32_149 : BitVec 32 := 0#32
  ![v607.toNat, 0]

def k0_chk75 (v607 : BitVec 32) : Prop :=
  (∀ a, (k0_off100 v607) a + S1x64.size a ≤ S500000x64.size a)
instance k0_chk75.dec : ∀ (v607 : BitVec 32), Decidable (k0_chk75 v607) := fun v607 => decidable_of_iff' _ (Iff.of_eq (k0_chk75.eq_1 v607))
theorem k0_off100_inb : ∀ (v607 : BitVec 32) (k0_hw75 : k0_chk75 v607), ∀ a, (k0_off100 v607) a + S1x64.size a ≤ S500000x64.size a := fun v607 k0_hw75 => k0_hw75

def k0_off101 (i : grid0.Coords) : Fin 1 → Nat :=
  let arg0 : BitVec 32 := BitVec.ofNat 32 (i 0).val
  let c128_i32 : BitVec 32 := 128#32
  let v0 : BitVec 32 := Scalar.muli arg0 c128_i32
  let c25_i32 : BitVec 32 := 25#32
  let v626 : BitVec 32 := Scalar.addi v0 c25_i32
  let v627 : Index := Scalar.indexCast v626
  ![v627.toNat]
def k0_off102 (v628 : BitVec 32) : Fin 2 → Nat :=
  let c0_i32_151 : BitVec 32 := 0#32
  ![v628.toNat, 0]

def k0_chk76 (v628 : BitVec 32) : Prop :=
  (∀ a, (k0_off102 v628) a + S1x64.size a ≤ S1000000x64.size a)
instance k0_chk76.dec : ∀ (v628 : BitVec 32), Decidable (k0_chk76 v628) := fun v628 => decidable_of_iff' _ (Iff.of_eq (k0_chk76.eq_1 v628))
theorem k0_off102_inb : ∀ (v628 : BitVec 32) (k0_hw76 : k0_chk76 v628), ∀ a, (k0_off102 v628) a + S1x64.size a ≤ S1000000x64.size a := fun v628 k0_hw76 => k0_hw76

def k0_off103 (v630 : BitVec 32) : Fin 2 → Nat :=
  let c0_i32_153 : BitVec 32 := 0#32
  ![v630.toNat, 0]

def k0_chk77 (v630 : BitVec 32) : Prop :=
  (∀ a, (k0_off103 v630) a + S1x64.size a ≤ S500000x64.size a)
instance k0_chk77.dec : ∀ (v630 : BitVec 32), Decidable (k0_chk77 v630) := fun v630 => decidable_of_iff' _ (Iff.of_eq (k0_chk77.eq_1 v630))
theorem k0_off103_inb : ∀ (v630 : BitVec 32) (k0_hw77 : k0_chk77 v630), ∀ a, (k0_off103 v630) a + S1x64.size a ≤ S500000x64.size a := fun v630 k0_hw77 => k0_hw77

def k0_off104 (v632 : BitVec 32) : Fin 2 → Nat :=
  let c0_i32_155 : BitVec 32 := 0#32
  ![v632.toNat, 0]

def k0_chk78 (v632 : BitVec 32) : Prop :=
  (∀ a, (k0_off104 v632) a + S1x64.size a ≤ S500000x64.size a)
instance k0_chk78.dec : ∀ (v632 : BitVec 32), Decidable (k0_chk78 v632) := fun v632 => decidable_of_iff' _ (Iff.of_eq (k0_chk78.eq_1 v632))
theorem k0_off104_inb : ∀ (v632 : BitVec 32) (k0_hw78 : k0_chk78 v632), ∀ a, (k0_off104 v632) a + S1x64.size a ≤ S500000x64.size a := fun v632 k0_hw78 => k0_hw78

def k0_off105 (i : grid0.Coords) : Fin 1 → Nat :=
  let arg0 : BitVec 32 := BitVec.ofNat 32 (i 0).val
  let c128_i32 : BitVec 32 := 128#32
  let v0 : BitVec 32 := Scalar.muli arg0 c128_i32
  let c26_i32 : BitVec 32 := 26#32
  let v651 : BitVec 32 := Scalar.addi v0 c26_i32
  let v652 : Index := Scalar.indexCast v651
  ![v652.toNat]
def k0_off106 (v653 : BitVec 32) : Fin 2 → Nat :=
  let c0_i32_157 : BitVec 32 := 0#32
  ![v653.toNat, 0]

def k0_chk79 (v653 : BitVec 32) : Prop :=
  (∀ a, (k0_off106 v653) a + S1x64.size a ≤ S1000000x64.size a)
instance k0_chk79.dec : ∀ (v653 : BitVec 32), Decidable (k0_chk79 v653) := fun v653 => decidable_of_iff' _ (Iff.of_eq (k0_chk79.eq_1 v653))
theorem k0_off106_inb : ∀ (v653 : BitVec 32) (k0_hw79 : k0_chk79 v653), ∀ a, (k0_off106 v653) a + S1x64.size a ≤ S1000000x64.size a := fun v653 k0_hw79 => k0_hw79

def k0_off107 (v655 : BitVec 32) : Fin 2 → Nat :=
  let c0_i32_159 : BitVec 32 := 0#32
  ![v655.toNat, 0]

def k0_chk80 (v655 : BitVec 32) : Prop :=
  (∀ a, (k0_off107 v655) a + S1x64.size a ≤ S500000x64.size a)
instance k0_chk80.dec : ∀ (v655 : BitVec 32), Decidable (k0_chk80 v655) := fun v655 => decidable_of_iff' _ (Iff.of_eq (k0_chk80.eq_1 v655))
theorem k0_off107_inb : ∀ (v655 : BitVec 32) (k0_hw80 : k0_chk80 v655), ∀ a, (k0_off107 v655) a + S1x64.size a ≤ S500000x64.size a := fun v655 k0_hw80 => k0_hw80

def k0_off108 (v657 : BitVec 32) : Fin 2 → Nat :=
  let c0_i32_161 : BitVec 32 := 0#32
  ![v657.toNat, 0]

def k0_chk81 (v657 : BitVec 32) : Prop :=
  (∀ a, (k0_off108 v657) a + S1x64.size a ≤ S500000x64.size a)
instance k0_chk81.dec : ∀ (v657 : BitVec 32), Decidable (k0_chk81 v657) := fun v657 => decidable_of_iff' _ (Iff.of_eq (k0_chk81.eq_1 v657))
theorem k0_off108_inb : ∀ (v657 : BitVec 32) (k0_hw81 : k0_chk81 v657), ∀ a, (k0_off108 v657) a + S1x64.size a ≤ S500000x64.size a := fun v657 k0_hw81 => k0_hw81

def k0_off109 (i : grid0.Coords) : Fin 1 → Nat :=
  let arg0 : BitVec 32 := BitVec.ofNat 32 (i 0).val
  let c128_i32 : BitVec 32 := 128#32
  let v0 : BitVec 32 := Scalar.muli arg0 c128_i32
  let c27_i32 : BitVec 32 := 27#32
  let v676 : BitVec 32 := Scalar.addi v0 c27_i32
  let v677 : Index := Scalar.indexCast v676
  ![v677.toNat]
def k0_off110 (v678 : BitVec 32) : Fin 2 → Nat :=
  let c0_i32_163 : BitVec 32 := 0#32
  ![v678.toNat, 0]

def k0_chk82 (v678 : BitVec 32) : Prop :=
  (∀ a, (k0_off110 v678) a + S1x64.size a ≤ S1000000x64.size a)
instance k0_chk82.dec : ∀ (v678 : BitVec 32), Decidable (k0_chk82 v678) := fun v678 => decidable_of_iff' _ (Iff.of_eq (k0_chk82.eq_1 v678))
theorem k0_off110_inb : ∀ (v678 : BitVec 32) (k0_hw82 : k0_chk82 v678), ∀ a, (k0_off110 v678) a + S1x64.size a ≤ S1000000x64.size a := fun v678 k0_hw82 => k0_hw82

def k0_off111 (v680 : BitVec 32) : Fin 2 → Nat :=
  let c0_i32_165 : BitVec 32 := 0#32
  ![v680.toNat, 0]

def k0_chk83 (v680 : BitVec 32) : Prop :=
  (∀ a, (k0_off111 v680) a + S1x64.size a ≤ S500000x64.size a)
instance k0_chk83.dec : ∀ (v680 : BitVec 32), Decidable (k0_chk83 v680) := fun v680 => decidable_of_iff' _ (Iff.of_eq (k0_chk83.eq_1 v680))
theorem k0_off111_inb : ∀ (v680 : BitVec 32) (k0_hw83 : k0_chk83 v680), ∀ a, (k0_off111 v680) a + S1x64.size a ≤ S500000x64.size a := fun v680 k0_hw83 => k0_hw83

def k0_off112 (v682 : BitVec 32) : Fin 2 → Nat :=
  let c0_i32_167 : BitVec 32 := 0#32
  ![v682.toNat, 0]

def k0_chk84 (v682 : BitVec 32) : Prop :=
  (∀ a, (k0_off112 v682) a + S1x64.size a ≤ S500000x64.size a)
instance k0_chk84.dec : ∀ (v682 : BitVec 32), Decidable (k0_chk84 v682) := fun v682 => decidable_of_iff' _ (Iff.of_eq (k0_chk84.eq_1 v682))
theorem k0_off112_inb : ∀ (v682 : BitVec 32) (k0_hw84 : k0_chk84 v682), ∀ a, (k0_off112 v682) a + S1x64.size a ≤ S500000x64.size a := fun v682 k0_hw84 => k0_hw84

def k0_off113 (i : grid0.Coords) : Fin 1 → Nat :=
  let arg0 : BitVec 32 := BitVec.ofNat 32 (i 0).val
  let c128_i32 : BitVec 32 := 128#32
  let v0 : BitVec 32 := Scalar.muli arg0 c128_i32
  let c28_i32 : BitVec 32 := 28#32
  let v701 : BitVec 32 := Scalar.addi v0 c28_i32
  let v702 : Index := Scalar.indexCast v701
  ![v702.toNat]
def k0_off114 (v703 : BitVec 32) : Fin 2 → Nat :=
  let c0_i32_169 : BitVec 32 := 0#32
  ![v703.toNat, 0]

def k0_chk85 (v703 : BitVec 32) : Prop :=
  (∀ a, (k0_off114 v703) a + S1x64.size a ≤ S1000000x64.size a)
instance k0_chk85.dec : ∀ (v703 : BitVec 32), Decidable (k0_chk85 v703) := fun v703 => decidable_of_iff' _ (Iff.of_eq (k0_chk85.eq_1 v703))
theorem k0_off114_inb : ∀ (v703 : BitVec 32) (k0_hw85 : k0_chk85 v703), ∀ a, (k0_off114 v703) a + S1x64.size a ≤ S1000000x64.size a := fun v703 k0_hw85 => k0_hw85

def k0_off115 (v705 : BitVec 32) : Fin 2 → Nat :=
  let c0_i32_171 : BitVec 32 := 0#32
  ![v705.toNat, 0]

def k0_chk86 (v705 : BitVec 32) : Prop :=
  (∀ a, (k0_off115 v705) a + S1x64.size a ≤ S500000x64.size a)
instance k0_chk86.dec : ∀ (v705 : BitVec 32), Decidable (k0_chk86 v705) := fun v705 => decidable_of_iff' _ (Iff.of_eq (k0_chk86.eq_1 v705))
theorem k0_off115_inb : ∀ (v705 : BitVec 32) (k0_hw86 : k0_chk86 v705), ∀ a, (k0_off115 v705) a + S1x64.size a ≤ S500000x64.size a := fun v705 k0_hw86 => k0_hw86

def k0_off116 (v707 : BitVec 32) : Fin 2 → Nat :=
  let c0_i32_173 : BitVec 32 := 0#32
  ![v707.toNat, 0]

def k0_chk87 (v707 : BitVec 32) : Prop :=
  (∀ a, (k0_off116 v707) a + S1x64.size a ≤ S500000x64.size a)
instance k0_chk87.dec : ∀ (v707 : BitVec 32), Decidable (k0_chk87 v707) := fun v707 => decidable_of_iff' _ (Iff.of_eq (k0_chk87.eq_1 v707))
theorem k0_off116_inb : ∀ (v707 : BitVec 32) (k0_hw87 : k0_chk87 v707), ∀ a, (k0_off116 v707) a + S1x64.size a ≤ S500000x64.size a := fun v707 k0_hw87 => k0_hw87

def k0_off117 (i : grid0.Coords) : Fin 1 → Nat :=
  let arg0 : BitVec 32 := BitVec.ofNat 32 (i 0).val
  let c128_i32 : BitVec 32 := 128#32
  let v0 : BitVec 32 := Scalar.muli arg0 c128_i32
  let c29_i32 : BitVec 32 := 29#32
  let v726 : BitVec 32 := Scalar.addi v0 c29_i32
  let v727 : Index := Scalar.indexCast v726
  ![v727.toNat]
def k0_off118 (v728 : BitVec 32) : Fin 2 → Nat :=
  let c0_i32_175 : BitVec 32 := 0#32
  ![v728.toNat, 0]

def k0_chk88 (v728 : BitVec 32) : Prop :=
  (∀ a, (k0_off118 v728) a + S1x64.size a ≤ S1000000x64.size a)
instance k0_chk88.dec : ∀ (v728 : BitVec 32), Decidable (k0_chk88 v728) := fun v728 => decidable_of_iff' _ (Iff.of_eq (k0_chk88.eq_1 v728))
theorem k0_off118_inb : ∀ (v728 : BitVec 32) (k0_hw88 : k0_chk88 v728), ∀ a, (k0_off118 v728) a + S1x64.size a ≤ S1000000x64.size a := fun v728 k0_hw88 => k0_hw88

def k0_off119 (v730 : BitVec 32) : Fin 2 → Nat :=
  let c0_i32_177 : BitVec 32 := 0#32
  ![v730.toNat, 0]

def k0_chk89 (v730 : BitVec 32) : Prop :=
  (∀ a, (k0_off119 v730) a + S1x64.size a ≤ S500000x64.size a)
instance k0_chk89.dec : ∀ (v730 : BitVec 32), Decidable (k0_chk89 v730) := fun v730 => decidable_of_iff' _ (Iff.of_eq (k0_chk89.eq_1 v730))
theorem k0_off119_inb : ∀ (v730 : BitVec 32) (k0_hw89 : k0_chk89 v730), ∀ a, (k0_off119 v730) a + S1x64.size a ≤ S500000x64.size a := fun v730 k0_hw89 => k0_hw89

def k0_off120 (v732 : BitVec 32) : Fin 2 → Nat :=
  let c0_i32_179 : BitVec 32 := 0#32
  ![v732.toNat, 0]

def k0_chk90 (v732 : BitVec 32) : Prop :=
  (∀ a, (k0_off120 v732) a + S1x64.size a ≤ S500000x64.size a)
instance k0_chk90.dec : ∀ (v732 : BitVec 32), Decidable (k0_chk90 v732) := fun v732 => decidable_of_iff' _ (Iff.of_eq (k0_chk90.eq_1 v732))
theorem k0_off120_inb : ∀ (v732 : BitVec 32) (k0_hw90 : k0_chk90 v732), ∀ a, (k0_off120 v732) a + S1x64.size a ≤ S500000x64.size a := fun v732 k0_hw90 => k0_hw90

def k0_off121 (i : grid0.Coords) : Fin 1 → Nat :=
  let arg0 : BitVec 32 := BitVec.ofNat 32 (i 0).val
  let c128_i32 : BitVec 32 := 128#32
  let v0 : BitVec 32 := Scalar.muli arg0 c128_i32
  let c30_i32 : BitVec 32 := 30#32
  let v751 : BitVec 32 := Scalar.addi v0 c30_i32
  let v752 : Index := Scalar.indexCast v751
  ![v752.toNat]
def k0_off122 (v753 : BitVec 32) : Fin 2 → Nat :=
  let c0_i32_181 : BitVec 32 := 0#32
  ![v753.toNat, 0]

def k0_chk91 (v753 : BitVec 32) : Prop :=
  (∀ a, (k0_off122 v753) a + S1x64.size a ≤ S1000000x64.size a)
instance k0_chk91.dec : ∀ (v753 : BitVec 32), Decidable (k0_chk91 v753) := fun v753 => decidable_of_iff' _ (Iff.of_eq (k0_chk91.eq_1 v753))
theorem k0_off122_inb : ∀ (v753 : BitVec 32) (k0_hw91 : k0_chk91 v753), ∀ a, (k0_off122 v753) a + S1x64.size a ≤ S1000000x64.size a := fun v753 k0_hw91 => k0_hw91

def k0_off123 (v755 : BitVec 32) : Fin 2 → Nat :=
  let c0_i32_183 : BitVec 32 := 0#32
  ![v755.toNat, 0]

def k0_chk92 (v755 : BitVec 32) : Prop :=
  (∀ a, (k0_off123 v755) a + S1x64.size a ≤ S500000x64.size a)
instance k0_chk92.dec : ∀ (v755 : BitVec 32), Decidable (k0_chk92 v755) := fun v755 => decidable_of_iff' _ (Iff.of_eq (k0_chk92.eq_1 v755))
theorem k0_off123_inb : ∀ (v755 : BitVec 32) (k0_hw92 : k0_chk92 v755), ∀ a, (k0_off123 v755) a + S1x64.size a ≤ S500000x64.size a := fun v755 k0_hw92 => k0_hw92

def k0_off124 (v757 : BitVec 32) : Fin 2 → Nat :=
  let c0_i32_185 : BitVec 32 := 0#32
  ![v757.toNat, 0]

def k0_chk93 (v757 : BitVec 32) : Prop :=
  (∀ a, (k0_off124 v757) a + S1x64.size a ≤ S500000x64.size a)
instance k0_chk93.dec : ∀ (v757 : BitVec 32), Decidable (k0_chk93 v757) := fun v757 => decidable_of_iff' _ (Iff.of_eq (k0_chk93.eq_1 v757))
theorem k0_off124_inb : ∀ (v757 : BitVec 32) (k0_hw93 : k0_chk93 v757), ∀ a, (k0_off124 v757) a + S1x64.size a ≤ S500000x64.size a := fun v757 k0_hw93 => k0_hw93

def k0_off125 (i : grid0.Coords) : Fin 1 → Nat :=
  let arg0 : BitVec 32 := BitVec.ofNat 32 (i 0).val
  let c128_i32 : BitVec 32 := 128#32
  let v0 : BitVec 32 := Scalar.muli arg0 c128_i32
  let c31_i32 : BitVec 32 := 31#32
  let v776 : BitVec 32 := Scalar.addi v0 c31_i32
  let v777 : Index := Scalar.indexCast v776
  ![v777.toNat]
def k0_off126 (v778 : BitVec 32) : Fin 2 → Nat :=
  let c0_i32_187 : BitVec 32 := 0#32
  ![v778.toNat, 0]

def k0_chk94 (v778 : BitVec 32) : Prop :=
  (∀ a, (k0_off126 v778) a + S1x64.size a ≤ S1000000x64.size a)
instance k0_chk94.dec : ∀ (v778 : BitVec 32), Decidable (k0_chk94 v778) := fun v778 => decidable_of_iff' _ (Iff.of_eq (k0_chk94.eq_1 v778))
theorem k0_off126_inb : ∀ (v778 : BitVec 32) (k0_hw94 : k0_chk94 v778), ∀ a, (k0_off126 v778) a + S1x64.size a ≤ S1000000x64.size a := fun v778 k0_hw94 => k0_hw94

def k0_off127 (v780 : BitVec 32) : Fin 2 → Nat :=
  let c0_i32_189 : BitVec 32 := 0#32
  ![v780.toNat, 0]

def k0_chk95 (v780 : BitVec 32) : Prop :=
  (∀ a, (k0_off127 v780) a + S1x64.size a ≤ S500000x64.size a)
instance k0_chk95.dec : ∀ (v780 : BitVec 32), Decidable (k0_chk95 v780) := fun v780 => decidable_of_iff' _ (Iff.of_eq (k0_chk95.eq_1 v780))
theorem k0_off127_inb : ∀ (v780 : BitVec 32) (k0_hw95 : k0_chk95 v780), ∀ a, (k0_off127 v780) a + S1x64.size a ≤ S500000x64.size a := fun v780 k0_hw95 => k0_hw95

def k0_off128 (v782 : BitVec 32) : Fin 2 → Nat :=
  let c0_i32_191 : BitVec 32 := 0#32
  ![v782.toNat, 0]

def k0_chk96 (v782 : BitVec 32) : Prop :=
  (∀ a, (k0_off128 v782) a + S1x64.size a ≤ S500000x64.size a)
instance k0_chk96.dec : ∀ (v782 : BitVec 32), Decidable (k0_chk96 v782) := fun v782 => decidable_of_iff' _ (Iff.of_eq (k0_chk96.eq_1 v782))
theorem k0_off128_inb : ∀ (v782 : BitVec 32) (k0_hw96 : k0_chk96 v782), ∀ a, (k0_off128 v782) a + S1x64.size a ≤ S500000x64.size a := fun v782 k0_hw96 => k0_hw96

def k0_off129 (i : grid0.Coords) : Fin 1 → Nat :=
  let arg0 : BitVec 32 := BitVec.ofNat 32 (i 0).val
  let c128_i32 : BitVec 32 := 128#32
  let v0 : BitVec 32 := Scalar.muli arg0 c128_i32
  let c32_i32 : BitVec 32 := 32#32
  let v801 : BitVec 32 := Scalar.addi v0 c32_i32
  let v802 : Index := Scalar.indexCast v801
  ![v802.toNat]
def k0_off130 (v803 : BitVec 32) : Fin 2 → Nat :=
  let c0_i32_193 : BitVec 32 := 0#32
  ![v803.toNat, 0]

def k0_chk97 (v803 : BitVec 32) : Prop :=
  (∀ a, (k0_off130 v803) a + S1x64.size a ≤ S1000000x64.size a)
instance k0_chk97.dec : ∀ (v803 : BitVec 32), Decidable (k0_chk97 v803) := fun v803 => decidable_of_iff' _ (Iff.of_eq (k0_chk97.eq_1 v803))
theorem k0_off130_inb : ∀ (v803 : BitVec 32) (k0_hw97 : k0_chk97 v803), ∀ a, (k0_off130 v803) a + S1x64.size a ≤ S1000000x64.size a := fun v803 k0_hw97 => k0_hw97

def k0_off131 (v805 : BitVec 32) : Fin 2 → Nat :=
  let c0_i32_195 : BitVec 32 := 0#32
  ![v805.toNat, 0]

def k0_chk98 (v805 : BitVec 32) : Prop :=
  (∀ a, (k0_off131 v805) a + S1x64.size a ≤ S500000x64.size a)
instance k0_chk98.dec : ∀ (v805 : BitVec 32), Decidable (k0_chk98 v805) := fun v805 => decidable_of_iff' _ (Iff.of_eq (k0_chk98.eq_1 v805))
theorem k0_off131_inb : ∀ (v805 : BitVec 32) (k0_hw98 : k0_chk98 v805), ∀ a, (k0_off131 v805) a + S1x64.size a ≤ S500000x64.size a := fun v805 k0_hw98 => k0_hw98

def k0_off132 (v807 : BitVec 32) : Fin 2 → Nat :=
  let c0_i32_197 : BitVec 32 := 0#32
  ![v807.toNat, 0]

def k0_chk99 (v807 : BitVec 32) : Prop :=
  (∀ a, (k0_off132 v807) a + S1x64.size a ≤ S500000x64.size a)
instance k0_chk99.dec : ∀ (v807 : BitVec 32), Decidable (k0_chk99 v807) := fun v807 => decidable_of_iff' _ (Iff.of_eq (k0_chk99.eq_1 v807))
theorem k0_off132_inb : ∀ (v807 : BitVec 32) (k0_hw99 : k0_chk99 v807), ∀ a, (k0_off132 v807) a + S1x64.size a ≤ S500000x64.size a := fun v807 k0_hw99 => k0_hw99

def k0_off133 (i : grid0.Coords) : Fin 1 → Nat :=
  let arg0 : BitVec 32 := BitVec.ofNat 32 (i 0).val
  let c128_i32 : BitVec 32 := 128#32
  let v0 : BitVec 32 := Scalar.muli arg0 c128_i32
  let c33_i32 : BitVec 32 := 33#32
  let v826 : BitVec 32 := Scalar.addi v0 c33_i32
  let v827 : Index := Scalar.indexCast v826
  ![v827.toNat]
def k0_off134 (v828 : BitVec 32) : Fin 2 → Nat :=
  let c0_i32_199 : BitVec 32 := 0#32
  ![v828.toNat, 0]

def k0_chk100 (v828 : BitVec 32) : Prop :=
  (∀ a, (k0_off134 v828) a + S1x64.size a ≤ S1000000x64.size a)
instance k0_chk100.dec : ∀ (v828 : BitVec 32), Decidable (k0_chk100 v828) := fun v828 => decidable_of_iff' _ (Iff.of_eq (k0_chk100.eq_1 v828))
theorem k0_off134_inb : ∀ (v828 : BitVec 32) (k0_hw100 : k0_chk100 v828), ∀ a, (k0_off134 v828) a + S1x64.size a ≤ S1000000x64.size a := fun v828 k0_hw100 => k0_hw100

def k0_off135 (v830 : BitVec 32) : Fin 2 → Nat :=
  let c0_i32_201 : BitVec 32 := 0#32
  ![v830.toNat, 0]

def k0_chk101 (v830 : BitVec 32) : Prop :=
  (∀ a, (k0_off135 v830) a + S1x64.size a ≤ S500000x64.size a)
instance k0_chk101.dec : ∀ (v830 : BitVec 32), Decidable (k0_chk101 v830) := fun v830 => decidable_of_iff' _ (Iff.of_eq (k0_chk101.eq_1 v830))
theorem k0_off135_inb : ∀ (v830 : BitVec 32) (k0_hw101 : k0_chk101 v830), ∀ a, (k0_off135 v830) a + S1x64.size a ≤ S500000x64.size a := fun v830 k0_hw101 => k0_hw101

def k0_off136 (v832 : BitVec 32) : Fin 2 → Nat :=
  let c0_i32_203 : BitVec 32 := 0#32
  ![v832.toNat, 0]

def k0_chk102 (v832 : BitVec 32) : Prop :=
  (∀ a, (k0_off136 v832) a + S1x64.size a ≤ S500000x64.size a)
instance k0_chk102.dec : ∀ (v832 : BitVec 32), Decidable (k0_chk102 v832) := fun v832 => decidable_of_iff' _ (Iff.of_eq (k0_chk102.eq_1 v832))
theorem k0_off136_inb : ∀ (v832 : BitVec 32) (k0_hw102 : k0_chk102 v832), ∀ a, (k0_off136 v832) a + S1x64.size a ≤ S500000x64.size a := fun v832 k0_hw102 => k0_hw102

def k0_off137 (i : grid0.Coords) : Fin 1 → Nat :=
  let arg0 : BitVec 32 := BitVec.ofNat 32 (i 0).val
  let c128_i32 : BitVec 32 := 128#32
  let v0 : BitVec 32 := Scalar.muli arg0 c128_i32
  let c34_i32 : BitVec 32 := 34#32
  let v851 : BitVec 32 := Scalar.addi v0 c34_i32
  let v852 : Index := Scalar.indexCast v851
  ![v852.toNat]
def k0_off138 (v853 : BitVec 32) : Fin 2 → Nat :=
  let c0_i32_205 : BitVec 32 := 0#32
  ![v853.toNat, 0]

def k0_chk103 (v853 : BitVec 32) : Prop :=
  (∀ a, (k0_off138 v853) a + S1x64.size a ≤ S1000000x64.size a)
instance k0_chk103.dec : ∀ (v853 : BitVec 32), Decidable (k0_chk103 v853) := fun v853 => decidable_of_iff' _ (Iff.of_eq (k0_chk103.eq_1 v853))
theorem k0_off138_inb : ∀ (v853 : BitVec 32) (k0_hw103 : k0_chk103 v853), ∀ a, (k0_off138 v853) a + S1x64.size a ≤ S1000000x64.size a := fun v853 k0_hw103 => k0_hw103

def k0_off139 (v855 : BitVec 32) : Fin 2 → Nat :=
  let c0_i32_207 : BitVec 32 := 0#32
  ![v855.toNat, 0]

def k0_chk104 (v855 : BitVec 32) : Prop :=
  (∀ a, (k0_off139 v855) a + S1x64.size a ≤ S500000x64.size a)
instance k0_chk104.dec : ∀ (v855 : BitVec 32), Decidable (k0_chk104 v855) := fun v855 => decidable_of_iff' _ (Iff.of_eq (k0_chk104.eq_1 v855))
theorem k0_off139_inb : ∀ (v855 : BitVec 32) (k0_hw104 : k0_chk104 v855), ∀ a, (k0_off139 v855) a + S1x64.size a ≤ S500000x64.size a := fun v855 k0_hw104 => k0_hw104

def k0_off140 (v857 : BitVec 32) : Fin 2 → Nat :=
  let c0_i32_209 : BitVec 32 := 0#32
  ![v857.toNat, 0]

def k0_chk105 (v857 : BitVec 32) : Prop :=
  (∀ a, (k0_off140 v857) a + S1x64.size a ≤ S500000x64.size a)
instance k0_chk105.dec : ∀ (v857 : BitVec 32), Decidable (k0_chk105 v857) := fun v857 => decidable_of_iff' _ (Iff.of_eq (k0_chk105.eq_1 v857))
theorem k0_off140_inb : ∀ (v857 : BitVec 32) (k0_hw105 : k0_chk105 v857), ∀ a, (k0_off140 v857) a + S1x64.size a ≤ S500000x64.size a := fun v857 k0_hw105 => k0_hw105

def k0_off141 (i : grid0.Coords) : Fin 1 → Nat :=
  let arg0 : BitVec 32 := BitVec.ofNat 32 (i 0).val
  let c128_i32 : BitVec 32 := 128#32
  let v0 : BitVec 32 := Scalar.muli arg0 c128_i32
  let c35_i32 : BitVec 32 := 35#32
  let v876 : BitVec 32 := Scalar.addi v0 c35_i32
  let v877 : Index := Scalar.indexCast v876
  ![v877.toNat]
def k0_off142 (v878 : BitVec 32) : Fin 2 → Nat :=
  let c0_i32_211 : BitVec 32 := 0#32
  ![v878.toNat, 0]

def k0_chk106 (v878 : BitVec 32) : Prop :=
  (∀ a, (k0_off142 v878) a + S1x64.size a ≤ S1000000x64.size a)
instance k0_chk106.dec : ∀ (v878 : BitVec 32), Decidable (k0_chk106 v878) := fun v878 => decidable_of_iff' _ (Iff.of_eq (k0_chk106.eq_1 v878))
theorem k0_off142_inb : ∀ (v878 : BitVec 32) (k0_hw106 : k0_chk106 v878), ∀ a, (k0_off142 v878) a + S1x64.size a ≤ S1000000x64.size a := fun v878 k0_hw106 => k0_hw106

def k0_off143 (v880 : BitVec 32) : Fin 2 → Nat :=
  let c0_i32_213 : BitVec 32 := 0#32
  ![v880.toNat, 0]

def k0_chk107 (v880 : BitVec 32) : Prop :=
  (∀ a, (k0_off143 v880) a + S1x64.size a ≤ S500000x64.size a)
instance k0_chk107.dec : ∀ (v880 : BitVec 32), Decidable (k0_chk107 v880) := fun v880 => decidable_of_iff' _ (Iff.of_eq (k0_chk107.eq_1 v880))
theorem k0_off143_inb : ∀ (v880 : BitVec 32) (k0_hw107 : k0_chk107 v880), ∀ a, (k0_off143 v880) a + S1x64.size a ≤ S500000x64.size a := fun v880 k0_hw107 => k0_hw107

def k0_off144 (v882 : BitVec 32) : Fin 2 → Nat :=
  let c0_i32_215 : BitVec 32 := 0#32
  ![v882.toNat, 0]

def k0_chk108 (v882 : BitVec 32) : Prop :=
  (∀ a, (k0_off144 v882) a + S1x64.size a ≤ S500000x64.size a)
instance k0_chk108.dec : ∀ (v882 : BitVec 32), Decidable (k0_chk108 v882) := fun v882 => decidable_of_iff' _ (Iff.of_eq (k0_chk108.eq_1 v882))
theorem k0_off144_inb : ∀ (v882 : BitVec 32) (k0_hw108 : k0_chk108 v882), ∀ a, (k0_off144 v882) a + S1x64.size a ≤ S500000x64.size a := fun v882 k0_hw108 => k0_hw108

def k0_off145 (i : grid0.Coords) : Fin 1 → Nat :=
  let arg0 : BitVec 32 := BitVec.ofNat 32 (i 0).val
  let c128_i32 : BitVec 32 := 128#32
  let v0 : BitVec 32 := Scalar.muli arg0 c128_i32
  let c36_i32 : BitVec 32 := 36#32
  let v901 : BitVec 32 := Scalar.addi v0 c36_i32
  let v902 : Index := Scalar.indexCast v901
  ![v902.toNat]
def k0_off146 (v903 : BitVec 32) : Fin 2 → Nat :=
  let c0_i32_217 : BitVec 32 := 0#32
  ![v903.toNat, 0]

def k0_chk109 (v903 : BitVec 32) : Prop :=
  (∀ a, (k0_off146 v903) a + S1x64.size a ≤ S1000000x64.size a)
instance k0_chk109.dec : ∀ (v903 : BitVec 32), Decidable (k0_chk109 v903) := fun v903 => decidable_of_iff' _ (Iff.of_eq (k0_chk109.eq_1 v903))
theorem k0_off146_inb : ∀ (v903 : BitVec 32) (k0_hw109 : k0_chk109 v903), ∀ a, (k0_off146 v903) a + S1x64.size a ≤ S1000000x64.size a := fun v903 k0_hw109 => k0_hw109

def k0_off147 (v905 : BitVec 32) : Fin 2 → Nat :=
  let c0_i32_219 : BitVec 32 := 0#32
  ![v905.toNat, 0]

def k0_chk110 (v905 : BitVec 32) : Prop :=
  (∀ a, (k0_off147 v905) a + S1x64.size a ≤ S500000x64.size a)
instance k0_chk110.dec : ∀ (v905 : BitVec 32), Decidable (k0_chk110 v905) := fun v905 => decidable_of_iff' _ (Iff.of_eq (k0_chk110.eq_1 v905))
theorem k0_off147_inb : ∀ (v905 : BitVec 32) (k0_hw110 : k0_chk110 v905), ∀ a, (k0_off147 v905) a + S1x64.size a ≤ S500000x64.size a := fun v905 k0_hw110 => k0_hw110

def k0_off148 (v907 : BitVec 32) : Fin 2 → Nat :=
  let c0_i32_221 : BitVec 32 := 0#32
  ![v907.toNat, 0]

def k0_chk111 (v907 : BitVec 32) : Prop :=
  (∀ a, (k0_off148 v907) a + S1x64.size a ≤ S500000x64.size a)
instance k0_chk111.dec : ∀ (v907 : BitVec 32), Decidable (k0_chk111 v907) := fun v907 => decidable_of_iff' _ (Iff.of_eq (k0_chk111.eq_1 v907))
theorem k0_off148_inb : ∀ (v907 : BitVec 32) (k0_hw111 : k0_chk111 v907), ∀ a, (k0_off148 v907) a + S1x64.size a ≤ S500000x64.size a := fun v907 k0_hw111 => k0_hw111

def k0_off149 (i : grid0.Coords) : Fin 1 → Nat :=
  let arg0 : BitVec 32 := BitVec.ofNat 32 (i 0).val
  let c128_i32 : BitVec 32 := 128#32
  let v0 : BitVec 32 := Scalar.muli arg0 c128_i32
  let c37_i32 : BitVec 32 := 37#32
  let v926 : BitVec 32 := Scalar.addi v0 c37_i32
  let v927 : Index := Scalar.indexCast v926
  ![v927.toNat]
def k0_off150 (v928 : BitVec 32) : Fin 2 → Nat :=
  let c0_i32_223 : BitVec 32 := 0#32
  ![v928.toNat, 0]

def k0_chk112 (v928 : BitVec 32) : Prop :=
  (∀ a, (k0_off150 v928) a + S1x64.size a ≤ S1000000x64.size a)
instance k0_chk112.dec : ∀ (v928 : BitVec 32), Decidable (k0_chk112 v928) := fun v928 => decidable_of_iff' _ (Iff.of_eq (k0_chk112.eq_1 v928))
theorem k0_off150_inb : ∀ (v928 : BitVec 32) (k0_hw112 : k0_chk112 v928), ∀ a, (k0_off150 v928) a + S1x64.size a ≤ S1000000x64.size a := fun v928 k0_hw112 => k0_hw112

def k0_off151 (v930 : BitVec 32) : Fin 2 → Nat :=
  let c0_i32_225 : BitVec 32 := 0#32
  ![v930.toNat, 0]

def k0_chk113 (v930 : BitVec 32) : Prop :=
  (∀ a, (k0_off151 v930) a + S1x64.size a ≤ S500000x64.size a)
instance k0_chk113.dec : ∀ (v930 : BitVec 32), Decidable (k0_chk113 v930) := fun v930 => decidable_of_iff' _ (Iff.of_eq (k0_chk113.eq_1 v930))
theorem k0_off151_inb : ∀ (v930 : BitVec 32) (k0_hw113 : k0_chk113 v930), ∀ a, (k0_off151 v930) a + S1x64.size a ≤ S500000x64.size a := fun v930 k0_hw113 => k0_hw113

def k0_off152 (v932 : BitVec 32) : Fin 2 → Nat :=
  let c0_i32_227 : BitVec 32 := 0#32
  ![v932.toNat, 0]

def k0_chk114 (v932 : BitVec 32) : Prop :=
  (∀ a, (k0_off152 v932) a + S1x64.size a ≤ S500000x64.size a)
instance k0_chk114.dec : ∀ (v932 : BitVec 32), Decidable (k0_chk114 v932) := fun v932 => decidable_of_iff' _ (Iff.of_eq (k0_chk114.eq_1 v932))
theorem k0_off152_inb : ∀ (v932 : BitVec 32) (k0_hw114 : k0_chk114 v932), ∀ a, (k0_off152 v932) a + S1x64.size a ≤ S500000x64.size a := fun v932 k0_hw114 => k0_hw114

def k0_off153 (i : grid0.Coords) : Fin 1 → Nat :=
  let arg0 : BitVec 32 := BitVec.ofNat 32 (i 0).val
  let c128_i32 : BitVec 32 := 128#32
  let v0 : BitVec 32 := Scalar.muli arg0 c128_i32
  let c38_i32 : BitVec 32 := 38#32
  let v951 : BitVec 32 := Scalar.addi v0 c38_i32
  let v952 : Index := Scalar.indexCast v951
  ![v952.toNat]
def k0_off154 (v953 : BitVec 32) : Fin 2 → Nat :=
  let c0_i32_229 : BitVec 32 := 0#32
  ![v953.toNat, 0]

def k0_chk115 (v953 : BitVec 32) : Prop :=
  (∀ a, (k0_off154 v953) a + S1x64.size a ≤ S1000000x64.size a)
instance k0_chk115.dec : ∀ (v953 : BitVec 32), Decidable (k0_chk115 v953) := fun v953 => decidable_of_iff' _ (Iff.of_eq (k0_chk115.eq_1 v953))
theorem k0_off154_inb : ∀ (v953 : BitVec 32) (k0_hw115 : k0_chk115 v953), ∀ a, (k0_off154 v953) a + S1x64.size a ≤ S1000000x64.size a := fun v953 k0_hw115 => k0_hw115

def k0_off155 (v955 : BitVec 32) : Fin 2 → Nat :=
  let c0_i32_231 : BitVec 32 := 0#32
  ![v955.toNat, 0]

def k0_chk116 (v955 : BitVec 32) : Prop :=
  (∀ a, (k0_off155 v955) a + S1x64.size a ≤ S500000x64.size a)
instance k0_chk116.dec : ∀ (v955 : BitVec 32), Decidable (k0_chk116 v955) := fun v955 => decidable_of_iff' _ (Iff.of_eq (k0_chk116.eq_1 v955))
theorem k0_off155_inb : ∀ (v955 : BitVec 32) (k0_hw116 : k0_chk116 v955), ∀ a, (k0_off155 v955) a + S1x64.size a ≤ S500000x64.size a := fun v955 k0_hw116 => k0_hw116

def k0_off156 (v957 : BitVec 32) : Fin 2 → Nat :=
  let c0_i32_233 : BitVec 32 := 0#32
  ![v957.toNat, 0]

def k0_chk117 (v957 : BitVec 32) : Prop :=
  (∀ a, (k0_off156 v957) a + S1x64.size a ≤ S500000x64.size a)
instance k0_chk117.dec : ∀ (v957 : BitVec 32), Decidable (k0_chk117 v957) := fun v957 => decidable_of_iff' _ (Iff.of_eq (k0_chk117.eq_1 v957))
theorem k0_off156_inb : ∀ (v957 : BitVec 32) (k0_hw117 : k0_chk117 v957), ∀ a, (k0_off156 v957) a + S1x64.size a ≤ S500000x64.size a := fun v957 k0_hw117 => k0_hw117

def k0_off157 (i : grid0.Coords) : Fin 1 → Nat :=
  let arg0 : BitVec 32 := BitVec.ofNat 32 (i 0).val
  let c128_i32 : BitVec 32 := 128#32
  let v0 : BitVec 32 := Scalar.muli arg0 c128_i32
  let c39_i32 : BitVec 32 := 39#32
  let v976 : BitVec 32 := Scalar.addi v0 c39_i32
  let v977 : Index := Scalar.indexCast v976
  ![v977.toNat]
def k0_off158 (v978 : BitVec 32) : Fin 2 → Nat :=
  let c0_i32_235 : BitVec 32 := 0#32
  ![v978.toNat, 0]

def k0_chk118 (v978 : BitVec 32) : Prop :=
  (∀ a, (k0_off158 v978) a + S1x64.size a ≤ S1000000x64.size a)
instance k0_chk118.dec : ∀ (v978 : BitVec 32), Decidable (k0_chk118 v978) := fun v978 => decidable_of_iff' _ (Iff.of_eq (k0_chk118.eq_1 v978))
theorem k0_off158_inb : ∀ (v978 : BitVec 32) (k0_hw118 : k0_chk118 v978), ∀ a, (k0_off158 v978) a + S1x64.size a ≤ S1000000x64.size a := fun v978 k0_hw118 => k0_hw118

def k0_off159 (v980 : BitVec 32) : Fin 2 → Nat :=
  let c0_i32_237 : BitVec 32 := 0#32
  ![v980.toNat, 0]

def k0_chk119 (v980 : BitVec 32) : Prop :=
  (∀ a, (k0_off159 v980) a + S1x64.size a ≤ S500000x64.size a)
instance k0_chk119.dec : ∀ (v980 : BitVec 32), Decidable (k0_chk119 v980) := fun v980 => decidable_of_iff' _ (Iff.of_eq (k0_chk119.eq_1 v980))
theorem k0_off159_inb : ∀ (v980 : BitVec 32) (k0_hw119 : k0_chk119 v980), ∀ a, (k0_off159 v980) a + S1x64.size a ≤ S500000x64.size a := fun v980 k0_hw119 => k0_hw119

def k0_off160 (v982 : BitVec 32) : Fin 2 → Nat :=
  let c0_i32_239 : BitVec 32 := 0#32
  ![v982.toNat, 0]

def k0_chk120 (v982 : BitVec 32) : Prop :=
  (∀ a, (k0_off160 v982) a + S1x64.size a ≤ S500000x64.size a)
instance k0_chk120.dec : ∀ (v982 : BitVec 32), Decidable (k0_chk120 v982) := fun v982 => decidable_of_iff' _ (Iff.of_eq (k0_chk120.eq_1 v982))
theorem k0_off160_inb : ∀ (v982 : BitVec 32) (k0_hw120 : k0_chk120 v982), ∀ a, (k0_off160 v982) a + S1x64.size a ≤ S500000x64.size a := fun v982 k0_hw120 => k0_hw120

def k0_off161 (i : grid0.Coords) : Fin 1 → Nat :=
  let arg0 : BitVec 32 := BitVec.ofNat 32 (i 0).val
  let c128_i32 : BitVec 32 := 128#32
  let v0 : BitVec 32 := Scalar.muli arg0 c128_i32
  let c40_i32 : BitVec 32 := 40#32
  let v1001 : BitVec 32 := Scalar.addi v0 c40_i32
  let v1002 : Index := Scalar.indexCast v1001
  ![v1002.toNat]
def k0_off162 (v1003 : BitVec 32) : Fin 2 → Nat :=
  let c0_i32_241 : BitVec 32 := 0#32
  ![v1003.toNat, 0]

def k0_chk121 (v1003 : BitVec 32) : Prop :=
  (∀ a, (k0_off162 v1003) a + S1x64.size a ≤ S1000000x64.size a)
instance k0_chk121.dec : ∀ (v1003 : BitVec 32), Decidable (k0_chk121 v1003) := fun v1003 => decidable_of_iff' _ (Iff.of_eq (k0_chk121.eq_1 v1003))
theorem k0_off162_inb : ∀ (v1003 : BitVec 32) (k0_hw121 : k0_chk121 v1003), ∀ a, (k0_off162 v1003) a + S1x64.size a ≤ S1000000x64.size a := fun v1003 k0_hw121 => k0_hw121

def k0_off163 (v1005 : BitVec 32) : Fin 2 → Nat :=
  let c0_i32_243 : BitVec 32 := 0#32
  ![v1005.toNat, 0]

def k0_chk122 (v1005 : BitVec 32) : Prop :=
  (∀ a, (k0_off163 v1005) a + S1x64.size a ≤ S500000x64.size a)
instance k0_chk122.dec : ∀ (v1005 : BitVec 32), Decidable (k0_chk122 v1005) := fun v1005 => decidable_of_iff' _ (Iff.of_eq (k0_chk122.eq_1 v1005))
theorem k0_off163_inb : ∀ (v1005 : BitVec 32) (k0_hw122 : k0_chk122 v1005), ∀ a, (k0_off163 v1005) a + S1x64.size a ≤ S500000x64.size a := fun v1005 k0_hw122 => k0_hw122

def k0_off164 (v1007 : BitVec 32) : Fin 2 → Nat :=
  let c0_i32_245 : BitVec 32 := 0#32
  ![v1007.toNat, 0]

def k0_chk123 (v1007 : BitVec 32) : Prop :=
  (∀ a, (k0_off164 v1007) a + S1x64.size a ≤ S500000x64.size a)
instance k0_chk123.dec : ∀ (v1007 : BitVec 32), Decidable (k0_chk123 v1007) := fun v1007 => decidable_of_iff' _ (Iff.of_eq (k0_chk123.eq_1 v1007))
theorem k0_off164_inb : ∀ (v1007 : BitVec 32) (k0_hw123 : k0_chk123 v1007), ∀ a, (k0_off164 v1007) a + S1x64.size a ≤ S500000x64.size a := fun v1007 k0_hw123 => k0_hw123

def k0_off165 (i : grid0.Coords) : Fin 1 → Nat :=
  let arg0 : BitVec 32 := BitVec.ofNat 32 (i 0).val
  let c128_i32 : BitVec 32 := 128#32
  let v0 : BitVec 32 := Scalar.muli arg0 c128_i32
  let c41_i32 : BitVec 32 := 41#32
  let v1026 : BitVec 32 := Scalar.addi v0 c41_i32
  let v1027 : Index := Scalar.indexCast v1026
  ![v1027.toNat]
def k0_off166 (v1028 : BitVec 32) : Fin 2 → Nat :=
  let c0_i32_247 : BitVec 32 := 0#32
  ![v1028.toNat, 0]

def k0_chk124 (v1028 : BitVec 32) : Prop :=
  (∀ a, (k0_off166 v1028) a + S1x64.size a ≤ S1000000x64.size a)
instance k0_chk124.dec : ∀ (v1028 : BitVec 32), Decidable (k0_chk124 v1028) := fun v1028 => decidable_of_iff' _ (Iff.of_eq (k0_chk124.eq_1 v1028))
theorem k0_off166_inb : ∀ (v1028 : BitVec 32) (k0_hw124 : k0_chk124 v1028), ∀ a, (k0_off166 v1028) a + S1x64.size a ≤ S1000000x64.size a := fun v1028 k0_hw124 => k0_hw124

def k0_off167 (v1030 : BitVec 32) : Fin 2 → Nat :=
  let c0_i32_249 : BitVec 32 := 0#32
  ![v1030.toNat, 0]

def k0_chk125 (v1030 : BitVec 32) : Prop :=
  (∀ a, (k0_off167 v1030) a + S1x64.size a ≤ S500000x64.size a)
instance k0_chk125.dec : ∀ (v1030 : BitVec 32), Decidable (k0_chk125 v1030) := fun v1030 => decidable_of_iff' _ (Iff.of_eq (k0_chk125.eq_1 v1030))
theorem k0_off167_inb : ∀ (v1030 : BitVec 32) (k0_hw125 : k0_chk125 v1030), ∀ a, (k0_off167 v1030) a + S1x64.size a ≤ S500000x64.size a := fun v1030 k0_hw125 => k0_hw125

def k0_off168 (v1032 : BitVec 32) : Fin 2 → Nat :=
  let c0_i32_251 : BitVec 32 := 0#32
  ![v1032.toNat, 0]

def k0_chk126 (v1032 : BitVec 32) : Prop :=
  (∀ a, (k0_off168 v1032) a + S1x64.size a ≤ S500000x64.size a)
instance k0_chk126.dec : ∀ (v1032 : BitVec 32), Decidable (k0_chk126 v1032) := fun v1032 => decidable_of_iff' _ (Iff.of_eq (k0_chk126.eq_1 v1032))
theorem k0_off168_inb : ∀ (v1032 : BitVec 32) (k0_hw126 : k0_chk126 v1032), ∀ a, (k0_off168 v1032) a + S1x64.size a ≤ S500000x64.size a := fun v1032 k0_hw126 => k0_hw126

def k0_off169 (i : grid0.Coords) : Fin 1 → Nat :=
  let arg0 : BitVec 32 := BitVec.ofNat 32 (i 0).val
  let c128_i32 : BitVec 32 := 128#32
  let v0 : BitVec 32 := Scalar.muli arg0 c128_i32
  let c42_i32 : BitVec 32 := 42#32
  let v1051 : BitVec 32 := Scalar.addi v0 c42_i32
  let v1052 : Index := Scalar.indexCast v1051
  ![v1052.toNat]
def k0_off170 (v1053 : BitVec 32) : Fin 2 → Nat :=
  let c0_i32_253 : BitVec 32 := 0#32
  ![v1053.toNat, 0]

def k0_chk127 (v1053 : BitVec 32) : Prop :=
  (∀ a, (k0_off170 v1053) a + S1x64.size a ≤ S1000000x64.size a)
instance k0_chk127.dec : ∀ (v1053 : BitVec 32), Decidable (k0_chk127 v1053) := fun v1053 => decidable_of_iff' _ (Iff.of_eq (k0_chk127.eq_1 v1053))
theorem k0_off170_inb : ∀ (v1053 : BitVec 32) (k0_hw127 : k0_chk127 v1053), ∀ a, (k0_off170 v1053) a + S1x64.size a ≤ S1000000x64.size a := fun v1053 k0_hw127 => k0_hw127

def k0_off171 (v1055 : BitVec 32) : Fin 2 → Nat :=
  let c0_i32_255 : BitVec 32 := 0#32
  ![v1055.toNat, 0]

def k0_chk128 (v1055 : BitVec 32) : Prop :=
  (∀ a, (k0_off171 v1055) a + S1x64.size a ≤ S500000x64.size a)
instance k0_chk128.dec : ∀ (v1055 : BitVec 32), Decidable (k0_chk128 v1055) := fun v1055 => decidable_of_iff' _ (Iff.of_eq (k0_chk128.eq_1 v1055))
theorem k0_off171_inb : ∀ (v1055 : BitVec 32) (k0_hw128 : k0_chk128 v1055), ∀ a, (k0_off171 v1055) a + S1x64.size a ≤ S500000x64.size a := fun v1055 k0_hw128 => k0_hw128

def k0_off172 (v1057 : BitVec 32) : Fin 2 → Nat :=
  let c0_i32_257 : BitVec 32 := 0#32
  ![v1057.toNat, 0]

def k0_chk129 (v1057 : BitVec 32) : Prop :=
  (∀ a, (k0_off172 v1057) a + S1x64.size a ≤ S500000x64.size a)
instance k0_chk129.dec : ∀ (v1057 : BitVec 32), Decidable (k0_chk129 v1057) := fun v1057 => decidable_of_iff' _ (Iff.of_eq (k0_chk129.eq_1 v1057))
theorem k0_off172_inb : ∀ (v1057 : BitVec 32) (k0_hw129 : k0_chk129 v1057), ∀ a, (k0_off172 v1057) a + S1x64.size a ≤ S500000x64.size a := fun v1057 k0_hw129 => k0_hw129

def k0_off173 (i : grid0.Coords) : Fin 1 → Nat :=
  let arg0 : BitVec 32 := BitVec.ofNat 32 (i 0).val
  let c128_i32 : BitVec 32 := 128#32
  let v0 : BitVec 32 := Scalar.muli arg0 c128_i32
  let c43_i32 : BitVec 32 := 43#32
  let v1076 : BitVec 32 := Scalar.addi v0 c43_i32
  let v1077 : Index := Scalar.indexCast v1076
  ![v1077.toNat]
def k0_off174 (v1078 : BitVec 32) : Fin 2 → Nat :=
  let c0_i32_259 : BitVec 32 := 0#32
  ![v1078.toNat, 0]

def k0_chk130 (v1078 : BitVec 32) : Prop :=
  (∀ a, (k0_off174 v1078) a + S1x64.size a ≤ S1000000x64.size a)
instance k0_chk130.dec : ∀ (v1078 : BitVec 32), Decidable (k0_chk130 v1078) := fun v1078 => decidable_of_iff' _ (Iff.of_eq (k0_chk130.eq_1 v1078))
theorem k0_off174_inb : ∀ (v1078 : BitVec 32) (k0_hw130 : k0_chk130 v1078), ∀ a, (k0_off174 v1078) a + S1x64.size a ≤ S1000000x64.size a := fun v1078 k0_hw130 => k0_hw130

def k0_off175 (v1080 : BitVec 32) : Fin 2 → Nat :=
  let c0_i32_261 : BitVec 32 := 0#32
  ![v1080.toNat, 0]

def k0_chk131 (v1080 : BitVec 32) : Prop :=
  (∀ a, (k0_off175 v1080) a + S1x64.size a ≤ S500000x64.size a)
instance k0_chk131.dec : ∀ (v1080 : BitVec 32), Decidable (k0_chk131 v1080) := fun v1080 => decidable_of_iff' _ (Iff.of_eq (k0_chk131.eq_1 v1080))
theorem k0_off175_inb : ∀ (v1080 : BitVec 32) (k0_hw131 : k0_chk131 v1080), ∀ a, (k0_off175 v1080) a + S1x64.size a ≤ S500000x64.size a := fun v1080 k0_hw131 => k0_hw131

def k0_off176 (v1082 : BitVec 32) : Fin 2 → Nat :=
  let c0_i32_263 : BitVec 32 := 0#32
  ![v1082.toNat, 0]

def k0_chk132 (v1082 : BitVec 32) : Prop :=
  (∀ a, (k0_off176 v1082) a + S1x64.size a ≤ S500000x64.size a)
instance k0_chk132.dec : ∀ (v1082 : BitVec 32), Decidable (k0_chk132 v1082) := fun v1082 => decidable_of_iff' _ (Iff.of_eq (k0_chk132.eq_1 v1082))
theorem k0_off176_inb : ∀ (v1082 : BitVec 32) (k0_hw132 : k0_chk132 v1082), ∀ a, (k0_off176 v1082) a + S1x64.size a ≤ S500000x64.size a := fun v1082 k0_hw132 => k0_hw132

def k0_off177 (i : grid0.Coords) : Fin 1 → Nat :=
  let arg0 : BitVec 32 := BitVec.ofNat 32 (i 0).val
  let c128_i32 : BitVec 32 := 128#32
  let v0 : BitVec 32 := Scalar.muli arg0 c128_i32
  let c44_i32 : BitVec 32 := 44#32
  let v1101 : BitVec 32 := Scalar.addi v0 c44_i32
  let v1102 : Index := Scalar.indexCast v1101
  ![v1102.toNat]
def k0_off178 (v1103 : BitVec 32) : Fin 2 → Nat :=
  let c0_i32_265 : BitVec 32 := 0#32
  ![v1103.toNat, 0]

def k0_chk133 (v1103 : BitVec 32) : Prop :=
  (∀ a, (k0_off178 v1103) a + S1x64.size a ≤ S1000000x64.size a)
instance k0_chk133.dec : ∀ (v1103 : BitVec 32), Decidable (k0_chk133 v1103) := fun v1103 => decidable_of_iff' _ (Iff.of_eq (k0_chk133.eq_1 v1103))
theorem k0_off178_inb : ∀ (v1103 : BitVec 32) (k0_hw133 : k0_chk133 v1103), ∀ a, (k0_off178 v1103) a + S1x64.size a ≤ S1000000x64.size a := fun v1103 k0_hw133 => k0_hw133

def k0_off179 (v1105 : BitVec 32) : Fin 2 → Nat :=
  let c0_i32_267 : BitVec 32 := 0#32
  ![v1105.toNat, 0]

def k0_chk134 (v1105 : BitVec 32) : Prop :=
  (∀ a, (k0_off179 v1105) a + S1x64.size a ≤ S500000x64.size a)
instance k0_chk134.dec : ∀ (v1105 : BitVec 32), Decidable (k0_chk134 v1105) := fun v1105 => decidable_of_iff' _ (Iff.of_eq (k0_chk134.eq_1 v1105))
theorem k0_off179_inb : ∀ (v1105 : BitVec 32) (k0_hw134 : k0_chk134 v1105), ∀ a, (k0_off179 v1105) a + S1x64.size a ≤ S500000x64.size a := fun v1105 k0_hw134 => k0_hw134

def k0_off180 (v1107 : BitVec 32) : Fin 2 → Nat :=
  let c0_i32_269 : BitVec 32 := 0#32
  ![v1107.toNat, 0]

def k0_chk135 (v1107 : BitVec 32) : Prop :=
  (∀ a, (k0_off180 v1107) a + S1x64.size a ≤ S500000x64.size a)
instance k0_chk135.dec : ∀ (v1107 : BitVec 32), Decidable (k0_chk135 v1107) := fun v1107 => decidable_of_iff' _ (Iff.of_eq (k0_chk135.eq_1 v1107))
theorem k0_off180_inb : ∀ (v1107 : BitVec 32) (k0_hw135 : k0_chk135 v1107), ∀ a, (k0_off180 v1107) a + S1x64.size a ≤ S500000x64.size a := fun v1107 k0_hw135 => k0_hw135

def k0_off181 (i : grid0.Coords) : Fin 1 → Nat :=
  let arg0 : BitVec 32 := BitVec.ofNat 32 (i 0).val
  let c128_i32 : BitVec 32 := 128#32
  let v0 : BitVec 32 := Scalar.muli arg0 c128_i32
  let c45_i32 : BitVec 32 := 45#32
  let v1126 : BitVec 32 := Scalar.addi v0 c45_i32
  let v1127 : Index := Scalar.indexCast v1126
  ![v1127.toNat]
def k0_off182 (v1128 : BitVec 32) : Fin 2 → Nat :=
  let c0_i32_271 : BitVec 32 := 0#32
  ![v1128.toNat, 0]

def k0_chk136 (v1128 : BitVec 32) : Prop :=
  (∀ a, (k0_off182 v1128) a + S1x64.size a ≤ S1000000x64.size a)
instance k0_chk136.dec : ∀ (v1128 : BitVec 32), Decidable (k0_chk136 v1128) := fun v1128 => decidable_of_iff' _ (Iff.of_eq (k0_chk136.eq_1 v1128))
theorem k0_off182_inb : ∀ (v1128 : BitVec 32) (k0_hw136 : k0_chk136 v1128), ∀ a, (k0_off182 v1128) a + S1x64.size a ≤ S1000000x64.size a := fun v1128 k0_hw136 => k0_hw136

def k0_off183 (v1130 : BitVec 32) : Fin 2 → Nat :=
  let c0_i32_273 : BitVec 32 := 0#32
  ![v1130.toNat, 0]

def k0_chk137 (v1130 : BitVec 32) : Prop :=
  (∀ a, (k0_off183 v1130) a + S1x64.size a ≤ S500000x64.size a)
instance k0_chk137.dec : ∀ (v1130 : BitVec 32), Decidable (k0_chk137 v1130) := fun v1130 => decidable_of_iff' _ (Iff.of_eq (k0_chk137.eq_1 v1130))
theorem k0_off183_inb : ∀ (v1130 : BitVec 32) (k0_hw137 : k0_chk137 v1130), ∀ a, (k0_off183 v1130) a + S1x64.size a ≤ S500000x64.size a := fun v1130 k0_hw137 => k0_hw137

def k0_off184 (v1132 : BitVec 32) : Fin 2 → Nat :=
  let c0_i32_275 : BitVec 32 := 0#32
  ![v1132.toNat, 0]

def k0_chk138 (v1132 : BitVec 32) : Prop :=
  (∀ a, (k0_off184 v1132) a + S1x64.size a ≤ S500000x64.size a)
instance k0_chk138.dec : ∀ (v1132 : BitVec 32), Decidable (k0_chk138 v1132) := fun v1132 => decidable_of_iff' _ (Iff.of_eq (k0_chk138.eq_1 v1132))
theorem k0_off184_inb : ∀ (v1132 : BitVec 32) (k0_hw138 : k0_chk138 v1132), ∀ a, (k0_off184 v1132) a + S1x64.size a ≤ S500000x64.size a := fun v1132 k0_hw138 => k0_hw138

def k0_off185 (i : grid0.Coords) : Fin 1 → Nat :=
  let arg0 : BitVec 32 := BitVec.ofNat 32 (i 0).val
  let c128_i32 : BitVec 32 := 128#32
  let v0 : BitVec 32 := Scalar.muli arg0 c128_i32
  let c46_i32 : BitVec 32 := 46#32
  let v1151 : BitVec 32 := Scalar.addi v0 c46_i32
  let v1152 : Index := Scalar.indexCast v1151
  ![v1152.toNat]
def k0_off186 (v1153 : BitVec 32) : Fin 2 → Nat :=
  let c0_i32_277 : BitVec 32 := 0#32
  ![v1153.toNat, 0]

def k0_chk139 (v1153 : BitVec 32) : Prop :=
  (∀ a, (k0_off186 v1153) a + S1x64.size a ≤ S1000000x64.size a)
instance k0_chk139.dec : ∀ (v1153 : BitVec 32), Decidable (k0_chk139 v1153) := fun v1153 => decidable_of_iff' _ (Iff.of_eq (k0_chk139.eq_1 v1153))
theorem k0_off186_inb : ∀ (v1153 : BitVec 32) (k0_hw139 : k0_chk139 v1153), ∀ a, (k0_off186 v1153) a + S1x64.size a ≤ S1000000x64.size a := fun v1153 k0_hw139 => k0_hw139

def k0_off187 (v1155 : BitVec 32) : Fin 2 → Nat :=
  let c0_i32_279 : BitVec 32 := 0#32
  ![v1155.toNat, 0]

def k0_chk140 (v1155 : BitVec 32) : Prop :=
  (∀ a, (k0_off187 v1155) a + S1x64.size a ≤ S500000x64.size a)
instance k0_chk140.dec : ∀ (v1155 : BitVec 32), Decidable (k0_chk140 v1155) := fun v1155 => decidable_of_iff' _ (Iff.of_eq (k0_chk140.eq_1 v1155))
theorem k0_off187_inb : ∀ (v1155 : BitVec 32) (k0_hw140 : k0_chk140 v1155), ∀ a, (k0_off187 v1155) a + S1x64.size a ≤ S500000x64.size a := fun v1155 k0_hw140 => k0_hw140

def k0_off188 (v1157 : BitVec 32) : Fin 2 → Nat :=
  let c0_i32_281 : BitVec 32 := 0#32
  ![v1157.toNat, 0]

def k0_chk141 (v1157 : BitVec 32) : Prop :=
  (∀ a, (k0_off188 v1157) a + S1x64.size a ≤ S500000x64.size a)
instance k0_chk141.dec : ∀ (v1157 : BitVec 32), Decidable (k0_chk141 v1157) := fun v1157 => decidable_of_iff' _ (Iff.of_eq (k0_chk141.eq_1 v1157))
theorem k0_off188_inb : ∀ (v1157 : BitVec 32) (k0_hw141 : k0_chk141 v1157), ∀ a, (k0_off188 v1157) a + S1x64.size a ≤ S500000x64.size a := fun v1157 k0_hw141 => k0_hw141

def k0_off189 (i : grid0.Coords) : Fin 1 → Nat :=
  let arg0 : BitVec 32 := BitVec.ofNat 32 (i 0).val
  let c128_i32 : BitVec 32 := 128#32
  let v0 : BitVec 32 := Scalar.muli arg0 c128_i32
  let c47_i32 : BitVec 32 := 47#32
  let v1176 : BitVec 32 := Scalar.addi v0 c47_i32
  let v1177 : Index := Scalar.indexCast v1176
  ![v1177.toNat]
def k0_off190 (v1178 : BitVec 32) : Fin 2 → Nat :=
  let c0_i32_283 : BitVec 32 := 0#32
  ![v1178.toNat, 0]

def k0_chk142 (v1178 : BitVec 32) : Prop :=
  (∀ a, (k0_off190 v1178) a + S1x64.size a ≤ S1000000x64.size a)
instance k0_chk142.dec : ∀ (v1178 : BitVec 32), Decidable (k0_chk142 v1178) := fun v1178 => decidable_of_iff' _ (Iff.of_eq (k0_chk142.eq_1 v1178))
theorem k0_off190_inb : ∀ (v1178 : BitVec 32) (k0_hw142 : k0_chk142 v1178), ∀ a, (k0_off190 v1178) a + S1x64.size a ≤ S1000000x64.size a := fun v1178 k0_hw142 => k0_hw142

def k0_off191 (v1180 : BitVec 32) : Fin 2 → Nat :=
  let c0_i32_285 : BitVec 32 := 0#32
  ![v1180.toNat, 0]

def k0_chk143 (v1180 : BitVec 32) : Prop :=
  (∀ a, (k0_off191 v1180) a + S1x64.size a ≤ S500000x64.size a)
instance k0_chk143.dec : ∀ (v1180 : BitVec 32), Decidable (k0_chk143 v1180) := fun v1180 => decidable_of_iff' _ (Iff.of_eq (k0_chk143.eq_1 v1180))
theorem k0_off191_inb : ∀ (v1180 : BitVec 32) (k0_hw143 : k0_chk143 v1180), ∀ a, (k0_off191 v1180) a + S1x64.size a ≤ S500000x64.size a := fun v1180 k0_hw143 => k0_hw143

def k0_off192 (v1182 : BitVec 32) : Fin 2 → Nat :=
  let c0_i32_287 : BitVec 32 := 0#32
  ![v1182.toNat, 0]

def k0_chk144 (v1182 : BitVec 32) : Prop :=
  (∀ a, (k0_off192 v1182) a + S1x64.size a ≤ S500000x64.size a)
instance k0_chk144.dec : ∀ (v1182 : BitVec 32), Decidable (k0_chk144 v1182) := fun v1182 => decidable_of_iff' _ (Iff.of_eq (k0_chk144.eq_1 v1182))
theorem k0_off192_inb : ∀ (v1182 : BitVec 32) (k0_hw144 : k0_chk144 v1182), ∀ a, (k0_off192 v1182) a + S1x64.size a ≤ S500000x64.size a := fun v1182 k0_hw144 => k0_hw144

def k0_off193 (i : grid0.Coords) : Fin 1 → Nat :=
  let arg0 : BitVec 32 := BitVec.ofNat 32 (i 0).val
  let c128_i32 : BitVec 32 := 128#32
  let v0 : BitVec 32 := Scalar.muli arg0 c128_i32
  let c48_i32 : BitVec 32 := 48#32
  let v1201 : BitVec 32 := Scalar.addi v0 c48_i32
  let v1202 : Index := Scalar.indexCast v1201
  ![v1202.toNat]
def k0_off194 (v1203 : BitVec 32) : Fin 2 → Nat :=
  let c0_i32_289 : BitVec 32 := 0#32
  ![v1203.toNat, 0]

def k0_chk145 (v1203 : BitVec 32) : Prop :=
  (∀ a, (k0_off194 v1203) a + S1x64.size a ≤ S1000000x64.size a)
instance k0_chk145.dec : ∀ (v1203 : BitVec 32), Decidable (k0_chk145 v1203) := fun v1203 => decidable_of_iff' _ (Iff.of_eq (k0_chk145.eq_1 v1203))
theorem k0_off194_inb : ∀ (v1203 : BitVec 32) (k0_hw145 : k0_chk145 v1203), ∀ a, (k0_off194 v1203) a + S1x64.size a ≤ S1000000x64.size a := fun v1203 k0_hw145 => k0_hw145

def k0_off195 (v1205 : BitVec 32) : Fin 2 → Nat :=
  let c0_i32_291 : BitVec 32 := 0#32
  ![v1205.toNat, 0]

def k0_chk146 (v1205 : BitVec 32) : Prop :=
  (∀ a, (k0_off195 v1205) a + S1x64.size a ≤ S500000x64.size a)
instance k0_chk146.dec : ∀ (v1205 : BitVec 32), Decidable (k0_chk146 v1205) := fun v1205 => decidable_of_iff' _ (Iff.of_eq (k0_chk146.eq_1 v1205))
theorem k0_off195_inb : ∀ (v1205 : BitVec 32) (k0_hw146 : k0_chk146 v1205), ∀ a, (k0_off195 v1205) a + S1x64.size a ≤ S500000x64.size a := fun v1205 k0_hw146 => k0_hw146

def k0_off196 (v1207 : BitVec 32) : Fin 2 → Nat :=
  let c0_i32_293 : BitVec 32 := 0#32
  ![v1207.toNat, 0]

def k0_chk147 (v1207 : BitVec 32) : Prop :=
  (∀ a, (k0_off196 v1207) a + S1x64.size a ≤ S500000x64.size a)
instance k0_chk147.dec : ∀ (v1207 : BitVec 32), Decidable (k0_chk147 v1207) := fun v1207 => decidable_of_iff' _ (Iff.of_eq (k0_chk147.eq_1 v1207))
theorem k0_off196_inb : ∀ (v1207 : BitVec 32) (k0_hw147 : k0_chk147 v1207), ∀ a, (k0_off196 v1207) a + S1x64.size a ≤ S500000x64.size a := fun v1207 k0_hw147 => k0_hw147

def k0_off197 (i : grid0.Coords) : Fin 1 → Nat :=
  let arg0 : BitVec 32 := BitVec.ofNat 32 (i 0).val
  let c128_i32 : BitVec 32 := 128#32
  let v0 : BitVec 32 := Scalar.muli arg0 c128_i32
  let c49_i32 : BitVec 32 := 49#32
  let v1226 : BitVec 32 := Scalar.addi v0 c49_i32
  let v1227 : Index := Scalar.indexCast v1226
  ![v1227.toNat]
def k0_off198 (v1228 : BitVec 32) : Fin 2 → Nat :=
  let c0_i32_295 : BitVec 32 := 0#32
  ![v1228.toNat, 0]

def k0_chk148 (v1228 : BitVec 32) : Prop :=
  (∀ a, (k0_off198 v1228) a + S1x64.size a ≤ S1000000x64.size a)
instance k0_chk148.dec : ∀ (v1228 : BitVec 32), Decidable (k0_chk148 v1228) := fun v1228 => decidable_of_iff' _ (Iff.of_eq (k0_chk148.eq_1 v1228))
theorem k0_off198_inb : ∀ (v1228 : BitVec 32) (k0_hw148 : k0_chk148 v1228), ∀ a, (k0_off198 v1228) a + S1x64.size a ≤ S1000000x64.size a := fun v1228 k0_hw148 => k0_hw148

def k0_off199 (v1230 : BitVec 32) : Fin 2 → Nat :=
  let c0_i32_297 : BitVec 32 := 0#32
  ![v1230.toNat, 0]

def k0_chk149 (v1230 : BitVec 32) : Prop :=
  (∀ a, (k0_off199 v1230) a + S1x64.size a ≤ S500000x64.size a)
instance k0_chk149.dec : ∀ (v1230 : BitVec 32), Decidable (k0_chk149 v1230) := fun v1230 => decidable_of_iff' _ (Iff.of_eq (k0_chk149.eq_1 v1230))
theorem k0_off199_inb : ∀ (v1230 : BitVec 32) (k0_hw149 : k0_chk149 v1230), ∀ a, (k0_off199 v1230) a + S1x64.size a ≤ S500000x64.size a := fun v1230 k0_hw149 => k0_hw149

def k0_off200 (v1232 : BitVec 32) : Fin 2 → Nat :=
  let c0_i32_299 : BitVec 32 := 0#32
  ![v1232.toNat, 0]

def k0_chk150 (v1232 : BitVec 32) : Prop :=
  (∀ a, (k0_off200 v1232) a + S1x64.size a ≤ S500000x64.size a)
instance k0_chk150.dec : ∀ (v1232 : BitVec 32), Decidable (k0_chk150 v1232) := fun v1232 => decidable_of_iff' _ (Iff.of_eq (k0_chk150.eq_1 v1232))
theorem k0_off200_inb : ∀ (v1232 : BitVec 32) (k0_hw150 : k0_chk150 v1232), ∀ a, (k0_off200 v1232) a + S1x64.size a ≤ S500000x64.size a := fun v1232 k0_hw150 => k0_hw150

def k0_off201 (i : grid0.Coords) : Fin 1 → Nat :=
  let arg0 : BitVec 32 := BitVec.ofNat 32 (i 0).val
  let c128_i32 : BitVec 32 := 128#32
  let v0 : BitVec 32 := Scalar.muli arg0 c128_i32
  let c50_i32 : BitVec 32 := 50#32
  let v1251 : BitVec 32 := Scalar.addi v0 c50_i32
  let v1252 : Index := Scalar.indexCast v1251
  ![v1252.toNat]
def k0_off202 (v1253 : BitVec 32) : Fin 2 → Nat :=
  let c0_i32_301 : BitVec 32 := 0#32
  ![v1253.toNat, 0]

def k0_chk151 (v1253 : BitVec 32) : Prop :=
  (∀ a, (k0_off202 v1253) a + S1x64.size a ≤ S1000000x64.size a)
instance k0_chk151.dec : ∀ (v1253 : BitVec 32), Decidable (k0_chk151 v1253) := fun v1253 => decidable_of_iff' _ (Iff.of_eq (k0_chk151.eq_1 v1253))
theorem k0_off202_inb : ∀ (v1253 : BitVec 32) (k0_hw151 : k0_chk151 v1253), ∀ a, (k0_off202 v1253) a + S1x64.size a ≤ S1000000x64.size a := fun v1253 k0_hw151 => k0_hw151

def k0_off203 (v1255 : BitVec 32) : Fin 2 → Nat :=
  let c0_i32_303 : BitVec 32 := 0#32
  ![v1255.toNat, 0]

def k0_chk152 (v1255 : BitVec 32) : Prop :=
  (∀ a, (k0_off203 v1255) a + S1x64.size a ≤ S500000x64.size a)
instance k0_chk152.dec : ∀ (v1255 : BitVec 32), Decidable (k0_chk152 v1255) := fun v1255 => decidable_of_iff' _ (Iff.of_eq (k0_chk152.eq_1 v1255))
theorem k0_off203_inb : ∀ (v1255 : BitVec 32) (k0_hw152 : k0_chk152 v1255), ∀ a, (k0_off203 v1255) a + S1x64.size a ≤ S500000x64.size a := fun v1255 k0_hw152 => k0_hw152

def k0_off204 (v1257 : BitVec 32) : Fin 2 → Nat :=
  let c0_i32_305 : BitVec 32 := 0#32
  ![v1257.toNat, 0]

def k0_chk153 (v1257 : BitVec 32) : Prop :=
  (∀ a, (k0_off204 v1257) a + S1x64.size a ≤ S500000x64.size a)
instance k0_chk153.dec : ∀ (v1257 : BitVec 32), Decidable (k0_chk153 v1257) := fun v1257 => decidable_of_iff' _ (Iff.of_eq (k0_chk153.eq_1 v1257))
theorem k0_off204_inb : ∀ (v1257 : BitVec 32) (k0_hw153 : k0_chk153 v1257), ∀ a, (k0_off204 v1257) a + S1x64.size a ≤ S500000x64.size a := fun v1257 k0_hw153 => k0_hw153

def k0_off205 (i : grid0.Coords) : Fin 1 → Nat :=
  let arg0 : BitVec 32 := BitVec.ofNat 32 (i 0).val
  let c128_i32 : BitVec 32 := 128#32
  let v0 : BitVec 32 := Scalar.muli arg0 c128_i32
  let c51_i32 : BitVec 32 := 51#32
  let v1276 : BitVec 32 := Scalar.addi v0 c51_i32
  let v1277 : Index := Scalar.indexCast v1276
  ![v1277.toNat]
def k0_off206 (v1278 : BitVec 32) : Fin 2 → Nat :=
  let c0_i32_307 : BitVec 32 := 0#32
  ![v1278.toNat, 0]

def k0_chk154 (v1278 : BitVec 32) : Prop :=
  (∀ a, (k0_off206 v1278) a + S1x64.size a ≤ S1000000x64.size a)
instance k0_chk154.dec : ∀ (v1278 : BitVec 32), Decidable (k0_chk154 v1278) := fun v1278 => decidable_of_iff' _ (Iff.of_eq (k0_chk154.eq_1 v1278))
theorem k0_off206_inb : ∀ (v1278 : BitVec 32) (k0_hw154 : k0_chk154 v1278), ∀ a, (k0_off206 v1278) a + S1x64.size a ≤ S1000000x64.size a := fun v1278 k0_hw154 => k0_hw154

def k0_off207 (v1280 : BitVec 32) : Fin 2 → Nat :=
  let c0_i32_309 : BitVec 32 := 0#32
  ![v1280.toNat, 0]

def k0_chk155 (v1280 : BitVec 32) : Prop :=
  (∀ a, (k0_off207 v1280) a + S1x64.size a ≤ S500000x64.size a)
instance k0_chk155.dec : ∀ (v1280 : BitVec 32), Decidable (k0_chk155 v1280) := fun v1280 => decidable_of_iff' _ (Iff.of_eq (k0_chk155.eq_1 v1280))
theorem k0_off207_inb : ∀ (v1280 : BitVec 32) (k0_hw155 : k0_chk155 v1280), ∀ a, (k0_off207 v1280) a + S1x64.size a ≤ S500000x64.size a := fun v1280 k0_hw155 => k0_hw155

def k0_off208 (v1282 : BitVec 32) : Fin 2 → Nat :=
  let c0_i32_311 : BitVec 32 := 0#32
  ![v1282.toNat, 0]

def k0_chk156 (v1282 : BitVec 32) : Prop :=
  (∀ a, (k0_off208 v1282) a + S1x64.size a ≤ S500000x64.size a)
instance k0_chk156.dec : ∀ (v1282 : BitVec 32), Decidable (k0_chk156 v1282) := fun v1282 => decidable_of_iff' _ (Iff.of_eq (k0_chk156.eq_1 v1282))
theorem k0_off208_inb : ∀ (v1282 : BitVec 32) (k0_hw156 : k0_chk156 v1282), ∀ a, (k0_off208 v1282) a + S1x64.size a ≤ S500000x64.size a := fun v1282 k0_hw156 => k0_hw156

def k0_off209 (i : grid0.Coords) : Fin 1 → Nat :=
  let arg0 : BitVec 32 := BitVec.ofNat 32 (i 0).val
  let c128_i32 : BitVec 32 := 128#32
  let v0 : BitVec 32 := Scalar.muli arg0 c128_i32
  let c52_i32 : BitVec 32 := 52#32
  let v1301 : BitVec 32 := Scalar.addi v0 c52_i32
  let v1302 : Index := Scalar.indexCast v1301
  ![v1302.toNat]
def k0_off210 (v1303 : BitVec 32) : Fin 2 → Nat :=
  let c0_i32_313 : BitVec 32 := 0#32
  ![v1303.toNat, 0]

def k0_chk157 (v1303 : BitVec 32) : Prop :=
  (∀ a, (k0_off210 v1303) a + S1x64.size a ≤ S1000000x64.size a)
instance k0_chk157.dec : ∀ (v1303 : BitVec 32), Decidable (k0_chk157 v1303) := fun v1303 => decidable_of_iff' _ (Iff.of_eq (k0_chk157.eq_1 v1303))
theorem k0_off210_inb : ∀ (v1303 : BitVec 32) (k0_hw157 : k0_chk157 v1303), ∀ a, (k0_off210 v1303) a + S1x64.size a ≤ S1000000x64.size a := fun v1303 k0_hw157 => k0_hw157

def k0_off211 (v1305 : BitVec 32) : Fin 2 → Nat :=
  let c0_i32_315 : BitVec 32 := 0#32
  ![v1305.toNat, 0]

def k0_chk158 (v1305 : BitVec 32) : Prop :=
  (∀ a, (k0_off211 v1305) a + S1x64.size a ≤ S500000x64.size a)
instance k0_chk158.dec : ∀ (v1305 : BitVec 32), Decidable (k0_chk158 v1305) := fun v1305 => decidable_of_iff' _ (Iff.of_eq (k0_chk158.eq_1 v1305))
theorem k0_off211_inb : ∀ (v1305 : BitVec 32) (k0_hw158 : k0_chk158 v1305), ∀ a, (k0_off211 v1305) a + S1x64.size a ≤ S500000x64.size a := fun v1305 k0_hw158 => k0_hw158

def k0_off212 (v1307 : BitVec 32) : Fin 2 → Nat :=
  let c0_i32_317 : BitVec 32 := 0#32
  ![v1307.toNat, 0]

def k0_chk159 (v1307 : BitVec 32) : Prop :=
  (∀ a, (k0_off212 v1307) a + S1x64.size a ≤ S500000x64.size a)
instance k0_chk159.dec : ∀ (v1307 : BitVec 32), Decidable (k0_chk159 v1307) := fun v1307 => decidable_of_iff' _ (Iff.of_eq (k0_chk159.eq_1 v1307))
theorem k0_off212_inb : ∀ (v1307 : BitVec 32) (k0_hw159 : k0_chk159 v1307), ∀ a, (k0_off212 v1307) a + S1x64.size a ≤ S500000x64.size a := fun v1307 k0_hw159 => k0_hw159

def k0_off213 (i : grid0.Coords) : Fin 1 → Nat :=
  let arg0 : BitVec 32 := BitVec.ofNat 32 (i 0).val
  let c128_i32 : BitVec 32 := 128#32
  let v0 : BitVec 32 := Scalar.muli arg0 c128_i32
  let c53_i32 : BitVec 32 := 53#32
  let v1326 : BitVec 32 := Scalar.addi v0 c53_i32
  let v1327 : Index := Scalar.indexCast v1326
  ![v1327.toNat]
def k0_off214 (v1328 : BitVec 32) : Fin 2 → Nat :=
  let c0_i32_319 : BitVec 32 := 0#32
  ![v1328.toNat, 0]

def k0_chk160 (v1328 : BitVec 32) : Prop :=
  (∀ a, (k0_off214 v1328) a + S1x64.size a ≤ S1000000x64.size a)
instance k0_chk160.dec : ∀ (v1328 : BitVec 32), Decidable (k0_chk160 v1328) := fun v1328 => decidable_of_iff' _ (Iff.of_eq (k0_chk160.eq_1 v1328))
theorem k0_off214_inb : ∀ (v1328 : BitVec 32) (k0_hw160 : k0_chk160 v1328), ∀ a, (k0_off214 v1328) a + S1x64.size a ≤ S1000000x64.size a := fun v1328 k0_hw160 => k0_hw160

def k0_off215 (v1330 : BitVec 32) : Fin 2 → Nat :=
  let c0_i32_321 : BitVec 32 := 0#32
  ![v1330.toNat, 0]

def k0_chk161 (v1330 : BitVec 32) : Prop :=
  (∀ a, (k0_off215 v1330) a + S1x64.size a ≤ S500000x64.size a)
instance k0_chk161.dec : ∀ (v1330 : BitVec 32), Decidable (k0_chk161 v1330) := fun v1330 => decidable_of_iff' _ (Iff.of_eq (k0_chk161.eq_1 v1330))
theorem k0_off215_inb : ∀ (v1330 : BitVec 32) (k0_hw161 : k0_chk161 v1330), ∀ a, (k0_off215 v1330) a + S1x64.size a ≤ S500000x64.size a := fun v1330 k0_hw161 => k0_hw161

def k0_off216 (v1332 : BitVec 32) : Fin 2 → Nat :=
  let c0_i32_323 : BitVec 32 := 0#32
  ![v1332.toNat, 0]

def k0_chk162 (v1332 : BitVec 32) : Prop :=
  (∀ a, (k0_off216 v1332) a + S1x64.size a ≤ S500000x64.size a)
instance k0_chk162.dec : ∀ (v1332 : BitVec 32), Decidable (k0_chk162 v1332) := fun v1332 => decidable_of_iff' _ (Iff.of_eq (k0_chk162.eq_1 v1332))
theorem k0_off216_inb : ∀ (v1332 : BitVec 32) (k0_hw162 : k0_chk162 v1332), ∀ a, (k0_off216 v1332) a + S1x64.size a ≤ S500000x64.size a := fun v1332 k0_hw162 => k0_hw162

def k0_off217 (i : grid0.Coords) : Fin 1 → Nat :=
  let arg0 : BitVec 32 := BitVec.ofNat 32 (i 0).val
  let c128_i32 : BitVec 32 := 128#32
  let v0 : BitVec 32 := Scalar.muli arg0 c128_i32
  let c54_i32 : BitVec 32 := 54#32
  let v1351 : BitVec 32 := Scalar.addi v0 c54_i32
  let v1352 : Index := Scalar.indexCast v1351
  ![v1352.toNat]
def k0_off218 (v1353 : BitVec 32) : Fin 2 → Nat :=
  let c0_i32_325 : BitVec 32 := 0#32
  ![v1353.toNat, 0]

def k0_chk163 (v1353 : BitVec 32) : Prop :=
  (∀ a, (k0_off218 v1353) a + S1x64.size a ≤ S1000000x64.size a)
instance k0_chk163.dec : ∀ (v1353 : BitVec 32), Decidable (k0_chk163 v1353) := fun v1353 => decidable_of_iff' _ (Iff.of_eq (k0_chk163.eq_1 v1353))
theorem k0_off218_inb : ∀ (v1353 : BitVec 32) (k0_hw163 : k0_chk163 v1353), ∀ a, (k0_off218 v1353) a + S1x64.size a ≤ S1000000x64.size a := fun v1353 k0_hw163 => k0_hw163

def k0_off219 (v1355 : BitVec 32) : Fin 2 → Nat :=
  let c0_i32_327 : BitVec 32 := 0#32
  ![v1355.toNat, 0]

def k0_chk164 (v1355 : BitVec 32) : Prop :=
  (∀ a, (k0_off219 v1355) a + S1x64.size a ≤ S500000x64.size a)
instance k0_chk164.dec : ∀ (v1355 : BitVec 32), Decidable (k0_chk164 v1355) := fun v1355 => decidable_of_iff' _ (Iff.of_eq (k0_chk164.eq_1 v1355))
theorem k0_off219_inb : ∀ (v1355 : BitVec 32) (k0_hw164 : k0_chk164 v1355), ∀ a, (k0_off219 v1355) a + S1x64.size a ≤ S500000x64.size a := fun v1355 k0_hw164 => k0_hw164

def k0_off220 (v1357 : BitVec 32) : Fin 2 → Nat :=
  let c0_i32_329 : BitVec 32 := 0#32
  ![v1357.toNat, 0]

def k0_chk165 (v1357 : BitVec 32) : Prop :=
  (∀ a, (k0_off220 v1357) a + S1x64.size a ≤ S500000x64.size a)
instance k0_chk165.dec : ∀ (v1357 : BitVec 32), Decidable (k0_chk165 v1357) := fun v1357 => decidable_of_iff' _ (Iff.of_eq (k0_chk165.eq_1 v1357))
theorem k0_off220_inb : ∀ (v1357 : BitVec 32) (k0_hw165 : k0_chk165 v1357), ∀ a, (k0_off220 v1357) a + S1x64.size a ≤ S500000x64.size a := fun v1357 k0_hw165 => k0_hw165

def k0_off221 (i : grid0.Coords) : Fin 1 → Nat :=
  let arg0 : BitVec 32 := BitVec.ofNat 32 (i 0).val
  let c128_i32 : BitVec 32 := 128#32
  let v0 : BitVec 32 := Scalar.muli arg0 c128_i32
  let c55_i32 : BitVec 32 := 55#32
  let v1376 : BitVec 32 := Scalar.addi v0 c55_i32
  let v1377 : Index := Scalar.indexCast v1376
  ![v1377.toNat]
def k0_off222 (v1378 : BitVec 32) : Fin 2 → Nat :=
  let c0_i32_331 : BitVec 32 := 0#32
  ![v1378.toNat, 0]

def k0_chk166 (v1378 : BitVec 32) : Prop :=
  (∀ a, (k0_off222 v1378) a + S1x64.size a ≤ S1000000x64.size a)
instance k0_chk166.dec : ∀ (v1378 : BitVec 32), Decidable (k0_chk166 v1378) := fun v1378 => decidable_of_iff' _ (Iff.of_eq (k0_chk166.eq_1 v1378))
theorem k0_off222_inb : ∀ (v1378 : BitVec 32) (k0_hw166 : k0_chk166 v1378), ∀ a, (k0_off222 v1378) a + S1x64.size a ≤ S1000000x64.size a := fun v1378 k0_hw166 => k0_hw166

def k0_off223 (v1380 : BitVec 32) : Fin 2 → Nat :=
  let c0_i32_333 : BitVec 32 := 0#32
  ![v1380.toNat, 0]

def k0_chk167 (v1380 : BitVec 32) : Prop :=
  (∀ a, (k0_off223 v1380) a + S1x64.size a ≤ S500000x64.size a)
instance k0_chk167.dec : ∀ (v1380 : BitVec 32), Decidable (k0_chk167 v1380) := fun v1380 => decidable_of_iff' _ (Iff.of_eq (k0_chk167.eq_1 v1380))
theorem k0_off223_inb : ∀ (v1380 : BitVec 32) (k0_hw167 : k0_chk167 v1380), ∀ a, (k0_off223 v1380) a + S1x64.size a ≤ S500000x64.size a := fun v1380 k0_hw167 => k0_hw167

def k0_off224 (v1382 : BitVec 32) : Fin 2 → Nat :=
  let c0_i32_335 : BitVec 32 := 0#32
  ![v1382.toNat, 0]

def k0_chk168 (v1382 : BitVec 32) : Prop :=
  (∀ a, (k0_off224 v1382) a + S1x64.size a ≤ S500000x64.size a)
instance k0_chk168.dec : ∀ (v1382 : BitVec 32), Decidable (k0_chk168 v1382) := fun v1382 => decidable_of_iff' _ (Iff.of_eq (k0_chk168.eq_1 v1382))
theorem k0_off224_inb : ∀ (v1382 : BitVec 32) (k0_hw168 : k0_chk168 v1382), ∀ a, (k0_off224 v1382) a + S1x64.size a ≤ S500000x64.size a := fun v1382 k0_hw168 => k0_hw168

def k0_off225 (i : grid0.Coords) : Fin 1 → Nat :=
  let arg0 : BitVec 32 := BitVec.ofNat 32 (i 0).val
  let c128_i32 : BitVec 32 := 128#32
  let v0 : BitVec 32 := Scalar.muli arg0 c128_i32
  let c56_i32 : BitVec 32 := 56#32
  let v1401 : BitVec 32 := Scalar.addi v0 c56_i32
  let v1402 : Index := Scalar.indexCast v1401
  ![v1402.toNat]
def k0_off226 (v1403 : BitVec 32) : Fin 2 → Nat :=
  let c0_i32_337 : BitVec 32 := 0#32
  ![v1403.toNat, 0]

def k0_chk169 (v1403 : BitVec 32) : Prop :=
  (∀ a, (k0_off226 v1403) a + S1x64.size a ≤ S1000000x64.size a)
instance k0_chk169.dec : ∀ (v1403 : BitVec 32), Decidable (k0_chk169 v1403) := fun v1403 => decidable_of_iff' _ (Iff.of_eq (k0_chk169.eq_1 v1403))
theorem k0_off226_inb : ∀ (v1403 : BitVec 32) (k0_hw169 : k0_chk169 v1403), ∀ a, (k0_off226 v1403) a + S1x64.size a ≤ S1000000x64.size a := fun v1403 k0_hw169 => k0_hw169

def k0_off227 (v1405 : BitVec 32) : Fin 2 → Nat :=
  let c0_i32_339 : BitVec 32 := 0#32
  ![v1405.toNat, 0]

def k0_chk170 (v1405 : BitVec 32) : Prop :=
  (∀ a, (k0_off227 v1405) a + S1x64.size a ≤ S500000x64.size a)
instance k0_chk170.dec : ∀ (v1405 : BitVec 32), Decidable (k0_chk170 v1405) := fun v1405 => decidable_of_iff' _ (Iff.of_eq (k0_chk170.eq_1 v1405))
theorem k0_off227_inb : ∀ (v1405 : BitVec 32) (k0_hw170 : k0_chk170 v1405), ∀ a, (k0_off227 v1405) a + S1x64.size a ≤ S500000x64.size a := fun v1405 k0_hw170 => k0_hw170

def k0_off228 (v1407 : BitVec 32) : Fin 2 → Nat :=
  let c0_i32_341 : BitVec 32 := 0#32
  ![v1407.toNat, 0]

def k0_chk171 (v1407 : BitVec 32) : Prop :=
  (∀ a, (k0_off228 v1407) a + S1x64.size a ≤ S500000x64.size a)
instance k0_chk171.dec : ∀ (v1407 : BitVec 32), Decidable (k0_chk171 v1407) := fun v1407 => decidable_of_iff' _ (Iff.of_eq (k0_chk171.eq_1 v1407))
theorem k0_off228_inb : ∀ (v1407 : BitVec 32) (k0_hw171 : k0_chk171 v1407), ∀ a, (k0_off228 v1407) a + S1x64.size a ≤ S500000x64.size a := fun v1407 k0_hw171 => k0_hw171

def k0_off229 (i : grid0.Coords) : Fin 1 → Nat :=
  let arg0 : BitVec 32 := BitVec.ofNat 32 (i 0).val
  let c128_i32 : BitVec 32 := 128#32
  let v0 : BitVec 32 := Scalar.muli arg0 c128_i32
  let c57_i32 : BitVec 32 := 57#32
  let v1426 : BitVec 32 := Scalar.addi v0 c57_i32
  let v1427 : Index := Scalar.indexCast v1426
  ![v1427.toNat]
def k0_off230 (v1428 : BitVec 32) : Fin 2 → Nat :=
  let c0_i32_343 : BitVec 32 := 0#32
  ![v1428.toNat, 0]

def k0_chk172 (v1428 : BitVec 32) : Prop :=
  (∀ a, (k0_off230 v1428) a + S1x64.size a ≤ S1000000x64.size a)
instance k0_chk172.dec : ∀ (v1428 : BitVec 32), Decidable (k0_chk172 v1428) := fun v1428 => decidable_of_iff' _ (Iff.of_eq (k0_chk172.eq_1 v1428))
theorem k0_off230_inb : ∀ (v1428 : BitVec 32) (k0_hw172 : k0_chk172 v1428), ∀ a, (k0_off230 v1428) a + S1x64.size a ≤ S1000000x64.size a := fun v1428 k0_hw172 => k0_hw172

def k0_off231 (v1430 : BitVec 32) : Fin 2 → Nat :=
  let c0_i32_345 : BitVec 32 := 0#32
  ![v1430.toNat, 0]

def k0_chk173 (v1430 : BitVec 32) : Prop :=
  (∀ a, (k0_off231 v1430) a + S1x64.size a ≤ S500000x64.size a)
instance k0_chk173.dec : ∀ (v1430 : BitVec 32), Decidable (k0_chk173 v1430) := fun v1430 => decidable_of_iff' _ (Iff.of_eq (k0_chk173.eq_1 v1430))
theorem k0_off231_inb : ∀ (v1430 : BitVec 32) (k0_hw173 : k0_chk173 v1430), ∀ a, (k0_off231 v1430) a + S1x64.size a ≤ S500000x64.size a := fun v1430 k0_hw173 => k0_hw173

def k0_off232 (v1432 : BitVec 32) : Fin 2 → Nat :=
  let c0_i32_347 : BitVec 32 := 0#32
  ![v1432.toNat, 0]

def k0_chk174 (v1432 : BitVec 32) : Prop :=
  (∀ a, (k0_off232 v1432) a + S1x64.size a ≤ S500000x64.size a)
instance k0_chk174.dec : ∀ (v1432 : BitVec 32), Decidable (k0_chk174 v1432) := fun v1432 => decidable_of_iff' _ (Iff.of_eq (k0_chk174.eq_1 v1432))
theorem k0_off232_inb : ∀ (v1432 : BitVec 32) (k0_hw174 : k0_chk174 v1432), ∀ a, (k0_off232 v1432) a + S1x64.size a ≤ S500000x64.size a := fun v1432 k0_hw174 => k0_hw174

def k0_off233 (i : grid0.Coords) : Fin 1 → Nat :=
  let arg0 : BitVec 32 := BitVec.ofNat 32 (i 0).val
  let c128_i32 : BitVec 32 := 128#32
  let v0 : BitVec 32 := Scalar.muli arg0 c128_i32
  let c58_i32 : BitVec 32 := 58#32
  let v1451 : BitVec 32 := Scalar.addi v0 c58_i32
  let v1452 : Index := Scalar.indexCast v1451
  ![v1452.toNat]
def k0_off234 (v1453 : BitVec 32) : Fin 2 → Nat :=
  let c0_i32_349 : BitVec 32 := 0#32
  ![v1453.toNat, 0]

def k0_chk175 (v1453 : BitVec 32) : Prop :=
  (∀ a, (k0_off234 v1453) a + S1x64.size a ≤ S1000000x64.size a)
instance k0_chk175.dec : ∀ (v1453 : BitVec 32), Decidable (k0_chk175 v1453) := fun v1453 => decidable_of_iff' _ (Iff.of_eq (k0_chk175.eq_1 v1453))
theorem k0_off234_inb : ∀ (v1453 : BitVec 32) (k0_hw175 : k0_chk175 v1453), ∀ a, (k0_off234 v1453) a + S1x64.size a ≤ S1000000x64.size a := fun v1453 k0_hw175 => k0_hw175

def k0_off235 (v1455 : BitVec 32) : Fin 2 → Nat :=
  let c0_i32_351 : BitVec 32 := 0#32
  ![v1455.toNat, 0]

def k0_chk176 (v1455 : BitVec 32) : Prop :=
  (∀ a, (k0_off235 v1455) a + S1x64.size a ≤ S500000x64.size a)
instance k0_chk176.dec : ∀ (v1455 : BitVec 32), Decidable (k0_chk176 v1455) := fun v1455 => decidable_of_iff' _ (Iff.of_eq (k0_chk176.eq_1 v1455))
theorem k0_off235_inb : ∀ (v1455 : BitVec 32) (k0_hw176 : k0_chk176 v1455), ∀ a, (k0_off235 v1455) a + S1x64.size a ≤ S500000x64.size a := fun v1455 k0_hw176 => k0_hw176

def k0_off236 (v1457 : BitVec 32) : Fin 2 → Nat :=
  let c0_i32_353 : BitVec 32 := 0#32
  ![v1457.toNat, 0]

def k0_chk177 (v1457 : BitVec 32) : Prop :=
  (∀ a, (k0_off236 v1457) a + S1x64.size a ≤ S500000x64.size a)
instance k0_chk177.dec : ∀ (v1457 : BitVec 32), Decidable (k0_chk177 v1457) := fun v1457 => decidable_of_iff' _ (Iff.of_eq (k0_chk177.eq_1 v1457))
theorem k0_off236_inb : ∀ (v1457 : BitVec 32) (k0_hw177 : k0_chk177 v1457), ∀ a, (k0_off236 v1457) a + S1x64.size a ≤ S500000x64.size a := fun v1457 k0_hw177 => k0_hw177

def k0_off237 (i : grid0.Coords) : Fin 1 → Nat :=
  let arg0 : BitVec 32 := BitVec.ofNat 32 (i 0).val
  let c128_i32 : BitVec 32 := 128#32
  let v0 : BitVec 32 := Scalar.muli arg0 c128_i32
  let c59_i32 : BitVec 32 := 59#32
  let v1476 : BitVec 32 := Scalar.addi v0 c59_i32
  let v1477 : Index := Scalar.indexCast v1476
  ![v1477.toNat]
def k0_off238 (v1478 : BitVec 32) : Fin 2 → Nat :=
  let c0_i32_355 : BitVec 32 := 0#32
  ![v1478.toNat, 0]

def k0_chk178 (v1478 : BitVec 32) : Prop :=
  (∀ a, (k0_off238 v1478) a + S1x64.size a ≤ S1000000x64.size a)
instance k0_chk178.dec : ∀ (v1478 : BitVec 32), Decidable (k0_chk178 v1478) := fun v1478 => decidable_of_iff' _ (Iff.of_eq (k0_chk178.eq_1 v1478))
theorem k0_off238_inb : ∀ (v1478 : BitVec 32) (k0_hw178 : k0_chk178 v1478), ∀ a, (k0_off238 v1478) a + S1x64.size a ≤ S1000000x64.size a := fun v1478 k0_hw178 => k0_hw178

def k0_off239 (v1480 : BitVec 32) : Fin 2 → Nat :=
  let c0_i32_357 : BitVec 32 := 0#32
  ![v1480.toNat, 0]

def k0_chk179 (v1480 : BitVec 32) : Prop :=
  (∀ a, (k0_off239 v1480) a + S1x64.size a ≤ S500000x64.size a)
instance k0_chk179.dec : ∀ (v1480 : BitVec 32), Decidable (k0_chk179 v1480) := fun v1480 => decidable_of_iff' _ (Iff.of_eq (k0_chk179.eq_1 v1480))
theorem k0_off239_inb : ∀ (v1480 : BitVec 32) (k0_hw179 : k0_chk179 v1480), ∀ a, (k0_off239 v1480) a + S1x64.size a ≤ S500000x64.size a := fun v1480 k0_hw179 => k0_hw179

def k0_off240 (v1482 : BitVec 32) : Fin 2 → Nat :=
  let c0_i32_359 : BitVec 32 := 0#32
  ![v1482.toNat, 0]

def k0_chk180 (v1482 : BitVec 32) : Prop :=
  (∀ a, (k0_off240 v1482) a + S1x64.size a ≤ S500000x64.size a)
instance k0_chk180.dec : ∀ (v1482 : BitVec 32), Decidable (k0_chk180 v1482) := fun v1482 => decidable_of_iff' _ (Iff.of_eq (k0_chk180.eq_1 v1482))
theorem k0_off240_inb : ∀ (v1482 : BitVec 32) (k0_hw180 : k0_chk180 v1482), ∀ a, (k0_off240 v1482) a + S1x64.size a ≤ S500000x64.size a := fun v1482 k0_hw180 => k0_hw180

def k0_off241 (i : grid0.Coords) : Fin 1 → Nat :=
  let arg0 : BitVec 32 := BitVec.ofNat 32 (i 0).val
  let c128_i32 : BitVec 32 := 128#32
  let v0 : BitVec 32 := Scalar.muli arg0 c128_i32
  let c60_i32 : BitVec 32 := 60#32
  let v1501 : BitVec 32 := Scalar.addi v0 c60_i32
  let v1502 : Index := Scalar.indexCast v1501
  ![v1502.toNat]
def k0_off242 (v1503 : BitVec 32) : Fin 2 → Nat :=
  let c0_i32_361 : BitVec 32 := 0#32
  ![v1503.toNat, 0]

def k0_chk181 (v1503 : BitVec 32) : Prop :=
  (∀ a, (k0_off242 v1503) a + S1x64.size a ≤ S1000000x64.size a)
instance k0_chk181.dec : ∀ (v1503 : BitVec 32), Decidable (k0_chk181 v1503) := fun v1503 => decidable_of_iff' _ (Iff.of_eq (k0_chk181.eq_1 v1503))
theorem k0_off242_inb : ∀ (v1503 : BitVec 32) (k0_hw181 : k0_chk181 v1503), ∀ a, (k0_off242 v1503) a + S1x64.size a ≤ S1000000x64.size a := fun v1503 k0_hw181 => k0_hw181

def k0_off243 (v1505 : BitVec 32) : Fin 2 → Nat :=
  let c0_i32_363 : BitVec 32 := 0#32
  ![v1505.toNat, 0]

def k0_chk182 (v1505 : BitVec 32) : Prop :=
  (∀ a, (k0_off243 v1505) a + S1x64.size a ≤ S500000x64.size a)
instance k0_chk182.dec : ∀ (v1505 : BitVec 32), Decidable (k0_chk182 v1505) := fun v1505 => decidable_of_iff' _ (Iff.of_eq (k0_chk182.eq_1 v1505))
theorem k0_off243_inb : ∀ (v1505 : BitVec 32) (k0_hw182 : k0_chk182 v1505), ∀ a, (k0_off243 v1505) a + S1x64.size a ≤ S500000x64.size a := fun v1505 k0_hw182 => k0_hw182

def k0_off244 (v1507 : BitVec 32) : Fin 2 → Nat :=
  let c0_i32_365 : BitVec 32 := 0#32
  ![v1507.toNat, 0]

def k0_chk183 (v1507 : BitVec 32) : Prop :=
  (∀ a, (k0_off244 v1507) a + S1x64.size a ≤ S500000x64.size a)
instance k0_chk183.dec : ∀ (v1507 : BitVec 32), Decidable (k0_chk183 v1507) := fun v1507 => decidable_of_iff' _ (Iff.of_eq (k0_chk183.eq_1 v1507))
theorem k0_off244_inb : ∀ (v1507 : BitVec 32) (k0_hw183 : k0_chk183 v1507), ∀ a, (k0_off244 v1507) a + S1x64.size a ≤ S500000x64.size a := fun v1507 k0_hw183 => k0_hw183

def k0_off245 (i : grid0.Coords) : Fin 1 → Nat :=
  let arg0 : BitVec 32 := BitVec.ofNat 32 (i 0).val
  let c128_i32 : BitVec 32 := 128#32
  let v0 : BitVec 32 := Scalar.muli arg0 c128_i32
  let c61_i32 : BitVec 32 := 61#32
  let v1526 : BitVec 32 := Scalar.addi v0 c61_i32
  let v1527 : Index := Scalar.indexCast v1526
  ![v1527.toNat]
def k0_off246 (v1528 : BitVec 32) : Fin 2 → Nat :=
  let c0_i32_367 : BitVec 32 := 0#32
  ![v1528.toNat, 0]

def k0_chk184 (v1528 : BitVec 32) : Prop :=
  (∀ a, (k0_off246 v1528) a + S1x64.size a ≤ S1000000x64.size a)
instance k0_chk184.dec : ∀ (v1528 : BitVec 32), Decidable (k0_chk184 v1528) := fun v1528 => decidable_of_iff' _ (Iff.of_eq (k0_chk184.eq_1 v1528))
theorem k0_off246_inb : ∀ (v1528 : BitVec 32) (k0_hw184 : k0_chk184 v1528), ∀ a, (k0_off246 v1528) a + S1x64.size a ≤ S1000000x64.size a := fun v1528 k0_hw184 => k0_hw184

def k0_off247 (v1530 : BitVec 32) : Fin 2 → Nat :=
  let c0_i32_369 : BitVec 32 := 0#32
  ![v1530.toNat, 0]

def k0_chk185 (v1530 : BitVec 32) : Prop :=
  (∀ a, (k0_off247 v1530) a + S1x64.size a ≤ S500000x64.size a)
instance k0_chk185.dec : ∀ (v1530 : BitVec 32), Decidable (k0_chk185 v1530) := fun v1530 => decidable_of_iff' _ (Iff.of_eq (k0_chk185.eq_1 v1530))
theorem k0_off247_inb : ∀ (v1530 : BitVec 32) (k0_hw185 : k0_chk185 v1530), ∀ a, (k0_off247 v1530) a + S1x64.size a ≤ S500000x64.size a := fun v1530 k0_hw185 => k0_hw185

def k0_off248 (v1532 : BitVec 32) : Fin 2 → Nat :=
  let c0_i32_371 : BitVec 32 := 0#32
  ![v1532.toNat, 0]

def k0_chk186 (v1532 : BitVec 32) : Prop :=
  (∀ a, (k0_off248 v1532) a + S1x64.size a ≤ S500000x64.size a)
instance k0_chk186.dec : ∀ (v1532 : BitVec 32), Decidable (k0_chk186 v1532) := fun v1532 => decidable_of_iff' _ (Iff.of_eq (k0_chk186.eq_1 v1532))
theorem k0_off248_inb : ∀ (v1532 : BitVec 32) (k0_hw186 : k0_chk186 v1532), ∀ a, (k0_off248 v1532) a + S1x64.size a ≤ S500000x64.size a := fun v1532 k0_hw186 => k0_hw186

def k0_off249 (i : grid0.Coords) : Fin 1 → Nat :=
  let arg0 : BitVec 32 := BitVec.ofNat 32 (i 0).val
  let c128_i32 : BitVec 32 := 128#32
  let v0 : BitVec 32 := Scalar.muli arg0 c128_i32
  let c62_i32 : BitVec 32 := 62#32
  let v1551 : BitVec 32 := Scalar.addi v0 c62_i32
  let v1552 : Index := Scalar.indexCast v1551
  ![v1552.toNat]
def k0_off250 (v1553 : BitVec 32) : Fin 2 → Nat :=
  let c0_i32_373 : BitVec 32 := 0#32
  ![v1553.toNat, 0]

def k0_chk187 (v1553 : BitVec 32) : Prop :=
  (∀ a, (k0_off250 v1553) a + S1x64.size a ≤ S1000000x64.size a)
instance k0_chk187.dec : ∀ (v1553 : BitVec 32), Decidable (k0_chk187 v1553) := fun v1553 => decidable_of_iff' _ (Iff.of_eq (k0_chk187.eq_1 v1553))
theorem k0_off250_inb : ∀ (v1553 : BitVec 32) (k0_hw187 : k0_chk187 v1553), ∀ a, (k0_off250 v1553) a + S1x64.size a ≤ S1000000x64.size a := fun v1553 k0_hw187 => k0_hw187

def k0_off251 (v1555 : BitVec 32) : Fin 2 → Nat :=
  let c0_i32_375 : BitVec 32 := 0#32
  ![v1555.toNat, 0]

def k0_chk188 (v1555 : BitVec 32) : Prop :=
  (∀ a, (k0_off251 v1555) a + S1x64.size a ≤ S500000x64.size a)
instance k0_chk188.dec : ∀ (v1555 : BitVec 32), Decidable (k0_chk188 v1555) := fun v1555 => decidable_of_iff' _ (Iff.of_eq (k0_chk188.eq_1 v1555))
theorem k0_off251_inb : ∀ (v1555 : BitVec 32) (k0_hw188 : k0_chk188 v1555), ∀ a, (k0_off251 v1555) a + S1x64.size a ≤ S500000x64.size a := fun v1555 k0_hw188 => k0_hw188

def k0_off252 (v1557 : BitVec 32) : Fin 2 → Nat :=
  let c0_i32_377 : BitVec 32 := 0#32
  ![v1557.toNat, 0]

def k0_chk189 (v1557 : BitVec 32) : Prop :=
  (∀ a, (k0_off252 v1557) a + S1x64.size a ≤ S500000x64.size a)
instance k0_chk189.dec : ∀ (v1557 : BitVec 32), Decidable (k0_chk189 v1557) := fun v1557 => decidable_of_iff' _ (Iff.of_eq (k0_chk189.eq_1 v1557))
theorem k0_off252_inb : ∀ (v1557 : BitVec 32) (k0_hw189 : k0_chk189 v1557), ∀ a, (k0_off252 v1557) a + S1x64.size a ≤ S500000x64.size a := fun v1557 k0_hw189 => k0_hw189

def k0_off253 (i : grid0.Coords) : Fin 1 → Nat :=
  let arg0 : BitVec 32 := BitVec.ofNat 32 (i 0).val
  let c128_i32 : BitVec 32 := 128#32
  let v0 : BitVec 32 := Scalar.muli arg0 c128_i32
  let c63_i32 : BitVec 32 := 63#32
  let v1576 : BitVec 32 := Scalar.addi v0 c63_i32
  let v1577 : Index := Scalar.indexCast v1576
  ![v1577.toNat]
def k0_off254 (v1578 : BitVec 32) : Fin 2 → Nat :=
  let c0_i32_379 : BitVec 32 := 0#32
  ![v1578.toNat, 0]

def k0_chk190 (v1578 : BitVec 32) : Prop :=
  (∀ a, (k0_off254 v1578) a + S1x64.size a ≤ S1000000x64.size a)
instance k0_chk190.dec : ∀ (v1578 : BitVec 32), Decidable (k0_chk190 v1578) := fun v1578 => decidable_of_iff' _ (Iff.of_eq (k0_chk190.eq_1 v1578))
theorem k0_off254_inb : ∀ (v1578 : BitVec 32) (k0_hw190 : k0_chk190 v1578), ∀ a, (k0_off254 v1578) a + S1x64.size a ≤ S1000000x64.size a := fun v1578 k0_hw190 => k0_hw190

def k0_off255 (v1580 : BitVec 32) : Fin 2 → Nat :=
  let c0_i32_381 : BitVec 32 := 0#32
  ![v1580.toNat, 0]

def k0_chk191 (v1580 : BitVec 32) : Prop :=
  (∀ a, (k0_off255 v1580) a + S1x64.size a ≤ S500000x64.size a)
instance k0_chk191.dec : ∀ (v1580 : BitVec 32), Decidable (k0_chk191 v1580) := fun v1580 => decidable_of_iff' _ (Iff.of_eq (k0_chk191.eq_1 v1580))
theorem k0_off255_inb : ∀ (v1580 : BitVec 32) (k0_hw191 : k0_chk191 v1580), ∀ a, (k0_off255 v1580) a + S1x64.size a ≤ S500000x64.size a := fun v1580 k0_hw191 => k0_hw191

def k0_off256 (v1582 : BitVec 32) : Fin 2 → Nat :=
  let c0_i32_383 : BitVec 32 := 0#32
  ![v1582.toNat, 0]

def k0_chk192 (v1582 : BitVec 32) : Prop :=
  (∀ a, (k0_off256 v1582) a + S1x64.size a ≤ S500000x64.size a)
instance k0_chk192.dec : ∀ (v1582 : BitVec 32), Decidable (k0_chk192 v1582) := fun v1582 => decidable_of_iff' _ (Iff.of_eq (k0_chk192.eq_1 v1582))
theorem k0_off256_inb : ∀ (v1582 : BitVec 32) (k0_hw192 : k0_chk192 v1582), ∀ a, (k0_off256 v1582) a + S1x64.size a ≤ S500000x64.size a := fun v1582 k0_hw192 => k0_hw192

def k0_off257 (i : grid0.Coords) : Fin 1 → Nat :=
  let arg0 : BitVec 32 := BitVec.ofNat 32 (i 0).val
  let c128_i32 : BitVec 32 := 128#32
  let v0 : BitVec 32 := Scalar.muli arg0 c128_i32
  let c64_i32 : BitVec 32 := 64#32
  let v1601 : BitVec 32 := Scalar.addi v0 c64_i32
  let v1602 : Index := Scalar.indexCast v1601
  ![v1602.toNat]
def k0_off258 (v1603 : BitVec 32) : Fin 2 → Nat :=
  let c0_i32_385 : BitVec 32 := 0#32
  ![v1603.toNat, 0]

def k0_chk193 (v1603 : BitVec 32) : Prop :=
  (∀ a, (k0_off258 v1603) a + S1x64.size a ≤ S1000000x64.size a)
instance k0_chk193.dec : ∀ (v1603 : BitVec 32), Decidable (k0_chk193 v1603) := fun v1603 => decidable_of_iff' _ (Iff.of_eq (k0_chk193.eq_1 v1603))
theorem k0_off258_inb : ∀ (v1603 : BitVec 32) (k0_hw193 : k0_chk193 v1603), ∀ a, (k0_off258 v1603) a + S1x64.size a ≤ S1000000x64.size a := fun v1603 k0_hw193 => k0_hw193

def k0_off259 (v1605 : BitVec 32) : Fin 2 → Nat :=
  let c0_i32_387 : BitVec 32 := 0#32
  ![v1605.toNat, 0]

def k0_chk194 (v1605 : BitVec 32) : Prop :=
  (∀ a, (k0_off259 v1605) a + S1x64.size a ≤ S500000x64.size a)
instance k0_chk194.dec : ∀ (v1605 : BitVec 32), Decidable (k0_chk194 v1605) := fun v1605 => decidable_of_iff' _ (Iff.of_eq (k0_chk194.eq_1 v1605))
theorem k0_off259_inb : ∀ (v1605 : BitVec 32) (k0_hw194 : k0_chk194 v1605), ∀ a, (k0_off259 v1605) a + S1x64.size a ≤ S500000x64.size a := fun v1605 k0_hw194 => k0_hw194

def k0_off260 (v1607 : BitVec 32) : Fin 2 → Nat :=
  let c0_i32_389 : BitVec 32 := 0#32
  ![v1607.toNat, 0]

def k0_chk195 (v1607 : BitVec 32) : Prop :=
  (∀ a, (k0_off260 v1607) a + S1x64.size a ≤ S500000x64.size a)
instance k0_chk195.dec : ∀ (v1607 : BitVec 32), Decidable (k0_chk195 v1607) := fun v1607 => decidable_of_iff' _ (Iff.of_eq (k0_chk195.eq_1 v1607))
theorem k0_off260_inb : ∀ (v1607 : BitVec 32) (k0_hw195 : k0_chk195 v1607), ∀ a, (k0_off260 v1607) a + S1x64.size a ≤ S500000x64.size a := fun v1607 k0_hw195 => k0_hw195

def k0_off261 (i : grid0.Coords) : Fin 1 → Nat :=
  let arg0 : BitVec 32 := BitVec.ofNat 32 (i 0).val
  let c128_i32 : BitVec 32 := 128#32
  let v0 : BitVec 32 := Scalar.muli arg0 c128_i32
  let c65_i32 : BitVec 32 := 65#32
  let v1626 : BitVec 32 := Scalar.addi v0 c65_i32
  let v1627 : Index := Scalar.indexCast v1626
  ![v1627.toNat]
def k0_off262 (v1628 : BitVec 32) : Fin 2 → Nat :=
  let c0_i32_391 : BitVec 32 := 0#32
  ![v1628.toNat, 0]

def k0_chk196 (v1628 : BitVec 32) : Prop :=
  (∀ a, (k0_off262 v1628) a + S1x64.size a ≤ S1000000x64.size a)
instance k0_chk196.dec : ∀ (v1628 : BitVec 32), Decidable (k0_chk196 v1628) := fun v1628 => decidable_of_iff' _ (Iff.of_eq (k0_chk196.eq_1 v1628))
theorem k0_off262_inb : ∀ (v1628 : BitVec 32) (k0_hw196 : k0_chk196 v1628), ∀ a, (k0_off262 v1628) a + S1x64.size a ≤ S1000000x64.size a := fun v1628 k0_hw196 => k0_hw196

def k0_off263 (v1630 : BitVec 32) : Fin 2 → Nat :=
  let c0_i32_393 : BitVec 32 := 0#32
  ![v1630.toNat, 0]

def k0_chk197 (v1630 : BitVec 32) : Prop :=
  (∀ a, (k0_off263 v1630) a + S1x64.size a ≤ S500000x64.size a)
instance k0_chk197.dec : ∀ (v1630 : BitVec 32), Decidable (k0_chk197 v1630) := fun v1630 => decidable_of_iff' _ (Iff.of_eq (k0_chk197.eq_1 v1630))
theorem k0_off263_inb : ∀ (v1630 : BitVec 32) (k0_hw197 : k0_chk197 v1630), ∀ a, (k0_off263 v1630) a + S1x64.size a ≤ S500000x64.size a := fun v1630 k0_hw197 => k0_hw197

def k0_off264 (v1632 : BitVec 32) : Fin 2 → Nat :=
  let c0_i32_395 : BitVec 32 := 0#32
  ![v1632.toNat, 0]

def k0_chk198 (v1632 : BitVec 32) : Prop :=
  (∀ a, (k0_off264 v1632) a + S1x64.size a ≤ S500000x64.size a)
instance k0_chk198.dec : ∀ (v1632 : BitVec 32), Decidable (k0_chk198 v1632) := fun v1632 => decidable_of_iff' _ (Iff.of_eq (k0_chk198.eq_1 v1632))
theorem k0_off264_inb : ∀ (v1632 : BitVec 32) (k0_hw198 : k0_chk198 v1632), ∀ a, (k0_off264 v1632) a + S1x64.size a ≤ S500000x64.size a := fun v1632 k0_hw198 => k0_hw198

def k0_off265 (i : grid0.Coords) : Fin 1 → Nat :=
  let arg0 : BitVec 32 := BitVec.ofNat 32 (i 0).val
  let c128_i32 : BitVec 32 := 128#32
  let v0 : BitVec 32 := Scalar.muli arg0 c128_i32
  let c66_i32 : BitVec 32 := 66#32
  let v1651 : BitVec 32 := Scalar.addi v0 c66_i32
  let v1652 : Index := Scalar.indexCast v1651
  ![v1652.toNat]
def k0_off266 (v1653 : BitVec 32) : Fin 2 → Nat :=
  let c0_i32_397 : BitVec 32 := 0#32
  ![v1653.toNat, 0]

def k0_chk199 (v1653 : BitVec 32) : Prop :=
  (∀ a, (k0_off266 v1653) a + S1x64.size a ≤ S1000000x64.size a)
instance k0_chk199.dec : ∀ (v1653 : BitVec 32), Decidable (k0_chk199 v1653) := fun v1653 => decidable_of_iff' _ (Iff.of_eq (k0_chk199.eq_1 v1653))
theorem k0_off266_inb : ∀ (v1653 : BitVec 32) (k0_hw199 : k0_chk199 v1653), ∀ a, (k0_off266 v1653) a + S1x64.size a ≤ S1000000x64.size a := fun v1653 k0_hw199 => k0_hw199

def k0_off267 (v1655 : BitVec 32) : Fin 2 → Nat :=
  let c0_i32_399 : BitVec 32 := 0#32
  ![v1655.toNat, 0]

def k0_chk200 (v1655 : BitVec 32) : Prop :=
  (∀ a, (k0_off267 v1655) a + S1x64.size a ≤ S500000x64.size a)
instance k0_chk200.dec : ∀ (v1655 : BitVec 32), Decidable (k0_chk200 v1655) := fun v1655 => decidable_of_iff' _ (Iff.of_eq (k0_chk200.eq_1 v1655))
theorem k0_off267_inb : ∀ (v1655 : BitVec 32) (k0_hw200 : k0_chk200 v1655), ∀ a, (k0_off267 v1655) a + S1x64.size a ≤ S500000x64.size a := fun v1655 k0_hw200 => k0_hw200

def k0_off268 (v1657 : BitVec 32) : Fin 2 → Nat :=
  let c0_i32_401 : BitVec 32 := 0#32
  ![v1657.toNat, 0]

def k0_chk201 (v1657 : BitVec 32) : Prop :=
  (∀ a, (k0_off268 v1657) a + S1x64.size a ≤ S500000x64.size a)
instance k0_chk201.dec : ∀ (v1657 : BitVec 32), Decidable (k0_chk201 v1657) := fun v1657 => decidable_of_iff' _ (Iff.of_eq (k0_chk201.eq_1 v1657))
theorem k0_off268_inb : ∀ (v1657 : BitVec 32) (k0_hw201 : k0_chk201 v1657), ∀ a, (k0_off268 v1657) a + S1x64.size a ≤ S500000x64.size a := fun v1657 k0_hw201 => k0_hw201

def k0_off269 (i : grid0.Coords) : Fin 1 → Nat :=
  let arg0 : BitVec 32 := BitVec.ofNat 32 (i 0).val
  let c128_i32 : BitVec 32 := 128#32
  let v0 : BitVec 32 := Scalar.muli arg0 c128_i32
  let c67_i32 : BitVec 32 := 67#32
  let v1676 : BitVec 32 := Scalar.addi v0 c67_i32
  let v1677 : Index := Scalar.indexCast v1676
  ![v1677.toNat]
def k0_off270 (v1678 : BitVec 32) : Fin 2 → Nat :=
  let c0_i32_403 : BitVec 32 := 0#32
  ![v1678.toNat, 0]

def k0_chk202 (v1678 : BitVec 32) : Prop :=
  (∀ a, (k0_off270 v1678) a + S1x64.size a ≤ S1000000x64.size a)
instance k0_chk202.dec : ∀ (v1678 : BitVec 32), Decidable (k0_chk202 v1678) := fun v1678 => decidable_of_iff' _ (Iff.of_eq (k0_chk202.eq_1 v1678))
theorem k0_off270_inb : ∀ (v1678 : BitVec 32) (k0_hw202 : k0_chk202 v1678), ∀ a, (k0_off270 v1678) a + S1x64.size a ≤ S1000000x64.size a := fun v1678 k0_hw202 => k0_hw202

def k0_off271 (v1680 : BitVec 32) : Fin 2 → Nat :=
  let c0_i32_405 : BitVec 32 := 0#32
  ![v1680.toNat, 0]

def k0_chk203 (v1680 : BitVec 32) : Prop :=
  (∀ a, (k0_off271 v1680) a + S1x64.size a ≤ S500000x64.size a)
instance k0_chk203.dec : ∀ (v1680 : BitVec 32), Decidable (k0_chk203 v1680) := fun v1680 => decidable_of_iff' _ (Iff.of_eq (k0_chk203.eq_1 v1680))
theorem k0_off271_inb : ∀ (v1680 : BitVec 32) (k0_hw203 : k0_chk203 v1680), ∀ a, (k0_off271 v1680) a + S1x64.size a ≤ S500000x64.size a := fun v1680 k0_hw203 => k0_hw203

def k0_off272 (v1682 : BitVec 32) : Fin 2 → Nat :=
  let c0_i32_407 : BitVec 32 := 0#32
  ![v1682.toNat, 0]

def k0_chk204 (v1682 : BitVec 32) : Prop :=
  (∀ a, (k0_off272 v1682) a + S1x64.size a ≤ S500000x64.size a)
instance k0_chk204.dec : ∀ (v1682 : BitVec 32), Decidable (k0_chk204 v1682) := fun v1682 => decidable_of_iff' _ (Iff.of_eq (k0_chk204.eq_1 v1682))
theorem k0_off272_inb : ∀ (v1682 : BitVec 32) (k0_hw204 : k0_chk204 v1682), ∀ a, (k0_off272 v1682) a + S1x64.size a ≤ S500000x64.size a := fun v1682 k0_hw204 => k0_hw204

def k0_off273 (i : grid0.Coords) : Fin 1 → Nat :=
  let arg0 : BitVec 32 := BitVec.ofNat 32 (i 0).val
  let c128_i32 : BitVec 32 := 128#32
  let v0 : BitVec 32 := Scalar.muli arg0 c128_i32
  let c68_i32 : BitVec 32 := 68#32
  let v1701 : BitVec 32 := Scalar.addi v0 c68_i32
  let v1702 : Index := Scalar.indexCast v1701
  ![v1702.toNat]
def k0_off274 (v1703 : BitVec 32) : Fin 2 → Nat :=
  let c0_i32_409 : BitVec 32 := 0#32
  ![v1703.toNat, 0]

def k0_chk205 (v1703 : BitVec 32) : Prop :=
  (∀ a, (k0_off274 v1703) a + S1x64.size a ≤ S1000000x64.size a)
instance k0_chk205.dec : ∀ (v1703 : BitVec 32), Decidable (k0_chk205 v1703) := fun v1703 => decidable_of_iff' _ (Iff.of_eq (k0_chk205.eq_1 v1703))
theorem k0_off274_inb : ∀ (v1703 : BitVec 32) (k0_hw205 : k0_chk205 v1703), ∀ a, (k0_off274 v1703) a + S1x64.size a ≤ S1000000x64.size a := fun v1703 k0_hw205 => k0_hw205

def k0_off275 (v1705 : BitVec 32) : Fin 2 → Nat :=
  let c0_i32_411 : BitVec 32 := 0#32
  ![v1705.toNat, 0]

def k0_chk206 (v1705 : BitVec 32) : Prop :=
  (∀ a, (k0_off275 v1705) a + S1x64.size a ≤ S500000x64.size a)
instance k0_chk206.dec : ∀ (v1705 : BitVec 32), Decidable (k0_chk206 v1705) := fun v1705 => decidable_of_iff' _ (Iff.of_eq (k0_chk206.eq_1 v1705))
theorem k0_off275_inb : ∀ (v1705 : BitVec 32) (k0_hw206 : k0_chk206 v1705), ∀ a, (k0_off275 v1705) a + S1x64.size a ≤ S500000x64.size a := fun v1705 k0_hw206 => k0_hw206

def k0_off276 (v1707 : BitVec 32) : Fin 2 → Nat :=
  let c0_i32_413 : BitVec 32 := 0#32
  ![v1707.toNat, 0]

def k0_chk207 (v1707 : BitVec 32) : Prop :=
  (∀ a, (k0_off276 v1707) a + S1x64.size a ≤ S500000x64.size a)
instance k0_chk207.dec : ∀ (v1707 : BitVec 32), Decidable (k0_chk207 v1707) := fun v1707 => decidable_of_iff' _ (Iff.of_eq (k0_chk207.eq_1 v1707))
theorem k0_off276_inb : ∀ (v1707 : BitVec 32) (k0_hw207 : k0_chk207 v1707), ∀ a, (k0_off276 v1707) a + S1x64.size a ≤ S500000x64.size a := fun v1707 k0_hw207 => k0_hw207

def k0_off277 (i : grid0.Coords) : Fin 1 → Nat :=
  let arg0 : BitVec 32 := BitVec.ofNat 32 (i 0).val
  let c128_i32 : BitVec 32 := 128#32
  let v0 : BitVec 32 := Scalar.muli arg0 c128_i32
  let c69_i32 : BitVec 32 := 69#32
  let v1726 : BitVec 32 := Scalar.addi v0 c69_i32
  let v1727 : Index := Scalar.indexCast v1726
  ![v1727.toNat]
def k0_off278 (v1728 : BitVec 32) : Fin 2 → Nat :=
  let c0_i32_415 : BitVec 32 := 0#32
  ![v1728.toNat, 0]

def k0_chk208 (v1728 : BitVec 32) : Prop :=
  (∀ a, (k0_off278 v1728) a + S1x64.size a ≤ S1000000x64.size a)
instance k0_chk208.dec : ∀ (v1728 : BitVec 32), Decidable (k0_chk208 v1728) := fun v1728 => decidable_of_iff' _ (Iff.of_eq (k0_chk208.eq_1 v1728))
theorem k0_off278_inb : ∀ (v1728 : BitVec 32) (k0_hw208 : k0_chk208 v1728), ∀ a, (k0_off278 v1728) a + S1x64.size a ≤ S1000000x64.size a := fun v1728 k0_hw208 => k0_hw208

def k0_off279 (v1730 : BitVec 32) : Fin 2 → Nat :=
  let c0_i32_417 : BitVec 32 := 0#32
  ![v1730.toNat, 0]

def k0_chk209 (v1730 : BitVec 32) : Prop :=
  (∀ a, (k0_off279 v1730) a + S1x64.size a ≤ S500000x64.size a)
instance k0_chk209.dec : ∀ (v1730 : BitVec 32), Decidable (k0_chk209 v1730) := fun v1730 => decidable_of_iff' _ (Iff.of_eq (k0_chk209.eq_1 v1730))
theorem k0_off279_inb : ∀ (v1730 : BitVec 32) (k0_hw209 : k0_chk209 v1730), ∀ a, (k0_off279 v1730) a + S1x64.size a ≤ S500000x64.size a := fun v1730 k0_hw209 => k0_hw209

def k0_off280 (v1732 : BitVec 32) : Fin 2 → Nat :=
  let c0_i32_419 : BitVec 32 := 0#32
  ![v1732.toNat, 0]

def k0_chk210 (v1732 : BitVec 32) : Prop :=
  (∀ a, (k0_off280 v1732) a + S1x64.size a ≤ S500000x64.size a)
instance k0_chk210.dec : ∀ (v1732 : BitVec 32), Decidable (k0_chk210 v1732) := fun v1732 => decidable_of_iff' _ (Iff.of_eq (k0_chk210.eq_1 v1732))
theorem k0_off280_inb : ∀ (v1732 : BitVec 32) (k0_hw210 : k0_chk210 v1732), ∀ a, (k0_off280 v1732) a + S1x64.size a ≤ S500000x64.size a := fun v1732 k0_hw210 => k0_hw210

def k0_off281 (i : grid0.Coords) : Fin 1 → Nat :=
  let arg0 : BitVec 32 := BitVec.ofNat 32 (i 0).val
  let c128_i32 : BitVec 32 := 128#32
  let v0 : BitVec 32 := Scalar.muli arg0 c128_i32
  let c70_i32 : BitVec 32 := 70#32
  let v1751 : BitVec 32 := Scalar.addi v0 c70_i32
  let v1752 : Index := Scalar.indexCast v1751
  ![v1752.toNat]
def k0_off282 (v1753 : BitVec 32) : Fin 2 → Nat :=
  let c0_i32_421 : BitVec 32 := 0#32
  ![v1753.toNat, 0]

def k0_chk211 (v1753 : BitVec 32) : Prop :=
  (∀ a, (k0_off282 v1753) a + S1x64.size a ≤ S1000000x64.size a)
instance k0_chk211.dec : ∀ (v1753 : BitVec 32), Decidable (k0_chk211 v1753) := fun v1753 => decidable_of_iff' _ (Iff.of_eq (k0_chk211.eq_1 v1753))
theorem k0_off282_inb : ∀ (v1753 : BitVec 32) (k0_hw211 : k0_chk211 v1753), ∀ a, (k0_off282 v1753) a + S1x64.size a ≤ S1000000x64.size a := fun v1753 k0_hw211 => k0_hw211

def k0_off283 (v1755 : BitVec 32) : Fin 2 → Nat :=
  let c0_i32_423 : BitVec 32 := 0#32
  ![v1755.toNat, 0]

def k0_chk212 (v1755 : BitVec 32) : Prop :=
  (∀ a, (k0_off283 v1755) a + S1x64.size a ≤ S500000x64.size a)
instance k0_chk212.dec : ∀ (v1755 : BitVec 32), Decidable (k0_chk212 v1755) := fun v1755 => decidable_of_iff' _ (Iff.of_eq (k0_chk212.eq_1 v1755))
theorem k0_off283_inb : ∀ (v1755 : BitVec 32) (k0_hw212 : k0_chk212 v1755), ∀ a, (k0_off283 v1755) a + S1x64.size a ≤ S500000x64.size a := fun v1755 k0_hw212 => k0_hw212

def k0_off284 (v1757 : BitVec 32) : Fin 2 → Nat :=
  let c0_i32_425 : BitVec 32 := 0#32
  ![v1757.toNat, 0]

def k0_chk213 (v1757 : BitVec 32) : Prop :=
  (∀ a, (k0_off284 v1757) a + S1x64.size a ≤ S500000x64.size a)
instance k0_chk213.dec : ∀ (v1757 : BitVec 32), Decidable (k0_chk213 v1757) := fun v1757 => decidable_of_iff' _ (Iff.of_eq (k0_chk213.eq_1 v1757))
theorem k0_off284_inb : ∀ (v1757 : BitVec 32) (k0_hw213 : k0_chk213 v1757), ∀ a, (k0_off284 v1757) a + S1x64.size a ≤ S500000x64.size a := fun v1757 k0_hw213 => k0_hw213

def k0_off285 (i : grid0.Coords) : Fin 1 → Nat :=
  let arg0 : BitVec 32 := BitVec.ofNat 32 (i 0).val
  let c128_i32 : BitVec 32 := 128#32
  let v0 : BitVec 32 := Scalar.muli arg0 c128_i32
  let c71_i32 : BitVec 32 := 71#32
  let v1776 : BitVec 32 := Scalar.addi v0 c71_i32
  let v1777 : Index := Scalar.indexCast v1776
  ![v1777.toNat]
def k0_off286 (v1778 : BitVec 32) : Fin 2 → Nat :=
  let c0_i32_427 : BitVec 32 := 0#32
  ![v1778.toNat, 0]

def k0_chk214 (v1778 : BitVec 32) : Prop :=
  (∀ a, (k0_off286 v1778) a + S1x64.size a ≤ S1000000x64.size a)
instance k0_chk214.dec : ∀ (v1778 : BitVec 32), Decidable (k0_chk214 v1778) := fun v1778 => decidable_of_iff' _ (Iff.of_eq (k0_chk214.eq_1 v1778))
theorem k0_off286_inb : ∀ (v1778 : BitVec 32) (k0_hw214 : k0_chk214 v1778), ∀ a, (k0_off286 v1778) a + S1x64.size a ≤ S1000000x64.size a := fun v1778 k0_hw214 => k0_hw214

def k0_off287 (v1780 : BitVec 32) : Fin 2 → Nat :=
  let c0_i32_429 : BitVec 32 := 0#32
  ![v1780.toNat, 0]

def k0_chk215 (v1780 : BitVec 32) : Prop :=
  (∀ a, (k0_off287 v1780) a + S1x64.size a ≤ S500000x64.size a)
instance k0_chk215.dec : ∀ (v1780 : BitVec 32), Decidable (k0_chk215 v1780) := fun v1780 => decidable_of_iff' _ (Iff.of_eq (k0_chk215.eq_1 v1780))
theorem k0_off287_inb : ∀ (v1780 : BitVec 32) (k0_hw215 : k0_chk215 v1780), ∀ a, (k0_off287 v1780) a + S1x64.size a ≤ S500000x64.size a := fun v1780 k0_hw215 => k0_hw215

def k0_off288 (v1782 : BitVec 32) : Fin 2 → Nat :=
  let c0_i32_431 : BitVec 32 := 0#32
  ![v1782.toNat, 0]

def k0_chk216 (v1782 : BitVec 32) : Prop :=
  (∀ a, (k0_off288 v1782) a + S1x64.size a ≤ S500000x64.size a)
instance k0_chk216.dec : ∀ (v1782 : BitVec 32), Decidable (k0_chk216 v1782) := fun v1782 => decidable_of_iff' _ (Iff.of_eq (k0_chk216.eq_1 v1782))
theorem k0_off288_inb : ∀ (v1782 : BitVec 32) (k0_hw216 : k0_chk216 v1782), ∀ a, (k0_off288 v1782) a + S1x64.size a ≤ S500000x64.size a := fun v1782 k0_hw216 => k0_hw216

def k0_off289 (i : grid0.Coords) : Fin 1 → Nat :=
  let arg0 : BitVec 32 := BitVec.ofNat 32 (i 0).val
  let c128_i32 : BitVec 32 := 128#32
  let v0 : BitVec 32 := Scalar.muli arg0 c128_i32
  let c72_i32 : BitVec 32 := 72#32
  let v1801 : BitVec 32 := Scalar.addi v0 c72_i32
  let v1802 : Index := Scalar.indexCast v1801
  ![v1802.toNat]
def k0_off290 (v1803 : BitVec 32) : Fin 2 → Nat :=
  let c0_i32_433 : BitVec 32 := 0#32
  ![v1803.toNat, 0]

def k0_chk217 (v1803 : BitVec 32) : Prop :=
  (∀ a, (k0_off290 v1803) a + S1x64.size a ≤ S1000000x64.size a)
instance k0_chk217.dec : ∀ (v1803 : BitVec 32), Decidable (k0_chk217 v1803) := fun v1803 => decidable_of_iff' _ (Iff.of_eq (k0_chk217.eq_1 v1803))
theorem k0_off290_inb : ∀ (v1803 : BitVec 32) (k0_hw217 : k0_chk217 v1803), ∀ a, (k0_off290 v1803) a + S1x64.size a ≤ S1000000x64.size a := fun v1803 k0_hw217 => k0_hw217

def k0_off291 (v1805 : BitVec 32) : Fin 2 → Nat :=
  let c0_i32_435 : BitVec 32 := 0#32
  ![v1805.toNat, 0]

def k0_chk218 (v1805 : BitVec 32) : Prop :=
  (∀ a, (k0_off291 v1805) a + S1x64.size a ≤ S500000x64.size a)
instance k0_chk218.dec : ∀ (v1805 : BitVec 32), Decidable (k0_chk218 v1805) := fun v1805 => decidable_of_iff' _ (Iff.of_eq (k0_chk218.eq_1 v1805))
theorem k0_off291_inb : ∀ (v1805 : BitVec 32) (k0_hw218 : k0_chk218 v1805), ∀ a, (k0_off291 v1805) a + S1x64.size a ≤ S500000x64.size a := fun v1805 k0_hw218 => k0_hw218

def k0_off292 (v1807 : BitVec 32) : Fin 2 → Nat :=
  let c0_i32_437 : BitVec 32 := 0#32
  ![v1807.toNat, 0]

def k0_chk219 (v1807 : BitVec 32) : Prop :=
  (∀ a, (k0_off292 v1807) a + S1x64.size a ≤ S500000x64.size a)
instance k0_chk219.dec : ∀ (v1807 : BitVec 32), Decidable (k0_chk219 v1807) := fun v1807 => decidable_of_iff' _ (Iff.of_eq (k0_chk219.eq_1 v1807))
theorem k0_off292_inb : ∀ (v1807 : BitVec 32) (k0_hw219 : k0_chk219 v1807), ∀ a, (k0_off292 v1807) a + S1x64.size a ≤ S500000x64.size a := fun v1807 k0_hw219 => k0_hw219

def k0_off293 (i : grid0.Coords) : Fin 1 → Nat :=
  let arg0 : BitVec 32 := BitVec.ofNat 32 (i 0).val
  let c128_i32 : BitVec 32 := 128#32
  let v0 : BitVec 32 := Scalar.muli arg0 c128_i32
  let c73_i32 : BitVec 32 := 73#32
  let v1826 : BitVec 32 := Scalar.addi v0 c73_i32
  let v1827 : Index := Scalar.indexCast v1826
  ![v1827.toNat]
def k0_off294 (v1828 : BitVec 32) : Fin 2 → Nat :=
  let c0_i32_439 : BitVec 32 := 0#32
  ![v1828.toNat, 0]

def k0_chk220 (v1828 : BitVec 32) : Prop :=
  (∀ a, (k0_off294 v1828) a + S1x64.size a ≤ S1000000x64.size a)
instance k0_chk220.dec : ∀ (v1828 : BitVec 32), Decidable (k0_chk220 v1828) := fun v1828 => decidable_of_iff' _ (Iff.of_eq (k0_chk220.eq_1 v1828))
theorem k0_off294_inb : ∀ (v1828 : BitVec 32) (k0_hw220 : k0_chk220 v1828), ∀ a, (k0_off294 v1828) a + S1x64.size a ≤ S1000000x64.size a := fun v1828 k0_hw220 => k0_hw220

def k0_off295 (v1830 : BitVec 32) : Fin 2 → Nat :=
  let c0_i32_441 : BitVec 32 := 0#32
  ![v1830.toNat, 0]

def k0_chk221 (v1830 : BitVec 32) : Prop :=
  (∀ a, (k0_off295 v1830) a + S1x64.size a ≤ S500000x64.size a)
instance k0_chk221.dec : ∀ (v1830 : BitVec 32), Decidable (k0_chk221 v1830) := fun v1830 => decidable_of_iff' _ (Iff.of_eq (k0_chk221.eq_1 v1830))
theorem k0_off295_inb : ∀ (v1830 : BitVec 32) (k0_hw221 : k0_chk221 v1830), ∀ a, (k0_off295 v1830) a + S1x64.size a ≤ S500000x64.size a := fun v1830 k0_hw221 => k0_hw221

def k0_off296 (v1832 : BitVec 32) : Fin 2 → Nat :=
  let c0_i32_443 : BitVec 32 := 0#32
  ![v1832.toNat, 0]

def k0_chk222 (v1832 : BitVec 32) : Prop :=
  (∀ a, (k0_off296 v1832) a + S1x64.size a ≤ S500000x64.size a)
instance k0_chk222.dec : ∀ (v1832 : BitVec 32), Decidable (k0_chk222 v1832) := fun v1832 => decidable_of_iff' _ (Iff.of_eq (k0_chk222.eq_1 v1832))
theorem k0_off296_inb : ∀ (v1832 : BitVec 32) (k0_hw222 : k0_chk222 v1832), ∀ a, (k0_off296 v1832) a + S1x64.size a ≤ S500000x64.size a := fun v1832 k0_hw222 => k0_hw222

def k0_off297 (i : grid0.Coords) : Fin 1 → Nat :=
  let arg0 : BitVec 32 := BitVec.ofNat 32 (i 0).val
  let c128_i32 : BitVec 32 := 128#32
  let v0 : BitVec 32 := Scalar.muli arg0 c128_i32
  let c74_i32 : BitVec 32 := 74#32
  let v1851 : BitVec 32 := Scalar.addi v0 c74_i32
  let v1852 : Index := Scalar.indexCast v1851
  ![v1852.toNat]
def k0_off298 (v1853 : BitVec 32) : Fin 2 → Nat :=
  let c0_i32_445 : BitVec 32 := 0#32
  ![v1853.toNat, 0]

def k0_chk223 (v1853 : BitVec 32) : Prop :=
  (∀ a, (k0_off298 v1853) a + S1x64.size a ≤ S1000000x64.size a)
instance k0_chk223.dec : ∀ (v1853 : BitVec 32), Decidable (k0_chk223 v1853) := fun v1853 => decidable_of_iff' _ (Iff.of_eq (k0_chk223.eq_1 v1853))
theorem k0_off298_inb : ∀ (v1853 : BitVec 32) (k0_hw223 : k0_chk223 v1853), ∀ a, (k0_off298 v1853) a + S1x64.size a ≤ S1000000x64.size a := fun v1853 k0_hw223 => k0_hw223

def k0_off299 (v1855 : BitVec 32) : Fin 2 → Nat :=
  let c0_i32_447 : BitVec 32 := 0#32
  ![v1855.toNat, 0]

def k0_chk224 (v1855 : BitVec 32) : Prop :=
  (∀ a, (k0_off299 v1855) a + S1x64.size a ≤ S500000x64.size a)
instance k0_chk224.dec : ∀ (v1855 : BitVec 32), Decidable (k0_chk224 v1855) := fun v1855 => decidable_of_iff' _ (Iff.of_eq (k0_chk224.eq_1 v1855))
theorem k0_off299_inb : ∀ (v1855 : BitVec 32) (k0_hw224 : k0_chk224 v1855), ∀ a, (k0_off299 v1855) a + S1x64.size a ≤ S500000x64.size a := fun v1855 k0_hw224 => k0_hw224

def k0_off300 (v1857 : BitVec 32) : Fin 2 → Nat :=
  let c0_i32_449 : BitVec 32 := 0#32
  ![v1857.toNat, 0]

def k0_chk225 (v1857 : BitVec 32) : Prop :=
  (∀ a, (k0_off300 v1857) a + S1x64.size a ≤ S500000x64.size a)
instance k0_chk225.dec : ∀ (v1857 : BitVec 32), Decidable (k0_chk225 v1857) := fun v1857 => decidable_of_iff' _ (Iff.of_eq (k0_chk225.eq_1 v1857))
theorem k0_off300_inb : ∀ (v1857 : BitVec 32) (k0_hw225 : k0_chk225 v1857), ∀ a, (k0_off300 v1857) a + S1x64.size a ≤ S500000x64.size a := fun v1857 k0_hw225 => k0_hw225

def k0_off301 (i : grid0.Coords) : Fin 1 → Nat :=
  let arg0 : BitVec 32 := BitVec.ofNat 32 (i 0).val
  let c128_i32 : BitVec 32 := 128#32
  let v0 : BitVec 32 := Scalar.muli arg0 c128_i32
  let c75_i32 : BitVec 32 := 75#32
  let v1876 : BitVec 32 := Scalar.addi v0 c75_i32
  let v1877 : Index := Scalar.indexCast v1876
  ![v1877.toNat]
def k0_off302 (v1878 : BitVec 32) : Fin 2 → Nat :=
  let c0_i32_451 : BitVec 32 := 0#32
  ![v1878.toNat, 0]

def k0_chk226 (v1878 : BitVec 32) : Prop :=
  (∀ a, (k0_off302 v1878) a + S1x64.size a ≤ S1000000x64.size a)
instance k0_chk226.dec : ∀ (v1878 : BitVec 32), Decidable (k0_chk226 v1878) := fun v1878 => decidable_of_iff' _ (Iff.of_eq (k0_chk226.eq_1 v1878))
theorem k0_off302_inb : ∀ (v1878 : BitVec 32) (k0_hw226 : k0_chk226 v1878), ∀ a, (k0_off302 v1878) a + S1x64.size a ≤ S1000000x64.size a := fun v1878 k0_hw226 => k0_hw226

def k0_off303 (v1880 : BitVec 32) : Fin 2 → Nat :=
  let c0_i32_453 : BitVec 32 := 0#32
  ![v1880.toNat, 0]

def k0_chk227 (v1880 : BitVec 32) : Prop :=
  (∀ a, (k0_off303 v1880) a + S1x64.size a ≤ S500000x64.size a)
instance k0_chk227.dec : ∀ (v1880 : BitVec 32), Decidable (k0_chk227 v1880) := fun v1880 => decidable_of_iff' _ (Iff.of_eq (k0_chk227.eq_1 v1880))
theorem k0_off303_inb : ∀ (v1880 : BitVec 32) (k0_hw227 : k0_chk227 v1880), ∀ a, (k0_off303 v1880) a + S1x64.size a ≤ S500000x64.size a := fun v1880 k0_hw227 => k0_hw227

def k0_off304 (v1882 : BitVec 32) : Fin 2 → Nat :=
  let c0_i32_455 : BitVec 32 := 0#32
  ![v1882.toNat, 0]

def k0_chk228 (v1882 : BitVec 32) : Prop :=
  (∀ a, (k0_off304 v1882) a + S1x64.size a ≤ S500000x64.size a)
instance k0_chk228.dec : ∀ (v1882 : BitVec 32), Decidable (k0_chk228 v1882) := fun v1882 => decidable_of_iff' _ (Iff.of_eq (k0_chk228.eq_1 v1882))
theorem k0_off304_inb : ∀ (v1882 : BitVec 32) (k0_hw228 : k0_chk228 v1882), ∀ a, (k0_off304 v1882) a + S1x64.size a ≤ S500000x64.size a := fun v1882 k0_hw228 => k0_hw228

def k0_off305 (i : grid0.Coords) : Fin 1 → Nat :=
  let arg0 : BitVec 32 := BitVec.ofNat 32 (i 0).val
  let c128_i32 : BitVec 32 := 128#32
  let v0 : BitVec 32 := Scalar.muli arg0 c128_i32
  let c76_i32 : BitVec 32 := 76#32
  let v1901 : BitVec 32 := Scalar.addi v0 c76_i32
  let v1902 : Index := Scalar.indexCast v1901
  ![v1902.toNat]
def k0_off306 (v1903 : BitVec 32) : Fin 2 → Nat :=
  let c0_i32_457 : BitVec 32 := 0#32
  ![v1903.toNat, 0]

def k0_chk229 (v1903 : BitVec 32) : Prop :=
  (∀ a, (k0_off306 v1903) a + S1x64.size a ≤ S1000000x64.size a)
instance k0_chk229.dec : ∀ (v1903 : BitVec 32), Decidable (k0_chk229 v1903) := fun v1903 => decidable_of_iff' _ (Iff.of_eq (k0_chk229.eq_1 v1903))
theorem k0_off306_inb : ∀ (v1903 : BitVec 32) (k0_hw229 : k0_chk229 v1903), ∀ a, (k0_off306 v1903) a + S1x64.size a ≤ S1000000x64.size a := fun v1903 k0_hw229 => k0_hw229

def k0_off307 (v1905 : BitVec 32) : Fin 2 → Nat :=
  let c0_i32_459 : BitVec 32 := 0#32
  ![v1905.toNat, 0]

def k0_chk230 (v1905 : BitVec 32) : Prop :=
  (∀ a, (k0_off307 v1905) a + S1x64.size a ≤ S500000x64.size a)
instance k0_chk230.dec : ∀ (v1905 : BitVec 32), Decidable (k0_chk230 v1905) := fun v1905 => decidable_of_iff' _ (Iff.of_eq (k0_chk230.eq_1 v1905))
theorem k0_off307_inb : ∀ (v1905 : BitVec 32) (k0_hw230 : k0_chk230 v1905), ∀ a, (k0_off307 v1905) a + S1x64.size a ≤ S500000x64.size a := fun v1905 k0_hw230 => k0_hw230

def k0_off308 (v1907 : BitVec 32) : Fin 2 → Nat :=
  let c0_i32_461 : BitVec 32 := 0#32
  ![v1907.toNat, 0]

def k0_chk231 (v1907 : BitVec 32) : Prop :=
  (∀ a, (k0_off308 v1907) a + S1x64.size a ≤ S500000x64.size a)
instance k0_chk231.dec : ∀ (v1907 : BitVec 32), Decidable (k0_chk231 v1907) := fun v1907 => decidable_of_iff' _ (Iff.of_eq (k0_chk231.eq_1 v1907))
theorem k0_off308_inb : ∀ (v1907 : BitVec 32) (k0_hw231 : k0_chk231 v1907), ∀ a, (k0_off308 v1907) a + S1x64.size a ≤ S500000x64.size a := fun v1907 k0_hw231 => k0_hw231

def k0_off309 (i : grid0.Coords) : Fin 1 → Nat :=
  let arg0 : BitVec 32 := BitVec.ofNat 32 (i 0).val
  let c128_i32 : BitVec 32 := 128#32
  let v0 : BitVec 32 := Scalar.muli arg0 c128_i32
  let c77_i32 : BitVec 32 := 77#32
  let v1926 : BitVec 32 := Scalar.addi v0 c77_i32
  let v1927 : Index := Scalar.indexCast v1926
  ![v1927.toNat]
def k0_off310 (v1928 : BitVec 32) : Fin 2 → Nat :=
  let c0_i32_463 : BitVec 32 := 0#32
  ![v1928.toNat, 0]

def k0_chk232 (v1928 : BitVec 32) : Prop :=
  (∀ a, (k0_off310 v1928) a + S1x64.size a ≤ S1000000x64.size a)
instance k0_chk232.dec : ∀ (v1928 : BitVec 32), Decidable (k0_chk232 v1928) := fun v1928 => decidable_of_iff' _ (Iff.of_eq (k0_chk232.eq_1 v1928))
theorem k0_off310_inb : ∀ (v1928 : BitVec 32) (k0_hw232 : k0_chk232 v1928), ∀ a, (k0_off310 v1928) a + S1x64.size a ≤ S1000000x64.size a := fun v1928 k0_hw232 => k0_hw232

def k0_off311 (v1930 : BitVec 32) : Fin 2 → Nat :=
  let c0_i32_465 : BitVec 32 := 0#32
  ![v1930.toNat, 0]

def k0_chk233 (v1930 : BitVec 32) : Prop :=
  (∀ a, (k0_off311 v1930) a + S1x64.size a ≤ S500000x64.size a)
instance k0_chk233.dec : ∀ (v1930 : BitVec 32), Decidable (k0_chk233 v1930) := fun v1930 => decidable_of_iff' _ (Iff.of_eq (k0_chk233.eq_1 v1930))
theorem k0_off311_inb : ∀ (v1930 : BitVec 32) (k0_hw233 : k0_chk233 v1930), ∀ a, (k0_off311 v1930) a + S1x64.size a ≤ S500000x64.size a := fun v1930 k0_hw233 => k0_hw233

def k0_off312 (v1932 : BitVec 32) : Fin 2 → Nat :=
  let c0_i32_467 : BitVec 32 := 0#32
  ![v1932.toNat, 0]

def k0_chk234 (v1932 : BitVec 32) : Prop :=
  (∀ a, (k0_off312 v1932) a + S1x64.size a ≤ S500000x64.size a)
instance k0_chk234.dec : ∀ (v1932 : BitVec 32), Decidable (k0_chk234 v1932) := fun v1932 => decidable_of_iff' _ (Iff.of_eq (k0_chk234.eq_1 v1932))
theorem k0_off312_inb : ∀ (v1932 : BitVec 32) (k0_hw234 : k0_chk234 v1932), ∀ a, (k0_off312 v1932) a + S1x64.size a ≤ S500000x64.size a := fun v1932 k0_hw234 => k0_hw234

def k0_off313 (i : grid0.Coords) : Fin 1 → Nat :=
  let arg0 : BitVec 32 := BitVec.ofNat 32 (i 0).val
  let c128_i32 : BitVec 32 := 128#32
  let v0 : BitVec 32 := Scalar.muli arg0 c128_i32
  let c78_i32 : BitVec 32 := 78#32
  let v1951 : BitVec 32 := Scalar.addi v0 c78_i32
  let v1952 : Index := Scalar.indexCast v1951
  ![v1952.toNat]
def k0_off314 (v1953 : BitVec 32) : Fin 2 → Nat :=
  let c0_i32_469 : BitVec 32 := 0#32
  ![v1953.toNat, 0]

def k0_chk235 (v1953 : BitVec 32) : Prop :=
  (∀ a, (k0_off314 v1953) a + S1x64.size a ≤ S1000000x64.size a)
instance k0_chk235.dec : ∀ (v1953 : BitVec 32), Decidable (k0_chk235 v1953) := fun v1953 => decidable_of_iff' _ (Iff.of_eq (k0_chk235.eq_1 v1953))
theorem k0_off314_inb : ∀ (v1953 : BitVec 32) (k0_hw235 : k0_chk235 v1953), ∀ a, (k0_off314 v1953) a + S1x64.size a ≤ S1000000x64.size a := fun v1953 k0_hw235 => k0_hw235

def k0_off315 (v1955 : BitVec 32) : Fin 2 → Nat :=
  let c0_i32_471 : BitVec 32 := 0#32
  ![v1955.toNat, 0]

def k0_chk236 (v1955 : BitVec 32) : Prop :=
  (∀ a, (k0_off315 v1955) a + S1x64.size a ≤ S500000x64.size a)
instance k0_chk236.dec : ∀ (v1955 : BitVec 32), Decidable (k0_chk236 v1955) := fun v1955 => decidable_of_iff' _ (Iff.of_eq (k0_chk236.eq_1 v1955))
theorem k0_off315_inb : ∀ (v1955 : BitVec 32) (k0_hw236 : k0_chk236 v1955), ∀ a, (k0_off315 v1955) a + S1x64.size a ≤ S500000x64.size a := fun v1955 k0_hw236 => k0_hw236

def k0_off316 (v1957 : BitVec 32) : Fin 2 → Nat :=
  let c0_i32_473 : BitVec 32 := 0#32
  ![v1957.toNat, 0]

def k0_chk237 (v1957 : BitVec 32) : Prop :=
  (∀ a, (k0_off316 v1957) a + S1x64.size a ≤ S500000x64.size a)
instance k0_chk237.dec : ∀ (v1957 : BitVec 32), Decidable (k0_chk237 v1957) := fun v1957 => decidable_of_iff' _ (Iff.of_eq (k0_chk237.eq_1 v1957))
theorem k0_off316_inb : ∀ (v1957 : BitVec 32) (k0_hw237 : k0_chk237 v1957), ∀ a, (k0_off316 v1957) a + S1x64.size a ≤ S500000x64.size a := fun v1957 k0_hw237 => k0_hw237

def k0_off317 (i : grid0.Coords) : Fin 1 → Nat :=
  let arg0 : BitVec 32 := BitVec.ofNat 32 (i 0).val
  let c128_i32 : BitVec 32 := 128#32
  let v0 : BitVec 32 := Scalar.muli arg0 c128_i32
  let c79_i32 : BitVec 32 := 79#32
  let v1976 : BitVec 32 := Scalar.addi v0 c79_i32
  let v1977 : Index := Scalar.indexCast v1976
  ![v1977.toNat]
def k0_off318 (v1978 : BitVec 32) : Fin 2 → Nat :=
  let c0_i32_475 : BitVec 32 := 0#32
  ![v1978.toNat, 0]

def k0_chk238 (v1978 : BitVec 32) : Prop :=
  (∀ a, (k0_off318 v1978) a + S1x64.size a ≤ S1000000x64.size a)
instance k0_chk238.dec : ∀ (v1978 : BitVec 32), Decidable (k0_chk238 v1978) := fun v1978 => decidable_of_iff' _ (Iff.of_eq (k0_chk238.eq_1 v1978))
theorem k0_off318_inb : ∀ (v1978 : BitVec 32) (k0_hw238 : k0_chk238 v1978), ∀ a, (k0_off318 v1978) a + S1x64.size a ≤ S1000000x64.size a := fun v1978 k0_hw238 => k0_hw238

def k0_off319 (v1980 : BitVec 32) : Fin 2 → Nat :=
  let c0_i32_477 : BitVec 32 := 0#32
  ![v1980.toNat, 0]

def k0_chk239 (v1980 : BitVec 32) : Prop :=
  (∀ a, (k0_off319 v1980) a + S1x64.size a ≤ S500000x64.size a)
instance k0_chk239.dec : ∀ (v1980 : BitVec 32), Decidable (k0_chk239 v1980) := fun v1980 => decidable_of_iff' _ (Iff.of_eq (k0_chk239.eq_1 v1980))
theorem k0_off319_inb : ∀ (v1980 : BitVec 32) (k0_hw239 : k0_chk239 v1980), ∀ a, (k0_off319 v1980) a + S1x64.size a ≤ S500000x64.size a := fun v1980 k0_hw239 => k0_hw239

def k0_off320 (v1982 : BitVec 32) : Fin 2 → Nat :=
  let c0_i32_479 : BitVec 32 := 0#32
  ![v1982.toNat, 0]

def k0_chk240 (v1982 : BitVec 32) : Prop :=
  (∀ a, (k0_off320 v1982) a + S1x64.size a ≤ S500000x64.size a)
instance k0_chk240.dec : ∀ (v1982 : BitVec 32), Decidable (k0_chk240 v1982) := fun v1982 => decidable_of_iff' _ (Iff.of_eq (k0_chk240.eq_1 v1982))
theorem k0_off320_inb : ∀ (v1982 : BitVec 32) (k0_hw240 : k0_chk240 v1982), ∀ a, (k0_off320 v1982) a + S1x64.size a ≤ S500000x64.size a := fun v1982 k0_hw240 => k0_hw240

def k0_off321 (i : grid0.Coords) : Fin 1 → Nat :=
  let arg0 : BitVec 32 := BitVec.ofNat 32 (i 0).val
  let c128_i32 : BitVec 32 := 128#32
  let v0 : BitVec 32 := Scalar.muli arg0 c128_i32
  let c80_i32 : BitVec 32 := 80#32
  let v2001 : BitVec 32 := Scalar.addi v0 c80_i32
  let v2002 : Index := Scalar.indexCast v2001
  ![v2002.toNat]
def k0_off322 (v2003 : BitVec 32) : Fin 2 → Nat :=
  let c0_i32_481 : BitVec 32 := 0#32
  ![v2003.toNat, 0]

def k0_chk241 (v2003 : BitVec 32) : Prop :=
  (∀ a, (k0_off322 v2003) a + S1x64.size a ≤ S1000000x64.size a)
instance k0_chk241.dec : ∀ (v2003 : BitVec 32), Decidable (k0_chk241 v2003) := fun v2003 => decidable_of_iff' _ (Iff.of_eq (k0_chk241.eq_1 v2003))
theorem k0_off322_inb : ∀ (v2003 : BitVec 32) (k0_hw241 : k0_chk241 v2003), ∀ a, (k0_off322 v2003) a + S1x64.size a ≤ S1000000x64.size a := fun v2003 k0_hw241 => k0_hw241

def k0_off323 (v2005 : BitVec 32) : Fin 2 → Nat :=
  let c0_i32_483 : BitVec 32 := 0#32
  ![v2005.toNat, 0]

def k0_chk242 (v2005 : BitVec 32) : Prop :=
  (∀ a, (k0_off323 v2005) a + S1x64.size a ≤ S500000x64.size a)
instance k0_chk242.dec : ∀ (v2005 : BitVec 32), Decidable (k0_chk242 v2005) := fun v2005 => decidable_of_iff' _ (Iff.of_eq (k0_chk242.eq_1 v2005))
theorem k0_off323_inb : ∀ (v2005 : BitVec 32) (k0_hw242 : k0_chk242 v2005), ∀ a, (k0_off323 v2005) a + S1x64.size a ≤ S500000x64.size a := fun v2005 k0_hw242 => k0_hw242

def k0_off324 (v2007 : BitVec 32) : Fin 2 → Nat :=
  let c0_i32_485 : BitVec 32 := 0#32
  ![v2007.toNat, 0]

def k0_chk243 (v2007 : BitVec 32) : Prop :=
  (∀ a, (k0_off324 v2007) a + S1x64.size a ≤ S500000x64.size a)
instance k0_chk243.dec : ∀ (v2007 : BitVec 32), Decidable (k0_chk243 v2007) := fun v2007 => decidable_of_iff' _ (Iff.of_eq (k0_chk243.eq_1 v2007))
theorem k0_off324_inb : ∀ (v2007 : BitVec 32) (k0_hw243 : k0_chk243 v2007), ∀ a, (k0_off324 v2007) a + S1x64.size a ≤ S500000x64.size a := fun v2007 k0_hw243 => k0_hw243

def k0_off325 (i : grid0.Coords) : Fin 1 → Nat :=
  let arg0 : BitVec 32 := BitVec.ofNat 32 (i 0).val
  let c128_i32 : BitVec 32 := 128#32
  let v0 : BitVec 32 := Scalar.muli arg0 c128_i32
  let c81_i32 : BitVec 32 := 81#32
  let v2026 : BitVec 32 := Scalar.addi v0 c81_i32
  let v2027 : Index := Scalar.indexCast v2026
  ![v2027.toNat]
def k0_off326 (v2028 : BitVec 32) : Fin 2 → Nat :=
  let c0_i32_487 : BitVec 32 := 0#32
  ![v2028.toNat, 0]

def k0_chk244 (v2028 : BitVec 32) : Prop :=
  (∀ a, (k0_off326 v2028) a + S1x64.size a ≤ S1000000x64.size a)
instance k0_chk244.dec : ∀ (v2028 : BitVec 32), Decidable (k0_chk244 v2028) := fun v2028 => decidable_of_iff' _ (Iff.of_eq (k0_chk244.eq_1 v2028))
theorem k0_off326_inb : ∀ (v2028 : BitVec 32) (k0_hw244 : k0_chk244 v2028), ∀ a, (k0_off326 v2028) a + S1x64.size a ≤ S1000000x64.size a := fun v2028 k0_hw244 => k0_hw244

def k0_off327 (v2030 : BitVec 32) : Fin 2 → Nat :=
  let c0_i32_489 : BitVec 32 := 0#32
  ![v2030.toNat, 0]

def k0_chk245 (v2030 : BitVec 32) : Prop :=
  (∀ a, (k0_off327 v2030) a + S1x64.size a ≤ S500000x64.size a)
instance k0_chk245.dec : ∀ (v2030 : BitVec 32), Decidable (k0_chk245 v2030) := fun v2030 => decidable_of_iff' _ (Iff.of_eq (k0_chk245.eq_1 v2030))
theorem k0_off327_inb : ∀ (v2030 : BitVec 32) (k0_hw245 : k0_chk245 v2030), ∀ a, (k0_off327 v2030) a + S1x64.size a ≤ S500000x64.size a := fun v2030 k0_hw245 => k0_hw245

def k0_off328 (v2032 : BitVec 32) : Fin 2 → Nat :=
  let c0_i32_491 : BitVec 32 := 0#32
  ![v2032.toNat, 0]

def k0_chk246 (v2032 : BitVec 32) : Prop :=
  (∀ a, (k0_off328 v2032) a + S1x64.size a ≤ S500000x64.size a)
instance k0_chk246.dec : ∀ (v2032 : BitVec 32), Decidable (k0_chk246 v2032) := fun v2032 => decidable_of_iff' _ (Iff.of_eq (k0_chk246.eq_1 v2032))
theorem k0_off328_inb : ∀ (v2032 : BitVec 32) (k0_hw246 : k0_chk246 v2032), ∀ a, (k0_off328 v2032) a + S1x64.size a ≤ S500000x64.size a := fun v2032 k0_hw246 => k0_hw246

def k0_off329 (i : grid0.Coords) : Fin 1 → Nat :=
  let arg0 : BitVec 32 := BitVec.ofNat 32 (i 0).val
  let c128_i32 : BitVec 32 := 128#32
  let v0 : BitVec 32 := Scalar.muli arg0 c128_i32
  let c82_i32 : BitVec 32 := 82#32
  let v2051 : BitVec 32 := Scalar.addi v0 c82_i32
  let v2052 : Index := Scalar.indexCast v2051
  ![v2052.toNat]
def k0_off330 (v2053 : BitVec 32) : Fin 2 → Nat :=
  let c0_i32_493 : BitVec 32 := 0#32
  ![v2053.toNat, 0]

def k0_chk247 (v2053 : BitVec 32) : Prop :=
  (∀ a, (k0_off330 v2053) a + S1x64.size a ≤ S1000000x64.size a)
instance k0_chk247.dec : ∀ (v2053 : BitVec 32), Decidable (k0_chk247 v2053) := fun v2053 => decidable_of_iff' _ (Iff.of_eq (k0_chk247.eq_1 v2053))
theorem k0_off330_inb : ∀ (v2053 : BitVec 32) (k0_hw247 : k0_chk247 v2053), ∀ a, (k0_off330 v2053) a + S1x64.size a ≤ S1000000x64.size a := fun v2053 k0_hw247 => k0_hw247

def k0_off331 (v2055 : BitVec 32) : Fin 2 → Nat :=
  let c0_i32_495 : BitVec 32 := 0#32
  ![v2055.toNat, 0]

def k0_chk248 (v2055 : BitVec 32) : Prop :=
  (∀ a, (k0_off331 v2055) a + S1x64.size a ≤ S500000x64.size a)
instance k0_chk248.dec : ∀ (v2055 : BitVec 32), Decidable (k0_chk248 v2055) := fun v2055 => decidable_of_iff' _ (Iff.of_eq (k0_chk248.eq_1 v2055))
theorem k0_off331_inb : ∀ (v2055 : BitVec 32) (k0_hw248 : k0_chk248 v2055), ∀ a, (k0_off331 v2055) a + S1x64.size a ≤ S500000x64.size a := fun v2055 k0_hw248 => k0_hw248

def k0_off332 (v2057 : BitVec 32) : Fin 2 → Nat :=
  let c0_i32_497 : BitVec 32 := 0#32
  ![v2057.toNat, 0]

def k0_chk249 (v2057 : BitVec 32) : Prop :=
  (∀ a, (k0_off332 v2057) a + S1x64.size a ≤ S500000x64.size a)
instance k0_chk249.dec : ∀ (v2057 : BitVec 32), Decidable (k0_chk249 v2057) := fun v2057 => decidable_of_iff' _ (Iff.of_eq (k0_chk249.eq_1 v2057))
theorem k0_off332_inb : ∀ (v2057 : BitVec 32) (k0_hw249 : k0_chk249 v2057), ∀ a, (k0_off332 v2057) a + S1x64.size a ≤ S500000x64.size a := fun v2057 k0_hw249 => k0_hw249

def k0_off333 (i : grid0.Coords) : Fin 1 → Nat :=
  let arg0 : BitVec 32 := BitVec.ofNat 32 (i 0).val
  let c128_i32 : BitVec 32 := 128#32
  let v0 : BitVec 32 := Scalar.muli arg0 c128_i32
  let c83_i32 : BitVec 32 := 83#32
  let v2076 : BitVec 32 := Scalar.addi v0 c83_i32
  let v2077 : Index := Scalar.indexCast v2076
  ![v2077.toNat]
def k0_off334 (v2078 : BitVec 32) : Fin 2 → Nat :=
  let c0_i32_499 : BitVec 32 := 0#32
  ![v2078.toNat, 0]

def k0_chk250 (v2078 : BitVec 32) : Prop :=
  (∀ a, (k0_off334 v2078) a + S1x64.size a ≤ S1000000x64.size a)
instance k0_chk250.dec : ∀ (v2078 : BitVec 32), Decidable (k0_chk250 v2078) := fun v2078 => decidable_of_iff' _ (Iff.of_eq (k0_chk250.eq_1 v2078))
theorem k0_off334_inb : ∀ (v2078 : BitVec 32) (k0_hw250 : k0_chk250 v2078), ∀ a, (k0_off334 v2078) a + S1x64.size a ≤ S1000000x64.size a := fun v2078 k0_hw250 => k0_hw250

def k0_off335 (v2080 : BitVec 32) : Fin 2 → Nat :=
  let c0_i32_501 : BitVec 32 := 0#32
  ![v2080.toNat, 0]

def k0_chk251 (v2080 : BitVec 32) : Prop :=
  (∀ a, (k0_off335 v2080) a + S1x64.size a ≤ S500000x64.size a)
instance k0_chk251.dec : ∀ (v2080 : BitVec 32), Decidable (k0_chk251 v2080) := fun v2080 => decidable_of_iff' _ (Iff.of_eq (k0_chk251.eq_1 v2080))
theorem k0_off335_inb : ∀ (v2080 : BitVec 32) (k0_hw251 : k0_chk251 v2080), ∀ a, (k0_off335 v2080) a + S1x64.size a ≤ S500000x64.size a := fun v2080 k0_hw251 => k0_hw251

def k0_off336 (v2082 : BitVec 32) : Fin 2 → Nat :=
  let c0_i32_503 : BitVec 32 := 0#32
  ![v2082.toNat, 0]

def k0_chk252 (v2082 : BitVec 32) : Prop :=
  (∀ a, (k0_off336 v2082) a + S1x64.size a ≤ S500000x64.size a)
instance k0_chk252.dec : ∀ (v2082 : BitVec 32), Decidable (k0_chk252 v2082) := fun v2082 => decidable_of_iff' _ (Iff.of_eq (k0_chk252.eq_1 v2082))
theorem k0_off336_inb : ∀ (v2082 : BitVec 32) (k0_hw252 : k0_chk252 v2082), ∀ a, (k0_off336 v2082) a + S1x64.size a ≤ S500000x64.size a := fun v2082 k0_hw252 => k0_hw252

def k0_off337 (i : grid0.Coords) : Fin 1 → Nat :=
  let arg0 : BitVec 32 := BitVec.ofNat 32 (i 0).val
  let c128_i32 : BitVec 32 := 128#32
  let v0 : BitVec 32 := Scalar.muli arg0 c128_i32
  let c84_i32 : BitVec 32 := 84#32
  let v2101 : BitVec 32 := Scalar.addi v0 c84_i32
  let v2102 : Index := Scalar.indexCast v2101
  ![v2102.toNat]
def k0_off338 (v2103 : BitVec 32) : Fin 2 → Nat :=
  let c0_i32_505 : BitVec 32 := 0#32
  ![v2103.toNat, 0]

def k0_chk253 (v2103 : BitVec 32) : Prop :=
  (∀ a, (k0_off338 v2103) a + S1x64.size a ≤ S1000000x64.size a)
instance k0_chk253.dec : ∀ (v2103 : BitVec 32), Decidable (k0_chk253 v2103) := fun v2103 => decidable_of_iff' _ (Iff.of_eq (k0_chk253.eq_1 v2103))
theorem k0_off338_inb : ∀ (v2103 : BitVec 32) (k0_hw253 : k0_chk253 v2103), ∀ a, (k0_off338 v2103) a + S1x64.size a ≤ S1000000x64.size a := fun v2103 k0_hw253 => k0_hw253

def k0_off339 (v2105 : BitVec 32) : Fin 2 → Nat :=
  let c0_i32_507 : BitVec 32 := 0#32
  ![v2105.toNat, 0]

def k0_chk254 (v2105 : BitVec 32) : Prop :=
  (∀ a, (k0_off339 v2105) a + S1x64.size a ≤ S500000x64.size a)
instance k0_chk254.dec : ∀ (v2105 : BitVec 32), Decidable (k0_chk254 v2105) := fun v2105 => decidable_of_iff' _ (Iff.of_eq (k0_chk254.eq_1 v2105))
theorem k0_off339_inb : ∀ (v2105 : BitVec 32) (k0_hw254 : k0_chk254 v2105), ∀ a, (k0_off339 v2105) a + S1x64.size a ≤ S500000x64.size a := fun v2105 k0_hw254 => k0_hw254

def k0_off340 (v2107 : BitVec 32) : Fin 2 → Nat :=
  let c0_i32_509 : BitVec 32 := 0#32
  ![v2107.toNat, 0]

def k0_chk255 (v2107 : BitVec 32) : Prop :=
  (∀ a, (k0_off340 v2107) a + S1x64.size a ≤ S500000x64.size a)
instance k0_chk255.dec : ∀ (v2107 : BitVec 32), Decidable (k0_chk255 v2107) := fun v2107 => decidable_of_iff' _ (Iff.of_eq (k0_chk255.eq_1 v2107))
theorem k0_off340_inb : ∀ (v2107 : BitVec 32) (k0_hw255 : k0_chk255 v2107), ∀ a, (k0_off340 v2107) a + S1x64.size a ≤ S500000x64.size a := fun v2107 k0_hw255 => k0_hw255

def k0_off341 (i : grid0.Coords) : Fin 1 → Nat :=
  let arg0 : BitVec 32 := BitVec.ofNat 32 (i 0).val
  let c128_i32 : BitVec 32 := 128#32
  let v0 : BitVec 32 := Scalar.muli arg0 c128_i32
  let c85_i32 : BitVec 32 := 85#32
  let v2126 : BitVec 32 := Scalar.addi v0 c85_i32
  let v2127 : Index := Scalar.indexCast v2126
  ![v2127.toNat]
def k0_off342 (v2128 : BitVec 32) : Fin 2 → Nat :=
  let c0_i32_511 : BitVec 32 := 0#32
  ![v2128.toNat, 0]

def k0_chk256 (v2128 : BitVec 32) : Prop :=
  (∀ a, (k0_off342 v2128) a + S1x64.size a ≤ S1000000x64.size a)
instance k0_chk256.dec : ∀ (v2128 : BitVec 32), Decidable (k0_chk256 v2128) := fun v2128 => decidable_of_iff' _ (Iff.of_eq (k0_chk256.eq_1 v2128))
theorem k0_off342_inb : ∀ (v2128 : BitVec 32) (k0_hw256 : k0_chk256 v2128), ∀ a, (k0_off342 v2128) a + S1x64.size a ≤ S1000000x64.size a := fun v2128 k0_hw256 => k0_hw256

def k0_off343 (v2130 : BitVec 32) : Fin 2 → Nat :=
  let c0_i32_513 : BitVec 32 := 0#32
  ![v2130.toNat, 0]

def k0_chk257 (v2130 : BitVec 32) : Prop :=
  (∀ a, (k0_off343 v2130) a + S1x64.size a ≤ S500000x64.size a)
instance k0_chk257.dec : ∀ (v2130 : BitVec 32), Decidable (k0_chk257 v2130) := fun v2130 => decidable_of_iff' _ (Iff.of_eq (k0_chk257.eq_1 v2130))
theorem k0_off343_inb : ∀ (v2130 : BitVec 32) (k0_hw257 : k0_chk257 v2130), ∀ a, (k0_off343 v2130) a + S1x64.size a ≤ S500000x64.size a := fun v2130 k0_hw257 => k0_hw257

def k0_off344 (v2132 : BitVec 32) : Fin 2 → Nat :=
  let c0_i32_515 : BitVec 32 := 0#32
  ![v2132.toNat, 0]

def k0_chk258 (v2132 : BitVec 32) : Prop :=
  (∀ a, (k0_off344 v2132) a + S1x64.size a ≤ S500000x64.size a)
instance k0_chk258.dec : ∀ (v2132 : BitVec 32), Decidable (k0_chk258 v2132) := fun v2132 => decidable_of_iff' _ (Iff.of_eq (k0_chk258.eq_1 v2132))
theorem k0_off344_inb : ∀ (v2132 : BitVec 32) (k0_hw258 : k0_chk258 v2132), ∀ a, (k0_off344 v2132) a + S1x64.size a ≤ S500000x64.size a := fun v2132 k0_hw258 => k0_hw258

def k0_off345 (i : grid0.Coords) : Fin 1 → Nat :=
  let arg0 : BitVec 32 := BitVec.ofNat 32 (i 0).val
  let c128_i32 : BitVec 32 := 128#32
  let v0 : BitVec 32 := Scalar.muli arg0 c128_i32
  let c86_i32 : BitVec 32 := 86#32
  let v2151 : BitVec 32 := Scalar.addi v0 c86_i32
  let v2152 : Index := Scalar.indexCast v2151
  ![v2152.toNat]
def k0_off346 (v2153 : BitVec 32) : Fin 2 → Nat :=
  let c0_i32_517 : BitVec 32 := 0#32
  ![v2153.toNat, 0]

def k0_chk259 (v2153 : BitVec 32) : Prop :=
  (∀ a, (k0_off346 v2153) a + S1x64.size a ≤ S1000000x64.size a)
instance k0_chk259.dec : ∀ (v2153 : BitVec 32), Decidable (k0_chk259 v2153) := fun v2153 => decidable_of_iff' _ (Iff.of_eq (k0_chk259.eq_1 v2153))
theorem k0_off346_inb : ∀ (v2153 : BitVec 32) (k0_hw259 : k0_chk259 v2153), ∀ a, (k0_off346 v2153) a + S1x64.size a ≤ S1000000x64.size a := fun v2153 k0_hw259 => k0_hw259

def k0_off347 (v2155 : BitVec 32) : Fin 2 → Nat :=
  let c0_i32_519 : BitVec 32 := 0#32
  ![v2155.toNat, 0]

def k0_chk260 (v2155 : BitVec 32) : Prop :=
  (∀ a, (k0_off347 v2155) a + S1x64.size a ≤ S500000x64.size a)
instance k0_chk260.dec : ∀ (v2155 : BitVec 32), Decidable (k0_chk260 v2155) := fun v2155 => decidable_of_iff' _ (Iff.of_eq (k0_chk260.eq_1 v2155))
theorem k0_off347_inb : ∀ (v2155 : BitVec 32) (k0_hw260 : k0_chk260 v2155), ∀ a, (k0_off347 v2155) a + S1x64.size a ≤ S500000x64.size a := fun v2155 k0_hw260 => k0_hw260

def k0_off348 (v2157 : BitVec 32) : Fin 2 → Nat :=
  let c0_i32_521 : BitVec 32 := 0#32
  ![v2157.toNat, 0]

def k0_chk261 (v2157 : BitVec 32) : Prop :=
  (∀ a, (k0_off348 v2157) a + S1x64.size a ≤ S500000x64.size a)
instance k0_chk261.dec : ∀ (v2157 : BitVec 32), Decidable (k0_chk261 v2157) := fun v2157 => decidable_of_iff' _ (Iff.of_eq (k0_chk261.eq_1 v2157))
theorem k0_off348_inb : ∀ (v2157 : BitVec 32) (k0_hw261 : k0_chk261 v2157), ∀ a, (k0_off348 v2157) a + S1x64.size a ≤ S500000x64.size a := fun v2157 k0_hw261 => k0_hw261

def k0_off349 (i : grid0.Coords) : Fin 1 → Nat :=
  let arg0 : BitVec 32 := BitVec.ofNat 32 (i 0).val
  let c128_i32 : BitVec 32 := 128#32
  let v0 : BitVec 32 := Scalar.muli arg0 c128_i32
  let c87_i32 : BitVec 32 := 87#32
  let v2176 : BitVec 32 := Scalar.addi v0 c87_i32
  let v2177 : Index := Scalar.indexCast v2176
  ![v2177.toNat]
def k0_off350 (v2178 : BitVec 32) : Fin 2 → Nat :=
  let c0_i32_523 : BitVec 32 := 0#32
  ![v2178.toNat, 0]

def k0_chk262 (v2178 : BitVec 32) : Prop :=
  (∀ a, (k0_off350 v2178) a + S1x64.size a ≤ S1000000x64.size a)
instance k0_chk262.dec : ∀ (v2178 : BitVec 32), Decidable (k0_chk262 v2178) := fun v2178 => decidable_of_iff' _ (Iff.of_eq (k0_chk262.eq_1 v2178))
theorem k0_off350_inb : ∀ (v2178 : BitVec 32) (k0_hw262 : k0_chk262 v2178), ∀ a, (k0_off350 v2178) a + S1x64.size a ≤ S1000000x64.size a := fun v2178 k0_hw262 => k0_hw262

def k0_off351 (v2180 : BitVec 32) : Fin 2 → Nat :=
  let c0_i32_525 : BitVec 32 := 0#32
  ![v2180.toNat, 0]

def k0_chk263 (v2180 : BitVec 32) : Prop :=
  (∀ a, (k0_off351 v2180) a + S1x64.size a ≤ S500000x64.size a)
instance k0_chk263.dec : ∀ (v2180 : BitVec 32), Decidable (k0_chk263 v2180) := fun v2180 => decidable_of_iff' _ (Iff.of_eq (k0_chk263.eq_1 v2180))
theorem k0_off351_inb : ∀ (v2180 : BitVec 32) (k0_hw263 : k0_chk263 v2180), ∀ a, (k0_off351 v2180) a + S1x64.size a ≤ S500000x64.size a := fun v2180 k0_hw263 => k0_hw263

def k0_off352 (v2182 : BitVec 32) : Fin 2 → Nat :=
  let c0_i32_527 : BitVec 32 := 0#32
  ![v2182.toNat, 0]

def k0_chk264 (v2182 : BitVec 32) : Prop :=
  (∀ a, (k0_off352 v2182) a + S1x64.size a ≤ S500000x64.size a)
instance k0_chk264.dec : ∀ (v2182 : BitVec 32), Decidable (k0_chk264 v2182) := fun v2182 => decidable_of_iff' _ (Iff.of_eq (k0_chk264.eq_1 v2182))
theorem k0_off352_inb : ∀ (v2182 : BitVec 32) (k0_hw264 : k0_chk264 v2182), ∀ a, (k0_off352 v2182) a + S1x64.size a ≤ S500000x64.size a := fun v2182 k0_hw264 => k0_hw264

def k0_off353 (i : grid0.Coords) : Fin 1 → Nat :=
  let arg0 : BitVec 32 := BitVec.ofNat 32 (i 0).val
  let c128_i32 : BitVec 32 := 128#32
  let v0 : BitVec 32 := Scalar.muli arg0 c128_i32
  let c88_i32 : BitVec 32 := 88#32
  let v2201 : BitVec 32 := Scalar.addi v0 c88_i32
  let v2202 : Index := Scalar.indexCast v2201
  ![v2202.toNat]
def k0_off354 (v2203 : BitVec 32) : Fin 2 → Nat :=
  let c0_i32_529 : BitVec 32 := 0#32
  ![v2203.toNat, 0]

def k0_chk265 (v2203 : BitVec 32) : Prop :=
  (∀ a, (k0_off354 v2203) a + S1x64.size a ≤ S1000000x64.size a)
instance k0_chk265.dec : ∀ (v2203 : BitVec 32), Decidable (k0_chk265 v2203) := fun v2203 => decidable_of_iff' _ (Iff.of_eq (k0_chk265.eq_1 v2203))
theorem k0_off354_inb : ∀ (v2203 : BitVec 32) (k0_hw265 : k0_chk265 v2203), ∀ a, (k0_off354 v2203) a + S1x64.size a ≤ S1000000x64.size a := fun v2203 k0_hw265 => k0_hw265

def k0_off355 (v2205 : BitVec 32) : Fin 2 → Nat :=
  let c0_i32_531 : BitVec 32 := 0#32
  ![v2205.toNat, 0]

def k0_chk266 (v2205 : BitVec 32) : Prop :=
  (∀ a, (k0_off355 v2205) a + S1x64.size a ≤ S500000x64.size a)
instance k0_chk266.dec : ∀ (v2205 : BitVec 32), Decidable (k0_chk266 v2205) := fun v2205 => decidable_of_iff' _ (Iff.of_eq (k0_chk266.eq_1 v2205))
theorem k0_off355_inb : ∀ (v2205 : BitVec 32) (k0_hw266 : k0_chk266 v2205), ∀ a, (k0_off355 v2205) a + S1x64.size a ≤ S500000x64.size a := fun v2205 k0_hw266 => k0_hw266

def k0_off356 (v2207 : BitVec 32) : Fin 2 → Nat :=
  let c0_i32_533 : BitVec 32 := 0#32
  ![v2207.toNat, 0]

def k0_chk267 (v2207 : BitVec 32) : Prop :=
  (∀ a, (k0_off356 v2207) a + S1x64.size a ≤ S500000x64.size a)
instance k0_chk267.dec : ∀ (v2207 : BitVec 32), Decidable (k0_chk267 v2207) := fun v2207 => decidable_of_iff' _ (Iff.of_eq (k0_chk267.eq_1 v2207))
theorem k0_off356_inb : ∀ (v2207 : BitVec 32) (k0_hw267 : k0_chk267 v2207), ∀ a, (k0_off356 v2207) a + S1x64.size a ≤ S500000x64.size a := fun v2207 k0_hw267 => k0_hw267

def k0_off357 (i : grid0.Coords) : Fin 1 → Nat :=
  let arg0 : BitVec 32 := BitVec.ofNat 32 (i 0).val
  let c128_i32 : BitVec 32 := 128#32
  let v0 : BitVec 32 := Scalar.muli arg0 c128_i32
  let c89_i32 : BitVec 32 := 89#32
  let v2226 : BitVec 32 := Scalar.addi v0 c89_i32
  let v2227 : Index := Scalar.indexCast v2226
  ![v2227.toNat]
def k0_off358 (v2228 : BitVec 32) : Fin 2 → Nat :=
  let c0_i32_535 : BitVec 32 := 0#32
  ![v2228.toNat, 0]

def k0_chk268 (v2228 : BitVec 32) : Prop :=
  (∀ a, (k0_off358 v2228) a + S1x64.size a ≤ S1000000x64.size a)
instance k0_chk268.dec : ∀ (v2228 : BitVec 32), Decidable (k0_chk268 v2228) := fun v2228 => decidable_of_iff' _ (Iff.of_eq (k0_chk268.eq_1 v2228))
theorem k0_off358_inb : ∀ (v2228 : BitVec 32) (k0_hw268 : k0_chk268 v2228), ∀ a, (k0_off358 v2228) a + S1x64.size a ≤ S1000000x64.size a := fun v2228 k0_hw268 => k0_hw268

def k0_off359 (v2230 : BitVec 32) : Fin 2 → Nat :=
  let c0_i32_537 : BitVec 32 := 0#32
  ![v2230.toNat, 0]

def k0_chk269 (v2230 : BitVec 32) : Prop :=
  (∀ a, (k0_off359 v2230) a + S1x64.size a ≤ S500000x64.size a)
instance k0_chk269.dec : ∀ (v2230 : BitVec 32), Decidable (k0_chk269 v2230) := fun v2230 => decidable_of_iff' _ (Iff.of_eq (k0_chk269.eq_1 v2230))
theorem k0_off359_inb : ∀ (v2230 : BitVec 32) (k0_hw269 : k0_chk269 v2230), ∀ a, (k0_off359 v2230) a + S1x64.size a ≤ S500000x64.size a := fun v2230 k0_hw269 => k0_hw269

def k0_off360 (v2232 : BitVec 32) : Fin 2 → Nat :=
  let c0_i32_539 : BitVec 32 := 0#32
  ![v2232.toNat, 0]

def k0_chk270 (v2232 : BitVec 32) : Prop :=
  (∀ a, (k0_off360 v2232) a + S1x64.size a ≤ S500000x64.size a)
instance k0_chk270.dec : ∀ (v2232 : BitVec 32), Decidable (k0_chk270 v2232) := fun v2232 => decidable_of_iff' _ (Iff.of_eq (k0_chk270.eq_1 v2232))
theorem k0_off360_inb : ∀ (v2232 : BitVec 32) (k0_hw270 : k0_chk270 v2232), ∀ a, (k0_off360 v2232) a + S1x64.size a ≤ S500000x64.size a := fun v2232 k0_hw270 => k0_hw270

def k0_off361 (i : grid0.Coords) : Fin 1 → Nat :=
  let arg0 : BitVec 32 := BitVec.ofNat 32 (i 0).val
  let c128_i32 : BitVec 32 := 128#32
  let v0 : BitVec 32 := Scalar.muli arg0 c128_i32
  let c90_i32 : BitVec 32 := 90#32
  let v2251 : BitVec 32 := Scalar.addi v0 c90_i32
  let v2252 : Index := Scalar.indexCast v2251
  ![v2252.toNat]
def k0_off362 (v2253 : BitVec 32) : Fin 2 → Nat :=
  let c0_i32_541 : BitVec 32 := 0#32
  ![v2253.toNat, 0]

def k0_chk271 (v2253 : BitVec 32) : Prop :=
  (∀ a, (k0_off362 v2253) a + S1x64.size a ≤ S1000000x64.size a)
instance k0_chk271.dec : ∀ (v2253 : BitVec 32), Decidable (k0_chk271 v2253) := fun v2253 => decidable_of_iff' _ (Iff.of_eq (k0_chk271.eq_1 v2253))
theorem k0_off362_inb : ∀ (v2253 : BitVec 32) (k0_hw271 : k0_chk271 v2253), ∀ a, (k0_off362 v2253) a + S1x64.size a ≤ S1000000x64.size a := fun v2253 k0_hw271 => k0_hw271

def k0_off363 (v2255 : BitVec 32) : Fin 2 → Nat :=
  let c0_i32_543 : BitVec 32 := 0#32
  ![v2255.toNat, 0]

def k0_chk272 (v2255 : BitVec 32) : Prop :=
  (∀ a, (k0_off363 v2255) a + S1x64.size a ≤ S500000x64.size a)
instance k0_chk272.dec : ∀ (v2255 : BitVec 32), Decidable (k0_chk272 v2255) := fun v2255 => decidable_of_iff' _ (Iff.of_eq (k0_chk272.eq_1 v2255))
theorem k0_off363_inb : ∀ (v2255 : BitVec 32) (k0_hw272 : k0_chk272 v2255), ∀ a, (k0_off363 v2255) a + S1x64.size a ≤ S500000x64.size a := fun v2255 k0_hw272 => k0_hw272

def k0_off364 (v2257 : BitVec 32) : Fin 2 → Nat :=
  let c0_i32_545 : BitVec 32 := 0#32
  ![v2257.toNat, 0]

def k0_chk273 (v2257 : BitVec 32) : Prop :=
  (∀ a, (k0_off364 v2257) a + S1x64.size a ≤ S500000x64.size a)
instance k0_chk273.dec : ∀ (v2257 : BitVec 32), Decidable (k0_chk273 v2257) := fun v2257 => decidable_of_iff' _ (Iff.of_eq (k0_chk273.eq_1 v2257))
theorem k0_off364_inb : ∀ (v2257 : BitVec 32) (k0_hw273 : k0_chk273 v2257), ∀ a, (k0_off364 v2257) a + S1x64.size a ≤ S500000x64.size a := fun v2257 k0_hw273 => k0_hw273

def k0_off365 (i : grid0.Coords) : Fin 1 → Nat :=
  let arg0 : BitVec 32 := BitVec.ofNat 32 (i 0).val
  let c128_i32 : BitVec 32 := 128#32
  let v0 : BitVec 32 := Scalar.muli arg0 c128_i32
  let c91_i32 : BitVec 32 := 91#32
  let v2276 : BitVec 32 := Scalar.addi v0 c91_i32
  let v2277 : Index := Scalar.indexCast v2276
  ![v2277.toNat]
def k0_off366 (v2278 : BitVec 32) : Fin 2 → Nat :=
  let c0_i32_547 : BitVec 32 := 0#32
  ![v2278.toNat, 0]

def k0_chk274 (v2278 : BitVec 32) : Prop :=
  (∀ a, (k0_off366 v2278) a + S1x64.size a ≤ S1000000x64.size a)
instance k0_chk274.dec : ∀ (v2278 : BitVec 32), Decidable (k0_chk274 v2278) := fun v2278 => decidable_of_iff' _ (Iff.of_eq (k0_chk274.eq_1 v2278))
theorem k0_off366_inb : ∀ (v2278 : BitVec 32) (k0_hw274 : k0_chk274 v2278), ∀ a, (k0_off366 v2278) a + S1x64.size a ≤ S1000000x64.size a := fun v2278 k0_hw274 => k0_hw274

def k0_off367 (v2280 : BitVec 32) : Fin 2 → Nat :=
  let c0_i32_549 : BitVec 32 := 0#32
  ![v2280.toNat, 0]

def k0_chk275 (v2280 : BitVec 32) : Prop :=
  (∀ a, (k0_off367 v2280) a + S1x64.size a ≤ S500000x64.size a)
instance k0_chk275.dec : ∀ (v2280 : BitVec 32), Decidable (k0_chk275 v2280) := fun v2280 => decidable_of_iff' _ (Iff.of_eq (k0_chk275.eq_1 v2280))
theorem k0_off367_inb : ∀ (v2280 : BitVec 32) (k0_hw275 : k0_chk275 v2280), ∀ a, (k0_off367 v2280) a + S1x64.size a ≤ S500000x64.size a := fun v2280 k0_hw275 => k0_hw275

def k0_off368 (v2282 : BitVec 32) : Fin 2 → Nat :=
  let c0_i32_551 : BitVec 32 := 0#32
  ![v2282.toNat, 0]

def k0_chk276 (v2282 : BitVec 32) : Prop :=
  (∀ a, (k0_off368 v2282) a + S1x64.size a ≤ S500000x64.size a)
instance k0_chk276.dec : ∀ (v2282 : BitVec 32), Decidable (k0_chk276 v2282) := fun v2282 => decidable_of_iff' _ (Iff.of_eq (k0_chk276.eq_1 v2282))
theorem k0_off368_inb : ∀ (v2282 : BitVec 32) (k0_hw276 : k0_chk276 v2282), ∀ a, (k0_off368 v2282) a + S1x64.size a ≤ S500000x64.size a := fun v2282 k0_hw276 => k0_hw276

def k0_off369 (i : grid0.Coords) : Fin 1 → Nat :=
  let arg0 : BitVec 32 := BitVec.ofNat 32 (i 0).val
  let c128_i32 : BitVec 32 := 128#32
  let v0 : BitVec 32 := Scalar.muli arg0 c128_i32
  let c92_i32 : BitVec 32 := 92#32
  let v2301 : BitVec 32 := Scalar.addi v0 c92_i32
  let v2302 : Index := Scalar.indexCast v2301
  ![v2302.toNat]
def k0_off370 (v2303 : BitVec 32) : Fin 2 → Nat :=
  let c0_i32_553 : BitVec 32 := 0#32
  ![v2303.toNat, 0]

def k0_chk277 (v2303 : BitVec 32) : Prop :=
  (∀ a, (k0_off370 v2303) a + S1x64.size a ≤ S1000000x64.size a)
instance k0_chk277.dec : ∀ (v2303 : BitVec 32), Decidable (k0_chk277 v2303) := fun v2303 => decidable_of_iff' _ (Iff.of_eq (k0_chk277.eq_1 v2303))
theorem k0_off370_inb : ∀ (v2303 : BitVec 32) (k0_hw277 : k0_chk277 v2303), ∀ a, (k0_off370 v2303) a + S1x64.size a ≤ S1000000x64.size a := fun v2303 k0_hw277 => k0_hw277

def k0_off371 (v2305 : BitVec 32) : Fin 2 → Nat :=
  let c0_i32_555 : BitVec 32 := 0#32
  ![v2305.toNat, 0]

def k0_chk278 (v2305 : BitVec 32) : Prop :=
  (∀ a, (k0_off371 v2305) a + S1x64.size a ≤ S500000x64.size a)
instance k0_chk278.dec : ∀ (v2305 : BitVec 32), Decidable (k0_chk278 v2305) := fun v2305 => decidable_of_iff' _ (Iff.of_eq (k0_chk278.eq_1 v2305))
theorem k0_off371_inb : ∀ (v2305 : BitVec 32) (k0_hw278 : k0_chk278 v2305), ∀ a, (k0_off371 v2305) a + S1x64.size a ≤ S500000x64.size a := fun v2305 k0_hw278 => k0_hw278

def k0_off372 (v2307 : BitVec 32) : Fin 2 → Nat :=
  let c0_i32_557 : BitVec 32 := 0#32
  ![v2307.toNat, 0]

def k0_chk279 (v2307 : BitVec 32) : Prop :=
  (∀ a, (k0_off372 v2307) a + S1x64.size a ≤ S500000x64.size a)
instance k0_chk279.dec : ∀ (v2307 : BitVec 32), Decidable (k0_chk279 v2307) := fun v2307 => decidable_of_iff' _ (Iff.of_eq (k0_chk279.eq_1 v2307))
theorem k0_off372_inb : ∀ (v2307 : BitVec 32) (k0_hw279 : k0_chk279 v2307), ∀ a, (k0_off372 v2307) a + S1x64.size a ≤ S500000x64.size a := fun v2307 k0_hw279 => k0_hw279

def k0_off373 (i : grid0.Coords) : Fin 1 → Nat :=
  let arg0 : BitVec 32 := BitVec.ofNat 32 (i 0).val
  let c128_i32 : BitVec 32 := 128#32
  let v0 : BitVec 32 := Scalar.muli arg0 c128_i32
  let c93_i32 : BitVec 32 := 93#32
  let v2326 : BitVec 32 := Scalar.addi v0 c93_i32
  let v2327 : Index := Scalar.indexCast v2326
  ![v2327.toNat]
def k0_off374 (v2328 : BitVec 32) : Fin 2 → Nat :=
  let c0_i32_559 : BitVec 32 := 0#32
  ![v2328.toNat, 0]

def k0_chk280 (v2328 : BitVec 32) : Prop :=
  (∀ a, (k0_off374 v2328) a + S1x64.size a ≤ S1000000x64.size a)
instance k0_chk280.dec : ∀ (v2328 : BitVec 32), Decidable (k0_chk280 v2328) := fun v2328 => decidable_of_iff' _ (Iff.of_eq (k0_chk280.eq_1 v2328))
theorem k0_off374_inb : ∀ (v2328 : BitVec 32) (k0_hw280 : k0_chk280 v2328), ∀ a, (k0_off374 v2328) a + S1x64.size a ≤ S1000000x64.size a := fun v2328 k0_hw280 => k0_hw280

def k0_off375 (v2330 : BitVec 32) : Fin 2 → Nat :=
  let c0_i32_561 : BitVec 32 := 0#32
  ![v2330.toNat, 0]

def k0_chk281 (v2330 : BitVec 32) : Prop :=
  (∀ a, (k0_off375 v2330) a + S1x64.size a ≤ S500000x64.size a)
instance k0_chk281.dec : ∀ (v2330 : BitVec 32), Decidable (k0_chk281 v2330) := fun v2330 => decidable_of_iff' _ (Iff.of_eq (k0_chk281.eq_1 v2330))
theorem k0_off375_inb : ∀ (v2330 : BitVec 32) (k0_hw281 : k0_chk281 v2330), ∀ a, (k0_off375 v2330) a + S1x64.size a ≤ S500000x64.size a := fun v2330 k0_hw281 => k0_hw281

def k0_off376 (v2332 : BitVec 32) : Fin 2 → Nat :=
  let c0_i32_563 : BitVec 32 := 0#32
  ![v2332.toNat, 0]

def k0_chk282 (v2332 : BitVec 32) : Prop :=
  (∀ a, (k0_off376 v2332) a + S1x64.size a ≤ S500000x64.size a)
instance k0_chk282.dec : ∀ (v2332 : BitVec 32), Decidable (k0_chk282 v2332) := fun v2332 => decidable_of_iff' _ (Iff.of_eq (k0_chk282.eq_1 v2332))
theorem k0_off376_inb : ∀ (v2332 : BitVec 32) (k0_hw282 : k0_chk282 v2332), ∀ a, (k0_off376 v2332) a + S1x64.size a ≤ S500000x64.size a := fun v2332 k0_hw282 => k0_hw282

def k0_off377 (i : grid0.Coords) : Fin 1 → Nat :=
  let arg0 : BitVec 32 := BitVec.ofNat 32 (i 0).val
  let c128_i32 : BitVec 32 := 128#32
  let v0 : BitVec 32 := Scalar.muli arg0 c128_i32
  let c94_i32 : BitVec 32 := 94#32
  let v2351 : BitVec 32 := Scalar.addi v0 c94_i32
  let v2352 : Index := Scalar.indexCast v2351
  ![v2352.toNat]
def k0_off378 (v2353 : BitVec 32) : Fin 2 → Nat :=
  let c0_i32_565 : BitVec 32 := 0#32
  ![v2353.toNat, 0]

def k0_chk283 (v2353 : BitVec 32) : Prop :=
  (∀ a, (k0_off378 v2353) a + S1x64.size a ≤ S1000000x64.size a)
instance k0_chk283.dec : ∀ (v2353 : BitVec 32), Decidable (k0_chk283 v2353) := fun v2353 => decidable_of_iff' _ (Iff.of_eq (k0_chk283.eq_1 v2353))
theorem k0_off378_inb : ∀ (v2353 : BitVec 32) (k0_hw283 : k0_chk283 v2353), ∀ a, (k0_off378 v2353) a + S1x64.size a ≤ S1000000x64.size a := fun v2353 k0_hw283 => k0_hw283

def k0_off379 (v2355 : BitVec 32) : Fin 2 → Nat :=
  let c0_i32_567 : BitVec 32 := 0#32
  ![v2355.toNat, 0]

def k0_chk284 (v2355 : BitVec 32) : Prop :=
  (∀ a, (k0_off379 v2355) a + S1x64.size a ≤ S500000x64.size a)
instance k0_chk284.dec : ∀ (v2355 : BitVec 32), Decidable (k0_chk284 v2355) := fun v2355 => decidable_of_iff' _ (Iff.of_eq (k0_chk284.eq_1 v2355))
theorem k0_off379_inb : ∀ (v2355 : BitVec 32) (k0_hw284 : k0_chk284 v2355), ∀ a, (k0_off379 v2355) a + S1x64.size a ≤ S500000x64.size a := fun v2355 k0_hw284 => k0_hw284

def k0_off380 (v2357 : BitVec 32) : Fin 2 → Nat :=
  let c0_i32_569 : BitVec 32 := 0#32
  ![v2357.toNat, 0]

def k0_chk285 (v2357 : BitVec 32) : Prop :=
  (∀ a, (k0_off380 v2357) a + S1x64.size a ≤ S500000x64.size a)
instance k0_chk285.dec : ∀ (v2357 : BitVec 32), Decidable (k0_chk285 v2357) := fun v2357 => decidable_of_iff' _ (Iff.of_eq (k0_chk285.eq_1 v2357))
theorem k0_off380_inb : ∀ (v2357 : BitVec 32) (k0_hw285 : k0_chk285 v2357), ∀ a, (k0_off380 v2357) a + S1x64.size a ≤ S500000x64.size a := fun v2357 k0_hw285 => k0_hw285

def k0_off381 (i : grid0.Coords) : Fin 1 → Nat :=
  let arg0 : BitVec 32 := BitVec.ofNat 32 (i 0).val
  let c128_i32 : BitVec 32 := 128#32
  let v0 : BitVec 32 := Scalar.muli arg0 c128_i32
  let c95_i32 : BitVec 32 := 95#32
  let v2376 : BitVec 32 := Scalar.addi v0 c95_i32
  let v2377 : Index := Scalar.indexCast v2376
  ![v2377.toNat]
def k0_off382 (v2378 : BitVec 32) : Fin 2 → Nat :=
  let c0_i32_571 : BitVec 32 := 0#32
  ![v2378.toNat, 0]

def k0_chk286 (v2378 : BitVec 32) : Prop :=
  (∀ a, (k0_off382 v2378) a + S1x64.size a ≤ S1000000x64.size a)
instance k0_chk286.dec : ∀ (v2378 : BitVec 32), Decidable (k0_chk286 v2378) := fun v2378 => decidable_of_iff' _ (Iff.of_eq (k0_chk286.eq_1 v2378))
theorem k0_off382_inb : ∀ (v2378 : BitVec 32) (k0_hw286 : k0_chk286 v2378), ∀ a, (k0_off382 v2378) a + S1x64.size a ≤ S1000000x64.size a := fun v2378 k0_hw286 => k0_hw286

def k0_off383 (v2380 : BitVec 32) : Fin 2 → Nat :=
  let c0_i32_573 : BitVec 32 := 0#32
  ![v2380.toNat, 0]

def k0_chk287 (v2380 : BitVec 32) : Prop :=
  (∀ a, (k0_off383 v2380) a + S1x64.size a ≤ S500000x64.size a)
instance k0_chk287.dec : ∀ (v2380 : BitVec 32), Decidable (k0_chk287 v2380) := fun v2380 => decidable_of_iff' _ (Iff.of_eq (k0_chk287.eq_1 v2380))
theorem k0_off383_inb : ∀ (v2380 : BitVec 32) (k0_hw287 : k0_chk287 v2380), ∀ a, (k0_off383 v2380) a + S1x64.size a ≤ S500000x64.size a := fun v2380 k0_hw287 => k0_hw287

def k0_off384 (v2382 : BitVec 32) : Fin 2 → Nat :=
  let c0_i32_575 : BitVec 32 := 0#32
  ![v2382.toNat, 0]

def k0_chk288 (v2382 : BitVec 32) : Prop :=
  (∀ a, (k0_off384 v2382) a + S1x64.size a ≤ S500000x64.size a)
instance k0_chk288.dec : ∀ (v2382 : BitVec 32), Decidable (k0_chk288 v2382) := fun v2382 => decidable_of_iff' _ (Iff.of_eq (k0_chk288.eq_1 v2382))
theorem k0_off384_inb : ∀ (v2382 : BitVec 32) (k0_hw288 : k0_chk288 v2382), ∀ a, (k0_off384 v2382) a + S1x64.size a ≤ S500000x64.size a := fun v2382 k0_hw288 => k0_hw288

def k0_off385 (i : grid0.Coords) : Fin 1 → Nat :=
  let arg0 : BitVec 32 := BitVec.ofNat 32 (i 0).val
  let c128_i32 : BitVec 32 := 128#32
  let v0 : BitVec 32 := Scalar.muli arg0 c128_i32
  let c96_i32 : BitVec 32 := 96#32
  let v2401 : BitVec 32 := Scalar.addi v0 c96_i32
  let v2402 : Index := Scalar.indexCast v2401
  ![v2402.toNat]
def k0_off386 (v2403 : BitVec 32) : Fin 2 → Nat :=
  let c0_i32_577 : BitVec 32 := 0#32
  ![v2403.toNat, 0]

def k0_chk289 (v2403 : BitVec 32) : Prop :=
  (∀ a, (k0_off386 v2403) a + S1x64.size a ≤ S1000000x64.size a)
instance k0_chk289.dec : ∀ (v2403 : BitVec 32), Decidable (k0_chk289 v2403) := fun v2403 => decidable_of_iff' _ (Iff.of_eq (k0_chk289.eq_1 v2403))
theorem k0_off386_inb : ∀ (v2403 : BitVec 32) (k0_hw289 : k0_chk289 v2403), ∀ a, (k0_off386 v2403) a + S1x64.size a ≤ S1000000x64.size a := fun v2403 k0_hw289 => k0_hw289

def k0_off387 (v2405 : BitVec 32) : Fin 2 → Nat :=
  let c0_i32_579 : BitVec 32 := 0#32
  ![v2405.toNat, 0]

def k0_chk290 (v2405 : BitVec 32) : Prop :=
  (∀ a, (k0_off387 v2405) a + S1x64.size a ≤ S500000x64.size a)
instance k0_chk290.dec : ∀ (v2405 : BitVec 32), Decidable (k0_chk290 v2405) := fun v2405 => decidable_of_iff' _ (Iff.of_eq (k0_chk290.eq_1 v2405))
theorem k0_off387_inb : ∀ (v2405 : BitVec 32) (k0_hw290 : k0_chk290 v2405), ∀ a, (k0_off387 v2405) a + S1x64.size a ≤ S500000x64.size a := fun v2405 k0_hw290 => k0_hw290

def k0_off388 (v2407 : BitVec 32) : Fin 2 → Nat :=
  let c0_i32_581 : BitVec 32 := 0#32
  ![v2407.toNat, 0]

def k0_chk291 (v2407 : BitVec 32) : Prop :=
  (∀ a, (k0_off388 v2407) a + S1x64.size a ≤ S500000x64.size a)
instance k0_chk291.dec : ∀ (v2407 : BitVec 32), Decidable (k0_chk291 v2407) := fun v2407 => decidable_of_iff' _ (Iff.of_eq (k0_chk291.eq_1 v2407))
theorem k0_off388_inb : ∀ (v2407 : BitVec 32) (k0_hw291 : k0_chk291 v2407), ∀ a, (k0_off388 v2407) a + S1x64.size a ≤ S500000x64.size a := fun v2407 k0_hw291 => k0_hw291

def k0_off389 (i : grid0.Coords) : Fin 1 → Nat :=
  let arg0 : BitVec 32 := BitVec.ofNat 32 (i 0).val
  let c128_i32 : BitVec 32 := 128#32
  let v0 : BitVec 32 := Scalar.muli arg0 c128_i32
  let c97_i32 : BitVec 32 := 97#32
  let v2426 : BitVec 32 := Scalar.addi v0 c97_i32
  let v2427 : Index := Scalar.indexCast v2426
  ![v2427.toNat]
def k0_off390 (v2428 : BitVec 32) : Fin 2 → Nat :=
  let c0_i32_583 : BitVec 32 := 0#32
  ![v2428.toNat, 0]

def k0_chk292 (v2428 : BitVec 32) : Prop :=
  (∀ a, (k0_off390 v2428) a + S1x64.size a ≤ S1000000x64.size a)
instance k0_chk292.dec : ∀ (v2428 : BitVec 32), Decidable (k0_chk292 v2428) := fun v2428 => decidable_of_iff' _ (Iff.of_eq (k0_chk292.eq_1 v2428))
theorem k0_off390_inb : ∀ (v2428 : BitVec 32) (k0_hw292 : k0_chk292 v2428), ∀ a, (k0_off390 v2428) a + S1x64.size a ≤ S1000000x64.size a := fun v2428 k0_hw292 => k0_hw292

def k0_off391 (v2430 : BitVec 32) : Fin 2 → Nat :=
  let c0_i32_585 : BitVec 32 := 0#32
  ![v2430.toNat, 0]

def k0_chk293 (v2430 : BitVec 32) : Prop :=
  (∀ a, (k0_off391 v2430) a + S1x64.size a ≤ S500000x64.size a)
instance k0_chk293.dec : ∀ (v2430 : BitVec 32), Decidable (k0_chk293 v2430) := fun v2430 => decidable_of_iff' _ (Iff.of_eq (k0_chk293.eq_1 v2430))
theorem k0_off391_inb : ∀ (v2430 : BitVec 32) (k0_hw293 : k0_chk293 v2430), ∀ a, (k0_off391 v2430) a + S1x64.size a ≤ S500000x64.size a := fun v2430 k0_hw293 => k0_hw293

def k0_off392 (v2432 : BitVec 32) : Fin 2 → Nat :=
  let c0_i32_587 : BitVec 32 := 0#32
  ![v2432.toNat, 0]

def k0_chk294 (v2432 : BitVec 32) : Prop :=
  (∀ a, (k0_off392 v2432) a + S1x64.size a ≤ S500000x64.size a)
instance k0_chk294.dec : ∀ (v2432 : BitVec 32), Decidable (k0_chk294 v2432) := fun v2432 => decidable_of_iff' _ (Iff.of_eq (k0_chk294.eq_1 v2432))
theorem k0_off392_inb : ∀ (v2432 : BitVec 32) (k0_hw294 : k0_chk294 v2432), ∀ a, (k0_off392 v2432) a + S1x64.size a ≤ S500000x64.size a := fun v2432 k0_hw294 => k0_hw294

def k0_off393 (i : grid0.Coords) : Fin 1 → Nat :=
  let arg0 : BitVec 32 := BitVec.ofNat 32 (i 0).val
  let c128_i32 : BitVec 32 := 128#32
  let v0 : BitVec 32 := Scalar.muli arg0 c128_i32
  let c98_i32 : BitVec 32 := 98#32
  let v2451 : BitVec 32 := Scalar.addi v0 c98_i32
  let v2452 : Index := Scalar.indexCast v2451
  ![v2452.toNat]
def k0_off394 (v2453 : BitVec 32) : Fin 2 → Nat :=
  let c0_i32_589 : BitVec 32 := 0#32
  ![v2453.toNat, 0]

def k0_chk295 (v2453 : BitVec 32) : Prop :=
  (∀ a, (k0_off394 v2453) a + S1x64.size a ≤ S1000000x64.size a)
instance k0_chk295.dec : ∀ (v2453 : BitVec 32), Decidable (k0_chk295 v2453) := fun v2453 => decidable_of_iff' _ (Iff.of_eq (k0_chk295.eq_1 v2453))
theorem k0_off394_inb : ∀ (v2453 : BitVec 32) (k0_hw295 : k0_chk295 v2453), ∀ a, (k0_off394 v2453) a + S1x64.size a ≤ S1000000x64.size a := fun v2453 k0_hw295 => k0_hw295

def k0_off395 (v2455 : BitVec 32) : Fin 2 → Nat :=
  let c0_i32_591 : BitVec 32 := 0#32
  ![v2455.toNat, 0]

def k0_chk296 (v2455 : BitVec 32) : Prop :=
  (∀ a, (k0_off395 v2455) a + S1x64.size a ≤ S500000x64.size a)
instance k0_chk296.dec : ∀ (v2455 : BitVec 32), Decidable (k0_chk296 v2455) := fun v2455 => decidable_of_iff' _ (Iff.of_eq (k0_chk296.eq_1 v2455))
theorem k0_off395_inb : ∀ (v2455 : BitVec 32) (k0_hw296 : k0_chk296 v2455), ∀ a, (k0_off395 v2455) a + S1x64.size a ≤ S500000x64.size a := fun v2455 k0_hw296 => k0_hw296

def k0_off396 (v2457 : BitVec 32) : Fin 2 → Nat :=
  let c0_i32_593 : BitVec 32 := 0#32
  ![v2457.toNat, 0]

def k0_chk297 (v2457 : BitVec 32) : Prop :=
  (∀ a, (k0_off396 v2457) a + S1x64.size a ≤ S500000x64.size a)
instance k0_chk297.dec : ∀ (v2457 : BitVec 32), Decidable (k0_chk297 v2457) := fun v2457 => decidable_of_iff' _ (Iff.of_eq (k0_chk297.eq_1 v2457))
theorem k0_off396_inb : ∀ (v2457 : BitVec 32) (k0_hw297 : k0_chk297 v2457), ∀ a, (k0_off396 v2457) a + S1x64.size a ≤ S500000x64.size a := fun v2457 k0_hw297 => k0_hw297

def k0_off397 (i : grid0.Coords) : Fin 1 → Nat :=
  let arg0 : BitVec 32 := BitVec.ofNat 32 (i 0).val
  let c128_i32 : BitVec 32 := 128#32
  let v0 : BitVec 32 := Scalar.muli arg0 c128_i32
  let c99_i32 : BitVec 32 := 99#32
  let v2476 : BitVec 32 := Scalar.addi v0 c99_i32
  let v2477 : Index := Scalar.indexCast v2476
  ![v2477.toNat]
def k0_off398 (v2478 : BitVec 32) : Fin 2 → Nat :=
  let c0_i32_595 : BitVec 32 := 0#32
  ![v2478.toNat, 0]

def k0_chk298 (v2478 : BitVec 32) : Prop :=
  (∀ a, (k0_off398 v2478) a + S1x64.size a ≤ S1000000x64.size a)
instance k0_chk298.dec : ∀ (v2478 : BitVec 32), Decidable (k0_chk298 v2478) := fun v2478 => decidable_of_iff' _ (Iff.of_eq (k0_chk298.eq_1 v2478))
theorem k0_off398_inb : ∀ (v2478 : BitVec 32) (k0_hw298 : k0_chk298 v2478), ∀ a, (k0_off398 v2478) a + S1x64.size a ≤ S1000000x64.size a := fun v2478 k0_hw298 => k0_hw298

def k0_off399 (v2480 : BitVec 32) : Fin 2 → Nat :=
  let c0_i32_597 : BitVec 32 := 0#32
  ![v2480.toNat, 0]

def k0_chk299 (v2480 : BitVec 32) : Prop :=
  (∀ a, (k0_off399 v2480) a + S1x64.size a ≤ S500000x64.size a)
instance k0_chk299.dec : ∀ (v2480 : BitVec 32), Decidable (k0_chk299 v2480) := fun v2480 => decidable_of_iff' _ (Iff.of_eq (k0_chk299.eq_1 v2480))
theorem k0_off399_inb : ∀ (v2480 : BitVec 32) (k0_hw299 : k0_chk299 v2480), ∀ a, (k0_off399 v2480) a + S1x64.size a ≤ S500000x64.size a := fun v2480 k0_hw299 => k0_hw299

def k0_off400 (v2482 : BitVec 32) : Fin 2 → Nat :=
  let c0_i32_599 : BitVec 32 := 0#32
  ![v2482.toNat, 0]

def k0_chk300 (v2482 : BitVec 32) : Prop :=
  (∀ a, (k0_off400 v2482) a + S1x64.size a ≤ S500000x64.size a)
instance k0_chk300.dec : ∀ (v2482 : BitVec 32), Decidable (k0_chk300 v2482) := fun v2482 => decidable_of_iff' _ (Iff.of_eq (k0_chk300.eq_1 v2482))
theorem k0_off400_inb : ∀ (v2482 : BitVec 32) (k0_hw300 : k0_chk300 v2482), ∀ a, (k0_off400 v2482) a + S1x64.size a ≤ S500000x64.size a := fun v2482 k0_hw300 => k0_hw300

def k0_off401 (i : grid0.Coords) : Fin 1 → Nat :=
  let arg0 : BitVec 32 := BitVec.ofNat 32 (i 0).val
  let c128_i32 : BitVec 32 := 128#32
  let v0 : BitVec 32 := Scalar.muli arg0 c128_i32
  let c100_i32 : BitVec 32 := 100#32
  let v2501 : BitVec 32 := Scalar.addi v0 c100_i32
  let v2502 : Index := Scalar.indexCast v2501
  ![v2502.toNat]
def k0_off402 (v2503 : BitVec 32) : Fin 2 → Nat :=
  let c0_i32_601 : BitVec 32 := 0#32
  ![v2503.toNat, 0]

def k0_chk301 (v2503 : BitVec 32) : Prop :=
  (∀ a, (k0_off402 v2503) a + S1x64.size a ≤ S1000000x64.size a)
instance k0_chk301.dec : ∀ (v2503 : BitVec 32), Decidable (k0_chk301 v2503) := fun v2503 => decidable_of_iff' _ (Iff.of_eq (k0_chk301.eq_1 v2503))
theorem k0_off402_inb : ∀ (v2503 : BitVec 32) (k0_hw301 : k0_chk301 v2503), ∀ a, (k0_off402 v2503) a + S1x64.size a ≤ S1000000x64.size a := fun v2503 k0_hw301 => k0_hw301

def k0_off403 (v2505 : BitVec 32) : Fin 2 → Nat :=
  let c0_i32_603 : BitVec 32 := 0#32
  ![v2505.toNat, 0]

def k0_chk302 (v2505 : BitVec 32) : Prop :=
  (∀ a, (k0_off403 v2505) a + S1x64.size a ≤ S500000x64.size a)
instance k0_chk302.dec : ∀ (v2505 : BitVec 32), Decidable (k0_chk302 v2505) := fun v2505 => decidable_of_iff' _ (Iff.of_eq (k0_chk302.eq_1 v2505))
theorem k0_off403_inb : ∀ (v2505 : BitVec 32) (k0_hw302 : k0_chk302 v2505), ∀ a, (k0_off403 v2505) a + S1x64.size a ≤ S500000x64.size a := fun v2505 k0_hw302 => k0_hw302

def k0_off404 (v2507 : BitVec 32) : Fin 2 → Nat :=
  let c0_i32_605 : BitVec 32 := 0#32
  ![v2507.toNat, 0]

def k0_chk303 (v2507 : BitVec 32) : Prop :=
  (∀ a, (k0_off404 v2507) a + S1x64.size a ≤ S500000x64.size a)
instance k0_chk303.dec : ∀ (v2507 : BitVec 32), Decidable (k0_chk303 v2507) := fun v2507 => decidable_of_iff' _ (Iff.of_eq (k0_chk303.eq_1 v2507))
theorem k0_off404_inb : ∀ (v2507 : BitVec 32) (k0_hw303 : k0_chk303 v2507), ∀ a, (k0_off404 v2507) a + S1x64.size a ≤ S500000x64.size a := fun v2507 k0_hw303 => k0_hw303

def k0_off405 (i : grid0.Coords) : Fin 1 → Nat :=
  let arg0 : BitVec 32 := BitVec.ofNat 32 (i 0).val
  let c128_i32 : BitVec 32 := 128#32
  let v0 : BitVec 32 := Scalar.muli arg0 c128_i32
  let c101_i32 : BitVec 32 := 101#32
  let v2526 : BitVec 32 := Scalar.addi v0 c101_i32
  let v2527 : Index := Scalar.indexCast v2526
  ![v2527.toNat]
def k0_off406 (v2528 : BitVec 32) : Fin 2 → Nat :=
  let c0_i32_607 : BitVec 32 := 0#32
  ![v2528.toNat, 0]

def k0_chk304 (v2528 : BitVec 32) : Prop :=
  (∀ a, (k0_off406 v2528) a + S1x64.size a ≤ S1000000x64.size a)
instance k0_chk304.dec : ∀ (v2528 : BitVec 32), Decidable (k0_chk304 v2528) := fun v2528 => decidable_of_iff' _ (Iff.of_eq (k0_chk304.eq_1 v2528))
theorem k0_off406_inb : ∀ (v2528 : BitVec 32) (k0_hw304 : k0_chk304 v2528), ∀ a, (k0_off406 v2528) a + S1x64.size a ≤ S1000000x64.size a := fun v2528 k0_hw304 => k0_hw304

def k0_off407 (v2530 : BitVec 32) : Fin 2 → Nat :=
  let c0_i32_609 : BitVec 32 := 0#32
  ![v2530.toNat, 0]

def k0_chk305 (v2530 : BitVec 32) : Prop :=
  (∀ a, (k0_off407 v2530) a + S1x64.size a ≤ S500000x64.size a)
instance k0_chk305.dec : ∀ (v2530 : BitVec 32), Decidable (k0_chk305 v2530) := fun v2530 => decidable_of_iff' _ (Iff.of_eq (k0_chk305.eq_1 v2530))
theorem k0_off407_inb : ∀ (v2530 : BitVec 32) (k0_hw305 : k0_chk305 v2530), ∀ a, (k0_off407 v2530) a + S1x64.size a ≤ S500000x64.size a := fun v2530 k0_hw305 => k0_hw305

def k0_off408 (v2532 : BitVec 32) : Fin 2 → Nat :=
  let c0_i32_611 : BitVec 32 := 0#32
  ![v2532.toNat, 0]

def k0_chk306 (v2532 : BitVec 32) : Prop :=
  (∀ a, (k0_off408 v2532) a + S1x64.size a ≤ S500000x64.size a)
instance k0_chk306.dec : ∀ (v2532 : BitVec 32), Decidable (k0_chk306 v2532) := fun v2532 => decidable_of_iff' _ (Iff.of_eq (k0_chk306.eq_1 v2532))
theorem k0_off408_inb : ∀ (v2532 : BitVec 32) (k0_hw306 : k0_chk306 v2532), ∀ a, (k0_off408 v2532) a + S1x64.size a ≤ S500000x64.size a := fun v2532 k0_hw306 => k0_hw306

def k0_off409 (i : grid0.Coords) : Fin 1 → Nat :=
  let arg0 : BitVec 32 := BitVec.ofNat 32 (i 0).val
  let c128_i32 : BitVec 32 := 128#32
  let v0 : BitVec 32 := Scalar.muli arg0 c128_i32
  let c102_i32 : BitVec 32 := 102#32
  let v2551 : BitVec 32 := Scalar.addi v0 c102_i32
  let v2552 : Index := Scalar.indexCast v2551
  ![v2552.toNat]
def k0_off410 (v2553 : BitVec 32) : Fin 2 → Nat :=
  let c0_i32_613 : BitVec 32 := 0#32
  ![v2553.toNat, 0]

def k0_chk307 (v2553 : BitVec 32) : Prop :=
  (∀ a, (k0_off410 v2553) a + S1x64.size a ≤ S1000000x64.size a)
instance k0_chk307.dec : ∀ (v2553 : BitVec 32), Decidable (k0_chk307 v2553) := fun v2553 => decidable_of_iff' _ (Iff.of_eq (k0_chk307.eq_1 v2553))
theorem k0_off410_inb : ∀ (v2553 : BitVec 32) (k0_hw307 : k0_chk307 v2553), ∀ a, (k0_off410 v2553) a + S1x64.size a ≤ S1000000x64.size a := fun v2553 k0_hw307 => k0_hw307

def k0_off411 (v2555 : BitVec 32) : Fin 2 → Nat :=
  let c0_i32_615 : BitVec 32 := 0#32
  ![v2555.toNat, 0]

def k0_chk308 (v2555 : BitVec 32) : Prop :=
  (∀ a, (k0_off411 v2555) a + S1x64.size a ≤ S500000x64.size a)
instance k0_chk308.dec : ∀ (v2555 : BitVec 32), Decidable (k0_chk308 v2555) := fun v2555 => decidable_of_iff' _ (Iff.of_eq (k0_chk308.eq_1 v2555))
theorem k0_off411_inb : ∀ (v2555 : BitVec 32) (k0_hw308 : k0_chk308 v2555), ∀ a, (k0_off411 v2555) a + S1x64.size a ≤ S500000x64.size a := fun v2555 k0_hw308 => k0_hw308

def k0_off412 (v2557 : BitVec 32) : Fin 2 → Nat :=
  let c0_i32_617 : BitVec 32 := 0#32
  ![v2557.toNat, 0]

def k0_chk309 (v2557 : BitVec 32) : Prop :=
  (∀ a, (k0_off412 v2557) a + S1x64.size a ≤ S500000x64.size a)
instance k0_chk309.dec : ∀ (v2557 : BitVec 32), Decidable (k0_chk309 v2557) := fun v2557 => decidable_of_iff' _ (Iff.of_eq (k0_chk309.eq_1 v2557))
theorem k0_off412_inb : ∀ (v2557 : BitVec 32) (k0_hw309 : k0_chk309 v2557), ∀ a, (k0_off412 v2557) a + S1x64.size a ≤ S500000x64.size a := fun v2557 k0_hw309 => k0_hw309

def k0_off413 (i : grid0.Coords) : Fin 1 → Nat :=
  let arg0 : BitVec 32 := BitVec.ofNat 32 (i 0).val
  let c128_i32 : BitVec 32 := 128#32
  let v0 : BitVec 32 := Scalar.muli arg0 c128_i32
  let c103_i32 : BitVec 32 := 103#32
  let v2576 : BitVec 32 := Scalar.addi v0 c103_i32
  let v2577 : Index := Scalar.indexCast v2576
  ![v2577.toNat]
def k0_off414 (v2578 : BitVec 32) : Fin 2 → Nat :=
  let c0_i32_619 : BitVec 32 := 0#32
  ![v2578.toNat, 0]

def k0_chk310 (v2578 : BitVec 32) : Prop :=
  (∀ a, (k0_off414 v2578) a + S1x64.size a ≤ S1000000x64.size a)
instance k0_chk310.dec : ∀ (v2578 : BitVec 32), Decidable (k0_chk310 v2578) := fun v2578 => decidable_of_iff' _ (Iff.of_eq (k0_chk310.eq_1 v2578))
theorem k0_off414_inb : ∀ (v2578 : BitVec 32) (k0_hw310 : k0_chk310 v2578), ∀ a, (k0_off414 v2578) a + S1x64.size a ≤ S1000000x64.size a := fun v2578 k0_hw310 => k0_hw310

def k0_off415 (v2580 : BitVec 32) : Fin 2 → Nat :=
  let c0_i32_621 : BitVec 32 := 0#32
  ![v2580.toNat, 0]

def k0_chk311 (v2580 : BitVec 32) : Prop :=
  (∀ a, (k0_off415 v2580) a + S1x64.size a ≤ S500000x64.size a)
instance k0_chk311.dec : ∀ (v2580 : BitVec 32), Decidable (k0_chk311 v2580) := fun v2580 => decidable_of_iff' _ (Iff.of_eq (k0_chk311.eq_1 v2580))
theorem k0_off415_inb : ∀ (v2580 : BitVec 32) (k0_hw311 : k0_chk311 v2580), ∀ a, (k0_off415 v2580) a + S1x64.size a ≤ S500000x64.size a := fun v2580 k0_hw311 => k0_hw311

def k0_off416 (v2582 : BitVec 32) : Fin 2 → Nat :=
  let c0_i32_623 : BitVec 32 := 0#32
  ![v2582.toNat, 0]

def k0_chk312 (v2582 : BitVec 32) : Prop :=
  (∀ a, (k0_off416 v2582) a + S1x64.size a ≤ S500000x64.size a)
instance k0_chk312.dec : ∀ (v2582 : BitVec 32), Decidable (k0_chk312 v2582) := fun v2582 => decidable_of_iff' _ (Iff.of_eq (k0_chk312.eq_1 v2582))
theorem k0_off416_inb : ∀ (v2582 : BitVec 32) (k0_hw312 : k0_chk312 v2582), ∀ a, (k0_off416 v2582) a + S1x64.size a ≤ S500000x64.size a := fun v2582 k0_hw312 => k0_hw312

def k0_off417 (i : grid0.Coords) : Fin 1 → Nat :=
  let arg0 : BitVec 32 := BitVec.ofNat 32 (i 0).val
  let c128_i32 : BitVec 32 := 128#32
  let v0 : BitVec 32 := Scalar.muli arg0 c128_i32
  let c104_i32 : BitVec 32 := 104#32
  let v2601 : BitVec 32 := Scalar.addi v0 c104_i32
  let v2602 : Index := Scalar.indexCast v2601
  ![v2602.toNat]
def k0_off418 (v2603 : BitVec 32) : Fin 2 → Nat :=
  let c0_i32_625 : BitVec 32 := 0#32
  ![v2603.toNat, 0]

def k0_chk313 (v2603 : BitVec 32) : Prop :=
  (∀ a, (k0_off418 v2603) a + S1x64.size a ≤ S1000000x64.size a)
instance k0_chk313.dec : ∀ (v2603 : BitVec 32), Decidable (k0_chk313 v2603) := fun v2603 => decidable_of_iff' _ (Iff.of_eq (k0_chk313.eq_1 v2603))
theorem k0_off418_inb : ∀ (v2603 : BitVec 32) (k0_hw313 : k0_chk313 v2603), ∀ a, (k0_off418 v2603) a + S1x64.size a ≤ S1000000x64.size a := fun v2603 k0_hw313 => k0_hw313

def k0_off419 (v2605 : BitVec 32) : Fin 2 → Nat :=
  let c0_i32_627 : BitVec 32 := 0#32
  ![v2605.toNat, 0]

def k0_chk314 (v2605 : BitVec 32) : Prop :=
  (∀ a, (k0_off419 v2605) a + S1x64.size a ≤ S500000x64.size a)
instance k0_chk314.dec : ∀ (v2605 : BitVec 32), Decidable (k0_chk314 v2605) := fun v2605 => decidable_of_iff' _ (Iff.of_eq (k0_chk314.eq_1 v2605))
theorem k0_off419_inb : ∀ (v2605 : BitVec 32) (k0_hw314 : k0_chk314 v2605), ∀ a, (k0_off419 v2605) a + S1x64.size a ≤ S500000x64.size a := fun v2605 k0_hw314 => k0_hw314

def k0_off420 (v2607 : BitVec 32) : Fin 2 → Nat :=
  let c0_i32_629 : BitVec 32 := 0#32
  ![v2607.toNat, 0]

def k0_chk315 (v2607 : BitVec 32) : Prop :=
  (∀ a, (k0_off420 v2607) a + S1x64.size a ≤ S500000x64.size a)
instance k0_chk315.dec : ∀ (v2607 : BitVec 32), Decidable (k0_chk315 v2607) := fun v2607 => decidable_of_iff' _ (Iff.of_eq (k0_chk315.eq_1 v2607))
theorem k0_off420_inb : ∀ (v2607 : BitVec 32) (k0_hw315 : k0_chk315 v2607), ∀ a, (k0_off420 v2607) a + S1x64.size a ≤ S500000x64.size a := fun v2607 k0_hw315 => k0_hw315

def k0_off421 (i : grid0.Coords) : Fin 1 → Nat :=
  let arg0 : BitVec 32 := BitVec.ofNat 32 (i 0).val
  let c128_i32 : BitVec 32 := 128#32
  let v0 : BitVec 32 := Scalar.muli arg0 c128_i32
  let c105_i32 : BitVec 32 := 105#32
  let v2626 : BitVec 32 := Scalar.addi v0 c105_i32
  let v2627 : Index := Scalar.indexCast v2626
  ![v2627.toNat]
def k0_off422 (v2628 : BitVec 32) : Fin 2 → Nat :=
  let c0_i32_631 : BitVec 32 := 0#32
  ![v2628.toNat, 0]

def k0_chk316 (v2628 : BitVec 32) : Prop :=
  (∀ a, (k0_off422 v2628) a + S1x64.size a ≤ S1000000x64.size a)
instance k0_chk316.dec : ∀ (v2628 : BitVec 32), Decidable (k0_chk316 v2628) := fun v2628 => decidable_of_iff' _ (Iff.of_eq (k0_chk316.eq_1 v2628))
theorem k0_off422_inb : ∀ (v2628 : BitVec 32) (k0_hw316 : k0_chk316 v2628), ∀ a, (k0_off422 v2628) a + S1x64.size a ≤ S1000000x64.size a := fun v2628 k0_hw316 => k0_hw316

def k0_off423 (v2630 : BitVec 32) : Fin 2 → Nat :=
  let c0_i32_633 : BitVec 32 := 0#32
  ![v2630.toNat, 0]

def k0_chk317 (v2630 : BitVec 32) : Prop :=
  (∀ a, (k0_off423 v2630) a + S1x64.size a ≤ S500000x64.size a)
instance k0_chk317.dec : ∀ (v2630 : BitVec 32), Decidable (k0_chk317 v2630) := fun v2630 => decidable_of_iff' _ (Iff.of_eq (k0_chk317.eq_1 v2630))
theorem k0_off423_inb : ∀ (v2630 : BitVec 32) (k0_hw317 : k0_chk317 v2630), ∀ a, (k0_off423 v2630) a + S1x64.size a ≤ S500000x64.size a := fun v2630 k0_hw317 => k0_hw317

def k0_off424 (v2632 : BitVec 32) : Fin 2 → Nat :=
  let c0_i32_635 : BitVec 32 := 0#32
  ![v2632.toNat, 0]

def k0_chk318 (v2632 : BitVec 32) : Prop :=
  (∀ a, (k0_off424 v2632) a + S1x64.size a ≤ S500000x64.size a)
instance k0_chk318.dec : ∀ (v2632 : BitVec 32), Decidable (k0_chk318 v2632) := fun v2632 => decidable_of_iff' _ (Iff.of_eq (k0_chk318.eq_1 v2632))
theorem k0_off424_inb : ∀ (v2632 : BitVec 32) (k0_hw318 : k0_chk318 v2632), ∀ a, (k0_off424 v2632) a + S1x64.size a ≤ S500000x64.size a := fun v2632 k0_hw318 => k0_hw318

def k0_off425 (i : grid0.Coords) : Fin 1 → Nat :=
  let arg0 : BitVec 32 := BitVec.ofNat 32 (i 0).val
  let c128_i32 : BitVec 32 := 128#32
  let v0 : BitVec 32 := Scalar.muli arg0 c128_i32
  let c106_i32 : BitVec 32 := 106#32
  let v2651 : BitVec 32 := Scalar.addi v0 c106_i32
  let v2652 : Index := Scalar.indexCast v2651
  ![v2652.toNat]
def k0_off426 (v2653 : BitVec 32) : Fin 2 → Nat :=
  let c0_i32_637 : BitVec 32 := 0#32
  ![v2653.toNat, 0]

def k0_chk319 (v2653 : BitVec 32) : Prop :=
  (∀ a, (k0_off426 v2653) a + S1x64.size a ≤ S1000000x64.size a)
instance k0_chk319.dec : ∀ (v2653 : BitVec 32), Decidable (k0_chk319 v2653) := fun v2653 => decidable_of_iff' _ (Iff.of_eq (k0_chk319.eq_1 v2653))
theorem k0_off426_inb : ∀ (v2653 : BitVec 32) (k0_hw319 : k0_chk319 v2653), ∀ a, (k0_off426 v2653) a + S1x64.size a ≤ S1000000x64.size a := fun v2653 k0_hw319 => k0_hw319

def k0_off427 (v2655 : BitVec 32) : Fin 2 → Nat :=
  let c0_i32_639 : BitVec 32 := 0#32
  ![v2655.toNat, 0]

def k0_chk320 (v2655 : BitVec 32) : Prop :=
  (∀ a, (k0_off427 v2655) a + S1x64.size a ≤ S500000x64.size a)
instance k0_chk320.dec : ∀ (v2655 : BitVec 32), Decidable (k0_chk320 v2655) := fun v2655 => decidable_of_iff' _ (Iff.of_eq (k0_chk320.eq_1 v2655))
theorem k0_off427_inb : ∀ (v2655 : BitVec 32) (k0_hw320 : k0_chk320 v2655), ∀ a, (k0_off427 v2655) a + S1x64.size a ≤ S500000x64.size a := fun v2655 k0_hw320 => k0_hw320

def k0_off428 (v2657 : BitVec 32) : Fin 2 → Nat :=
  let c0_i32_641 : BitVec 32 := 0#32
  ![v2657.toNat, 0]

def k0_chk321 (v2657 : BitVec 32) : Prop :=
  (∀ a, (k0_off428 v2657) a + S1x64.size a ≤ S500000x64.size a)
instance k0_chk321.dec : ∀ (v2657 : BitVec 32), Decidable (k0_chk321 v2657) := fun v2657 => decidable_of_iff' _ (Iff.of_eq (k0_chk321.eq_1 v2657))
theorem k0_off428_inb : ∀ (v2657 : BitVec 32) (k0_hw321 : k0_chk321 v2657), ∀ a, (k0_off428 v2657) a + S1x64.size a ≤ S500000x64.size a := fun v2657 k0_hw321 => k0_hw321

def k0_off429 (i : grid0.Coords) : Fin 1 → Nat :=
  let arg0 : BitVec 32 := BitVec.ofNat 32 (i 0).val
  let c128_i32 : BitVec 32 := 128#32
  let v0 : BitVec 32 := Scalar.muli arg0 c128_i32
  let c107_i32 : BitVec 32 := 107#32
  let v2676 : BitVec 32 := Scalar.addi v0 c107_i32
  let v2677 : Index := Scalar.indexCast v2676
  ![v2677.toNat]
def k0_off430 (v2678 : BitVec 32) : Fin 2 → Nat :=
  let c0_i32_643 : BitVec 32 := 0#32
  ![v2678.toNat, 0]

def k0_chk322 (v2678 : BitVec 32) : Prop :=
  (∀ a, (k0_off430 v2678) a + S1x64.size a ≤ S1000000x64.size a)
instance k0_chk322.dec : ∀ (v2678 : BitVec 32), Decidable (k0_chk322 v2678) := fun v2678 => decidable_of_iff' _ (Iff.of_eq (k0_chk322.eq_1 v2678))
theorem k0_off430_inb : ∀ (v2678 : BitVec 32) (k0_hw322 : k0_chk322 v2678), ∀ a, (k0_off430 v2678) a + S1x64.size a ≤ S1000000x64.size a := fun v2678 k0_hw322 => k0_hw322

def k0_off431 (v2680 : BitVec 32) : Fin 2 → Nat :=
  let c0_i32_645 : BitVec 32 := 0#32
  ![v2680.toNat, 0]

def k0_chk323 (v2680 : BitVec 32) : Prop :=
  (∀ a, (k0_off431 v2680) a + S1x64.size a ≤ S500000x64.size a)
instance k0_chk323.dec : ∀ (v2680 : BitVec 32), Decidable (k0_chk323 v2680) := fun v2680 => decidable_of_iff' _ (Iff.of_eq (k0_chk323.eq_1 v2680))
theorem k0_off431_inb : ∀ (v2680 : BitVec 32) (k0_hw323 : k0_chk323 v2680), ∀ a, (k0_off431 v2680) a + S1x64.size a ≤ S500000x64.size a := fun v2680 k0_hw323 => k0_hw323

def k0_off432 (v2682 : BitVec 32) : Fin 2 → Nat :=
  let c0_i32_647 : BitVec 32 := 0#32
  ![v2682.toNat, 0]

def k0_chk324 (v2682 : BitVec 32) : Prop :=
  (∀ a, (k0_off432 v2682) a + S1x64.size a ≤ S500000x64.size a)
instance k0_chk324.dec : ∀ (v2682 : BitVec 32), Decidable (k0_chk324 v2682) := fun v2682 => decidable_of_iff' _ (Iff.of_eq (k0_chk324.eq_1 v2682))
theorem k0_off432_inb : ∀ (v2682 : BitVec 32) (k0_hw324 : k0_chk324 v2682), ∀ a, (k0_off432 v2682) a + S1x64.size a ≤ S500000x64.size a := fun v2682 k0_hw324 => k0_hw324

def k0_off433 (i : grid0.Coords) : Fin 1 → Nat :=
  let arg0 : BitVec 32 := BitVec.ofNat 32 (i 0).val
  let c128_i32 : BitVec 32 := 128#32
  let v0 : BitVec 32 := Scalar.muli arg0 c128_i32
  let c108_i32 : BitVec 32 := 108#32
  let v2701 : BitVec 32 := Scalar.addi v0 c108_i32
  let v2702 : Index := Scalar.indexCast v2701
  ![v2702.toNat]
def k0_off434 (v2703 : BitVec 32) : Fin 2 → Nat :=
  let c0_i32_649 : BitVec 32 := 0#32
  ![v2703.toNat, 0]

def k0_chk325 (v2703 : BitVec 32) : Prop :=
  (∀ a, (k0_off434 v2703) a + S1x64.size a ≤ S1000000x64.size a)
instance k0_chk325.dec : ∀ (v2703 : BitVec 32), Decidable (k0_chk325 v2703) := fun v2703 => decidable_of_iff' _ (Iff.of_eq (k0_chk325.eq_1 v2703))
theorem k0_off434_inb : ∀ (v2703 : BitVec 32) (k0_hw325 : k0_chk325 v2703), ∀ a, (k0_off434 v2703) a + S1x64.size a ≤ S1000000x64.size a := fun v2703 k0_hw325 => k0_hw325

def k0_off435 (v2705 : BitVec 32) : Fin 2 → Nat :=
  let c0_i32_651 : BitVec 32 := 0#32
  ![v2705.toNat, 0]

def k0_chk326 (v2705 : BitVec 32) : Prop :=
  (∀ a, (k0_off435 v2705) a + S1x64.size a ≤ S500000x64.size a)
instance k0_chk326.dec : ∀ (v2705 : BitVec 32), Decidable (k0_chk326 v2705) := fun v2705 => decidable_of_iff' _ (Iff.of_eq (k0_chk326.eq_1 v2705))
theorem k0_off435_inb : ∀ (v2705 : BitVec 32) (k0_hw326 : k0_chk326 v2705), ∀ a, (k0_off435 v2705) a + S1x64.size a ≤ S500000x64.size a := fun v2705 k0_hw326 => k0_hw326

def k0_off436 (v2707 : BitVec 32) : Fin 2 → Nat :=
  let c0_i32_653 : BitVec 32 := 0#32
  ![v2707.toNat, 0]

def k0_chk327 (v2707 : BitVec 32) : Prop :=
  (∀ a, (k0_off436 v2707) a + S1x64.size a ≤ S500000x64.size a)
instance k0_chk327.dec : ∀ (v2707 : BitVec 32), Decidable (k0_chk327 v2707) := fun v2707 => decidable_of_iff' _ (Iff.of_eq (k0_chk327.eq_1 v2707))
theorem k0_off436_inb : ∀ (v2707 : BitVec 32) (k0_hw327 : k0_chk327 v2707), ∀ a, (k0_off436 v2707) a + S1x64.size a ≤ S500000x64.size a := fun v2707 k0_hw327 => k0_hw327

def k0_off437 (i : grid0.Coords) : Fin 1 → Nat :=
  let arg0 : BitVec 32 := BitVec.ofNat 32 (i 0).val
  let c128_i32 : BitVec 32 := 128#32
  let v0 : BitVec 32 := Scalar.muli arg0 c128_i32
  let c109_i32 : BitVec 32 := 109#32
  let v2726 : BitVec 32 := Scalar.addi v0 c109_i32
  let v2727 : Index := Scalar.indexCast v2726
  ![v2727.toNat]
def k0_off438 (v2728 : BitVec 32) : Fin 2 → Nat :=
  let c0_i32_655 : BitVec 32 := 0#32
  ![v2728.toNat, 0]

def k0_chk328 (v2728 : BitVec 32) : Prop :=
  (∀ a, (k0_off438 v2728) a + S1x64.size a ≤ S1000000x64.size a)
instance k0_chk328.dec : ∀ (v2728 : BitVec 32), Decidable (k0_chk328 v2728) := fun v2728 => decidable_of_iff' _ (Iff.of_eq (k0_chk328.eq_1 v2728))
theorem k0_off438_inb : ∀ (v2728 : BitVec 32) (k0_hw328 : k0_chk328 v2728), ∀ a, (k0_off438 v2728) a + S1x64.size a ≤ S1000000x64.size a := fun v2728 k0_hw328 => k0_hw328

def k0_off439 (v2730 : BitVec 32) : Fin 2 → Nat :=
  let c0_i32_657 : BitVec 32 := 0#32
  ![v2730.toNat, 0]

def k0_chk329 (v2730 : BitVec 32) : Prop :=
  (∀ a, (k0_off439 v2730) a + S1x64.size a ≤ S500000x64.size a)
instance k0_chk329.dec : ∀ (v2730 : BitVec 32), Decidable (k0_chk329 v2730) := fun v2730 => decidable_of_iff' _ (Iff.of_eq (k0_chk329.eq_1 v2730))
theorem k0_off439_inb : ∀ (v2730 : BitVec 32) (k0_hw329 : k0_chk329 v2730), ∀ a, (k0_off439 v2730) a + S1x64.size a ≤ S500000x64.size a := fun v2730 k0_hw329 => k0_hw329

def k0_off440 (v2732 : BitVec 32) : Fin 2 → Nat :=
  let c0_i32_659 : BitVec 32 := 0#32
  ![v2732.toNat, 0]

def k0_chk330 (v2732 : BitVec 32) : Prop :=
  (∀ a, (k0_off440 v2732) a + S1x64.size a ≤ S500000x64.size a)
instance k0_chk330.dec : ∀ (v2732 : BitVec 32), Decidable (k0_chk330 v2732) := fun v2732 => decidable_of_iff' _ (Iff.of_eq (k0_chk330.eq_1 v2732))
theorem k0_off440_inb : ∀ (v2732 : BitVec 32) (k0_hw330 : k0_chk330 v2732), ∀ a, (k0_off440 v2732) a + S1x64.size a ≤ S500000x64.size a := fun v2732 k0_hw330 => k0_hw330

def k0_off441 (i : grid0.Coords) : Fin 1 → Nat :=
  let arg0 : BitVec 32 := BitVec.ofNat 32 (i 0).val
  let c128_i32 : BitVec 32 := 128#32
  let v0 : BitVec 32 := Scalar.muli arg0 c128_i32
  let c110_i32 : BitVec 32 := 110#32
  let v2751 : BitVec 32 := Scalar.addi v0 c110_i32
  let v2752 : Index := Scalar.indexCast v2751
  ![v2752.toNat]
def k0_off442 (v2753 : BitVec 32) : Fin 2 → Nat :=
  let c0_i32_661 : BitVec 32 := 0#32
  ![v2753.toNat, 0]

def k0_chk331 (v2753 : BitVec 32) : Prop :=
  (∀ a, (k0_off442 v2753) a + S1x64.size a ≤ S1000000x64.size a)
instance k0_chk331.dec : ∀ (v2753 : BitVec 32), Decidable (k0_chk331 v2753) := fun v2753 => decidable_of_iff' _ (Iff.of_eq (k0_chk331.eq_1 v2753))
theorem k0_off442_inb : ∀ (v2753 : BitVec 32) (k0_hw331 : k0_chk331 v2753), ∀ a, (k0_off442 v2753) a + S1x64.size a ≤ S1000000x64.size a := fun v2753 k0_hw331 => k0_hw331

def k0_off443 (v2755 : BitVec 32) : Fin 2 → Nat :=
  let c0_i32_663 : BitVec 32 := 0#32
  ![v2755.toNat, 0]

def k0_chk332 (v2755 : BitVec 32) : Prop :=
  (∀ a, (k0_off443 v2755) a + S1x64.size a ≤ S500000x64.size a)
instance k0_chk332.dec : ∀ (v2755 : BitVec 32), Decidable (k0_chk332 v2755) := fun v2755 => decidable_of_iff' _ (Iff.of_eq (k0_chk332.eq_1 v2755))
theorem k0_off443_inb : ∀ (v2755 : BitVec 32) (k0_hw332 : k0_chk332 v2755), ∀ a, (k0_off443 v2755) a + S1x64.size a ≤ S500000x64.size a := fun v2755 k0_hw332 => k0_hw332

def k0_off444 (v2757 : BitVec 32) : Fin 2 → Nat :=
  let c0_i32_665 : BitVec 32 := 0#32
  ![v2757.toNat, 0]

def k0_chk333 (v2757 : BitVec 32) : Prop :=
  (∀ a, (k0_off444 v2757) a + S1x64.size a ≤ S500000x64.size a)
instance k0_chk333.dec : ∀ (v2757 : BitVec 32), Decidable (k0_chk333 v2757) := fun v2757 => decidable_of_iff' _ (Iff.of_eq (k0_chk333.eq_1 v2757))
theorem k0_off444_inb : ∀ (v2757 : BitVec 32) (k0_hw333 : k0_chk333 v2757), ∀ a, (k0_off444 v2757) a + S1x64.size a ≤ S500000x64.size a := fun v2757 k0_hw333 => k0_hw333

def k0_off445 (i : grid0.Coords) : Fin 1 → Nat :=
  let arg0 : BitVec 32 := BitVec.ofNat 32 (i 0).val
  let c128_i32 : BitVec 32 := 128#32
  let v0 : BitVec 32 := Scalar.muli arg0 c128_i32
  let c111_i32 : BitVec 32 := 111#32
  let v2776 : BitVec 32 := Scalar.addi v0 c111_i32
  let v2777 : Index := Scalar.indexCast v2776
  ![v2777.toNat]
def k0_off446 (v2778 : BitVec 32) : Fin 2 → Nat :=
  let c0_i32_667 : BitVec 32 := 0#32
  ![v2778.toNat, 0]

def k0_chk334 (v2778 : BitVec 32) : Prop :=
  (∀ a, (k0_off446 v2778) a + S1x64.size a ≤ S1000000x64.size a)
instance k0_chk334.dec : ∀ (v2778 : BitVec 32), Decidable (k0_chk334 v2778) := fun v2778 => decidable_of_iff' _ (Iff.of_eq (k0_chk334.eq_1 v2778))
theorem k0_off446_inb : ∀ (v2778 : BitVec 32) (k0_hw334 : k0_chk334 v2778), ∀ a, (k0_off446 v2778) a + S1x64.size a ≤ S1000000x64.size a := fun v2778 k0_hw334 => k0_hw334

def k0_off447 (v2780 : BitVec 32) : Fin 2 → Nat :=
  let c0_i32_669 : BitVec 32 := 0#32
  ![v2780.toNat, 0]

def k0_chk335 (v2780 : BitVec 32) : Prop :=
  (∀ a, (k0_off447 v2780) a + S1x64.size a ≤ S500000x64.size a)
instance k0_chk335.dec : ∀ (v2780 : BitVec 32), Decidable (k0_chk335 v2780) := fun v2780 => decidable_of_iff' _ (Iff.of_eq (k0_chk335.eq_1 v2780))
theorem k0_off447_inb : ∀ (v2780 : BitVec 32) (k0_hw335 : k0_chk335 v2780), ∀ a, (k0_off447 v2780) a + S1x64.size a ≤ S500000x64.size a := fun v2780 k0_hw335 => k0_hw335

def k0_off448 (v2782 : BitVec 32) : Fin 2 → Nat :=
  let c0_i32_671 : BitVec 32 := 0#32
  ![v2782.toNat, 0]

def k0_chk336 (v2782 : BitVec 32) : Prop :=
  (∀ a, (k0_off448 v2782) a + S1x64.size a ≤ S500000x64.size a)
instance k0_chk336.dec : ∀ (v2782 : BitVec 32), Decidable (k0_chk336 v2782) := fun v2782 => decidable_of_iff' _ (Iff.of_eq (k0_chk336.eq_1 v2782))
theorem k0_off448_inb : ∀ (v2782 : BitVec 32) (k0_hw336 : k0_chk336 v2782), ∀ a, (k0_off448 v2782) a + S1x64.size a ≤ S500000x64.size a := fun v2782 k0_hw336 => k0_hw336

def k0_off449 (i : grid0.Coords) : Fin 1 → Nat :=
  let arg0 : BitVec 32 := BitVec.ofNat 32 (i 0).val
  let c128_i32 : BitVec 32 := 128#32
  let v0 : BitVec 32 := Scalar.muli arg0 c128_i32
  let c112_i32 : BitVec 32 := 112#32
  let v2801 : BitVec 32 := Scalar.addi v0 c112_i32
  let v2802 : Index := Scalar.indexCast v2801
  ![v2802.toNat]
def k0_off450 (v2803 : BitVec 32) : Fin 2 → Nat :=
  let c0_i32_673 : BitVec 32 := 0#32
  ![v2803.toNat, 0]

def k0_chk337 (v2803 : BitVec 32) : Prop :=
  (∀ a, (k0_off450 v2803) a + S1x64.size a ≤ S1000000x64.size a)
instance k0_chk337.dec : ∀ (v2803 : BitVec 32), Decidable (k0_chk337 v2803) := fun v2803 => decidable_of_iff' _ (Iff.of_eq (k0_chk337.eq_1 v2803))
theorem k0_off450_inb : ∀ (v2803 : BitVec 32) (k0_hw337 : k0_chk337 v2803), ∀ a, (k0_off450 v2803) a + S1x64.size a ≤ S1000000x64.size a := fun v2803 k0_hw337 => k0_hw337

def k0_off451 (v2805 : BitVec 32) : Fin 2 → Nat :=
  let c0_i32_675 : BitVec 32 := 0#32
  ![v2805.toNat, 0]

def k0_chk338 (v2805 : BitVec 32) : Prop :=
  (∀ a, (k0_off451 v2805) a + S1x64.size a ≤ S500000x64.size a)
instance k0_chk338.dec : ∀ (v2805 : BitVec 32), Decidable (k0_chk338 v2805) := fun v2805 => decidable_of_iff' _ (Iff.of_eq (k0_chk338.eq_1 v2805))
theorem k0_off451_inb : ∀ (v2805 : BitVec 32) (k0_hw338 : k0_chk338 v2805), ∀ a, (k0_off451 v2805) a + S1x64.size a ≤ S500000x64.size a := fun v2805 k0_hw338 => k0_hw338

def k0_off452 (v2807 : BitVec 32) : Fin 2 → Nat :=
  let c0_i32_677 : BitVec 32 := 0#32
  ![v2807.toNat, 0]

def k0_chk339 (v2807 : BitVec 32) : Prop :=
  (∀ a, (k0_off452 v2807) a + S1x64.size a ≤ S500000x64.size a)
instance k0_chk339.dec : ∀ (v2807 : BitVec 32), Decidable (k0_chk339 v2807) := fun v2807 => decidable_of_iff' _ (Iff.of_eq (k0_chk339.eq_1 v2807))
theorem k0_off452_inb : ∀ (v2807 : BitVec 32) (k0_hw339 : k0_chk339 v2807), ∀ a, (k0_off452 v2807) a + S1x64.size a ≤ S500000x64.size a := fun v2807 k0_hw339 => k0_hw339

def k0_off453 (i : grid0.Coords) : Fin 1 → Nat :=
  let arg0 : BitVec 32 := BitVec.ofNat 32 (i 0).val
  let c128_i32 : BitVec 32 := 128#32
  let v0 : BitVec 32 := Scalar.muli arg0 c128_i32
  let c113_i32 : BitVec 32 := 113#32
  let v2826 : BitVec 32 := Scalar.addi v0 c113_i32
  let v2827 : Index := Scalar.indexCast v2826
  ![v2827.toNat]
def k0_off454 (v2828 : BitVec 32) : Fin 2 → Nat :=
  let c0_i32_679 : BitVec 32 := 0#32
  ![v2828.toNat, 0]

def k0_chk340 (v2828 : BitVec 32) : Prop :=
  (∀ a, (k0_off454 v2828) a + S1x64.size a ≤ S1000000x64.size a)
instance k0_chk340.dec : ∀ (v2828 : BitVec 32), Decidable (k0_chk340 v2828) := fun v2828 => decidable_of_iff' _ (Iff.of_eq (k0_chk340.eq_1 v2828))
theorem k0_off454_inb : ∀ (v2828 : BitVec 32) (k0_hw340 : k0_chk340 v2828), ∀ a, (k0_off454 v2828) a + S1x64.size a ≤ S1000000x64.size a := fun v2828 k0_hw340 => k0_hw340

def k0_off455 (v2830 : BitVec 32) : Fin 2 → Nat :=
  let c0_i32_681 : BitVec 32 := 0#32
  ![v2830.toNat, 0]

def k0_chk341 (v2830 : BitVec 32) : Prop :=
  (∀ a, (k0_off455 v2830) a + S1x64.size a ≤ S500000x64.size a)
instance k0_chk341.dec : ∀ (v2830 : BitVec 32), Decidable (k0_chk341 v2830) := fun v2830 => decidable_of_iff' _ (Iff.of_eq (k0_chk341.eq_1 v2830))
theorem k0_off455_inb : ∀ (v2830 : BitVec 32) (k0_hw341 : k0_chk341 v2830), ∀ a, (k0_off455 v2830) a + S1x64.size a ≤ S500000x64.size a := fun v2830 k0_hw341 => k0_hw341

def k0_off456 (v2832 : BitVec 32) : Fin 2 → Nat :=
  let c0_i32_683 : BitVec 32 := 0#32
  ![v2832.toNat, 0]

def k0_chk342 (v2832 : BitVec 32) : Prop :=
  (∀ a, (k0_off456 v2832) a + S1x64.size a ≤ S500000x64.size a)
instance k0_chk342.dec : ∀ (v2832 : BitVec 32), Decidable (k0_chk342 v2832) := fun v2832 => decidable_of_iff' _ (Iff.of_eq (k0_chk342.eq_1 v2832))
theorem k0_off456_inb : ∀ (v2832 : BitVec 32) (k0_hw342 : k0_chk342 v2832), ∀ a, (k0_off456 v2832) a + S1x64.size a ≤ S500000x64.size a := fun v2832 k0_hw342 => k0_hw342

def k0_off457 (i : grid0.Coords) : Fin 1 → Nat :=
  let arg0 : BitVec 32 := BitVec.ofNat 32 (i 0).val
  let c128_i32 : BitVec 32 := 128#32
  let v0 : BitVec 32 := Scalar.muli arg0 c128_i32
  let c114_i32 : BitVec 32 := 114#32
  let v2851 : BitVec 32 := Scalar.addi v0 c114_i32
  let v2852 : Index := Scalar.indexCast v2851
  ![v2852.toNat]
def k0_off458 (v2853 : BitVec 32) : Fin 2 → Nat :=
  let c0_i32_685 : BitVec 32 := 0#32
  ![v2853.toNat, 0]

def k0_chk343 (v2853 : BitVec 32) : Prop :=
  (∀ a, (k0_off458 v2853) a + S1x64.size a ≤ S1000000x64.size a)
instance k0_chk343.dec : ∀ (v2853 : BitVec 32), Decidable (k0_chk343 v2853) := fun v2853 => decidable_of_iff' _ (Iff.of_eq (k0_chk343.eq_1 v2853))
theorem k0_off458_inb : ∀ (v2853 : BitVec 32) (k0_hw343 : k0_chk343 v2853), ∀ a, (k0_off458 v2853) a + S1x64.size a ≤ S1000000x64.size a := fun v2853 k0_hw343 => k0_hw343

def k0_off459 (v2855 : BitVec 32) : Fin 2 → Nat :=
  let c0_i32_687 : BitVec 32 := 0#32
  ![v2855.toNat, 0]

def k0_chk344 (v2855 : BitVec 32) : Prop :=
  (∀ a, (k0_off459 v2855) a + S1x64.size a ≤ S500000x64.size a)
instance k0_chk344.dec : ∀ (v2855 : BitVec 32), Decidable (k0_chk344 v2855) := fun v2855 => decidable_of_iff' _ (Iff.of_eq (k0_chk344.eq_1 v2855))
theorem k0_off459_inb : ∀ (v2855 : BitVec 32) (k0_hw344 : k0_chk344 v2855), ∀ a, (k0_off459 v2855) a + S1x64.size a ≤ S500000x64.size a := fun v2855 k0_hw344 => k0_hw344

def k0_off460 (v2857 : BitVec 32) : Fin 2 → Nat :=
  let c0_i32_689 : BitVec 32 := 0#32
  ![v2857.toNat, 0]

def k0_chk345 (v2857 : BitVec 32) : Prop :=
  (∀ a, (k0_off460 v2857) a + S1x64.size a ≤ S500000x64.size a)
instance k0_chk345.dec : ∀ (v2857 : BitVec 32), Decidable (k0_chk345 v2857) := fun v2857 => decidable_of_iff' _ (Iff.of_eq (k0_chk345.eq_1 v2857))
theorem k0_off460_inb : ∀ (v2857 : BitVec 32) (k0_hw345 : k0_chk345 v2857), ∀ a, (k0_off460 v2857) a + S1x64.size a ≤ S500000x64.size a := fun v2857 k0_hw345 => k0_hw345

def k0_off461 (i : grid0.Coords) : Fin 1 → Nat :=
  let arg0 : BitVec 32 := BitVec.ofNat 32 (i 0).val
  let c128_i32 : BitVec 32 := 128#32
  let v0 : BitVec 32 := Scalar.muli arg0 c128_i32
  let c115_i32 : BitVec 32 := 115#32
  let v2876 : BitVec 32 := Scalar.addi v0 c115_i32
  let v2877 : Index := Scalar.indexCast v2876
  ![v2877.toNat]
def k0_off462 (v2878 : BitVec 32) : Fin 2 → Nat :=
  let c0_i32_691 : BitVec 32 := 0#32
  ![v2878.toNat, 0]

def k0_chk346 (v2878 : BitVec 32) : Prop :=
  (∀ a, (k0_off462 v2878) a + S1x64.size a ≤ S1000000x64.size a)
instance k0_chk346.dec : ∀ (v2878 : BitVec 32), Decidable (k0_chk346 v2878) := fun v2878 => decidable_of_iff' _ (Iff.of_eq (k0_chk346.eq_1 v2878))
theorem k0_off462_inb : ∀ (v2878 : BitVec 32) (k0_hw346 : k0_chk346 v2878), ∀ a, (k0_off462 v2878) a + S1x64.size a ≤ S1000000x64.size a := fun v2878 k0_hw346 => k0_hw346

def k0_off463 (v2880 : BitVec 32) : Fin 2 → Nat :=
  let c0_i32_693 : BitVec 32 := 0#32
  ![v2880.toNat, 0]

def k0_chk347 (v2880 : BitVec 32) : Prop :=
  (∀ a, (k0_off463 v2880) a + S1x64.size a ≤ S500000x64.size a)
instance k0_chk347.dec : ∀ (v2880 : BitVec 32), Decidable (k0_chk347 v2880) := fun v2880 => decidable_of_iff' _ (Iff.of_eq (k0_chk347.eq_1 v2880))
theorem k0_off463_inb : ∀ (v2880 : BitVec 32) (k0_hw347 : k0_chk347 v2880), ∀ a, (k0_off463 v2880) a + S1x64.size a ≤ S500000x64.size a := fun v2880 k0_hw347 => k0_hw347

def k0_off464 (v2882 : BitVec 32) : Fin 2 → Nat :=
  let c0_i32_695 : BitVec 32 := 0#32
  ![v2882.toNat, 0]

def k0_chk348 (v2882 : BitVec 32) : Prop :=
  (∀ a, (k0_off464 v2882) a + S1x64.size a ≤ S500000x64.size a)
instance k0_chk348.dec : ∀ (v2882 : BitVec 32), Decidable (k0_chk348 v2882) := fun v2882 => decidable_of_iff' _ (Iff.of_eq (k0_chk348.eq_1 v2882))
theorem k0_off464_inb : ∀ (v2882 : BitVec 32) (k0_hw348 : k0_chk348 v2882), ∀ a, (k0_off464 v2882) a + S1x64.size a ≤ S500000x64.size a := fun v2882 k0_hw348 => k0_hw348

def k0_off465 (i : grid0.Coords) : Fin 1 → Nat :=
  let arg0 : BitVec 32 := BitVec.ofNat 32 (i 0).val
  let c128_i32 : BitVec 32 := 128#32
  let v0 : BitVec 32 := Scalar.muli arg0 c128_i32
  let c116_i32 : BitVec 32 := 116#32
  let v2901 : BitVec 32 := Scalar.addi v0 c116_i32
  let v2902 : Index := Scalar.indexCast v2901
  ![v2902.toNat]
def k0_off466 (v2903 : BitVec 32) : Fin 2 → Nat :=
  let c0_i32_697 : BitVec 32 := 0#32
  ![v2903.toNat, 0]

def k0_chk349 (v2903 : BitVec 32) : Prop :=
  (∀ a, (k0_off466 v2903) a + S1x64.size a ≤ S1000000x64.size a)
instance k0_chk349.dec : ∀ (v2903 : BitVec 32), Decidable (k0_chk349 v2903) := fun v2903 => decidable_of_iff' _ (Iff.of_eq (k0_chk349.eq_1 v2903))
theorem k0_off466_inb : ∀ (v2903 : BitVec 32) (k0_hw349 : k0_chk349 v2903), ∀ a, (k0_off466 v2903) a + S1x64.size a ≤ S1000000x64.size a := fun v2903 k0_hw349 => k0_hw349

def k0_off467 (v2905 : BitVec 32) : Fin 2 → Nat :=
  let c0_i32_699 : BitVec 32 := 0#32
  ![v2905.toNat, 0]

def k0_chk350 (v2905 : BitVec 32) : Prop :=
  (∀ a, (k0_off467 v2905) a + S1x64.size a ≤ S500000x64.size a)
instance k0_chk350.dec : ∀ (v2905 : BitVec 32), Decidable (k0_chk350 v2905) := fun v2905 => decidable_of_iff' _ (Iff.of_eq (k0_chk350.eq_1 v2905))
theorem k0_off467_inb : ∀ (v2905 : BitVec 32) (k0_hw350 : k0_chk350 v2905), ∀ a, (k0_off467 v2905) a + S1x64.size a ≤ S500000x64.size a := fun v2905 k0_hw350 => k0_hw350

def k0_off468 (v2907 : BitVec 32) : Fin 2 → Nat :=
  let c0_i32_701 : BitVec 32 := 0#32
  ![v2907.toNat, 0]

def k0_chk351 (v2907 : BitVec 32) : Prop :=
  (∀ a, (k0_off468 v2907) a + S1x64.size a ≤ S500000x64.size a)
instance k0_chk351.dec : ∀ (v2907 : BitVec 32), Decidable (k0_chk351 v2907) := fun v2907 => decidable_of_iff' _ (Iff.of_eq (k0_chk351.eq_1 v2907))
theorem k0_off468_inb : ∀ (v2907 : BitVec 32) (k0_hw351 : k0_chk351 v2907), ∀ a, (k0_off468 v2907) a + S1x64.size a ≤ S500000x64.size a := fun v2907 k0_hw351 => k0_hw351

def k0_off469 (i : grid0.Coords) : Fin 1 → Nat :=
  let arg0 : BitVec 32 := BitVec.ofNat 32 (i 0).val
  let c128_i32 : BitVec 32 := 128#32
  let v0 : BitVec 32 := Scalar.muli arg0 c128_i32
  let c117_i32 : BitVec 32 := 117#32
  let v2926 : BitVec 32 := Scalar.addi v0 c117_i32
  let v2927 : Index := Scalar.indexCast v2926
  ![v2927.toNat]
def k0_off470 (v2928 : BitVec 32) : Fin 2 → Nat :=
  let c0_i32_703 : BitVec 32 := 0#32
  ![v2928.toNat, 0]

def k0_chk352 (v2928 : BitVec 32) : Prop :=
  (∀ a, (k0_off470 v2928) a + S1x64.size a ≤ S1000000x64.size a)
instance k0_chk352.dec : ∀ (v2928 : BitVec 32), Decidable (k0_chk352 v2928) := fun v2928 => decidable_of_iff' _ (Iff.of_eq (k0_chk352.eq_1 v2928))
theorem k0_off470_inb : ∀ (v2928 : BitVec 32) (k0_hw352 : k0_chk352 v2928), ∀ a, (k0_off470 v2928) a + S1x64.size a ≤ S1000000x64.size a := fun v2928 k0_hw352 => k0_hw352

def k0_off471 (v2930 : BitVec 32) : Fin 2 → Nat :=
  let c0_i32_705 : BitVec 32 := 0#32
  ![v2930.toNat, 0]

def k0_chk353 (v2930 : BitVec 32) : Prop :=
  (∀ a, (k0_off471 v2930) a + S1x64.size a ≤ S500000x64.size a)
instance k0_chk353.dec : ∀ (v2930 : BitVec 32), Decidable (k0_chk353 v2930) := fun v2930 => decidable_of_iff' _ (Iff.of_eq (k0_chk353.eq_1 v2930))
theorem k0_off471_inb : ∀ (v2930 : BitVec 32) (k0_hw353 : k0_chk353 v2930), ∀ a, (k0_off471 v2930) a + S1x64.size a ≤ S500000x64.size a := fun v2930 k0_hw353 => k0_hw353

def k0_off472 (v2932 : BitVec 32) : Fin 2 → Nat :=
  let c0_i32_707 : BitVec 32 := 0#32
  ![v2932.toNat, 0]

def k0_chk354 (v2932 : BitVec 32) : Prop :=
  (∀ a, (k0_off472 v2932) a + S1x64.size a ≤ S500000x64.size a)
instance k0_chk354.dec : ∀ (v2932 : BitVec 32), Decidable (k0_chk354 v2932) := fun v2932 => decidable_of_iff' _ (Iff.of_eq (k0_chk354.eq_1 v2932))
theorem k0_off472_inb : ∀ (v2932 : BitVec 32) (k0_hw354 : k0_chk354 v2932), ∀ a, (k0_off472 v2932) a + S1x64.size a ≤ S500000x64.size a := fun v2932 k0_hw354 => k0_hw354

def k0_off473 (i : grid0.Coords) : Fin 1 → Nat :=
  let arg0 : BitVec 32 := BitVec.ofNat 32 (i 0).val
  let c128_i32 : BitVec 32 := 128#32
  let v0 : BitVec 32 := Scalar.muli arg0 c128_i32
  let c118_i32 : BitVec 32 := 118#32
  let v2951 : BitVec 32 := Scalar.addi v0 c118_i32
  let v2952 : Index := Scalar.indexCast v2951
  ![v2952.toNat]
def k0_off474 (v2953 : BitVec 32) : Fin 2 → Nat :=
  let c0_i32_709 : BitVec 32 := 0#32
  ![v2953.toNat, 0]

def k0_chk355 (v2953 : BitVec 32) : Prop :=
  (∀ a, (k0_off474 v2953) a + S1x64.size a ≤ S1000000x64.size a)
instance k0_chk355.dec : ∀ (v2953 : BitVec 32), Decidable (k0_chk355 v2953) := fun v2953 => decidable_of_iff' _ (Iff.of_eq (k0_chk355.eq_1 v2953))
theorem k0_off474_inb : ∀ (v2953 : BitVec 32) (k0_hw355 : k0_chk355 v2953), ∀ a, (k0_off474 v2953) a + S1x64.size a ≤ S1000000x64.size a := fun v2953 k0_hw355 => k0_hw355

def k0_off475 (v2955 : BitVec 32) : Fin 2 → Nat :=
  let c0_i32_711 : BitVec 32 := 0#32
  ![v2955.toNat, 0]

def k0_chk356 (v2955 : BitVec 32) : Prop :=
  (∀ a, (k0_off475 v2955) a + S1x64.size a ≤ S500000x64.size a)
instance k0_chk356.dec : ∀ (v2955 : BitVec 32), Decidable (k0_chk356 v2955) := fun v2955 => decidable_of_iff' _ (Iff.of_eq (k0_chk356.eq_1 v2955))
theorem k0_off475_inb : ∀ (v2955 : BitVec 32) (k0_hw356 : k0_chk356 v2955), ∀ a, (k0_off475 v2955) a + S1x64.size a ≤ S500000x64.size a := fun v2955 k0_hw356 => k0_hw356

def k0_off476 (v2957 : BitVec 32) : Fin 2 → Nat :=
  let c0_i32_713 : BitVec 32 := 0#32
  ![v2957.toNat, 0]

def k0_chk357 (v2957 : BitVec 32) : Prop :=
  (∀ a, (k0_off476 v2957) a + S1x64.size a ≤ S500000x64.size a)
instance k0_chk357.dec : ∀ (v2957 : BitVec 32), Decidable (k0_chk357 v2957) := fun v2957 => decidable_of_iff' _ (Iff.of_eq (k0_chk357.eq_1 v2957))
theorem k0_off476_inb : ∀ (v2957 : BitVec 32) (k0_hw357 : k0_chk357 v2957), ∀ a, (k0_off476 v2957) a + S1x64.size a ≤ S500000x64.size a := fun v2957 k0_hw357 => k0_hw357

def k0_off477 (i : grid0.Coords) : Fin 1 → Nat :=
  let arg0 : BitVec 32 := BitVec.ofNat 32 (i 0).val
  let c128_i32 : BitVec 32 := 128#32
  let v0 : BitVec 32 := Scalar.muli arg0 c128_i32
  let c119_i32 : BitVec 32 := 119#32
  let v2976 : BitVec 32 := Scalar.addi v0 c119_i32
  let v2977 : Index := Scalar.indexCast v2976
  ![v2977.toNat]
def k0_off478 (v2978 : BitVec 32) : Fin 2 → Nat :=
  let c0_i32_715 : BitVec 32 := 0#32
  ![v2978.toNat, 0]

def k0_chk358 (v2978 : BitVec 32) : Prop :=
  (∀ a, (k0_off478 v2978) a + S1x64.size a ≤ S1000000x64.size a)
instance k0_chk358.dec : ∀ (v2978 : BitVec 32), Decidable (k0_chk358 v2978) := fun v2978 => decidable_of_iff' _ (Iff.of_eq (k0_chk358.eq_1 v2978))
theorem k0_off478_inb : ∀ (v2978 : BitVec 32) (k0_hw358 : k0_chk358 v2978), ∀ a, (k0_off478 v2978) a + S1x64.size a ≤ S1000000x64.size a := fun v2978 k0_hw358 => k0_hw358

def k0_off479 (v2980 : BitVec 32) : Fin 2 → Nat :=
  let c0_i32_717 : BitVec 32 := 0#32
  ![v2980.toNat, 0]

def k0_chk359 (v2980 : BitVec 32) : Prop :=
  (∀ a, (k0_off479 v2980) a + S1x64.size a ≤ S500000x64.size a)
instance k0_chk359.dec : ∀ (v2980 : BitVec 32), Decidable (k0_chk359 v2980) := fun v2980 => decidable_of_iff' _ (Iff.of_eq (k0_chk359.eq_1 v2980))
theorem k0_off479_inb : ∀ (v2980 : BitVec 32) (k0_hw359 : k0_chk359 v2980), ∀ a, (k0_off479 v2980) a + S1x64.size a ≤ S500000x64.size a := fun v2980 k0_hw359 => k0_hw359

def k0_off480 (v2982 : BitVec 32) : Fin 2 → Nat :=
  let c0_i32_719 : BitVec 32 := 0#32
  ![v2982.toNat, 0]

def k0_chk360 (v2982 : BitVec 32) : Prop :=
  (∀ a, (k0_off480 v2982) a + S1x64.size a ≤ S500000x64.size a)
instance k0_chk360.dec : ∀ (v2982 : BitVec 32), Decidable (k0_chk360 v2982) := fun v2982 => decidable_of_iff' _ (Iff.of_eq (k0_chk360.eq_1 v2982))
theorem k0_off480_inb : ∀ (v2982 : BitVec 32) (k0_hw360 : k0_chk360 v2982), ∀ a, (k0_off480 v2982) a + S1x64.size a ≤ S500000x64.size a := fun v2982 k0_hw360 => k0_hw360

def k0_off481 (i : grid0.Coords) : Fin 1 → Nat :=
  let arg0 : BitVec 32 := BitVec.ofNat 32 (i 0).val
  let c128_i32 : BitVec 32 := 128#32
  let v0 : BitVec 32 := Scalar.muli arg0 c128_i32
  let c120_i32 : BitVec 32 := 120#32
  let v3001 : BitVec 32 := Scalar.addi v0 c120_i32
  let v3002 : Index := Scalar.indexCast v3001
  ![v3002.toNat]
def k0_off482 (v3003 : BitVec 32) : Fin 2 → Nat :=
  let c0_i32_721 : BitVec 32 := 0#32
  ![v3003.toNat, 0]

def k0_chk361 (v3003 : BitVec 32) : Prop :=
  (∀ a, (k0_off482 v3003) a + S1x64.size a ≤ S1000000x64.size a)
instance k0_chk361.dec : ∀ (v3003 : BitVec 32), Decidable (k0_chk361 v3003) := fun v3003 => decidable_of_iff' _ (Iff.of_eq (k0_chk361.eq_1 v3003))
theorem k0_off482_inb : ∀ (v3003 : BitVec 32) (k0_hw361 : k0_chk361 v3003), ∀ a, (k0_off482 v3003) a + S1x64.size a ≤ S1000000x64.size a := fun v3003 k0_hw361 => k0_hw361

def k0_off483 (v3005 : BitVec 32) : Fin 2 → Nat :=
  let c0_i32_723 : BitVec 32 := 0#32
  ![v3005.toNat, 0]

def k0_chk362 (v3005 : BitVec 32) : Prop :=
  (∀ a, (k0_off483 v3005) a + S1x64.size a ≤ S500000x64.size a)
instance k0_chk362.dec : ∀ (v3005 : BitVec 32), Decidable (k0_chk362 v3005) := fun v3005 => decidable_of_iff' _ (Iff.of_eq (k0_chk362.eq_1 v3005))
theorem k0_off483_inb : ∀ (v3005 : BitVec 32) (k0_hw362 : k0_chk362 v3005), ∀ a, (k0_off483 v3005) a + S1x64.size a ≤ S500000x64.size a := fun v3005 k0_hw362 => k0_hw362

def k0_off484 (v3007 : BitVec 32) : Fin 2 → Nat :=
  let c0_i32_725 : BitVec 32 := 0#32
  ![v3007.toNat, 0]

def k0_chk363 (v3007 : BitVec 32) : Prop :=
  (∀ a, (k0_off484 v3007) a + S1x64.size a ≤ S500000x64.size a)
instance k0_chk363.dec : ∀ (v3007 : BitVec 32), Decidable (k0_chk363 v3007) := fun v3007 => decidable_of_iff' _ (Iff.of_eq (k0_chk363.eq_1 v3007))
theorem k0_off484_inb : ∀ (v3007 : BitVec 32) (k0_hw363 : k0_chk363 v3007), ∀ a, (k0_off484 v3007) a + S1x64.size a ≤ S500000x64.size a := fun v3007 k0_hw363 => k0_hw363

def k0_off485 (i : grid0.Coords) : Fin 1 → Nat :=
  let arg0 : BitVec 32 := BitVec.ofNat 32 (i 0).val
  let c128_i32 : BitVec 32 := 128#32
  let v0 : BitVec 32 := Scalar.muli arg0 c128_i32
  let c121_i32 : BitVec 32 := 121#32
  let v3026 : BitVec 32 := Scalar.addi v0 c121_i32
  let v3027 : Index := Scalar.indexCast v3026
  ![v3027.toNat]
def k0_off486 (v3028 : BitVec 32) : Fin 2 → Nat :=
  let c0_i32_727 : BitVec 32 := 0#32
  ![v3028.toNat, 0]

def k0_chk364 (v3028 : BitVec 32) : Prop :=
  (∀ a, (k0_off486 v3028) a + S1x64.size a ≤ S1000000x64.size a)
instance k0_chk364.dec : ∀ (v3028 : BitVec 32), Decidable (k0_chk364 v3028) := fun v3028 => decidable_of_iff' _ (Iff.of_eq (k0_chk364.eq_1 v3028))
theorem k0_off486_inb : ∀ (v3028 : BitVec 32) (k0_hw364 : k0_chk364 v3028), ∀ a, (k0_off486 v3028) a + S1x64.size a ≤ S1000000x64.size a := fun v3028 k0_hw364 => k0_hw364

def k0_off487 (v3030 : BitVec 32) : Fin 2 → Nat :=
  let c0_i32_729 : BitVec 32 := 0#32
  ![v3030.toNat, 0]

def k0_chk365 (v3030 : BitVec 32) : Prop :=
  (∀ a, (k0_off487 v3030) a + S1x64.size a ≤ S500000x64.size a)
instance k0_chk365.dec : ∀ (v3030 : BitVec 32), Decidable (k0_chk365 v3030) := fun v3030 => decidable_of_iff' _ (Iff.of_eq (k0_chk365.eq_1 v3030))
theorem k0_off487_inb : ∀ (v3030 : BitVec 32) (k0_hw365 : k0_chk365 v3030), ∀ a, (k0_off487 v3030) a + S1x64.size a ≤ S500000x64.size a := fun v3030 k0_hw365 => k0_hw365

def k0_off488 (v3032 : BitVec 32) : Fin 2 → Nat :=
  let c0_i32_731 : BitVec 32 := 0#32
  ![v3032.toNat, 0]

def k0_chk366 (v3032 : BitVec 32) : Prop :=
  (∀ a, (k0_off488 v3032) a + S1x64.size a ≤ S500000x64.size a)
instance k0_chk366.dec : ∀ (v3032 : BitVec 32), Decidable (k0_chk366 v3032) := fun v3032 => decidable_of_iff' _ (Iff.of_eq (k0_chk366.eq_1 v3032))
theorem k0_off488_inb : ∀ (v3032 : BitVec 32) (k0_hw366 : k0_chk366 v3032), ∀ a, (k0_off488 v3032) a + S1x64.size a ≤ S500000x64.size a := fun v3032 k0_hw366 => k0_hw366

def k0_off489 (i : grid0.Coords) : Fin 1 → Nat :=
  let arg0 : BitVec 32 := BitVec.ofNat 32 (i 0).val
  let c128_i32 : BitVec 32 := 128#32
  let v0 : BitVec 32 := Scalar.muli arg0 c128_i32
  let c122_i32 : BitVec 32 := 122#32
  let v3051 : BitVec 32 := Scalar.addi v0 c122_i32
  let v3052 : Index := Scalar.indexCast v3051
  ![v3052.toNat]
def k0_off490 (v3053 : BitVec 32) : Fin 2 → Nat :=
  let c0_i32_733 : BitVec 32 := 0#32
  ![v3053.toNat, 0]

def k0_chk367 (v3053 : BitVec 32) : Prop :=
  (∀ a, (k0_off490 v3053) a + S1x64.size a ≤ S1000000x64.size a)
instance k0_chk367.dec : ∀ (v3053 : BitVec 32), Decidable (k0_chk367 v3053) := fun v3053 => decidable_of_iff' _ (Iff.of_eq (k0_chk367.eq_1 v3053))
theorem k0_off490_inb : ∀ (v3053 : BitVec 32) (k0_hw367 : k0_chk367 v3053), ∀ a, (k0_off490 v3053) a + S1x64.size a ≤ S1000000x64.size a := fun v3053 k0_hw367 => k0_hw367

def k0_off491 (v3055 : BitVec 32) : Fin 2 → Nat :=
  let c0_i32_735 : BitVec 32 := 0#32
  ![v3055.toNat, 0]

def k0_chk368 (v3055 : BitVec 32) : Prop :=
  (∀ a, (k0_off491 v3055) a + S1x64.size a ≤ S500000x64.size a)
instance k0_chk368.dec : ∀ (v3055 : BitVec 32), Decidable (k0_chk368 v3055) := fun v3055 => decidable_of_iff' _ (Iff.of_eq (k0_chk368.eq_1 v3055))
theorem k0_off491_inb : ∀ (v3055 : BitVec 32) (k0_hw368 : k0_chk368 v3055), ∀ a, (k0_off491 v3055) a + S1x64.size a ≤ S500000x64.size a := fun v3055 k0_hw368 => k0_hw368

def k0_off492 (v3057 : BitVec 32) : Fin 2 → Nat :=
  let c0_i32_737 : BitVec 32 := 0#32
  ![v3057.toNat, 0]

def k0_chk369 (v3057 : BitVec 32) : Prop :=
  (∀ a, (k0_off492 v3057) a + S1x64.size a ≤ S500000x64.size a)
instance k0_chk369.dec : ∀ (v3057 : BitVec 32), Decidable (k0_chk369 v3057) := fun v3057 => decidable_of_iff' _ (Iff.of_eq (k0_chk369.eq_1 v3057))
theorem k0_off492_inb : ∀ (v3057 : BitVec 32) (k0_hw369 : k0_chk369 v3057), ∀ a, (k0_off492 v3057) a + S1x64.size a ≤ S500000x64.size a := fun v3057 k0_hw369 => k0_hw369

def k0_off493 (i : grid0.Coords) : Fin 1 → Nat :=
  let arg0 : BitVec 32 := BitVec.ofNat 32 (i 0).val
  let c128_i32 : BitVec 32 := 128#32
  let v0 : BitVec 32 := Scalar.muli arg0 c128_i32
  let c123_i32 : BitVec 32 := 123#32
  let v3076 : BitVec 32 := Scalar.addi v0 c123_i32
  let v3077 : Index := Scalar.indexCast v3076
  ![v3077.toNat]
def k0_off494 (v3078 : BitVec 32) : Fin 2 → Nat :=
  let c0_i32_739 : BitVec 32 := 0#32
  ![v3078.toNat, 0]

def k0_chk370 (v3078 : BitVec 32) : Prop :=
  (∀ a, (k0_off494 v3078) a + S1x64.size a ≤ S1000000x64.size a)
instance k0_chk370.dec : ∀ (v3078 : BitVec 32), Decidable (k0_chk370 v3078) := fun v3078 => decidable_of_iff' _ (Iff.of_eq (k0_chk370.eq_1 v3078))
theorem k0_off494_inb : ∀ (v3078 : BitVec 32) (k0_hw370 : k0_chk370 v3078), ∀ a, (k0_off494 v3078) a + S1x64.size a ≤ S1000000x64.size a := fun v3078 k0_hw370 => k0_hw370

def k0_off495 (v3080 : BitVec 32) : Fin 2 → Nat :=
  let c0_i32_741 : BitVec 32 := 0#32
  ![v3080.toNat, 0]

def k0_chk371 (v3080 : BitVec 32) : Prop :=
  (∀ a, (k0_off495 v3080) a + S1x64.size a ≤ S500000x64.size a)
instance k0_chk371.dec : ∀ (v3080 : BitVec 32), Decidable (k0_chk371 v3080) := fun v3080 => decidable_of_iff' _ (Iff.of_eq (k0_chk371.eq_1 v3080))
theorem k0_off495_inb : ∀ (v3080 : BitVec 32) (k0_hw371 : k0_chk371 v3080), ∀ a, (k0_off495 v3080) a + S1x64.size a ≤ S500000x64.size a := fun v3080 k0_hw371 => k0_hw371

def k0_off496 (v3082 : BitVec 32) : Fin 2 → Nat :=
  let c0_i32_743 : BitVec 32 := 0#32
  ![v3082.toNat, 0]

def k0_chk372 (v3082 : BitVec 32) : Prop :=
  (∀ a, (k0_off496 v3082) a + S1x64.size a ≤ S500000x64.size a)
instance k0_chk372.dec : ∀ (v3082 : BitVec 32), Decidable (k0_chk372 v3082) := fun v3082 => decidable_of_iff' _ (Iff.of_eq (k0_chk372.eq_1 v3082))
theorem k0_off496_inb : ∀ (v3082 : BitVec 32) (k0_hw372 : k0_chk372 v3082), ∀ a, (k0_off496 v3082) a + S1x64.size a ≤ S500000x64.size a := fun v3082 k0_hw372 => k0_hw372

def k0_off497 (i : grid0.Coords) : Fin 1 → Nat :=
  let arg0 : BitVec 32 := BitVec.ofNat 32 (i 0).val
  let c128_i32 : BitVec 32 := 128#32
  let v0 : BitVec 32 := Scalar.muli arg0 c128_i32
  let c124_i32 : BitVec 32 := 124#32
  let v3101 : BitVec 32 := Scalar.addi v0 c124_i32
  let v3102 : Index := Scalar.indexCast v3101
  ![v3102.toNat]
def k0_off498 (v3103 : BitVec 32) : Fin 2 → Nat :=
  let c0_i32_745 : BitVec 32 := 0#32
  ![v3103.toNat, 0]

def k0_chk373 (v3103 : BitVec 32) : Prop :=
  (∀ a, (k0_off498 v3103) a + S1x64.size a ≤ S1000000x64.size a)
instance k0_chk373.dec : ∀ (v3103 : BitVec 32), Decidable (k0_chk373 v3103) := fun v3103 => decidable_of_iff' _ (Iff.of_eq (k0_chk373.eq_1 v3103))
theorem k0_off498_inb : ∀ (v3103 : BitVec 32) (k0_hw373 : k0_chk373 v3103), ∀ a, (k0_off498 v3103) a + S1x64.size a ≤ S1000000x64.size a := fun v3103 k0_hw373 => k0_hw373

def k0_off499 (v3105 : BitVec 32) : Fin 2 → Nat :=
  let c0_i32_747 : BitVec 32 := 0#32
  ![v3105.toNat, 0]

def k0_chk374 (v3105 : BitVec 32) : Prop :=
  (∀ a, (k0_off499 v3105) a + S1x64.size a ≤ S500000x64.size a)
instance k0_chk374.dec : ∀ (v3105 : BitVec 32), Decidable (k0_chk374 v3105) := fun v3105 => decidable_of_iff' _ (Iff.of_eq (k0_chk374.eq_1 v3105))
theorem k0_off499_inb : ∀ (v3105 : BitVec 32) (k0_hw374 : k0_chk374 v3105), ∀ a, (k0_off499 v3105) a + S1x64.size a ≤ S500000x64.size a := fun v3105 k0_hw374 => k0_hw374

def k0_off500 (v3107 : BitVec 32) : Fin 2 → Nat :=
  let c0_i32_749 : BitVec 32 := 0#32
  ![v3107.toNat, 0]

def k0_chk375 (v3107 : BitVec 32) : Prop :=
  (∀ a, (k0_off500 v3107) a + S1x64.size a ≤ S500000x64.size a)
instance k0_chk375.dec : ∀ (v3107 : BitVec 32), Decidable (k0_chk375 v3107) := fun v3107 => decidable_of_iff' _ (Iff.of_eq (k0_chk375.eq_1 v3107))
theorem k0_off500_inb : ∀ (v3107 : BitVec 32) (k0_hw375 : k0_chk375 v3107), ∀ a, (k0_off500 v3107) a + S1x64.size a ≤ S500000x64.size a := fun v3107 k0_hw375 => k0_hw375

def k0_off501 (i : grid0.Coords) : Fin 1 → Nat :=
  let arg0 : BitVec 32 := BitVec.ofNat 32 (i 0).val
  let c128_i32 : BitVec 32 := 128#32
  let v0 : BitVec 32 := Scalar.muli arg0 c128_i32
  let c125_i32 : BitVec 32 := 125#32
  let v3126 : BitVec 32 := Scalar.addi v0 c125_i32
  let v3127 : Index := Scalar.indexCast v3126
  ![v3127.toNat]
def k0_off502 (v3128 : BitVec 32) : Fin 2 → Nat :=
  let c0_i32_751 : BitVec 32 := 0#32
  ![v3128.toNat, 0]

def k0_chk376 (v3128 : BitVec 32) : Prop :=
  (∀ a, (k0_off502 v3128) a + S1x64.size a ≤ S1000000x64.size a)
instance k0_chk376.dec : ∀ (v3128 : BitVec 32), Decidable (k0_chk376 v3128) := fun v3128 => decidable_of_iff' _ (Iff.of_eq (k0_chk376.eq_1 v3128))
theorem k0_off502_inb : ∀ (v3128 : BitVec 32) (k0_hw376 : k0_chk376 v3128), ∀ a, (k0_off502 v3128) a + S1x64.size a ≤ S1000000x64.size a := fun v3128 k0_hw376 => k0_hw376

def k0_off503 (v3130 : BitVec 32) : Fin 2 → Nat :=
  let c0_i32_753 : BitVec 32 := 0#32
  ![v3130.toNat, 0]

def k0_chk377 (v3130 : BitVec 32) : Prop :=
  (∀ a, (k0_off503 v3130) a + S1x64.size a ≤ S500000x64.size a)
instance k0_chk377.dec : ∀ (v3130 : BitVec 32), Decidable (k0_chk377 v3130) := fun v3130 => decidable_of_iff' _ (Iff.of_eq (k0_chk377.eq_1 v3130))
theorem k0_off503_inb : ∀ (v3130 : BitVec 32) (k0_hw377 : k0_chk377 v3130), ∀ a, (k0_off503 v3130) a + S1x64.size a ≤ S500000x64.size a := fun v3130 k0_hw377 => k0_hw377

def k0_off504 (v3132 : BitVec 32) : Fin 2 → Nat :=
  let c0_i32_755 : BitVec 32 := 0#32
  ![v3132.toNat, 0]

def k0_chk378 (v3132 : BitVec 32) : Prop :=
  (∀ a, (k0_off504 v3132) a + S1x64.size a ≤ S500000x64.size a)
instance k0_chk378.dec : ∀ (v3132 : BitVec 32), Decidable (k0_chk378 v3132) := fun v3132 => decidable_of_iff' _ (Iff.of_eq (k0_chk378.eq_1 v3132))
theorem k0_off504_inb : ∀ (v3132 : BitVec 32) (k0_hw378 : k0_chk378 v3132), ∀ a, (k0_off504 v3132) a + S1x64.size a ≤ S500000x64.size a := fun v3132 k0_hw378 => k0_hw378

def k0_off505 (i : grid0.Coords) : Fin 1 → Nat :=
  let arg0 : BitVec 32 := BitVec.ofNat 32 (i 0).val
  let c128_i32 : BitVec 32 := 128#32
  let v0 : BitVec 32 := Scalar.muli arg0 c128_i32
  let c126_i32 : BitVec 32 := 126#32
  let v3151 : BitVec 32 := Scalar.addi v0 c126_i32
  let v3152 : Index := Scalar.indexCast v3151
  ![v3152.toNat]
def k0_off506 (v3153 : BitVec 32) : Fin 2 → Nat :=
  let c0_i32_757 : BitVec 32 := 0#32
  ![v3153.toNat, 0]

def k0_chk379 (v3153 : BitVec 32) : Prop :=
  (∀ a, (k0_off506 v3153) a + S1x64.size a ≤ S1000000x64.size a)
instance k0_chk379.dec : ∀ (v3153 : BitVec 32), Decidable (k0_chk379 v3153) := fun v3153 => decidable_of_iff' _ (Iff.of_eq (k0_chk379.eq_1 v3153))
theorem k0_off506_inb : ∀ (v3153 : BitVec 32) (k0_hw379 : k0_chk379 v3153), ∀ a, (k0_off506 v3153) a + S1x64.size a ≤ S1000000x64.size a := fun v3153 k0_hw379 => k0_hw379

def k0_off507 (v3155 : BitVec 32) : Fin 2 → Nat :=
  let c0_i32_759 : BitVec 32 := 0#32
  ![v3155.toNat, 0]

def k0_chk380 (v3155 : BitVec 32) : Prop :=
  (∀ a, (k0_off507 v3155) a + S1x64.size a ≤ S500000x64.size a)
instance k0_chk380.dec : ∀ (v3155 : BitVec 32), Decidable (k0_chk380 v3155) := fun v3155 => decidable_of_iff' _ (Iff.of_eq (k0_chk380.eq_1 v3155))
theorem k0_off507_inb : ∀ (v3155 : BitVec 32) (k0_hw380 : k0_chk380 v3155), ∀ a, (k0_off507 v3155) a + S1x64.size a ≤ S500000x64.size a := fun v3155 k0_hw380 => k0_hw380

def k0_off508 (v3157 : BitVec 32) : Fin 2 → Nat :=
  let c0_i32_761 : BitVec 32 := 0#32
  ![v3157.toNat, 0]

def k0_chk381 (v3157 : BitVec 32) : Prop :=
  (∀ a, (k0_off508 v3157) a + S1x64.size a ≤ S500000x64.size a)
instance k0_chk381.dec : ∀ (v3157 : BitVec 32), Decidable (k0_chk381 v3157) := fun v3157 => decidable_of_iff' _ (Iff.of_eq (k0_chk381.eq_1 v3157))
theorem k0_off508_inb : ∀ (v3157 : BitVec 32) (k0_hw381 : k0_chk381 v3157), ∀ a, (k0_off508 v3157) a + S1x64.size a ≤ S500000x64.size a := fun v3157 k0_hw381 => k0_hw381

def k0_off509 (i : grid0.Coords) : Fin 1 → Nat :=
  let arg0 : BitVec 32 := BitVec.ofNat 32 (i 0).val
  let c128_i32 : BitVec 32 := 128#32
  let v0 : BitVec 32 := Scalar.muli arg0 c128_i32
  let c127_i32 : BitVec 32 := 127#32
  let v3176 : BitVec 32 := Scalar.addi v0 c127_i32
  let v3177 : Index := Scalar.indexCast v3176
  ![v3177.toNat]
def k0_off510 (v3178 : BitVec 32) : Fin 2 → Nat :=
  let c0_i32_763 : BitVec 32 := 0#32
  ![v3178.toNat, 0]

def k0_chk382 (v3178 : BitVec 32) : Prop :=
  (∀ a, (k0_off510 v3178) a + S1x64.size a ≤ S1000000x64.size a)
instance k0_chk382.dec : ∀ (v3178 : BitVec 32), Decidable (k0_chk382 v3178) := fun v3178 => decidable_of_iff' _ (Iff.of_eq (k0_chk382.eq_1 v3178))
theorem k0_off510_inb : ∀ (v3178 : BitVec 32) (k0_hw382 : k0_chk382 v3178), ∀ a, (k0_off510 v3178) a + S1x64.size a ≤ S1000000x64.size a := fun v3178 k0_hw382 => k0_hw382

def k0_off511 (v3180 : BitVec 32) : Fin 2 → Nat :=
  let c0_i32_765 : BitVec 32 := 0#32
  ![v3180.toNat, 0]

def k0_chk383 (v3180 : BitVec 32) : Prop :=
  (∀ a, (k0_off511 v3180) a + S1x64.size a ≤ S500000x64.size a)
instance k0_chk383.dec : ∀ (v3180 : BitVec 32), Decidable (k0_chk383 v3180) := fun v3180 => decidable_of_iff' _ (Iff.of_eq (k0_chk383.eq_1 v3180))
theorem k0_off511_inb : ∀ (v3180 : BitVec 32) (k0_hw383 : k0_chk383 v3180), ∀ a, (k0_off511 v3180) a + S1x64.size a ≤ S500000x64.size a := fun v3180 k0_hw383 => k0_hw383

def k0_off512 (v3182 : BitVec 32) : Fin 2 → Nat :=
  let c0_i32_767 : BitVec 32 := 0#32
  ![v3182.toNat, 0]

def k0_chk384 (v3182 : BitVec 32) : Prop :=
  (∀ a, (k0_off512 v3182) a + S1x64.size a ≤ S500000x64.size a)
instance k0_chk384.dec : ∀ (v3182 : BitVec 32), Decidable (k0_chk384 v3182) := fun v3182 => decidable_of_iff' _ (Iff.of_eq (k0_chk384.eq_1 v3182))
theorem k0_off512_inb : ∀ (v3182 : BitVec 32) (k0_hw384 : k0_chk384 v3182), ∀ a, (k0_off512 v3182) a + S1x64.size a ≤ S500000x64.size a := fun v3182 k0_hw384 => k0_hw384

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  numel1_S1 : S1.numel = 1
  inb_S128_S1_0 : ∀ a, (![0] : Fin 1 → Nat) a + S1.size a ≤ S128.size a
  squeezes_S1_S_ : S1.Squeezes S_
  inb_S128x64_S1x64_0_0 : ∀ a, (![0, 0] : Fin 2 → Nat) a + S1x64.size a ≤ S128x64.size a
  squeezes_S1x64_S64 : S1x64.Squeezes S64
  inb_S128_S1_1 : ∀ a, (![1] : Fin 1 → Nat) a + S1.size a ≤ S128.size a
  inb_S128x64_S1x64_1_0 : ∀ a, (![1, 0] : Fin 2 → Nat) a + S1x64.size a ≤ S128x64.size a
  inb_S128_S1_2 : ∀ a, (![2] : Fin 1 → Nat) a + S1.size a ≤ S128.size a
  inb_S128x64_S1x64_2_0 : ∀ a, (![2, 0] : Fin 2 → Nat) a + S1x64.size a ≤ S128x64.size a
  inb_S128_S1_3 : ∀ a, (![3] : Fin 1 → Nat) a + S1.size a ≤ S128.size a
  inb_S128x64_S1x64_3_0 : ∀ a, (![3, 0] : Fin 2 → Nat) a + S1x64.size a ≤ S128x64.size a
  inb_S128_S1_4 : ∀ a, (![4] : Fin 1 → Nat) a + S1.size a ≤ S128.size a
  inb_S128x64_S1x64_4_0 : ∀ a, (![4, 0] : Fin 2 → Nat) a + S1x64.size a ≤ S128x64.size a
  inb_S128_S1_5 : ∀ a, (![5] : Fin 1 → Nat) a + S1.size a ≤ S128.size a
  inb_S128x64_S1x64_5_0 : ∀ a, (![5, 0] : Fin 2 → Nat) a + S1x64.size a ≤ S128x64.size a
  inb_S128_S1_6 : ∀ a, (![6] : Fin 1 → Nat) a + S1.size a ≤ S128.size a
  inb_S128x64_S1x64_6_0 : ∀ a, (![6, 0] : Fin 2 → Nat) a + S1x64.size a ≤ S128x64.size a
  inb_S128_S1_7 : ∀ a, (![7] : Fin 1 → Nat) a + S1.size a ≤ S128.size a
  inb_S128x64_S1x64_7_0 : ∀ a, (![7, 0] : Fin 2 → Nat) a + S1x64.size a ≤ S128x64.size a
  inb_S128_S1_8 : ∀ a, (![8] : Fin 1 → Nat) a + S1.size a ≤ S128.size a
  inb_S128x64_S1x64_8_0 : ∀ a, (![8, 0] : Fin 2 → Nat) a + S1x64.size a ≤ S128x64.size a
  inb_S128_S1_9 : ∀ a, (![9] : Fin 1 → Nat) a + S1.size a ≤ S128.size a
  inb_S128x64_S1x64_9_0 : ∀ a, (![9, 0] : Fin 2 → Nat) a + S1x64.size a ≤ S128x64.size a
  inb_S128_S1_10 : ∀ a, (![10] : Fin 1 → Nat) a + S1.size a ≤ S128.size a
  inb_S128x64_S1x64_10_0 : ∀ a, (![10, 0] : Fin 2 → Nat) a + S1x64.size a ≤ S128x64.size a
  inb_S128_S1_11 : ∀ a, (![11] : Fin 1 → Nat) a + S1.size a ≤ S128.size a
  inb_S128x64_S1x64_11_0 : ∀ a, (![11, 0] : Fin 2 → Nat) a + S1x64.size a ≤ S128x64.size a
  inb_S128_S1_12 : ∀ a, (![12] : Fin 1 → Nat) a + S1.size a ≤ S128.size a
  inb_S128x64_S1x64_12_0 : ∀ a, (![12, 0] : Fin 2 → Nat) a + S1x64.size a ≤ S128x64.size a
  inb_S128_S1_13 : ∀ a, (![13] : Fin 1 → Nat) a + S1.size a ≤ S128.size a
  inb_S128x64_S1x64_13_0 : ∀ a, (![13, 0] : Fin 2 → Nat) a + S1x64.size a ≤ S128x64.size a
  inb_S128_S1_14 : ∀ a, (![14] : Fin 1 → Nat) a + S1.size a ≤ S128.size a
  inb_S128x64_S1x64_14_0 : ∀ a, (![14, 0] : Fin 2 → Nat) a + S1x64.size a ≤ S128x64.size a
  inb_S128_S1_15 : ∀ a, (![15] : Fin 1 → Nat) a + S1.size a ≤ S128.size a
  inb_S128x64_S1x64_15_0 : ∀ a, (![15, 0] : Fin 2 → Nat) a + S1x64.size a ≤ S128x64.size a
  inb_S128_S1_16 : ∀ a, (![16] : Fin 1 → Nat) a + S1.size a ≤ S128.size a
  inb_S128x64_S1x64_16_0 : ∀ a, (![16, 0] : Fin 2 → Nat) a + S1x64.size a ≤ S128x64.size a
  inb_S128_S1_17 : ∀ a, (![17] : Fin 1 → Nat) a + S1.size a ≤ S128.size a
  inb_S128x64_S1x64_17_0 : ∀ a, (![17, 0] : Fin 2 → Nat) a + S1x64.size a ≤ S128x64.size a
  inb_S128_S1_18 : ∀ a, (![18] : Fin 1 → Nat) a + S1.size a ≤ S128.size a
  inb_S128x64_S1x64_18_0 : ∀ a, (![18, 0] : Fin 2 → Nat) a + S1x64.size a ≤ S128x64.size a
  inb_S128_S1_19 : ∀ a, (![19] : Fin 1 → Nat) a + S1.size a ≤ S128.size a
  inb_S128x64_S1x64_19_0 : ∀ a, (![19, 0] : Fin 2 → Nat) a + S1x64.size a ≤ S128x64.size a
  inb_S128_S1_20 : ∀ a, (![20] : Fin 1 → Nat) a + S1.size a ≤ S128.size a
  inb_S128x64_S1x64_20_0 : ∀ a, (![20, 0] : Fin 2 → Nat) a + S1x64.size a ≤ S128x64.size a
  inb_S128_S1_21 : ∀ a, (![21] : Fin 1 → Nat) a + S1.size a ≤ S128.size a
  inb_S128x64_S1x64_21_0 : ∀ a, (![21, 0] : Fin 2 → Nat) a + S1x64.size a ≤ S128x64.size a
  inb_S128_S1_22 : ∀ a, (![22] : Fin 1 → Nat) a + S1.size a ≤ S128.size a
  inb_S128x64_S1x64_22_0 : ∀ a, (![22, 0] : Fin 2 → Nat) a + S1x64.size a ≤ S128x64.size a
  inb_S128_S1_23 : ∀ a, (![23] : Fin 1 → Nat) a + S1.size a ≤ S128.size a
  inb_S128x64_S1x64_23_0 : ∀ a, (![23, 0] : Fin 2 → Nat) a + S1x64.size a ≤ S128x64.size a
  inb_S128_S1_24 : ∀ a, (![24] : Fin 1 → Nat) a + S1.size a ≤ S128.size a
  inb_S128x64_S1x64_24_0 : ∀ a, (![24, 0] : Fin 2 → Nat) a + S1x64.size a ≤ S128x64.size a
  inb_S128_S1_25 : ∀ a, (![25] : Fin 1 → Nat) a + S1.size a ≤ S128.size a
  inb_S128x64_S1x64_25_0 : ∀ a, (![25, 0] : Fin 2 → Nat) a + S1x64.size a ≤ S128x64.size a
  inb_S128_S1_26 : ∀ a, (![26] : Fin 1 → Nat) a + S1.size a ≤ S128.size a
  inb_S128x64_S1x64_26_0 : ∀ a, (![26, 0] : Fin 2 → Nat) a + S1x64.size a ≤ S128x64.size a
  inb_S128_S1_27 : ∀ a, (![27] : Fin 1 → Nat) a + S1.size a ≤ S128.size a
  inb_S128x64_S1x64_27_0 : ∀ a, (![27, 0] : Fin 2 → Nat) a + S1x64.size a ≤ S128x64.size a
  inb_S128_S1_28 : ∀ a, (![28] : Fin 1 → Nat) a + S1.size a ≤ S128.size a
  inb_S128x64_S1x64_28_0 : ∀ a, (![28, 0] : Fin 2 → Nat) a + S1x64.size a ≤ S128x64.size a
  inb_S128_S1_29 : ∀ a, (![29] : Fin 1 → Nat) a + S1.size a ≤ S128.size a
  inb_S128x64_S1x64_29_0 : ∀ a, (![29, 0] : Fin 2 → Nat) a + S1x64.size a ≤ S128x64.size a
  inb_S128_S1_30 : ∀ a, (![30] : Fin 1 → Nat) a + S1.size a ≤ S128.size a
  inb_S128x64_S1x64_30_0 : ∀ a, (![30, 0] : Fin 2 → Nat) a + S1x64.size a ≤ S128x64.size a
  inb_S128_S1_31 : ∀ a, (![31] : Fin 1 → Nat) a + S1.size a ≤ S128.size a
  inb_S128x64_S1x64_31_0 : ∀ a, (![31, 0] : Fin 2 → Nat) a + S1x64.size a ≤ S128x64.size a
  inb_S128_S1_32 : ∀ a, (![32] : Fin 1 → Nat) a + S1.size a ≤ S128.size a
  inb_S128x64_S1x64_32_0 : ∀ a, (![32, 0] : Fin 2 → Nat) a + S1x64.size a ≤ S128x64.size a
  inb_S128_S1_33 : ∀ a, (![33] : Fin 1 → Nat) a + S1.size a ≤ S128.size a
  inb_S128x64_S1x64_33_0 : ∀ a, (![33, 0] : Fin 2 → Nat) a + S1x64.size a ≤ S128x64.size a
  inb_S128_S1_34 : ∀ a, (![34] : Fin 1 → Nat) a + S1.size a ≤ S128.size a
  inb_S128x64_S1x64_34_0 : ∀ a, (![34, 0] : Fin 2 → Nat) a + S1x64.size a ≤ S128x64.size a
  inb_S128_S1_35 : ∀ a, (![35] : Fin 1 → Nat) a + S1.size a ≤ S128.size a
  inb_S128x64_S1x64_35_0 : ∀ a, (![35, 0] : Fin 2 → Nat) a + S1x64.size a ≤ S128x64.size a
  inb_S128_S1_36 : ∀ a, (![36] : Fin 1 → Nat) a + S1.size a ≤ S128.size a
  inb_S128x64_S1x64_36_0 : ∀ a, (![36, 0] : Fin 2 → Nat) a + S1x64.size a ≤ S128x64.size a
  inb_S128_S1_37 : ∀ a, (![37] : Fin 1 → Nat) a + S1.size a ≤ S128.size a
  inb_S128x64_S1x64_37_0 : ∀ a, (![37, 0] : Fin 2 → Nat) a + S1x64.size a ≤ S128x64.size a
  inb_S128_S1_38 : ∀ a, (![38] : Fin 1 → Nat) a + S1.size a ≤ S128.size a
  inb_S128x64_S1x64_38_0 : ∀ a, (![38, 0] : Fin 2 → Nat) a + S1x64.size a ≤ S128x64.size a
  inb_S128_S1_39 : ∀ a, (![39] : Fin 1 → Nat) a + S1.size a ≤ S128.size a
  inb_S128x64_S1x64_39_0 : ∀ a, (![39, 0] : Fin 2 → Nat) a + S1x64.size a ≤ S128x64.size a
  inb_S128_S1_40 : ∀ a, (![40] : Fin 1 → Nat) a + S1.size a ≤ S128.size a
  inb_S128x64_S1x64_40_0 : ∀ a, (![40, 0] : Fin 2 → Nat) a + S1x64.size a ≤ S128x64.size a
  inb_S128_S1_41 : ∀ a, (![41] : Fin 1 → Nat) a + S1.size a ≤ S128.size a
  inb_S128x64_S1x64_41_0 : ∀ a, (![41, 0] : Fin 2 → Nat) a + S1x64.size a ≤ S128x64.size a
  inb_S128_S1_42 : ∀ a, (![42] : Fin 1 → Nat) a + S1.size a ≤ S128.size a
  inb_S128x64_S1x64_42_0 : ∀ a, (![42, 0] : Fin 2 → Nat) a + S1x64.size a ≤ S128x64.size a
  inb_S128_S1_43 : ∀ a, (![43] : Fin 1 → Nat) a + S1.size a ≤ S128.size a
  inb_S128x64_S1x64_43_0 : ∀ a, (![43, 0] : Fin 2 → Nat) a + S1x64.size a ≤ S128x64.size a
  inb_S128_S1_44 : ∀ a, (![44] : Fin 1 → Nat) a + S1.size a ≤ S128.size a
  inb_S128x64_S1x64_44_0 : ∀ a, (![44, 0] : Fin 2 → Nat) a + S1x64.size a ≤ S128x64.size a
  inb_S128_S1_45 : ∀ a, (![45] : Fin 1 → Nat) a + S1.size a ≤ S128.size a
  inb_S128x64_S1x64_45_0 : ∀ a, (![45, 0] : Fin 2 → Nat) a + S1x64.size a ≤ S128x64.size a
  inb_S128_S1_46 : ∀ a, (![46] : Fin 1 → Nat) a + S1.size a ≤ S128.size a
  inb_S128x64_S1x64_46_0 : ∀ a, (![46, 0] : Fin 2 → Nat) a + S1x64.size a ≤ S128x64.size a
  inb_S128_S1_47 : ∀ a, (![47] : Fin 1 → Nat) a + S1.size a ≤ S128.size a
  inb_S128x64_S1x64_47_0 : ∀ a, (![47, 0] : Fin 2 → Nat) a + S1x64.size a ≤ S128x64.size a
  inb_S128_S1_48 : ∀ a, (![48] : Fin 1 → Nat) a + S1.size a ≤ S128.size a
  inb_S128x64_S1x64_48_0 : ∀ a, (![48, 0] : Fin 2 → Nat) a + S1x64.size a ≤ S128x64.size a
  inb_S128_S1_49 : ∀ a, (![49] : Fin 1 → Nat) a + S1.size a ≤ S128.size a
  inb_S128x64_S1x64_49_0 : ∀ a, (![49, 0] : Fin 2 → Nat) a + S1x64.size a ≤ S128x64.size a
  inb_S128_S1_50 : ∀ a, (![50] : Fin 1 → Nat) a + S1.size a ≤ S128.size a
  inb_S128x64_S1x64_50_0 : ∀ a, (![50, 0] : Fin 2 → Nat) a + S1x64.size a ≤ S128x64.size a
  inb_S128_S1_51 : ∀ a, (![51] : Fin 1 → Nat) a + S1.size a ≤ S128.size a
  inb_S128x64_S1x64_51_0 : ∀ a, (![51, 0] : Fin 2 → Nat) a + S1x64.size a ≤ S128x64.size a
  inb_S128_S1_52 : ∀ a, (![52] : Fin 1 → Nat) a + S1.size a ≤ S128.size a
  inb_S128x64_S1x64_52_0 : ∀ a, (![52, 0] : Fin 2 → Nat) a + S1x64.size a ≤ S128x64.size a
  inb_S128_S1_53 : ∀ a, (![53] : Fin 1 → Nat) a + S1.size a ≤ S128.size a
  inb_S128x64_S1x64_53_0 : ∀ a, (![53, 0] : Fin 2 → Nat) a + S1x64.size a ≤ S128x64.size a
  inb_S128_S1_54 : ∀ a, (![54] : Fin 1 → Nat) a + S1.size a ≤ S128.size a
  inb_S128x64_S1x64_54_0 : ∀ a, (![54, 0] : Fin 2 → Nat) a + S1x64.size a ≤ S128x64.size a
  inb_S128_S1_55 : ∀ a, (![55] : Fin 1 → Nat) a + S1.size a ≤ S128.size a
  inb_S128x64_S1x64_55_0 : ∀ a, (![55, 0] : Fin 2 → Nat) a + S1x64.size a ≤ S128x64.size a
  inb_S128_S1_56 : ∀ a, (![56] : Fin 1 → Nat) a + S1.size a ≤ S128.size a
  inb_S128x64_S1x64_56_0 : ∀ a, (![56, 0] : Fin 2 → Nat) a + S1x64.size a ≤ S128x64.size a
  inb_S128_S1_57 : ∀ a, (![57] : Fin 1 → Nat) a + S1.size a ≤ S128.size a
  inb_S128x64_S1x64_57_0 : ∀ a, (![57, 0] : Fin 2 → Nat) a + S1x64.size a ≤ S128x64.size a
  inb_S128_S1_58 : ∀ a, (![58] : Fin 1 → Nat) a + S1.size a ≤ S128.size a
  inb_S128x64_S1x64_58_0 : ∀ a, (![58, 0] : Fin 2 → Nat) a + S1x64.size a ≤ S128x64.size a
  inb_S128_S1_59 : ∀ a, (![59] : Fin 1 → Nat) a + S1.size a ≤ S128.size a
  inb_S128x64_S1x64_59_0 : ∀ a, (![59, 0] : Fin 2 → Nat) a + S1x64.size a ≤ S128x64.size a
  inb_S128_S1_60 : ∀ a, (![60] : Fin 1 → Nat) a + S1.size a ≤ S128.size a
  inb_S128x64_S1x64_60_0 : ∀ a, (![60, 0] : Fin 2 → Nat) a + S1x64.size a ≤ S128x64.size a
  inb_S128_S1_61 : ∀ a, (![61] : Fin 1 → Nat) a + S1.size a ≤ S128.size a
  inb_S128x64_S1x64_61_0 : ∀ a, (![61, 0] : Fin 2 → Nat) a + S1x64.size a ≤ S128x64.size a
  inb_S128_S1_62 : ∀ a, (![62] : Fin 1 → Nat) a + S1.size a ≤ S128.size a
  inb_S128x64_S1x64_62_0 : ∀ a, (![62, 0] : Fin 2 → Nat) a + S1x64.size a ≤ S128x64.size a
  inb_S128_S1_63 : ∀ a, (![63] : Fin 1 → Nat) a + S1.size a ≤ S128.size a
  inb_S128x64_S1x64_63_0 : ∀ a, (![63, 0] : Fin 2 → Nat) a + S1x64.size a ≤ S128x64.size a
  inb_S128_S1_64 : ∀ a, (![64] : Fin 1 → Nat) a + S1.size a ≤ S128.size a
  inb_S128x64_S1x64_64_0 : ∀ a, (![64, 0] : Fin 2 → Nat) a + S1x64.size a ≤ S128x64.size a
  inb_S128_S1_65 : ∀ a, (![65] : Fin 1 → Nat) a + S1.size a ≤ S128.size a
  inb_S128x64_S1x64_65_0 : ∀ a, (![65, 0] : Fin 2 → Nat) a + S1x64.size a ≤ S128x64.size a
  inb_S128_S1_66 : ∀ a, (![66] : Fin 1 → Nat) a + S1.size a ≤ S128.size a
  inb_S128x64_S1x64_66_0 : ∀ a, (![66, 0] : Fin 2 → Nat) a + S1x64.size a ≤ S128x64.size a
  inb_S128_S1_67 : ∀ a, (![67] : Fin 1 → Nat) a + S1.size a ≤ S128.size a
  inb_S128x64_S1x64_67_0 : ∀ a, (![67, 0] : Fin 2 → Nat) a + S1x64.size a ≤ S128x64.size a
  inb_S128_S1_68 : ∀ a, (![68] : Fin 1 → Nat) a + S1.size a ≤ S128.size a
  inb_S128x64_S1x64_68_0 : ∀ a, (![68, 0] : Fin 2 → Nat) a + S1x64.size a ≤ S128x64.size a
  inb_S128_S1_69 : ∀ a, (![69] : Fin 1 → Nat) a + S1.size a ≤ S128.size a
  inb_S128x64_S1x64_69_0 : ∀ a, (![69, 0] : Fin 2 → Nat) a + S1x64.size a ≤ S128x64.size a
  inb_S128_S1_70 : ∀ a, (![70] : Fin 1 → Nat) a + S1.size a ≤ S128.size a
  inb_S128x64_S1x64_70_0 : ∀ a, (![70, 0] : Fin 2 → Nat) a + S1x64.size a ≤ S128x64.size a
  inb_S128_S1_71 : ∀ a, (![71] : Fin 1 → Nat) a + S1.size a ≤ S128.size a
  inb_S128x64_S1x64_71_0 : ∀ a, (![71, 0] : Fin 2 → Nat) a + S1x64.size a ≤ S128x64.size a
  inb_S128_S1_72 : ∀ a, (![72] : Fin 1 → Nat) a + S1.size a ≤ S128.size a
  inb_S128x64_S1x64_72_0 : ∀ a, (![72, 0] : Fin 2 → Nat) a + S1x64.size a ≤ S128x64.size a
  inb_S128_S1_73 : ∀ a, (![73] : Fin 1 → Nat) a + S1.size a ≤ S128.size a
  inb_S128x64_S1x64_73_0 : ∀ a, (![73, 0] : Fin 2 → Nat) a + S1x64.size a ≤ S128x64.size a
  inb_S128_S1_74 : ∀ a, (![74] : Fin 1 → Nat) a + S1.size a ≤ S128.size a
  inb_S128x64_S1x64_74_0 : ∀ a, (![74, 0] : Fin 2 → Nat) a + S1x64.size a ≤ S128x64.size a
  inb_S128_S1_75 : ∀ a, (![75] : Fin 1 → Nat) a + S1.size a ≤ S128.size a
  inb_S128x64_S1x64_75_0 : ∀ a, (![75, 0] : Fin 2 → Nat) a + S1x64.size a ≤ S128x64.size a
  inb_S128_S1_76 : ∀ a, (![76] : Fin 1 → Nat) a + S1.size a ≤ S128.size a
  inb_S128x64_S1x64_76_0 : ∀ a, (![76, 0] : Fin 2 → Nat) a + S1x64.size a ≤ S128x64.size a
  inb_S128_S1_77 : ∀ a, (![77] : Fin 1 → Nat) a + S1.size a ≤ S128.size a
  inb_S128x64_S1x64_77_0 : ∀ a, (![77, 0] : Fin 2 → Nat) a + S1x64.size a ≤ S128x64.size a
  inb_S128_S1_78 : ∀ a, (![78] : Fin 1 → Nat) a + S1.size a ≤ S128.size a
  inb_S128x64_S1x64_78_0 : ∀ a, (![78, 0] : Fin 2 → Nat) a + S1x64.size a ≤ S128x64.size a
  inb_S128_S1_79 : ∀ a, (![79] : Fin 1 → Nat) a + S1.size a ≤ S128.size a
  inb_S128x64_S1x64_79_0 : ∀ a, (![79, 0] : Fin 2 → Nat) a + S1x64.size a ≤ S128x64.size a
  inb_S128_S1_80 : ∀ a, (![80] : Fin 1 → Nat) a + S1.size a ≤ S128.size a
  inb_S128x64_S1x64_80_0 : ∀ a, (![80, 0] : Fin 2 → Nat) a + S1x64.size a ≤ S128x64.size a
  inb_S128_S1_81 : ∀ a, (![81] : Fin 1 → Nat) a + S1.size a ≤ S128.size a
  inb_S128x64_S1x64_81_0 : ∀ a, (![81, 0] : Fin 2 → Nat) a + S1x64.size a ≤ S128x64.size a
  inb_S128_S1_82 : ∀ a, (![82] : Fin 1 → Nat) a + S1.size a ≤ S128.size a
  inb_S128x64_S1x64_82_0 : ∀ a, (![82, 0] : Fin 2 → Nat) a + S1x64.size a ≤ S128x64.size a
  inb_S128_S1_83 : ∀ a, (![83] : Fin 1 → Nat) a + S1.size a ≤ S128.size a
  inb_S128x64_S1x64_83_0 : ∀ a, (![83, 0] : Fin 2 → Nat) a + S1x64.size a ≤ S128x64.size a
  inb_S128_S1_84 : ∀ a, (![84] : Fin 1 → Nat) a + S1.size a ≤ S128.size a
  inb_S128x64_S1x64_84_0 : ∀ a, (![84, 0] : Fin 2 → Nat) a + S1x64.size a ≤ S128x64.size a
  inb_S128_S1_85 : ∀ a, (![85] : Fin 1 → Nat) a + S1.size a ≤ S128.size a
  inb_S128x64_S1x64_85_0 : ∀ a, (![85, 0] : Fin 2 → Nat) a + S1x64.size a ≤ S128x64.size a
  inb_S128_S1_86 : ∀ a, (![86] : Fin 1 → Nat) a + S1.size a ≤ S128.size a
  inb_S128x64_S1x64_86_0 : ∀ a, (![86, 0] : Fin 2 → Nat) a + S1x64.size a ≤ S128x64.size a
  inb_S128_S1_87 : ∀ a, (![87] : Fin 1 → Nat) a + S1.size a ≤ S128.size a
  inb_S128x64_S1x64_87_0 : ∀ a, (![87, 0] : Fin 2 → Nat) a + S1x64.size a ≤ S128x64.size a
  inb_S128_S1_88 : ∀ a, (![88] : Fin 1 → Nat) a + S1.size a ≤ S128.size a
  inb_S128x64_S1x64_88_0 : ∀ a, (![88, 0] : Fin 2 → Nat) a + S1x64.size a ≤ S128x64.size a
  inb_S128_S1_89 : ∀ a, (![89] : Fin 1 → Nat) a + S1.size a ≤ S128.size a
  inb_S128x64_S1x64_89_0 : ∀ a, (![89, 0] : Fin 2 → Nat) a + S1x64.size a ≤ S128x64.size a
  inb_S128_S1_90 : ∀ a, (![90] : Fin 1 → Nat) a + S1.size a ≤ S128.size a
  inb_S128x64_S1x64_90_0 : ∀ a, (![90, 0] : Fin 2 → Nat) a + S1x64.size a ≤ S128x64.size a
  inb_S128_S1_91 : ∀ a, (![91] : Fin 1 → Nat) a + S1.size a ≤ S128.size a
  inb_S128x64_S1x64_91_0 : ∀ a, (![91, 0] : Fin 2 → Nat) a + S1x64.size a ≤ S128x64.size a
  inb_S128_S1_92 : ∀ a, (![92] : Fin 1 → Nat) a + S1.size a ≤ S128.size a
  inb_S128x64_S1x64_92_0 : ∀ a, (![92, 0] : Fin 2 → Nat) a + S1x64.size a ≤ S128x64.size a
  inb_S128_S1_93 : ∀ a, (![93] : Fin 1 → Nat) a + S1.size a ≤ S128.size a
  inb_S128x64_S1x64_93_0 : ∀ a, (![93, 0] : Fin 2 → Nat) a + S1x64.size a ≤ S128x64.size a
  inb_S128_S1_94 : ∀ a, (![94] : Fin 1 → Nat) a + S1.size a ≤ S128.size a
  inb_S128x64_S1x64_94_0 : ∀ a, (![94, 0] : Fin 2 → Nat) a + S1x64.size a ≤ S128x64.size a
  inb_S128_S1_95 : ∀ a, (![95] : Fin 1 → Nat) a + S1.size a ≤ S128.size a
  inb_S128x64_S1x64_95_0 : ∀ a, (![95, 0] : Fin 2 → Nat) a + S1x64.size a ≤ S128x64.size a
  inb_S128_S1_96 : ∀ a, (![96] : Fin 1 → Nat) a + S1.size a ≤ S128.size a
  inb_S128x64_S1x64_96_0 : ∀ a, (![96, 0] : Fin 2 → Nat) a + S1x64.size a ≤ S128x64.size a
  inb_S128_S1_97 : ∀ a, (![97] : Fin 1 → Nat) a + S1.size a ≤ S128.size a
  inb_S128x64_S1x64_97_0 : ∀ a, (![97, 0] : Fin 2 → Nat) a + S1x64.size a ≤ S128x64.size a
  inb_S128_S1_98 : ∀ a, (![98] : Fin 1 → Nat) a + S1.size a ≤ S128.size a
  inb_S128x64_S1x64_98_0 : ∀ a, (![98, 0] : Fin 2 → Nat) a + S1x64.size a ≤ S128x64.size a
  inb_S128_S1_99 : ∀ a, (![99] : Fin 1 → Nat) a + S1.size a ≤ S128.size a
  inb_S128x64_S1x64_99_0 : ∀ a, (![99, 0] : Fin 2 → Nat) a + S1x64.size a ≤ S128x64.size a
  inb_S128_S1_100 : ∀ a, (![100] : Fin 1 → Nat) a + S1.size a ≤ S128.size a
  inb_S128x64_S1x64_100_0 : ∀ a, (![100, 0] : Fin 2 → Nat) a + S1x64.size a ≤ S128x64.size a
  inb_S128_S1_101 : ∀ a, (![101] : Fin 1 → Nat) a + S1.size a ≤ S128.size a
  inb_S128x64_S1x64_101_0 : ∀ a, (![101, 0] : Fin 2 → Nat) a + S1x64.size a ≤ S128x64.size a
  inb_S128_S1_102 : ∀ a, (![102] : Fin 1 → Nat) a + S1.size a ≤ S128.size a
  inb_S128x64_S1x64_102_0 : ∀ a, (![102, 0] : Fin 2 → Nat) a + S1x64.size a ≤ S128x64.size a
  inb_S128_S1_103 : ∀ a, (![103] : Fin 1 → Nat) a + S1.size a ≤ S128.size a
  inb_S128x64_S1x64_103_0 : ∀ a, (![103, 0] : Fin 2 → Nat) a + S1x64.size a ≤ S128x64.size a
  inb_S128_S1_104 : ∀ a, (![104] : Fin 1 → Nat) a + S1.size a ≤ S128.size a
  inb_S128x64_S1x64_104_0 : ∀ a, (![104, 0] : Fin 2 → Nat) a + S1x64.size a ≤ S128x64.size a
  inb_S128_S1_105 : ∀ a, (![105] : Fin 1 → Nat) a + S1.size a ≤ S128.size a
  inb_S128x64_S1x64_105_0 : ∀ a, (![105, 0] : Fin 2 → Nat) a + S1x64.size a ≤ S128x64.size a
  inb_S128_S1_106 : ∀ a, (![106] : Fin 1 → Nat) a + S1.size a ≤ S128.size a
  inb_S128x64_S1x64_106_0 : ∀ a, (![106, 0] : Fin 2 → Nat) a + S1x64.size a ≤ S128x64.size a
  inb_S128_S1_107 : ∀ a, (![107] : Fin 1 → Nat) a + S1.size a ≤ S128.size a
  inb_S128x64_S1x64_107_0 : ∀ a, (![107, 0] : Fin 2 → Nat) a + S1x64.size a ≤ S128x64.size a
  inb_S128_S1_108 : ∀ a, (![108] : Fin 1 → Nat) a + S1.size a ≤ S128.size a
  inb_S128x64_S1x64_108_0 : ∀ a, (![108, 0] : Fin 2 → Nat) a + S1x64.size a ≤ S128x64.size a
  inb_S128_S1_109 : ∀ a, (![109] : Fin 1 → Nat) a + S1.size a ≤ S128.size a
  inb_S128x64_S1x64_109_0 : ∀ a, (![109, 0] : Fin 2 → Nat) a + S1x64.size a ≤ S128x64.size a
  inb_S128_S1_110 : ∀ a, (![110] : Fin 1 → Nat) a + S1.size a ≤ S128.size a
  inb_S128x64_S1x64_110_0 : ∀ a, (![110, 0] : Fin 2 → Nat) a + S1x64.size a ≤ S128x64.size a
  inb_S128_S1_111 : ∀ a, (![111] : Fin 1 → Nat) a + S1.size a ≤ S128.size a
  inb_S128x64_S1x64_111_0 : ∀ a, (![111, 0] : Fin 2 → Nat) a + S1x64.size a ≤ S128x64.size a
  inb_S128_S1_112 : ∀ a, (![112] : Fin 1 → Nat) a + S1.size a ≤ S128.size a
  inb_S128x64_S1x64_112_0 : ∀ a, (![112, 0] : Fin 2 → Nat) a + S1x64.size a ≤ S128x64.size a
  inb_S128_S1_113 : ∀ a, (![113] : Fin 1 → Nat) a + S1.size a ≤ S128.size a
  inb_S128x64_S1x64_113_0 : ∀ a, (![113, 0] : Fin 2 → Nat) a + S1x64.size a ≤ S128x64.size a
  inb_S128_S1_114 : ∀ a, (![114] : Fin 1 → Nat) a + S1.size a ≤ S128.size a
  inb_S128x64_S1x64_114_0 : ∀ a, (![114, 0] : Fin 2 → Nat) a + S1x64.size a ≤ S128x64.size a
  inb_S128_S1_115 : ∀ a, (![115] : Fin 1 → Nat) a + S1.size a ≤ S128.size a
  inb_S128x64_S1x64_115_0 : ∀ a, (![115, 0] : Fin 2 → Nat) a + S1x64.size a ≤ S128x64.size a
  inb_S128_S1_116 : ∀ a, (![116] : Fin 1 → Nat) a + S1.size a ≤ S128.size a
  inb_S128x64_S1x64_116_0 : ∀ a, (![116, 0] : Fin 2 → Nat) a + S1x64.size a ≤ S128x64.size a
  inb_S128_S1_117 : ∀ a, (![117] : Fin 1 → Nat) a + S1.size a ≤ S128.size a
  inb_S128x64_S1x64_117_0 : ∀ a, (![117, 0] : Fin 2 → Nat) a + S1x64.size a ≤ S128x64.size a
  inb_S128_S1_118 : ∀ a, (![118] : Fin 1 → Nat) a + S1.size a ≤ S128.size a
  inb_S128x64_S1x64_118_0 : ∀ a, (![118, 0] : Fin 2 → Nat) a + S1x64.size a ≤ S128x64.size a
  inb_S128_S1_119 : ∀ a, (![119] : Fin 1 → Nat) a + S1.size a ≤ S128.size a
  inb_S128x64_S1x64_119_0 : ∀ a, (![119, 0] : Fin 2 → Nat) a + S1x64.size a ≤ S128x64.size a
  inb_S128_S1_120 : ∀ a, (![120] : Fin 1 → Nat) a + S1.size a ≤ S128.size a
  inb_S128x64_S1x64_120_0 : ∀ a, (![120, 0] : Fin 2 → Nat) a + S1x64.size a ≤ S128x64.size a
  inb_S128_S1_121 : ∀ a, (![121] : Fin 1 → Nat) a + S1.size a ≤ S128.size a
  inb_S128x64_S1x64_121_0 : ∀ a, (![121, 0] : Fin 2 → Nat) a + S1x64.size a ≤ S128x64.size a
  inb_S128_S1_122 : ∀ a, (![122] : Fin 1 → Nat) a + S1.size a ≤ S128.size a
  inb_S128x64_S1x64_122_0 : ∀ a, (![122, 0] : Fin 2 → Nat) a + S1x64.size a ≤ S128x64.size a
  inb_S128_S1_123 : ∀ a, (![123] : Fin 1 → Nat) a + S1.size a ≤ S128.size a
  inb_S128x64_S1x64_123_0 : ∀ a, (![123, 0] : Fin 2 → Nat) a + S1x64.size a ≤ S128x64.size a
  inb_S128_S1_124 : ∀ a, (![124] : Fin 1 → Nat) a + S1.size a ≤ S128.size a
  inb_S128x64_S1x64_124_0 : ∀ a, (![124, 0] : Fin 2 → Nat) a + S1x64.size a ≤ S128x64.size a
  inb_S128_S1_125 : ∀ a, (![125] : Fin 1 → Nat) a + S1.size a ≤ S128.size a
  inb_S128x64_S1x64_125_0 : ∀ a, (![125, 0] : Fin 2 → Nat) a + S1x64.size a ≤ S128x64.size a
  inb_S128_S1_126 : ∀ a, (![126] : Fin 1 → Nat) a + S1.size a ≤ S128.size a
  inb_S128x64_S1x64_126_0 : ∀ a, (![126, 0] : Fin 2 → Nat) a + S1x64.size a ≤ S128x64.size a
  inb_S128_S1_127 : ∀ a, (![127] : Fin 1 → Nat) a + S1.size a ≤ S128.size a
  inb_S128x64_S1x64_127_0 : ∀ a, (![127, 0] : Fin 2 → Nat) a + S1x64.size a ≤ S128x64.size a
  inb_S1000000x64_S1x64_0_0 : ∀ a, (![0, 0] : Fin 2 → Nat) a + S1x64.size a ≤ S1000000x64.size a
  inb_S500000x64_S1x64_0_0 : ∀ a, (![0, 0] : Fin 2 → Nat) a + S1x64.size a ≤ S500000x64.size a
  inb_S128x64_S128x64_0_0 : ∀ a, (![0, 0] : Fin 2 → Nat) a + S128x64.size a ≤ S128x64.size a
  h_S128x64 : 0 < S128x64.numel
  reduces_S128x64_S128 : S128x64.Reduces [1] S128
  shapeCasts_S128_S128x1 : S128.ShapeCasts S128x1
  inb_S128x1_S128x1_0_0 : ∀ a, (![0, 0] : Fin 2 → Nat) a + S128x1.size a ≤ S128x1.size a
  h_S128x1 : 0 < S128x1.numel
  shapeCasts_S16384x1_S16384 : S16384x1.ShapeCasts S16384
  reducesTo_S16384_S_d0 : S16384.ReducesTo [0] S_
  h_S_ : 0 < S_.numel
  bcast_S_S16384 : S_.BroadcastsInDim S16384 (![] : Fin 0 → Fin S16384.rank)
  hcc0_scratch3 : 10 + S128.numel ≤ 394
  hcc0_scratch4 : 138 + S128.numel ≤ 394
  hcc0_scratch5 : 266 + S128.numel ≤ 394
  hrank0 : 0 < grid0.rank
  k0_off1_inb : ∀ i : grid0.Coords, ∀ a, (k0_off1 i) a + S1.size a ≤ S16384.size a
  k0_off5_inb : ∀ i : grid0.Coords, ∀ a, (k0_off5 i) a + S1.size a ≤ S16384.size a
  k0_off9_inb : ∀ i : grid0.Coords, ∀ a, (k0_off9 i) a + S1.size a ≤ S16384.size a
  k0_off13_inb : ∀ i : grid0.Coords, ∀ a, (k0_off13 i) a + S1.size a ≤ S16384.size a
  k0_off17_inb : ∀ i : grid0.Coords, ∀ a, (k0_off17 i) a + S1.size a ≤ S16384.size a
  k0_off21_inb : ∀ i : grid0.Coords, ∀ a, (k0_off21 i) a + S1.size a ≤ S16384.size a
  k0_off25_inb : ∀ i : grid0.Coords, ∀ a, (k0_off25 i) a + S1.size a ≤ S16384.size a
  k0_off29_inb : ∀ i : grid0.Coords, ∀ a, (k0_off29 i) a + S1.size a ≤ S16384.size a
  k0_off33_inb : ∀ i : grid0.Coords, ∀ a, (k0_off33 i) a + S1.size a ≤ S16384.size a
  k0_off37_inb : ∀ i : grid0.Coords, ∀ a, (k0_off37 i) a + S1.size a ≤ S16384.size a
  k0_off41_inb : ∀ i : grid0.Coords, ∀ a, (k0_off41 i) a + S1.size a ≤ S16384.size a
  k0_off45_inb : ∀ i : grid0.Coords, ∀ a, (k0_off45 i) a + S1.size a ≤ S16384.size a
  k0_off49_inb : ∀ i : grid0.Coords, ∀ a, (k0_off49 i) a + S1.size a ≤ S16384.size a
  k0_off53_inb : ∀ i : grid0.Coords, ∀ a, (k0_off53 i) a + S1.size a ≤ S16384.size a
  k0_off57_inb : ∀ i : grid0.Coords, ∀ a, (k0_off57 i) a + S1.size a ≤ S16384.size a
  k0_off61_inb : ∀ i : grid0.Coords, ∀ a, (k0_off61 i) a + S1.size a ≤ S16384.size a
  k0_off65_inb : ∀ i : grid0.Coords, ∀ a, (k0_off65 i) a + S1.size a ≤ S16384.size a
  k0_off69_inb : ∀ i : grid0.Coords, ∀ a, (k0_off69 i) a + S1.size a ≤ S16384.size a
  k0_off73_inb : ∀ i : grid0.Coords, ∀ a, (k0_off73 i) a + S1.size a ≤ S16384.size a
  k0_off77_inb : ∀ i : grid0.Coords, ∀ a, (k0_off77 i) a + S1.size a ≤ S16384.size a
  k0_off81_inb : ∀ i : grid0.Coords, ∀ a, (k0_off81 i) a + S1.size a ≤ S16384.size a
  k0_off85_inb : ∀ i : grid0.Coords, ∀ a, (k0_off85 i) a + S1.size a ≤ S16384.size a
  k0_off89_inb : ∀ i : grid0.Coords, ∀ a, (k0_off89 i) a + S1.size a ≤ S16384.size a
  k0_off93_inb : ∀ i : grid0.Coords, ∀ a, (k0_off93 i) a + S1.size a ≤ S16384.size a
  k0_off97_inb : ∀ i : grid0.Coords, ∀ a, (k0_off97 i) a + S1.size a ≤ S16384.size a
  k0_off101_inb : ∀ i : grid0.Coords, ∀ a, (k0_off101 i) a + S1.size a ≤ S16384.size a
  k0_off105_inb : ∀ i : grid0.Coords, ∀ a, (k0_off105 i) a + S1.size a ≤ S16384.size a
  k0_off109_inb : ∀ i : grid0.Coords, ∀ a, (k0_off109 i) a + S1.size a ≤ S16384.size a
  k0_off113_inb : ∀ i : grid0.Coords, ∀ a, (k0_off113 i) a + S1.size a ≤ S16384.size a
  k0_off117_inb : ∀ i : grid0.Coords, ∀ a, (k0_off117 i) a + S1.size a ≤ S16384.size a
  k0_off121_inb : ∀ i : grid0.Coords, ∀ a, (k0_off121 i) a + S1.size a ≤ S16384.size a
  k0_off125_inb : ∀ i : grid0.Coords, ∀ a, (k0_off125 i) a + S1.size a ≤ S16384.size a
  k0_off129_inb : ∀ i : grid0.Coords, ∀ a, (k0_off129 i) a + S1.size a ≤ S16384.size a
  k0_off133_inb : ∀ i : grid0.Coords, ∀ a, (k0_off133 i) a + S1.size a ≤ S16384.size a
  k0_off137_inb : ∀ i : grid0.Coords, ∀ a, (k0_off137 i) a + S1.size a ≤ S16384.size a
  k0_off141_inb : ∀ i : grid0.Coords, ∀ a, (k0_off141 i) a + S1.size a ≤ S16384.size a
  k0_off145_inb : ∀ i : grid0.Coords, ∀ a, (k0_off145 i) a + S1.size a ≤ S16384.size a
  k0_off149_inb : ∀ i : grid0.Coords, ∀ a, (k0_off149 i) a + S1.size a ≤ S16384.size a
  k0_off153_inb : ∀ i : grid0.Coords, ∀ a, (k0_off153 i) a + S1.size a ≤ S16384.size a
  k0_off157_inb : ∀ i : grid0.Coords, ∀ a, (k0_off157 i) a + S1.size a ≤ S16384.size a
  k0_off161_inb : ∀ i : grid0.Coords, ∀ a, (k0_off161 i) a + S1.size a ≤ S16384.size a
  k0_off165_inb : ∀ i : grid0.Coords, ∀ a, (k0_off165 i) a + S1.size a ≤ S16384.size a
  k0_off169_inb : ∀ i : grid0.Coords, ∀ a, (k0_off169 i) a + S1.size a ≤ S16384.size a
  k0_off173_inb : ∀ i : grid0.Coords, ∀ a, (k0_off173 i) a + S1.size a ≤ S16384.size a
  k0_off177_inb : ∀ i : grid0.Coords, ∀ a, (k0_off177 i) a + S1.size a ≤ S16384.size a
  k0_off181_inb : ∀ i : grid0.Coords, ∀ a, (k0_off181 i) a + S1.size a ≤ S16384.size a
  k0_off185_inb : ∀ i : grid0.Coords, ∀ a, (k0_off185 i) a + S1.size a ≤ S16384.size a
  k0_off189_inb : ∀ i : grid0.Coords, ∀ a, (k0_off189 i) a + S1.size a ≤ S16384.size a
  k0_off193_inb : ∀ i : grid0.Coords, ∀ a, (k0_off193 i) a + S1.size a ≤ S16384.size a
  k0_off197_inb : ∀ i : grid0.Coords, ∀ a, (k0_off197 i) a + S1.size a ≤ S16384.size a
  k0_off201_inb : ∀ i : grid0.Coords, ∀ a, (k0_off201 i) a + S1.size a ≤ S16384.size a
  k0_off205_inb : ∀ i : grid0.Coords, ∀ a, (k0_off205 i) a + S1.size a ≤ S16384.size a
  k0_off209_inb : ∀ i : grid0.Coords, ∀ a, (k0_off209 i) a + S1.size a ≤ S16384.size a
  k0_off213_inb : ∀ i : grid0.Coords, ∀ a, (k0_off213 i) a + S1.size a ≤ S16384.size a
  k0_off217_inb : ∀ i : grid0.Coords, ∀ a, (k0_off217 i) a + S1.size a ≤ S16384.size a
  k0_off221_inb : ∀ i : grid0.Coords, ∀ a, (k0_off221 i) a + S1.size a ≤ S16384.size a
  k0_off225_inb : ∀ i : grid0.Coords, ∀ a, (k0_off225 i) a + S1.size a ≤ S16384.size a
  k0_off229_inb : ∀ i : grid0.Coords, ∀ a, (k0_off229 i) a + S1.size a ≤ S16384.size a
  k0_off233_inb : ∀ i : grid0.Coords, ∀ a, (k0_off233 i) a + S1.size a ≤ S16384.size a
  k0_off237_inb : ∀ i : grid0.Coords, ∀ a, (k0_off237 i) a + S1.size a ≤ S16384.size a
  k0_off241_inb : ∀ i : grid0.Coords, ∀ a, (k0_off241 i) a + S1.size a ≤ S16384.size a
  k0_off245_inb : ∀ i : grid0.Coords, ∀ a, (k0_off245 i) a + S1.size a ≤ S16384.size a
  k0_off249_inb : ∀ i : grid0.Coords, ∀ a, (k0_off249 i) a + S1.size a ≤ S16384.size a
  k0_off253_inb : ∀ i : grid0.Coords, ∀ a, (k0_off253 i) a + S1.size a ≤ S16384.size a
  k0_off257_inb : ∀ i : grid0.Coords, ∀ a, (k0_off257 i) a + S1.size a ≤ S16384.size a
  k0_off261_inb : ∀ i : grid0.Coords, ∀ a, (k0_off261 i) a + S1.size a ≤ S16384.size a
  k0_off265_inb : ∀ i : grid0.Coords, ∀ a, (k0_off265 i) a + S1.size a ≤ S16384.size a
  k0_off269_inb : ∀ i : grid0.Coords, ∀ a, (k0_off269 i) a + S1.size a ≤ S16384.size a
  k0_off273_inb : ∀ i : grid0.Coords, ∀ a, (k0_off273 i) a + S1.size a ≤ S16384.size a
  k0_off277_inb : ∀ i : grid0.Coords, ∀ a, (k0_off277 i) a + S1.size a ≤ S16384.size a
  k0_off281_inb : ∀ i : grid0.Coords, ∀ a, (k0_off281 i) a + S1.size a ≤ S16384.size a
  k0_off285_inb : ∀ i : grid0.Coords, ∀ a, (k0_off285 i) a + S1.size a ≤ S16384.size a
  k0_off289_inb : ∀ i : grid0.Coords, ∀ a, (k0_off289 i) a + S1.size a ≤ S16384.size a
  k0_off293_inb : ∀ i : grid0.Coords, ∀ a, (k0_off293 i) a + S1.size a ≤ S16384.size a
  k0_off297_inb : ∀ i : grid0.Coords, ∀ a, (k0_off297 i) a + S1.size a ≤ S16384.size a
  k0_off301_inb : ∀ i : grid0.Coords, ∀ a, (k0_off301 i) a + S1.size a ≤ S16384.size a
  k0_off305_inb : ∀ i : grid0.Coords, ∀ a, (k0_off305 i) a + S1.size a ≤ S16384.size a
  k0_off309_inb : ∀ i : grid0.Coords, ∀ a, (k0_off309 i) a + S1.size a ≤ S16384.size a
  k0_off313_inb : ∀ i : grid0.Coords, ∀ a, (k0_off313 i) a + S1.size a ≤ S16384.size a
  k0_off317_inb : ∀ i : grid0.Coords, ∀ a, (k0_off317 i) a + S1.size a ≤ S16384.size a
  k0_off321_inb : ∀ i : grid0.Coords, ∀ a, (k0_off321 i) a + S1.size a ≤ S16384.size a
  k0_off325_inb : ∀ i : grid0.Coords, ∀ a, (k0_off325 i) a + S1.size a ≤ S16384.size a
  k0_off329_inb : ∀ i : grid0.Coords, ∀ a, (k0_off329 i) a + S1.size a ≤ S16384.size a
  k0_off333_inb : ∀ i : grid0.Coords, ∀ a, (k0_off333 i) a + S1.size a ≤ S16384.size a
  k0_off337_inb : ∀ i : grid0.Coords, ∀ a, (k0_off337 i) a + S1.size a ≤ S16384.size a
  k0_off341_inb : ∀ i : grid0.Coords, ∀ a, (k0_off341 i) a + S1.size a ≤ S16384.size a
  k0_off345_inb : ∀ i : grid0.Coords, ∀ a, (k0_off345 i) a + S1.size a ≤ S16384.size a
  k0_off349_inb : ∀ i : grid0.Coords, ∀ a, (k0_off349 i) a + S1.size a ≤ S16384.size a
  k0_off353_inb : ∀ i : grid0.Coords, ∀ a, (k0_off353 i) a + S1.size a ≤ S16384.size a
  k0_off357_inb : ∀ i : grid0.Coords, ∀ a, (k0_off357 i) a + S1.size a ≤ S16384.size a
  k0_off361_inb : ∀ i : grid0.Coords, ∀ a, (k0_off361 i) a + S1.size a ≤ S16384.size a
  k0_off365_inb : ∀ i : grid0.Coords, ∀ a, (k0_off365 i) a + S1.size a ≤ S16384.size a
  k0_off369_inb : ∀ i : grid0.Coords, ∀ a, (k0_off369 i) a + S1.size a ≤ S16384.size a
  k0_off373_inb : ∀ i : grid0.Coords, ∀ a, (k0_off373 i) a + S1.size a ≤ S16384.size a
  k0_off377_inb : ∀ i : grid0.Coords, ∀ a, (k0_off377 i) a + S1.size a ≤ S16384.size a
  k0_off381_inb : ∀ i : grid0.Coords, ∀ a, (k0_off381 i) a + S1.size a ≤ S16384.size a
  k0_off385_inb : ∀ i : grid0.Coords, ∀ a, (k0_off385 i) a + S1.size a ≤ S16384.size a
  k0_off389_inb : ∀ i : grid0.Coords, ∀ a, (k0_off389 i) a + S1.size a ≤ S16384.size a
  k0_off393_inb : ∀ i : grid0.Coords, ∀ a, (k0_off393 i) a + S1.size a ≤ S16384.size a
  k0_off397_inb : ∀ i : grid0.Coords, ∀ a, (k0_off397 i) a + S1.size a ≤ S16384.size a
  k0_off401_inb : ∀ i : grid0.Coords, ∀ a, (k0_off401 i) a + S1.size a ≤ S16384.size a
  k0_off405_inb : ∀ i : grid0.Coords, ∀ a, (k0_off405 i) a + S1.size a ≤ S16384.size a
  k0_off409_inb : ∀ i : grid0.Coords, ∀ a, (k0_off409 i) a + S1.size a ≤ S16384.size a
  k0_off413_inb : ∀ i : grid0.Coords, ∀ a, (k0_off413 i) a + S1.size a ≤ S16384.size a
  k0_off417_inb : ∀ i : grid0.Coords, ∀ a, (k0_off417 i) a + S1.size a ≤ S16384.size a
  k0_off421_inb : ∀ i : grid0.Coords, ∀ a, (k0_off421 i) a + S1.size a ≤ S16384.size a
  k0_off425_inb : ∀ i : grid0.Coords, ∀ a, (k0_off425 i) a + S1.size a ≤ S16384.size a
  k0_off429_inb : ∀ i : grid0.Coords, ∀ a, (k0_off429 i) a + S1.size a ≤ S16384.size a
  k0_off433_inb : ∀ i : grid0.Coords, ∀ a, (k0_off433 i) a + S1.size a ≤ S16384.size a
  k0_off437_inb : ∀ i : grid0.Coords, ∀ a, (k0_off437 i) a + S1.size a ≤ S16384.size a
  k0_off441_inb : ∀ i : grid0.Coords, ∀ a, (k0_off441 i) a + S1.size a ≤ S16384.size a
  k0_off445_inb : ∀ i : grid0.Coords, ∀ a, (k0_off445 i) a + S1.size a ≤ S16384.size a
  k0_off449_inb : ∀ i : grid0.Coords, ∀ a, (k0_off449 i) a + S1.size a ≤ S16384.size a
  k0_off453_inb : ∀ i : grid0.Coords, ∀ a, (k0_off453 i) a + S1.size a ≤ S16384.size a
  k0_off457_inb : ∀ i : grid0.Coords, ∀ a, (k0_off457 i) a + S1.size a ≤ S16384.size a
  k0_off461_inb : ∀ i : grid0.Coords, ∀ a, (k0_off461 i) a + S1.size a ≤ S16384.size a
  k0_off465_inb : ∀ i : grid0.Coords, ∀ a, (k0_off465 i) a + S1.size a ≤ S16384.size a
  k0_off469_inb : ∀ i : grid0.Coords, ∀ a, (k0_off469 i) a + S1.size a ≤ S16384.size a
  k0_off473_inb : ∀ i : grid0.Coords, ∀ a, (k0_off473 i) a + S1.size a ≤ S16384.size a
  k0_off477_inb : ∀ i : grid0.Coords, ∀ a, (k0_off477 i) a + S1.size a ≤ S16384.size a
  k0_off481_inb : ∀ i : grid0.Coords, ∀ a, (k0_off481 i) a + S1.size a ≤ S16384.size a
  k0_off485_inb : ∀ i : grid0.Coords, ∀ a, (k0_off485 i) a + S1.size a ≤ S16384.size a
  k0_off489_inb : ∀ i : grid0.Coords, ∀ a, (k0_off489 i) a + S1.size a ≤ S16384.size a
  k0_off493_inb : ∀ i : grid0.Coords, ∀ a, (k0_off493 i) a + S1.size a ≤ S16384.size a
  k0_off497_inb : ∀ i : grid0.Coords, ∀ a, (k0_off497 i) a + S1.size a ≤ S16384.size a
  k0_off501_inb : ∀ i : grid0.Coords, ∀ a, (k0_off501 i) a + S1.size a ≤ S16384.size a
  k0_off505_inb : ∀ i : grid0.Coords, ∀ a, (k0_off505 i) a + S1.size a ≤ S16384.size a
  k0_off509_inb : ∀ i : grid0.Coords, ∀ a, (k0_off509 i) a + S1.size a ≤ S16384.size a
  hstage0_0 : ∀ j, (stage0_0 j).IsWhole
  nbuf0_0 : grid0.bufCount reads0_0 false = 2
  hreads0_0 : ∀ i i' : grid0.Coords, (∀ a, reads0_0 a = true → i a = i' a) → cc0_transform_2 i = cc0_transform_2 i'
  hinb0_0 : ∀ (i : grid0.Coords) a, (cc0_transform_2 i a + 1) * S128x1.size a ≤ S16384x1.size a
  hwx0_0 : ∀ i : grid0.Coords, EltTy.bits .f32 = 32 ∨ (Rect.block (s := S16384x1) S128x1.size (cc0_transform_2 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_3 i = cc0_transform_3 i'
  hinb0_1 : ∀ (i : grid0.Coords) a, (cc0_transform_3 i a + 1) * S128x1.size a ≤ S16384x1.size a
  hwx0_1 : ∀ i : grid0.Coords, EltTy.bits .f32 = 32 ∨ (Rect.block (s := S16384x1) S128x1.size (cc0_transform_3 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_4 i = cc0_transform_4 i'
  hinb0_2 : ∀ (i : grid0.Coords) a, (cc0_transform_4 i a + 1) * S128x1.size a ≤ S16384x1.size a
  hwx0_2 : ∀ i : grid0.Coords, EltTy.bits .f32 = 32 ∨ (Rect.block (s := S16384x1) S128x1.size (cc0_transform_4 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_5 i = cc0_transform_5 i'
  hinb0_3 : ∀ (i : grid0.Coords) a, (cc0_transform_5 i a + 1) * S128x1.size a ≤ S16384x1.size a
  hwx0_3 : ∀ i : grid0.Coords, EltTy.bits .f32 = 32 ∨ (Rect.block (s := S16384x1) S128x1.size (cc0_transform_5 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_6 i = cc0_transform_6 i'
  hinb0_4 : ∀ (i : grid0.Coords) a, (cc0_transform_6 i a + 1) * S128x1.size a ≤ S16384x1.size a
  hwx0_4 : ∀ i : grid0.Coords, EltTy.bits .f32 = 32 ∨ (Rect.block (s := S16384x1) S128x1.size (cc0_transform_6 i) (hinb0_4 i)).WholeWords (EltTy.packing .f32)

variable [Facts₀]

abbrev cc0_scratch3 : DmaSems sig S128 := SemArray.consecutive 10 S128 hcc0_scratch3
abbrev cc0_scratch4 : DmaSems sig S128 := SemArray.consecutive 138 S128 hcc0_scratch4
abbrev cc0_scratch5 : DmaSems sig S128 := SemArray.consecutive 266 S128 hcc0_scratch5

abbrev spec0_0 : Pipeline.WinSpec sig grid0.rank :=
  Pipeline.WinSpec.ofSpec (Memref.whole main_v0_0) S128x1.size reads0_0 true false 2 stage0_0 sem0_0 nbuf0_0 hstage0_0

abbrev spec0_1 : Pipeline.WinSpec sig grid0.rank :=
  Pipeline.WinSpec.ofSpec (Memref.whole main_v0_1) S128x1.size reads0_1 true false 2 stage0_1 sem0_1 nbuf0_1 hstage0_1

abbrev spec0_2 : Pipeline.WinSpec sig grid0.rank :=
  Pipeline.WinSpec.ofSpec (Memref.whole main_v0_2) S128x1.size reads0_2 true false 2 stage0_2 sem0_2 nbuf0_2 hstage0_2

abbrev spec0_3 : Pipeline.WinSpec sig grid0.rank :=
  Pipeline.WinSpec.ofSpec (Memref.whole main_v0_3) S128x1.size reads0_3 true false 2 stage0_3 sem0_3 nbuf0_3 hstage0_3

abbrev spec0_4 : Pipeline.WinSpec sig grid0.rank :=
  Pipeline.WinSpec.ofSpec (Memref.whole main_v0_4) S128x1.size reads0_4 true false 2 stage0_4 sem0_4 nbuf0_4 hstage0_4

abbrev spec0 : Fin 5 → Pipeline.WinSpec sig grid0.rank := fun | 0 => spec0_0 | 1 => spec0_1 | 2 => spec0_2 | 3 => spec0_3 | 4 => spec0_4 | ⟨_ + 5, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | 3 => nbuf0_3 | 4 => nbuf0_4 | ⟨_ + 5, h⟩ => absurd h (Nat.not_lt.2 (Nat.le_add_left _ _))
abbrev ix0 (pf : pre0.Contents (Elt F)) : (w : Fin 5) → grid0.Coords → Fin (spec0 w).shape.rank → Nat := fun | 0 => cc0_transform_2 | 1 => cc0_transform_3 | 2 => cc0_transform_4 | 3 => cc0_transform_5 | 4 => cc0_transform_6 | ⟨_ + 5, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 | 2 => hreads0_2 | 3 => hreads0_3 | 4 => hreads0_4 | ⟨_ + 5, h⟩ => absurd h (Nat.not_lt.2 (Nat.le_add_left _ _))
def ok0 (_ : pre0.Contents (Elt F)) : Prop :=
  True
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun _ _ => fun | 0 => hinb0_0 | 1 => hinb0_1 | 2 => hinb0_2 | 3 => hinb0_3 | 4 => hinb0_4 | ⟨_ + 5, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun _ _ => fun | 0 => hwx0_0 | 1 => hwx0_1 | 2 => hwx0_2 | 3 => hwx0_3 | 4 => hwx0_4 | ⟨_ + 5, h⟩ => absurd h (Nat.not_lt.2 (Nat.le_add_left _ _))

class Facts : Prop extends Facts₀ where
  harr0 : ∀ w, (spec0 w).arr.IsWhole

variable [Facts]
-- ==== ReferenceIdeal.lean ====
abbrev S1000000x64 : Shape := ⟨2, ![1000000, 64]⟩
abbrev S500000x64 : Shape := ⟨2, ![500000, 64]⟩
abbrev S16384 : Shape := ⟨1, ![16384]⟩
abbrev S_ : Shape := ⟨0, ![]⟩
abbrev S16384x1 : Shape := ⟨2, ![16384, 1]⟩
abbrev S16384x64 : Shape := ⟨2, ![16384, 64]⟩

abbrev nBuf : Space → Nat
  | .hbm => 73
  | .vmem => 0
  | .smem => 0
  | _ => 0

abbrev bufTy : (tb : Table) → Fin (tcTables nBuf tb) → BufTy
  | .hbm, ⟨0, _⟩ => ⟨S1000000x64, .f32⟩
  | .hbm, ⟨1, _⟩ => ⟨S500000x64, .f32⟩
  | .hbm, ⟨2, _⟩ => ⟨S16384, .i32⟩
  | .hbm, ⟨3, _⟩ => ⟨S16384, .i32⟩
  | .hbm, ⟨4, _⟩ => ⟨S16384, .i32⟩
  | .hbm, ⟨5, _⟩ => ⟨S_, .i32⟩
  | .hbm, ⟨6, _⟩ => ⟨S16384, .i32⟩
  | .hbm, ⟨7, _⟩ => ⟨S16384, .i1⟩
  | .hbm, ⟨8, _⟩ => ⟨S_, .i32⟩
  | .hbm, ⟨9, _⟩ => ⟨S16384, .i32⟩
  | .hbm, ⟨10, _⟩ => ⟨S16384, .i32⟩
  | .hbm, ⟨11, _⟩ => ⟨S16384, .i32⟩
  | .hbm, ⟨12, _⟩ => ⟨S16384x1, .i32⟩
  | .hbm, ⟨13, _⟩ => ⟨S16384x64, .f32⟩
  | .hbm, ⟨14, _⟩ => ⟨S_, .i32⟩
  | .hbm, ⟨15, _⟩ => ⟨S16384, .i32⟩
  | .hbm, ⟨16, _⟩ => ⟨S16384, .i1⟩
  | .hbm, ⟨17, _⟩ => ⟨S_, .i32⟩
  | .hbm, ⟨18, _⟩ => ⟨S16384, .i32⟩
  | .hbm, ⟨19, _⟩ => ⟨S16384, .i32⟩
  | .hbm, ⟨20, _⟩ => ⟨S16384, .i32⟩
  | .hbm, ⟨21, _⟩ => ⟨S16384x1, .i32⟩
  | .hbm, ⟨22, _⟩ => ⟨S16384x64, .f32⟩
  | .hbm, ⟨23, _⟩ => ⟨S_, .i32⟩
  | .hbm, ⟨24, _⟩ => ⟨S16384, .i32⟩
  | .hbm, ⟨25, _⟩ => ⟨S16384, .i1⟩
  | .hbm, ⟨26, _⟩ => ⟨S_, .i32⟩
  | .hbm, ⟨27, _⟩ => ⟨S16384, .i32⟩
  | .hbm, ⟨28, _⟩ => ⟨S16384, .i32⟩
  | .hbm, ⟨29, _⟩ => ⟨S16384, .i32⟩
  | .hbm, ⟨30, _⟩ => ⟨S16384x1, .i32⟩
  | .hbm, ⟨31, _⟩ => ⟨S16384x64, .f32⟩
  | .hbm, ⟨32, _⟩ => ⟨S16384x64, .f32⟩
  | .hbm, ⟨33, _⟩ => ⟨S_, .f32⟩
  | .hbm, ⟨34, _⟩ => ⟨S16384, .f32⟩
  | .hbm, ⟨35, _⟩ => ⟨S16384x64, .f32⟩
  | .hbm, ⟨36, _⟩ => ⟨S_, .f32⟩
  | .hbm, ⟨37, _⟩ => ⟨S16384, .f32⟩
  | .hbm, ⟨38, _⟩ => ⟨S16384x64, .f32⟩
  | .hbm, ⟨39, _⟩ => ⟨S_, .f32⟩
  | .hbm, ⟨40, _⟩ => ⟨S_, .f32⟩
  | .hbm, ⟨41, _⟩ => ⟨S16384x64, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S16384x64, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S16384, .f32⟩
  | .hbm, ⟨52, _⟩ => ⟨S16384, .f32⟩
  | .hbm, ⟨53, _⟩ => ⟨S_, .f32⟩
  | .hbm, ⟨54, _⟩ => ⟨S16384, .f32⟩
  | .hbm, ⟨55, _⟩ => ⟨S16384, .f32⟩
  | .hbm, ⟨56, _⟩ => ⟨S16384, .f32⟩
  | .hbm, ⟨57, _⟩ => ⟨S16384, .f32⟩
  | .hbm, ⟨58, _⟩ => ⟨S16384, .i1⟩
  | .hbm, ⟨59, _⟩ => ⟨S16384, .f32⟩
  | .hbm, ⟨60, _⟩ => ⟨S16384, .f32⟩
  | .hbm, ⟨61, _⟩ => ⟨S16384, .f32⟩
  | .hbm, ⟨62, _⟩ => ⟨S16384, .f32⟩
  | .hbm, ⟨63, _⟩ => ⟨S16384, .f32⟩
  | .hbm, ⟨64, _⟩ => ⟨S16384, .f32⟩
  | .hbm, ⟨65, _⟩ => ⟨S16384, .f32⟩
  | .hbm, ⟨66, _⟩ => ⟨S16384, .f32⟩
  | .hbm, ⟨67, _⟩ => ⟨S16384, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | _, _ => ⟨S1000000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c_1 : Ref sig .tc := ⟨.hbm, 14, rfl⟩
abbrev main_v7 : Ref sig .tc := ⟨.hbm, 15, rfl⟩
abbrev main_v8 : Ref sig .tc := ⟨.hbm, 16, rfl⟩
abbrev main_c_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_c_3 : Ref sig .tc := ⟨.hbm, 23, rfl⟩
abbrev main_v14 : Ref sig .tc := ⟨.hbm, 24, rfl⟩
abbrev main_v15 : Ref sig .tc := ⟨.hbm, 25, rfl⟩
abbrev main_c_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst : Ref sig .tc := ⟨.hbm, 33, rfl⟩
abbrev main_v22 : Ref sig .tc := ⟨.hbm, 34, rfl⟩
abbrev main_v23 : Ref sig .tc := ⟨.hbm, 35, rfl⟩
abbrev main_cst_5 : Ref sig .tc := ⟨.hbm, 36, rfl⟩
abbrev main_v24 : Ref sig .tc := ⟨.hbm, 37, rfl⟩
abbrev main_v25 : Ref sig .tc := ⟨.hbm, 38, rfl⟩
abbrev main_cst_6 : Ref sig .tc := ⟨.hbm, 39, rfl⟩
abbrev main_v26 : Ref sig .tc := ⟨.hbm, 40, rfl⟩
abbrev main_v27 : Ref sig .tc := ⟨.hbm, 41, rfl⟩
abbrev main_cst_7 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_8 : Ref sig .tc := ⟨.hbm, 46, rfl⟩
abbrev main_v31 : Ref sig .tc := ⟨.hbm, 47, rfl⟩
abbrev main_v32 : Ref sig .tc := ⟨.hbm, 48, rfl⟩
abbrev main_cst_9 : Ref sig .tc := ⟨.hbm, 49, rfl⟩
abbrev main_v33 : Ref sig .tc := ⟨.hbm, 50, rfl⟩
abbrev main_v34 : Ref sig .tc := ⟨.hbm, 51, rfl⟩
abbrev main_call0_v0 : Ref sig .tc := ⟨.hbm, 52, rfl⟩
abbrev main_call0_call0_cst : Ref sig .tc := ⟨.hbm, 53, rfl⟩
abbrev main_call0_call0_v0 : Ref sig .tc := ⟨.hbm, 54, rfl⟩
abbrev main_call0_call0_v1 : Ref sig .tc := ⟨.hbm, 55, rfl⟩
abbrev main_call0_call0_v2 : Ref sig .tc := ⟨.hbm, 56, rfl⟩
abbrev main_call0_call0_v3 : Ref sig .tc := ⟨.hbm, 57, rfl⟩
abbrev main_call0_call0_v4 : Ref sig .tc := ⟨.hbm, 58, rfl⟩
abbrev main_call0_call0_v5 : Ref sig .tc := ⟨.hbm, 59, rfl⟩
abbrev main_call0_call0_v6 : Ref sig .tc := ⟨.hbm, 60, rfl⟩
abbrev main_call0_call0_v7 : Ref sig .tc := ⟨.hbm, 61, rfl⟩
abbrev main_call0_call0_v8 : Ref sig .tc := ⟨.hbm, 62, rfl⟩
abbrev main_call0_call0_v9 : Ref sig .tc := ⟨.hbm, 63, rfl⟩
abbrev main_call0_call0_v10 : Ref sig .tc := ⟨.hbm, 64, rfl⟩
abbrev main_call0_call0_v11 : Ref sig .tc := ⟨.hbm, 65, rfl⟩
abbrev main_call0_v1 : Ref sig .tc := ⟨.hbm, 66, rfl⟩
abbrev main_v35 : Ref sig .tc := ⟨.hbm, 67, rfl⟩
abbrev main_cst_10 : Ref sig .tc := ⟨.hbm, 68, rfl⟩
abbrev main_v36 : Ref sig .tc := ⟨.hbm, 69, rfl⟩
abbrev main_cst_11 : Ref sig .tc := ⟨.hbm, 70, rfl⟩
abbrev main_v37 : Ref sig .tc := ⟨.hbm, 71, rfl⟩
abbrev main_v38 : Ref sig .tc := ⟨.hbm, 72, rfl⟩

abbrev nD : Nat := 1
abbrev τ : Topo := Topo.v7x

variable {F : FTy → Type} [FloatOps F]

class Facts₀ : Prop where
  bcast_S_S16384 : S_.BroadcastsInDim S16384 (![] : Fin 0 → Fin S16384.rank)
  bcast_S16384_S16384x1_0 : S16384.BroadcastsInDim S16384x1 (![0] : Fin 1 → Fin S16384x1.rank)
  reducesTo_S16384x64_S16384_d1 : S16384x64.ReducesTo [1] S16384
  h_S_ : 0 < S_.numel
  reducesTo_S16384x64_S_d0_1 : S16384x64.ReducesTo [0, 1] S_
  reducesTo_S16384_S_d0 : S16384.ReducesTo [0] S_
  gather_S1000000x64_S16384x1_S16384x64_1_0_n_n_0_1_164_wf : GatherDims.WF S1000000x64 S16384x1 S16384x64 [1] [0] [] [0] [] 1 ![1, 64]
  gather_S500000x64_S16384x1_S16384x64_1_0_n_n_0_1_164_wf : GatherDims.WF S500000x64 S16384x1 S16384x64 [1] [0] [] [0] [] 1 ![1, 64]

variable [Facts₀]

def gather_S1000000x64_S16384x1_S16384x64_1_0_n_n_0_1_164 : GatherDims S1000000x64 S16384x1 S16384x64 where
  offsetDims := [1]
  collapsedSliceDims := [0]
  operandBatchingDims := []
  startIndicesBatchingDims := []
  startIndexMap := [0]
  indexVectorDim := 1
  sliceSizes := ![1, 64]
  wf := gather_S1000000x64_S16384x1_S16384x64_1_0_n_n_0_1_164_wf
def gather_S500000x64_S16384x1_S16384x64_1_0_n_n_0_1_164 : GatherDims S500000x64 S16384x1 S16384x64 where
  offsetDims := [1]
  collapsedSliceDims := [0]
  operandBatchingDims := []
  startIndicesBatchingDims := []
  startIndexMap := [0]
  indexVectorDim := 1
  sliceSizes := ![1, 64]
  wf := gather_S500000x64_S16384x1_S16384x64_1_0_n_n_0_1_164_wf

class Facts : Prop extends Facts₀ where

variable [Facts]
-- ==== Proof.PreRange.lean ====
import proofs.«414929_j28089086116333_1_alg».proof.Pre_finite_inputs
import proofs.«414929_j28089086116333_1_alg».proof.Proof.Gen.Pre_finite_inputs
import Idealize.ShloMosaic.Lib.ReduceAll
import Idealize.ShloMosaic.Lib.StableHlo.Predicate
import Idealize.ShloMosaic.Lib.ValueIdx

/-!
  The precondition read back. The printed predicate is the conjunction of five `i1` scalars: two
  "every entry is finite" tests of the float tables, and, for each of the three index vectors `x`,
  the test `all (0 ≤ x ∧ x < n)` with both comparisons signed. From "the predicate is 1" this
  module draws, for each index vector, the arithmetic fact the tests were written to state: every
  entry, read as an unsigned number, is below `n`.
-/

namespace Cert.PreRange

open Idealize.ShloMosaic

/-- The scalar shape has exactly one index. -/
instance : Subsingleton Cert.Pre_finite_inputs.S_.Idx := ⟨fun _ _ => funext fun d => d.elim0⟩

/-- A 32-bit word that is nonnegative when read signed, and, read signed, below a literal `n < 2³¹`,
    is below `n` when read unsigned: a nonnegative signed reading is the unsigned reading. -/
theorem toNat_lt_of_signed {x : BitVec 32} (n : Nat) (hn : n < 2 ^ 31)
    (h0 : IntOp.cmpi .sge x 0#32 = 1#1) (h1 : IntOp.cmpi .slt x (BitVec.ofNat 32 n) = 1#1) : x.toNat < n := by
  rw [IntOp.cmpi_sge, show (0#32 : BitVec 32).toInt = 0 from by decide] at h0
  rw [IntOp.cmpi_slt, StableHlo.Predicate.toInt_ofNat_small n hn] at h1
  have hx := x.isLt
  rw [BitVec.toInt_eq_toNat_cond] at h0 h1
  split at h0 <;> omega

/-- One index conjunct: if the `and`-reduction, over all 16384 entries, of a mask that at every entry `g` is
    `(0 ≤ x g) ∧ (x g < n)` (signed) came out 1, then every entry of `x` is, unsigned, below `n`. -/
theorem lt_of_all {p : IVec Cert.Pre_finite_inputs.S16384 1} {init : IVec Cert.Pre_finite_inputs.S_ 1}
    (x : IVec Cert.Pre_finite_inputs.S16384 32) (n : Nat) (hn : n < 2 ^ 31)
    (hr : Cert.Pre_finite_inputs.S16384.ReducesTo [0] Cert.Pre_finite_inputs.S_)
    (hu : 0 < Cert.Pre_finite_inputs.S_.numel) (j : Cert.Pre_finite_inputs.S_.Idx)
    (hp : ∀ g, p g = IntOp.andi (IntOp.cmpi .sge (x g) 0#32) (IntOp.cmpi .slt (x g) (BitVec.ofNat 32 n)))
    (e : Host.reduce IntOp.andi p init hr hu j = 1#1) (g : Cert.Pre_finite_inputs.S16384.Idx) : (x g).toNat < n := by
  have hg := Host.reduce_andi_all p init hr hu j e g
  rw [hp, IntOp.andi_eq_one] at hg
  exact toNat_lt_of_signed n hn hg.1 hg.2

/-- The vector `and` at an index is the `and` of the two words there. -/
theorem andi_apply {s : Shape} {w : Nat} (a b : IVec s w) (k : s.Idx) : andi a b k = IntOp.andi (a k) (b k) := rfl

/-- THE PRECONDITION DECODED: each of the three index vectors has all its entries, read unsigned, below the number
    of rows of the table it indexes. (The two finiteness conjuncts are split off and not used.) -/
theorem range_of_pre {F : FTy → Type} [FloatOps F] [hP : Cert.Pre_finite_inputs.Facts]
    (A0 : FVec F Cert.Pre_finite_inputs.S1000000x64 .f32) (A1 : FVec F Cert.Pre_finite_inputs.S500000x64 .f32)
    (u i j : IVec Cert.Pre_finite_inputs.S16384 32)
    (h : Cert.Pre_finite_inputs.fn (F := F) A0 A1 u i j = fun _ => 1#1) :
    (∀ g : Cert.Pre_finite_inputs.S16384.Idx, (u g).toNat < 1000000)
    ∧ (∀ g : Cert.Pre_finite_inputs.S16384.Idx, (i g).toNat < 500000)
    ∧ (∀ g : Cert.Pre_finite_inputs.S16384.Idx, (j g).toNat < 500000) := by
  have h0 := congrFun h ValueIdx.ix0
  dsimp only [Cert.Pre_finite_inputs.fn, Cert.Pre_finite_inputs.fn_part1] at h0
  simp only [andi_apply, IntOp.andi_eq_one] at h0
  obtain ⟨⟨⟨_, hu⟩, hi⟩, hj⟩ := h0
  exact ⟨lt_of_all u 1000000 (by omega) _ _ _ (fun _ => rfl) hu,
    lt_of_all i 500000 (by omega) _ _ _ (fun _ => rfl) hi,
    lt_of_all j 500000 (by omega) _ _ _ (fun _ => rfl) hj⟩

end Cert.PreRange
-- ==== Proof.KOps.lean ====
/-
  The operands the kernel body is handed besides its five result windows, named once: the three index tables
  (prefetched into scalar memory), the two data tables left in main memory, the three scratch buffers; and how each
  is held while the body runs — an index table at half the full share (read only; the pipeline keeps the other half),
  a data table whole.
-/
import proofs.«414929_j28089086116333_1_alg».proof.Proof.Gen.Kernel.Launch
import proofs.«414929_j28089086116333_1_alg».proof.Proof.Gen.Kernel.Skeleton
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The operands the body is handed besides its windows -/

/-- The three index tables and the two data tables, whole buffers. -/
abbrev tbM0 : Memref sig .tc .smem S16384 .i32 := Memref.whole main_arg2
abbrev tbM1 : Memref sig .tc .smem S16384 .i32 := Memref.whole main_arg3
abbrev tbM2 : Memref sig .tc .smem S16384 .i32 := Memref.whole main_arg4
abbrev hbM0 : Memref sig .tc .hbm S1000000x64 .f32 := Memref.whole main_arg0
abbrev hbM1 : Memref sig .tc .hbm S500000x64 .f32 := Memref.whole main_arg1
/-- The three scratch buffers. -/
abbrev scM0 : Memref sig .tc .vmem S128x64 .f32 := Memref.whole cc0_scratch0
abbrev scM1 : Memref sig .tc .vmem S128x64 .f32 := Memref.whole cc0_scratch1
abbrev scM2 : Memref sig .tc .vmem S128x64 .f32 := Memref.whole cc0_scratch2

/-- A memref's buffer on core `c`: its contents type; an index table held at half the full share (read only: the
    pipeline keeps the other half), a data table held whole. -/
abbrev BufOf (c : Dev nD) {sp : Space} {S : Shape} {e : EltTy} (M : Memref sig .tc sp S e) : Type := Buf (Elt F) (M.view.loc (c : Thread nD τ))
abbrev tbPt (c : Dev nD) {S : Shape} {e : EltTy} (M : Memref sig .tc .smem S e) (f : BufOf (F := F) c M) : sProp 𝕄 :=
  M.view.loc (c : Thread nD τ) ↦{fullShare.right} f
abbrev hbPt (c : Dev nD) {sp : Space} {S : Shape} {e : EltTy} (M : Memref sig .tc sp S e) (f : BufOf (F := F) c M) : sProp 𝕄 :=
  M.view.loc (c : Thread nD τ) ↦{fullShare} f

end Cert.Kernel.Hand

end
-- ==== Proof.KTok.lean ====
/-
  One array read by many copies at once.

  A buffer held whole can be split into a remainder and any number `k` of READ TOKENS, each a share of the whole
  buffer at the same contents, and joined back.  A copy in flight borrows the token numbered by the semaphore cell it
  completes on, and returns it when it is waited for; so `k` copies out of one table may be in flight together.  Here the
  split is restated as an explicit chain `token (k−1) ∗ … ∗ token 0`, the form in which the tokens can be named one by one.
-/
import proofs.«414929_j28089086116333_1_alg».proof.Proof.KOps
import Idealize.ShloMosaic.Lib.Transfers

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.Sem

variable {F : FTy → Type} [FloatOps F]

local notation "𝕄" => MT nD τ sig Unit (Elt F) ℕ (Pipeline.UD sig nD τ) ℕ

/-- The separating chain `Φ (k − 1) ∗ … ∗ Φ 1 ∗ Φ 0`. -/
def chainDown (Φ : ℕ → sProp 𝕄) : ℕ → sProp 𝕄
  | 0 => BI.emp
  | 1 => Φ 0
  | k + 2 => iprop(Φ (k + 1) ∗ chainDown Φ (k + 1))

/-- The separating conjunction over `0, …, k − 1` is that chain. -/
theorem bigSep_range_eq_chainDown (Φ : ℕ → sProp 𝕄) : ∀ k, bigSep (Finset.range k) Φ = chainDown Φ k
  | 0 => by rw [Finset.range_zero, bigSep_empty]; rfl
  | 1 => by rw [Finset.range_one, bigSep_singleton]; rfl
  | k + 2 => by
    rw [Finset.range_add_one, bigSep_insert Finset.notMem_range_self, bigSep_range_eq_chainDown Φ (k + 1)]; rfl

/-- A buffer held whole is the remainder after `k` read tokens together with the `k` tokens, as a chain. -/
theorem toks_chain {ℓ : Loc nD τ sig} (f : Buf (Elt F) ℓ) (k : ℕ) :
    (ℓ ↦{fullShare} f : sProp 𝕄)
      ⊣⊢ iprop((ℓ ↦{Transfers.shareDrop fullShare k} f) ∗ chainDown (fun i => (ℓ ↦{Transfers.shareTokN fullShare i} f : sProp 𝕄)) k) := by
  rw [← bigSep_range_eq_chainDown]
  exact Transfers.pointsTo_toks_range fullShare k

end Cert.Kernel.Hand

end
-- ==== Proof.KSems.lean ====
/-
  The kernel's own transfer semaphores: three arrays of 128 cells, one cell per row and per scratch buffer, pool cells
  10 to 393 in order.  Between grid points, and before and after the body, every one of them is at zero: each copy is
  started and waited for inside one run of the body.  `semsZero c` says so, cell by cell, on core `c`.
-/
import proofs.«414929_j28089086116333_1_alg».proof.Proof.KTok

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.Sem

variable {F : FTy → Type} [FloatOps F]

local notation "𝕄" => MT nD τ sig Unit (Elt F) ℕ (Pipeline.UD sig nD τ) ℕ

/-- The 384 own cells, in pool order. -/
abbrev ownCells : List (DmaSem sig) := [10, 11, 12, 13, 14, 15, 16, 17, 18, 19, 20, 21, 22, 23, 24, 25, 26, 27, 28, 29, 30, 31, 32, 33, 34, 35, 36, 37, 38, 39, 40, 41, 42, 43, 44, 45, 46, 47, 48, 49, 50, 51, 52, 53, 54, 55, 56, 57, 58, 59, 60, 61, 62, 63, 64, 65, 66, 67, 68, 69, 70, 71, 72, 73, 74, 75, 76, 77, 78, 79, 80, 81, 82, 83, 84, 85, 86, 87, 88, 89, 90, 91, 92, 93, 94, 95, 96, 97, 98, 99, 100, 101, 102, 103, 104, 105, 106, 107, 108, 109, 110, 111, 112, 113, 114, 115, 116, 117, 118, 119, 120, 121, 122, 123, 124, 125, 126, 127, 128, 129, 130, 131, 132, 133, 134, 135, 136, 137, 138, 139, 140, 141, 142, 143, 144, 145, 146, 147, 148, 149, 150, 151, 152, 153, 154, 155, 156, 157, 158, 159, 160, 161, 162, 163, 164, 165, 166, 167, 168, 169, 170, 171, 172, 173, 174, 175, 176, 177, 178, 179, 180, 181, 182, 183, 184, 185, 186, 187, 188, 189, 190, 191, 192, 193, 194, 195, 196, 197, 198, 199, 200, 201, 202, 203, 204, 205, 206, 207, 208, 209, 210, 211, 212, 213, 214, 215, 216, 217, 218, 219, 220, 221, 222, 223, 224, 225, 226, 227, 228, 229, 230, 231, 232, 233, 234, 235, 236, 237, 238, 239, 240, 241, 242, 243, 244, 245, 246, 247, 248, 249, 250, 251, 252, 253, 254, 255, 256, 257, 258, 259, 260, 261, 262, 263, 264, 265, 266, 267, 268, 269, 270, 271, 272, 273, 274, 275, 276, 277, 278, 279, 280, 281, 282, 283, 284, 285, 286, 287, 288, 289, 290, 291, 292, 293, 294, 295, 296, 297, 298, 299, 300, 301, 302, 303, 304, 305, 306, 307, 308, 309, 310, 311, 312, 313, 314, 315, 316, 317, 318, 319, 320, 321, 322, 323, 324, 325, 326, 327, 328, 329, 330, 331, 332, 333, 334, 335, 336, 337, 338, 339, 340, 341, 342, 343, 344, 345, 346, 347, 348, 349, 350, 351, 352, 353, 354, 355, 356, 357, 358, 359, 360, 361, 362, 363, 364, 365, 366, 367, 368, 369, 370, 371, 372, 373, 374, 375, 376, 377, 378, 379, 380, 381, 382, 383, 384, 385, 386, 387, 388, 389, 390, 391, 392, 393]

/-- Every own cell at zero. -/
def semsZero (c : Dev nD) : sProp 𝕄 :=
  iprop(semVal ((c : Thread nD τ), SemLoc.dma 10) 0
    ∗ semVal ((c : Thread nD τ), SemLoc.dma 11) 0
    ∗ semVal ((c : Thread nD τ), SemLoc.dma 12) 0
    ∗ semVal ((c : Thread nD τ), SemLoc.dma 13) 0
    ∗ semVal ((c : Thread nD τ), SemLoc.dma 14) 0
    ∗ semVal ((c : Thread nD τ), SemLoc.dma 15) 0
    ∗ semVal ((c : Thread nD τ), SemLoc.dma 16) 0
    ∗ semVal ((c : Thread nD τ), SemLoc.dma 17) 0
    ∗ semVal ((c : Thread nD τ), SemLoc.dma 18) 0
    ∗ semVal ((c : Thread nD τ), SemLoc.dma 19) 0
    ∗ semVal ((c : Thread nD τ), SemLoc.dma 20) 0
    ∗ semVal ((c : Thread nD τ), SemLoc.dma 21) 0
    ∗ semVal ((c : Thread nD τ), SemLoc.dma 22) 0
    ∗ semVal ((c : Thread nD τ), SemLoc.dma 23) 0
    ∗ semVal ((c : Thread nD τ), SemLoc.dma 24) 0
    ∗ semVal ((c : Thread nD τ), SemLoc.dma 25) 0
    ∗ semVal ((c : Thread nD τ), SemLoc.dma 26) 0
    ∗ semVal ((c : Thread nD τ), SemLoc.dma 27) 0
    ∗ semVal ((c : Thread nD τ), SemLoc.dma 28) 0
    ∗ semVal ((c : Thread nD τ), SemLoc.dma 29) 0
    ∗ semVal ((c : Thread nD τ), SemLoc.dma 30) 0
    ∗ semVal ((c : Thread nD τ), SemLoc.dma 31) 0
    ∗ semVal ((c : Thread nD τ), SemLoc.dma 32) 0
    ∗ semVal ((c : Thread nD τ), SemLoc.dma 33) 0
    ∗ semVal ((c : Thread nD τ), SemLoc.dma 34) 0
    ∗ semVal ((c : Thread nD τ), SemLoc.dma 35) 0
    ∗ semVal ((c : Thread nD τ), SemLoc.dma 36) 0
    ∗ semVal ((c : Thread nD τ), SemLoc.dma 37) 0
    ∗ semVal ((c : Thread nD τ), SemLoc.dma 38) 0
    ∗ semVal ((c : Thread nD τ), SemLoc.dma 39) 0
    ∗ semVal ((c : Thread nD τ), SemLoc.dma 40) 0
    ∗ semVal ((c : Thread nD τ), SemLoc.dma 41) 0
    ∗ semVal ((c : Thread nD τ), SemLoc.dma 42) 0
    ∗ semVal ((c : Thread nD τ), SemLoc.dma 43) 0
    ∗ semVal ((c : Thread nD τ), SemLoc.dma 44) 0
    ∗ semVal ((c : Thread nD τ), SemLoc.dma 45) 0
    ∗ semVal ((c : Thread nD τ), SemLoc.dma 46) 0
    ∗ semVal ((c : Thread nD τ), SemLoc.dma 47) 0
    ∗ semVal ((c : Thread nD τ), SemLoc.dma 48) 0
    ∗ semVal ((c : Thread nD τ), SemLoc.dma 49) 0
    ∗ semVal ((c : Thread nD τ), SemLoc.dma 50) 0
    ∗ semVal ((c : Thread nD τ), SemLoc.dma 51) 0
    ∗ semVal ((c : Thread nD τ), SemLoc.dma 52) 0
    ∗ semVal ((c : Thread nD τ), SemLoc.dma 53) 0
    ∗ semVal ((c : Thread nD τ), SemLoc.dma 54) 0
    ∗ semVal ((c : Thread nD τ), SemLoc.dma 55) 0
    ∗ semVal ((c : Thread nD τ), SemLoc.dma 56) 0
    ∗ semVal ((c : Thread nD τ), SemLoc.dma 57) 0
    ∗ semVal ((c : Thread nD τ), SemLoc.dma 58) 0
    ∗ semVal ((c : Thread nD τ), SemLoc.dma 59) 0
    ∗ semVal ((c : Thread nD τ), SemLoc.dma 60) 0
    ∗ semVal ((c : Thread nD τ), SemLoc.dma 61) 0
    ∗ semVal ((c : Thread nD τ), SemLoc.dma 62) 0
    ∗ semVal ((c : Thread nD τ), SemLoc.dma 63) 0
    ∗ semVal ((c : Thread nD τ), SemLoc.dma 64) 0
    ∗ semVal ((c : Thread nD τ), SemLoc.dma 65) 0
    ∗ semVal ((c : Thread nD τ), SemLoc.dma 66) 0
    ∗ semVal ((c : Thread nD τ), SemLoc.dma 67) 0
    ∗ semVal ((c : Thread nD τ), SemLoc.dma 68) 0
    ∗ semVal ((c : Thread nD τ), SemLoc.dma 69) 0
    ∗ semVal ((c : Thread nD τ), SemLoc.dma 70) 0
    ∗ semVal ((c : Thread nD τ), SemLoc.dma 71) 0
    ∗ semVal ((c : Thread nD τ), SemLoc.dma 72) 0
    ∗ semVal ((c : Thread nD τ), SemLoc.dma 73) 0
    ∗ semVal ((c : Thread nD τ), SemLoc.dma 74) 0
    ∗ semVal ((c : Thread nD τ), SemLoc.dma 75) 0
    ∗ semVal ((c : Thread nD τ), SemLoc.dma 76) 0
    ∗ semVal ((c : Thread nD τ), SemLoc.dma 77) 0
    ∗ semVal ((c : Thread nD τ), SemLoc.dma 78) 0
    ∗ semVal ((c : Thread nD τ), SemLoc.dma 79) 0
    ∗ semVal ((c : Thread nD τ), SemLoc.dma 80) 0
    ∗ semVal ((c : Thread nD τ), SemLoc.dma 81) 0
    ∗ semVal ((c : Thread nD τ), SemLoc.dma 82) 0
    ∗ semVal ((c : Thread nD τ), SemLoc.dma 83) 0
    ∗ semVal ((c : Thread nD τ), SemLoc.dma 84) 0
    ∗ semVal ((c : Thread nD τ), SemLoc.dma 85) 0
    ∗ semVal ((c : Thread nD τ), SemLoc.dma 86) 0
    ∗ semVal ((c : Thread nD τ), SemLoc.dma 87) 0
    ∗ semVal ((c : Thread nD τ), SemLoc.dma 88) 0
    ∗ semVal ((c : Thread nD τ), SemLoc.dma 89) 0
    ∗ semVal ((c : Thread nD τ), SemLoc.dma 90) 0
    ∗ semVal ((c : Thread nD τ), SemLoc.dma 91) 0
    ∗ semVal ((c : Thread nD τ), SemLoc.dma 92) 0
    ∗ semVal ((c : Thread nD τ), SemLoc.dma 93) 0
    ∗ semVal ((c : Thread nD τ), SemLoc.dma 94) 0
    ∗ semVal ((c : Thread nD τ), SemLoc.dma 95) 0
    ∗ semVal ((c : Thread nD τ), SemLoc.dma 96) 0
    ∗ semVal ((c : Thread nD τ), SemLoc.dma 97) 0
    ∗ semVal ((c : Thread nD τ), SemLoc.dma 98) 0
    ∗ semVal ((c : Thread nD τ), SemLoc.dma 99) 0
    ∗ semVal ((c : Thread nD τ), SemLoc.dma 100) 0
    ∗ semVal ((c : Thread nD τ), SemLoc.dma 101) 0
    ∗ semVal ((c : Thread nD τ), SemLoc.dma 102) 0
    ∗ semVal ((c : Thread nD τ), SemLoc.dma 103) 0
    ∗ semVal ((c : Thread nD τ), SemLoc.dma 104) 0
    ∗ semVal ((c : Thread nD τ), SemLoc.dma 105) 0
    ∗ semVal ((c : Thread nD τ), SemLoc.dma 106) 0
    ∗ semVal ((c : Thread nD τ), SemLoc.dma 107) 0
    ∗ semVal ((c : Thread nD τ), SemLoc.dma 108) 0
    ∗ semVal ((c : Thread nD τ), SemLoc.dma 109) 0
    ∗ semVal ((c : Thread nD τ), SemLoc.dma 110) 0
    ∗ semVal ((c : Thread nD τ), SemLoc.dma 111) 0
    ∗ semVal ((c : Thread nD τ), SemLoc.dma 112) 0
    ∗ semVal ((c : Thread nD τ), SemLoc.dma 113) 0
    ∗ semVal ((c : Thread nD τ), SemLoc.dma 114) 0
    ∗ semVal ((c : Thread nD τ), SemLoc.dma 115) 0
    ∗ semVal ((c : Thread nD τ), SemLoc.dma 116) 0
    ∗ semVal ((c : Thread nD τ), SemLoc.dma 117) 0
    ∗ semVal ((c : Thread nD τ), SemLoc.dma 118) 0
    ∗ semVal ((c : Thread nD τ), SemLoc.dma 119) 0
    ∗ semVal ((c : Thread nD τ), SemLoc.dma 120) 0
    ∗ semVal ((c : Thread nD τ), SemLoc.dma 121) 0
    ∗ semVal ((c : Thread nD τ), SemLoc.dma 122) 0
    ∗ semVal ((c : Thread nD τ), SemLoc.dma 123) 0
    ∗ semVal ((c : Thread nD τ), SemLoc.dma 124) 0
    ∗ semVal ((c : Thread nD τ), SemLoc.dma 125) 0
    ∗ semVal ((c : Thread nD τ), SemLoc.dma 126) 0
    ∗ semVal ((c : Thread nD τ), SemLoc.dma 127) 0
    ∗ semVal ((c : Thread nD τ), SemLoc.dma 128) 0
    ∗ semVal ((c : Thread nD τ), SemLoc.dma 129) 0
    ∗ semVal ((c : Thread nD τ), SemLoc.dma 130) 0
    ∗ semVal ((c : Thread nD τ), SemLoc.dma 131) 0
    ∗ semVal ((c : Thread nD τ), SemLoc.dma 132) 0
    ∗ semVal ((c : Thread nD τ), SemLoc.dma 133) 0
    ∗ semVal ((c : Thread nD τ), SemLoc.dma 134) 0
    ∗ semVal ((c : Thread nD τ), SemLoc.dma 135) 0
    ∗ semVal ((c : Thread nD τ), SemLoc.dma 136) 0
    ∗ semVal ((c : Thread nD τ), SemLoc.dma 137) 0
    ∗ semVal ((c : Thread nD τ), SemLoc.dma 138) 0
    ∗ semVal ((c : Thread nD τ), SemLoc.dma 139) 0
    ∗ semVal ((c : Thread nD τ), SemLoc.dma 140) 0
    ∗ semVal ((c : Thread nD τ), SemLoc.dma 141) 0
    ∗ semVal ((c : Thread nD τ), SemLoc.dma 142) 0
    ∗ semVal ((c : Thread nD τ), SemLoc.dma 143) 0
    ∗ semVal ((c : Thread nD τ), SemLoc.dma 144) 0
    ∗ semVal ((c : Thread nD τ), SemLoc.dma 145) 0
    ∗ semVal ((c : Thread nD τ), SemLoc.dma 146) 0
    ∗ semVal ((c : Thread nD τ), SemLoc.dma 147) 0
    ∗ semVal ((c : Thread nD τ), SemLoc.dma 148) 0
    ∗ semVal ((c : Thread nD τ), SemLoc.dma 149) 0
    ∗ semVal ((c : Thread nD τ), SemLoc.dma 150) 0
    ∗ semVal ((c : Thread nD τ), SemLoc.dma 151) 0
    ∗ semVal ((c : Thread nD τ), SemLoc.dma 152) 0
    ∗ semVal ((c : Thread nD τ), SemLoc.dma 153) 0
    ∗ semVal ((c : Thread nD τ), SemLoc.dma 154) 0
    ∗ semVal ((c : Thread nD τ), SemLoc.dma 155) 0
    ∗ semVal ((c : Thread nD τ), SemLoc.dma 156) 0
    ∗ semVal ((c : Thread nD τ), SemLoc.dma 157) 0
    ∗ semVal ((c : Thread nD τ), SemLoc.dma 158) 0
    ∗ semVal ((c : Thread nD τ), SemLoc.dma 159) 0
    ∗ semVal ((c : Thread nD τ), SemLoc.dma 160) 0
    ∗ semVal ((c : Thread nD τ), SemLoc.dma 161) 0
    ∗ semVal ((c : Thread nD τ), SemLoc.dma 162) 0
    ∗ semVal ((c : Thread nD τ), SemLoc.dma 163) 0
    ∗ semVal ((c : Thread nD τ), SemLoc.dma 164) 0
    ∗ semVal ((c : Thread nD τ), SemLoc.dma 165) 0
    ∗ semVal ((c : Thread nD τ), SemLoc.dma 166) 0
    ∗ semVal ((c : Thread nD τ), SemLoc.dma 167) 0
    ∗ semVal ((c : Thread nD τ), SemLoc.dma 168) 0
    ∗ semVal ((c : Thread nD τ), SemLoc.dma 169) 0
    ∗ semVal ((c : Thread nD τ), SemLoc.dma 170) 0
    ∗ semVal ((c : Thread nD τ), SemLoc.dma 171) 0
    ∗ semVal ((c : Thread nD τ), SemLoc.dma 172) 0
    ∗ semVal ((c : Thread nD τ), SemLoc.dma 173) 0
    ∗ semVal ((c : Thread nD τ), SemLoc.dma 174) 0
    ∗ semVal ((c : Thread nD τ), SemLoc.dma 175) 0
    ∗ semVal ((c : Thread nD τ), SemLoc.dma 176) 0
    ∗ semVal ((c : Thread nD τ), SemLoc.dma 177) 0
    ∗ semVal ((c : Thread nD τ), SemLoc.dma 178) 0
    ∗ semVal ((c : Thread nD τ), SemLoc.dma 179) 0
    ∗ semVal ((c : Thread nD τ), SemLoc.dma 180) 0
    ∗ semVal ((c : Thread nD τ), SemLoc.dma 181) 0
    ∗ semVal ((c : Thread nD τ), SemLoc.dma 182) 0
    ∗ semVal ((c : Thread nD τ), SemLoc.dma 183) 0
    ∗ semVal ((c : Thread nD τ), SemLoc.dma 184) 0
    ∗ semVal ((c : Thread nD τ), SemLoc.dma 185) 0
    ∗ semVal ((c : Thread nD τ), SemLoc.dma 186) 0
    ∗ semVal ((c : Thread nD τ), SemLoc.dma 187) 0
    ∗ semVal ((c : Thread nD τ), SemLoc.dma 188) 0
    ∗ semVal ((c : Thread nD τ), SemLoc.dma 189) 0
    ∗ semVal ((c : Thread nD τ), SemLoc.dma 190) 0
    ∗ semVal ((c : Thread nD τ), SemLoc.dma 191) 0
    ∗ semVal ((c : Thread nD τ), SemLoc.dma 192) 0
    ∗ semVal ((c : Thread nD τ), SemLoc.dma 193) 0
    ∗ semVal ((c : Thread nD τ), SemLoc.dma 194) 0
    ∗ semVal ((c : Thread nD τ), SemLoc.dma 195) 0
    ∗ semVal ((c : Thread nD τ), SemLoc.dma 196) 0
    ∗ semVal ((c : Thread nD τ), SemLoc.dma 197) 0
    ∗ semVal ((c : Thread nD τ), SemLoc.dma 198) 0
    ∗ semVal ((c : Thread nD τ), SemLoc.dma 199) 0
    ∗ semVal ((c : Thread nD τ), SemLoc.dma 200) 0
    ∗ semVal ((c : Thread nD τ), SemLoc.dma 201) 0
    ∗ semVal ((c : Thread nD τ), SemLoc.dma 202) 0
    ∗ semVal ((c : Thread nD τ), SemLoc.dma 203) 0
    ∗ semVal ((c : Thread nD τ), SemLoc.dma 204) 0
    ∗ semVal ((c : Thread nD τ), SemLoc.dma 205) 0
    ∗ semVal ((c : Thread nD τ), SemLoc.dma 206) 0
    ∗ semVal ((c : Thread nD τ), SemLoc.dma 207) 0
    ∗ semVal ((c : Thread nD τ), SemLoc.dma 208) 0
    ∗ semVal ((c : Thread nD τ), SemLoc.dma 209) 0
    ∗ semVal ((c : Thread nD τ), SemLoc.dma 210) 0
    ∗ semVal ((c : Thread nD τ), SemLoc.dma 211) 0
    ∗ semVal ((c : Thread nD τ), SemLoc.dma 212) 0
    ∗ semVal ((c : Thread nD τ), SemLoc.dma 213) 0
    ∗ semVal ((c : Thread nD τ), SemLoc.dma 214) 0
    ∗ semVal ((c : Thread nD τ), SemLoc.dma 215) 0
    ∗ semVal ((c : Thread nD τ), SemLoc.dma 216) 0
    ∗ semVal ((c : Thread nD τ), SemLoc.dma 217) 0
    ∗ semVal ((c : Thread nD τ), SemLoc.dma 218) 0
    ∗ semVal ((c : Thread nD τ), SemLoc.dma 219) 0
    ∗ semVal ((c : Thread nD τ), SemLoc.dma 220) 0
    ∗ semVal ((c : Thread nD τ), SemLoc.dma 221) 0
    ∗ semVal ((c : Thread nD τ), SemLoc.dma 222) 0
    ∗ semVal ((c : Thread nD τ), SemLoc.dma 223) 0
    ∗ semVal ((c : Thread nD τ), SemLoc.dma 224) 0
    ∗ semVal ((c : Thread nD τ), SemLoc.dma 225) 0
    ∗ semVal ((c : Thread nD τ), SemLoc.dma 226) 0
    ∗ semVal ((c : Thread nD τ), SemLoc.dma 227) 0
    ∗ semVal ((c : Thread nD τ), SemLoc.dma 228) 0
    ∗ semVal ((c : Thread nD τ), SemLoc.dma 229) 0
    ∗ semVal ((c : Thread nD τ), SemLoc.dma 230) 0
    ∗ semVal ((c : Thread nD τ), SemLoc.dma 231) 0
    ∗ semVal ((c : Thread nD τ), SemLoc.dma 232) 0
    ∗ semVal ((c : Thread nD τ), SemLoc.dma 233) 0
    ∗ semVal ((c : Thread nD τ), SemLoc.dma 234) 0
    ∗ semVal ((c : Thread nD τ), SemLoc.dma 235) 0
    ∗ semVal ((c : Thread nD τ), SemLoc.dma 236) 0
    ∗ semVal ((c : Thread nD τ), SemLoc.dma 237) 0
    ∗ semVal ((c : Thread nD τ), SemLoc.dma 238) 0
    ∗ semVal ((c : Thread nD τ), SemLoc.dma 239) 0
    ∗ semVal ((c : Thread nD τ), SemLoc.dma 240) 0
    ∗ semVal ((c : Thread nD τ), SemLoc.dma 241) 0
    ∗ semVal ((c : Thread nD τ), SemLoc.dma 242) 0
    ∗ semVal ((c : Thread nD τ), SemLoc.dma 243) 0
    ∗ semVal ((c : Thread nD τ), SemLoc.dma 244) 0
    ∗ semVal ((c : Thread nD τ), SemLoc.dma 245) 0
    ∗ semVal ((c : Thread nD τ), SemLoc.dma 246) 0
    ∗ semVal ((c : Thread nD τ), SemLoc.dma 247) 0
    ∗ semVal ((c : Thread nD τ), SemLoc.dma 248) 0
    ∗ semVal ((c : Thread nD τ), SemLoc.dma 249) 0
    ∗ semVal ((c : Thread nD τ), SemLoc.dma 250) 0
    ∗ semVal ((c : Thread nD τ), SemLoc.dma 251) 0
    ∗ semVal ((c : Thread nD τ), SemLoc.dma 252) 0
    ∗ semVal ((c : Thread nD τ), SemLoc.dma 253) 0
    ∗ semVal ((c : Thread nD τ), SemLoc.dma 254) 0
    ∗ semVal ((c : Thread nD τ), SemLoc.dma 255) 0
    ∗ semVal ((c : Thread nD τ), SemLoc.dma 256) 0
    ∗ semVal ((c : Thread nD τ), SemLoc.dma 257) 0
    ∗ semVal ((c : Thread nD τ), SemLoc.dma 258) 0
    ∗ semVal ((c : Thread nD τ), SemLoc.dma 259) 0
    ∗ semVal ((c : Thread nD τ), SemLoc.dma 260) 0
    ∗ semVal ((c : Thread nD τ), SemLoc.dma 261) 0
    ∗ semVal ((c : Thread nD τ), SemLoc.dma 262) 0
    ∗ semVal ((c : Thread nD τ), SemLoc.dma 263) 0
    ∗ semVal ((c : Thread nD τ), SemLoc.dma 264) 0
    ∗ semVal ((c : Thread nD τ), SemLoc.dma 265) 0
    ∗ semVal ((c : Thread nD τ), SemLoc.dma 266) 0
    ∗ semVal ((c : Thread nD τ), SemLoc.dma 267) 0
    ∗ semVal ((c : Thread nD τ), SemLoc.dma 268) 0
    ∗ semVal ((c : Thread nD τ), SemLoc.dma 269) 0
    ∗ semVal ((c : Thread nD τ), SemLoc.dma 270) 0
    ∗ semVal ((c : Thread nD τ), SemLoc.dma 271) 0
    ∗ semVal ((c : Thread nD τ), SemLoc.dma 272) 0
    ∗ semVal ((c : Thread nD τ), SemLoc.dma 273) 0
    ∗ semVal ((c : Thread nD τ), SemLoc.dma 274) 0
    ∗ semVal ((c : Thread nD τ), SemLoc.dma 275) 0
    ∗ semVal ((c : Thread nD τ), SemLoc.dma 276) 0
    ∗ semVal ((c : Thread nD τ), SemLoc.dma 277) 0
    ∗ semVal ((c : Thread nD τ), SemLoc.dma 278) 0
    ∗ semVal ((c : Thread nD τ), SemLoc.dma 279) 0
    ∗ semVal ((c : Thread nD τ), SemLoc.dma 280) 0
    ∗ semVal ((c : Thread nD τ), SemLoc.dma 281) 0
    ∗ semVal ((c : Thread nD τ), SemLoc.dma 282) 0
    ∗ semVal ((c : Thread nD τ), SemLoc.dma 283) 0
    ∗ semVal ((c : Thread nD τ), SemLoc.dma 284) 0
    ∗ semVal ((c : Thread nD τ), SemLoc.dma 285) 0
    ∗ semVal ((c : Thread nD τ), SemLoc.dma 286) 0
    ∗ semVal ((c : Thread nD τ), SemLoc.dma 287) 0
    ∗ semVal ((c : Thread nD τ), SemLoc.dma 288) 0
    ∗ semVal ((c : Thread nD τ), SemLoc.dma 289) 0
    ∗ semVal ((c : Thread nD τ), SemLoc.dma 290) 0
    ∗ semVal ((c : Thread nD τ), SemLoc.dma 291) 0
    ∗ semVal ((c : Thread nD τ), SemLoc.dma 292) 0
    ∗ semVal ((c : Thread nD τ), SemLoc.dma 293) 0
    ∗ semVal ((c : Thread nD τ), SemLoc.dma 294) 0
    ∗ semVal ((c : Thread nD τ), SemLoc.dma 295) 0
    ∗ semVal ((c : Thread nD τ), SemLoc.dma 296) 0
    ∗ semVal ((c : Thread nD τ), SemLoc.dma 297) 0
    ∗ semVal ((c : Thread nD τ), SemLoc.dma 298) 0
    ∗ semVal ((c : Thread nD τ), SemLoc.dma 299) 0
    ∗ semVal ((c : Thread nD τ), SemLoc.dma 300) 0
    ∗ semVal ((c : Thread nD τ), SemLoc.dma 301) 0
    ∗ semVal ((c : Thread nD τ), SemLoc.dma 302) 0
    ∗ semVal ((c : Thread nD τ), SemLoc.dma 303) 0
    ∗ semVal ((c : Thread nD τ), SemLoc.dma 304) 0
    ∗ semVal ((c : Thread nD τ), SemLoc.dma 305) 0
    ∗ semVal ((c : Thread nD τ), SemLoc.dma 306) 0
    ∗ semVal ((c : Thread nD τ), SemLoc.dma 307) 0
    ∗ semVal ((c : Thread nD τ), SemLoc.dma 308) 0
    ∗ semVal ((c : Thread nD τ), SemLoc.dma 309) 0
    ∗ semVal ((c : Thread nD τ), SemLoc.dma 310) 0
    ∗ semVal ((c : Thread nD τ), SemLoc.dma 311) 0
    ∗ semVal ((c : Thread nD τ), SemLoc.dma 312) 0
    ∗ semVal ((c : Thread nD τ), SemLoc.dma 313) 0
    ∗ semVal ((c : Thread nD τ), SemLoc.dma 314) 0
    ∗ semVal ((c : Thread nD τ), SemLoc.dma 315) 0
    ∗ semVal ((c : Thread nD τ), SemLoc.dma 316) 0
    ∗ semVal ((c : Thread nD τ), SemLoc.dma 317) 0
    ∗ semVal ((c : Thread nD τ), SemLoc.dma 318) 0
    ∗ semVal ((c : Thread nD τ), SemLoc.dma 319) 0
    ∗ semVal ((c : Thread nD τ), SemLoc.dma 320) 0
    ∗ semVal ((c : Thread nD τ), SemLoc.dma 321) 0
    ∗ semVal ((c : Thread nD τ), SemLoc.dma 322) 0
    ∗ semVal ((c : Thread nD τ), SemLoc.dma 323) 0
    ∗ semVal ((c : Thread nD τ), SemLoc.dma 324) 0
    ∗ semVal ((c : Thread nD τ), SemLoc.dma 325) 0
    ∗ semVal ((c : Thread nD τ), SemLoc.dma 326) 0
    ∗ semVal ((c : Thread nD τ), SemLoc.dma 327) 0
    ∗ semVal ((c : Thread nD τ), SemLoc.dma 328) 0
    ∗ semVal ((c : Thread nD τ), SemLoc.dma 329) 0
    ∗ semVal ((c : Thread nD τ), SemLoc.dma 330) 0
    ∗ semVal ((c : Thread nD τ), SemLoc.dma 331) 0
    ∗ semVal ((c : Thread nD τ), SemLoc.dma 332) 0
    ∗ semVal ((c : Thread nD τ), SemLoc.dma 333) 0
    ∗ semVal ((c : Thread nD τ), SemLoc.dma 334) 0
    ∗ semVal ((c : Thread nD τ), SemLoc.dma 335) 0
    ∗ semVal ((c : Thread nD τ), SemLoc.dma 336) 0
    ∗ semVal ((c : Thread nD τ), SemLoc.dma 337) 0
    ∗ semVal ((c : Thread nD τ), SemLoc.dma 338) 0
    ∗ semVal ((c : Thread nD τ), SemLoc.dma 339) 0
    ∗ semVal ((c : Thread nD τ), SemLoc.dma 340) 0
    ∗ semVal ((c : Thread nD τ), SemLoc.dma 341) 0
    ∗ semVal ((c : Thread nD τ), SemLoc.dma 342) 0
    ∗ semVal ((c : Thread nD τ), SemLoc.dma 343) 0
    ∗ semVal ((c : Thread nD τ), SemLoc.dma 344) 0
    ∗ semVal ((c : Thread nD τ), SemLoc.dma 345) 0
    ∗ semVal ((c : Thread nD τ), SemLoc.dma 346) 0
    ∗ semVal ((c : Thread nD τ), SemLoc.dma 347) 0
    ∗ semVal ((c : Thread nD τ), SemLoc.dma 348) 0
    ∗ semVal ((c : Thread nD τ), SemLoc.dma 349) 0
    ∗ semVal ((c : Thread nD τ), SemLoc.dma 350) 0
    ∗ semVal ((c : Thread nD τ), SemLoc.dma 351) 0
    ∗ semVal ((c : Thread nD τ), SemLoc.dma 352) 0
    ∗ semVal ((c : Thread nD τ), SemLoc.dma 353) 0
    ∗ semVal ((c : Thread nD τ), SemLoc.dma 354) 0
    ∗ semVal ((c : Thread nD τ), SemLoc.dma 355) 0
    ∗ semVal ((c : Thread nD τ), SemLoc.dma 356) 0
    ∗ semVal ((c : Thread nD τ), SemLoc.dma 357) 0
    ∗ semVal ((c : Thread nD τ), SemLoc.dma 358) 0
    ∗ semVal ((c : Thread nD τ), SemLoc.dma 359) 0
    ∗ semVal ((c : Thread nD τ), SemLoc.dma 360) 0
    ∗ semVal ((c : Thread nD τ), SemLoc.dma 361) 0
    ∗ semVal ((c : Thread nD τ), SemLoc.dma 362) 0
    ∗ semVal ((c : Thread nD τ), SemLoc.dma 363) 0
    ∗ semVal ((c : Thread nD τ), SemLoc.dma 364) 0
    ∗ semVal ((c : Thread nD τ), SemLoc.dma 365) 0
    ∗ semVal ((c : Thread nD τ), SemLoc.dma 366) 0
    ∗ semVal ((c : Thread nD τ), SemLoc.dma 367) 0
    ∗ semVal ((c : Thread nD τ), SemLoc.dma 368) 0
    ∗ semVal ((c : Thread nD τ), SemLoc.dma 369) 0
    ∗ semVal ((c : Thread nD τ), SemLoc.dma 370) 0
    ∗ semVal ((c : Thread nD τ), SemLoc.dma 371) 0
    ∗ semVal ((c : Thread nD τ), SemLoc.dma 372) 0
    ∗ semVal ((c : Thread nD τ), SemLoc.dma 373) 0
    ∗ semVal ((c : Thread nD τ), SemLoc.dma 374) 0
    ∗ semVal ((c : Thread nD τ), SemLoc.dma 375) 0
    ∗ semVal ((c : Thread nD τ), SemLoc.dma 376) 0
    ∗ semVal ((c : Thread nD τ), SemLoc.dma 377) 0
    ∗ semVal ((c : Thread nD τ), SemLoc.dma 378) 0
    ∗ semVal ((c : Thread nD τ), SemLoc.dma 379) 0
    ∗ semVal ((c : Thread nD τ), SemLoc.dma 380) 0
    ∗ semVal ((c : Thread nD τ), SemLoc.dma 381) 0
    ∗ semVal ((c : Thread nD τ), SemLoc.dma 382) 0
    ∗ semVal ((c : Thread nD τ), SemLoc.dma 383) 0
    ∗ semVal ((c : Thread nD τ), SemLoc.dma 384) 0
    ∗ semVal ((c : Thread nD τ), SemLoc.dma 385) 0
    ∗ semVal ((c : Thread nD τ), SemLoc.dma 386) 0
    ∗ semVal ((c : Thread nD τ), SemLoc.dma 387) 0
    ∗ semVal ((c : Thread nD τ), SemLoc.dma 388) 0
    ∗ semVal ((c : Thread nD τ), SemLoc.dma 389) 0
    ∗ semVal ((c : Thread nD τ), SemLoc.dma 390) 0
    ∗ semVal ((c : Thread nD τ), SemLoc.dma 391) 0
    ∗ semVal ((c : Thread nD τ), SemLoc.dma 392) 0
    ∗ semVal ((c : Thread nD τ), SemLoc.dma 393) 0)

set_option maxHeartbeats 8000000 in
/-- The first data table held whole, split into the remainder after 138 read tokens and the tokens, highest first: one token per
    semaphore-cell number below 138. -/
theorem hbU_split (c : Dev nD) (f : BufOf (F := F) c hbM0) :
    hbPt c hbM0 f ⊢ iprop((hbM0.view.loc (c : Thread nD τ) ↦{Transfers.shareDrop fullShare 138} f)
      ∗ (hbM0.view.loc (c : Thread nD τ) ↦{Transfers.shareTokN fullShare 137} f)
      ∗ (hbM0.view.loc (c : Thread nD τ) ↦{Transfers.shareTokN fullShare 136} f)
      ∗ (hbM0.view.loc (c : Thread nD τ) ↦{Transfers.shareTokN fullShare 135} f)
      ∗ (hbM0.view.loc (c : Thread nD τ) ↦{Transfers.shareTokN fullShare 134} f)
      ∗ (hbM0.view.loc (c : Thread nD τ) ↦{Transfers.shareTokN fullShare 133} f)
      ∗ (hbM0.view.loc (c : Thread nD τ) ↦{Transfers.shareTokN fullShare 132} f)
      ∗ (hbM0.view.loc (c : Thread nD τ) ↦{Transfers.shareTokN fullShare 131} f)
      ∗ (hbM0.view.loc (c : Thread nD τ) ↦{Transfers.shareTokN fullShare 130} f)
      ∗ (hbM0.view.loc (c : Thread nD τ) ↦{Transfers.shareTokN fullShare 129} f)
      ∗ (hbM0.view.loc (c : Thread nD τ) ↦{Transfers.shareTokN fullShare 128} f)
      ∗ (hbM0.view.loc (c : Thread nD τ) ↦{Transfers.shareTokN fullShare 127} f)
      ∗ (hbM0.view.loc (c : Thread nD τ) ↦{Transfers.shareTokN fullShare 126} f)
      ∗ (hbM0.view.loc (c : Thread nD τ) ↦{Transfers.shareTokN fullShare 125} f)
      ∗ (hbM0.view.loc (c : Thread nD τ) ↦{Transfers.shareTokN fullShare 124} f)
      ∗ (hbM0.view.loc (c : Thread nD τ) ↦{Transfers.shareTokN fullShare 123} f)
      ∗ (hbM0.view.loc (c : Thread nD τ) ↦{Transfers.shareTokN fullShare 122} f)
      ∗ (hbM0.view.loc (c : Thread nD τ) ↦{Transfers.shareTokN fullShare 121} f)
      ∗ (hbM0.view.loc (c : Thread nD τ) ↦{Transfers.shareTokN fullShare 120} f)
      ∗ (hbM0.view.loc (c : Thread nD τ) ↦{Transfers.shareTokN fullShare 119} f)
      ∗ (hbM0.view.loc (c : Thread nD τ) ↦{Transfers.shareTokN fullShare 118} f)
      ∗ (hbM0.view.loc (c : Thread nD τ) ↦{Transfers.shareTokN fullShare 117} f)
      ∗ (hbM0.view.loc (c : Thread nD τ) ↦{Transfers.shareTokN fullShare 116} f)
      ∗ (hbM0.view.loc (c : Thread nD τ) ↦{Transfers.shareTokN fullShare 115} f)
      ∗ (hbM0.view.loc (c : Thread nD τ) ↦{Transfers.shareTokN fullShare 114} f)
      ∗ (hbM0.view.loc (c : Thread nD τ) ↦{Transfers.shareTokN fullShare 113} f)
      ∗ (hbM0.view.loc (c : Thread nD τ) ↦{Transfers.shareTokN fullShare 112} f)
      ∗ (hbM0.view.loc (c : Thread nD τ) ↦{Transfers.shareTokN fullShare 111} f)
      ∗ (hbM0.view.loc (c : Thread nD τ) ↦{Transfers.shareTokN fullShare 110} f)
      ∗ (hbM0.view.loc (c : Thread nD τ) ↦{Transfers.shareTokN fullShare 109} f)
      ∗ (hbM0.view.loc (c : Thread nD τ) ↦{Transfers.shareTokN fullShare 108} f)
      ∗ (hbM0.view.loc (c : Thread nD τ) ↦{Transfers.shareTokN fullShare 107} f)
      ∗ (hbM0.view.loc (c : Thread nD τ) ↦{Transfers.shareTokN fullShare 106} f)
      ∗ (hbM0.view.loc (c : Thread nD τ) ↦{Transfers.shareTokN fullShare 105} f)
      ∗ (hbM0.view.loc (c : Thread nD τ) ↦{Transfers.shareTokN fullShare 104} f)
      ∗ (hbM0.view.loc (c : Thread nD τ) ↦{Transfers.shareTokN fullShare 103} f)
      ∗ (hbM0.view.loc (c : Thread nD τ) ↦{Transfers.shareTokN fullShare 102} f)
      ∗ (hbM0.view.loc (c : Thread nD τ) ↦{Transfers.shareTokN fullShare 101} f)
      ∗ (hbM0.view.loc (c : Thread nD τ) ↦{Transfers.shareTokN fullShare 100} f)
      ∗ (hbM0.view.loc (c : Thread nD τ) ↦{Transfers.shareTokN fullShare 99} f)
      ∗ (hbM0.view.loc (c : Thread nD τ) ↦{Transfers.shareTokN fullShare 98} f)
      ∗ (hbM0.view.loc (c : Thread nD τ) ↦{Transfers.shareTokN fullShare 97} f)
      ∗ (hbM0.view.loc (c : Thread nD τ) ↦{Transfers.shareTokN fullShare 96} f)
      ∗ (hbM0.view.loc (c : Thread nD τ) ↦{Transfers.shareTokN fullShare 95} f)
      ∗ (hbM0.view.loc (c : Thread nD τ) ↦{Transfers.shareTokN fullShare 94} f)
      ∗ (hbM0.view.loc (c : Thread nD τ) ↦{Transfers.shareTokN fullShare 93} f)
      ∗ (hbM0.view.loc (c : Thread nD τ) ↦{Transfers.shareTokN fullShare 92} f)
      ∗ (hbM0.view.loc (c : Thread nD τ) ↦{Transfers.shareTokN fullShare 91} f)
      ∗ (hbM0.view.loc (c : Thread nD τ) ↦{Transfers.shareTokN fullShare 90} f)
      ∗ (hbM0.view.loc (c : Thread nD τ) ↦{Transfers.shareTokN fullShare 89} f)
      ∗ (hbM0.view.loc (c : Thread nD τ) ↦{Transfers.shareTokN fullShare 88} f)
      ∗ (hbM0.view.loc (c : Thread nD τ) ↦{Transfers.shareTokN fullShare 87} f)
      ∗ (hbM0.view.loc (c : Thread nD τ) ↦{Transfers.shareTokN fullShare 86} f)
      ∗ (hbM0.view.loc (c : Thread nD τ) ↦{Transfers.shareTokN fullShare 85} f)
      ∗ (hbM0.view.loc (c : Thread nD τ) ↦{Transfers.shareTokN fullShare 84} f)
      ∗ (hbM0.view.loc (c : Thread nD τ) ↦{Transfers.shareTokN fullShare 83} f)
      ∗ (hbM0.view.loc (c : Thread nD τ) ↦{Transfers.shareTokN fullShare 82} f)
      ∗ (hbM0.view.loc (c : Thread nD τ) ↦{Transfers.shareTokN fullShare 81} f)
      ∗ (hbM0.view.loc (c : Thread nD τ) ↦{Transfers.shareTokN fullShare 80} f)
      ∗ (hbM0.view.loc (c : Thread nD τ) ↦{Transfers.shareTokN fullShare 79} f)
      ∗ (hbM0.view.loc (c : Thread nD τ) ↦{Transfers.shareTokN fullShare 78} f)
      ∗ (hbM0.view.loc (c : Thread nD τ) ↦{Transfers.shareTokN fullShare 77} f)
      ∗ (hbM0.view.loc (c : Thread nD τ) ↦{Transfers.shareTokN fullShare 76} f)
      ∗ (hbM0.view.loc (c : Thread nD τ) ↦{Transfers.shareTokN fullShare 75} f)
      ∗ (hbM0.view.loc (c : Thread nD τ) ↦{Transfers.shareTokN fullShare 74} f)
      ∗ (hbM0.view.loc (c : Thread nD τ) ↦{Transfers.shareTokN fullShare 73} f)
      ∗ (hbM0.view.loc (c : Thread nD τ) ↦{Transfers.shareTokN fullShare 72} f)
      ∗ (hbM0.view.loc (c : Thread nD τ) ↦{Transfers.shareTokN fullShare 71} f)
      ∗ (hbM0.view.loc (c : Thread nD τ) ↦{Transfers.shareTokN fullShare 70} f)
      ∗ (hbM0.view.loc (c : Thread nD τ) ↦{Transfers.shareTokN fullShare 69} f)
      ∗ (hbM0.view.loc (c : Thread nD τ) ↦{Transfers.shareTokN fullShare 68} f)
      ∗ (hbM0.view.loc (c : Thread nD τ) ↦{Transfers.shareTokN fullShare 67} f)
      ∗ (hbM0.view.loc (c : Thread nD τ) ↦{Transfers.shareTokN fullShare 66} f)
      ∗ (hbM0.view.loc (c : Thread nD τ) ↦{Transfers.shareTokN fullShare 65} f)
      ∗ (hbM0.view.loc (c : Thread nD τ) ↦{Transfers.shareTokN fullShare 64} f)
      ∗ (hbM0.view.loc (c : Thread nD τ) ↦{Transfers.shareTokN fullShare 63} f)
      ∗ (hbM0.view.loc (c : Thread nD τ) ↦{Transfers.shareTokN fullShare 62} f)
      ∗ (hbM0.view.loc (c : Thread nD τ) ↦{Transfers.shareTokN fullShare 61} f)
      ∗ (hbM0.view.loc (c : Thread nD τ) ↦{Transfers.shareTokN fullShare 60} f)
      ∗ (hbM0.view.loc (c : Thread nD τ) ↦{Transfers.shareTokN fullShare 59} f)
      ∗ (hbM0.view.loc (c : Thread nD τ) ↦{Transfers.shareTokN fullShare 58} f)
      ∗ (hbM0.view.loc (c : Thread nD τ) ↦{Transfers.shareTokN fullShare 57} f)
      ∗ (hbM0.view.loc (c : Thread nD τ) ↦{Transfers.shareTokN fullShare 56} f)
      ∗ (hbM0.view.loc (c : Thread nD τ) ↦{Transfers.shareTokN fullShare 55} f)
      ∗ (hbM0.view.loc (c : Thread nD τ) ↦{Transfers.shareTokN fullShare 54} f)
      ∗ (hbM0.view.loc (c : Thread nD τ) ↦{Transfers.shareTokN fullShare 53} f)
      ∗ (hbM0.view.loc (c : Thread nD τ) ↦{Transfers.shareTokN fullShare 52} f)
      ∗ (hbM0.view.loc (c : Thread nD τ) ↦{Transfers.shareTokN fullShare 51} f)
      ∗ (hbM0.view.loc (c : Thread nD τ) ↦{Transfers.shareTokN fullShare 50} f)
      ∗ (hbM0.view.loc (c : Thread nD τ) ↦{Transfers.shareTokN fullShare 49} f)
      ∗ (hbM0.view.loc (c : Thread nD τ) ↦{Transfers.shareTokN fullShare 48} f)
      ∗ (hbM0.view.loc (c : Thread nD τ) ↦{Transfers.shareTokN fullShare 47} f)
      ∗ (hbM0.view.loc (c : Thread nD τ) ↦{Transfers.shareTokN fullShare 46} f)
      ∗ (hbM0.view.loc (c : Thread nD τ) ↦{Transfers.shareTokN fullShare 45} f)
      ∗ (hbM0.view.loc (c : Thread nD τ) ↦{Transfers.shareTokN fullShare 44} f)
      ∗ (hbM0.view.loc (c : Thread nD τ) ↦{Transfers.shareTokN fullShare 43} f)
      ∗ (hbM0.view.loc (c : Thread nD τ) ↦{Transfers.shareTokN fullShare 42} f)
      ∗ (hbM0.view.loc (c : Thread nD τ) ↦{Transfers.shareTokN fullShare 41} f)
      ∗ (hbM0.view.loc (c : Thread nD τ) ↦{Transfers.shareTokN fullShare 40} f)
      ∗ (hbM0.view.loc (c : Thread nD τ) ↦{Transfers.shareTokN fullShare 39} f)
      ∗ (hbM0.view.loc (c : Thread nD τ) ↦{Transfers.shareTokN fullShare 38} f)
      ∗ (hbM0.view.loc (c : Thread nD τ) ↦{Transfers.shareTokN fullShare 37} f)
      ∗ (hbM0.view.loc (c : Thread nD τ) ↦{Transfers.shareTokN fullShare 36} f)
      ∗ (hbM0.view.loc (c : Thread nD τ) ↦{Transfers.shareTokN fullShare 35} f)
      ∗ (hbM0.view.loc (c : Thread nD τ) ↦{Transfers.shareTokN fullShare 34} f)
      ∗ (hbM0.view.loc (c : Thread nD τ) ↦{Transfers.shareTokN fullShare 33} f)
      ∗ (hbM0.view.loc (c : Thread nD τ) ↦{Transfers.shareTokN fullShare 32} f)
      ∗ (hbM0.view.loc (c : Thread nD τ) ↦{Transfers.shareTokN fullShare 31} f)
      ∗ (hbM0.view.loc (c : Thread nD τ) ↦{Transfers.shareTokN fullShare 30} f)
      ∗ (hbM0.view.loc (c : Thread nD τ) ↦{Transfers.shareTokN fullShare 29} f)
      ∗ (hbM0.view.loc (c : Thread nD τ) ↦{Transfers.shareTokN fullShare 28} f)
      ∗ (hbM0.view.loc (c : Thread nD τ) ↦{Transfers.shareTokN fullShare 27} f)
      ∗ (hbM0.view.loc (c : Thread nD τ) ↦{Transfers.shareTokN fullShare 26} f)
      ∗ (hbM0.view.loc (c : Thread nD τ) ↦{Transfers.shareTokN fullShare 25} f)
      ∗ (hbM0.view.loc (c : Thread nD τ) ↦{Transfers.shareTokN fullShare 24} f)
      ∗ (hbM0.view.loc (c : Thread nD τ) ↦{Transfers.shareTokN fullShare 23} f)
      ∗ (hbM0.view.loc (c : Thread nD τ) ↦{Transfers.shareTokN fullShare 22} f)
      ∗ (hbM0.view.loc (c : Thread nD τ) ↦{Transfers.shareTokN fullShare 21} f)
      ∗ (hbM0.view.loc (c : Thread nD τ) ↦{Transfers.shareTokN fullShare 20} f)
      ∗ (hbM0.view.loc (c : Thread nD τ) ↦{Transfers.shareTokN fullShare 19} f)
      ∗ (hbM0.view.loc (c : Thread nD τ) ↦{Transfers.shareTokN fullShare 18} f)
      ∗ (hbM0.view.loc (c : Thread nD τ) ↦{Transfers.shareTokN fullShare 17} f)
      ∗ (hbM0.view.loc (c : Thread nD τ) ↦{Transfers.shareTokN fullShare 16} f)
      ∗ (hbM0.view.loc (c : Thread nD τ) ↦{Transfers.shareTokN fullShare 15} f)
      ∗ (hbM0.view.loc (c : Thread nD τ) ↦{Transfers.shareTokN fullShare 14} f)
      ∗ (hbM0.view.loc (c : Thread nD τ) ↦{Transfers.shareTokN fullShare 13} f)
      ∗ (hbM0.view.loc (c : Thread nD τ) ↦{Transfers.shareTokN fullShare 12} f)
      ∗ (hbM0.view.loc (c : Thread nD τ) ↦{Transfers.shareTokN fullShare 11} f)
      ∗ (hbM0.view.loc (c : Thread nD τ) ↦{Transfers.shareTokN fullShare 10} f)
      ∗ (hbM0.view.loc (c : Thread nD τ) ↦{Transfers.shareTokN fullShare 9} f)
      ∗ (hbM0.view.loc (c : Thread nD τ) ↦{Transfers.shareTokN fullShare 8} f)
      ∗ (hbM0.view.loc (c : Thread nD τ) ↦{Transfers.shareTokN fullShare 7} f)
      ∗ (hbM0.view.loc (c : Thread nD τ) ↦{Transfers.shareTokN fullShare 6} f)
      ∗ (hbM0.view.loc (c : Thread nD τ) ↦{Transfers.shareTokN fullShare 5} f)
      ∗ (hbM0.view.loc (c : Thread nD τ) ↦{Transfers.shareTokN fullShare 4} f)
      ∗ (hbM0.view.loc (c : Thread nD τ) ↦{Transfers.shareTokN fullShare 3} f)
      ∗ (hbM0.view.loc (c : Thread nD τ) ↦{Transfers.shareTokN fullShare 2} f)
      ∗ (hbM0.view.loc (c : Thread nD τ) ↦{Transfers.shareTokN fullShare 1} f)
      ∗ (hbM0.view.loc (c : Thread nD τ) ↦{Transfers.shareTokN fullShare 0} f)) := by
  have h := (toks_chain (F := F) (ℓ := hbM0.view.loc (c : Thread nD τ)) f 138).1
  simp only [chainDown] at h
  exact h

set_option maxHeartbeats 8000000 in
/-- And joined back. -/
theorem hbU_join (c : Dev nD) (f : BufOf (F := F) c hbM0) :
    iprop((hbM0.view.loc (c : Thread nD τ) ↦{Transfers.shareDrop fullShare 138} f)
      ∗ (hbM0.view.loc (c : Thread nD τ) ↦{Transfers.shareTokN fullShare 137} f)
      ∗ (hbM0.view.loc (c : Thread nD τ) ↦{Transfers.shareTokN fullShare 136} f)
      ∗ (hbM0.view.loc (c : Thread nD τ) ↦{Transfers.shareTokN fullShare 135} f)
      ∗ (hbM0.view.loc (c : Thread nD τ) ↦{Transfers.shareTokN fullShare 134} f)
      ∗ (hbM0.view.loc (c : Thread nD τ) ↦{Transfers.shareTokN fullShare 133} f)
      ∗ (hbM0.view.loc (c : Thread nD τ) ↦{Transfers.shareTokN fullShare 132} f)
      ∗ (hbM0.view.loc (c : Thread nD τ) ↦{Transfers.shareTokN fullShare 131} f)
      ∗ (hbM0.view.loc (c : Thread nD τ) ↦{Transfers.shareTokN fullShare 130} f)
      ∗ (hbM0.view.loc (c : Thread nD τ) ↦{Transfers.shareTokN fullShare 129} f)
      ∗ (hbM0.view.loc (c : Thread nD τ) ↦{Transfers.shareTokN fullShare 128} f)
      ∗ (hbM0.view.loc (c : Thread nD τ) ↦{Transfers.shareTokN fullShare 127} f)
      ∗ (hbM0.view.loc (c : Thread nD τ) ↦{Transfers.shareTokN fullShare 126} f)
      ∗ (hbM0.view.loc (c : Thread nD τ) ↦{Transfers.shareTokN fullShare 125} f)
      ∗ (hbM0.view.loc (c : Thread nD τ) ↦{Transfers.shareTokN fullShare 124} f)
      ∗ (hbM0.view.loc (c : Thread nD τ) ↦{Transfers.shareTokN fullShare 123} f)
      ∗ (hbM0.view.loc (c : Thread nD τ) ↦{Transfers.shareTokN fullShare 122} f)
      ∗ (hbM0.view.loc (c : Thread nD τ) ↦{Transfers.shareTokN fullShare 121} f)
      ∗ (hbM0.view.loc (c : Thread nD τ) ↦{Transfers.shareTokN fullShare 120} f)
      ∗ (hbM0.view.loc (c : Thread nD τ) ↦{Transfers.shareTokN fullShare 119} f)
      ∗ (hbM0.view.loc (c : Thread nD τ) ↦{Transfers.shareTokN fullShare 118} f)
      ∗ (hbM0.view.loc (c : Thread nD τ) ↦{Transfers.shareTokN fullShare 117} f)
      ∗ (hbM0.view.loc (c : Thread nD τ) ↦{Transfers.shareTokN fullShare 116} f)
      ∗ (hbM0.view.loc (c : Thread nD τ) ↦{Transfers.shareTokN fullShare 115} f)
      ∗ (hbM0.view.loc (c : Thread nD τ) ↦{Transfers.shareTokN fullShare 114} f)
      ∗ (hbM0.view.loc (c : Thread nD τ) ↦{Transfers.shareTokN fullShare 113} f)
      ∗ (hbM0.view.loc (c : Thread nD τ) ↦{Transfers.shareTokN fullShare 112} f)
      ∗ (hbM0.view.loc (c : Thread nD τ) ↦{Transfers.shareTokN fullShare 111} f)
      ∗ (hbM0.view.loc (c : Thread nD τ) ↦{Transfers.shareTokN fullShare 110} f)
      ∗ (hbM0.view.loc (c : Thread nD τ) ↦{Transfers.shareTokN fullShare 109} f)
      ∗ (hbM0.view.loc (c : Thread nD τ) ↦{Transfers.shareTokN fullShare 108} f)
      ∗ (hbM0.view.loc (c : Thread nD τ) ↦{Transfers.shareTokN fullShare 107} f)
      ∗ (hbM0.view.loc (c : Thread nD τ) ↦{Transfers.shareTokN fullShare 106} f)
      ∗ (hbM0.view.loc (c : Thread nD τ) ↦{Transfers.shareTokN fullShare 105} f)
      ∗ (hbM0.view.loc (c : Thread nD τ) ↦{Transfers.shareTokN fullShare 104} f)
      ∗ (hbM0.view.loc (c : Thread nD τ) ↦{Transfers.shareTokN fullShare 103} f)
      ∗ (hbM0.view.loc (c : Thread nD τ) ↦{Transfers.shareTokN fullShare 102} f)
      ∗ (hbM0.view.loc (c : Thread nD τ) ↦{Transfers.shareTokN fullShare 101} f)
      ∗ (hbM0.view.loc (c : Thread nD τ) ↦{Transfers.shareTokN fullShare 100} f)
      ∗ (hbM0.view.loc (c : Thread nD τ) ↦{Transfers.shareTokN fullShare 99} f)
      ∗ (hbM0.view.loc (c : Thread nD τ) ↦{Transfers.shareTokN fullShare 98} f)
      ∗ (hbM0.view.loc (c : Thread nD τ) ↦{Transfers.shareTokN fullShare 97} f)
      ∗ (hbM0.view.loc (c : Thread nD τ) ↦{Transfers.shareTokN fullShare 96} f)
      ∗ (hbM0.view.loc (c : Thread nD τ) ↦{Transfers.shareTokN fullShare 95} f)
      ∗ (hbM0.view.loc (c : Thread nD τ) ↦{Transfers.shareTokN fullShare 94} f)
      ∗ (hbM0.view.loc (c : Thread nD τ) ↦{Transfers.shareTokN fullShare 93} f)
      ∗ (hbM0.view.loc (c : Thread nD τ) ↦{Transfers.shareTokN fullShare 92} f)
      ∗ (hbM0.view.loc (c : Thread nD τ) ↦{Transfers.shareTokN fullShare 91} f)
      ∗ (hbM0.view.loc (c : Thread nD τ) ↦{Transfers.shareTokN fullShare 90} f)
      ∗ (hbM0.view.loc (c : Thread nD τ) ↦{Transfers.shareTokN fullShare 89} f)
      ∗ (hbM0.view.loc (c : Thread nD τ) ↦{Transfers.shareTokN fullShare 88} f)
      ∗ (hbM0.view.loc (c : Thread nD τ) ↦{Transfers.shareTokN fullShare 87} f)
      ∗ (hbM0.view.loc (c : Thread nD τ) ↦{Transfers.shareTokN fullShare 86} f)
      ∗ (hbM0.view.loc (c : Thread nD τ) ↦{Transfers.shareTokN fullShare 85} f)
      ∗ (hbM0.view.loc (c : Thread nD τ) ↦{Transfers.shareTokN fullShare 84} f)
      ∗ (hbM0.view.loc (c : Thread nD τ) ↦{Transfers.shareTokN fullShare 83} f)
      ∗ (hbM0.view.loc (c : Thread nD τ) ↦{Transfers.shareTokN fullShare 82} f)
      ∗ (hbM0.view.loc (c : Thread nD τ) ↦{Transfers.shareTokN fullShare 81} f)
      ∗ (hbM0.view.loc (c : Thread nD τ) ↦{Transfers.shareTokN fullShare 80} f)
      ∗ (hbM0.view.loc (c : Thread nD τ) ↦{Transfers.shareTokN fullShare 79} f)
      ∗ (hbM0.view.loc (c : Thread nD τ) ↦{Transfers.shareTokN fullShare 78} f)
      ∗ (hbM0.view.loc (c : Thread nD τ) ↦{Transfers.shareTokN fullShare 77} f)
      ∗ (hbM0.view.loc (c : Thread nD τ) ↦{Transfers.shareTokN fullShare 76} f)
      ∗ (hbM0.view.loc (c : Thread nD τ) ↦{Transfers.shareTokN fullShare 75} f)
      ∗ (hbM0.view.loc (c : Thread nD τ) ↦{Transfers.shareTokN fullShare 74} f)
      ∗ (hbM0.view.loc (c : Thread nD τ) ↦{Transfers.shareTokN fullShare 73} f)
      ∗ (hbM0.view.loc (c : Thread nD τ) ↦{Transfers.shareTokN fullShare 72} f)
      ∗ (hbM0.view.loc (c : Thread nD τ) ↦{Transfers.shareTokN fullShare 71} f)
      ∗ (hbM0.view.loc (c : Thread nD τ) ↦{Transfers.shareTokN fullShare 70} f)
      ∗ (hbM0.view.loc (c : Thread nD τ) ↦{Transfers.shareTokN fullShare 69} f)
      ∗ (hbM0.view.loc (c : Thread nD τ) ↦{Transfers.shareTokN fullShare 68} f)
      ∗ (hbM0.view.loc (c : Thread nD τ) ↦{Transfers.shareTokN fullShare 67} f)
      ∗ (hbM0.view.loc (c : Thread nD τ) ↦{Transfers.shareTokN fullShare 66} f)
      ∗ (hbM0.view.loc (c : Thread nD τ) ↦{Transfers.shareTokN fullShare 65} f)
      ∗ (hbM0.view.loc (c : Thread nD τ) ↦{Transfers.shareTokN fullShare 64} f)
      ∗ (hbM0.view.loc (c : Thread nD τ) ↦{Transfers.shareTokN fullShare 63} f)
      ∗ (hbM0.view.loc (c : Thread nD τ) ↦{Transfers.shareTokN fullShare 62} f)
      ∗ (hbM0.view.loc (c : Thread nD τ) ↦{Transfers.shareTokN fullShare 61} f)
      ∗ (hbM0.view.loc (c : Thread nD τ) ↦{Transfers.shareTokN fullShare 60} f)
      ∗ (hbM0.view.loc (c : Thread nD τ) ↦{Transfers.shareTokN fullShare 59} f)
      ∗ (hbM0.view.loc (c : Thread nD τ) ↦{Transfers.shareTokN fullShare 58} f)
      ∗ (hbM0.view.loc (c : Thread nD τ) ↦{Transfers.shareTokN fullShare 57} f)
      ∗ (hbM0.view.loc (c : Thread nD τ) ↦{Transfers.shareTokN fullShare 56} f)
      ∗ (hbM0.view.loc (c : Thread nD τ) ↦{Transfers.shareTokN fullShare 55} f)
      ∗ (hbM0.view.loc (c : Thread nD τ) ↦{Transfers.shareTokN fullShare 54} f)
      ∗ (hbM0.view.loc (c : Thread nD τ) ↦{Transfers.shareTokN fullShare 53} f)
      ∗ (hbM0.view.loc (c : Thread nD τ) ↦{Transfers.shareTokN fullShare 52} f)
      ∗ (hbM0.view.loc (c : Thread nD τ) ↦{Transfers.shareTokN fullShare 51} f)
      ∗ (hbM0.view.loc (c : Thread nD τ) ↦{Transfers.shareTokN fullShare 50} f)
      ∗ (hbM0.view.loc (c : Thread nD τ) ↦{Transfers.shareTokN fullShare 49} f)
      ∗ (hbM0.view.loc (c : Thread nD τ) ↦{Transfers.shareTokN fullShare 48} f)
      ∗ (hbM0.view.loc (c : Thread nD τ) ↦{Transfers.shareTokN fullShare 47} f)
      ∗ (hbM0.view.loc (c : Thread nD τ) ↦{Transfers.shareTokN fullShare 46} f)
      ∗ (hbM0.view.loc (c : Thread nD τ) ↦{Transfers.shareTokN fullShare 45} f)
      ∗ (hbM0.view.loc (c : Thread nD τ) ↦{Transfers.shareTokN fullShare 44} f)
      ∗ (hbM0.view.loc (c : Thread nD τ) ↦{Transfers.shareTokN fullShare 43} f)
      ∗ (hbM0.view.loc (c : Thread nD τ) ↦{Transfers.shareTokN fullShare 42} f)
      ∗ (hbM0.view.loc (c : Thread nD τ) ↦{Transfers.shareTokN fullShare 41} f)
      ∗ (hbM0.view.loc (c : Thread nD τ) ↦{Transfers.shareTokN fullShare 40} f)
      ∗ (hbM0.view.loc (c : Thread nD τ) ↦{Transfers.shareTokN fullShare 39} f)
      ∗ (hbM0.view.loc (c : Thread nD τ) ↦{Transfers.shareTokN fullShare 38} f)
      ∗ (hbM0.view.loc (c : Thread nD τ) ↦{Transfers.shareTokN fullShare 37} f)
      ∗ (hbM0.view.loc (c : Thread nD τ) ↦{Transfers.shareTokN fullShare 36} f)
      ∗ (hbM0.view.loc (c : Thread nD τ) ↦{Transfers.shareTokN fullShare 35} f)
      ∗ (hbM0.view.loc (c : Thread nD τ) ↦{Transfers.shareTokN fullShare 34} f)
      ∗ (hbM0.view.loc (c : Thread nD τ) ↦{Transfers.shareTokN fullShare 33} f)
      ∗ (hbM0.view.loc (c : Thread nD τ) ↦{Transfers.shareTokN fullShare 32} f)
      ∗ (hbM0.view.loc (c : Thread nD τ) ↦{Transfers.shareTokN fullShare 31} f)
      ∗ (hbM0.view.loc (c : Thread nD τ) ↦{Transfers.shareTokN fullShare 30} f)
      ∗ (hbM0.view.loc (c : Thread nD τ) ↦{Transfers.shareTokN fullShare 29} f)
      ∗ (hbM0.view.loc (c : Thread nD τ) ↦{Transfers.shareTokN fullShare 28} f)
      ∗ (hbM0.view.loc (c : Thread nD τ) ↦{Transfers.shareTokN fullShare 27} f)
      ∗ (hbM0.view.loc (c : Thread nD τ) ↦{Transfers.shareTokN fullShare 26} f)
      ∗ (hbM0.view.loc (c : Thread nD τ) ↦{Transfers.shareTokN fullShare 25} f)
      ∗ (hbM0.view.loc (c : Thread nD τ) ↦{Transfers.shareTokN fullShare 24} f)
      ∗ (hbM0.view.loc (c : Thread nD τ) ↦{Transfers.shareTokN fullShare 23} f)
      ∗ (hbM0.view.loc (c : Thread nD τ) ↦{Transfers.shareTokN fullShare 22} f)
      ∗ (hbM0.view.loc (c : Thread nD τ) ↦{Transfers.shareTokN fullShare 21} f)
      ∗ (hbM0.view.loc (c : Thread nD τ) ↦{Transfers.shareTokN fullShare 20} f)
      ∗ (hbM0.view.loc (c : Thread nD τ) ↦{Transfers.shareTokN fullShare 19} f)
      ∗ (hbM0.view.loc (c : Thread nD τ) ↦{Transfers.shareTokN fullShare 18} f)
      ∗ (hbM0.view.loc (c : Thread nD τ) ↦{Transfers.shareTokN fullShare 17} f)
      ∗ (hbM0.view.loc (c : Thread nD τ) ↦{Transfers.shareTokN fullShare 16} f)
      ∗ (hbM0.view.loc (c : Thread nD τ) ↦{Transfers.shareTokN fullShare 15} f)
      ∗ (hbM0.view.loc (c : Thread nD τ) ↦{Transfers.shareTokN fullShare 14} f)
      ∗ (hbM0.view.loc (c : Thread nD τ) ↦{Transfers.shareTokN fullShare 13} f)
      ∗ (hbM0.view.loc (c : Thread nD τ) ↦{Transfers.shareTokN fullShare 12} f)
      ∗ (hbM0.view.loc (c : Thread nD τ) ↦{Transfers.shareTokN fullShare 11} f)
      ∗ (hbM0.view.loc (c : Thread nD τ) ↦{Transfers.shareTokN fullShare 10} f)
      ∗ (hbM0.view.loc (c : Thread nD τ) ↦{Transfers.shareTokN fullShare 9} f)
      ∗ (hbM0.view.loc (c : Thread nD τ) ↦{Transfers.shareTokN fullShare 8} f)
      ∗ (hbM0.view.loc (c : Thread nD τ) ↦{Transfers.shareTokN fullShare 7} f)
      ∗ (hbM0.view.loc (c : Thread nD τ) ↦{Transfers.shareTokN fullShare 6} f)
      ∗ (hbM0.view.loc (c : Thread nD τ) ↦{Transfers.shareTokN fullShare 5} f)
      ∗ (hbM0.view.loc (c : Thread nD τ) ↦{Transfers.shareTokN fullShare 4} f)
      ∗ (hbM0.view.loc (c : Thread nD τ) ↦{Transfers.shareTokN fullShare 3} f)
      ∗ (hbM0.view.loc (c : Thread nD τ) ↦{Transfers.shareTokN fullShare 2} f)
      ∗ (hbM0.view.loc (c : Thread nD τ) ↦{Transfers.shareTokN fullShare 1} f)
      ∗ (hbM0.view.loc (c : Thread nD τ) ↦{Transfers.shareTokN fullShare 0} f)) ⊢ hbPt c hbM0 f := by
  have h := (toks_chain (F := F) (ℓ := hbM0.view.loc (c : Thread nD τ)) f 138).2
  simp only [chainDown] at h
  exact h

set_option maxHeartbeats 8000000 in
/-- The second data table held whole, split into the remainder after 394 read tokens and the tokens, highest first: one token per
    semaphore-cell number below 394. -/
theorem hbV_split (c : Dev nD) (f : BufOf (F := F) c hbM1) :
    hbPt c hbM1 f ⊢ iprop((hbM1.view.loc (c : Thread nD τ) ↦{Transfers.shareDrop fullShare 394} f)
      ∗ (hbM1.view.loc (c : Thread nD τ) ↦{Transfers.shareTokN fullShare 393} f)
      ∗ (hbM1.view.loc (c : Thread nD τ) ↦{Transfers.shareTokN fullShare 392} f)
      ∗ (hbM1.view.loc (c : Thread nD τ) ↦{Transfers.shareTokN fullShare 391} f)
      ∗ (hbM1.view.loc (c : Thread nD τ) ↦{Transfers.shareTokN fullShare 390} f)
      ∗ (hbM1.view.loc (c : Thread nD τ) ↦{Transfers.shareTokN fullShare 389} f)
      ∗ (hbM1.view.loc (c : Thread nD τ) ↦{Transfers.shareTokN fullShare 388} f)
      ∗ (hbM1.view.loc (c : Thread nD τ) ↦{Transfers.shareTokN fullShare 387} f)
      ∗ (hbM1.view.loc (c : Thread nD τ) ↦{Transfers.shareTokN fullShare 386} f)
      ∗ (hbM1.view.loc (c : Thread nD τ) ↦{Transfers.shareTokN fullShare 385} f)
      ∗ (hbM1.view.loc (c : Thread nD τ) ↦{Transfers.shareTokN fullShare 384} f)
      ∗ (hbM1.view.loc (c : Thread nD τ) ↦{Transfers.shareTokN fullShare 383} f)
      ∗ (hbM1.view.loc (c : Thread nD τ) ↦{Transfers.shareTokN fullShare 382} f)
      ∗ (hbM1.view.loc (c : Thread nD τ) ↦{Transfers.shareTokN fullShare 381} f)
      ∗ (hbM1.view.loc (c : Thread nD τ) ↦{Transfers.shareTokN fullShare 380} f)
      ∗ (hbM1.view.loc (c : Thread nD τ) ↦{Transfers.shareTokN fullShare 379} f)
      ∗ (hbM1.view.loc (c : Thread nD τ) ↦{Transfers.shareTokN fullShare 378} f)
      ∗ (hbM1.view.loc (c : Thread nD τ) ↦{Transfers.shareTokN fullShare 377} f)
      ∗ (hbM1.view.loc (c : Thread nD τ) ↦{Transfers.shareTokN fullShare 376} f)
      ∗ (hbM1.view.loc (c : Thread nD τ) ↦{Transfers.shareTokN fullShare 375} f)
      ∗ (hbM1.view.loc (c : Thread nD τ) ↦{Transfers.shareTokN fullShare 374} f)
      ∗ (hbM1.view.loc (c : Thread nD τ) ↦{Transfers.shareTokN fullShare 373} f)
      ∗ (hbM1.view.loc (c : Thread nD τ) ↦{Transfers.shareTokN fullShare 372} f)
      ∗ (hbM1.view.loc (c : Thread nD τ) ↦{Transfers.shareTokN fullShare 371} f)
      ∗ (hbM1.view.loc (c : Thread nD τ) ↦{Transfers.shareTokN fullShare 370} f)
      ∗ (hbM1.view.loc (c : Thread nD τ) ↦{Transfers.shareTokN fullShare 369} f)
      ∗ (hbM1.view.loc (c : Thread nD τ) ↦{Transfers.shareTokN fullShare 368} f)
      ∗ (hbM1.view.loc (c : Thread nD τ) ↦{Transfers.shareTokN fullShare 367} f)
      ∗ (hbM1.view.loc (c : Thread nD τ) ↦{Transfers.shareTokN fullShare 366} f)
      ∗ (hbM1.view.loc (c : Thread nD τ) ↦{Transfers.shareTokN fullShare 365} f)
      ∗ (hbM1.view.loc (c : Thread nD τ) ↦{Transfers.shareTokN fullShare 364} f)
      ∗ (hbM1.view.loc (c : Thread nD τ) ↦{Transfers.shareTokN fullShare 363} f)
      ∗ (hbM1.view.loc (c : Thread nD τ) ↦{Transfers.shareTokN fullShare 362} f)
      ∗ (hbM1.view.loc (c : Thread nD τ) ↦{Transfers.shareTokN fullShare 361} f)
      ∗ (hbM1.view.loc (c : Thread nD τ) ↦{Transfers.shareTokN fullShare 360} f)
      ∗ (hbM1.view.loc (c : Thread nD τ) ↦{Transfers.shareTokN fullShare 359} f)
      ∗ (hbM1.view.loc (c : Thread nD τ) ↦{Transfers.shareTokN fullShare 358} f)
      ∗ (hbM1.view.loc (c : Thread nD τ) ↦{Transfers.shareTokN fullShare 357} f)
      ∗ (hbM1.view.loc (c : Thread nD τ) ↦{Transfers.shareTokN fullShare 356} f)
      ∗ (hbM1.view.loc (c : Thread nD τ) ↦{Transfers.shareTokN fullShare 355} f)
      ∗ (hbM1.view.loc (c : Thread nD τ) ↦{Transfers.shareTokN fullShare 354} f)
      ∗ (hbM1.view.loc (c : Thread nD τ) ↦{Transfers.shareTokN fullShare 353} f)
      ∗ (hbM1.view.loc (c : Thread nD τ) ↦{Transfers.shareTokN fullShare 352} f)
      ∗ (hbM1.view.loc (c : Thread nD τ) ↦{Transfers.shareTokN fullShare 351} f)
      ∗ (hbM1.view.loc (c : Thread nD τ) ↦{Transfers.shareTokN fullShare 350} f)
      ∗ (hbM1.view.loc (c : Thread nD τ) ↦{Transfers.shareTokN fullShare 349} f)
      ∗ (hbM1.view.loc (c : Thread nD τ) ↦{Transfers.shareTokN fullShare 348} f)
      ∗ (hbM1.view.loc (c : Thread nD τ) ↦{Transfers.shareTokN fullShare 347} f)
      ∗ (hbM1.view.loc (c : Thread nD τ) ↦{Transfers.shareTokN fullShare 346} f)
      ∗ (hbM1.view.loc (c : Thread nD τ) ↦{Transfers.shareTokN fullShare 345} f)
      ∗ (hbM1.view.loc (c : Thread nD τ) ↦{Transfers.shareTokN fullShare 344} f)
      ∗ (hbM1.view.loc (c : Thread nD τ) ↦{Transfers.shareTokN fullShare 343} f)
      ∗ (hbM1.view.loc (c : Thread nD τ) ↦{Transfers.shareTokN fullShare 342} f)
      ∗ (hbM1.view.loc (c : Thread nD τ) ↦{Transfers.shareTokN fullShare 341} f)
      ∗ (hbM1.view.loc (c : Thread nD τ) ↦{Transfers.shareTokN fullShare 340} f)
      ∗ (hbM1.view.loc (c : Thread nD τ) ↦{Transfers.shareTokN fullShare 339} f)
      ∗ (hbM1.view.loc (c : Thread nD τ) ↦{Transfers.shareTokN fullShare 338} f)
      ∗ (hbM1.view.loc (c : Thread nD τ) ↦{Transfers.shareTokN fullShare 337} f)
      ∗ (hbM1.view.loc (c : Thread nD τ) ↦{Transfers.shareTokN fullShare 336} f)
      ∗ (hbM1.view.loc (c : Thread nD τ) ↦{Transfers.shareTokN fullShare 335} f)
      ∗ (hbM1.view.loc (c : Thread nD τ) ↦{Transfers.shareTokN fullShare 334} f)
      ∗ (hbM1.view.loc (c : Thread nD τ) ↦{Transfers.shareTokN fullShare 333} f)
      ∗ (hbM1.view.loc (c : Thread nD τ) ↦{Transfers.shareTokN fullShare 332} f)
      ∗ (hbM1.view.loc (c : Thread nD τ) ↦{Transfers.shareTokN fullShare 331} f)
      ∗ (hbM1.view.loc (c : Thread nD τ) ↦{Transfers.shareTokN fullShare 330} f)
      ∗ (hbM1.view.loc (c : Thread nD τ) ↦{Transfers.shareTokN fullShare 329} f)
      ∗ (hbM1.view.loc (c : Thread nD τ) ↦{Transfers.shareTokN fullShare 328} f)
      ∗ (hbM1.view.loc (c : Thread nD τ) ↦{Transfers.shareTokN fullShare 327} f)
      ∗ (hbM1.view.loc (c : Thread nD τ) ↦{Transfers.shareTokN fullShare 326} f)
      ∗ (hbM1.view.loc (c : Thread nD τ) ↦{Transfers.shareTokN fullShare 325} f)
      ∗ (hbM1.view.loc (c : Thread nD τ) ↦{Transfers.shareTokN fullShare 324} f)
      ∗ (hbM1.view.loc (c : Thread nD τ) ↦{Transfers.shareTokN fullShare 323} f)
      ∗ (hbM1.view.loc (c : Thread nD τ) ↦{Transfers.shareTokN fullShare 322} f)
      ∗ (hbM1.view.loc (c : Thread nD τ) ↦{Transfers.shareTokN fullShare 321} f)
      ∗ (hbM1.view.loc (c : Thread nD τ) ↦{Transfers.shareTokN fullShare 320} f)
      ∗ (hbM1.view.loc (c : Thread nD τ) ↦{Transfers.shareTokN fullShare 319} f)
      ∗ (hbM1.view.loc (c : Thread nD τ) ↦{Transfers.shareTokN fullShare 318} f)
      ∗ (hbM1.view.loc (c : Thread nD τ) ↦{Transfers.shareTokN fullShare 317} f)
      ∗ (hbM1.view.loc (c : Thread nD τ) ↦{Transfers.shareTokN fullShare 316} f)
      ∗ (hbM1.view.loc (c : Thread nD τ) ↦{Transfers.shareTokN fullShare 315} f)
      ∗ (hbM1.view.loc (c : Thread nD τ) ↦{Transfers.shareTokN fullShare 314} f)
      ∗ (hbM1.view.loc (c : Thread nD τ) ↦{Transfers.shareTokN fullShare 313} f)
      ∗ (hbM1.view.loc (c : Thread nD τ) ↦{Transfers.shareTokN fullShare 312} f)
      ∗ (hbM1.view.loc (c : Thread nD τ) ↦{Transfers.shareTokN fullShare 311} f)
      ∗ (hbM1.view.loc (c : Thread nD τ) ↦{Transfers.shareTokN fullShare 310} f)
      ∗ (hbM1.view.loc (c : Thread nD τ) ↦{Transfers.shareTokN fullShare 309} f)
      ∗ (hbM1.view.loc (c : Thread nD τ) ↦{Transfers.shareTokN fullShare 308} f)
      ∗ (hbM1.view.loc (c : Thread nD τ) ↦{Transfers.shareTokN fullShare 307} f)
      ∗ (hbM1.view.loc (c : Thread nD τ) ↦{Transfers.shareTokN fullShare 306} f)
      ∗ (hbM1.view.loc (c : Thread nD τ) ↦{Transfers.shareTokN fullShare 305} f)
      ∗ (hbM1.view.loc (c : Thread nD τ) ↦{Transfers.shareTokN fullShare 304} f)
      ∗ (hbM1.view.loc (c : Thread nD τ) ↦{Transfers.shareTokN fullShare 303} f)
      ∗ (hbM1.view.loc (c : Thread nD τ) ↦{Transfers.shareTokN fullShare 302} f)
      ∗ (hbM1.view.loc (c : Thread nD τ) ↦{Transfers.shareTokN fullShare 301} f)
      ∗ (hbM1.view.loc (c : Thread nD τ) ↦{Transfers.shareTokN fullShare 300} f)
      ∗ (hbM1.view.loc (c : Thread nD τ) ↦{Transfers.shareTokN fullShare 299} f)
      ∗ (hbM1.view.loc (c : Thread nD τ) ↦{Transfers.shareTokN fullShare 298} f)
      ∗ (hbM1.view.loc (c : Thread nD τ) ↦{Transfers.shareTokN fullShare 297} f)
      ∗ (hbM1.view.loc (c : Thread nD τ) ↦{Transfers.shareTokN fullShare 296} f)
      ∗ (hbM1.view.loc (c : Thread nD τ) ↦{Transfers.shareTokN fullShare 295} f)
      ∗ (hbM1.view.loc (c : Thread nD τ) ↦{Transfers.shareTokN fullShare 294} f)
      ∗ (hbM1.view.loc (c : Thread nD τ) ↦{Transfers.shareTokN fullShare 293} f)
      ∗ (hbM1.view.loc (c : Thread nD τ) ↦{Transfers.shareTokN fullShare 292} f)
      ∗ (hbM1.view.loc (c : Thread nD τ) ↦{Transfers.shareTokN fullShare 291} f)
      ∗ (hbM1.view.loc (c : Thread nD τ) ↦{Transfers.shareTokN fullShare 290} f)
      ∗ (hbM1.view.loc (c : Thread nD τ) ↦{Transfers.shareTokN fullShare 289} f)
      ∗ (hbM1.view.loc (c : Thread nD τ) ↦{Transfers.shareTokN fullShare 288} f)
      ∗ (hbM1.view.loc (c : Thread nD τ) ↦{Transfers.shareTokN fullShare 287} f)
      ∗ (hbM1.view.loc (c : Thread nD τ) ↦{Transfers.shareTokN fullShare 286} f)
      ∗ (hbM1.view.loc (c : Thread nD τ) ↦{Transfers.shareTokN fullShare 285} f)
      ∗ (hbM1.view.loc (c : Thread nD τ) ↦{Transfers.shareTokN fullShare 284} f)
      ∗ (hbM1.view.loc (c : Thread nD τ) ↦{Transfers.shareTokN fullShare 283} f)
      ∗ (hbM1.view.loc (c : Thread nD τ) ↦{Transfers.shareTokN fullShare 282} f)
      ∗ (hbM1.view.loc (c : Thread nD τ) ↦{Transfers.shareTokN fullShare 281} f)
      ∗ (hbM1.view.loc (c : Thread nD τ) ↦{Transfers.shareTokN fullShare 280} f)
      ∗ (hbM1.view.loc (c : Thread nD τ) ↦{Transfers.shareTokN fullShare 279} f)
      ∗ (hbM1.view.loc (c : Thread nD τ) ↦{Transfers.shareTokN fullShare 278} f)
      ∗ (hbM1.view.loc (c : Thread nD τ) ↦{Transfers.shareTokN fullShare 277} f)
      ∗ (hbM1.view.loc (c : Thread nD τ) ↦{Transfers.shareTokN fullShare 276} f)
      ∗ (hbM1.view.loc (c : Thread nD τ) ↦{Transfers.shareTokN fullShare 275} f)
      ∗ (hbM1.view.loc (c : Thread nD τ) ↦{Transfers.shareTokN fullShare 274} f)
      ∗ (hbM1.view.loc (c : Thread nD τ) ↦{Transfers.shareTokN fullShare 273} f)
      ∗ (hbM1.view.loc (c : Thread nD τ) ↦{Transfers.shareTokN fullShare 272} f)
      ∗ (hbM1.view.loc (c : Thread nD τ) ↦{Transfers.shareTokN fullShare 271} f)
      ∗ (hbM1.view.loc (c : Thread nD τ) ↦{Transfers.shareTokN fullShare 270} f)
      ∗ (hbM1.view.loc (c : Thread nD τ) ↦{Transfers.shareTokN fullShare 269} f)
      ∗ (hbM1.view.loc (c : Thread nD τ) ↦{Transfers.shareTokN fullShare 268} f)
      ∗ (hbM1.view.loc (c : Thread nD τ) ↦{Transfers.shareTokN fullShare 267} f)
      ∗ (hbM1.view.loc (c : Thread nD τ) ↦{Transfers.shareTokN fullShare 266} f)
      ∗ (hbM1.view.loc (c : Thread nD τ) ↦{Transfers.shareTokN fullShare 265} f)
      ∗ (hbM1.view.loc (c : Thread nD τ) ↦{Transfers.shareTokN fullShare 264} f)
      ∗ (hbM1.view.loc (c : Thread nD τ) ↦{Transfers.shareTokN fullShare 263} f)
      ∗ (hbM1.view.loc (c : Thread nD τ) ↦{Transfers.shareTokN fullShare 262} f)
      ∗ (hbM1.view.loc (c : Thread nD τ) ↦{Transfers.shareTokN fullShare 261} f)
      ∗ (hbM1.view.loc (c : Thread nD τ) ↦{Transfers.shareTokN fullShare 260} f)
      ∗ (hbM1.view.loc (c : Thread nD τ) ↦{Transfers.shareTokN fullShare 259} f)
      ∗ (hbM1.view.loc (c : Thread nD τ) ↦{Transfers.shareTokN fullShare 258} f)
      ∗ (hbM1.view.loc (c : Thread nD τ) ↦{Transfers.shareTokN fullShare 257} f)
      ∗ (hbM1.view.loc (c : Thread nD τ) ↦{Transfers.shareTokN fullShare 256} f)
      ∗ (hbM1.view.loc (c : Thread nD τ) ↦{Transfers.shareTokN fullShare 255} f)
      ∗ (hbM1.view.loc (c : Thread nD τ) ↦{Transfers.shareTokN fullShare 254} f)
      ∗ (hbM1.view.loc (c : Thread nD τ) ↦{Transfers.shareTokN fullShare 253} f)
      ∗ (hbM1.view.loc (c : Thread nD τ) ↦{Transfers.shareTokN fullShare 252} f)
      ∗ (hbM1.view.loc (c : Thread nD τ) ↦{Transfers.shareTokN fullShare 251} f)
      ∗ (hbM1.view.loc (c : Thread nD τ) ↦{Transfers.shareTokN fullShare 250} f)
      ∗ (hbM1.view.loc (c : Thread nD τ) ↦{Transfers.shareTokN fullShare 249} f)
      ∗ (hbM1.view.loc (c : Thread nD τ) ↦{Transfers.shareTokN fullShare 248} f)
      ∗ (hbM1.view.loc (c : Thread nD τ) ↦{Transfers.shareTokN fullShare 247} f)
      ∗ (hbM1.view.loc (c : Thread nD τ) ↦{Transfers.shareTokN fullShare 246} f)
      ∗ (hbM1.view.loc (c : Thread nD τ) ↦{Transfers.shareTokN fullShare 245} f)
      ∗ (hbM1.view.loc (c : Thread nD τ) ↦{Transfers.shareTokN fullShare 244} f)
      ∗ (hbM1.view.loc (c : Thread nD τ) ↦{Transfers.shareTokN fullShare 243} f)
      ∗ (hbM1.view.loc (c : Thread nD τ) ↦{Transfers.shareTokN fullShare 242} f)
      ∗ (hbM1.view.loc (c : Thread nD τ) ↦{Transfers.shareTokN fullShare 241} f)
      ∗ (hbM1.view.loc (c : Thread nD τ) ↦{Transfers.shareTokN fullShare 240} f)
      ∗ (hbM1.view.loc (c : Thread nD τ) ↦{Transfers.shareTokN fullShare 239} f)
      ∗ (hbM1.view.loc (c : Thread nD τ) ↦{Transfers.shareTokN fullShare 238} f)
      ∗ (hbM1.view.loc (c : Thread nD τ) ↦{Transfers.shareTokN fullShare 237} f)
      ∗ (hbM1.view.loc (c : Thread nD τ) ↦{Transfers.shareTokN fullShare 236} f)
      ∗ (hbM1.view.loc (c : Thread nD τ) ↦{Transfers.shareTokN fullShare 235} f)
      ∗ (hbM1.view.loc (c : Thread nD τ) ↦{Transfers.shareTokN fullShare 234} f)
      ∗ (hbM1.view.loc (c : Thread nD τ) ↦{Transfers.shareTokN fullShare 233} f)
      ∗ (hbM1.view.loc (c : Thread nD τ) ↦{Transfers.shareTokN fullShare 232} f)
      ∗ (hbM1.view.loc (c : Thread nD τ) ↦{Transfers.shareTokN fullShare 231} f)
      ∗ (hbM1.view.loc (c : Thread nD τ) ↦{Transfers.shareTokN fullShare 230} f)
      ∗ (hbM1.view.loc (c : Thread nD τ) ↦{Transfers.shareTokN fullShare 229} f)
      ∗ (hbM1.view.loc (c : Thread nD τ) ↦{Transfers.shareTokN fullShare 228} f)
      ∗ (hbM1.view.loc (c : Thread nD τ) ↦{Transfers.shareTokN fullShare 227} f)
      ∗ (hbM1.view.loc (c : Thread nD τ) ↦{Transfers.shareTokN fullShare 226} f)
      ∗ (hbM1.view.loc (c : Thread nD τ) ↦{Transfers.shareTokN fullShare 225} f)
      ∗ (hbM1.view.loc (c : Thread nD τ) ↦{Transfers.shareTokN fullShare 224} f)
      ∗ (hbM1.view.loc (c : Thread nD τ) ↦{Transfers.shareTokN fullShare 223} f)
      ∗ (hbM1.view.loc (c : Thread nD τ) ↦{Transfers.shareTokN fullShare 222} f)
      ∗ (hbM1.view.loc (c : Thread nD τ) ↦{Transfers.shareTokN fullShare 221} f)
      ∗ (hbM1.view.loc (c : Thread nD τ) ↦{Transfers.shareTokN fullShare 220} f)
      ∗ (hbM1.view.loc (c : Thread nD τ) ↦{Transfers.shareTokN fullShare 219} f)
      ∗ (hbM1.view.loc (c : Thread nD τ) ↦{Transfers.shareTokN fullShare 218} f)
      ∗ (hbM1.view.loc (c : Thread nD τ) ↦{Transfers.shareTokN fullShare 217} f)
      ∗ (hbM1.view.loc (c : Thread nD τ) ↦{Transfers.shareTokN fullShare 216} f)
      ∗ (hbM1.view.loc (c : Thread nD τ) ↦{Transfers.shareTokN fullShare 215} f)
      ∗ (hbM1.view.loc (c : Thread nD τ) ↦{Transfers.shareTokN fullShare 214} f)
      ∗ (hbM1.view.loc (c : Thread nD τ) ↦{Transfers.shareTokN fullShare 213} f)
      ∗ (hbM1.view.loc (c : Thread nD τ) ↦{Transfers.shareTokN fullShare 212} f)
      ∗ (hbM1.view.loc (c : Thread nD τ) ↦{Transfers.shareTokN fullShare 211} f)
      ∗ (hbM1.view.loc (c : Thread nD τ) ↦{Transfers.shareTokN fullShare 210} f)
      ∗ (hbM1.view.loc (c : Thread nD τ) ↦{Transfers.shareTokN fullShare 209} f)
      ∗ (hbM1.view.loc (c : Thread nD τ) ↦{Transfers.shareTokN fullShare 208} f)
      ∗ (hbM1.view.loc (c : Thread nD τ) ↦{Transfers.shareTokN fullShare 207} f)
      ∗ (hbM1.view.loc (c : Thread nD τ) ↦{Transfers.shareTokN fullShare 206} f)
      ∗ (hbM1.view.loc (c : Thread nD τ) ↦{Transfers.shareTokN fullShare 205} f)
      ∗ (hbM1.view.loc (c : Thread nD τ) ↦{Transfers.shareTokN fullShare 204} f)
      ∗ (hbM1.view.loc (c : Thread nD τ) ↦{Transfers.shareTokN fullShare 203} f)
      ∗ (hbM1.view.loc (c : Thread nD τ) ↦{Transfers.shareTokN fullShare 202} f)
      ∗ (hbM1.view.loc (c : Thread nD τ) ↦{Transfers.shareTokN fullShare 201} f)
      ∗ (hbM1.view.loc (c : Thread nD τ) ↦{Transfers.shareTokN fullShare 200} f)
      ∗ (hbM1.view.loc (c : Thread nD τ) ↦{Transfers.shareTokN fullShare 199} f)
      ∗ (hbM1.view.loc (c : Thread nD τ) ↦{Transfers.shareTokN fullShare 198} f)
      ∗ (hbM1.view.loc (c : Thread nD τ) ↦{Transfers.shareTokN fullShare 197} f)
      ∗ (hbM1.view.loc (c : Thread nD τ) ↦{Transfers.shareTokN fullShare 196} f)
      ∗ (hbM1.view.loc (c : Thread nD τ) ↦{Transfers.shareTokN fullShare 195} f)
      ∗ (hbM1.view.loc (c : Thread nD τ) ↦{Transfers.shareTokN fullShare 194} f)
      ∗ (hbM1.view.loc (c : Thread nD τ) ↦{Transfers.shareTokN fullShare 193} f)
      ∗ (hbM1.view.loc (c : Thread nD τ) ↦{Transfers.shareTokN fullShare 192} f)
      ∗ (hbM1.view.loc (c : Thread nD τ) ↦{Transfers.shareTokN fullShare 191} f)
      ∗ (hbM1.view.loc (c : Thread nD τ) ↦{Transfers.shareTokN fullShare 190} f)
      ∗ (hbM1.view.loc (c : Thread nD τ) ↦{Transfers.shareTokN fullShare 189} f)
      ∗ (hbM1.view.loc (c : Thread nD τ) ↦{Transfers.shareTokN fullShare 188} f)
      ∗ (hbM1.view.loc (c : Thread nD τ) ↦{Transfers.shareTokN fullShare 187} f)
      ∗ (hbM1.view.loc (c : Thread nD τ) ↦{Transfers.shareTokN fullShare 186} f)
      ∗ (hbM1.view.loc (c : Thread nD τ) ↦{Transfers.shareTokN fullShare 185} f)
      ∗ (hbM1.view.loc (c : Thread nD τ) ↦{Transfers.shareTokN fullShare 184} f)
      ∗ (hbM1.view.loc (c : Thread nD τ) ↦{Transfers.shareTokN fullShare 183} f)
      ∗ (hbM1.view.loc (c : Thread nD τ) ↦{Transfers.shareTokN fullShare 182} f)
      ∗ (hbM1.view.loc (c : Thread nD τ) ↦{Transfers.shareTokN fullShare 181} f)
      ∗ (hbM1.view.loc (c : Thread nD τ) ↦{Transfers.shareTokN fullShare 180} f)
      ∗ (hbM1.view.loc (c : Thread nD τ) ↦{Transfers.shareTokN fullShare 179} f)
      ∗ (hbM1.view.loc (c : Thread nD τ) ↦{Transfers.shareTokN fullShare 178} f)
      ∗ (hbM1.view.loc (c : Thread nD τ) ↦{Transfers.shareTokN fullShare 177} f)
      ∗ (hbM1.view.loc (c : Thread nD τ) ↦{Transfers.shareTokN fullShare 176} f)
      ∗ (hbM1.view.loc (c : Thread nD τ) ↦{Transfers.shareTokN fullShare 175} f)
      ∗ (hbM1.view.loc (c : Thread nD τ) ↦{Transfers.shareTokN fullShare 174} f)
      ∗ (hbM1.view.loc (c : Thread nD τ) ↦{Transfers.shareTokN fullShare 173} f)
      ∗ (hbM1.view.loc (c : Thread nD τ) ↦{Transfers.shareTokN fullShare 172} f)
      ∗ (hbM1.view.loc (c : Thread nD τ) ↦{Transfers.shareTokN fullShare 171} f)
      ∗ (hbM1.view.loc (c : Thread nD τ) ↦{Transfers.shareTokN fullShare 170} f)
      ∗ (hbM1.view.loc (c : Thread nD τ) ↦{Transfers.shareTokN fullShare 169} f)
      ∗ (hbM1.view.loc (c : Thread nD τ) ↦{Transfers.shareTokN fullShare 168} f)
      ∗ (hbM1.view.loc (c : Thread nD τ) ↦{Transfers.shareTokN fullShare 167} f)
      ∗ (hbM1.view.loc (c : Thread nD τ) ↦{Transfers.shareTokN fullShare 166} f)
      ∗ (hbM1.view.loc (c : Thread nD τ) ↦{Transfers.shareTokN fullShare 165} f)
      ∗ (hbM1.view.loc (c : Thread nD τ) ↦{Transfers.shareTokN fullShare 164} f)
      ∗ (hbM1.view.loc (c : Thread nD τ) ↦{Transfers.shareTokN fullShare 163} f)
      ∗ (hbM1.view.loc (c : Thread nD τ) ↦{Transfers.shareTokN fullShare 162} f)
      ∗ (hbM1.view.loc (c : Thread nD τ) ↦{Transfers.shareTokN fullShare 161} f)
      ∗ (hbM1.view.loc (c : Thread nD τ) ↦{Transfers.shareTokN fullShare 160} f)
      ∗ (hbM1.view.loc (c : Thread nD τ) ↦{Transfers.shareTokN fullShare 159} f)
      ∗ (hbM1.view.loc (c : Thread nD τ) ↦{Transfers.shareTokN fullShare 158} f)
      ∗ (hbM1.view.loc (c : Thread nD τ) ↦{Transfers.shareTokN fullShare 157} f)
      ∗ (hbM1.view.loc (c : Thread nD τ) ↦{Transfers.shareTokN fullShare 156} f)
      ∗ (hbM1.view.loc (c : Thread nD τ) ↦{Transfers.shareTokN fullShare 155} f)
      ∗ (hbM1.view.loc (c : Thread nD τ) ↦{Transfers.shareTokN fullShare 154} f)
      ∗ (hbM1.view.loc (c : Thread nD τ) ↦{Transfers.shareTokN fullShare 153} f)
      ∗ (hbM1.view.loc (c : Thread nD τ) ↦{Transfers.shareTokN fullShare 152} f)
      ∗ (hbM1.view.loc (c : Thread nD τ) ↦{Transfers.shareTokN fullShare 151} f)
      ∗ (hbM1.view.loc (c : Thread nD τ) ↦{Transfers.shareTokN fullShare 150} f)
      ∗ (hbM1.view.loc (c : Thread nD τ) ↦{Transfers.shareTokN fullShare 149} f)
      ∗ (hbM1.view.loc (c : Thread nD τ) ↦{Transfers.shareTokN fullShare 148} f)
      ∗ (hbM1.view.loc (c : Thread nD τ) ↦{Transfers.shareTokN fullShare 147} f)
      ∗ (hbM1.view.loc (c : Thread nD τ) ↦{Transfers.shareTokN fullShare 146} f)
      ∗ (hbM1.view.loc (c : Thread nD τ) ↦{Transfers.shareTokN fullShare 145} f)
      ∗ (hbM1.view.loc (c : Thread nD τ) ↦{Transfers.shareTokN fullShare 144} f)
      ∗ (hbM1.view.loc (c : Thread nD τ) ↦{Transfers.shareTokN fullShare 143} f)
      ∗ (hbM1.view.loc (c : Thread nD τ) ↦{Transfers.shareTokN fullShare 142} f)
      ∗ (hbM1.view.loc (c : Thread nD τ) ↦{Transfers.shareTokN fullShare 141} f)
      ∗ (hbM1.view.loc (c : Thread nD τ) ↦{Transfers.shareTokN fullShare 140} f)
      ∗ (hbM1.view.loc (c : Thread nD τ) ↦{Transfers.shareTokN fullShare 139} f)
      ∗ (hbM1.view.loc (c : Thread nD τ) ↦{Transfers.shareTokN fullShare 138} f)
      ∗ (hbM1.view.loc (c : Thread nD τ) ↦{Transfers.shareTokN fullShare 137} f)
      ∗ (hbM1.view.loc (c : Thread nD τ) ↦{Transfers.shareTokN fullShare 136} f)
      ∗ (hbM1.view.loc (c : Thread nD τ) ↦{Transfers.shareTokN fullShare 135} f)
      ∗ (hbM1.view.loc (c : Thread nD τ) ↦{Transfers.shareTokN fullShare 134} f)
      ∗ (hbM1.view.loc (c : Thread nD τ) ↦{Transfers.shareTokN fullShare 133} f)
      ∗ (hbM1.view.loc (c : Thread nD τ) ↦{Transfers.shareTokN fullShare 132} f)
      ∗ (hbM1.view.loc (c : Thread nD τ) ↦{Transfers.shareTokN fullShare 131} f)
      ∗ (hbM1.view.loc (c : Thread nD τ) ↦{Transfers.shareTokN fullShare 130} f)
      ∗ (hbM1.view.loc (c : Thread nD τ) ↦{Transfers.shareTokN fullShare 129} f)
      ∗ (hbM1.view.loc (c : Thread nD τ) ↦{Transfers.shareTokN fullShare 128} f)
      ∗ (hbM1.view.loc (c : Thread nD τ) ↦{Transfers.shareTokN fullShare 127} f)
      ∗ (hbM1.view.loc (c : Thread nD τ) ↦{Transfers.shareTokN fullShare 126} f)
      ∗ (hbM1.view.loc (c : Thread nD τ) ↦{Transfers.shareTokN fullShare 125} f)
      ∗ (hbM1.view.loc (c : Thread nD τ) ↦{Transfers.shareTokN fullShare 124} f)
      ∗ (hbM1.view.loc (c : Thread nD τ) ↦{Transfers.shareTokN fullShare 123} f)
      ∗ (hbM1.view.loc (c : Thread nD τ) ↦{Transfers.shareTokN fullShare 122} f)
      ∗ (hbM1.view.loc (c : Thread nD τ) ↦{Transfers.shareTokN fullShare 121} f)
      ∗ (hbM1.view.loc (c : Thread nD τ) ↦{Transfers.shareTokN fullShare 120} f)
      ∗ (hbM1.view.loc (c : Thread nD τ) ↦{Transfers.shareTokN fullShare 119} f)
      ∗ (hbM1.view.loc (c : Thread nD τ) ↦{Transfers.shareTokN fullShare 118} f)
      ∗ (hbM1.view.loc (c : Thread nD τ) ↦{Transfers.shareTokN fullShare 117} f)
      ∗ (hbM1.view.loc (c : Thread nD τ) ↦{Transfers.shareTokN fullShare 116} f)
      ∗ (hbM1.view.loc (c : Thread nD τ) ↦{Transfers.shareTokN fullShare 115} f)
      ∗ (hbM1.view.loc (c : Thread nD τ) ↦{Transfers.shareTokN fullShare 114} f)
      ∗ (hbM1.view.loc (c : Thread nD τ) ↦{Transfers.shareTokN fullShare 113} f)
      ∗ (hbM1.view.loc (c : Thread nD τ) ↦{Transfers.shareTokN fullShare 112} f)
      ∗ (hbM1.view.loc (c : Thread nD τ) ↦{Transfers.shareTokN fullShare 111} f)
      ∗ (hbM1.view.loc (c : Thread nD τ) ↦{Transfers.shareTokN fullShare 110} f)
      ∗ (hbM1.view.loc (c : Thread nD τ) ↦{Transfers.shareTokN fullShare 109} f)
      ∗ (hbM1.view.loc (c : Thread nD τ) ↦{Transfers.shareTokN fullShare 108} f)
      ∗ (hbM1.view.loc (c : Thread nD τ) ↦{Transfers.shareTokN fullShare 107} f)
      ∗ (hbM1.view.loc (c : Thread nD τ) ↦{Transfers.shareTokN fullShare 106} f)
      ∗ (hbM1.view.loc (c : Thread nD τ) ↦{Transfers.shareTokN fullShare 105} f)
      ∗ (hbM1.view.loc (c : Thread nD τ) ↦{Transfers.shareTokN fullShare 104} f)
      ∗ (hbM1.view.loc (c : Thread nD τ) ↦{Transfers.shareTokN fullShare 103} f)
      ∗ (hbM1.view.loc (c : Thread nD τ) ↦{Transfers.shareTokN fullShare 102} f)
      ∗ (hbM1.view.loc (c : Thread nD τ) ↦{Transfers.shareTokN fullShare 101} f)
      ∗ (hbM1.view.loc (c : Thread nD τ) ↦{Transfers.shareTokN fullShare 100} f)
      ∗ (hbM1.view.loc (c : Thread nD τ) ↦{Transfers.shareTokN fullShare 99} f)
      ∗ (hbM1.view.loc (c : Thread nD τ) ↦{Transfers.shareTokN fullShare 98} f)
      ∗ (hbM1.view.loc (c : Thread nD τ) ↦{Transfers.shareTokN fullShare 97} f)
      ∗ (hbM1.view.loc (c : Thread nD τ) ↦{Transfers.shareTokN fullShare 96} f)
      ∗ (hbM1.view.loc (c : Thread nD τ) ↦{Transfers.shareTokN fullShare 95} f)
      ∗ (hbM1.view.loc (c : Thread nD τ) ↦{Transfers.shareTokN fullShare 94} f)
      ∗ (hbM1.view.loc (c : Thread nD τ) ↦{Transfers.shareTokN fullShare 93} f)
      ∗ (hbM1.view.loc (c : Thread nD τ) ↦{Transfers.shareTokN fullShare 92} f)
      ∗ (hbM1.view.loc (c : Thread nD τ) ↦{Transfers.shareTokN fullShare 91} f)
      ∗ (hbM1.view.loc (c : Thread nD τ) ↦{Transfers.shareTokN fullShare 90} f)
      ∗ (hbM1.view.loc (c : Thread nD τ) ↦{Transfers.shareTokN fullShare 89} f)
      ∗ (hbM1.view.loc (c : Thread nD τ) ↦{Transfers.shareTokN fullShare 88} f)
      ∗ (hbM1.view.loc (c : Thread nD τ) ↦{Transfers.shareTokN fullShare 87} f)
      ∗ (hbM1.view.loc (c : Thread nD τ) ↦{Transfers.shareTokN fullShare 86} f)
      ∗ (hbM1.view.loc (c : Thread nD τ) ↦{Transfers.shareTokN fullShare 85} f)
      ∗ (hbM1.view.loc (c : Thread nD τ) ↦{Transfers.shareTokN fullShare 84} f)
      ∗ (hbM1.view.loc (c : Thread nD τ) ↦{Transfers.shareTokN fullShare 83} f)
      ∗ (hbM1.view.loc (c : Thread nD τ) ↦{Transfers.shareTokN fullShare 82} f)
      ∗ (hbM1.view.loc (c : Thread nD τ) ↦{Transfers.shareTokN fullShare 81} f)
      ∗ (hbM1.view.loc (c : Thread nD τ) ↦{Transfers.shareTokN fullShare 80} f)
      ∗ (hbM1.view.loc (c : Thread nD τ) ↦{Transfers.shareTokN fullShare 79} f)
      ∗ (hbM1.view.loc (c : Thread nD τ) ↦{Transfers.shareTokN fullShare 78} f)
      ∗ (hbM1.view.loc (c : Thread nD τ) ↦{Transfers.shareTokN fullShare 77} f)
      ∗ (hbM1.view.loc (c : Thread nD τ) ↦{Transfers.shareTokN fullShare 76} f)
      ∗ (hbM1.view.loc (c : Thread nD τ) ↦{Transfers.shareTokN fullShare 75} f)
      ∗ (hbM1.view.loc (c : Thread nD τ) ↦{Transfers.shareTokN fullShare 74} f)
      ∗ (hbM1.view.loc (c : Thread nD τ) ↦{Transfers.shareTokN fullShare 73} f)
      ∗ (hbM1.view.loc (c : Thread nD τ) ↦{Transfers.shareTokN fullShare 72} f)
      ∗ (hbM1.view.loc (c : Thread nD τ) ↦{Transfers.shareTokN fullShare 71} f)
      ∗ (hbM1.view.loc (c : Thread nD τ) ↦{Transfers.shareTokN fullShare 70} f)
      ∗ (hbM1.view.loc (c : Thread nD τ) ↦{Transfers.shareTokN fullShare 69} f)
      ∗ (hbM1.view.loc (c : Thread nD τ) ↦{Transfers.shareTokN fullShare 68} f)
      ∗ (hbM1.view.loc (c : Thread nD τ) ↦{Transfers.shareTokN fullShare 67} f)
      ∗ (hbM1.view.loc (c : Thread nD τ) ↦{Transfers.shareTokN fullShare 66} f)
      ∗ (hbM1.view.loc (c : Thread nD τ) ↦{Transfers.shareTokN fullShare 65} f)
      ∗ (hbM1.view.loc (c : Thread nD τ) ↦{Transfers.shareTokN fullShare 64} f)
      ∗ (hbM1.view.loc (c : Thread nD τ) ↦{Transfers.shareTokN fullShare 63} f)
      ∗ (hbM1.view.loc (c : Thread nD τ) ↦{Transfers.shareTokN fullShare 62} f)
      ∗ (hbM1.view.loc (c : Thread nD τ) ↦{Transfers.shareTokN fullShare 61} f)
      ∗ (hbM1.view.loc (c : Thread nD τ) ↦{Transfers.shareTokN fullShare 60} f)
      ∗ (hbM1.view.loc (c : Thread nD τ) ↦{Transfers.shareTokN fullShare 59} f)
      ∗ (hbM1.view.loc (c : Thread nD τ) ↦{Transfers.shareTokN fullShare 58} f)
      ∗ (hbM1.view.loc (c : Thread nD τ) ↦{Transfers.shareTokN fullShare 57} f)
      ∗ (hbM1.view.loc (c : Thread nD τ) ↦{Transfers.shareTokN fullShare 56} f)
      ∗ (hbM1.view.loc (c : Thread nD τ) ↦{Transfers.shareTokN fullShare 55} f)
      ∗ (hbM1.view.loc (c : Thread nD τ) ↦{Transfers.shareTokN fullShare 54} f)
      ∗ (hbM1.view.loc (c : Thread nD τ) ↦{Transfers.shareTokN fullShare 53} f)
      ∗ (hbM1.view.loc (c : Thread nD τ) ↦{Transfers.shareTokN fullShare 52} f)
      ∗ (hbM1.view.loc (c : Thread nD τ) ↦{Transfers.shareTokN fullShare 51} f)
      ∗ (hbM1.view.loc (c : Thread nD τ) ↦{Transfers.shareTokN fullShare 50} f)
      ∗ (hbM1.view.loc (c : Thread nD τ) ↦{Transfers.shareTokN fullShare 49} f)
      ∗ (hbM1.view.loc (c : Thread nD τ) ↦{Transfers.shareTokN fullShare 48} f)
      ∗ (hbM1.view.loc (c : Thread nD τ) ↦{Transfers.shareTokN fullShare 47} f)
      ∗ (hbM1.view.loc (c : Thread nD τ) ↦{Transfers.shareTokN fullShare 46} f)
      ∗ (hbM1.view.loc (c : Thread nD τ) ↦{Transfers.shareTokN fullShare 45} f)
      ∗ (hbM1.view.loc (c : Thread nD τ) ↦{Transfers.shareTokN fullShare 44} f)
      ∗ (hbM1.view.loc (c : Thread nD τ) ↦{Transfers.shareTokN fullShare 43} f)
      ∗ (hbM1.view.loc (c : Thread nD τ) ↦{Transfers.shareTokN fullShare 42} f)
      ∗ (hbM1.view.loc (c : Thread nD τ) ↦{Transfers.shareTokN fullShare 41} f)
      ∗ (hbM1.view.loc (c : Thread nD τ) ↦{Transfers.shareTokN fullShare 40} f)
      ∗ (hbM1.view.loc (c : Thread nD τ) ↦{Transfers.shareTokN fullShare 39} f)
      ∗ (hbM1.view.loc (c : Thread nD τ) ↦{Transfers.shareTokN fullShare 38} f)
      ∗ (hbM1.view.loc (c : Thread nD τ) ↦{Transfers.shareTokN fullShare 37} f)
      ∗ (hbM1.view.loc (c : Thread nD τ) ↦{Transfers.shareTokN fullShare 36} f)
      ∗ (hbM1.view.loc (c : Thread nD τ) ↦{Transfers.shareTokN fullShare 35} f)
      ∗ (hbM1.view.loc (c : Thread nD τ) ↦{Transfers.shareTokN fullShare 34} f)
      ∗ (hbM1.view.loc (c : Thread nD τ) ↦{Transfers.shareTokN fullShare 33} f)
      ∗ (hbM1.view.loc (c : Thread nD τ) ↦{Transfers.shareTokN fullShare 32} f)
      ∗ (hbM1.view.loc (c : Thread nD τ) ↦{Transfers.shareTokN fullShare 31} f)
      ∗ (hbM1.view.loc (c : Thread nD τ) ↦{Transfers.shareTokN fullShare 30} f)
      ∗ (hbM1.view.loc (c : Thread nD τ) ↦{Transfers.shareTokN fullShare 29} f)
      ∗ (hbM1.view.loc (c : Thread nD τ) ↦{Transfers.shareTokN fullShare 28} f)
      ∗ (hbM1.view.loc (c : Thread nD τ) ↦{Transfers.shareTokN fullShare 27} f)
      ∗ (hbM1.view.loc (c : Thread nD τ) ↦{Transfers.shareTokN fullShare 26} f)
      ∗ (hbM1.view.loc (c : Thread nD τ) ↦{Transfers.shareTokN fullShare 25} f)
      ∗ (hbM1.view.loc (c : Thread nD τ) ↦{Transfers.shareTokN fullShare 24} f)
      ∗ (hbM1.view.loc (c : Thread nD τ) ↦{Transfers.shareTokN fullShare 23} f)
      ∗ (hbM1.view.loc (c : Thread nD τ) ↦{Transfers.shareTokN fullShare 22} f)
      ∗ (hbM1.view.loc (c : Thread nD τ) ↦{Transfers.shareTokN fullShare 21} f)
      ∗ (hbM1.view.loc (c : Thread nD τ) ↦{Transfers.shareTokN fullShare 20} f)
      ∗ (hbM1.view.loc (c : Thread nD τ) ↦{Transfers.shareTokN fullShare 19} f)
      ∗ (hbM1.view.loc (c : Thread nD τ) ↦{Transfers.shareTokN fullShare 18} f)
      ∗ (hbM1.view.loc (c : Thread nD τ) ↦{Transfers.shareTokN fullShare 17} f)
      ∗ (hbM1.view.loc (c : Thread nD τ) ↦{Transfers.shareTokN fullShare 16} f)
      ∗ (hbM1.view.loc (c : Thread nD τ) ↦{Transfers.shareTokN fullShare 15} f)
      ∗ (hbM1.view.loc (c : Thread nD τ) ↦{Transfers.shareTokN fullShare 14} f)
      ∗ (hbM1.view.loc (c : Thread nD τ) ↦{Transfers.shareTokN fullShare 13} f)
      ∗ (hbM1.view.loc (c : Thread nD τ) ↦{Transfers.shareTokN fullShare 12} f)
      ∗ (hbM1.view.loc (c : Thread nD τ) ↦{Transfers.shareTokN fullShare 11} f)
      ∗ (hbM1.view.loc (c : Thread nD τ) ↦{Transfers.shareTokN fullShare 10} f)
      ∗ (hbM1.view.loc (c : Thread nD τ) ↦{Transfers.shareTokN fullShare 9} f)
      ∗ (hbM1.view.loc (c : Thread nD τ) ↦{Transfers.shareTokN fullShare 8} f)
      ∗ (hbM1.view.loc (c : Thread nD τ) ↦{Transfers.shareTokN fullShare 7} f)
      ∗ (hbM1.view.loc (c : Thread nD τ) ↦{Transfers.shareTokN fullShare 6} f)
      ∗ (hbM1.view.loc (c : Thread nD τ) ↦{Transfers.shareTokN fullShare 5} f)
      ∗ (hbM1.view.loc (c : Thread nD τ) ↦{Transfers.shareTokN fullShare 4} f)
      ∗ (hbM1.view.loc (c : Thread nD τ) ↦{Transfers.shareTokN fullShare 3} f)
      ∗ (hbM1.view.loc (c : Thread nD τ) ↦{Transfers.shareTokN fullShare 2} f)
      ∗ (hbM1.view.loc (c : Thread nD τ) ↦{Transfers.shareTokN fullShare 1} f)
      ∗ (hbM1.view.loc (c : Thread nD τ) ↦{Transfers.shareTokN fullShare 0} f)) := by
  have h := (toks_chain (F := F) (ℓ := hbM1.view.loc (c : Thread nD τ)) f 394).1
  simp only [chainDown] at h
  exact h

set_option maxHeartbeats 8000000 in
/-- And joined back. -/
theorem hbV_join (c : Dev nD) (f : BufOf (F := F) c hbM1) :
    iprop((hbM1.view.loc (c : Thread nD τ) ↦{Transfers.shareDrop fullShare 394} f)
      ∗ (hbM1.view.loc (c : Thread nD τ) ↦{Transfers.shareTokN fullShare 393} f)
      ∗ (hbM1.view.loc (c : Thread nD τ) ↦{Transfers.shareTokN fullShare 392} f)
      ∗ (hbM1.view.loc (c : Thread nD τ) ↦{Transfers.shareTokN fullShare 391} f)
      ∗ (hbM1.view.loc (c : Thread nD τ) ↦{Transfers.shareTokN fullShare 390} f)
      ∗ (hbM1.view.loc (c : Thread nD τ) ↦{Transfers.shareTokN fullShare 389} f)
      ∗ (hbM1.view.loc (c : Thread nD τ) ↦{Transfers.shareTokN fullShare 388} f)
      ∗ (hbM1.view.loc (c : Thread nD τ) ↦{Transfers.shareTokN fullShare 387} f)
      ∗ (hbM1.view.loc (c : Thread nD τ) ↦{Transfers.shareTokN fullShare 386} f)
      ∗ (hbM1.view.loc (c : Thread nD τ) ↦{Transfers.shareTokN fullShare 385} f)
      ∗ (hbM1.view.loc (c : Thread nD τ) ↦{Transfers.shareTokN fullShare 384} f)
      ∗ (hbM1.view.loc (c : Thread nD τ) ↦{Transfers.shareTokN fullShare 383} f)
      ∗ (hbM1.view.loc (c : Thread nD τ) ↦{Transfers.shareTokN fullShare 382} f)
      ∗ (hbM1.view.loc (c : Thread nD τ) ↦{Transfers.shareTokN fullShare 381} f)
      ∗ (hbM1.view.loc (c : Thread nD τ) ↦{Transfers.shareTokN fullShare 380} f)
      ∗ (hbM1.view.loc (c : Thread nD τ) ↦{Transfers.shareTokN fullShare 379} f)
      ∗ (hbM1.view.loc (c : Thread nD τ) ↦{Transfers.shareTokN fullShare 378} f)
      ∗ (hbM1.view.loc (c : Thread nD τ) ↦{Transfers.shareTokN fullShare 377} f)
      ∗ (hbM1.view.loc (c : Thread nD τ) ↦{Transfers.shareTokN fullShare 376} f)
      ∗ (hbM1.view.loc (c : Thread nD τ) ↦{Transfers.shareTokN fullShare 375} f)
      ∗ (hbM1.view.loc (c : Thread nD τ) ↦{Transfers.shareTokN fullShare 374} f)
      ∗ (hbM1.view.loc (c : Thread nD τ) ↦{Transfers.shareTokN fullShare 373} f)
      ∗ (hbM1.view.loc (c : Thread nD τ) ↦{Transfers.shareTokN fullShare 372} f)
      ∗ (hbM1.view.loc (c : Thread nD τ) ↦{Transfers.shareTokN fullShare 371} f)
      ∗ (hbM1.view.loc (c : Thread nD τ) ↦{Transfers.shareTokN fullShare 370} f)
      ∗ (hbM1.view.loc (c : Thread nD τ) ↦{Transfers.shareTokN fullShare 369} f)
      ∗ (hbM1.view.loc (c : Thread nD τ) ↦{Transfers.shareTokN fullShare 368} f)
      ∗ (hbM1.view.loc (c : Thread nD τ) ↦{Transfers.shareTokN fullShare 367} f)
      ∗ (hbM1.view.loc (c : Thread nD τ) ↦{Transfers.shareTokN fullShare 366} f)
      ∗ (hbM1.view.loc (c : Thread nD τ) ↦{Transfers.shareTokN fullShare 365} f)
      ∗ (hbM1.view.loc (c : Thread nD τ) ↦{Transfers.shareTokN fullShare 364} f)
      ∗ (hbM1.view.loc (c : Thread nD τ) ↦{Transfers.shareTokN fullShare 363} f)
      ∗ (hbM1.view.loc (c : Thread nD τ) ↦{Transfers.shareTokN fullShare 362} f)
      ∗ (hbM1.view.loc (c : Thread nD τ) ↦{Transfers.shareTokN fullShare 361} f)
      ∗ (hbM1.view.loc (c : Thread nD τ) ↦{Transfers.shareTokN fullShare 360} f)
      ∗ (hbM1.view.loc (c : Thread nD τ) ↦{Transfers.shareTokN fullShare 359} f)
      ∗ (hbM1.view.loc (c : Thread nD τ) ↦{Transfers.shareTokN fullShare 358} f)
      ∗ (hbM1.view.loc (c : Thread nD τ) ↦{Transfers.shareTokN fullShare 357} f)
      ∗ (hbM1.view.loc (c : Thread nD τ) ↦{Transfers.shareTokN fullShare 356} f)
      ∗ (hbM1.view.loc (c : Thread nD τ) ↦{Transfers.shareTokN fullShare 355} f)
      ∗ (hbM1.view.loc (c : Thread nD τ) ↦{Transfers.shareTokN fullShare 354} f)
      ∗ (hbM1.view.loc (c : Thread nD τ) ↦{Transfers.shareTokN fullShare 353} f)
      ∗ (hbM1.view.loc (c : Thread nD τ) ↦{Transfers.shareTokN fullShare 352} f)
      ∗ (hbM1.view.loc (c : Thread nD τ) ↦{Transfers.shareTokN fullShare 351} f)
      ∗ (hbM1.view.loc (c : Thread nD τ) ↦{Transfers.shareTokN fullShare 350} f)
      ∗ (hbM1.view.loc (c : Thread nD τ) ↦{Transfers.shareTokN fullShare 349} f)
      ∗ (hbM1.view.loc (c : Thread nD τ) ↦{Transfers.shareTokN fullShare 348} f)
      ∗ (hbM1.view.loc (c : Thread nD τ) ↦{Transfers.shareTokN fullShare 347} f)
      ∗ (hbM1.view.loc (c : Thread nD τ) ↦{Transfers.shareTokN fullShare 346} f)
      ∗ (hbM1.view.loc (c : Thread nD τ) ↦{Transfers.shareTokN fullShare 345} f)
      ∗ (hbM1.view.loc (c : Thread nD τ) ↦{Transfers.shareTokN fullShare 344} f)
      ∗ (hbM1.view.loc (c : Thread nD τ) ↦{Transfers.shareTokN fullShare 343} f)
      ∗ (hbM1.view.loc (c : Thread nD τ) ↦{Transfers.shareTokN fullShare 342} f)
      ∗ (hbM1.view.loc (c : Thread nD τ) ↦{Transfers.shareTokN fullShare 341} f)
      ∗ (hbM1.view.loc (c : Thread nD τ) ↦{Transfers.shareTokN fullShare 340} f)
      ∗ (hbM1.view.loc (c : Thread nD τ) ↦{Transfers.shareTokN fullShare 339} f)
      ∗ (hbM1.view.loc (c : Thread nD τ) ↦{Transfers.shareTokN fullShare 338} f)
      ∗ (hbM1.view.loc (c : Thread nD τ) ↦{Transfers.shareTokN fullShare 337} f)
      ∗ (hbM1.view.loc (c : Thread nD τ) ↦{Transfers.shareTokN fullShare 336} f)
      ∗ (hbM1.view.loc (c : Thread nD τ) ↦{Transfers.shareTokN fullShare 335} f)
      ∗ (hbM1.view.loc (c : Thread nD τ) ↦{Transfers.shareTokN fullShare 334} f)
      ∗ (hbM1.view.loc (c : Thread nD τ) ↦{Transfers.shareTokN fullShare 333} f)
      ∗ (hbM1.view.loc (c : Thread nD τ) ↦{Transfers.shareTokN fullShare 332} f)
      ∗ (hbM1.view.loc (c : Thread nD τ) ↦{Transfers.shareTokN fullShare 331} f)
      ∗ (hbM1.view.loc (c : Thread nD τ) ↦{Transfers.shareTokN fullShare 330} f)
      ∗ (hbM1.view.loc (c : Thread nD τ) ↦{Transfers.shareTokN fullShare 329} f)
      ∗ (hbM1.view.loc (c : Thread nD τ) ↦{Transfers.shareTokN fullShare 328} f)
      ∗ (hbM1.view.loc (c : Thread nD τ) ↦{Transfers.shareTokN fullShare 327} f)
      ∗ (hbM1.view.loc (c : Thread nD τ) ↦{Transfers.shareTokN fullShare 326} f)
      ∗ (hbM1.view.loc (c : Thread nD τ) ↦{Transfers.shareTokN fullShare 325} f)
      ∗ (hbM1.view.loc (c : Thread nD τ) ↦{Transfers.shareTokN fullShare 324} f)
      ∗ (hbM1.view.loc (c : Thread nD τ) ↦{Transfers.shareTokN fullShare 323} f)
      ∗ (hbM1.view.loc (c : Thread nD τ) ↦{Transfers.shareTokN fullShare 322} f)
      ∗ (hbM1.view.loc (c : Thread nD τ) ↦{Transfers.shareTokN fullShare 321} f)
      ∗ (hbM1.view.loc (c : Thread nD τ) ↦{Transfers.shareTokN fullShare 320} f)
      ∗ (hbM1.view.loc (c : Thread nD τ) ↦{Transfers.shareTokN fullShare 319} f)
      ∗ (hbM1.view.loc (c : Thread nD τ) ↦{Transfers.shareTokN fullShare 318} f)
      ∗ (hbM1.view.loc (c : Thread nD τ) ↦{Transfers.shareTokN fullShare 317} f)
      ∗ (hbM1.view.loc (c : Thread nD τ) ↦{Transfers.shareTokN fullShare 316} f)
      ∗ (hbM1.view.loc (c : Thread nD τ) ↦{Transfers.shareTokN fullShare 315} f)
      ∗ (hbM1.view.loc (c : Thread nD τ) ↦{Transfers.shareTokN fullShare 314} f)
      ∗ (hbM1.view.loc (c : Thread nD τ) ↦{Transfers.shareTokN fullShare 313} f)
      ∗ (hbM1.view.loc (c : Thread nD τ) ↦{Transfers.shareTokN fullShare 312} f)
      ∗ (hbM1.view.loc (c : Thread nD τ) ↦{Transfers.shareTokN fullShare 311} f)
      ∗ (hbM1.view.loc (c : Thread nD τ) ↦{Transfers.shareTokN fullShare 310} f)
      ∗ (hbM1.view.loc (c : Thread nD τ) ↦{Transfers.shareTokN fullShare 309} f)
      ∗ (hbM1.view.loc (c : Thread nD τ) ↦{Transfers.shareTokN fullShare 308} f)
      ∗ (hbM1.view.loc (c : Thread nD τ) ↦{Transfers.shareTokN fullShare 307} f)
      ∗ (hbM1.view.loc (c : Thread nD τ) ↦{Transfers.shareTokN fullShare 306} f)
      ∗ (hbM1.view.loc (c : Thread nD τ) ↦{Transfers.shareTokN fullShare 305} f)
      ∗ (hbM1.view.loc (c : Thread nD τ) ↦{Transfers.shareTokN fullShare 304} f)
      ∗ (hbM1.view.loc (c : Thread nD τ) ↦{Transfers.shareTokN fullShare 303} f)
      ∗ (hbM1.view.loc (c : Thread nD τ) ↦{Transfers.shareTokN fullShare 302} f)
      ∗ (hbM1.view.loc (c : Thread nD τ) ↦{Transfers.shareTokN fullShare 301} f)
      ∗ (hbM1.view.loc (c : Thread nD τ) ↦{Transfers.shareTokN fullShare 300} f)
      ∗ (hbM1.view.loc (c : Thread nD τ) ↦{Transfers.shareTokN fullShare 299} f)
      ∗ (hbM1.view.loc (c : Thread nD τ) ↦{Transfers.shareTokN fullShare 298} f)
      ∗ (hbM1.view.loc (c : Thread nD τ) ↦{Transfers.shareTokN fullShare 297} f)
      ∗ (hbM1.view.loc (c : Thread nD τ) ↦{Transfers.shareTokN fullShare 296} f)
      ∗ (hbM1.view.loc (c : Thread nD τ) ↦{Transfers.shareTokN fullShare 295} f)
      ∗ (hbM1.view.loc (c : Thread nD τ) ↦{Transfers.shareTokN fullShare 294} f)
      ∗ (hbM1.view.loc (c : Thread nD τ) ↦{Transfers.shareTokN fullShare 293} f)
      ∗ (hbM1.view.loc (c : Thread nD τ) ↦{Transfers.shareTokN fullShare 292} f)
      ∗ (hbM1.view.loc (c : Thread nD τ) ↦{Transfers.shareTokN fullShare 291} f)
      ∗ (hbM1.view.loc (c : Thread nD τ) ↦{Transfers.shareTokN fullShare 290} f)
      ∗ (hbM1.view.loc (c : Thread nD τ) ↦{Transfers.shareTokN fullShare 289} f)
      ∗ (hbM1.view.loc (c : Thread nD τ) ↦{Transfers.shareTokN fullShare 288} f)
      ∗ (hbM1.view.loc (c : Thread nD τ) ↦{Transfers.shareTokN fullShare 287} f)
      ∗ (hbM1.view.loc (c : Thread nD τ) ↦{Transfers.shareTokN fullShare 286} f)
      ∗ (hbM1.view.loc (c : Thread nD τ) ↦{Transfers.shareTokN fullShare 285} f)
      ∗ (hbM1.view.loc (c : Thread nD τ) ↦{Transfers.shareTokN fullShare 284} f)
      ∗ (hbM1.view.loc (c : Thread nD τ) ↦{Transfers.shareTokN fullShare 283} f)
      ∗ (hbM1.view.loc (c : Thread nD τ) ↦{Transfers.shareTokN fullShare 282} f)
      ∗ (hbM1.view.loc (c : Thread nD τ) ↦{Transfers.shareTokN fullShare 281} f)
      ∗ (hbM1.view.loc (c : Thread nD τ) ↦{Transfers.shareTokN fullShare 280} f)
      ∗ (hbM1.view.loc (c : Thread nD τ) ↦{Transfers.shareTokN fullShare 279} f)
      ∗ (hbM1.view.loc (c : Thread nD τ) ↦{Transfers.shareTokN fullShare 278} f)
      ∗ (hbM1.view.loc (c : Thread nD τ) ↦{Transfers.shareTokN fullShare 277} f)
      ∗ (hbM1.view.loc (c : Thread nD τ) ↦{Transfers.shareTokN fullShare 276} f)
      ∗ (hbM1.view.loc (c : Thread nD τ) ↦{Transfers.shareTokN fullShare 275} f)
      ∗ (hbM1.view.loc (c : Thread nD τ) ↦{Transfers.shareTokN fullShare 274} f)
      ∗ (hbM1.view.loc (c : Thread nD τ) ↦{Transfers.shareTokN fullShare 273} f)
      ∗ (hbM1.view.loc (c : Thread nD τ) ↦{Transfers.shareTokN fullShare 272} f)
      ∗ (hbM1.view.loc (c : Thread nD τ) ↦{Transfers.shareTokN fullShare 271} f)
      ∗ (hbM1.view.loc (c : Thread nD τ) ↦{Transfers.shareTokN fullShare 270} f)
      ∗ (hbM1.view.loc (c : Thread nD τ) ↦{Transfers.shareTokN fullShare 269} f)
      ∗ (hbM1.view.loc (c : Thread nD τ) ↦{Transfers.shareTokN fullShare 268} f)
      ∗ (hbM1.view.loc (c : Thread nD τ) ↦{Transfers.shareTokN fullShare 267} f)
      ∗ (hbM1.view.loc (c : Thread nD τ) ↦{Transfers.shareTokN fullShare 266} f)
      ∗ (hbM1.view.loc (c : Thread nD τ) ↦{Transfers.shareTokN fullShare 265} f)
      ∗ (hbM1.view.loc (c : Thread nD τ) ↦{Transfers.shareTokN fullShare 264} f)
      ∗ (hbM1.view.loc (c : Thread nD τ) ↦{Transfers.shareTokN fullShare 263} f)
      ∗ (hbM1.view.loc (c : Thread nD τ) ↦{Transfers.shareTokN fullShare 262} f)
      ∗ (hbM1.view.loc (c : Thread nD τ) ↦{Transfers.shareTokN fullShare 261} f)
      ∗ (hbM1.view.loc (c : Thread nD τ) ↦{Transfers.shareTokN fullShare 260} f)
      ∗ (hbM1.view.loc (c : Thread nD τ) ↦{Transfers.shareTokN fullShare 259} f)
      ∗ (hbM1.view.loc (c : Thread nD τ) ↦{Transfers.shareTokN fullShare 258} f)
      ∗ (hbM1.view.loc (c : Thread nD τ) ↦{Transfers.shareTokN fullShare 257} f)
      ∗ (hbM1.view.loc (c : Thread nD τ) ↦{Transfers.shareTokN fullShare 256} f)
      ∗ (hbM1.view.loc (c : Thread nD τ) ↦{Transfers.shareTokN fullShare 255} f)
      ∗ (hbM1.view.loc (c : Thread nD τ) ↦{Transfers.shareTokN fullShare 254} f)
      ∗ (hbM1.view.loc (c : Thread nD τ) ↦{Transfers.shareTokN fullShare 253} f)
      ∗ (hbM1.view.loc (c : Thread nD τ) ↦{Transfers.shareTokN fullShare 252} f)
      ∗ (hbM1.view.loc (c : Thread nD τ) ↦{Transfers.shareTokN fullShare 251} f)
      ∗ (hbM1.view.loc (c : Thread nD τ) ↦{Transfers.shareTokN fullShare 250} f)
      ∗ (hbM1.view.loc (c : Thread nD τ) ↦{Transfers.shareTokN fullShare 249} f)
      ∗ (hbM1.view.loc (c : Thread nD τ) ↦{Transfers.shareTokN fullShare 248} f)
      ∗ (hbM1.view.loc (c : Thread nD τ) ↦{Transfers.shareTokN fullShare 247} f)
      ∗ (hbM1.view.loc (c : Thread nD τ) ↦{Transfers.shareTokN fullShare 246} f)
      ∗ (hbM1.view.loc (c : Thread nD τ) ↦{Transfers.shareTokN fullShare 245} f)
      ∗ (hbM1.view.loc (c : Thread nD τ) ↦{Transfers.shareTokN fullShare 244} f)
      ∗ (hbM1.view.loc (c : Thread nD τ) ↦{Transfers.shareTokN fullShare 243} f)
      ∗ (hbM1.view.loc (c : Thread nD τ) ↦{Transfers.shareTokN fullShare 242} f)
      ∗ (hbM1.view.loc (c : Thread nD τ) ↦{Transfers.shareTokN fullShare 241} f)
      ∗ (hbM1.view.loc (c : Thread nD τ) ↦{Transfers.shareTokN fullShare 240} f)
      ∗ (hbM1.view.loc (c : Thread nD τ) ↦{Transfers.shareTokN fullShare 239} f)
      ∗ (hbM1.view.loc (c : Thread nD τ) ↦{Transfers.shareTokN fullShare 238} f)
      ∗ (hbM1.view.loc (c : Thread nD τ) ↦{Transfers.shareTokN fullShare 237} f)
      ∗ (hbM1.view.loc (c : Thread nD τ) ↦{Transfers.shareTokN fullShare 236} f)
      ∗ (hbM1.view.loc (c : Thread nD τ) ↦{Transfers.shareTokN fullShare 235} f)
      ∗ (hbM1.view.loc (c : Thread nD τ) ↦{Transfers.shareTokN fullShare 234} f)
      ∗ (hbM1.view.loc (c : Thread nD τ) ↦{Transfers.shareTokN fullShare 233} f)
      ∗ (hbM1.view.loc (c : Thread nD τ) ↦{Transfers.shareTokN fullShare 232} f)
      ∗ (hbM1.view.loc (c : Thread nD τ) ↦{Transfers.shareTokN fullShare 231} f)
      ∗ (hbM1.view.loc (c : Thread nD τ) ↦{Transfers.shareTokN fullShare 230} f)
      ∗ (hbM1.view.loc (c : Thread nD τ) ↦{Transfers.shareTokN fullShare 229} f)
      ∗ (hbM1.view.loc (c : Thread nD τ) ↦{Transfers.shareTokN fullShare 228} f)
      ∗ (hbM1.view.loc (c : Thread nD τ) ↦{Transfers.shareTokN fullShare 227} f)
      ∗ (hbM1.view.loc (c : Thread nD τ) ↦{Transfers.shareTokN fullShare 226} f)
      ∗ (hbM1.view.loc (c : Thread nD τ) ↦{Transfers.shareTokN fullShare 225} f)
      ∗ (hbM1.view.loc (c : Thread nD τ) ↦{Transfers.shareTokN fullShare 224} f)
      ∗ (hbM1.view.loc (c : Thread nD τ) ↦{Transfers.shareTokN fullShare 223} f)
      ∗ (hbM1.view.loc (c : Thread nD τ) ↦{Transfers.shareTokN fullShare 222} f)
      ∗ (hbM1.view.loc (c : Thread nD τ) ↦{Transfers.shareTokN fullShare 221} f)
      ∗ (hbM1.view.loc (c : Thread nD τ) ↦{Transfers.shareTokN fullShare 220} f)
      ∗ (hbM1.view.loc (c : Thread nD τ) ↦{Transfers.shareTokN fullShare 219} f)
      ∗ (hbM1.view.loc (c : Thread nD τ) ↦{Transfers.shareTokN fullShare 218} f)
      ∗ (hbM1.view.loc (c : Thread nD τ) ↦{Transfers.shareTokN fullShare 217} f)
      ∗ (hbM1.view.loc (c : Thread nD τ) ↦{Transfers.shareTokN fullShare 216} f)
      ∗ (hbM1.view.loc (c : Thread nD τ) ↦{Transfers.shareTokN fullShare 215} f)
      ∗ (hbM1.view.loc (c : Thread nD τ) ↦{Transfers.shareTokN fullShare 214} f)
      ∗ (hbM1.view.loc (c : Thread nD τ) ↦{Transfers.shareTokN fullShare 213} f)
      ∗ (hbM1.view.loc (c : Thread nD τ) ↦{Transfers.shareTokN fullShare 212} f)
      ∗ (hbM1.view.loc (c : Thread nD τ) ↦{Transfers.shareTokN fullShare 211} f)
      ∗ (hbM1.view.loc (c : Thread nD τ) ↦{Transfers.shareTokN fullShare 210} f)
      ∗ (hbM1.view.loc (c : Thread nD τ) ↦{Transfers.shareTokN fullShare 209} f)
      ∗ (hbM1.view.loc (c : Thread nD τ) ↦{Transfers.shareTokN fullShare 208} f)
      ∗ (hbM1.view.loc (c : Thread nD τ) ↦{Transfers.shareTokN fullShare 207} f)
      ∗ (hbM1.view.loc (c : Thread nD τ) ↦{Transfers.shareTokN fullShare 206} f)
      ∗ (hbM1.view.loc (c : Thread nD τ) ↦{Transfers.shareTokN fullShare 205} f)
      ∗ (hbM1.view.loc (c : Thread nD τ) ↦{Transfers.shareTokN fullShare 204} f)
      ∗ (hbM1.view.loc (c : Thread nD τ) ↦{Transfers.shareTokN fullShare 203} f)
      ∗ (hbM1.view.loc (c : Thread nD τ) ↦{Transfers.shareTokN fullShare 202} f)
      ∗ (hbM1.view.loc (c : Thread nD τ) ↦{Transfers.shareTokN fullShare 201} f)
      ∗ (hbM1.view.loc (c : Thread nD τ) ↦{Transfers.shareTokN fullShare 200} f)
      ∗ (hbM1.view.loc (c : Thread nD τ) ↦{Transfers.shareTokN fullShare 199} f)
      ∗ (hbM1.view.loc (c : Thread nD τ) ↦{Transfers.shareTokN fullShare 198} f)
      ∗ (hbM1.view.loc (c : Thread nD τ) ↦{Transfers.shareTokN fullShare 197} f)
      ∗ (hbM1.view.loc (c : Thread nD τ) ↦{Transfers.shareTokN fullShare 196} f)
      ∗ (hbM1.view.loc (c : Thread nD τ) ↦{Transfers.shareTokN fullShare 195} f)
      ∗ (hbM1.view.loc (c : Thread nD τ) ↦{Transfers.shareTokN fullShare 194} f)
      ∗ (hbM1.view.loc (c : Thread nD τ) ↦{Transfers.shareTokN fullShare 193} f)
      ∗ (hbM1.view.loc (c : Thread nD τ) ↦{Transfers.shareTokN fullShare 192} f)
      ∗ (hbM1.view.loc (c : Thread nD τ) ↦{Transfers.shareTokN fullShare 191} f)
      ∗ (hbM1.view.loc (c : Thread nD τ) ↦{Transfers.shareTokN fullShare 190} f)
      ∗ (hbM1.view.loc (c : Thread nD τ) ↦{Transfers.shareTokN fullShare 189} f)
      ∗ (hbM1.view.loc (c : Thread nD τ) ↦{Transfers.shareTokN fullShare 188} f)
      ∗ (hbM1.view.loc (c : Thread nD τ) ↦{Transfers.shareTokN fullShare 187} f)
      ∗ (hbM1.view.loc (c : Thread nD τ) ↦{Transfers.shareTokN fullShare 186} f)
      ∗ (hbM1.view.loc (c : Thread nD τ) ↦{Transfers.shareTokN fullShare 185} f)
      ∗ (hbM1.view.loc (c : Thread nD τ) ↦{Transfers.shareTokN fullShare 184} f)
      ∗ (hbM1.view.loc (c : Thread nD τ) ↦{Transfers.shareTokN fullShare 183} f)
      ∗ (hbM1.view.loc (c : Thread nD τ) ↦{Transfers.shareTokN fullShare 182} f)
      ∗ (hbM1.view.loc (c : Thread nD τ) ↦{Transfers.shareTokN fullShare 181} f)
      ∗ (hbM1.view.loc (c : Thread nD τ) ↦{Transfers.shareTokN fullShare 180} f)
      ∗ (hbM1.view.loc (c : Thread nD τ) ↦{Transfers.shareTokN fullShare 179} f)
      ∗ (hbM1.view.loc (c : Thread nD τ) ↦{Transfers.shareTokN fullShare 178} f)
      ∗ (hbM1.view.loc (c : Thread nD τ) ↦{Transfers.shareTokN fullShare 177} f)
      ∗ (hbM1.view.loc (c : Thread nD τ) ↦{Transfers.shareTokN fullShare 176} f)
      ∗ (hbM1.view.loc (c : Thread nD τ) ↦{Transfers.shareTokN fullShare 175} f)
      ∗ (hbM1.view.loc (c : Thread nD τ) ↦{Transfers.shareTokN fullShare 174} f)
      ∗ (hbM1.view.loc (c : Thread nD τ) ↦{Transfers.shareTokN fullShare 173} f)
      ∗ (hbM1.view.loc (c : Thread nD τ) ↦{Transfers.shareTokN fullShare 172} f)
      ∗ (hbM1.view.loc (c : Thread nD τ) ↦{Transfers.shareTokN fullShare 171} f)
      ∗ (hbM1.view.loc (c : Thread nD τ) ↦{Transfers.shareTokN fullShare 170} f)
      ∗ (hbM1.view.loc (c : Thread nD τ) ↦{Transfers.shareTokN fullShare 169} f)
      ∗ (hbM1.view.loc (c : Thread nD τ) ↦{Transfers.shareTokN fullShare 168} f)
      ∗ (hbM1.view.loc (c : Thread nD τ) ↦{Transfers.shareTokN fullShare 167} f)
      ∗ (hbM1.view.loc (c : Thread nD τ) ↦{Transfers.shareTokN fullShare 166} f)
      ∗ (hbM1.view.loc (c : Thread nD τ) ↦{Transfers.shareTokN fullShare 165} f)
      ∗ (hbM1.view.loc (c : Thread nD τ) ↦{Transfers.shareTokN fullShare 164} f)
      ∗ (hbM1.view.loc (c : Thread nD τ) ↦{Transfers.shareTokN fullShare 163} f)
      ∗ (hbM1.view.loc (c : Thread nD τ) ↦{Transfers.shareTokN fullShare 162} f)
      ∗ (hbM1.view.loc (c : Thread nD τ) ↦{Transfers.shareTokN fullShare 161} f)
      ∗ (hbM1.view.loc (c : Thread nD τ) ↦{Transfers.shareTokN fullShare 160} f)
      ∗ (hbM1.view.loc (c : Thread nD τ) ↦{Transfers.shareTokN fullShare 159} f)
      ∗ (hbM1.view.loc (c : Thread nD τ) ↦{Transfers.shareTokN fullShare 158} f)
      ∗ (hbM1.view.loc (c : Thread nD τ) ↦{Transfers.shareTokN fullShare 157} f)
      ∗ (hbM1.view.loc (c : Thread nD τ) ↦{Transfers.shareTokN fullShare 156} f)
      ∗ (hbM1.view.loc (c : Thread nD τ) ↦{Transfers.shareTokN fullShare 155} f)
      ∗ (hbM1.view.loc (c : Thread nD τ) ↦{Transfers.shareTokN fullShare 154} f)
      ∗ (hbM1.view.loc (c : Thread nD τ) ↦{Transfers.shareTokN fullShare 153} f)
      ∗ (hbM1.view.loc (c : Thread nD τ) ↦{Transfers.shareTokN fullShare 152} f)
      ∗ (hbM1.view.loc (c : Thread nD τ) ↦{Transfers.shareTokN fullShare 151} f)
      ∗ (hbM1.view.loc (c : Thread nD τ) ↦{Transfers.shareTokN fullShare 150} f)
      ∗ (hbM1.view.loc (c : Thread nD τ) ↦{Transfers.shareTokN fullShare 149} f)
      ∗ (hbM1.view.loc (c : Thread nD τ) ↦{Transfers.shareTokN fullShare 148} f)
      ∗ (hbM1.view.loc (c : Thread nD τ) ↦{Transfers.shareTokN fullShare 147} f)
      ∗ (hbM1.view.loc (c : Thread nD τ) ↦{Transfers.shareTokN fullShare 146} f)
      ∗ (hbM1.view.loc (c : Thread nD τ) ↦{Transfers.shareTokN fullShare 145} f)
      ∗ (hbM1.view.loc (c : Thread nD τ) ↦{Transfers.shareTokN fullShare 144} f)
      ∗ (hbM1.view.loc (c : Thread nD τ) ↦{Transfers.shareTokN fullShare 143} f)
      ∗ (hbM1.view.loc (c : Thread nD τ) ↦{Transfers.shareTokN fullShare 142} f)
      ∗ (hbM1.view.loc (c : Thread nD τ) ↦{Transfers.shareTokN fullShare 141} f)
      ∗ (hbM1.view.loc (c : Thread nD τ) ↦{Transfers.shareTokN fullShare 140} f)
      ∗ (hbM1.view.loc (c : Thread nD τ) ↦{Transfers.shareTokN fullShare 139} f)
      ∗ (hbM1.view.loc (c : Thread nD τ) ↦{Transfers.shareTokN fullShare 138} f)
      ∗ (hbM1.view.loc (c : Thread nD τ) ↦{Transfers.shareTokN fullShare 137} f)
      ∗ (hbM1.view.loc (c : Thread nD τ) ↦{Transfers.shareTokN fullShare 136} f)
      ∗ (hbM1.view.loc (c : Thread nD τ) ↦{Transfers.shareTokN fullShare 135} f)
      ∗ (hbM1.view.loc (c : Thread nD τ) ↦{Transfers.shareTokN fullShare 134} f)
      ∗ (hbM1.view.loc (c : Thread nD τ) ↦{Transfers.shareTokN fullShare 133} f)
      ∗ (hbM1.view.loc (c : Thread nD τ) ↦{Transfers.shareTokN fullShare 132} f)
      ∗ (hbM1.view.loc (c : Thread nD τ) ↦{Transfers.shareTokN fullShare 131} f)
      ∗ (hbM1.view.loc (c : Thread nD τ) ↦{Transfers.shareTokN fullShare 130} f)
      ∗ (hbM1.view.loc (c : Thread nD τ) ↦{Transfers.shareTokN fullShare 129} f)
      ∗ (hbM1.view.loc (c : Thread nD τ) ↦{Transfers.shareTokN fullShare 128} f)
      ∗ (hbM1.view.loc (c : Thread nD τ) ↦{Transfers.shareTokN fullShare 127} f)
      ∗ (hbM1.view.loc (c : Thread nD τ) ↦{Transfers.shareTokN fullShare 126} f)
      ∗ (hbM1.view.loc (c : Thread nD τ) ↦{Transfers.shareTokN fullShare 125} f)
      ∗ (hbM1.view.loc (c : Thread nD τ) ↦{Transfers.shareTokN fullShare 124} f)
      ∗ (hbM1.view.loc (c : Thread nD τ) ↦{Transfers.shareTokN fullShare 123} f)
      ∗ (hbM1.view.loc (c : Thread nD τ) ↦{Transfers.shareTokN fullShare 122} f)
      ∗ (hbM1.view.loc (c : Thread nD τ) ↦{Transfers.shareTokN fullShare 121} f)
      ∗ (hbM1.view.loc (c : Thread nD τ) ↦{Transfers.shareTokN fullShare 120} f)
      ∗ (hbM1.view.loc (c : Thread nD τ) ↦{Transfers.shareTokN fullShare 119} f)
      ∗ (hbM1.view.loc (c : Thread nD τ) ↦{Transfers.shareTokN fullShare 118} f)
      ∗ (hbM1.view.loc (c : Thread nD τ) ↦{Transfers.shareTokN fullShare 117} f)
      ∗ (hbM1.view.loc (c : Thread nD τ) ↦{Transfers.shareTokN fullShare 116} f)
      ∗ (hbM1.view.loc (c : Thread nD τ) ↦{Transfers.shareTokN fullShare 115} f)
      ∗ (hbM1.view.loc (c : Thread nD τ) ↦{Transfers.shareTokN fullShare 114} f)
      ∗ (hbM1.view.loc (c : Thread nD τ) ↦{Transfers.shareTokN fullShare 113} f)
      ∗ (hbM1.view.loc (c : Thread nD τ) ↦{Transfers.shareTokN fullShare 112} f)
      ∗ (hbM1.view.loc (c : Thread nD τ) ↦{Transfers.shareTokN fullShare 111} f)
      ∗ (hbM1.view.loc (c : Thread nD τ) ↦{Transfers.shareTokN fullShare 110} f)
      ∗ (hbM1.view.loc (c : Thread nD τ) ↦{Transfers.shareTokN fullShare 109} f)
      ∗ (hbM1.view.loc (c : Thread nD τ) ↦{Transfers.shareTokN fullShare 108} f)
      ∗ (hbM1.view.loc (c : Thread nD τ) ↦{Transfers.shareTokN fullShare 107} f)
      ∗ (hbM1.view.loc (c : Thread nD τ) ↦{Transfers.shareTokN fullShare 106} f)
      ∗ (hbM1.view.loc (c : Thread nD τ) ↦{Transfers.shareTokN fullShare 105} f)
      ∗ (hbM1.view.loc (c : Thread nD τ) ↦{Transfers.shareTokN fullShare 104} f)
      ∗ (hbM1.view.loc (c : Thread nD τ) ↦{Transfers.shareTokN fullShare 103} f)
      ∗ (hbM1.view.loc (c : Thread nD τ) ↦{Transfers.shareTokN fullShare 102} f)
      ∗ (hbM1.view.loc (c : Thread nD τ) ↦{Transfers.shareTokN fullShare 101} f)
      ∗ (hbM1.view.loc (c : Thread nD τ) ↦{Transfers.shareTokN fullShare 100} f)
      ∗ (hbM1.view.loc (c : Thread nD τ) ↦{Transfers.shareTokN fullShare 99} f)
      ∗ (hbM1.view.loc (c : Thread nD τ) ↦{Transfers.shareTokN fullShare 98} f)
      ∗ (hbM1.view.loc (c : Thread nD τ) ↦{Transfers.shareTokN fullShare 97} f)
      ∗ (hbM1.view.loc (c : Thread nD τ) ↦{Transfers.shareTokN fullShare 96} f)
      ∗ (hbM1.view.loc (c : Thread nD τ) ↦{Transfers.shareTokN fullShare 95} f)
      ∗ (hbM1.view.loc (c : Thread nD τ) ↦{Transfers.shareTokN fullShare 94} f)
      ∗ (hbM1.view.loc (c : Thread nD τ) ↦{Transfers.shareTokN fullShare 93} f)
      ∗ (hbM1.view.loc (c : Thread nD τ) ↦{Transfers.shareTokN fullShare 92} f)
      ∗ (hbM1.view.loc (c : Thread nD τ) ↦{Transfers.shareTokN fullShare 91} f)
      ∗ (hbM1.view.loc (c : Thread nD τ) ↦{Transfers.shareTokN fullShare 90} f)
      ∗ (hbM1.view.loc (c : Thread nD τ) ↦{Transfers.shareTokN fullShare 89} f)
      ∗ (hbM1.view.loc (c : Thread nD τ) ↦{Transfers.shareTokN fullShare 88} f)
      ∗ (hbM1.view.loc (c : Thread nD τ) ↦{Transfers.shareTokN fullShare 87} f)
      ∗ (hbM1.view.loc (c : Thread nD τ) ↦{Transfers.shareTokN fullShare 86} f)
      ∗ (hbM1.view.loc (c : Thread nD τ) ↦{Transfers.shareTokN fullShare 85} f)
      ∗ (hbM1.view.loc (c : Thread nD τ) ↦{Transfers.shareTokN fullShare 84} f)
      ∗ (hbM1.view.loc (c : Thread nD τ) ↦{Transfers.shareTokN fullShare 83} f)
      ∗ (hbM1.view.loc (c : Thread nD τ) ↦{Transfers.shareTokN fullShare 82} f)
      ∗ (hbM1.view.loc (c : Thread nD τ) ↦{Transfers.shareTokN fullShare 81} f)
      ∗ (hbM1.view.loc (c : Thread nD τ) ↦{Transfers.shareTokN fullShare 80} f)
      ∗ (hbM1.view.loc (c : Thread nD τ) ↦{Transfers.shareTokN fullShare 79} f)
      ∗ (hbM1.view.loc (c : Thread nD τ) ↦{Transfers.shareTokN fullShare 78} f)
      ∗ (hbM1.view.loc (c : Thread nD τ) ↦{Transfers.shareTokN fullShare 77} f)
      ∗ (hbM1.view.loc (c : Thread nD τ) ↦{Transfers.shareTokN fullShare 76} f)
      ∗ (hbM1.view.loc (c : Thread nD τ) ↦{Transfers.shareTokN fullShare 75} f)
      ∗ (hbM1.view.loc (c : Thread nD τ) ↦{Transfers.shareTokN fullShare 74} f)
      ∗ (hbM1.view.loc (c : Thread nD τ) ↦{Transfers.shareTokN fullShare 73} f)
      ∗ (hbM1.view.loc (c : Thread nD τ) ↦{Transfers.shareTokN fullShare 72} f)
      ∗ (hbM1.view.loc (c : Thread nD τ) ↦{Transfers.shareTokN fullShare 71} f)
      ∗ (hbM1.view.loc (c : Thread nD τ) ↦{Transfers.shareTokN fullShare 70} f)
      ∗ (hbM1.view.loc (c : Thread nD τ) ↦{Transfers.shareTokN fullShare 69} f)
      ∗ (hbM1.view.loc (c : Thread nD τ) ↦{Transfers.shareTokN fullShare 68} f)
      ∗ (hbM1.view.loc (c : Thread nD τ) ↦{Transfers.shareTokN fullShare 67} f)
      ∗ (hbM1.view.loc (c : Thread nD τ) ↦{Transfers.shareTokN fullShare 66} f)
      ∗ (hbM1.view.loc (c : Thread nD τ) ↦{Transfers.shareTokN fullShare 65} f)
      ∗ (hbM1.view.loc (c : Thread nD τ) ↦{Transfers.shareTokN fullShare 64} f)
      ∗ (hbM1.view.loc (c : Thread nD τ) ↦{Transfers.shareTokN fullShare 63} f)
      ∗ (hbM1.view.loc (c : Thread nD τ) ↦{Transfers.shareTokN fullShare 62} f)
      ∗ (hbM1.view.loc (c : Thread nD τ) ↦{Transfers.shareTokN fullShare 61} f)
      ∗ (hbM1.view.loc (c : Thread nD τ) ↦{Transfers.shareTokN fullShare 60} f)
      ∗ (hbM1.view.loc (c : Thread nD τ) ↦{Transfers.shareTokN fullShare 59} f)
      ∗ (hbM1.view.loc (c : Thread nD τ) ↦{Transfers.shareTokN fullShare 58} f)
      ∗ (hbM1.view.loc (c : Thread nD τ) ↦{Transfers.shareTokN fullShare 57} f)
      ∗ (hbM1.view.loc (c : Thread nD τ) ↦{Transfers.shareTokN fullShare 56} f)
      ∗ (hbM1.view.loc (c : Thread nD τ) ↦{Transfers.shareTokN fullShare 55} f)
      ∗ (hbM1.view.loc (c : Thread nD τ) ↦{Transfers.shareTokN fullShare 54} f)
      ∗ (hbM1.view.loc (c : Thread nD τ) ↦{Transfers.shareTokN fullShare 53} f)
      ∗ (hbM1.view.loc (c : Thread nD τ) ↦{Transfers.shareTokN fullShare 52} f)
      ∗ (hbM1.view.loc (c : Thread nD τ) ↦{Transfers.shareTokN fullShare 51} f)
      ∗ (hbM1.view.loc (c : Thread nD τ) ↦{Transfers.shareTokN fullShare 50} f)
      ∗ (hbM1.view.loc (c : Thread nD τ) ↦{Transfers.shareTokN fullShare 49} f)
      ∗ (hbM1.view.loc (c : Thread nD τ) ↦{Transfers.shareTokN fullShare 48} f)
      ∗ (hbM1.view.loc (c : Thread nD τ) ↦{Transfers.shareTokN fullShare 47} f)
      ∗ (hbM1.view.loc (c : Thread nD τ) ↦{Transfers.shareTokN fullShare 46} f)
      ∗ (hbM1.view.loc (c : Thread nD τ) ↦{Transfers.shareTokN fullShare 45} f)
      ∗ (hbM1.view.loc (c : Thread nD τ) ↦{Transfers.shareTokN fullShare 44} f)
      ∗ (hbM1.view.loc (c : Thread nD τ) ↦{Transfers.shareTokN fullShare 43} f)
      ∗ (hbM1.view.loc (c : Thread nD τ) ↦{Transfers.shareTokN fullShare 42} f)
      ∗ (hbM1.view.loc (c : Thread nD τ) ↦{Transfers.shareTokN fullShare 41} f)
      ∗ (hbM1.view.loc (c : Thread nD τ) ↦{Transfers.shareTokN fullShare 40} f)
      ∗ (hbM1.view.loc (c : Thread nD τ) ↦{Transfers.shareTokN fullShare 39} f)
      ∗ (hbM1.view.loc (c : Thread nD τ) ↦{Transfers.shareTokN fullShare 38} f)
      ∗ (hbM1.view.loc (c : Thread nD τ) ↦{Transfers.shareTokN fullShare 37} f)
      ∗ (hbM1.view.loc (c : Thread nD τ) ↦{Transfers.shareTokN fullShare 36} f)
      ∗ (hbM1.view.loc (c : Thread nD τ) ↦{Transfers.shareTokN fullShare 35} f)
      ∗ (hbM1.view.loc (c : Thread nD τ) ↦{Transfers.shareTokN fullShare 34} f)
      ∗ (hbM1.view.loc (c : Thread nD τ) ↦{Transfers.shareTokN fullShare 33} f)
      ∗ (hbM1.view.loc (c : Thread nD τ) ↦{Transfers.shareTokN fullShare 32} f)
      ∗ (hbM1.view.loc (c : Thread nD τ) ↦{Transfers.shareTokN fullShare 31} f)
      ∗ (hbM1.view.loc (c : Thread nD τ) ↦{Transfers.shareTokN fullShare 30} f)
      ∗ (hbM1.view.loc (c : Thread nD τ) ↦{Transfers.shareTokN fullShare 29} f)
      ∗ (hbM1.view.loc (c : Thread nD τ) ↦{Transfers.shareTokN fullShare 28} f)
      ∗ (hbM1.view.loc (c : Thread nD τ) ↦{Transfers.shareTokN fullShare 27} f)
      ∗ (hbM1.view.loc (c : Thread nD τ) ↦{Transfers.shareTokN fullShare 26} f)
      ∗ (hbM1.view.loc (c : Thread nD τ) ↦{Transfers.shareTokN fullShare 25} f)
      ∗ (hbM1.view.loc (c : Thread nD τ) ↦{Transfers.shareTokN fullShare 24} f)
      ∗ (hbM1.view.loc (c : Thread nD τ) ↦{Transfers.shareTokN fullShare 23} f)
      ∗ (hbM1.view.loc (c : Thread nD τ) ↦{Transfers.shareTokN fullShare 22} f)
      ∗ (hbM1.view.loc (c : Thread nD τ) ↦{Transfers.shareTokN fullShare 21} f)
      ∗ (hbM1.view.loc (c : Thread nD τ) ↦{Transfers.shareTokN fullShare 20} f)
      ∗ (hbM1.view.loc (c : Thread nD τ) ↦{Transfers.shareTokN fullShare 19} f)
      ∗ (hbM1.view.loc (c : Thread nD τ) ↦{Transfers.shareTokN fullShare 18} f)
      ∗ (hbM1.view.loc (c : Thread nD τ) ↦{Transfers.shareTokN fullShare 17} f)
      ∗ (hbM1.view.loc (c : Thread nD τ) ↦{Transfers.shareTokN fullShare 16} f)
      ∗ (hbM1.view.loc (c : Thread nD τ) ↦{Transfers.shareTokN fullShare 15} f)
      ∗ (hbM1.view.loc (c : Thread nD τ) ↦{Transfers.shareTokN fullShare 14} f)
      ∗ (hbM1.view.loc (c : Thread nD τ) ↦{Transfers.shareTokN fullShare 13} f)
      ∗ (hbM1.view.loc (c : Thread nD τ) ↦{Transfers.shareTokN fullShare 12} f)
      ∗ (hbM1.view.loc (c : Thread nD τ) ↦{Transfers.shareTokN fullShare 11} f)
      ∗ (hbM1.view.loc (c : Thread nD τ) ↦{Transfers.shareTokN fullShare 10} f)
      ∗ (hbM1.view.loc (c : Thread nD τ) ↦{Transfers.shareTokN fullShare 9} f)
      ∗ (hbM1.view.loc (c : Thread nD τ) ↦{Transfers.shareTokN fullShare 8} f)
      ∗ (hbM1.view.loc (c : Thread nD τ) ↦{Transfers.shareTokN fullShare 7} f)
      ∗ (hbM1.view.loc (c : Thread nD τ) ↦{Transfers.shareTokN fullShare 6} f)
      ∗ (hbM1.view.loc (c : Thread nD τ) ↦{Transfers.shareTokN fullShare 5} f)
      ∗ (hbM1.view.loc (c : Thread nD τ) ↦{Transfers.shareTokN fullShare 4} f)
      ∗ (hbM1.view.loc (c : Thread nD τ) ↦{Transfers.shareTokN fullShare 3} f)
      ∗ (hbM1.view.loc (c : Thread nD τ) ↦{Transfers.shareTokN fullShare 2} f)
      ∗ (hbM1.view.loc (c : Thread nD τ) ↦{Transfers.shareTokN fullShare 1} f)
      ∗ (hbM1.view.loc (c : Thread nD τ) ↦{Transfers.shareTokN fullShare 0} f)) ⊢ hbPt c hbM1 f := by
  have h := (toks_chain (F := F) (ℓ := hbM1.view.loc (c : Thread nD τ)) f 394).2
  simp only [chainDown] at h
  exact h

end Cert.Kernel.Hand

end
-- ==== Proof.KKit.lean ====
/-
  What the frame run of this program's one pipelined call takes, besides the proof data of the body: the buffers'
  contents when the region is entered and the three index tables read off them; the program as the region followed by
  its host operations, and what those operations touch, allocate and write; the body's own transfer semaphores and the
  two data tables it copies rows of itself; the region invariant and the tables' halves spelled conjunct by conjunct;
  the body as the pipeline calls it at a point; and that every result block is written back at every point.
-/
import proofs.«414929_j28089086116333_1_alg».proof.Proof.KOps
import proofs.«414929_j28089086116333_1_alg».proof.Proof.KSems
import Idealize.ShloMosaic.Lib.Pipeline.Frame
import Idealize.ShloMosaic.Lib.Pipeline.FrameSuffix
import Idealize.ShloMosaic.Lib.Pipeline.Kit
import Idealize.ShloMosaic.Lib.StableHlo.Run
import Mathlib.Data.Fintype.Basic
import Mathlib.Tactic.FinCases

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The buffers when the region is entered -/

/-- Core `c`'s buffer contents when the region is entered, as a valuation: the launch contents, no host operation
    coming before the region. -/
abbrev V0 (c : Dev nD) : Valuation τ sig (Elt F) := StableHlo.after (List.flatten []) (fun b => m (c, b))
/-- The same read at a TensorCore reference. -/
abbrev V (c : Dev nD) (b : Ref sig .tc) : Buf (Elt F) ((c : Thread nD τ).loc b) := V0 m c (Proc.devRef .tc b)

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl
theorem V_main_arg4 (c : Dev nD) : V m c main_arg4 = m ((c : Thread nD τ).loc main_arg4) := rfl

/-! ## The index tables -/

/-- The three index tables' contents when the region is entered (there is one device: device 0's). -/
def tbl : pre0.Contents (Elt F) := fun j => V m (0 : Dev nD) (pre0.ref j)
/-- On every device the tables hold those contents. -/
theorem V_pre (c : Dev nD) (j : Fin 3) : V m c (pre0.ref j) = tbl m j := by
  obtain rfl : c = 0 := Subsingleton.elim _ _; rfl
/-- The tables' contents as admissible contents: the pipeline asks nothing of them (no window's index map reads a
    table), so its side condition is `True`. -/
abbrev adm : (pcfg0 (F := F)).Adm := ⟨tbl m, trivial⟩
/-- The pipeline at those contents. -/
abbrev cfgM : Pipeline.Cfg sig Λ₀ := cfg0 (adm m)

/-! ## The program around the region -/

theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor

/-- The program is the region followed by three stretches of host operations: it reduces to the region continued by
    them, the buffers at their launch contents. -/
theorem hmain (𝒱₀ : Variants) : Pipeline.HMainPK (Ix := Unit) (Name := ℕ) (U := Pipeline.UD sig nD τ) (Lvl := ℕ) pcfgs 0 defs₀ 𝒱₀ m (main (F := F)) (V m)
      (fun _ => Pipeline.chain [StableHlo.seq hostOps1, StableHlo.seq hostOps1_1, StableHlo.seq hostOps1_2]) :=
  Pipeline.hmainP_around pcfgs 0 defs₀ 𝒱₀ m main [] [hostOps1, hostOps1_1, hostOps1_2] (by simp only [List.Forall])
    (by simp only [List.Forall]) main_chain

/-! ## The operands the body copies rows of itself -/

/-- The two data tables, as references: the body reads rows of them by copies of its own. -/
def H0 : Finset (Ref sig .tc) := {main_arg0, main_arg1}
/-- They are unscoped, no window's array and no index table. -/
theorem H0_sub : H0 ⊆ Pipeline.restRefsP sig pre0 spec0 := by decide

/-! ## The host operations after the region -/

/-- An operation on TensorCore buffers that touches no index table and no data table is one the lines after the region
    may run. -/
theorem sub_tail_of (op : HloOp τ sig (Elt F)) (h₁ : op.bufs ⊆ StableHlo.tcRefs τ sig)
    (h : ∀ b ∈ ([main_arg2, main_arg3, main_arg4, main_arg0, main_arg1] : List (Ref sig .tc)), Proc.devRef .tc b ∉ op.bufs) :
    op.bufs ⊆ Pipeline.tailRefsBut sig pre0 spec0 H0 :=
  Pipeline.sub_tailRefsBut pre0 spec0 H0 op h₁
    (fun k => by fin_cases k <;> exact h _ (by decide))
    (fun b hb => by
      simp only [H0, Finset.mem_insert, Finset.mem_singleton] at hb
      rcases hb with rfl | rfl <;> exact h _ (by simp))

/-- The lines after the region touch the result arrays and the buffers that bypass the region, never an index table or
    a data table. -/
theorem sfx_sub : ∀ ops ∈ ([hostOps1, hostOps1_1, hostOps1_2] : List (List (HloOp τ sig (Elt F)))), ∀ op ∈ ops,
    op.bufs ⊆ Pipeline.tailRefsBut sig pre0 spec0 H0 := by
  intro ops hops op hop
  simp only [List.mem_cons, List.mem_nil_iff, or_false] at hops
  rcases hops with rfl | rfl | rfl
  · refine sub_tail_of op ((List.forall_iff_forall_mem.mp hostOps1_sub) op hop) ?_
    simp only [hostOps1, List.mem_cons, List.mem_nil_iff, or_false] at hop
    rcases hop with rfl | rfl | rfl | rfl | rfl | rfl | rfl | rfl | rfl | rfl | rfl | rfl | rfl | rfl | rfl | rfl
    all_goals
      intro b hb
      simp only [List.mem_cons, List.mem_nil_iff, or_false] at hb
      rcases hb with rfl | rfl | rfl | rfl | rfl <;>
        simp only [StableHlo.nullary_bufs, StableHlo.unary_bufs, StableHlo.binary_bufs, StableHlo.ternary_bufs, StableHlo.reshape_bufs,
          Finset.mem_insert, Finset.mem_singleton, not_or] <;>
        and_intros <;> exact StableHlo.devRef_ne_of_ne (by decide)
  · refine sub_tail_of op ((List.forall_iff_forall_mem.mp hostOps1_1_sub) op hop) ?_
    simp only [hostOps1_1, List.mem_cons, List.mem_nil_iff, or_false] at hop
    rcases hop with rfl | rfl | rfl | rfl | rfl | rfl | rfl | rfl | rfl | rfl | rfl | rfl | rfl | rfl | rfl | rfl
    all_goals
      intro b hb
      simp only [List.mem_cons, List.mem_nil_iff, or_false] at hb
      rcases hb with rfl | rfl | rfl | rfl | rfl <;>
        simp only [StableHlo.nullary_bufs, StableHlo.unary_bufs, StableHlo.binary_bufs, StableHlo.ternary_bufs, StableHlo.reshape_bufs,
          Finset.mem_insert, Finset.mem_singleton, not_or] <;>
        and_intros <;> exact StableHlo.devRef_ne_of_ne (by decide)
  · refine sub_tail_of op ((List.forall_iff_forall_mem.mp hostOps1_2_sub) op hop) ?_
    simp only [hostOps1_2, List.mem_cons, List.mem_nil_iff, or_false] at hop
    rcases hop with rfl | rfl | rfl | rfl | rfl
    all_goals
      intro b hb
      simp only [List.mem_cons, List.mem_nil_iff, or_false] at hb
      rcases hb with rfl | rfl | rfl | rfl | rfl <;>
        simp only [StableHlo.nullary_bufs, StableHlo.unary_bufs, StableHlo.binary_bufs, StableHlo.ternary_bufs, StableHlo.reshape_bufs,
          Finset.mem_insert, Finset.mem_singleton, not_or] <;>
        and_intros <;> exact StableHlo.devRef_ne_of_ne (by decide)

/-- They allocate nothing. -/
theorem sfx_fresh : ∀ ops ∈ ([hostOps1, hostOps1_1, hostOps1_2] : List (List (HloOp τ sig (Elt F)))), ∀ op ∈ ops, op.fresh = ∅ := by
  intro ops hops op hop
  simp only [List.mem_cons, List.mem_nil_iff, or_false] at hops
  rcases hops with rfl | rfl | rfl
  · exact (List.forall_iff_forall_mem.mp hostOps1_fresh) op hop
  · exact (List.forall_iff_forall_mem.mp hostOps1_1_fresh) op hop
  · exact (List.forall_iff_forall_mem.mp hostOps1_2_fresh) op hop

/-- And write no result array of the pipeline: each writes one buffer of its own, which is no array. -/
theorem sfx_keeps : ∀ ops ∈ ([hostOps1, hostOps1_1, hostOps1_2] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl | rfl | rfl
  · simp only [hostOps1, List.mem_cons, List.mem_nil_iff, or_false] at hop
    rcases hop with rfl | rfl | rfl | rfl | rfl | rfl | rfl | rfl | rfl | rfl | rfl | rfl | rfl | rfl | rfl | rfl
    all_goals intro w; fin_cases w <;> simp only [StableHlo.nullary_writes, StableHlo.unary_writes, StableHlo.binary_writes, StableHlo.ternary_writes, StableHlo.reshape_writes, Finset.mem_singleton] <;> exact StableHlo.devRef_ne_of_ne (by decide)
  · simp only [hostOps1_1, List.mem_cons, List.mem_nil_iff, or_false] at hop
    rcases hop with rfl | rfl | rfl | rfl | rfl | rfl | rfl | rfl | rfl | rfl | rfl | rfl | rfl | rfl | rfl | rfl
    all_goals intro w; fin_cases w <;> simp only [StableHlo.nullary_writes, StableHlo.unary_writes, StableHlo.binary_writes, StableHlo.ternary_writes, StableHlo.reshape_writes, Finset.mem_singleton] <;> exact StableHlo.devRef_ne_of_ne (by decide)
  · simp only [hostOps1_2, List.mem_cons, List.mem_nil_iff, or_false] at hop
    rcases hop with rfl | rfl | rfl | rfl | rfl
    all_goals intro w; fin_cases w <;> simp only [StableHlo.nullary_writes, StableHlo.unary_writes, StableHlo.binary_writes, StableHlo.ternary_writes, StableHlo.reshape_writes, Finset.mem_singleton] <;> exact StableHlo.devRef_ne_of_ne (by decide)

/-! ## The body's own transfer semaphores -/

/-- The body's own cells, in pool order: cell `10 + k` for `k < 384` (three arrays of 128, one after the other). -/
abbrev osem0 : Fin 384 → SemLoc sig := fun k => SemLoc.dma ⟨10 + k.val, by have := k.isLt; show 10 + k.val < 394; omega⟩

/-- Every staging semaphore of the pipeline lies below the body's own cells. -/
theorem winSem_lt : ∀ (w : Fin 5) (s : Fin (spec0 w).nbuf), ((spec0 w).sem s).val < 10 := by decide

/-- The own cells are scoped, pairwise distinct, and none is a window's staging semaphore. -/
theorem ownSemFacts0 : Pipeline.OwnSemFacts spec0 osem0 where
  isScoped := by decide
  inj := fun a b h => by
    have h' := congrArg Fin.val (SemLoc.dma.inj h)
    exact Fin.ext (by simp only at h'; omega)
  disj := fun k w s h => by
    have h' := congrArg Fin.val (SemLoc.dma.inj h)
    have := winSem_lt w s
    simp only at h'; omega

/-- The own cells at zero, cell by cell. -/
theorem ownSems00_eq (c : Dev nD) :
    (Pipeline.ownSems0 (Ix := Unit) (Name := ℕ) (U := Pipeline.UD sig nD τ) (Lvl := ℕ) (Val := Elt F) (τ := τ) osem0 c : sProp 𝕄)
      = semsZero c := by
  rw [Pipeline.ownSems0_eq_of_list c osem0 (List.finRange 384) (List.toFinset_finRange 384).symm (List.nodup_finRange 384)]
  rfl

/-! ## The region invariant, conjunct by conjunct -/

/-- The two data tables' points-tos at the launch contents, one by one. -/
theorem hbmPts0_eq (c : Dev nD) :
    (bigSep H0 (fun b => ((c : Thread nD τ).loc b) ↦{fullShare} V m c b) : sProp 𝕄)
      = iprop(hbPt c hbM0 (V m c main_arg0) ∗ hbPt c hbM1 (V m c main_arg1)) := by
  rw [BI.bigSep_eq_bigSepL_of_eq [main_arg0, main_arg1] (by decide) (by decide)]; rfl

/-- The invariant of a body with transfers of its own, conjunct by conjunct: the three scratch buffers owned at some
    contents, the generator register at some state, the own cells at zero, the two data tables whole at their launch
    contents. -/
theorem PhiD0_eq (c : Dev nD) :
    (Pipeline.ΦD osem0 spec0 H0 (V m) c : sProp 𝕄)
      = iprop(iprop((∃ d, owns (c : Thread nD τ) scM0 fullShare d) ∗ (∃ d, owns (c : Thread nD τ) scM1 fullShare d) ∗ (∃ d, owns (c : Thread nD τ) scM2 fullShare d))
          ∗ (∃ r, prngReg c r) ∗ semsZero c ∗ iprop(hbPt c hbM0 (V m c main_arg0) ∗ hbPt c hbM1 (V m c main_arg1))) := by
  rw [Pipeline.ΦD_eq, scopedRest0_eq, ownSems00_eq, hbmPts0_eq]; simp only [scM0, scM1, scM2, owns_whole]; try rfl

/-- The index tables' halves the region hands the body, table by table. -/
theorem PhiT0_eq (c : Dev nD) :
    (Pipeline.ΦT pre0 (tbl m) c : sProp 𝕄) = iprop(tbPt c tbM0 (tbl m 0) ∗ tbPt c tbM1 (tbl m 1) ∗ tbPt c tbM2 (tbl m 2)) := by
  unfold Pipeline.ΦT Pipeline.prefHeld
  rw [show (Finset.univ : Finset (Fin 3)) = insert (0 : Fin 3) (insert (1 : Fin 3) {(2 : Fin 3)}) from by decide,
    bigSep_insert (by decide), bigSep_insert (by decide), bigSep_singleton]
  rfl

/-! ## The body as the pipeline calls it -/

/-- Each result window's current staging memref at point `t`, and its wholeness. -/
abbrev ms0_0 (t : Fin (cfgM m).N) : Memref sig .tc .vmem S128x1 .f32 := spec0_0.stage ((cfgM m).slots t 0)
abbrev hs0_0 (t : Fin (cfgM m).N) : (ms0_0 m t).IsWhole := hstage0_0 (((cfgM m).slots t 0).cast nbuf0_0)
abbrev ms0_1 (t : Fin (cfgM m).N) : Memref sig .tc .vmem S128x1 .f32 := spec0_1.stage ((cfgM m).slots t 1)
abbrev hs0_1 (t : Fin (cfgM m).N) : (ms0_1 m t).IsWhole := hstage0_1 (((cfgM m).slots t 1).cast nbuf0_1)
abbrev ms0_2 (t : Fin (cfgM m).N) : Memref sig .tc .vmem S128x1 .f32 := spec0_2.stage ((cfgM m).slots t 2)
abbrev hs0_2 (t : Fin (cfgM m).N) : (ms0_2 m t).IsWhole := hstage0_2 (((cfgM m).slots t 2).cast nbuf0_2)
abbrev ms0_3 (t : Fin (cfgM m).N) : Memref sig .tc .vmem S128x1 .f32 := spec0_3.stage ((cfgM m).slots t 3)
abbrev hs0_3 (t : Fin (cfgM m).N) : (ms0_3 m t).IsWhole := hstage0_3 (((cfgM m).slots t 3).cast nbuf0_3)
abbrev ms0_4 (t : Fin (cfgM m).N) : Memref sig .tc .vmem S128x1 .f32 := spec0_4.stage ((cfgM m).slots t 4)
abbrev hs0_4 (t : Fin (cfgM m).N) : (ms0_4 m t).IsWhole := hstage0_4 (((cfgM m).slots t 4).cast nbuf0_4)

/-- The kernel body at point `t`, on what the pipeline calls it with: the index tables, the data tables, the five
    current staging memrefs, the scratch buffers and the three semaphore arrays. -/
abbrev bodyAt0 (t : Fin (cfgM m).N) : Prog (TpuEff nD τ sig (Elt F) Λ₀ .tc) PUnit :=
  cc0__gather_kernel (grid0.coords t) tbM0 (Memref.isWhole_whole _) tbM1 (Memref.isWhole_whole _) tbM2 (Memref.isWhole_whole _)
    hbM0 (Memref.isWhole_whole _) hbM1 (Memref.isWhole_whole _)
    (ms0_0 m t) (hs0_0 m t) (ms0_1 m t) (hs0_1 m t) (ms0_2 m t) (hs0_2 m t) (ms0_3 m t) (hs0_3 m t) (ms0_4 m t) (hs0_4 m t)
    scM0 (Memref.isWhole_whole _) scM1 (Memref.isWhole_whole _) scM2 (Memref.isWhole_whole _) cc0_scratch3 cc0_scratch4 cc0_scratch5

/-! ## Where the result windows are written back -/

/-- Each result window's block index is the point's (its index map is `(t, 0)` and reads no table), so it moves at
    every point and the block is written back at every point — at any contents of the tables. -/
theorem flush0_0_at (a : (pcfg0 (F := F)).Adm) : ∀ t : Fin (cfg0 a).N, ((cfg0 a).win 0).flush t = true :=
  (by decide +kernel : ∀ t : Fin grid0.N, Pipeline.Window.flushOf grid0 true cc0_transform_2 t = true)
theorem flush0_1_at (a : (pcfg0 (F := F)).Adm) : ∀ t : Fin (cfg0 a).N, ((cfg0 a).win 1).flush t = true :=
  (by decide +kernel : ∀ t : Fin grid0.N, Pipeline.Window.flushOf grid0 true cc0_transform_3 t = true)
theorem flush0_2_at (a : (pcfg0 (F := F)).Adm) : ∀ t : Fin (cfg0 a).N, ((cfg0 a).win 2).flush t = true :=
  (by decide +kernel : ∀ t : Fin grid0.N, Pipeline.Window.flushOf grid0 true cc0_transform_4 t = true)
theorem flush0_3_at (a : (pcfg0 (F := F)).Adm) : ∀ t : Fin (cfg0 a).N, ((cfg0 a).win 3).flush t = true :=
  (by decide +kernel : ∀ t : Fin grid0.N, Pipeline.Window.flushOf grid0 true cc0_transform_5 t = true)
theorem flush0_4_at (a : (pcfg0 (F := F)).Adm) : ∀ t : Fin (cfg0 a).N, ((cfg0 a).win 4).flush t = true :=
  (by decide +kernel : ∀ t : Fin grid0.N, Pipeline.Window.flushOf grid0 true cc0_transform_6 t = true)

theorem flush0_0 : ∀ t : Fin (cfgM m).N, ((cfgM m).win 0).flush t = true := flush0_0_at (adm m)
theorem flush0_1 : ∀ t : Fin (cfgM m).N, ((cfgM m).win 1).flush t = true := flush0_1_at (adm m)
theorem flush0_2 : ∀ t : Fin (cfgM m).N, ((cfgM m).win 2).flush t = true := flush0_2_at (adm m)
theorem flush0_3 : ∀ t : Fin (cfgM m).N, ((cfgM m).win 3).flush t = true := flush0_3_at (adm m)
theorem flush0_4 : ∀ t : Fin (cfgM m).N, ((cfgM m).win 4).flush t = true := flush0_4_at (adm m)

end Cert.Kernel.Hand

end
-- ==== Proof.KGath.lean ====
/-
  The three gathered blocks, and the five stored columns as closed terms.

  At grid point p the body fills row r of a 128 × 64 scratch buffer with the table row addressed by entry 128·p + r of an
  index table.  `gath` is that block as a function of the table's contents and the index table's words; it is total:
  the entry number is taken modulo the index table's length and the addressed row modulo the table's height, and
  where the entry number is below the length and the word addresses a row of the table these are the numbers
  themselves (`rowIdx_val`, `gath_apply`).  The body stores five 128 × 1 columns, each one store of the whole block:
  the row sums of the products of two gathered blocks — `runL` lists them.
-/
import proofs.«414929_j28089086116333_1_alg».proof.Proof.KOps
import proofs.«414929_j28089086116333_1_alg».proof.Proof.Gen.Kernel.Skeleton
import Idealize.ShloMosaic.Lib.ValueIdx

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

open ValueIdx

/-- Entry number 128·p + r of an index table of 16384 words, for the grid point whose coordinate is p. -/
def rowIdx (i : grid0.Coords) (r : Fin 128) : Fin 16384 := ⟨(128 * (i 0).val + r.val) % 16384, Nat.mod_lt _ (by decide)⟩

/-- Below the table's length the entry number is 128·p + r itself. -/
theorem rowIdx_val (i : grid0.Coords) (r : Fin 128) (h : 128 * (i 0).val + r.val < 16384) :
    (rowIdx i r).val = 128 * (i 0).val + r.val := Nat.mod_eq_of_lt h

/-- The block gathered at a grid point: row r is the row of `tab` addressed by word `rowIdx i r` of `words`. -/
def gath {n : ℕ} (hn : 0 < n) (tab : (⟨2, ![n, 64]⟩ : Shape).Idx → Elt F .f32) (words : S16384.Idx → BitVec 32)
    (i : grid0.Coords) : Vec F S128x64 .f32 :=
  fun y => tab (ix2 (⟨(words (ix1 (rowIdx i ⟨(y 0).val, (y 0).isLt⟩))).toNat % n, Nat.mod_lt _ hn⟩ : Fin n)
    (⟨(y 1).val, (y 1).isLt⟩ : Fin 64))

/-- Where the word addresses a row of the table, the gathered block's entry (r, q) is the table's entry (word, q). -/
theorem gath_apply {n : ℕ} (hn : 0 < n) (tab : (⟨2, ![n, 64]⟩ : Shape).Idx → Elt F .f32) (words : S16384.Idx → BitVec 32)
    (i : grid0.Coords) (r : Fin 128) (q : Fin 64) (hw : (words (ix1 (rowIdx i r))).toNat < n) :
    gath hn tab words i (ix2 r q) = tab (ix2 (⟨(words (ix1 (rowIdx i r))).toNat, hw⟩ : Fin n) q) := by
  have e : (⟨(words (ix1 (rowIdx i r))).toNat % n, Nat.mod_lt _ hn⟩ : Fin n) = ⟨(words (ix1 (rowIdx i r))).toNat, hw⟩ :=
    Fin.ext (Nat.mod_eq_of_lt hw)
  show tab (ix2 (⟨(words (ix1 (rowIdx i r))).toNat % n, Nat.mod_lt _ hn⟩ : Fin n) q) = _
  rw [e]

variable (c : Dev nD) (i : grid0.Coords)

/-- Rows of the first table addressed by the first index table. -/
def gU (xt0 : BufOf (F := F) c tbM0) (fh0 : BufOf (F := F) c hbM0) : Vec F S128x64 .f32 :=
  gath (by decide) (hbM0.view.read (Elt F) fh0) (tbM0.view.read (Elt F) xt0) i
/-- Rows of the second table addressed by the second index table. -/
def gVi (xt1 : BufOf (F := F) c tbM1) (fh1 : BufOf (F := F) c hbM1) : Vec F S128x64 .f32 :=
  gath (by decide) (hbM1.view.read (Elt F) fh1) (tbM1.view.read (Elt F) xt1) i
/-- Rows of the second table addressed by the third index table. -/
def gVj (xt2 : BufOf (F := F) c tbM2) (fh1 : BufOf (F := F) c hbM1) : Vec F S128x64 .f32 :=
  gath (by decide) (hbM1.view.read (Elt F) fh1) (tbM2.view.read (Elt F) xt2) i

/-- Entry (r, q) of the first gathered block is the first table's entry (word, q). -/
theorem gU_apply (xt0 : BufOf (F := F) c tbM0) (fh0 : BufOf (F := F) c hbM0) (r : Fin 128) (q : Fin 64)
    (hw : (tbM0.view.read (Elt F) xt0 (ix1 (rowIdx i r))).toNat < 1000000) :
    gU c i xt0 fh0 (ix2 r q)
      = hbM0.view.read (Elt F) fh0 (ix2 (⟨(tbM0.view.read (Elt F) xt0 (ix1 (rowIdx i r))).toNat, hw⟩ : Fin 1000000) q) :=
  gath_apply _ _ _ i r q hw
/-- Entry (r, q) of the second gathered block is the second table's entry (word, q). -/
theorem gVi_apply (xt1 : BufOf (F := F) c tbM1) (fh1 : BufOf (F := F) c hbM1) (r : Fin 128) (q : Fin 64)
    (hw : (tbM1.view.read (Elt F) xt1 (ix1 (rowIdx i r))).toNat < 500000) :
    gVi c i xt1 fh1 (ix2 r q)
      = hbM1.view.read (Elt F) fh1 (ix2 (⟨(tbM1.view.read (Elt F) xt1 (ix1 (rowIdx i r))).toNat, hw⟩ : Fin 500000) q) :=
  gath_apply _ _ _ i r q hw
/-- Entry (r, q) of the third gathered block is the second table's entry (word, q), the word from the third index table. -/
theorem gVj_apply (xt2 : BufOf (F := F) c tbM2) (fh1 : BufOf (F := F) c hbM1) (r : Fin 128) (q : Fin 64)
    (hw : (tbM2.view.read (Elt F) xt2 (ix1 (rowIdx i r))).toNat < 500000) :
    gVj c i xt2 fh1 (ix2 r q)
      = hbM1.view.read (Elt F) fh1 (ix2 (⟨(tbM2.view.read (Elt F) xt2 (ix1 (rowIdx i r))).toNat, hw⟩ : Fin 500000) q) :=
  gath_apply _ _ _ i r q hw

/-- The five columns the body stores, each one store of its whole 128 × 1 block: the row sums of first·second, first·third,
    first·first, second·second, third·third. -/
def runL (xt0 : BufOf (F := F) c tbM0) (xt1 : BufOf (F := F) c tbM1) (xt2 : BufOf (F := F) c tbM2)
    (fh0 : BufOf (F := F) c hbM0) (fh1 : BufOf (F := F) c hbM1) :
    List (View.Piece (Elt F) S128x1 .f32) × List (View.Piece (Elt F) S128x1 .f32) × List (View.Piece (Elt F) S128x1 .f32)
      × List (View.Piece (Elt F) S128x1 .f32) × List (View.Piece (Elt F) S128x1 .f32) :=
  ([⟨Rect.whole S128x1, k0_pay2 (gU c i xt0 fh0) (gVi c i xt1 fh1)⟩],
   [⟨Rect.whole S128x1, k0_pay3 (gU c i xt0 fh0) (gVj c i xt2 fh1)⟩],
   [⟨Rect.whole S128x1, k0_pay4 (gU c i xt0 fh0)⟩],
   [⟨Rect.whole S128x1, k0_pay5 (gVi c i xt1 fh1)⟩],
   [⟨Rect.whole S128x1, k0_pay1 (k0_pay6 (gVj c i xt2 fh1))⟩])

end Cert.Kernel.Hand

end
-- ==== Proof.KUp.lean ====
/-
  Ascending chains.

  A finite family of resources `Φ lo, Φ (lo + 1), …, Φ (lo + n − 1)` held together can be written as the chain
  `Φ lo ∗ (Φ (lo + 1) ∗ (… ∗ (Φ (lo + n − 1) ∗ emp)))`: its head is the family's first member, which is what a body that
  uses the members in increasing order takes next.  Separating conjunction is associative and `emp` is its unit, as
  EQUATIONS between assertions, so that regrouping a long chain is rewriting.
-/
import proofs.«414929_j28089086116333_1_alg».proof.Proof.KTok

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.Sem

variable {F : FTy → Type} [FloatOps F]

local notation "𝕄" => MT nD τ sig Unit (Elt F) ℕ (Pipeline.UD sig nD τ) ℕ

theorem sep_assoc_eq (P Q R : sProp 𝕄) : (iprop((P ∗ Q) ∗ R) : sProp 𝕄) = iprop(P ∗ (Q ∗ R)) :=
  BI.equiv_iff.mp ⟨sep_assoc, sep_assoc'⟩
theorem sep_emp_eq (P : sProp 𝕄) : (iprop(P ∗ emp) : sProp 𝕄) = P := BI.equiv_iff.mp sep_emp
theorem emp_sep_eq (P : sProp 𝕄) : (iprop(emp ∗ P) : sProp 𝕄) = P := BI.equiv_iff.mp emp_sep

/-- `Φ lo ∗ (Φ (lo + 1) ∗ (… ∗ (Φ (lo + n − 1) ∗ emp)))`. -/
def chainUp (Φ : ℕ → sProp 𝕄) : ℕ → ℕ → sProp 𝕄
  | _, 0 => BI.emp
  | lo, n + 1 => iprop(Φ lo ∗ chainUp Φ (lo + 1) n)

/-- The separating conjunction over `lo, …, lo + n − 1` is that chain. -/
theorem bigSep_Ico_eq_chainUp (Φ : ℕ → sProp 𝕄) : ∀ n lo, bigSep (Finset.Ico lo (lo + n)) Φ = chainUp Φ lo n
  | 0, lo => by rw [Nat.add_zero, Finset.Ico_self, bigSep_empty]; rfl
  | n + 1, lo => by
    have h : Finset.Ico lo (lo + (n + 1)) = insert lo (Finset.Ico (lo + 1) (lo + 1 + n)) := by
      ext x; simp only [Finset.mem_Ico, Finset.mem_insert]; omega
    rw [h, bigSep_insert (by simp only [Finset.mem_Ico]; omega), bigSep_Ico_eq_chainUp Φ n (lo + 1)]; rfl

/-- Over `0, …, n − 1`. -/
theorem bigSep_range_eq_chainUp (Φ : ℕ → sProp 𝕄) (n : ℕ) : bigSep (Finset.range n) Φ = chainUp Φ 0 n := by
  rw [Finset.range_eq_Ico]; simpa using bigSep_Ico_eq_chainUp Φ n 0

/-! ## A table's read tokens, the ones the rows take in ascending chains -/

/-- The `i`-th read token of a buffer held at contents `f`. -/
abbrev tokAt {ℓ : Loc nD τ sig} (f : Buf (Elt F) ℓ) (i : ℕ) : sProp 𝕄 := ℓ ↦{Transfers.shareTokN fullShare i} f

/-- A range cut into an initial segment and an ascending chain. -/
theorem bigSep_range_cut (Φ : ℕ → sProp 𝕄) (lo n : ℕ) :
    bigSep (Finset.range (lo + n)) Φ = iprop(bigSep (Finset.range lo) Φ ∗ chainUp Φ lo n) := by
  have hr : Finset.range (lo + n) = Finset.range lo ∪ Finset.Ico lo (lo + n) := by
    ext x; simp only [Finset.mem_range, Finset.mem_union, Finset.mem_Ico]; omega
  have hd : Disjoint (Finset.range lo) (Finset.Ico lo (lo + n)) := by
    rw [Finset.disjoint_left]; intro x hx hx'; simp only [Finset.mem_range] at hx; simp only [Finset.mem_Ico] at hx'; omega
  rw [hr, bigSep_union hd, bigSep_Ico_eq_chainUp]; rfl

/-- … and into an initial segment and two ascending chains. -/
theorem bigSep_range_cut2 (Φ : ℕ → sProp 𝕄) (lo n k : ℕ) :
    bigSep (Finset.range (lo + n + k)) Φ = iprop(bigSep (Finset.range lo) Φ ∗ chainUp Φ lo n ∗ chainUp Φ (lo + n) k) := by
  have hr : Finset.range (lo + n + k) = Finset.range (lo + n) ∪ Finset.Ico (lo + n) (lo + n + k) := by
    ext x; simp only [Finset.mem_range, Finset.mem_union, Finset.mem_Ico]; omega
  have hd : Disjoint (Finset.range (lo + n)) (Finset.Ico (lo + n) (lo + n + k)) := by
    rw [Finset.disjoint_left]; intro x hx hx'; simp only [Finset.mem_range] at hx; simp only [Finset.mem_Ico] at hx'; omega
  rw [hr, bigSep_union hd, bigSep_Ico_eq_chainUp, bigSep_range_cut Φ lo n]
  exact sep_assoc_eq _ _ _

/-- A buffer held whole: the remainder after `lo + n` tokens, the tokens below `lo` (kept together), and the tokens
    `lo, …, lo + n − 1` as an ascending chain. -/
theorem toks_up {ℓ : Loc nD τ sig} (f : Buf (Elt F) ℓ) (lo n : ℕ) :
    (ℓ ↦{fullShare} f : sProp 𝕄)
      ⊣⊢ iprop((ℓ ↦{Transfers.shareDrop fullShare (lo + n)} f) ∗ bigSep (Finset.range lo) (tokAt f) ∗ chainUp (tokAt f) lo n) := by
  have h := Transfers.pointsTo_toks_range (Ix := Unit) (Val := Elt F) (Name := ℕ) (U := Pipeline.UD sig nD τ) (Lvl := ℕ) (ℓ := ℓ) (S := Finset.univ) (f := f) fullShare (lo + n)
  rw [bigSep_range_cut] at h
  exact h

/-- The same with two ascending chains, `lo, …, lo + n − 1` and `lo + n, …, lo + n + k − 1`. -/
theorem toks_up2 {ℓ : Loc nD τ sig} (f : Buf (Elt F) ℓ) (lo n k : ℕ) :
    (ℓ ↦{fullShare} f : sProp 𝕄)
      ⊣⊢ iprop((ℓ ↦{Transfers.shareDrop fullShare (lo + n + k)} f) ∗ bigSep (Finset.range lo) (tokAt f)
          ∗ chainUp (tokAt f) lo n ∗ chainUp (tokAt f) (lo + n) k) := by
  have h := Transfers.pointsTo_toks_range (Ix := Unit) (Val := Elt F) (Name := ℕ) (U := Pipeline.UD sig nD τ) (Lvl := ℕ) (ℓ := ℓ) (S := Finset.univ) (f := f) fullShare (lo + n + k)
  rw [bigSep_range_cut2] at h
  exact h

end Cert.Kernel.Hand

end
-- ==== Proof.KRows.lean ====
/-
  A 128 × 64 buffer held as its 128 rows.

  The kernel body copies one table row into each row of a 128 × 64 scratch buffer, many copies in flight at once,
  waits for all of them, then loads the buffer whole.  Held as 128 separate ROW PIECES, each copy's destination is a
  piece held by exactly its own elements; before the whole load the pieces are joined back.

  The row memref is the buffer's memref restricted to the unit-stride rectangle at offsets `(r, 0)` of sizes
  `(1, 64)`, with the unit axis dropped.  Dropping an axis keeps the elements, so the row's element set is the
  rectangle's, carried into the buffer by the memref's placement: the placed indices `(p, q)` with `p = r`.

    * two different rows are separated on axis 0, so their element sets are disjoint;
    * every index `(p, q)` of the 128 × 64 shape lies in row `p`, so the rows cover the memref's elements;
    * a points-to over a union of pairwise disjoint element sets is the separating conjunction of the points-tos
      over the sets, and pieces held at different contents join to some contents agreeing with each on its set;
    * the row memref places its index `x` where the buffer's memref places `(r, x)`.

  For any memref of that shape: nothing here asks that it be a whole buffer.
-/
import proofs.«414929_j28089086116333_1_alg».proof.Proof.KOps
import Idealize.ShloMosaic.Rules.PointsTo
import Idealize.ShloMosaic.Lib.ValueIdx

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ## The row memref and its element set -/

/-- Row `r` of a 128 × 64 shape lies inside it. -/
theorem row_inb {r : ℕ} (hr : r < 128) :
    ∀ a, (![r, 0] : Fin 2 → Nat) a + S1x64.size a ≤ S128x64.size a :=
  Rect.inb₂ (show r + 1 ≤ 128 by omega) (show 0 + 64 ≤ 64 by omega)

/-- Row `r` of `M`, as a copy's destination is spelt: the slice at offsets `(r, 0)` of sizes `(1, 64)`, its unit axis
    dropped. -/
abbrev rowM (M : Memref sig .tc .vmem S128x64 .f32) (r : ℕ)
    (hinb : ∀ a, (![r, 0] : Fin 2 → Nat) a + S1x64.size a ≤ S128x64.size a) : Memref sig .tc .vmem S64 .f32 :=
  (M.slice (Rect.unit (s := S128x64) ![r, 0] S1x64.size hinb) (fun _ => rfl)).squeeze S64 squeezes_S1x64_S64

/-- The buffer elements of row `r` of `M` (none past the last row). -/
def rowSet (M : Memref sig .tc .vmem S128x64 .f32) (r : ℕ) : Finset M.view.ty.Idx :=
  if hr : r < 128 then (rowM M r (row_inb hr)).view.set else ∅

/-- The row's elements are its rectangle's, placed in the buffer as `M` places them. -/
theorem rowSet_eq (M : Memref sig .tc .vmem S128x64 .f32) {r : ℕ} (hr : r < 128) :
    rowSet M r = (Rect.unit (s := S128x64) ![r, 0] S1x64.size (row_inb hr)).set.map M.view.emb := by
  unfold rowSet
  rw [dif_pos hr]
  show ((M.view.slice (Rect.unit (s := S128x64) ![r, 0] S1x64.size (row_inb hr))).reshape S64
    squeezes_S1x64_S64.numel_eq).set = _
  rw [View.set_reshape, View.set_slice]

/-- Two different rows share no element. -/
theorem rowSet_disjoint (M : Memref sig .tc .vmem S128x64 .f32) {r r' : ℕ} (h : r ≠ r') :
    Disjoint (rowSet M r) (rowSet M r') := by
  by_cases hr : r < 128
  · by_cases hr' : r' < 128
    · rw [rowSet_eq M hr, rowSet_eq M hr', Finset.disjoint_map]
      exact Rect.unit_disjoint (0 : Fin 2) (show r + 1 ≤ r' ∨ r' + 1 ≤ r by omega)
    · unfold rowSet
      rw [dif_neg hr']
      exact Finset.disjoint_empty_right _
  · unfold rowSet
    rw [dif_neg hr]
    exact Finset.disjoint_empty_left _

/-- A placed index `(p, q)` is an element of row `r` exactly when `p = r`. -/
theorem mem_rowSet (M : Memref sig .tc .vmem S128x64 .f32) {r : ℕ} (hr : r < 128) (j : S128x64.Idx) :
    M.view.emb j ∈ rowSet M r ↔ (j 0).val = r := by
  rw [rowSet_eq M hr, Finset.mem_map', Rect.mem_set_unit]
  have h1 : (j 1).val < 64 := (j 1).isLt
  constructor
  · intro h
    have b0 : r ≤ (j 0).val ∧ (j 0).val < r + 1 := h (0 : Fin 2)
    omega
  · intro h a
    match a with
    | ⟨0, _⟩ => show r ≤ (j 0).val ∧ (j 0).val < r + 1; omega
    | ⟨1, _⟩ => show 0 ≤ (j 1).val ∧ (j 1).val < 0 + 64; omega

/-- The rows cover the memref's elements. -/
theorem rowSet_cover (M : Memref sig .tc .vmem S128x64 .f32) :
    (Finset.range 128).biUnion (rowSet M) = M.view.set := by
  ext i
  constructor
  · intro hi
    obtain ⟨r, hr, hir⟩ := Finset.mem_biUnion.mp hi
    rw [rowSet_eq M (Finset.mem_range.mp hr)] at hir
    obtain ⟨j, -, rfl⟩ := Finset.mem_map.mp hir
    exact M.view.emb_mem_set j
  · intro hi
    obtain ⟨j, -, rfl⟩ := Finset.mem_map.mp hi
    have h0 : (j 0).val < 128 := (j 0).isLt
    exact Finset.mem_biUnion.mpr ⟨(j 0).val, Finset.mem_range.mpr h0, (mem_rowSet M h0 j).mpr rfl⟩

/-! ## The split and the join -/

section Abstract
variable {ℓ : Loc nD τ sig}

/-- Elements that are the union of `n` pairwise disjoint sets, held at `f`, are the sets each held at `f`. -/
theorem split_of_cover (n : ℕ) (K : ℕ → Finset (Idx ℓ)) (A : Finset (Idx ℓ))
    (hd : ∀ r r', r ≠ r' → Disjoint (K r) (K r')) (hc : (Finset.range n).biUnion K = A) (f : Buf (Elt F) ℓ) :
    (ℓ ↦[A]{fullShare} f : sProp 𝕄) ⊢ bigSep (Finset.range n) (fun r => ℓ ↦[K r]{fullShare} f) := by
  subst hc
  exact Entails.of_eq (pointsTo_biUnion (Finset.range n) K fun r _ r' _ h => hd r r' h)

/-- `n` pairwise disjoint sets held at different contents are their union held at some contents that agree with
    each set's on that set. -/
theorem join_of_cover (n : ℕ) (K : ℕ → Finset (Idx ℓ)) (A : Finset (Idx ℓ))
    (hd : ∀ r r', r ≠ r' → Disjoint (K r) (K r')) (hc : (Finset.range n).biUnion K = A)
    (fs : ℕ → Buf (Elt F) ℓ) :
    (bigSep (Finset.range n) (fun r => ℓ ↦[K r]{fullShare} fs r) : sProp 𝕄)
      ⊢ iprop(∃ g, ⌜∀ r < n, ∀ i ∈ K r, g i = fs r i⌝ ∗ ℓ ↦[A]{fullShare} g) := by
  subst hc
  iintro H
  ihave H' := (pointsTo_biUnion_join (Finset.range n) K fs (fs 0) fun r _ r' _ h => hd r r' h) $$ H
  icases H' with ⟨%g, %hg, HS⟩
  iexists g
  isplitr
  · ipureintro
    intro r hr i hi
    exact hg r (Finset.mem_range.mpr hr) i hi
  · iexact HS

end Abstract

/-- The memref's elements held at `f` are its 128 rows, each held at `f`. -/
theorem rows_split (M : Memref sig .tc .vmem S128x64 .f32) (c : Dev nD)
    (f : Buf (Elt F) (M.view.loc (c : Thread nD τ))) :
    (M.view.loc (c : Thread nD τ) ↦[M.view.set]{fullShare} f : sProp 𝕄)
      ⊢ bigSep (Finset.range 128) (fun r => M.view.loc (c : Thread nD τ) ↦[rowSet M r]{fullShare} f) :=
  split_of_cover (ℓ := M.view.loc (c : Thread nD τ)) 128 (rowSet M) M.view.set
    (fun _ _ h => rowSet_disjoint M h) (rowSet_cover M) f

/-- The 128 rows, held at different contents, are the memref's elements held at some contents that agree with each
    row's on that row. -/
theorem rows_join (M : Memref sig .tc .vmem S128x64 .f32) (c : Dev nD)
    (fs : ℕ → Buf (Elt F) (M.view.loc (c : Thread nD τ))) :
    (bigSep (Finset.range 128) (fun r => M.view.loc (c : Thread nD τ) ↦[rowSet M r]{fullShare} fs r) : sProp 𝕄)
      ⊢ iprop(∃ g, ⌜∀ r < 128, ∀ i ∈ rowSet M r, g i = fs r i⌝
          ∗ M.view.loc (c : Thread nD τ) ↦[M.view.set]{fullShare} g) :=
  join_of_cover (ℓ := M.view.loc (c : Thread nD τ)) 128 (rowSet M) M.view.set
    (fun _ _ h => rowSet_disjoint M h) (rowSet_cover M) fs

/-! ## Where the row memref places an index -/

/-- The row memref places every index inside the row's element set. -/
theorem rowM_emb_mem (M : Memref sig .tc .vmem S128x64 .f32) (r : ℕ) (hr : r < 128)
    (hinb : ∀ a, (![r, 0] : Fin 2 → Nat) a + S1x64.size a ≤ S128x64.size a) (x : S64.Idx) :
    (rowM M r hinb).view.emb x ∈ rowSet M r := by
  unfold rowSet
  rw [dif_pos hr]
  exact (rowM M r hinb).view.emb_mem_set x

/-- The row memref places its index `q` where the buffer's memref places `(r, q)`. -/
theorem rowM_emb (M : Memref sig .tc .vmem S128x64 .f32) (r : ℕ) (hr : r < 128)
    (hinb : ∀ a, (![r, 0] : Fin 2 → Nat) a + S1x64.size a ≤ S128x64.size a) (q : Fin 64) :
    (rowM M r hinb).view.emb (ValueIdx.ix1 q) = M.view.emb (ValueIdx.ix2 (⟨r, hr⟩ : Fin 128) q) := by
  have hre : Shape.reshapeEquiv squeezes_S1x64_S64.numel_eq (ValueIdx.ix1 q) = ValueIdx.ix2 (0 : Fin 1) q :=
    Shape.reshapeEquiv_eq_of_rowMajor _ (by
      rw [Shape.rowMajor_val_two, Shape.rowMajor_val_one]
      show 0 * 64 + q.val = q.val
      omega)
  show M.view.emb ((Rect.unit (s := S128x64) ![r, 0] S1x64.size hinb).emb
    (Shape.reshapeEquiv squeezes_S1x64_S64.numel_eq (ValueIdx.ix1 q))) = _
  rw [hre]
  congr 1
  funext a
  refine Fin.ext ?_
  match a with
  | ⟨0, _⟩ => show r + 1 * 0 = r; omega
  | ⟨1, _⟩ => show 0 + 1 * q.val = q.val; omega

/-- The same at any index of the row memref: its one coordinate is the column. -/
theorem rowM_emb_idx (M : Memref sig .tc .vmem S128x64 .f32) (r : ℕ) (hr : r < 128)
    (hinb : ∀ a, (![r, 0] : Fin 2 → Nat) a + S1x64.size a ≤ S128x64.size a) (x : S64.Idx) :
    (rowM M r hinb).view.emb x
      = M.view.emb (ValueIdx.ix2 (⟨r, hr⟩ : Fin 128) (⟨(x 0).val, (x 0).isLt⟩ : Fin 64)) := by
  have hx : x = ValueIdx.ix1 (⟨(x 0).val, (x 0).isLt⟩ : Fin 64) := ValueIdx.eq_ix1 x
  rw [hx]
  exact rowM_emb M r hr hinb _

end Cert.Kernel.Hand

end
-- ==== Proof.KSt.lean ====
/-
  The kernel body's resources in the order the body uses them.

  The body treats its 128 rows in increasing order, and for row r it needs: the three semaphore cells 10 + r, 138 + r, 266 + r
  at zero; the read tokens numbered by those cells (one of the first data table, two of the second); and row r of each of
  the three scratch buffers, the destination of the three copies.  Here each of these nine families is restated as an
  ascending chain `x₀ ∗ (x₁ ∗ (… ∗ (x₁₂₇ ∗ emp)))`, whose head is what the next row takes; the tokens below a table's
  first cell number, which no row takes, stay together as one conjunct.  The proofs regroup and unfold; nothing else.
-/
import proofs.«414929_j28089086116333_1_alg».proof.Proof.KSems
import proofs.«414929_j28089086116333_1_alg».proof.Proof.KUp
import proofs.«414929_j28089086116333_1_alg».proof.Proof.KRows

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.Sem

variable {F : FTy → Type} [FloatOps F]

local notation "𝕄" => MT nD τ sig Unit (Elt F) ℕ (Pipeline.UD sig nD τ) ℕ

/-- Row `r`'s elements are the view set of the row's memref, whichever proof of its bounds it carries. -/
theorem rowSet_lit (M : Memref sig .tc .vmem S128x64 .f32) (r : ℕ) (hr : r < 128)
    (hinb : ∀ a, (![r, 0] : Fin 2 → Nat) a + S1x64.size a ≤ S128x64.size a) : rowSet M r = (rowM M r hinb).view.set := by
  unfold rowSet; rw [dif_pos hr]

set_option maxHeartbeats 8000000 in
/-- The 384 cells at zero, as three ascending chains: the first table's copies' cells, then the two chains of the second table's. -/
theorem cells_up (c : Dev nD) :
    (semsZero (F := F) c : sProp 𝕄) ⊢ iprop((semVal ((c : Thread nD τ), SemLoc.dma 10) 0
      ∗ semVal ((c : Thread nD τ), SemLoc.dma 11) 0
      ∗ semVal ((c : Thread nD τ), SemLoc.dma 12) 0
      ∗ semVal ((c : Thread nD τ), SemLoc.dma 13) 0
      ∗ semVal ((c : Thread nD τ), SemLoc.dma 14) 0
      ∗ semVal ((c : Thread nD τ), SemLoc.dma 15) 0
      ∗ semVal ((c : Thread nD τ), SemLoc.dma 16) 0
      ∗ semVal ((c : Thread nD τ), SemLoc.dma 17) 0
      ∗ semVal ((c : Thread nD τ), SemLoc.dma 18) 0
      ∗ semVal ((c : Thread nD τ), SemLoc.dma 19) 0
      ∗ semVal ((c : Thread nD τ), SemLoc.dma 20) 0
      ∗ semVal ((c : Thread nD τ), SemLoc.dma 21) 0
      ∗ semVal ((c : Thread nD τ), SemLoc.dma 22) 0
      ∗ semVal ((c : Thread nD τ), SemLoc.dma 23) 0
      ∗ semVal ((c : Thread nD τ), SemLoc.dma 24) 0
      ∗ semVal ((c : Thread nD τ), SemLoc.dma 25) 0
      ∗ semVal ((c : Thread nD τ), SemLoc.dma 26) 0
      ∗ semVal ((c : Thread nD τ), SemLoc.dma 27) 0
      ∗ semVal ((c : Thread nD τ), SemLoc.dma 28) 0
      ∗ semVal ((c : Thread nD τ), SemLoc.dma 29) 0
      ∗ semVal ((c : Thread nD τ), SemLoc.dma 30) 0
      ∗ semVal ((c : Thread nD τ), SemLoc.dma 31) 0
      ∗ semVal ((c : Thread nD τ), SemLoc.dma 32) 0
      ∗ semVal ((c : Thread nD τ), SemLoc.dma 33) 0
      ∗ semVal ((c : Thread nD τ), SemLoc.dma 34) 0
      ∗ semVal ((c : Thread nD τ), SemLoc.dma 35) 0
      ∗ semVal ((c : Thread nD τ), SemLoc.dma 36) 0
      ∗ semVal ((c : Thread nD τ), SemLoc.dma 37) 0
      ∗ semVal ((c : Thread nD τ), SemLoc.dma 38) 0
      ∗ semVal ((c : Thread nD τ), SemLoc.dma 39) 0
      ∗ semVal ((c : Thread nD τ), SemLoc.dma 40) 0
      ∗ semVal ((c : Thread nD τ), SemLoc.dma 41) 0
      ∗ semVal ((c : Thread nD τ), SemLoc.dma 42) 0
      ∗ semVal ((c : Thread nD τ), SemLoc.dma 43) 0
      ∗ semVal ((c : Thread nD τ), SemLoc.dma 44) 0
      ∗ semVal ((c : Thread nD τ), SemLoc.dma 45) 0
      ∗ semVal ((c : Thread nD τ), SemLoc.dma 46) 0
      ∗ semVal ((c : Thread nD τ), SemLoc.dma 47) 0
      ∗ semVal ((c : Thread nD τ), SemLoc.dma 48) 0
      ∗ semVal ((c : Thread nD τ), SemLoc.dma 49) 0
      ∗ semVal ((c : Thread nD τ), SemLoc.dma 50) 0
      ∗ semVal ((c : Thread nD τ), SemLoc.dma 51) 0
      ∗ semVal ((c : Thread nD τ), SemLoc.dma 52) 0
      ∗ semVal ((c : Thread nD τ), SemLoc.dma 53) 0
      ∗ semVal ((c : Thread nD τ), SemLoc.dma 54) 0
      ∗ semVal ((c : Thread nD τ), SemLoc.dma 55) 0
      ∗ semVal ((c : Thread nD τ), SemLoc.dma 56) 0
      ∗ semVal ((c : Thread nD τ), SemLoc.dma 57) 0
      ∗ semVal ((c : Thread nD τ), SemLoc.dma 58) 0
      ∗ semVal ((c : Thread nD τ), SemLoc.dma 59) 0
      ∗ semVal ((c : Thread nD τ), SemLoc.dma 60) 0
      ∗ semVal ((c : Thread nD τ), SemLoc.dma 61) 0
      ∗ semVal ((c : Thread nD τ), SemLoc.dma 62) 0
      ∗ semVal ((c : Thread nD τ), SemLoc.dma 63) 0
      ∗ semVal ((c : Thread nD τ), SemLoc.dma 64) 0
      ∗ semVal ((c : Thread nD τ), SemLoc.dma 65) 0
      ∗ semVal ((c : Thread nD τ), SemLoc.dma 66) 0
      ∗ semVal ((c : Thread nD τ), SemLoc.dma 67) 0
      ∗ semVal ((c : Thread nD τ), SemLoc.dma 68) 0
      ∗ semVal ((c : Thread nD τ), SemLoc.dma 69) 0
      ∗ semVal ((c : Thread nD τ), SemLoc.dma 70) 0
      ∗ semVal ((c : Thread nD τ), SemLoc.dma 71) 0
      ∗ semVal ((c : Thread nD τ), SemLoc.dma 72) 0
      ∗ semVal ((c : Thread nD τ), SemLoc.dma 73) 0
      ∗ semVal ((c : Thread nD τ), SemLoc.dma 74) 0
      ∗ semVal ((c : Thread nD τ), SemLoc.dma 75) 0
      ∗ semVal ((c : Thread nD τ), SemLoc.dma 76) 0
      ∗ semVal ((c : Thread nD τ), SemLoc.dma 77) 0
      ∗ semVal ((c : Thread nD τ), SemLoc.dma 78) 0
      ∗ semVal ((c : Thread nD τ), SemLoc.dma 79) 0
      ∗ semVal ((c : Thread nD τ), SemLoc.dma 80) 0
      ∗ semVal ((c : Thread nD τ), SemLoc.dma 81) 0
      ∗ semVal ((c : Thread nD τ), SemLoc.dma 82) 0
      ∗ semVal ((c : Thread nD τ), SemLoc.dma 83) 0
      ∗ semVal ((c : Thread nD τ), SemLoc.dma 84) 0
      ∗ semVal ((c : Thread nD τ), SemLoc.dma 85) 0
      ∗ semVal ((c : Thread nD τ), SemLoc.dma 86) 0
      ∗ semVal ((c : Thread nD τ), SemLoc.dma 87) 0
      ∗ semVal ((c : Thread nD τ), SemLoc.dma 88) 0
      ∗ semVal ((c : Thread nD τ), SemLoc.dma 89) 0
      ∗ semVal ((c : Thread nD τ), SemLoc.dma 90) 0
      ∗ semVal ((c : Thread nD τ), SemLoc.dma 91) 0
      ∗ semVal ((c : Thread nD τ), SemLoc.dma 92) 0
      ∗ semVal ((c : Thread nD τ), SemLoc.dma 93) 0
      ∗ semVal ((c : Thread nD τ), SemLoc.dma 94) 0
      ∗ semVal ((c : Thread nD τ), SemLoc.dma 95) 0
      ∗ semVal ((c : Thread nD τ), SemLoc.dma 96) 0
      ∗ semVal ((c : Thread nD τ), SemLoc.dma 97) 0
      ∗ semVal ((c : Thread nD τ), SemLoc.dma 98) 0
      ∗ semVal ((c : Thread nD τ), SemLoc.dma 99) 0
      ∗ semVal ((c : Thread nD τ), SemLoc.dma 100) 0
      ∗ semVal ((c : Thread nD τ), SemLoc.dma 101) 0
      ∗ semVal ((c : Thread nD τ), SemLoc.dma 102) 0
      ∗ semVal ((c : Thread nD τ), SemLoc.dma 103) 0
      ∗ semVal ((c : Thread nD τ), SemLoc.dma 104) 0
      ∗ semVal ((c : Thread nD τ), SemLoc.dma 105) 0
      ∗ semVal ((c : Thread nD τ), SemLoc.dma 106) 0
      ∗ semVal ((c : Thread nD τ), SemLoc.dma 107) 0
      ∗ semVal ((c : Thread nD τ), SemLoc.dma 108) 0
      ∗ semVal ((c : Thread nD τ), SemLoc.dma 109) 0
      ∗ semVal ((c : Thread nD τ), SemLoc.dma 110) 0
      ∗ semVal ((c : Thread nD τ), SemLoc.dma 111) 0
      ∗ semVal ((c : Thread nD τ), SemLoc.dma 112) 0
      ∗ semVal ((c : Thread nD τ), SemLoc.dma 113) 0
      ∗ semVal ((c : Thread nD τ), SemLoc.dma 114) 0
      ∗ semVal ((c : Thread nD τ), SemLoc.dma 115) 0
      ∗ semVal ((c : Thread nD τ), SemLoc.dma 116) 0
      ∗ semVal ((c : Thread nD τ), SemLoc.dma 117) 0
      ∗ semVal ((c : Thread nD τ), SemLoc.dma 118) 0
      ∗ semVal ((c : Thread nD τ), SemLoc.dma 119) 0
      ∗ semVal ((c : Thread nD τ), SemLoc.dma 120) 0
      ∗ semVal ((c : Thread nD τ), SemLoc.dma 121) 0
      ∗ semVal ((c : Thread nD τ), SemLoc.dma 122) 0
      ∗ semVal ((c : Thread nD τ), SemLoc.dma 123) 0
      ∗ semVal ((c : Thread nD τ), SemLoc.dma 124) 0
      ∗ semVal ((c : Thread nD τ), SemLoc.dma 125) 0
      ∗ semVal ((c : Thread nD τ), SemLoc.dma 126) 0
      ∗ semVal ((c : Thread nD τ), SemLoc.dma 127) 0
      ∗ semVal ((c : Thread nD τ), SemLoc.dma 128) 0
      ∗ semVal ((c : Thread nD τ), SemLoc.dma 129) 0
      ∗ semVal ((c : Thread nD τ), SemLoc.dma 130) 0
      ∗ semVal ((c : Thread nD τ), SemLoc.dma 131) 0
      ∗ semVal ((c : Thread nD τ), SemLoc.dma 132) 0
      ∗ semVal ((c : Thread nD τ), SemLoc.dma 133) 0
      ∗ semVal ((c : Thread nD τ), SemLoc.dma 134) 0
      ∗ semVal ((c : Thread nD τ), SemLoc.dma 135) 0
      ∗ semVal ((c : Thread nD τ), SemLoc.dma 136) 0
      ∗ semVal ((c : Thread nD τ), SemLoc.dma 137) 0
      ∗ emp)
      ∗ (semVal ((c : Thread nD τ), SemLoc.dma 138) 0
      ∗ semVal ((c : Thread nD τ), SemLoc.dma 139) 0
      ∗ semVal ((c : Thread nD τ), SemLoc.dma 140) 0
      ∗ semVal ((c : Thread nD τ), SemLoc.dma 141) 0
      ∗ semVal ((c : Thread nD τ), SemLoc.dma 142) 0
      ∗ semVal ((c : Thread nD τ), SemLoc.dma 143) 0
      ∗ semVal ((c : Thread nD τ), SemLoc.dma 144) 0
      ∗ semVal ((c : Thread nD τ), SemLoc.dma 145) 0
      ∗ semVal ((c : Thread nD τ), SemLoc.dma 146) 0
      ∗ semVal ((c : Thread nD τ), SemLoc.dma 147) 0
      ∗ semVal ((c : Thread nD τ), SemLoc.dma 148) 0
      ∗ semVal ((c : Thread nD τ), SemLoc.dma 149) 0
      ∗ semVal ((c : Thread nD τ), SemLoc.dma 150) 0
      ∗ semVal ((c : Thread nD τ), SemLoc.dma 151) 0
      ∗ semVal ((c : Thread nD τ), SemLoc.dma 152) 0
      ∗ semVal ((c : Thread nD τ), SemLoc.dma 153) 0
      ∗ semVal ((c : Thread nD τ), SemLoc.dma 154) 0
      ∗ semVal ((c : Thread nD τ), SemLoc.dma 155) 0
      ∗ semVal ((c : Thread nD τ), SemLoc.dma 156) 0
      ∗ semVal ((c : Thread nD τ), SemLoc.dma 157) 0
      ∗ semVal ((c : Thread nD τ), SemLoc.dma 158) 0
      ∗ semVal ((c : Thread nD τ), SemLoc.dma 159) 0
      ∗ semVal ((c : Thread nD τ), SemLoc.dma 160) 0
      ∗ semVal ((c : Thread nD τ), SemLoc.dma 161) 0
      ∗ semVal ((c : Thread nD τ), SemLoc.dma 162) 0
      ∗ semVal ((c : Thread nD τ), SemLoc.dma 163) 0
      ∗ semVal ((c : Thread nD τ), SemLoc.dma 164) 0
      ∗ semVal ((c : Thread nD τ), SemLoc.dma 165) 0
      ∗ semVal ((c : Thread nD τ), SemLoc.dma 166) 0
      ∗ semVal ((c : Thread nD τ), SemLoc.dma 167) 0
      ∗ semVal ((c : Thread nD τ), SemLoc.dma 168) 0
      ∗ semVal ((c : Thread nD τ), SemLoc.dma 169) 0
      ∗ semVal ((c : Thread nD τ), SemLoc.dma 170) 0
      ∗ semVal ((c : Thread nD τ), SemLoc.dma 171) 0
      ∗ semVal ((c : Thread nD τ), SemLoc.dma 172) 0
      ∗ semVal ((c : Thread nD τ), SemLoc.dma 173) 0
      ∗ semVal ((c : Thread nD τ), SemLoc.dma 174) 0
      ∗ semVal ((c : Thread nD τ), SemLoc.dma 175) 0
      ∗ semVal ((c : Thread nD τ), SemLoc.dma 176) 0
      ∗ semVal ((c : Thread nD τ), SemLoc.dma 177) 0
      ∗ semVal ((c : Thread nD τ), SemLoc.dma 178) 0
      ∗ semVal ((c : Thread nD τ), SemLoc.dma 179) 0
      ∗ semVal ((c : Thread nD τ), SemLoc.dma 180) 0
      ∗ semVal ((c : Thread nD τ), SemLoc.dma 181) 0
      ∗ semVal ((c : Thread nD τ), SemLoc.dma 182) 0
      ∗ semVal ((c : Thread nD τ), SemLoc.dma 183) 0
      ∗ semVal ((c : Thread nD τ), SemLoc.dma 184) 0
      ∗ semVal ((c : Thread nD τ), SemLoc.dma 185) 0
      ∗ semVal ((c : Thread nD τ), SemLoc.dma 186) 0
      ∗ semVal ((c : Thread nD τ), SemLoc.dma 187) 0
      ∗ semVal ((c : Thread nD τ), SemLoc.dma 188) 0
      ∗ semVal ((c : Thread nD τ), SemLoc.dma 189) 0
      ∗ semVal ((c : Thread nD τ), SemLoc.dma 190) 0
      ∗ semVal ((c : Thread nD τ), SemLoc.dma 191) 0
      ∗ semVal ((c : Thread nD τ), SemLoc.dma 192) 0
      ∗ semVal ((c : Thread nD τ), SemLoc.dma 193) 0
      ∗ semVal ((c : Thread nD τ), SemLoc.dma 194) 0
      ∗ semVal ((c : Thread nD τ), SemLoc.dma 195) 0
      ∗ semVal ((c : Thread nD τ), SemLoc.dma 196) 0
      ∗ semVal ((c : Thread nD τ), SemLoc.dma 197) 0
      ∗ semVal ((c : Thread nD τ), SemLoc.dma 198) 0
      ∗ semVal ((c : Thread nD τ), SemLoc.dma 199) 0
      ∗ semVal ((c : Thread nD τ), SemLoc.dma 200) 0
      ∗ semVal ((c : Thread nD τ), SemLoc.dma 201) 0
      ∗ semVal ((c : Thread nD τ), SemLoc.dma 202) 0
      ∗ semVal ((c : Thread nD τ), SemLoc.dma 203) 0
      ∗ semVal ((c : Thread nD τ), SemLoc.dma 204) 0
      ∗ semVal ((c : Thread nD τ), SemLoc.dma 205) 0
      ∗ semVal ((c : Thread nD τ), SemLoc.dma 206) 0
      ∗ semVal ((c : Thread nD τ), SemLoc.dma 207) 0
      ∗ semVal ((c : Thread nD τ), SemLoc.dma 208) 0
      ∗ semVal ((c : Thread nD τ), SemLoc.dma 209) 0
      ∗ semVal ((c : Thread nD τ), SemLoc.dma 210) 0
      ∗ semVal ((c : Thread nD τ), SemLoc.dma 211) 0
      ∗ semVal ((c : Thread nD τ), SemLoc.dma 212) 0
      ∗ semVal ((c : Thread nD τ), SemLoc.dma 213) 0
      ∗ semVal ((c : Thread nD τ), SemLoc.dma 214) 0
      ∗ semVal ((c : Thread nD τ), SemLoc.dma 215) 0
      ∗ semVal ((c : Thread nD τ), SemLoc.dma 216) 0
      ∗ semVal ((c : Thread nD τ), SemLoc.dma 217) 0
      ∗ semVal ((c : Thread nD τ), SemLoc.dma 218) 0
      ∗ semVal ((c : Thread nD τ), SemLoc.dma 219) 0
      ∗ semVal ((c : Thread nD τ), SemLoc.dma 220) 0
      ∗ semVal ((c : Thread nD τ), SemLoc.dma 221) 0
      ∗ semVal ((c : Thread nD τ), SemLoc.dma 222) 0
      ∗ semVal ((c : Thread nD τ), SemLoc.dma 223) 0
      ∗ semVal ((c : Thread nD τ), SemLoc.dma 224) 0
      ∗ semVal ((c : Thread nD τ), SemLoc.dma 225) 0
      ∗ semVal ((c : Thread nD τ), SemLoc.dma 226) 0
      ∗ semVal ((c : Thread nD τ), SemLoc.dma 227) 0
      ∗ semVal ((c : Thread nD τ), SemLoc.dma 228) 0
      ∗ semVal ((c : Thread nD τ), SemLoc.dma 229) 0
      ∗ semVal ((c : Thread nD τ), SemLoc.dma 230) 0
      ∗ semVal ((c : Thread nD τ), SemLoc.dma 231) 0
      ∗ semVal ((c : Thread nD τ), SemLoc.dma 232) 0
      ∗ semVal ((c : Thread nD τ), SemLoc.dma 233) 0
      ∗ semVal ((c : Thread nD τ), SemLoc.dma 234) 0
      ∗ semVal ((c : Thread nD τ), SemLoc.dma 235) 0
      ∗ semVal ((c : Thread nD τ), SemLoc.dma 236) 0
      ∗ semVal ((c : Thread nD τ), SemLoc.dma 237) 0
      ∗ semVal ((c : Thread nD τ), SemLoc.dma 238) 0
      ∗ semVal ((c : Thread nD τ), SemLoc.dma 239) 0
      ∗ semVal ((c : Thread nD τ), SemLoc.dma 240) 0
      ∗ semVal ((c : Thread nD τ), SemLoc.dma 241) 0
      ∗ semVal ((c : Thread nD τ), SemLoc.dma 242) 0
      ∗ semVal ((c : Thread nD τ), SemLoc.dma 243) 0
      ∗ semVal ((c : Thread nD τ), SemLoc.dma 244) 0
      ∗ semVal ((c : Thread nD τ), SemLoc.dma 245) 0
      ∗ semVal ((c : Thread nD τ), SemLoc.dma 246) 0
      ∗ semVal ((c : Thread nD τ), SemLoc.dma 247) 0
      ∗ semVal ((c : Thread nD τ), SemLoc.dma 248) 0
      ∗ semVal ((c : Thread nD τ), SemLoc.dma 249) 0
      ∗ semVal ((c : Thread nD τ), SemLoc.dma 250) 0
      ∗ semVal ((c : Thread nD τ), SemLoc.dma 251) 0
      ∗ semVal ((c : Thread nD τ), SemLoc.dma 252) 0
      ∗ semVal ((c : Thread nD τ), SemLoc.dma 253) 0
      ∗ semVal ((c : Thread nD τ), SemLoc.dma 254) 0
      ∗ semVal ((c : Thread nD τ), SemLoc.dma 255) 0
      ∗ semVal ((c : Thread nD τ), SemLoc.dma 256) 0
      ∗ semVal ((c : Thread nD τ), SemLoc.dma 257) 0
      ∗ semVal ((c : Thread nD τ), SemLoc.dma 258) 0
      ∗ semVal ((c : Thread nD τ), SemLoc.dma 259) 0
      ∗ semVal ((c : Thread nD τ), SemLoc.dma 260) 0
      ∗ semVal ((c : Thread nD τ), SemLoc.dma 261) 0
      ∗ semVal ((c : Thread nD τ), SemLoc.dma 262) 0
      ∗ semVal ((c : Thread nD τ), SemLoc.dma 263) 0
      ∗ semVal ((c : Thread nD τ), SemLoc.dma 264) 0
      ∗ semVal ((c : Thread nD τ), SemLoc.dma 265) 0
      ∗ emp)
      ∗ (semVal ((c : Thread nD τ), SemLoc.dma 266) 0
      ∗ semVal ((c : Thread nD τ), SemLoc.dma 267) 0
      ∗ semVal ((c : Thread nD τ), SemLoc.dma 268) 0
      ∗ semVal ((c : Thread nD τ), SemLoc.dma 269) 0
      ∗ semVal ((c : Thread nD τ), SemLoc.dma 270) 0
      ∗ semVal ((c : Thread nD τ), SemLoc.dma 271) 0
      ∗ semVal ((c : Thread nD τ), SemLoc.dma 272) 0
      ∗ semVal ((c : Thread nD τ), SemLoc.dma 273) 0
      ∗ semVal ((c : Thread nD τ), SemLoc.dma 274) 0
      ∗ semVal ((c : Thread nD τ), SemLoc.dma 275) 0
      ∗ semVal ((c : Thread nD τ), SemLoc.dma 276) 0
      ∗ semVal ((c : Thread nD τ), SemLoc.dma 277) 0
      ∗ semVal ((c : Thread nD τ), SemLoc.dma 278) 0
      ∗ semVal ((c : Thread nD τ), SemLoc.dma 279) 0
      ∗ semVal ((c : Thread nD τ), SemLoc.dma 280) 0
      ∗ semVal ((c : Thread nD τ), SemLoc.dma 281) 0
      ∗ semVal ((c : Thread nD τ), SemLoc.dma 282) 0
      ∗ semVal ((c : Thread nD τ), SemLoc.dma 283) 0
      ∗ semVal ((c : Thread nD τ), SemLoc.dma 284) 0
      ∗ semVal ((c : Thread nD τ), SemLoc.dma 285) 0
      ∗ semVal ((c : Thread nD τ), SemLoc.dma 286) 0
      ∗ semVal ((c : Thread nD τ), SemLoc.dma 287) 0
      ∗ semVal ((c : Thread nD τ), SemLoc.dma 288) 0
      ∗ semVal ((c : Thread nD τ), SemLoc.dma 289) 0
      ∗ semVal ((c : Thread nD τ), SemLoc.dma 290) 0
      ∗ semVal ((c : Thread nD τ), SemLoc.dma 291) 0
      ∗ semVal ((c : Thread nD τ), SemLoc.dma 292) 0
      ∗ semVal ((c : Thread nD τ), SemLoc.dma 293) 0
      ∗ semVal ((c : Thread nD τ), SemLoc.dma 294) 0
      ∗ semVal ((c : Thread nD τ), SemLoc.dma 295) 0
      ∗ semVal ((c : Thread nD τ), SemLoc.dma 296) 0
      ∗ semVal ((c : Thread nD τ), SemLoc.dma 297) 0
      ∗ semVal ((c : Thread nD τ), SemLoc.dma 298) 0
      ∗ semVal ((c : Thread nD τ), SemLoc.dma 299) 0
      ∗ semVal ((c : Thread nD τ), SemLoc.dma 300) 0
      ∗ semVal ((c : Thread nD τ), SemLoc.dma 301) 0
      ∗ semVal ((c : Thread nD τ), SemLoc.dma 302) 0
      ∗ semVal ((c : Thread nD τ), SemLoc.dma 303) 0
      ∗ semVal ((c : Thread nD τ), SemLoc.dma 304) 0
      ∗ semVal ((c : Thread nD τ), SemLoc.dma 305) 0
      ∗ semVal ((c : Thread nD τ), SemLoc.dma 306) 0
      ∗ semVal ((c : Thread nD τ), SemLoc.dma 307) 0
      ∗ semVal ((c : Thread nD τ), SemLoc.dma 308) 0
      ∗ semVal ((c : Thread nD τ), SemLoc.dma 309) 0
      ∗ semVal ((c : Thread nD τ), SemLoc.dma 310) 0
      ∗ semVal ((c : Thread nD τ), SemLoc.dma 311) 0
      ∗ semVal ((c : Thread nD τ), SemLoc.dma 312) 0
      ∗ semVal ((c : Thread nD τ), SemLoc.dma 313) 0
      ∗ semVal ((c : Thread nD τ), SemLoc.dma 314) 0
      ∗ semVal ((c : Thread nD τ), SemLoc.dma 315) 0
      ∗ semVal ((c : Thread nD τ), SemLoc.dma 316) 0
      ∗ semVal ((c : Thread nD τ), SemLoc.dma 317) 0
      ∗ semVal ((c : Thread nD τ), SemLoc.dma 318) 0
      ∗ semVal ((c : Thread nD τ), SemLoc.dma 319) 0
      ∗ semVal ((c : Thread nD τ), SemLoc.dma 320) 0
      ∗ semVal ((c : Thread nD τ), SemLoc.dma 321) 0
      ∗ semVal ((c : Thread nD τ), SemLoc.dma 322) 0
      ∗ semVal ((c : Thread nD τ), SemLoc.dma 323) 0
      ∗ semVal ((c : Thread nD τ), SemLoc.dma 324) 0
      ∗ semVal ((c : Thread nD τ), SemLoc.dma 325) 0
      ∗ semVal ((c : Thread nD τ), SemLoc.dma 326) 0
      ∗ semVal ((c : Thread nD τ), SemLoc.dma 327) 0
      ∗ semVal ((c : Thread nD τ), SemLoc.dma 328) 0
      ∗ semVal ((c : Thread nD τ), SemLoc.dma 329) 0
      ∗ semVal ((c : Thread nD τ), SemLoc.dma 330) 0
      ∗ semVal ((c : Thread nD τ), SemLoc.dma 331) 0
      ∗ semVal ((c : Thread nD τ), SemLoc.dma 332) 0
      ∗ semVal ((c : Thread nD τ), SemLoc.dma 333) 0
      ∗ semVal ((c : Thread nD τ), SemLoc.dma 334) 0
      ∗ semVal ((c : Thread nD τ), SemLoc.dma 335) 0
      ∗ semVal ((c : Thread nD τ), SemLoc.dma 336) 0
      ∗ semVal ((c : Thread nD τ), SemLoc.dma 337) 0
      ∗ semVal ((c : Thread nD τ), SemLoc.dma 338) 0
      ∗ semVal ((c : Thread nD τ), SemLoc.dma 339) 0
      ∗ semVal ((c : Thread nD τ), SemLoc.dma 340) 0
      ∗ semVal ((c : Thread nD τ), SemLoc.dma 341) 0
      ∗ semVal ((c : Thread nD τ), SemLoc.dma 342) 0
      ∗ semVal ((c : Thread nD τ), SemLoc.dma 343) 0
      ∗ semVal ((c : Thread nD τ), SemLoc.dma 344) 0
      ∗ semVal ((c : Thread nD τ), SemLoc.dma 345) 0
      ∗ semVal ((c : Thread nD τ), SemLoc.dma 346) 0
      ∗ semVal ((c : Thread nD τ), SemLoc.dma 347) 0
      ∗ semVal ((c : Thread nD τ), SemLoc.dma 348) 0
      ∗ semVal ((c : Thread nD τ), SemLoc.dma 349) 0
      ∗ semVal ((c : Thread nD τ), SemLoc.dma 350) 0
      ∗ semVal ((c : Thread nD τ), SemLoc.dma 351) 0
      ∗ semVal ((c : Thread nD τ), SemLoc.dma 352) 0
      ∗ semVal ((c : Thread nD τ), SemLoc.dma 353) 0
      ∗ semVal ((c : Thread nD τ), SemLoc.dma 354) 0
      ∗ semVal ((c : Thread nD τ), SemLoc.dma 355) 0
      ∗ semVal ((c : Thread nD τ), SemLoc.dma 356) 0
      ∗ semVal ((c : Thread nD τ), SemLoc.dma 357) 0
      ∗ semVal ((c : Thread nD τ), SemLoc.dma 358) 0
      ∗ semVal ((c : Thread nD τ), SemLoc.dma 359) 0
      ∗ semVal ((c : Thread nD τ), SemLoc.dma 360) 0
      ∗ semVal ((c : Thread nD τ), SemLoc.dma 361) 0
      ∗ semVal ((c : Thread nD τ), SemLoc.dma 362) 0
      ∗ semVal ((c : Thread nD τ), SemLoc.dma 363) 0
      ∗ semVal ((c : Thread nD τ), SemLoc.dma 364) 0
      ∗ semVal ((c : Thread nD τ), SemLoc.dma 365) 0
      ∗ semVal ((c : Thread nD τ), SemLoc.dma 366) 0
      ∗ semVal ((c : Thread nD τ), SemLoc.dma 367) 0
      ∗ semVal ((c : Thread nD τ), SemLoc.dma 368) 0
      ∗ semVal ((c : Thread nD τ), SemLoc.dma 369) 0
      ∗ semVal ((c : Thread nD τ), SemLoc.dma 370) 0
      ∗ semVal ((c : Thread nD τ), SemLoc.dma 371) 0
      ∗ semVal ((c : Thread nD τ), SemLoc.dma 372) 0
      ∗ semVal ((c : Thread nD τ), SemLoc.dma 373) 0
      ∗ semVal ((c : Thread nD τ), SemLoc.dma 374) 0
      ∗ semVal ((c : Thread nD τ), SemLoc.dma 375) 0
      ∗ semVal ((c : Thread nD τ), SemLoc.dma 376) 0
      ∗ semVal ((c : Thread nD τ), SemLoc.dma 377) 0
      ∗ semVal ((c : Thread nD τ), SemLoc.dma 378) 0
      ∗ semVal ((c : Thread nD τ), SemLoc.dma 379) 0
      ∗ semVal ((c : Thread nD τ), SemLoc.dma 380) 0
      ∗ semVal ((c : Thread nD τ), SemLoc.dma 381) 0
      ∗ semVal ((c : Thread nD τ), SemLoc.dma 382) 0
      ∗ semVal ((c : Thread nD τ), SemLoc.dma 383) 0
      ∗ semVal ((c : Thread nD τ), SemLoc.dma 384) 0
      ∗ semVal ((c : Thread nD τ), SemLoc.dma 385) 0
      ∗ semVal ((c : Thread nD τ), SemLoc.dma 386) 0
      ∗ semVal ((c : Thread nD τ), SemLoc.dma 387) 0
      ∗ semVal ((c : Thread nD τ), SemLoc.dma 388) 0
      ∗ semVal ((c : Thread nD τ), SemLoc.dma 389) 0
      ∗ semVal ((c : Thread nD τ), SemLoc.dma 390) 0
      ∗ semVal ((c : Thread nD τ), SemLoc.dma 391) 0
      ∗ semVal ((c : Thread nD τ), SemLoc.dma 392) 0
      ∗ semVal ((c : Thread nD τ), SemLoc.dma 393) 0
      ∗ emp)) := by
  unfold semsZero
  refine Entails.of_eq ?_
  simp only [sep_assoc_eq, sep_emp_eq, emp_sep_eq]

set_option maxHeartbeats 8000000 in
/-- The first data table held whole: the remainder after 138 tokens, the ten tokens no row takes, and tokens 10 … 137 ascending. -/
theorem tokU_up (c : Dev nD) (f : BufOf (F := F) c hbM0) :
    hbPt c hbM0 f ⊢ iprop((hbM0.view.loc (c : Thread nD τ) ↦{Transfers.shareDrop fullShare 138} f)
      ∗ bigSep (Finset.range 10) (tokAt f)
      ∗ ((hbM0.view.loc (c : Thread nD τ) ↦{Transfers.shareTokN fullShare 10} f)
      ∗ (hbM0.view.loc (c : Thread nD τ) ↦{Transfers.shareTokN fullShare 11} f)
      ∗ (hbM0.view.loc (c : Thread nD τ) ↦{Transfers.shareTokN fullShare 12} f)
      ∗ (hbM0.view.loc (c : Thread nD τ) ↦{Transfers.shareTokN fullShare 13} f)
      ∗ (hbM0.view.loc (c : Thread nD τ) ↦{Transfers.shareTokN fullShare 14} f)
      ∗ (hbM0.view.loc (c : Thread nD τ) ↦{Transfers.shareTokN fullShare 15} f)
      ∗ (hbM0.view.loc (c : Thread nD τ) ↦{Transfers.shareTokN fullShare 16} f)
      ∗ (hbM0.view.loc (c : Thread nD τ) ↦{Transfers.shareTokN fullShare 17} f)
      ∗ (hbM0.view.loc (c : Thread nD τ) ↦{Transfers.shareTokN fullShare 18} f)
      ∗ (hbM0.view.loc (c : Thread nD τ) ↦{Transfers.shareTokN fullShare 19} f)
      ∗ (hbM0.view.loc (c : Thread nD τ) ↦{Transfers.shareTokN fullShare 20} f)
      ∗ (hbM0.view.loc (c : Thread nD τ) ↦{Transfers.shareTokN fullShare 21} f)
      ∗ (hbM0.view.loc (c : Thread nD τ) ↦{Transfers.shareTokN fullShare 22} f)
      ∗ (hbM0.view.loc (c : Thread nD τ) ↦{Transfers.shareTokN fullShare 23} f)
      ∗ (hbM0.view.loc (c : Thread nD τ) ↦{Transfers.shareTokN fullShare 24} f)
      ∗ (hbM0.view.loc (c : Thread nD τ) ↦{Transfers.shareTokN fullShare 25} f)
      ∗ (hbM0.view.loc (c : Thread nD τ) ↦{Transfers.shareTokN fullShare 26} f)
      ∗ (hbM0.view.loc (c : Thread nD τ) ↦{Transfers.shareTokN fullShare 27} f)
      ∗ (hbM0.view.loc (c : Thread nD τ) ↦{Transfers.shareTokN fullShare 28} f)
      ∗ (hbM0.view.loc (c : Thread nD τ) ↦{Transfers.shareTokN fullShare 29} f)
      ∗ (hbM0.view.loc (c : Thread nD τ) ↦{Transfers.shareTokN fullShare 30} f)
      ∗ (hbM0.view.loc (c : Thread nD τ) ↦{Transfers.shareTokN fullShare 31} f)
      ∗ (hbM0.view.loc (c : Thread nD τ) ↦{Transfers.shareTokN fullShare 32} f)
      ∗ (hbM0.view.loc (c : Thread nD τ) ↦{Transfers.shareTokN fullShare 33} f)
      ∗ (hbM0.view.loc (c : Thread nD τ) ↦{Transfers.shareTokN fullShare 34} f)
      ∗ (hbM0.view.loc (c : Thread nD τ) ↦{Transfers.shareTokN fullShare 35} f)
      ∗ (hbM0.view.loc (c : Thread nD τ) ↦{Transfers.shareTokN fullShare 36} f)
      ∗ (hbM0.view.loc (c : Thread nD τ) ↦{Transfers.shareTokN fullShare 37} f)
      ∗ (hbM0.view.loc (c : Thread nD τ) ↦{Transfers.shareTokN fullShare 38} f)
      ∗ (hbM0.view.loc (c : Thread nD τ) ↦{Transfers.shareTokN fullShare 39} f)
      ∗ (hbM0.view.loc (c : Thread nD τ) ↦{Transfers.shareTokN fullShare 40} f)
      ∗ (hbM0.view.loc (c : Thread nD τ) ↦{Transfers.shareTokN fullShare 41} f)
      ∗ (hbM0.view.loc (c : Thread nD τ) ↦{Transfers.shareTokN fullShare 42} f)
      ∗ (hbM0.view.loc (c : Thread nD τ) ↦{Transfers.shareTokN fullShare 43} f)
      ∗ (hbM0.view.loc (c : Thread nD τ) ↦{Transfers.shareTokN fullShare 44} f)
      ∗ (hbM0.view.loc (c : Thread nD τ) ↦{Transfers.shareTokN fullShare 45} f)
      ∗ (hbM0.view.loc (c : Thread nD τ) ↦{Transfers.shareTokN fullShare 46} f)
      ∗ (hbM0.view.loc (c : Thread nD τ) ↦{Transfers.shareTokN fullShare 47} f)
      ∗ (hbM0.view.loc (c : Thread nD τ) ↦{Transfers.shareTokN fullShare 48} f)
      ∗ (hbM0.view.loc (c : Thread nD τ) ↦{Transfers.shareTokN fullShare 49} f)
      ∗ (hbM0.view.loc (c : Thread nD τ) ↦{Transfers.shareTokN fullShare 50} f)
      ∗ (hbM0.view.loc (c : Thread nD τ) ↦{Transfers.shareTokN fullShare 51} f)
      ∗ (hbM0.view.loc (c : Thread nD τ) ↦{Transfers.shareTokN fullShare 52} f)
      ∗ (hbM0.view.loc (c : Thread nD τ) ↦{Transfers.shareTokN fullShare 53} f)
      ∗ (hbM0.view.loc (c : Thread nD τ) ↦{Transfers.shareTokN fullShare 54} f)
      ∗ (hbM0.view.loc (c : Thread nD τ) ↦{Transfers.shareTokN fullShare 55} f)
      ∗ (hbM0.view.loc (c : Thread nD τ) ↦{Transfers.shareTokN fullShare 56} f)
      ∗ (hbM0.view.loc (c : Thread nD τ) ↦{Transfers.shareTokN fullShare 57} f)
      ∗ (hbM0.view.loc (c : Thread nD τ) ↦{Transfers.shareTokN fullShare 58} f)
      ∗ (hbM0.view.loc (c : Thread nD τ) ↦{Transfers.shareTokN fullShare 59} f)
      ∗ (hbM0.view.loc (c : Thread nD τ) ↦{Transfers.shareTokN fullShare 60} f)
      ∗ (hbM0.view.loc (c : Thread nD τ) ↦{Transfers.shareTokN fullShare 61} f)
      ∗ (hbM0.view.loc (c : Thread nD τ) ↦{Transfers.shareTokN fullShare 62} f)
      ∗ (hbM0.view.loc (c : Thread nD τ) ↦{Transfers.shareTokN fullShare 63} f)
      ∗ (hbM0.view.loc (c : Thread nD τ) ↦{Transfers.shareTokN fullShare 64} f)
      ∗ (hbM0.view.loc (c : Thread nD τ) ↦{Transfers.shareTokN fullShare 65} f)
      ∗ (hbM0.view.loc (c : Thread nD τ) ↦{Transfers.shareTokN fullShare 66} f)
      ∗ (hbM0.view.loc (c : Thread nD τ) ↦{Transfers.shareTokN fullShare 67} f)
      ∗ (hbM0.view.loc (c : Thread nD τ) ↦{Transfers.shareTokN fullShare 68} f)
      ∗ (hbM0.view.loc (c : Thread nD τ) ↦{Transfers.shareTokN fullShare 69} f)
      ∗ (hbM0.view.loc (c : Thread nD τ) ↦{Transfers.shareTokN fullShare 70} f)
      ∗ (hbM0.view.loc (c : Thread nD τ) ↦{Transfers.shareTokN fullShare 71} f)
      ∗ (hbM0.view.loc (c : Thread nD τ) ↦{Transfers.shareTokN fullShare 72} f)
      ∗ (hbM0.view.loc (c : Thread nD τ) ↦{Transfers.shareTokN fullShare 73} f)
      ∗ (hbM0.view.loc (c : Thread nD τ) ↦{Transfers.shareTokN fullShare 74} f)
      ∗ (hbM0.view.loc (c : Thread nD τ) ↦{Transfers.shareTokN fullShare 75} f)
      ∗ (hbM0.view.loc (c : Thread nD τ) ↦{Transfers.shareTokN fullShare 76} f)
      ∗ (hbM0.view.loc (c : Thread nD τ) ↦{Transfers.shareTokN fullShare 77} f)
      ∗ (hbM0.view.loc (c : Thread nD τ) ↦{Transfers.shareTokN fullShare 78} f)
      ∗ (hbM0.view.loc (c : Thread nD τ) ↦{Transfers.shareTokN fullShare 79} f)
      ∗ (hbM0.view.loc (c : Thread nD τ) ↦{Transfers.shareTokN fullShare 80} f)
      ∗ (hbM0.view.loc (c : Thread nD τ) ↦{Transfers.shareTokN fullShare 81} f)
      ∗ (hbM0.view.loc (c : Thread nD τ) ↦{Transfers.shareTokN fullShare 82} f)
      ∗ (hbM0.view.loc (c : Thread nD τ) ↦{Transfers.shareTokN fullShare 83} f)
      ∗ (hbM0.view.loc (c : Thread nD τ) ↦{Transfers.shareTokN fullShare 84} f)
      ∗ (hbM0.view.loc (c : Thread nD τ) ↦{Transfers.shareTokN fullShare 85} f)
      ∗ (hbM0.view.loc (c : Thread nD τ) ↦{Transfers.shareTokN fullShare 86} f)
      ∗ (hbM0.view.loc (c : Thread nD τ) ↦{Transfers.shareTokN fullShare 87} f)
      ∗ (hbM0.view.loc (c : Thread nD τ) ↦{Transfers.shareTokN fullShare 88} f)
      ∗ (hbM0.view.loc (c : Thread nD τ) ↦{Transfers.shareTokN fullShare 89} f)
      ∗ (hbM0.view.loc (c : Thread nD τ) ↦{Transfers.shareTokN fullShare 90} f)
      ∗ (hbM0.view.loc (c : Thread nD τ) ↦{Transfers.shareTokN fullShare 91} f)
      ∗ (hbM0.view.loc (c : Thread nD τ) ↦{Transfers.shareTokN fullShare 92} f)
      ∗ (hbM0.view.loc (c : Thread nD τ) ↦{Transfers.shareTokN fullShare 93} f)
      ∗ (hbM0.view.loc (c : Thread nD τ) ↦{Transfers.shareTokN fullShare 94} f)
      ∗ (hbM0.view.loc (c : Thread nD τ) ↦{Transfers.shareTokN fullShare 95} f)
      ∗ (hbM0.view.loc (c : Thread nD τ) ↦{Transfers.shareTokN fullShare 96} f)
      ∗ (hbM0.view.loc (c : Thread nD τ) ↦{Transfers.shareTokN fullShare 97} f)
      ∗ (hbM0.view.loc (c : Thread nD τ) ↦{Transfers.shareTokN fullShare 98} f)
      ∗ (hbM0.view.loc (c : Thread nD τ) ↦{Transfers.shareTokN fullShare 99} f)
      ∗ (hbM0.view.loc (c : Thread nD τ) ↦{Transfers.shareTokN fullShare 100} f)
      ∗ (hbM0.view.loc (c : Thread nD τ) ↦{Transfers.shareTokN fullShare 101} f)
      ∗ (hbM0.view.loc (c : Thread nD τ) ↦{Transfers.shareTokN fullShare 102} f)
      ∗ (hbM0.view.loc (c : Thread nD τ) ↦{Transfers.shareTokN fullShare 103} f)
      ∗ (hbM0.view.loc (c : Thread nD τ) ↦{Transfers.shareTokN fullShare 104} f)
      ∗ (hbM0.view.loc (c : Thread nD τ) ↦{Transfers.shareTokN fullShare 105} f)
      ∗ (hbM0.view.loc (c : Thread nD τ) ↦{Transfers.shareTokN fullShare 106} f)
      ∗ (hbM0.view.loc (c : Thread nD τ) ↦{Transfers.shareTokN fullShare 107} f)
      ∗ (hbM0.view.loc (c : Thread nD τ) ↦{Transfers.shareTokN fullShare 108} f)
      ∗ (hbM0.view.loc (c : Thread nD τ) ↦{Transfers.shareTokN fullShare 109} f)
      ∗ (hbM0.view.loc (c : Thread nD τ) ↦{Transfers.shareTokN fullShare 110} f)
      ∗ (hbM0.view.loc (c : Thread nD τ) ↦{Transfers.shareTokN fullShare 111} f)
      ∗ (hbM0.view.loc (c : Thread nD τ) ↦{Transfers.shareTokN fullShare 112} f)
      ∗ (hbM0.view.loc (c : Thread nD τ) ↦{Transfers.shareTokN fullShare 113} f)
      ∗ (hbM0.view.loc (c : Thread nD τ) ↦{Transfers.shareTokN fullShare 114} f)
      ∗ (hbM0.view.loc (c : Thread nD τ) ↦{Transfers.shareTokN fullShare 115} f)
      ∗ (hbM0.view.loc (c : Thread nD τ) ↦{Transfers.shareTokN fullShare 116} f)
      ∗ (hbM0.view.loc (c : Thread nD τ) ↦{Transfers.shareTokN fullShare 117} f)
      ∗ (hbM0.view.loc (c : Thread nD τ) ↦{Transfers.shareTokN fullShare 118} f)
      ∗ (hbM0.view.loc (c : Thread nD τ) ↦{Transfers.shareTokN fullShare 119} f)
      ∗ (hbM0.view.loc (c : Thread nD τ) ↦{Transfers.shareTokN fullShare 120} f)
      ∗ (hbM0.view.loc (c : Thread nD τ) ↦{Transfers.shareTokN fullShare 121} f)
      ∗ (hbM0.view.loc (c : Thread nD τ) ↦{Transfers.shareTokN fullShare 122} f)
      ∗ (hbM0.view.loc (c : Thread nD τ) ↦{Transfers.shareTokN fullShare 123} f)
      ∗ (hbM0.view.loc (c : Thread nD τ) ↦{Transfers.shareTokN fullShare 124} f)
      ∗ (hbM0.view.loc (c : Thread nD τ) ↦{Transfers.shareTokN fullShare 125} f)
      ∗ (hbM0.view.loc (c : Thread nD τ) ↦{Transfers.shareTokN fullShare 126} f)
      ∗ (hbM0.view.loc (c : Thread nD τ) ↦{Transfers.shareTokN fullShare 127} f)
      ∗ (hbM0.view.loc (c : Thread nD τ) ↦{Transfers.shareTokN fullShare 128} f)
      ∗ (hbM0.view.loc (c : Thread nD τ) ↦{Transfers.shareTokN fullShare 129} f)
      ∗ (hbM0.view.loc (c : Thread nD τ) ↦{Transfers.shareTokN fullShare 130} f)
      ∗ (hbM0.view.loc (c : Thread nD τ) ↦{Transfers.shareTokN fullShare 131} f)
      ∗ (hbM0.view.loc (c : Thread nD τ) ↦{Transfers.shareTokN fullShare 132} f)
      ∗ (hbM0.view.loc (c : Thread nD τ) ↦{Transfers.shareTokN fullShare 133} f)
      ∗ (hbM0.view.loc (c : Thread nD τ) ↦{Transfers.shareTokN fullShare 134} f)
      ∗ (hbM0.view.loc (c : Thread nD τ) ↦{Transfers.shareTokN fullShare 135} f)
      ∗ (hbM0.view.loc (c : Thread nD τ) ↦{Transfers.shareTokN fullShare 136} f)
      ∗ (hbM0.view.loc (c : Thread nD τ) ↦{Transfers.shareTokN fullShare 137} f)
      ∗ emp)) := by
  have h := (toks_up (F := F) (ℓ := hbM0.view.loc (c : Thread nD τ)) f 10 128).1
  simp only [chainUp, Nat.reduceAdd] at h
  exact h

set_option maxHeartbeats 8000000 in
/-- The second data table held whole: the remainder after 394 tokens, the 138 tokens no row takes, and tokens 138 … 265 and 266 … 393 ascending. -/
theorem tokV_up (c : Dev nD) (f : BufOf (F := F) c hbM1) :
    hbPt c hbM1 f ⊢ iprop((hbM1.view.loc (c : Thread nD τ) ↦{Transfers.shareDrop fullShare 394} f)
      ∗ bigSep (Finset.range 138) (tokAt f)
      ∗ ((hbM1.view.loc (c : Thread nD τ) ↦{Transfers.shareTokN fullShare 138} f)
      ∗ (hbM1.view.loc (c : Thread nD τ) ↦{Transfers.shareTokN fullShare 139} f)
      ∗ (hbM1.view.loc (c : Thread nD τ) ↦{Transfers.shareTokN fullShare 140} f)
      ∗ (hbM1.view.loc (c : Thread nD τ) ↦{Transfers.shareTokN fullShare 141} f)
      ∗ (hbM1.view.loc (c : Thread nD τ) ↦{Transfers.shareTokN fullShare 142} f)
      ∗ (hbM1.view.loc (c : Thread nD τ) ↦{Transfers.shareTokN fullShare 143} f)
      ∗ (hbM1.view.loc (c : Thread nD τ) ↦{Transfers.shareTokN fullShare 144} f)
      ∗ (hbM1.view.loc (c : Thread nD τ) ↦{Transfers.shareTokN fullShare 145} f)
      ∗ (hbM1.view.loc (c : Thread nD τ) ↦{Transfers.shareTokN fullShare 146} f)
      ∗ (hbM1.view.loc (c : Thread nD τ) ↦{Transfers.shareTokN fullShare 147} f)
      ∗ (hbM1.view.loc (c : Thread nD τ) ↦{Transfers.shareTokN fullShare 148} f)
      ∗ (hbM1.view.loc (c : Thread nD τ) ↦{Transfers.shareTokN fullShare 149} f)
      ∗ (hbM1.view.loc (c : Thread nD τ) ↦{Transfers.shareTokN fullShare 150} f)
      ∗ (hbM1.view.loc (c : Thread nD τ) ↦{Transfers.shareTokN fullShare 151} f)
      ∗ (hbM1.view.loc (c : Thread nD τ) ↦{Transfers.shareTokN fullShare 152} f)
      ∗ (hbM1.view.loc (c : Thread nD τ) ↦{Transfers.shareTokN fullShare 153} f)
      ∗ (hbM1.view.loc (c : Thread nD τ) ↦{Transfers.shareTokN fullShare 154} f)
      ∗ (hbM1.view.loc (c : Thread nD τ) ↦{Transfers.shareTokN fullShare 155} f)
      ∗ (hbM1.view.loc (c : Thread nD τ) ↦{Transfers.shareTokN fullShare 156} f)
      ∗ (hbM1.view.loc (c : Thread nD τ) ↦{Transfers.shareTokN fullShare 157} f)
      ∗ (hbM1.view.loc (c : Thread nD τ) ↦{Transfers.shareTokN fullShare 158} f)
      ∗ (hbM1.view.loc (c : Thread nD τ) ↦{Transfers.shareTokN fullShare 159} f)
      ∗ (hbM1.view.loc (c : Thread nD τ) ↦{Transfers.shareTokN fullShare 160} f)
      ∗ (hbM1.view.loc (c : Thread nD τ) ↦{Transfers.shareTokN fullShare 161} f)
      ∗ (hbM1.view.loc (c : Thread nD τ) ↦{Transfers.shareTokN fullShare 162} f)
      ∗ (hbM1.view.loc (c : Thread nD τ) ↦{Transfers.shareTokN fullShare 163} f)
      ∗ (hbM1.view.loc (c : Thread nD τ) ↦{Transfers.shareTokN fullShare 164} f)
      ∗ (hbM1.view.loc (c : Thread nD τ) ↦{Transfers.shareTokN fullShare 165} f)
      ∗ (hbM1.view.loc (c : Thread nD τ) ↦{Transfers.shareTokN fullShare 166} f)
      ∗ (hbM1.view.loc (c : Thread nD τ) ↦{Transfers.shareTokN fullShare 167} f)
      ∗ (hbM1.view.loc (c : Thread nD τ) ↦{Transfers.shareTokN fullShare 168} f)
      ∗ (hbM1.view.loc (c : Thread nD τ) ↦{Transfers.shareTokN fullShare 169} f)
      ∗ (hbM1.view.loc (c : Thread nD τ) ↦{Transfers.shareTokN fullShare 170} f)
      ∗ (hbM1.view.loc (c : Thread nD τ) ↦{Transfers.shareTokN fullShare 171} f)
      ∗ (hbM1.view.loc (c : Thread nD τ) ↦{Transfers.shareTokN fullShare 172} f)
      ∗ (hbM1.view.loc (c : Thread nD τ) ↦{Transfers.shareTokN fullShare 173} f)
      ∗ (hbM1.view.loc (c : Thread nD τ) ↦{Transfers.shareTokN fullShare 174} f)
      ∗ (hbM1.view.loc (c : Thread nD τ) ↦{Transfers.shareTokN fullShare 175} f)
      ∗ (hbM1.view.loc (c : Thread nD τ) ↦{Transfers.shareTokN fullShare 176} f)
      ∗ (hbM1.view.loc (c : Thread nD τ) ↦{Transfers.shareTokN fullShare 177} f)
      ∗ (hbM1.view.loc (c : Thread nD τ) ↦{Transfers.shareTokN fullShare 178} f)
      ∗ (hbM1.view.loc (c : Thread nD τ) ↦{Transfers.shareTokN fullShare 179} f)
      ∗ (hbM1.view.loc (c : Thread nD τ) ↦{Transfers.shareTokN fullShare 180} f)
      ∗ (hbM1.view.loc (c : Thread nD τ) ↦{Transfers.shareTokN fullShare 181} f)
      ∗ (hbM1.view.loc (c : Thread nD τ) ↦{Transfers.shareTokN fullShare 182} f)
      ∗ (hbM1.view.loc (c : Thread nD τ) ↦{Transfers.shareTokN fullShare 183} f)
      ∗ (hbM1.view.loc (c : Thread nD τ) ↦{Transfers.shareTokN fullShare 184} f)
      ∗ (hbM1.view.loc (c : Thread nD τ) ↦{Transfers.shareTokN fullShare 185} f)
      ∗ (hbM1.view.loc (c : Thread nD τ) ↦{Transfers.shareTokN fullShare 186} f)
      ∗ (hbM1.view.loc (c : Thread nD τ) ↦{Transfers.shareTokN fullShare 187} f)
      ∗ (hbM1.view.loc (c : Thread nD τ) ↦{Transfers.shareTokN fullShare 188} f)
      ∗ (hbM1.view.loc (c : Thread nD τ) ↦{Transfers.shareTokN fullShare 189} f)
      ∗ (hbM1.view.loc (c : Thread nD τ) ↦{Transfers.shareTokN fullShare 190} f)
      ∗ (hbM1.view.loc (c : Thread nD τ) ↦{Transfers.shareTokN fullShare 191} f)
      ∗ (hbM1.view.loc (c : Thread nD τ) ↦{Transfers.shareTokN fullShare 192} f)
      ∗ (hbM1.view.loc (c : Thread nD τ) ↦{Transfers.shareTokN fullShare 193} f)
      ∗ (hbM1.view.loc (c : Thread nD τ) ↦{Transfers.shareTokN fullShare 194} f)
      ∗ (hbM1.view.loc (c : Thread nD τ) ↦{Transfers.shareTokN fullShare 195} f)
      ∗ (hbM1.view.loc (c : Thread nD τ) ↦{Transfers.shareTokN fullShare 196} f)
      ∗ (hbM1.view.loc (c : Thread nD τ) ↦{Transfers.shareTokN fullShare 197} f)
      ∗ (hbM1.view.loc (c : Thread nD τ) ↦{Transfers.shareTokN fullShare 198} f)
      ∗ (hbM1.view.loc (c : Thread nD τ) ↦{Transfers.shareTokN fullShare 199} f)
      ∗ (hbM1.view.loc (c : Thread nD τ) ↦{Transfers.shareTokN fullShare 200} f)
      ∗ (hbM1.view.loc (c : Thread nD τ) ↦{Transfers.shareTokN fullShare 201} f)
      ∗ (hbM1.view.loc (c : Thread nD τ) ↦{Transfers.shareTokN fullShare 202} f)
      ∗ (hbM1.view.loc (c : Thread nD τ) ↦{Transfers.shareTokN fullShare 203} f)
      ∗ (hbM1.view.loc (c : Thread nD τ) ↦{Transfers.shareTokN fullShare 204} f)
      ∗ (hbM1.view.loc (c : Thread nD τ) ↦{Transfers.shareTokN fullShare 205} f)
      ∗ (hbM1.view.loc (c : Thread nD τ) ↦{Transfers.shareTokN fullShare 206} f)
      ∗ (hbM1.view.loc (c : Thread nD τ) ↦{Transfers.shareTokN fullShare 207} f)
      ∗ (hbM1.view.loc (c : Thread nD τ) ↦{Transfers.shareTokN fullShare 208} f)
      ∗ (hbM1.view.loc (c : Thread nD τ) ↦{Transfers.shareTokN fullShare 209} f)
      ∗ (hbM1.view.loc (c : Thread nD τ) ↦{Transfers.shareTokN fullShare 210} f)
      ∗ (hbM1.view.loc (c : Thread nD τ) ↦{Transfers.shareTokN fullShare 211} f)
      ∗ (hbM1.view.loc (c : Thread nD τ) ↦{Transfers.shareTokN fullShare 212} f)
      ∗ (hbM1.view.loc (c : Thread nD τ) ↦{Transfers.shareTokN fullShare 213} f)
      ∗ (hbM1.view.loc (c : Thread nD τ) ↦{Transfers.shareTokN fullShare 214} f)
      ∗ (hbM1.view.loc (c : Thread nD τ) ↦{Transfers.shareTokN fullShare 215} f)
      ∗ (hbM1.view.loc (c : Thread nD τ) ↦{Transfers.shareTokN fullShare 216} f)
      ∗ (hbM1.view.loc (c : Thread nD τ) ↦{Transfers.shareTokN fullShare 217} f)
      ∗ (hbM1.view.loc (c : Thread nD τ) ↦{Transfers.shareTokN fullShare 218} f)
      ∗ (hbM1.view.loc (c : Thread nD τ) ↦{Transfers.shareTokN fullShare 219} f)
      ∗ (hbM1.view.loc (c : Thread nD τ) ↦{Transfers.shareTokN fullShare 220} f)
      ∗ (hbM1.view.loc (c : Thread nD τ) ↦{Transfers.shareTokN fullShare 221} f)
      ∗ (hbM1.view.loc (c : Thread nD τ) ↦{Transfers.shareTokN fullShare 222} f)
      ∗ (hbM1.view.loc (c : Thread nD τ) ↦{Transfers.shareTokN fullShare 223} f)
      ∗ (hbM1.view.loc (c : Thread nD τ) ↦{Transfers.shareTokN fullShare 224} f)
      ∗ (hbM1.view.loc (c : Thread nD τ) ↦{Transfers.shareTokN fullShare 225} f)
      ∗ (hbM1.view.loc (c : Thread nD τ) ↦{Transfers.shareTokN fullShare 226} f)
      ∗ (hbM1.view.loc (c : Thread nD τ) ↦{Transfers.shareTokN fullShare 227} f)
      ∗ (hbM1.view.loc (c : Thread nD τ) ↦{Transfers.shareTokN fullShare 228} f)
      ∗ (hbM1.view.loc (c : Thread nD τ) ↦{Transfers.shareTokN fullShare 229} f)
      ∗ (hbM1.view.loc (c : Thread nD τ) ↦{Transfers.shareTokN fullShare 230} f)
      ∗ (hbM1.view.loc (c : Thread nD τ) ↦{Transfers.shareTokN fullShare 231} f)
      ∗ (hbM1.view.loc (c : Thread nD τ) ↦{Transfers.shareTokN fullShare 232} f)
      ∗ (hbM1.view.loc (c : Thread nD τ) ↦{Transfers.shareTokN fullShare 233} f)
      ∗ (hbM1.view.loc (c : Thread nD τ) ↦{Transfers.shareTokN fullShare 234} f)
      ∗ (hbM1.view.loc (c : Thread nD τ) ↦{Transfers.shareTokN fullShare 235} f)
      ∗ (hbM1.view.loc (c : Thread nD τ) ↦{Transfers.shareTokN fullShare 236} f)
      ∗ (hbM1.view.loc (c : Thread nD τ) ↦{Transfers.shareTokN fullShare 237} f)
      ∗ (hbM1.view.loc (c : Thread nD τ) ↦{Transfers.shareTokN fullShare 238} f)
      ∗ (hbM1.view.loc (c : Thread nD τ) ↦{Transfers.shareTokN fullShare 239} f)
      ∗ (hbM1.view.loc (c : Thread nD τ) ↦{Transfers.shareTokN fullShare 240} f)
      ∗ (hbM1.view.loc (c : Thread nD τ) ↦{Transfers.shareTokN fullShare 241} f)
      ∗ (hbM1.view.loc (c : Thread nD τ) ↦{Transfers.shareTokN fullShare 242} f)
      ∗ (hbM1.view.loc (c : Thread nD τ) ↦{Transfers.shareTokN fullShare 243} f)
      ∗ (hbM1.view.loc (c : Thread nD τ) ↦{Transfers.shareTokN fullShare 244} f)
      ∗ (hbM1.view.loc (c : Thread nD τ) ↦{Transfers.shareTokN fullShare 245} f)
      ∗ (hbM1.view.loc (c : Thread nD τ) ↦{Transfers.shareTokN fullShare 246} f)
      ∗ (hbM1.view.loc (c : Thread nD τ) ↦{Transfers.shareTokN fullShare 247} f)
      ∗ (hbM1.view.loc (c : Thread nD τ) ↦{Transfers.shareTokN fullShare 248} f)
      ∗ (hbM1.view.loc (c : Thread nD τ) ↦{Transfers.shareTokN fullShare 249} f)
      ∗ (hbM1.view.loc (c : Thread nD τ) ↦{Transfers.shareTokN fullShare 250} f)
      ∗ (hbM1.view.loc (c : Thread nD τ) ↦{Transfers.shareTokN fullShare 251} f)
      ∗ (hbM1.view.loc (c : Thread nD τ) ↦{Transfers.shareTokN fullShare 252} f)
      ∗ (hbM1.view.loc (c : Thread nD τ) ↦{Transfers.shareTokN fullShare 253} f)
      ∗ (hbM1.view.loc (c : Thread nD τ) ↦{Transfers.shareTokN fullShare 254} f)
      ∗ (hbM1.view.loc (c : Thread nD τ) ↦{Transfers.shareTokN fullShare 255} f)
      ∗ (hbM1.view.loc (c : Thread nD τ) ↦{Transfers.shareTokN fullShare 256} f)
      ∗ (hbM1.view.loc (c : Thread nD τ) ↦{Transfers.shareTokN fullShare 257} f)
      ∗ (hbM1.view.loc (c : Thread nD τ) ↦{Transfers.shareTokN fullShare 258} f)
      ∗ (hbM1.view.loc (c : Thread nD τ) ↦{Transfers.shareTokN fullShare 259} f)
      ∗ (hbM1.view.loc (c : Thread nD τ) ↦{Transfers.shareTokN fullShare 260} f)
      ∗ (hbM1.view.loc (c : Thread nD τ) ↦{Transfers.shareTokN fullShare 261} f)
      ∗ (hbM1.view.loc (c : Thread nD τ) ↦{Transfers.shareTokN fullShare 262} f)
      ∗ (hbM1.view.loc (c : Thread nD τ) ↦{Transfers.shareTokN fullShare 263} f)
      ∗ (hbM1.view.loc (c : Thread nD τ) ↦{Transfers.shareTokN fullShare 264} f)
      ∗ (hbM1.view.loc (c : Thread nD τ) ↦{Transfers.shareTokN fullShare 265} f)
      ∗ emp)
      ∗ ((hbM1.view.loc (c : Thread nD τ) ↦{Transfers.shareTokN fullShare 266} f)
      ∗ (hbM1.view.loc (c : Thread nD τ) ↦{Transfers.shareTokN fullShare 267} f)
      ∗ (hbM1.view.loc (c : Thread nD τ) ↦{Transfers.shareTokN fullShare 268} f)
      ∗ (hbM1.view.loc (c : Thread nD τ) ↦{Transfers.shareTokN fullShare 269} f)
      ∗ (hbM1.view.loc (c : Thread nD τ) ↦{Transfers.shareTokN fullShare 270} f)
      ∗ (hbM1.view.loc (c : Thread nD τ) ↦{Transfers.shareTokN fullShare 271} f)
      ∗ (hbM1.view.loc (c : Thread nD τ) ↦{Transfers.shareTokN fullShare 272} f)
      ∗ (hbM1.view.loc (c : Thread nD τ) ↦{Transfers.shareTokN fullShare 273} f)
      ∗ (hbM1.view.loc (c : Thread nD τ) ↦{Transfers.shareTokN fullShare 274} f)
      ∗ (hbM1.view.loc (c : Thread nD τ) ↦{Transfers.shareTokN fullShare 275} f)
      ∗ (hbM1.view.loc (c : Thread nD τ) ↦{Transfers.shareTokN fullShare 276} f)
      ∗ (hbM1.view.loc (c : Thread nD τ) ↦{Transfers.shareTokN fullShare 277} f)
      ∗ (hbM1.view.loc (c : Thread nD τ) ↦{Transfers.shareTokN fullShare 278} f)
      ∗ (hbM1.view.loc (c : Thread nD τ) ↦{Transfers.shareTokN fullShare 279} f)
      ∗ (hbM1.view.loc (c : Thread nD τ) ↦{Transfers.shareTokN fullShare 280} f)
      ∗ (hbM1.view.loc (c : Thread nD τ) ↦{Transfers.shareTokN fullShare 281} f)
      ∗ (hbM1.view.loc (c : Thread nD τ) ↦{Transfers.shareTokN fullShare 282} f)
      ∗ (hbM1.view.loc (c : Thread nD τ) ↦{Transfers.shareTokN fullShare 283} f)
      ∗ (hbM1.view.loc (c : Thread nD τ) ↦{Transfers.shareTokN fullShare 284} f)
      ∗ (hbM1.view.loc (c : Thread nD τ) ↦{Transfers.shareTokN fullShare 285} f)
      ∗ (hbM1.view.loc (c : Thread nD τ) ↦{Transfers.shareTokN fullShare 286} f)
      ∗ (hbM1.view.loc (c : Thread nD τ) ↦{Transfers.shareTokN fullShare 287} f)
      ∗ (hbM1.view.loc (c : Thread nD τ) ↦{Transfers.shareTokN fullShare 288} f)
      ∗ (hbM1.view.loc (c : Thread nD τ) ↦{Transfers.shareTokN fullShare 289} f)
      ∗ (hbM1.view.loc (c : Thread nD τ) ↦{Transfers.shareTokN fullShare 290} f)
      ∗ (hbM1.view.loc (c : Thread nD τ) ↦{Transfers.shareTokN fullShare 291} f)
      ∗ (hbM1.view.loc (c : Thread nD τ) ↦{Transfers.shareTokN fullShare 292} f)
      ∗ (hbM1.view.loc (c : Thread nD τ) ↦{Transfers.shareTokN fullShare 293} f)
      ∗ (hbM1.view.loc (c : Thread nD τ) ↦{Transfers.shareTokN fullShare 294} f)
      ∗ (hbM1.view.loc (c : Thread nD τ) ↦{Transfers.shareTokN fullShare 295} f)
      ∗ (hbM1.view.loc (c : Thread nD τ) ↦{Transfers.shareTokN fullShare 296} f)
      ∗ (hbM1.view.loc (c : Thread nD τ) ↦{Transfers.shareTokN fullShare 297} f)
      ∗ (hbM1.view.loc (c : Thread nD τ) ↦{Transfers.shareTokN fullShare 298} f)
      ∗ (hbM1.view.loc (c : Thread nD τ) ↦{Transfers.shareTokN fullShare 299} f)
      ∗ (hbM1.view.loc (c : Thread nD τ) ↦{Transfers.shareTokN fullShare 300} f)
      ∗ (hbM1.view.loc (c : Thread nD τ) ↦{Transfers.shareTokN fullShare 301} f)
      ∗ (hbM1.view.loc (c : Thread nD τ) ↦{Transfers.shareTokN fullShare 302} f)
      ∗ (hbM1.view.loc (c : Thread nD τ) ↦{Transfers.shareTokN fullShare 303} f)
      ∗ (hbM1.view.loc (c : Thread nD τ) ↦{Transfers.shareTokN fullShare 304} f)
      ∗ (hbM1.view.loc (c : Thread nD τ) ↦{Transfers.shareTokN fullShare 305} f)
      ∗ (hbM1.view.loc (c : Thread nD τ) ↦{Transfers.shareTokN fullShare 306} f)
      ∗ (hbM1.view.loc (c : Thread nD τ) ↦{Transfers.shareTokN fullShare 307} f)
      ∗ (hbM1.view.loc (c : Thread nD τ) ↦{Transfers.shareTokN fullShare 308} f)
      ∗ (hbM1.view.loc (c : Thread nD τ) ↦{Transfers.shareTokN fullShare 309} f)
      ∗ (hbM1.view.loc (c : Thread nD τ) ↦{Transfers.shareTokN fullShare 310} f)
      ∗ (hbM1.view.loc (c : Thread nD τ) ↦{Transfers.shareTokN fullShare 311} f)
      ∗ (hbM1.view.loc (c : Thread nD τ) ↦{Transfers.shareTokN fullShare 312} f)
      ∗ (hbM1.view.loc (c : Thread nD τ) ↦{Transfers.shareTokN fullShare 313} f)
      ∗ (hbM1.view.loc (c : Thread nD τ) ↦{Transfers.shareTokN fullShare 314} f)
      ∗ (hbM1.view.loc (c : Thread nD τ) ↦{Transfers.shareTokN fullShare 315} f)
      ∗ (hbM1.view.loc (c : Thread nD τ) ↦{Transfers.shareTokN fullShare 316} f)
      ∗ (hbM1.view.loc (c : Thread nD τ) ↦{Transfers.shareTokN fullShare 317} f)
      ∗ (hbM1.view.loc (c : Thread nD τ) ↦{Transfers.shareTokN fullShare 318} f)
      ∗ (hbM1.view.loc (c : Thread nD τ) ↦{Transfers.shareTokN fullShare 319} f)
      ∗ (hbM1.view.loc (c : Thread nD τ) ↦{Transfers.shareTokN fullShare 320} f)
      ∗ (hbM1.view.loc (c : Thread nD τ) ↦{Transfers.shareTokN fullShare 321} f)
      ∗ (hbM1.view.loc (c : Thread nD τ) ↦{Transfers.shareTokN fullShare 322} f)
      ∗ (hbM1.view.loc (c : Thread nD τ) ↦{Transfers.shareTokN fullShare 323} f)
      ∗ (hbM1.view.loc (c : Thread nD τ) ↦{Transfers.shareTokN fullShare 324} f)
      ∗ (hbM1.view.loc (c : Thread nD τ) ↦{Transfers.shareTokN fullShare 325} f)
      ∗ (hbM1.view.loc (c : Thread nD τ) ↦{Transfers.shareTokN fullShare 326} f)
      ∗ (hbM1.view.loc (c : Thread nD τ) ↦{Transfers.shareTokN fullShare 327} f)
      ∗ (hbM1.view.loc (c : Thread nD τ) ↦{Transfers.shareTokN fullShare 328} f)
      ∗ (hbM1.view.loc (c : Thread nD τ) ↦{Transfers.shareTokN fullShare 329} f)
      ∗ (hbM1.view.loc (c : Thread nD τ) ↦{Transfers.shareTokN fullShare 330} f)
      ∗ (hbM1.view.loc (c : Thread nD τ) ↦{Transfers.shareTokN fullShare 331} f)
      ∗ (hbM1.view.loc (c : Thread nD τ) ↦{Transfers.shareTokN fullShare 332} f)
      ∗ (hbM1.view.loc (c : Thread nD τ) ↦{Transfers.shareTokN fullShare 333} f)
      ∗ (hbM1.view.loc (c : Thread nD τ) ↦{Transfers.shareTokN fullShare 334} f)
      ∗ (hbM1.view.loc (c : Thread nD τ) ↦{Transfers.shareTokN fullShare 335} f)
      ∗ (hbM1.view.loc (c : Thread nD τ) ↦{Transfers.shareTokN fullShare 336} f)
      ∗ (hbM1.view.loc (c : Thread nD τ) ↦{Transfers.shareTokN fullShare 337} f)
      ∗ (hbM1.view.loc (c : Thread nD τ) ↦{Transfers.shareTokN fullShare 338} f)
      ∗ (hbM1.view.loc (c : Thread nD τ) ↦{Transfers.shareTokN fullShare 339} f)
      ∗ (hbM1.view.loc (c : Thread nD τ) ↦{Transfers.shareTokN fullShare 340} f)
      ∗ (hbM1.view.loc (c : Thread nD τ) ↦{Transfers.shareTokN fullShare 341} f)
      ∗ (hbM1.view.loc (c : Thread nD τ) ↦{Transfers.shareTokN fullShare 342} f)
      ∗ (hbM1.view.loc (c : Thread nD τ) ↦{Transfers.shareTokN fullShare 343} f)
      ∗ (hbM1.view.loc (c : Thread nD τ) ↦{Transfers.shareTokN fullShare 344} f)
      ∗ (hbM1.view.loc (c : Thread nD τ) ↦{Transfers.shareTokN fullShare 345} f)
      ∗ (hbM1.view.loc (c : Thread nD τ) ↦{Transfers.shareTokN fullShare 346} f)
      ∗ (hbM1.view.loc (c : Thread nD τ) ↦{Transfers.shareTokN fullShare 347} f)
      ∗ (hbM1.view.loc (c : Thread nD τ) ↦{Transfers.shareTokN fullShare 348} f)
      ∗ (hbM1.view.loc (c : Thread nD τ) ↦{Transfers.shareTokN fullShare 349} f)
      ∗ (hbM1.view.loc (c : Thread nD τ) ↦{Transfers.shareTokN fullShare 350} f)
      ∗ (hbM1.view.loc (c : Thread nD τ) ↦{Transfers.shareTokN fullShare 351} f)
      ∗ (hbM1.view.loc (c : Thread nD τ) ↦{Transfers.shareTokN fullShare 352} f)
      ∗ (hbM1.view.loc (c : Thread nD τ) ↦{Transfers.shareTokN fullShare 353} f)
      ∗ (hbM1.view.loc (c : Thread nD τ) ↦{Transfers.shareTokN fullShare 354} f)
      ∗ (hbM1.view.loc (c : Thread nD τ) ↦{Transfers.shareTokN fullShare 355} f)
      ∗ (hbM1.view.loc (c : Thread nD τ) ↦{Transfers.shareTokN fullShare 356} f)
      ∗ (hbM1.view.loc (c : Thread nD τ) ↦{Transfers.shareTokN fullShare 357} f)
      ∗ (hbM1.view.loc (c : Thread nD τ) ↦{Transfers.shareTokN fullShare 358} f)
      ∗ (hbM1.view.loc (c : Thread nD τ) ↦{Transfers.shareTokN fullShare 359} f)
      ∗ (hbM1.view.loc (c : Thread nD τ) ↦{Transfers.shareTokN fullShare 360} f)
      ∗ (hbM1.view.loc (c : Thread nD τ) ↦{Transfers.shareTokN fullShare 361} f)
      ∗ (hbM1.view.loc (c : Thread nD τ) ↦{Transfers.shareTokN fullShare 362} f)
      ∗ (hbM1.view.loc (c : Thread nD τ) ↦{Transfers.shareTokN fullShare 363} f)
      ∗ (hbM1.view.loc (c : Thread nD τ) ↦{Transfers.shareTokN fullShare 364} f)
      ∗ (hbM1.view.loc (c : Thread nD τ) ↦{Transfers.shareTokN fullShare 365} f)
      ∗ (hbM1.view.loc (c : Thread nD τ) ↦{Transfers.shareTokN fullShare 366} f)
      ∗ (hbM1.view.loc (c : Thread nD τ) ↦{Transfers.shareTokN fullShare 367} f)
      ∗ (hbM1.view.loc (c : Thread nD τ) ↦{Transfers.shareTokN fullShare 368} f)
      ∗ (hbM1.view.loc (c : Thread nD τ) ↦{Transfers.shareTokN fullShare 369} f)
      ∗ (hbM1.view.loc (c : Thread nD τ) ↦{Transfers.shareTokN fullShare 370} f)
      ∗ (hbM1.view.loc (c : Thread nD τ) ↦{Transfers.shareTokN fullShare 371} f)
      ∗ (hbM1.view.loc (c : Thread nD τ) ↦{Transfers.shareTokN fullShare 372} f)
      ∗ (hbM1.view.loc (c : Thread nD τ) ↦{Transfers.shareTokN fullShare 373} f)
      ∗ (hbM1.view.loc (c : Thread nD τ) ↦{Transfers.shareTokN fullShare 374} f)
      ∗ (hbM1.view.loc (c : Thread nD τ) ↦{Transfers.shareTokN fullShare 375} f)
      ∗ (hbM1.view.loc (c : Thread nD τ) ↦{Transfers.shareTokN fullShare 376} f)
      ∗ (hbM1.view.loc (c : Thread nD τ) ↦{Transfers.shareTokN fullShare 377} f)
      ∗ (hbM1.view.loc (c : Thread nD τ) ↦{Transfers.shareTokN fullShare 378} f)
      ∗ (hbM1.view.loc (c : Thread nD τ) ↦{Transfers.shareTokN fullShare 379} f)
      ∗ (hbM1.view.loc (c : Thread nD τ) ↦{Transfers.shareTokN fullShare 380} f)
      ∗ (hbM1.view.loc (c : Thread nD τ) ↦{Transfers.shareTokN fullShare 381} f)
      ∗ (hbM1.view.loc (c : Thread nD τ) ↦{Transfers.shareTokN fullShare 382} f)
      ∗ (hbM1.view.loc (c : Thread nD τ) ↦{Transfers.shareTokN fullShare 383} f)
      ∗ (hbM1.view.loc (c : Thread nD τ) ↦{Transfers.shareTokN fullShare 384} f)
      ∗ (hbM1.view.loc (c : Thread nD τ) ↦{Transfers.shareTokN fullShare 385} f)
      ∗ (hbM1.view.loc (c : Thread nD τ) ↦{Transfers.shareTokN fullShare 386} f)
      ∗ (hbM1.view.loc (c : Thread nD τ) ↦{Transfers.shareTokN fullShare 387} f)
      ∗ (hbM1.view.loc (c : Thread nD τ) ↦{Transfers.shareTokN fullShare 388} f)
      ∗ (hbM1.view.loc (c : Thread nD τ) ↦{Transfers.shareTokN fullShare 389} f)
      ∗ (hbM1.view.loc (c : Thread nD τ) ↦{Transfers.shareTokN fullShare 390} f)
      ∗ (hbM1.view.loc (c : Thread nD τ) ↦{Transfers.shareTokN fullShare 391} f)
      ∗ (hbM1.view.loc (c : Thread nD τ) ↦{Transfers.shareTokN fullShare 392} f)
      ∗ (hbM1.view.loc (c : Thread nD τ) ↦{Transfers.shareTokN fullShare 393} f)
      ∗ emp)) := by
  have h := (toks_up2 (F := F) (ℓ := hbM1.view.loc (c : Thread nD τ)) f 138 128 128).1
  simp only [chainUp, Nat.reduceAdd] at h
  exact h

set_option maxHeartbeats 8000000 in
/-- Scratch buffer 0 held at its own elements, as its 128 rows, row 0 first: each row is the destination of one copy. -/
theorem rows_up0 (c : Dev nD) (f : Buf (Elt F) (scM0.view.loc (c : Thread nD τ))) :
    (scM0.view.loc (c : Thread nD τ) ↦[scM0.view.set]{fullShare} f : sProp 𝕄) ⊢ iprop(((rowM scM0 0 inb_S128x64_S1x64_0_0).view.loc (c : Thread nD τ) ↦[(rowM scM0 0 inb_S128x64_S1x64_0_0).view.set]{fullShare} f)
      ∗ ((rowM scM0 1 inb_S128x64_S1x64_1_0).view.loc (c : Thread nD τ) ↦[(rowM scM0 1 inb_S128x64_S1x64_1_0).view.set]{fullShare} f)
      ∗ ((rowM scM0 2 inb_S128x64_S1x64_2_0).view.loc (c : Thread nD τ) ↦[(rowM scM0 2 inb_S128x64_S1x64_2_0).view.set]{fullShare} f)
      ∗ ((rowM scM0 3 inb_S128x64_S1x64_3_0).view.loc (c : Thread nD τ) ↦[(rowM scM0 3 inb_S128x64_S1x64_3_0).view.set]{fullShare} f)
      ∗ ((rowM scM0 4 inb_S128x64_S1x64_4_0).view.loc (c : Thread nD τ) ↦[(rowM scM0 4 inb_S128x64_S1x64_4_0).view.set]{fullShare} f)
      ∗ ((rowM scM0 5 inb_S128x64_S1x64_5_0).view.loc (c : Thread nD τ) ↦[(rowM scM0 5 inb_S128x64_S1x64_5_0).view.set]{fullShare} f)
      ∗ ((rowM scM0 6 inb_S128x64_S1x64_6_0).view.loc (c : Thread nD τ) ↦[(rowM scM0 6 inb_S128x64_S1x64_6_0).view.set]{fullShare} f)
      ∗ ((rowM scM0 7 inb_S128x64_S1x64_7_0).view.loc (c : Thread nD τ) ↦[(rowM scM0 7 inb_S128x64_S1x64_7_0).view.set]{fullShare} f)
      ∗ ((rowM scM0 8 inb_S128x64_S1x64_8_0).view.loc (c : Thread nD τ) ↦[(rowM scM0 8 inb_S128x64_S1x64_8_0).view.set]{fullShare} f)
      ∗ ((rowM scM0 9 inb_S128x64_S1x64_9_0).view.loc (c : Thread nD τ) ↦[(rowM scM0 9 inb_S128x64_S1x64_9_0).view.set]{fullShare} f)
      ∗ ((rowM scM0 10 inb_S128x64_S1x64_10_0).view.loc (c : Thread nD τ) ↦[(rowM scM0 10 inb_S128x64_S1x64_10_0).view.set]{fullShare} f)
      ∗ ((rowM scM0 11 inb_S128x64_S1x64_11_0).view.loc (c : Thread nD τ) ↦[(rowM scM0 11 inb_S128x64_S1x64_11_0).view.set]{fullShare} f)
      ∗ ((rowM scM0 12 inb_S128x64_S1x64_12_0).view.loc (c : Thread nD τ) ↦[(rowM scM0 12 inb_S128x64_S1x64_12_0).view.set]{fullShare} f)
      ∗ ((rowM scM0 13 inb_S128x64_S1x64_13_0).view.loc (c : Thread nD τ) ↦[(rowM scM0 13 inb_S128x64_S1x64_13_0).view.set]{fullShare} f)
      ∗ ((rowM scM0 14 inb_S128x64_S1x64_14_0).view.loc (c : Thread nD τ) ↦[(rowM scM0 14 inb_S128x64_S1x64_14_0).view.set]{fullShare} f)
      ∗ ((rowM scM0 15 inb_S128x64_S1x64_15_0).view.loc (c : Thread nD τ) ↦[(rowM scM0 15 inb_S128x64_S1x64_15_0).view.set]{fullShare} f)
      ∗ ((rowM scM0 16 inb_S128x64_S1x64_16_0).view.loc (c : Thread nD τ) ↦[(rowM scM0 16 inb_S128x64_S1x64_16_0).view.set]{fullShare} f)
      ∗ ((rowM scM0 17 inb_S128x64_S1x64_17_0).view.loc (c : Thread nD τ) ↦[(rowM scM0 17 inb_S128x64_S1x64_17_0).view.set]{fullShare} f)
      ∗ ((rowM scM0 18 inb_S128x64_S1x64_18_0).view.loc (c : Thread nD τ) ↦[(rowM scM0 18 inb_S128x64_S1x64_18_0).view.set]{fullShare} f)
      ∗ ((rowM scM0 19 inb_S128x64_S1x64_19_0).view.loc (c : Thread nD τ) ↦[(rowM scM0 19 inb_S128x64_S1x64_19_0).view.set]{fullShare} f)
      ∗ ((rowM scM0 20 inb_S128x64_S1x64_20_0).view.loc (c : Thread nD τ) ↦[(rowM scM0 20 inb_S128x64_S1x64_20_0).view.set]{fullShare} f)
      ∗ ((rowM scM0 21 inb_S128x64_S1x64_21_0).view.loc (c : Thread nD τ) ↦[(rowM scM0 21 inb_S128x64_S1x64_21_0).view.set]{fullShare} f)
      ∗ ((rowM scM0 22 inb_S128x64_S1x64_22_0).view.loc (c : Thread nD τ) ↦[(rowM scM0 22 inb_S128x64_S1x64_22_0).view.set]{fullShare} f)
      ∗ ((rowM scM0 23 inb_S128x64_S1x64_23_0).view.loc (c : Thread nD τ) ↦[(rowM scM0 23 inb_S128x64_S1x64_23_0).view.set]{fullShare} f)
      ∗ ((rowM scM0 24 inb_S128x64_S1x64_24_0).view.loc (c : Thread nD τ) ↦[(rowM scM0 24 inb_S128x64_S1x64_24_0).view.set]{fullShare} f)
      ∗ ((rowM scM0 25 inb_S128x64_S1x64_25_0).view.loc (c : Thread nD τ) ↦[(rowM scM0 25 inb_S128x64_S1x64_25_0).view.set]{fullShare} f)
      ∗ ((rowM scM0 26 inb_S128x64_S1x64_26_0).view.loc (c : Thread nD τ) ↦[(rowM scM0 26 inb_S128x64_S1x64_26_0).view.set]{fullShare} f)
      ∗ ((rowM scM0 27 inb_S128x64_S1x64_27_0).view.loc (c : Thread nD τ) ↦[(rowM scM0 27 inb_S128x64_S1x64_27_0).view.set]{fullShare} f)
      ∗ ((rowM scM0 28 inb_S128x64_S1x64_28_0).view.loc (c : Thread nD τ) ↦[(rowM scM0 28 inb_S128x64_S1x64_28_0).view.set]{fullShare} f)
      ∗ ((rowM scM0 29 inb_S128x64_S1x64_29_0).view.loc (c : Thread nD τ) ↦[(rowM scM0 29 inb_S128x64_S1x64_29_0).view.set]{fullShare} f)
      ∗ ((rowM scM0 30 inb_S128x64_S1x64_30_0).view.loc (c : Thread nD τ) ↦[(rowM scM0 30 inb_S128x64_S1x64_30_0).view.set]{fullShare} f)
      ∗ ((rowM scM0 31 inb_S128x64_S1x64_31_0).view.loc (c : Thread nD τ) ↦[(rowM scM0 31 inb_S128x64_S1x64_31_0).view.set]{fullShare} f)
      ∗ ((rowM scM0 32 inb_S128x64_S1x64_32_0).view.loc (c : Thread nD τ) ↦[(rowM scM0 32 inb_S128x64_S1x64_32_0).view.set]{fullShare} f)
      ∗ ((rowM scM0 33 inb_S128x64_S1x64_33_0).view.loc (c : Thread nD τ) ↦[(rowM scM0 33 inb_S128x64_S1x64_33_0).view.set]{fullShare} f)
      ∗ ((rowM scM0 34 inb_S128x64_S1x64_34_0).view.loc (c : Thread nD τ) ↦[(rowM scM0 34 inb_S128x64_S1x64_34_0).view.set]{fullShare} f)
      ∗ ((rowM scM0 35 inb_S128x64_S1x64_35_0).view.loc (c : Thread nD τ) ↦[(rowM scM0 35 inb_S128x64_S1x64_35_0).view.set]{fullShare} f)
      ∗ ((rowM scM0 36 inb_S128x64_S1x64_36_0).view.loc (c : Thread nD τ) ↦[(rowM scM0 36 inb_S128x64_S1x64_36_0).view.set]{fullShare} f)
      ∗ ((rowM scM0 37 inb_S128x64_S1x64_37_0).view.loc (c : Thread nD τ) ↦[(rowM scM0 37 inb_S128x64_S1x64_37_0).view.set]{fullShare} f)
      ∗ ((rowM scM0 38 inb_S128x64_S1x64_38_0).view.loc (c : Thread nD τ) ↦[(rowM scM0 38 inb_S128x64_S1x64_38_0).view.set]{fullShare} f)
      ∗ ((rowM scM0 39 inb_S128x64_S1x64_39_0).view.loc (c : Thread nD τ) ↦[(rowM scM0 39 inb_S128x64_S1x64_39_0).view.set]{fullShare} f)
      ∗ ((rowM scM0 40 inb_S128x64_S1x64_40_0).view.loc (c : Thread nD τ) ↦[(rowM scM0 40 inb_S128x64_S1x64_40_0).view.set]{fullShare} f)
      ∗ ((rowM scM0 41 inb_S128x64_S1x64_41_0).view.loc (c : Thread nD τ) ↦[(rowM scM0 41 inb_S128x64_S1x64_41_0).view.set]{fullShare} f)
      ∗ ((rowM scM0 42 inb_S128x64_S1x64_42_0).view.loc (c : Thread nD τ) ↦[(rowM scM0 42 inb_S128x64_S1x64_42_0).view.set]{fullShare} f)
      ∗ ((rowM scM0 43 inb_S128x64_S1x64_43_0).view.loc (c : Thread nD τ) ↦[(rowM scM0 43 inb_S128x64_S1x64_43_0).view.set]{fullShare} f)
      ∗ ((rowM scM0 44 inb_S128x64_S1x64_44_0).view.loc (c : Thread nD τ) ↦[(rowM scM0 44 inb_S128x64_S1x64_44_0).view.set]{fullShare} f)
      ∗ ((rowM scM0 45 inb_S128x64_S1x64_45_0).view.loc (c : Thread nD τ) ↦[(rowM scM0 45 inb_S128x64_S1x64_45_0).view.set]{fullShare} f)
      ∗ ((rowM scM0 46 inb_S128x64_S1x64_46_0).view.loc (c : Thread nD τ) ↦[(rowM scM0 46 inb_S128x64_S1x64_46_0).view.set]{fullShare} f)
      ∗ ((rowM scM0 47 inb_S128x64_S1x64_47_0).view.loc (c : Thread nD τ) ↦[(rowM scM0 47 inb_S128x64_S1x64_47_0).view.set]{fullShare} f)
      ∗ ((rowM scM0 48 inb_S128x64_S1x64_48_0).view.loc (c : Thread nD τ) ↦[(rowM scM0 48 inb_S128x64_S1x64_48_0).view.set]{fullShare} f)
      ∗ ((rowM scM0 49 inb_S128x64_S1x64_49_0).view.loc (c : Thread nD τ) ↦[(rowM scM0 49 inb_S128x64_S1x64_49_0).view.set]{fullShare} f)
      ∗ ((rowM scM0 50 inb_S128x64_S1x64_50_0).view.loc (c : Thread nD τ) ↦[(rowM scM0 50 inb_S128x64_S1x64_50_0).view.set]{fullShare} f)
      ∗ ((rowM scM0 51 inb_S128x64_S1x64_51_0).view.loc (c : Thread nD τ) ↦[(rowM scM0 51 inb_S128x64_S1x64_51_0).view.set]{fullShare} f)
      ∗ ((rowM scM0 52 inb_S128x64_S1x64_52_0).view.loc (c : Thread nD τ) ↦[(rowM scM0 52 inb_S128x64_S1x64_52_0).view.set]{fullShare} f)
      ∗ ((rowM scM0 53 inb_S128x64_S1x64_53_0).view.loc (c : Thread nD τ) ↦[(rowM scM0 53 inb_S128x64_S1x64_53_0).view.set]{fullShare} f)
      ∗ ((rowM scM0 54 inb_S128x64_S1x64_54_0).view.loc (c : Thread nD τ) ↦[(rowM scM0 54 inb_S128x64_S1x64_54_0).view.set]{fullShare} f)
      ∗ ((rowM scM0 55 inb_S128x64_S1x64_55_0).view.loc (c : Thread nD τ) ↦[(rowM scM0 55 inb_S128x64_S1x64_55_0).view.set]{fullShare} f)
      ∗ ((rowM scM0 56 inb_S128x64_S1x64_56_0).view.loc (c : Thread nD τ) ↦[(rowM scM0 56 inb_S128x64_S1x64_56_0).view.set]{fullShare} f)
      ∗ ((rowM scM0 57 inb_S128x64_S1x64_57_0).view.loc (c : Thread nD τ) ↦[(rowM scM0 57 inb_S128x64_S1x64_57_0).view.set]{fullShare} f)
      ∗ ((rowM scM0 58 inb_S128x64_S1x64_58_0).view.loc (c : Thread nD τ) ↦[(rowM scM0 58 inb_S128x64_S1x64_58_0).view.set]{fullShare} f)
      ∗ ((rowM scM0 59 inb_S128x64_S1x64_59_0).view.loc (c : Thread nD τ) ↦[(rowM scM0 59 inb_S128x64_S1x64_59_0).view.set]{fullShare} f)
      ∗ ((rowM scM0 60 inb_S128x64_S1x64_60_0).view.loc (c : Thread nD τ) ↦[(rowM scM0 60 inb_S128x64_S1x64_60_0).view.set]{fullShare} f)
      ∗ ((rowM scM0 61 inb_S128x64_S1x64_61_0).view.loc (c : Thread nD τ) ↦[(rowM scM0 61 inb_S128x64_S1x64_61_0).view.set]{fullShare} f)
      ∗ ((rowM scM0 62 inb_S128x64_S1x64_62_0).view.loc (c : Thread nD τ) ↦[(rowM scM0 62 inb_S128x64_S1x64_62_0).view.set]{fullShare} f)
      ∗ ((rowM scM0 63 inb_S128x64_S1x64_63_0).view.loc (c : Thread nD τ) ↦[(rowM scM0 63 inb_S128x64_S1x64_63_0).view.set]{fullShare} f)
      ∗ ((rowM scM0 64 inb_S128x64_S1x64_64_0).view.loc (c : Thread nD τ) ↦[(rowM scM0 64 inb_S128x64_S1x64_64_0).view.set]{fullShare} f)
      ∗ ((rowM scM0 65 inb_S128x64_S1x64_65_0).view.loc (c : Thread nD τ) ↦[(rowM scM0 65 inb_S128x64_S1x64_65_0).view.set]{fullShare} f)
      ∗ ((rowM scM0 66 inb_S128x64_S1x64_66_0).view.loc (c : Thread nD τ) ↦[(rowM scM0 66 inb_S128x64_S1x64_66_0).view.set]{fullShare} f)
      ∗ ((rowM scM0 67 inb_S128x64_S1x64_67_0).view.loc (c : Thread nD τ) ↦[(rowM scM0 67 inb_S128x64_S1x64_67_0).view.set]{fullShare} f)
      ∗ ((rowM scM0 68 inb_S128x64_S1x64_68_0).view.loc (c : Thread nD τ) ↦[(rowM scM0 68 inb_S128x64_S1x64_68_0).view.set]{fullShare} f)
      ∗ ((rowM scM0 69 inb_S128x64_S1x64_69_0).view.loc (c : Thread nD τ) ↦[(rowM scM0 69 inb_S128x64_S1x64_69_0).view.set]{fullShare} f)
      ∗ ((rowM scM0 70 inb_S128x64_S1x64_70_0).view.loc (c : Thread nD τ) ↦[(rowM scM0 70 inb_S128x64_S1x64_70_0).view.set]{fullShare} f)
      ∗ ((rowM scM0 71 inb_S128x64_S1x64_71_0).view.loc (c : Thread nD τ) ↦[(rowM scM0 71 inb_S128x64_S1x64_71_0).view.set]{fullShare} f)
      ∗ ((rowM scM0 72 inb_S128x64_S1x64_72_0).view.loc (c : Thread nD τ) ↦[(rowM scM0 72 inb_S128x64_S1x64_72_0).view.set]{fullShare} f)
      ∗ ((rowM scM0 73 inb_S128x64_S1x64_73_0).view.loc (c : Thread nD τ) ↦[(rowM scM0 73 inb_S128x64_S1x64_73_0).view.set]{fullShare} f)
      ∗ ((rowM scM0 74 inb_S128x64_S1x64_74_0).view.loc (c : Thread nD τ) ↦[(rowM scM0 74 inb_S128x64_S1x64_74_0).view.set]{fullShare} f)
      ∗ ((rowM scM0 75 inb_S128x64_S1x64_75_0).view.loc (c : Thread nD τ) ↦[(rowM scM0 75 inb_S128x64_S1x64_75_0).view.set]{fullShare} f)
      ∗ ((rowM scM0 76 inb_S128x64_S1x64_76_0).view.loc (c : Thread nD τ) ↦[(rowM scM0 76 inb_S128x64_S1x64_76_0).view.set]{fullShare} f)
      ∗ ((rowM scM0 77 inb_S128x64_S1x64_77_0).view.loc (c : Thread nD τ) ↦[(rowM scM0 77 inb_S128x64_S1x64_77_0).view.set]{fullShare} f)
      ∗ ((rowM scM0 78 inb_S128x64_S1x64_78_0).view.loc (c : Thread nD τ) ↦[(rowM scM0 78 inb_S128x64_S1x64_78_0).view.set]{fullShare} f)
      ∗ ((rowM scM0 79 inb_S128x64_S1x64_79_0).view.loc (c : Thread nD τ) ↦[(rowM scM0 79 inb_S128x64_S1x64_79_0).view.set]{fullShare} f)
      ∗ ((rowM scM0 80 inb_S128x64_S1x64_80_0).view.loc (c : Thread nD τ) ↦[(rowM scM0 80 inb_S128x64_S1x64_80_0).view.set]{fullShare} f)
      ∗ ((rowM scM0 81 inb_S128x64_S1x64_81_0).view.loc (c : Thread nD τ) ↦[(rowM scM0 81 inb_S128x64_S1x64_81_0).view.set]{fullShare} f)
      ∗ ((rowM scM0 82 inb_S128x64_S1x64_82_0).view.loc (c : Thread nD τ) ↦[(rowM scM0 82 inb_S128x64_S1x64_82_0).view.set]{fullShare} f)
      ∗ ((rowM scM0 83 inb_S128x64_S1x64_83_0).view.loc (c : Thread nD τ) ↦[(rowM scM0 83 inb_S128x64_S1x64_83_0).view.set]{fullShare} f)
      ∗ ((rowM scM0 84 inb_S128x64_S1x64_84_0).view.loc (c : Thread nD τ) ↦[(rowM scM0 84 inb_S128x64_S1x64_84_0).view.set]{fullShare} f)
      ∗ ((rowM scM0 85 inb_S128x64_S1x64_85_0).view.loc (c : Thread nD τ) ↦[(rowM scM0 85 inb_S128x64_S1x64_85_0).view.set]{fullShare} f)
      ∗ ((rowM scM0 86 inb_S128x64_S1x64_86_0).view.loc (c : Thread nD τ) ↦[(rowM scM0 86 inb_S128x64_S1x64_86_0).view.set]{fullShare} f)
      ∗ ((rowM scM0 87 inb_S128x64_S1x64_87_0).view.loc (c : Thread nD τ) ↦[(rowM scM0 87 inb_S128x64_S1x64_87_0).view.set]{fullShare} f)
      ∗ ((rowM scM0 88 inb_S128x64_S1x64_88_0).view.loc (c : Thread nD τ) ↦[(rowM scM0 88 inb_S128x64_S1x64_88_0).view.set]{fullShare} f)
      ∗ ((rowM scM0 89 inb_S128x64_S1x64_89_0).view.loc (c : Thread nD τ) ↦[(rowM scM0 89 inb_S128x64_S1x64_89_0).view.set]{fullShare} f)
      ∗ ((rowM scM0 90 inb_S128x64_S1x64_90_0).view.loc (c : Thread nD τ) ↦[(rowM scM0 90 inb_S128x64_S1x64_90_0).view.set]{fullShare} f)
      ∗ ((rowM scM0 91 inb_S128x64_S1x64_91_0).view.loc (c : Thread nD τ) ↦[(rowM scM0 91 inb_S128x64_S1x64_91_0).view.set]{fullShare} f)
      ∗ ((rowM scM0 92 inb_S128x64_S1x64_92_0).view.loc (c : Thread nD τ) ↦[(rowM scM0 92 inb_S128x64_S1x64_92_0).view.set]{fullShare} f)
      ∗ ((rowM scM0 93 inb_S128x64_S1x64_93_0).view.loc (c : Thread nD τ) ↦[(rowM scM0 93 inb_S128x64_S1x64_93_0).view.set]{fullShare} f)
      ∗ ((rowM scM0 94 inb_S128x64_S1x64_94_0).view.loc (c : Thread nD τ) ↦[(rowM scM0 94 inb_S128x64_S1x64_94_0).view.set]{fullShare} f)
      ∗ ((rowM scM0 95 inb_S128x64_S1x64_95_0).view.loc (c : Thread nD τ) ↦[(rowM scM0 95 inb_S128x64_S1x64_95_0).view.set]{fullShare} f)
      ∗ ((rowM scM0 96 inb_S128x64_S1x64_96_0).view.loc (c : Thread nD τ) ↦[(rowM scM0 96 inb_S128x64_S1x64_96_0).view.set]{fullShare} f)
      ∗ ((rowM scM0 97 inb_S128x64_S1x64_97_0).view.loc (c : Thread nD τ) ↦[(rowM scM0 97 inb_S128x64_S1x64_97_0).view.set]{fullShare} f)
      ∗ ((rowM scM0 98 inb_S128x64_S1x64_98_0).view.loc (c : Thread nD τ) ↦[(rowM scM0 98 inb_S128x64_S1x64_98_0).view.set]{fullShare} f)
      ∗ ((rowM scM0 99 inb_S128x64_S1x64_99_0).view.loc (c : Thread nD τ) ↦[(rowM scM0 99 inb_S128x64_S1x64_99_0).view.set]{fullShare} f)
      ∗ ((rowM scM0 100 inb_S128x64_S1x64_100_0).view.loc (c : Thread nD τ) ↦[(rowM scM0 100 inb_S128x64_S1x64_100_0).view.set]{fullShare} f)
      ∗ ((rowM scM0 101 inb_S128x64_S1x64_101_0).view.loc (c : Thread nD τ) ↦[(rowM scM0 101 inb_S128x64_S1x64_101_0).view.set]{fullShare} f)
      ∗ ((rowM scM0 102 inb_S128x64_S1x64_102_0).view.loc (c : Thread nD τ) ↦[(rowM scM0 102 inb_S128x64_S1x64_102_0).view.set]{fullShare} f)
      ∗ ((rowM scM0 103 inb_S128x64_S1x64_103_0).view.loc (c : Thread nD τ) ↦[(rowM scM0 103 inb_S128x64_S1x64_103_0).view.set]{fullShare} f)
      ∗ ((rowM scM0 104 inb_S128x64_S1x64_104_0).view.loc (c : Thread nD τ) ↦[(rowM scM0 104 inb_S128x64_S1x64_104_0).view.set]{fullShare} f)
      ∗ ((rowM scM0 105 inb_S128x64_S1x64_105_0).view.loc (c : Thread nD τ) ↦[(rowM scM0 105 inb_S128x64_S1x64_105_0).view.set]{fullShare} f)
      ∗ ((rowM scM0 106 inb_S128x64_S1x64_106_0).view.loc (c : Thread nD τ) ↦[(rowM scM0 106 inb_S128x64_S1x64_106_0).view.set]{fullShare} f)
      ∗ ((rowM scM0 107 inb_S128x64_S1x64_107_0).view.loc (c : Thread nD τ) ↦[(rowM scM0 107 inb_S128x64_S1x64_107_0).view.set]{fullShare} f)
      ∗ ((rowM scM0 108 inb_S128x64_S1x64_108_0).view.loc (c : Thread nD τ) ↦[(rowM scM0 108 inb_S128x64_S1x64_108_0).view.set]{fullShare} f)
      ∗ ((rowM scM0 109 inb_S128x64_S1x64_109_0).view.loc (c : Thread nD τ) ↦[(rowM scM0 109 inb_S128x64_S1x64_109_0).view.set]{fullShare} f)
      ∗ ((rowM scM0 110 inb_S128x64_S1x64_110_0).view.loc (c : Thread nD τ) ↦[(rowM scM0 110 inb_S128x64_S1x64_110_0).view.set]{fullShare} f)
      ∗ ((rowM scM0 111 inb_S128x64_S1x64_111_0).view.loc (c : Thread nD τ) ↦[(rowM scM0 111 inb_S128x64_S1x64_111_0).view.set]{fullShare} f)
      ∗ ((rowM scM0 112 inb_S128x64_S1x64_112_0).view.loc (c : Thread nD τ) ↦[(rowM scM0 112 inb_S128x64_S1x64_112_0).view.set]{fullShare} f)
      ∗ ((rowM scM0 113 inb_S128x64_S1x64_113_0).view.loc (c : Thread nD τ) ↦[(rowM scM0 113 inb_S128x64_S1x64_113_0).view.set]{fullShare} f)
      ∗ ((rowM scM0 114 inb_S128x64_S1x64_114_0).view.loc (c : Thread nD τ) ↦[(rowM scM0 114 inb_S128x64_S1x64_114_0).view.set]{fullShare} f)
      ∗ ((rowM scM0 115 inb_S128x64_S1x64_115_0).view.loc (c : Thread nD τ) ↦[(rowM scM0 115 inb_S128x64_S1x64_115_0).view.set]{fullShare} f)
      ∗ ((rowM scM0 116 inb_S128x64_S1x64_116_0).view.loc (c : Thread nD τ) ↦[(rowM scM0 116 inb_S128x64_S1x64_116_0).view.set]{fullShare} f)
      ∗ ((rowM scM0 117 inb_S128x64_S1x64_117_0).view.loc (c : Thread nD τ) ↦[(rowM scM0 117 inb_S128x64_S1x64_117_0).view.set]{fullShare} f)
      ∗ ((rowM scM0 118 inb_S128x64_S1x64_118_0).view.loc (c : Thread nD τ) ↦[(rowM scM0 118 inb_S128x64_S1x64_118_0).view.set]{fullShare} f)
      ∗ ((rowM scM0 119 inb_S128x64_S1x64_119_0).view.loc (c : Thread nD τ) ↦[(rowM scM0 119 inb_S128x64_S1x64_119_0).view.set]{fullShare} f)
      ∗ ((rowM scM0 120 inb_S128x64_S1x64_120_0).view.loc (c : Thread nD τ) ↦[(rowM scM0 120 inb_S128x64_S1x64_120_0).view.set]{fullShare} f)
      ∗ ((rowM scM0 121 inb_S128x64_S1x64_121_0).view.loc (c : Thread nD τ) ↦[(rowM scM0 121 inb_S128x64_S1x64_121_0).view.set]{fullShare} f)
      ∗ ((rowM scM0 122 inb_S128x64_S1x64_122_0).view.loc (c : Thread nD τ) ↦[(rowM scM0 122 inb_S128x64_S1x64_122_0).view.set]{fullShare} f)
      ∗ ((rowM scM0 123 inb_S128x64_S1x64_123_0).view.loc (c : Thread nD τ) ↦[(rowM scM0 123 inb_S128x64_S1x64_123_0).view.set]{fullShare} f)
      ∗ ((rowM scM0 124 inb_S128x64_S1x64_124_0).view.loc (c : Thread nD τ) ↦[(rowM scM0 124 inb_S128x64_S1x64_124_0).view.set]{fullShare} f)
      ∗ ((rowM scM0 125 inb_S128x64_S1x64_125_0).view.loc (c : Thread nD τ) ↦[(rowM scM0 125 inb_S128x64_S1x64_125_0).view.set]{fullShare} f)
      ∗ ((rowM scM0 126 inb_S128x64_S1x64_126_0).view.loc (c : Thread nD τ) ↦[(rowM scM0 126 inb_S128x64_S1x64_126_0).view.set]{fullShare} f)
      ∗ ((rowM scM0 127 inb_S128x64_S1x64_127_0).view.loc (c : Thread nD τ) ↦[(rowM scM0 127 inb_S128x64_S1x64_127_0).view.set]{fullShare} f)
      ∗ emp) := by
  have h := rows_split (F := F) scM0 c f
  rw [bigSep_range_eq_chainUp] at h
  simp only [chainUp, Nat.reduceAdd, rowSet_lit scM0 0 (by decide) inb_S128x64_S1x64_0_0, rowSet_lit scM0 1 (by decide) inb_S128x64_S1x64_1_0, rowSet_lit scM0 2 (by decide) inb_S128x64_S1x64_2_0, rowSet_lit scM0 3 (by decide) inb_S128x64_S1x64_3_0, rowSet_lit scM0 4 (by decide) inb_S128x64_S1x64_4_0, rowSet_lit scM0 5 (by decide) inb_S128x64_S1x64_5_0, rowSet_lit scM0 6 (by decide) inb_S128x64_S1x64_6_0, rowSet_lit scM0 7 (by decide) inb_S128x64_S1x64_7_0, rowSet_lit scM0 8 (by decide) inb_S128x64_S1x64_8_0, rowSet_lit scM0 9 (by decide) inb_S128x64_S1x64_9_0, rowSet_lit scM0 10 (by decide) inb_S128x64_S1x64_10_0, rowSet_lit scM0 11 (by decide) inb_S128x64_S1x64_11_0, rowSet_lit scM0 12 (by decide) inb_S128x64_S1x64_12_0, rowSet_lit scM0 13 (by decide) inb_S128x64_S1x64_13_0, rowSet_lit scM0 14 (by decide) inb_S128x64_S1x64_14_0, rowSet_lit scM0 15 (by decide) inb_S128x64_S1x64_15_0, rowSet_lit scM0 16 (by decide) inb_S128x64_S1x64_16_0, rowSet_lit scM0 17 (by decide) inb_S128x64_S1x64_17_0, rowSet_lit scM0 18 (by decide) inb_S128x64_S1x64_18_0, rowSet_lit scM0 19 (by decide) inb_S128x64_S1x64_19_0, rowSet_lit scM0 20 (by decide) inb_S128x64_S1x64_20_0, rowSet_lit scM0 21 (by decide) inb_S128x64_S1x64_21_0, rowSet_lit scM0 22 (by decide) inb_S128x64_S1x64_22_0, rowSet_lit scM0 23 (by decide) inb_S128x64_S1x64_23_0, rowSet_lit scM0 24 (by decide) inb_S128x64_S1x64_24_0, rowSet_lit scM0 25 (by decide) inb_S128x64_S1x64_25_0, rowSet_lit scM0 26 (by decide) inb_S128x64_S1x64_26_0, rowSet_lit scM0 27 (by decide) inb_S128x64_S1x64_27_0, rowSet_lit scM0 28 (by decide) inb_S128x64_S1x64_28_0, rowSet_lit scM0 29 (by decide) inb_S128x64_S1x64_29_0, rowSet_lit scM0 30 (by decide) inb_S128x64_S1x64_30_0, rowSet_lit scM0 31 (by decide) inb_S128x64_S1x64_31_0, rowSet_lit scM0 32 (by decide) inb_S128x64_S1x64_32_0, rowSet_lit scM0 33 (by decide) inb_S128x64_S1x64_33_0, rowSet_lit scM0 34 (by decide) inb_S128x64_S1x64_34_0, rowSet_lit scM0 35 (by decide) inb_S128x64_S1x64_35_0, rowSet_lit scM0 36 (by decide) inb_S128x64_S1x64_36_0, rowSet_lit scM0 37 (by decide) inb_S128x64_S1x64_37_0, rowSet_lit scM0 38 (by decide) inb_S128x64_S1x64_38_0, rowSet_lit scM0 39 (by decide) inb_S128x64_S1x64_39_0, rowSet_lit scM0 40 (by decide) inb_S128x64_S1x64_40_0, rowSet_lit scM0 41 (by decide) inb_S128x64_S1x64_41_0, rowSet_lit scM0 42 (by decide) inb_S128x64_S1x64_42_0, rowSet_lit scM0 43 (by decide) inb_S128x64_S1x64_43_0, rowSet_lit scM0 44 (by decide) inb_S128x64_S1x64_44_0, rowSet_lit scM0 45 (by decide) inb_S128x64_S1x64_45_0, rowSet_lit scM0 46 (by decide) inb_S128x64_S1x64_46_0, rowSet_lit scM0 47 (by decide) inb_S128x64_S1x64_47_0, rowSet_lit scM0 48 (by decide) inb_S128x64_S1x64_48_0, rowSet_lit scM0 49 (by decide) inb_S128x64_S1x64_49_0, rowSet_lit scM0 50 (by decide) inb_S128x64_S1x64_50_0, rowSet_lit scM0 51 (by decide) inb_S128x64_S1x64_51_0, rowSet_lit scM0 52 (by decide) inb_S128x64_S1x64_52_0, rowSet_lit scM0 53 (by decide) inb_S128x64_S1x64_53_0, rowSet_lit scM0 54 (by decide) inb_S128x64_S1x64_54_0, rowSet_lit scM0 55 (by decide) inb_S128x64_S1x64_55_0, rowSet_lit scM0 56 (by decide) inb_S128x64_S1x64_56_0, rowSet_lit scM0 57 (by decide) inb_S128x64_S1x64_57_0, rowSet_lit scM0 58 (by decide) inb_S128x64_S1x64_58_0, rowSet_lit scM0 59 (by decide) inb_S128x64_S1x64_59_0, rowSet_lit scM0 60 (by decide) inb_S128x64_S1x64_60_0, rowSet_lit scM0 61 (by decide) inb_S128x64_S1x64_61_0, rowSet_lit scM0 62 (by decide) inb_S128x64_S1x64_62_0, rowSet_lit scM0 63 (by decide) inb_S128x64_S1x64_63_0, rowSet_lit scM0 64 (by decide) inb_S128x64_S1x64_64_0, rowSet_lit scM0 65 (by decide) inb_S128x64_S1x64_65_0, rowSet_lit scM0 66 (by decide) inb_S128x64_S1x64_66_0, rowSet_lit scM0 67 (by decide) inb_S128x64_S1x64_67_0, rowSet_lit scM0 68 (by decide) inb_S128x64_S1x64_68_0, rowSet_lit scM0 69 (by decide) inb_S128x64_S1x64_69_0, rowSet_lit scM0 70 (by decide) inb_S128x64_S1x64_70_0, rowSet_lit scM0 71 (by decide) inb_S128x64_S1x64_71_0, rowSet_lit scM0 72 (by decide) inb_S128x64_S1x64_72_0, rowSet_lit scM0 73 (by decide) inb_S128x64_S1x64_73_0, rowSet_lit scM0 74 (by decide) inb_S128x64_S1x64_74_0, rowSet_lit scM0 75 (by decide) inb_S128x64_S1x64_75_0, rowSet_lit scM0 76 (by decide) inb_S128x64_S1x64_76_0, rowSet_lit scM0 77 (by decide) inb_S128x64_S1x64_77_0, rowSet_lit scM0 78 (by decide) inb_S128x64_S1x64_78_0, rowSet_lit scM0 79 (by decide) inb_S128x64_S1x64_79_0, rowSet_lit scM0 80 (by decide) inb_S128x64_S1x64_80_0, rowSet_lit scM0 81 (by decide) inb_S128x64_S1x64_81_0, rowSet_lit scM0 82 (by decide) inb_S128x64_S1x64_82_0, rowSet_lit scM0 83 (by decide) inb_S128x64_S1x64_83_0, rowSet_lit scM0 84 (by decide) inb_S128x64_S1x64_84_0, rowSet_lit scM0 85 (by decide) inb_S128x64_S1x64_85_0, rowSet_lit scM0 86 (by decide) inb_S128x64_S1x64_86_0, rowSet_lit scM0 87 (by decide) inb_S128x64_S1x64_87_0, rowSet_lit scM0 88 (by decide) inb_S128x64_S1x64_88_0, rowSet_lit scM0 89 (by decide) inb_S128x64_S1x64_89_0, rowSet_lit scM0 90 (by decide) inb_S128x64_S1x64_90_0, rowSet_lit scM0 91 (by decide) inb_S128x64_S1x64_91_0, rowSet_lit scM0 92 (by decide) inb_S128x64_S1x64_92_0, rowSet_lit scM0 93 (by decide) inb_S128x64_S1x64_93_0, rowSet_lit scM0 94 (by decide) inb_S128x64_S1x64_94_0, rowSet_lit scM0 95 (by decide) inb_S128x64_S1x64_95_0, rowSet_lit scM0 96 (by decide) inb_S128x64_S1x64_96_0, rowSet_lit scM0 97 (by decide) inb_S128x64_S1x64_97_0, rowSet_lit scM0 98 (by decide) inb_S128x64_S1x64_98_0, rowSet_lit scM0 99 (by decide) inb_S128x64_S1x64_99_0, rowSet_lit scM0 100 (by decide) inb_S128x64_S1x64_100_0, rowSet_lit scM0 101 (by decide) inb_S128x64_S1x64_101_0, rowSet_lit scM0 102 (by decide) inb_S128x64_S1x64_102_0, rowSet_lit scM0 103 (by decide) inb_S128x64_S1x64_103_0, rowSet_lit scM0 104 (by decide) inb_S128x64_S1x64_104_0, rowSet_lit scM0 105 (by decide) inb_S128x64_S1x64_105_0, rowSet_lit scM0 106 (by decide) inb_S128x64_S1x64_106_0, rowSet_lit scM0 107 (by decide) inb_S128x64_S1x64_107_0, rowSet_lit scM0 108 (by decide) inb_S128x64_S1x64_108_0, rowSet_lit scM0 109 (by decide) inb_S128x64_S1x64_109_0, rowSet_lit scM0 110 (by decide) inb_S128x64_S1x64_110_0, rowSet_lit scM0 111 (by decide) inb_S128x64_S1x64_111_0, rowSet_lit scM0 112 (by decide) inb_S128x64_S1x64_112_0, rowSet_lit scM0 113 (by decide) inb_S128x64_S1x64_113_0, rowSet_lit scM0 114 (by decide) inb_S128x64_S1x64_114_0, rowSet_lit scM0 115 (by decide) inb_S128x64_S1x64_115_0, rowSet_lit scM0 116 (by decide) inb_S128x64_S1x64_116_0, rowSet_lit scM0 117 (by decide) inb_S128x64_S1x64_117_0, rowSet_lit scM0 118 (by decide) inb_S128x64_S1x64_118_0, rowSet_lit scM0 119 (by decide) inb_S128x64_S1x64_119_0, rowSet_lit scM0 120 (by decide) inb_S128x64_S1x64_120_0, rowSet_lit scM0 121 (by decide) inb_S128x64_S1x64_121_0, rowSet_lit scM0 122 (by decide) inb_S128x64_S1x64_122_0, rowSet_lit scM0 123 (by decide) inb_S128x64_S1x64_123_0, rowSet_lit scM0 124 (by decide) inb_S128x64_S1x64_124_0, rowSet_lit scM0 125 (by decide) inb_S128x64_S1x64_125_0, rowSet_lit scM0 126 (by decide) inb_S128x64_S1x64_126_0, rowSet_lit scM0 127 (by decide) inb_S128x64_S1x64_127_0] at h
  exact h

set_option maxHeartbeats 8000000 in
/-- Scratch buffer 1 held at its own elements, as its 128 rows, row 0 first: each row is the destination of one copy. -/
theorem rows_up1 (c : Dev nD) (f : Buf (Elt F) (scM1.view.loc (c : Thread nD τ))) :
    (scM1.view.loc (c : Thread nD τ) ↦[scM1.view.set]{fullShare} f : sProp 𝕄) ⊢ iprop(((rowM scM1 0 inb_S128x64_S1x64_0_0).view.loc (c : Thread nD τ) ↦[(rowM scM1 0 inb_S128x64_S1x64_0_0).view.set]{fullShare} f)
      ∗ ((rowM scM1 1 inb_S128x64_S1x64_1_0).view.loc (c : Thread nD τ) ↦[(rowM scM1 1 inb_S128x64_S1x64_1_0).view.set]{fullShare} f)
      ∗ ((rowM scM1 2 inb_S128x64_S1x64_2_0).view.loc (c : Thread nD τ) ↦[(rowM scM1 2 inb_S128x64_S1x64_2_0).view.set]{fullShare} f)
      ∗ ((rowM scM1 3 inb_S128x64_S1x64_3_0).view.loc (c : Thread nD τ) ↦[(rowM scM1 3 inb_S128x64_S1x64_3_0).view.set]{fullShare} f)
      ∗ ((rowM scM1 4 inb_S128x64_S1x64_4_0).view.loc (c : Thread nD τ) ↦[(rowM scM1 4 inb_S128x64_S1x64_4_0).view.set]{fullShare} f)
      ∗ ((rowM scM1 5 inb_S128x64_S1x64_5_0).view.loc (c : Thread nD τ) ↦[(rowM scM1 5 inb_S128x64_S1x64_5_0).view.set]{fullShare} f)
      ∗ ((rowM scM1 6 inb_S128x64_S1x64_6_0).view.loc (c : Thread nD τ) ↦[(rowM scM1 6 inb_S128x64_S1x64_6_0).view.set]{fullShare} f)
      ∗ ((rowM scM1 7 inb_S128x64_S1x64_7_0).view.loc (c : Thread nD τ) ↦[(rowM scM1 7 inb_S128x64_S1x64_7_0).view.set]{fullShare} f)
      ∗ ((rowM scM1 8 inb_S128x64_S1x64_8_0).view.loc (c : Thread nD τ) ↦[(rowM scM1 8 inb_S128x64_S1x64_8_0).view.set]{fullShare} f)
      ∗ ((rowM scM1 9 inb_S128x64_S1x64_9_0).view.loc (c : Thread nD τ) ↦[(rowM scM1 9 inb_S128x64_S1x64_9_0).view.set]{fullShare} f)
      ∗ ((rowM scM1 10 inb_S128x64_S1x64_10_0).view.loc (c : Thread nD τ) ↦[(rowM scM1 10 inb_S128x64_S1x64_10_0).view.set]{fullShare} f)
      ∗ ((rowM scM1 11 inb_S128x64_S1x64_11_0).view.loc (c : Thread nD τ) ↦[(rowM scM1 11 inb_S128x64_S1x64_11_0).view.set]{fullShare} f)
      ∗ ((rowM scM1 12 inb_S128x64_S1x64_12_0).view.loc (c : Thread nD τ) ↦[(rowM scM1 12 inb_S128x64_S1x64_12_0).view.set]{fullShare} f)
      ∗ ((rowM scM1 13 inb_S128x64_S1x64_13_0).view.loc (c : Thread nD τ) ↦[(rowM scM1 13 inb_S128x64_S1x64_13_0).view.set]{fullShare} f)
      ∗ ((rowM scM1 14 inb_S128x64_S1x64_14_0).view.loc (c : Thread nD τ) ↦[(rowM scM1 14 inb_S128x64_S1x64_14_0).view.set]{fullShare} f)
      ∗ ((rowM scM1 15 inb_S128x64_S1x64_15_0).view.loc (c : Thread nD τ) ↦[(rowM scM1 15 inb_S128x64_S1x64_15_0).view.set]{fullShare} f)
      ∗ ((rowM scM1 16 inb_S128x64_S1x64_16_0).view.loc (c : Thread nD τ) ↦[(rowM scM1 16 inb_S128x64_S1x64_16_0).view.set]{fullShare} f)
      ∗ ((rowM scM1 17 inb_S128x64_S1x64_17_0).view.loc (c : Thread nD τ) ↦[(rowM scM1 17 inb_S128x64_S1x64_17_0).view.set]{fullShare} f)
      ∗ ((rowM scM1 18 inb_S128x64_S1x64_18_0).view.loc (c : Thread nD τ) ↦[(rowM scM1 18 inb_S128x64_S1x64_18_0).view.set]{fullShare} f)
      ∗ ((rowM scM1 19 inb_S128x64_S1x64_19_0).view.loc (c : Thread nD τ) ↦[(rowM scM1 19 inb_S128x64_S1x64_19_0).view.set]{fullShare} f)
      ∗ ((rowM scM1 20 inb_S128x64_S1x64_20_0).view.loc (c : Thread nD τ) ↦[(rowM scM1 20 inb_S128x64_S1x64_20_0).view.set]{fullShare} f)
      ∗ ((rowM scM1 21 inb_S128x64_S1x64_21_0).view.loc (c : Thread nD τ) ↦[(rowM scM1 21 inb_S128x64_S1x64_21_0).view.set]{fullShare} f)
      ∗ ((rowM scM1 22 inb_S128x64_S1x64_22_0).view.loc (c : Thread nD τ) ↦[(rowM scM1 22 inb_S128x64_S1x64_22_0).view.set]{fullShare} f)
      ∗ ((rowM scM1 23 inb_S128x64_S1x64_23_0).view.loc (c : Thread nD τ) ↦[(rowM scM1 23 inb_S128x64_S1x64_23_0).view.set]{fullShare} f)
      ∗ ((rowM scM1 24 inb_S128x64_S1x64_24_0).view.loc (c : Thread nD τ) ↦[(rowM scM1 24 inb_S128x64_S1x64_24_0).view.set]{fullShare} f)
      ∗ ((rowM scM1 25 inb_S128x64_S1x64_25_0).view.loc (c : Thread nD τ) ↦[(rowM scM1 25 inb_S128x64_S1x64_25_0).view.set]{fullShare} f)
      ∗ ((rowM scM1 26 inb_S128x64_S1x64_26_0).view.loc (c : Thread nD τ) ↦[(rowM scM1 26 inb_S128x64_S1x64_26_0).view.set]{fullShare} f)
      ∗ ((rowM scM1 27 inb_S128x64_S1x64_27_0).view.loc (c : Thread nD τ) ↦[(rowM scM1 27 inb_S128x64_S1x64_27_0).view.set]{fullShare} f)
      ∗ ((rowM scM1 28 inb_S128x64_S1x64_28_0).view.loc (c : Thread nD τ) ↦[(rowM scM1 28 inb_S128x64_S1x64_28_0).view.set]{fullShare} f)
      ∗ ((rowM scM1 29 inb_S128x64_S1x64_29_0).view.loc (c : Thread nD τ) ↦[(rowM scM1 29 inb_S128x64_S1x64_29_0).view.set]{fullShare} f)
      ∗ ((rowM scM1 30 inb_S128x64_S1x64_30_0).view.loc (c : Thread nD τ) ↦[(rowM scM1 30 inb_S128x64_S1x64_30_0).view.set]{fullShare} f)
      ∗ ((rowM scM1 31 inb_S128x64_S1x64_31_0).view.loc (c : Thread nD τ) ↦[(rowM scM1 31 inb_S128x64_S1x64_31_0).view.set]{fullShare} f)
      ∗ ((rowM scM1 32 inb_S128x64_S1x64_32_0).view.loc (c : Thread nD τ) ↦[(rowM scM1 32 inb_S128x64_S1x64_32_0).view.set]{fullShare} f)
      ∗ ((rowM scM1 33 inb_S128x64_S1x64_33_0).view.loc (c : Thread nD τ) ↦[(rowM scM1 33 inb_S128x64_S1x64_33_0).view.set]{fullShare} f)
      ∗ ((rowM scM1 34 inb_S128x64_S1x64_34_0).view.loc (c : Thread nD τ) ↦[(rowM scM1 34 inb_S128x64_S1x64_34_0).view.set]{fullShare} f)
      ∗ ((rowM scM1 35 inb_S128x64_S1x64_35_0).view.loc (c : Thread nD τ) ↦[(rowM scM1 35 inb_S128x64_S1x64_35_0).view.set]{fullShare} f)
      ∗ ((rowM scM1 36 inb_S128x64_S1x64_36_0).view.loc (c : Thread nD τ) ↦[(rowM scM1 36 inb_S128x64_S1x64_36_0).view.set]{fullShare} f)
      ∗ ((rowM scM1 37 inb_S128x64_S1x64_37_0).view.loc (c : Thread nD τ) ↦[(rowM scM1 37 inb_S128x64_S1x64_37_0).view.set]{fullShare} f)
      ∗ ((rowM scM1 38 inb_S128x64_S1x64_38_0).view.loc (c : Thread nD τ) ↦[(rowM scM1 38 inb_S128x64_S1x64_38_0).view.set]{fullShare} f)
      ∗ ((rowM scM1 39 inb_S128x64_S1x64_39_0).view.loc (c : Thread nD τ) ↦[(rowM scM1 39 inb_S128x64_S1x64_39_0).view.set]{fullShare} f)
      ∗ ((rowM scM1 40 inb_S128x64_S1x64_40_0).view.loc (c : Thread nD τ) ↦[(rowM scM1 40 inb_S128x64_S1x64_40_0).view.set]{fullShare} f)
      ∗ ((rowM scM1 41 inb_S128x64_S1x64_41_0).view.loc (c : Thread nD τ) ↦[(rowM scM1 41 inb_S128x64_S1x64_41_0).view.set]{fullShare} f)
      ∗ ((rowM scM1 42 inb_S128x64_S1x64_42_0).view.loc (c : Thread nD τ) ↦[(rowM scM1 42 inb_S128x64_S1x64_42_0).view.set]{fullShare} f)
      ∗ ((rowM scM1 43 inb_S128x64_S1x64_43_0).view.loc (c : Thread nD τ) ↦[(rowM scM1 43 inb_S128x64_S1x64_43_0).view.set]{fullShare} f)
      ∗ ((rowM scM1 44 inb_S128x64_S1x64_44_0).view.loc (c : Thread nD τ) ↦[(rowM scM1 44 inb_S128x64_S1x64_44_0).view.set]{fullShare} f)
      ∗ ((rowM scM1 45 inb_S128x64_S1x64_45_0).view.loc (c : Thread nD τ) ↦[(rowM scM1 45 inb_S128x64_S1x64_45_0).view.set]{fullShare} f)
      ∗ ((rowM scM1 46 inb_S128x64_S1x64_46_0).view.loc (c : Thread nD τ) ↦[(rowM scM1 46 inb_S128x64_S1x64_46_0).view.set]{fullShare} f)
      ∗ ((rowM scM1 47 inb_S128x64_S1x64_47_0).view.loc (c : Thread nD τ) ↦[(rowM scM1 47 inb_S128x64_S1x64_47_0).view.set]{fullShare} f)
      ∗ ((rowM scM1 48 inb_S128x64_S1x64_48_0).view.loc (c : Thread nD τ) ↦[(rowM scM1 48 inb_S128x64_S1x64_48_0).view.set]{fullShare} f)
      ∗ ((rowM scM1 49 inb_S128x64_S1x64_49_0).view.loc (c : Thread nD τ) ↦[(rowM scM1 49 inb_S128x64_S1x64_49_0).view.set]{fullShare} f)
      ∗ ((rowM scM1 50 inb_S128x64_S1x64_50_0).view.loc (c : Thread nD τ) ↦[(rowM scM1 50 inb_S128x64_S1x64_50_0).view.set]{fullShare} f)
      ∗ ((rowM scM1 51 inb_S128x64_S1x64_51_0).view.loc (c : Thread nD τ) ↦[(rowM scM1 51 inb_S128x64_S1x64_51_0).view.set]{fullShare} f)
      ∗ ((rowM scM1 52 inb_S128x64_S1x64_52_0).view.loc (c : Thread nD τ) ↦[(rowM scM1 52 inb_S128x64_S1x64_52_0).view.set]{fullShare} f)
      ∗ ((rowM scM1 53 inb_S128x64_S1x64_53_0).view.loc (c : Thread nD τ) ↦[(rowM scM1 53 inb_S128x64_S1x64_53_0).view.set]{fullShare} f)
      ∗ ((rowM scM1 54 inb_S128x64_S1x64_54_0).view.loc (c : Thread nD τ) ↦[(rowM scM1 54 inb_S128x64_S1x64_54_0).view.set]{fullShare} f)
      ∗ ((rowM scM1 55 inb_S128x64_S1x64_55_0).view.loc (c : Thread nD τ) ↦[(rowM scM1 55 inb_S128x64_S1x64_55_0).view.set]{fullShare} f)
      ∗ ((rowM scM1 56 inb_S128x64_S1x64_56_0).view.loc (c : Thread nD τ) ↦[(rowM scM1 56 inb_S128x64_S1x64_56_0).view.set]{fullShare} f)
      ∗ ((rowM scM1 57 inb_S128x64_S1x64_57_0).view.loc (c : Thread nD τ) ↦[(rowM scM1 57 inb_S128x64_S1x64_57_0).view.set]{fullShare} f)
      ∗ ((rowM scM1 58 inb_S128x64_S1x64_58_0).view.loc (c : Thread nD τ) ↦[(rowM scM1 58 inb_S128x64_S1x64_58_0).view.set]{fullShare} f)
      ∗ ((rowM scM1 59 inb_S128x64_S1x64_59_0).view.loc (c : Thread nD τ) ↦[(rowM scM1 59 inb_S128x64_S1x64_59_0).view.set]{fullShare} f)
      ∗ ((rowM scM1 60 inb_S128x64_S1x64_60_0).view.loc (c : Thread nD τ) ↦[(rowM scM1 60 inb_S128x64_S1x64_60_0).view.set]{fullShare} f)
      ∗ ((rowM scM1 61 inb_S128x64_S1x64_61_0).view.loc (c : Thread nD τ) ↦[(rowM scM1 61 inb_S128x64_S1x64_61_0).view.set]{fullShare} f)
      ∗ ((rowM scM1 62 inb_S128x64_S1x64_62_0).view.loc (c : Thread nD τ) ↦[(rowM scM1 62 inb_S128x64_S1x64_62_0).view.set]{fullShare} f)
      ∗ ((rowM scM1 63 inb_S128x64_S1x64_63_0).view.loc (c : Thread nD τ) ↦[(rowM scM1 63 inb_S128x64_S1x64_63_0).view.set]{fullShare} f)
      ∗ ((rowM scM1 64 inb_S128x64_S1x64_64_0).view.loc (c : Thread nD τ) ↦[(rowM scM1 64 inb_S128x64_S1x64_64_0).view.set]{fullShare} f)
      ∗ ((rowM scM1 65 inb_S128x64_S1x64_65_0).view.loc (c : Thread nD τ) ↦[(rowM scM1 65 inb_S128x64_S1x64_65_0).view.set]{fullShare} f)
      ∗ ((rowM scM1 66 inb_S128x64_S1x64_66_0).view.loc (c : Thread nD τ) ↦[(rowM scM1 66 inb_S128x64_S1x64_66_0).view.set]{fullShare} f)
      ∗ ((rowM scM1 67 inb_S128x64_S1x64_67_0).view.loc (c : Thread nD τ) ↦[(rowM scM1 67 inb_S128x64_S1x64_67_0).view.set]{fullShare} f)
      ∗ ((rowM scM1 68 inb_S128x64_S1x64_68_0).view.loc (c : Thread nD τ) ↦[(rowM scM1 68 inb_S128x64_S1x64_68_0).view.set]{fullShare} f)
      ∗ ((rowM scM1 69 inb_S128x64_S1x64_69_0).view.loc (c : Thread nD τ) ↦[(rowM scM1 69 inb_S128x64_S1x64_69_0).view.set]{fullShare} f)
      ∗ ((rowM scM1 70 inb_S128x64_S1x64_70_0).view.loc (c : Thread nD τ) ↦[(rowM scM1 70 inb_S128x64_S1x64_70_0).view.set]{fullShare} f)
      ∗ ((rowM scM1 71 inb_S128x64_S1x64_71_0).view.loc (c : Thread nD τ) ↦[(rowM scM1 71 inb_S128x64_S1x64_71_0).view.set]{fullShare} f)
      ∗ ((rowM scM1 72 inb_S128x64_S1x64_72_0).view.loc (c : Thread nD τ) ↦[(rowM scM1 72 inb_S128x64_S1x64_72_0).view.set]{fullShare} f)
      ∗ ((rowM scM1 73 inb_S128x64_S1x64_73_0).view.loc (c : Thread nD τ) ↦[(rowM scM1 73 inb_S128x64_S1x64_73_0).view.set]{fullShare} f)
      ∗ ((rowM scM1 74 inb_S128x64_S1x64_74_0).view.loc (c : Thread nD τ) ↦[(rowM scM1 74 inb_S128x64_S1x64_74_0).view.set]{fullShare} f)
      ∗ ((rowM scM1 75 inb_S128x64_S1x64_75_0).view.loc (c : Thread nD τ) ↦[(rowM scM1 75 inb_S128x64_S1x64_75_0).view.set]{fullShare} f)
      ∗ ((rowM scM1 76 inb_S128x64_S1x64_76_0).view.loc (c : Thread nD τ) ↦[(rowM scM1 76 inb_S128x64_S1x64_76_0).view.set]{fullShare} f)
      ∗ ((rowM scM1 77 inb_S128x64_S1x64_77_0).view.loc (c : Thread nD τ) ↦[(rowM scM1 77 inb_S128x64_S1x64_77_0).view.set]{fullShare} f)
      ∗ ((rowM scM1 78 inb_S128x64_S1x64_78_0).view.loc (c : Thread nD τ) ↦[(rowM scM1 78 inb_S128x64_S1x64_78_0).view.set]{fullShare} f)
      ∗ ((rowM scM1 79 inb_S128x64_S1x64_79_0).view.loc (c : Thread nD τ) ↦[(rowM scM1 79 inb_S128x64_S1x64_79_0).view.set]{fullShare} f)
      ∗ ((rowM scM1 80 inb_S128x64_S1x64_80_0).view.loc (c : Thread nD τ) ↦[(rowM scM1 80 inb_S128x64_S1x64_80_0).view.set]{fullShare} f)
      ∗ ((rowM scM1 81 inb_S128x64_S1x64_81_0).view.loc (c : Thread nD τ) ↦[(rowM scM1 81 inb_S128x64_S1x64_81_0).view.set]{fullShare} f)
      ∗ ((rowM scM1 82 inb_S128x64_S1x64_82_0).view.loc (c : Thread nD τ) ↦[(rowM scM1 82 inb_S128x64_S1x64_82_0).view.set]{fullShare} f)
      ∗ ((rowM scM1 83 inb_S128x64_S1x64_83_0).view.loc (c : Thread nD τ) ↦[(rowM scM1 83 inb_S128x64_S1x64_83_0).view.set]{fullShare} f)
      ∗ ((rowM scM1 84 inb_S128x64_S1x64_84_0).view.loc (c : Thread nD τ) ↦[(rowM scM1 84 inb_S128x64_S1x64_84_0).view.set]{fullShare} f)
      ∗ ((rowM scM1 85 inb_S128x64_S1x64_85_0).view.loc (c : Thread nD τ) ↦[(rowM scM1 85 inb_S128x64_S1x64_85_0).view.set]{fullShare} f)
      ∗ ((rowM scM1 86 inb_S128x64_S1x64_86_0).view.loc (c : Thread nD τ) ↦[(rowM scM1 86 inb_S128x64_S1x64_86_0).view.set]{fullShare} f)
      ∗ ((rowM scM1 87 inb_S128x64_S1x64_87_0).view.loc (c : Thread nD τ) ↦[(rowM scM1 87 inb_S128x64_S1x64_87_0).view.set]{fullShare} f)
      ∗ ((rowM scM1 88 inb_S128x64_S1x64_88_0).view.loc (c : Thread nD τ) ↦[(rowM scM1 88 inb_S128x64_S1x64_88_0).view.set]{fullShare} f)
      ∗ ((rowM scM1 89 inb_S128x64_S1x64_89_0).view.loc (c : Thread nD τ) ↦[(rowM scM1 89 inb_S128x64_S1x64_89_0).view.set]{fullShare} f)
      ∗ ((rowM scM1 90 inb_S128x64_S1x64_90_0).view.loc (c : Thread nD τ) ↦[(rowM scM1 90 inb_S128x64_S1x64_90_0).view.set]{fullShare} f)
      ∗ ((rowM scM1 91 inb_S128x64_S1x64_91_0).view.loc (c : Thread nD τ) ↦[(rowM scM1 91 inb_S128x64_S1x64_91_0).view.set]{fullShare} f)
      ∗ ((rowM scM1 92 inb_S128x64_S1x64_92_0).view.loc (c : Thread nD τ) ↦[(rowM scM1 92 inb_S128x64_S1x64_92_0).view.set]{fullShare} f)
      ∗ ((rowM scM1 93 inb_S128x64_S1x64_93_0).view.loc (c : Thread nD τ) ↦[(rowM scM1 93 inb_S128x64_S1x64_93_0).view.set]{fullShare} f)
      ∗ ((rowM scM1 94 inb_S128x64_S1x64_94_0).view.loc (c : Thread nD τ) ↦[(rowM scM1 94 inb_S128x64_S1x64_94_0).view.set]{fullShare} f)
      ∗ ((rowM scM1 95 inb_S128x64_S1x64_95_0).view.loc (c : Thread nD τ) ↦[(rowM scM1 95 inb_S128x64_S1x64_95_0).view.set]{fullShare} f)
      ∗ ((rowM scM1 96 inb_S128x64_S1x64_96_0).view.loc (c : Thread nD τ) ↦[(rowM scM1 96 inb_S128x64_S1x64_96_0).view.set]{fullShare} f)
      ∗ ((rowM scM1 97 inb_S128x64_S1x64_97_0).view.loc (c : Thread nD τ) ↦[(rowM scM1 97 inb_S128x64_S1x64_97_0).view.set]{fullShare} f)
      ∗ ((rowM scM1 98 inb_S128x64_S1x64_98_0).view.loc (c : Thread nD τ) ↦[(rowM scM1 98 inb_S128x64_S1x64_98_0).view.set]{fullShare} f)
      ∗ ((rowM scM1 99 inb_S128x64_S1x64_99_0).view.loc (c : Thread nD τ) ↦[(rowM scM1 99 inb_S128x64_S1x64_99_0).view.set]{fullShare} f)
      ∗ ((rowM scM1 100 inb_S128x64_S1x64_100_0).view.loc (c : Thread nD τ) ↦[(rowM scM1 100 inb_S128x64_S1x64_100_0).view.set]{fullShare} f)
      ∗ ((rowM scM1 101 inb_S128x64_S1x64_101_0).view.loc (c : Thread nD τ) ↦[(rowM scM1 101 inb_S128x64_S1x64_101_0).view.set]{fullShare} f)
      ∗ ((rowM scM1 102 inb_S128x64_S1x64_102_0).view.loc (c : Thread nD τ) ↦[(rowM scM1 102 inb_S128x64_S1x64_102_0).view.set]{fullShare} f)
      ∗ ((rowM scM1 103 inb_S128x64_S1x64_103_0).view.loc (c : Thread nD τ) ↦[(rowM scM1 103 inb_S128x64_S1x64_103_0).view.set]{fullShare} f)
      ∗ ((rowM scM1 104 inb_S128x64_S1x64_104_0).view.loc (c : Thread nD τ) ↦[(rowM scM1 104 inb_S128x64_S1x64_104_0).view.set]{fullShare} f)
      ∗ ((rowM scM1 105 inb_S128x64_S1x64_105_0).view.loc (c : Thread nD τ) ↦[(rowM scM1 105 inb_S128x64_S1x64_105_0).view.set]{fullShare} f)
      ∗ ((rowM scM1 106 inb_S128x64_S1x64_106_0).view.loc (c : Thread nD τ) ↦[(rowM scM1 106 inb_S128x64_S1x64_106_0).view.set]{fullShare} f)
      ∗ ((rowM scM1 107 inb_S128x64_S1x64_107_0).view.loc (c : Thread nD τ) ↦[(rowM scM1 107 inb_S128x64_S1x64_107_0).view.set]{fullShare} f)
      ∗ ((rowM scM1 108 inb_S128x64_S1x64_108_0).view.loc (c : Thread nD τ) ↦[(rowM scM1 108 inb_S128x64_S1x64_108_0).view.set]{fullShare} f)
      ∗ ((rowM scM1 109 inb_S128x64_S1x64_109_0).view.loc (c : Thread nD τ) ↦[(rowM scM1 109 inb_S128x64_S1x64_109_0).view.set]{fullShare} f)
      ∗ ((rowM scM1 110 inb_S128x64_S1x64_110_0).view.loc (c : Thread nD τ) ↦[(rowM scM1 110 inb_S128x64_S1x64_110_0).view.set]{fullShare} f)
      ∗ ((rowM scM1 111 inb_S128x64_S1x64_111_0).view.loc (c : Thread nD τ) ↦[(rowM scM1 111 inb_S128x64_S1x64_111_0).view.set]{fullShare} f)
      ∗ ((rowM scM1 112 inb_S128x64_S1x64_112_0).view.loc (c : Thread nD τ) ↦[(rowM scM1 112 inb_S128x64_S1x64_112_0).view.set]{fullShare} f)
      ∗ ((rowM scM1 113 inb_S128x64_S1x64_113_0).view.loc (c : Thread nD τ) ↦[(rowM scM1 113 inb_S128x64_S1x64_113_0).view.set]{fullShare} f)
      ∗ ((rowM scM1 114 inb_S128x64_S1x64_114_0).view.loc (c : Thread nD τ) ↦[(rowM scM1 114 inb_S128x64_S1x64_114_0).view.set]{fullShare} f)
      ∗ ((rowM scM1 115 inb_S128x64_S1x64_115_0).view.loc (c : Thread nD τ) ↦[(rowM scM1 115 inb_S128x64_S1x64_115_0).view.set]{fullShare} f)
      ∗ ((rowM scM1 116 inb_S128x64_S1x64_116_0).view.loc (c : Thread nD τ) ↦[(rowM scM1 116 inb_S128x64_S1x64_116_0).view.set]{fullShare} f)
      ∗ ((rowM scM1 117 inb_S128x64_S1x64_117_0).view.loc (c : Thread nD τ) ↦[(rowM scM1 117 inb_S128x64_S1x64_117_0).view.set]{fullShare} f)
      ∗ ((rowM scM1 118 inb_S128x64_S1x64_118_0).view.loc (c : Thread nD τ) ↦[(rowM scM1 118 inb_S128x64_S1x64_118_0).view.set]{fullShare} f)
      ∗ ((rowM scM1 119 inb_S128x64_S1x64_119_0).view.loc (c : Thread nD τ) ↦[(rowM scM1 119 inb_S128x64_S1x64_119_0).view.set]{fullShare} f)
      ∗ ((rowM scM1 120 inb_S128x64_S1x64_120_0).view.loc (c : Thread nD τ) ↦[(rowM scM1 120 inb_S128x64_S1x64_120_0).view.set]{fullShare} f)
      ∗ ((rowM scM1 121 inb_S128x64_S1x64_121_0).view.loc (c : Thread nD τ) ↦[(rowM scM1 121 inb_S128x64_S1x64_121_0).view.set]{fullShare} f)
      ∗ ((rowM scM1 122 inb_S128x64_S1x64_122_0).view.loc (c : Thread nD τ) ↦[(rowM scM1 122 inb_S128x64_S1x64_122_0).view.set]{fullShare} f)
      ∗ ((rowM scM1 123 inb_S128x64_S1x64_123_0).view.loc (c : Thread nD τ) ↦[(rowM scM1 123 inb_S128x64_S1x64_123_0).view.set]{fullShare} f)
      ∗ ((rowM scM1 124 inb_S128x64_S1x64_124_0).view.loc (c : Thread nD τ) ↦[(rowM scM1 124 inb_S128x64_S1x64_124_0).view.set]{fullShare} f)
      ∗ ((rowM scM1 125 inb_S128x64_S1x64_125_0).view.loc (c : Thread nD τ) ↦[(rowM scM1 125 inb_S128x64_S1x64_125_0).view.set]{fullShare} f)
      ∗ ((rowM scM1 126 inb_S128x64_S1x64_126_0).view.loc (c : Thread nD τ) ↦[(rowM scM1 126 inb_S128x64_S1x64_126_0).view.set]{fullShare} f)
      ∗ ((rowM scM1 127 inb_S128x64_S1x64_127_0).view.loc (c : Thread nD τ) ↦[(rowM scM1 127 inb_S128x64_S1x64_127_0).view.set]{fullShare} f)
      ∗ emp) := by
  have h := rows_split (F := F) scM1 c f
  rw [bigSep_range_eq_chainUp] at h
  simp only [chainUp, Nat.reduceAdd, rowSet_lit scM1 0 (by decide) inb_S128x64_S1x64_0_0, rowSet_lit scM1 1 (by decide) inb_S128x64_S1x64_1_0, rowSet_lit scM1 2 (by decide) inb_S128x64_S1x64_2_0, rowSet_lit scM1 3 (by decide) inb_S128x64_S1x64_3_0, rowSet_lit scM1 4 (by decide) inb_S128x64_S1x64_4_0, rowSet_lit scM1 5 (by decide) inb_S128x64_S1x64_5_0, rowSet_lit scM1 6 (by decide) inb_S128x64_S1x64_6_0, rowSet_lit scM1 7 (by decide) inb_S128x64_S1x64_7_0, rowSet_lit scM1 8 (by decide) inb_S128x64_S1x64_8_0, rowSet_lit scM1 9 (by decide) inb_S128x64_S1x64_9_0, rowSet_lit scM1 10 (by decide) inb_S128x64_S1x64_10_0, rowSet_lit scM1 11 (by decide) inb_S128x64_S1x64_11_0, rowSet_lit scM1 12 (by decide) inb_S128x64_S1x64_12_0, rowSet_lit scM1 13 (by decide) inb_S128x64_S1x64_13_0, rowSet_lit scM1 14 (by decide) inb_S128x64_S1x64_14_0, rowSet_lit scM1 15 (by decide) inb_S128x64_S1x64_15_0, rowSet_lit scM1 16 (by decide) inb_S128x64_S1x64_16_0, rowSet_lit scM1 17 (by decide) inb_S128x64_S1x64_17_0, rowSet_lit scM1 18 (by decide) inb_S128x64_S1x64_18_0, rowSet_lit scM1 19 (by decide) inb_S128x64_S1x64_19_0, rowSet_lit scM1 20 (by decide) inb_S128x64_S1x64_20_0, rowSet_lit scM1 21 (by decide) inb_S128x64_S1x64_21_0, rowSet_lit scM1 22 (by decide) inb_S128x64_S1x64_22_0, rowSet_lit scM1 23 (by decide) inb_S128x64_S1x64_23_0, rowSet_lit scM1 24 (by decide) inb_S128x64_S1x64_24_0, rowSet_lit scM1 25 (by decide) inb_S128x64_S1x64_25_0, rowSet_lit scM1 26 (by decide) inb_S128x64_S1x64_26_0, rowSet_lit scM1 27 (by decide) inb_S128x64_S1x64_27_0, rowSet_lit scM1 28 (by decide) inb_S128x64_S1x64_28_0, rowSet_lit scM1 29 (by decide) inb_S128x64_S1x64_29_0, rowSet_lit scM1 30 (by decide) inb_S128x64_S1x64_30_0, rowSet_lit scM1 31 (by decide) inb_S128x64_S1x64_31_0, rowSet_lit scM1 32 (by decide) inb_S128x64_S1x64_32_0, rowSet_lit scM1 33 (by decide) inb_S128x64_S1x64_33_0, rowSet_lit scM1 34 (by decide) inb_S128x64_S1x64_34_0, rowSet_lit scM1 35 (by decide) inb_S128x64_S1x64_35_0, rowSet_lit scM1 36 (by decide) inb_S128x64_S1x64_36_0, rowSet_lit scM1 37 (by decide) inb_S128x64_S1x64_37_0, rowSet_lit scM1 38 (by decide) inb_S128x64_S1x64_38_0, rowSet_lit scM1 39 (by decide) inb_S128x64_S1x64_39_0, rowSet_lit scM1 40 (by decide) inb_S128x64_S1x64_40_0, rowSet_lit scM1 41 (by decide) inb_S128x64_S1x64_41_0, rowSet_lit scM1 42 (by decide) inb_S128x64_S1x64_42_0, rowSet_lit scM1 43 (by decide) inb_S128x64_S1x64_43_0, rowSet_lit scM1 44 (by decide) inb_S128x64_S1x64_44_0, rowSet_lit scM1 45 (by decide) inb_S128x64_S1x64_45_0, rowSet_lit scM1 46 (by decide) inb_S128x64_S1x64_46_0, rowSet_lit scM1 47 (by decide) inb_S128x64_S1x64_47_0, rowSet_lit scM1 48 (by decide) inb_S128x64_S1x64_48_0, rowSet_lit scM1 49 (by decide) inb_S128x64_S1x64_49_0, rowSet_lit scM1 50 (by decide) inb_S128x64_S1x64_50_0, rowSet_lit scM1 51 (by decide) inb_S128x64_S1x64_51_0, rowSet_lit scM1 52 (by decide) inb_S128x64_S1x64_52_0, rowSet_lit scM1 53 (by decide) inb_S128x64_S1x64_53_0, rowSet_lit scM1 54 (by decide) inb_S128x64_S1x64_54_0, rowSet_lit scM1 55 (by decide) inb_S128x64_S1x64_55_0, rowSet_lit scM1 56 (by decide) inb_S128x64_S1x64_56_0, rowSet_lit scM1 57 (by decide) inb_S128x64_S1x64_57_0, rowSet_lit scM1 58 (by decide) inb_S128x64_S1x64_58_0, rowSet_lit scM1 59 (by decide) inb_S128x64_S1x64_59_0, rowSet_lit scM1 60 (by decide) inb_S128x64_S1x64_60_0, rowSet_lit scM1 61 (by decide) inb_S128x64_S1x64_61_0, rowSet_lit scM1 62 (by decide) inb_S128x64_S1x64_62_0, rowSet_lit scM1 63 (by decide) inb_S128x64_S1x64_63_0, rowSet_lit scM1 64 (by decide) inb_S128x64_S1x64_64_0, rowSet_lit scM1 65 (by decide) inb_S128x64_S1x64_65_0, rowSet_lit scM1 66 (by decide) inb_S128x64_S1x64_66_0, rowSet_lit scM1 67 (by decide) inb_S128x64_S1x64_67_0, rowSet_lit scM1 68 (by decide) inb_S128x64_S1x64_68_0, rowSet_lit scM1 69 (by decide) inb_S128x64_S1x64_69_0, rowSet_lit scM1 70 (by decide) inb_S128x64_S1x64_70_0, rowSet_lit scM1 71 (by decide) inb_S128x64_S1x64_71_0, rowSet_lit scM1 72 (by decide) inb_S128x64_S1x64_72_0, rowSet_lit scM1 73 (by decide) inb_S128x64_S1x64_73_0, rowSet_lit scM1 74 (by decide) inb_S128x64_S1x64_74_0, rowSet_lit scM1 75 (by decide) inb_S128x64_S1x64_75_0, rowSet_lit scM1 76 (by decide) inb_S128x64_S1x64_76_0, rowSet_lit scM1 77 (by decide) inb_S128x64_S1x64_77_0, rowSet_lit scM1 78 (by decide) inb_S128x64_S1x64_78_0, rowSet_lit scM1 79 (by decide) inb_S128x64_S1x64_79_0, rowSet_lit scM1 80 (by decide) inb_S128x64_S1x64_80_0, rowSet_lit scM1 81 (by decide) inb_S128x64_S1x64_81_0, rowSet_lit scM1 82 (by decide) inb_S128x64_S1x64_82_0, rowSet_lit scM1 83 (by decide) inb_S128x64_S1x64_83_0, rowSet_lit scM1 84 (by decide) inb_S128x64_S1x64_84_0, rowSet_lit scM1 85 (by decide) inb_S128x64_S1x64_85_0, rowSet_lit scM1 86 (by decide) inb_S128x64_S1x64_86_0, rowSet_lit scM1 87 (by decide) inb_S128x64_S1x64_87_0, rowSet_lit scM1 88 (by decide) inb_S128x64_S1x64_88_0, rowSet_lit scM1 89 (by decide) inb_S128x64_S1x64_89_0, rowSet_lit scM1 90 (by decide) inb_S128x64_S1x64_90_0, rowSet_lit scM1 91 (by decide) inb_S128x64_S1x64_91_0, rowSet_lit scM1 92 (by decide) inb_S128x64_S1x64_92_0, rowSet_lit scM1 93 (by decide) inb_S128x64_S1x64_93_0, rowSet_lit scM1 94 (by decide) inb_S128x64_S1x64_94_0, rowSet_lit scM1 95 (by decide) inb_S128x64_S1x64_95_0, rowSet_lit scM1 96 (by decide) inb_S128x64_S1x64_96_0, rowSet_lit scM1 97 (by decide) inb_S128x64_S1x64_97_0, rowSet_lit scM1 98 (by decide) inb_S128x64_S1x64_98_0, rowSet_lit scM1 99 (by decide) inb_S128x64_S1x64_99_0, rowSet_lit scM1 100 (by decide) inb_S128x64_S1x64_100_0, rowSet_lit scM1 101 (by decide) inb_S128x64_S1x64_101_0, rowSet_lit scM1 102 (by decide) inb_S128x64_S1x64_102_0, rowSet_lit scM1 103 (by decide) inb_S128x64_S1x64_103_0, rowSet_lit scM1 104 (by decide) inb_S128x64_S1x64_104_0, rowSet_lit scM1 105 (by decide) inb_S128x64_S1x64_105_0, rowSet_lit scM1 106 (by decide) inb_S128x64_S1x64_106_0, rowSet_lit scM1 107 (by decide) inb_S128x64_S1x64_107_0, rowSet_lit scM1 108 (by decide) inb_S128x64_S1x64_108_0, rowSet_lit scM1 109 (by decide) inb_S128x64_S1x64_109_0, rowSet_lit scM1 110 (by decide) inb_S128x64_S1x64_110_0, rowSet_lit scM1 111 (by decide) inb_S128x64_S1x64_111_0, rowSet_lit scM1 112 (by decide) inb_S128x64_S1x64_112_0, rowSet_lit scM1 113 (by decide) inb_S128x64_S1x64_113_0, rowSet_lit scM1 114 (by decide) inb_S128x64_S1x64_114_0, rowSet_lit scM1 115 (by decide) inb_S128x64_S1x64_115_0, rowSet_lit scM1 116 (by decide) inb_S128x64_S1x64_116_0, rowSet_lit scM1 117 (by decide) inb_S128x64_S1x64_117_0, rowSet_lit scM1 118 (by decide) inb_S128x64_S1x64_118_0, rowSet_lit scM1 119 (by decide) inb_S128x64_S1x64_119_0, rowSet_lit scM1 120 (by decide) inb_S128x64_S1x64_120_0, rowSet_lit scM1 121 (by decide) inb_S128x64_S1x64_121_0, rowSet_lit scM1 122 (by decide) inb_S128x64_S1x64_122_0, rowSet_lit scM1 123 (by decide) inb_S128x64_S1x64_123_0, rowSet_lit scM1 124 (by decide) inb_S128x64_S1x64_124_0, rowSet_lit scM1 125 (by decide) inb_S128x64_S1x64_125_0, rowSet_lit scM1 126 (by decide) inb_S128x64_S1x64_126_0, rowSet_lit scM1 127 (by decide) inb_S128x64_S1x64_127_0] at h
  exact h

set_option maxHeartbeats 8000000 in
/-- Scratch buffer 2 held at its own elements, as its 128 rows, row 0 first: each row is the destination of one copy. -/
theorem rows_up2 (c : Dev nD) (f : Buf (Elt F) (scM2.view.loc (c : Thread nD τ))) :
    (scM2.view.loc (c : Thread nD τ) ↦[scM2.view.set]{fullShare} f : sProp 𝕄) ⊢ iprop(((rowM scM2 0 inb_S128x64_S1x64_0_0).view.loc (c : Thread nD τ) ↦[(rowM scM2 0 inb_S128x64_S1x64_0_0).view.set]{fullShare} f)
      ∗ ((rowM scM2 1 inb_S128x64_S1x64_1_0).view.loc (c : Thread nD τ) ↦[(rowM scM2 1 inb_S128x64_S1x64_1_0).view.set]{fullShare} f)
      ∗ ((rowM scM2 2 inb_S128x64_S1x64_2_0).view.loc (c : Thread nD τ) ↦[(rowM scM2 2 inb_S128x64_S1x64_2_0).view.set]{fullShare} f)
      ∗ ((rowM scM2 3 inb_S128x64_S1x64_3_0).view.loc (c : Thread nD τ) ↦[(rowM scM2 3 inb_S128x64_S1x64_3_0).view.set]{fullShare} f)
      ∗ ((rowM scM2 4 inb_S128x64_S1x64_4_0).view.loc (c : Thread nD τ) ↦[(rowM scM2 4 inb_S128x64_S1x64_4_0).view.set]{fullShare} f)
      ∗ ((rowM scM2 5 inb_S128x64_S1x64_5_0).view.loc (c : Thread nD τ) ↦[(rowM scM2 5 inb_S128x64_S1x64_5_0).view.set]{fullShare} f)
      ∗ ((rowM scM2 6 inb_S128x64_S1x64_6_0).view.loc (c : Thread nD τ) ↦[(rowM scM2 6 inb_S128x64_S1x64_6_0).view.set]{fullShare} f)
      ∗ ((rowM scM2 7 inb_S128x64_S1x64_7_0).view.loc (c : Thread nD τ) ↦[(rowM scM2 7 inb_S128x64_S1x64_7_0).view.set]{fullShare} f)
      ∗ ((rowM scM2 8 inb_S128x64_S1x64_8_0).view.loc (c : Thread nD τ) ↦[(rowM scM2 8 inb_S128x64_S1x64_8_0).view.set]{fullShare} f)
      ∗ ((rowM scM2 9 inb_S128x64_S1x64_9_0).view.loc (c : Thread nD τ) ↦[(rowM scM2 9 inb_S128x64_S1x64_9_0).view.set]{fullShare} f)
      ∗ ((rowM scM2 10 inb_S128x64_S1x64_10_0).view.loc (c : Thread nD τ) ↦[(rowM scM2 10 inb_S128x64_S1x64_10_0).view.set]{fullShare} f)
      ∗ ((rowM scM2 11 inb_S128x64_S1x64_11_0).view.loc (c : Thread nD τ) ↦[(rowM scM2 11 inb_S128x64_S1x64_11_0).view.set]{fullShare} f)
      ∗ ((rowM scM2 12 inb_S128x64_S1x64_12_0).view.loc (c : Thread nD τ) ↦[(rowM scM2 12 inb_S128x64_S1x64_12_0).view.set]{fullShare} f)
      ∗ ((rowM scM2 13 inb_S128x64_S1x64_13_0).view.loc (c : Thread nD τ) ↦[(rowM scM2 13 inb_S128x64_S1x64_13_0).view.set]{fullShare} f)
      ∗ ((rowM scM2 14 inb_S128x64_S1x64_14_0).view.loc (c : Thread nD τ) ↦[(rowM scM2 14 inb_S128x64_S1x64_14_0).view.set]{fullShare} f)
      ∗ ((rowM scM2 15 inb_S128x64_S1x64_15_0).view.loc (c : Thread nD τ) ↦[(rowM scM2 15 inb_S128x64_S1x64_15_0).view.set]{fullShare} f)
      ∗ ((rowM scM2 16 inb_S128x64_S1x64_16_0).view.loc (c : Thread nD τ) ↦[(rowM scM2 16 inb_S128x64_S1x64_16_0).view.set]{fullShare} f)
      ∗ ((rowM scM2 17 inb_S128x64_S1x64_17_0).view.loc (c : Thread nD τ) ↦[(rowM scM2 17 inb_S128x64_S1x64_17_0).view.set]{fullShare} f)
      ∗ ((rowM scM2 18 inb_S128x64_S1x64_18_0).view.loc (c : Thread nD τ) ↦[(rowM scM2 18 inb_S128x64_S1x64_18_0).view.set]{fullShare} f)
      ∗ ((rowM scM2 19 inb_S128x64_S1x64_19_0).view.loc (c : Thread nD τ) ↦[(rowM scM2 19 inb_S128x64_S1x64_19_0).view.set]{fullShare} f)
      ∗ ((rowM scM2 20 inb_S128x64_S1x64_20_0).view.loc (c : Thread nD τ) ↦[(rowM scM2 20 inb_S128x64_S1x64_20_0).view.set]{fullShare} f)
      ∗ ((rowM scM2 21 inb_S128x64_S1x64_21_0).view.loc (c : Thread nD τ) ↦[(rowM scM2 21 inb_S128x64_S1x64_21_0).view.set]{fullShare} f)
      ∗ ((rowM scM2 22 inb_S128x64_S1x64_22_0).view.loc (c : Thread nD τ) ↦[(rowM scM2 22 inb_S128x64_S1x64_22_0).view.set]{fullShare} f)
      ∗ ((rowM scM2 23 inb_S128x64_S1x64_23_0).view.loc (c : Thread nD τ) ↦[(rowM scM2 23 inb_S128x64_S1x64_23_0).view.set]{fullShare} f)
      ∗ ((rowM scM2 24 inb_S128x64_S1x64_24_0).view.loc (c : Thread nD τ) ↦[(rowM scM2 24 inb_S128x64_S1x64_24_0).view.set]{fullShare} f)
      ∗ ((rowM scM2 25 inb_S128x64_S1x64_25_0).view.loc (c : Thread nD τ) ↦[(rowM scM2 25 inb_S128x64_S1x64_25_0).view.set]{fullShare} f)
      ∗ ((rowM scM2 26 inb_S128x64_S1x64_26_0).view.loc (c : Thread nD τ) ↦[(rowM scM2 26 inb_S128x64_S1x64_26_0).view.set]{fullShare} f)
      ∗ ((rowM scM2 27 inb_S128x64_S1x64_27_0).view.loc (c : Thread nD τ) ↦[(rowM scM2 27 inb_S128x64_S1x64_27_0).view.set]{fullShare} f)
      ∗ ((rowM scM2 28 inb_S128x64_S1x64_28_0).view.loc (c : Thread nD τ) ↦[(rowM scM2 28 inb_S128x64_S1x64_28_0).view.set]{fullShare} f)
      ∗ ((rowM scM2 29 inb_S128x64_S1x64_29_0).view.loc (c : Thread nD τ) ↦[(rowM scM2 29 inb_S128x64_S1x64_29_0).view.set]{fullShare} f)
      ∗ ((rowM scM2 30 inb_S128x64_S1x64_30_0).view.loc (c : Thread nD τ) ↦[(rowM scM2 30 inb_S128x64_S1x64_30_0).view.set]{fullShare} f)
      ∗ ((rowM scM2 31 inb_S128x64_S1x64_31_0).view.loc (c : Thread nD τ) ↦[(rowM scM2 31 inb_S128x64_S1x64_31_0).view.set]{fullShare} f)
      ∗ ((rowM scM2 32 inb_S128x64_S1x64_32_0).view.loc (c : Thread nD τ) ↦[(rowM scM2 32 inb_S128x64_S1x64_32_0).view.set]{fullShare} f)
      ∗ ((rowM scM2 33 inb_S128x64_S1x64_33_0).view.loc (c : Thread nD τ) ↦[(rowM scM2 33 inb_S128x64_S1x64_33_0).view.set]{fullShare} f)
      ∗ ((rowM scM2 34 inb_S128x64_S1x64_34_0).view.loc (c : Thread nD τ) ↦[(rowM scM2 34 inb_S128x64_S1x64_34_0).view.set]{fullShare} f)
      ∗ ((rowM scM2 35 inb_S128x64_S1x64_35_0).view.loc (c : Thread nD τ) ↦[(rowM scM2 35 inb_S128x64_S1x64_35_0).view.set]{fullShare} f)
      ∗ ((rowM scM2 36 inb_S128x64_S1x64_36_0).view.loc (c : Thread nD τ) ↦[(rowM scM2 36 inb_S128x64_S1x64_36_0).view.set]{fullShare} f)
      ∗ ((rowM scM2 37 inb_S128x64_S1x64_37_0).view.loc (c : Thread nD τ) ↦[(rowM scM2 37 inb_S128x64_S1x64_37_0).view.set]{fullShare} f)
      ∗ ((rowM scM2 38 inb_S128x64_S1x64_38_0).view.loc (c : Thread nD τ) ↦[(rowM scM2 38 inb_S128x64_S1x64_38_0).view.set]{fullShare} f)
      ∗ ((rowM scM2 39 inb_S128x64_S1x64_39_0).view.loc (c : Thread nD τ) ↦[(rowM scM2 39 inb_S128x64_S1x64_39_0).view.set]{fullShare} f)
      ∗ ((rowM scM2 40 inb_S128x64_S1x64_40_0).view.loc (c : Thread nD τ) ↦[(rowM scM2 40 inb_S128x64_S1x64_40_0).view.set]{fullShare} f)
      ∗ ((rowM scM2 41 inb_S128x64_S1x64_41_0).view.loc (c : Thread nD τ) ↦[(rowM scM2 41 inb_S128x64_S1x64_41_0).view.set]{fullShare} f)
      ∗ ((rowM scM2 42 inb_S128x64_S1x64_42_0).view.loc (c : Thread nD τ) ↦[(rowM scM2 42 inb_S128x64_S1x64_42_0).view.set]{fullShare} f)
      ∗ ((rowM scM2 43 inb_S128x64_S1x64_43_0).view.loc (c : Thread nD τ) ↦[(rowM scM2 43 inb_S128x64_S1x64_43_0).view.set]{fullShare} f)
      ∗ ((rowM scM2 44 inb_S128x64_S1x64_44_0).view.loc (c : Thread nD τ) ↦[(rowM scM2 44 inb_S128x64_S1x64_44_0).view.set]{fullShare} f)
      ∗ ((rowM scM2 45 inb_S128x64_S1x64_45_0).view.loc (c : Thread nD τ) ↦[(rowM scM2 45 inb_S128x64_S1x64_45_0).view.set]{fullShare} f)
      ∗ ((rowM scM2 46 inb_S128x64_S1x64_46_0).view.loc (c : Thread nD τ) ↦[(rowM scM2 46 inb_S128x64_S1x64_46_0).view.set]{fullShare} f)
      ∗ ((rowM scM2 47 inb_S128x64_S1x64_47_0).view.loc (c : Thread nD τ) ↦[(rowM scM2 47 inb_S128x64_S1x64_47_0).view.set]{fullShare} f)
      ∗ ((rowM scM2 48 inb_S128x64_S1x64_48_0).view.loc (c : Thread nD τ) ↦[(rowM scM2 48 inb_S128x64_S1x64_48_0).view.set]{fullShare} f)
      ∗ ((rowM scM2 49 inb_S128x64_S1x64_49_0).view.loc (c : Thread nD τ) ↦[(rowM scM2 49 inb_S128x64_S1x64_49_0).view.set]{fullShare} f)
      ∗ ((rowM scM2 50 inb_S128x64_S1x64_50_0).view.loc (c : Thread nD τ) ↦[(rowM scM2 50 inb_S128x64_S1x64_50_0).view.set]{fullShare} f)
      ∗ ((rowM scM2 51 inb_S128x64_S1x64_51_0).view.loc (c : Thread nD τ) ↦[(rowM scM2 51 inb_S128x64_S1x64_51_0).view.set]{fullShare} f)
      ∗ ((rowM scM2 52 inb_S128x64_S1x64_52_0).view.loc (c : Thread nD τ) ↦[(rowM scM2 52 inb_S128x64_S1x64_52_0).view.set]{fullShare} f)
      ∗ ((rowM scM2 53 inb_S128x64_S1x64_53_0).view.loc (c : Thread nD τ) ↦[(rowM scM2 53 inb_S128x64_S1x64_53_0).view.set]{fullShare} f)
      ∗ ((rowM scM2 54 inb_S128x64_S1x64_54_0).view.loc (c : Thread nD τ) ↦[(rowM scM2 54 inb_S128x64_S1x64_54_0).view.set]{fullShare} f)
      ∗ ((rowM scM2 55 inb_S128x64_S1x64_55_0).view.loc (c : Thread nD τ) ↦[(rowM scM2 55 inb_S128x64_S1x64_55_0).view.set]{fullShare} f)
      ∗ ((rowM scM2 56 inb_S128x64_S1x64_56_0).view.loc (c : Thread nD τ) ↦[(rowM scM2 56 inb_S128x64_S1x64_56_0).view.set]{fullShare} f)
      ∗ ((rowM scM2 57 inb_S128x64_S1x64_57_0).view.loc (c : Thread nD τ) ↦[(rowM scM2 57 inb_S128x64_S1x64_57_0).view.set]{fullShare} f)
      ∗ ((rowM scM2 58 inb_S128x64_S1x64_58_0).view.loc (c : Thread nD τ) ↦[(rowM scM2 58 inb_S128x64_S1x64_58_0).view.set]{fullShare} f)
      ∗ ((rowM scM2 59 inb_S128x64_S1x64_59_0).view.loc (c : Thread nD τ) ↦[(rowM scM2 59 inb_S128x64_S1x64_59_0).view.set]{fullShare} f)
      ∗ ((rowM scM2 60 inb_S128x64_S1x64_60_0).view.loc (c : Thread nD τ) ↦[(rowM scM2 60 inb_S128x64_S1x64_60_0).view.set]{fullShare} f)
      ∗ ((rowM scM2 61 inb_S128x64_S1x64_61_0).view.loc (c : Thread nD τ) ↦[(rowM scM2 61 inb_S128x64_S1x64_61_0).view.set]{fullShare} f)
      ∗ ((rowM scM2 62 inb_S128x64_S1x64_62_0).view.loc (c : Thread nD τ) ↦[(rowM scM2 62 inb_S128x64_S1x64_62_0).view.set]{fullShare} f)
      ∗ ((rowM scM2 63 inb_S128x64_S1x64_63_0).view.loc (c : Thread nD τ) ↦[(rowM scM2 63 inb_S128x64_S1x64_63_0).view.set]{fullShare} f)
      ∗ ((rowM scM2 64 inb_S128x64_S1x64_64_0).view.loc (c : Thread nD τ) ↦[(rowM scM2 64 inb_S128x64_S1x64_64_0).view.set]{fullShare} f)
      ∗ ((rowM scM2 65 inb_S128x64_S1x64_65_0).view.loc (c : Thread nD τ) ↦[(rowM scM2 65 inb_S128x64_S1x64_65_0).view.set]{fullShare} f)
      ∗ ((rowM scM2 66 inb_S128x64_S1x64_66_0).view.loc (c : Thread nD τ) ↦[(rowM scM2 66 inb_S128x64_S1x64_66_0).view.set]{fullShare} f)
      ∗ ((rowM scM2 67 inb_S128x64_S1x64_67_0).view.loc (c : Thread nD τ) ↦[(rowM scM2 67 inb_S128x64_S1x64_67_0).view.set]{fullShare} f)
      ∗ ((rowM scM2 68 inb_S128x64_S1x64_68_0).view.loc (c : Thread nD τ) ↦[(rowM scM2 68 inb_S128x64_S1x64_68_0).view.set]{fullShare} f)
      ∗ ((rowM scM2 69 inb_S128x64_S1x64_69_0).view.loc (c : Thread nD τ) ↦[(rowM scM2 69 inb_S128x64_S1x64_69_0).view.set]{fullShare} f)
      ∗ ((rowM scM2 70 inb_S128x64_S1x64_70_0).view.loc (c : Thread nD τ) ↦[(rowM scM2 70 inb_S128x64_S1x64_70_0).view.set]{fullShare} f)
      ∗ ((rowM scM2 71 inb_S128x64_S1x64_71_0).view.loc (c : Thread nD τ) ↦[(rowM scM2 71 inb_S128x64_S1x64_71_0).view.set]{fullShare} f)
      ∗ ((rowM scM2 72 inb_S128x64_S1x64_72_0).view.loc (c : Thread nD τ) ↦[(rowM scM2 72 inb_S128x64_S1x64_72_0).view.set]{fullShare} f)
      ∗ ((rowM scM2 73 inb_S128x64_S1x64_73_0).view.loc (c : Thread nD τ) ↦[(rowM scM2 73 inb_S128x64_S1x64_73_0).view.set]{fullShare} f)
      ∗ ((rowM scM2 74 inb_S128x64_S1x64_74_0).view.loc (c : Thread nD τ) ↦[(rowM scM2 74 inb_S128x64_S1x64_74_0).view.set]{fullShare} f)
      ∗ ((rowM scM2 75 inb_S128x64_S1x64_75_0).view.loc (c : Thread nD τ) ↦[(rowM scM2 75 inb_S128x64_S1x64_75_0).view.set]{fullShare} f)
      ∗ ((rowM scM2 76 inb_S128x64_S1x64_76_0).view.loc (c : Thread nD τ) ↦[(rowM scM2 76 inb_S128x64_S1x64_76_0).view.set]{fullShare} f)
      ∗ ((rowM scM2 77 inb_S128x64_S1x64_77_0).view.loc (c : Thread nD τ) ↦[(rowM scM2 77 inb_S128x64_S1x64_77_0).view.set]{fullShare} f)
      ∗ ((rowM scM2 78 inb_S128x64_S1x64_78_0).view.loc (c : Thread nD τ) ↦[(rowM scM2 78 inb_S128x64_S1x64_78_0).view.set]{fullShare} f)
      ∗ ((rowM scM2 79 inb_S128x64_S1x64_79_0).view.loc (c : Thread nD τ) ↦[(rowM scM2 79 inb_S128x64_S1x64_79_0).view.set]{fullShare} f)
      ∗ ((rowM scM2 80 inb_S128x64_S1x64_80_0).view.loc (c : Thread nD τ) ↦[(rowM scM2 80 inb_S128x64_S1x64_80_0).view.set]{fullShare} f)
      ∗ ((rowM scM2 81 inb_S128x64_S1x64_81_0).view.loc (c : Thread nD τ) ↦[(rowM scM2 81 inb_S128x64_S1x64_81_0).view.set]{fullShare} f)
      ∗ ((rowM scM2 82 inb_S128x64_S1x64_82_0).view.loc (c : Thread nD τ) ↦[(rowM scM2 82 inb_S128x64_S1x64_82_0).view.set]{fullShare} f)
      ∗ ((rowM scM2 83 inb_S128x64_S1x64_83_0).view.loc (c : Thread nD τ) ↦[(rowM scM2 83 inb_S128x64_S1x64_83_0).view.set]{fullShare} f)
      ∗ ((rowM scM2 84 inb_S128x64_S1x64_84_0).view.loc (c : Thread nD τ) ↦[(rowM scM2 84 inb_S128x64_S1x64_84_0).view.set]{fullShare} f)
      ∗ ((rowM scM2 85 inb_S128x64_S1x64_85_0).view.loc (c : Thread nD τ) ↦[(rowM scM2 85 inb_S128x64_S1x64_85_0).view.set]{fullShare} f)
      ∗ ((rowM scM2 86 inb_S128x64_S1x64_86_0).view.loc (c : Thread nD τ) ↦[(rowM scM2 86 inb_S128x64_S1x64_86_0).view.set]{fullShare} f)
      ∗ ((rowM scM2 87 inb_S128x64_S1x64_87_0).view.loc (c : Thread nD τ) ↦[(rowM scM2 87 inb_S128x64_S1x64_87_0).view.set]{fullShare} f)
      ∗ ((rowM scM2 88 inb_S128x64_S1x64_88_0).view.loc (c : Thread nD τ) ↦[(rowM scM2 88 inb_S128x64_S1x64_88_0).view.set]{fullShare} f)
      ∗ ((rowM scM2 89 inb_S128x64_S1x64_89_0).view.loc (c : Thread nD τ) ↦[(rowM scM2 89 inb_S128x64_S1x64_89_0).view.set]{fullShare} f)
      ∗ ((rowM scM2 90 inb_S128x64_S1x64_90_0).view.loc (c : Thread nD τ) ↦[(rowM scM2 90 inb_S128x64_S1x64_90_0).view.set]{fullShare} f)
      ∗ ((rowM scM2 91 inb_S128x64_S1x64_91_0).view.loc (c : Thread nD τ) ↦[(rowM scM2 91 inb_S128x64_S1x64_91_0).view.set]{fullShare} f)
      ∗ ((rowM scM2 92 inb_S128x64_S1x64_92_0).view.loc (c : Thread nD τ) ↦[(rowM scM2 92 inb_S128x64_S1x64_92_0).view.set]{fullShare} f)
      ∗ ((rowM scM2 93 inb_S128x64_S1x64_93_0).view.loc (c : Thread nD τ) ↦[(rowM scM2 93 inb_S128x64_S1x64_93_0).view.set]{fullShare} f)
      ∗ ((rowM scM2 94 inb_S128x64_S1x64_94_0).view.loc (c : Thread nD τ) ↦[(rowM scM2 94 inb_S128x64_S1x64_94_0).view.set]{fullShare} f)
      ∗ ((rowM scM2 95 inb_S128x64_S1x64_95_0).view.loc (c : Thread nD τ) ↦[(rowM scM2 95 inb_S128x64_S1x64_95_0).view.set]{fullShare} f)
      ∗ ((rowM scM2 96 inb_S128x64_S1x64_96_0).view.loc (c : Thread nD τ) ↦[(rowM scM2 96 inb_S128x64_S1x64_96_0).view.set]{fullShare} f)
      ∗ ((rowM scM2 97 inb_S128x64_S1x64_97_0).view.loc (c : Thread nD τ) ↦[(rowM scM2 97 inb_S128x64_S1x64_97_0).view.set]{fullShare} f)
      ∗ ((rowM scM2 98 inb_S128x64_S1x64_98_0).view.loc (c : Thread nD τ) ↦[(rowM scM2 98 inb_S128x64_S1x64_98_0).view.set]{fullShare} f)
      ∗ ((rowM scM2 99 inb_S128x64_S1x64_99_0).view.loc (c : Thread nD τ) ↦[(rowM scM2 99 inb_S128x64_S1x64_99_0).view.set]{fullShare} f)
      ∗ ((rowM scM2 100 inb_S128x64_S1x64_100_0).view.loc (c : Thread nD τ) ↦[(rowM scM2 100 inb_S128x64_S1x64_100_0).view.set]{fullShare} f)
      ∗ ((rowM scM2 101 inb_S128x64_S1x64_101_0).view.loc (c : Thread nD τ) ↦[(rowM scM2 101 inb_S128x64_S1x64_101_0).view.set]{fullShare} f)
      ∗ ((rowM scM2 102 inb_S128x64_S1x64_102_0).view.loc (c : Thread nD τ) ↦[(rowM scM2 102 inb_S128x64_S1x64_102_0).view.set]{fullShare} f)
      ∗ ((rowM scM2 103 inb_S128x64_S1x64_103_0).view.loc (c : Thread nD τ) ↦[(rowM scM2 103 inb_S128x64_S1x64_103_0).view.set]{fullShare} f)
      ∗ ((rowM scM2 104 inb_S128x64_S1x64_104_0).view.loc (c : Thread nD τ) ↦[(rowM scM2 104 inb_S128x64_S1x64_104_0).view.set]{fullShare} f)
      ∗ ((rowM scM2 105 inb_S128x64_S1x64_105_0).view.loc (c : Thread nD τ) ↦[(rowM scM2 105 inb_S128x64_S1x64_105_0).view.set]{fullShare} f)
      ∗ ((rowM scM2 106 inb_S128x64_S1x64_106_0).view.loc (c : Thread nD τ) ↦[(rowM scM2 106 inb_S128x64_S1x64_106_0).view.set]{fullShare} f)
      ∗ ((rowM scM2 107 inb_S128x64_S1x64_107_0).view.loc (c : Thread nD τ) ↦[(rowM scM2 107 inb_S128x64_S1x64_107_0).view.set]{fullShare} f)
      ∗ ((rowM scM2 108 inb_S128x64_S1x64_108_0).view.loc (c : Thread nD τ) ↦[(rowM scM2 108 inb_S128x64_S1x64_108_0).view.set]{fullShare} f)
      ∗ ((rowM scM2 109 inb_S128x64_S1x64_109_0).view.loc (c : Thread nD τ) ↦[(rowM scM2 109 inb_S128x64_S1x64_109_0).view.set]{fullShare} f)
      ∗ ((rowM scM2 110 inb_S128x64_S1x64_110_0).view.loc (c : Thread nD τ) ↦[(rowM scM2 110 inb_S128x64_S1x64_110_0).view.set]{fullShare} f)
      ∗ ((rowM scM2 111 inb_S128x64_S1x64_111_0).view.loc (c : Thread nD τ) ↦[(rowM scM2 111 inb_S128x64_S1x64_111_0).view.set]{fullShare} f)
      ∗ ((rowM scM2 112 inb_S128x64_S1x64_112_0).view.loc (c : Thread nD τ) ↦[(rowM scM2 112 inb_S128x64_S1x64_112_0).view.set]{fullShare} f)
      ∗ ((rowM scM2 113 inb_S128x64_S1x64_113_0).view.loc (c : Thread nD τ) ↦[(rowM scM2 113 inb_S128x64_S1x64_113_0).view.set]{fullShare} f)
      ∗ ((rowM scM2 114 inb_S128x64_S1x64_114_0).view.loc (c : Thread nD τ) ↦[(rowM scM2 114 inb_S128x64_S1x64_114_0).view.set]{fullShare} f)
      ∗ ((rowM scM2 115 inb_S128x64_S1x64_115_0).view.loc (c : Thread nD τ) ↦[(rowM scM2 115 inb_S128x64_S1x64_115_0).view.set]{fullShare} f)
      ∗ ((rowM scM2 116 inb_S128x64_S1x64_116_0).view.loc (c : Thread nD τ) ↦[(rowM scM2 116 inb_S128x64_S1x64_116_0).view.set]{fullShare} f)
      ∗ ((rowM scM2 117 inb_S128x64_S1x64_117_0).view.loc (c : Thread nD τ) ↦[(rowM scM2 117 inb_S128x64_S1x64_117_0).view.set]{fullShare} f)
      ∗ ((rowM scM2 118 inb_S128x64_S1x64_118_0).view.loc (c : Thread nD τ) ↦[(rowM scM2 118 inb_S128x64_S1x64_118_0).view.set]{fullShare} f)
      ∗ ((rowM scM2 119 inb_S128x64_S1x64_119_0).view.loc (c : Thread nD τ) ↦[(rowM scM2 119 inb_S128x64_S1x64_119_0).view.set]{fullShare} f)
      ∗ ((rowM scM2 120 inb_S128x64_S1x64_120_0).view.loc (c : Thread nD τ) ↦[(rowM scM2 120 inb_S128x64_S1x64_120_0).view.set]{fullShare} f)
      ∗ ((rowM scM2 121 inb_S128x64_S1x64_121_0).view.loc (c : Thread nD τ) ↦[(rowM scM2 121 inb_S128x64_S1x64_121_0).view.set]{fullShare} f)
      ∗ ((rowM scM2 122 inb_S128x64_S1x64_122_0).view.loc (c : Thread nD τ) ↦[(rowM scM2 122 inb_S128x64_S1x64_122_0).view.set]{fullShare} f)
      ∗ ((rowM scM2 123 inb_S128x64_S1x64_123_0).view.loc (c : Thread nD τ) ↦[(rowM scM2 123 inb_S128x64_S1x64_123_0).view.set]{fullShare} f)
      ∗ ((rowM scM2 124 inb_S128x64_S1x64_124_0).view.loc (c : Thread nD τ) ↦[(rowM scM2 124 inb_S128x64_S1x64_124_0).view.set]{fullShare} f)
      ∗ ((rowM scM2 125 inb_S128x64_S1x64_125_0).view.loc (c : Thread nD τ) ↦[(rowM scM2 125 inb_S128x64_S1x64_125_0).view.set]{fullShare} f)
      ∗ ((rowM scM2 126 inb_S128x64_S1x64_126_0).view.loc (c : Thread nD τ) ↦[(rowM scM2 126 inb_S128x64_S1x64_126_0).view.set]{fullShare} f)
      ∗ ((rowM scM2 127 inb_S128x64_S1x64_127_0).view.loc (c : Thread nD τ) ↦[(rowM scM2 127 inb_S128x64_S1x64_127_0).view.set]{fullShare} f)
      ∗ emp) := by
  have h := rows_split (F := F) scM2 c f
  rw [bigSep_range_eq_chainUp] at h
  simp only [chainUp, Nat.reduceAdd, rowSet_lit scM2 0 (by decide) inb_S128x64_S1x64_0_0, rowSet_lit scM2 1 (by decide) inb_S128x64_S1x64_1_0, rowSet_lit scM2 2 (by decide) inb_S128x64_S1x64_2_0, rowSet_lit scM2 3 (by decide) inb_S128x64_S1x64_3_0, rowSet_lit scM2 4 (by decide) inb_S128x64_S1x64_4_0, rowSet_lit scM2 5 (by decide) inb_S128x64_S1x64_5_0, rowSet_lit scM2 6 (by decide) inb_S128x64_S1x64_6_0, rowSet_lit scM2 7 (by decide) inb_S128x64_S1x64_7_0, rowSet_lit scM2 8 (by decide) inb_S128x64_S1x64_8_0, rowSet_lit scM2 9 (by decide) inb_S128x64_S1x64_9_0, rowSet_lit scM2 10 (by decide) inb_S128x64_S1x64_10_0, rowSet_lit scM2 11 (by decide) inb_S128x64_S1x64_11_0, rowSet_lit scM2 12 (by decide) inb_S128x64_S1x64_12_0, rowSet_lit scM2 13 (by decide) inb_S128x64_S1x64_13_0, rowSet_lit scM2 14 (by decide) inb_S128x64_S1x64_14_0, rowSet_lit scM2 15 (by decide) inb_S128x64_S1x64_15_0, rowSet_lit scM2 16 (by decide) inb_S128x64_S1x64_16_0, rowSet_lit scM2 17 (by decide) inb_S128x64_S1x64_17_0, rowSet_lit scM2 18 (by decide) inb_S128x64_S1x64_18_0, rowSet_lit scM2 19 (by decide) inb_S128x64_S1x64_19_0, rowSet_lit scM2 20 (by decide) inb_S128x64_S1x64_20_0, rowSet_lit scM2 21 (by decide) inb_S128x64_S1x64_21_0, rowSet_lit scM2 22 (by decide) inb_S128x64_S1x64_22_0, rowSet_lit scM2 23 (by decide) inb_S128x64_S1x64_23_0, rowSet_lit scM2 24 (by decide) inb_S128x64_S1x64_24_0, rowSet_lit scM2 25 (by decide) inb_S128x64_S1x64_25_0, rowSet_lit scM2 26 (by decide) inb_S128x64_S1x64_26_0, rowSet_lit scM2 27 (by decide) inb_S128x64_S1x64_27_0, rowSet_lit scM2 28 (by decide) inb_S128x64_S1x64_28_0, rowSet_lit scM2 29 (by decide) inb_S128x64_S1x64_29_0, rowSet_lit scM2 30 (by decide) inb_S128x64_S1x64_30_0, rowSet_lit scM2 31 (by decide) inb_S128x64_S1x64_31_0, rowSet_lit scM2 32 (by decide) inb_S128x64_S1x64_32_0, rowSet_lit scM2 33 (by decide) inb_S128x64_S1x64_33_0, rowSet_lit scM2 34 (by decide) inb_S128x64_S1x64_34_0, rowSet_lit scM2 35 (by decide) inb_S128x64_S1x64_35_0, rowSet_lit scM2 36 (by decide) inb_S128x64_S1x64_36_0, rowSet_lit scM2 37 (by decide) inb_S128x64_S1x64_37_0, rowSet_lit scM2 38 (by decide) inb_S128x64_S1x64_38_0, rowSet_lit scM2 39 (by decide) inb_S128x64_S1x64_39_0, rowSet_lit scM2 40 (by decide) inb_S128x64_S1x64_40_0, rowSet_lit scM2 41 (by decide) inb_S128x64_S1x64_41_0, rowSet_lit scM2 42 (by decide) inb_S128x64_S1x64_42_0, rowSet_lit scM2 43 (by decide) inb_S128x64_S1x64_43_0, rowSet_lit scM2 44 (by decide) inb_S128x64_S1x64_44_0, rowSet_lit scM2 45 (by decide) inb_S128x64_S1x64_45_0, rowSet_lit scM2 46 (by decide) inb_S128x64_S1x64_46_0, rowSet_lit scM2 47 (by decide) inb_S128x64_S1x64_47_0, rowSet_lit scM2 48 (by decide) inb_S128x64_S1x64_48_0, rowSet_lit scM2 49 (by decide) inb_S128x64_S1x64_49_0, rowSet_lit scM2 50 (by decide) inb_S128x64_S1x64_50_0, rowSet_lit scM2 51 (by decide) inb_S128x64_S1x64_51_0, rowSet_lit scM2 52 (by decide) inb_S128x64_S1x64_52_0, rowSet_lit scM2 53 (by decide) inb_S128x64_S1x64_53_0, rowSet_lit scM2 54 (by decide) inb_S128x64_S1x64_54_0, rowSet_lit scM2 55 (by decide) inb_S128x64_S1x64_55_0, rowSet_lit scM2 56 (by decide) inb_S128x64_S1x64_56_0, rowSet_lit scM2 57 (by decide) inb_S128x64_S1x64_57_0, rowSet_lit scM2 58 (by decide) inb_S128x64_S1x64_58_0, rowSet_lit scM2 59 (by decide) inb_S128x64_S1x64_59_0, rowSet_lit scM2 60 (by decide) inb_S128x64_S1x64_60_0, rowSet_lit scM2 61 (by decide) inb_S128x64_S1x64_61_0, rowSet_lit scM2 62 (by decide) inb_S128x64_S1x64_62_0, rowSet_lit scM2 63 (by decide) inb_S128x64_S1x64_63_0, rowSet_lit scM2 64 (by decide) inb_S128x64_S1x64_64_0, rowSet_lit scM2 65 (by decide) inb_S128x64_S1x64_65_0, rowSet_lit scM2 66 (by decide) inb_S128x64_S1x64_66_0, rowSet_lit scM2 67 (by decide) inb_S128x64_S1x64_67_0, rowSet_lit scM2 68 (by decide) inb_S128x64_S1x64_68_0, rowSet_lit scM2 69 (by decide) inb_S128x64_S1x64_69_0, rowSet_lit scM2 70 (by decide) inb_S128x64_S1x64_70_0, rowSet_lit scM2 71 (by decide) inb_S128x64_S1x64_71_0, rowSet_lit scM2 72 (by decide) inb_S128x64_S1x64_72_0, rowSet_lit scM2 73 (by decide) inb_S128x64_S1x64_73_0, rowSet_lit scM2 74 (by decide) inb_S128x64_S1x64_74_0, rowSet_lit scM2 75 (by decide) inb_S128x64_S1x64_75_0, rowSet_lit scM2 76 (by decide) inb_S128x64_S1x64_76_0, rowSet_lit scM2 77 (by decide) inb_S128x64_S1x64_77_0, rowSet_lit scM2 78 (by decide) inb_S128x64_S1x64_78_0, rowSet_lit scM2 79 (by decide) inb_S128x64_S1x64_79_0, rowSet_lit scM2 80 (by decide) inb_S128x64_S1x64_80_0, rowSet_lit scM2 81 (by decide) inb_S128x64_S1x64_81_0, rowSet_lit scM2 82 (by decide) inb_S128x64_S1x64_82_0, rowSet_lit scM2 83 (by decide) inb_S128x64_S1x64_83_0, rowSet_lit scM2 84 (by decide) inb_S128x64_S1x64_84_0, rowSet_lit scM2 85 (by decide) inb_S128x64_S1x64_85_0, rowSet_lit scM2 86 (by decide) inb_S128x64_S1x64_86_0, rowSet_lit scM2 87 (by decide) inb_S128x64_S1x64_87_0, rowSet_lit scM2 88 (by decide) inb_S128x64_S1x64_88_0, rowSet_lit scM2 89 (by decide) inb_S128x64_S1x64_89_0, rowSet_lit scM2 90 (by decide) inb_S128x64_S1x64_90_0, rowSet_lit scM2 91 (by decide) inb_S128x64_S1x64_91_0, rowSet_lit scM2 92 (by decide) inb_S128x64_S1x64_92_0, rowSet_lit scM2 93 (by decide) inb_S128x64_S1x64_93_0, rowSet_lit scM2 94 (by decide) inb_S128x64_S1x64_94_0, rowSet_lit scM2 95 (by decide) inb_S128x64_S1x64_95_0, rowSet_lit scM2 96 (by decide) inb_S128x64_S1x64_96_0, rowSet_lit scM2 97 (by decide) inb_S128x64_S1x64_97_0, rowSet_lit scM2 98 (by decide) inb_S128x64_S1x64_98_0, rowSet_lit scM2 99 (by decide) inb_S128x64_S1x64_99_0, rowSet_lit scM2 100 (by decide) inb_S128x64_S1x64_100_0, rowSet_lit scM2 101 (by decide) inb_S128x64_S1x64_101_0, rowSet_lit scM2 102 (by decide) inb_S128x64_S1x64_102_0, rowSet_lit scM2 103 (by decide) inb_S128x64_S1x64_103_0, rowSet_lit scM2 104 (by decide) inb_S128x64_S1x64_104_0, rowSet_lit scM2 105 (by decide) inb_S128x64_S1x64_105_0, rowSet_lit scM2 106 (by decide) inb_S128x64_S1x64_106_0, rowSet_lit scM2 107 (by decide) inb_S128x64_S1x64_107_0, rowSet_lit scM2 108 (by decide) inb_S128x64_S1x64_108_0, rowSet_lit scM2 109 (by decide) inb_S128x64_S1x64_109_0, rowSet_lit scM2 110 (by decide) inb_S128x64_S1x64_110_0, rowSet_lit scM2 111 (by decide) inb_S128x64_S1x64_111_0, rowSet_lit scM2 112 (by decide) inb_S128x64_S1x64_112_0, rowSet_lit scM2 113 (by decide) inb_S128x64_S1x64_113_0, rowSet_lit scM2 114 (by decide) inb_S128x64_S1x64_114_0, rowSet_lit scM2 115 (by decide) inb_S128x64_S1x64_115_0, rowSet_lit scM2 116 (by decide) inb_S128x64_S1x64_116_0, rowSet_lit scM2 117 (by decide) inb_S128x64_S1x64_117_0, rowSet_lit scM2 118 (by decide) inb_S128x64_S1x64_118_0, rowSet_lit scM2 119 (by decide) inb_S128x64_S1x64_119_0, rowSet_lit scM2 120 (by decide) inb_S128x64_S1x64_120_0, rowSet_lit scM2 121 (by decide) inb_S128x64_S1x64_121_0, rowSet_lit scM2 122 (by decide) inb_S128x64_S1x64_122_0, rowSet_lit scM2 123 (by decide) inb_S128x64_S1x64_123_0, rowSet_lit scM2 124 (by decide) inb_S128x64_S1x64_124_0, rowSet_lit scM2 125 (by decide) inb_S128x64_S1x64_125_0, rowSet_lit scM2 126 (by decide) inb_S128x64_S1x64_126_0, rowSet_lit scM2 127 (by decide) inb_S128x64_S1x64_127_0] at h
  exact h

end Cert.Kernel.Hand

end
-- ==== Proof.KRunA.lean ====
/-
  Two regroupings of separating conjunctions, as entailments with the parts taken one at a time.

  A body that treats its rows in increasing order takes each row's resources from the head of a chain
  `x₀ ∗ (x₁ ∗ (… ∗ emp))`, and what a row leaves is put at the head of another chain: `consH` is that step.  The six
  resources a row's three copies leave while they are in flight (per copy, the cell carrying the flight and the rest of
  the source's read token) are kept together as one conjunct until the row's waits: `bundle6`.
-/
import proofs.«414929_j28089086116333_1_alg».proof.Proof.KUp

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- A resource put at the head of a chain. -/
theorem consH (P Q : sProp 𝕄) : P ⊢ iprop(Q -∗ P ∗ Q) := by
  iintro HP HQ
  isplitl [HP]
  · iexact HP
  · iexact HQ

/-- Six resources kept together as one conjunct. -/
theorem bundle6 (A B C D E G : sProp 𝕄) : A ⊢ iprop(B -∗ C -∗ D -∗ E -∗ G -∗ A ∗ B ∗ C ∗ D ∗ E ∗ G) := by
  iintro HA HB HC HD HE HG
  isplitl [HA]
  · iexact HA
  isplitl [HB]
  · iexact HB
  isplitl [HC]
  · iexact HC
  isplitl [HD]
  · iexact HD
  isplitl [HE]
  · iexact HE
  · iexact HG

end Cert.Kernel.Hand

end
-- ==== Proof.KRunB.lean ====
/-
  The end of the kernel body's run: the delivered rows as one block, the loads, the stores, and what is handed back.

  After its 384 copies have been waited for, each row of a scratch buffer holds what its copy delivered.  A delivered row,
  held as a piece of its own, is the same assertion as that row held at ANY contents of the whole buffer that agree with
  the delivery on the row; taking for every row the one buffer contents whose reading is the gathered block, the 128 rows
  are the whole buffer held at those contents, and a load of the whole buffer reads the gathered block.
-/
import proofs.«414929_j28089086116333_1_alg».proof.Proof.KRows
import proofs.«414929_j28089086116333_1_alg».proof.Proof.KUp
import proofs.«414929_j28089086116333_1_alg».proof.Proof.KSems
import proofs.«414929_j28089086116333_1_alg».proof.Proof.KGath

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

open ValueIdx

/-- Row `r`'s elements are the view set of the row's memref, whichever proof of its bounds it carries. -/
theorem rowSet_eq_lit (M : Memref sig .tc .vmem S128x64 .f32) (r : ℕ) (hr : r < 128)
    (hinb : ∀ a, (![r, 0] : Fin 2 → Nat) a + S1x64.size a ≤ S128x64.size a) : rowSet M r = (rowM M r hinb).view.set := by
  unfold rowSet; rw [dif_pos hr]

/-! ## A delivered row -/

/-- What a row piece holds after a delivery `d` into it, at the element the row memref places index `x` at: `d x`. -/
theorem row_writes_emb (M : Memref sig .tc .vmem S128x64 .f32) (c : Dev nD) (r : ℕ)
    (hinb : ∀ a, (![r, 0] : Fin 2 → Nat) a + S1x64.size a ≤ S128x64.size a)
    (f : Buf (Elt F) (M.view.loc (c : Thread nD τ))) (d : (Rect.whole S64).shape.Idx → Elt F .f32) (x : S64.Idx) :
    (rowM M r hinb).view.writes (Elt F) f [⟨Rect.whole S64, d⟩] ((rowM M r hinb).view.emb x)
      = _root_.cast (congrArg (Elt F) (rowM M r hinb).view.elt_eq.symm) (d x) := by
  rw [View.writes_singleton]
  have e : (rowM M r hinb).view.emb x = ((rowM M r hinb).view.slice (Rect.whole S64)).emb x := by
    rw [View.emb_slice]
    show _ = (rowM M r hinb).view.emb ((Rect.whole S64).emb x)
    rw [Rect.emb_whole_apply]
  rw [e, View.write_emb_of_mem _ _ (Finset.mem_univ x)]

/-- A delivered row is that row held at any contents `g` of the buffer that read, on row `r`, as the delivery. -/
theorem row_deliver (M : Memref sig .tc .vmem S128x64 .f32) (c : Dev nD) (r : ℕ) (hr : r < 128)
    (hinb : ∀ a, (![r, 0] : Fin 2 → Nat) a + S1x64.size a ≤ S128x64.size a)
    (f g : Buf (Elt F) (M.view.loc (c : Thread nD τ))) (d : (Rect.whole S64).shape.Idx → Elt F .f32)
    (hg : ∀ x : S64.Idx, M.view.read (Elt F) g (ix2 (⟨r, hr⟩ : Fin 128) (⟨(x 0).val, (x 0).isLt⟩ : Fin 64)) = d x) :
    ((rowM M r hinb).view.loc (c : Thread nD τ) ↦[(rowM M r hinb).view.set]{fullShare}
        (rowM M r hinb).view.writes (Elt F) f [⟨Rect.whole S64, d⟩] : sProp 𝕄)
      = (M.view.loc (c : Thread nD τ) ↦[rowSet M r]{fullShare} g) := by
  rw [rowSet_eq_lit M r hr hinb]
  refine pointsTo_congr ?_
  intro i hi
  obtain ⟨x, -, rfl⟩ := Finset.mem_map.mp hi
  rw [row_writes_emb, rowM_emb_idx M r hr hinb x]
  have h := hg x
  rw [View.read_apply] at h
  rw [← h, cast_cast, cast_eq]

/-- The same with the row's element set as the row memref spells it, and the contents those of the whole buffer after the
    block `G` is written over any contents `f₀`: the delivery agrees with row `r` of `G`. -/
theorem row_deliver_block (M : Memref sig .tc .vmem S128x64 .f32) (c : Dev nD) (r : ℕ) (hr : r < 128)
    (hinb : ∀ a, (![r, 0] : Fin 2 → Nat) a + S1x64.size a ≤ S128x64.size a)
    (f f₀ : Buf (Elt F) (M.view.loc (c : Thread nD τ))) (d : (Rect.whole S64).shape.Idx → Elt F .f32)
    (G : S128x64.Idx → Elt F .f32)
    (hd : ∀ q : Fin 64, d (ix1 q) = G (ix2 (⟨r, hr⟩ : Fin 128) q)) :
    ((rowM M r hinb).view.loc (c : Thread nD τ) ↦[(rowM M r hinb).view.set]{fullShare}
        (rowM M r hinb).view.writes (Elt F) f [⟨Rect.whole S64, d⟩] : sProp 𝕄)
      = ((rowM M r hinb).view.loc (c : Thread nD τ) ↦[(rowM M r hinb).view.set]{fullShare}
          M.view.write (Elt F) f₀ G Finset.univ) := by
  rw [row_deliver M c r hr hinb f (M.view.write (Elt F) f₀ G Finset.univ) d, rowSet_eq_lit M r hr hinb]
  intro x
  rw [View.read_write_univ, ValueIdx.eq_ix1 x]
  exact (hd _).symm

/-- … as an entailment. -/
theorem row_deliver_block' (M : Memref sig .tc .vmem S128x64 .f32) (c : Dev nD) (r : ℕ) (hr : r < 128)
    (hinb : ∀ a, (![r, 0] : Fin 2 → Nat) a + S1x64.size a ≤ S128x64.size a)
    (f f₀ : Buf (Elt F) (M.view.loc (c : Thread nD τ))) (d : (Rect.whole S64).shape.Idx → Elt F .f32)
    (G : S128x64.Idx → Elt F .f32)
    (hd : ∀ q : Fin 64, d (ix1 q) = G (ix2 (⟨r, hr⟩ : Fin 128) q)) :
    ((rowM M r hinb).view.loc (c : Thread nD τ) ↦[(rowM M r hinb).view.set]{fullShare}
        (rowM M r hinb).view.writes (Elt F) f [⟨Rect.whole S64, d⟩] : sProp 𝕄)
      ⊢ ((rowM M r hinb).view.loc (c : Thread nD τ) ↦[(rowM M r hinb).view.set]{fullShare}
          M.view.write (Elt F) f₀ G Finset.univ) :=
  Entails.of_eq (row_deliver_block M c r hr hinb f f₀ d G hd)

/-- The same with the agreement taken as a premise after the row: the delivery is then whatever the row holds. -/
theorem row_deliverP (M : Memref sig .tc .vmem S128x64 .f32) (c : Dev nD) (r : ℕ) (hr : r < 128)
    (hinb : ∀ a, (![r, 0] : Fin 2 → Nat) a + S1x64.size a ≤ S128x64.size a)
    (f f₀ : Buf (Elt F) (M.view.loc (c : Thread nD τ))) (d : (Rect.whole S64).shape.Idx → Elt F .f32)
    (G : S128x64.Idx → Elt F .f32) :
    ((rowM M r hinb).view.loc (c : Thread nD τ) ↦[(rowM M r hinb).view.set]{fullShare}
        (rowM M r hinb).view.writes (Elt F) f [⟨Rect.whole S64, d⟩] : sProp 𝕄)
      ⊢ iprop(⌜∀ q : Fin 64, d (ix1 q) = G (ix2 (⟨r, hr⟩ : Fin 128) q)⌝ -∗
          ((rowM M r hinb).view.loc (c : Thread nD τ) ↦[(rowM M r hinb).view.set]{fullShare}
            M.view.write (Elt F) f₀ G Finset.univ)) := by
  iintro H
  iintro %hd
  ihave H' := (row_deliver_block' M c r hr hinb f f₀ d G hd) $$ H
  iexact H'

/-! ## The 128 rows at one contents are the buffer -/

section Abstract
variable {ℓ : Loc nD τ sig}

/-- Elements that are the union of `n` pairwise disjoint sets, held at `f`, ARE the sets each held at `f`. -/
theorem eq_of_cover (n : ℕ) (K : ℕ → Finset (Idx ℓ)) (A : Finset (Idx ℓ))
    (hd : ∀ r r', r ≠ r' → Disjoint (K r) (K r')) (hc : (Finset.range n).biUnion K = A) (f : Buf (Elt F) ℓ) :
    (ℓ ↦[A]{fullShare} f : sProp 𝕄) = bigSep (Finset.range n) (fun r => ℓ ↦[K r]{fullShare} f) := by
  subst hc
  exact pointsTo_biUnion (Finset.range n) K fun r _ r' _ h => hd r r' h

end Abstract

/-- The memref's elements held at `f` ARE its 128 rows each held at `f`. -/
theorem rows_eq (M : Memref sig .tc .vmem S128x64 .f32) (c : Dev nD)
    (f : Buf (Elt F) (M.view.loc (c : Thread nD τ))) :
    (M.view.loc (c : Thread nD τ) ↦[M.view.set]{fullShare} f : sProp 𝕄)
      = bigSep (Finset.range 128) (fun r => M.view.loc (c : Thread nD τ) ↦[rowSet M r]{fullShare} f) :=
  eq_of_cover (ℓ := M.view.loc (c : Thread nD τ)) 128 (rowSet M) M.view.set
    (fun _ _ h => rowSet_disjoint M h) (rowSet_cover M) f

/-- A descending chain `Φ (n − 1) ∗ (Φ (n − 2) ∗ (… ∗ (Φ 0 ∗ emp)))`: what is left when members taken in increasing order
    are put back one by one in front of those already put back. -/
def chainDn (Φ : ℕ → sProp 𝕄) : ℕ → sProp 𝕄
  | 0 => BI.emp
  | n + 1 => iprop(Φ n ∗ chainDn Φ n)

/-- The separating conjunction over `0, …, n − 1` is that chain. -/
theorem bigSep_range_eq_chainDn (Φ : ℕ → sProp 𝕄) : ∀ n, bigSep (Finset.range n) Φ = chainDn Φ n
  | 0 => by rw [Finset.range_zero, bigSep_empty]; rfl
  | n + 1 => by
    rw [Finset.range_add_one, bigSep_insert Finset.notMem_range_self, bigSep_range_eq_chainDn Φ n]; rfl

/-- Row `r` of `M` held at `f`, spelt through the row memref (nothing past the last row). -/
def rowAt (M : Memref sig .tc .vmem S128x64 .f32) (c : Dev nD) (f : Buf (Elt F) (M.view.loc (c : Thread nD τ))) (r : ℕ) :
    sProp 𝕄 :=
  if hr : r < 128 then
    ((rowM M r (row_inb hr)).view.loc (c : Thread nD τ) ↦[(rowM M r (row_inb hr)).view.set]{fullShare} f) else BI.emp

theorem rowAt_lit (M : Memref sig .tc .vmem S128x64 .f32) (c : Dev nD) (f : Buf (Elt F) (M.view.loc (c : Thread nD τ)))
    (r : ℕ) (hr : r < 128) (hinb : ∀ a, (![r, 0] : Fin 2 → Nat) a + S1x64.size a ≤ S128x64.size a) :
    rowAt M c f r = ((rowM M r hinb).view.loc (c : Thread nD τ) ↦[(rowM M r hinb).view.set]{fullShare} f) := by
  unfold rowAt; rw [dif_pos hr]

theorem rowAt_eq (M : Memref sig .tc .vmem S128x64 .f32) (c : Dev nD) (f : Buf (Elt F) (M.view.loc (c : Thread nD τ)))
    (r : ℕ) (hr : r ∈ Finset.range 128) :
    (M.view.loc (c : Thread nD τ) ↦[rowSet M r]{fullShare} f : sProp 𝕄) = rowAt M c f r := by
  have hr' : r < 128 := Finset.mem_range.mp hr
  rw [rowAt_lit M c f r hr' (row_inb hr'), rowSet_eq_lit M r hr' (row_inb hr')]

/-- The 128 row pieces at one contents, as a descending chain, are the memref's elements held at those contents. -/
theorem rows_close (M : Memref sig .tc .vmem S128x64 .f32) (c : Dev nD)
    (f : Buf (Elt F) (M.view.loc (c : Thread nD τ))) :
    (chainDn (rowAt M c f) 128 : sProp 𝕄) = (M.view.loc (c : Thread nD τ) ↦[M.view.set]{fullShare} f) := by
  rw [rows_eq M c f, ← bigSep_range_eq_chainDn]
  exact (bigSep_congr fun r hr => rowAt_eq M c f r hr).symm

/-- The buffer's contents after the block `G` is written over `f₀` read as `G`. -/
theorem read_block (M : Memref sig .tc .vmem S128x64 .f32) (c : Dev nD)
    (f₀ : Buf (Elt F) (M.view.loc (c : Thread nD τ))) (G : S128x64.Idx → Elt F .f32) :
    M.view.read (Elt F) (M.view.write (Elt F) f₀ G Finset.univ) = G :=
  View.read_write_univ (v := M.view) (Val := Elt F) f₀ G

/-! ## Lists of resources, and a chain put back in the opposite order -/

theorem sep_comm_eq (P Q : sProp 𝕄) : (iprop(P ∗ Q) : sProp 𝕄) = iprop(Q ∗ P) :=
  BI.equiv_iff.mp ⟨sep_comm, sep_comm⟩

/-- `P₀ ∗ (P₁ ∗ (… ∗ (Pₙ ∗ emp)))`. -/
def sepL : List (sProp 𝕄) → sProp 𝕄
  | [] => BI.emp
  | P :: L => iprop(P ∗ sepL L)

theorem sepL_append : ∀ L L' : List (sProp 𝕄), sepL (L ++ L') = iprop(sepL L ∗ sepL L')
  | [], L' => by rw [List.nil_append]; exact (emp_sep_eq _).symm
  | P :: L, L' => by
    rw [List.cons_append]
    show iprop(P ∗ sepL (L ++ L')) = iprop((P ∗ sepL L) ∗ sepL L')
    rw [sepL_append L L', sep_assoc_eq]

/-- The members in the opposite order are the same resources. -/
theorem sepL_reverse : ∀ L : List (sProp 𝕄), sepL L.reverse = sepL L
  | [] => rfl
  | P :: L => by
    rw [List.reverse_cons, sepL_append, sepL_reverse L]
    show iprop(sepL L ∗ (P ∗ emp)) = iprop(P ∗ sepL L)
    rw [sep_emp_eq, sep_comm_eq]

theorem sep_congr_eq {A A' B B' : sProp 𝕄} (ha : A = A') (hb : B = B') : (iprop(A ∗ B) : sProp 𝕄) = iprop(A' ∗ B') := by
  subst ha; subst hb; rfl
/-! ## The cells, the read tokens and the row pieces, put back highest first, are what the body was handed -/

set_option maxHeartbeats 16000000 in
/-- Every own cell at zero, as three chains each lowest first. -/
theorem cells_asc_eq (c : Dev nD) :
    (semsZero (F := F) c : sProp 𝕄) = iprop((semVal ((c : Thread nD τ), SemLoc.dma 10) 0
      ∗ semVal ((c : Thread nD τ), SemLoc.dma 11) 0
      ∗ semVal ((c : Thread nD τ), SemLoc.dma 12) 0
      ∗ semVal ((c : Thread nD τ), SemLoc.dma 13) 0
      ∗ semVal ((c : Thread nD τ), SemLoc.dma 14) 0
      ∗ semVal ((c : Thread nD τ), SemLoc.dma 15) 0
      ∗ semVal ((c : Thread nD τ), SemLoc.dma 16) 0
      ∗ semVal ((c : Thread nD τ), SemLoc.dma 17) 0
      ∗ semVal ((c : Thread nD τ), SemLoc.dma 18) 0
      ∗ semVal ((c : Thread nD τ), SemLoc.dma 19) 0
      ∗ semVal ((c : Thread nD τ), SemLoc.dma 20) 0
      ∗ semVal ((c : Thread nD τ), SemLoc.dma 21) 0
      ∗ semVal ((c : Thread nD τ), SemLoc.dma 22) 0
      ∗ semVal ((c : Thread nD τ), SemLoc.dma 23) 0
      ∗ semVal ((c : Thread nD τ), SemLoc.dma 24) 0
      ∗ semVal ((c : Thread nD τ), SemLoc.dma 25) 0
      ∗ semVal ((c : Thread nD τ), SemLoc.dma 26) 0
      ∗ semVal ((c : Thread nD τ), SemLoc.dma 27) 0
      ∗ semVal ((c : Thread nD τ), SemLoc.dma 28) 0
      ∗ semVal ((c : Thread nD τ), SemLoc.dma 29) 0
      ∗ semVal ((c : Thread nD τ), SemLoc.dma 30) 0
      ∗ semVal ((c : Thread nD τ), SemLoc.dma 31) 0
      ∗ semVal ((c : Thread nD τ), SemLoc.dma 32) 0
      ∗ semVal ((c : Thread nD τ), SemLoc.dma 33) 0
      ∗ semVal ((c : Thread nD τ), SemLoc.dma 34) 0
      ∗ semVal ((c : Thread nD τ), SemLoc.dma 35) 0
      ∗ semVal ((c : Thread nD τ), SemLoc.dma 36) 0
      ∗ semVal ((c : Thread nD τ), SemLoc.dma 37) 0
      ∗ semVal ((c : Thread nD τ), SemLoc.dma 38) 0
      ∗ semVal ((c : Thread nD τ), SemLoc.dma 39) 0
      ∗ semVal ((c : Thread nD τ), SemLoc.dma 40) 0
      ∗ semVal ((c : Thread nD τ), SemLoc.dma 41) 0
      ∗ semVal ((c : Thread nD τ), SemLoc.dma 42) 0
      ∗ semVal ((c : Thread nD τ), SemLoc.dma 43) 0
      ∗ semVal ((c : Thread nD τ), SemLoc.dma 44) 0
      ∗ semVal ((c : Thread nD τ), SemLoc.dma 45) 0
      ∗ semVal ((c : Thread nD τ), SemLoc.dma 46) 0
      ∗ semVal ((c : Thread nD τ), SemLoc.dma 47) 0
      ∗ semVal ((c : Thread nD τ), SemLoc.dma 48) 0
      ∗ semVal ((c : Thread nD τ), SemLoc.dma 49) 0
      ∗ semVal ((c : Thread nD τ), SemLoc.dma 50) 0
      ∗ semVal ((c : Thread nD τ), SemLoc.dma 51) 0
      ∗ semVal ((c : Thread nD τ), SemLoc.dma 52) 0
      ∗ semVal ((c : Thread nD τ), SemLoc.dma 53) 0
      ∗ semVal ((c : Thread nD τ), SemLoc.dma 54) 0
      ∗ semVal ((c : Thread nD τ), SemLoc.dma 55) 0
      ∗ semVal ((c : Thread nD τ), SemLoc.dma 56) 0
      ∗ semVal ((c : Thread nD τ), SemLoc.dma 57) 0
      ∗ semVal ((c : Thread nD τ), SemLoc.dma 58) 0
      ∗ semVal ((c : Thread nD τ), SemLoc.dma 59) 0
      ∗ semVal ((c : Thread nD τ), SemLoc.dma 60) 0
      ∗ semVal ((c : Thread nD τ), SemLoc.dma 61) 0
      ∗ semVal ((c : Thread nD τ), SemLoc.dma 62) 0
      ∗ semVal ((c : Thread nD τ), SemLoc.dma 63) 0
      ∗ semVal ((c : Thread nD τ), SemLoc.dma 64) 0
      ∗ semVal ((c : Thread nD τ), SemLoc.dma 65) 0
      ∗ semVal ((c : Thread nD τ), SemLoc.dma 66) 0
      ∗ semVal ((c : Thread nD τ), SemLoc.dma 67) 0
      ∗ semVal ((c : Thread nD τ), SemLoc.dma 68) 0
      ∗ semVal ((c : Thread nD τ), SemLoc.dma 69) 0
      ∗ semVal ((c : Thread nD τ), SemLoc.dma 70) 0
      ∗ semVal ((c : Thread nD τ), SemLoc.dma 71) 0
      ∗ semVal ((c : Thread nD τ), SemLoc.dma 72) 0
      ∗ semVal ((c : Thread nD τ), SemLoc.dma 73) 0
      ∗ semVal ((c : Thread nD τ), SemLoc.dma 74) 0
      ∗ semVal ((c : Thread nD τ), SemLoc.dma 75) 0
      ∗ semVal ((c : Thread nD τ), SemLoc.dma 76) 0
      ∗ semVal ((c : Thread nD τ), SemLoc.dma 77) 0
      ∗ semVal ((c : Thread nD τ), SemLoc.dma 78) 0
      ∗ semVal ((c : Thread nD τ), SemLoc.dma 79) 0
      ∗ semVal ((c : Thread nD τ), SemLoc.dma 80) 0
      ∗ semVal ((c : Thread nD τ), SemLoc.dma 81) 0
      ∗ semVal ((c : Thread nD τ), SemLoc.dma 82) 0
      ∗ semVal ((c : Thread nD τ), SemLoc.dma 83) 0
      ∗ semVal ((c : Thread nD τ), SemLoc.dma 84) 0
      ∗ semVal ((c : Thread nD τ), SemLoc.dma 85) 0
      ∗ semVal ((c : Thread nD τ), SemLoc.dma 86) 0
      ∗ semVal ((c : Thread nD τ), SemLoc.dma 87) 0
      ∗ semVal ((c : Thread nD τ), SemLoc.dma 88) 0
      ∗ semVal ((c : Thread nD τ), SemLoc.dma 89) 0
      ∗ semVal ((c : Thread nD τ), SemLoc.dma 90) 0
      ∗ semVal ((c : Thread nD τ), SemLoc.dma 91) 0
      ∗ semVal ((c : Thread nD τ), SemLoc.dma 92) 0
      ∗ semVal ((c : Thread nD τ), SemLoc.dma 93) 0
      ∗ semVal ((c : Thread nD τ), SemLoc.dma 94) 0
      ∗ semVal ((c : Thread nD τ), SemLoc.dma 95) 0
      ∗ semVal ((c : Thread nD τ), SemLoc.dma 96) 0
      ∗ semVal ((c : Thread nD τ), SemLoc.dma 97) 0
      ∗ semVal ((c : Thread nD τ), SemLoc.dma 98) 0
      ∗ semVal ((c : Thread nD τ), SemLoc.dma 99) 0
      ∗ semVal ((c : Thread nD τ), SemLoc.dma 100) 0
      ∗ semVal ((c : Thread nD τ), SemLoc.dma 101) 0
      ∗ semVal ((c : Thread nD τ), SemLoc.dma 102) 0
      ∗ semVal ((c : Thread nD τ), SemLoc.dma 103) 0
      ∗ semVal ((c : Thread nD τ), SemLoc.dma 104) 0
      ∗ semVal ((c : Thread nD τ), SemLoc.dma 105) 0
      ∗ semVal ((c : Thread nD τ), SemLoc.dma 106) 0
      ∗ semVal ((c : Thread nD τ), SemLoc.dma 107) 0
      ∗ semVal ((c : Thread nD τ), SemLoc.dma 108) 0
      ∗ semVal ((c : Thread nD τ), SemLoc.dma 109) 0
      ∗ semVal ((c : Thread nD τ), SemLoc.dma 110) 0
      ∗ semVal ((c : Thread nD τ), SemLoc.dma 111) 0
      ∗ semVal ((c : Thread nD τ), SemLoc.dma 112) 0
      ∗ semVal ((c : Thread nD τ), SemLoc.dma 113) 0
      ∗ semVal ((c : Thread nD τ), SemLoc.dma 114) 0
      ∗ semVal ((c : Thread nD τ), SemLoc.dma 115) 0
      ∗ semVal ((c : Thread nD τ), SemLoc.dma 116) 0
      ∗ semVal ((c : Thread nD τ), SemLoc.dma 117) 0
      ∗ semVal ((c : Thread nD τ), SemLoc.dma 118) 0
      ∗ semVal ((c : Thread nD τ), SemLoc.dma 119) 0
      ∗ semVal ((c : Thread nD τ), SemLoc.dma 120) 0
      ∗ semVal ((c : Thread nD τ), SemLoc.dma 121) 0
      ∗ semVal ((c : Thread nD τ), SemLoc.dma 122) 0
      ∗ semVal ((c : Thread nD τ), SemLoc.dma 123) 0
      ∗ semVal ((c : Thread nD τ), SemLoc.dma 124) 0
      ∗ semVal ((c : Thread nD τ), SemLoc.dma 125) 0
      ∗ semVal ((c : Thread nD τ), SemLoc.dma 126) 0
      ∗ semVal ((c : Thread nD τ), SemLoc.dma 127) 0
      ∗ semVal ((c : Thread nD τ), SemLoc.dma 128) 0
      ∗ semVal ((c : Thread nD τ), SemLoc.dma 129) 0
      ∗ semVal ((c : Thread nD τ), SemLoc.dma 130) 0
      ∗ semVal ((c : Thread nD τ), SemLoc.dma 131) 0
      ∗ semVal ((c : Thread nD τ), SemLoc.dma 132) 0
      ∗ semVal ((c : Thread nD τ), SemLoc.dma 133) 0
      ∗ semVal ((c : Thread nD τ), SemLoc.dma 134) 0
      ∗ semVal ((c : Thread nD τ), SemLoc.dma 135) 0
      ∗ semVal ((c : Thread nD τ), SemLoc.dma 136) 0
      ∗ semVal ((c : Thread nD τ), SemLoc.dma 137) 0
      ∗ emp)
      ∗ (semVal ((c : Thread nD τ), SemLoc.dma 138) 0
      ∗ semVal ((c : Thread nD τ), SemLoc.dma 139) 0
      ∗ semVal ((c : Thread nD τ), SemLoc.dma 140) 0
      ∗ semVal ((c : Thread nD τ), SemLoc.dma 141) 0
      ∗ semVal ((c : Thread nD τ), SemLoc.dma 142) 0
      ∗ semVal ((c : Thread nD τ), SemLoc.dma 143) 0
      ∗ semVal ((c : Thread nD τ), SemLoc.dma 144) 0
      ∗ semVal ((c : Thread nD τ), SemLoc.dma 145) 0
      ∗ semVal ((c : Thread nD τ), SemLoc.dma 146) 0
      ∗ semVal ((c : Thread nD τ), SemLoc.dma 147) 0
      ∗ semVal ((c : Thread nD τ), SemLoc.dma 148) 0
      ∗ semVal ((c : Thread nD τ), SemLoc.dma 149) 0
      ∗ semVal ((c : Thread nD τ), SemLoc.dma 150) 0
      ∗ semVal ((c : Thread nD τ), SemLoc.dma 151) 0
      ∗ semVal ((c : Thread nD τ), SemLoc.dma 152) 0
      ∗ semVal ((c : Thread nD τ), SemLoc.dma 153) 0
      ∗ semVal ((c : Thread nD τ), SemLoc.dma 154) 0
      ∗ semVal ((c : Thread nD τ), SemLoc.dma 155) 0
      ∗ semVal ((c : Thread nD τ), SemLoc.dma 156) 0
      ∗ semVal ((c : Thread nD τ), SemLoc.dma 157) 0
      ∗ semVal ((c : Thread nD τ), SemLoc.dma 158) 0
      ∗ semVal ((c : Thread nD τ), SemLoc.dma 159) 0
      ∗ semVal ((c : Thread nD τ), SemLoc.dma 160) 0
      ∗ semVal ((c : Thread nD τ), SemLoc.dma 161) 0
      ∗ semVal ((c : Thread nD τ), SemLoc.dma 162) 0
      ∗ semVal ((c : Thread nD τ), SemLoc.dma 163) 0
      ∗ semVal ((c : Thread nD τ), SemLoc.dma 164) 0
      ∗ semVal ((c : Thread nD τ), SemLoc.dma 165) 0
      ∗ semVal ((c : Thread nD τ), SemLoc.dma 166) 0
      ∗ semVal ((c : Thread nD τ), SemLoc.dma 167) 0
      ∗ semVal ((c : Thread nD τ), SemLoc.dma 168) 0
      ∗ semVal ((c : Thread nD τ), SemLoc.dma 169) 0
      ∗ semVal ((c : Thread nD τ), SemLoc.dma 170) 0
      ∗ semVal ((c : Thread nD τ), SemLoc.dma 171) 0
      ∗ semVal ((c : Thread nD τ), SemLoc.dma 172) 0
      ∗ semVal ((c : Thread nD τ), SemLoc.dma 173) 0
      ∗ semVal ((c : Thread nD τ), SemLoc.dma 174) 0
      ∗ semVal ((c : Thread nD τ), SemLoc.dma 175) 0
      ∗ semVal ((c : Thread nD τ), SemLoc.dma 176) 0
      ∗ semVal ((c : Thread nD τ), SemLoc.dma 177) 0
      ∗ semVal ((c : Thread nD τ), SemLoc.dma 178) 0
      ∗ semVal ((c : Thread nD τ), SemLoc.dma 179) 0
      ∗ semVal ((c : Thread nD τ), SemLoc.dma 180) 0
      ∗ semVal ((c : Thread nD τ), SemLoc.dma 181) 0
      ∗ semVal ((c : Thread nD τ), SemLoc.dma 182) 0
      ∗ semVal ((c : Thread nD τ), SemLoc.dma 183) 0
      ∗ semVal ((c : Thread nD τ), SemLoc.dma 184) 0
      ∗ semVal ((c : Thread nD τ), SemLoc.dma 185) 0
      ∗ semVal ((c : Thread nD τ), SemLoc.dma 186) 0
      ∗ semVal ((c : Thread nD τ), SemLoc.dma 187) 0
      ∗ semVal ((c : Thread nD τ), SemLoc.dma 188) 0
      ∗ semVal ((c : Thread nD τ), SemLoc.dma 189) 0
      ∗ semVal ((c : Thread nD τ), SemLoc.dma 190) 0
      ∗ semVal ((c : Thread nD τ), SemLoc.dma 191) 0
      ∗ semVal ((c : Thread nD τ), SemLoc.dma 192) 0
      ∗ semVal ((c : Thread nD τ), SemLoc.dma 193) 0
      ∗ semVal ((c : Thread nD τ), SemLoc.dma 194) 0
      ∗ semVal ((c : Thread nD τ), SemLoc.dma 195) 0
      ∗ semVal ((c : Thread nD τ), SemLoc.dma 196) 0
      ∗ semVal ((c : Thread nD τ), SemLoc.dma 197) 0
      ∗ semVal ((c : Thread nD τ), SemLoc.dma 198) 0
      ∗ semVal ((c : Thread nD τ), SemLoc.dma 199) 0
      ∗ semVal ((c : Thread nD τ), SemLoc.dma 200) 0
      ∗ semVal ((c : Thread nD τ), SemLoc.dma 201) 0
      ∗ semVal ((c : Thread nD τ), SemLoc.dma 202) 0
      ∗ semVal ((c : Thread nD τ), SemLoc.dma 203) 0
      ∗ semVal ((c : Thread nD τ), SemLoc.dma 204) 0
      ∗ semVal ((c : Thread nD τ), SemLoc.dma 205) 0
      ∗ semVal ((c : Thread nD τ), SemLoc.dma 206) 0
      ∗ semVal ((c : Thread nD τ), SemLoc.dma 207) 0
      ∗ semVal ((c : Thread nD τ), SemLoc.dma 208) 0
      ∗ semVal ((c : Thread nD τ), SemLoc.dma 209) 0
      ∗ semVal ((c : Thread nD τ), SemLoc.dma 210) 0
      ∗ semVal ((c : Thread nD τ), SemLoc.dma 211) 0
      ∗ semVal ((c : Thread nD τ), SemLoc.dma 212) 0
      ∗ semVal ((c : Thread nD τ), SemLoc.dma 213) 0
      ∗ semVal ((c : Thread nD τ), SemLoc.dma 214) 0
      ∗ semVal ((c : Thread nD τ), SemLoc.dma 215) 0
      ∗ semVal ((c : Thread nD τ), SemLoc.dma 216) 0
      ∗ semVal ((c : Thread nD τ), SemLoc.dma 217) 0
      ∗ semVal ((c : Thread nD τ), SemLoc.dma 218) 0
      ∗ semVal ((c : Thread nD τ), SemLoc.dma 219) 0
      ∗ semVal ((c : Thread nD τ), SemLoc.dma 220) 0
      ∗ semVal ((c : Thread nD τ), SemLoc.dma 221) 0
      ∗ semVal ((c : Thread nD τ), SemLoc.dma 222) 0
      ∗ semVal ((c : Thread nD τ), SemLoc.dma 223) 0
      ∗ semVal ((c : Thread nD τ), SemLoc.dma 224) 0
      ∗ semVal ((c : Thread nD τ), SemLoc.dma 225) 0
      ∗ semVal ((c : Thread nD τ), SemLoc.dma 226) 0
      ∗ semVal ((c : Thread nD τ), SemLoc.dma 227) 0
      ∗ semVal ((c : Thread nD τ), SemLoc.dma 228) 0
      ∗ semVal ((c : Thread nD τ), SemLoc.dma 229) 0
      ∗ semVal ((c : Thread nD τ), SemLoc.dma 230) 0
      ∗ semVal ((c : Thread nD τ), SemLoc.dma 231) 0
      ∗ semVal ((c : Thread nD τ), SemLoc.dma 232) 0
      ∗ semVal ((c : Thread nD τ), SemLoc.dma 233) 0
      ∗ semVal ((c : Thread nD τ), SemLoc.dma 234) 0
      ∗ semVal ((c : Thread nD τ), SemLoc.dma 235) 0
      ∗ semVal ((c : Thread nD τ), SemLoc.dma 236) 0
      ∗ semVal ((c : Thread nD τ), SemLoc.dma 237) 0
      ∗ semVal ((c : Thread nD τ), SemLoc.dma 238) 0
      ∗ semVal ((c : Thread nD τ), SemLoc.dma 239) 0
      ∗ semVal ((c : Thread nD τ), SemLoc.dma 240) 0
      ∗ semVal ((c : Thread nD τ), SemLoc.dma 241) 0
      ∗ semVal ((c : Thread nD τ), SemLoc.dma 242) 0
      ∗ semVal ((c : Thread nD τ), SemLoc.dma 243) 0
      ∗ semVal ((c : Thread nD τ), SemLoc.dma 244) 0
      ∗ semVal ((c : Thread nD τ), SemLoc.dma 245) 0
      ∗ semVal ((c : Thread nD τ), SemLoc.dma 246) 0
      ∗ semVal ((c : Thread nD τ), SemLoc.dma 247) 0
      ∗ semVal ((c : Thread nD τ), SemLoc.dma 248) 0
      ∗ semVal ((c : Thread nD τ), SemLoc.dma 249) 0
      ∗ semVal ((c : Thread nD τ), SemLoc.dma 250) 0
      ∗ semVal ((c : Thread nD τ), SemLoc.dma 251) 0
      ∗ semVal ((c : Thread nD τ), SemLoc.dma 252) 0
      ∗ semVal ((c : Thread nD τ), SemLoc.dma 253) 0
      ∗ semVal ((c : Thread nD τ), SemLoc.dma 254) 0
      ∗ semVal ((c : Thread nD τ), SemLoc.dma 255) 0
      ∗ semVal ((c : Thread nD τ), SemLoc.dma 256) 0
      ∗ semVal ((c : Thread nD τ), SemLoc.dma 257) 0
      ∗ semVal ((c : Thread nD τ), SemLoc.dma 258) 0
      ∗ semVal ((c : Thread nD τ), SemLoc.dma 259) 0
      ∗ semVal ((c : Thread nD τ), SemLoc.dma 260) 0
      ∗ semVal ((c : Thread nD τ), SemLoc.dma 261) 0
      ∗ semVal ((c : Thread nD τ), SemLoc.dma 262) 0
      ∗ semVal ((c : Thread nD τ), SemLoc.dma 263) 0
      ∗ semVal ((c : Thread nD τ), SemLoc.dma 264) 0
      ∗ semVal ((c : Thread nD τ), SemLoc.dma 265) 0
      ∗ emp)
      ∗ (semVal ((c : Thread nD τ), SemLoc.dma 266) 0
      ∗ semVal ((c : Thread nD τ), SemLoc.dma 267) 0
      ∗ semVal ((c : Thread nD τ), SemLoc.dma 268) 0
      ∗ semVal ((c : Thread nD τ), SemLoc.dma 269) 0
      ∗ semVal ((c : Thread nD τ), SemLoc.dma 270) 0
      ∗ semVal ((c : Thread nD τ), SemLoc.dma 271) 0
      ∗ semVal ((c : Thread nD τ), SemLoc.dma 272) 0
      ∗ semVal ((c : Thread nD τ), SemLoc.dma 273) 0
      ∗ semVal ((c : Thread nD τ), SemLoc.dma 274) 0
      ∗ semVal ((c : Thread nD τ), SemLoc.dma 275) 0
      ∗ semVal ((c : Thread nD τ), SemLoc.dma 276) 0
      ∗ semVal ((c : Thread nD τ), SemLoc.dma 277) 0
      ∗ semVal ((c : Thread nD τ), SemLoc.dma 278) 0
      ∗ semVal ((c : Thread nD τ), SemLoc.dma 279) 0
      ∗ semVal ((c : Thread nD τ), SemLoc.dma 280) 0
      ∗ semVal ((c : Thread nD τ), SemLoc.dma 281) 0
      ∗ semVal ((c : Thread nD τ), SemLoc.dma 282) 0
      ∗ semVal ((c : Thread nD τ), SemLoc.dma 283) 0
      ∗ semVal ((c : Thread nD τ), SemLoc.dma 284) 0
      ∗ semVal ((c : Thread nD τ), SemLoc.dma 285) 0
      ∗ semVal ((c : Thread nD τ), SemLoc.dma 286) 0
      ∗ semVal ((c : Thread nD τ), SemLoc.dma 287) 0
      ∗ semVal ((c : Thread nD τ), SemLoc.dma 288) 0
      ∗ semVal ((c : Thread nD τ), SemLoc.dma 289) 0
      ∗ semVal ((c : Thread nD τ), SemLoc.dma 290) 0
      ∗ semVal ((c : Thread nD τ), SemLoc.dma 291) 0
      ∗ semVal ((c : Thread nD τ), SemLoc.dma 292) 0
      ∗ semVal ((c : Thread nD τ), SemLoc.dma 293) 0
      ∗ semVal ((c : Thread nD τ), SemLoc.dma 294) 0
      ∗ semVal ((c : Thread nD τ), SemLoc.dma 295) 0
      ∗ semVal ((c : Thread nD τ), SemLoc.dma 296) 0
      ∗ semVal ((c : Thread nD τ), SemLoc.dma 297) 0
      ∗ semVal ((c : Thread nD τ), SemLoc.dma 298) 0
      ∗ semVal ((c : Thread nD τ), SemLoc.dma 299) 0
      ∗ semVal ((c : Thread nD τ), SemLoc.dma 300) 0
      ∗ semVal ((c : Thread nD τ), SemLoc.dma 301) 0
      ∗ semVal ((c : Thread nD τ), SemLoc.dma 302) 0
      ∗ semVal ((c : Thread nD τ), SemLoc.dma 303) 0
      ∗ semVal ((c : Thread nD τ), SemLoc.dma 304) 0
      ∗ semVal ((c : Thread nD τ), SemLoc.dma 305) 0
      ∗ semVal ((c : Thread nD τ), SemLoc.dma 306) 0
      ∗ semVal ((c : Thread nD τ), SemLoc.dma 307) 0
      ∗ semVal ((c : Thread nD τ), SemLoc.dma 308) 0
      ∗ semVal ((c : Thread nD τ), SemLoc.dma 309) 0
      ∗ semVal ((c : Thread nD τ), SemLoc.dma 310) 0
      ∗ semVal ((c : Thread nD τ), SemLoc.dma 311) 0
      ∗ semVal ((c : Thread nD τ), SemLoc.dma 312) 0
      ∗ semVal ((c : Thread nD τ), SemLoc.dma 313) 0
      ∗ semVal ((c : Thread nD τ), SemLoc.dma 314) 0
      ∗ semVal ((c : Thread nD τ), SemLoc.dma 315) 0
      ∗ semVal ((c : Thread nD τ), SemLoc.dma 316) 0
      ∗ semVal ((c : Thread nD τ), SemLoc.dma 317) 0
      ∗ semVal ((c : Thread nD τ), SemLoc.dma 318) 0
      ∗ semVal ((c : Thread nD τ), SemLoc.dma 319) 0
      ∗ semVal ((c : Thread nD τ), SemLoc.dma 320) 0
      ∗ semVal ((c : Thread nD τ), SemLoc.dma 321) 0
      ∗ semVal ((c : Thread nD τ), SemLoc.dma 322) 0
      ∗ semVal ((c : Thread nD τ), SemLoc.dma 323) 0
      ∗ semVal ((c : Thread nD τ), SemLoc.dma 324) 0
      ∗ semVal ((c : Thread nD τ), SemLoc.dma 325) 0
      ∗ semVal ((c : Thread nD τ), SemLoc.dma 326) 0
      ∗ semVal ((c : Thread nD τ), SemLoc.dma 327) 0
      ∗ semVal ((c : Thread nD τ), SemLoc.dma 328) 0
      ∗ semVal ((c : Thread nD τ), SemLoc.dma 329) 0
      ∗ semVal ((c : Thread nD τ), SemLoc.dma 330) 0
      ∗ semVal ((c : Thread nD τ), SemLoc.dma 331) 0
      ∗ semVal ((c : Thread nD τ), SemLoc.dma 332) 0
      ∗ semVal ((c : Thread nD τ), SemLoc.dma 333) 0
      ∗ semVal ((c : Thread nD τ), SemLoc.dma 334) 0
      ∗ semVal ((c : Thread nD τ), SemLoc.dma 335) 0
      ∗ semVal ((c : Thread nD τ), SemLoc.dma 336) 0
      ∗ semVal ((c : Thread nD τ), SemLoc.dma 337) 0
      ∗ semVal ((c : Thread nD τ), SemLoc.dma 338) 0
      ∗ semVal ((c : Thread nD τ), SemLoc.dma 339) 0
      ∗ semVal ((c : Thread nD τ), SemLoc.dma 340) 0
      ∗ semVal ((c : Thread nD τ), SemLoc.dma 341) 0
      ∗ semVal ((c : Thread nD τ), SemLoc.dma 342) 0
      ∗ semVal ((c : Thread nD τ), SemLoc.dma 343) 0
      ∗ semVal ((c : Thread nD τ), SemLoc.dma 344) 0
      ∗ semVal ((c : Thread nD τ), SemLoc.dma 345) 0
      ∗ semVal ((c : Thread nD τ), SemLoc.dma 346) 0
      ∗ semVal ((c : Thread nD τ), SemLoc.dma 347) 0
      ∗ semVal ((c : Thread nD τ), SemLoc.dma 348) 0
      ∗ semVal ((c : Thread nD τ), SemLoc.dma 349) 0
      ∗ semVal ((c : Thread nD τ), SemLoc.dma 350) 0
      ∗ semVal ((c : Thread nD τ), SemLoc.dma 351) 0
      ∗ semVal ((c : Thread nD τ), SemLoc.dma 352) 0
      ∗ semVal ((c : Thread nD τ), SemLoc.dma 353) 0
      ∗ semVal ((c : Thread nD τ), SemLoc.dma 354) 0
      ∗ semVal ((c : Thread nD τ), SemLoc.dma 355) 0
      ∗ semVal ((c : Thread nD τ), SemLoc.dma 356) 0
      ∗ semVal ((c : Thread nD τ), SemLoc.dma 357) 0
      ∗ semVal ((c : Thread nD τ), SemLoc.dma 358) 0
      ∗ semVal ((c : Thread nD τ), SemLoc.dma 359) 0
      ∗ semVal ((c : Thread nD τ), SemLoc.dma 360) 0
      ∗ semVal ((c : Thread nD τ), SemLoc.dma 361) 0
      ∗ semVal ((c : Thread nD τ), SemLoc.dma 362) 0
      ∗ semVal ((c : Thread nD τ), SemLoc.dma 363) 0
      ∗ semVal ((c : Thread nD τ), SemLoc.dma 364) 0
      ∗ semVal ((c : Thread nD τ), SemLoc.dma 365) 0
      ∗ semVal ((c : Thread nD τ), SemLoc.dma 366) 0
      ∗ semVal ((c : Thread nD τ), SemLoc.dma 367) 0
      ∗ semVal ((c : Thread nD τ), SemLoc.dma 368) 0
      ∗ semVal ((c : Thread nD τ), SemLoc.dma 369) 0
      ∗ semVal ((c : Thread nD τ), SemLoc.dma 370) 0
      ∗ semVal ((c : Thread nD τ), SemLoc.dma 371) 0
      ∗ semVal ((c : Thread nD τ), SemLoc.dma 372) 0
      ∗ semVal ((c : Thread nD τ), SemLoc.dma 373) 0
      ∗ semVal ((c : Thread nD τ), SemLoc.dma 374) 0
      ∗ semVal ((c : Thread nD τ), SemLoc.dma 375) 0
      ∗ semVal ((c : Thread nD τ), SemLoc.dma 376) 0
      ∗ semVal ((c : Thread nD τ), SemLoc.dma 377) 0
      ∗ semVal ((c : Thread nD τ), SemLoc.dma 378) 0
      ∗ semVal ((c : Thread nD τ), SemLoc.dma 379) 0
      ∗ semVal ((c : Thread nD τ), SemLoc.dma 380) 0
      ∗ semVal ((c : Thread nD τ), SemLoc.dma 381) 0
      ∗ semVal ((c : Thread nD τ), SemLoc.dma 382) 0
      ∗ semVal ((c : Thread nD τ), SemLoc.dma 383) 0
      ∗ semVal ((c : Thread nD τ), SemLoc.dma 384) 0
      ∗ semVal ((c : Thread nD τ), SemLoc.dma 385) 0
      ∗ semVal ((c : Thread nD τ), SemLoc.dma 386) 0
      ∗ semVal ((c : Thread nD τ), SemLoc.dma 387) 0
      ∗ semVal ((c : Thread nD τ), SemLoc.dma 388) 0
      ∗ semVal ((c : Thread nD τ), SemLoc.dma 389) 0
      ∗ semVal ((c : Thread nD τ), SemLoc.dma 390) 0
      ∗ semVal ((c : Thread nD τ), SemLoc.dma 391) 0
      ∗ semVal ((c : Thread nD τ), SemLoc.dma 392) 0
      ∗ semVal ((c : Thread nD τ), SemLoc.dma 393) 0
      ∗ emp)) := by
  unfold semsZero
  simp only [sep_assoc_eq, sep_emp_eq, emp_sep_eq]

set_option maxHeartbeats 16000000 in
/-- The 384 cells at zero, in three chains each highest first, are every own cell at zero. -/
theorem cells_down (c : Dev nD) :
    (iprop((semVal ((c : Thread nD τ), SemLoc.dma 137) 0
      ∗ semVal ((c : Thread nD τ), SemLoc.dma 136) 0
      ∗ semVal ((c : Thread nD τ), SemLoc.dma 135) 0
      ∗ semVal ((c : Thread nD τ), SemLoc.dma 134) 0
      ∗ semVal ((c : Thread nD τ), SemLoc.dma 133) 0
      ∗ semVal ((c : Thread nD τ), SemLoc.dma 132) 0
      ∗ semVal ((c : Thread nD τ), SemLoc.dma 131) 0
      ∗ semVal ((c : Thread nD τ), SemLoc.dma 130) 0
      ∗ semVal ((c : Thread nD τ), SemLoc.dma 129) 0
      ∗ semVal ((c : Thread nD τ), SemLoc.dma 128) 0
      ∗ semVal ((c : Thread nD τ), SemLoc.dma 127) 0
      ∗ semVal ((c : Thread nD τ), SemLoc.dma 126) 0
      ∗ semVal ((c : Thread nD τ), SemLoc.dma 125) 0
      ∗ semVal ((c : Thread nD τ), SemLoc.dma 124) 0
      ∗ semVal ((c : Thread nD τ), SemLoc.dma 123) 0
      ∗ semVal ((c : Thread nD τ), SemLoc.dma 122) 0
      ∗ semVal ((c : Thread nD τ), SemLoc.dma 121) 0
      ∗ semVal ((c : Thread nD τ), SemLoc.dma 120) 0
      ∗ semVal ((c : Thread nD τ), SemLoc.dma 119) 0
      ∗ semVal ((c : Thread nD τ), SemLoc.dma 118) 0
      ∗ semVal ((c : Thread nD τ), SemLoc.dma 117) 0
      ∗ semVal ((c : Thread nD τ), SemLoc.dma 116) 0
      ∗ semVal ((c : Thread nD τ), SemLoc.dma 115) 0
      ∗ semVal ((c : Thread nD τ), SemLoc.dma 114) 0
      ∗ semVal ((c : Thread nD τ), SemLoc.dma 113) 0
      ∗ semVal ((c : Thread nD τ), SemLoc.dma 112) 0
      ∗ semVal ((c : Thread nD τ), SemLoc.dma 111) 0
      ∗ semVal ((c : Thread nD τ), SemLoc.dma 110) 0
      ∗ semVal ((c : Thread nD τ), SemLoc.dma 109) 0
      ∗ semVal ((c : Thread nD τ), SemLoc.dma 108) 0
      ∗ semVal ((c : Thread nD τ), SemLoc.dma 107) 0
      ∗ semVal ((c : Thread nD τ), SemLoc.dma 106) 0
      ∗ semVal ((c : Thread nD τ), SemLoc.dma 105) 0
      ∗ semVal ((c : Thread nD τ), SemLoc.dma 104) 0
      ∗ semVal ((c : Thread nD τ), SemLoc.dma 103) 0
      ∗ semVal ((c : Thread nD τ), SemLoc.dma 102) 0
      ∗ semVal ((c : Thread nD τ), SemLoc.dma 101) 0
      ∗ semVal ((c : Thread nD τ), SemLoc.dma 100) 0
      ∗ semVal ((c : Thread nD τ), SemLoc.dma 99) 0
      ∗ semVal ((c : Thread nD τ), SemLoc.dma 98) 0
      ∗ semVal ((c : Thread nD τ), SemLoc.dma 97) 0
      ∗ semVal ((c : Thread nD τ), SemLoc.dma 96) 0
      ∗ semVal ((c : Thread nD τ), SemLoc.dma 95) 0
      ∗ semVal ((c : Thread nD τ), SemLoc.dma 94) 0
      ∗ semVal ((c : Thread nD τ), SemLoc.dma 93) 0
      ∗ semVal ((c : Thread nD τ), SemLoc.dma 92) 0
      ∗ semVal ((c : Thread nD τ), SemLoc.dma 91) 0
      ∗ semVal ((c : Thread nD τ), SemLoc.dma 90) 0
      ∗ semVal ((c : Thread nD τ), SemLoc.dma 89) 0
      ∗ semVal ((c : Thread nD τ), SemLoc.dma 88) 0
      ∗ semVal ((c : Thread nD τ), SemLoc.dma 87) 0
      ∗ semVal ((c : Thread nD τ), SemLoc.dma 86) 0
      ∗ semVal ((c : Thread nD τ), SemLoc.dma 85) 0
      ∗ semVal ((c : Thread nD τ), SemLoc.dma 84) 0
      ∗ semVal ((c : Thread nD τ), SemLoc.dma 83) 0
      ∗ semVal ((c : Thread nD τ), SemLoc.dma 82) 0
      ∗ semVal ((c : Thread nD τ), SemLoc.dma 81) 0
      ∗ semVal ((c : Thread nD τ), SemLoc.dma 80) 0
      ∗ semVal ((c : Thread nD τ), SemLoc.dma 79) 0
      ∗ semVal ((c : Thread nD τ), SemLoc.dma 78) 0
      ∗ semVal ((c : Thread nD τ), SemLoc.dma 77) 0
      ∗ semVal ((c : Thread nD τ), SemLoc.dma 76) 0
      ∗ semVal ((c : Thread nD τ), SemLoc.dma 75) 0
      ∗ semVal ((c : Thread nD τ), SemLoc.dma 74) 0
      ∗ semVal ((c : Thread nD τ), SemLoc.dma 73) 0
      ∗ semVal ((c : Thread nD τ), SemLoc.dma 72) 0
      ∗ semVal ((c : Thread nD τ), SemLoc.dma 71) 0
      ∗ semVal ((c : Thread nD τ), SemLoc.dma 70) 0
      ∗ semVal ((c : Thread nD τ), SemLoc.dma 69) 0
      ∗ semVal ((c : Thread nD τ), SemLoc.dma 68) 0
      ∗ semVal ((c : Thread nD τ), SemLoc.dma 67) 0
      ∗ semVal ((c : Thread nD τ), SemLoc.dma 66) 0
      ∗ semVal ((c : Thread nD τ), SemLoc.dma 65) 0
      ∗ semVal ((c : Thread nD τ), SemLoc.dma 64) 0
      ∗ semVal ((c : Thread nD τ), SemLoc.dma 63) 0
      ∗ semVal ((c : Thread nD τ), SemLoc.dma 62) 0
      ∗ semVal ((c : Thread nD τ), SemLoc.dma 61) 0
      ∗ semVal ((c : Thread nD τ), SemLoc.dma 60) 0
      ∗ semVal ((c : Thread nD τ), SemLoc.dma 59) 0
      ∗ semVal ((c : Thread nD τ), SemLoc.dma 58) 0
      ∗ semVal ((c : Thread nD τ), SemLoc.dma 57) 0
      ∗ semVal ((c : Thread nD τ), SemLoc.dma 56) 0
      ∗ semVal ((c : Thread nD τ), SemLoc.dma 55) 0
      ∗ semVal ((c : Thread nD τ), SemLoc.dma 54) 0
      ∗ semVal ((c : Thread nD τ), SemLoc.dma 53) 0
      ∗ semVal ((c : Thread nD τ), SemLoc.dma 52) 0
      ∗ semVal ((c : Thread nD τ), SemLoc.dma 51) 0
      ∗ semVal ((c : Thread nD τ), SemLoc.dma 50) 0
      ∗ semVal ((c : Thread nD τ), SemLoc.dma 49) 0
      ∗ semVal ((c : Thread nD τ), SemLoc.dma 48) 0
      ∗ semVal ((c : Thread nD τ), SemLoc.dma 47) 0
      ∗ semVal ((c : Thread nD τ), SemLoc.dma 46) 0
      ∗ semVal ((c : Thread nD τ), SemLoc.dma 45) 0
      ∗ semVal ((c : Thread nD τ), SemLoc.dma 44) 0
      ∗ semVal ((c : Thread nD τ), SemLoc.dma 43) 0
      ∗ semVal ((c : Thread nD τ), SemLoc.dma 42) 0
      ∗ semVal ((c : Thread nD τ), SemLoc.dma 41) 0
      ∗ semVal ((c : Thread nD τ), SemLoc.dma 40) 0
      ∗ semVal ((c : Thread nD τ), SemLoc.dma 39) 0
      ∗ semVal ((c : Thread nD τ), SemLoc.dma 38) 0
      ∗ semVal ((c : Thread nD τ), SemLoc.dma 37) 0
      ∗ semVal ((c : Thread nD τ), SemLoc.dma 36) 0
      ∗ semVal ((c : Thread nD τ), SemLoc.dma 35) 0
      ∗ semVal ((c : Thread nD τ), SemLoc.dma 34) 0
      ∗ semVal ((c : Thread nD τ), SemLoc.dma 33) 0
      ∗ semVal ((c : Thread nD τ), SemLoc.dma 32) 0
      ∗ semVal ((c : Thread nD τ), SemLoc.dma 31) 0
      ∗ semVal ((c : Thread nD τ), SemLoc.dma 30) 0
      ∗ semVal ((c : Thread nD τ), SemLoc.dma 29) 0
      ∗ semVal ((c : Thread nD τ), SemLoc.dma 28) 0
      ∗ semVal ((c : Thread nD τ), SemLoc.dma 27) 0
      ∗ semVal ((c : Thread nD τ), SemLoc.dma 26) 0
      ∗ semVal ((c : Thread nD τ), SemLoc.dma 25) 0
      ∗ semVal ((c : Thread nD τ), SemLoc.dma 24) 0
      ∗ semVal ((c : Thread nD τ), SemLoc.dma 23) 0
      ∗ semVal ((c : Thread nD τ), SemLoc.dma 22) 0
      ∗ semVal ((c : Thread nD τ), SemLoc.dma 21) 0
      ∗ semVal ((c : Thread nD τ), SemLoc.dma 20) 0
      ∗ semVal ((c : Thread nD τ), SemLoc.dma 19) 0
      ∗ semVal ((c : Thread nD τ), SemLoc.dma 18) 0
      ∗ semVal ((c : Thread nD τ), SemLoc.dma 17) 0
      ∗ semVal ((c : Thread nD τ), SemLoc.dma 16) 0
      ∗ semVal ((c : Thread nD τ), SemLoc.dma 15) 0
      ∗ semVal ((c : Thread nD τ), SemLoc.dma 14) 0
      ∗ semVal ((c : Thread nD τ), SemLoc.dma 13) 0
      ∗ semVal ((c : Thread nD τ), SemLoc.dma 12) 0
      ∗ semVal ((c : Thread nD τ), SemLoc.dma 11) 0
      ∗ semVal ((c : Thread nD τ), SemLoc.dma 10) 0
      ∗ emp)
      ∗ (semVal ((c : Thread nD τ), SemLoc.dma 265) 0
      ∗ semVal ((c : Thread nD τ), SemLoc.dma 264) 0
      ∗ semVal ((c : Thread nD τ), SemLoc.dma 263) 0
      ∗ semVal ((c : Thread nD τ), SemLoc.dma 262) 0
      ∗ semVal ((c : Thread nD τ), SemLoc.dma 261) 0
      ∗ semVal ((c : Thread nD τ), SemLoc.dma 260) 0
      ∗ semVal ((c : Thread nD τ), SemLoc.dma 259) 0
      ∗ semVal ((c : Thread nD τ), SemLoc.dma 258) 0
      ∗ semVal ((c : Thread nD τ), SemLoc.dma 257) 0
      ∗ semVal ((c : Thread nD τ), SemLoc.dma 256) 0
      ∗ semVal ((c : Thread nD τ), SemLoc.dma 255) 0
      ∗ semVal ((c : Thread nD τ), SemLoc.dma 254) 0
      ∗ semVal ((c : Thread nD τ), SemLoc.dma 253) 0
      ∗ semVal ((c : Thread nD τ), SemLoc.dma 252) 0
      ∗ semVal ((c : Thread nD τ), SemLoc.dma 251) 0
      ∗ semVal ((c : Thread nD τ), SemLoc.dma 250) 0
      ∗ semVal ((c : Thread nD τ), SemLoc.dma 249) 0
      ∗ semVal ((c : Thread nD τ), SemLoc.dma 248) 0
      ∗ semVal ((c : Thread nD τ), SemLoc.dma 247) 0
      ∗ semVal ((c : Thread nD τ), SemLoc.dma 246) 0
      ∗ semVal ((c : Thread nD τ), SemLoc.dma 245) 0
      ∗ semVal ((c : Thread nD τ), SemLoc.dma 244) 0
      ∗ semVal ((c : Thread nD τ), SemLoc.dma 243) 0
      ∗ semVal ((c : Thread nD τ), SemLoc.dma 242) 0
      ∗ semVal ((c : Thread nD τ), SemLoc.dma 241) 0
      ∗ semVal ((c : Thread nD τ), SemLoc.dma 240) 0
      ∗ semVal ((c : Thread nD τ), SemLoc.dma 239) 0
      ∗ semVal ((c : Thread nD τ), SemLoc.dma 238) 0
      ∗ semVal ((c : Thread nD τ), SemLoc.dma 237) 0
      ∗ semVal ((c : Thread nD τ), SemLoc.dma 236) 0
      ∗ semVal ((c : Thread nD τ), SemLoc.dma 235) 0
      ∗ semVal ((c : Thread nD τ), SemLoc.dma 234) 0
      ∗ semVal ((c : Thread nD τ), SemLoc.dma 233) 0
      ∗ semVal ((c : Thread nD τ), SemLoc.dma 232) 0
      ∗ semVal ((c : Thread nD τ), SemLoc.dma 231) 0
      ∗ semVal ((c : Thread nD τ), SemLoc.dma 230) 0
      ∗ semVal ((c : Thread nD τ), SemLoc.dma 229) 0
      ∗ semVal ((c : Thread nD τ), SemLoc.dma 228) 0
      ∗ semVal ((c : Thread nD τ), SemLoc.dma 227) 0
      ∗ semVal ((c : Thread nD τ), SemLoc.dma 226) 0
      ∗ semVal ((c : Thread nD τ), SemLoc.dma 225) 0
      ∗ semVal ((c : Thread nD τ), SemLoc.dma 224) 0
      ∗ semVal ((c : Thread nD τ), SemLoc.dma 223) 0
      ∗ semVal ((c : Thread nD τ), SemLoc.dma 222) 0
      ∗ semVal ((c : Thread nD τ), SemLoc.dma 221) 0
      ∗ semVal ((c : Thread nD τ), SemLoc.dma 220) 0
      ∗ semVal ((c : Thread nD τ), SemLoc.dma 219) 0
      ∗ semVal ((c : Thread nD τ), SemLoc.dma 218) 0
      ∗ semVal ((c : Thread nD τ), SemLoc.dma 217) 0
      ∗ semVal ((c : Thread nD τ), SemLoc.dma 216) 0
      ∗ semVal ((c : Thread nD τ), SemLoc.dma 215) 0
      ∗ semVal ((c : Thread nD τ), SemLoc.dma 214) 0
      ∗ semVal ((c : Thread nD τ), SemLoc.dma 213) 0
      ∗ semVal ((c : Thread nD τ), SemLoc.dma 212) 0
      ∗ semVal ((c : Thread nD τ), SemLoc.dma 211) 0
      ∗ semVal ((c : Thread nD τ), SemLoc.dma 210) 0
      ∗ semVal ((c : Thread nD τ), SemLoc.dma 209) 0
      ∗ semVal ((c : Thread nD τ), SemLoc.dma 208) 0
      ∗ semVal ((c : Thread nD τ), SemLoc.dma 207) 0
      ∗ semVal ((c : Thread nD τ), SemLoc.dma 206) 0
      ∗ semVal ((c : Thread nD τ), SemLoc.dma 205) 0
      ∗ semVal ((c : Thread nD τ), SemLoc.dma 204) 0
      ∗ semVal ((c : Thread nD τ), SemLoc.dma 203) 0
      ∗ semVal ((c : Thread nD τ), SemLoc.dma 202) 0
      ∗ semVal ((c : Thread nD τ), SemLoc.dma 201) 0
      ∗ semVal ((c : Thread nD τ), SemLoc.dma 200) 0
      ∗ semVal ((c : Thread nD τ), SemLoc.dma 199) 0
      ∗ semVal ((c : Thread nD τ), SemLoc.dma 198) 0
      ∗ semVal ((c : Thread nD τ), SemLoc.dma 197) 0
      ∗ semVal ((c : Thread nD τ), SemLoc.dma 196) 0
      ∗ semVal ((c : Thread nD τ), SemLoc.dma 195) 0
      ∗ semVal ((c : Thread nD τ), SemLoc.dma 194) 0
      ∗ semVal ((c : Thread nD τ), SemLoc.dma 193) 0
      ∗ semVal ((c : Thread nD τ), SemLoc.dma 192) 0
      ∗ semVal ((c : Thread nD τ), SemLoc.dma 191) 0
      ∗ semVal ((c : Thread nD τ), SemLoc.dma 190) 0
      ∗ semVal ((c : Thread nD τ), SemLoc.dma 189) 0
      ∗ semVal ((c : Thread nD τ), SemLoc.dma 188) 0
      ∗ semVal ((c : Thread nD τ), SemLoc.dma 187) 0
      ∗ semVal ((c : Thread nD τ), SemLoc.dma 186) 0
      ∗ semVal ((c : Thread nD τ), SemLoc.dma 185) 0
      ∗ semVal ((c : Thread nD τ), SemLoc.dma 184) 0
      ∗ semVal ((c : Thread nD τ), SemLoc.dma 183) 0
      ∗ semVal ((c : Thread nD τ), SemLoc.dma 182) 0
      ∗ semVal ((c : Thread nD τ), SemLoc.dma 181) 0
      ∗ semVal ((c : Thread nD τ), SemLoc.dma 180) 0
      ∗ semVal ((c : Thread nD τ), SemLoc.dma 179) 0
      ∗ semVal ((c : Thread nD τ), SemLoc.dma 178) 0
      ∗ semVal ((c : Thread nD τ), SemLoc.dma 177) 0
      ∗ semVal ((c : Thread nD τ), SemLoc.dma 176) 0
      ∗ semVal ((c : Thread nD τ), SemLoc.dma 175) 0
      ∗ semVal ((c : Thread nD τ), SemLoc.dma 174) 0
      ∗ semVal ((c : Thread nD τ), SemLoc.dma 173) 0
      ∗ semVal ((c : Thread nD τ), SemLoc.dma 172) 0
      ∗ semVal ((c : Thread nD τ), SemLoc.dma 171) 0
      ∗ semVal ((c : Thread nD τ), SemLoc.dma 170) 0
      ∗ semVal ((c : Thread nD τ), SemLoc.dma 169) 0
      ∗ semVal ((c : Thread nD τ), SemLoc.dma 168) 0
      ∗ semVal ((c : Thread nD τ), SemLoc.dma 167) 0
      ∗ semVal ((c : Thread nD τ), SemLoc.dma 166) 0
      ∗ semVal ((c : Thread nD τ), SemLoc.dma 165) 0
      ∗ semVal ((c : Thread nD τ), SemLoc.dma 164) 0
      ∗ semVal ((c : Thread nD τ), SemLoc.dma 163) 0
      ∗ semVal ((c : Thread nD τ), SemLoc.dma 162) 0
      ∗ semVal ((c : Thread nD τ), SemLoc.dma 161) 0
      ∗ semVal ((c : Thread nD τ), SemLoc.dma 160) 0
      ∗ semVal ((c : Thread nD τ), SemLoc.dma 159) 0
      ∗ semVal ((c : Thread nD τ), SemLoc.dma 158) 0
      ∗ semVal ((c : Thread nD τ), SemLoc.dma 157) 0
      ∗ semVal ((c : Thread nD τ), SemLoc.dma 156) 0
      ∗ semVal ((c : Thread nD τ), SemLoc.dma 155) 0
      ∗ semVal ((c : Thread nD τ), SemLoc.dma 154) 0
      ∗ semVal ((c : Thread nD τ), SemLoc.dma 153) 0
      ∗ semVal ((c : Thread nD τ), SemLoc.dma 152) 0
      ∗ semVal ((c : Thread nD τ), SemLoc.dma 151) 0
      ∗ semVal ((c : Thread nD τ), SemLoc.dma 150) 0
      ∗ semVal ((c : Thread nD τ), SemLoc.dma 149) 0
      ∗ semVal ((c : Thread nD τ), SemLoc.dma 148) 0
      ∗ semVal ((c : Thread nD τ), SemLoc.dma 147) 0
      ∗ semVal ((c : Thread nD τ), SemLoc.dma 146) 0
      ∗ semVal ((c : Thread nD τ), SemLoc.dma 145) 0
      ∗ semVal ((c : Thread nD τ), SemLoc.dma 144) 0
      ∗ semVal ((c : Thread nD τ), SemLoc.dma 143) 0
      ∗ semVal ((c : Thread nD τ), SemLoc.dma 142) 0
      ∗ semVal ((c : Thread nD τ), SemLoc.dma 141) 0
      ∗ semVal ((c : Thread nD τ), SemLoc.dma 140) 0
      ∗ semVal ((c : Thread nD τ), SemLoc.dma 139) 0
      ∗ semVal ((c : Thread nD τ), SemLoc.dma 138) 0
      ∗ emp)
      ∗ (semVal ((c : Thread nD τ), SemLoc.dma 393) 0
      ∗ semVal ((c : Thread nD τ), SemLoc.dma 392) 0
      ∗ semVal ((c : Thread nD τ), SemLoc.dma 391) 0
      ∗ semVal ((c : Thread nD τ), SemLoc.dma 390) 0
      ∗ semVal ((c : Thread nD τ), SemLoc.dma 389) 0
      ∗ semVal ((c : Thread nD τ), SemLoc.dma 388) 0
      ∗ semVal ((c : Thread nD τ), SemLoc.dma 387) 0
      ∗ semVal ((c : Thread nD τ), SemLoc.dma 386) 0
      ∗ semVal ((c : Thread nD τ), SemLoc.dma 385) 0
      ∗ semVal ((c : Thread nD τ), SemLoc.dma 384) 0
      ∗ semVal ((c : Thread nD τ), SemLoc.dma 383) 0
      ∗ semVal ((c : Thread nD τ), SemLoc.dma 382) 0
      ∗ semVal ((c : Thread nD τ), SemLoc.dma 381) 0
      ∗ semVal ((c : Thread nD τ), SemLoc.dma 380) 0
      ∗ semVal ((c : Thread nD τ), SemLoc.dma 379) 0
      ∗ semVal ((c : Thread nD τ), SemLoc.dma 378) 0
      ∗ semVal ((c : Thread nD τ), SemLoc.dma 377) 0
      ∗ semVal ((c : Thread nD τ), SemLoc.dma 376) 0
      ∗ semVal ((c : Thread nD τ), SemLoc.dma 375) 0
      ∗ semVal ((c : Thread nD τ), SemLoc.dma 374) 0
      ∗ semVal ((c : Thread nD τ), SemLoc.dma 373) 0
      ∗ semVal ((c : Thread nD τ), SemLoc.dma 372) 0
      ∗ semVal ((c : Thread nD τ), SemLoc.dma 371) 0
      ∗ semVal ((c : Thread nD τ), SemLoc.dma 370) 0
      ∗ semVal ((c : Thread nD τ), SemLoc.dma 369) 0
      ∗ semVal ((c : Thread nD τ), SemLoc.dma 368) 0
      ∗ semVal ((c : Thread nD τ), SemLoc.dma 367) 0
      ∗ semVal ((c : Thread nD τ), SemLoc.dma 366) 0
      ∗ semVal ((c : Thread nD τ), SemLoc.dma 365) 0
      ∗ semVal ((c : Thread nD τ), SemLoc.dma 364) 0
      ∗ semVal ((c : Thread nD τ), SemLoc.dma 363) 0
      ∗ semVal ((c : Thread nD τ), SemLoc.dma 362) 0
      ∗ semVal ((c : Thread nD τ), SemLoc.dma 361) 0
      ∗ semVal ((c : Thread nD τ), SemLoc.dma 360) 0
      ∗ semVal ((c : Thread nD τ), SemLoc.dma 359) 0
      ∗ semVal ((c : Thread nD τ), SemLoc.dma 358) 0
      ∗ semVal ((c : Thread nD τ), SemLoc.dma 357) 0
      ∗ semVal ((c : Thread nD τ), SemLoc.dma 356) 0
      ∗ semVal ((c : Thread nD τ), SemLoc.dma 355) 0
      ∗ semVal ((c : Thread nD τ), SemLoc.dma 354) 0
      ∗ semVal ((c : Thread nD τ), SemLoc.dma 353) 0
      ∗ semVal ((c : Thread nD τ), SemLoc.dma 352) 0
      ∗ semVal ((c : Thread nD τ), SemLoc.dma 351) 0
      ∗ semVal ((c : Thread nD τ), SemLoc.dma 350) 0
      ∗ semVal ((c : Thread nD τ), SemLoc.dma 349) 0
      ∗ semVal ((c : Thread nD τ), SemLoc.dma 348) 0
      ∗ semVal ((c : Thread nD τ), SemLoc.dma 347) 0
      ∗ semVal ((c : Thread nD τ), SemLoc.dma 346) 0
      ∗ semVal ((c : Thread nD τ), SemLoc.dma 345) 0
      ∗ semVal ((c : Thread nD τ), SemLoc.dma 344) 0
      ∗ semVal ((c : Thread nD τ), SemLoc.dma 343) 0
      ∗ semVal ((c : Thread nD τ), SemLoc.dma 342) 0
      ∗ semVal ((c : Thread nD τ), SemLoc.dma 341) 0
      ∗ semVal ((c : Thread nD τ), SemLoc.dma 340) 0
      ∗ semVal ((c : Thread nD τ), SemLoc.dma 339) 0
      ∗ semVal ((c : Thread nD τ), SemLoc.dma 338) 0
      ∗ semVal ((c : Thread nD τ), SemLoc.dma 337) 0
      ∗ semVal ((c : Thread nD τ), SemLoc.dma 336) 0
      ∗ semVal ((c : Thread nD τ), SemLoc.dma 335) 0
      ∗ semVal ((c : Thread nD τ), SemLoc.dma 334) 0
      ∗ semVal ((c : Thread nD τ), SemLoc.dma 333) 0
      ∗ semVal ((c : Thread nD τ), SemLoc.dma 332) 0
      ∗ semVal ((c : Thread nD τ), SemLoc.dma 331) 0
      ∗ semVal ((c : Thread nD τ), SemLoc.dma 330) 0
      ∗ semVal ((c : Thread nD τ), SemLoc.dma 329) 0
      ∗ semVal ((c : Thread nD τ), SemLoc.dma 328) 0
      ∗ semVal ((c : Thread nD τ), SemLoc.dma 327) 0
      ∗ semVal ((c : Thread nD τ), SemLoc.dma 326) 0
      ∗ semVal ((c : Thread nD τ), SemLoc.dma 325) 0
      ∗ semVal ((c : Thread nD τ), SemLoc.dma 324) 0
      ∗ semVal ((c : Thread nD τ), SemLoc.dma 323) 0
      ∗ semVal ((c : Thread nD τ), SemLoc.dma 322) 0
      ∗ semVal ((c : Thread nD τ), SemLoc.dma 321) 0
      ∗ semVal ((c : Thread nD τ), SemLoc.dma 320) 0
      ∗ semVal ((c : Thread nD τ), SemLoc.dma 319) 0
      ∗ semVal ((c : Thread nD τ), SemLoc.dma 318) 0
      ∗ semVal ((c : Thread nD τ), SemLoc.dma 317) 0
      ∗ semVal ((c : Thread nD τ), SemLoc.dma 316) 0
      ∗ semVal ((c : Thread nD τ), SemLoc.dma 315) 0
      ∗ semVal ((c : Thread nD τ), SemLoc.dma 314) 0
      ∗ semVal ((c : Thread nD τ), SemLoc.dma 313) 0
      ∗ semVal ((c : Thread nD τ), SemLoc.dma 312) 0
      ∗ semVal ((c : Thread nD τ), SemLoc.dma 311) 0
      ∗ semVal ((c : Thread nD τ), SemLoc.dma 310) 0
      ∗ semVal ((c : Thread nD τ), SemLoc.dma 309) 0
      ∗ semVal ((c : Thread nD τ), SemLoc.dma 308) 0
      ∗ semVal ((c : Thread nD τ), SemLoc.dma 307) 0
      ∗ semVal ((c : Thread nD τ), SemLoc.dma 306) 0
      ∗ semVal ((c : Thread nD τ), SemLoc.dma 305) 0
      ∗ semVal ((c : Thread nD τ), SemLoc.dma 304) 0
      ∗ semVal ((c : Thread nD τ), SemLoc.dma 303) 0
      ∗ semVal ((c : Thread nD τ), SemLoc.dma 302) 0
      ∗ semVal ((c : Thread nD τ), SemLoc.dma 301) 0
      ∗ semVal ((c : Thread nD τ), SemLoc.dma 300) 0
      ∗ semVal ((c : Thread nD τ), SemLoc.dma 299) 0
      ∗ semVal ((c : Thread nD τ), SemLoc.dma 298) 0
      ∗ semVal ((c : Thread nD τ), SemLoc.dma 297) 0
      ∗ semVal ((c : Thread nD τ), SemLoc.dma 296) 0
      ∗ semVal ((c : Thread nD τ), SemLoc.dma 295) 0
      ∗ semVal ((c : Thread nD τ), SemLoc.dma 294) 0
      ∗ semVal ((c : Thread nD τ), SemLoc.dma 293) 0
      ∗ semVal ((c : Thread nD τ), SemLoc.dma 292) 0
      ∗ semVal ((c : Thread nD τ), SemLoc.dma 291) 0
      ∗ semVal ((c : Thread nD τ), SemLoc.dma 290) 0
      ∗ semVal ((c : Thread nD τ), SemLoc.dma 289) 0
      ∗ semVal ((c : Thread nD τ), SemLoc.dma 288) 0
      ∗ semVal ((c : Thread nD τ), SemLoc.dma 287) 0
      ∗ semVal ((c : Thread nD τ), SemLoc.dma 286) 0
      ∗ semVal ((c : Thread nD τ), SemLoc.dma 285) 0
      ∗ semVal ((c : Thread nD τ), SemLoc.dma 284) 0
      ∗ semVal ((c : Thread nD τ), SemLoc.dma 283) 0
      ∗ semVal ((c : Thread nD τ), SemLoc.dma 282) 0
      ∗ semVal ((c : Thread nD τ), SemLoc.dma 281) 0
      ∗ semVal ((c : Thread nD τ), SemLoc.dma 280) 0
      ∗ semVal ((c : Thread nD τ), SemLoc.dma 279) 0
      ∗ semVal ((c : Thread nD τ), SemLoc.dma 278) 0
      ∗ semVal ((c : Thread nD τ), SemLoc.dma 277) 0
      ∗ semVal ((c : Thread nD τ), SemLoc.dma 276) 0
      ∗ semVal ((c : Thread nD τ), SemLoc.dma 275) 0
      ∗ semVal ((c : Thread nD τ), SemLoc.dma 274) 0
      ∗ semVal ((c : Thread nD τ), SemLoc.dma 273) 0
      ∗ semVal ((c : Thread nD τ), SemLoc.dma 272) 0
      ∗ semVal ((c : Thread nD τ), SemLoc.dma 271) 0
      ∗ semVal ((c : Thread nD τ), SemLoc.dma 270) 0
      ∗ semVal ((c : Thread nD τ), SemLoc.dma 269) 0
      ∗ semVal ((c : Thread nD τ), SemLoc.dma 268) 0
      ∗ semVal ((c : Thread nD τ), SemLoc.dma 267) 0
      ∗ semVal ((c : Thread nD τ), SemLoc.dma 266) 0
      ∗ emp)) : sProp 𝕄) ⊢ semsZero (F := F) c :=
  (Entails.of_eq (sep_congr_eq (sepL_reverse (F := F) [semVal ((c : Thread nD τ), SemLoc.dma 10) 0,
      semVal ((c : Thread nD τ), SemLoc.dma 11) 0,
      semVal ((c : Thread nD τ), SemLoc.dma 12) 0,
      semVal ((c : Thread nD τ), SemLoc.dma 13) 0,
      semVal ((c : Thread nD τ), SemLoc.dma 14) 0,
      semVal ((c : Thread nD τ), SemLoc.dma 15) 0,
      semVal ((c : Thread nD τ), SemLoc.dma 16) 0,
      semVal ((c : Thread nD τ), SemLoc.dma 17) 0,
      semVal ((c : Thread nD τ), SemLoc.dma 18) 0,
      semVal ((c : Thread nD τ), SemLoc.dma 19) 0,
      semVal ((c : Thread nD τ), SemLoc.dma 20) 0,
      semVal ((c : Thread nD τ), SemLoc.dma 21) 0,
      semVal ((c : Thread nD τ), SemLoc.dma 22) 0,
      semVal ((c : Thread nD τ), SemLoc.dma 23) 0,
      semVal ((c : Thread nD τ), SemLoc.dma 24) 0,
      semVal ((c : Thread nD τ), SemLoc.dma 25) 0,
      semVal ((c : Thread nD τ), SemLoc.dma 26) 0,
      semVal ((c : Thread nD τ), SemLoc.dma 27) 0,
      semVal ((c : Thread nD τ), SemLoc.dma 28) 0,
      semVal ((c : Thread nD τ), SemLoc.dma 29) 0,
      semVal ((c : Thread nD τ), SemLoc.dma 30) 0,
      semVal ((c : Thread nD τ), SemLoc.dma 31) 0,
      semVal ((c : Thread nD τ), SemLoc.dma 32) 0,
      semVal ((c : Thread nD τ), SemLoc.dma 33) 0,
      semVal ((c : Thread nD τ), SemLoc.dma 34) 0,
      semVal ((c : Thread nD τ), SemLoc.dma 35) 0,
      semVal ((c : Thread nD τ), SemLoc.dma 36) 0,
      semVal ((c : Thread nD τ), SemLoc.dma 37) 0,
      semVal ((c : Thread nD τ), SemLoc.dma 38) 0,
      semVal ((c : Thread nD τ), SemLoc.dma 39) 0,
      semVal ((c : Thread nD τ), SemLoc.dma 40) 0,
      semVal ((c : Thread nD τ), SemLoc.dma 41) 0,
      semVal ((c : Thread nD τ), SemLoc.dma 42) 0,
      semVal ((c : Thread nD τ), SemLoc.dma 43) 0,
      semVal ((c : Thread nD τ), SemLoc.dma 44) 0,
      semVal ((c : Thread nD τ), SemLoc.dma 45) 0,
      semVal ((c : Thread nD τ), SemLoc.dma 46) 0,
      semVal ((c : Thread nD τ), SemLoc.dma 47) 0,
      semVal ((c : Thread nD τ), SemLoc.dma 48) 0,
      semVal ((c : Thread nD τ), SemLoc.dma 49) 0,
      semVal ((c : Thread nD τ), SemLoc.dma 50) 0,
      semVal ((c : Thread nD τ), SemLoc.dma 51) 0,
      semVal ((c : Thread nD τ), SemLoc.dma 52) 0,
      semVal ((c : Thread nD τ), SemLoc.dma 53) 0,
      semVal ((c : Thread nD τ), SemLoc.dma 54) 0,
      semVal ((c : Thread nD τ), SemLoc.dma 55) 0,
      semVal ((c : Thread nD τ), SemLoc.dma 56) 0,
      semVal ((c : Thread nD τ), SemLoc.dma 57) 0,
      semVal ((c : Thread nD τ), SemLoc.dma 58) 0,
      semVal ((c : Thread nD τ), SemLoc.dma 59) 0,
      semVal ((c : Thread nD τ), SemLoc.dma 60) 0,
      semVal ((c : Thread nD τ), SemLoc.dma 61) 0,
      semVal ((c : Thread nD τ), SemLoc.dma 62) 0,
      semVal ((c : Thread nD τ), SemLoc.dma 63) 0,
      semVal ((c : Thread nD τ), SemLoc.dma 64) 0,
      semVal ((c : Thread nD τ), SemLoc.dma 65) 0,
      semVal ((c : Thread nD τ), SemLoc.dma 66) 0,
      semVal ((c : Thread nD τ), SemLoc.dma 67) 0,
      semVal ((c : Thread nD τ), SemLoc.dma 68) 0,
      semVal ((c : Thread nD τ), SemLoc.dma 69) 0,
      semVal ((c : Thread nD τ), SemLoc.dma 70) 0,
      semVal ((c : Thread nD τ), SemLoc.dma 71) 0,
      semVal ((c : Thread nD τ), SemLoc.dma 72) 0,
      semVal ((c : Thread nD τ), SemLoc.dma 73) 0,
      semVal ((c : Thread nD τ), SemLoc.dma 74) 0,
      semVal ((c : Thread nD τ), SemLoc.dma 75) 0,
      semVal ((c : Thread nD τ), SemLoc.dma 76) 0,
      semVal ((c : Thread nD τ), SemLoc.dma 77) 0,
      semVal ((c : Thread nD τ), SemLoc.dma 78) 0,
      semVal ((c : Thread nD τ), SemLoc.dma 79) 0,
      semVal ((c : Thread nD τ), SemLoc.dma 80) 0,
      semVal ((c : Thread nD τ), SemLoc.dma 81) 0,
      semVal ((c : Thread nD τ), SemLoc.dma 82) 0,
      semVal ((c : Thread nD τ), SemLoc.dma 83) 0,
      semVal ((c : Thread nD τ), SemLoc.dma 84) 0,
      semVal ((c : Thread nD τ), SemLoc.dma 85) 0,
      semVal ((c : Thread nD τ), SemLoc.dma 86) 0,
      semVal ((c : Thread nD τ), SemLoc.dma 87) 0,
      semVal ((c : Thread nD τ), SemLoc.dma 88) 0,
      semVal ((c : Thread nD τ), SemLoc.dma 89) 0,
      semVal ((c : Thread nD τ), SemLoc.dma 90) 0,
      semVal ((c : Thread nD τ), SemLoc.dma 91) 0,
      semVal ((c : Thread nD τ), SemLoc.dma 92) 0,
      semVal ((c : Thread nD τ), SemLoc.dma 93) 0,
      semVal ((c : Thread nD τ), SemLoc.dma 94) 0,
      semVal ((c : Thread nD τ), SemLoc.dma 95) 0,
      semVal ((c : Thread nD τ), SemLoc.dma 96) 0,
      semVal ((c : Thread nD τ), SemLoc.dma 97) 0,
      semVal ((c : Thread nD τ), SemLoc.dma 98) 0,
      semVal ((c : Thread nD τ), SemLoc.dma 99) 0,
      semVal ((c : Thread nD τ), SemLoc.dma 100) 0,
      semVal ((c : Thread nD τ), SemLoc.dma 101) 0,
      semVal ((c : Thread nD τ), SemLoc.dma 102) 0,
      semVal ((c : Thread nD τ), SemLoc.dma 103) 0,
      semVal ((c : Thread nD τ), SemLoc.dma 104) 0,
      semVal ((c : Thread nD τ), SemLoc.dma 105) 0,
      semVal ((c : Thread nD τ), SemLoc.dma 106) 0,
      semVal ((c : Thread nD τ), SemLoc.dma 107) 0,
      semVal ((c : Thread nD τ), SemLoc.dma 108) 0,
      semVal ((c : Thread nD τ), SemLoc.dma 109) 0,
      semVal ((c : Thread nD τ), SemLoc.dma 110) 0,
      semVal ((c : Thread nD τ), SemLoc.dma 111) 0,
      semVal ((c : Thread nD τ), SemLoc.dma 112) 0,
      semVal ((c : Thread nD τ), SemLoc.dma 113) 0,
      semVal ((c : Thread nD τ), SemLoc.dma 114) 0,
      semVal ((c : Thread nD τ), SemLoc.dma 115) 0,
      semVal ((c : Thread nD τ), SemLoc.dma 116) 0,
      semVal ((c : Thread nD τ), SemLoc.dma 117) 0,
      semVal ((c : Thread nD τ), SemLoc.dma 118) 0,
      semVal ((c : Thread nD τ), SemLoc.dma 119) 0,
      semVal ((c : Thread nD τ), SemLoc.dma 120) 0,
      semVal ((c : Thread nD τ), SemLoc.dma 121) 0,
      semVal ((c : Thread nD τ), SemLoc.dma 122) 0,
      semVal ((c : Thread nD τ), SemLoc.dma 123) 0,
      semVal ((c : Thread nD τ), SemLoc.dma 124) 0,
      semVal ((c : Thread nD τ), SemLoc.dma 125) 0,
      semVal ((c : Thread nD τ), SemLoc.dma 126) 0,
      semVal ((c : Thread nD τ), SemLoc.dma 127) 0,
      semVal ((c : Thread nD τ), SemLoc.dma 128) 0,
      semVal ((c : Thread nD τ), SemLoc.dma 129) 0,
      semVal ((c : Thread nD τ), SemLoc.dma 130) 0,
      semVal ((c : Thread nD τ), SemLoc.dma 131) 0,
      semVal ((c : Thread nD τ), SemLoc.dma 132) 0,
      semVal ((c : Thread nD τ), SemLoc.dma 133) 0,
      semVal ((c : Thread nD τ), SemLoc.dma 134) 0,
      semVal ((c : Thread nD τ), SemLoc.dma 135) 0,
      semVal ((c : Thread nD τ), SemLoc.dma 136) 0,
      semVal ((c : Thread nD τ), SemLoc.dma 137) 0]) (sep_congr_eq (sepL_reverse (F := F) [semVal ((c : Thread nD τ), SemLoc.dma 138) 0,
      semVal ((c : Thread nD τ), SemLoc.dma 139) 0,
      semVal ((c : Thread nD τ), SemLoc.dma 140) 0,
      semVal ((c : Thread nD τ), SemLoc.dma 141) 0,
      semVal ((c : Thread nD τ), SemLoc.dma 142) 0,
      semVal ((c : Thread nD τ), SemLoc.dma 143) 0,
      semVal ((c : Thread nD τ), SemLoc.dma 144) 0,
      semVal ((c : Thread nD τ), SemLoc.dma 145) 0,
      semVal ((c : Thread nD τ), SemLoc.dma 146) 0,
      semVal ((c : Thread nD τ), SemLoc.dma 147) 0,
      semVal ((c : Thread nD τ), SemLoc.dma 148) 0,
      semVal ((c : Thread nD τ), SemLoc.dma 149) 0,
      semVal ((c : Thread nD τ), SemLoc.dma 150) 0,
      semVal ((c : Thread nD τ), SemLoc.dma 151) 0,
      semVal ((c : Thread nD τ), SemLoc.dma 152) 0,
      semVal ((c : Thread nD τ), SemLoc.dma 153) 0,
      semVal ((c : Thread nD τ), SemLoc.dma 154) 0,
      semVal ((c : Thread nD τ), SemLoc.dma 155) 0,
      semVal ((c : Thread nD τ), SemLoc.dma 156) 0,
      semVal ((c : Thread nD τ), SemLoc.dma 157) 0,
      semVal ((c : Thread nD τ), SemLoc.dma 158) 0,
      semVal ((c : Thread nD τ), SemLoc.dma 159) 0,
      semVal ((c : Thread nD τ), SemLoc.dma 160) 0,
      semVal ((c : Thread nD τ), SemLoc.dma 161) 0,
      semVal ((c : Thread nD τ), SemLoc.dma 162) 0,
      semVal ((c : Thread nD τ), SemLoc.dma 163) 0,
      semVal ((c : Thread nD τ), SemLoc.dma 164) 0,
      semVal ((c : Thread nD τ), SemLoc.dma 165) 0,
      semVal ((c : Thread nD τ), SemLoc.dma 166) 0,
      semVal ((c : Thread nD τ), SemLoc.dma 167) 0,
      semVal ((c : Thread nD τ), SemLoc.dma 168) 0,
      semVal ((c : Thread nD τ), SemLoc.dma 169) 0,
      semVal ((c : Thread nD τ), SemLoc.dma 170) 0,
      semVal ((c : Thread nD τ), SemLoc.dma 171) 0,
      semVal ((c : Thread nD τ), SemLoc.dma 172) 0,
      semVal ((c : Thread nD τ), SemLoc.dma 173) 0,
      semVal ((c : Thread nD τ), SemLoc.dma 174) 0,
      semVal ((c : Thread nD τ), SemLoc.dma 175) 0,
      semVal ((c : Thread nD τ), SemLoc.dma 176) 0,
      semVal ((c : Thread nD τ), SemLoc.dma 177) 0,
      semVal ((c : Thread nD τ), SemLoc.dma 178) 0,
      semVal ((c : Thread nD τ), SemLoc.dma 179) 0,
      semVal ((c : Thread nD τ), SemLoc.dma 180) 0,
      semVal ((c : Thread nD τ), SemLoc.dma 181) 0,
      semVal ((c : Thread nD τ), SemLoc.dma 182) 0,
      semVal ((c : Thread nD τ), SemLoc.dma 183) 0,
      semVal ((c : Thread nD τ), SemLoc.dma 184) 0,
      semVal ((c : Thread nD τ), SemLoc.dma 185) 0,
      semVal ((c : Thread nD τ), SemLoc.dma 186) 0,
      semVal ((c : Thread nD τ), SemLoc.dma 187) 0,
      semVal ((c : Thread nD τ), SemLoc.dma 188) 0,
      semVal ((c : Thread nD τ), SemLoc.dma 189) 0,
      semVal ((c : Thread nD τ), SemLoc.dma 190) 0,
      semVal ((c : Thread nD τ), SemLoc.dma 191) 0,
      semVal ((c : Thread nD τ), SemLoc.dma 192) 0,
      semVal ((c : Thread nD τ), SemLoc.dma 193) 0,
      semVal ((c : Thread nD τ), SemLoc.dma 194) 0,
      semVal ((c : Thread nD τ), SemLoc.dma 195) 0,
      semVal ((c : Thread nD τ), SemLoc.dma 196) 0,
      semVal ((c : Thread nD τ), SemLoc.dma 197) 0,
      semVal ((c : Thread nD τ), SemLoc.dma 198) 0,
      semVal ((c : Thread nD τ), SemLoc.dma 199) 0,
      semVal ((c : Thread nD τ), SemLoc.dma 200) 0,
      semVal ((c : Thread nD τ), SemLoc.dma 201) 0,
      semVal ((c : Thread nD τ), SemLoc.dma 202) 0,
      semVal ((c : Thread nD τ), SemLoc.dma 203) 0,
      semVal ((c : Thread nD τ), SemLoc.dma 204) 0,
      semVal ((c : Thread nD τ), SemLoc.dma 205) 0,
      semVal ((c : Thread nD τ), SemLoc.dma 206) 0,
      semVal ((c : Thread nD τ), SemLoc.dma 207) 0,
      semVal ((c : Thread nD τ), SemLoc.dma 208) 0,
      semVal ((c : Thread nD τ), SemLoc.dma 209) 0,
      semVal ((c : Thread nD τ), SemLoc.dma 210) 0,
      semVal ((c : Thread nD τ), SemLoc.dma 211) 0,
      semVal ((c : Thread nD τ), SemLoc.dma 212) 0,
      semVal ((c : Thread nD τ), SemLoc.dma 213) 0,
      semVal ((c : Thread nD τ), SemLoc.dma 214) 0,
      semVal ((c : Thread nD τ), SemLoc.dma 215) 0,
      semVal ((c : Thread nD τ), SemLoc.dma 216) 0,
      semVal ((c : Thread nD τ), SemLoc.dma 217) 0,
      semVal ((c : Thread nD τ), SemLoc.dma 218) 0,
      semVal ((c : Thread nD τ), SemLoc.dma 219) 0,
      semVal ((c : Thread nD τ), SemLoc.dma 220) 0,
      semVal ((c : Thread nD τ), SemLoc.dma 221) 0,
      semVal ((c : Thread nD τ), SemLoc.dma 222) 0,
      semVal ((c : Thread nD τ), SemLoc.dma 223) 0,
      semVal ((c : Thread nD τ), SemLoc.dma 224) 0,
      semVal ((c : Thread nD τ), SemLoc.dma 225) 0,
      semVal ((c : Thread nD τ), SemLoc.dma 226) 0,
      semVal ((c : Thread nD τ), SemLoc.dma 227) 0,
      semVal ((c : Thread nD τ), SemLoc.dma 228) 0,
      semVal ((c : Thread nD τ), SemLoc.dma 229) 0,
      semVal ((c : Thread nD τ), SemLoc.dma 230) 0,
      semVal ((c : Thread nD τ), SemLoc.dma 231) 0,
      semVal ((c : Thread nD τ), SemLoc.dma 232) 0,
      semVal ((c : Thread nD τ), SemLoc.dma 233) 0,
      semVal ((c : Thread nD τ), SemLoc.dma 234) 0,
      semVal ((c : Thread nD τ), SemLoc.dma 235) 0,
      semVal ((c : Thread nD τ), SemLoc.dma 236) 0,
      semVal ((c : Thread nD τ), SemLoc.dma 237) 0,
      semVal ((c : Thread nD τ), SemLoc.dma 238) 0,
      semVal ((c : Thread nD τ), SemLoc.dma 239) 0,
      semVal ((c : Thread nD τ), SemLoc.dma 240) 0,
      semVal ((c : Thread nD τ), SemLoc.dma 241) 0,
      semVal ((c : Thread nD τ), SemLoc.dma 242) 0,
      semVal ((c : Thread nD τ), SemLoc.dma 243) 0,
      semVal ((c : Thread nD τ), SemLoc.dma 244) 0,
      semVal ((c : Thread nD τ), SemLoc.dma 245) 0,
      semVal ((c : Thread nD τ), SemLoc.dma 246) 0,
      semVal ((c : Thread nD τ), SemLoc.dma 247) 0,
      semVal ((c : Thread nD τ), SemLoc.dma 248) 0,
      semVal ((c : Thread nD τ), SemLoc.dma 249) 0,
      semVal ((c : Thread nD τ), SemLoc.dma 250) 0,
      semVal ((c : Thread nD τ), SemLoc.dma 251) 0,
      semVal ((c : Thread nD τ), SemLoc.dma 252) 0,
      semVal ((c : Thread nD τ), SemLoc.dma 253) 0,
      semVal ((c : Thread nD τ), SemLoc.dma 254) 0,
      semVal ((c : Thread nD τ), SemLoc.dma 255) 0,
      semVal ((c : Thread nD τ), SemLoc.dma 256) 0,
      semVal ((c : Thread nD τ), SemLoc.dma 257) 0,
      semVal ((c : Thread nD τ), SemLoc.dma 258) 0,
      semVal ((c : Thread nD τ), SemLoc.dma 259) 0,
      semVal ((c : Thread nD τ), SemLoc.dma 260) 0,
      semVal ((c : Thread nD τ), SemLoc.dma 261) 0,
      semVal ((c : Thread nD τ), SemLoc.dma 262) 0,
      semVal ((c : Thread nD τ), SemLoc.dma 263) 0,
      semVal ((c : Thread nD τ), SemLoc.dma 264) 0,
      semVal ((c : Thread nD τ), SemLoc.dma 265) 0]) (sepL_reverse (F := F) [semVal ((c : Thread nD τ), SemLoc.dma 266) 0,
      semVal ((c : Thread nD τ), SemLoc.dma 267) 0,
      semVal ((c : Thread nD τ), SemLoc.dma 268) 0,
      semVal ((c : Thread nD τ), SemLoc.dma 269) 0,
      semVal ((c : Thread nD τ), SemLoc.dma 270) 0,
      semVal ((c : Thread nD τ), SemLoc.dma 271) 0,
      semVal ((c : Thread nD τ), SemLoc.dma 272) 0,
      semVal ((c : Thread nD τ), SemLoc.dma 273) 0,
      semVal ((c : Thread nD τ), SemLoc.dma 274) 0,
      semVal ((c : Thread nD τ), SemLoc.dma 275) 0,
      semVal ((c : Thread nD τ), SemLoc.dma 276) 0,
      semVal ((c : Thread nD τ), SemLoc.dma 277) 0,
      semVal ((c : Thread nD τ), SemLoc.dma 278) 0,
      semVal ((c : Thread nD τ), SemLoc.dma 279) 0,
      semVal ((c : Thread nD τ), SemLoc.dma 280) 0,
      semVal ((c : Thread nD τ), SemLoc.dma 281) 0,
      semVal ((c : Thread nD τ), SemLoc.dma 282) 0,
      semVal ((c : Thread nD τ), SemLoc.dma 283) 0,
      semVal ((c : Thread nD τ), SemLoc.dma 284) 0,
      semVal ((c : Thread nD τ), SemLoc.dma 285) 0,
      semVal ((c : Thread nD τ), SemLoc.dma 286) 0,
      semVal ((c : Thread nD τ), SemLoc.dma 287) 0,
      semVal ((c : Thread nD τ), SemLoc.dma 288) 0,
      semVal ((c : Thread nD τ), SemLoc.dma 289) 0,
      semVal ((c : Thread nD τ), SemLoc.dma 290) 0,
      semVal ((c : Thread nD τ), SemLoc.dma 291) 0,
      semVal ((c : Thread nD τ), SemLoc.dma 292) 0,
      semVal ((c : Thread nD τ), SemLoc.dma 293) 0,
      semVal ((c : Thread nD τ), SemLoc.dma 294) 0,
      semVal ((c : Thread nD τ), SemLoc.dma 295) 0,
      semVal ((c : Thread nD τ), SemLoc.dma 296) 0,
      semVal ((c : Thread nD τ), SemLoc.dma 297) 0,
      semVal ((c : Thread nD τ), SemLoc.dma 298) 0,
      semVal ((c : Thread nD τ), SemLoc.dma 299) 0,
      semVal ((c : Thread nD τ), SemLoc.dma 300) 0,
      semVal ((c : Thread nD τ), SemLoc.dma 301) 0,
      semVal ((c : Thread nD τ), SemLoc.dma 302) 0,
      semVal ((c : Thread nD τ), SemLoc.dma 303) 0,
      semVal ((c : Thread nD τ), SemLoc.dma 304) 0,
      semVal ((c : Thread nD τ), SemLoc.dma 305) 0,
      semVal ((c : Thread nD τ), SemLoc.dma 306) 0,
      semVal ((c : Thread nD τ), SemLoc.dma 307) 0,
      semVal ((c : Thread nD τ), SemLoc.dma 308) 0,
      semVal ((c : Thread nD τ), SemLoc.dma 309) 0,
      semVal ((c : Thread nD τ), SemLoc.dma 310) 0,
      semVal ((c : Thread nD τ), SemLoc.dma 311) 0,
      semVal ((c : Thread nD τ), SemLoc.dma 312) 0,
      semVal ((c : Thread nD τ), SemLoc.dma 313) 0,
      semVal ((c : Thread nD τ), SemLoc.dma 314) 0,
      semVal ((c : Thread nD τ), SemLoc.dma 315) 0,
      semVal ((c : Thread nD τ), SemLoc.dma 316) 0,
      semVal ((c : Thread nD τ), SemLoc.dma 317) 0,
      semVal ((c : Thread nD τ), SemLoc.dma 318) 0,
      semVal ((c : Thread nD τ), SemLoc.dma 319) 0,
      semVal ((c : Thread nD τ), SemLoc.dma 320) 0,
      semVal ((c : Thread nD τ), SemLoc.dma 321) 0,
      semVal ((c : Thread nD τ), SemLoc.dma 322) 0,
      semVal ((c : Thread nD τ), SemLoc.dma 323) 0,
      semVal ((c : Thread nD τ), SemLoc.dma 324) 0,
      semVal ((c : Thread nD τ), SemLoc.dma 325) 0,
      semVal ((c : Thread nD τ), SemLoc.dma 326) 0,
      semVal ((c : Thread nD τ), SemLoc.dma 327) 0,
      semVal ((c : Thread nD τ), SemLoc.dma 328) 0,
      semVal ((c : Thread nD τ), SemLoc.dma 329) 0,
      semVal ((c : Thread nD τ), SemLoc.dma 330) 0,
      semVal ((c : Thread nD τ), SemLoc.dma 331) 0,
      semVal ((c : Thread nD τ), SemLoc.dma 332) 0,
      semVal ((c : Thread nD τ), SemLoc.dma 333) 0,
      semVal ((c : Thread nD τ), SemLoc.dma 334) 0,
      semVal ((c : Thread nD τ), SemLoc.dma 335) 0,
      semVal ((c : Thread nD τ), SemLoc.dma 336) 0,
      semVal ((c : Thread nD τ), SemLoc.dma 337) 0,
      semVal ((c : Thread nD τ), SemLoc.dma 338) 0,
      semVal ((c : Thread nD τ), SemLoc.dma 339) 0,
      semVal ((c : Thread nD τ), SemLoc.dma 340) 0,
      semVal ((c : Thread nD τ), SemLoc.dma 341) 0,
      semVal ((c : Thread nD τ), SemLoc.dma 342) 0,
      semVal ((c : Thread nD τ), SemLoc.dma 343) 0,
      semVal ((c : Thread nD τ), SemLoc.dma 344) 0,
      semVal ((c : Thread nD τ), SemLoc.dma 345) 0,
      semVal ((c : Thread nD τ), SemLoc.dma 346) 0,
      semVal ((c : Thread nD τ), SemLoc.dma 347) 0,
      semVal ((c : Thread nD τ), SemLoc.dma 348) 0,
      semVal ((c : Thread nD τ), SemLoc.dma 349) 0,
      semVal ((c : Thread nD τ), SemLoc.dma 350) 0,
      semVal ((c : Thread nD τ), SemLoc.dma 351) 0,
      semVal ((c : Thread nD τ), SemLoc.dma 352) 0,
      semVal ((c : Thread nD τ), SemLoc.dma 353) 0,
      semVal ((c : Thread nD τ), SemLoc.dma 354) 0,
      semVal ((c : Thread nD τ), SemLoc.dma 355) 0,
      semVal ((c : Thread nD τ), SemLoc.dma 356) 0,
      semVal ((c : Thread nD τ), SemLoc.dma 357) 0,
      semVal ((c : Thread nD τ), SemLoc.dma 358) 0,
      semVal ((c : Thread nD τ), SemLoc.dma 359) 0,
      semVal ((c : Thread nD τ), SemLoc.dma 360) 0,
      semVal ((c : Thread nD τ), SemLoc.dma 361) 0,
      semVal ((c : Thread nD τ), SemLoc.dma 362) 0,
      semVal ((c : Thread nD τ), SemLoc.dma 363) 0,
      semVal ((c : Thread nD τ), SemLoc.dma 364) 0,
      semVal ((c : Thread nD τ), SemLoc.dma 365) 0,
      semVal ((c : Thread nD τ), SemLoc.dma 366) 0,
      semVal ((c : Thread nD τ), SemLoc.dma 367) 0,
      semVal ((c : Thread nD τ), SemLoc.dma 368) 0,
      semVal ((c : Thread nD τ), SemLoc.dma 369) 0,
      semVal ((c : Thread nD τ), SemLoc.dma 370) 0,
      semVal ((c : Thread nD τ), SemLoc.dma 371) 0,
      semVal ((c : Thread nD τ), SemLoc.dma 372) 0,
      semVal ((c : Thread nD τ), SemLoc.dma 373) 0,
      semVal ((c : Thread nD τ), SemLoc.dma 374) 0,
      semVal ((c : Thread nD τ), SemLoc.dma 375) 0,
      semVal ((c : Thread nD τ), SemLoc.dma 376) 0,
      semVal ((c : Thread nD τ), SemLoc.dma 377) 0,
      semVal ((c : Thread nD τ), SemLoc.dma 378) 0,
      semVal ((c : Thread nD τ), SemLoc.dma 379) 0,
      semVal ((c : Thread nD τ), SemLoc.dma 380) 0,
      semVal ((c : Thread nD τ), SemLoc.dma 381) 0,
      semVal ((c : Thread nD τ), SemLoc.dma 382) 0,
      semVal ((c : Thread nD τ), SemLoc.dma 383) 0,
      semVal ((c : Thread nD τ), SemLoc.dma 384) 0,
      semVal ((c : Thread nD τ), SemLoc.dma 385) 0,
      semVal ((c : Thread nD τ), SemLoc.dma 386) 0,
      semVal ((c : Thread nD τ), SemLoc.dma 387) 0,
      semVal ((c : Thread nD τ), SemLoc.dma 388) 0,
      semVal ((c : Thread nD τ), SemLoc.dma 389) 0,
      semVal ((c : Thread nD τ), SemLoc.dma 390) 0,
      semVal ((c : Thread nD τ), SemLoc.dma 391) 0,
      semVal ((c : Thread nD τ), SemLoc.dma 392) 0,
      semVal ((c : Thread nD τ), SemLoc.dma 393) 0])))).trans
    (Entails.of_eq (cells_asc_eq (F := F) c).symm)

set_option maxHeartbeats 16000000 in
/-- The first data table's remainder, its ten lowest tokens and tokens 137 … 10 highest first are the table held whole. -/
theorem tokU_down (c : Dev nD) (f : BufOf (F := F) c hbM0) :
    (iprop((hbM0.view.loc (c : Thread nD τ) ↦{Transfers.shareDrop fullShare 138} f)
      ∗ bigSep (Finset.range 10) (tokAt f)
      ∗ ((hbM0.view.loc (c : Thread nD τ) ↦{Transfers.shareTokN fullShare 137} f)
      ∗ (hbM0.view.loc (c : Thread nD τ) ↦{Transfers.shareTokN fullShare 136} f)
      ∗ (hbM0.view.loc (c : Thread nD τ) ↦{Transfers.shareTokN fullShare 135} f)
      ∗ (hbM0.view.loc (c : Thread nD τ) ↦{Transfers.shareTokN fullShare 134} f)
      ∗ (hbM0.view.loc (c : Thread nD τ) ↦{Transfers.shareTokN fullShare 133} f)
      ∗ (hbM0.view.loc (c : Thread nD τ) ↦{Transfers.shareTokN fullShare 132} f)
      ∗ (hbM0.view.loc (c : Thread nD τ) ↦{Transfers.shareTokN fullShare 131} f)
      ∗ (hbM0.view.loc (c : Thread nD τ) ↦{Transfers.shareTokN fullShare 130} f)
      ∗ (hbM0.view.loc (c : Thread nD τ) ↦{Transfers.shareTokN fullShare 129} f)
      ∗ (hbM0.view.loc (c : Thread nD τ) ↦{Transfers.shareTokN fullShare 128} f)
      ∗ (hbM0.view.loc (c : Thread nD τ) ↦{Transfers.shareTokN fullShare 127} f)
      ∗ (hbM0.view.loc (c : Thread nD τ) ↦{Transfers.shareTokN fullShare 126} f)
      ∗ (hbM0.view.loc (c : Thread nD τ) ↦{Transfers.shareTokN fullShare 125} f)
      ∗ (hbM0.view.loc (c : Thread nD τ) ↦{Transfers.shareTokN fullShare 124} f)
      ∗ (hbM0.view.loc (c : Thread nD τ) ↦{Transfers.shareTokN fullShare 123} f)
      ∗ (hbM0.view.loc (c : Thread nD τ) ↦{Transfers.shareTokN fullShare 122} f)
      ∗ (hbM0.view.loc (c : Thread nD τ) ↦{Transfers.shareTokN fullShare 121} f)
      ∗ (hbM0.view.loc (c : Thread nD τ) ↦{Transfers.shareTokN fullShare 120} f)
      ∗ (hbM0.view.loc (c : Thread nD τ) ↦{Transfers.shareTokN fullShare 119} f)
      ∗ (hbM0.view.loc (c : Thread nD τ) ↦{Transfers.shareTokN fullShare 118} f)
      ∗ (hbM0.view.loc (c : Thread nD τ) ↦{Transfers.shareTokN fullShare 117} f)
      ∗ (hbM0.view.loc (c : Thread nD τ) ↦{Transfers.shareTokN fullShare 116} f)
      ∗ (hbM0.view.loc (c : Thread nD τ) ↦{Transfers.shareTokN fullShare 115} f)
      ∗ (hbM0.view.loc (c : Thread nD τ) ↦{Transfers.shareTokN fullShare 114} f)
      ∗ (hbM0.view.loc (c : Thread nD τ) ↦{Transfers.shareTokN fullShare 113} f)
      ∗ (hbM0.view.loc (c : Thread nD τ) ↦{Transfers.shareTokN fullShare 112} f)
      ∗ (hbM0.view.loc (c : Thread nD τ) ↦{Transfers.shareTokN fullShare 111} f)
      ∗ (hbM0.view.loc (c : Thread nD τ) ↦{Transfers.shareTokN fullShare 110} f)
      ∗ (hbM0.view.loc (c : Thread nD τ) ↦{Transfers.shareTokN fullShare 109} f)
      ∗ (hbM0.view.loc (c : Thread nD τ) ↦{Transfers.shareTokN fullShare 108} f)
      ∗ (hbM0.view.loc (c : Thread nD τ) ↦{Transfers.shareTokN fullShare 107} f)
      ∗ (hbM0.view.loc (c : Thread nD τ) ↦{Transfers.shareTokN fullShare 106} f)
      ∗ (hbM0.view.loc (c : Thread nD τ) ↦{Transfers.shareTokN fullShare 105} f)
      ∗ (hbM0.view.loc (c : Thread nD τ) ↦{Transfers.shareTokN fullShare 104} f)
      ∗ (hbM0.view.loc (c : Thread nD τ) ↦{Transfers.shareTokN fullShare 103} f)
      ∗ (hbM0.view.loc (c : Thread nD τ) ↦{Transfers.shareTokN fullShare 102} f)
      ∗ (hbM0.view.loc (c : Thread nD τ) ↦{Transfers.shareTokN fullShare 101} f)
      ∗ (hbM0.view.loc (c : Thread nD τ) ↦{Transfers.shareTokN fullShare 100} f)
      ∗ (hbM0.view.loc (c : Thread nD τ) ↦{Transfers.shareTokN fullShare 99} f)
      ∗ (hbM0.view.loc (c : Thread nD τ) ↦{Transfers.shareTokN fullShare 98} f)
      ∗ (hbM0.view.loc (c : Thread nD τ) ↦{Transfers.shareTokN fullShare 97} f)
      ∗ (hbM0.view.loc (c : Thread nD τ) ↦{Transfers.shareTokN fullShare 96} f)
      ∗ (hbM0.view.loc (c : Thread nD τ) ↦{Transfers.shareTokN fullShare 95} f)
      ∗ (hbM0.view.loc (c : Thread nD τ) ↦{Transfers.shareTokN fullShare 94} f)
      ∗ (hbM0.view.loc (c : Thread nD τ) ↦{Transfers.shareTokN fullShare 93} f)
      ∗ (hbM0.view.loc (c : Thread nD τ) ↦{Transfers.shareTokN fullShare 92} f)
      ∗ (hbM0.view.loc (c : Thread nD τ) ↦{Transfers.shareTokN fullShare 91} f)
      ∗ (hbM0.view.loc (c : Thread nD τ) ↦{Transfers.shareTokN fullShare 90} f)
      ∗ (hbM0.view.loc (c : Thread nD τ) ↦{Transfers.shareTokN fullShare 89} f)
      ∗ (hbM0.view.loc (c : Thread nD τ) ↦{Transfers.shareTokN fullShare 88} f)
      ∗ (hbM0.view.loc (c : Thread nD τ) ↦{Transfers.shareTokN fullShare 87} f)
      ∗ (hbM0.view.loc (c : Thread nD τ) ↦{Transfers.shareTokN fullShare 86} f)
      ∗ (hbM0.view.loc (c : Thread nD τ) ↦{Transfers.shareTokN fullShare 85} f)
      ∗ (hbM0.view.loc (c : Thread nD τ) ↦{Transfers.shareTokN fullShare 84} f)
      ∗ (hbM0.view.loc (c : Thread nD τ) ↦{Transfers.shareTokN fullShare 83} f)
      ∗ (hbM0.view.loc (c : Thread nD τ) ↦{Transfers.shareTokN fullShare 82} f)
      ∗ (hbM0.view.loc (c : Thread nD τ) ↦{Transfers.shareTokN fullShare 81} f)
      ∗ (hbM0.view.loc (c : Thread nD τ) ↦{Transfers.shareTokN fullShare 80} f)
      ∗ (hbM0.view.loc (c : Thread nD τ) ↦{Transfers.shareTokN fullShare 79} f)
      ∗ (hbM0.view.loc (c : Thread nD τ) ↦{Transfers.shareTokN fullShare 78} f)
      ∗ (hbM0.view.loc (c : Thread nD τ) ↦{Transfers.shareTokN fullShare 77} f)
      ∗ (hbM0.view.loc (c : Thread nD τ) ↦{Transfers.shareTokN fullShare 76} f)
      ∗ (hbM0.view.loc (c : Thread nD τ) ↦{Transfers.shareTokN fullShare 75} f)
      ∗ (hbM0.view.loc (c : Thread nD τ) ↦{Transfers.shareTokN fullShare 74} f)
      ∗ (hbM0.view.loc (c : Thread nD τ) ↦{Transfers.shareTokN fullShare 73} f)
      ∗ (hbM0.view.loc (c : Thread nD τ) ↦{Transfers.shareTokN fullShare 72} f)
      ∗ (hbM0.view.loc (c : Thread nD τ) ↦{Transfers.shareTokN fullShare 71} f)
      ∗ (hbM0.view.loc (c : Thread nD τ) ↦{Transfers.shareTokN fullShare 70} f)
      ∗ (hbM0.view.loc (c : Thread nD τ) ↦{Transfers.shareTokN fullShare 69} f)
      ∗ (hbM0.view.loc (c : Thread nD τ) ↦{Transfers.shareTokN fullShare 68} f)
      ∗ (hbM0.view.loc (c : Thread nD τ) ↦{Transfers.shareTokN fullShare 67} f)
      ∗ (hbM0.view.loc (c : Thread nD τ) ↦{Transfers.shareTokN fullShare 66} f)
      ∗ (hbM0.view.loc (c : Thread nD τ) ↦{Transfers.shareTokN fullShare 65} f)
      ∗ (hbM0.view.loc (c : Thread nD τ) ↦{Transfers.shareTokN fullShare 64} f)
      ∗ (hbM0.view.loc (c : Thread nD τ) ↦{Transfers.shareTokN fullShare 63} f)
      ∗ (hbM0.view.loc (c : Thread nD τ) ↦{Transfers.shareTokN fullShare 62} f)
      ∗ (hbM0.view.loc (c : Thread nD τ) ↦{Transfers.shareTokN fullShare 61} f)
      ∗ (hbM0.view.loc (c : Thread nD τ) ↦{Transfers.shareTokN fullShare 60} f)
      ∗ (hbM0.view.loc (c : Thread nD τ) ↦{Transfers.shareTokN fullShare 59} f)
      ∗ (hbM0.view.loc (c : Thread nD τ) ↦{Transfers.shareTokN fullShare 58} f)
      ∗ (hbM0.view.loc (c : Thread nD τ) ↦{Transfers.shareTokN fullShare 57} f)
      ∗ (hbM0.view.loc (c : Thread nD τ) ↦{Transfers.shareTokN fullShare 56} f)
      ∗ (hbM0.view.loc (c : Thread nD τ) ↦{Transfers.shareTokN fullShare 55} f)
      ∗ (hbM0.view.loc (c : Thread nD τ) ↦{Transfers.shareTokN fullShare 54} f)
      ∗ (hbM0.view.loc (c : Thread nD τ) ↦{Transfers.shareTokN fullShare 53} f)
      ∗ (hbM0.view.loc (c : Thread nD τ) ↦{Transfers.shareTokN fullShare 52} f)
      ∗ (hbM0.view.loc (c : Thread nD τ) ↦{Transfers.shareTokN fullShare 51} f)
      ∗ (hbM0.view.loc (c : Thread nD τ) ↦{Transfers.shareTokN fullShare 50} f)
      ∗ (hbM0.view.loc (c : Thread nD τ) ↦{Transfers.shareTokN fullShare 49} f)
      ∗ (hbM0.view.loc (c : Thread nD τ) ↦{Transfers.shareTokN fullShare 48} f)
      ∗ (hbM0.view.loc (c : Thread nD τ) ↦{Transfers.shareTokN fullShare 47} f)
      ∗ (hbM0.view.loc (c : Thread nD τ) ↦{Transfers.shareTokN fullShare 46} f)
      ∗ (hbM0.view.loc (c : Thread nD τ) ↦{Transfers.shareTokN fullShare 45} f)
      ∗ (hbM0.view.loc (c : Thread nD τ) ↦{Transfers.shareTokN fullShare 44} f)
      ∗ (hbM0.view.loc (c : Thread nD τ) ↦{Transfers.shareTokN fullShare 43} f)
      ∗ (hbM0.view.loc (c : Thread nD τ) ↦{Transfers.shareTokN fullShare 42} f)
      ∗ (hbM0.view.loc (c : Thread nD τ) ↦{Transfers.shareTokN fullShare 41} f)
      ∗ (hbM0.view.loc (c : Thread nD τ) ↦{Transfers.shareTokN fullShare 40} f)
      ∗ (hbM0.view.loc (c : Thread nD τ) ↦{Transfers.shareTokN fullShare 39} f)
      ∗ (hbM0.view.loc (c : Thread nD τ) ↦{Transfers.shareTokN fullShare 38} f)
      ∗ (hbM0.view.loc (c : Thread nD τ) ↦{Transfers.shareTokN fullShare 37} f)
      ∗ (hbM0.view.loc (c : Thread nD τ) ↦{Transfers.shareTokN fullShare 36} f)
      ∗ (hbM0.view.loc (c : Thread nD τ) ↦{Transfers.shareTokN fullShare 35} f)
      ∗ (hbM0.view.loc (c : Thread nD τ) ↦{Transfers.shareTokN fullShare 34} f)
      ∗ (hbM0.view.loc (c : Thread nD τ) ↦{Transfers.shareTokN fullShare 33} f)
      ∗ (hbM0.view.loc (c : Thread nD τ) ↦{Transfers.shareTokN fullShare 32} f)
      ∗ (hbM0.view.loc (c : Thread nD τ) ↦{Transfers.shareTokN fullShare 31} f)
      ∗ (hbM0.view.loc (c : Thread nD τ) ↦{Transfers.shareTokN fullShare 30} f)
      ∗ (hbM0.view.loc (c : Thread nD τ) ↦{Transfers.shareTokN fullShare 29} f)
      ∗ (hbM0.view.loc (c : Thread nD τ) ↦{Transfers.shareTokN fullShare 28} f)
      ∗ (hbM0.view.loc (c : Thread nD τ) ↦{Transfers.shareTokN fullShare 27} f)
      ∗ (hbM0.view.loc (c : Thread nD τ) ↦{Transfers.shareTokN fullShare 26} f)
      ∗ (hbM0.view.loc (c : Thread nD τ) ↦{Transfers.shareTokN fullShare 25} f)
      ∗ (hbM0.view.loc (c : Thread nD τ) ↦{Transfers.shareTokN fullShare 24} f)
      ∗ (hbM0.view.loc (c : Thread nD τ) ↦{Transfers.shareTokN fullShare 23} f)
      ∗ (hbM0.view.loc (c : Thread nD τ) ↦{Transfers.shareTokN fullShare 22} f)
      ∗ (hbM0.view.loc (c : Thread nD τ) ↦{Transfers.shareTokN fullShare 21} f)
      ∗ (hbM0.view.loc (c : Thread nD τ) ↦{Transfers.shareTokN fullShare 20} f)
      ∗ (hbM0.view.loc (c : Thread nD τ) ↦{Transfers.shareTokN fullShare 19} f)
      ∗ (hbM0.view.loc (c : Thread nD τ) ↦{Transfers.shareTokN fullShare 18} f)
      ∗ (hbM0.view.loc (c : Thread nD τ) ↦{Transfers.shareTokN fullShare 17} f)
      ∗ (hbM0.view.loc (c : Thread nD τ) ↦{Transfers.shareTokN fullShare 16} f)
      ∗ (hbM0.view.loc (c : Thread nD τ) ↦{Transfers.shareTokN fullShare 15} f)
      ∗ (hbM0.view.loc (c : Thread nD τ) ↦{Transfers.shareTokN fullShare 14} f)
      ∗ (hbM0.view.loc (c : Thread nD τ) ↦{Transfers.shareTokN fullShare 13} f)
      ∗ (hbM0.view.loc (c : Thread nD τ) ↦{Transfers.shareTokN fullShare 12} f)
      ∗ (hbM0.view.loc (c : Thread nD τ) ↦{Transfers.shareTokN fullShare 11} f)
      ∗ (hbM0.view.loc (c : Thread nD τ) ↦{Transfers.shareTokN fullShare 10} f)
      ∗ emp)) : sProp 𝕄) ⊢ hbPt c hbM0 f := by
  refine (Entails.of_eq (sep_congr_eq rfl (sep_congr_eq rfl (sepL_reverse (F := F) [(hbM0.view.loc (c : Thread nD τ) ↦{Transfers.shareTokN fullShare 10} f),
      (hbM0.view.loc (c : Thread nD τ) ↦{Transfers.shareTokN fullShare 11} f),
      (hbM0.view.loc (c : Thread nD τ) ↦{Transfers.shareTokN fullShare 12} f),
      (hbM0.view.loc (c : Thread nD τ) ↦{Transfers.shareTokN fullShare 13} f),
      (hbM0.view.loc (c : Thread nD τ) ↦{Transfers.shareTokN fullShare 14} f),
      (hbM0.view.loc (c : Thread nD τ) ↦{Transfers.shareTokN fullShare 15} f),
      (hbM0.view.loc (c : Thread nD τ) ↦{Transfers.shareTokN fullShare 16} f),
      (hbM0.view.loc (c : Thread nD τ) ↦{Transfers.shareTokN fullShare 17} f),
      (hbM0.view.loc (c : Thread nD τ) ↦{Transfers.shareTokN fullShare 18} f),
      (hbM0.view.loc (c : Thread nD τ) ↦{Transfers.shareTokN fullShare 19} f),
      (hbM0.view.loc (c : Thread nD τ) ↦{Transfers.shareTokN fullShare 20} f),
      (hbM0.view.loc (c : Thread nD τ) ↦{Transfers.shareTokN fullShare 21} f),
      (hbM0.view.loc (c : Thread nD τ) ↦{Transfers.shareTokN fullShare 22} f),
      (hbM0.view.loc (c : Thread nD τ) ↦{Transfers.shareTokN fullShare 23} f),
      (hbM0.view.loc (c : Thread nD τ) ↦{Transfers.shareTokN fullShare 24} f),
      (hbM0.view.loc (c : Thread nD τ) ↦{Transfers.shareTokN fullShare 25} f),
      (hbM0.view.loc (c : Thread nD τ) ↦{Transfers.shareTokN fullShare 26} f),
      (hbM0.view.loc (c : Thread nD τ) ↦{Transfers.shareTokN fullShare 27} f),
      (hbM0.view.loc (c : Thread nD τ) ↦{Transfers.shareTokN fullShare 28} f),
      (hbM0.view.loc (c : Thread nD τ) ↦{Transfers.shareTokN fullShare 29} f),
      (hbM0.view.loc (c : Thread nD τ) ↦{Transfers.shareTokN fullShare 30} f),
      (hbM0.view.loc (c : Thread nD τ) ↦{Transfers.shareTokN fullShare 31} f),
      (hbM0.view.loc (c : Thread nD τ) ↦{Transfers.shareTokN fullShare 32} f),
      (hbM0.view.loc (c : Thread nD τ) ↦{Transfers.shareTokN fullShare 33} f),
      (hbM0.view.loc (c : Thread nD τ) ↦{Transfers.shareTokN fullShare 34} f),
      (hbM0.view.loc (c : Thread nD τ) ↦{Transfers.shareTokN fullShare 35} f),
      (hbM0.view.loc (c : Thread nD τ) ↦{Transfers.shareTokN fullShare 36} f),
      (hbM0.view.loc (c : Thread nD τ) ↦{Transfers.shareTokN fullShare 37} f),
      (hbM0.view.loc (c : Thread nD τ) ↦{Transfers.shareTokN fullShare 38} f),
      (hbM0.view.loc (c : Thread nD τ) ↦{Transfers.shareTokN fullShare 39} f),
      (hbM0.view.loc (c : Thread nD τ) ↦{Transfers.shareTokN fullShare 40} f),
      (hbM0.view.loc (c : Thread nD τ) ↦{Transfers.shareTokN fullShare 41} f),
      (hbM0.view.loc (c : Thread nD τ) ↦{Transfers.shareTokN fullShare 42} f),
      (hbM0.view.loc (c : Thread nD τ) ↦{Transfers.shareTokN fullShare 43} f),
      (hbM0.view.loc (c : Thread nD τ) ↦{Transfers.shareTokN fullShare 44} f),
      (hbM0.view.loc (c : Thread nD τ) ↦{Transfers.shareTokN fullShare 45} f),
      (hbM0.view.loc (c : Thread nD τ) ↦{Transfers.shareTokN fullShare 46} f),
      (hbM0.view.loc (c : Thread nD τ) ↦{Transfers.shareTokN fullShare 47} f),
      (hbM0.view.loc (c : Thread nD τ) ↦{Transfers.shareTokN fullShare 48} f),
      (hbM0.view.loc (c : Thread nD τ) ↦{Transfers.shareTokN fullShare 49} f),
      (hbM0.view.loc (c : Thread nD τ) ↦{Transfers.shareTokN fullShare 50} f),
      (hbM0.view.loc (c : Thread nD τ) ↦{Transfers.shareTokN fullShare 51} f),
      (hbM0.view.loc (c : Thread nD τ) ↦{Transfers.shareTokN fullShare 52} f),
      (hbM0.view.loc (c : Thread nD τ) ↦{Transfers.shareTokN fullShare 53} f),
      (hbM0.view.loc (c : Thread nD τ) ↦{Transfers.shareTokN fullShare 54} f),
      (hbM0.view.loc (c : Thread nD τ) ↦{Transfers.shareTokN fullShare 55} f),
      (hbM0.view.loc (c : Thread nD τ) ↦{Transfers.shareTokN fullShare 56} f),
      (hbM0.view.loc (c : Thread nD τ) ↦{Transfers.shareTokN fullShare 57} f),
      (hbM0.view.loc (c : Thread nD τ) ↦{Transfers.shareTokN fullShare 58} f),
      (hbM0.view.loc (c : Thread nD τ) ↦{Transfers.shareTokN fullShare 59} f),
      (hbM0.view.loc (c : Thread nD τ) ↦{Transfers.shareTokN fullShare 60} f),
      (hbM0.view.loc (c : Thread nD τ) ↦{Transfers.shareTokN fullShare 61} f),
      (hbM0.view.loc (c : Thread nD τ) ↦{Transfers.shareTokN fullShare 62} f),
      (hbM0.view.loc (c : Thread nD τ) ↦{Transfers.shareTokN fullShare 63} f),
      (hbM0.view.loc (c : Thread nD τ) ↦{Transfers.shareTokN fullShare 64} f),
      (hbM0.view.loc (c : Thread nD τ) ↦{Transfers.shareTokN fullShare 65} f),
      (hbM0.view.loc (c : Thread nD τ) ↦{Transfers.shareTokN fullShare 66} f),
      (hbM0.view.loc (c : Thread nD τ) ↦{Transfers.shareTokN fullShare 67} f),
      (hbM0.view.loc (c : Thread nD τ) ↦{Transfers.shareTokN fullShare 68} f),
      (hbM0.view.loc (c : Thread nD τ) ↦{Transfers.shareTokN fullShare 69} f),
      (hbM0.view.loc (c : Thread nD τ) ↦{Transfers.shareTokN fullShare 70} f),
      (hbM0.view.loc (c : Thread nD τ) ↦{Transfers.shareTokN fullShare 71} f),
      (hbM0.view.loc (c : Thread nD τ) ↦{Transfers.shareTokN fullShare 72} f),
      (hbM0.view.loc (c : Thread nD τ) ↦{Transfers.shareTokN fullShare 73} f),
      (hbM0.view.loc (c : Thread nD τ) ↦{Transfers.shareTokN fullShare 74} f),
      (hbM0.view.loc (c : Thread nD τ) ↦{Transfers.shareTokN fullShare 75} f),
      (hbM0.view.loc (c : Thread nD τ) ↦{Transfers.shareTokN fullShare 76} f),
      (hbM0.view.loc (c : Thread nD τ) ↦{Transfers.shareTokN fullShare 77} f),
      (hbM0.view.loc (c : Thread nD τ) ↦{Transfers.shareTokN fullShare 78} f),
      (hbM0.view.loc (c : Thread nD τ) ↦{Transfers.shareTokN fullShare 79} f),
      (hbM0.view.loc (c : Thread nD τ) ↦{Transfers.shareTokN fullShare 80} f),
      (hbM0.view.loc (c : Thread nD τ) ↦{Transfers.shareTokN fullShare 81} f),
      (hbM0.view.loc (c : Thread nD τ) ↦{Transfers.shareTokN fullShare 82} f),
      (hbM0.view.loc (c : Thread nD τ) ↦{Transfers.shareTokN fullShare 83} f),
      (hbM0.view.loc (c : Thread nD τ) ↦{Transfers.shareTokN fullShare 84} f),
      (hbM0.view.loc (c : Thread nD τ) ↦{Transfers.shareTokN fullShare 85} f),
      (hbM0.view.loc (c : Thread nD τ) ↦{Transfers.shareTokN fullShare 86} f),
      (hbM0.view.loc (c : Thread nD τ) ↦{Transfers.shareTokN fullShare 87} f),
      (hbM0.view.loc (c : Thread nD τ) ↦{Transfers.shareTokN fullShare 88} f),
      (hbM0.view.loc (c : Thread nD τ) ↦{Transfers.shareTokN fullShare 89} f),
      (hbM0.view.loc (c : Thread nD τ) ↦{Transfers.shareTokN fullShare 90} f),
      (hbM0.view.loc (c : Thread nD τ) ↦{Transfers.shareTokN fullShare 91} f),
      (hbM0.view.loc (c : Thread nD τ) ↦{Transfers.shareTokN fullShare 92} f),
      (hbM0.view.loc (c : Thread nD τ) ↦{Transfers.shareTokN fullShare 93} f),
      (hbM0.view.loc (c : Thread nD τ) ↦{Transfers.shareTokN fullShare 94} f),
      (hbM0.view.loc (c : Thread nD τ) ↦{Transfers.shareTokN fullShare 95} f),
      (hbM0.view.loc (c : Thread nD τ) ↦{Transfers.shareTokN fullShare 96} f),
      (hbM0.view.loc (c : Thread nD τ) ↦{Transfers.shareTokN fullShare 97} f),
      (hbM0.view.loc (c : Thread nD τ) ↦{Transfers.shareTokN fullShare 98} f),
      (hbM0.view.loc (c : Thread nD τ) ↦{Transfers.shareTokN fullShare 99} f),
      (hbM0.view.loc (c : Thread nD τ) ↦{Transfers.shareTokN fullShare 100} f),
      (hbM0.view.loc (c : Thread nD τ) ↦{Transfers.shareTokN fullShare 101} f),
      (hbM0.view.loc (c : Thread nD τ) ↦{Transfers.shareTokN fullShare 102} f),
      (hbM0.view.loc (c : Thread nD τ) ↦{Transfers.shareTokN fullShare 103} f),
      (hbM0.view.loc (c : Thread nD τ) ↦{Transfers.shareTokN fullShare 104} f),
      (hbM0.view.loc (c : Thread nD τ) ↦{Transfers.shareTokN fullShare 105} f),
      (hbM0.view.loc (c : Thread nD τ) ↦{Transfers.shareTokN fullShare 106} f),
      (hbM0.view.loc (c : Thread nD τ) ↦{Transfers.shareTokN fullShare 107} f),
      (hbM0.view.loc (c : Thread nD τ) ↦{Transfers.shareTokN fullShare 108} f),
      (hbM0.view.loc (c : Thread nD τ) ↦{Transfers.shareTokN fullShare 109} f),
      (hbM0.view.loc (c : Thread nD τ) ↦{Transfers.shareTokN fullShare 110} f),
      (hbM0.view.loc (c : Thread nD τ) ↦{Transfers.shareTokN fullShare 111} f),
      (hbM0.view.loc (c : Thread nD τ) ↦{Transfers.shareTokN fullShare 112} f),
      (hbM0.view.loc (c : Thread nD τ) ↦{Transfers.shareTokN fullShare 113} f),
      (hbM0.view.loc (c : Thread nD τ) ↦{Transfers.shareTokN fullShare 114} f),
      (hbM0.view.loc (c : Thread nD τ) ↦{Transfers.shareTokN fullShare 115} f),
      (hbM0.view.loc (c : Thread nD τ) ↦{Transfers.shareTokN fullShare 116} f),
      (hbM0.view.loc (c : Thread nD τ) ↦{Transfers.shareTokN fullShare 117} f),
      (hbM0.view.loc (c : Thread nD τ) ↦{Transfers.shareTokN fullShare 118} f),
      (hbM0.view.loc (c : Thread nD τ) ↦{Transfers.shareTokN fullShare 119} f),
      (hbM0.view.loc (c : Thread nD τ) ↦{Transfers.shareTokN fullShare 120} f),
      (hbM0.view.loc (c : Thread nD τ) ↦{Transfers.shareTokN fullShare 121} f),
      (hbM0.view.loc (c : Thread nD τ) ↦{Transfers.shareTokN fullShare 122} f),
      (hbM0.view.loc (c : Thread nD τ) ↦{Transfers.shareTokN fullShare 123} f),
      (hbM0.view.loc (c : Thread nD τ) ↦{Transfers.shareTokN fullShare 124} f),
      (hbM0.view.loc (c : Thread nD τ) ↦{Transfers.shareTokN fullShare 125} f),
      (hbM0.view.loc (c : Thread nD τ) ↦{Transfers.shareTokN fullShare 126} f),
      (hbM0.view.loc (c : Thread nD τ) ↦{Transfers.shareTokN fullShare 127} f),
      (hbM0.view.loc (c : Thread nD τ) ↦{Transfers.shareTokN fullShare 128} f),
      (hbM0.view.loc (c : Thread nD τ) ↦{Transfers.shareTokN fullShare 129} f),
      (hbM0.view.loc (c : Thread nD τ) ↦{Transfers.shareTokN fullShare 130} f),
      (hbM0.view.loc (c : Thread nD τ) ↦{Transfers.shareTokN fullShare 131} f),
      (hbM0.view.loc (c : Thread nD τ) ↦{Transfers.shareTokN fullShare 132} f),
      (hbM0.view.loc (c : Thread nD τ) ↦{Transfers.shareTokN fullShare 133} f),
      (hbM0.view.loc (c : Thread nD τ) ↦{Transfers.shareTokN fullShare 134} f),
      (hbM0.view.loc (c : Thread nD τ) ↦{Transfers.shareTokN fullShare 135} f),
      (hbM0.view.loc (c : Thread nD τ) ↦{Transfers.shareTokN fullShare 136} f),
      (hbM0.view.loc (c : Thread nD τ) ↦{Transfers.shareTokN fullShare 137} f)])))).trans ?_
  have h := (toks_up (F := F) (ℓ := hbM0.view.loc (c : Thread nD τ)) f 10 128).2
  simp only [chainUp, Nat.reduceAdd] at h
  simp only [sepL]
  exact h

set_option maxHeartbeats 16000000 in
/-- The second data table's remainder, its 138 lowest tokens and tokens 265 … 138 and 393 … 266, each highest first, are the
    table held whole. -/
theorem tokV_down (c : Dev nD) (f : BufOf (F := F) c hbM1) :
    (iprop((hbM1.view.loc (c : Thread nD τ) ↦{Transfers.shareDrop fullShare 394} f)
      ∗ bigSep (Finset.range 138) (tokAt f)
      ∗ ((hbM1.view.loc (c : Thread nD τ) ↦{Transfers.shareTokN fullShare 265} f)
      ∗ (hbM1.view.loc (c : Thread nD τ) ↦{Transfers.shareTokN fullShare 264} f)
      ∗ (hbM1.view.loc (c : Thread nD τ) ↦{Transfers.shareTokN fullShare 263} f)
      ∗ (hbM1.view.loc (c : Thread nD τ) ↦{Transfers.shareTokN fullShare 262} f)
      ∗ (hbM1.view.loc (c : Thread nD τ) ↦{Transfers.shareTokN fullShare 261} f)
      ∗ (hbM1.view.loc (c : Thread nD τ) ↦{Transfers.shareTokN fullShare 260} f)
      ∗ (hbM1.view.loc (c : Thread nD τ) ↦{Transfers.shareTokN fullShare 259} f)
      ∗ (hbM1.view.loc (c : Thread nD τ) ↦{Transfers.shareTokN fullShare 258} f)
      ∗ (hbM1.view.loc (c : Thread nD τ) ↦{Transfers.shareTokN fullShare 257} f)
      ∗ (hbM1.view.loc (c : Thread nD τ) ↦{Transfers.shareTokN fullShare 256} f)
      ∗ (hbM1.view.loc (c : Thread nD τ) ↦{Transfers.shareTokN fullShare 255} f)
      ∗ (hbM1.view.loc (c : Thread nD τ) ↦{Transfers.shareTokN fullShare 254} f)
      ∗ (hbM1.view.loc (c : Thread nD τ) ↦{Transfers.shareTokN fullShare 253} f)
      ∗ (hbM1.view.loc (c : Thread nD τ) ↦{Transfers.shareTokN fullShare 252} f)
      ∗ (hbM1.view.loc (c : Thread nD τ) ↦{Transfers.shareTokN fullShare 251} f)
      ∗ (hbM1.view.loc (c : Thread nD τ) ↦{Transfers.shareTokN fullShare 250} f)
      ∗ (hbM1.view.loc (c : Thread nD τ) ↦{Transfers.shareTokN fullShare 249} f)
      ∗ (hbM1.view.loc (c : Thread nD τ) ↦{Transfers.shareTokN fullShare 248} f)
      ∗ (hbM1.view.loc (c : Thread nD τ) ↦{Transfers.shareTokN fullShare 247} f)
      ∗ (hbM1.view.loc (c : Thread nD τ) ↦{Transfers.shareTokN fullShare 246} f)
      ∗ (hbM1.view.loc (c : Thread nD τ) ↦{Transfers.shareTokN fullShare 245} f)
      ∗ (hbM1.view.loc (c : Thread nD τ) ↦{Transfers.shareTokN fullShare 244} f)
      ∗ (hbM1.view.loc (c : Thread nD τ) ↦{Transfers.shareTokN fullShare 243} f)
      ∗ (hbM1.view.loc (c : Thread nD τ) ↦{Transfers.shareTokN fullShare 242} f)
      ∗ (hbM1.view.loc (c : Thread nD τ) ↦{Transfers.shareTokN fullShare 241} f)
      ∗ (hbM1.view.loc (c : Thread nD τ) ↦{Transfers.shareTokN fullShare 240} f)
      ∗ (hbM1.view.loc (c : Thread nD τ) ↦{Transfers.shareTokN fullShare 239} f)
      ∗ (hbM1.view.loc (c : Thread nD τ) ↦{Transfers.shareTokN fullShare 238} f)
      ∗ (hbM1.view.loc (c : Thread nD τ) ↦{Transfers.shareTokN fullShare 237} f)
      ∗ (hbM1.view.loc (c : Thread nD τ) ↦{Transfers.shareTokN fullShare 236} f)
      ∗ (hbM1.view.loc (c : Thread nD τ) ↦{Transfers.shareTokN fullShare 235} f)
      ∗ (hbM1.view.loc (c : Thread nD τ) ↦{Transfers.shareTokN fullShare 234} f)
      ∗ (hbM1.view.loc (c : Thread nD τ) ↦{Transfers.shareTokN fullShare 233} f)
      ∗ (hbM1.view.loc (c : Thread nD τ) ↦{Transfers.shareTokN fullShare 232} f)
      ∗ (hbM1.view.loc (c : Thread nD τ) ↦{Transfers.shareTokN fullShare 231} f)
      ∗ (hbM1.view.loc (c : Thread nD τ) ↦{Transfers.shareTokN fullShare 230} f)
      ∗ (hbM1.view.loc (c : Thread nD τ) ↦{Transfers.shareTokN fullShare 229} f)
      ∗ (hbM1.view.loc (c : Thread nD τ) ↦{Transfers.shareTokN fullShare 228} f)
      ∗ (hbM1.view.loc (c : Thread nD τ) ↦{Transfers.shareTokN fullShare 227} f)
      ∗ (hbM1.view.loc (c : Thread nD τ) ↦{Transfers.shareTokN fullShare 226} f)
      ∗ (hbM1.view.loc (c : Thread nD τ) ↦{Transfers.shareTokN fullShare 225} f)
      ∗ (hbM1.view.loc (c : Thread nD τ) ↦{Transfers.shareTokN fullShare 224} f)
      ∗ (hbM1.view.loc (c : Thread nD τ) ↦{Transfers.shareTokN fullShare 223} f)
      ∗ (hbM1.view.loc (c : Thread nD τ) ↦{Transfers.shareTokN fullShare 222} f)
      ∗ (hbM1.view.loc (c : Thread nD τ) ↦{Transfers.shareTokN fullShare 221} f)
      ∗ (hbM1.view.loc (c : Thread nD τ) ↦{Transfers.shareTokN fullShare 220} f)
      ∗ (hbM1.view.loc (c : Thread nD τ) ↦{Transfers.shareTokN fullShare 219} f)
      ∗ (hbM1.view.loc (c : Thread nD τ) ↦{Transfers.shareTokN fullShare 218} f)
      ∗ (hbM1.view.loc (c : Thread nD τ) ↦{Transfers.shareTokN fullShare 217} f)
      ∗ (hbM1.view.loc (c : Thread nD τ) ↦{Transfers.shareTokN fullShare 216} f)
      ∗ (hbM1.view.loc (c : Thread nD τ) ↦{Transfers.shareTokN fullShare 215} f)
      ∗ (hbM1.view.loc (c : Thread nD τ) ↦{Transfers.shareTokN fullShare 214} f)
      ∗ (hbM1.view.loc (c : Thread nD τ) ↦{Transfers.shareTokN fullShare 213} f)
      ∗ (hbM1.view.loc (c : Thread nD τ) ↦{Transfers.shareTokN fullShare 212} f)
      ∗ (hbM1.view.loc (c : Thread nD τ) ↦{Transfers.shareTokN fullShare 211} f)
      ∗ (hbM1.view.loc (c : Thread nD τ) ↦{Transfers.shareTokN fullShare 210} f)
      ∗ (hbM1.view.loc (c : Thread nD τ) ↦{Transfers.shareTokN fullShare 209} f)
      ∗ (hbM1.view.loc (c : Thread nD τ) ↦{Transfers.shareTokN fullShare 208} f)
      ∗ (hbM1.view.loc (c : Thread nD τ) ↦{Transfers.shareTokN fullShare 207} f)
      ∗ (hbM1.view.loc (c : Thread nD τ) ↦{Transfers.shareTokN fullShare 206} f)
      ∗ (hbM1.view.loc (c : Thread nD τ) ↦{Transfers.shareTokN fullShare 205} f)
      ∗ (hbM1.view.loc (c : Thread nD τ) ↦{Transfers.shareTokN fullShare 204} f)
      ∗ (hbM1.view.loc (c : Thread nD τ) ↦{Transfers.shareTokN fullShare 203} f)
      ∗ (hbM1.view.loc (c : Thread nD τ) ↦{Transfers.shareTokN fullShare 202} f)
      ∗ (hbM1.view.loc (c : Thread nD τ) ↦{Transfers.shareTokN fullShare 201} f)
      ∗ (hbM1.view.loc (c : Thread nD τ) ↦{Transfers.shareTokN fullShare 200} f)
      ∗ (hbM1.view.loc (c : Thread nD τ) ↦{Transfers.shareTokN fullShare 199} f)
      ∗ (hbM1.view.loc (c : Thread nD τ) ↦{Transfers.shareTokN fullShare 198} f)
      ∗ (hbM1.view.loc (c : Thread nD τ) ↦{Transfers.shareTokN fullShare 197} f)
      ∗ (hbM1.view.loc (c : Thread nD τ) ↦{Transfers.shareTokN fullShare 196} f)
      ∗ (hbM1.view.loc (c : Thread nD τ) ↦{Transfers.shareTokN fullShare 195} f)
      ∗ (hbM1.view.loc (c : Thread nD τ) ↦{Transfers.shareTokN fullShare 194} f)
      ∗ (hbM1.view.loc (c : Thread nD τ) ↦{Transfers.shareTokN fullShare 193} f)
      ∗ (hbM1.view.loc (c : Thread nD τ) ↦{Transfers.shareTokN fullShare 192} f)
      ∗ (hbM1.view.loc (c : Thread nD τ) ↦{Transfers.shareTokN fullShare 191} f)
      ∗ (hbM1.view.loc (c : Thread nD τ) ↦{Transfers.shareTokN fullShare 190} f)
      ∗ (hbM1.view.loc (c : Thread nD τ) ↦{Transfers.shareTokN fullShare 189} f)
      ∗ (hbM1.view.loc (c : Thread nD τ) ↦{Transfers.shareTokN fullShare 188} f)
      ∗ (hbM1.view.loc (c : Thread nD τ) ↦{Transfers.shareTokN fullShare 187} f)
      ∗ (hbM1.view.loc (c : Thread nD τ) ↦{Transfers.shareTokN fullShare 186} f)
      ∗ (hbM1.view.loc (c : Thread nD τ) ↦{Transfers.shareTokN fullShare 185} f)
      ∗ (hbM1.view.loc (c : Thread nD τ) ↦{Transfers.shareTokN fullShare 184} f)
      ∗ (hbM1.view.loc (c : Thread nD τ) ↦{Transfers.shareTokN fullShare 183} f)
      ∗ (hbM1.view.loc (c : Thread nD τ) ↦{Transfers.shareTokN fullShare 182} f)
      ∗ (hbM1.view.loc (c : Thread nD τ) ↦{Transfers.shareTokN fullShare 181} f)
      ∗ (hbM1.view.loc (c : Thread nD τ) ↦{Transfers.shareTokN fullShare 180} f)
      ∗ (hbM1.view.loc (c : Thread nD τ) ↦{Transfers.shareTokN fullShare 179} f)
      ∗ (hbM1.view.loc (c : Thread nD τ) ↦{Transfers.shareTokN fullShare 178} f)
      ∗ (hbM1.view.loc (c : Thread nD τ) ↦{Transfers.shareTokN fullShare 177} f)
      ∗ (hbM1.view.loc (c : Thread nD τ) ↦{Transfers.shareTokN fullShare 176} f)
      ∗ (hbM1.view.loc (c : Thread nD τ) ↦{Transfers.shareTokN fullShare 175} f)
      ∗ (hbM1.view.loc (c : Thread nD τ) ↦{Transfers.shareTokN fullShare 174} f)
      ∗ (hbM1.view.loc (c : Thread nD τ) ↦{Transfers.shareTokN fullShare 173} f)
      ∗ (hbM1.view.loc (c : Thread nD τ) ↦{Transfers.shareTokN fullShare 172} f)
      ∗ (hbM1.view.loc (c : Thread nD τ) ↦{Transfers.shareTokN fullShare 171} f)
      ∗ (hbM1.view.loc (c : Thread nD τ) ↦{Transfers.shareTokN fullShare 170} f)
      ∗ (hbM1.view.loc (c : Thread nD τ) ↦{Transfers.shareTokN fullShare 169} f)
      ∗ (hbM1.view.loc (c : Thread nD τ) ↦{Transfers.shareTokN fullShare 168} f)
      ∗ (hbM1.view.loc (c : Thread nD τ) ↦{Transfers.shareTokN fullShare 167} f)
      ∗ (hbM1.view.loc (c : Thread nD τ) ↦{Transfers.shareTokN fullShare 166} f)
      ∗ (hbM1.view.loc (c : Thread nD τ) ↦{Transfers.shareTokN fullShare 165} f)
      ∗ (hbM1.view.loc (c : Thread nD τ) ↦{Transfers.shareTokN fullShare 164} f)
      ∗ (hbM1.view.loc (c : Thread nD τ) ↦{Transfers.shareTokN fullShare 163} f)
      ∗ (hbM1.view.loc (c : Thread nD τ) ↦{Transfers.shareTokN fullShare 162} f)
      ∗ (hbM1.view.loc (c : Thread nD τ) ↦{Transfers.shareTokN fullShare 161} f)
      ∗ (hbM1.view.loc (c : Thread nD τ) ↦{Transfers.shareTokN fullShare 160} f)
      ∗ (hbM1.view.loc (c : Thread nD τ) ↦{Transfers.shareTokN fullShare 159} f)
      ∗ (hbM1.view.loc (c : Thread nD τ) ↦{Transfers.shareTokN fullShare 158} f)
      ∗ (hbM1.view.loc (c : Thread nD τ) ↦{Transfers.shareTokN fullShare 157} f)
      ∗ (hbM1.view.loc (c : Thread nD τ) ↦{Transfers.shareTokN fullShare 156} f)
      ∗ (hbM1.view.loc (c : Thread nD τ) ↦{Transfers.shareTokN fullShare 155} f)
      ∗ (hbM1.view.loc (c : Thread nD τ) ↦{Transfers.shareTokN fullShare 154} f)
      ∗ (hbM1.view.loc (c : Thread nD τ) ↦{Transfers.shareTokN fullShare 153} f)
      ∗ (hbM1.view.loc (c : Thread nD τ) ↦{Transfers.shareTokN fullShare 152} f)
      ∗ (hbM1.view.loc (c : Thread nD τ) ↦{Transfers.shareTokN fullShare 151} f)
      ∗ (hbM1.view.loc (c : Thread nD τ) ↦{Transfers.shareTokN fullShare 150} f)
      ∗ (hbM1.view.loc (c : Thread nD τ) ↦{Transfers.shareTokN fullShare 149} f)
      ∗ (hbM1.view.loc (c : Thread nD τ) ↦{Transfers.shareTokN fullShare 148} f)
      ∗ (hbM1.view.loc (c : Thread nD τ) ↦{Transfers.shareTokN fullShare 147} f)
      ∗ (hbM1.view.loc (c : Thread nD τ) ↦{Transfers.shareTokN fullShare 146} f)
      ∗ (hbM1.view.loc (c : Thread nD τ) ↦{Transfers.shareTokN fullShare 145} f)
      ∗ (hbM1.view.loc (c : Thread nD τ) ↦{Transfers.shareTokN fullShare 144} f)
      ∗ (hbM1.view.loc (c : Thread nD τ) ↦{Transfers.shareTokN fullShare 143} f)
      ∗ (hbM1.view.loc (c : Thread nD τ) ↦{Transfers.shareTokN fullShare 142} f)
      ∗ (hbM1.view.loc (c : Thread nD τ) ↦{Transfers.shareTokN fullShare 141} f)
      ∗ (hbM1.view.loc (c : Thread nD τ) ↦{Transfers.shareTokN fullShare 140} f)
      ∗ (hbM1.view.loc (c : Thread nD τ) ↦{Transfers.shareTokN fullShare 139} f)
      ∗ (hbM1.view.loc (c : Thread nD τ) ↦{Transfers.shareTokN fullShare 138} f)
      ∗ emp)
      ∗ ((hbM1.view.loc (c : Thread nD τ) ↦{Transfers.shareTokN fullShare 393} f)
      ∗ (hbM1.view.loc (c : Thread nD τ) ↦{Transfers.shareTokN fullShare 392} f)
      ∗ (hbM1.view.loc (c : Thread nD τ) ↦{Transfers.shareTokN fullShare 391} f)
      ∗ (hbM1.view.loc (c : Thread nD τ) ↦{Transfers.shareTokN fullShare 390} f)
      ∗ (hbM1.view.loc (c : Thread nD τ) ↦{Transfers.shareTokN fullShare 389} f)
      ∗ (hbM1.view.loc (c : Thread nD τ) ↦{Transfers.shareTokN fullShare 388} f)
      ∗ (hbM1.view.loc (c : Thread nD τ) ↦{Transfers.shareTokN fullShare 387} f)
      ∗ (hbM1.view.loc (c : Thread nD τ) ↦{Transfers.shareTokN fullShare 386} f)
      ∗ (hbM1.view.loc (c : Thread nD τ) ↦{Transfers.shareTokN fullShare 385} f)
      ∗ (hbM1.view.loc (c : Thread nD τ) ↦{Transfers.shareTokN fullShare 384} f)
      ∗ (hbM1.view.loc (c : Thread nD τ) ↦{Transfers.shareTokN fullShare 383} f)
      ∗ (hbM1.view.loc (c : Thread nD τ) ↦{Transfers.shareTokN fullShare 382} f)
      ∗ (hbM1.view.loc (c : Thread nD τ) ↦{Transfers.shareTokN fullShare 381} f)
      ∗ (hbM1.view.loc (c : Thread nD τ) ↦{Transfers.shareTokN fullShare 380} f)
      ∗ (hbM1.view.loc (c : Thread nD τ) ↦{Transfers.shareTokN fullShare 379} f)
      ∗ (hbM1.view.loc (c : Thread nD τ) ↦{Transfers.shareTokN fullShare 378} f)
      ∗ (hbM1.view.loc (c : Thread nD τ) ↦{Transfers.shareTokN fullShare 377} f)
      ∗ (hbM1.view.loc (c : Thread nD τ) ↦{Transfers.shareTokN fullShare 376} f)
      ∗ (hbM1.view.loc (c : Thread nD τ) ↦{Transfers.shareTokN fullShare 375} f)
      ∗ (hbM1.view.loc (c : Thread nD τ) ↦{Transfers.shareTokN fullShare 374} f)
      ∗ (hbM1.view.loc (c : Thread nD τ) ↦{Transfers.shareTokN fullShare 373} f)
      ∗ (hbM1.view.loc (c : Thread nD τ) ↦{Transfers.shareTokN fullShare 372} f)
      ∗ (hbM1.view.loc (c : Thread nD τ) ↦{Transfers.shareTokN fullShare 371} f)
      ∗ (hbM1.view.loc (c : Thread nD τ) ↦{Transfers.shareTokN fullShare 370} f)
      ∗ (hbM1.view.loc (c : Thread nD τ) ↦{Transfers.shareTokN fullShare 369} f)
      ∗ (hbM1.view.loc (c : Thread nD τ) ↦{Transfers.shareTokN fullShare 368} f)
      ∗ (hbM1.view.loc (c : Thread nD τ) ↦{Transfers.shareTokN fullShare 367} f)
      ∗ (hbM1.view.loc (c : Thread nD τ) ↦{Transfers.shareTokN fullShare 366} f)
      ∗ (hbM1.view.loc (c : Thread nD τ) ↦{Transfers.shareTokN fullShare 365} f)
      ∗ (hbM1.view.loc (c : Thread nD τ) ↦{Transfers.shareTokN fullShare 364} f)
      ∗ (hbM1.view.loc (c : Thread nD τ) ↦{Transfers.shareTokN fullShare 363} f)
      ∗ (hbM1.view.loc (c : Thread nD τ) ↦{Transfers.shareTokN fullShare 362} f)
      ∗ (hbM1.view.loc (c : Thread nD τ) ↦{Transfers.shareTokN fullShare 361} f)
      ∗ (hbM1.view.loc (c : Thread nD τ) ↦{Transfers.shareTokN fullShare 360} f)
      ∗ (hbM1.view.loc (c : Thread nD τ) ↦{Transfers.shareTokN fullShare 359} f)
      ∗ (hbM1.view.loc (c : Thread nD τ) ↦{Transfers.shareTokN fullShare 358} f)
      ∗ (hbM1.view.loc (c : Thread nD τ) ↦{Transfers.shareTokN fullShare 357} f)
      ∗ (hbM1.view.loc (c : Thread nD τ) ↦{Transfers.shareTokN fullShare 356} f)
      ∗ (hbM1.view.loc (c : Thread nD τ) ↦{Transfers.shareTokN fullShare 355} f)
      ∗ (hbM1.view.loc (c : Thread nD τ) ↦{Transfers.shareTokN fullShare 354} f)
      ∗ (hbM1.view.loc (c : Thread nD τ) ↦{Transfers.shareTokN fullShare 353} f)
      ∗ (hbM1.view.loc (c : Thread nD τ) ↦{Transfers.shareTokN fullShare 352} f)
      ∗ (hbM1.view.loc (c : Thread nD τ) ↦{Transfers.shareTokN fullShare 351} f)
      ∗ (hbM1.view.loc (c : Thread nD τ) ↦{Transfers.shareTokN fullShare 350} f)
      ∗ (hbM1.view.loc (c : Thread nD τ) ↦{Transfers.shareTokN fullShare 349} f)
      ∗ (hbM1.view.loc (c : Thread nD τ) ↦{Transfers.shareTokN fullShare 348} f)
      ∗ (hbM1.view.loc (c : Thread nD τ) ↦{Transfers.shareTokN fullShare 347} f)
      ∗ (hbM1.view.loc (c : Thread nD τ) ↦{Transfers.shareTokN fullShare 346} f)
      ∗ (hbM1.view.loc (c : Thread nD τ) ↦{Transfers.shareTokN fullShare 345} f)
      ∗ (hbM1.view.loc (c : Thread nD τ) ↦{Transfers.shareTokN fullShare 344} f)
      ∗ (hbM1.view.loc (c : Thread nD τ) ↦{Transfers.shareTokN fullShare 343} f)
      ∗ (hbM1.view.loc (c : Thread nD τ) ↦{Transfers.shareTokN fullShare 342} f)
      ∗ (hbM1.view.loc (c : Thread nD τ) ↦{Transfers.shareTokN fullShare 341} f)
      ∗ (hbM1.view.loc (c : Thread nD τ) ↦{Transfers.shareTokN fullShare 340} f)
      ∗ (hbM1.view.loc (c : Thread nD τ) ↦{Transfers.shareTokN fullShare 339} f)
      ∗ (hbM1.view.loc (c : Thread nD τ) ↦{Transfers.shareTokN fullShare 338} f)
      ∗ (hbM1.view.loc (c : Thread nD τ) ↦{Transfers.shareTokN fullShare 337} f)
      ∗ (hbM1.view.loc (c : Thread nD τ) ↦{Transfers.shareTokN fullShare 336} f)
      ∗ (hbM1.view.loc (c : Thread nD τ) ↦{Transfers.shareTokN fullShare 335} f)
      ∗ (hbM1.view.loc (c : Thread nD τ) ↦{Transfers.shareTokN fullShare 334} f)
      ∗ (hbM1.view.loc (c : Thread nD τ) ↦{Transfers.shareTokN fullShare 333} f)
      ∗ (hbM1.view.loc (c : Thread nD τ) ↦{Transfers.shareTokN fullShare 332} f)
      ∗ (hbM1.view.loc (c : Thread nD τ) ↦{Transfers.shareTokN fullShare 331} f)
      ∗ (hbM1.view.loc (c : Thread nD τ) ↦{Transfers.shareTokN fullShare 330} f)
      ∗ (hbM1.view.loc (c : Thread nD τ) ↦{Transfers.shareTokN fullShare 329} f)
      ∗ (hbM1.view.loc (c : Thread nD τ) ↦{Transfers.shareTokN fullShare 328} f)
      ∗ (hbM1.view.loc (c : Thread nD τ) ↦{Transfers.shareTokN fullShare 327} f)
      ∗ (hbM1.view.loc (c : Thread nD τ) ↦{Transfers.shareTokN fullShare 326} f)
      ∗ (hbM1.view.loc (c : Thread nD τ) ↦{Transfers.shareTokN fullShare 325} f)
      ∗ (hbM1.view.loc (c : Thread nD τ) ↦{Transfers.shareTokN fullShare 324} f)
      ∗ (hbM1.view.loc (c : Thread nD τ) ↦{Transfers.shareTokN fullShare 323} f)
      ∗ (hbM1.view.loc (c : Thread nD τ) ↦{Transfers.shareTokN fullShare 322} f)
      ∗ (hbM1.view.loc (c : Thread nD τ) ↦{Transfers.shareTokN fullShare 321} f)
      ∗ (hbM1.view.loc (c : Thread nD τ) ↦{Transfers.shareTokN fullShare 320} f)
      ∗ (hbM1.view.loc (c : Thread nD τ) ↦{Transfers.shareTokN fullShare 319} f)
      ∗ (hbM1.view.loc (c : Thread nD τ) ↦{Transfers.shareTokN fullShare 318} f)
      ∗ (hbM1.view.loc (c : Thread nD τ) ↦{Transfers.shareTokN fullShare 317} f)
      ∗ (hbM1.view.loc (c : Thread nD τ) ↦{Transfers.shareTokN fullShare 316} f)
      ∗ (hbM1.view.loc (c : Thread nD τ) ↦{Transfers.shareTokN fullShare 315} f)
      ∗ (hbM1.view.loc (c : Thread nD τ) ↦{Transfers.shareTokN fullShare 314} f)
      ∗ (hbM1.view.loc (c : Thread nD τ) ↦{Transfers.shareTokN fullShare 313} f)
      ∗ (hbM1.view.loc (c : Thread nD τ) ↦{Transfers.shareTokN fullShare 312} f)
      ∗ (hbM1.view.loc (c : Thread nD τ) ↦{Transfers.shareTokN fullShare 311} f)
      ∗ (hbM1.view.loc (c : Thread nD τ) ↦{Transfers.shareTokN fullShare 310} f)
      ∗ (hbM1.view.loc (c : Thread nD τ) ↦{Transfers.shareTokN fullShare 309} f)
      ∗ (hbM1.view.loc (c : Thread nD τ) ↦{Transfers.shareTokN fullShare 308} f)
      ∗ (hbM1.view.loc (c : Thread nD τ) ↦{Transfers.shareTokN fullShare 307} f)
      ∗ (hbM1.view.loc (c : Thread nD τ) ↦{Transfers.shareTokN fullShare 306} f)
      ∗ (hbM1.view.loc (c : Thread nD τ) ↦{Transfers.shareTokN fullShare 305} f)
      ∗ (hbM1.view.loc (c : Thread nD τ) ↦{Transfers.shareTokN fullShare 304} f)
      ∗ (hbM1.view.loc (c : Thread nD τ) ↦{Transfers.shareTokN fullShare 303} f)
      ∗ (hbM1.view.loc (c : Thread nD τ) ↦{Transfers.shareTokN fullShare 302} f)
      ∗ (hbM1.view.loc (c : Thread nD τ) ↦{Transfers.shareTokN fullShare 301} f)
      ∗ (hbM1.view.loc (c : Thread nD τ) ↦{Transfers.shareTokN fullShare 300} f)
      ∗ (hbM1.view.loc (c : Thread nD τ) ↦{Transfers.shareTokN fullShare 299} f)
      ∗ (hbM1.view.loc (c : Thread nD τ) ↦{Transfers.shareTokN fullShare 298} f)
      ∗ (hbM1.view.loc (c : Thread nD τ) ↦{Transfers.shareTokN fullShare 297} f)
      ∗ (hbM1.view.loc (c : Thread nD τ) ↦{Transfers.shareTokN fullShare 296} f)
      ∗ (hbM1.view.loc (c : Thread nD τ) ↦{Transfers.shareTokN fullShare 295} f)
      ∗ (hbM1.view.loc (c : Thread nD τ) ↦{Transfers.shareTokN fullShare 294} f)
      ∗ (hbM1.view.loc (c : Thread nD τ) ↦{Transfers.shareTokN fullShare 293} f)
      ∗ (hbM1.view.loc (c : Thread nD τ) ↦{Transfers.shareTokN fullShare 292} f)
      ∗ (hbM1.view.loc (c : Thread nD τ) ↦{Transfers.shareTokN fullShare 291} f)
      ∗ (hbM1.view.loc (c : Thread nD τ) ↦{Transfers.shareTokN fullShare 290} f)
      ∗ (hbM1.view.loc (c : Thread nD τ) ↦{Transfers.shareTokN fullShare 289} f)
      ∗ (hbM1.view.loc (c : Thread nD τ) ↦{Transfers.shareTokN fullShare 288} f)
      ∗ (hbM1.view.loc (c : Thread nD τ) ↦{Transfers.shareTokN fullShare 287} f)
      ∗ (hbM1.view.loc (c : Thread nD τ) ↦{Transfers.shareTokN fullShare 286} f)
      ∗ (hbM1.view.loc (c : Thread nD τ) ↦{Transfers.shareTokN fullShare 285} f)
      ∗ (hbM1.view.loc (c : Thread nD τ) ↦{Transfers.shareTokN fullShare 284} f)
      ∗ (hbM1.view.loc (c : Thread nD τ) ↦{Transfers.shareTokN fullShare 283} f)
      ∗ (hbM1.view.loc (c : Thread nD τ) ↦{Transfers.shareTokN fullShare 282} f)
      ∗ (hbM1.view.loc (c : Thread nD τ) ↦{Transfers.shareTokN fullShare 281} f)
      ∗ (hbM1.view.loc (c : Thread nD τ) ↦{Transfers.shareTokN fullShare 280} f)
      ∗ (hbM1.view.loc (c : Thread nD τ) ↦{Transfers.shareTokN fullShare 279} f)
      ∗ (hbM1.view.loc (c : Thread nD τ) ↦{Transfers.shareTokN fullShare 278} f)
      ∗ (hbM1.view.loc (c : Thread nD τ) ↦{Transfers.shareTokN fullShare 277} f)
      ∗ (hbM1.view.loc (c : Thread nD τ) ↦{Transfers.shareTokN fullShare 276} f)
      ∗ (hbM1.view.loc (c : Thread nD τ) ↦{Transfers.shareTokN fullShare 275} f)
      ∗ (hbM1.view.loc (c : Thread nD τ) ↦{Transfers.shareTokN fullShare 274} f)
      ∗ (hbM1.view.loc (c : Thread nD τ) ↦{Transfers.shareTokN fullShare 273} f)
      ∗ (hbM1.view.loc (c : Thread nD τ) ↦{Transfers.shareTokN fullShare 272} f)
      ∗ (hbM1.view.loc (c : Thread nD τ) ↦{Transfers.shareTokN fullShare 271} f)
      ∗ (hbM1.view.loc (c : Thread nD τ) ↦{Transfers.shareTokN fullShare 270} f)
      ∗ (hbM1.view.loc (c : Thread nD τ) ↦{Transfers.shareTokN fullShare 269} f)
      ∗ (hbM1.view.loc (c : Thread nD τ) ↦{Transfers.shareTokN fullShare 268} f)
      ∗ (hbM1.view.loc (c : Thread nD τ) ↦{Transfers.shareTokN fullShare 267} f)
      ∗ (hbM1.view.loc (c : Thread nD τ) ↦{Transfers.shareTokN fullShare 266} f)
      ∗ emp)) : sProp 𝕄) ⊢ hbPt c hbM1 f := by
  refine (Entails.of_eq (sep_congr_eq rfl (sep_congr_eq rfl (sep_congr_eq (sepL_reverse (F := F) [(hbM1.view.loc (c : Thread nD τ) ↦{Transfers.shareTokN fullShare 138} f),
      (hbM1.view.loc (c : Thread nD τ) ↦{Transfers.shareTokN fullShare 139} f),
      (hbM1.view.loc (c : Thread nD τ) ↦{Transfers.shareTokN fullShare 140} f),
      (hbM1.view.loc (c : Thread nD τ) ↦{Transfers.shareTokN fullShare 141} f),
      (hbM1.view.loc (c : Thread nD τ) ↦{Transfers.shareTokN fullShare 142} f),
      (hbM1.view.loc (c : Thread nD τ) ↦{Transfers.shareTokN fullShare 143} f),
      (hbM1.view.loc (c : Thread nD τ) ↦{Transfers.shareTokN fullShare 144} f),
      (hbM1.view.loc (c : Thread nD τ) ↦{Transfers.shareTokN fullShare 145} f),
      (hbM1.view.loc (c : Thread nD τ) ↦{Transfers.shareTokN fullShare 146} f),
      (hbM1.view.loc (c : Thread nD τ) ↦{Transfers.shareTokN fullShare 147} f),
      (hbM1.view.loc (c : Thread nD τ) ↦{Transfers.shareTokN fullShare 148} f),
      (hbM1.view.loc (c : Thread nD τ) ↦{Transfers.shareTokN fullShare 149} f),
      (hbM1.view.loc (c : Thread nD τ) ↦{Transfers.shareTokN fullShare 150} f),
      (hbM1.view.loc (c : Thread nD τ) ↦{Transfers.shareTokN fullShare 151} f),
      (hbM1.view.loc (c : Thread nD τ) ↦{Transfers.shareTokN fullShare 152} f),
      (hbM1.view.loc (c : Thread nD τ) ↦{Transfers.shareTokN fullShare 153} f),
      (hbM1.view.loc (c : Thread nD τ) ↦{Transfers.shareTokN fullShare 154} f),
      (hbM1.view.loc (c : Thread nD τ) ↦{Transfers.shareTokN fullShare 155} f),
      (hbM1.view.loc (c : Thread nD τ) ↦{Transfers.shareTokN fullShare 156} f),
      (hbM1.view.loc (c : Thread nD τ) ↦{Transfers.shareTokN fullShare 157} f),
      (hbM1.view.loc (c : Thread nD τ) ↦{Transfers.shareTokN fullShare 158} f),
      (hbM1.view.loc (c : Thread nD τ) ↦{Transfers.shareTokN fullShare 159} f),
      (hbM1.view.loc (c : Thread nD τ) ↦{Transfers.shareTokN fullShare 160} f),
      (hbM1.view.loc (c : Thread nD τ) ↦{Transfers.shareTokN fullShare 161} f),
      (hbM1.view.loc (c : Thread nD τ) ↦{Transfers.shareTokN fullShare 162} f),
      (hbM1.view.loc (c : Thread nD τ) ↦{Transfers.shareTokN fullShare 163} f),
      (hbM1.view.loc (c : Thread nD τ) ↦{Transfers.shareTokN fullShare 164} f),
      (hbM1.view.loc (c : Thread nD τ) ↦{Transfers.shareTokN fullShare 165} f),
      (hbM1.view.loc (c : Thread nD τ) ↦{Transfers.shareTokN fullShare 166} f),
      (hbM1.view.loc (c : Thread nD τ) ↦{Transfers.shareTokN fullShare 167} f),
      (hbM1.view.loc (c : Thread nD τ) ↦{Transfers.shareTokN fullShare 168} f),
      (hbM1.view.loc (c : Thread nD τ) ↦{Transfers.shareTokN fullShare 169} f),
      (hbM1.view.loc (c : Thread nD τ) ↦{Transfers.shareTokN fullShare 170} f),
      (hbM1.view.loc (c : Thread nD τ) ↦{Transfers.shareTokN fullShare 171} f),
      (hbM1.view.loc (c : Thread nD τ) ↦{Transfers.shareTokN fullShare 172} f),
      (hbM1.view.loc (c : Thread nD τ) ↦{Transfers.shareTokN fullShare 173} f),
      (hbM1.view.loc (c : Thread nD τ) ↦{Transfers.shareTokN fullShare 174} f),
      (hbM1.view.loc (c : Thread nD τ) ↦{Transfers.shareTokN fullShare 175} f),
      (hbM1.view.loc (c : Thread nD τ) ↦{Transfers.shareTokN fullShare 176} f),
      (hbM1.view.loc (c : Thread nD τ) ↦{Transfers.shareTokN fullShare 177} f),
      (hbM1.view.loc (c : Thread nD τ) ↦{Transfers.shareTokN fullShare 178} f),
      (hbM1.view.loc (c : Thread nD τ) ↦{Transfers.shareTokN fullShare 179} f),
      (hbM1.view.loc (c : Thread nD τ) ↦{Transfers.shareTokN fullShare 180} f),
      (hbM1.view.loc (c : Thread nD τ) ↦{Transfers.shareTokN fullShare 181} f),
      (hbM1.view.loc (c : Thread nD τ) ↦{Transfers.shareTokN fullShare 182} f),
      (hbM1.view.loc (c : Thread nD τ) ↦{Transfers.shareTokN fullShare 183} f),
      (hbM1.view.loc (c : Thread nD τ) ↦{Transfers.shareTokN fullShare 184} f),
      (hbM1.view.loc (c : Thread nD τ) ↦{Transfers.shareTokN fullShare 185} f),
      (hbM1.view.loc (c : Thread nD τ) ↦{Transfers.shareTokN fullShare 186} f),
      (hbM1.view.loc (c : Thread nD τ) ↦{Transfers.shareTokN fullShare 187} f),
      (hbM1.view.loc (c : Thread nD τ) ↦{Transfers.shareTokN fullShare 188} f),
      (hbM1.view.loc (c : Thread nD τ) ↦{Transfers.shareTokN fullShare 189} f),
      (hbM1.view.loc (c : Thread nD τ) ↦{Transfers.shareTokN fullShare 190} f),
      (hbM1.view.loc (c : Thread nD τ) ↦{Transfers.shareTokN fullShare 191} f),
      (hbM1.view.loc (c : Thread nD τ) ↦{Transfers.shareTokN fullShare 192} f),
      (hbM1.view.loc (c : Thread nD τ) ↦{Transfers.shareTokN fullShare 193} f),
      (hbM1.view.loc (c : Thread nD τ) ↦{Transfers.shareTokN fullShare 194} f),
      (hbM1.view.loc (c : Thread nD τ) ↦{Transfers.shareTokN fullShare 195} f),
      (hbM1.view.loc (c : Thread nD τ) ↦{Transfers.shareTokN fullShare 196} f),
      (hbM1.view.loc (c : Thread nD τ) ↦{Transfers.shareTokN fullShare 197} f),
      (hbM1.view.loc (c : Thread nD τ) ↦{Transfers.shareTokN fullShare 198} f),
      (hbM1.view.loc (c : Thread nD τ) ↦{Transfers.shareTokN fullShare 199} f),
      (hbM1.view.loc (c : Thread nD τ) ↦{Transfers.shareTokN fullShare 200} f),
      (hbM1.view.loc (c : Thread nD τ) ↦{Transfers.shareTokN fullShare 201} f),
      (hbM1.view.loc (c : Thread nD τ) ↦{Transfers.shareTokN fullShare 202} f),
      (hbM1.view.loc (c : Thread nD τ) ↦{Transfers.shareTokN fullShare 203} f),
      (hbM1.view.loc (c : Thread nD τ) ↦{Transfers.shareTokN fullShare 204} f),
      (hbM1.view.loc (c : Thread nD τ) ↦{Transfers.shareTokN fullShare 205} f),
      (hbM1.view.loc (c : Thread nD τ) ↦{Transfers.shareTokN fullShare 206} f),
      (hbM1.view.loc (c : Thread nD τ) ↦{Transfers.shareTokN fullShare 207} f),
      (hbM1.view.loc (c : Thread nD τ) ↦{Transfers.shareTokN fullShare 208} f),
      (hbM1.view.loc (c : Thread nD τ) ↦{Transfers.shareTokN fullShare 209} f),
      (hbM1.view.loc (c : Thread nD τ) ↦{Transfers.shareTokN fullShare 210} f),
      (hbM1.view.loc (c : Thread nD τ) ↦{Transfers.shareTokN fullShare 211} f),
      (hbM1.view.loc (c : Thread nD τ) ↦{Transfers.shareTokN fullShare 212} f),
      (hbM1.view.loc (c : Thread nD τ) ↦{Transfers.shareTokN fullShare 213} f),
      (hbM1.view.loc (c : Thread nD τ) ↦{Transfers.shareTokN fullShare 214} f),
      (hbM1.view.loc (c : Thread nD τ) ↦{Transfers.shareTokN fullShare 215} f),
      (hbM1.view.loc (c : Thread nD τ) ↦{Transfers.shareTokN fullShare 216} f),
      (hbM1.view.loc (c : Thread nD τ) ↦{Transfers.shareTokN fullShare 217} f),
      (hbM1.view.loc (c : Thread nD τ) ↦{Transfers.shareTokN fullShare 218} f),
      (hbM1.view.loc (c : Thread nD τ) ↦{Transfers.shareTokN fullShare 219} f),
      (hbM1.view.loc (c : Thread nD τ) ↦{Transfers.shareTokN fullShare 220} f),
      (hbM1.view.loc (c : Thread nD τ) ↦{Transfers.shareTokN fullShare 221} f),
      (hbM1.view.loc (c : Thread nD τ) ↦{Transfers.shareTokN fullShare 222} f),
      (hbM1.view.loc (c : Thread nD τ) ↦{Transfers.shareTokN fullShare 223} f),
      (hbM1.view.loc (c : Thread nD τ) ↦{Transfers.shareTokN fullShare 224} f),
      (hbM1.view.loc (c : Thread nD τ) ↦{Transfers.shareTokN fullShare 225} f),
      (hbM1.view.loc (c : Thread nD τ) ↦{Transfers.shareTokN fullShare 226} f),
      (hbM1.view.loc (c : Thread nD τ) ↦{Transfers.shareTokN fullShare 227} f),
      (hbM1.view.loc (c : Thread nD τ) ↦{Transfers.shareTokN fullShare 228} f),
      (hbM1.view.loc (c : Thread nD τ) ↦{Transfers.shareTokN fullShare 229} f),
      (hbM1.view.loc (c : Thread nD τ) ↦{Transfers.shareTokN fullShare 230} f),
      (hbM1.view.loc (c : Thread nD τ) ↦{Transfers.shareTokN fullShare 231} f),
      (hbM1.view.loc (c : Thread nD τ) ↦{Transfers.shareTokN fullShare 232} f),
      (hbM1.view.loc (c : Thread nD τ) ↦{Transfers.shareTokN fullShare 233} f),
      (hbM1.view.loc (c : Thread nD τ) ↦{Transfers.shareTokN fullShare 234} f),
      (hbM1.view.loc (c : Thread nD τ) ↦{Transfers.shareTokN fullShare 235} f),
      (hbM1.view.loc (c : Thread nD τ) ↦{Transfers.shareTokN fullShare 236} f),
      (hbM1.view.loc (c : Thread nD τ) ↦{Transfers.shareTokN fullShare 237} f),
      (hbM1.view.loc (c : Thread nD τ) ↦{Transfers.shareTokN fullShare 238} f),
      (hbM1.view.loc (c : Thread nD τ) ↦{Transfers.shareTokN fullShare 239} f),
      (hbM1.view.loc (c : Thread nD τ) ↦{Transfers.shareTokN fullShare 240} f),
      (hbM1.view.loc (c : Thread nD τ) ↦{Transfers.shareTokN fullShare 241} f),
      (hbM1.view.loc (c : Thread nD τ) ↦{Transfers.shareTokN fullShare 242} f),
      (hbM1.view.loc (c : Thread nD τ) ↦{Transfers.shareTokN fullShare 243} f),
      (hbM1.view.loc (c : Thread nD τ) ↦{Transfers.shareTokN fullShare 244} f),
      (hbM1.view.loc (c : Thread nD τ) ↦{Transfers.shareTokN fullShare 245} f),
      (hbM1.view.loc (c : Thread nD τ) ↦{Transfers.shareTokN fullShare 246} f),
      (hbM1.view.loc (c : Thread nD τ) ↦{Transfers.shareTokN fullShare 247} f),
      (hbM1.view.loc (c : Thread nD τ) ↦{Transfers.shareTokN fullShare 248} f),
      (hbM1.view.loc (c : Thread nD τ) ↦{Transfers.shareTokN fullShare 249} f),
      (hbM1.view.loc (c : Thread nD τ) ↦{Transfers.shareTokN fullShare 250} f),
      (hbM1.view.loc (c : Thread nD τ) ↦{Transfers.shareTokN fullShare 251} f),
      (hbM1.view.loc (c : Thread nD τ) ↦{Transfers.shareTokN fullShare 252} f),
      (hbM1.view.loc (c : Thread nD τ) ↦{Transfers.shareTokN fullShare 253} f),
      (hbM1.view.loc (c : Thread nD τ) ↦{Transfers.shareTokN fullShare 254} f),
      (hbM1.view.loc (c : Thread nD τ) ↦{Transfers.shareTokN fullShare 255} f),
      (hbM1.view.loc (c : Thread nD τ) ↦{Transfers.shareTokN fullShare 256} f),
      (hbM1.view.loc (c : Thread nD τ) ↦{Transfers.shareTokN fullShare 257} f),
      (hbM1.view.loc (c : Thread nD τ) ↦{Transfers.shareTokN fullShare 258} f),
      (hbM1.view.loc (c : Thread nD τ) ↦{Transfers.shareTokN fullShare 259} f),
      (hbM1.view.loc (c : Thread nD τ) ↦{Transfers.shareTokN fullShare 260} f),
      (hbM1.view.loc (c : Thread nD τ) ↦{Transfers.shareTokN fullShare 261} f),
      (hbM1.view.loc (c : Thread nD τ) ↦{Transfers.shareTokN fullShare 262} f),
      (hbM1.view.loc (c : Thread nD τ) ↦{Transfers.shareTokN fullShare 263} f),
      (hbM1.view.loc (c : Thread nD τ) ↦{Transfers.shareTokN fullShare 264} f),
      (hbM1.view.loc (c : Thread nD τ) ↦{Transfers.shareTokN fullShare 265} f)]) (sepL_reverse (F := F) [(hbM1.view.loc (c : Thread nD τ) ↦{Transfers.shareTokN fullShare 266} f),
      (hbM1.view.loc (c : Thread nD τ) ↦{Transfers.shareTokN fullShare 267} f),
      (hbM1.view.loc (c : Thread nD τ) ↦{Transfers.shareTokN fullShare 268} f),
      (hbM1.view.loc (c : Thread nD τ) ↦{Transfers.shareTokN fullShare 269} f),
      (hbM1.view.loc (c : Thread nD τ) ↦{Transfers.shareTokN fullShare 270} f),
      (hbM1.view.loc (c : Thread nD τ) ↦{Transfers.shareTokN fullShare 271} f),
      (hbM1.view.loc (c : Thread nD τ) ↦{Transfers.shareTokN fullShare 272} f),
      (hbM1.view.loc (c : Thread nD τ) ↦{Transfers.shareTokN fullShare 273} f),
      (hbM1.view.loc (c : Thread nD τ) ↦{Transfers.shareTokN fullShare 274} f),
      (hbM1.view.loc (c : Thread nD τ) ↦{Transfers.shareTokN fullShare 275} f),
      (hbM1.view.loc (c : Thread nD τ) ↦{Transfers.shareTokN fullShare 276} f),
      (hbM1.view.loc (c : Thread nD τ) ↦{Transfers.shareTokN fullShare 277} f),
      (hbM1.view.loc (c : Thread nD τ) ↦{Transfers.shareTokN fullShare 278} f),
      (hbM1.view.loc (c : Thread nD τ) ↦{Transfers.shareTokN fullShare 279} f),
      (hbM1.view.loc (c : Thread nD τ) ↦{Transfers.shareTokN fullShare 280} f),
      (hbM1.view.loc (c : Thread nD τ) ↦{Transfers.shareTokN fullShare 281} f),
      (hbM1.view.loc (c : Thread nD τ) ↦{Transfers.shareTokN fullShare 282} f),
      (hbM1.view.loc (c : Thread nD τ) ↦{Transfers.shareTokN fullShare 283} f),
      (hbM1.view.loc (c : Thread nD τ) ↦{Transfers.shareTokN fullShare 284} f),
      (hbM1.view.loc (c : Thread nD τ) ↦{Transfers.shareTokN fullShare 285} f),
      (hbM1.view.loc (c : Thread nD τ) ↦{Transfers.shareTokN fullShare 286} f),
      (hbM1.view.loc (c : Thread nD τ) ↦{Transfers.shareTokN fullShare 287} f),
      (hbM1.view.loc (c : Thread nD τ) ↦{Transfers.shareTokN fullShare 288} f),
      (hbM1.view.loc (c : Thread nD τ) ↦{Transfers.shareTokN fullShare 289} f),
      (hbM1.view.loc (c : Thread nD τ) ↦{Transfers.shareTokN fullShare 290} f),
      (hbM1.view.loc (c : Thread nD τ) ↦{Transfers.shareTokN fullShare 291} f),
      (hbM1.view.loc (c : Thread nD τ) ↦{Transfers.shareTokN fullShare 292} f),
      (hbM1.view.loc (c : Thread nD τ) ↦{Transfers.shareTokN fullShare 293} f),
      (hbM1.view.loc (c : Thread nD τ) ↦{Transfers.shareTokN fullShare 294} f),
      (hbM1.view.loc (c : Thread nD τ) ↦{Transfers.shareTokN fullShare 295} f),
      (hbM1.view.loc (c : Thread nD τ) ↦{Transfers.shareTokN fullShare 296} f),
      (hbM1.view.loc (c : Thread nD τ) ↦{Transfers.shareTokN fullShare 297} f),
      (hbM1.view.loc (c : Thread nD τ) ↦{Transfers.shareTokN fullShare 298} f),
      (hbM1.view.loc (c : Thread nD τ) ↦{Transfers.shareTokN fullShare 299} f),
      (hbM1.view.loc (c : Thread nD τ) ↦{Transfers.shareTokN fullShare 300} f),
      (hbM1.view.loc (c : Thread nD τ) ↦{Transfers.shareTokN fullShare 301} f),
      (hbM1.view.loc (c : Thread nD τ) ↦{Transfers.shareTokN fullShare 302} f),
      (hbM1.view.loc (c : Thread nD τ) ↦{Transfers.shareTokN fullShare 303} f),
      (hbM1.view.loc (c : Thread nD τ) ↦{Transfers.shareTokN fullShare 304} f),
      (hbM1.view.loc (c : Thread nD τ) ↦{Transfers.shareTokN fullShare 305} f),
      (hbM1.view.loc (c : Thread nD τ) ↦{Transfers.shareTokN fullShare 306} f),
      (hbM1.view.loc (c : Thread nD τ) ↦{Transfers.shareTokN fullShare 307} f),
      (hbM1.view.loc (c : Thread nD τ) ↦{Transfers.shareTokN fullShare 308} f),
      (hbM1.view.loc (c : Thread nD τ) ↦{Transfers.shareTokN fullShare 309} f),
      (hbM1.view.loc (c : Thread nD τ) ↦{Transfers.shareTokN fullShare 310} f),
      (hbM1.view.loc (c : Thread nD τ) ↦{Transfers.shareTokN fullShare 311} f),
      (hbM1.view.loc (c : Thread nD τ) ↦{Transfers.shareTokN fullShare 312} f),
      (hbM1.view.loc (c : Thread nD τ) ↦{Transfers.shareTokN fullShare 313} f),
      (hbM1.view.loc (c : Thread nD τ) ↦{Transfers.shareTokN fullShare 314} f),
      (hbM1.view.loc (c : Thread nD τ) ↦{Transfers.shareTokN fullShare 315} f),
      (hbM1.view.loc (c : Thread nD τ) ↦{Transfers.shareTokN fullShare 316} f),
      (hbM1.view.loc (c : Thread nD τ) ↦{Transfers.shareTokN fullShare 317} f),
      (hbM1.view.loc (c : Thread nD τ) ↦{Transfers.shareTokN fullShare 318} f),
      (hbM1.view.loc (c : Thread nD τ) ↦{Transfers.shareTokN fullShare 319} f),
      (hbM1.view.loc (c : Thread nD τ) ↦{Transfers.shareTokN fullShare 320} f),
      (hbM1.view.loc (c : Thread nD τ) ↦{Transfers.shareTokN fullShare 321} f),
      (hbM1.view.loc (c : Thread nD τ) ↦{Transfers.shareTokN fullShare 322} f),
      (hbM1.view.loc (c : Thread nD τ) ↦{Transfers.shareTokN fullShare 323} f),
      (hbM1.view.loc (c : Thread nD τ) ↦{Transfers.shareTokN fullShare 324} f),
      (hbM1.view.loc (c : Thread nD τ) ↦{Transfers.shareTokN fullShare 325} f),
      (hbM1.view.loc (c : Thread nD τ) ↦{Transfers.shareTokN fullShare 326} f),
      (hbM1.view.loc (c : Thread nD τ) ↦{Transfers.shareTokN fullShare 327} f),
      (hbM1.view.loc (c : Thread nD τ) ↦{Transfers.shareTokN fullShare 328} f),
      (hbM1.view.loc (c : Thread nD τ) ↦{Transfers.shareTokN fullShare 329} f),
      (hbM1.view.loc (c : Thread nD τ) ↦{Transfers.shareTokN fullShare 330} f),
      (hbM1.view.loc (c : Thread nD τ) ↦{Transfers.shareTokN fullShare 331} f),
      (hbM1.view.loc (c : Thread nD τ) ↦{Transfers.shareTokN fullShare 332} f),
      (hbM1.view.loc (c : Thread nD τ) ↦{Transfers.shareTokN fullShare 333} f),
      (hbM1.view.loc (c : Thread nD τ) ↦{Transfers.shareTokN fullShare 334} f),
      (hbM1.view.loc (c : Thread nD τ) ↦{Transfers.shareTokN fullShare 335} f),
      (hbM1.view.loc (c : Thread nD τ) ↦{Transfers.shareTokN fullShare 336} f),
      (hbM1.view.loc (c : Thread nD τ) ↦{Transfers.shareTokN fullShare 337} f),
      (hbM1.view.loc (c : Thread nD τ) ↦{Transfers.shareTokN fullShare 338} f),
      (hbM1.view.loc (c : Thread nD τ) ↦{Transfers.shareTokN fullShare 339} f),
      (hbM1.view.loc (c : Thread nD τ) ↦{Transfers.shareTokN fullShare 340} f),
      (hbM1.view.loc (c : Thread nD τ) ↦{Transfers.shareTokN fullShare 341} f),
      (hbM1.view.loc (c : Thread nD τ) ↦{Transfers.shareTokN fullShare 342} f),
      (hbM1.view.loc (c : Thread nD τ) ↦{Transfers.shareTokN fullShare 343} f),
      (hbM1.view.loc (c : Thread nD τ) ↦{Transfers.shareTokN fullShare 344} f),
      (hbM1.view.loc (c : Thread nD τ) ↦{Transfers.shareTokN fullShare 345} f),
      (hbM1.view.loc (c : Thread nD τ) ↦{Transfers.shareTokN fullShare 346} f),
      (hbM1.view.loc (c : Thread nD τ) ↦{Transfers.shareTokN fullShare 347} f),
      (hbM1.view.loc (c : Thread nD τ) ↦{Transfers.shareTokN fullShare 348} f),
      (hbM1.view.loc (c : Thread nD τ) ↦{Transfers.shareTokN fullShare 349} f),
      (hbM1.view.loc (c : Thread nD τ) ↦{Transfers.shareTokN fullShare 350} f),
      (hbM1.view.loc (c : Thread nD τ) ↦{Transfers.shareTokN fullShare 351} f),
      (hbM1.view.loc (c : Thread nD τ) ↦{Transfers.shareTokN fullShare 352} f),
      (hbM1.view.loc (c : Thread nD τ) ↦{Transfers.shareTokN fullShare 353} f),
      (hbM1.view.loc (c : Thread nD τ) ↦{Transfers.shareTokN fullShare 354} f),
      (hbM1.view.loc (c : Thread nD τ) ↦{Transfers.shareTokN fullShare 355} f),
      (hbM1.view.loc (c : Thread nD τ) ↦{Transfers.shareTokN fullShare 356} f),
      (hbM1.view.loc (c : Thread nD τ) ↦{Transfers.shareTokN fullShare 357} f),
      (hbM1.view.loc (c : Thread nD τ) ↦{Transfers.shareTokN fullShare 358} f),
      (hbM1.view.loc (c : Thread nD τ) ↦{Transfers.shareTokN fullShare 359} f),
      (hbM1.view.loc (c : Thread nD τ) ↦{Transfers.shareTokN fullShare 360} f),
      (hbM1.view.loc (c : Thread nD τ) ↦{Transfers.shareTokN fullShare 361} f),
      (hbM1.view.loc (c : Thread nD τ) ↦{Transfers.shareTokN fullShare 362} f),
      (hbM1.view.loc (c : Thread nD τ) ↦{Transfers.shareTokN fullShare 363} f),
      (hbM1.view.loc (c : Thread nD τ) ↦{Transfers.shareTokN fullShare 364} f),
      (hbM1.view.loc (c : Thread nD τ) ↦{Transfers.shareTokN fullShare 365} f),
      (hbM1.view.loc (c : Thread nD τ) ↦{Transfers.shareTokN fullShare 366} f),
      (hbM1.view.loc (c : Thread nD τ) ↦{Transfers.shareTokN fullShare 367} f),
      (hbM1.view.loc (c : Thread nD τ) ↦{Transfers.shareTokN fullShare 368} f),
      (hbM1.view.loc (c : Thread nD τ) ↦{Transfers.shareTokN fullShare 369} f),
      (hbM1.view.loc (c : Thread nD τ) ↦{Transfers.shareTokN fullShare 370} f),
      (hbM1.view.loc (c : Thread nD τ) ↦{Transfers.shareTokN fullShare 371} f),
      (hbM1.view.loc (c : Thread nD τ) ↦{Transfers.shareTokN fullShare 372} f),
      (hbM1.view.loc (c : Thread nD τ) ↦{Transfers.shareTokN fullShare 373} f),
      (hbM1.view.loc (c : Thread nD τ) ↦{Transfers.shareTokN fullShare 374} f),
      (hbM1.view.loc (c : Thread nD τ) ↦{Transfers.shareTokN fullShare 375} f),
      (hbM1.view.loc (c : Thread nD τ) ↦{Transfers.shareTokN fullShare 376} f),
      (hbM1.view.loc (c : Thread nD τ) ↦{Transfers.shareTokN fullShare 377} f),
      (hbM1.view.loc (c : Thread nD τ) ↦{Transfers.shareTokN fullShare 378} f),
      (hbM1.view.loc (c : Thread nD τ) ↦{Transfers.shareTokN fullShare 379} f),
      (hbM1.view.loc (c : Thread nD τ) ↦{Transfers.shareTokN fullShare 380} f),
      (hbM1.view.loc (c : Thread nD τ) ↦{Transfers.shareTokN fullShare 381} f),
      (hbM1.view.loc (c : Thread nD τ) ↦{Transfers.shareTokN fullShare 382} f),
      (hbM1.view.loc (c : Thread nD τ) ↦{Transfers.shareTokN fullShare 383} f),
      (hbM1.view.loc (c : Thread nD τ) ↦{Transfers.shareTokN fullShare 384} f),
      (hbM1.view.loc (c : Thread nD τ) ↦{Transfers.shareTokN fullShare 385} f),
      (hbM1.view.loc (c : Thread nD τ) ↦{Transfers.shareTokN fullShare 386} f),
      (hbM1.view.loc (c : Thread nD τ) ↦{Transfers.shareTokN fullShare 387} f),
      (hbM1.view.loc (c : Thread nD τ) ↦{Transfers.shareTokN fullShare 388} f),
      (hbM1.view.loc (c : Thread nD τ) ↦{Transfers.shareTokN fullShare 389} f),
      (hbM1.view.loc (c : Thread nD τ) ↦{Transfers.shareTokN fullShare 390} f),
      (hbM1.view.loc (c : Thread nD τ) ↦{Transfers.shareTokN fullShare 391} f),
      (hbM1.view.loc (c : Thread nD τ) ↦{Transfers.shareTokN fullShare 392} f),
      (hbM1.view.loc (c : Thread nD τ) ↦{Transfers.shareTokN fullShare 393} f)]))))).trans ?_
  have h := (toks_up2 (F := F) (ℓ := hbM1.view.loc (c : Thread nD τ)) f 138 128 128).2
  simp only [chainUp, Nat.reduceAdd] at h
  simp only [sepL]
  exact h

set_option maxHeartbeats 16000000 in
/-- The 128 row pieces of scratch buffer 0, all at one contents, highest row first, are the buffer's elements at those contents. -/
theorem rows_down0 (c : Dev nD) (f : Buf (Elt F) (scM0.view.loc (c : Thread nD τ))) :
    (iprop(((rowM scM0 127 inb_S128x64_S1x64_127_0).view.loc (c : Thread nD τ) ↦[(rowM scM0 127 inb_S128x64_S1x64_127_0).view.set]{fullShare} f)
      ∗ ((rowM scM0 126 inb_S128x64_S1x64_126_0).view.loc (c : Thread nD τ) ↦[(rowM scM0 126 inb_S128x64_S1x64_126_0).view.set]{fullShare} f)
      ∗ ((rowM scM0 125 inb_S128x64_S1x64_125_0).view.loc (c : Thread nD τ) ↦[(rowM scM0 125 inb_S128x64_S1x64_125_0).view.set]{fullShare} f)
      ∗ ((rowM scM0 124 inb_S128x64_S1x64_124_0).view.loc (c : Thread nD τ) ↦[(rowM scM0 124 inb_S128x64_S1x64_124_0).view.set]{fullShare} f)
      ∗ ((rowM scM0 123 inb_S128x64_S1x64_123_0).view.loc (c : Thread nD τ) ↦[(rowM scM0 123 inb_S128x64_S1x64_123_0).view.set]{fullShare} f)
      ∗ ((rowM scM0 122 inb_S128x64_S1x64_122_0).view.loc (c : Thread nD τ) ↦[(rowM scM0 122 inb_S128x64_S1x64_122_0).view.set]{fullShare} f)
      ∗ ((rowM scM0 121 inb_S128x64_S1x64_121_0).view.loc (c : Thread nD τ) ↦[(rowM scM0 121 inb_S128x64_S1x64_121_0).view.set]{fullShare} f)
      ∗ ((rowM scM0 120 inb_S128x64_S1x64_120_0).view.loc (c : Thread nD τ) ↦[(rowM scM0 120 inb_S128x64_S1x64_120_0).view.set]{fullShare} f)
      ∗ ((rowM scM0 119 inb_S128x64_S1x64_119_0).view.loc (c : Thread nD τ) ↦[(rowM scM0 119 inb_S128x64_S1x64_119_0).view.set]{fullShare} f)
      ∗ ((rowM scM0 118 inb_S128x64_S1x64_118_0).view.loc (c : Thread nD τ) ↦[(rowM scM0 118 inb_S128x64_S1x64_118_0).view.set]{fullShare} f)
      ∗ ((rowM scM0 117 inb_S128x64_S1x64_117_0).view.loc (c : Thread nD τ) ↦[(rowM scM0 117 inb_S128x64_S1x64_117_0).view.set]{fullShare} f)
      ∗ ((rowM scM0 116 inb_S128x64_S1x64_116_0).view.loc (c : Thread nD τ) ↦[(rowM scM0 116 inb_S128x64_S1x64_116_0).view.set]{fullShare} f)
      ∗ ((rowM scM0 115 inb_S128x64_S1x64_115_0).view.loc (c : Thread nD τ) ↦[(rowM scM0 115 inb_S128x64_S1x64_115_0).view.set]{fullShare} f)
      ∗ ((rowM scM0 114 inb_S128x64_S1x64_114_0).view.loc (c : Thread nD τ) ↦[(rowM scM0 114 inb_S128x64_S1x64_114_0).view.set]{fullShare} f)
      ∗ ((rowM scM0 113 inb_S128x64_S1x64_113_0).view.loc (c : Thread nD τ) ↦[(rowM scM0 113 inb_S128x64_S1x64_113_0).view.set]{fullShare} f)
      ∗ ((rowM scM0 112 inb_S128x64_S1x64_112_0).view.loc (c : Thread nD τ) ↦[(rowM scM0 112 inb_S128x64_S1x64_112_0).view.set]{fullShare} f)
      ∗ ((rowM scM0 111 inb_S128x64_S1x64_111_0).view.loc (c : Thread nD τ) ↦[(rowM scM0 111 inb_S128x64_S1x64_111_0).view.set]{fullShare} f)
      ∗ ((rowM scM0 110 inb_S128x64_S1x64_110_0).view.loc (c : Thread nD τ) ↦[(rowM scM0 110 inb_S128x64_S1x64_110_0).view.set]{fullShare} f)
      ∗ ((rowM scM0 109 inb_S128x64_S1x64_109_0).view.loc (c : Thread nD τ) ↦[(rowM scM0 109 inb_S128x64_S1x64_109_0).view.set]{fullShare} f)
      ∗ ((rowM scM0 108 inb_S128x64_S1x64_108_0).view.loc (c : Thread nD τ) ↦[(rowM scM0 108 inb_S128x64_S1x64_108_0).view.set]{fullShare} f)
      ∗ ((rowM scM0 107 inb_S128x64_S1x64_107_0).view.loc (c : Thread nD τ) ↦[(rowM scM0 107 inb_S128x64_S1x64_107_0).view.set]{fullShare} f)
      ∗ ((rowM scM0 106 inb_S128x64_S1x64_106_0).view.loc (c : Thread nD τ) ↦[(rowM scM0 106 inb_S128x64_S1x64_106_0).view.set]{fullShare} f)
      ∗ ((rowM scM0 105 inb_S128x64_S1x64_105_0).view.loc (c : Thread nD τ) ↦[(rowM scM0 105 inb_S128x64_S1x64_105_0).view.set]{fullShare} f)
      ∗ ((rowM scM0 104 inb_S128x64_S1x64_104_0).view.loc (c : Thread nD τ) ↦[(rowM scM0 104 inb_S128x64_S1x64_104_0).view.set]{fullShare} f)
      ∗ ((rowM scM0 103 inb_S128x64_S1x64_103_0).view.loc (c : Thread nD τ) ↦[(rowM scM0 103 inb_S128x64_S1x64_103_0).view.set]{fullShare} f)
      ∗ ((rowM scM0 102 inb_S128x64_S1x64_102_0).view.loc (c : Thread nD τ) ↦[(rowM scM0 102 inb_S128x64_S1x64_102_0).view.set]{fullShare} f)
      ∗ ((rowM scM0 101 inb_S128x64_S1x64_101_0).view.loc (c : Thread nD τ) ↦[(rowM scM0 101 inb_S128x64_S1x64_101_0).view.set]{fullShare} f)
      ∗ ((rowM scM0 100 inb_S128x64_S1x64_100_0).view.loc (c : Thread nD τ) ↦[(rowM scM0 100 inb_S128x64_S1x64_100_0).view.set]{fullShare} f)
      ∗ ((rowM scM0 99 inb_S128x64_S1x64_99_0).view.loc (c : Thread nD τ) ↦[(rowM scM0 99 inb_S128x64_S1x64_99_0).view.set]{fullShare} f)
      ∗ ((rowM scM0 98 inb_S128x64_S1x64_98_0).view.loc (c : Thread nD τ) ↦[(rowM scM0 98 inb_S128x64_S1x64_98_0).view.set]{fullShare} f)
      ∗ ((rowM scM0 97 inb_S128x64_S1x64_97_0).view.loc (c : Thread nD τ) ↦[(rowM scM0 97 inb_S128x64_S1x64_97_0).view.set]{fullShare} f)
      ∗ ((rowM scM0 96 inb_S128x64_S1x64_96_0).view.loc (c : Thread nD τ) ↦[(rowM scM0 96 inb_S128x64_S1x64_96_0).view.set]{fullShare} f)
      ∗ ((rowM scM0 95 inb_S128x64_S1x64_95_0).view.loc (c : Thread nD τ) ↦[(rowM scM0 95 inb_S128x64_S1x64_95_0).view.set]{fullShare} f)
      ∗ ((rowM scM0 94 inb_S128x64_S1x64_94_0).view.loc (c : Thread nD τ) ↦[(rowM scM0 94 inb_S128x64_S1x64_94_0).view.set]{fullShare} f)
      ∗ ((rowM scM0 93 inb_S128x64_S1x64_93_0).view.loc (c : Thread nD τ) ↦[(rowM scM0 93 inb_S128x64_S1x64_93_0).view.set]{fullShare} f)
      ∗ ((rowM scM0 92 inb_S128x64_S1x64_92_0).view.loc (c : Thread nD τ) ↦[(rowM scM0 92 inb_S128x64_S1x64_92_0).view.set]{fullShare} f)
      ∗ ((rowM scM0 91 inb_S128x64_S1x64_91_0).view.loc (c : Thread nD τ) ↦[(rowM scM0 91 inb_S128x64_S1x64_91_0).view.set]{fullShare} f)
      ∗ ((rowM scM0 90 inb_S128x64_S1x64_90_0).view.loc (c : Thread nD τ) ↦[(rowM scM0 90 inb_S128x64_S1x64_90_0).view.set]{fullShare} f)
      ∗ ((rowM scM0 89 inb_S128x64_S1x64_89_0).view.loc (c : Thread nD τ) ↦[(rowM scM0 89 inb_S128x64_S1x64_89_0).view.set]{fullShare} f)
      ∗ ((rowM scM0 88 inb_S128x64_S1x64_88_0).view.loc (c : Thread nD τ) ↦[(rowM scM0 88 inb_S128x64_S1x64_88_0).view.set]{fullShare} f)
      ∗ ((rowM scM0 87 inb_S128x64_S1x64_87_0).view.loc (c : Thread nD τ) ↦[(rowM scM0 87 inb_S128x64_S1x64_87_0).view.set]{fullShare} f)
      ∗ ((rowM scM0 86 inb_S128x64_S1x64_86_0).view.loc (c : Thread nD τ) ↦[(rowM scM0 86 inb_S128x64_S1x64_86_0).view.set]{fullShare} f)
      ∗ ((rowM scM0 85 inb_S128x64_S1x64_85_0).view.loc (c : Thread nD τ) ↦[(rowM scM0 85 inb_S128x64_S1x64_85_0).view.set]{fullShare} f)
      ∗ ((rowM scM0 84 inb_S128x64_S1x64_84_0).view.loc (c : Thread nD τ) ↦[(rowM scM0 84 inb_S128x64_S1x64_84_0).view.set]{fullShare} f)
      ∗ ((rowM scM0 83 inb_S128x64_S1x64_83_0).view.loc (c : Thread nD τ) ↦[(rowM scM0 83 inb_S128x64_S1x64_83_0).view.set]{fullShare} f)
      ∗ ((rowM scM0 82 inb_S128x64_S1x64_82_0).view.loc (c : Thread nD τ) ↦[(rowM scM0 82 inb_S128x64_S1x64_82_0).view.set]{fullShare} f)
      ∗ ((rowM scM0 81 inb_S128x64_S1x64_81_0).view.loc (c : Thread nD τ) ↦[(rowM scM0 81 inb_S128x64_S1x64_81_0).view.set]{fullShare} f)
      ∗ ((rowM scM0 80 inb_S128x64_S1x64_80_0).view.loc (c : Thread nD τ) ↦[(rowM scM0 80 inb_S128x64_S1x64_80_0).view.set]{fullShare} f)
      ∗ ((rowM scM0 79 inb_S128x64_S1x64_79_0).view.loc (c : Thread nD τ) ↦[(rowM scM0 79 inb_S128x64_S1x64_79_0).view.set]{fullShare} f)
      ∗ ((rowM scM0 78 inb_S128x64_S1x64_78_0).view.loc (c : Thread nD τ) ↦[(rowM scM0 78 inb_S128x64_S1x64_78_0).view.set]{fullShare} f)
      ∗ ((rowM scM0 77 inb_S128x64_S1x64_77_0).view.loc (c : Thread nD τ) ↦[(rowM scM0 77 inb_S128x64_S1x64_77_0).view.set]{fullShare} f)
      ∗ ((rowM scM0 76 inb_S128x64_S1x64_76_0).view.loc (c : Thread nD τ) ↦[(rowM scM0 76 inb_S128x64_S1x64_76_0).view.set]{fullShare} f)
      ∗ ((rowM scM0 75 inb_S128x64_S1x64_75_0).view.loc (c : Thread nD τ) ↦[(rowM scM0 75 inb_S128x64_S1x64_75_0).view.set]{fullShare} f)
      ∗ ((rowM scM0 74 inb_S128x64_S1x64_74_0).view.loc (c : Thread nD τ) ↦[(rowM scM0 74 inb_S128x64_S1x64_74_0).view.set]{fullShare} f)
      ∗ ((rowM scM0 73 inb_S128x64_S1x64_73_0).view.loc (c : Thread nD τ) ↦[(rowM scM0 73 inb_S128x64_S1x64_73_0).view.set]{fullShare} f)
      ∗ ((rowM scM0 72 inb_S128x64_S1x64_72_0).view.loc (c : Thread nD τ) ↦[(rowM scM0 72 inb_S128x64_S1x64_72_0).view.set]{fullShare} f)
      ∗ ((rowM scM0 71 inb_S128x64_S1x64_71_0).view.loc (c : Thread nD τ) ↦[(rowM scM0 71 inb_S128x64_S1x64_71_0).view.set]{fullShare} f)
      ∗ ((rowM scM0 70 inb_S128x64_S1x64_70_0).view.loc (c : Thread nD τ) ↦[(rowM scM0 70 inb_S128x64_S1x64_70_0).view.set]{fullShare} f)
      ∗ ((rowM scM0 69 inb_S128x64_S1x64_69_0).view.loc (c : Thread nD τ) ↦[(rowM scM0 69 inb_S128x64_S1x64_69_0).view.set]{fullShare} f)
      ∗ ((rowM scM0 68 inb_S128x64_S1x64_68_0).view.loc (c : Thread nD τ) ↦[(rowM scM0 68 inb_S128x64_S1x64_68_0).view.set]{fullShare} f)
      ∗ ((rowM scM0 67 inb_S128x64_S1x64_67_0).view.loc (c : Thread nD τ) ↦[(rowM scM0 67 inb_S128x64_S1x64_67_0).view.set]{fullShare} f)
      ∗ ((rowM scM0 66 inb_S128x64_S1x64_66_0).view.loc (c : Thread nD τ) ↦[(rowM scM0 66 inb_S128x64_S1x64_66_0).view.set]{fullShare} f)
      ∗ ((rowM scM0 65 inb_S128x64_S1x64_65_0).view.loc (c : Thread nD τ) ↦[(rowM scM0 65 inb_S128x64_S1x64_65_0).view.set]{fullShare} f)
      ∗ ((rowM scM0 64 inb_S128x64_S1x64_64_0).view.loc (c : Thread nD τ) ↦[(rowM scM0 64 inb_S128x64_S1x64_64_0).view.set]{fullShare} f)
      ∗ ((rowM scM0 63 inb_S128x64_S1x64_63_0).view.loc (c : Thread nD τ) ↦[(rowM scM0 63 inb_S128x64_S1x64_63_0).view.set]{fullShare} f)
      ∗ ((rowM scM0 62 inb_S128x64_S1x64_62_0).view.loc (c : Thread nD τ) ↦[(rowM scM0 62 inb_S128x64_S1x64_62_0).view.set]{fullShare} f)
      ∗ ((rowM scM0 61 inb_S128x64_S1x64_61_0).view.loc (c : Thread nD τ) ↦[(rowM scM0 61 inb_S128x64_S1x64_61_0).view.set]{fullShare} f)
      ∗ ((rowM scM0 60 inb_S128x64_S1x64_60_0).view.loc (c : Thread nD τ) ↦[(rowM scM0 60 inb_S128x64_S1x64_60_0).view.set]{fullShare} f)
      ∗ ((rowM scM0 59 inb_S128x64_S1x64_59_0).view.loc (c : Thread nD τ) ↦[(rowM scM0 59 inb_S128x64_S1x64_59_0).view.set]{fullShare} f)
      ∗ ((rowM scM0 58 inb_S128x64_S1x64_58_0).view.loc (c : Thread nD τ) ↦[(rowM scM0 58 inb_S128x64_S1x64_58_0).view.set]{fullShare} f)
      ∗ ((rowM scM0 57 inb_S128x64_S1x64_57_0).view.loc (c : Thread nD τ) ↦[(rowM scM0 57 inb_S128x64_S1x64_57_0).view.set]{fullShare} f)
      ∗ ((rowM scM0 56 inb_S128x64_S1x64_56_0).view.loc (c : Thread nD τ) ↦[(rowM scM0 56 inb_S128x64_S1x64_56_0).view.set]{fullShare} f)
      ∗ ((rowM scM0 55 inb_S128x64_S1x64_55_0).view.loc (c : Thread nD τ) ↦[(rowM scM0 55 inb_S128x64_S1x64_55_0).view.set]{fullShare} f)
      ∗ ((rowM scM0 54 inb_S128x64_S1x64_54_0).view.loc (c : Thread nD τ) ↦[(rowM scM0 54 inb_S128x64_S1x64_54_0).view.set]{fullShare} f)
      ∗ ((rowM scM0 53 inb_S128x64_S1x64_53_0).view.loc (c : Thread nD τ) ↦[(rowM scM0 53 inb_S128x64_S1x64_53_0).view.set]{fullShare} f)
      ∗ ((rowM scM0 52 inb_S128x64_S1x64_52_0).view.loc (c : Thread nD τ) ↦[(rowM scM0 52 inb_S128x64_S1x64_52_0).view.set]{fullShare} f)
      ∗ ((rowM scM0 51 inb_S128x64_S1x64_51_0).view.loc (c : Thread nD τ) ↦[(rowM scM0 51 inb_S128x64_S1x64_51_0).view.set]{fullShare} f)
      ∗ ((rowM scM0 50 inb_S128x64_S1x64_50_0).view.loc (c : Thread nD τ) ↦[(rowM scM0 50 inb_S128x64_S1x64_50_0).view.set]{fullShare} f)
      ∗ ((rowM scM0 49 inb_S128x64_S1x64_49_0).view.loc (c : Thread nD τ) ↦[(rowM scM0 49 inb_S128x64_S1x64_49_0).view.set]{fullShare} f)
      ∗ ((rowM scM0 48 inb_S128x64_S1x64_48_0).view.loc (c : Thread nD τ) ↦[(rowM scM0 48 inb_S128x64_S1x64_48_0).view.set]{fullShare} f)
      ∗ ((rowM scM0 47 inb_S128x64_S1x64_47_0).view.loc (c : Thread nD τ) ↦[(rowM scM0 47 inb_S128x64_S1x64_47_0).view.set]{fullShare} f)
      ∗ ((rowM scM0 46 inb_S128x64_S1x64_46_0).view.loc (c : Thread nD τ) ↦[(rowM scM0 46 inb_S128x64_S1x64_46_0).view.set]{fullShare} f)
      ∗ ((rowM scM0 45 inb_S128x64_S1x64_45_0).view.loc (c : Thread nD τ) ↦[(rowM scM0 45 inb_S128x64_S1x64_45_0).view.set]{fullShare} f)
      ∗ ((rowM scM0 44 inb_S128x64_S1x64_44_0).view.loc (c : Thread nD τ) ↦[(rowM scM0 44 inb_S128x64_S1x64_44_0).view.set]{fullShare} f)
      ∗ ((rowM scM0 43 inb_S128x64_S1x64_43_0).view.loc (c : Thread nD τ) ↦[(rowM scM0 43 inb_S128x64_S1x64_43_0).view.set]{fullShare} f)
      ∗ ((rowM scM0 42 inb_S128x64_S1x64_42_0).view.loc (c : Thread nD τ) ↦[(rowM scM0 42 inb_S128x64_S1x64_42_0).view.set]{fullShare} f)
      ∗ ((rowM scM0 41 inb_S128x64_S1x64_41_0).view.loc (c : Thread nD τ) ↦[(rowM scM0 41 inb_S128x64_S1x64_41_0).view.set]{fullShare} f)
      ∗ ((rowM scM0 40 inb_S128x64_S1x64_40_0).view.loc (c : Thread nD τ) ↦[(rowM scM0 40 inb_S128x64_S1x64_40_0).view.set]{fullShare} f)
      ∗ ((rowM scM0 39 inb_S128x64_S1x64_39_0).view.loc (c : Thread nD τ) ↦[(rowM scM0 39 inb_S128x64_S1x64_39_0).view.set]{fullShare} f)
      ∗ ((rowM scM0 38 inb_S128x64_S1x64_38_0).view.loc (c : Thread nD τ) ↦[(rowM scM0 38 inb_S128x64_S1x64_38_0).view.set]{fullShare} f)
      ∗ ((rowM scM0 37 inb_S128x64_S1x64_37_0).view.loc (c : Thread nD τ) ↦[(rowM scM0 37 inb_S128x64_S1x64_37_0).view.set]{fullShare} f)
      ∗ ((rowM scM0 36 inb_S128x64_S1x64_36_0).view.loc (c : Thread nD τ) ↦[(rowM scM0 36 inb_S128x64_S1x64_36_0).view.set]{fullShare} f)
      ∗ ((rowM scM0 35 inb_S128x64_S1x64_35_0).view.loc (c : Thread nD τ) ↦[(rowM scM0 35 inb_S128x64_S1x64_35_0).view.set]{fullShare} f)
      ∗ ((rowM scM0 34 inb_S128x64_S1x64_34_0).view.loc (c : Thread nD τ) ↦[(rowM scM0 34 inb_S128x64_S1x64_34_0).view.set]{fullShare} f)
      ∗ ((rowM scM0 33 inb_S128x64_S1x64_33_0).view.loc (c : Thread nD τ) ↦[(rowM scM0 33 inb_S128x64_S1x64_33_0).view.set]{fullShare} f)
      ∗ ((rowM scM0 32 inb_S128x64_S1x64_32_0).view.loc (c : Thread nD τ) ↦[(rowM scM0 32 inb_S128x64_S1x64_32_0).view.set]{fullShare} f)
      ∗ ((rowM scM0 31 inb_S128x64_S1x64_31_0).view.loc (c : Thread nD τ) ↦[(rowM scM0 31 inb_S128x64_S1x64_31_0).view.set]{fullShare} f)
      ∗ ((rowM scM0 30 inb_S128x64_S1x64_30_0).view.loc (c : Thread nD τ) ↦[(rowM scM0 30 inb_S128x64_S1x64_30_0).view.set]{fullShare} f)
      ∗ ((rowM scM0 29 inb_S128x64_S1x64_29_0).view.loc (c : Thread nD τ) ↦[(rowM scM0 29 inb_S128x64_S1x64_29_0).view.set]{fullShare} f)
      ∗ ((rowM scM0 28 inb_S128x64_S1x64_28_0).view.loc (c : Thread nD τ) ↦[(rowM scM0 28 inb_S128x64_S1x64_28_0).view.set]{fullShare} f)
      ∗ ((rowM scM0 27 inb_S128x64_S1x64_27_0).view.loc (c : Thread nD τ) ↦[(rowM scM0 27 inb_S128x64_S1x64_27_0).view.set]{fullShare} f)
      ∗ ((rowM scM0 26 inb_S128x64_S1x64_26_0).view.loc (c : Thread nD τ) ↦[(rowM scM0 26 inb_S128x64_S1x64_26_0).view.set]{fullShare} f)
      ∗ ((rowM scM0 25 inb_S128x64_S1x64_25_0).view.loc (c : Thread nD τ) ↦[(rowM scM0 25 inb_S128x64_S1x64_25_0).view.set]{fullShare} f)
      ∗ ((rowM scM0 24 inb_S128x64_S1x64_24_0).view.loc (c : Thread nD τ) ↦[(rowM scM0 24 inb_S128x64_S1x64_24_0).view.set]{fullShare} f)
      ∗ ((rowM scM0 23 inb_S128x64_S1x64_23_0).view.loc (c : Thread nD τ) ↦[(rowM scM0 23 inb_S128x64_S1x64_23_0).view.set]{fullShare} f)
      ∗ ((rowM scM0 22 inb_S128x64_S1x64_22_0).view.loc (c : Thread nD τ) ↦[(rowM scM0 22 inb_S128x64_S1x64_22_0).view.set]{fullShare} f)
      ∗ ((rowM scM0 21 inb_S128x64_S1x64_21_0).view.loc (c : Thread nD τ) ↦[(rowM scM0 21 inb_S128x64_S1x64_21_0).view.set]{fullShare} f)
      ∗ ((rowM scM0 20 inb_S128x64_S1x64_20_0).view.loc (c : Thread nD τ) ↦[(rowM scM0 20 inb_S128x64_S1x64_20_0).view.set]{fullShare} f)
      ∗ ((rowM scM0 19 inb_S128x64_S1x64_19_0).view.loc (c : Thread nD τ) ↦[(rowM scM0 19 inb_S128x64_S1x64_19_0).view.set]{fullShare} f)
      ∗ ((rowM scM0 18 inb_S128x64_S1x64_18_0).view.loc (c : Thread nD τ) ↦[(rowM scM0 18 inb_S128x64_S1x64_18_0).view.set]{fullShare} f)
      ∗ ((rowM scM0 17 inb_S128x64_S1x64_17_0).view.loc (c : Thread nD τ) ↦[(rowM scM0 17 inb_S128x64_S1x64_17_0).view.set]{fullShare} f)
      ∗ ((rowM scM0 16 inb_S128x64_S1x64_16_0).view.loc (c : Thread nD τ) ↦[(rowM scM0 16 inb_S128x64_S1x64_16_0).view.set]{fullShare} f)
      ∗ ((rowM scM0 15 inb_S128x64_S1x64_15_0).view.loc (c : Thread nD τ) ↦[(rowM scM0 15 inb_S128x64_S1x64_15_0).view.set]{fullShare} f)
      ∗ ((rowM scM0 14 inb_S128x64_S1x64_14_0).view.loc (c : Thread nD τ) ↦[(rowM scM0 14 inb_S128x64_S1x64_14_0).view.set]{fullShare} f)
      ∗ ((rowM scM0 13 inb_S128x64_S1x64_13_0).view.loc (c : Thread nD τ) ↦[(rowM scM0 13 inb_S128x64_S1x64_13_0).view.set]{fullShare} f)
      ∗ ((rowM scM0 12 inb_S128x64_S1x64_12_0).view.loc (c : Thread nD τ) ↦[(rowM scM0 12 inb_S128x64_S1x64_12_0).view.set]{fullShare} f)
      ∗ ((rowM scM0 11 inb_S128x64_S1x64_11_0).view.loc (c : Thread nD τ) ↦[(rowM scM0 11 inb_S128x64_S1x64_11_0).view.set]{fullShare} f)
      ∗ ((rowM scM0 10 inb_S128x64_S1x64_10_0).view.loc (c : Thread nD τ) ↦[(rowM scM0 10 inb_S128x64_S1x64_10_0).view.set]{fullShare} f)
      ∗ ((rowM scM0 9 inb_S128x64_S1x64_9_0).view.loc (c : Thread nD τ) ↦[(rowM scM0 9 inb_S128x64_S1x64_9_0).view.set]{fullShare} f)
      ∗ ((rowM scM0 8 inb_S128x64_S1x64_8_0).view.loc (c : Thread nD τ) ↦[(rowM scM0 8 inb_S128x64_S1x64_8_0).view.set]{fullShare} f)
      ∗ ((rowM scM0 7 inb_S128x64_S1x64_7_0).view.loc (c : Thread nD τ) ↦[(rowM scM0 7 inb_S128x64_S1x64_7_0).view.set]{fullShare} f)
      ∗ ((rowM scM0 6 inb_S128x64_S1x64_6_0).view.loc (c : Thread nD τ) ↦[(rowM scM0 6 inb_S128x64_S1x64_6_0).view.set]{fullShare} f)
      ∗ ((rowM scM0 5 inb_S128x64_S1x64_5_0).view.loc (c : Thread nD τ) ↦[(rowM scM0 5 inb_S128x64_S1x64_5_0).view.set]{fullShare} f)
      ∗ ((rowM scM0 4 inb_S128x64_S1x64_4_0).view.loc (c : Thread nD τ) ↦[(rowM scM0 4 inb_S128x64_S1x64_4_0).view.set]{fullShare} f)
      ∗ ((rowM scM0 3 inb_S128x64_S1x64_3_0).view.loc (c : Thread nD τ) ↦[(rowM scM0 3 inb_S128x64_S1x64_3_0).view.set]{fullShare} f)
      ∗ ((rowM scM0 2 inb_S128x64_S1x64_2_0).view.loc (c : Thread nD τ) ↦[(rowM scM0 2 inb_S128x64_S1x64_2_0).view.set]{fullShare} f)
      ∗ ((rowM scM0 1 inb_S128x64_S1x64_1_0).view.loc (c : Thread nD τ) ↦[(rowM scM0 1 inb_S128x64_S1x64_1_0).view.set]{fullShare} f)
      ∗ ((rowM scM0 0 inb_S128x64_S1x64_0_0).view.loc (c : Thread nD τ) ↦[(rowM scM0 0 inb_S128x64_S1x64_0_0).view.set]{fullShare} f)
      ∗ emp) : sProp 𝕄) ⊢ (scM0.view.loc (c : Thread nD τ) ↦[scM0.view.set]{fullShare} f) :=
  Entails.of_eq (rows_close (F := F) scM0 c f)

set_option maxHeartbeats 16000000 in
/-- The 128 row pieces of scratch buffer 1, all at one contents, highest row first, are the buffer's elements at those contents. -/
theorem rows_down1 (c : Dev nD) (f : Buf (Elt F) (scM1.view.loc (c : Thread nD τ))) :
    (iprop(((rowM scM1 127 inb_S128x64_S1x64_127_0).view.loc (c : Thread nD τ) ↦[(rowM scM1 127 inb_S128x64_S1x64_127_0).view.set]{fullShare} f)
      ∗ ((rowM scM1 126 inb_S128x64_S1x64_126_0).view.loc (c : Thread nD τ) ↦[(rowM scM1 126 inb_S128x64_S1x64_126_0).view.set]{fullShare} f)
      ∗ ((rowM scM1 125 inb_S128x64_S1x64_125_0).view.loc (c : Thread nD τ) ↦[(rowM scM1 125 inb_S128x64_S1x64_125_0).view.set]{fullShare} f)
      ∗ ((rowM scM1 124 inb_S128x64_S1x64_124_0).view.loc (c : Thread nD τ) ↦[(rowM scM1 124 inb_S128x64_S1x64_124_0).view.set]{fullShare} f)
      ∗ ((rowM scM1 123 inb_S128x64_S1x64_123_0).view.loc (c : Thread nD τ) ↦[(rowM scM1 123 inb_S128x64_S1x64_123_0).view.set]{fullShare} f)
      ∗ ((rowM scM1 122 inb_S128x64_S1x64_122_0).view.loc (c : Thread nD τ) ↦[(rowM scM1 122 inb_S128x64_S1x64_122_0).view.set]{fullShare} f)
      ∗ ((rowM scM1 121 inb_S128x64_S1x64_121_0).view.loc (c : Thread nD τ) ↦[(rowM scM1 121 inb_S128x64_S1x64_121_0).view.set]{fullShare} f)
      ∗ ((rowM scM1 120 inb_S128x64_S1x64_120_0).view.loc (c : Thread nD τ) ↦[(rowM scM1 120 inb_S128x64_S1x64_120_0).view.set]{fullShare} f)
      ∗ ((rowM scM1 119 inb_S128x64_S1x64_119_0).view.loc (c : Thread nD τ) ↦[(rowM scM1 119 inb_S128x64_S1x64_119_0).view.set]{fullShare} f)
      ∗ ((rowM scM1 118 inb_S128x64_S1x64_118_0).view.loc (c : Thread nD τ) ↦[(rowM scM1 118 inb_S128x64_S1x64_118_0).view.set]{fullShare} f)
      ∗ ((rowM scM1 117 inb_S128x64_S1x64_117_0).view.loc (c : Thread nD τ) ↦[(rowM scM1 117 inb_S128x64_S1x64_117_0).view.set]{fullShare} f)
      ∗ ((rowM scM1 116 inb_S128x64_S1x64_116_0).view.loc (c : Thread nD τ) ↦[(rowM scM1 116 inb_S128x64_S1x64_116_0).view.set]{fullShare} f)
      ∗ ((rowM scM1 115 inb_S128x64_S1x64_115_0).view.loc (c : Thread nD τ) ↦[(rowM scM1 115 inb_S128x64_S1x64_115_0).view.set]{fullShare} f)
      ∗ ((rowM scM1 114 inb_S128x64_S1x64_114_0).view.loc (c : Thread nD τ) ↦[(rowM scM1 114 inb_S128x64_S1x64_114_0).view.set]{fullShare} f)
      ∗ ((rowM scM1 113 inb_S128x64_S1x64_113_0).view.loc (c : Thread nD τ) ↦[(rowM scM1 113 inb_S128x64_S1x64_113_0).view.set]{fullShare} f)
      ∗ ((rowM scM1 112 inb_S128x64_S1x64_112_0).view.loc (c : Thread nD τ) ↦[(rowM scM1 112 inb_S128x64_S1x64_112_0).view.set]{fullShare} f)
      ∗ ((rowM scM1 111 inb_S128x64_S1x64_111_0).view.loc (c : Thread nD τ) ↦[(rowM scM1 111 inb_S128x64_S1x64_111_0).view.set]{fullShare} f)
      ∗ ((rowM scM1 110 inb_S128x64_S1x64_110_0).view.loc (c : Thread nD τ) ↦[(rowM scM1 110 inb_S128x64_S1x64_110_0).view.set]{fullShare} f)
      ∗ ((rowM scM1 109 inb_S128x64_S1x64_109_0).view.loc (c : Thread nD τ) ↦[(rowM scM1 109 inb_S128x64_S1x64_109_0).view.set]{fullShare} f)
      ∗ ((rowM scM1 108 inb_S128x64_S1x64_108_0).view.loc (c : Thread nD τ) ↦[(rowM scM1 108 inb_S128x64_S1x64_108_0).view.set]{fullShare} f)
      ∗ ((rowM scM1 107 inb_S128x64_S1x64_107_0).view.loc (c : Thread nD τ) ↦[(rowM scM1 107 inb_S128x64_S1x64_107_0).view.set]{fullShare} f)
      ∗ ((rowM scM1 106 inb_S128x64_S1x64_106_0).view.loc (c : Thread nD τ) ↦[(rowM scM1 106 inb_S128x64_S1x64_106_0).view.set]{fullShare} f)
      ∗ ((rowM scM1 105 inb_S128x64_S1x64_105_0).view.loc (c : Thread nD τ) ↦[(rowM scM1 105 inb_S128x64_S1x64_105_0).view.set]{fullShare} f)
      ∗ ((rowM scM1 104 inb_S128x64_S1x64_104_0).view.loc (c : Thread nD τ) ↦[(rowM scM1 104 inb_S128x64_S1x64_104_0).view.set]{fullShare} f)
      ∗ ((rowM scM1 103 inb_S128x64_S1x64_103_0).view.loc (c : Thread nD τ) ↦[(rowM scM1 103 inb_S128x64_S1x64_103_0).view.set]{fullShare} f)
      ∗ ((rowM scM1 102 inb_S128x64_S1x64_102_0).view.loc (c : Thread nD τ) ↦[(rowM scM1 102 inb_S128x64_S1x64_102_0).view.set]{fullShare} f)
      ∗ ((rowM scM1 101 inb_S128x64_S1x64_101_0).view.loc (c : Thread nD τ) ↦[(rowM scM1 101 inb_S128x64_S1x64_101_0).view.set]{fullShare} f)
      ∗ ((rowM scM1 100 inb_S128x64_S1x64_100_0).view.loc (c : Thread nD τ) ↦[(rowM scM1 100 inb_S128x64_S1x64_100_0).view.set]{fullShare} f)
      ∗ ((rowM scM1 99 inb_S128x64_S1x64_99_0).view.loc (c : Thread nD τ) ↦[(rowM scM1 99 inb_S128x64_S1x64_99_0).view.set]{fullShare} f)
      ∗ ((rowM scM1 98 inb_S128x64_S1x64_98_0).view.loc (c : Thread nD τ) ↦[(rowM scM1 98 inb_S128x64_S1x64_98_0).view.set]{fullShare} f)
      ∗ ((rowM scM1 97 inb_S128x64_S1x64_97_0).view.loc (c : Thread nD τ) ↦[(rowM scM1 97 inb_S128x64_S1x64_97_0).view.set]{fullShare} f)
      ∗ ((rowM scM1 96 inb_S128x64_S1x64_96_0).view.loc (c : Thread nD τ) ↦[(rowM scM1 96 inb_S128x64_S1x64_96_0).view.set]{fullShare} f)
      ∗ ((rowM scM1 95 inb_S128x64_S1x64_95_0).view.loc (c : Thread nD τ) ↦[(rowM scM1 95 inb_S128x64_S1x64_95_0).view.set]{fullShare} f)
      ∗ ((rowM scM1 94 inb_S128x64_S1x64_94_0).view.loc (c : Thread nD τ) ↦[(rowM scM1 94 inb_S128x64_S1x64_94_0).view.set]{fullShare} f)
      ∗ ((rowM scM1 93 inb_S128x64_S1x64_93_0).view.loc (c : Thread nD τ) ↦[(rowM scM1 93 inb_S128x64_S1x64_93_0).view.set]{fullShare} f)
      ∗ ((rowM scM1 92 inb_S128x64_S1x64_92_0).view.loc (c : Thread nD τ) ↦[(rowM scM1 92 inb_S128x64_S1x64_92_0).view.set]{fullShare} f)
      ∗ ((rowM scM1 91 inb_S128x64_S1x64_91_0).view.loc (c : Thread nD τ) ↦[(rowM scM1 91 inb_S128x64_S1x64_91_0).view.set]{fullShare} f)
      ∗ ((rowM scM1 90 inb_S128x64_S1x64_90_0).view.loc (c : Thread nD τ) ↦[(rowM scM1 90 inb_S128x64_S1x64_90_0).view.set]{fullShare} f)
      ∗ ((rowM scM1 89 inb_S128x64_S1x64_89_0).view.loc (c : Thread nD τ) ↦[(rowM scM1 89 inb_S128x64_S1x64_89_0).view.set]{fullShare} f)
      ∗ ((rowM scM1 88 inb_S128x64_S1x64_88_0).view.loc (c : Thread nD τ) ↦[(rowM scM1 88 inb_S128x64_S1x64_88_0).view.set]{fullShare} f)
      ∗ ((rowM scM1 87 inb_S128x64_S1x64_87_0).view.loc (c : Thread nD τ) ↦[(rowM scM1 87 inb_S128x64_S1x64_87_0).view.set]{fullShare} f)
      ∗ ((rowM scM1 86 inb_S128x64_S1x64_86_0).view.loc (c : Thread nD τ) ↦[(rowM scM1 86 inb_S128x64_S1x64_86_0).view.set]{fullShare} f)
      ∗ ((rowM scM1 85 inb_S128x64_S1x64_85_0).view.loc (c : Thread nD τ) ↦[(rowM scM1 85 inb_S128x64_S1x64_85_0).view.set]{fullShare} f)
      ∗ ((rowM scM1 84 inb_S128x64_S1x64_84_0).view.loc (c : Thread nD τ) ↦[(rowM scM1 84 inb_S128x64_S1x64_84_0).view.set]{fullShare} f)
      ∗ ((rowM scM1 83 inb_S128x64_S1x64_83_0).view.loc (c : Thread nD τ) ↦[(rowM scM1 83 inb_S128x64_S1x64_83_0).view.set]{fullShare} f)
      ∗ ((rowM scM1 82 inb_S128x64_S1x64_82_0).view.loc (c : Thread nD τ) ↦[(rowM scM1 82 inb_S128x64_S1x64_82_0).view.set]{fullShare} f)
      ∗ ((rowM scM1 81 inb_S128x64_S1x64_81_0).view.loc (c : Thread nD τ) ↦[(rowM scM1 81 inb_S128x64_S1x64_81_0).view.set]{fullShare} f)
      ∗ ((rowM scM1 80 inb_S128x64_S1x64_80_0).view.loc (c : Thread nD τ) ↦[(rowM scM1 80 inb_S128x64_S1x64_80_0).view.set]{fullShare} f)
      ∗ ((rowM scM1 79 inb_S128x64_S1x64_79_0).view.loc (c : Thread nD τ) ↦[(rowM scM1 79 inb_S128x64_S1x64_79_0).view.set]{fullShare} f)
      ∗ ((rowM scM1 78 inb_S128x64_S1x64_78_0).view.loc (c : Thread nD τ) ↦[(rowM scM1 78 inb_S128x64_S1x64_78_0).view.set]{fullShare} f)
      ∗ ((rowM scM1 77 inb_S128x64_S1x64_77_0).view.loc (c : Thread nD τ) ↦[(rowM scM1 77 inb_S128x64_S1x64_77_0).view.set]{fullShare} f)
      ∗ ((rowM scM1 76 inb_S128x64_S1x64_76_0).view.loc (c : Thread nD τ) ↦[(rowM scM1 76 inb_S128x64_S1x64_76_0).view.set]{fullShare} f)
      ∗ ((rowM scM1 75 inb_S128x64_S1x64_75_0).view.loc (c : Thread nD τ) ↦[(rowM scM1 75 inb_S128x64_S1x64_75_0).view.set]{fullShare} f)
      ∗ ((rowM scM1 74 inb_S128x64_S1x64_74_0).view.loc (c : Thread nD τ) ↦[(rowM scM1 74 inb_S128x64_S1x64_74_0).view.set]{fullShare} f)
      ∗ ((rowM scM1 73 inb_S128x64_S1x64_73_0).view.loc (c : Thread nD τ) ↦[(rowM scM1 73 inb_S128x64_S1x64_73_0).view.set]{fullShare} f)
      ∗ ((rowM scM1 72 inb_S128x64_S1x64_72_0).view.loc (c : Thread nD τ) ↦[(rowM scM1 72 inb_S128x64_S1x64_72_0).view.set]{fullShare} f)
      ∗ ((rowM scM1 71 inb_S128x64_S1x64_71_0).view.loc (c : Thread nD τ) ↦[(rowM scM1 71 inb_S128x64_S1x64_71_0).view.set]{fullShare} f)
      ∗ ((rowM scM1 70 inb_S128x64_S1x64_70_0).view.loc (c : Thread nD τ) ↦[(rowM scM1 70 inb_S128x64_S1x64_70_0).view.set]{fullShare} f)
      ∗ ((rowM scM1 69 inb_S128x64_S1x64_69_0).view.loc (c : Thread nD τ) ↦[(rowM scM1 69 inb_S128x64_S1x64_69_0).view.set]{fullShare} f)
      ∗ ((rowM scM1 68 inb_S128x64_S1x64_68_0).view.loc (c : Thread nD τ) ↦[(rowM scM1 68 inb_S128x64_S1x64_68_0).view.set]{fullShare} f)
      ∗ ((rowM scM1 67 inb_S128x64_S1x64_67_0).view.loc (c : Thread nD τ) ↦[(rowM scM1 67 inb_S128x64_S1x64_67_0).view.set]{fullShare} f)
      ∗ ((rowM scM1 66 inb_S128x64_S1x64_66_0).view.loc (c : Thread nD τ) ↦[(rowM scM1 66 inb_S128x64_S1x64_66_0).view.set]{fullShare} f)
      ∗ ((rowM scM1 65 inb_S128x64_S1x64_65_0).view.loc (c : Thread nD τ) ↦[(rowM scM1 65 inb_S128x64_S1x64_65_0).view.set]{fullShare} f)
      ∗ ((rowM scM1 64 inb_S128x64_S1x64_64_0).view.loc (c : Thread nD τ) ↦[(rowM scM1 64 inb_S128x64_S1x64_64_0).view.set]{fullShare} f)
      ∗ ((rowM scM1 63 inb_S128x64_S1x64_63_0).view.loc (c : Thread nD τ) ↦[(rowM scM1 63 inb_S128x64_S1x64_63_0).view.set]{fullShare} f)
      ∗ ((rowM scM1 62 inb_S128x64_S1x64_62_0).view.loc (c : Thread nD τ) ↦[(rowM scM1 62 inb_S128x64_S1x64_62_0).view.set]{fullShare} f)
      ∗ ((rowM scM1 61 inb_S128x64_S1x64_61_0).view.loc (c : Thread nD τ) ↦[(rowM scM1 61 inb_S128x64_S1x64_61_0).view.set]{fullShare} f)
      ∗ ((rowM scM1 60 inb_S128x64_S1x64_60_0).view.loc (c : Thread nD τ) ↦[(rowM scM1 60 inb_S128x64_S1x64_60_0).view.set]{fullShare} f)
      ∗ ((rowM scM1 59 inb_S128x64_S1x64_59_0).view.loc (c : Thread nD τ) ↦[(rowM scM1 59 inb_S128x64_S1x64_59_0).view.set]{fullShare} f)
      ∗ ((rowM scM1 58 inb_S128x64_S1x64_58_0).view.loc (c : Thread nD τ) ↦[(rowM scM1 58 inb_S128x64_S1x64_58_0).view.set]{fullShare} f)
      ∗ ((rowM scM1 57 inb_S128x64_S1x64_57_0).view.loc (c : Thread nD τ) ↦[(rowM scM1 57 inb_S128x64_S1x64_57_0).view.set]{fullShare} f)
      ∗ ((rowM scM1 56 inb_S128x64_S1x64_56_0).view.loc (c : Thread nD τ) ↦[(rowM scM1 56 inb_S128x64_S1x64_56_0).view.set]{fullShare} f)
      ∗ ((rowM scM1 55 inb_S128x64_S1x64_55_0).view.loc (c : Thread nD τ) ↦[(rowM scM1 55 inb_S128x64_S1x64_55_0).view.set]{fullShare} f)
      ∗ ((rowM scM1 54 inb_S128x64_S1x64_54_0).view.loc (c : Thread nD τ) ↦[(rowM scM1 54 inb_S128x64_S1x64_54_0).view.set]{fullShare} f)
      ∗ ((rowM scM1 53 inb_S128x64_S1x64_53_0).view.loc (c : Thread nD τ) ↦[(rowM scM1 53 inb_S128x64_S1x64_53_0).view.set]{fullShare} f)
      ∗ ((rowM scM1 52 inb_S128x64_S1x64_52_0).view.loc (c : Thread nD τ) ↦[(rowM scM1 52 inb_S128x64_S1x64_52_0).view.set]{fullShare} f)
      ∗ ((rowM scM1 51 inb_S128x64_S1x64_51_0).view.loc (c : Thread nD τ) ↦[(rowM scM1 51 inb_S128x64_S1x64_51_0).view.set]{fullShare} f)
      ∗ ((rowM scM1 50 inb_S128x64_S1x64_50_0).view.loc (c : Thread nD τ) ↦[(rowM scM1 50 inb_S128x64_S1x64_50_0).view.set]{fullShare} f)
      ∗ ((rowM scM1 49 inb_S128x64_S1x64_49_0).view.loc (c : Thread nD τ) ↦[(rowM scM1 49 inb_S128x64_S1x64_49_0).view.set]{fullShare} f)
      ∗ ((rowM scM1 48 inb_S128x64_S1x64_48_0).view.loc (c : Thread nD τ) ↦[(rowM scM1 48 inb_S128x64_S1x64_48_0).view.set]{fullShare} f)
      ∗ ((rowM scM1 47 inb_S128x64_S1x64_47_0).view.loc (c : Thread nD τ) ↦[(rowM scM1 47 inb_S128x64_S1x64_47_0).view.set]{fullShare} f)
      ∗ ((rowM scM1 46 inb_S128x64_S1x64_46_0).view.loc (c : Thread nD τ) ↦[(rowM scM1 46 inb_S128x64_S1x64_46_0).view.set]{fullShare} f)
      ∗ ((rowM scM1 45 inb_S128x64_S1x64_45_0).view.loc (c : Thread nD τ) ↦[(rowM scM1 45 inb_S128x64_S1x64_45_0).view.set]{fullShare} f)
      ∗ ((rowM scM1 44 inb_S128x64_S1x64_44_0).view.loc (c : Thread nD τ) ↦[(rowM scM1 44 inb_S128x64_S1x64_44_0).view.set]{fullShare} f)
      ∗ ((rowM scM1 43 inb_S128x64_S1x64_43_0).view.loc (c : Thread nD τ) ↦[(rowM scM1 43 inb_S128x64_S1x64_43_0).view.set]{fullShare} f)
      ∗ ((rowM scM1 42 inb_S128x64_S1x64_42_0).view.loc (c : Thread nD τ) ↦[(rowM scM1 42 inb_S128x64_S1x64_42_0).view.set]{fullShare} f)
      ∗ ((rowM scM1 41 inb_S128x64_S1x64_41_0).view.loc (c : Thread nD τ) ↦[(rowM scM1 41 inb_S128x64_S1x64_41_0).view.set]{fullShare} f)
      ∗ ((rowM scM1 40 inb_S128x64_S1x64_40_0).view.loc (c : Thread nD τ) ↦[(rowM scM1 40 inb_S128x64_S1x64_40_0).view.set]{fullShare} f)
      ∗ ((rowM scM1 39 inb_S128x64_S1x64_39_0).view.loc (c : Thread nD τ) ↦[(rowM scM1 39 inb_S128x64_S1x64_39_0).view.set]{fullShare} f)
      ∗ ((rowM scM1 38 inb_S128x64_S1x64_38_0).view.loc (c : Thread nD τ) ↦[(rowM scM1 38 inb_S128x64_S1x64_38_0).view.set]{fullShare} f)
      ∗ ((rowM scM1 37 inb_S128x64_S1x64_37_0).view.loc (c : Thread nD τ) ↦[(rowM scM1 37 inb_S128x64_S1x64_37_0).view.set]{fullShare} f)
      ∗ ((rowM scM1 36 inb_S128x64_S1x64_36_0).view.loc (c : Thread nD τ) ↦[(rowM scM1 36 inb_S128x64_S1x64_36_0).view.set]{fullShare} f)
      ∗ ((rowM scM1 35 inb_S128x64_S1x64_35_0).view.loc (c : Thread nD τ) ↦[(rowM scM1 35 inb_S128x64_S1x64_35_0).view.set]{fullShare} f)
      ∗ ((rowM scM1 34 inb_S128x64_S1x64_34_0).view.loc (c : Thread nD τ) ↦[(rowM scM1 34 inb_S128x64_S1x64_34_0).view.set]{fullShare} f)
      ∗ ((rowM scM1 33 inb_S128x64_S1x64_33_0).view.loc (c : Thread nD τ) ↦[(rowM scM1 33 inb_S128x64_S1x64_33_0).view.set]{fullShare} f)
      ∗ ((rowM scM1 32 inb_S128x64_S1x64_32_0).view.loc (c : Thread nD τ) ↦[(rowM scM1 32 inb_S128x64_S1x64_32_0).view.set]{fullShare} f)
      ∗ ((rowM scM1 31 inb_S128x64_S1x64_31_0).view.loc (c : Thread nD τ) ↦[(rowM scM1 31 inb_S128x64_S1x64_31_0).view.set]{fullShare} f)
      ∗ ((rowM scM1 30 inb_S128x64_S1x64_30_0).view.loc (c : Thread nD τ) ↦[(rowM scM1 30 inb_S128x64_S1x64_30_0).view.set]{fullShare} f)
      ∗ ((rowM scM1 29 inb_S128x64_S1x64_29_0).view.loc (c : Thread nD τ) ↦[(rowM scM1 29 inb_S128x64_S1x64_29_0).view.set]{fullShare} f)
      ∗ ((rowM scM1 28 inb_S128x64_S1x64_28_0).view.loc (c : Thread nD τ) ↦[(rowM scM1 28 inb_S128x64_S1x64_28_0).view.set]{fullShare} f)
      ∗ ((rowM scM1 27 inb_S128x64_S1x64_27_0).view.loc (c : Thread nD τ) ↦[(rowM scM1 27 inb_S128x64_S1x64_27_0).view.set]{fullShare} f)
      ∗ ((rowM scM1 26 inb_S128x64_S1x64_26_0).view.loc (c : Thread nD τ) ↦[(rowM scM1 26 inb_S128x64_S1x64_26_0).view.set]{fullShare} f)
      ∗ ((rowM scM1 25 inb_S128x64_S1x64_25_0).view.loc (c : Thread nD τ) ↦[(rowM scM1 25 inb_S128x64_S1x64_25_0).view.set]{fullShare} f)
      ∗ ((rowM scM1 24 inb_S128x64_S1x64_24_0).view.loc (c : Thread nD τ) ↦[(rowM scM1 24 inb_S128x64_S1x64_24_0).view.set]{fullShare} f)
      ∗ ((rowM scM1 23 inb_S128x64_S1x64_23_0).view.loc (c : Thread nD τ) ↦[(rowM scM1 23 inb_S128x64_S1x64_23_0).view.set]{fullShare} f)
      ∗ ((rowM scM1 22 inb_S128x64_S1x64_22_0).view.loc (c : Thread nD τ) ↦[(rowM scM1 22 inb_S128x64_S1x64_22_0).view.set]{fullShare} f)
      ∗ ((rowM scM1 21 inb_S128x64_S1x64_21_0).view.loc (c : Thread nD τ) ↦[(rowM scM1 21 inb_S128x64_S1x64_21_0).view.set]{fullShare} f)
      ∗ ((rowM scM1 20 inb_S128x64_S1x64_20_0).view.loc (c : Thread nD τ) ↦[(rowM scM1 20 inb_S128x64_S1x64_20_0).view.set]{fullShare} f)
      ∗ ((rowM scM1 19 inb_S128x64_S1x64_19_0).view.loc (c : Thread nD τ) ↦[(rowM scM1 19 inb_S128x64_S1x64_19_0).view.set]{fullShare} f)
      ∗ ((rowM scM1 18 inb_S128x64_S1x64_18_0).view.loc (c : Thread nD τ) ↦[(rowM scM1 18 inb_S128x64_S1x64_18_0).view.set]{fullShare} f)
      ∗ ((rowM scM1 17 inb_S128x64_S1x64_17_0).view.loc (c : Thread nD τ) ↦[(rowM scM1 17 inb_S128x64_S1x64_17_0).view.set]{fullShare} f)
      ∗ ((rowM scM1 16 inb_S128x64_S1x64_16_0).view.loc (c : Thread nD τ) ↦[(rowM scM1 16 inb_S128x64_S1x64_16_0).view.set]{fullShare} f)
      ∗ ((rowM scM1 15 inb_S128x64_S1x64_15_0).view.loc (c : Thread nD τ) ↦[(rowM scM1 15 inb_S128x64_S1x64_15_0).view.set]{fullShare} f)
      ∗ ((rowM scM1 14 inb_S128x64_S1x64_14_0).view.loc (c : Thread nD τ) ↦[(rowM scM1 14 inb_S128x64_S1x64_14_0).view.set]{fullShare} f)
      ∗ ((rowM scM1 13 inb_S128x64_S1x64_13_0).view.loc (c : Thread nD τ) ↦[(rowM scM1 13 inb_S128x64_S1x64_13_0).view.set]{fullShare} f)
      ∗ ((rowM scM1 12 inb_S128x64_S1x64_12_0).view.loc (c : Thread nD τ) ↦[(rowM scM1 12 inb_S128x64_S1x64_12_0).view.set]{fullShare} f)
      ∗ ((rowM scM1 11 inb_S128x64_S1x64_11_0).view.loc (c : Thread nD τ) ↦[(rowM scM1 11 inb_S128x64_S1x64_11_0).view.set]{fullShare} f)
      ∗ ((rowM scM1 10 inb_S128x64_S1x64_10_0).view.loc (c : Thread nD τ) ↦[(rowM scM1 10 inb_S128x64_S1x64_10_0).view.set]{fullShare} f)
      ∗ ((rowM scM1 9 inb_S128x64_S1x64_9_0).view.loc (c : Thread nD τ) ↦[(rowM scM1 9 inb_S128x64_S1x64_9_0).view.set]{fullShare} f)
      ∗ ((rowM scM1 8 inb_S128x64_S1x64_8_0).view.loc (c : Thread nD τ) ↦[(rowM scM1 8 inb_S128x64_S1x64_8_0).view.set]{fullShare} f)
      ∗ ((rowM scM1 7 inb_S128x64_S1x64_7_0).view.loc (c : Thread nD τ) ↦[(rowM scM1 7 inb_S128x64_S1x64_7_0).view.set]{fullShare} f)
      ∗ ((rowM scM1 6 inb_S128x64_S1x64_6_0).view.loc (c : Thread nD τ) ↦[(rowM scM1 6 inb_S128x64_S1x64_6_0).view.set]{fullShare} f)
      ∗ ((rowM scM1 5 inb_S128x64_S1x64_5_0).view.loc (c : Thread nD τ) ↦[(rowM scM1 5 inb_S128x64_S1x64_5_0).view.set]{fullShare} f)
      ∗ ((rowM scM1 4 inb_S128x64_S1x64_4_0).view.loc (c : Thread nD τ) ↦[(rowM scM1 4 inb_S128x64_S1x64_4_0).view.set]{fullShare} f)
      ∗ ((rowM scM1 3 inb_S128x64_S1x64_3_0).view.loc (c : Thread nD τ) ↦[(rowM scM1 3 inb_S128x64_S1x64_3_0).view.set]{fullShare} f)
      ∗ ((rowM scM1 2 inb_S128x64_S1x64_2_0).view.loc (c : Thread nD τ) ↦[(rowM scM1 2 inb_S128x64_S1x64_2_0).view.set]{fullShare} f)
      ∗ ((rowM scM1 1 inb_S128x64_S1x64_1_0).view.loc (c : Thread nD τ) ↦[(rowM scM1 1 inb_S128x64_S1x64_1_0).view.set]{fullShare} f)
      ∗ ((rowM scM1 0 inb_S128x64_S1x64_0_0).view.loc (c : Thread nD τ) ↦[(rowM scM1 0 inb_S128x64_S1x64_0_0).view.set]{fullShare} f)
      ∗ emp) : sProp 𝕄) ⊢ (scM1.view.loc (c : Thread nD τ) ↦[scM1.view.set]{fullShare} f) :=
  Entails.of_eq (rows_close (F := F) scM1 c f)

set_option maxHeartbeats 16000000 in
/-- The 128 row pieces of scratch buffer 2, all at one contents, highest row first, are the buffer's elements at those contents. -/
theorem rows_down2 (c : Dev nD) (f : Buf (Elt F) (scM2.view.loc (c : Thread nD τ))) :
    (iprop(((rowM scM2 127 inb_S128x64_S1x64_127_0).view.loc (c : Thread nD τ) ↦[(rowM scM2 127 inb_S128x64_S1x64_127_0).view.set]{fullShare} f)
      ∗ ((rowM scM2 126 inb_S128x64_S1x64_126_0).view.loc (c : Thread nD τ) ↦[(rowM scM2 126 inb_S128x64_S1x64_126_0).view.set]{fullShare} f)
      ∗ ((rowM scM2 125 inb_S128x64_S1x64_125_0).view.loc (c : Thread nD τ) ↦[(rowM scM2 125 inb_S128x64_S1x64_125_0).view.set]{fullShare} f)
      ∗ ((rowM scM2 124 inb_S128x64_S1x64_124_0).view.loc (c : Thread nD τ) ↦[(rowM scM2 124 inb_S128x64_S1x64_124_0).view.set]{fullShare} f)
      ∗ ((rowM scM2 123 inb_S128x64_S1x64_123_0).view.loc (c : Thread nD τ) ↦[(rowM scM2 123 inb_S128x64_S1x64_123_0).view.set]{fullShare} f)
      ∗ ((rowM scM2 122 inb_S128x64_S1x64_122_0).view.loc (c : Thread nD τ) ↦[(rowM scM2 122 inb_S128x64_S1x64_122_0).view.set]{fullShare} f)
      ∗ ((rowM scM2 121 inb_S128x64_S1x64_121_0).view.loc (c : Thread nD τ) ↦[(rowM scM2 121 inb_S128x64_S1x64_121_0).view.set]{fullShare} f)
      ∗ ((rowM scM2 120 inb_S128x64_S1x64_120_0).view.loc (c : Thread nD τ) ↦[(rowM scM2 120 inb_S128x64_S1x64_120_0).view.set]{fullShare} f)
      ∗ ((rowM scM2 119 inb_S128x64_S1x64_119_0).view.loc (c : Thread nD τ) ↦[(rowM scM2 119 inb_S128x64_S1x64_119_0).view.set]{fullShare} f)
      ∗ ((rowM scM2 118 inb_S128x64_S1x64_118_0).view.loc (c : Thread nD τ) ↦[(rowM scM2 118 inb_S128x64_S1x64_118_0).view.set]{fullShare} f)
      ∗ ((rowM scM2 117 inb_S128x64_S1x64_117_0).view.loc (c : Thread nD τ) ↦[(rowM scM2 117 inb_S128x64_S1x64_117_0).view.set]{fullShare} f)
      ∗ ((rowM scM2 116 inb_S128x64_S1x64_116_0).view.loc (c : Thread nD τ) ↦[(rowM scM2 116 inb_S128x64_S1x64_116_0).view.set]{fullShare} f)
      ∗ ((rowM scM2 115 inb_S128x64_S1x64_115_0).view.loc (c : Thread nD τ) ↦[(rowM scM2 115 inb_S128x64_S1x64_115_0).view.set]{fullShare} f)
      ∗ ((rowM scM2 114 inb_S128x64_S1x64_114_0).view.loc (c : Thread nD τ) ↦[(rowM scM2 114 inb_S128x64_S1x64_114_0).view.set]{fullShare} f)
      ∗ ((rowM scM2 113 inb_S128x64_S1x64_113_0).view.loc (c : Thread nD τ) ↦[(rowM scM2 113 inb_S128x64_S1x64_113_0).view.set]{fullShare} f)
      ∗ ((rowM scM2 112 inb_S128x64_S1x64_112_0).view.loc (c : Thread nD τ) ↦[(rowM scM2 112 inb_S128x64_S1x64_112_0).view.set]{fullShare} f)
      ∗ ((rowM scM2 111 inb_S128x64_S1x64_111_0).view.loc (c : Thread nD τ) ↦[(rowM scM2 111 inb_S128x64_S1x64_111_0).view.set]{fullShare} f)
      ∗ ((rowM scM2 110 inb_S128x64_S1x64_110_0).view.loc (c : Thread nD τ) ↦[(rowM scM2 110 inb_S128x64_S1x64_110_0).view.set]{fullShare} f)
      ∗ ((rowM scM2 109 inb_S128x64_S1x64_109_0).view.loc (c : Thread nD τ) ↦[(rowM scM2 109 inb_S128x64_S1x64_109_0).view.set]{fullShare} f)
      ∗ ((rowM scM2 108 inb_S128x64_S1x64_108_0).view.loc (c : Thread nD τ) ↦[(rowM scM2 108 inb_S128x64_S1x64_108_0).view.set]{fullShare} f)
      ∗ ((rowM scM2 107 inb_S128x64_S1x64_107_0).view.loc (c : Thread nD τ) ↦[(rowM scM2 107 inb_S128x64_S1x64_107_0).view.set]{fullShare} f)
      ∗ ((rowM scM2 106 inb_S128x64_S1x64_106_0).view.loc (c : Thread nD τ) ↦[(rowM scM2 106 inb_S128x64_S1x64_106_0).view.set]{fullShare} f)
      ∗ ((rowM scM2 105 inb_S128x64_S1x64_105_0).view.loc (c : Thread nD τ) ↦[(rowM scM2 105 inb_S128x64_S1x64_105_0).view.set]{fullShare} f)
      ∗ ((rowM scM2 104 inb_S128x64_S1x64_104_0).view.loc (c : Thread nD τ) ↦[(rowM scM2 104 inb_S128x64_S1x64_104_0).view.set]{fullShare} f)
      ∗ ((rowM scM2 103 inb_S128x64_S1x64_103_0).view.loc (c : Thread nD τ) ↦[(rowM scM2 103 inb_S128x64_S1x64_103_0).view.set]{fullShare} f)
      ∗ ((rowM scM2 102 inb_S128x64_S1x64_102_0).view.loc (c : Thread nD τ) ↦[(rowM scM2 102 inb_S128x64_S1x64_102_0).view.set]{fullShare} f)
      ∗ ((rowM scM2 101 inb_S128x64_S1x64_101_0).view.loc (c : Thread nD τ) ↦[(rowM scM2 101 inb_S128x64_S1x64_101_0).view.set]{fullShare} f)
      ∗ ((rowM scM2 100 inb_S128x64_S1x64_100_0).view.loc (c : Thread nD τ) ↦[(rowM scM2 100 inb_S128x64_S1x64_100_0).view.set]{fullShare} f)
      ∗ ((rowM scM2 99 inb_S128x64_S1x64_99_0).view.loc (c : Thread nD τ) ↦[(rowM scM2 99 inb_S128x64_S1x64_99_0).view.set]{fullShare} f)
      ∗ ((rowM scM2 98 inb_S128x64_S1x64_98_0).view.loc (c : Thread nD τ) ↦[(rowM scM2 98 inb_S128x64_S1x64_98_0).view.set]{fullShare} f)
      ∗ ((rowM scM2 97 inb_S128x64_S1x64_97_0).view.loc (c : Thread nD τ) ↦[(rowM scM2 97 inb_S128x64_S1x64_97_0).view.set]{fullShare} f)
      ∗ ((rowM scM2 96 inb_S128x64_S1x64_96_0).view.loc (c : Thread nD τ) ↦[(rowM scM2 96 inb_S128x64_S1x64_96_0).view.set]{fullShare} f)
      ∗ ((rowM scM2 95 inb_S128x64_S1x64_95_0).view.loc (c : Thread nD τ) ↦[(rowM scM2 95 inb_S128x64_S1x64_95_0).view.set]{fullShare} f)
      ∗ ((rowM scM2 94 inb_S128x64_S1x64_94_0).view.loc (c : Thread nD τ) ↦[(rowM scM2 94 inb_S128x64_S1x64_94_0).view.set]{fullShare} f)
      ∗ ((rowM scM2 93 inb_S128x64_S1x64_93_0).view.loc (c : Thread nD τ) ↦[(rowM scM2 93 inb_S128x64_S1x64_93_0).view.set]{fullShare} f)
      ∗ ((rowM scM2 92 inb_S128x64_S1x64_92_0).view.loc (c : Thread nD τ) ↦[(rowM scM2 92 inb_S128x64_S1x64_92_0).view.set]{fullShare} f)
      ∗ ((rowM scM2 91 inb_S128x64_S1x64_91_0).view.loc (c : Thread nD τ) ↦[(rowM scM2 91 inb_S128x64_S1x64_91_0).view.set]{fullShare} f)
      ∗ ((rowM scM2 90 inb_S128x64_S1x64_90_0).view.loc (c : Thread nD τ) ↦[(rowM scM2 90 inb_S128x64_S1x64_90_0).view.set]{fullShare} f)
      ∗ ((rowM scM2 89 inb_S128x64_S1x64_89_0).view.loc (c : Thread nD τ) ↦[(rowM scM2 89 inb_S128x64_S1x64_89_0).view.set]{fullShare} f)
      ∗ ((rowM scM2 88 inb_S128x64_S1x64_88_0).view.loc (c : Thread nD τ) ↦[(rowM scM2 88 inb_S128x64_S1x64_88_0).view.set]{fullShare} f)
      ∗ ((rowM scM2 87 inb_S128x64_S1x64_87_0).view.loc (c : Thread nD τ) ↦[(rowM scM2 87 inb_S128x64_S1x64_87_0).view.set]{fullShare} f)
      ∗ ((rowM scM2 86 inb_S128x64_S1x64_86_0).view.loc (c : Thread nD τ) ↦[(rowM scM2 86 inb_S128x64_S1x64_86_0).view.set]{fullShare} f)
      ∗ ((rowM scM2 85 inb_S128x64_S1x64_85_0).view.loc (c : Thread nD τ) ↦[(rowM scM2 85 inb_S128x64_S1x64_85_0).view.set]{fullShare} f)
      ∗ ((rowM scM2 84 inb_S128x64_S1x64_84_0).view.loc (c : Thread nD τ) ↦[(rowM scM2 84 inb_S128x64_S1x64_84_0).view.set]{fullShare} f)
      ∗ ((rowM scM2 83 inb_S128x64_S1x64_83_0).view.loc (c : Thread nD τ) ↦[(rowM scM2 83 inb_S128x64_S1x64_83_0).view.set]{fullShare} f)
      ∗ ((rowM scM2 82 inb_S128x64_S1x64_82_0).view.loc (c : Thread nD τ) ↦[(rowM scM2 82 inb_S128x64_S1x64_82_0).view.set]{fullShare} f)
      ∗ ((rowM scM2 81 inb_S128x64_S1x64_81_0).view.loc (c : Thread nD τ) ↦[(rowM scM2 81 inb_S128x64_S1x64_81_0).view.set]{fullShare} f)
      ∗ ((rowM scM2 80 inb_S128x64_S1x64_80_0).view.loc (c : Thread nD τ) ↦[(rowM scM2 80 inb_S128x64_S1x64_80_0).view.set]{fullShare} f)
      ∗ ((rowM scM2 79 inb_S128x64_S1x64_79_0).view.loc (c : Thread nD τ) ↦[(rowM scM2 79 inb_S128x64_S1x64_79_0).view.set]{fullShare} f)
      ∗ ((rowM scM2 78 inb_S128x64_S1x64_78_0).view.loc (c : Thread nD τ) ↦[(rowM scM2 78 inb_S128x64_S1x64_78_0).view.set]{fullShare} f)
      ∗ ((rowM scM2 77 inb_S128x64_S1x64_77_0).view.loc (c : Thread nD τ) ↦[(rowM scM2 77 inb_S128x64_S1x64_77_0).view.set]{fullShare} f)
      ∗ ((rowM scM2 76 inb_S128x64_S1x64_76_0).view.loc (c : Thread nD τ) ↦[(rowM scM2 76 inb_S128x64_S1x64_76_0).view.set]{fullShare} f)
      ∗ ((rowM scM2 75 inb_S128x64_S1x64_75_0).view.loc (c : Thread nD τ) ↦[(rowM scM2 75 inb_S128x64_S1x64_75_0).view.set]{fullShare} f)
      ∗ ((rowM scM2 74 inb_S128x64_S1x64_74_0).view.loc (c : Thread nD τ) ↦[(rowM scM2 74 inb_S128x64_S1x64_74_0).view.set]{fullShare} f)
      ∗ ((rowM scM2 73 inb_S128x64_S1x64_73_0).view.loc (c : Thread nD τ) ↦[(rowM scM2 73 inb_S128x64_S1x64_73_0).view.set]{fullShare} f)
      ∗ ((rowM scM2 72 inb_S128x64_S1x64_72_0).view.loc (c : Thread nD τ) ↦[(rowM scM2 72 inb_S128x64_S1x64_72_0).view.set]{fullShare} f)
      ∗ ((rowM scM2 71 inb_S128x64_S1x64_71_0).view.loc (c : Thread nD τ) ↦[(rowM scM2 71 inb_S128x64_S1x64_71_0).view.set]{fullShare} f)
      ∗ ((rowM scM2 70 inb_S128x64_S1x64_70_0).view.loc (c : Thread nD τ) ↦[(rowM scM2 70 inb_S128x64_S1x64_70_0).view.set]{fullShare} f)
      ∗ ((rowM scM2 69 inb_S128x64_S1x64_69_0).view.loc (c : Thread nD τ) ↦[(rowM scM2 69 inb_S128x64_S1x64_69_0).view.set]{fullShare} f)
      ∗ ((rowM scM2 68 inb_S128x64_S1x64_68_0).view.loc (c : Thread nD τ) ↦[(rowM scM2 68 inb_S128x64_S1x64_68_0).view.set]{fullShare} f)
      ∗ ((rowM scM2 67 inb_S128x64_S1x64_67_0).view.loc (c : Thread nD τ) ↦[(rowM scM2 67 inb_S128x64_S1x64_67_0).view.set]{fullShare} f)
      ∗ ((rowM scM2 66 inb_S128x64_S1x64_66_0).view.loc (c : Thread nD τ) ↦[(rowM scM2 66 inb_S128x64_S1x64_66_0).view.set]{fullShare} f)
      ∗ ((rowM scM2 65 inb_S128x64_S1x64_65_0).view.loc (c : Thread nD τ) ↦[(rowM scM2 65 inb_S128x64_S1x64_65_0).view.set]{fullShare} f)
      ∗ ((rowM scM2 64 inb_S128x64_S1x64_64_0).view.loc (c : Thread nD τ) ↦[(rowM scM2 64 inb_S128x64_S1x64_64_0).view.set]{fullShare} f)
      ∗ ((rowM scM2 63 inb_S128x64_S1x64_63_0).view.loc (c : Thread nD τ) ↦[(rowM scM2 63 inb_S128x64_S1x64_63_0).view.set]{fullShare} f)
      ∗ ((rowM scM2 62 inb_S128x64_S1x64_62_0).view.loc (c : Thread nD τ) ↦[(rowM scM2 62 inb_S128x64_S1x64_62_0).view.set]{fullShare} f)
      ∗ ((rowM scM2 61 inb_S128x64_S1x64_61_0).view.loc (c : Thread nD τ) ↦[(rowM scM2 61 inb_S128x64_S1x64_61_0).view.set]{fullShare} f)
      ∗ ((rowM scM2 60 inb_S128x64_S1x64_60_0).view.loc (c : Thread nD τ) ↦[(rowM scM2 60 inb_S128x64_S1x64_60_0).view.set]{fullShare} f)
      ∗ ((rowM scM2 59 inb_S128x64_S1x64_59_0).view.loc (c : Thread nD τ) ↦[(rowM scM2 59 inb_S128x64_S1x64_59_0).view.set]{fullShare} f)
      ∗ ((rowM scM2 58 inb_S128x64_S1x64_58_0).view.loc (c : Thread nD τ) ↦[(rowM scM2 58 inb_S128x64_S1x64_58_0).view.set]{fullShare} f)
      ∗ ((rowM scM2 57 inb_S128x64_S1x64_57_0).view.loc (c : Thread nD τ) ↦[(rowM scM2 57 inb_S128x64_S1x64_57_0).view.set]{fullShare} f)
      ∗ ((rowM scM2 56 inb_S128x64_S1x64_56_0).view.loc (c : Thread nD τ) ↦[(rowM scM2 56 inb_S128x64_S1x64_56_0).view.set]{fullShare} f)
      ∗ ((rowM scM2 55 inb_S128x64_S1x64_55_0).view.loc (c : Thread nD τ) ↦[(rowM scM2 55 inb_S128x64_S1x64_55_0).view.set]{fullShare} f)
      ∗ ((rowM scM2 54 inb_S128x64_S1x64_54_0).view.loc (c : Thread nD τ) ↦[(rowM scM2 54 inb_S128x64_S1x64_54_0).view.set]{fullShare} f)
      ∗ ((rowM scM2 53 inb_S128x64_S1x64_53_0).view.loc (c : Thread nD τ) ↦[(rowM scM2 53 inb_S128x64_S1x64_53_0).view.set]{fullShare} f)
      ∗ ((rowM scM2 52 inb_S128x64_S1x64_52_0).view.loc (c : Thread nD τ) ↦[(rowM scM2 52 inb_S128x64_S1x64_52_0).view.set]{fullShare} f)
      ∗ ((rowM scM2 51 inb_S128x64_S1x64_51_0).view.loc (c : Thread nD τ) ↦[(rowM scM2 51 inb_S128x64_S1x64_51_0).view.set]{fullShare} f)
      ∗ ((rowM scM2 50 inb_S128x64_S1x64_50_0).view.loc (c : Thread nD τ) ↦[(rowM scM2 50 inb_S128x64_S1x64_50_0).view.set]{fullShare} f)
      ∗ ((rowM scM2 49 inb_S128x64_S1x64_49_0).view.loc (c : Thread nD τ) ↦[(rowM scM2 49 inb_S128x64_S1x64_49_0).view.set]{fullShare} f)
      ∗ ((rowM scM2 48 inb_S128x64_S1x64_48_0).view.loc (c : Thread nD τ) ↦[(rowM scM2 48 inb_S128x64_S1x64_48_0).view.set]{fullShare} f)
      ∗ ((rowM scM2 47 inb_S128x64_S1x64_47_0).view.loc (c : Thread nD τ) ↦[(rowM scM2 47 inb_S128x64_S1x64_47_0).view.set]{fullShare} f)
      ∗ ((rowM scM2 46 inb_S128x64_S1x64_46_0).view.loc (c : Thread nD τ) ↦[(rowM scM2 46 inb_S128x64_S1x64_46_0).view.set]{fullShare} f)
      ∗ ((rowM scM2 45 inb_S128x64_S1x64_45_0).view.loc (c : Thread nD τ) ↦[(rowM scM2 45 inb_S128x64_S1x64_45_0).view.set]{fullShare} f)
      ∗ ((rowM scM2 44 inb_S128x64_S1x64_44_0).view.loc (c : Thread nD τ) ↦[(rowM scM2 44 inb_S128x64_S1x64_44_0).view.set]{fullShare} f)
      ∗ ((rowM scM2 43 inb_S128x64_S1x64_43_0).view.loc (c : Thread nD τ) ↦[(rowM scM2 43 inb_S128x64_S1x64_43_0).view.set]{fullShare} f)
      ∗ ((rowM scM2 42 inb_S128x64_S1x64_42_0).view.loc (c : Thread nD τ) ↦[(rowM scM2 42 inb_S128x64_S1x64_42_0).view.set]{fullShare} f)
      ∗ ((rowM scM2 41 inb_S128x64_S1x64_41_0).view.loc (c : Thread nD τ) ↦[(rowM scM2 41 inb_S128x64_S1x64_41_0).view.set]{fullShare} f)
      ∗ ((rowM scM2 40 inb_S128x64_S1x64_40_0).view.loc (c : Thread nD τ) ↦[(rowM scM2 40 inb_S128x64_S1x64_40_0).view.set]{fullShare} f)
      ∗ ((rowM scM2 39 inb_S128x64_S1x64_39_0).view.loc (c : Thread nD τ) ↦[(rowM scM2 39 inb_S128x64_S1x64_39_0).view.set]{fullShare} f)
      ∗ ((rowM scM2 38 inb_S128x64_S1x64_38_0).view.loc (c : Thread nD τ) ↦[(rowM scM2 38 inb_S128x64_S1x64_38_0).view.set]{fullShare} f)
      ∗ ((rowM scM2 37 inb_S128x64_S1x64_37_0).view.loc (c : Thread nD τ) ↦[(rowM scM2 37 inb_S128x64_S1x64_37_0).view.set]{fullShare} f)
      ∗ ((rowM scM2 36 inb_S128x64_S1x64_36_0).view.loc (c : Thread nD τ) ↦[(rowM scM2 36 inb_S128x64_S1x64_36_0).view.set]{fullShare} f)
      ∗ ((rowM scM2 35 inb_S128x64_S1x64_35_0).view.loc (c : Thread nD τ) ↦[(rowM scM2 35 inb_S128x64_S1x64_35_0).view.set]{fullShare} f)
      ∗ ((rowM scM2 34 inb_S128x64_S1x64_34_0).view.loc (c : Thread nD τ) ↦[(rowM scM2 34 inb_S128x64_S1x64_34_0).view.set]{fullShare} f)
      ∗ ((rowM scM2 33 inb_S128x64_S1x64_33_0).view.loc (c : Thread nD τ) ↦[(rowM scM2 33 inb_S128x64_S1x64_33_0).view.set]{fullShare} f)
      ∗ ((rowM scM2 32 inb_S128x64_S1x64_32_0).view.loc (c : Thread nD τ) ↦[(rowM scM2 32 inb_S128x64_S1x64_32_0).view.set]{fullShare} f)
      ∗ ((rowM scM2 31 inb_S128x64_S1x64_31_0).view.loc (c : Thread nD τ) ↦[(rowM scM2 31 inb_S128x64_S1x64_31_0).view.set]{fullShare} f)
      ∗ ((rowM scM2 30 inb_S128x64_S1x64_30_0).view.loc (c : Thread nD τ) ↦[(rowM scM2 30 inb_S128x64_S1x64_30_0).view.set]{fullShare} f)
      ∗ ((rowM scM2 29 inb_S128x64_S1x64_29_0).view.loc (c : Thread nD τ) ↦[(rowM scM2 29 inb_S128x64_S1x64_29_0).view.set]{fullShare} f)
      ∗ ((rowM scM2 28 inb_S128x64_S1x64_28_0).view.loc (c : Thread nD τ) ↦[(rowM scM2 28 inb_S128x64_S1x64_28_0).view.set]{fullShare} f)
      ∗ ((rowM scM2 27 inb_S128x64_S1x64_27_0).view.loc (c : Thread nD τ) ↦[(rowM scM2 27 inb_S128x64_S1x64_27_0).view.set]{fullShare} f)
      ∗ ((rowM scM2 26 inb_S128x64_S1x64_26_0).view.loc (c : Thread nD τ) ↦[(rowM scM2 26 inb_S128x64_S1x64_26_0).view.set]{fullShare} f)
      ∗ ((rowM scM2 25 inb_S128x64_S1x64_25_0).view.loc (c : Thread nD τ) ↦[(rowM scM2 25 inb_S128x64_S1x64_25_0).view.set]{fullShare} f)
      ∗ ((rowM scM2 24 inb_S128x64_S1x64_24_0).view.loc (c : Thread nD τ) ↦[(rowM scM2 24 inb_S128x64_S1x64_24_0).view.set]{fullShare} f)
      ∗ ((rowM scM2 23 inb_S128x64_S1x64_23_0).view.loc (c : Thread nD τ) ↦[(rowM scM2 23 inb_S128x64_S1x64_23_0).view.set]{fullShare} f)
      ∗ ((rowM scM2 22 inb_S128x64_S1x64_22_0).view.loc (c : Thread nD τ) ↦[(rowM scM2 22 inb_S128x64_S1x64_22_0).view.set]{fullShare} f)
      ∗ ((rowM scM2 21 inb_S128x64_S1x64_21_0).view.loc (c : Thread nD τ) ↦[(rowM scM2 21 inb_S128x64_S1x64_21_0).view.set]{fullShare} f)
      ∗ ((rowM scM2 20 inb_S128x64_S1x64_20_0).view.loc (c : Thread nD τ) ↦[(rowM scM2 20 inb_S128x64_S1x64_20_0).view.set]{fullShare} f)
      ∗ ((rowM scM2 19 inb_S128x64_S1x64_19_0).view.loc (c : Thread nD τ) ↦[(rowM scM2 19 inb_S128x64_S1x64_19_0).view.set]{fullShare} f)
      ∗ ((rowM scM2 18 inb_S128x64_S1x64_18_0).view.loc (c : Thread nD τ) ↦[(rowM scM2 18 inb_S128x64_S1x64_18_0).view.set]{fullShare} f)
      ∗ ((rowM scM2 17 inb_S128x64_S1x64_17_0).view.loc (c : Thread nD τ) ↦[(rowM scM2 17 inb_S128x64_S1x64_17_0).view.set]{fullShare} f)
      ∗ ((rowM scM2 16 inb_S128x64_S1x64_16_0).view.loc (c : Thread nD τ) ↦[(rowM scM2 16 inb_S128x64_S1x64_16_0).view.set]{fullShare} f)
      ∗ ((rowM scM2 15 inb_S128x64_S1x64_15_0).view.loc (c : Thread nD τ) ↦[(rowM scM2 15 inb_S128x64_S1x64_15_0).view.set]{fullShare} f)
      ∗ ((rowM scM2 14 inb_S128x64_S1x64_14_0).view.loc (c : Thread nD τ) ↦[(rowM scM2 14 inb_S128x64_S1x64_14_0).view.set]{fullShare} f)
      ∗ ((rowM scM2 13 inb_S128x64_S1x64_13_0).view.loc (c : Thread nD τ) ↦[(rowM scM2 13 inb_S128x64_S1x64_13_0).view.set]{fullShare} f)
      ∗ ((rowM scM2 12 inb_S128x64_S1x64_12_0).view.loc (c : Thread nD τ) ↦[(rowM scM2 12 inb_S128x64_S1x64_12_0).view.set]{fullShare} f)
      ∗ ((rowM scM2 11 inb_S128x64_S1x64_11_0).view.loc (c : Thread nD τ) ↦[(rowM scM2 11 inb_S128x64_S1x64_11_0).view.set]{fullShare} f)
      ∗ ((rowM scM2 10 inb_S128x64_S1x64_10_0).view.loc (c : Thread nD τ) ↦[(rowM scM2 10 inb_S128x64_S1x64_10_0).view.set]{fullShare} f)
      ∗ ((rowM scM2 9 inb_S128x64_S1x64_9_0).view.loc (c : Thread nD τ) ↦[(rowM scM2 9 inb_S128x64_S1x64_9_0).view.set]{fullShare} f)
      ∗ ((rowM scM2 8 inb_S128x64_S1x64_8_0).view.loc (c : Thread nD τ) ↦[(rowM scM2 8 inb_S128x64_S1x64_8_0).view.set]{fullShare} f)
      ∗ ((rowM scM2 7 inb_S128x64_S1x64_7_0).view.loc (c : Thread nD τ) ↦[(rowM scM2 7 inb_S128x64_S1x64_7_0).view.set]{fullShare} f)
      ∗ ((rowM scM2 6 inb_S128x64_S1x64_6_0).view.loc (c : Thread nD τ) ↦[(rowM scM2 6 inb_S128x64_S1x64_6_0).view.set]{fullShare} f)
      ∗ ((rowM scM2 5 inb_S128x64_S1x64_5_0).view.loc (c : Thread nD τ) ↦[(rowM scM2 5 inb_S128x64_S1x64_5_0).view.set]{fullShare} f)
      ∗ ((rowM scM2 4 inb_S128x64_S1x64_4_0).view.loc (c : Thread nD τ) ↦[(rowM scM2 4 inb_S128x64_S1x64_4_0).view.set]{fullShare} f)
      ∗ ((rowM scM2 3 inb_S128x64_S1x64_3_0).view.loc (c : Thread nD τ) ↦[(rowM scM2 3 inb_S128x64_S1x64_3_0).view.set]{fullShare} f)
      ∗ ((rowM scM2 2 inb_S128x64_S1x64_2_0).view.loc (c : Thread nD τ) ↦[(rowM scM2 2 inb_S128x64_S1x64_2_0).view.set]{fullShare} f)
      ∗ ((rowM scM2 1 inb_S128x64_S1x64_1_0).view.loc (c : Thread nD τ) ↦[(rowM scM2 1 inb_S128x64_S1x64_1_0).view.set]{fullShare} f)
      ∗ ((rowM scM2 0 inb_S128x64_S1x64_0_0).view.loc (c : Thread nD τ) ↦[(rowM scM2 0 inb_S128x64_S1x64_0_0).view.set]{fullShare} f)
      ∗ emp) : sProp 𝕄) ⊢ (scM2.view.loc (c : Thread nD τ) ↦[scM2.view.set]{fullShare} f) :=
  Entails.of_eq (rows_close (F := F) scM2 c f)

/-! ## The loads and the stores -/

theorem zero_offs : (![0, 0] : Fin 2 → ℕ) = fun _ => 0 := by
  funext a
  match a with
  | ⟨0, _⟩ => rfl
  | ⟨1, _⟩ => rfl

/-- A load of scratch buffer 0 whole, held at the contents whose reading is the gathered block, reads that block. -/
theorem load_block0 (c : Dev nD) (i : grid0.Coords) (xt0 : BufOf (F := F) c tbM0) (fh0 : BufOf (F := F) c hbM0) (fs0 : BufOf (F := F) c scM0) :
    scM0.view.readAt (Elt F) (Rect.unit (s := S128x64) ![0, 0] S128x64.size inb_S128x64_S128x64_0_0).toLoadRect
      (scM0.view.write (Elt F) fs0 (gU c i xt0 fh0) Finset.univ) = gU c i xt0 fh0 := by
  refine (Memref.readAt_unit_zero (Elt F) cc0_scratch0 zero_offs inb_S128x64_S128x64_0_0 _).trans ?_
  simpa only [Memref.view_whole, View.read_whole] using read_block (F := F) scM0 c fs0 (gU c i xt0 fh0)

/-- A load of scratch buffer 1 whole, held at the contents whose reading is the gathered block, reads that block. -/
theorem load_block1 (c : Dev nD) (i : grid0.Coords) (xt1 : BufOf (F := F) c tbM1) (fh1 : BufOf (F := F) c hbM1) (fs1 : BufOf (F := F) c scM1) :
    scM1.view.readAt (Elt F) (Rect.unit (s := S128x64) ![0, 0] S128x64.size inb_S128x64_S128x64_0_0).toLoadRect
      (scM1.view.write (Elt F) fs1 (gVi c i xt1 fh1) Finset.univ) = gVi c i xt1 fh1 := by
  refine (Memref.readAt_unit_zero (Elt F) cc0_scratch1 zero_offs inb_S128x64_S128x64_0_0 _).trans ?_
  simpa only [Memref.view_whole, View.read_whole] using read_block (F := F) scM1 c fs1 (gVi c i xt1 fh1)

/-- A load of scratch buffer 2 whole, held at the contents whose reading is the gathered block, reads that block. -/
theorem load_block2 (c : Dev nD) (i : grid0.Coords) (xt2 : BufOf (F := F) c tbM2) (fh1 : BufOf (F := F) c hbM1) (fs2 : BufOf (F := F) c scM2) :
    scM2.view.readAt (Elt F) (Rect.unit (s := S128x64) ![0, 0] S128x64.size inb_S128x64_S128x64_0_0).toLoadRect
      (scM2.view.write (Elt F) fs2 (gVj c i xt2 fh1) Finset.univ) = gVj c i xt2 fh1 := by
  refine (Memref.readAt_unit_zero (Elt F) cc0_scratch2 zero_offs inb_S128x64_S128x64_0_0 _).trans ?_
  simpa only [Memref.view_whole, View.read_whole] using read_block (F := F) scM2 c fs2 (gVj c i xt2 fh1)

/-- A store through the rectangle at offsets zero of the block's own sizes is a store of the whole block. -/
theorem piece_whole (w : (Rect.whole S128x1).shape.Idx → Elt F .f32) :
    (⟨Rect.unit (s := S128x1) ![0, 0] S128x1.size inb_S128x1_S128x1_0_0, w⟩ : View.Piece (Elt F) S128x1 .f32)
      = ⟨Rect.whole S128x1, w⟩ := by
  have h : ∀ (off : Fin 2 → ℕ) (h : off = fun _ => 0) (inb : ∀ a, off a + S128x1.size a ≤ S128x1.size a)
      (w : (Rect.whole S128x1).shape.Idx → Elt F .f32),
      (⟨Rect.unit (s := S128x1) off S128x1.size inb, w⟩ : View.Piece (Elt F) S128x1 .f32) = ⟨Rect.whole S128x1, w⟩ := by
    intro off h inb w; subst h; rfl
  exact h _ zero_offs _ w

/-- What the run leaves in result buffer 1 is the listed store over some contents. -/
theorem out6 (c : Dev nD) (i : grid0.Coords) (xt0 : BufOf (F := F) c tbM0) (xt1 : BufOf (F := F) c tbM1) (xt2 : BufOf (F := F) c tbM2)
    (fh0 : BufOf (F := F) c hbM0) (fh1 : BufOf (F := F) c hbM1)
    (fs0 : BufOf (F := F) c scM0) (fs1 : BufOf (F := F) c scM1) (fs2 : BufOf (F := F) c scM2)
    (arg : Memref sig .tc .vmem S128x1 .f32) (f : BufOf (F := F) c arg) :
    (arg.view.loc (c : Thread nD τ) ↦[arg.view.set]{fullShare} arg.view.writes (Elt F) f
        [⟨Rect.unit (s := S128x1) ![0, 0] S128x1.size inb_S128x1_S128x1_0_0, k0_pay2 (scM0.view.readAt (Elt F) (Rect.unit (s := S128x64) ![0, 0] S128x64.size inb_S128x64_S128x64_0_0).toLoadRect (scM0.view.write (Elt F) fs0 (gU c i xt0 fh0) Finset.univ)) (scM1.view.readAt (Elt F) (Rect.unit (s := S128x64) ![0, 0] S128x64.size inb_S128x64_S128x64_0_0).toLoadRect (scM1.view.write (Elt F) fs1 (gVi c i xt1 fh1) Finset.univ))⟩] : sProp 𝕄)
      ⊢ iprop(∃ f, arg.view.loc (c : Thread nD τ) ↦[arg.view.set]{fullShare} arg.view.writes (Elt F) f (runL c i xt0 xt1 xt2 fh0 fh1).1) := by
  rw [load_block0, load_block1, piece_whole]
  iintro H
  iexists f
  iexact H

/-- What the run leaves in result buffer 2 is the listed store over some contents. -/
theorem out7 (c : Dev nD) (i : grid0.Coords) (xt0 : BufOf (F := F) c tbM0) (xt1 : BufOf (F := F) c tbM1) (xt2 : BufOf (F := F) c tbM2)
    (fh0 : BufOf (F := F) c hbM0) (fh1 : BufOf (F := F) c hbM1)
    (fs0 : BufOf (F := F) c scM0) (fs1 : BufOf (F := F) c scM1) (fs2 : BufOf (F := F) c scM2)
    (arg : Memref sig .tc .vmem S128x1 .f32) (f : BufOf (F := F) c arg) :
    (arg.view.loc (c : Thread nD τ) ↦[arg.view.set]{fullShare} arg.view.writes (Elt F) f
        [⟨Rect.unit (s := S128x1) ![0, 0] S128x1.size inb_S128x1_S128x1_0_0, k0_pay3 (scM0.view.readAt (Elt F) (Rect.unit (s := S128x64) ![0, 0] S128x64.size inb_S128x64_S128x64_0_0).toLoadRect (scM0.view.write (Elt F) fs0 (gU c i xt0 fh0) Finset.univ)) (scM2.view.readAt (Elt F) (Rect.unit (s := S128x64) ![0, 0] S128x64.size inb_S128x64_S128x64_0_0).toLoadRect (scM2.view.write (Elt F) fs2 (gVj c i xt2 fh1) Finset.univ))⟩] : sProp 𝕄)
      ⊢ iprop(∃ f, arg.view.loc (c : Thread nD τ) ↦[arg.view.set]{fullShare} arg.view.writes (Elt F) f (runL c i xt0 xt1 xt2 fh0 fh1).2.1) := by
  rw [load_block0, load_block2, piece_whole]
  iintro H
  iexists f
  iexact H

/-- What the run leaves in result buffer 3 is the listed store over some contents. -/
theorem out8 (c : Dev nD) (i : grid0.Coords) (xt0 : BufOf (F := F) c tbM0) (xt1 : BufOf (F := F) c tbM1) (xt2 : BufOf (F := F) c tbM2)
    (fh0 : BufOf (F := F) c hbM0) (fh1 : BufOf (F := F) c hbM1)
    (fs0 : BufOf (F := F) c scM0) (fs1 : BufOf (F := F) c scM1) (fs2 : BufOf (F := F) c scM2)
    (arg : Memref sig .tc .vmem S128x1 .f32) (f : BufOf (F := F) c arg) :
    (arg.view.loc (c : Thread nD τ) ↦[arg.view.set]{fullShare} arg.view.writes (Elt F) f
        [⟨Rect.unit (s := S128x1) ![0, 0] S128x1.size inb_S128x1_S128x1_0_0, k0_pay4 (scM0.view.readAt (Elt F) (Rect.unit (s := S128x64) ![0, 0] S128x64.size inb_S128x64_S128x64_0_0).toLoadRect (scM0.view.write (Elt F) fs0 (gU c i xt0 fh0) Finset.univ))⟩] : sProp 𝕄)
      ⊢ iprop(∃ f, arg.view.loc (c : Thread nD τ) ↦[arg.view.set]{fullShare} arg.view.writes (Elt F) f (runL c i xt0 xt1 xt2 fh0 fh1).2.2.1) := by
  rw [load_block0, piece_whole]
  iintro H
  iexists f
  iexact H

/-- What the run leaves in result buffer 4 is the listed store over some contents. -/
theorem out9 (c : Dev nD) (i : grid0.Coords) (xt0 : BufOf (F := F) c tbM0) (xt1 : BufOf (F := F) c tbM1) (xt2 : BufOf (F := F) c tbM2)
    (fh0 : BufOf (F := F) c hbM0) (fh1 : BufOf (F := F) c hbM1)
    (fs0 : BufOf (F := F) c scM0) (fs1 : BufOf (F := F) c scM1) (fs2 : BufOf (F := F) c scM2)
    (arg : Memref sig .tc .vmem S128x1 .f32) (f : BufOf (F := F) c arg) :
    (arg.view.loc (c : Thread nD τ) ↦[arg.view.set]{fullShare} arg.view.writes (Elt F) f
        [⟨Rect.unit (s := S128x1) ![0, 0] S128x1.size inb_S128x1_S128x1_0_0, k0_pay5 (scM1.view.readAt (Elt F) (Rect.unit (s := S128x64) ![0, 0] S128x64.size inb_S128x64_S128x64_0_0).toLoadRect (scM1.view.write (Elt F) fs1 (gVi c i xt1 fh1) Finset.univ))⟩] : sProp 𝕄)
      ⊢ iprop(∃ f, arg.view.loc (c : Thread nD τ) ↦[arg.view.set]{fullShare} arg.view.writes (Elt F) f (runL c i xt0 xt1 xt2 fh0 fh1).2.2.2.1) := by
  rw [load_block1, piece_whole]
  iintro H
  iexists f
  iexact H

/-- What the run leaves in result buffer 5 is the listed store over some contents. -/
theorem out10 (c : Dev nD) (i : grid0.Coords) (xt0 : BufOf (F := F) c tbM0) (xt1 : BufOf (F := F) c tbM1) (xt2 : BufOf (F := F) c tbM2)
    (fh0 : BufOf (F := F) c hbM0) (fh1 : BufOf (F := F) c hbM1)
    (fs0 : BufOf (F := F) c scM0) (fs1 : BufOf (F := F) c scM1) (fs2 : BufOf (F := F) c scM2)
    (arg : Memref sig .tc .vmem S128x1 .f32) (f : BufOf (F := F) c arg) :
    (arg.view.loc (c : Thread nD τ) ↦[arg.view.set]{fullShare} arg.view.writes (Elt F) f
        [⟨Rect.unit (s := S128x1) ![0, 0] S128x1.size inb_S128x1_S128x1_0_0, k0_pay1 (k0_pay6 (scM2.view.readAt (Elt F) (Rect.unit (s := S128x64) ![0, 0] S128x64.size inb_S128x64_S128x64_0_0).toLoadRect (scM2.view.write (Elt F) fs2 (gVj c i xt2 fh1) Finset.univ)))⟩] : sProp 𝕄)
      ⊢ iprop(∃ f, arg.view.loc (c : Thread nD τ) ↦[arg.view.set]{fullShare} arg.view.writes (Elt F) f (runL c i xt0 xt1 xt2 fh0 fh1).2.2.2.2) := by
  rw [load_block2, piece_whole]
  iintro H
  iexists f
  iexact H

/-! ## The cells named by number and membership -/

set_option maxHeartbeats 64000000 in
/-- The 384 cells at zero, in three chains each highest first, are every own cell at zero. -/
theorem cells_down' (c : Dev nD) :
    (iprop((semVal ((c : Thread nD τ), SemLoc.dma ⟨137, by decide⟩) 0
      ∗ semVal ((c : Thread nD τ), SemLoc.dma ⟨136, by decide⟩) 0
      ∗ semVal ((c : Thread nD τ), SemLoc.dma ⟨135, by decide⟩) 0
      ∗ semVal ((c : Thread nD τ), SemLoc.dma ⟨134, by decide⟩) 0
      ∗ semVal ((c : Thread nD τ), SemLoc.dma ⟨133, by decide⟩) 0
      ∗ semVal ((c : Thread nD τ), SemLoc.dma ⟨132, by decide⟩) 0
      ∗ semVal ((c : Thread nD τ), SemLoc.dma ⟨131, by decide⟩) 0
      ∗ semVal ((c : Thread nD τ), SemLoc.dma ⟨130, by decide⟩) 0
      ∗ semVal ((c : Thread nD τ), SemLoc.dma ⟨129, by decide⟩) 0
      ∗ semVal ((c : Thread nD τ), SemLoc.dma ⟨128, by decide⟩) 0
      ∗ semVal ((c : Thread nD τ), SemLoc.dma ⟨127, by decide⟩) 0
      ∗ semVal ((c : Thread nD τ), SemLoc.dma ⟨126, by decide⟩) 0
      ∗ semVal ((c : Thread nD τ), SemLoc.dma ⟨125, by decide⟩) 0
      ∗ semVal ((c : Thread nD τ), SemLoc.dma ⟨124, by decide⟩) 0
      ∗ semVal ((c : Thread nD τ), SemLoc.dma ⟨123, by decide⟩) 0
      ∗ semVal ((c : Thread nD τ), SemLoc.dma ⟨122, by decide⟩) 0
      ∗ semVal ((c : Thread nD τ), SemLoc.dma ⟨121, by decide⟩) 0
      ∗ semVal ((c : Thread nD τ), SemLoc.dma ⟨120, by decide⟩) 0
      ∗ semVal ((c : Thread nD τ), SemLoc.dma ⟨119, by decide⟩) 0
      ∗ semVal ((c : Thread nD τ), SemLoc.dma ⟨118, by decide⟩) 0
      ∗ semVal ((c : Thread nD τ), SemLoc.dma ⟨117, by decide⟩) 0
      ∗ semVal ((c : Thread nD τ), SemLoc.dma ⟨116, by decide⟩) 0
      ∗ semVal ((c : Thread nD τ), SemLoc.dma ⟨115, by decide⟩) 0
      ∗ semVal ((c : Thread nD τ), SemLoc.dma ⟨114, by decide⟩) 0
      ∗ semVal ((c : Thread nD τ), SemLoc.dma ⟨113, by decide⟩) 0
      ∗ semVal ((c : Thread nD τ), SemLoc.dma ⟨112, by decide⟩) 0
      ∗ semVal ((c : Thread nD τ), SemLoc.dma ⟨111, by decide⟩) 0
      ∗ semVal ((c : Thread nD τ), SemLoc.dma ⟨110, by decide⟩) 0
      ∗ semVal ((c : Thread nD τ), SemLoc.dma ⟨109, by decide⟩) 0
      ∗ semVal ((c : Thread nD τ), SemLoc.dma ⟨108, by decide⟩) 0
      ∗ semVal ((c : Thread nD τ), SemLoc.dma ⟨107, by decide⟩) 0
      ∗ semVal ((c : Thread nD τ), SemLoc.dma ⟨106, by decide⟩) 0
      ∗ semVal ((c : Thread nD τ), SemLoc.dma ⟨105, by decide⟩) 0
      ∗ semVal ((c : Thread nD τ), SemLoc.dma ⟨104, by decide⟩) 0
      ∗ semVal ((c : Thread nD τ), SemLoc.dma ⟨103, by decide⟩) 0
      ∗ semVal ((c : Thread nD τ), SemLoc.dma ⟨102, by decide⟩) 0
      ∗ semVal ((c : Thread nD τ), SemLoc.dma ⟨101, by decide⟩) 0
      ∗ semVal ((c : Thread nD τ), SemLoc.dma ⟨100, by decide⟩) 0
      ∗ semVal ((c : Thread nD τ), SemLoc.dma ⟨99, by decide⟩) 0
      ∗ semVal ((c : Thread nD τ), SemLoc.dma ⟨98, by decide⟩) 0
      ∗ semVal ((c : Thread nD τ), SemLoc.dma ⟨97, by decide⟩) 0
      ∗ semVal ((c : Thread nD τ), SemLoc.dma ⟨96, by decide⟩) 0
      ∗ semVal ((c : Thread nD τ), SemLoc.dma ⟨95, by decide⟩) 0
      ∗ semVal ((c : Thread nD τ), SemLoc.dma ⟨94, by decide⟩) 0
      ∗ semVal ((c : Thread nD τ), SemLoc.dma ⟨93, by decide⟩) 0
      ∗ semVal ((c : Thread nD τ), SemLoc.dma ⟨92, by decide⟩) 0
      ∗ semVal ((c : Thread nD τ), SemLoc.dma ⟨91, by decide⟩) 0
      ∗ semVal ((c : Thread nD τ), SemLoc.dma ⟨90, by decide⟩) 0
      ∗ semVal ((c : Thread nD τ), SemLoc.dma ⟨89, by decide⟩) 0
      ∗ semVal ((c : Thread nD τ), SemLoc.dma ⟨88, by decide⟩) 0
      ∗ semVal ((c : Thread nD τ), SemLoc.dma ⟨87, by decide⟩) 0
      ∗ semVal ((c : Thread nD τ), SemLoc.dma ⟨86, by decide⟩) 0
      ∗ semVal ((c : Thread nD τ), SemLoc.dma ⟨85, by decide⟩) 0
      ∗ semVal ((c : Thread nD τ), SemLoc.dma ⟨84, by decide⟩) 0
      ∗ semVal ((c : Thread nD τ), SemLoc.dma ⟨83, by decide⟩) 0
      ∗ semVal ((c : Thread nD τ), SemLoc.dma ⟨82, by decide⟩) 0
      ∗ semVal ((c : Thread nD τ), SemLoc.dma ⟨81, by decide⟩) 0
      ∗ semVal ((c : Thread nD τ), SemLoc.dma ⟨80, by decide⟩) 0
      ∗ semVal ((c : Thread nD τ), SemLoc.dma ⟨79, by decide⟩) 0
      ∗ semVal ((c : Thread nD τ), SemLoc.dma ⟨78, by decide⟩) 0
      ∗ semVal ((c : Thread nD τ), SemLoc.dma ⟨77, by decide⟩) 0
      ∗ semVal ((c : Thread nD τ), SemLoc.dma ⟨76, by decide⟩) 0
      ∗ semVal ((c : Thread nD τ), SemLoc.dma ⟨75, by decide⟩) 0
      ∗ semVal ((c : Thread nD τ), SemLoc.dma ⟨74, by decide⟩) 0
      ∗ semVal ((c : Thread nD τ), SemLoc.dma ⟨73, by decide⟩) 0
      ∗ semVal ((c : Thread nD τ), SemLoc.dma ⟨72, by decide⟩) 0
      ∗ semVal ((c : Thread nD τ), SemLoc.dma ⟨71, by decide⟩) 0
      ∗ semVal ((c : Thread nD τ), SemLoc.dma ⟨70, by decide⟩) 0
      ∗ semVal ((c : Thread nD τ), SemLoc.dma ⟨69, by decide⟩) 0
      ∗ semVal ((c : Thread nD τ), SemLoc.dma ⟨68, by decide⟩) 0
      ∗ semVal ((c : Thread nD τ), SemLoc.dma ⟨67, by decide⟩) 0
      ∗ semVal ((c : Thread nD τ), SemLoc.dma ⟨66, by decide⟩) 0
      ∗ semVal ((c : Thread nD τ), SemLoc.dma ⟨65, by decide⟩) 0
      ∗ semVal ((c : Thread nD τ), SemLoc.dma ⟨64, by decide⟩) 0
      ∗ semVal ((c : Thread nD τ), SemLoc.dma ⟨63, by decide⟩) 0
      ∗ semVal ((c : Thread nD τ), SemLoc.dma ⟨62, by decide⟩) 0
      ∗ semVal ((c : Thread nD τ), SemLoc.dma ⟨61, by decide⟩) 0
      ∗ semVal ((c : Thread nD τ), SemLoc.dma ⟨60, by decide⟩) 0
      ∗ semVal ((c : Thread nD τ), SemLoc.dma ⟨59, by decide⟩) 0
      ∗ semVal ((c : Thread nD τ), SemLoc.dma ⟨58, by decide⟩) 0
      ∗ semVal ((c : Thread nD τ), SemLoc.dma ⟨57, by decide⟩) 0
      ∗ semVal ((c : Thread nD τ), SemLoc.dma ⟨56, by decide⟩) 0
      ∗ semVal ((c : Thread nD τ), SemLoc.dma ⟨55, by decide⟩) 0
      ∗ semVal ((c : Thread nD τ), SemLoc.dma ⟨54, by decide⟩) 0
      ∗ semVal ((c : Thread nD τ), SemLoc.dma ⟨53, by decide⟩) 0
      ∗ semVal ((c : Thread nD τ), SemLoc.dma ⟨52, by decide⟩) 0
      ∗ semVal ((c : Thread nD τ), SemLoc.dma ⟨51, by decide⟩) 0
      ∗ semVal ((c : Thread nD τ), SemLoc.dma ⟨50, by decide⟩) 0
      ∗ semVal ((c : Thread nD τ), SemLoc.dma ⟨49, by decide⟩) 0
      ∗ semVal ((c : Thread nD τ), SemLoc.dma ⟨48, by decide⟩) 0
      ∗ semVal ((c : Thread nD τ), SemLoc.dma ⟨47, by decide⟩) 0
      ∗ semVal ((c : Thread nD τ), SemLoc.dma ⟨46, by decide⟩) 0
      ∗ semVal ((c : Thread nD τ), SemLoc.dma ⟨45, by decide⟩) 0
      ∗ semVal ((c : Thread nD τ), SemLoc.dma ⟨44, by decide⟩) 0
      ∗ semVal ((c : Thread nD τ), SemLoc.dma ⟨43, by decide⟩) 0
      ∗ semVal ((c : Thread nD τ), SemLoc.dma ⟨42, by decide⟩) 0
      ∗ semVal ((c : Thread nD τ), SemLoc.dma ⟨41, by decide⟩) 0
      ∗ semVal ((c : Thread nD τ), SemLoc.dma ⟨40, by decide⟩) 0
      ∗ semVal ((c : Thread nD τ), SemLoc.dma ⟨39, by decide⟩) 0
      ∗ semVal ((c : Thread nD τ), SemLoc.dma ⟨38, by decide⟩) 0
      ∗ semVal ((c : Thread nD τ), SemLoc.dma ⟨37, by decide⟩) 0
      ∗ semVal ((c : Thread nD τ), SemLoc.dma ⟨36, by decide⟩) 0
      ∗ semVal ((c : Thread nD τ), SemLoc.dma ⟨35, by decide⟩) 0
      ∗ semVal ((c : Thread nD τ), SemLoc.dma ⟨34, by decide⟩) 0
      ∗ semVal ((c : Thread nD τ), SemLoc.dma ⟨33, by decide⟩) 0
      ∗ semVal ((c : Thread nD τ), SemLoc.dma ⟨32, by decide⟩) 0
      ∗ semVal ((c : Thread nD τ), SemLoc.dma ⟨31, by decide⟩) 0
      ∗ semVal ((c : Thread nD τ), SemLoc.dma ⟨30, by decide⟩) 0
      ∗ semVal ((c : Thread nD τ), SemLoc.dma ⟨29, by decide⟩) 0
      ∗ semVal ((c : Thread nD τ), SemLoc.dma ⟨28, by decide⟩) 0
      ∗ semVal ((c : Thread nD τ), SemLoc.dma ⟨27, by decide⟩) 0
      ∗ semVal ((c : Thread nD τ), SemLoc.dma ⟨26, by decide⟩) 0
      ∗ semVal ((c : Thread nD τ), SemLoc.dma ⟨25, by decide⟩) 0
      ∗ semVal ((c : Thread nD τ), SemLoc.dma ⟨24, by decide⟩) 0
      ∗ semVal ((c : Thread nD τ), SemLoc.dma ⟨23, by decide⟩) 0
      ∗ semVal ((c : Thread nD τ), SemLoc.dma ⟨22, by decide⟩) 0
      ∗ semVal ((c : Thread nD τ), SemLoc.dma ⟨21, by decide⟩) 0
      ∗ semVal ((c : Thread nD τ), SemLoc.dma ⟨20, by decide⟩) 0
      ∗ semVal ((c : Thread nD τ), SemLoc.dma ⟨19, by decide⟩) 0
      ∗ semVal ((c : Thread nD τ), SemLoc.dma ⟨18, by decide⟩) 0
      ∗ semVal ((c : Thread nD τ), SemLoc.dma ⟨17, by decide⟩) 0
      ∗ semVal ((c : Thread nD τ), SemLoc.dma ⟨16, by decide⟩) 0
      ∗ semVal ((c : Thread nD τ), SemLoc.dma ⟨15, by decide⟩) 0
      ∗ semVal ((c : Thread nD τ), SemLoc.dma ⟨14, by decide⟩) 0
      ∗ semVal ((c : Thread nD τ), SemLoc.dma ⟨13, by decide⟩) 0
      ∗ semVal ((c : Thread nD τ), SemLoc.dma ⟨12, by decide⟩) 0
      ∗ semVal ((c : Thread nD τ), SemLoc.dma ⟨11, by decide⟩) 0
      ∗ semVal ((c : Thread nD τ), SemLoc.dma ⟨10, by decide⟩) 0
      ∗ emp)
      ∗ (semVal ((c : Thread nD τ), SemLoc.dma ⟨265, by decide⟩) 0
      ∗ semVal ((c : Thread nD τ), SemLoc.dma ⟨264, by decide⟩) 0
      ∗ semVal ((c : Thread nD τ), SemLoc.dma ⟨263, by decide⟩) 0
      ∗ semVal ((c : Thread nD τ), SemLoc.dma ⟨262, by decide⟩) 0
      ∗ semVal ((c : Thread nD τ), SemLoc.dma ⟨261, by decide⟩) 0
      ∗ semVal ((c : Thread nD τ), SemLoc.dma ⟨260, by decide⟩) 0
      ∗ semVal ((c : Thread nD τ), SemLoc.dma ⟨259, by decide⟩) 0
      ∗ semVal ((c : Thread nD τ), SemLoc.dma ⟨258, by decide⟩) 0
      ∗ semVal ((c : Thread nD τ), SemLoc.dma ⟨257, by decide⟩) 0
      ∗ semVal ((c : Thread nD τ), SemLoc.dma ⟨256, by decide⟩) 0
      ∗ semVal ((c : Thread nD τ), SemLoc.dma ⟨255, by decide⟩) 0
      ∗ semVal ((c : Thread nD τ), SemLoc.dma ⟨254, by decide⟩) 0
      ∗ semVal ((c : Thread nD τ), SemLoc.dma ⟨253, by decide⟩) 0
      ∗ semVal ((c : Thread nD τ), SemLoc.dma ⟨252, by decide⟩) 0
      ∗ semVal ((c : Thread nD τ), SemLoc.dma ⟨251, by decide⟩) 0
      ∗ semVal ((c : Thread nD τ), SemLoc.dma ⟨250, by decide⟩) 0
      ∗ semVal ((c : Thread nD τ), SemLoc.dma ⟨249, by decide⟩) 0
      ∗ semVal ((c : Thread nD τ), SemLoc.dma ⟨248, by decide⟩) 0
      ∗ semVal ((c : Thread nD τ), SemLoc.dma ⟨247, by decide⟩) 0
      ∗ semVal ((c : Thread nD τ), SemLoc.dma ⟨246, by decide⟩) 0
      ∗ semVal ((c : Thread nD τ), SemLoc.dma ⟨245, by decide⟩) 0
      ∗ semVal ((c : Thread nD τ), SemLoc.dma ⟨244, by decide⟩) 0
      ∗ semVal ((c : Thread nD τ), SemLoc.dma ⟨243, by decide⟩) 0
      ∗ semVal ((c : Thread nD τ), SemLoc.dma ⟨242, by decide⟩) 0
      ∗ semVal ((c : Thread nD τ), SemLoc.dma ⟨241, by decide⟩) 0
      ∗ semVal ((c : Thread nD τ), SemLoc.dma ⟨240, by decide⟩) 0
      ∗ semVal ((c : Thread nD τ), SemLoc.dma ⟨239, by decide⟩) 0
      ∗ semVal ((c : Thread nD τ), SemLoc.dma ⟨238, by decide⟩) 0
      ∗ semVal ((c : Thread nD τ), SemLoc.dma ⟨237, by decide⟩) 0
      ∗ semVal ((c : Thread nD τ), SemLoc.dma ⟨236, by decide⟩) 0
      ∗ semVal ((c : Thread nD τ), SemLoc.dma ⟨235, by decide⟩) 0
      ∗ semVal ((c : Thread nD τ), SemLoc.dma ⟨234, by decide⟩) 0
      ∗ semVal ((c : Thread nD τ), SemLoc.dma ⟨233, by decide⟩) 0
      ∗ semVal ((c : Thread nD τ), SemLoc.dma ⟨232, by decide⟩) 0
      ∗ semVal ((c : Thread nD τ), SemLoc.dma ⟨231, by decide⟩) 0
      ∗ semVal ((c : Thread nD τ), SemLoc.dma ⟨230, by decide⟩) 0
      ∗ semVal ((c : Thread nD τ), SemLoc.dma ⟨229, by decide⟩) 0
      ∗ semVal ((c : Thread nD τ), SemLoc.dma ⟨228, by decide⟩) 0
      ∗ semVal ((c : Thread nD τ), SemLoc.dma ⟨227, by decide⟩) 0
      ∗ semVal ((c : Thread nD τ), SemLoc.dma ⟨226, by decide⟩) 0
      ∗ semVal ((c : Thread nD τ), SemLoc.dma ⟨225, by decide⟩) 0
      ∗ semVal ((c : Thread nD τ), SemLoc.dma ⟨224, by decide⟩) 0
      ∗ semVal ((c : Thread nD τ), SemLoc.dma ⟨223, by decide⟩) 0
      ∗ semVal ((c : Thread nD τ), SemLoc.dma ⟨222, by decide⟩) 0
      ∗ semVal ((c : Thread nD τ), SemLoc.dma ⟨221, by decide⟩) 0
      ∗ semVal ((c : Thread nD τ), SemLoc.dma ⟨220, by decide⟩) 0
      ∗ semVal ((c : Thread nD τ), SemLoc.dma ⟨219, by decide⟩) 0
      ∗ semVal ((c : Thread nD τ), SemLoc.dma ⟨218, by decide⟩) 0
      ∗ semVal ((c : Thread nD τ), SemLoc.dma ⟨217, by decide⟩) 0
      ∗ semVal ((c : Thread nD τ), SemLoc.dma ⟨216, by decide⟩) 0
      ∗ semVal ((c : Thread nD τ), SemLoc.dma ⟨215, by decide⟩) 0
      ∗ semVal ((c : Thread nD τ), SemLoc.dma ⟨214, by decide⟩) 0
      ∗ semVal ((c : Thread nD τ), SemLoc.dma ⟨213, by decide⟩) 0
      ∗ semVal ((c : Thread nD τ), SemLoc.dma ⟨212, by decide⟩) 0
      ∗ semVal ((c : Thread nD τ), SemLoc.dma ⟨211, by decide⟩) 0
      ∗ semVal ((c : Thread nD τ), SemLoc.dma ⟨210, by decide⟩) 0
      ∗ semVal ((c : Thread nD τ), SemLoc.dma ⟨209, by decide⟩) 0
      ∗ semVal ((c : Thread nD τ), SemLoc.dma ⟨208, by decide⟩) 0
      ∗ semVal ((c : Thread nD τ), SemLoc.dma ⟨207, by decide⟩) 0
      ∗ semVal ((c : Thread nD τ), SemLoc.dma ⟨206, by decide⟩) 0
      ∗ semVal ((c : Thread nD τ), SemLoc.dma ⟨205, by decide⟩) 0
      ∗ semVal ((c : Thread nD τ), SemLoc.dma ⟨204, by decide⟩) 0
      ∗ semVal ((c : Thread nD τ), SemLoc.dma ⟨203, by decide⟩) 0
      ∗ semVal ((c : Thread nD τ), SemLoc.dma ⟨202, by decide⟩) 0
      ∗ semVal ((c : Thread nD τ), SemLoc.dma ⟨201, by decide⟩) 0
      ∗ semVal ((c : Thread nD τ), SemLoc.dma ⟨200, by decide⟩) 0
      ∗ semVal ((c : Thread nD τ), SemLoc.dma ⟨199, by decide⟩) 0
      ∗ semVal ((c : Thread nD τ), SemLoc.dma ⟨198, by decide⟩) 0
      ∗ semVal ((c : Thread nD τ), SemLoc.dma ⟨197, by decide⟩) 0
      ∗ semVal ((c : Thread nD τ), SemLoc.dma ⟨196, by decide⟩) 0
      ∗ semVal ((c : Thread nD τ), SemLoc.dma ⟨195, by decide⟩) 0
      ∗ semVal ((c : Thread nD τ), SemLoc.dma ⟨194, by decide⟩) 0
      ∗ semVal ((c : Thread nD τ), SemLoc.dma ⟨193, by decide⟩) 0
      ∗ semVal ((c : Thread nD τ), SemLoc.dma ⟨192, by decide⟩) 0
      ∗ semVal ((c : Thread nD τ), SemLoc.dma ⟨191, by decide⟩) 0
      ∗ semVal ((c : Thread nD τ), SemLoc.dma ⟨190, by decide⟩) 0
      ∗ semVal ((c : Thread nD τ), SemLoc.dma ⟨189, by decide⟩) 0
      ∗ semVal ((c : Thread nD τ), SemLoc.dma ⟨188, by decide⟩) 0
      ∗ semVal ((c : Thread nD τ), SemLoc.dma ⟨187, by decide⟩) 0
      ∗ semVal ((c : Thread nD τ), SemLoc.dma ⟨186, by decide⟩) 0
      ∗ semVal ((c : Thread nD τ), SemLoc.dma ⟨185, by decide⟩) 0
      ∗ semVal ((c : Thread nD τ), SemLoc.dma ⟨184, by decide⟩) 0
      ∗ semVal ((c : Thread nD τ), SemLoc.dma ⟨183, by decide⟩) 0
      ∗ semVal ((c : Thread nD τ), SemLoc.dma ⟨182, by decide⟩) 0
      ∗ semVal ((c : Thread nD τ), SemLoc.dma ⟨181, by decide⟩) 0
      ∗ semVal ((c : Thread nD τ), SemLoc.dma ⟨180, by decide⟩) 0
      ∗ semVal ((c : Thread nD τ), SemLoc.dma ⟨179, by decide⟩) 0
      ∗ semVal ((c : Thread nD τ), SemLoc.dma ⟨178, by decide⟩) 0
      ∗ semVal ((c : Thread nD τ), SemLoc.dma ⟨177, by decide⟩) 0
      ∗ semVal ((c : Thread nD τ), SemLoc.dma ⟨176, by decide⟩) 0
      ∗ semVal ((c : Thread nD τ), SemLoc.dma ⟨175, by decide⟩) 0
      ∗ semVal ((c : Thread nD τ), SemLoc.dma ⟨174, by decide⟩) 0
      ∗ semVal ((c : Thread nD τ), SemLoc.dma ⟨173, by decide⟩) 0
      ∗ semVal ((c : Thread nD τ), SemLoc.dma ⟨172, by decide⟩) 0
      ∗ semVal ((c : Thread nD τ), SemLoc.dma ⟨171, by decide⟩) 0
      ∗ semVal ((c : Thread nD τ), SemLoc.dma ⟨170, by decide⟩) 0
      ∗ semVal ((c : Thread nD τ), SemLoc.dma ⟨169, by decide⟩) 0
      ∗ semVal ((c : Thread nD τ), SemLoc.dma ⟨168, by decide⟩) 0
      ∗ semVal ((c : Thread nD τ), SemLoc.dma ⟨167, by decide⟩) 0
      ∗ semVal ((c : Thread nD τ), SemLoc.dma ⟨166, by decide⟩) 0
      ∗ semVal ((c : Thread nD τ), SemLoc.dma ⟨165, by decide⟩) 0
      ∗ semVal ((c : Thread nD τ), SemLoc.dma ⟨164, by decide⟩) 0
      ∗ semVal ((c : Thread nD τ), SemLoc.dma ⟨163, by decide⟩) 0
      ∗ semVal ((c : Thread nD τ), SemLoc.dma ⟨162, by decide⟩) 0
      ∗ semVal ((c : Thread nD τ), SemLoc.dma ⟨161, by decide⟩) 0
      ∗ semVal ((c : Thread nD τ), SemLoc.dma ⟨160, by decide⟩) 0
      ∗ semVal ((c : Thread nD τ), SemLoc.dma ⟨159, by decide⟩) 0
      ∗ semVal ((c : Thread nD τ), SemLoc.dma ⟨158, by decide⟩) 0
      ∗ semVal ((c : Thread nD τ), SemLoc.dma ⟨157, by decide⟩) 0
      ∗ semVal ((c : Thread nD τ), SemLoc.dma ⟨156, by decide⟩) 0
      ∗ semVal ((c : Thread nD τ), SemLoc.dma ⟨155, by decide⟩) 0
      ∗ semVal ((c : Thread nD τ), SemLoc.dma ⟨154, by decide⟩) 0
      ∗ semVal ((c : Thread nD τ), SemLoc.dma ⟨153, by decide⟩) 0
      ∗ semVal ((c : Thread nD τ), SemLoc.dma ⟨152, by decide⟩) 0
      ∗ semVal ((c : Thread nD τ), SemLoc.dma ⟨151, by decide⟩) 0
      ∗ semVal ((c : Thread nD τ), SemLoc.dma ⟨150, by decide⟩) 0
      ∗ semVal ((c : Thread nD τ), SemLoc.dma ⟨149, by decide⟩) 0
      ∗ semVal ((c : Thread nD τ), SemLoc.dma ⟨148, by decide⟩) 0
      ∗ semVal ((c : Thread nD τ), SemLoc.dma ⟨147, by decide⟩) 0
      ∗ semVal ((c : Thread nD τ), SemLoc.dma ⟨146, by decide⟩) 0
      ∗ semVal ((c : Thread nD τ), SemLoc.dma ⟨145, by decide⟩) 0
      ∗ semVal ((c : Thread nD τ), SemLoc.dma ⟨144, by decide⟩) 0
      ∗ semVal ((c : Thread nD τ), SemLoc.dma ⟨143, by decide⟩) 0
      ∗ semVal ((c : Thread nD τ), SemLoc.dma ⟨142, by decide⟩) 0
      ∗ semVal ((c : Thread nD τ), SemLoc.dma ⟨141, by decide⟩) 0
      ∗ semVal ((c : Thread nD τ), SemLoc.dma ⟨140, by decide⟩) 0
      ∗ semVal ((c : Thread nD τ), SemLoc.dma ⟨139, by decide⟩) 0
      ∗ semVal ((c : Thread nD τ), SemLoc.dma ⟨138, by decide⟩) 0
      ∗ emp)
      ∗ (semVal ((c : Thread nD τ), SemLoc.dma ⟨393, by decide⟩) 0
      ∗ semVal ((c : Thread nD τ), SemLoc.dma ⟨392, by decide⟩) 0
      ∗ semVal ((c : Thread nD τ), SemLoc.dma ⟨391, by decide⟩) 0
      ∗ semVal ((c : Thread nD τ), SemLoc.dma ⟨390, by decide⟩) 0
      ∗ semVal ((c : Thread nD τ), SemLoc.dma ⟨389, by decide⟩) 0
      ∗ semVal ((c : Thread nD τ), SemLoc.dma ⟨388, by decide⟩) 0
      ∗ semVal ((c : Thread nD τ), SemLoc.dma ⟨387, by decide⟩) 0
      ∗ semVal ((c : Thread nD τ), SemLoc.dma ⟨386, by decide⟩) 0
      ∗ semVal ((c : Thread nD τ), SemLoc.dma ⟨385, by decide⟩) 0
      ∗ semVal ((c : Thread nD τ), SemLoc.dma ⟨384, by decide⟩) 0
      ∗ semVal ((c : Thread nD τ), SemLoc.dma ⟨383, by decide⟩) 0
      ∗ semVal ((c : Thread nD τ), SemLoc.dma ⟨382, by decide⟩) 0
      ∗ semVal ((c : Thread nD τ), SemLoc.dma ⟨381, by decide⟩) 0
      ∗ semVal ((c : Thread nD τ), SemLoc.dma ⟨380, by decide⟩) 0
      ∗ semVal ((c : Thread nD τ), SemLoc.dma ⟨379, by decide⟩) 0
      ∗ semVal ((c : Thread nD τ), SemLoc.dma ⟨378, by decide⟩) 0
      ∗ semVal ((c : Thread nD τ), SemLoc.dma ⟨377, by decide⟩) 0
      ∗ semVal ((c : Thread nD τ), SemLoc.dma ⟨376, by decide⟩) 0
      ∗ semVal ((c : Thread nD τ), SemLoc.dma ⟨375, by decide⟩) 0
      ∗ semVal ((c : Thread nD τ), SemLoc.dma ⟨374, by decide⟩) 0
      ∗ semVal ((c : Thread nD τ), SemLoc.dma ⟨373, by decide⟩) 0
      ∗ semVal ((c : Thread nD τ), SemLoc.dma ⟨372, by decide⟩) 0
      ∗ semVal ((c : Thread nD τ), SemLoc.dma ⟨371, by decide⟩) 0
      ∗ semVal ((c : Thread nD τ), SemLoc.dma ⟨370, by decide⟩) 0
      ∗ semVal ((c : Thread nD τ), SemLoc.dma ⟨369, by decide⟩) 0
      ∗ semVal ((c : Thread nD τ), SemLoc.dma ⟨368, by decide⟩) 0
      ∗ semVal ((c : Thread nD τ), SemLoc.dma ⟨367, by decide⟩) 0
      ∗ semVal ((c : Thread nD τ), SemLoc.dma ⟨366, by decide⟩) 0
      ∗ semVal ((c : Thread nD τ), SemLoc.dma ⟨365, by decide⟩) 0
      ∗ semVal ((c : Thread nD τ), SemLoc.dma ⟨364, by decide⟩) 0
      ∗ semVal ((c : Thread nD τ), SemLoc.dma ⟨363, by decide⟩) 0
      ∗ semVal ((c : Thread nD τ), SemLoc.dma ⟨362, by decide⟩) 0
      ∗ semVal ((c : Thread nD τ), SemLoc.dma ⟨361, by decide⟩) 0
      ∗ semVal ((c : Thread nD τ), SemLoc.dma ⟨360, by decide⟩) 0
      ∗ semVal ((c : Thread nD τ), SemLoc.dma ⟨359, by decide⟩) 0
      ∗ semVal ((c : Thread nD τ), SemLoc.dma ⟨358, by decide⟩) 0
      ∗ semVal ((c : Thread nD τ), SemLoc.dma ⟨357, by decide⟩) 0
      ∗ semVal ((c : Thread nD τ), SemLoc.dma ⟨356, by decide⟩) 0
      ∗ semVal ((c : Thread nD τ), SemLoc.dma ⟨355, by decide⟩) 0
      ∗ semVal ((c : Thread nD τ), SemLoc.dma ⟨354, by decide⟩) 0
      ∗ semVal ((c : Thread nD τ), SemLoc.dma ⟨353, by decide⟩) 0
      ∗ semVal ((c : Thread nD τ), SemLoc.dma ⟨352, by decide⟩) 0
      ∗ semVal ((c : Thread nD τ), SemLoc.dma ⟨351, by decide⟩) 0
      ∗ semVal ((c : Thread nD τ), SemLoc.dma ⟨350, by decide⟩) 0
      ∗ semVal ((c : Thread nD τ), SemLoc.dma ⟨349, by decide⟩) 0
      ∗ semVal ((c : Thread nD τ), SemLoc.dma ⟨348, by decide⟩) 0
      ∗ semVal ((c : Thread nD τ), SemLoc.dma ⟨347, by decide⟩) 0
      ∗ semVal ((c : Thread nD τ), SemLoc.dma ⟨346, by decide⟩) 0
      ∗ semVal ((c : Thread nD τ), SemLoc.dma ⟨345, by decide⟩) 0
      ∗ semVal ((c : Thread nD τ), SemLoc.dma ⟨344, by decide⟩) 0
      ∗ semVal ((c : Thread nD τ), SemLoc.dma ⟨343, by decide⟩) 0
      ∗ semVal ((c : Thread nD τ), SemLoc.dma ⟨342, by decide⟩) 0
      ∗ semVal ((c : Thread nD τ), SemLoc.dma ⟨341, by decide⟩) 0
      ∗ semVal ((c : Thread nD τ), SemLoc.dma ⟨340, by decide⟩) 0
      ∗ semVal ((c : Thread nD τ), SemLoc.dma ⟨339, by decide⟩) 0
      ∗ semVal ((c : Thread nD τ), SemLoc.dma ⟨338, by decide⟩) 0
      ∗ semVal ((c : Thread nD τ), SemLoc.dma ⟨337, by decide⟩) 0
      ∗ semVal ((c : Thread nD τ), SemLoc.dma ⟨336, by decide⟩) 0
      ∗ semVal ((c : Thread nD τ), SemLoc.dma ⟨335, by decide⟩) 0
      ∗ semVal ((c : Thread nD τ), SemLoc.dma ⟨334, by decide⟩) 0
      ∗ semVal ((c : Thread nD τ), SemLoc.dma ⟨333, by decide⟩) 0
      ∗ semVal ((c : Thread nD τ), SemLoc.dma ⟨332, by decide⟩) 0
      ∗ semVal ((c : Thread nD τ), SemLoc.dma ⟨331, by decide⟩) 0
      ∗ semVal ((c : Thread nD τ), SemLoc.dma ⟨330, by decide⟩) 0
      ∗ semVal ((c : Thread nD τ), SemLoc.dma ⟨329, by decide⟩) 0
      ∗ semVal ((c : Thread nD τ), SemLoc.dma ⟨328, by decide⟩) 0
      ∗ semVal ((c : Thread nD τ), SemLoc.dma ⟨327, by decide⟩) 0
      ∗ semVal ((c : Thread nD τ), SemLoc.dma ⟨326, by decide⟩) 0
      ∗ semVal ((c : Thread nD τ), SemLoc.dma ⟨325, by decide⟩) 0
      ∗ semVal ((c : Thread nD τ), SemLoc.dma ⟨324, by decide⟩) 0
      ∗ semVal ((c : Thread nD τ), SemLoc.dma ⟨323, by decide⟩) 0
      ∗ semVal ((c : Thread nD τ), SemLoc.dma ⟨322, by decide⟩) 0
      ∗ semVal ((c : Thread nD τ), SemLoc.dma ⟨321, by decide⟩) 0
      ∗ semVal ((c : Thread nD τ), SemLoc.dma ⟨320, by decide⟩) 0
      ∗ semVal ((c : Thread nD τ), SemLoc.dma ⟨319, by decide⟩) 0
      ∗ semVal ((c : Thread nD τ), SemLoc.dma ⟨318, by decide⟩) 0
      ∗ semVal ((c : Thread nD τ), SemLoc.dma ⟨317, by decide⟩) 0
      ∗ semVal ((c : Thread nD τ), SemLoc.dma ⟨316, by decide⟩) 0
      ∗ semVal ((c : Thread nD τ), SemLoc.dma ⟨315, by decide⟩) 0
      ∗ semVal ((c : Thread nD τ), SemLoc.dma ⟨314, by decide⟩) 0
      ∗ semVal ((c : Thread nD τ), SemLoc.dma ⟨313, by decide⟩) 0
      ∗ semVal ((c : Thread nD τ), SemLoc.dma ⟨312, by decide⟩) 0
      ∗ semVal ((c : Thread nD τ), SemLoc.dma ⟨311, by decide⟩) 0
      ∗ semVal ((c : Thread nD τ), SemLoc.dma ⟨310, by decide⟩) 0
      ∗ semVal ((c : Thread nD τ), SemLoc.dma ⟨309, by decide⟩) 0
      ∗ semVal ((c : Thread nD τ), SemLoc.dma ⟨308, by decide⟩) 0
      ∗ semVal ((c : Thread nD τ), SemLoc.dma ⟨307, by decide⟩) 0
      ∗ semVal ((c : Thread nD τ), SemLoc.dma ⟨306, by decide⟩) 0
      ∗ semVal ((c : Thread nD τ), SemLoc.dma ⟨305, by decide⟩) 0
      ∗ semVal ((c : Thread nD τ), SemLoc.dma ⟨304, by decide⟩) 0
      ∗ semVal ((c : Thread nD τ), SemLoc.dma ⟨303, by decide⟩) 0
      ∗ semVal ((c : Thread nD τ), SemLoc.dma ⟨302, by decide⟩) 0
      ∗ semVal ((c : Thread nD τ), SemLoc.dma ⟨301, by decide⟩) 0
      ∗ semVal ((c : Thread nD τ), SemLoc.dma ⟨300, by decide⟩) 0
      ∗ semVal ((c : Thread nD τ), SemLoc.dma ⟨299, by decide⟩) 0
      ∗ semVal ((c : Thread nD τ), SemLoc.dma ⟨298, by decide⟩) 0
      ∗ semVal ((c : Thread nD τ), SemLoc.dma ⟨297, by decide⟩) 0
      ∗ semVal ((c : Thread nD τ), SemLoc.dma ⟨296, by decide⟩) 0
      ∗ semVal ((c : Thread nD τ), SemLoc.dma ⟨295, by decide⟩) 0
      ∗ semVal ((c : Thread nD τ), SemLoc.dma ⟨294, by decide⟩) 0
      ∗ semVal ((c : Thread nD τ), SemLoc.dma ⟨293, by decide⟩) 0
      ∗ semVal ((c : Thread nD τ), SemLoc.dma ⟨292, by decide⟩) 0
      ∗ semVal ((c : Thread nD τ), SemLoc.dma ⟨291, by decide⟩) 0
      ∗ semVal ((c : Thread nD τ), SemLoc.dma ⟨290, by decide⟩) 0
      ∗ semVal ((c : Thread nD τ), SemLoc.dma ⟨289, by decide⟩) 0
      ∗ semVal ((c : Thread nD τ), SemLoc.dma ⟨288, by decide⟩) 0
      ∗ semVal ((c : Thread nD τ), SemLoc.dma ⟨287, by decide⟩) 0
      ∗ semVal ((c : Thread nD τ), SemLoc.dma ⟨286, by decide⟩) 0
      ∗ semVal ((c : Thread nD τ), SemLoc.dma ⟨285, by decide⟩) 0
      ∗ semVal ((c : Thread nD τ), SemLoc.dma ⟨284, by decide⟩) 0
      ∗ semVal ((c : Thread nD τ), SemLoc.dma ⟨283, by decide⟩) 0
      ∗ semVal ((c : Thread nD τ), SemLoc.dma ⟨282, by decide⟩) 0
      ∗ semVal ((c : Thread nD τ), SemLoc.dma ⟨281, by decide⟩) 0
      ∗ semVal ((c : Thread nD τ), SemLoc.dma ⟨280, by decide⟩) 0
      ∗ semVal ((c : Thread nD τ), SemLoc.dma ⟨279, by decide⟩) 0
      ∗ semVal ((c : Thread nD τ), SemLoc.dma ⟨278, by decide⟩) 0
      ∗ semVal ((c : Thread nD τ), SemLoc.dma ⟨277, by decide⟩) 0
      ∗ semVal ((c : Thread nD τ), SemLoc.dma ⟨276, by decide⟩) 0
      ∗ semVal ((c : Thread nD τ), SemLoc.dma ⟨275, by decide⟩) 0
      ∗ semVal ((c : Thread nD τ), SemLoc.dma ⟨274, by decide⟩) 0
      ∗ semVal ((c : Thread nD τ), SemLoc.dma ⟨273, by decide⟩) 0
      ∗ semVal ((c : Thread nD τ), SemLoc.dma ⟨272, by decide⟩) 0
      ∗ semVal ((c : Thread nD τ), SemLoc.dma ⟨271, by decide⟩) 0
      ∗ semVal ((c : Thread nD τ), SemLoc.dma ⟨270, by decide⟩) 0
      ∗ semVal ((c : Thread nD τ), SemLoc.dma ⟨269, by decide⟩) 0
      ∗ semVal ((c : Thread nD τ), SemLoc.dma ⟨268, by decide⟩) 0
      ∗ semVal ((c : Thread nD τ), SemLoc.dma ⟨267, by decide⟩) 0
      ∗ semVal ((c : Thread nD τ), SemLoc.dma ⟨266, by decide⟩) 0
      ∗ emp)) : sProp 𝕄) ⊢ semsZero (F := F) c :=
  cells_down (F := F) c

end Cert.Kernel.Hand

end
-- ==== Proof.KDeliv.lean ====
/-
  A delivered row is a row of the gathered block.

  A copy's source is row w of an n × 64 table, spelt as the table's memref restricted to the unit-stride rectangle at
  offsets (w, 0) of sizes (1, 64) with the unit axis dropped; w is the word a one-element load reads from an index table
  at offset 128·p + r.  What such a copy delivers, read at column q, is the table's entry (w, q): the row memref places its
  index q where the table's memref places (w, q), and the one-element load at offset k reads entry k.  That is entry
  (r, q) of the gathered block.  The offset is computed in 32-bit words from the grid coordinate p and the row number r,
  both below 128, so nothing wraps: it is 128·p + r.
-/
import proofs.«414929_j28089086116333_1_alg».proof.Proof.KGath
import proofs.«414929_j28089086116333_1_alg».proof.Proof.KRows

noncomputable section

namespace Cert.Kernel.Hand

open Cert.Kernel Cert.Kernel.Gen
open Idealize.ShloMosaic Idealize.ShloMosaic.TcCoe
open Idealize.SL Idealize.SL.Sem
open ValueIdx

variable {F : FTy → Type} [FloatOps F]

/-- 128·p + r in 32-bit words, for p and r below 128, is 128·p + r. -/
theorem off_val (p r : ℕ) (hp : p < 128) (hr : r < 128) :
    (Scalar.indexCast (Scalar.addi (Scalar.muli (BitVec.ofNat 32 p) 128#32) (BitVec.ofNat 32 r))).toNat = 128 * p + r := by
  simp only [Scalar.indexCast, Scalar.addi, Scalar.muli, IntOp.addi, IntOp.muli, BitVec.toNat_add, BitVec.toNat_mul,
    BitVec.toNat_ofNat]
  omega

/-- Row `w` of an n × 64 table, as a copy's source is spelt. -/
abbrev trowM {n : ℕ} (hb : Memref sig .tc .hbm (⟨2, ![n, 64]⟩ : Shape) .f32) (w : ℕ)
    (hinb : ∀ a, (![w, 0] : Fin 2 → Nat) a + S1x64.size a ≤ (⟨2, ![n, 64]⟩ : Shape).size a) : Memref sig .tc .hbm S64 .f32 :=
  (hb.slice (Rect.unit (s := (⟨2, ![n, 64]⟩ : Shape)) ![w, 0] S1x64.size hinb) (fun _ => rfl)).squeeze S64 squeezes_S1x64_S64

/-- The row memref places its index q where the table's memref places (w, q). -/
theorem trowM_emb {n : ℕ} (hb : Memref sig .tc .hbm (⟨2, ![n, 64]⟩ : Shape) .f32) (w : ℕ) (hw : w < n)
    (hinb : ∀ a, (![w, 0] : Fin 2 → Nat) a + S1x64.size a ≤ (⟨2, ![n, 64]⟩ : Shape).size a) (q : Fin 64) :
    (trowM hb w hinb).view.emb (ix1 q) = hb.view.emb (ix2 (⟨w, hw⟩ : Fin n) q) := by
  have hre : Shape.reshapeEquiv squeezes_S1x64_S64.numel_eq (ix1 q) = ix2 (0 : Fin 1) q :=
    Shape.reshapeEquiv_eq_of_rowMajor _ (by
      rw [Shape.rowMajor_val_two, Shape.rowMajor_val_one]
      show 0 * 64 + q.val = q.val
      omega)
  show hb.view.emb ((Rect.unit (s := (⟨2, ![n, 64]⟩ : Shape)) ![w, 0] S1x64.size hinb).emb
    (Shape.reshapeEquiv squeezes_S1x64_S64.numel_eq (ix1 q))) = _
  rw [hre]
  congr 1
  funext a
  refine Fin.ext ?_
  match a with
  | ⟨0, _⟩ => show w + 1 * 0 = w; omega
  | ⟨1, _⟩ => show 0 + 1 * q.val = q.val; omega

/-- A one-element load of a 16384-word index table at offset k reads entry k. -/
theorem word_at (c : Dev nD) (tb : Memref sig .tc .smem S16384 .i32) (xt : BufOf (F := F) c tb) (off : Fin 1 → ℕ)
    (hinb1 : ∀ a, off a + S1.size a ≤ S16384.size a)
    (hpos : 0 < (Rect.unit (s := S16384) off S1.size hinb1).toLoadRect.shape.numel) (k : Fin 16384) (hk : off 0 = k.val) :
    tb.view.readAt (Elt F) (Rect.unit (s := S16384) off S1.size hinb1).toLoadRect xt (Shape.Idx.first hpos)
      = tb.view.read (Elt F) xt (ix1 k) := by
  rw [View.readAt_apply]
  congr 1
  funext a
  refine Fin.ext ?_
  match a with
  | ⟨0, _⟩ => simp [hk, Shape.Idx.first]

/-- Read through the row memref at column q, the table's contents give the table's entry (w, q). -/
theorem trow_read {n : ℕ} (c : Dev nD) (hb : Memref sig .tc .hbm (⟨2, ![n, 64]⟩ : Shape) .f32) (fh : BufOf (F := F) c hb)
    (w : ℕ) (hw : w < n) (hinb : ∀ a, (![w, 0] : Fin 2 → Nat) a + S1x64.size a ≤ (⟨2, ![n, 64]⟩ : Shape).size a) (q : Fin 64) :
    (trowM hb w hinb).view.read (Elt F) fh (ix1 q) = hb.view.read (Elt F) fh (ix2 (⟨w, hw⟩ : Fin n) q) := by
  unfold View.read
  rw [trowM_emb hb w hw hinb q]

/-- What a copy out of row w of the table delivers, read at column q, is entry (r, q) of the gathered block, where w is the
    word a one-element load reads from the index table at offset 128·p + r. -/
theorem deliver_gath {n : ℕ} (hn : 0 < n) (c : Dev nD) (hb : Memref sig .tc .hbm (⟨2, ![n, 64]⟩ : Shape) .f32)
    (tb : Memref sig .tc .smem S16384 .i32) (fh : BufOf (F := F) c hb) (xt : BufOf (F := F) c tb) (i : grid0.Coords)
    (r : Fin 128) (off : Fin 1 → ℕ) (hoff : off 0 = 128 * (i 0).val + r.val) (hlt : 128 * (i 0).val + r.val < 16384)
    (hinb1 : ∀ a, off a + S1.size a ≤ S16384.size a)
    (hpos : 0 < (Rect.unit (s := S16384) off S1.size hinb1).toLoadRect.shape.numel)
    (hinb2 : ∀ a, (![(tb.view.readAt (Elt F) (Rect.unit (s := S16384) off S1.size hinb1).toLoadRect xt
        (Shape.Idx.first hpos)).toNat, 0] : Fin 2 → Nat) a + S1x64.size a ≤ (⟨2, ![n, 64]⟩ : Shape).size a)
    (q : Fin 64) :
    (trowM hb _ hinb2).view.read (Elt F) fh (ix1 q)
      = gath hn (hb.view.read (Elt F) fh) (tb.view.read (Elt F) xt) i (ix2 r q) := by
  have hk : off 0 = (rowIdx i r).val := by rw [rowIdx_val i r hlt]; exact hoff
  have hword := word_at c tb xt off hinb1 hpos (rowIdx i r) hk
  have h0 : (tb.view.readAt (Elt F) (Rect.unit (s := S16384) off S1.size hinb1).toLoadRect xt
      (Shape.Idx.first hpos)).toNat + 1 ≤ n := hinb2 (0 : Fin 2)
  have hwltA : (tb.view.readAt (Elt F) (Rect.unit (s := S16384) off S1.size hinb1).toLoadRect xt
      (Shape.Idx.first hpos)).toNat < n := by omega
  have hwlt : (tb.view.read (Elt F) xt (ix1 (rowIdx i r))).toNat < n := hword ▸ hwltA
  rw [gath_apply hn _ _ i r q hwlt]
  refine (trow_read c hb fh _ hwltA hinb2 q).trans ?_
  congr 2
  exact Fin.ext (congrArg BitVec.toNat hword)

end Cert.Kernel.Hand

end
-- ==== Proof.KRun.lean ====
/-
  The kernel body run once, at symbolic operands.

  At a grid point the body reads, for each of its 128 rows r, three index words from the three tables held in scalar
  memory (entry 128·point + r of each), assumes each word addresses a row of its table, and starts three copies: the
  addressed row of the first table into row r of the first scratch buffer, and the rows of the second table addressed by
  the other two words into row r of the second and third scratch buffers, each copy counted on a semaphore cell of its
  own.  It then waits for all 384 copies, cell by cell, loads the three scratch buffers whole, and stores five column
  vectors: the row sums of the products first·second, first·third, first·first, second·second, third·third.

  What is proved: from the five result buffers and the three scratch buffers held at any contents, the 384 cells at
  zero, the three index tables and the two data tables held at their contents, and every index word of each table
  addressing a row of the table it indexes, the body runs to its return, nothing faulting, handing back the tables as they
  were, the cells at zero, and each result buffer with one store of its whole block: the row sums of the gathered blocks.

  How: the body treats its rows in increasing order, so its resources are taken a row at a time.  The scratch rows, the
  cells and the read tokens are held as ascending chains; a row's three destinations, three cells and three tokens are
  taken from the heads of the chains just before its three copies start, and what the starts leave (per copy, the cell
  carrying the flight and the rest of the token) is kept as one conjunct until the row's waits.  After a row's three
  waits the delivered row is restated at the one closed contents of its buffer (the gathered block written over what the
  buffer held), and the row's nine resources go to the heads of the chains of what is done.  After the last wait each
  scratch buffer is its 128 rows at one contents, hence the buffer whole at those contents; a load of it reads the
  gathered block, and the five stores are the listed ones.
-/
import proofs.«414929_j28089086116333_1_alg».proof.Proof.KSems
import proofs.«414929_j28089086116333_1_alg».proof.Proof.KGath
import proofs.«414929_j28089086116333_1_alg».proof.Proof.KSt
import proofs.«414929_j28089086116333_1_alg».proof.Proof.KRunA
import proofs.«414929_j28089086116333_1_alg».proof.Proof.KRunB
import proofs.«414929_j28089086116333_1_alg».proof.Proof.KDeliv
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open ValueIdx

variable {F : FTy → Type} [FloatOps F]

local notation "𝕄" => MT nD τ sig Unit (Elt F) ℕ (Pipeline.UD sig nD τ) ℕ

/-- The fifth result buffer's store, its payload named by the run: the named value is the row sums of the third gathered block. -/
theorem out10P (c : Dev nD) (i : grid0.Coords) (xt0 : BufOf (F := F) c tbM0) (xt1 : BufOf (F := F) c tbM1) (xt2 : BufOf (F := F) c tbM2)
    (fh0 : BufOf (F := F) c hbM0) (fh1 : BufOf (F := F) c hbM1)
    (fs0 : BufOf (F := F) c scM0) (fs1 : BufOf (F := F) c scM1) (fs2 : BufOf (F := F) c scM2)
    (arg : Memref sig .tc .vmem S128x1 .f32) (f : BufOf (F := F) c arg) (v : FVec F S128x64 .f32) :
    (arg.view.loc (c : Thread nD τ) ↦[arg.view.set]{fullShare} arg.view.writes (Elt F) f
        [⟨Rect.unit (s := S128x1) ![0, 0] S128x1.size inb_S128x1_S128x1_0_0, k0_pay1 v⟩] : sProp 𝕄)
      ⊢ iprop(⌜v = k0_pay6 (scM2.view.readAt (Elt F) (Rect.unit (s := S128x64) ![0, 0] S128x64.size inb_S128x64_S128x64_0_0).toLoadRect (scM2.view.write (Elt F) fs2 (gVj c i xt2 fh1) Finset.univ))⌝ -∗
          ∃ f, arg.view.loc (c : Thread nD τ) ↦[arg.view.set]{fullShare} arg.view.writes (Elt F) f (runL c i xt0 xt1 xt2 fh0 fh1).2.2.2.2) := by
  iintro H %hv
  subst hv
  ihave H' := (out10 (F := F) c i xt0 xt1 xt2 fh0 fh1 fs0 fs1 fs2 arg f) $$ H
  iexact H'

set_option maxHeartbeats 400000000 in
theorem kernelRun_spec (c : Dev nD) (i : grid0.Coords)
    (arg6 : Memref sig .tc .vmem S128x1 .f32) (harg6 : arg6.IsWhole) (arg7 : Memref sig .tc .vmem S128x1 .f32) (harg7 : arg7.IsWhole) (arg8 : Memref sig .tc .vmem S128x1 .f32) (harg8 : arg8.IsWhole) (arg9 : Memref sig .tc .vmem S128x1 .f32) (harg9 : arg9.IsWhole) (arg10 : Memref sig .tc .vmem S128x1 .f32) (harg10 : arg10.IsWhole)
    (xt0 : BufOf (F := F) c tbM0) (xt1 : BufOf (F := F) c tbM1) (xt2 : BufOf (F := F) c tbM2)
    (fh0 : BufOf (F := F) c hbM0) (fh1 : BufOf (F := F) c hbM1)
    (hU : ∀ (R : LoadRect S16384) (j : R.shape.Idx) (a : Fin 2), (![(tbM0.view.readAt (Elt F) R xt0 j).toNat, 0] : Fin 2 → Nat) a + S1x64.size a ≤ S1000000x64.size a)
    (hI : ∀ (R : LoadRect S16384) (j : R.shape.Idx) (a : Fin 2), (![(tbM1.view.readAt (Elt F) R xt1 j).toNat, 0] : Fin 2 → Nat) a + S1x64.size a ≤ S500000x64.size a)
    (hJ : ∀ (R : LoadRect S16384) (j : R.shape.Idx) (a : Fin 2), (![(tbM2.view.readAt (Elt F) R xt2 j).toNat, 0] : Fin 2 → Nat) a + S1x64.size a ≤ S500000x64.size a) :
      ∀ (W : Waits sig Unit) (K : PUnit → sProp 𝕄),
        iprop((∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (∃ d, owns (c : Thread nD τ) scM0 fullShare d) ∗ (∃ d, owns (c : Thread nD τ) scM1 fullShare d) ∗ (∃ d, owns (c : Thread nD τ) scM2 fullShare d)
            ∗ semsZero c
            ∗ tbPt c tbM0 xt0 ∗ tbPt c tbM1 xt1 ∗ tbPt c tbM2 xt2 ∗ hbPt c hbM0 fh0 ∗ hbPt c hbM1 fh1 ∗ owes (c : Thread nD τ) 0 W
            ∗ (iprop((∃ f, arg6.view.loc (c : Thread nD τ) ↦[arg6.view.set]{fullShare} arg6.view.writes (Elt F) f (runL c i xt0 xt1 xt2 fh0 fh1).1)
                ∗ (∃ f, arg7.view.loc (c : Thread nD τ) ↦[arg7.view.set]{fullShare} arg7.view.writes (Elt F) f (runL c i xt0 xt1 xt2 fh0 fh1).2.1)
                ∗ (∃ f, arg8.view.loc (c : Thread nD τ) ↦[arg8.view.set]{fullShare} arg8.view.writes (Elt F) f (runL c i xt0 xt1 xt2 fh0 fh1).2.2.1)
                ∗ (∃ f, arg9.view.loc (c : Thread nD τ) ↦[arg9.view.set]{fullShare} arg9.view.writes (Elt F) f (runL c i xt0 xt1 xt2 fh0 fh1).2.2.2.1)
                ∗ (∃ f, arg10.view.loc (c : Thread nD τ) ↦[arg10.view.set]{fullShare} arg10.view.writes (Elt F) f (runL c i xt0 xt1 xt2 fh0 fh1).2.2.2.2)
                ∗ (∃ d, owns (c : Thread nD τ) scM0 fullShare d) ∗ (∃ d, owns (c : Thread nD τ) scM1 fullShare d) ∗ (∃ d, owns (c : Thread nD τ) scM2 fullShare d)
                ∗ semsZero c
                ∗ tbPt c tbM0 xt0 ∗ tbPt c tbM1 xt1 ∗ tbPt c tbM2 xt2 ∗ hbPt c hbM0 fh0 ∗ hbPt c hbM1 fh1 ∗ (∃ W', owes (c : Thread nD τ) 0 W')) -∗ K ⟨⟩))
          ⊢ wp frame (wpE (defs₀ (F := F)) Variants.none c none) Set.univ
              (cc0__gather_kernel i tbM0 (Memref.isWhole_whole _) tbM1 (Memref.isWhole_whole _) tbM2 (Memref.isWhole_whole _) hbM0 (Memref.isWhole_whole _) hbM1 (Memref.isWhole_whole _)
                arg6 harg6 arg7 harg7 arg8 harg8 arg9 harg9 arg10 harg10 scM0 (Memref.isWhole_whole _) scM1 (Memref.isWhole_whole _) scM2 (Memref.isWhole_whole _) cc0_scratch3 cc0_scratch4 cc0_scratch5) K := by
  intro W K
  have hi : (i 0).val < 128 := (i 0).isLt
  unfold owns
  iintro ⟨⟨%d6, %f6, -, H6⟩, ⟨%d7, %f7, -, H7⟩, ⟨%d8, %f8, -, H8⟩, ⟨%d9, %f9, -, H9⟩, ⟨%d10, %f10, -, H10⟩, ⟨%ds0, %fs0, -, HS0⟩, ⟨%ds1, %fs1, -, HS1⟩, ⟨%ds2, %fs2, -, HS2⟩, Hsem, Ht0, Ht1, Ht2, Hh0, Hh1, HW, Hk⟩
  -- the scratch rows, the cells and the read tokens as ascending chains; what no row takes is kept folded
  ihave HRs0 := (rows_up0 c fs0) $$ HS0
  ihave HRs1 := (rows_up1 c fs1) $$ HS1
  ihave HRs2 := (rows_up2 c fs2) $$ HS2
  ihave HCs := (cells_up c) $$ Hsem
  icases HCs with ⟨HA0, HA1, HA2⟩
  ihave HU' := (tokU_up c fh0) $$ Hh0
  icases HU' with ⟨HUr, HUlo, HAT0⟩
  ihave HUrl := (consH _ _) $$ HUr HUlo
  ihave HV' := (tokV_up c fh1) $$ Hh1
  icases HV' with ⟨HVr, HVlo, HAT1, HAT2⟩
  ihave HVrl := (consH _ _) $$ HVr HVlo
  -- row 0: its three destinations, cells and read tokens; its three copies start
  icases HRs0 with ⟨HR0, HRs0⟩
  icases HRs1 with ⟨HR1, HRs1⟩
  icases HRs2 with ⟨HR2, HRs2⟩
  icases HA0 with ⟨HC0, HA0⟩
  icases HA1 with ⟨HC1, HA1⟩
  icases HA2 with ⟨HC2, HA2⟩
  icases HAT0 with ⟨HT0, HAT0⟩
  icases HAT1 with ⟨HT1, HAT1⟩
  icases HAT2 with ⟨HT2, HAT2⟩
  sl_exec (disch := first | sl_exact hU _ _ | sl_exact hI _ _ | sl_exact hJ _ _)
  ihave HB0 := (bundle6 _ _ _ _ _ _) $$ HC0 HT0 HC1 HT1 HC2 HT2
  -- row 1: its three destinations, cells and read tokens; its three copies start
  icases HRs0 with ⟨HR0, HRs0⟩
  icases HRs1 with ⟨HR1, HRs1⟩
  icases HRs2 with ⟨HR2, HRs2⟩
  icases HA0 with ⟨HC0, HA0⟩
  icases HA1 with ⟨HC1, HA1⟩
  icases HA2 with ⟨HC2, HA2⟩
  icases HAT0 with ⟨HT0, HAT0⟩
  icases HAT1 with ⟨HT1, HAT1⟩
  icases HAT2 with ⟨HT2, HAT2⟩
  sl_exec (disch := first | sl_exact hU _ _ | sl_exact hI _ _ | sl_exact hJ _ _)
  ihave HB1 := (bundle6 _ _ _ _ _ _) $$ HC0 HT0 HC1 HT1 HC2 HT2
  -- row 2: its three destinations, cells and read tokens; its three copies start
  icases HRs0 with ⟨HR0, HRs0⟩
  icases HRs1 with ⟨HR1, HRs1⟩
  icases HRs2 with ⟨HR2, HRs2⟩
  icases HA0 with ⟨HC0, HA0⟩
  icases HA1 with ⟨HC1, HA1⟩
  icases HA2 with ⟨HC2, HA2⟩
  icases HAT0 with ⟨HT0, HAT0⟩
  icases HAT1 with ⟨HT1, HAT1⟩
  icases HAT2 with ⟨HT2, HAT2⟩
  sl_exec (disch := first | sl_exact hU _ _ | sl_exact hI _ _ | sl_exact hJ _ _)
  ihave HB2 := (bundle6 _ _ _ _ _ _) $$ HC0 HT0 HC1 HT1 HC2 HT2
  -- row 3: its three destinations, cells and read tokens; its three copies start
  icases HRs0 with ⟨HR0, HRs0⟩
  icases HRs1 with ⟨HR1, HRs1⟩
  icases HRs2 with ⟨HR2, HRs2⟩
  icases HA0 with ⟨HC0, HA0⟩
  icases HA1 with ⟨HC1, HA1⟩
  icases HA2 with ⟨HC2, HA2⟩
  icases HAT0 with ⟨HT0, HAT0⟩
  icases HAT1 with ⟨HT1, HAT1⟩
  icases HAT2 with ⟨HT2, HAT2⟩
  sl_exec (disch := first | sl_exact hU _ _ | sl_exact hI _ _ | sl_exact hJ _ _)
  ihave HB3 := (bundle6 _ _ _ _ _ _) $$ HC0 HT0 HC1 HT1 HC2 HT2
  -- row 4: its three destinations, cells and read tokens; its three copies start
  icases HRs0 with ⟨HR0, HRs0⟩
  icases HRs1 with ⟨HR1, HRs1⟩
  icases HRs2 with ⟨HR2, HRs2⟩
  icases HA0 with ⟨HC0, HA0⟩
  icases HA1 with ⟨HC1, HA1⟩
  icases HA2 with ⟨HC2, HA2⟩
  icases HAT0 with ⟨HT0, HAT0⟩
  icases HAT1 with ⟨HT1, HAT1⟩
  icases HAT2 with ⟨HT2, HAT2⟩
  sl_exec (disch := first | sl_exact hU _ _ | sl_exact hI _ _ | sl_exact hJ _ _)
  ihave HB4 := (bundle6 _ _ _ _ _ _) $$ HC0 HT0 HC1 HT1 HC2 HT2
  -- row 5: its three destinations, cells and read tokens; its three copies start
  icases HRs0 with ⟨HR0, HRs0⟩
  icases HRs1 with ⟨HR1, HRs1⟩
  icases HRs2 with ⟨HR2, HRs2⟩
  icases HA0 with ⟨HC0, HA0⟩
  icases HA1 with ⟨HC1, HA1⟩
  icases HA2 with ⟨HC2, HA2⟩
  icases HAT0 with ⟨HT0, HAT0⟩
  icases HAT1 with ⟨HT1, HAT1⟩
  icases HAT2 with ⟨HT2, HAT2⟩
  sl_exec (disch := first | sl_exact hU _ _ | sl_exact hI _ _ | sl_exact hJ _ _)
  ihave HB5 := (bundle6 _ _ _ _ _ _) $$ HC0 HT0 HC1 HT1 HC2 HT2
  -- row 6: its three destinations, cells and read tokens; its three copies start
  icases HRs0 with ⟨HR0, HRs0⟩
  icases HRs1 with ⟨HR1, HRs1⟩
  icases HRs2 with ⟨HR2, HRs2⟩
  icases HA0 with ⟨HC0, HA0⟩
  icases HA1 with ⟨HC1, HA1⟩
  icases HA2 with ⟨HC2, HA2⟩
  icases HAT0 with ⟨HT0, HAT0⟩
  icases HAT1 with ⟨HT1, HAT1⟩
  icases HAT2 with ⟨HT2, HAT2⟩
  sl_exec (disch := first | sl_exact hU _ _ | sl_exact hI _ _ | sl_exact hJ _ _)
  ihave HB6 := (bundle6 _ _ _ _ _ _) $$ HC0 HT0 HC1 HT1 HC2 HT2
  -- row 7: its three destinations, cells and read tokens; its three copies start
  icases HRs0 with ⟨HR0, HRs0⟩
  icases HRs1 with ⟨HR1, HRs1⟩
  icases HRs2 with ⟨HR2, HRs2⟩
  icases HA0 with ⟨HC0, HA0⟩
  icases HA1 with ⟨HC1, HA1⟩
  icases HA2 with ⟨HC2, HA2⟩
  icases HAT0 with ⟨HT0, HAT0⟩
  icases HAT1 with ⟨HT1, HAT1⟩
  icases HAT2 with ⟨HT2, HAT2⟩
  sl_exec (disch := first | sl_exact hU _ _ | sl_exact hI _ _ | sl_exact hJ _ _)
  ihave HB7 := (bundle6 _ _ _ _ _ _) $$ HC0 HT0 HC1 HT1 HC2 HT2
  -- row 8: its three destinations, cells and read tokens; its three copies start
  icases HRs0 with ⟨HR0, HRs0⟩
  icases HRs1 with ⟨HR1, HRs1⟩
  icases HRs2 with ⟨HR2, HRs2⟩
  icases HA0 with ⟨HC0, HA0⟩
  icases HA1 with ⟨HC1, HA1⟩
  icases HA2 with ⟨HC2, HA2⟩
  icases HAT0 with ⟨HT0, HAT0⟩
  icases HAT1 with ⟨HT1, HAT1⟩
  icases HAT2 with ⟨HT2, HAT2⟩
  sl_exec (disch := first | sl_exact hU _ _ | sl_exact hI _ _ | sl_exact hJ _ _)
  ihave HB8 := (bundle6 _ _ _ _ _ _) $$ HC0 HT0 HC1 HT1 HC2 HT2
  -- row 9: its three destinations, cells and read tokens; its three copies start
  icases HRs0 with ⟨HR0, HRs0⟩
  icases HRs1 with ⟨HR1, HRs1⟩
  icases HRs2 with ⟨HR2, HRs2⟩
  icases HA0 with ⟨HC0, HA0⟩
  icases HA1 with ⟨HC1, HA1⟩
  icases HA2 with ⟨HC2, HA2⟩
  icases HAT0 with ⟨HT0, HAT0⟩
  icases HAT1 with ⟨HT1, HAT1⟩
  icases HAT2 with ⟨HT2, HAT2⟩
  sl_exec (disch := first | sl_exact hU _ _ | sl_exact hI _ _ | sl_exact hJ _ _)
  ihave HB9 := (bundle6 _ _ _ _ _ _) $$ HC0 HT0 HC1 HT1 HC2 HT2
  -- row 10: its three destinations, cells and read tokens; its three copies start
  icases HRs0 with ⟨HR0, HRs0⟩
  icases HRs1 with ⟨HR1, HRs1⟩
  icases HRs2 with ⟨HR2, HRs2⟩
  icases HA0 with ⟨HC0, HA0⟩
  icases HA1 with ⟨HC1, HA1⟩
  icases HA2 with ⟨HC2, HA2⟩
  icases HAT0 with ⟨HT0, HAT0⟩
  icases HAT1 with ⟨HT1, HAT1⟩
  icases HAT2 with ⟨HT2, HAT2⟩
  sl_exec (disch := first | sl_exact hU _ _ | sl_exact hI _ _ | sl_exact hJ _ _)
  ihave HB10 := (bundle6 _ _ _ _ _ _) $$ HC0 HT0 HC1 HT1 HC2 HT2
  -- row 11: its three destinations, cells and read tokens; its three copies start
  icases HRs0 with ⟨HR0, HRs0⟩
  icases HRs1 with ⟨HR1, HRs1⟩
  icases HRs2 with ⟨HR2, HRs2⟩
  icases HA0 with ⟨HC0, HA0⟩
  icases HA1 with ⟨HC1, HA1⟩
  icases HA2 with ⟨HC2, HA2⟩
  icases HAT0 with ⟨HT0, HAT0⟩
  icases HAT1 with ⟨HT1, HAT1⟩
  icases HAT2 with ⟨HT2, HAT2⟩
  sl_exec (disch := first | sl_exact hU _ _ | sl_exact hI _ _ | sl_exact hJ _ _)
  ihave HB11 := (bundle6 _ _ _ _ _ _) $$ HC0 HT0 HC1 HT1 HC2 HT2
  -- row 12: its three destinations, cells and read tokens; its three copies start
  icases HRs0 with ⟨HR0, HRs0⟩
  icases HRs1 with ⟨HR1, HRs1⟩
  icases HRs2 with ⟨HR2, HRs2⟩
  icases HA0 with ⟨HC0, HA0⟩
  icases HA1 with ⟨HC1, HA1⟩
  icases HA2 with ⟨HC2, HA2⟩
  icases HAT0 with ⟨HT0, HAT0⟩
  icases HAT1 with ⟨HT1, HAT1⟩
  icases HAT2 with ⟨HT2, HAT2⟩
  sl_exec (disch := first | sl_exact hU _ _ | sl_exact hI _ _ | sl_exact hJ _ _)
  ihave HB12 := (bundle6 _ _ _ _ _ _) $$ HC0 HT0 HC1 HT1 HC2 HT2
  -- row 13: its three destinations, cells and read tokens; its three copies start
  icases HRs0 with ⟨HR0, HRs0⟩
  icases HRs1 with ⟨HR1, HRs1⟩
  icases HRs2 with ⟨HR2, HRs2⟩
  icases HA0 with ⟨HC0, HA0⟩
  icases HA1 with ⟨HC1, HA1⟩
  icases HA2 with ⟨HC2, HA2⟩
  icases HAT0 with ⟨HT0, HAT0⟩
  icases HAT1 with ⟨HT1, HAT1⟩
  icases HAT2 with ⟨HT2, HAT2⟩
  sl_exec (disch := first | sl_exact hU _ _ | sl_exact hI _ _ | sl_exact hJ _ _)
  ihave HB13 := (bundle6 _ _ _ _ _ _) $$ HC0 HT0 HC1 HT1 HC2 HT2
  -- row 14: its three destinations, cells and read tokens; its three copies start
  icases HRs0 with ⟨HR0, HRs0⟩
  icases HRs1 with ⟨HR1, HRs1⟩
  icases HRs2 with ⟨HR2, HRs2⟩
  icases HA0 with ⟨HC0, HA0⟩
  icases HA1 with ⟨HC1, HA1⟩
  icases HA2 with ⟨HC2, HA2⟩
  icases HAT0 with ⟨HT0, HAT0⟩
  icases HAT1 with ⟨HT1, HAT1⟩
  icases HAT2 with ⟨HT2, HAT2⟩
  sl_exec (disch := first | sl_exact hU _ _ | sl_exact hI _ _ | sl_exact hJ _ _)
  ihave HB14 := (bundle6 _ _ _ _ _ _) $$ HC0 HT0 HC1 HT1 HC2 HT2
  -- row 15: its three destinations, cells and read tokens; its three copies start
  icases HRs0 with ⟨HR0, HRs0⟩
  icases HRs1 with ⟨HR1, HRs1⟩
  icases HRs2 with ⟨HR2, HRs2⟩
  icases HA0 with ⟨HC0, HA0⟩
  icases HA1 with ⟨HC1, HA1⟩
  icases HA2 with ⟨HC2, HA2⟩
  icases HAT0 with ⟨HT0, HAT0⟩
  icases HAT1 with ⟨HT1, HAT1⟩
  icases HAT2 with ⟨HT2, HAT2⟩
  sl_exec (disch := first | sl_exact hU _ _ | sl_exact hI _ _ | sl_exact hJ _ _)
  ihave HB15 := (bundle6 _ _ _ _ _ _) $$ HC0 HT0 HC1 HT1 HC2 HT2
  -- row 16: its three destinations, cells and read tokens; its three copies start
  icases HRs0 with ⟨HR0, HRs0⟩
  icases HRs1 with ⟨HR1, HRs1⟩
  icases HRs2 with ⟨HR2, HRs2⟩
  icases HA0 with ⟨HC0, HA0⟩
  icases HA1 with ⟨HC1, HA1⟩
  icases HA2 with ⟨HC2, HA2⟩
  icases HAT0 with ⟨HT0, HAT0⟩
  icases HAT1 with ⟨HT1, HAT1⟩
  icases HAT2 with ⟨HT2, HAT2⟩
  sl_exec (disch := first | sl_exact hU _ _ | sl_exact hI _ _ | sl_exact hJ _ _)
  ihave HB16 := (bundle6 _ _ _ _ _ _) $$ HC0 HT0 HC1 HT1 HC2 HT2
  -- row 17: its three destinations, cells and read tokens; its three copies start
  icases HRs0 with ⟨HR0, HRs0⟩
  icases HRs1 with ⟨HR1, HRs1⟩
  icases HRs2 with ⟨HR2, HRs2⟩
  icases HA0 with ⟨HC0, HA0⟩
  icases HA1 with ⟨HC1, HA1⟩
  icases HA2 with ⟨HC2, HA2⟩
  icases HAT0 with ⟨HT0, HAT0⟩
  icases HAT1 with ⟨HT1, HAT1⟩
  icases HAT2 with ⟨HT2, HAT2⟩
  sl_exec (disch := first | sl_exact hU _ _ | sl_exact hI _ _ | sl_exact hJ _ _)
  ihave HB17 := (bundle6 _ _ _ _ _ _) $$ HC0 HT0 HC1 HT1 HC2 HT2
  -- row 18: its three destinations, cells and read tokens; its three copies start
  icases HRs0 with ⟨HR0, HRs0⟩
  icases HRs1 with ⟨HR1, HRs1⟩
  icases HRs2 with ⟨HR2, HRs2⟩
  icases HA0 with ⟨HC0, HA0⟩
  icases HA1 with ⟨HC1, HA1⟩
  icases HA2 with ⟨HC2, HA2⟩
  icases HAT0 with ⟨HT0, HAT0⟩
  icases HAT1 with ⟨HT1, HAT1⟩
  icases HAT2 with ⟨HT2, HAT2⟩
  sl_exec (disch := first | sl_exact hU _ _ | sl_exact hI _ _ | sl_exact hJ _ _)
  ihave HB18 := (bundle6 _ _ _ _ _ _) $$ HC0 HT0 HC1 HT1 HC2 HT2
  -- row 19: its three destinations, cells and read tokens; its three copies start
  icases HRs0 with ⟨HR0, HRs0⟩
  icases HRs1 with ⟨HR1, HRs1⟩
  icases HRs2 with ⟨HR2, HRs2⟩
  icases HA0 with ⟨HC0, HA0⟩
  icases HA1 with ⟨HC1, HA1⟩
  icases HA2 with ⟨HC2, HA2⟩
  icases HAT0 with ⟨HT0, HAT0⟩
  icases HAT1 with ⟨HT1, HAT1⟩
  icases HAT2 with ⟨HT2, HAT2⟩
  sl_exec (disch := first | sl_exact hU _ _ | sl_exact hI _ _ | sl_exact hJ _ _)
  ihave HB19 := (bundle6 _ _ _ _ _ _) $$ HC0 HT0 HC1 HT1 HC2 HT2
  -- row 20: its three destinations, cells and read tokens; its three copies start
  icases HRs0 with ⟨HR0, HRs0⟩
  icases HRs1 with ⟨HR1, HRs1⟩
  icases HRs2 with ⟨HR2, HRs2⟩
  icases HA0 with ⟨HC0, HA0⟩
  icases HA1 with ⟨HC1, HA1⟩
  icases HA2 with ⟨HC2, HA2⟩
  icases HAT0 with ⟨HT0, HAT0⟩
  icases HAT1 with ⟨HT1, HAT1⟩
  icases HAT2 with ⟨HT2, HAT2⟩
  sl_exec (disch := first | sl_exact hU _ _ | sl_exact hI _ _ | sl_exact hJ _ _)
  ihave HB20 := (bundle6 _ _ _ _ _ _) $$ HC0 HT0 HC1 HT1 HC2 HT2
  -- row 21: its three destinations, cells and read tokens; its three copies start
  icases HRs0 with ⟨HR0, HRs0⟩
  icases HRs1 with ⟨HR1, HRs1⟩
  icases HRs2 with ⟨HR2, HRs2⟩
  icases HA0 with ⟨HC0, HA0⟩
  icases HA1 with ⟨HC1, HA1⟩
  icases HA2 with ⟨HC2, HA2⟩
  icases HAT0 with ⟨HT0, HAT0⟩
  icases HAT1 with ⟨HT1, HAT1⟩
  icases HAT2 with ⟨HT2, HAT2⟩
  sl_exec (disch := first | sl_exact hU _ _ | sl_exact hI _ _ | sl_exact hJ _ _)
  ihave HB21 := (bundle6 _ _ _ _ _ _) $$ HC0 HT0 HC1 HT1 HC2 HT2
  -- row 22: its three destinations, cells and read tokens; its three copies start
  icases HRs0 with ⟨HR0, HRs0⟩
  icases HRs1 with ⟨HR1, HRs1⟩
  icases HRs2 with ⟨HR2, HRs2⟩
  icases HA0 with ⟨HC0, HA0⟩
  icases HA1 with ⟨HC1, HA1⟩
  icases HA2 with ⟨HC2, HA2⟩
  icases HAT0 with ⟨HT0, HAT0⟩
  icases HAT1 with ⟨HT1, HAT1⟩
  icases HAT2 with ⟨HT2, HAT2⟩
  sl_exec (disch := first | sl_exact hU _ _ | sl_exact hI _ _ | sl_exact hJ _ _)
  ihave HB22 := (bundle6 _ _ _ _ _ _) $$ HC0 HT0 HC1 HT1 HC2 HT2
  -- row 23: its three destinations, cells and read tokens; its three copies start
  icases HRs0 with ⟨HR0, HRs0⟩
  icases HRs1 with ⟨HR1, HRs1⟩
  icases HRs2 with ⟨HR2, HRs2⟩
  icases HA0 with ⟨HC0, HA0⟩
  icases HA1 with ⟨HC1, HA1⟩
  icases HA2 with ⟨HC2, HA2⟩
  icases HAT0 with ⟨HT0, HAT0⟩
  icases HAT1 with ⟨HT1, HAT1⟩
  icases HAT2 with ⟨HT2, HAT2⟩
  sl_exec (disch := first | sl_exact hU _ _ | sl_exact hI _ _ | sl_exact hJ _ _)
  ihave HB23 := (bundle6 _ _ _ _ _ _) $$ HC0 HT0 HC1 HT1 HC2 HT2
  -- row 24: its three destinations, cells and read tokens; its three copies start
  icases HRs0 with ⟨HR0, HRs0⟩
  icases HRs1 with ⟨HR1, HRs1⟩
  icases HRs2 with ⟨HR2, HRs2⟩
  icases HA0 with ⟨HC0, HA0⟩
  icases HA1 with ⟨HC1, HA1⟩
  icases HA2 with ⟨HC2, HA2⟩
  icases HAT0 with ⟨HT0, HAT0⟩
  icases HAT1 with ⟨HT1, HAT1⟩
  icases HAT2 with ⟨HT2, HAT2⟩
  sl_exec (disch := first | sl_exact hU _ _ | sl_exact hI _ _ | sl_exact hJ _ _)
  ihave HB24 := (bundle6 _ _ _ _ _ _) $$ HC0 HT0 HC1 HT1 HC2 HT2
  -- row 25: its three destinations, cells and read tokens; its three copies start
  icases HRs0 with ⟨HR0, HRs0⟩
  icases HRs1 with ⟨HR1, HRs1⟩
  icases HRs2 with ⟨HR2, HRs2⟩
  icases HA0 with ⟨HC0, HA0⟩
  icases HA1 with ⟨HC1, HA1⟩
  icases HA2 with ⟨HC2, HA2⟩
  icases HAT0 with ⟨HT0, HAT0⟩
  icases HAT1 with ⟨HT1, HAT1⟩
  icases HAT2 with ⟨HT2, HAT2⟩
  sl_exec (disch := first | sl_exact hU _ _ | sl_exact hI _ _ | sl_exact hJ _ _)
  ihave HB25 := (bundle6 _ _ _ _ _ _) $$ HC0 HT0 HC1 HT1 HC2 HT2
  -- row 26: its three destinations, cells and read tokens; its three copies start
  icases HRs0 with ⟨HR0, HRs0⟩
  icases HRs1 with ⟨HR1, HRs1⟩
  icases HRs2 with ⟨HR2, HRs2⟩
  icases HA0 with ⟨HC0, HA0⟩
  icases HA1 with ⟨HC1, HA1⟩
  icases HA2 with ⟨HC2, HA2⟩
  icases HAT0 with ⟨HT0, HAT0⟩
  icases HAT1 with ⟨HT1, HAT1⟩
  icases HAT2 with ⟨HT2, HAT2⟩
  sl_exec (disch := first | sl_exact hU _ _ | sl_exact hI _ _ | sl_exact hJ _ _)
  ihave HB26 := (bundle6 _ _ _ _ _ _) $$ HC0 HT0 HC1 HT1 HC2 HT2
  -- row 27: its three destinations, cells and read tokens; its three copies start
  icases HRs0 with ⟨HR0, HRs0⟩
  icases HRs1 with ⟨HR1, HRs1⟩
  icases HRs2 with ⟨HR2, HRs2⟩
  icases HA0 with ⟨HC0, HA0⟩
  icases HA1 with ⟨HC1, HA1⟩
  icases HA2 with ⟨HC2, HA2⟩
  icases HAT0 with ⟨HT0, HAT0⟩
  icases HAT1 with ⟨HT1, HAT1⟩
  icases HAT2 with ⟨HT2, HAT2⟩
  sl_exec (disch := first | sl_exact hU _ _ | sl_exact hI _ _ | sl_exact hJ _ _)
  ihave HB27 := (bundle6 _ _ _ _ _ _) $$ HC0 HT0 HC1 HT1 HC2 HT2
  -- row 28: its three destinations, cells and read tokens; its three copies start
  icases HRs0 with ⟨HR0, HRs0⟩
  icases HRs1 with ⟨HR1, HRs1⟩
  icases HRs2 with ⟨HR2, HRs2⟩
  icases HA0 with ⟨HC0, HA0⟩
  icases HA1 with ⟨HC1, HA1⟩
  icases HA2 with ⟨HC2, HA2⟩
  icases HAT0 with ⟨HT0, HAT0⟩
  icases HAT1 with ⟨HT1, HAT1⟩
  icases HAT2 with ⟨HT2, HAT2⟩
  sl_exec (disch := first | sl_exact hU _ _ | sl_exact hI _ _ | sl_exact hJ _ _)
  ihave HB28 := (bundle6 _ _ _ _ _ _) $$ HC0 HT0 HC1 HT1 HC2 HT2
  -- row 29: its three destinations, cells and read tokens; its three copies start
  icases HRs0 with ⟨HR0, HRs0⟩
  icases HRs1 with ⟨HR1, HRs1⟩
  icases HRs2 with ⟨HR2, HRs2⟩
  icases HA0 with ⟨HC0, HA0⟩
  icases HA1 with ⟨HC1, HA1⟩
  icases HA2 with ⟨HC2, HA2⟩
  icases HAT0 with ⟨HT0, HAT0⟩
  icases HAT1 with ⟨HT1, HAT1⟩
  icases HAT2 with ⟨HT2, HAT2⟩
  sl_exec (disch := first | sl_exact hU _ _ | sl_exact hI _ _ | sl_exact hJ _ _)
  ihave HB29 := (bundle6 _ _ _ _ _ _) $$ HC0 HT0 HC1 HT1 HC2 HT2
  -- row 30: its three destinations, cells and read tokens; its three copies start
  icases HRs0 with ⟨HR0, HRs0⟩
  icases HRs1 with ⟨HR1, HRs1⟩
  icases HRs2 with ⟨HR2, HRs2⟩
  icases HA0 with ⟨HC0, HA0⟩
  icases HA1 with ⟨HC1, HA1⟩
  icases HA2 with ⟨HC2, HA2⟩
  icases HAT0 with ⟨HT0, HAT0⟩
  icases HAT1 with ⟨HT1, HAT1⟩
  icases HAT2 with ⟨HT2, HAT2⟩
  sl_exec (disch := first | sl_exact hU _ _ | sl_exact hI _ _ | sl_exact hJ _ _)
  ihave HB30 := (bundle6 _ _ _ _ _ _) $$ HC0 HT0 HC1 HT1 HC2 HT2
  -- row 31: its three destinations, cells and read tokens; its three copies start
  icases HRs0 with ⟨HR0, HRs0⟩
  icases HRs1 with ⟨HR1, HRs1⟩
  icases HRs2 with ⟨HR2, HRs2⟩
  icases HA0 with ⟨HC0, HA0⟩
  icases HA1 with ⟨HC1, HA1⟩
  icases HA2 with ⟨HC2, HA2⟩
  icases HAT0 with ⟨HT0, HAT0⟩
  icases HAT1 with ⟨HT1, HAT1⟩
  icases HAT2 with ⟨HT2, HAT2⟩
  sl_exec (disch := first | sl_exact hU _ _ | sl_exact hI _ _ | sl_exact hJ _ _)
  ihave HB31 := (bundle6 _ _ _ _ _ _) $$ HC0 HT0 HC1 HT1 HC2 HT2
  -- row 32: its three destinations, cells and read tokens; its three copies start
  icases HRs0 with ⟨HR0, HRs0⟩
  icases HRs1 with ⟨HR1, HRs1⟩
  icases HRs2 with ⟨HR2, HRs2⟩
  icases HA0 with ⟨HC0, HA0⟩
  icases HA1 with ⟨HC1, HA1⟩
  icases HA2 with ⟨HC2, HA2⟩
  icases HAT0 with ⟨HT0, HAT0⟩
  icases HAT1 with ⟨HT1, HAT1⟩
  icases HAT2 with ⟨HT2, HAT2⟩
  sl_exec (disch := first | sl_exact hU _ _ | sl_exact hI _ _ | sl_exact hJ _ _)
  ihave HB32 := (bundle6 _ _ _ _ _ _) $$ HC0 HT0 HC1 HT1 HC2 HT2
  -- row 33: its three destinations, cells and read tokens; its three copies start
  icases HRs0 with ⟨HR0, HRs0⟩
  icases HRs1 with ⟨HR1, HRs1⟩
  icases HRs2 with ⟨HR2, HRs2⟩
  icases HA0 with ⟨HC0, HA0⟩
  icases HA1 with ⟨HC1, HA1⟩
  icases HA2 with ⟨HC2, HA2⟩
  icases HAT0 with ⟨HT0, HAT0⟩
  icases HAT1 with ⟨HT1, HAT1⟩
  icases HAT2 with ⟨HT2, HAT2⟩
  sl_exec (disch := first | sl_exact hU _ _ | sl_exact hI _ _ | sl_exact hJ _ _)
  ihave HB33 := (bundle6 _ _ _ _ _ _) $$ HC0 HT0 HC1 HT1 HC2 HT2
  -- row 34: its three destinations, cells and read tokens; its three copies start
  icases HRs0 with ⟨HR0, HRs0⟩
  icases HRs1 with ⟨HR1, HRs1⟩
  icases HRs2 with ⟨HR2, HRs2⟩
  icases HA0 with ⟨HC0, HA0⟩
  icases HA1 with ⟨HC1, HA1⟩
  icases HA2 with ⟨HC2, HA2⟩
  icases HAT0 with ⟨HT0, HAT0⟩
  icases HAT1 with ⟨HT1, HAT1⟩
  icases HAT2 with ⟨HT2, HAT2⟩
  sl_exec (disch := first | sl_exact hU _ _ | sl_exact hI _ _ | sl_exact hJ _ _)
  ihave HB34 := (bundle6 _ _ _ _ _ _) $$ HC0 HT0 HC1 HT1 HC2 HT2
  -- row 35: its three destinations, cells and read tokens; its three copies start
  icases HRs0 with ⟨HR0, HRs0⟩
  icases HRs1 with ⟨HR1, HRs1⟩
  icases HRs2 with ⟨HR2, HRs2⟩
  icases HA0 with ⟨HC0, HA0⟩
  icases HA1 with ⟨HC1, HA1⟩
  icases HA2 with ⟨HC2, HA2⟩
  icases HAT0 with ⟨HT0, HAT0⟩
  icases HAT1 with ⟨HT1, HAT1⟩
  icases HAT2 with ⟨HT2, HAT2⟩
  sl_exec (disch := first | sl_exact hU _ _ | sl_exact hI _ _ | sl_exact hJ _ _)
  ihave HB35 := (bundle6 _ _ _ _ _ _) $$ HC0 HT0 HC1 HT1 HC2 HT2
  -- row 36: its three destinations, cells and read tokens; its three copies start
  icases HRs0 with ⟨HR0, HRs0⟩
  icases HRs1 with ⟨HR1, HRs1⟩
  icases HRs2 with ⟨HR2, HRs2⟩
  icases HA0 with ⟨HC0, HA0⟩
  icases HA1 with ⟨HC1, HA1⟩
  icases HA2 with ⟨HC2, HA2⟩
  icases HAT0 with ⟨HT0, HAT0⟩
  icases HAT1 with ⟨HT1, HAT1⟩
  icases HAT2 with ⟨HT2, HAT2⟩
  sl_exec (disch := first | sl_exact hU _ _ | sl_exact hI _ _ | sl_exact hJ _ _)
  ihave HB36 := (bundle6 _ _ _ _ _ _) $$ HC0 HT0 HC1 HT1 HC2 HT2
  -- row 37: its three destinations, cells and read tokens; its three copies start
  icases HRs0 with ⟨HR0, HRs0⟩
  icases HRs1 with ⟨HR1, HRs1⟩
  icases HRs2 with ⟨HR2, HRs2⟩
  icases HA0 with ⟨HC0, HA0⟩
  icases HA1 with ⟨HC1, HA1⟩
  icases HA2 with ⟨HC2, HA2⟩
  icases HAT0 with ⟨HT0, HAT0⟩
  icases HAT1 with ⟨HT1, HAT1⟩
  icases HAT2 with ⟨HT2, HAT2⟩
  sl_exec (disch := first | sl_exact hU _ _ | sl_exact hI _ _ | sl_exact hJ _ _)
  ihave HB37 := (bundle6 _ _ _ _ _ _) $$ HC0 HT0 HC1 HT1 HC2 HT2
  -- row 38: its three destinations, cells and read tokens; its three copies start
  icases HRs0 with ⟨HR0, HRs0⟩
  icases HRs1 with ⟨HR1, HRs1⟩
  icases HRs2 with ⟨HR2, HRs2⟩
  icases HA0 with ⟨HC0, HA0⟩
  icases HA1 with ⟨HC1, HA1⟩
  icases HA2 with ⟨HC2, HA2⟩
  icases HAT0 with ⟨HT0, HAT0⟩
  icases HAT1 with ⟨HT1, HAT1⟩
  icases HAT2 with ⟨HT2, HAT2⟩
  sl_exec (disch := first | sl_exact hU _ _ | sl_exact hI _ _ | sl_exact hJ _ _)
  ihave HB38 := (bundle6 _ _ _ _ _ _) $$ HC0 HT0 HC1 HT1 HC2 HT2
  -- row 39: its three destinations, cells and read tokens; its three copies start
  icases HRs0 with ⟨HR0, HRs0⟩
  icases HRs1 with ⟨HR1, HRs1⟩
  icases HRs2 with ⟨HR2, HRs2⟩
  icases HA0 with ⟨HC0, HA0⟩
  icases HA1 with ⟨HC1, HA1⟩
  icases HA2 with ⟨HC2, HA2⟩
  icases HAT0 with ⟨HT0, HAT0⟩
  icases HAT1 with ⟨HT1, HAT1⟩
  icases HAT2 with ⟨HT2, HAT2⟩
  sl_exec (disch := first | sl_exact hU _ _ | sl_exact hI _ _ | sl_exact hJ _ _)
  ihave HB39 := (bundle6 _ _ _ _ _ _) $$ HC0 HT0 HC1 HT1 HC2 HT2
  -- row 40: its three destinations, cells and read tokens; its three copies start
  icases HRs0 with ⟨HR0, HRs0⟩
  icases HRs1 with ⟨HR1, HRs1⟩
  icases HRs2 with ⟨HR2, HRs2⟩
  icases HA0 with ⟨HC0, HA0⟩
  icases HA1 with ⟨HC1, HA1⟩
  icases HA2 with ⟨HC2, HA2⟩
  icases HAT0 with ⟨HT0, HAT0⟩
  icases HAT1 with ⟨HT1, HAT1⟩
  icases HAT2 with ⟨HT2, HAT2⟩
  sl_exec (disch := first | sl_exact hU _ _ | sl_exact hI _ _ | sl_exact hJ _ _)
  ihave HB40 := (bundle6 _ _ _ _ _ _) $$ HC0 HT0 HC1 HT1 HC2 HT2
  -- row 41: its three destinations, cells and read tokens; its three copies start
  icases HRs0 with ⟨HR0, HRs0⟩
  icases HRs1 with ⟨HR1, HRs1⟩
  icases HRs2 with ⟨HR2, HRs2⟩
  icases HA0 with ⟨HC0, HA0⟩
  icases HA1 with ⟨HC1, HA1⟩
  icases HA2 with ⟨HC2, HA2⟩
  icases HAT0 with ⟨HT0, HAT0⟩
  icases HAT1 with ⟨HT1, HAT1⟩
  icases HAT2 with ⟨HT2, HAT2⟩
  sl_exec (disch := first | sl_exact hU _ _ | sl_exact hI _ _ | sl_exact hJ _ _)
  ihave HB41 := (bundle6 _ _ _ _ _ _) $$ HC0 HT0 HC1 HT1 HC2 HT2
  -- row 42: its three destinations, cells and read tokens; its three copies start
  icases HRs0 with ⟨HR0, HRs0⟩
  icases HRs1 with ⟨HR1, HRs1⟩
  icases HRs2 with ⟨HR2, HRs2⟩
  icases HA0 with ⟨HC0, HA0⟩
  icases HA1 with ⟨HC1, HA1⟩
  icases HA2 with ⟨HC2, HA2⟩
  icases HAT0 with ⟨HT0, HAT0⟩
  icases HAT1 with ⟨HT1, HAT1⟩
  icases HAT2 with ⟨HT2, HAT2⟩
  sl_exec (disch := first | sl_exact hU _ _ | sl_exact hI _ _ | sl_exact hJ _ _)
  ihave HB42 := (bundle6 _ _ _ _ _ _) $$ HC0 HT0 HC1 HT1 HC2 HT2
  -- row 43: its three destinations, cells and read tokens; its three copies start
  icases HRs0 with ⟨HR0, HRs0⟩
  icases HRs1 with ⟨HR1, HRs1⟩
  icases HRs2 with ⟨HR2, HRs2⟩
  icases HA0 with ⟨HC0, HA0⟩
  icases HA1 with ⟨HC1, HA1⟩
  icases HA2 with ⟨HC2, HA2⟩
  icases HAT0 with ⟨HT0, HAT0⟩
  icases HAT1 with ⟨HT1, HAT1⟩
  icases HAT2 with ⟨HT2, HAT2⟩
  sl_exec (disch := first | sl_exact hU _ _ | sl_exact hI _ _ | sl_exact hJ _ _)
  ihave HB43 := (bundle6 _ _ _ _ _ _) $$ HC0 HT0 HC1 HT1 HC2 HT2
  -- row 44: its three destinations, cells and read tokens; its three copies start
  icases HRs0 with ⟨HR0, HRs0⟩
  icases HRs1 with ⟨HR1, HRs1⟩
  icases HRs2 with ⟨HR2, HRs2⟩
  icases HA0 with ⟨HC0, HA0⟩
  icases HA1 with ⟨HC1, HA1⟩
  icases HA2 with ⟨HC2, HA2⟩
  icases HAT0 with ⟨HT0, HAT0⟩
  icases HAT1 with ⟨HT1, HAT1⟩
  icases HAT2 with ⟨HT2, HAT2⟩
  sl_exec (disch := first | sl_exact hU _ _ | sl_exact hI _ _ | sl_exact hJ _ _)
  ihave HB44 := (bundle6 _ _ _ _ _ _) $$ HC0 HT0 HC1 HT1 HC2 HT2
  -- row 45: its three destinations, cells and read tokens; its three copies start
  icases HRs0 with ⟨HR0, HRs0⟩
  icases HRs1 with ⟨HR1, HRs1⟩
  icases HRs2 with ⟨HR2, HRs2⟩
  icases HA0 with ⟨HC0, HA0⟩
  icases HA1 with ⟨HC1, HA1⟩
  icases HA2 with ⟨HC2, HA2⟩
  icases HAT0 with ⟨HT0, HAT0⟩
  icases HAT1 with ⟨HT1, HAT1⟩
  icases HAT2 with ⟨HT2, HAT2⟩
  sl_exec (disch := first | sl_exact hU _ _ | sl_exact hI _ _ | sl_exact hJ _ _)
  ihave HB45 := (bundle6 _ _ _ _ _ _) $$ HC0 HT0 HC1 HT1 HC2 HT2
  -- row 46: its three destinations, cells and read tokens; its three copies start
  icases HRs0 with ⟨HR0, HRs0⟩
  icases HRs1 with ⟨HR1, HRs1⟩
  icases HRs2 with ⟨HR2, HRs2⟩
  icases HA0 with ⟨HC0, HA0⟩
  icases HA1 with ⟨HC1, HA1⟩
  icases HA2 with ⟨HC2, HA2⟩
  icases HAT0 with ⟨HT0, HAT0⟩
  icases HAT1 with ⟨HT1, HAT1⟩
  icases HAT2 with ⟨HT2, HAT2⟩
  sl_exec (disch := first | sl_exact hU _ _ | sl_exact hI _ _ | sl_exact hJ _ _)
  ihave HB46 := (bundle6 _ _ _ _ _ _) $$ HC0 HT0 HC1 HT1 HC2 HT2
  -- row 47: its three destinations, cells and read tokens; its three copies start
  icases HRs0 with ⟨HR0, HRs0⟩
  icases HRs1 with ⟨HR1, HRs1⟩
  icases HRs2 with ⟨HR2, HRs2⟩
  icases HA0 with ⟨HC0, HA0⟩
  icases HA1 with ⟨HC1, HA1⟩
  icases HA2 with ⟨HC2, HA2⟩
  icases HAT0 with ⟨HT0, HAT0⟩
  icases HAT1 with ⟨HT1, HAT1⟩
  icases HAT2 with ⟨HT2, HAT2⟩
  sl_exec (disch := first | sl_exact hU _ _ | sl_exact hI _ _ | sl_exact hJ _ _)
  ihave HB47 := (bundle6 _ _ _ _ _ _) $$ HC0 HT0 HC1 HT1 HC2 HT2
  -- row 48: its three destinations, cells and read tokens; its three copies start
  icases HRs0 with ⟨HR0, HRs0⟩
  icases HRs1 with ⟨HR1, HRs1⟩
  icases HRs2 with ⟨HR2, HRs2⟩
  icases HA0 with ⟨HC0, HA0⟩
  icases HA1 with ⟨HC1, HA1⟩
  icases HA2 with ⟨HC2, HA2⟩
  icases HAT0 with ⟨HT0, HAT0⟩
  icases HAT1 with ⟨HT1, HAT1⟩
  icases HAT2 with ⟨HT2, HAT2⟩
  sl_exec (disch := first | sl_exact hU _ _ | sl_exact hI _ _ | sl_exact hJ _ _)
  ihave HB48 := (bundle6 _ _ _ _ _ _) $$ HC0 HT0 HC1 HT1 HC2 HT2
  -- row 49: its three destinations, cells and read tokens; its three copies start
  icases HRs0 with ⟨HR0, HRs0⟩
  icases HRs1 with ⟨HR1, HRs1⟩
  icases HRs2 with ⟨HR2, HRs2⟩
  icases HA0 with ⟨HC0, HA0⟩
  icases HA1 with ⟨HC1, HA1⟩
  icases HA2 with ⟨HC2, HA2⟩
  icases HAT0 with ⟨HT0, HAT0⟩
  icases HAT1 with ⟨HT1, HAT1⟩
  icases HAT2 with ⟨HT2, HAT2⟩
  sl_exec (disch := first | sl_exact hU _ _ | sl_exact hI _ _ | sl_exact hJ _ _)
  ihave HB49 := (bundle6 _ _ _ _ _ _) $$ HC0 HT0 HC1 HT1 HC2 HT2
  -- row 50: its three destinations, cells and read tokens; its three copies start
  icases HRs0 with ⟨HR0, HRs0⟩
  icases HRs1 with ⟨HR1, HRs1⟩
  icases HRs2 with ⟨HR2, HRs2⟩
  icases HA0 with ⟨HC0, HA0⟩
  icases HA1 with ⟨HC1, HA1⟩
  icases HA2 with ⟨HC2, HA2⟩
  icases HAT0 with ⟨HT0, HAT0⟩
  icases HAT1 with ⟨HT1, HAT1⟩
  icases HAT2 with ⟨HT2, HAT2⟩
  sl_exec (disch := first | sl_exact hU _ _ | sl_exact hI _ _ | sl_exact hJ _ _)
  ihave HB50 := (bundle6 _ _ _ _ _ _) $$ HC0 HT0 HC1 HT1 HC2 HT2
  -- row 51: its three destinations, cells and read tokens; its three copies start
  icases HRs0 with ⟨HR0, HRs0⟩
  icases HRs1 with ⟨HR1, HRs1⟩
  icases HRs2 with ⟨HR2, HRs2⟩
  icases HA0 with ⟨HC0, HA0⟩
  icases HA1 with ⟨HC1, HA1⟩
  icases HA2 with ⟨HC2, HA2⟩
  icases HAT0 with ⟨HT0, HAT0⟩
  icases HAT1 with ⟨HT1, HAT1⟩
  icases HAT2 with ⟨HT2, HAT2⟩
  sl_exec (disch := first | sl_exact hU _ _ | sl_exact hI _ _ | sl_exact hJ _ _)
  ihave HB51 := (bundle6 _ _ _ _ _ _) $$ HC0 HT0 HC1 HT1 HC2 HT2
  -- row 52: its three destinations, cells and read tokens; its three copies start
  icases HRs0 with ⟨HR0, HRs0⟩
  icases HRs1 with ⟨HR1, HRs1⟩
  icases HRs2 with ⟨HR2, HRs2⟩
  icases HA0 with ⟨HC0, HA0⟩
  icases HA1 with ⟨HC1, HA1⟩
  icases HA2 with ⟨HC2, HA2⟩
  icases HAT0 with ⟨HT0, HAT0⟩
  icases HAT1 with ⟨HT1, HAT1⟩
  icases HAT2 with ⟨HT2, HAT2⟩
  sl_exec (disch := first | sl_exact hU _ _ | sl_exact hI _ _ | sl_exact hJ _ _)
  ihave HB52 := (bundle6 _ _ _ _ _ _) $$ HC0 HT0 HC1 HT1 HC2 HT2
  -- row 53: its three destinations, cells and read tokens; its three copies start
  icases HRs0 with ⟨HR0, HRs0⟩
  icases HRs1 with ⟨HR1, HRs1⟩
  icases HRs2 with ⟨HR2, HRs2⟩
  icases HA0 with ⟨HC0, HA0⟩
  icases HA1 with ⟨HC1, HA1⟩
  icases HA2 with ⟨HC2, HA2⟩
  icases HAT0 with ⟨HT0, HAT0⟩
  icases HAT1 with ⟨HT1, HAT1⟩
  icases HAT2 with ⟨HT2, HAT2⟩
  sl_exec (disch := first | sl_exact hU _ _ | sl_exact hI _ _ | sl_exact hJ _ _)
  ihave HB53 := (bundle6 _ _ _ _ _ _) $$ HC0 HT0 HC1 HT1 HC2 HT2
  -- row 54: its three destinations, cells and read tokens; its three copies start
  icases HRs0 with ⟨HR0, HRs0⟩
  icases HRs1 with ⟨HR1, HRs1⟩
  icases HRs2 with ⟨HR2, HRs2⟩
  icases HA0 with ⟨HC0, HA0⟩
  icases HA1 with ⟨HC1, HA1⟩
  icases HA2 with ⟨HC2, HA2⟩
  icases HAT0 with ⟨HT0, HAT0⟩
  icases HAT1 with ⟨HT1, HAT1⟩
  icases HAT2 with ⟨HT2, HAT2⟩
  sl_exec (disch := first | sl_exact hU _ _ | sl_exact hI _ _ | sl_exact hJ _ _)
  ihave HB54 := (bundle6 _ _ _ _ _ _) $$ HC0 HT0 HC1 HT1 HC2 HT2
  -- row 55: its three destinations, cells and read tokens; its three copies start
  icases HRs0 with ⟨HR0, HRs0⟩
  icases HRs1 with ⟨HR1, HRs1⟩
  icases HRs2 with ⟨HR2, HRs2⟩
  icases HA0 with ⟨HC0, HA0⟩
  icases HA1 with ⟨HC1, HA1⟩
  icases HA2 with ⟨HC2, HA2⟩
  icases HAT0 with ⟨HT0, HAT0⟩
  icases HAT1 with ⟨HT1, HAT1⟩
  icases HAT2 with ⟨HT2, HAT2⟩
  sl_exec (disch := first | sl_exact hU _ _ | sl_exact hI _ _ | sl_exact hJ _ _)
  ihave HB55 := (bundle6 _ _ _ _ _ _) $$ HC0 HT0 HC1 HT1 HC2 HT2
  -- row 56: its three destinations, cells and read tokens; its three copies start
  icases HRs0 with ⟨HR0, HRs0⟩
  icases HRs1 with ⟨HR1, HRs1⟩
  icases HRs2 with ⟨HR2, HRs2⟩
  icases HA0 with ⟨HC0, HA0⟩
  icases HA1 with ⟨HC1, HA1⟩
  icases HA2 with ⟨HC2, HA2⟩
  icases HAT0 with ⟨HT0, HAT0⟩
  icases HAT1 with ⟨HT1, HAT1⟩
  icases HAT2 with ⟨HT2, HAT2⟩
  sl_exec (disch := first | sl_exact hU _ _ | sl_exact hI _ _ | sl_exact hJ _ _)
  ihave HB56 := (bundle6 _ _ _ _ _ _) $$ HC0 HT0 HC1 HT1 HC2 HT2
  -- row 57: its three destinations, cells and read tokens; its three copies start
  icases HRs0 with ⟨HR0, HRs0⟩
  icases HRs1 with ⟨HR1, HRs1⟩
  icases HRs2 with ⟨HR2, HRs2⟩
  icases HA0 with ⟨HC0, HA0⟩
  icases HA1 with ⟨HC1, HA1⟩
  icases HA2 with ⟨HC2, HA2⟩
  icases HAT0 with ⟨HT0, HAT0⟩
  icases HAT1 with ⟨HT1, HAT1⟩
  icases HAT2 with ⟨HT2, HAT2⟩
  sl_exec (disch := first | sl_exact hU _ _ | sl_exact hI _ _ | sl_exact hJ _ _)
  ihave HB57 := (bundle6 _ _ _ _ _ _) $$ HC0 HT0 HC1 HT1 HC2 HT2
  -- row 58: its three destinations, cells and read tokens; its three copies start
  icases HRs0 with ⟨HR0, HRs0⟩
  icases HRs1 with ⟨HR1, HRs1⟩
  icases HRs2 with ⟨HR2, HRs2⟩
  icases HA0 with ⟨HC0, HA0⟩
  icases HA1 with ⟨HC1, HA1⟩
  icases HA2 with ⟨HC2, HA2⟩
  icases HAT0 with ⟨HT0, HAT0⟩
  icases HAT1 with ⟨HT1, HAT1⟩
  icases HAT2 with ⟨HT2, HAT2⟩
  sl_exec (disch := first | sl_exact hU _ _ | sl_exact hI _ _ | sl_exact hJ _ _)
  ihave HB58 := (bundle6 _ _ _ _ _ _) $$ HC0 HT0 HC1 HT1 HC2 HT2
  -- row 59: its three destinations, cells and read tokens; its three copies start
  icases HRs0 with ⟨HR0, HRs0⟩
  icases HRs1 with ⟨HR1, HRs1⟩
  icases HRs2 with ⟨HR2, HRs2⟩
  icases HA0 with ⟨HC0, HA0⟩
  icases HA1 with ⟨HC1, HA1⟩
  icases HA2 with ⟨HC2, HA2⟩
  icases HAT0 with ⟨HT0, HAT0⟩
  icases HAT1 with ⟨HT1, HAT1⟩
  icases HAT2 with ⟨HT2, HAT2⟩
  sl_exec (disch := first | sl_exact hU _ _ | sl_exact hI _ _ | sl_exact hJ _ _)
  ihave HB59 := (bundle6 _ _ _ _ _ _) $$ HC0 HT0 HC1 HT1 HC2 HT2
  -- row 60: its three destinations, cells and read tokens; its three copies start
  icases HRs0 with ⟨HR0, HRs0⟩
  icases HRs1 with ⟨HR1, HRs1⟩
  icases HRs2 with ⟨HR2, HRs2⟩
  icases HA0 with ⟨HC0, HA0⟩
  icases HA1 with ⟨HC1, HA1⟩
  icases HA2 with ⟨HC2, HA2⟩
  icases HAT0 with ⟨HT0, HAT0⟩
  icases HAT1 with ⟨HT1, HAT1⟩
  icases HAT2 with ⟨HT2, HAT2⟩
  sl_exec (disch := first | sl_exact hU _ _ | sl_exact hI _ _ | sl_exact hJ _ _)
  ihave HB60 := (bundle6 _ _ _ _ _ _) $$ HC0 HT0 HC1 HT1 HC2 HT2
  -- row 61: its three destinations, cells and read tokens; its three copies start
  icases HRs0 with ⟨HR0, HRs0⟩
  icases HRs1 with ⟨HR1, HRs1⟩
  icases HRs2 with ⟨HR2, HRs2⟩
  icases HA0 with ⟨HC0, HA0⟩
  icases HA1 with ⟨HC1, HA1⟩
  icases HA2 with ⟨HC2, HA2⟩
  icases HAT0 with ⟨HT0, HAT0⟩
  icases HAT1 with ⟨HT1, HAT1⟩
  icases HAT2 with ⟨HT2, HAT2⟩
  sl_exec (disch := first | sl_exact hU _ _ | sl_exact hI _ _ | sl_exact hJ _ _)
  ihave HB61 := (bundle6 _ _ _ _ _ _) $$ HC0 HT0 HC1 HT1 HC2 HT2
  -- row 62: its three destinations, cells and read tokens; its three copies start
  icases HRs0 with ⟨HR0, HRs0⟩
  icases HRs1 with ⟨HR1, HRs1⟩
  icases HRs2 with ⟨HR2, HRs2⟩
  icases HA0 with ⟨HC0, HA0⟩
  icases HA1 with ⟨HC1, HA1⟩
  icases HA2 with ⟨HC2, HA2⟩
  icases HAT0 with ⟨HT0, HAT0⟩
  icases HAT1 with ⟨HT1, HAT1⟩
  icases HAT2 with ⟨HT2, HAT2⟩
  sl_exec (disch := first | sl_exact hU _ _ | sl_exact hI _ _ | sl_exact hJ _ _)
  ihave HB62 := (bundle6 _ _ _ _ _ _) $$ HC0 HT0 HC1 HT1 HC2 HT2
  -- row 63: its three destinations, cells and read tokens; its three copies start
  icases HRs0 with ⟨HR0, HRs0⟩
  icases HRs1 with ⟨HR1, HRs1⟩
  icases HRs2 with ⟨HR2, HRs2⟩
  icases HA0 with ⟨HC0, HA0⟩
  icases HA1 with ⟨HC1, HA1⟩
  icases HA2 with ⟨HC2, HA2⟩
  icases HAT0 with ⟨HT0, HAT0⟩
  icases HAT1 with ⟨HT1, HAT1⟩
  icases HAT2 with ⟨HT2, HAT2⟩
  sl_exec (disch := first | sl_exact hU _ _ | sl_exact hI _ _ | sl_exact hJ _ _)
  ihave HB63 := (bundle6 _ _ _ _ _ _) $$ HC0 HT0 HC1 HT1 HC2 HT2
  -- row 64: its three destinations, cells and read tokens; its three copies start
  icases HRs0 with ⟨HR0, HRs0⟩
  icases HRs1 with ⟨HR1, HRs1⟩
  icases HRs2 with ⟨HR2, HRs2⟩
  icases HA0 with ⟨HC0, HA0⟩
  icases HA1 with ⟨HC1, HA1⟩
  icases HA2 with ⟨HC2, HA2⟩
  icases HAT0 with ⟨HT0, HAT0⟩
  icases HAT1 with ⟨HT1, HAT1⟩
  icases HAT2 with ⟨HT2, HAT2⟩
  sl_exec (disch := first | sl_exact hU _ _ | sl_exact hI _ _ | sl_exact hJ _ _)
  ihave HB64 := (bundle6 _ _ _ _ _ _) $$ HC0 HT0 HC1 HT1 HC2 HT2
  -- row 65: its three destinations, cells and read tokens; its three copies start
  icases HRs0 with ⟨HR0, HRs0⟩
  icases HRs1 with ⟨HR1, HRs1⟩
  icases HRs2 with ⟨HR2, HRs2⟩
  icases HA0 with ⟨HC0, HA0⟩
  icases HA1 with ⟨HC1, HA1⟩
  icases HA2 with ⟨HC2, HA2⟩
  icases HAT0 with ⟨HT0, HAT0⟩
  icases HAT1 with ⟨HT1, HAT1⟩
  icases HAT2 with ⟨HT2, HAT2⟩
  sl_exec (disch := first | sl_exact hU _ _ | sl_exact hI _ _ | sl_exact hJ _ _)
  ihave HB65 := (bundle6 _ _ _ _ _ _) $$ HC0 HT0 HC1 HT1 HC2 HT2
  -- row 66: its three destinations, cells and read tokens; its three copies start
  icases HRs0 with ⟨HR0, HRs0⟩
  icases HRs1 with ⟨HR1, HRs1⟩
  icases HRs2 with ⟨HR2, HRs2⟩
  icases HA0 with ⟨HC0, HA0⟩
  icases HA1 with ⟨HC1, HA1⟩
  icases HA2 with ⟨HC2, HA2⟩
  icases HAT0 with ⟨HT0, HAT0⟩
  icases HAT1 with ⟨HT1, HAT1⟩
  icases HAT2 with ⟨HT2, HAT2⟩
  sl_exec (disch := first | sl_exact hU _ _ | sl_exact hI _ _ | sl_exact hJ _ _)
  ihave HB66 := (bundle6 _ _ _ _ _ _) $$ HC0 HT0 HC1 HT1 HC2 HT2
  -- row 67: its three destinations, cells and read tokens; its three copies start
  icases HRs0 with ⟨HR0, HRs0⟩
  icases HRs1 with ⟨HR1, HRs1⟩
  icases HRs2 with ⟨HR2, HRs2⟩
  icases HA0 with ⟨HC0, HA0⟩
  icases HA1 with ⟨HC1, HA1⟩
  icases HA2 with ⟨HC2, HA2⟩
  icases HAT0 with ⟨HT0, HAT0⟩
  icases HAT1 with ⟨HT1, HAT1⟩
  icases HAT2 with ⟨HT2, HAT2⟩
  sl_exec (disch := first | sl_exact hU _ _ | sl_exact hI _ _ | sl_exact hJ _ _)
  ihave HB67 := (bundle6 _ _ _ _ _ _) $$ HC0 HT0 HC1 HT1 HC2 HT2
  -- row 68: its three destinations, cells and read tokens; its three copies start
  icases HRs0 with ⟨HR0, HRs0⟩
  icases HRs1 with ⟨HR1, HRs1⟩
  icases HRs2 with ⟨HR2, HRs2⟩
  icases HA0 with ⟨HC0, HA0⟩
  icases HA1 with ⟨HC1, HA1⟩
  icases HA2 with ⟨HC2, HA2⟩
  icases HAT0 with ⟨HT0, HAT0⟩
  icases HAT1 with ⟨HT1, HAT1⟩
  icases HAT2 with ⟨HT2, HAT2⟩
  sl_exec (disch := first | sl_exact hU _ _ | sl_exact hI _ _ | sl_exact hJ _ _)
  ihave HB68 := (bundle6 _ _ _ _ _ _) $$ HC0 HT0 HC1 HT1 HC2 HT2
  -- row 69: its three destinations, cells and read tokens; its three copies start
  icases HRs0 with ⟨HR0, HRs0⟩
  icases HRs1 with ⟨HR1, HRs1⟩
  icases HRs2 with ⟨HR2, HRs2⟩
  icases HA0 with ⟨HC0, HA0⟩
  icases HA1 with ⟨HC1, HA1⟩
  icases HA2 with ⟨HC2, HA2⟩
  icases HAT0 with ⟨HT0, HAT0⟩
  icases HAT1 with ⟨HT1, HAT1⟩
  icases HAT2 with ⟨HT2, HAT2⟩
  sl_exec (disch := first | sl_exact hU _ _ | sl_exact hI _ _ | sl_exact hJ _ _)
  ihave HB69 := (bundle6 _ _ _ _ _ _) $$ HC0 HT0 HC1 HT1 HC2 HT2
  -- row 70: its three destinations, cells and read tokens; its three copies start
  icases HRs0 with ⟨HR0, HRs0⟩
  icases HRs1 with ⟨HR1, HRs1⟩
  icases HRs2 with ⟨HR2, HRs2⟩
  icases HA0 with ⟨HC0, HA0⟩
  icases HA1 with ⟨HC1, HA1⟩
  icases HA2 with ⟨HC2, HA2⟩
  icases HAT0 with ⟨HT0, HAT0⟩
  icases HAT1 with ⟨HT1, HAT1⟩
  icases HAT2 with ⟨HT2, HAT2⟩
  sl_exec (disch := first | sl_exact hU _ _ | sl_exact hI _ _ | sl_exact hJ _ _)
  ihave HB70 := (bundle6 _ _ _ _ _ _) $$ HC0 HT0 HC1 HT1 HC2 HT2
  -- row 71: its three destinations, cells and read tokens; its three copies start
  icases HRs0 with ⟨HR0, HRs0⟩
  icases HRs1 with ⟨HR1, HRs1⟩
  icases HRs2 with ⟨HR2, HRs2⟩
  icases HA0 with ⟨HC0, HA0⟩
  icases HA1 with ⟨HC1, HA1⟩
  icases HA2 with ⟨HC2, HA2⟩
  icases HAT0 with ⟨HT0, HAT0⟩
  icases HAT1 with ⟨HT1, HAT1⟩
  icases HAT2 with ⟨HT2, HAT2⟩
  sl_exec (disch := first | sl_exact hU _ _ | sl_exact hI _ _ | sl_exact hJ _ _)
  ihave HB71 := (bundle6 _ _ _ _ _ _) $$ HC0 HT0 HC1 HT1 HC2 HT2
  -- row 72: its three destinations, cells and read tokens; its three copies start
  icases HRs0 with ⟨HR0, HRs0⟩
  icases HRs1 with ⟨HR1, HRs1⟩
  icases HRs2 with ⟨HR2, HRs2⟩
  icases HA0 with ⟨HC0, HA0⟩
  icases HA1 with ⟨HC1, HA1⟩
  icases HA2 with ⟨HC2, HA2⟩
  icases HAT0 with ⟨HT0, HAT0⟩
  icases HAT1 with ⟨HT1, HAT1⟩
  icases HAT2 with ⟨HT2, HAT2⟩
  sl_exec (disch := first | sl_exact hU _ _ | sl_exact hI _ _ | sl_exact hJ _ _)
  ihave HB72 := (bundle6 _ _ _ _ _ _) $$ HC0 HT0 HC1 HT1 HC2 HT2
  -- row 73: its three destinations, cells and read tokens; its three copies start
  icases HRs0 with ⟨HR0, HRs0⟩
  icases HRs1 with ⟨HR1, HRs1⟩
  icases HRs2 with ⟨HR2, HRs2⟩
  icases HA0 with ⟨HC0, HA0⟩
  icases HA1 with ⟨HC1, HA1⟩
  icases HA2 with ⟨HC2, HA2⟩
  icases HAT0 with ⟨HT0, HAT0⟩
  icases HAT1 with ⟨HT1, HAT1⟩
  icases HAT2 with ⟨HT2, HAT2⟩
  sl_exec (disch := first | sl_exact hU _ _ | sl_exact hI _ _ | sl_exact hJ _ _)
  ihave HB73 := (bundle6 _ _ _ _ _ _) $$ HC0 HT0 HC1 HT1 HC2 HT2
  -- row 74: its three destinations, cells and read tokens; its three copies start
  icases HRs0 with ⟨HR0, HRs0⟩
  icases HRs1 with ⟨HR1, HRs1⟩
  icases HRs2 with ⟨HR2, HRs2⟩
  icases HA0 with ⟨HC0, HA0⟩
  icases HA1 with ⟨HC1, HA1⟩
  icases HA2 with ⟨HC2, HA2⟩
  icases HAT0 with ⟨HT0, HAT0⟩
  icases HAT1 with ⟨HT1, HAT1⟩
  icases HAT2 with ⟨HT2, HAT2⟩
  sl_exec (disch := first | sl_exact hU _ _ | sl_exact hI _ _ | sl_exact hJ _ _)
  ihave HB74 := (bundle6 _ _ _ _ _ _) $$ HC0 HT0 HC1 HT1 HC2 HT2
  -- row 75: its three destinations, cells and read tokens; its three copies start
  icases HRs0 with ⟨HR0, HRs0⟩
  icases HRs1 with ⟨HR1, HRs1⟩
  icases HRs2 with ⟨HR2, HRs2⟩
  icases HA0 with ⟨HC0, HA0⟩
  icases HA1 with ⟨HC1, HA1⟩
  icases HA2 with ⟨HC2, HA2⟩
  icases HAT0 with ⟨HT0, HAT0⟩
  icases HAT1 with ⟨HT1, HAT1⟩
  icases HAT2 with ⟨HT2, HAT2⟩
  sl_exec (disch := first | sl_exact hU _ _ | sl_exact hI _ _ | sl_exact hJ _ _)
  ihave HB75 := (bundle6 _ _ _ _ _ _) $$ HC0 HT0 HC1 HT1 HC2 HT2
  -- row 76: its three destinations, cells and read tokens; its three copies start
  icases HRs0 with ⟨HR0, HRs0⟩
  icases HRs1 with ⟨HR1, HRs1⟩
  icases HRs2 with ⟨HR2, HRs2⟩
  icases HA0 with ⟨HC0, HA0⟩
  icases HA1 with ⟨HC1, HA1⟩
  icases HA2 with ⟨HC2, HA2⟩
  icases HAT0 with ⟨HT0, HAT0⟩
  icases HAT1 with ⟨HT1, HAT1⟩
  icases HAT2 with ⟨HT2, HAT2⟩
  sl_exec (disch := first | sl_exact hU _ _ | sl_exact hI _ _ | sl_exact hJ _ _)
  ihave HB76 := (bundle6 _ _ _ _ _ _) $$ HC0 HT0 HC1 HT1 HC2 HT2
  -- row 77: its three destinations, cells and read tokens; its three copies start
  icases HRs0 with ⟨HR0, HRs0⟩
  icases HRs1 with ⟨HR1, HRs1⟩
  icases HRs2 with ⟨HR2, HRs2⟩
  icases HA0 with ⟨HC0, HA0⟩
  icases HA1 with ⟨HC1, HA1⟩
  icases HA2 with ⟨HC2, HA2⟩
  icases HAT0 with ⟨HT0, HAT0⟩
  icases HAT1 with ⟨HT1, HAT1⟩
  icases HAT2 with ⟨HT2, HAT2⟩
  sl_exec (disch := first | sl_exact hU _ _ | sl_exact hI _ _ | sl_exact hJ _ _)
  ihave HB77 := (bundle6 _ _ _ _ _ _) $$ HC0 HT0 HC1 HT1 HC2 HT2
  -- row 78: its three destinations, cells and read tokens; its three copies start
  icases HRs0 with ⟨HR0, HRs0⟩
  icases HRs1 with ⟨HR1, HRs1⟩
  icases HRs2 with ⟨HR2, HRs2⟩
  icases HA0 with ⟨HC0, HA0⟩
  icases HA1 with ⟨HC1, HA1⟩
  icases HA2 with ⟨HC2, HA2⟩
  icases HAT0 with ⟨HT0, HAT0⟩
  icases HAT1 with ⟨HT1, HAT1⟩
  icases HAT2 with ⟨HT2, HAT2⟩
  sl_exec (disch := first | sl_exact hU _ _ | sl_exact hI _ _ | sl_exact hJ _ _)
  ihave HB78 := (bundle6 _ _ _ _ _ _) $$ HC0 HT0 HC1 HT1 HC2 HT2
  -- row 79: its three destinations, cells and read tokens; its three copies start
  icases HRs0 with ⟨HR0, HRs0⟩
  icases HRs1 with ⟨HR1, HRs1⟩
  icases HRs2 with ⟨HR2, HRs2⟩
  icases HA0 with ⟨HC0, HA0⟩
  icases HA1 with ⟨HC1, HA1⟩
  icases HA2 with ⟨HC2, HA2⟩
  icases HAT0 with ⟨HT0, HAT0⟩
  icases HAT1 with ⟨HT1, HAT1⟩
  icases HAT2 with ⟨HT2, HAT2⟩
  sl_exec (disch := first | sl_exact hU _ _ | sl_exact hI _ _ | sl_exact hJ _ _)
  ihave HB79 := (bundle6 _ _ _ _ _ _) $$ HC0 HT0 HC1 HT1 HC2 HT2
  -- row 80: its three destinations, cells and read tokens; its three copies start
  icases HRs0 with ⟨HR0, HRs0⟩
  icases HRs1 with ⟨HR1, HRs1⟩
  icases HRs2 with ⟨HR2, HRs2⟩
  icases HA0 with ⟨HC0, HA0⟩
  icases HA1 with ⟨HC1, HA1⟩
  icases HA2 with ⟨HC2, HA2⟩
  icases HAT0 with ⟨HT0, HAT0⟩
  icases HAT1 with ⟨HT1, HAT1⟩
  icases HAT2 with ⟨HT2, HAT2⟩
  sl_exec (disch := first | sl_exact hU _ _ | sl_exact hI _ _ | sl_exact hJ _ _)
  ihave HB80 := (bundle6 _ _ _ _ _ _) $$ HC0 HT0 HC1 HT1 HC2 HT2
  -- row 81: its three destinations, cells and read tokens; its three copies start
  icases HRs0 with ⟨HR0, HRs0⟩
  icases HRs1 with ⟨HR1, HRs1⟩
  icases HRs2 with ⟨HR2, HRs2⟩
  icases HA0 with ⟨HC0, HA0⟩
  icases HA1 with ⟨HC1, HA1⟩
  icases HA2 with ⟨HC2, HA2⟩
  icases HAT0 with ⟨HT0, HAT0⟩
  icases HAT1 with ⟨HT1, HAT1⟩
  icases HAT2 with ⟨HT2, HAT2⟩
  sl_exec (disch := first | sl_exact hU _ _ | sl_exact hI _ _ | sl_exact hJ _ _)
  ihave HB81 := (bundle6 _ _ _ _ _ _) $$ HC0 HT0 HC1 HT1 HC2 HT2
  -- row 82: its three destinations, cells and read tokens; its three copies start
  icases HRs0 with ⟨HR0, HRs0⟩
  icases HRs1 with ⟨HR1, HRs1⟩
  icases HRs2 with ⟨HR2, HRs2⟩
  icases HA0 with ⟨HC0, HA0⟩
  icases HA1 with ⟨HC1, HA1⟩
  icases HA2 with ⟨HC2, HA2⟩
  icases HAT0 with ⟨HT0, HAT0⟩
  icases HAT1 with ⟨HT1, HAT1⟩
  icases HAT2 with ⟨HT2, HAT2⟩
  sl_exec (disch := first | sl_exact hU _ _ | sl_exact hI _ _ | sl_exact hJ _ _)
  ihave HB82 := (bundle6 _ _ _ _ _ _) $$ HC0 HT0 HC1 HT1 HC2 HT2
  -- row 83: its three destinations, cells and read tokens; its three copies start
  icases HRs0 with ⟨HR0, HRs0⟩
  icases HRs1 with ⟨HR1, HRs1⟩
  icases HRs2 with ⟨HR2, HRs2⟩
  icases HA0 with ⟨HC0, HA0⟩
  icases HA1 with ⟨HC1, HA1⟩
  icases HA2 with ⟨HC2, HA2⟩
  icases HAT0 with ⟨HT0, HAT0⟩
  icases HAT1 with ⟨HT1, HAT1⟩
  icases HAT2 with ⟨HT2, HAT2⟩
  sl_exec (disch := first | sl_exact hU _ _ | sl_exact hI _ _ | sl_exact hJ _ _)
  ihave HB83 := (bundle6 _ _ _ _ _ _) $$ HC0 HT0 HC1 HT1 HC2 HT2
  -- row 84: its three destinations, cells and read tokens; its three copies start
  icases HRs0 with ⟨HR0, HRs0⟩
  icases HRs1 with ⟨HR1, HRs1⟩
  icases HRs2 with ⟨HR2, HRs2⟩
  icases HA0 with ⟨HC0, HA0⟩
  icases HA1 with ⟨HC1, HA1⟩
  icases HA2 with ⟨HC2, HA2⟩
  icases HAT0 with ⟨HT0, HAT0⟩
  icases HAT1 with ⟨HT1, HAT1⟩
  icases HAT2 with ⟨HT2, HAT2⟩
  sl_exec (disch := first | sl_exact hU _ _ | sl_exact hI _ _ | sl_exact hJ _ _)
  ihave HB84 := (bundle6 _ _ _ _ _ _) $$ HC0 HT0 HC1 HT1 HC2 HT2
  -- row 85: its three destinations, cells and read tokens; its three copies start
  icases HRs0 with ⟨HR0, HRs0⟩
  icases HRs1 with ⟨HR1, HRs1⟩
  icases HRs2 with ⟨HR2, HRs2⟩
  icases HA0 with ⟨HC0, HA0⟩
  icases HA1 with ⟨HC1, HA1⟩
  icases HA2 with ⟨HC2, HA2⟩
  icases HAT0 with ⟨HT0, HAT0⟩
  icases HAT1 with ⟨HT1, HAT1⟩
  icases HAT2 with ⟨HT2, HAT2⟩
  sl_exec (disch := first | sl_exact hU _ _ | sl_exact hI _ _ | sl_exact hJ _ _)
  ihave HB85 := (bundle6 _ _ _ _ _ _) $$ HC0 HT0 HC1 HT1 HC2 HT2
  -- row 86: its three destinations, cells and read tokens; its three copies start
  icases HRs0 with ⟨HR0, HRs0⟩
  icases HRs1 with ⟨HR1, HRs1⟩
  icases HRs2 with ⟨HR2, HRs2⟩
  icases HA0 with ⟨HC0, HA0⟩
  icases HA1 with ⟨HC1, HA1⟩
  icases HA2 with ⟨HC2, HA2⟩
  icases HAT0 with ⟨HT0, HAT0⟩
  icases HAT1 with ⟨HT1, HAT1⟩
  icases HAT2 with ⟨HT2, HAT2⟩
  sl_exec (disch := first | sl_exact hU _ _ | sl_exact hI _ _ | sl_exact hJ _ _)
  ihave HB86 := (bundle6 _ _ _ _ _ _) $$ HC0 HT0 HC1 HT1 HC2 HT2
  -- row 87: its three destinations, cells and read tokens; its three copies start
  icases HRs0 with ⟨HR0, HRs0⟩
  icases HRs1 with ⟨HR1, HRs1⟩
  icases HRs2 with ⟨HR2, HRs2⟩
  icases HA0 with ⟨HC0, HA0⟩
  icases HA1 with ⟨HC1, HA1⟩
  icases HA2 with ⟨HC2, HA2⟩
  icases HAT0 with ⟨HT0, HAT0⟩
  icases HAT1 with ⟨HT1, HAT1⟩
  icases HAT2 with ⟨HT2, HAT2⟩
  sl_exec (disch := first | sl_exact hU _ _ | sl_exact hI _ _ | sl_exact hJ _ _)
  ihave HB87 := (bundle6 _ _ _ _ _ _) $$ HC0 HT0 HC1 HT1 HC2 HT2
  -- row 88: its three destinations, cells and read tokens; its three copies start
  icases HRs0 with ⟨HR0, HRs0⟩
  icases HRs1 with ⟨HR1, HRs1⟩
  icases HRs2 with ⟨HR2, HRs2⟩
  icases HA0 with ⟨HC0, HA0⟩
  icases HA1 with ⟨HC1, HA1⟩
  icases HA2 with ⟨HC2, HA2⟩
  icases HAT0 with ⟨HT0, HAT0⟩
  icases HAT1 with ⟨HT1, HAT1⟩
  icases HAT2 with ⟨HT2, HAT2⟩
  sl_exec (disch := first | sl_exact hU _ _ | sl_exact hI _ _ | sl_exact hJ _ _)
  ihave HB88 := (bundle6 _ _ _ _ _ _) $$ HC0 HT0 HC1 HT1 HC2 HT2
  -- row 89: its three destinations, cells and read tokens; its three copies start
  icases HRs0 with ⟨HR0, HRs0⟩
  icases HRs1 with ⟨HR1, HRs1⟩
  icases HRs2 with ⟨HR2, HRs2⟩
  icases HA0 with ⟨HC0, HA0⟩
  icases HA1 with ⟨HC1, HA1⟩
  icases HA2 with ⟨HC2, HA2⟩
  icases HAT0 with ⟨HT0, HAT0⟩
  icases HAT1 with ⟨HT1, HAT1⟩
  icases HAT2 with ⟨HT2, HAT2⟩
  sl_exec (disch := first | sl_exact hU _ _ | sl_exact hI _ _ | sl_exact hJ _ _)
  ihave HB89 := (bundle6 _ _ _ _ _ _) $$ HC0 HT0 HC1 HT1 HC2 HT2
  -- row 90: its three destinations, cells and read tokens; its three copies start
  icases HRs0 with ⟨HR0, HRs0⟩
  icases HRs1 with ⟨HR1, HRs1⟩
  icases HRs2 with ⟨HR2, HRs2⟩
  icases HA0 with ⟨HC0, HA0⟩
  icases HA1 with ⟨HC1, HA1⟩
  icases HA2 with ⟨HC2, HA2⟩
  icases HAT0 with ⟨HT0, HAT0⟩
  icases HAT1 with ⟨HT1, HAT1⟩
  icases HAT2 with ⟨HT2, HAT2⟩
  sl_exec (disch := first | sl_exact hU _ _ | sl_exact hI _ _ | sl_exact hJ _ _)
  ihave HB90 := (bundle6 _ _ _ _ _ _) $$ HC0 HT0 HC1 HT1 HC2 HT2
  -- row 91: its three destinations, cells and read tokens; its three copies start
  icases HRs0 with ⟨HR0, HRs0⟩
  icases HRs1 with ⟨HR1, HRs1⟩
  icases HRs2 with ⟨HR2, HRs2⟩
  icases HA0 with ⟨HC0, HA0⟩
  icases HA1 with ⟨HC1, HA1⟩
  icases HA2 with ⟨HC2, HA2⟩
  icases HAT0 with ⟨HT0, HAT0⟩
  icases HAT1 with ⟨HT1, HAT1⟩
  icases HAT2 with ⟨HT2, HAT2⟩
  sl_exec (disch := first | sl_exact hU _ _ | sl_exact hI _ _ | sl_exact hJ _ _)
  ihave HB91 := (bundle6 _ _ _ _ _ _) $$ HC0 HT0 HC1 HT1 HC2 HT2
  -- row 92: its three destinations, cells and read tokens; its three copies start
  icases HRs0 with ⟨HR0, HRs0⟩
  icases HRs1 with ⟨HR1, HRs1⟩
  icases HRs2 with ⟨HR2, HRs2⟩
  icases HA0 with ⟨HC0, HA0⟩
  icases HA1 with ⟨HC1, HA1⟩
  icases HA2 with ⟨HC2, HA2⟩
  icases HAT0 with ⟨HT0, HAT0⟩
  icases HAT1 with ⟨HT1, HAT1⟩
  icases HAT2 with ⟨HT2, HAT2⟩
  sl_exec (disch := first | sl_exact hU _ _ | sl_exact hI _ _ | sl_exact hJ _ _)
  ihave HB92 := (bundle6 _ _ _ _ _ _) $$ HC0 HT0 HC1 HT1 HC2 HT2
  -- row 93: its three destinations, cells and read tokens; its three copies start
  icases HRs0 with ⟨HR0, HRs0⟩
  icases HRs1 with ⟨HR1, HRs1⟩
  icases HRs2 with ⟨HR2, HRs2⟩
  icases HA0 with ⟨HC0, HA0⟩
  icases HA1 with ⟨HC1, HA1⟩
  icases HA2 with ⟨HC2, HA2⟩
  icases HAT0 with ⟨HT0, HAT0⟩
  icases HAT1 with ⟨HT1, HAT1⟩
  icases HAT2 with ⟨HT2, HAT2⟩
  sl_exec (disch := first | sl_exact hU _ _ | sl_exact hI _ _ | sl_exact hJ _ _)
  ihave HB93 := (bundle6 _ _ _ _ _ _) $$ HC0 HT0 HC1 HT1 HC2 HT2
  -- row 94: its three destinations, cells and read tokens; its three copies start
  icases HRs0 with ⟨HR0, HRs0⟩
  icases HRs1 with ⟨HR1, HRs1⟩
  icases HRs2 with ⟨HR2, HRs2⟩
  icases HA0 with ⟨HC0, HA0⟩
  icases HA1 with ⟨HC1, HA1⟩
  icases HA2 with ⟨HC2, HA2⟩
  icases HAT0 with ⟨HT0, HAT0⟩
  icases HAT1 with ⟨HT1, HAT1⟩
  icases HAT2 with ⟨HT2, HAT2⟩
  sl_exec (disch := first | sl_exact hU _ _ | sl_exact hI _ _ | sl_exact hJ _ _)
  ihave HB94 := (bundle6 _ _ _ _ _ _) $$ HC0 HT0 HC1 HT1 HC2 HT2
  -- row 95: its three destinations, cells and read tokens; its three copies start
  icases HRs0 with ⟨HR0, HRs0⟩
  icases HRs1 with ⟨HR1, HRs1⟩
  icases HRs2 with ⟨HR2, HRs2⟩
  icases HA0 with ⟨HC0, HA0⟩
  icases HA1 with ⟨HC1, HA1⟩
  icases HA2 with ⟨HC2, HA2⟩
  icases HAT0 with ⟨HT0, HAT0⟩
  icases HAT1 with ⟨HT1, HAT1⟩
  icases HAT2 with ⟨HT2, HAT2⟩
  sl_exec (disch := first | sl_exact hU _ _ | sl_exact hI _ _ | sl_exact hJ _ _)
  ihave HB95 := (bundle6 _ _ _ _ _ _) $$ HC0 HT0 HC1 HT1 HC2 HT2
  -- row 96: its three destinations, cells and read tokens; its three copies start
  icases HRs0 with ⟨HR0, HRs0⟩
  icases HRs1 with ⟨HR1, HRs1⟩
  icases HRs2 with ⟨HR2, HRs2⟩
  icases HA0 with ⟨HC0, HA0⟩
  icases HA1 with ⟨HC1, HA1⟩
  icases HA2 with ⟨HC2, HA2⟩
  icases HAT0 with ⟨HT0, HAT0⟩
  icases HAT1 with ⟨HT1, HAT1⟩
  icases HAT2 with ⟨HT2, HAT2⟩
  sl_exec (disch := first | sl_exact hU _ _ | sl_exact hI _ _ | sl_exact hJ _ _)
  ihave HB96 := (bundle6 _ _ _ _ _ _) $$ HC0 HT0 HC1 HT1 HC2 HT2
  -- row 97: its three destinations, cells and read tokens; its three copies start
  icases HRs0 with ⟨HR0, HRs0⟩
  icases HRs1 with ⟨HR1, HRs1⟩
  icases HRs2 with ⟨HR2, HRs2⟩
  icases HA0 with ⟨HC0, HA0⟩
  icases HA1 with ⟨HC1, HA1⟩
  icases HA2 with ⟨HC2, HA2⟩
  icases HAT0 with ⟨HT0, HAT0⟩
  icases HAT1 with ⟨HT1, HAT1⟩
  icases HAT2 with ⟨HT2, HAT2⟩
  sl_exec (disch := first | sl_exact hU _ _ | sl_exact hI _ _ | sl_exact hJ _ _)
  ihave HB97 := (bundle6 _ _ _ _ _ _) $$ HC0 HT0 HC1 HT1 HC2 HT2
  -- row 98: its three destinations, cells and read tokens; its three copies start
  icases HRs0 with ⟨HR0, HRs0⟩
  icases HRs1 with ⟨HR1, HRs1⟩
  icases HRs2 with ⟨HR2, HRs2⟩
  icases HA0 with ⟨HC0, HA0⟩
  icases HA1 with ⟨HC1, HA1⟩
  icases HA2 with ⟨HC2, HA2⟩
  icases HAT0 with ⟨HT0, HAT0⟩
  icases HAT1 with ⟨HT1, HAT1⟩
  icases HAT2 with ⟨HT2, HAT2⟩
  sl_exec (disch := first | sl_exact hU _ _ | sl_exact hI _ _ | sl_exact hJ _ _)
  ihave HB98 := (bundle6 _ _ _ _ _ _) $$ HC0 HT0 HC1 HT1 HC2 HT2
  -- row 99: its three destinations, cells and read tokens; its three copies start
  icases HRs0 with ⟨HR0, HRs0⟩
  icases HRs1 with ⟨HR1, HRs1⟩
  icases HRs2 with ⟨HR2, HRs2⟩
  icases HA0 with ⟨HC0, HA0⟩
  icases HA1 with ⟨HC1, HA1⟩
  icases HA2 with ⟨HC2, HA2⟩
  icases HAT0 with ⟨HT0, HAT0⟩
  icases HAT1 with ⟨HT1, HAT1⟩
  icases HAT2 with ⟨HT2, HAT2⟩
  sl_exec (disch := first | sl_exact hU _ _ | sl_exact hI _ _ | sl_exact hJ _ _)
  ihave HB99 := (bundle6 _ _ _ _ _ _) $$ HC0 HT0 HC1 HT1 HC2 HT2
  -- row 100: its three destinations, cells and read tokens; its three copies start
  icases HRs0 with ⟨HR0, HRs0⟩
  icases HRs1 with ⟨HR1, HRs1⟩
  icases HRs2 with ⟨HR2, HRs2⟩
  icases HA0 with ⟨HC0, HA0⟩
  icases HA1 with ⟨HC1, HA1⟩
  icases HA2 with ⟨HC2, HA2⟩
  icases HAT0 with ⟨HT0, HAT0⟩
  icases HAT1 with ⟨HT1, HAT1⟩
  icases HAT2 with ⟨HT2, HAT2⟩
  sl_exec (disch := first | sl_exact hU _ _ | sl_exact hI _ _ | sl_exact hJ _ _)
  ihave HB100 := (bundle6 _ _ _ _ _ _) $$ HC0 HT0 HC1 HT1 HC2 HT2
  -- row 101: its three destinations, cells and read tokens; its three copies start
  icases HRs0 with ⟨HR0, HRs0⟩
  icases HRs1 with ⟨HR1, HRs1⟩
  icases HRs2 with ⟨HR2, HRs2⟩
  icases HA0 with ⟨HC0, HA0⟩
  icases HA1 with ⟨HC1, HA1⟩
  icases HA2 with ⟨HC2, HA2⟩
  icases HAT0 with ⟨HT0, HAT0⟩
  icases HAT1 with ⟨HT1, HAT1⟩
  icases HAT2 with ⟨HT2, HAT2⟩
  sl_exec (disch := first | sl_exact hU _ _ | sl_exact hI _ _ | sl_exact hJ _ _)
  ihave HB101 := (bundle6 _ _ _ _ _ _) $$ HC0 HT0 HC1 HT1 HC2 HT2
  -- row 102: its three destinations, cells and read tokens; its three copies start
  icases HRs0 with ⟨HR0, HRs0⟩
  icases HRs1 with ⟨HR1, HRs1⟩
  icases HRs2 with ⟨HR2, HRs2⟩
  icases HA0 with ⟨HC0, HA0⟩
  icases HA1 with ⟨HC1, HA1⟩
  icases HA2 with ⟨HC2, HA2⟩
  icases HAT0 with ⟨HT0, HAT0⟩
  icases HAT1 with ⟨HT1, HAT1⟩
  icases HAT2 with ⟨HT2, HAT2⟩
  sl_exec (disch := first | sl_exact hU _ _ | sl_exact hI _ _ | sl_exact hJ _ _)
  ihave HB102 := (bundle6 _ _ _ _ _ _) $$ HC0 HT0 HC1 HT1 HC2 HT2
  -- row 103: its three destinations, cells and read tokens; its three copies start
  icases HRs0 with ⟨HR0, HRs0⟩
  icases HRs1 with ⟨HR1, HRs1⟩
  icases HRs2 with ⟨HR2, HRs2⟩
  icases HA0 with ⟨HC0, HA0⟩
  icases HA1 with ⟨HC1, HA1⟩
  icases HA2 with ⟨HC2, HA2⟩
  icases HAT0 with ⟨HT0, HAT0⟩
  icases HAT1 with ⟨HT1, HAT1⟩
  icases HAT2 with ⟨HT2, HAT2⟩
  sl_exec (disch := first | sl_exact hU _ _ | sl_exact hI _ _ | sl_exact hJ _ _)
  ihave HB103 := (bundle6 _ _ _ _ _ _) $$ HC0 HT0 HC1 HT1 HC2 HT2
  -- row 104: its three destinations, cells and read tokens; its three copies start
  icases HRs0 with ⟨HR0, HRs0⟩
  icases HRs1 with ⟨HR1, HRs1⟩
  icases HRs2 with ⟨HR2, HRs2⟩
  icases HA0 with ⟨HC0, HA0⟩
  icases HA1 with ⟨HC1, HA1⟩
  icases HA2 with ⟨HC2, HA2⟩
  icases HAT0 with ⟨HT0, HAT0⟩
  icases HAT1 with ⟨HT1, HAT1⟩
  icases HAT2 with ⟨HT2, HAT2⟩
  sl_exec (disch := first | sl_exact hU _ _ | sl_exact hI _ _ | sl_exact hJ _ _)
  ihave HB104 := (bundle6 _ _ _ _ _ _) $$ HC0 HT0 HC1 HT1 HC2 HT2
  -- row 105: its three destinations, cells and read tokens; its three copies start
  icases HRs0 with ⟨HR0, HRs0⟩
  icases HRs1 with ⟨HR1, HRs1⟩
  icases HRs2 with ⟨HR2, HRs2⟩
  icases HA0 with ⟨HC0, HA0⟩
  icases HA1 with ⟨HC1, HA1⟩
  icases HA2 with ⟨HC2, HA2⟩
  icases HAT0 with ⟨HT0, HAT0⟩
  icases HAT1 with ⟨HT1, HAT1⟩
  icases HAT2 with ⟨HT2, HAT2⟩
  sl_exec (disch := first | sl_exact hU _ _ | sl_exact hI _ _ | sl_exact hJ _ _)
  ihave HB105 := (bundle6 _ _ _ _ _ _) $$ HC0 HT0 HC1 HT1 HC2 HT2
  -- row 106: its three destinations, cells and read tokens; its three copies start
  icases HRs0 with ⟨HR0, HRs0⟩
  icases HRs1 with ⟨HR1, HRs1⟩
  icases HRs2 with ⟨HR2, HRs2⟩
  icases HA0 with ⟨HC0, HA0⟩
  icases HA1 with ⟨HC1, HA1⟩
  icases HA2 with ⟨HC2, HA2⟩
  icases HAT0 with ⟨HT0, HAT0⟩
  icases HAT1 with ⟨HT1, HAT1⟩
  icases HAT2 with ⟨HT2, HAT2⟩
  sl_exec (disch := first | sl_exact hU _ _ | sl_exact hI _ _ | sl_exact hJ _ _)
  ihave HB106 := (bundle6 _ _ _ _ _ _) $$ HC0 HT0 HC1 HT1 HC2 HT2
  -- row 107: its three destinations, cells and read tokens; its three copies start
  icases HRs0 with ⟨HR0, HRs0⟩
  icases HRs1 with ⟨HR1, HRs1⟩
  icases HRs2 with ⟨HR2, HRs2⟩
  icases HA0 with ⟨HC0, HA0⟩
  icases HA1 with ⟨HC1, HA1⟩
  icases HA2 with ⟨HC2, HA2⟩
  icases HAT0 with ⟨HT0, HAT0⟩
  icases HAT1 with ⟨HT1, HAT1⟩
  icases HAT2 with ⟨HT2, HAT2⟩
  sl_exec (disch := first | sl_exact hU _ _ | sl_exact hI _ _ | sl_exact hJ _ _)
  ihave HB107 := (bundle6 _ _ _ _ _ _) $$ HC0 HT0 HC1 HT1 HC2 HT2
  -- row 108: its three destinations, cells and read tokens; its three copies start
  icases HRs0 with ⟨HR0, HRs0⟩
  icases HRs1 with ⟨HR1, HRs1⟩
  icases HRs2 with ⟨HR2, HRs2⟩
  icases HA0 with ⟨HC0, HA0⟩
  icases HA1 with ⟨HC1, HA1⟩
  icases HA2 with ⟨HC2, HA2⟩
  icases HAT0 with ⟨HT0, HAT0⟩
  icases HAT1 with ⟨HT1, HAT1⟩
  icases HAT2 with ⟨HT2, HAT2⟩
  sl_exec (disch := first | sl_exact hU _ _ | sl_exact hI _ _ | sl_exact hJ _ _)
  ihave HB108 := (bundle6 _ _ _ _ _ _) $$ HC0 HT0 HC1 HT1 HC2 HT2
  -- row 109: its three destinations, cells and read tokens; its three copies start
  icases HRs0 with ⟨HR0, HRs0⟩
  icases HRs1 with ⟨HR1, HRs1⟩
  icases HRs2 with ⟨HR2, HRs2⟩
  icases HA0 with ⟨HC0, HA0⟩
  icases HA1 with ⟨HC1, HA1⟩
  icases HA2 with ⟨HC2, HA2⟩
  icases HAT0 with ⟨HT0, HAT0⟩
  icases HAT1 with ⟨HT1, HAT1⟩
  icases HAT2 with ⟨HT2, HAT2⟩
  sl_exec (disch := first | sl_exact hU _ _ | sl_exact hI _ _ | sl_exact hJ _ _)
  ihave HB109 := (bundle6 _ _ _ _ _ _) $$ HC0 HT0 HC1 HT1 HC2 HT2
  -- row 110: its three destinations, cells and read tokens; its three copies start
  icases HRs0 with ⟨HR0, HRs0⟩
  icases HRs1 with ⟨HR1, HRs1⟩
  icases HRs2 with ⟨HR2, HRs2⟩
  icases HA0 with ⟨HC0, HA0⟩
  icases HA1 with ⟨HC1, HA1⟩
  icases HA2 with ⟨HC2, HA2⟩
  icases HAT0 with ⟨HT0, HAT0⟩
  icases HAT1 with ⟨HT1, HAT1⟩
  icases HAT2 with ⟨HT2, HAT2⟩
  sl_exec (disch := first | sl_exact hU _ _ | sl_exact hI _ _ | sl_exact hJ _ _)
  ihave HB110 := (bundle6 _ _ _ _ _ _) $$ HC0 HT0 HC1 HT1 HC2 HT2
  -- row 111: its three destinations, cells and read tokens; its three copies start
  icases HRs0 with ⟨HR0, HRs0⟩
  icases HRs1 with ⟨HR1, HRs1⟩
  icases HRs2 with ⟨HR2, HRs2⟩
  icases HA0 with ⟨HC0, HA0⟩
  icases HA1 with ⟨HC1, HA1⟩
  icases HA2 with ⟨HC2, HA2⟩
  icases HAT0 with ⟨HT0, HAT0⟩
  icases HAT1 with ⟨HT1, HAT1⟩
  icases HAT2 with ⟨HT2, HAT2⟩
  sl_exec (disch := first | sl_exact hU _ _ | sl_exact hI _ _ | sl_exact hJ _ _)
  ihave HB111 := (bundle6 _ _ _ _ _ _) $$ HC0 HT0 HC1 HT1 HC2 HT2
  -- row 112: its three destinations, cells and read tokens; its three copies start
  icases HRs0 with ⟨HR0, HRs0⟩
  icases HRs1 with ⟨HR1, HRs1⟩
  icases HRs2 with ⟨HR2, HRs2⟩
  icases HA0 with ⟨HC0, HA0⟩
  icases HA1 with ⟨HC1, HA1⟩
  icases HA2 with ⟨HC2, HA2⟩
  icases HAT0 with ⟨HT0, HAT0⟩
  icases HAT1 with ⟨HT1, HAT1⟩
  icases HAT2 with ⟨HT2, HAT2⟩
  sl_exec (disch := first | sl_exact hU _ _ | sl_exact hI _ _ | sl_exact hJ _ _)
  ihave HB112 := (bundle6 _ _ _ _ _ _) $$ HC0 HT0 HC1 HT1 HC2 HT2
  -- row 113: its three destinations, cells and read tokens; its three copies start
  icases HRs0 with ⟨HR0, HRs0⟩
  icases HRs1 with ⟨HR1, HRs1⟩
  icases HRs2 with ⟨HR2, HRs2⟩
  icases HA0 with ⟨HC0, HA0⟩
  icases HA1 with ⟨HC1, HA1⟩
  icases HA2 with ⟨HC2, HA2⟩
  icases HAT0 with ⟨HT0, HAT0⟩
  icases HAT1 with ⟨HT1, HAT1⟩
  icases HAT2 with ⟨HT2, HAT2⟩
  sl_exec (disch := first | sl_exact hU _ _ | sl_exact hI _ _ | sl_exact hJ _ _)
  ihave HB113 := (bundle6 _ _ _ _ _ _) $$ HC0 HT0 HC1 HT1 HC2 HT2
  -- row 114: its three destinations, cells and read tokens; its three copies start
  icases HRs0 with ⟨HR0, HRs0⟩
  icases HRs1 with ⟨HR1, HRs1⟩
  icases HRs2 with ⟨HR2, HRs2⟩
  icases HA0 with ⟨HC0, HA0⟩
  icases HA1 with ⟨HC1, HA1⟩
  icases HA2 with ⟨HC2, HA2⟩
  icases HAT0 with ⟨HT0, HAT0⟩
  icases HAT1 with ⟨HT1, HAT1⟩
  icases HAT2 with ⟨HT2, HAT2⟩
  sl_exec (disch := first | sl_exact hU _ _ | sl_exact hI _ _ | sl_exact hJ _ _)
  ihave HB114 := (bundle6 _ _ _ _ _ _) $$ HC0 HT0 HC1 HT1 HC2 HT2
  -- row 115: its three destinations, cells and read tokens; its three copies start
  icases HRs0 with ⟨HR0, HRs0⟩
  icases HRs1 with ⟨HR1, HRs1⟩
  icases HRs2 with ⟨HR2, HRs2⟩
  icases HA0 with ⟨HC0, HA0⟩
  icases HA1 with ⟨HC1, HA1⟩
  icases HA2 with ⟨HC2, HA2⟩
  icases HAT0 with ⟨HT0, HAT0⟩
  icases HAT1 with ⟨HT1, HAT1⟩
  icases HAT2 with ⟨HT2, HAT2⟩
  sl_exec (disch := first | sl_exact hU _ _ | sl_exact hI _ _ | sl_exact hJ _ _)
  ihave HB115 := (bundle6 _ _ _ _ _ _) $$ HC0 HT0 HC1 HT1 HC2 HT2
  -- row 116: its three destinations, cells and read tokens; its three copies start
  icases HRs0 with ⟨HR0, HRs0⟩
  icases HRs1 with ⟨HR1, HRs1⟩
  icases HRs2 with ⟨HR2, HRs2⟩
  icases HA0 with ⟨HC0, HA0⟩
  icases HA1 with ⟨HC1, HA1⟩
  icases HA2 with ⟨HC2, HA2⟩
  icases HAT0 with ⟨HT0, HAT0⟩
  icases HAT1 with ⟨HT1, HAT1⟩
  icases HAT2 with ⟨HT2, HAT2⟩
  sl_exec (disch := first | sl_exact hU _ _ | sl_exact hI _ _ | sl_exact hJ _ _)
  ihave HB116 := (bundle6 _ _ _ _ _ _) $$ HC0 HT0 HC1 HT1 HC2 HT2
  -- row 117: its three destinations, cells and read tokens; its three copies start
  icases HRs0 with ⟨HR0, HRs0⟩
  icases HRs1 with ⟨HR1, HRs1⟩
  icases HRs2 with ⟨HR2, HRs2⟩
  icases HA0 with ⟨HC0, HA0⟩
  icases HA1 with ⟨HC1, HA1⟩
  icases HA2 with ⟨HC2, HA2⟩
  icases HAT0 with ⟨HT0, HAT0⟩
  icases HAT1 with ⟨HT1, HAT1⟩
  icases HAT2 with ⟨HT2, HAT2⟩
  sl_exec (disch := first | sl_exact hU _ _ | sl_exact hI _ _ | sl_exact hJ _ _)
  ihave HB117 := (bundle6 _ _ _ _ _ _) $$ HC0 HT0 HC1 HT1 HC2 HT2
  -- row 118: its three destinations, cells and read tokens; its three copies start
  icases HRs0 with ⟨HR0, HRs0⟩
  icases HRs1 with ⟨HR1, HRs1⟩
  icases HRs2 with ⟨HR2, HRs2⟩
  icases HA0 with ⟨HC0, HA0⟩
  icases HA1 with ⟨HC1, HA1⟩
  icases HA2 with ⟨HC2, HA2⟩
  icases HAT0 with ⟨HT0, HAT0⟩
  icases HAT1 with ⟨HT1, HAT1⟩
  icases HAT2 with ⟨HT2, HAT2⟩
  sl_exec (disch := first | sl_exact hU _ _ | sl_exact hI _ _ | sl_exact hJ _ _)
  ihave HB118 := (bundle6 _ _ _ _ _ _) $$ HC0 HT0 HC1 HT1 HC2 HT2
  -- row 119: its three destinations, cells and read tokens; its three copies start
  icases HRs0 with ⟨HR0, HRs0⟩
  icases HRs1 with ⟨HR1, HRs1⟩
  icases HRs2 with ⟨HR2, HRs2⟩
  icases HA0 with ⟨HC0, HA0⟩
  icases HA1 with ⟨HC1, HA1⟩
  icases HA2 with ⟨HC2, HA2⟩
  icases HAT0 with ⟨HT0, HAT0⟩
  icases HAT1 with ⟨HT1, HAT1⟩
  icases HAT2 with ⟨HT2, HAT2⟩
  sl_exec (disch := first | sl_exact hU _ _ | sl_exact hI _ _ | sl_exact hJ _ _)
  ihave HB119 := (bundle6 _ _ _ _ _ _) $$ HC0 HT0 HC1 HT1 HC2 HT2
  -- row 120: its three destinations, cells and read tokens; its three copies start
  icases HRs0 with ⟨HR0, HRs0⟩
  icases HRs1 with ⟨HR1, HRs1⟩
  icases HRs2 with ⟨HR2, HRs2⟩
  icases HA0 with ⟨HC0, HA0⟩
  icases HA1 with ⟨HC1, HA1⟩
  icases HA2 with ⟨HC2, HA2⟩
  icases HAT0 with ⟨HT0, HAT0⟩
  icases HAT1 with ⟨HT1, HAT1⟩
  icases HAT2 with ⟨HT2, HAT2⟩
  sl_exec (disch := first | sl_exact hU _ _ | sl_exact hI _ _ | sl_exact hJ _ _)
  ihave HB120 := (bundle6 _ _ _ _ _ _) $$ HC0 HT0 HC1 HT1 HC2 HT2
  -- row 121: its three destinations, cells and read tokens; its three copies start
  icases HRs0 with ⟨HR0, HRs0⟩
  icases HRs1 with ⟨HR1, HRs1⟩
  icases HRs2 with ⟨HR2, HRs2⟩
  icases HA0 with ⟨HC0, HA0⟩
  icases HA1 with ⟨HC1, HA1⟩
  icases HA2 with ⟨HC2, HA2⟩
  icases HAT0 with ⟨HT0, HAT0⟩
  icases HAT1 with ⟨HT1, HAT1⟩
  icases HAT2 with ⟨HT2, HAT2⟩
  sl_exec (disch := first | sl_exact hU _ _ | sl_exact hI _ _ | sl_exact hJ _ _)
  ihave HB121 := (bundle6 _ _ _ _ _ _) $$ HC0 HT0 HC1 HT1 HC2 HT2
  -- row 122: its three destinations, cells and read tokens; its three copies start
  icases HRs0 with ⟨HR0, HRs0⟩
  icases HRs1 with ⟨HR1, HRs1⟩
  icases HRs2 with ⟨HR2, HRs2⟩
  icases HA0 with ⟨HC0, HA0⟩
  icases HA1 with ⟨HC1, HA1⟩
  icases HA2 with ⟨HC2, HA2⟩
  icases HAT0 with ⟨HT0, HAT0⟩
  icases HAT1 with ⟨HT1, HAT1⟩
  icases HAT2 with ⟨HT2, HAT2⟩
  sl_exec (disch := first | sl_exact hU _ _ | sl_exact hI _ _ | sl_exact hJ _ _)
  ihave HB122 := (bundle6 _ _ _ _ _ _) $$ HC0 HT0 HC1 HT1 HC2 HT2
  -- row 123: its three destinations, cells and read tokens; its three copies start
  icases HRs0 with ⟨HR0, HRs0⟩
  icases HRs1 with ⟨HR1, HRs1⟩
  icases HRs2 with ⟨HR2, HRs2⟩
  icases HA0 with ⟨HC0, HA0⟩
  icases HA1 with ⟨HC1, HA1⟩
  icases HA2 with ⟨HC2, HA2⟩
  icases HAT0 with ⟨HT0, HAT0⟩
  icases HAT1 with ⟨HT1, HAT1⟩
  icases HAT2 with ⟨HT2, HAT2⟩
  sl_exec (disch := first | sl_exact hU _ _ | sl_exact hI _ _ | sl_exact hJ _ _)
  ihave HB123 := (bundle6 _ _ _ _ _ _) $$ HC0 HT0 HC1 HT1 HC2 HT2
  -- row 124: its three destinations, cells and read tokens; its three copies start
  icases HRs0 with ⟨HR0, HRs0⟩
  icases HRs1 with ⟨HR1, HRs1⟩
  icases HRs2 with ⟨HR2, HRs2⟩
  icases HA0 with ⟨HC0, HA0⟩
  icases HA1 with ⟨HC1, HA1⟩
  icases HA2 with ⟨HC2, HA2⟩
  icases HAT0 with ⟨HT0, HAT0⟩
  icases HAT1 with ⟨HT1, HAT1⟩
  icases HAT2 with ⟨HT2, HAT2⟩
  sl_exec (disch := first | sl_exact hU _ _ | sl_exact hI _ _ | sl_exact hJ _ _)
  ihave HB124 := (bundle6 _ _ _ _ _ _) $$ HC0 HT0 HC1 HT1 HC2 HT2
  -- row 125: its three destinations, cells and read tokens; its three copies start
  icases HRs0 with ⟨HR0, HRs0⟩
  icases HRs1 with ⟨HR1, HRs1⟩
  icases HRs2 with ⟨HR2, HRs2⟩
  icases HA0 with ⟨HC0, HA0⟩
  icases HA1 with ⟨HC1, HA1⟩
  icases HA2 with ⟨HC2, HA2⟩
  icases HAT0 with ⟨HT0, HAT0⟩
  icases HAT1 with ⟨HT1, HAT1⟩
  icases HAT2 with ⟨HT2, HAT2⟩
  sl_exec (disch := first | sl_exact hU _ _ | sl_exact hI _ _ | sl_exact hJ _ _)
  ihave HB125 := (bundle6 _ _ _ _ _ _) $$ HC0 HT0 HC1 HT1 HC2 HT2
  -- row 126: its three destinations, cells and read tokens; its three copies start
  icases HRs0 with ⟨HR0, HRs0⟩
  icases HRs1 with ⟨HR1, HRs1⟩
  icases HRs2 with ⟨HR2, HRs2⟩
  icases HA0 with ⟨HC0, HA0⟩
  icases HA1 with ⟨HC1, HA1⟩
  icases HA2 with ⟨HC2, HA2⟩
  icases HAT0 with ⟨HT0, HAT0⟩
  icases HAT1 with ⟨HT1, HAT1⟩
  icases HAT2 with ⟨HT2, HAT2⟩
  sl_exec (disch := first | sl_exact hU _ _ | sl_exact hI _ _ | sl_exact hJ _ _)
  ihave HB126 := (bundle6 _ _ _ _ _ _) $$ HC0 HT0 HC1 HT1 HC2 HT2
  -- row 127: its three destinations, cells and read tokens; its three copies start
  icases HRs0 with ⟨HR0, HRs0⟩
  icases HRs1 with ⟨HR1, HRs1⟩
  icases HRs2 with ⟨HR2, HRs2⟩
  icases HA0 with ⟨HC0, HA0⟩
  icases HA1 with ⟨HC1, HA1⟩
  icases HA2 with ⟨HC2, HA2⟩
  icases HAT0 with ⟨HT0, HAT0⟩
  icases HAT1 with ⟨HT1, HAT1⟩
  icases HAT2 with ⟨HT2, HAT2⟩
  sl_exec (disch := first | sl_exact hU _ _ | sl_exact hI _ _ | sl_exact hJ _ _)
  ihave HB127 := (bundle6 _ _ _ _ _ _) $$ HC0 HT0 HC1 HT1 HC2 HT2
  -- row 0: its three copies land; the row's resources go to the heads of the chains of what is done
  icases HB0 with ⟨HC0, HT0, HC1, HT1, HC2, HT2⟩
  sl_exec (disch := first | sl_exact hU _ _ | sl_exact hI _ _ | sl_exact hJ _ _)
  ihave HR0 := (row_deliverP scM0 c 0 (by decide) inb_S128x64_S1x64_0_0 _ fs0 _ (gU c i xt0 fh0)) $$ HR0 %(fun q => deliver_gath (by decide) c hbM0 tbM0 fh0 xt0 i ⟨0, by decide⟩ (k0_off1 i) (by show (Scalar.indexCast (Scalar.addi (Scalar.muli (BitVec.ofNat 32 (i 0).val) 128#32) (BitVec.ofNat 32 0))).toNat = _; exact off_val _ 0 hi (by decide)) (by show 128 * (i 0).val + 0 < 16384; omega) _ _ _ q)
  ihave HR1 := (row_deliverP scM1 c 0 (by decide) inb_S128x64_S1x64_0_0 _ fs1 _ (gVi c i xt1 fh1)) $$ HR1 %(fun q => deliver_gath (by decide) c hbM1 tbM1 fh1 xt1 i ⟨0, by decide⟩ (k0_off1 i) (by show (Scalar.indexCast (Scalar.addi (Scalar.muli (BitVec.ofNat 32 (i 0).val) 128#32) (BitVec.ofNat 32 0))).toNat = _; exact off_val _ 0 hi (by decide)) (by show 128 * (i 0).val + 0 < 16384; omega) _ _ _ q)
  ihave HR2 := (row_deliverP scM2 c 0 (by decide) inb_S128x64_S1x64_0_0 _ fs2 _ (gVj c i xt2 fh1)) $$ HR2 %(fun q => deliver_gath (by decide) c hbM1 tbM2 fh1 xt2 i ⟨0, by decide⟩ (k0_off1 i) (by show (Scalar.indexCast (Scalar.addi (Scalar.muli (BitVec.ofNat 32 (i 0).val) 128#32) (BitVec.ofNat 32 0))).toNat = _; exact off_val _ 0 hi (by decide)) (by show 128 * (i 0).val + 0 < 16384; omega) _ _ _ q)
  ihave HD0 := (consH _ _) $$ HR0 HRs0
  ihave HD1 := (consH _ _) $$ HR1 HRs1
  ihave HD2 := (consH _ _) $$ HR2 HRs2
  ihave HDC0 := (consH _ _) $$ HC0 HA0
  ihave HDC1 := (consH _ _) $$ HC1 HA1
  ihave HDC2 := (consH _ _) $$ HC2 HA2
  ihave HDT0 := (consH _ _) $$ HT0 HAT0
  ihave HDT1 := (consH _ _) $$ HT1 HAT1
  ihave HDT2 := (consH _ _) $$ HT2 HAT2
  -- row 1: its three copies land; the row's resources go to the heads of the chains of what is done
  icases HB1 with ⟨HC0, HT0, HC1, HT1, HC2, HT2⟩
  sl_exec (disch := first | sl_exact hU _ _ | sl_exact hI _ _ | sl_exact hJ _ _)
  ihave HR0 := (row_deliverP scM0 c 1 (by decide) inb_S128x64_S1x64_1_0 _ fs0 _ (gU c i xt0 fh0)) $$ HR0 %(fun q => deliver_gath (by decide) c hbM0 tbM0 fh0 xt0 i ⟨1, by decide⟩ (k0_off5 i) (by show (Scalar.indexCast (Scalar.addi (Scalar.muli (BitVec.ofNat 32 (i 0).val) 128#32) (BitVec.ofNat 32 1))).toNat = _; exact off_val _ 1 hi (by decide)) (by show 128 * (i 0).val + 1 < 16384; omega) _ _ _ q)
  ihave HR1 := (row_deliverP scM1 c 1 (by decide) inb_S128x64_S1x64_1_0 _ fs1 _ (gVi c i xt1 fh1)) $$ HR1 %(fun q => deliver_gath (by decide) c hbM1 tbM1 fh1 xt1 i ⟨1, by decide⟩ (k0_off5 i) (by show (Scalar.indexCast (Scalar.addi (Scalar.muli (BitVec.ofNat 32 (i 0).val) 128#32) (BitVec.ofNat 32 1))).toNat = _; exact off_val _ 1 hi (by decide)) (by show 128 * (i 0).val + 1 < 16384; omega) _ _ _ q)
  ihave HR2 := (row_deliverP scM2 c 1 (by decide) inb_S128x64_S1x64_1_0 _ fs2 _ (gVj c i xt2 fh1)) $$ HR2 %(fun q => deliver_gath (by decide) c hbM1 tbM2 fh1 xt2 i ⟨1, by decide⟩ (k0_off5 i) (by show (Scalar.indexCast (Scalar.addi (Scalar.muli (BitVec.ofNat 32 (i 0).val) 128#32) (BitVec.ofNat 32 1))).toNat = _; exact off_val _ 1 hi (by decide)) (by show 128 * (i 0).val + 1 < 16384; omega) _ _ _ q)
  ihave HD0 := (consH _ _) $$ HR0 HD0
  ihave HD1 := (consH _ _) $$ HR1 HD1
  ihave HD2 := (consH _ _) $$ HR2 HD2
  ihave HDC0 := (consH _ _) $$ HC0 HDC0
  ihave HDC1 := (consH _ _) $$ HC1 HDC1
  ihave HDC2 := (consH _ _) $$ HC2 HDC2
  ihave HDT0 := (consH _ _) $$ HT0 HDT0
  ihave HDT1 := (consH _ _) $$ HT1 HDT1
  ihave HDT2 := (consH _ _) $$ HT2 HDT2
  -- row 2: its three copies land; the row's resources go to the heads of the chains of what is done
  icases HB2 with ⟨HC0, HT0, HC1, HT1, HC2, HT2⟩
  sl_exec (disch := first | sl_exact hU _ _ | sl_exact hI _ _ | sl_exact hJ _ _)
  ihave HR0 := (row_deliverP scM0 c 2 (by decide) inb_S128x64_S1x64_2_0 _ fs0 _ (gU c i xt0 fh0)) $$ HR0 %(fun q => deliver_gath (by decide) c hbM0 tbM0 fh0 xt0 i ⟨2, by decide⟩ (k0_off9 i) (by show (Scalar.indexCast (Scalar.addi (Scalar.muli (BitVec.ofNat 32 (i 0).val) 128#32) (BitVec.ofNat 32 2))).toNat = _; exact off_val _ 2 hi (by decide)) (by show 128 * (i 0).val + 2 < 16384; omega) _ _ _ q)
  ihave HR1 := (row_deliverP scM1 c 2 (by decide) inb_S128x64_S1x64_2_0 _ fs1 _ (gVi c i xt1 fh1)) $$ HR1 %(fun q => deliver_gath (by decide) c hbM1 tbM1 fh1 xt1 i ⟨2, by decide⟩ (k0_off9 i) (by show (Scalar.indexCast (Scalar.addi (Scalar.muli (BitVec.ofNat 32 (i 0).val) 128#32) (BitVec.ofNat 32 2))).toNat = _; exact off_val _ 2 hi (by decide)) (by show 128 * (i 0).val + 2 < 16384; omega) _ _ _ q)
  ihave HR2 := (row_deliverP scM2 c 2 (by decide) inb_S128x64_S1x64_2_0 _ fs2 _ (gVj c i xt2 fh1)) $$ HR2 %(fun q => deliver_gath (by decide) c hbM1 tbM2 fh1 xt2 i ⟨2, by decide⟩ (k0_off9 i) (by show (Scalar.indexCast (Scalar.addi (Scalar.muli (BitVec.ofNat 32 (i 0).val) 128#32) (BitVec.ofNat 32 2))).toNat = _; exact off_val _ 2 hi (by decide)) (by show 128 * (i 0).val + 2 < 16384; omega) _ _ _ q)
  ihave HD0 := (consH _ _) $$ HR0 HD0
  ihave HD1 := (consH _ _) $$ HR1 HD1
  ihave HD2 := (consH _ _) $$ HR2 HD2
  ihave HDC0 := (consH _ _) $$ HC0 HDC0
  ihave HDC1 := (consH _ _) $$ HC1 HDC1
  ihave HDC2 := (consH _ _) $$ HC2 HDC2
  ihave HDT0 := (consH _ _) $$ HT0 HDT0
  ihave HDT1 := (consH _ _) $$ HT1 HDT1
  ihave HDT2 := (consH _ _) $$ HT2 HDT2
  -- row 3: its three copies land; the row's resources go to the heads of the chains of what is done
  icases HB3 with ⟨HC0, HT0, HC1, HT1, HC2, HT2⟩
  sl_exec (disch := first | sl_exact hU _ _ | sl_exact hI _ _ | sl_exact hJ _ _)
  ihave HR0 := (row_deliverP scM0 c 3 (by decide) inb_S128x64_S1x64_3_0 _ fs0 _ (gU c i xt0 fh0)) $$ HR0 %(fun q => deliver_gath (by decide) c hbM0 tbM0 fh0 xt0 i ⟨3, by decide⟩ (k0_off13 i) (by show (Scalar.indexCast (Scalar.addi (Scalar.muli (BitVec.ofNat 32 (i 0).val) 128#32) (BitVec.ofNat 32 3))).toNat = _; exact off_val _ 3 hi (by decide)) (by show 128 * (i 0).val + 3 < 16384; omega) _ _ _ q)
  ihave HR1 := (row_deliverP scM1 c 3 (by decide) inb_S128x64_S1x64_3_0 _ fs1 _ (gVi c i xt1 fh1)) $$ HR1 %(fun q => deliver_gath (by decide) c hbM1 tbM1 fh1 xt1 i ⟨3, by decide⟩ (k0_off13 i) (by show (Scalar.indexCast (Scalar.addi (Scalar.muli (BitVec.ofNat 32 (i 0).val) 128#32) (BitVec.ofNat 32 3))).toNat = _; exact off_val _ 3 hi (by decide)) (by show 128 * (i 0).val + 3 < 16384; omega) _ _ _ q)
  ihave HR2 := (row_deliverP scM2 c 3 (by decide) inb_S128x64_S1x64_3_0 _ fs2 _ (gVj c i xt2 fh1)) $$ HR2 %(fun q => deliver_gath (by decide) c hbM1 tbM2 fh1 xt2 i ⟨3, by decide⟩ (k0_off13 i) (by show (Scalar.indexCast (Scalar.addi (Scalar.muli (BitVec.ofNat 32 (i 0).val) 128#32) (BitVec.ofNat 32 3))).toNat = _; exact off_val _ 3 hi (by decide)) (by show 128 * (i 0).val + 3 < 16384; omega) _ _ _ q)
  ihave HD0 := (consH _ _) $$ HR0 HD0
  ihave HD1 := (consH _ _) $$ HR1 HD1
  ihave HD2 := (consH _ _) $$ HR2 HD2
  ihave HDC0 := (consH _ _) $$ HC0 HDC0
  ihave HDC1 := (consH _ _) $$ HC1 HDC1
  ihave HDC2 := (consH _ _) $$ HC2 HDC2
  ihave HDT0 := (consH _ _) $$ HT0 HDT0
  ihave HDT1 := (consH _ _) $$ HT1 HDT1
  ihave HDT2 := (consH _ _) $$ HT2 HDT2
  -- row 4: its three copies land; the row's resources go to the heads of the chains of what is done
  icases HB4 with ⟨HC0, HT0, HC1, HT1, HC2, HT2⟩
  sl_exec (disch := first | sl_exact hU _ _ | sl_exact hI _ _ | sl_exact hJ _ _)
  ihave HR0 := (row_deliverP scM0 c 4 (by decide) inb_S128x64_S1x64_4_0 _ fs0 _ (gU c i xt0 fh0)) $$ HR0 %(fun q => deliver_gath (by decide) c hbM0 tbM0 fh0 xt0 i ⟨4, by decide⟩ (k0_off17 i) (by show (Scalar.indexCast (Scalar.addi (Scalar.muli (BitVec.ofNat 32 (i 0).val) 128#32) (BitVec.ofNat 32 4))).toNat = _; exact off_val _ 4 hi (by decide)) (by show 128 * (i 0).val + 4 < 16384; omega) _ _ _ q)
  ihave HR1 := (row_deliverP scM1 c 4 (by decide) inb_S128x64_S1x64_4_0 _ fs1 _ (gVi c i xt1 fh1)) $$ HR1 %(fun q => deliver_gath (by decide) c hbM1 tbM1 fh1 xt1 i ⟨4, by decide⟩ (k0_off17 i) (by show (Scalar.indexCast (Scalar.addi (Scalar.muli (BitVec.ofNat 32 (i 0).val) 128#32) (BitVec.ofNat 32 4))).toNat = _; exact off_val _ 4 hi (by decide)) (by show 128 * (i 0).val + 4 < 16384; omega) _ _ _ q)
  ihave HR2 := (row_deliverP scM2 c 4 (by decide) inb_S128x64_S1x64_4_0 _ fs2 _ (gVj c i xt2 fh1)) $$ HR2 %(fun q => deliver_gath (by decide) c hbM1 tbM2 fh1 xt2 i ⟨4, by decide⟩ (k0_off17 i) (by show (Scalar.indexCast (Scalar.addi (Scalar.muli (BitVec.ofNat 32 (i 0).val) 128#32) (BitVec.ofNat 32 4))).toNat = _; exact off_val _ 4 hi (by decide)) (by show 128 * (i 0).val + 4 < 16384; omega) _ _ _ q)
  ihave HD0 := (consH _ _) $$ HR0 HD0
  ihave HD1 := (consH _ _) $$ HR1 HD1
  ihave HD2 := (consH _ _) $$ HR2 HD2
  ihave HDC0 := (consH _ _) $$ HC0 HDC0
  ihave HDC1 := (consH _ _) $$ HC1 HDC1
  ihave HDC2 := (consH _ _) $$ HC2 HDC2
  ihave HDT0 := (consH _ _) $$ HT0 HDT0
  ihave HDT1 := (consH _ _) $$ HT1 HDT1
  ihave HDT2 := (consH _ _) $$ HT2 HDT2
  -- row 5: its three copies land; the row's resources go to the heads of the chains of what is done
  icases HB5 with ⟨HC0, HT0, HC1, HT1, HC2, HT2⟩
  sl_exec (disch := first | sl_exact hU _ _ | sl_exact hI _ _ | sl_exact hJ _ _)
  ihave HR0 := (row_deliverP scM0 c 5 (by decide) inb_S128x64_S1x64_5_0 _ fs0 _ (gU c i xt0 fh0)) $$ HR0 %(fun q => deliver_gath (by decide) c hbM0 tbM0 fh0 xt0 i ⟨5, by decide⟩ (k0_off21 i) (by show (Scalar.indexCast (Scalar.addi (Scalar.muli (BitVec.ofNat 32 (i 0).val) 128#32) (BitVec.ofNat 32 5))).toNat = _; exact off_val _ 5 hi (by decide)) (by show 128 * (i 0).val + 5 < 16384; omega) _ _ _ q)
  ihave HR1 := (row_deliverP scM1 c 5 (by decide) inb_S128x64_S1x64_5_0 _ fs1 _ (gVi c i xt1 fh1)) $$ HR1 %(fun q => deliver_gath (by decide) c hbM1 tbM1 fh1 xt1 i ⟨5, by decide⟩ (k0_off21 i) (by show (Scalar.indexCast (Scalar.addi (Scalar.muli (BitVec.ofNat 32 (i 0).val) 128#32) (BitVec.ofNat 32 5))).toNat = _; exact off_val _ 5 hi (by decide)) (by show 128 * (i 0).val + 5 < 16384; omega) _ _ _ q)
  ihave HR2 := (row_deliverP scM2 c 5 (by decide) inb_S128x64_S1x64_5_0 _ fs2 _ (gVj c i xt2 fh1)) $$ HR2 %(fun q => deliver_gath (by decide) c hbM1 tbM2 fh1 xt2 i ⟨5, by decide⟩ (k0_off21 i) (by show (Scalar.indexCast (Scalar.addi (Scalar.muli (BitVec.ofNat 32 (i 0).val) 128#32) (BitVec.ofNat 32 5))).toNat = _; exact off_val _ 5 hi (by decide)) (by show 128 * (i 0).val + 5 < 16384; omega) _ _ _ q)
  ihave HD0 := (consH _ _) $$ HR0 HD0
  ihave HD1 := (consH _ _) $$ HR1 HD1
  ihave HD2 := (consH _ _) $$ HR2 HD2
  ihave HDC0 := (consH _ _) $$ HC0 HDC0
  ihave HDC1 := (consH _ _) $$ HC1 HDC1
  ihave HDC2 := (consH _ _) $$ HC2 HDC2
  ihave HDT0 := (consH _ _) $$ HT0 HDT0
  ihave HDT1 := (consH _ _) $$ HT1 HDT1
  ihave HDT2 := (consH _ _) $$ HT2 HDT2
  -- row 6: its three copies land; the row's resources go to the heads of the chains of what is done
  icases HB6 with ⟨HC0, HT0, HC1, HT1, HC2, HT2⟩
  sl_exec (disch := first | sl_exact hU _ _ | sl_exact hI _ _ | sl_exact hJ _ _)
  ihave HR0 := (row_deliverP scM0 c 6 (by decide) inb_S128x64_S1x64_6_0 _ fs0 _ (gU c i xt0 fh0)) $$ HR0 %(fun q => deliver_gath (by decide) c hbM0 tbM0 fh0 xt0 i ⟨6, by decide⟩ (k0_off25 i) (by show (Scalar.indexCast (Scalar.addi (Scalar.muli (BitVec.ofNat 32 (i 0).val) 128#32) (BitVec.ofNat 32 6))).toNat = _; exact off_val _ 6 hi (by decide)) (by show 128 * (i 0).val + 6 < 16384; omega) _ _ _ q)
  ihave HR1 := (row_deliverP scM1 c 6 (by decide) inb_S128x64_S1x64_6_0 _ fs1 _ (gVi c i xt1 fh1)) $$ HR1 %(fun q => deliver_gath (by decide) c hbM1 tbM1 fh1 xt1 i ⟨6, by decide⟩ (k0_off25 i) (by show (Scalar.indexCast (Scalar.addi (Scalar.muli (BitVec.ofNat 32 (i 0).val) 128#32) (BitVec.ofNat 32 6))).toNat = _; exact off_val _ 6 hi (by decide)) (by show 128 * (i 0).val + 6 < 16384; omega) _ _ _ q)
  ihave HR2 := (row_deliverP scM2 c 6 (by decide) inb_S128x64_S1x64_6_0 _ fs2 _ (gVj c i xt2 fh1)) $$ HR2 %(fun q => deliver_gath (by decide) c hbM1 tbM2 fh1 xt2 i ⟨6, by decide⟩ (k0_off25 i) (by show (Scalar.indexCast (Scalar.addi (Scalar.muli (BitVec.ofNat 32 (i 0).val) 128#32) (BitVec.ofNat 32 6))).toNat = _; exact off_val _ 6 hi (by decide)) (by show 128 * (i 0).val + 6 < 16384; omega) _ _ _ q)
  ihave HD0 := (consH _ _) $$ HR0 HD0
  ihave HD1 := (consH _ _) $$ HR1 HD1
  ihave HD2 := (consH _ _) $$ HR2 HD2
  ihave HDC0 := (consH _ _) $$ HC0 HDC0
  ihave HDC1 := (consH _ _) $$ HC1 HDC1
  ihave HDC2 := (consH _ _) $$ HC2 HDC2
  ihave HDT0 := (consH _ _) $$ HT0 HDT0
  ihave HDT1 := (consH _ _) $$ HT1 HDT1
  ihave HDT2 := (consH _ _) $$ HT2 HDT2
  -- row 7: its three copies land; the row's resources go to the heads of the chains of what is done
  icases HB7 with ⟨HC0, HT0, HC1, HT1, HC2, HT2⟩
  sl_exec (disch := first | sl_exact hU _ _ | sl_exact hI _ _ | sl_exact hJ _ _)
  ihave HR0 := (row_deliverP scM0 c 7 (by decide) inb_S128x64_S1x64_7_0 _ fs0 _ (gU c i xt0 fh0)) $$ HR0 %(fun q => deliver_gath (by decide) c hbM0 tbM0 fh0 xt0 i ⟨7, by decide⟩ (k0_off29 i) (by show (Scalar.indexCast (Scalar.addi (Scalar.muli (BitVec.ofNat 32 (i 0).val) 128#32) (BitVec.ofNat 32 7))).toNat = _; exact off_val _ 7 hi (by decide)) (by show 128 * (i 0).val + 7 < 16384; omega) _ _ _ q)
  ihave HR1 := (row_deliverP scM1 c 7 (by decide) inb_S128x64_S1x64_7_0 _ fs1 _ (gVi c i xt1 fh1)) $$ HR1 %(fun q => deliver_gath (by decide) c hbM1 tbM1 fh1 xt1 i ⟨7, by decide⟩ (k0_off29 i) (by show (Scalar.indexCast (Scalar.addi (Scalar.muli (BitVec.ofNat 32 (i 0).val) 128#32) (BitVec.ofNat 32 7))).toNat = _; exact off_val _ 7 hi (by decide)) (by show 128 * (i 0).val + 7 < 16384; omega) _ _ _ q)
  ihave HR2 := (row_deliverP scM2 c 7 (by decide) inb_S128x64_S1x64_7_0 _ fs2 _ (gVj c i xt2 fh1)) $$ HR2 %(fun q => deliver_gath (by decide) c hbM1 tbM2 fh1 xt2 i ⟨7, by decide⟩ (k0_off29 i) (by show (Scalar.indexCast (Scalar.addi (Scalar.muli (BitVec.ofNat 32 (i 0).val) 128#32) (BitVec.ofNat 32 7))).toNat = _; exact off_val _ 7 hi (by decide)) (by show 128 * (i 0).val + 7 < 16384; omega) _ _ _ q)
  ihave HD0 := (consH _ _) $$ HR0 HD0
  ihave HD1 := (consH _ _) $$ HR1 HD1
  ihave HD2 := (consH _ _) $$ HR2 HD2
  ihave HDC0 := (consH _ _) $$ HC0 HDC0
  ihave HDC1 := (consH _ _) $$ HC1 HDC1
  ihave HDC2 := (consH _ _) $$ HC2 HDC2
  ihave HDT0 := (consH _ _) $$ HT0 HDT0
  ihave HDT1 := (consH _ _) $$ HT1 HDT1
  ihave HDT2 := (consH _ _) $$ HT2 HDT2
  -- row 8: its three copies land; the row's resources go to the heads of the chains of what is done
  icases HB8 with ⟨HC0, HT0, HC1, HT1, HC2, HT2⟩
  sl_exec (disch := first | sl_exact hU _ _ | sl_exact hI _ _ | sl_exact hJ _ _)
  ihave HR0 := (row_deliverP scM0 c 8 (by decide) inb_S128x64_S1x64_8_0 _ fs0 _ (gU c i xt0 fh0)) $$ HR0 %(fun q => deliver_gath (by decide) c hbM0 tbM0 fh0 xt0 i ⟨8, by decide⟩ (k0_off33 i) (by show (Scalar.indexCast (Scalar.addi (Scalar.muli (BitVec.ofNat 32 (i 0).val) 128#32) (BitVec.ofNat 32 8))).toNat = _; exact off_val _ 8 hi (by decide)) (by show 128 * (i 0).val + 8 < 16384; omega) _ _ _ q)
  ihave HR1 := (row_deliverP scM1 c 8 (by decide) inb_S128x64_S1x64_8_0 _ fs1 _ (gVi c i xt1 fh1)) $$ HR1 %(fun q => deliver_gath (by decide) c hbM1 tbM1 fh1 xt1 i ⟨8, by decide⟩ (k0_off33 i) (by show (Scalar.indexCast (Scalar.addi (Scalar.muli (BitVec.ofNat 32 (i 0).val) 128#32) (BitVec.ofNat 32 8))).toNat = _; exact off_val _ 8 hi (by decide)) (by show 128 * (i 0).val + 8 < 16384; omega) _ _ _ q)
  ihave HR2 := (row_deliverP scM2 c 8 (by decide) inb_S128x64_S1x64_8_0 _ fs2 _ (gVj c i xt2 fh1)) $$ HR2 %(fun q => deliver_gath (by decide) c hbM1 tbM2 fh1 xt2 i ⟨8, by decide⟩ (k0_off33 i) (by show (Scalar.indexCast (Scalar.addi (Scalar.muli (BitVec.ofNat 32 (i 0).val) 128#32) (BitVec.ofNat 32 8))).toNat = _; exact off_val _ 8 hi (by decide)) (by show 128 * (i 0).val + 8 < 16384; omega) _ _ _ q)
  ihave HD0 := (consH _ _) $$ HR0 HD0
  ihave HD1 := (consH _ _) $$ HR1 HD1
  ihave HD2 := (consH _ _) $$ HR2 HD2
  ihave HDC0 := (consH _ _) $$ HC0 HDC0
  ihave HDC1 := (consH _ _) $$ HC1 HDC1
  ihave HDC2 := (consH _ _) $$ HC2 HDC2
  ihave HDT0 := (consH _ _) $$ HT0 HDT0
  ihave HDT1 := (consH _ _) $$ HT1 HDT1
  ihave HDT2 := (consH _ _) $$ HT2 HDT2
  -- row 9: its three copies land; the row's resources go to the heads of the chains of what is done
  icases HB9 with ⟨HC0, HT0, HC1, HT1, HC2, HT2⟩
  sl_exec (disch := first | sl_exact hU _ _ | sl_exact hI _ _ | sl_exact hJ _ _)
  ihave HR0 := (row_deliverP scM0 c 9 (by decide) inb_S128x64_S1x64_9_0 _ fs0 _ (gU c i xt0 fh0)) $$ HR0 %(fun q => deliver_gath (by decide) c hbM0 tbM0 fh0 xt0 i ⟨9, by decide⟩ (k0_off37 i) (by show (Scalar.indexCast (Scalar.addi (Scalar.muli (BitVec.ofNat 32 (i 0).val) 128#32) (BitVec.ofNat 32 9))).toNat = _; exact off_val _ 9 hi (by decide)) (by show 128 * (i 0).val + 9 < 16384; omega) _ _ _ q)
  ihave HR1 := (row_deliverP scM1 c 9 (by decide) inb_S128x64_S1x64_9_0 _ fs1 _ (gVi c i xt1 fh1)) $$ HR1 %(fun q => deliver_gath (by decide) c hbM1 tbM1 fh1 xt1 i ⟨9, by decide⟩ (k0_off37 i) (by show (Scalar.indexCast (Scalar.addi (Scalar.muli (BitVec.ofNat 32 (i 0).val) 128#32) (BitVec.ofNat 32 9))).toNat = _; exact off_val _ 9 hi (by decide)) (by show 128 * (i 0).val + 9 < 16384; omega) _ _ _ q)
  ihave HR2 := (row_deliverP scM2 c 9 (by decide) inb_S128x64_S1x64_9_0 _ fs2 _ (gVj c i xt2 fh1)) $$ HR2 %(fun q => deliver_gath (by decide) c hbM1 tbM2 fh1 xt2 i ⟨9, by decide⟩ (k0_off37 i) (by show (Scalar.indexCast (Scalar.addi (Scalar.muli (BitVec.ofNat 32 (i 0).val) 128#32) (BitVec.ofNat 32 9))).toNat = _; exact off_val _ 9 hi (by decide)) (by show 128 * (i 0).val + 9 < 16384; omega) _ _ _ q)
  ihave HD0 := (consH _ _) $$ HR0 HD0
  ihave HD1 := (consH _ _) $$ HR1 HD1
  ihave HD2 := (consH _ _) $$ HR2 HD2
  ihave HDC0 := (consH _ _) $$ HC0 HDC0
  ihave HDC1 := (consH _ _) $$ HC1 HDC1
  ihave HDC2 := (consH _ _) $$ HC2 HDC2
  ihave HDT0 := (consH _ _) $$ HT0 HDT0
  ihave HDT1 := (consH _ _) $$ HT1 HDT1
  ihave HDT2 := (consH _ _) $$ HT2 HDT2
  -- row 10: its three copies land; the row's resources go to the heads of the chains of what is done
  icases HB10 with ⟨HC0, HT0, HC1, HT1, HC2, HT2⟩
  sl_exec (disch := first | sl_exact hU _ _ | sl_exact hI _ _ | sl_exact hJ _ _)
  ihave HR0 := (row_deliverP scM0 c 10 (by decide) inb_S128x64_S1x64_10_0 _ fs0 _ (gU c i xt0 fh0)) $$ HR0 %(fun q => deliver_gath (by decide) c hbM0 tbM0 fh0 xt0 i ⟨10, by decide⟩ (k0_off41 i) (by show (Scalar.indexCast (Scalar.addi (Scalar.muli (BitVec.ofNat 32 (i 0).val) 128#32) (BitVec.ofNat 32 10))).toNat = _; exact off_val _ 10 hi (by decide)) (by show 128 * (i 0).val + 10 < 16384; omega) _ _ _ q)
  ihave HR1 := (row_deliverP scM1 c 10 (by decide) inb_S128x64_S1x64_10_0 _ fs1 _ (gVi c i xt1 fh1)) $$ HR1 %(fun q => deliver_gath (by decide) c hbM1 tbM1 fh1 xt1 i ⟨10, by decide⟩ (k0_off41 i) (by show (Scalar.indexCast (Scalar.addi (Scalar.muli (BitVec.ofNat 32 (i 0).val) 128#32) (BitVec.ofNat 32 10))).toNat = _; exact off_val _ 10 hi (by decide)) (by show 128 * (i 0).val + 10 < 16384; omega) _ _ _ q)
  ihave HR2 := (row_deliverP scM2 c 10 (by decide) inb_S128x64_S1x64_10_0 _ fs2 _ (gVj c i xt2 fh1)) $$ HR2 %(fun q => deliver_gath (by decide) c hbM1 tbM2 fh1 xt2 i ⟨10, by decide⟩ (k0_off41 i) (by show (Scalar.indexCast (Scalar.addi (Scalar.muli (BitVec.ofNat 32 (i 0).val) 128#32) (BitVec.ofNat 32 10))).toNat = _; exact off_val _ 10 hi (by decide)) (by show 128 * (i 0).val + 10 < 16384; omega) _ _ _ q)
  ihave HD0 := (consH _ _) $$ HR0 HD0
  ihave HD1 := (consH _ _) $$ HR1 HD1
  ihave HD2 := (consH _ _) $$ HR2 HD2
  ihave HDC0 := (consH _ _) $$ HC0 HDC0
  ihave HDC1 := (consH _ _) $$ HC1 HDC1
  ihave HDC2 := (consH _ _) $$ HC2 HDC2
  ihave HDT0 := (consH _ _) $$ HT0 HDT0
  ihave HDT1 := (consH _ _) $$ HT1 HDT1
  ihave HDT2 := (consH _ _) $$ HT2 HDT2
  -- row 11: its three copies land; the row's resources go to the heads of the chains of what is done
  icases HB11 with ⟨HC0, HT0, HC1, HT1, HC2, HT2⟩
  sl_exec (disch := first | sl_exact hU _ _ | sl_exact hI _ _ | sl_exact hJ _ _)
  ihave HR0 := (row_deliverP scM0 c 11 (by decide) inb_S128x64_S1x64_11_0 _ fs0 _ (gU c i xt0 fh0)) $$ HR0 %(fun q => deliver_gath (by decide) c hbM0 tbM0 fh0 xt0 i ⟨11, by decide⟩ (k0_off45 i) (by show (Scalar.indexCast (Scalar.addi (Scalar.muli (BitVec.ofNat 32 (i 0).val) 128#32) (BitVec.ofNat 32 11))).toNat = _; exact off_val _ 11 hi (by decide)) (by show 128 * (i 0).val + 11 < 16384; omega) _ _ _ q)
  ihave HR1 := (row_deliverP scM1 c 11 (by decide) inb_S128x64_S1x64_11_0 _ fs1 _ (gVi c i xt1 fh1)) $$ HR1 %(fun q => deliver_gath (by decide) c hbM1 tbM1 fh1 xt1 i ⟨11, by decide⟩ (k0_off45 i) (by show (Scalar.indexCast (Scalar.addi (Scalar.muli (BitVec.ofNat 32 (i 0).val) 128#32) (BitVec.ofNat 32 11))).toNat = _; exact off_val _ 11 hi (by decide)) (by show 128 * (i 0).val + 11 < 16384; omega) _ _ _ q)
  ihave HR2 := (row_deliverP scM2 c 11 (by decide) inb_S128x64_S1x64_11_0 _ fs2 _ (gVj c i xt2 fh1)) $$ HR2 %(fun q => deliver_gath (by decide) c hbM1 tbM2 fh1 xt2 i ⟨11, by decide⟩ (k0_off45 i) (by show (Scalar.indexCast (Scalar.addi (Scalar.muli (BitVec.ofNat 32 (i 0).val) 128#32) (BitVec.ofNat 32 11))).toNat = _; exact off_val _ 11 hi (by decide)) (by show 128 * (i 0).val + 11 < 16384; omega) _ _ _ q)
  ihave HD0 := (consH _ _) $$ HR0 HD0
  ihave HD1 := (consH _ _) $$ HR1 HD1
  ihave HD2 := (consH _ _) $$ HR2 HD2
  ihave HDC0 := (consH _ _) $$ HC0 HDC0
  ihave HDC1 := (consH _ _) $$ HC1 HDC1
  ihave HDC2 := (consH _ _) $$ HC2 HDC2
  ihave HDT0 := (consH _ _) $$ HT0 HDT0
  ihave HDT1 := (consH _ _) $$ HT1 HDT1
  ihave HDT2 := (consH _ _) $$ HT2 HDT2
  -- row 12: its three copies land; the row's resources go to the heads of the chains of what is done
  icases HB12 with ⟨HC0, HT0, HC1, HT1, HC2, HT2⟩
  sl_exec (disch := first | sl_exact hU _ _ | sl_exact hI _ _ | sl_exact hJ _ _)
  ihave HR0 := (row_deliverP scM0 c 12 (by decide) inb_S128x64_S1x64_12_0 _ fs0 _ (gU c i xt0 fh0)) $$ HR0 %(fun q => deliver_gath (by decide) c hbM0 tbM0 fh0 xt0 i ⟨12, by decide⟩ (k0_off49 i) (by show (Scalar.indexCast (Scalar.addi (Scalar.muli (BitVec.ofNat 32 (i 0).val) 128#32) (BitVec.ofNat 32 12))).toNat = _; exact off_val _ 12 hi (by decide)) (by show 128 * (i 0).val + 12 < 16384; omega) _ _ _ q)
  ihave HR1 := (row_deliverP scM1 c 12 (by decide) inb_S128x64_S1x64_12_0 _ fs1 _ (gVi c i xt1 fh1)) $$ HR1 %(fun q => deliver_gath (by decide) c hbM1 tbM1 fh1 xt1 i ⟨12, by decide⟩ (k0_off49 i) (by show (Scalar.indexCast (Scalar.addi (Scalar.muli (BitVec.ofNat 32 (i 0).val) 128#32) (BitVec.ofNat 32 12))).toNat = _; exact off_val _ 12 hi (by decide)) (by show 128 * (i 0).val + 12 < 16384; omega) _ _ _ q)
  ihave HR2 := (row_deliverP scM2 c 12 (by decide) inb_S128x64_S1x64_12_0 _ fs2 _ (gVj c i xt2 fh1)) $$ HR2 %(fun q => deliver_gath (by decide) c hbM1 tbM2 fh1 xt2 i ⟨12, by decide⟩ (k0_off49 i) (by show (Scalar.indexCast (Scalar.addi (Scalar.muli (BitVec.ofNat 32 (i 0).val) 128#32) (BitVec.ofNat 32 12))).toNat = _; exact off_val _ 12 hi (by decide)) (by show 128 * (i 0).val + 12 < 16384; omega) _ _ _ q)
  ihave HD0 := (consH _ _) $$ HR0 HD0
  ihave HD1 := (consH _ _) $$ HR1 HD1
  ihave HD2 := (consH _ _) $$ HR2 HD2
  ihave HDC0 := (consH _ _) $$ HC0 HDC0
  ihave HDC1 := (consH _ _) $$ HC1 HDC1
  ihave HDC2 := (consH _ _) $$ HC2 HDC2
  ihave HDT0 := (consH _ _) $$ HT0 HDT0
  ihave HDT1 := (consH _ _) $$ HT1 HDT1
  ihave HDT2 := (consH _ _) $$ HT2 HDT2
  -- row 13: its three copies land; the row's resources go to the heads of the chains of what is done
  icases HB13 with ⟨HC0, HT0, HC1, HT1, HC2, HT2⟩
  sl_exec (disch := first | sl_exact hU _ _ | sl_exact hI _ _ | sl_exact hJ _ _)
  ihave HR0 := (row_deliverP scM0 c 13 (by decide) inb_S128x64_S1x64_13_0 _ fs0 _ (gU c i xt0 fh0)) $$ HR0 %(fun q => deliver_gath (by decide) c hbM0 tbM0 fh0 xt0 i ⟨13, by decide⟩ (k0_off53 i) (by show (Scalar.indexCast (Scalar.addi (Scalar.muli (BitVec.ofNat 32 (i 0).val) 128#32) (BitVec.ofNat 32 13))).toNat = _; exact off_val _ 13 hi (by decide)) (by show 128 * (i 0).val + 13 < 16384; omega) _ _ _ q)
  ihave HR1 := (row_deliverP scM1 c 13 (by decide) inb_S128x64_S1x64_13_0 _ fs1 _ (gVi c i xt1 fh1)) $$ HR1 %(fun q => deliver_gath (by decide) c hbM1 tbM1 fh1 xt1 i ⟨13, by decide⟩ (k0_off53 i) (by show (Scalar.indexCast (Scalar.addi (Scalar.muli (BitVec.ofNat 32 (i 0).val) 128#32) (BitVec.ofNat 32 13))).toNat = _; exact off_val _ 13 hi (by decide)) (by show 128 * (i 0).val + 13 < 16384; omega) _ _ _ q)
  ihave HR2 := (row_deliverP scM2 c 13 (by decide) inb_S128x64_S1x64_13_0 _ fs2 _ (gVj c i xt2 fh1)) $$ HR2 %(fun q => deliver_gath (by decide) c hbM1 tbM2 fh1 xt2 i ⟨13, by decide⟩ (k0_off53 i) (by show (Scalar.indexCast (Scalar.addi (Scalar.muli (BitVec.ofNat 32 (i 0).val) 128#32) (BitVec.ofNat 32 13))).toNat = _; exact off_val _ 13 hi (by decide)) (by show 128 * (i 0).val + 13 < 16384; omega) _ _ _ q)
  ihave HD0 := (consH _ _) $$ HR0 HD0
  ihave HD1 := (consH _ _) $$ HR1 HD1
  ihave HD2 := (consH _ _) $$ HR2 HD2
  ihave HDC0 := (consH _ _) $$ HC0 HDC0
  ihave HDC1 := (consH _ _) $$ HC1 HDC1
  ihave HDC2 := (consH _ _) $$ HC2 HDC2
  ihave HDT0 := (consH _ _) $$ HT0 HDT0
  ihave HDT1 := (consH _ _) $$ HT1 HDT1
  ihave HDT2 := (consH _ _) $$ HT2 HDT2
  -- row 14: its three copies land; the row's resources go to the heads of the chains of what is done
  icases HB14 with ⟨HC0, HT0, HC1, HT1, HC2, HT2⟩
  sl_exec (disch := first | sl_exact hU _ _ | sl_exact hI _ _ | sl_exact hJ _ _)
  ihave HR0 := (row_deliverP scM0 c 14 (by decide) inb_S128x64_S1x64_14_0 _ fs0 _ (gU c i xt0 fh0)) $$ HR0 %(fun q => deliver_gath (by decide) c hbM0 tbM0 fh0 xt0 i ⟨14, by decide⟩ (k0_off57 i) (by show (Scalar.indexCast (Scalar.addi (Scalar.muli (BitVec.ofNat 32 (i 0).val) 128#32) (BitVec.ofNat 32 14))).toNat = _; exact off_val _ 14 hi (by decide)) (by show 128 * (i 0).val + 14 < 16384; omega) _ _ _ q)
  ihave HR1 := (row_deliverP scM1 c 14 (by decide) inb_S128x64_S1x64_14_0 _ fs1 _ (gVi c i xt1 fh1)) $$ HR1 %(fun q => deliver_gath (by decide) c hbM1 tbM1 fh1 xt1 i ⟨14, by decide⟩ (k0_off57 i) (by show (Scalar.indexCast (Scalar.addi (Scalar.muli (BitVec.ofNat 32 (i 0).val) 128#32) (BitVec.ofNat 32 14))).toNat = _; exact off_val _ 14 hi (by decide)) (by show 128 * (i 0).val + 14 < 16384; omega) _ _ _ q)
  ihave HR2 := (row_deliverP scM2 c 14 (by decide) inb_S128x64_S1x64_14_0 _ fs2 _ (gVj c i xt2 fh1)) $$ HR2 %(fun q => deliver_gath (by decide) c hbM1 tbM2 fh1 xt2 i ⟨14, by decide⟩ (k0_off57 i) (by show (Scalar.indexCast (Scalar.addi (Scalar.muli (BitVec.ofNat 32 (i 0).val) 128#32) (BitVec.ofNat 32 14))).toNat = _; exact off_val _ 14 hi (by decide)) (by show 128 * (i 0).val + 14 < 16384; omega) _ _ _ q)
  ihave HD0 := (consH _ _) $$ HR0 HD0
  ihave HD1 := (consH _ _) $$ HR1 HD1
  ihave HD2 := (consH _ _) $$ HR2 HD2
  ihave HDC0 := (consH _ _) $$ HC0 HDC0
  ihave HDC1 := (consH _ _) $$ HC1 HDC1
  ihave HDC2 := (consH _ _) $$ HC2 HDC2
  ihave HDT0 := (consH _ _) $$ HT0 HDT0
  ihave HDT1 := (consH _ _) $$ HT1 HDT1
  ihave HDT2 := (consH _ _) $$ HT2 HDT2
  -- row 15: its three copies land; the row's resources go to the heads of the chains of what is done
  icases HB15 with ⟨HC0, HT0, HC1, HT1, HC2, HT2⟩
  sl_exec (disch := first | sl_exact hU _ _ | sl_exact hI _ _ | sl_exact hJ _ _)
  ihave HR0 := (row_deliverP scM0 c 15 (by decide) inb_S128x64_S1x64_15_0 _ fs0 _ (gU c i xt0 fh0)) $$ HR0 %(fun q => deliver_gath (by decide) c hbM0 tbM0 fh0 xt0 i ⟨15, by decide⟩ (k0_off61 i) (by show (Scalar.indexCast (Scalar.addi (Scalar.muli (BitVec.ofNat 32 (i 0).val) 128#32) (BitVec.ofNat 32 15))).toNat = _; exact off_val _ 15 hi (by decide)) (by show 128 * (i 0).val + 15 < 16384; omega) _ _ _ q)
  ihave HR1 := (row_deliverP scM1 c 15 (by decide) inb_S128x64_S1x64_15_0 _ fs1 _ (gVi c i xt1 fh1)) $$ HR1 %(fun q => deliver_gath (by decide) c hbM1 tbM1 fh1 xt1 i ⟨15, by decide⟩ (k0_off61 i) (by show (Scalar.indexCast (Scalar.addi (Scalar.muli (BitVec.ofNat 32 (i 0).val) 128#32) (BitVec.ofNat 32 15))).toNat = _; exact off_val _ 15 hi (by decide)) (by show 128 * (i 0).val + 15 < 16384; omega) _ _ _ q)
  ihave HR2 := (row_deliverP scM2 c 15 (by decide) inb_S128x64_S1x64_15_0 _ fs2 _ (gVj c i xt2 fh1)) $$ HR2 %(fun q => deliver_gath (by decide) c hbM1 tbM2 fh1 xt2 i ⟨15, by decide⟩ (k0_off61 i) (by show (Scalar.indexCast (Scalar.addi (Scalar.muli (BitVec.ofNat 32 (i 0).val) 128#32) (BitVec.ofNat 32 15))).toNat = _; exact off_val _ 15 hi (by decide)) (by show 128 * (i 0).val + 15 < 16384; omega) _ _ _ q)
  ihave HD0 := (consH _ _) $$ HR0 HD0
  ihave HD1 := (consH _ _) $$ HR1 HD1
  ihave HD2 := (consH _ _) $$ HR2 HD2
  ihave HDC0 := (consH _ _) $$ HC0 HDC0
  ihave HDC1 := (consH _ _) $$ HC1 HDC1
  ihave HDC2 := (consH _ _) $$ HC2 HDC2
  ihave HDT0 := (consH _ _) $$ HT0 HDT0
  ihave HDT1 := (consH _ _) $$ HT1 HDT1
  ihave HDT2 := (consH _ _) $$ HT2 HDT2
  -- row 16: its three copies land; the row's resources go to the heads of the chains of what is done
  icases HB16 with ⟨HC0, HT0, HC1, HT1, HC2, HT2⟩
  sl_exec (disch := first | sl_exact hU _ _ | sl_exact hI _ _ | sl_exact hJ _ _)
  ihave HR0 := (row_deliverP scM0 c 16 (by decide) inb_S128x64_S1x64_16_0 _ fs0 _ (gU c i xt0 fh0)) $$ HR0 %(fun q => deliver_gath (by decide) c hbM0 tbM0 fh0 xt0 i ⟨16, by decide⟩ (k0_off65 i) (by show (Scalar.indexCast (Scalar.addi (Scalar.muli (BitVec.ofNat 32 (i 0).val) 128#32) (BitVec.ofNat 32 16))).toNat = _; exact off_val _ 16 hi (by decide)) (by show 128 * (i 0).val + 16 < 16384; omega) _ _ _ q)
  ihave HR1 := (row_deliverP scM1 c 16 (by decide) inb_S128x64_S1x64_16_0 _ fs1 _ (gVi c i xt1 fh1)) $$ HR1 %(fun q => deliver_gath (by decide) c hbM1 tbM1 fh1 xt1 i ⟨16, by decide⟩ (k0_off65 i) (by show (Scalar.indexCast (Scalar.addi (Scalar.muli (BitVec.ofNat 32 (i 0).val) 128#32) (BitVec.ofNat 32 16))).toNat = _; exact off_val _ 16 hi (by decide)) (by show 128 * (i 0).val + 16 < 16384; omega) _ _ _ q)
  ihave HR2 := (row_deliverP scM2 c 16 (by decide) inb_S128x64_S1x64_16_0 _ fs2 _ (gVj c i xt2 fh1)) $$ HR2 %(fun q => deliver_gath (by decide) c hbM1 tbM2 fh1 xt2 i ⟨16, by decide⟩ (k0_off65 i) (by show (Scalar.indexCast (Scalar.addi (Scalar.muli (BitVec.ofNat 32 (i 0).val) 128#32) (BitVec.ofNat 32 16))).toNat = _; exact off_val _ 16 hi (by decide)) (by show 128 * (i 0).val + 16 < 16384; omega) _ _ _ q)
  ihave HD0 := (consH _ _) $$ HR0 HD0
  ihave HD1 := (consH _ _) $$ HR1 HD1
  ihave HD2 := (consH _ _) $$ HR2 HD2
  ihave HDC0 := (consH _ _) $$ HC0 HDC0
  ihave HDC1 := (consH _ _) $$ HC1 HDC1
  ihave HDC2 := (consH _ _) $$ HC2 HDC2
  ihave HDT0 := (consH _ _) $$ HT0 HDT0
  ihave HDT1 := (consH _ _) $$ HT1 HDT1
  ihave HDT2 := (consH _ _) $$ HT2 HDT2
  -- row 17: its three copies land; the row's resources go to the heads of the chains of what is done
  icases HB17 with ⟨HC0, HT0, HC1, HT1, HC2, HT2⟩
  sl_exec (disch := first | sl_exact hU _ _ | sl_exact hI _ _ | sl_exact hJ _ _)
  ihave HR0 := (row_deliverP scM0 c 17 (by decide) inb_S128x64_S1x64_17_0 _ fs0 _ (gU c i xt0 fh0)) $$ HR0 %(fun q => deliver_gath (by decide) c hbM0 tbM0 fh0 xt0 i ⟨17, by decide⟩ (k0_off69 i) (by show (Scalar.indexCast (Scalar.addi (Scalar.muli (BitVec.ofNat 32 (i 0).val) 128#32) (BitVec.ofNat 32 17))).toNat = _; exact off_val _ 17 hi (by decide)) (by show 128 * (i 0).val + 17 < 16384; omega) _ _ _ q)
  ihave HR1 := (row_deliverP scM1 c 17 (by decide) inb_S128x64_S1x64_17_0 _ fs1 _ (gVi c i xt1 fh1)) $$ HR1 %(fun q => deliver_gath (by decide) c hbM1 tbM1 fh1 xt1 i ⟨17, by decide⟩ (k0_off69 i) (by show (Scalar.indexCast (Scalar.addi (Scalar.muli (BitVec.ofNat 32 (i 0).val) 128#32) (BitVec.ofNat 32 17))).toNat = _; exact off_val _ 17 hi (by decide)) (by show 128 * (i 0).val + 17 < 16384; omega) _ _ _ q)
  ihave HR2 := (row_deliverP scM2 c 17 (by decide) inb_S128x64_S1x64_17_0 _ fs2 _ (gVj c i xt2 fh1)) $$ HR2 %(fun q => deliver_gath (by decide) c hbM1 tbM2 fh1 xt2 i ⟨17, by decide⟩ (k0_off69 i) (by show (Scalar.indexCast (Scalar.addi (Scalar.muli (BitVec.ofNat 32 (i 0).val) 128#32) (BitVec.ofNat 32 17))).toNat = _; exact off_val _ 17 hi (by decide)) (by show 128 * (i 0).val + 17 < 16384; omega) _ _ _ q)
  ihave HD0 := (consH _ _) $$ HR0 HD0
  ihave HD1 := (consH _ _) $$ HR1 HD1
  ihave HD2 := (consH _ _) $$ HR2 HD2
  ihave HDC0 := (consH _ _) $$ HC0 HDC0
  ihave HDC1 := (consH _ _) $$ HC1 HDC1
  ihave HDC2 := (consH _ _) $$ HC2 HDC2
  ihave HDT0 := (consH _ _) $$ HT0 HDT0
  ihave HDT1 := (consH _ _) $$ HT1 HDT1
  ihave HDT2 := (consH _ _) $$ HT2 HDT2
  -- row 18: its three copies land; the row's resources go to the heads of the chains of what is done
  icases HB18 with ⟨HC0, HT0, HC1, HT1, HC2, HT2⟩
  sl_exec (disch := first | sl_exact hU _ _ | sl_exact hI _ _ | sl_exact hJ _ _)
  ihave HR0 := (row_deliverP scM0 c 18 (by decide) inb_S128x64_S1x64_18_0 _ fs0 _ (gU c i xt0 fh0)) $$ HR0 %(fun q => deliver_gath (by decide) c hbM0 tbM0 fh0 xt0 i ⟨18, by decide⟩ (k0_off73 i) (by show (Scalar.indexCast (Scalar.addi (Scalar.muli (BitVec.ofNat 32 (i 0).val) 128#32) (BitVec.ofNat 32 18))).toNat = _; exact off_val _ 18 hi (by decide)) (by show 128 * (i 0).val + 18 < 16384; omega) _ _ _ q)
  ihave HR1 := (row_deliverP scM1 c 18 (by decide) inb_S128x64_S1x64_18_0 _ fs1 _ (gVi c i xt1 fh1)) $$ HR1 %(fun q => deliver_gath (by decide) c hbM1 tbM1 fh1 xt1 i ⟨18, by decide⟩ (k0_off73 i) (by show (Scalar.indexCast (Scalar.addi (Scalar.muli (BitVec.ofNat 32 (i 0).val) 128#32) (BitVec.ofNat 32 18))).toNat = _; exact off_val _ 18 hi (by decide)) (by show 128 * (i 0).val + 18 < 16384; omega) _ _ _ q)
  ihave HR2 := (row_deliverP scM2 c 18 (by decide) inb_S128x64_S1x64_18_0 _ fs2 _ (gVj c i xt2 fh1)) $$ HR2 %(fun q => deliver_gath (by decide) c hbM1 tbM2 fh1 xt2 i ⟨18, by decide⟩ (k0_off73 i) (by show (Scalar.indexCast (Scalar.addi (Scalar.muli (BitVec.ofNat 32 (i 0).val) 128#32) (BitVec.ofNat 32 18))).toNat = _; exact off_val _ 18 hi (by decide)) (by show 128 * (i 0).val + 18 < 16384; omega) _ _ _ q)
  ihave HD0 := (consH _ _) $$ HR0 HD0
  ihave HD1 := (consH _ _) $$ HR1 HD1
  ihave HD2 := (consH _ _) $$ HR2 HD2
  ihave HDC0 := (consH _ _) $$ HC0 HDC0
  ihave HDC1 := (consH _ _) $$ HC1 HDC1
  ihave HDC2 := (consH _ _) $$ HC2 HDC2
  ihave HDT0 := (consH _ _) $$ HT0 HDT0
  ihave HDT1 := (consH _ _) $$ HT1 HDT1
  ihave HDT2 := (consH _ _) $$ HT2 HDT2
  -- row 19: its three copies land; the row's resources go to the heads of the chains of what is done
  icases HB19 with ⟨HC0, HT0, HC1, HT1, HC2, HT2⟩
  sl_exec (disch := first | sl_exact hU _ _ | sl_exact hI _ _ | sl_exact hJ _ _)
  ihave HR0 := (row_deliverP scM0 c 19 (by decide) inb_S128x64_S1x64_19_0 _ fs0 _ (gU c i xt0 fh0)) $$ HR0 %(fun q => deliver_gath (by decide) c hbM0 tbM0 fh0 xt0 i ⟨19, by decide⟩ (k0_off77 i) (by show (Scalar.indexCast (Scalar.addi (Scalar.muli (BitVec.ofNat 32 (i 0).val) 128#32) (BitVec.ofNat 32 19))).toNat = _; exact off_val _ 19 hi (by decide)) (by show 128 * (i 0).val + 19 < 16384; omega) _ _ _ q)
  ihave HR1 := (row_deliverP scM1 c 19 (by decide) inb_S128x64_S1x64_19_0 _ fs1 _ (gVi c i xt1 fh1)) $$ HR1 %(fun q => deliver_gath (by decide) c hbM1 tbM1 fh1 xt1 i ⟨19, by decide⟩ (k0_off77 i) (by show (Scalar.indexCast (Scalar.addi (Scalar.muli (BitVec.ofNat 32 (i 0).val) 128#32) (BitVec.ofNat 32 19))).toNat = _; exact off_val _ 19 hi (by decide)) (by show 128 * (i 0).val + 19 < 16384; omega) _ _ _ q)
  ihave HR2 := (row_deliverP scM2 c 19 (by decide) inb_S128x64_S1x64_19_0 _ fs2 _ (gVj c i xt2 fh1)) $$ HR2 %(fun q => deliver_gath (by decide) c hbM1 tbM2 fh1 xt2 i ⟨19, by decide⟩ (k0_off77 i) (by show (Scalar.indexCast (Scalar.addi (Scalar.muli (BitVec.ofNat 32 (i 0).val) 128#32) (BitVec.ofNat 32 19))).toNat = _; exact off_val _ 19 hi (by decide)) (by show 128 * (i 0).val + 19 < 16384; omega) _ _ _ q)
  ihave HD0 := (consH _ _) $$ HR0 HD0
  ihave HD1 := (consH _ _) $$ HR1 HD1
  ihave HD2 := (consH _ _) $$ HR2 HD2
  ihave HDC0 := (consH _ _) $$ HC0 HDC0
  ihave HDC1 := (consH _ _) $$ HC1 HDC1
  ihave HDC2 := (consH _ _) $$ HC2 HDC2
  ihave HDT0 := (consH _ _) $$ HT0 HDT0
  ihave HDT1 := (consH _ _) $$ HT1 HDT1
  ihave HDT2 := (consH _ _) $$ HT2 HDT2
  -- row 20: its three copies land; the row's resources go to the heads of the chains of what is done
  icases HB20 with ⟨HC0, HT0, HC1, HT1, HC2, HT2⟩
  sl_exec (disch := first | sl_exact hU _ _ | sl_exact hI _ _ | sl_exact hJ _ _)
  ihave HR0 := (row_deliverP scM0 c 20 (by decide) inb_S128x64_S1x64_20_0 _ fs0 _ (gU c i xt0 fh0)) $$ HR0 %(fun q => deliver_gath (by decide) c hbM0 tbM0 fh0 xt0 i ⟨20, by decide⟩ (k0_off81 i) (by show (Scalar.indexCast (Scalar.addi (Scalar.muli (BitVec.ofNat 32 (i 0).val) 128#32) (BitVec.ofNat 32 20))).toNat = _; exact off_val _ 20 hi (by decide)) (by show 128 * (i 0).val + 20 < 16384; omega) _ _ _ q)
  ihave HR1 := (row_deliverP scM1 c 20 (by decide) inb_S128x64_S1x64_20_0 _ fs1 _ (gVi c i xt1 fh1)) $$ HR1 %(fun q => deliver_gath (by decide) c hbM1 tbM1 fh1 xt1 i ⟨20, by decide⟩ (k0_off81 i) (by show (Scalar.indexCast (Scalar.addi (Scalar.muli (BitVec.ofNat 32 (i 0).val) 128#32) (BitVec.ofNat 32 20))).toNat = _; exact off_val _ 20 hi (by decide)) (by show 128 * (i 0).val + 20 < 16384; omega) _ _ _ q)
  ihave HR2 := (row_deliverP scM2 c 20 (by decide) inb_S128x64_S1x64_20_0 _ fs2 _ (gVj c i xt2 fh1)) $$ HR2 %(fun q => deliver_gath (by decide) c hbM1 tbM2 fh1 xt2 i ⟨20, by decide⟩ (k0_off81 i) (by show (Scalar.indexCast (Scalar.addi (Scalar.muli (BitVec.ofNat 32 (i 0).val) 128#32) (BitVec.ofNat 32 20))).toNat = _; exact off_val _ 20 hi (by decide)) (by show 128 * (i 0).val + 20 < 16384; omega) _ _ _ q)
  ihave HD0 := (consH _ _) $$ HR0 HD0
  ihave HD1 := (consH _ _) $$ HR1 HD1
  ihave HD2 := (consH _ _) $$ HR2 HD2
  ihave HDC0 := (consH _ _) $$ HC0 HDC0
  ihave HDC1 := (consH _ _) $$ HC1 HDC1
  ihave HDC2 := (consH _ _) $$ HC2 HDC2
  ihave HDT0 := (consH _ _) $$ HT0 HDT0
  ihave HDT1 := (consH _ _) $$ HT1 HDT1
  ihave HDT2 := (consH _ _) $$ HT2 HDT2
  -- row 21: its three copies land; the row's resources go to the heads of the chains of what is done
  icases HB21 with ⟨HC0, HT0, HC1, HT1, HC2, HT2⟩
  sl_exec (disch := first | sl_exact hU _ _ | sl_exact hI _ _ | sl_exact hJ _ _)
  ihave HR0 := (row_deliverP scM0 c 21 (by decide) inb_S128x64_S1x64_21_0 _ fs0 _ (gU c i xt0 fh0)) $$ HR0 %(fun q => deliver_gath (by decide) c hbM0 tbM0 fh0 xt0 i ⟨21, by decide⟩ (k0_off85 i) (by show (Scalar.indexCast (Scalar.addi (Scalar.muli (BitVec.ofNat 32 (i 0).val) 128#32) (BitVec.ofNat 32 21))).toNat = _; exact off_val _ 21 hi (by decide)) (by show 128 * (i 0).val + 21 < 16384; omega) _ _ _ q)
  ihave HR1 := (row_deliverP scM1 c 21 (by decide) inb_S128x64_S1x64_21_0 _ fs1 _ (gVi c i xt1 fh1)) $$ HR1 %(fun q => deliver_gath (by decide) c hbM1 tbM1 fh1 xt1 i ⟨21, by decide⟩ (k0_off85 i) (by show (Scalar.indexCast (Scalar.addi (Scalar.muli (BitVec.ofNat 32 (i 0).val) 128#32) (BitVec.ofNat 32 21))).toNat = _; exact off_val _ 21 hi (by decide)) (by show 128 * (i 0).val + 21 < 16384; omega) _ _ _ q)
  ihave HR2 := (row_deliverP scM2 c 21 (by decide) inb_S128x64_S1x64_21_0 _ fs2 _ (gVj c i xt2 fh1)) $$ HR2 %(fun q => deliver_gath (by decide) c hbM1 tbM2 fh1 xt2 i ⟨21, by decide⟩ (k0_off85 i) (by show (Scalar.indexCast (Scalar.addi (Scalar.muli (BitVec.ofNat 32 (i 0).val) 128#32) (BitVec.ofNat 32 21))).toNat = _; exact off_val _ 21 hi (by decide)) (by show 128 * (i 0).val + 21 < 16384; omega) _ _ _ q)
  ihave HD0 := (consH _ _) $$ HR0 HD0
  ihave HD1 := (consH _ _) $$ HR1 HD1
  ihave HD2 := (consH _ _) $$ HR2 HD2
  ihave HDC0 := (consH _ _) $$ HC0 HDC0
  ihave HDC1 := (consH _ _) $$ HC1 HDC1
  ihave HDC2 := (consH _ _) $$ HC2 HDC2
  ihave HDT0 := (consH _ _) $$ HT0 HDT0
  ihave HDT1 := (consH _ _) $$ HT1 HDT1
  ihave HDT2 := (consH _ _) $$ HT2 HDT2
  -- row 22: its three copies land; the row's resources go to the heads of the chains of what is done
  icases HB22 with ⟨HC0, HT0, HC1, HT1, HC2, HT2⟩
  sl_exec (disch := first | sl_exact hU _ _ | sl_exact hI _ _ | sl_exact hJ _ _)
  ihave HR0 := (row_deliverP scM0 c 22 (by decide) inb_S128x64_S1x64_22_0 _ fs0 _ (gU c i xt0 fh0)) $$ HR0 %(fun q => deliver_gath (by decide) c hbM0 tbM0 fh0 xt0 i ⟨22, by decide⟩ (k0_off89 i) (by show (Scalar.indexCast (Scalar.addi (Scalar.muli (BitVec.ofNat 32 (i 0).val) 128#32) (BitVec.ofNat 32 22))).toNat = _; exact off_val _ 22 hi (by decide)) (by show 128 * (i 0).val + 22 < 16384; omega) _ _ _ q)
  ihave HR1 := (row_deliverP scM1 c 22 (by decide) inb_S128x64_S1x64_22_0 _ fs1 _ (gVi c i xt1 fh1)) $$ HR1 %(fun q => deliver_gath (by decide) c hbM1 tbM1 fh1 xt1 i ⟨22, by decide⟩ (k0_off89 i) (by show (Scalar.indexCast (Scalar.addi (Scalar.muli (BitVec.ofNat 32 (i 0).val) 128#32) (BitVec.ofNat 32 22))).toNat = _; exact off_val _ 22 hi (by decide)) (by show 128 * (i 0).val + 22 < 16384; omega) _ _ _ q)
  ihave HR2 := (row_deliverP scM2 c 22 (by decide) inb_S128x64_S1x64_22_0 _ fs2 _ (gVj c i xt2 fh1)) $$ HR2 %(fun q => deliver_gath (by decide) c hbM1 tbM2 fh1 xt2 i ⟨22, by decide⟩ (k0_off89 i) (by show (Scalar.indexCast (Scalar.addi (Scalar.muli (BitVec.ofNat 32 (i 0).val) 128#32) (BitVec.ofNat 32 22))).toNat = _; exact off_val _ 22 hi (by decide)) (by show 128 * (i 0).val + 22 < 16384; omega) _ _ _ q)
  ihave HD0 := (consH _ _) $$ HR0 HD0
  ihave HD1 := (consH _ _) $$ HR1 HD1
  ihave HD2 := (consH _ _) $$ HR2 HD2
  ihave HDC0 := (consH _ _) $$ HC0 HDC0
  ihave HDC1 := (consH _ _) $$ HC1 HDC1
  ihave HDC2 := (consH _ _) $$ HC2 HDC2
  ihave HDT0 := (consH _ _) $$ HT0 HDT0
  ihave HDT1 := (consH _ _) $$ HT1 HDT1
  ihave HDT2 := (consH _ _) $$ HT2 HDT2
  -- row 23: its three copies land; the row's resources go to the heads of the chains of what is done
  icases HB23 with ⟨HC0, HT0, HC1, HT1, HC2, HT2⟩
  sl_exec (disch := first | sl_exact hU _ _ | sl_exact hI _ _ | sl_exact hJ _ _)
  ihave HR0 := (row_deliverP scM0 c 23 (by decide) inb_S128x64_S1x64_23_0 _ fs0 _ (gU c i xt0 fh0)) $$ HR0 %(fun q => deliver_gath (by decide) c hbM0 tbM0 fh0 xt0 i ⟨23, by decide⟩ (k0_off93 i) (by show (Scalar.indexCast (Scalar.addi (Scalar.muli (BitVec.ofNat 32 (i 0).val) 128#32) (BitVec.ofNat 32 23))).toNat = _; exact off_val _ 23 hi (by decide)) (by show 128 * (i 0).val + 23 < 16384; omega) _ _ _ q)
  ihave HR1 := (row_deliverP scM1 c 23 (by decide) inb_S128x64_S1x64_23_0 _ fs1 _ (gVi c i xt1 fh1)) $$ HR1 %(fun q => deliver_gath (by decide) c hbM1 tbM1 fh1 xt1 i ⟨23, by decide⟩ (k0_off93 i) (by show (Scalar.indexCast (Scalar.addi (Scalar.muli (BitVec.ofNat 32 (i 0).val) 128#32) (BitVec.ofNat 32 23))).toNat = _; exact off_val _ 23 hi (by decide)) (by show 128 * (i 0).val + 23 < 16384; omega) _ _ _ q)
  ihave HR2 := (row_deliverP scM2 c 23 (by decide) inb_S128x64_S1x64_23_0 _ fs2 _ (gVj c i xt2 fh1)) $$ HR2 %(fun q => deliver_gath (by decide) c hbM1 tbM2 fh1 xt2 i ⟨23, by decide⟩ (k0_off93 i) (by show (Scalar.indexCast (Scalar.addi (Scalar.muli (BitVec.ofNat 32 (i 0).val) 128#32) (BitVec.ofNat 32 23))).toNat = _; exact off_val _ 23 hi (by decide)) (by show 128 * (i 0).val + 23 < 16384; omega) _ _ _ q)
  ihave HD0 := (consH _ _) $$ HR0 HD0
  ihave HD1 := (consH _ _) $$ HR1 HD1
  ihave HD2 := (consH _ _) $$ HR2 HD2
  ihave HDC0 := (consH _ _) $$ HC0 HDC0
  ihave HDC1 := (consH _ _) $$ HC1 HDC1
  ihave HDC2 := (consH _ _) $$ HC2 HDC2
  ihave HDT0 := (consH _ _) $$ HT0 HDT0
  ihave HDT1 := (consH _ _) $$ HT1 HDT1
  ihave HDT2 := (consH _ _) $$ HT2 HDT2
  -- row 24: its three copies land; the row's resources go to the heads of the chains of what is done
  icases HB24 with ⟨HC0, HT0, HC1, HT1, HC2, HT2⟩
  sl_exec (disch := first | sl_exact hU _ _ | sl_exact hI _ _ | sl_exact hJ _ _)
  ihave HR0 := (row_deliverP scM0 c 24 (by decide) inb_S128x64_S1x64_24_0 _ fs0 _ (gU c i xt0 fh0)) $$ HR0 %(fun q => deliver_gath (by decide) c hbM0 tbM0 fh0 xt0 i ⟨24, by decide⟩ (k0_off97 i) (by show (Scalar.indexCast (Scalar.addi (Scalar.muli (BitVec.ofNat 32 (i 0).val) 128#32) (BitVec.ofNat 32 24))).toNat = _; exact off_val _ 24 hi (by decide)) (by show 128 * (i 0).val + 24 < 16384; omega) _ _ _ q)
  ihave HR1 := (row_deliverP scM1 c 24 (by decide) inb_S128x64_S1x64_24_0 _ fs1 _ (gVi c i xt1 fh1)) $$ HR1 %(fun q => deliver_gath (by decide) c hbM1 tbM1 fh1 xt1 i ⟨24, by decide⟩ (k0_off97 i) (by show (Scalar.indexCast (Scalar.addi (Scalar.muli (BitVec.ofNat 32 (i 0).val) 128#32) (BitVec.ofNat 32 24))).toNat = _; exact off_val _ 24 hi (by decide)) (by show 128 * (i 0).val + 24 < 16384; omega) _ _ _ q)
  ihave HR2 := (row_deliverP scM2 c 24 (by decide) inb_S128x64_S1x64_24_0 _ fs2 _ (gVj c i xt2 fh1)) $$ HR2 %(fun q => deliver_gath (by decide) c hbM1 tbM2 fh1 xt2 i ⟨24, by decide⟩ (k0_off97 i) (by show (Scalar.indexCast (Scalar.addi (Scalar.muli (BitVec.ofNat 32 (i 0).val) 128#32) (BitVec.ofNat 32 24))).toNat = _; exact off_val _ 24 hi (by decide)) (by show 128 * (i 0).val + 24 < 16384; omega) _ _ _ q)
  ihave HD0 := (consH _ _) $$ HR0 HD0
  ihave HD1 := (consH _ _) $$ HR1 HD1
  ihave HD2 := (consH _ _) $$ HR2 HD2
  ihave HDC0 := (consH _ _) $$ HC0 HDC0
  ihave HDC1 := (consH _ _) $$ HC1 HDC1
  ihave HDC2 := (consH _ _) $$ HC2 HDC2
  ihave HDT0 := (consH _ _) $$ HT0 HDT0
  ihave HDT1 := (consH _ _) $$ HT1 HDT1
  ihave HDT2 := (consH _ _) $$ HT2 HDT2
  -- row 25: its three copies land; the row's resources go to the heads of the chains of what is done
  icases HB25 with ⟨HC0, HT0, HC1, HT1, HC2, HT2⟩
  sl_exec (disch := first | sl_exact hU _ _ | sl_exact hI _ _ | sl_exact hJ _ _)
  ihave HR0 := (row_deliverP scM0 c 25 (by decide) inb_S128x64_S1x64_25_0 _ fs0 _ (gU c i xt0 fh0)) $$ HR0 %(fun q => deliver_gath (by decide) c hbM0 tbM0 fh0 xt0 i ⟨25, by decide⟩ (k0_off101 i) (by show (Scalar.indexCast (Scalar.addi (Scalar.muli (BitVec.ofNat 32 (i 0).val) 128#32) (BitVec.ofNat 32 25))).toNat = _; exact off_val _ 25 hi (by decide)) (by show 128 * (i 0).val + 25 < 16384; omega) _ _ _ q)
  ihave HR1 := (row_deliverP scM1 c 25 (by decide) inb_S128x64_S1x64_25_0 _ fs1 _ (gVi c i xt1 fh1)) $$ HR1 %(fun q => deliver_gath (by decide) c hbM1 tbM1 fh1 xt1 i ⟨25, by decide⟩ (k0_off101 i) (by show (Scalar.indexCast (Scalar.addi (Scalar.muli (BitVec.ofNat 32 (i 0).val) 128#32) (BitVec.ofNat 32 25))).toNat = _; exact off_val _ 25 hi (by decide)) (by show 128 * (i 0).val + 25 < 16384; omega) _ _ _ q)
  ihave HR2 := (row_deliverP scM2 c 25 (by decide) inb_S128x64_S1x64_25_0 _ fs2 _ (gVj c i xt2 fh1)) $$ HR2 %(fun q => deliver_gath (by decide) c hbM1 tbM2 fh1 xt2 i ⟨25, by decide⟩ (k0_off101 i) (by show (Scalar.indexCast (Scalar.addi (Scalar.muli (BitVec.ofNat 32 (i 0).val) 128#32) (BitVec.ofNat 32 25))).toNat = _; exact off_val _ 25 hi (by decide)) (by show 128 * (i 0).val + 25 < 16384; omega) _ _ _ q)
  ihave HD0 := (consH _ _) $$ HR0 HD0
  ihave HD1 := (consH _ _) $$ HR1 HD1
  ihave HD2 := (consH _ _) $$ HR2 HD2
  ihave HDC0 := (consH _ _) $$ HC0 HDC0
  ihave HDC1 := (consH _ _) $$ HC1 HDC1
  ihave HDC2 := (consH _ _) $$ HC2 HDC2
  ihave HDT0 := (consH _ _) $$ HT0 HDT0
  ihave HDT1 := (consH _ _) $$ HT1 HDT1
  ihave HDT2 := (consH _ _) $$ HT2 HDT2
  -- row 26: its three copies land; the row's resources go to the heads of the chains of what is done
  icases HB26 with ⟨HC0, HT0, HC1, HT1, HC2, HT2⟩
  sl_exec (disch := first | sl_exact hU _ _ | sl_exact hI _ _ | sl_exact hJ _ _)
  ihave HR0 := (row_deliverP scM0 c 26 (by decide) inb_S128x64_S1x64_26_0 _ fs0 _ (gU c i xt0 fh0)) $$ HR0 %(fun q => deliver_gath (by decide) c hbM0 tbM0 fh0 xt0 i ⟨26, by decide⟩ (k0_off105 i) (by show (Scalar.indexCast (Scalar.addi (Scalar.muli (BitVec.ofNat 32 (i 0).val) 128#32) (BitVec.ofNat 32 26))).toNat = _; exact off_val _ 26 hi (by decide)) (by show 128 * (i 0).val + 26 < 16384; omega) _ _ _ q)
  ihave HR1 := (row_deliverP scM1 c 26 (by decide) inb_S128x64_S1x64_26_0 _ fs1 _ (gVi c i xt1 fh1)) $$ HR1 %(fun q => deliver_gath (by decide) c hbM1 tbM1 fh1 xt1 i ⟨26, by decide⟩ (k0_off105 i) (by show (Scalar.indexCast (Scalar.addi (Scalar.muli (BitVec.ofNat 32 (i 0).val) 128#32) (BitVec.ofNat 32 26))).toNat = _; exact off_val _ 26 hi (by decide)) (by show 128 * (i 0).val + 26 < 16384; omega) _ _ _ q)
  ihave HR2 := (row_deliverP scM2 c 26 (by decide) inb_S128x64_S1x64_26_0 _ fs2 _ (gVj c i xt2 fh1)) $$ HR2 %(fun q => deliver_gath (by decide) c hbM1 tbM2 fh1 xt2 i ⟨26, by decide⟩ (k0_off105 i) (by show (Scalar.indexCast (Scalar.addi (Scalar.muli (BitVec.ofNat 32 (i 0).val) 128#32) (BitVec.ofNat 32 26))).toNat = _; exact off_val _ 26 hi (by decide)) (by show 128 * (i 0).val + 26 < 16384; omega) _ _ _ q)
  ihave HD0 := (consH _ _) $$ HR0 HD0
  ihave HD1 := (consH _ _) $$ HR1 HD1
  ihave HD2 := (consH _ _) $$ HR2 HD2
  ihave HDC0 := (consH _ _) $$ HC0 HDC0
  ihave HDC1 := (consH _ _) $$ HC1 HDC1
  ihave HDC2 := (consH _ _) $$ HC2 HDC2
  ihave HDT0 := (consH _ _) $$ HT0 HDT0
  ihave HDT1 := (consH _ _) $$ HT1 HDT1
  ihave HDT2 := (consH _ _) $$ HT2 HDT2
  -- row 27: its three copies land; the row's resources go to the heads of the chains of what is done
  icases HB27 with ⟨HC0, HT0, HC1, HT1, HC2, HT2⟩
  sl_exec (disch := first | sl_exact hU _ _ | sl_exact hI _ _ | sl_exact hJ _ _)
  ihave HR0 := (row_deliverP scM0 c 27 (by decide) inb_S128x64_S1x64_27_0 _ fs0 _ (gU c i xt0 fh0)) $$ HR0 %(fun q => deliver_gath (by decide) c hbM0 tbM0 fh0 xt0 i ⟨27, by decide⟩ (k0_off109 i) (by show (Scalar.indexCast (Scalar.addi (Scalar.muli (BitVec.ofNat 32 (i 0).val) 128#32) (BitVec.ofNat 32 27))).toNat = _; exact off_val _ 27 hi (by decide)) (by show 128 * (i 0).val + 27 < 16384; omega) _ _ _ q)
  ihave HR1 := (row_deliverP scM1 c 27 (by decide) inb_S128x64_S1x64_27_0 _ fs1 _ (gVi c i xt1 fh1)) $$ HR1 %(fun q => deliver_gath (by decide) c hbM1 tbM1 fh1 xt1 i ⟨27, by decide⟩ (k0_off109 i) (by show (Scalar.indexCast (Scalar.addi (Scalar.muli (BitVec.ofNat 32 (i 0).val) 128#32) (BitVec.ofNat 32 27))).toNat = _; exact off_val _ 27 hi (by decide)) (by show 128 * (i 0).val + 27 < 16384; omega) _ _ _ q)
  ihave HR2 := (row_deliverP scM2 c 27 (by decide) inb_S128x64_S1x64_27_0 _ fs2 _ (gVj c i xt2 fh1)) $$ HR2 %(fun q => deliver_gath (by decide) c hbM1 tbM2 fh1 xt2 i ⟨27, by decide⟩ (k0_off109 i) (by show (Scalar.indexCast (Scalar.addi (Scalar.muli (BitVec.ofNat 32 (i 0).val) 128#32) (BitVec.ofNat 32 27))).toNat = _; exact off_val _ 27 hi (by decide)) (by show 128 * (i 0).val + 27 < 16384; omega) _ _ _ q)
  ihave HD0 := (consH _ _) $$ HR0 HD0
  ihave HD1 := (consH _ _) $$ HR1 HD1
  ihave HD2 := (consH _ _) $$ HR2 HD2
  ihave HDC0 := (consH _ _) $$ HC0 HDC0
  ihave HDC1 := (consH _ _) $$ HC1 HDC1
  ihave HDC2 := (consH _ _) $$ HC2 HDC2
  ihave HDT0 := (consH _ _) $$ HT0 HDT0
  ihave HDT1 := (consH _ _) $$ HT1 HDT1
  ihave HDT2 := (consH _ _) $$ HT2 HDT2
  -- row 28: its three copies land; the row's resources go to the heads of the chains of what is done
  icases HB28 with ⟨HC0, HT0, HC1, HT1, HC2, HT2⟩
  sl_exec (disch := first | sl_exact hU _ _ | sl_exact hI _ _ | sl_exact hJ _ _)
  ihave HR0 := (row_deliverP scM0 c 28 (by decide) inb_S128x64_S1x64_28_0 _ fs0 _ (gU c i xt0 fh0)) $$ HR0 %(fun q => deliver_gath (by decide) c hbM0 tbM0 fh0 xt0 i ⟨28, by decide⟩ (k0_off113 i) (by show (Scalar.indexCast (Scalar.addi (Scalar.muli (BitVec.ofNat 32 (i 0).val) 128#32) (BitVec.ofNat 32 28))).toNat = _; exact off_val _ 28 hi (by decide)) (by show 128 * (i 0).val + 28 < 16384; omega) _ _ _ q)
  ihave HR1 := (row_deliverP scM1 c 28 (by decide) inb_S128x64_S1x64_28_0 _ fs1 _ (gVi c i xt1 fh1)) $$ HR1 %(fun q => deliver_gath (by decide) c hbM1 tbM1 fh1 xt1 i ⟨28, by decide⟩ (k0_off113 i) (by show (Scalar.indexCast (Scalar.addi (Scalar.muli (BitVec.ofNat 32 (i 0).val) 128#32) (BitVec.ofNat 32 28))).toNat = _; exact off_val _ 28 hi (by decide)) (by show 128 * (i 0).val + 28 < 16384; omega) _ _ _ q)
  ihave HR2 := (row_deliverP scM2 c 28 (by decide) inb_S128x64_S1x64_28_0 _ fs2 _ (gVj c i xt2 fh1)) $$ HR2 %(fun q => deliver_gath (by decide) c hbM1 tbM2 fh1 xt2 i ⟨28, by decide⟩ (k0_off113 i) (by show (Scalar.indexCast (Scalar.addi (Scalar.muli (BitVec.ofNat 32 (i 0).val) 128#32) (BitVec.ofNat 32 28))).toNat = _; exact off_val _ 28 hi (by decide)) (by show 128 * (i 0).val + 28 < 16384; omega) _ _ _ q)
  ihave HD0 := (consH _ _) $$ HR0 HD0
  ihave HD1 := (consH _ _) $$ HR1 HD1
  ihave HD2 := (consH _ _) $$ HR2 HD2
  ihave HDC0 := (consH _ _) $$ HC0 HDC0
  ihave HDC1 := (consH _ _) $$ HC1 HDC1
  ihave HDC2 := (consH _ _) $$ HC2 HDC2
  ihave HDT0 := (consH _ _) $$ HT0 HDT0
  ihave HDT1 := (consH _ _) $$ HT1 HDT1
  ihave HDT2 := (consH _ _) $$ HT2 HDT2
  -- row 29: its three copies land; the row's resources go to the heads of the chains of what is done
  icases HB29 with ⟨HC0, HT0, HC1, HT1, HC2, HT2⟩
  sl_exec (disch := first | sl_exact hU _ _ | sl_exact hI _ _ | sl_exact hJ _ _)
  ihave HR0 := (row_deliverP scM0 c 29 (by decide) inb_S128x64_S1x64_29_0 _ fs0 _ (gU c i xt0 fh0)) $$ HR0 %(fun q => deliver_gath (by decide) c hbM0 tbM0 fh0 xt0 i ⟨29, by decide⟩ (k0_off117 i) (by show (Scalar.indexCast (Scalar.addi (Scalar.muli (BitVec.ofNat 32 (i 0).val) 128#32) (BitVec.ofNat 32 29))).toNat = _; exact off_val _ 29 hi (by decide)) (by show 128 * (i 0).val + 29 < 16384; omega) _ _ _ q)
  ihave HR1 := (row_deliverP scM1 c 29 (by decide) inb_S128x64_S1x64_29_0 _ fs1 _ (gVi c i xt1 fh1)) $$ HR1 %(fun q => deliver_gath (by decide) c hbM1 tbM1 fh1 xt1 i ⟨29, by decide⟩ (k0_off117 i) (by show (Scalar.indexCast (Scalar.addi (Scalar.muli (BitVec.ofNat 32 (i 0).val) 128#32) (BitVec.ofNat 32 29))).toNat = _; exact off_val _ 29 hi (by decide)) (by show 128 * (i 0).val + 29 < 16384; omega) _ _ _ q)
  ihave HR2 := (row_deliverP scM2 c 29 (by decide) inb_S128x64_S1x64_29_0 _ fs2 _ (gVj c i xt2 fh1)) $$ HR2 %(fun q => deliver_gath (by decide) c hbM1 tbM2 fh1 xt2 i ⟨29, by decide⟩ (k0_off117 i) (by show (Scalar.indexCast (Scalar.addi (Scalar.muli (BitVec.ofNat 32 (i 0).val) 128#32) (BitVec.ofNat 32 29))).toNat = _; exact off_val _ 29 hi (by decide)) (by show 128 * (i 0).val + 29 < 16384; omega) _ _ _ q)
  ihave HD0 := (consH _ _) $$ HR0 HD0
  ihave HD1 := (consH _ _) $$ HR1 HD1
  ihave HD2 := (consH _ _) $$ HR2 HD2
  ihave HDC0 := (consH _ _) $$ HC0 HDC0
  ihave HDC1 := (consH _ _) $$ HC1 HDC1
  ihave HDC2 := (consH _ _) $$ HC2 HDC2
  ihave HDT0 := (consH _ _) $$ HT0 HDT0
  ihave HDT1 := (consH _ _) $$ HT1 HDT1
  ihave HDT2 := (consH _ _) $$ HT2 HDT2
  -- row 30: its three copies land; the row's resources go to the heads of the chains of what is done
  icases HB30 with ⟨HC0, HT0, HC1, HT1, HC2, HT2⟩
  sl_exec (disch := first | sl_exact hU _ _ | sl_exact hI _ _ | sl_exact hJ _ _)
  ihave HR0 := (row_deliverP scM0 c 30 (by decide) inb_S128x64_S1x64_30_0 _ fs0 _ (gU c i xt0 fh0)) $$ HR0 %(fun q => deliver_gath (by decide) c hbM0 tbM0 fh0 xt0 i ⟨30, by decide⟩ (k0_off121 i) (by show (Scalar.indexCast (Scalar.addi (Scalar.muli (BitVec.ofNat 32 (i 0).val) 128#32) (BitVec.ofNat 32 30))).toNat = _; exact off_val _ 30 hi (by decide)) (by show 128 * (i 0).val + 30 < 16384; omega) _ _ _ q)
  ihave HR1 := (row_deliverP scM1 c 30 (by decide) inb_S128x64_S1x64_30_0 _ fs1 _ (gVi c i xt1 fh1)) $$ HR1 %(fun q => deliver_gath (by decide) c hbM1 tbM1 fh1 xt1 i ⟨30, by decide⟩ (k0_off121 i) (by show (Scalar.indexCast (Scalar.addi (Scalar.muli (BitVec.ofNat 32 (i 0).val) 128#32) (BitVec.ofNat 32 30))).toNat = _; exact off_val _ 30 hi (by decide)) (by show 128 * (i 0).val + 30 < 16384; omega) _ _ _ q)
  ihave HR2 := (row_deliverP scM2 c 30 (by decide) inb_S128x64_S1x64_30_0 _ fs2 _ (gVj c i xt2 fh1)) $$ HR2 %(fun q => deliver_gath (by decide) c hbM1 tbM2 fh1 xt2 i ⟨30, by decide⟩ (k0_off121 i) (by show (Scalar.indexCast (Scalar.addi (Scalar.muli (BitVec.ofNat 32 (i 0).val) 128#32) (BitVec.ofNat 32 30))).toNat = _; exact off_val _ 30 hi (by decide)) (by show 128 * (i 0).val + 30 < 16384; omega) _ _ _ q)
  ihave HD0 := (consH _ _) $$ HR0 HD0
  ihave HD1 := (consH _ _) $$ HR1 HD1
  ihave HD2 := (consH _ _) $$ HR2 HD2
  ihave HDC0 := (consH _ _) $$ HC0 HDC0
  ihave HDC1 := (consH _ _) $$ HC1 HDC1
  ihave HDC2 := (consH _ _) $$ HC2 HDC2
  ihave HDT0 := (consH _ _) $$ HT0 HDT0
  ihave HDT1 := (consH _ _) $$ HT1 HDT1
  ihave HDT2 := (consH _ _) $$ HT2 HDT2
  -- row 31: its three copies land; the row's resources go to the heads of the chains of what is done
  icases HB31 with ⟨HC0, HT0, HC1, HT1, HC2, HT2⟩
  sl_exec (disch := first | sl_exact hU _ _ | sl_exact hI _ _ | sl_exact hJ _ _)
  ihave HR0 := (row_deliverP scM0 c 31 (by decide) inb_S128x64_S1x64_31_0 _ fs0 _ (gU c i xt0 fh0)) $$ HR0 %(fun q => deliver_gath (by decide) c hbM0 tbM0 fh0 xt0 i ⟨31, by decide⟩ (k0_off125 i) (by show (Scalar.indexCast (Scalar.addi (Scalar.muli (BitVec.ofNat 32 (i 0).val) 128#32) (BitVec.ofNat 32 31))).toNat = _; exact off_val _ 31 hi (by decide)) (by show 128 * (i 0).val + 31 < 16384; omega) _ _ _ q)
  ihave HR1 := (row_deliverP scM1 c 31 (by decide) inb_S128x64_S1x64_31_0 _ fs1 _ (gVi c i xt1 fh1)) $$ HR1 %(fun q => deliver_gath (by decide) c hbM1 tbM1 fh1 xt1 i ⟨31, by decide⟩ (k0_off125 i) (by show (Scalar.indexCast (Scalar.addi (Scalar.muli (BitVec.ofNat 32 (i 0).val) 128#32) (BitVec.ofNat 32 31))).toNat = _; exact off_val _ 31 hi (by decide)) (by show 128 * (i 0).val + 31 < 16384; omega) _ _ _ q)
  ihave HR2 := (row_deliverP scM2 c 31 (by decide) inb_S128x64_S1x64_31_0 _ fs2 _ (gVj c i xt2 fh1)) $$ HR2 %(fun q => deliver_gath (by decide) c hbM1 tbM2 fh1 xt2 i ⟨31, by decide⟩ (k0_off125 i) (by show (Scalar.indexCast (Scalar.addi (Scalar.muli (BitVec.ofNat 32 (i 0).val) 128#32) (BitVec.ofNat 32 31))).toNat = _; exact off_val _ 31 hi (by decide)) (by show 128 * (i 0).val + 31 < 16384; omega) _ _ _ q)
  ihave HD0 := (consH _ _) $$ HR0 HD0
  ihave HD1 := (consH _ _) $$ HR1 HD1
  ihave HD2 := (consH _ _) $$ HR2 HD2
  ihave HDC0 := (consH _ _) $$ HC0 HDC0
  ihave HDC1 := (consH _ _) $$ HC1 HDC1
  ihave HDC2 := (consH _ _) $$ HC2 HDC2
  ihave HDT0 := (consH _ _) $$ HT0 HDT0
  ihave HDT1 := (consH _ _) $$ HT1 HDT1
  ihave HDT2 := (consH _ _) $$ HT2 HDT2
  -- row 32: its three copies land; the row's resources go to the heads of the chains of what is done
  icases HB32 with ⟨HC0, HT0, HC1, HT1, HC2, HT2⟩
  sl_exec (disch := first | sl_exact hU _ _ | sl_exact hI _ _ | sl_exact hJ _ _)
  ihave HR0 := (row_deliverP scM0 c 32 (by decide) inb_S128x64_S1x64_32_0 _ fs0 _ (gU c i xt0 fh0)) $$ HR0 %(fun q => deliver_gath (by decide) c hbM0 tbM0 fh0 xt0 i ⟨32, by decide⟩ (k0_off129 i) (by show (Scalar.indexCast (Scalar.addi (Scalar.muli (BitVec.ofNat 32 (i 0).val) 128#32) (BitVec.ofNat 32 32))).toNat = _; exact off_val _ 32 hi (by decide)) (by show 128 * (i 0).val + 32 < 16384; omega) _ _ _ q)
  ihave HR1 := (row_deliverP scM1 c 32 (by decide) inb_S128x64_S1x64_32_0 _ fs1 _ (gVi c i xt1 fh1)) $$ HR1 %(fun q => deliver_gath (by decide) c hbM1 tbM1 fh1 xt1 i ⟨32, by decide⟩ (k0_off129 i) (by show (Scalar.indexCast (Scalar.addi (Scalar.muli (BitVec.ofNat 32 (i 0).val) 128#32) (BitVec.ofNat 32 32))).toNat = _; exact off_val _ 32 hi (by decide)) (by show 128 * (i 0).val + 32 < 16384; omega) _ _ _ q)
  ihave HR2 := (row_deliverP scM2 c 32 (by decide) inb_S128x64_S1x64_32_0 _ fs2 _ (gVj c i xt2 fh1)) $$ HR2 %(fun q => deliver_gath (by decide) c hbM1 tbM2 fh1 xt2 i ⟨32, by decide⟩ (k0_off129 i) (by show (Scalar.indexCast (Scalar.addi (Scalar.muli (BitVec.ofNat 32 (i 0).val) 128#32) (BitVec.ofNat 32 32))).toNat = _; exact off_val _ 32 hi (by decide)) (by show 128 * (i 0).val + 32 < 16384; omega) _ _ _ q)
  ihave HD0 := (consH _ _) $$ HR0 HD0
  ihave HD1 := (consH _ _) $$ HR1 HD1
  ihave HD2 := (consH _ _) $$ HR2 HD2
  ihave HDC0 := (consH _ _) $$ HC0 HDC0
  ihave HDC1 := (consH _ _) $$ HC1 HDC1
  ihave HDC2 := (consH _ _) $$ HC2 HDC2
  ihave HDT0 := (consH _ _) $$ HT0 HDT0
  ihave HDT1 := (consH _ _) $$ HT1 HDT1
  ihave HDT2 := (consH _ _) $$ HT2 HDT2
  -- row 33: its three copies land; the row's resources go to the heads of the chains of what is done
  icases HB33 with ⟨HC0, HT0, HC1, HT1, HC2, HT2⟩
  sl_exec (disch := first | sl_exact hU _ _ | sl_exact hI _ _ | sl_exact hJ _ _)
  ihave HR0 := (row_deliverP scM0 c 33 (by decide) inb_S128x64_S1x64_33_0 _ fs0 _ (gU c i xt0 fh0)) $$ HR0 %(fun q => deliver_gath (by decide) c hbM0 tbM0 fh0 xt0 i ⟨33, by decide⟩ (k0_off133 i) (by show (Scalar.indexCast (Scalar.addi (Scalar.muli (BitVec.ofNat 32 (i 0).val) 128#32) (BitVec.ofNat 32 33))).toNat = _; exact off_val _ 33 hi (by decide)) (by show 128 * (i 0).val + 33 < 16384; omega) _ _ _ q)
  ihave HR1 := (row_deliverP scM1 c 33 (by decide) inb_S128x64_S1x64_33_0 _ fs1 _ (gVi c i xt1 fh1)) $$ HR1 %(fun q => deliver_gath (by decide) c hbM1 tbM1 fh1 xt1 i ⟨33, by decide⟩ (k0_off133 i) (by show (Scalar.indexCast (Scalar.addi (Scalar.muli (BitVec.ofNat 32 (i 0).val) 128#32) (BitVec.ofNat 32 33))).toNat = _; exact off_val _ 33 hi (by decide)) (by show 128 * (i 0).val + 33 < 16384; omega) _ _ _ q)
  ihave HR2 := (row_deliverP scM2 c 33 (by decide) inb_S128x64_S1x64_33_0 _ fs2 _ (gVj c i xt2 fh1)) $$ HR2 %(fun q => deliver_gath (by decide) c hbM1 tbM2 fh1 xt2 i ⟨33, by decide⟩ (k0_off133 i) (by show (Scalar.indexCast (Scalar.addi (Scalar.muli (BitVec.ofNat 32 (i 0).val) 128#32) (BitVec.ofNat 32 33))).toNat = _; exact off_val _ 33 hi (by decide)) (by show 128 * (i 0).val + 33 < 16384; omega) _ _ _ q)
  ihave HD0 := (consH _ _) $$ HR0 HD0
  ihave HD1 := (consH _ _) $$ HR1 HD1
  ihave HD2 := (consH _ _) $$ HR2 HD2
  ihave HDC0 := (consH _ _) $$ HC0 HDC0
  ihave HDC1 := (consH _ _) $$ HC1 HDC1
  ihave HDC2 := (consH _ _) $$ HC2 HDC2
  ihave HDT0 := (consH _ _) $$ HT0 HDT0
  ihave HDT1 := (consH _ _) $$ HT1 HDT1
  ihave HDT2 := (consH _ _) $$ HT2 HDT2
  -- row 34: its three copies land; the row's resources go to the heads of the chains of what is done
  icases HB34 with ⟨HC0, HT0, HC1, HT1, HC2, HT2⟩
  sl_exec (disch := first | sl_exact hU _ _ | sl_exact hI _ _ | sl_exact hJ _ _)
  ihave HR0 := (row_deliverP scM0 c 34 (by decide) inb_S128x64_S1x64_34_0 _ fs0 _ (gU c i xt0 fh0)) $$ HR0 %(fun q => deliver_gath (by decide) c hbM0 tbM0 fh0 xt0 i ⟨34, by decide⟩ (k0_off137 i) (by show (Scalar.indexCast (Scalar.addi (Scalar.muli (BitVec.ofNat 32 (i 0).val) 128#32) (BitVec.ofNat 32 34))).toNat = _; exact off_val _ 34 hi (by decide)) (by show 128 * (i 0).val + 34 < 16384; omega) _ _ _ q)
  ihave HR1 := (row_deliverP scM1 c 34 (by decide) inb_S128x64_S1x64_34_0 _ fs1 _ (gVi c i xt1 fh1)) $$ HR1 %(fun q => deliver_gath (by decide) c hbM1 tbM1 fh1 xt1 i ⟨34, by decide⟩ (k0_off137 i) (by show (Scalar.indexCast (Scalar.addi (Scalar.muli (BitVec.ofNat 32 (i 0).val) 128#32) (BitVec.ofNat 32 34))).toNat = _; exact off_val _ 34 hi (by decide)) (by show 128 * (i 0).val + 34 < 16384; omega) _ _ _ q)
  ihave HR2 := (row_deliverP scM2 c 34 (by decide) inb_S128x64_S1x64_34_0 _ fs2 _ (gVj c i xt2 fh1)) $$ HR2 %(fun q => deliver_gath (by decide) c hbM1 tbM2 fh1 xt2 i ⟨34, by decide⟩ (k0_off137 i) (by show (Scalar.indexCast (Scalar.addi (Scalar.muli (BitVec.ofNat 32 (i 0).val) 128#32) (BitVec.ofNat 32 34))).toNat = _; exact off_val _ 34 hi (by decide)) (by show 128 * (i 0).val + 34 < 16384; omega) _ _ _ q)
  ihave HD0 := (consH _ _) $$ HR0 HD0
  ihave HD1 := (consH _ _) $$ HR1 HD1
  ihave HD2 := (consH _ _) $$ HR2 HD2
  ihave HDC0 := (consH _ _) $$ HC0 HDC0
  ihave HDC1 := (consH _ _) $$ HC1 HDC1
  ihave HDC2 := (consH _ _) $$ HC2 HDC2
  ihave HDT0 := (consH _ _) $$ HT0 HDT0
  ihave HDT1 := (consH _ _) $$ HT1 HDT1
  ihave HDT2 := (consH _ _) $$ HT2 HDT2
  -- row 35: its three copies land; the row's resources go to the heads of the chains of what is done
  icases HB35 with ⟨HC0, HT0, HC1, HT1, HC2, HT2⟩
  sl_exec (disch := first | sl_exact hU _ _ | sl_exact hI _ _ | sl_exact hJ _ _)
  ihave HR0 := (row_deliverP scM0 c 35 (by decide) inb_S128x64_S1x64_35_0 _ fs0 _ (gU c i xt0 fh0)) $$ HR0 %(fun q => deliver_gath (by decide) c hbM0 tbM0 fh0 xt0 i ⟨35, by decide⟩ (k0_off141 i) (by show (Scalar.indexCast (Scalar.addi (Scalar.muli (BitVec.ofNat 32 (i 0).val) 128#32) (BitVec.ofNat 32 35))).toNat = _; exact off_val _ 35 hi (by decide)) (by show 128 * (i 0).val + 35 < 16384; omega) _ _ _ q)
  ihave HR1 := (row_deliverP scM1 c 35 (by decide) inb_S128x64_S1x64_35_0 _ fs1 _ (gVi c i xt1 fh1)) $$ HR1 %(fun q => deliver_gath (by decide) c hbM1 tbM1 fh1 xt1 i ⟨35, by decide⟩ (k0_off141 i) (by show (Scalar.indexCast (Scalar.addi (Scalar.muli (BitVec.ofNat 32 (i 0).val) 128#32) (BitVec.ofNat 32 35))).toNat = _; exact off_val _ 35 hi (by decide)) (by show 128 * (i 0).val + 35 < 16384; omega) _ _ _ q)
  ihave HR2 := (row_deliverP scM2 c 35 (by decide) inb_S128x64_S1x64_35_0 _ fs2 _ (gVj c i xt2 fh1)) $$ HR2 %(fun q => deliver_gath (by decide) c hbM1 tbM2 fh1 xt2 i ⟨35, by decide⟩ (k0_off141 i) (by show (Scalar.indexCast (Scalar.addi (Scalar.muli (BitVec.ofNat 32 (i 0).val) 128#32) (BitVec.ofNat 32 35))).toNat = _; exact off_val _ 35 hi (by decide)) (by show 128 * (i 0).val + 35 < 16384; omega) _ _ _ q)
  ihave HD0 := (consH _ _) $$ HR0 HD0
  ihave HD1 := (consH _ _) $$ HR1 HD1
  ihave HD2 := (consH _ _) $$ HR2 HD2
  ihave HDC0 := (consH _ _) $$ HC0 HDC0
  ihave HDC1 := (consH _ _) $$ HC1 HDC1
  ihave HDC2 := (consH _ _) $$ HC2 HDC2
  ihave HDT0 := (consH _ _) $$ HT0 HDT0
  ihave HDT1 := (consH _ _) $$ HT1 HDT1
  ihave HDT2 := (consH _ _) $$ HT2 HDT2
  -- row 36: its three copies land; the row's resources go to the heads of the chains of what is done
  icases HB36 with ⟨HC0, HT0, HC1, HT1, HC2, HT2⟩
  sl_exec (disch := first | sl_exact hU _ _ | sl_exact hI _ _ | sl_exact hJ _ _)
  ihave HR0 := (row_deliverP scM0 c 36 (by decide) inb_S128x64_S1x64_36_0 _ fs0 _ (gU c i xt0 fh0)) $$ HR0 %(fun q => deliver_gath (by decide) c hbM0 tbM0 fh0 xt0 i ⟨36, by decide⟩ (k0_off145 i) (by show (Scalar.indexCast (Scalar.addi (Scalar.muli (BitVec.ofNat 32 (i 0).val) 128#32) (BitVec.ofNat 32 36))).toNat = _; exact off_val _ 36 hi (by decide)) (by show 128 * (i 0).val + 36 < 16384; omega) _ _ _ q)
  ihave HR1 := (row_deliverP scM1 c 36 (by decide) inb_S128x64_S1x64_36_0 _ fs1 _ (gVi c i xt1 fh1)) $$ HR1 %(fun q => deliver_gath (by decide) c hbM1 tbM1 fh1 xt1 i ⟨36, by decide⟩ (k0_off145 i) (by show (Scalar.indexCast (Scalar.addi (Scalar.muli (BitVec.ofNat 32 (i 0).val) 128#32) (BitVec.ofNat 32 36))).toNat = _; exact off_val _ 36 hi (by decide)) (by show 128 * (i 0).val + 36 < 16384; omega) _ _ _ q)
  ihave HR2 := (row_deliverP scM2 c 36 (by decide) inb_S128x64_S1x64_36_0 _ fs2 _ (gVj c i xt2 fh1)) $$ HR2 %(fun q => deliver_gath (by decide) c hbM1 tbM2 fh1 xt2 i ⟨36, by decide⟩ (k0_off145 i) (by show (Scalar.indexCast (Scalar.addi (Scalar.muli (BitVec.ofNat 32 (i 0).val) 128#32) (BitVec.ofNat 32 36))).toNat = _; exact off_val _ 36 hi (by decide)) (by show 128 * (i 0).val + 36 < 16384; omega) _ _ _ q)
  ihave HD0 := (consH _ _) $$ HR0 HD0
  ihave HD1 := (consH _ _) $$ HR1 HD1
  ihave HD2 := (consH _ _) $$ HR2 HD2
  ihave HDC0 := (consH _ _) $$ HC0 HDC0
  ihave HDC1 := (consH _ _) $$ HC1 HDC1
  ihave HDC2 := (consH _ _) $$ HC2 HDC2
  ihave HDT0 := (consH _ _) $$ HT0 HDT0
  ihave HDT1 := (consH _ _) $$ HT1 HDT1
  ihave HDT2 := (consH _ _) $$ HT2 HDT2
  -- row 37: its three copies land; the row's resources go to the heads of the chains of what is done
  icases HB37 with ⟨HC0, HT0, HC1, HT1, HC2, HT2⟩
  sl_exec (disch := first | sl_exact hU _ _ | sl_exact hI _ _ | sl_exact hJ _ _)
  ihave HR0 := (row_deliverP scM0 c 37 (by decide) inb_S128x64_S1x64_37_0 _ fs0 _ (gU c i xt0 fh0)) $$ HR0 %(fun q => deliver_gath (by decide) c hbM0 tbM0 fh0 xt0 i ⟨37, by decide⟩ (k0_off149 i) (by show (Scalar.indexCast (Scalar.addi (Scalar.muli (BitVec.ofNat 32 (i 0).val) 128#32) (BitVec.ofNat 32 37))).toNat = _; exact off_val _ 37 hi (by decide)) (by show 128 * (i 0).val + 37 < 16384; omega) _ _ _ q)
  ihave HR1 := (row_deliverP scM1 c 37 (by decide) inb_S128x64_S1x64_37_0 _ fs1 _ (gVi c i xt1 fh1)) $$ HR1 %(fun q => deliver_gath (by decide) c hbM1 tbM1 fh1 xt1 i ⟨37, by decide⟩ (k0_off149 i) (by show (Scalar.indexCast (Scalar.addi (Scalar.muli (BitVec.ofNat 32 (i 0).val) 128#32) (BitVec.ofNat 32 37))).toNat = _; exact off_val _ 37 hi (by decide)) (by show 128 * (i 0).val + 37 < 16384; omega) _ _ _ q)
  ihave HR2 := (row_deliverP scM2 c 37 (by decide) inb_S128x64_S1x64_37_0 _ fs2 _ (gVj c i xt2 fh1)) $$ HR2 %(fun q => deliver_gath (by decide) c hbM1 tbM2 fh1 xt2 i ⟨37, by decide⟩ (k0_off149 i) (by show (Scalar.indexCast (Scalar.addi (Scalar.muli (BitVec.ofNat 32 (i 0).val) 128#32) (BitVec.ofNat 32 37))).toNat = _; exact off_val _ 37 hi (by decide)) (by show 128 * (i 0).val + 37 < 16384; omega) _ _ _ q)
  ihave HD0 := (consH _ _) $$ HR0 HD0
  ihave HD1 := (consH _ _) $$ HR1 HD1
  ihave HD2 := (consH _ _) $$ HR2 HD2
  ihave HDC0 := (consH _ _) $$ HC0 HDC0
  ihave HDC1 := (consH _ _) $$ HC1 HDC1
  ihave HDC2 := (consH _ _) $$ HC2 HDC2
  ihave HDT0 := (consH _ _) $$ HT0 HDT0
  ihave HDT1 := (consH _ _) $$ HT1 HDT1
  ihave HDT2 := (consH _ _) $$ HT2 HDT2
  -- row 38: its three copies land; the row's resources go to the heads of the chains of what is done
  icases HB38 with ⟨HC0, HT0, HC1, HT1, HC2, HT2⟩
  sl_exec (disch := first | sl_exact hU _ _ | sl_exact hI _ _ | sl_exact hJ _ _)
  ihave HR0 := (row_deliverP scM0 c 38 (by decide) inb_S128x64_S1x64_38_0 _ fs0 _ (gU c i xt0 fh0)) $$ HR0 %(fun q => deliver_gath (by decide) c hbM0 tbM0 fh0 xt0 i ⟨38, by decide⟩ (k0_off153 i) (by show (Scalar.indexCast (Scalar.addi (Scalar.muli (BitVec.ofNat 32 (i 0).val) 128#32) (BitVec.ofNat 32 38))).toNat = _; exact off_val _ 38 hi (by decide)) (by show 128 * (i 0).val + 38 < 16384; omega) _ _ _ q)
  ihave HR1 := (row_deliverP scM1 c 38 (by decide) inb_S128x64_S1x64_38_0 _ fs1 _ (gVi c i xt1 fh1)) $$ HR1 %(fun q => deliver_gath (by decide) c hbM1 tbM1 fh1 xt1 i ⟨38, by decide⟩ (k0_off153 i) (by show (Scalar.indexCast (Scalar.addi (Scalar.muli (BitVec.ofNat 32 (i 0).val) 128#32) (BitVec.ofNat 32 38))).toNat = _; exact off_val _ 38 hi (by decide)) (by show 128 * (i 0).val + 38 < 16384; omega) _ _ _ q)
  ihave HR2 := (row_deliverP scM2 c 38 (by decide) inb_S128x64_S1x64_38_0 _ fs2 _ (gVj c i xt2 fh1)) $$ HR2 %(fun q => deliver_gath (by decide) c hbM1 tbM2 fh1 xt2 i ⟨38, by decide⟩ (k0_off153 i) (by show (Scalar.indexCast (Scalar.addi (Scalar.muli (BitVec.ofNat 32 (i 0).val) 128#32) (BitVec.ofNat 32 38))).toNat = _; exact off_val _ 38 hi (by decide)) (by show 128 * (i 0).val + 38 < 16384; omega) _ _ _ q)
  ihave HD0 := (consH _ _) $$ HR0 HD0
  ihave HD1 := (consH _ _) $$ HR1 HD1
  ihave HD2 := (consH _ _) $$ HR2 HD2
  ihave HDC0 := (consH _ _) $$ HC0 HDC0
  ihave HDC1 := (consH _ _) $$ HC1 HDC1
  ihave HDC2 := (consH _ _) $$ HC2 HDC2
  ihave HDT0 := (consH _ _) $$ HT0 HDT0
  ihave HDT1 := (consH _ _) $$ HT1 HDT1
  ihave HDT2 := (consH _ _) $$ HT2 HDT2
  -- row 39: its three copies land; the row's resources go to the heads of the chains of what is done
  icases HB39 with ⟨HC0, HT0, HC1, HT1, HC2, HT2⟩
  sl_exec (disch := first | sl_exact hU _ _ | sl_exact hI _ _ | sl_exact hJ _ _)
  ihave HR0 := (row_deliverP scM0 c 39 (by decide) inb_S128x64_S1x64_39_0 _ fs0 _ (gU c i xt0 fh0)) $$ HR0 %(fun q => deliver_gath (by decide) c hbM0 tbM0 fh0 xt0 i ⟨39, by decide⟩ (k0_off157 i) (by show (Scalar.indexCast (Scalar.addi (Scalar.muli (BitVec.ofNat 32 (i 0).val) 128#32) (BitVec.ofNat 32 39))).toNat = _; exact off_val _ 39 hi (by decide)) (by show 128 * (i 0).val + 39 < 16384; omega) _ _ _ q)
  ihave HR1 := (row_deliverP scM1 c 39 (by decide) inb_S128x64_S1x64_39_0 _ fs1 _ (gVi c i xt1 fh1)) $$ HR1 %(fun q => deliver_gath (by decide) c hbM1 tbM1 fh1 xt1 i ⟨39, by decide⟩ (k0_off157 i) (by show (Scalar.indexCast (Scalar.addi (Scalar.muli (BitVec.ofNat 32 (i 0).val) 128#32) (BitVec.ofNat 32 39))).toNat = _; exact off_val _ 39 hi (by decide)) (by show 128 * (i 0).val + 39 < 16384; omega) _ _ _ q)
  ihave HR2 := (row_deliverP scM2 c 39 (by decide) inb_S128x64_S1x64_39_0 _ fs2 _ (gVj c i xt2 fh1)) $$ HR2 %(fun q => deliver_gath (by decide) c hbM1 tbM2 fh1 xt2 i ⟨39, by decide⟩ (k0_off157 i) (by show (Scalar.indexCast (Scalar.addi (Scalar.muli (BitVec.ofNat 32 (i 0).val) 128#32) (BitVec.ofNat 32 39))).toNat = _; exact off_val _ 39 hi (by decide)) (by show 128 * (i 0).val + 39 < 16384; omega) _ _ _ q)
  ihave HD0 := (consH _ _) $$ HR0 HD0
  ihave HD1 := (consH _ _) $$ HR1 HD1
  ihave HD2 := (consH _ _) $$ HR2 HD2
  ihave HDC0 := (consH _ _) $$ HC0 HDC0
  ihave HDC1 := (consH _ _) $$ HC1 HDC1
  ihave HDC2 := (consH _ _) $$ HC2 HDC2
  ihave HDT0 := (consH _ _) $$ HT0 HDT0
  ihave HDT1 := (consH _ _) $$ HT1 HDT1
  ihave HDT2 := (consH _ _) $$ HT2 HDT2
  -- row 40: its three copies land; the row's resources go to the heads of the chains of what is done
  icases HB40 with ⟨HC0, HT0, HC1, HT1, HC2, HT2⟩
  sl_exec (disch := first | sl_exact hU _ _ | sl_exact hI _ _ | sl_exact hJ _ _)
  ihave HR0 := (row_deliverP scM0 c 40 (by decide) inb_S128x64_S1x64_40_0 _ fs0 _ (gU c i xt0 fh0)) $$ HR0 %(fun q => deliver_gath (by decide) c hbM0 tbM0 fh0 xt0 i ⟨40, by decide⟩ (k0_off161 i) (by show (Scalar.indexCast (Scalar.addi (Scalar.muli (BitVec.ofNat 32 (i 0).val) 128#32) (BitVec.ofNat 32 40))).toNat = _; exact off_val _ 40 hi (by decide)) (by show 128 * (i 0).val + 40 < 16384; omega) _ _ _ q)
  ihave HR1 := (row_deliverP scM1 c 40 (by decide) inb_S128x64_S1x64_40_0 _ fs1 _ (gVi c i xt1 fh1)) $$ HR1 %(fun q => deliver_gath (by decide) c hbM1 tbM1 fh1 xt1 i ⟨40, by decide⟩ (k0_off161 i) (by show (Scalar.indexCast (Scalar.addi (Scalar.muli (BitVec.ofNat 32 (i 0).val) 128#32) (BitVec.ofNat 32 40))).toNat = _; exact off_val _ 40 hi (by decide)) (by show 128 * (i 0).val + 40 < 16384; omega) _ _ _ q)
  ihave HR2 := (row_deliverP scM2 c 40 (by decide) inb_S128x64_S1x64_40_0 _ fs2 _ (gVj c i xt2 fh1)) $$ HR2 %(fun q => deliver_gath (by decide) c hbM1 tbM2 fh1 xt2 i ⟨40, by decide⟩ (k0_off161 i) (by show (Scalar.indexCast (Scalar.addi (Scalar.muli (BitVec.ofNat 32 (i 0).val) 128#32) (BitVec.ofNat 32 40))).toNat = _; exact off_val _ 40 hi (by decide)) (by show 128 * (i 0).val + 40 < 16384; omega) _ _ _ q)
  ihave HD0 := (consH _ _) $$ HR0 HD0
  ihave HD1 := (consH _ _) $$ HR1 HD1
  ihave HD2 := (consH _ _) $$ HR2 HD2
  ihave HDC0 := (consH _ _) $$ HC0 HDC0
  ihave HDC1 := (consH _ _) $$ HC1 HDC1
  ihave HDC2 := (consH _ _) $$ HC2 HDC2
  ihave HDT0 := (consH _ _) $$ HT0 HDT0
  ihave HDT1 := (consH _ _) $$ HT1 HDT1
  ihave HDT2 := (consH _ _) $$ HT2 HDT2
  -- row 41: its three copies land; the row's resources go to the heads of the chains of what is done
  icases HB41 with ⟨HC0, HT0, HC1, HT1, HC2, HT2⟩
  sl_exec (disch := first | sl_exact hU _ _ | sl_exact hI _ _ | sl_exact hJ _ _)
  ihave HR0 := (row_deliverP scM0 c 41 (by decide) inb_S128x64_S1x64_41_0 _ fs0 _ (gU c i xt0 fh0)) $$ HR0 %(fun q => deliver_gath (by decide) c hbM0 tbM0 fh0 xt0 i ⟨41, by decide⟩ (k0_off165 i) (by show (Scalar.indexCast (Scalar.addi (Scalar.muli (BitVec.ofNat 32 (i 0).val) 128#32) (BitVec.ofNat 32 41))).toNat = _; exact off_val _ 41 hi (by decide)) (by show 128 * (i 0).val + 41 < 16384; omega) _ _ _ q)
  ihave HR1 := (row_deliverP scM1 c 41 (by decide) inb_S128x64_S1x64_41_0 _ fs1 _ (gVi c i xt1 fh1)) $$ HR1 %(fun q => deliver_gath (by decide) c hbM1 tbM1 fh1 xt1 i ⟨41, by decide⟩ (k0_off165 i) (by show (Scalar.indexCast (Scalar.addi (Scalar.muli (BitVec.ofNat 32 (i 0).val) 128#32) (BitVec.ofNat 32 41))).toNat = _; exact off_val _ 41 hi (by decide)) (by show 128 * (i 0).val + 41 < 16384; omega) _ _ _ q)
  ihave HR2 := (row_deliverP scM2 c 41 (by decide) inb_S128x64_S1x64_41_0 _ fs2 _ (gVj c i xt2 fh1)) $$ HR2 %(fun q => deliver_gath (by decide) c hbM1 tbM2 fh1 xt2 i ⟨41, by decide⟩ (k0_off165 i) (by show (Scalar.indexCast (Scalar.addi (Scalar.muli (BitVec.ofNat 32 (i 0).val) 128#32) (BitVec.ofNat 32 41))).toNat = _; exact off_val _ 41 hi (by decide)) (by show 128 * (i 0).val + 41 < 16384; omega) _ _ _ q)
  ihave HD0 := (consH _ _) $$ HR0 HD0
  ihave HD1 := (consH _ _) $$ HR1 HD1
  ihave HD2 := (consH _ _) $$ HR2 HD2
  ihave HDC0 := (consH _ _) $$ HC0 HDC0
  ihave HDC1 := (consH _ _) $$ HC1 HDC1
  ihave HDC2 := (consH _ _) $$ HC2 HDC2
  ihave HDT0 := (consH _ _) $$ HT0 HDT0
  ihave HDT1 := (consH _ _) $$ HT1 HDT1
  ihave HDT2 := (consH _ _) $$ HT2 HDT2
  -- row 42: its three copies land; the row's resources go to the heads of the chains of what is done
  icases HB42 with ⟨HC0, HT0, HC1, HT1, HC2, HT2⟩
  sl_exec (disch := first | sl_exact hU _ _ | sl_exact hI _ _ | sl_exact hJ _ _)
  ihave HR0 := (row_deliverP scM0 c 42 (by decide) inb_S128x64_S1x64_42_0 _ fs0 _ (gU c i xt0 fh0)) $$ HR0 %(fun q => deliver_gath (by decide) c hbM0 tbM0 fh0 xt0 i ⟨42, by decide⟩ (k0_off169 i) (by show (Scalar.indexCast (Scalar.addi (Scalar.muli (BitVec.ofNat 32 (i 0).val) 128#32) (BitVec.ofNat 32 42))).toNat = _; exact off_val _ 42 hi (by decide)) (by show 128 * (i 0).val + 42 < 16384; omega) _ _ _ q)
  ihave HR1 := (row_deliverP scM1 c 42 (by decide) inb_S128x64_S1x64_42_0 _ fs1 _ (gVi c i xt1 fh1)) $$ HR1 %(fun q => deliver_gath (by decide) c hbM1 tbM1 fh1 xt1 i ⟨42, by decide⟩ (k0_off169 i) (by show (Scalar.indexCast (Scalar.addi (Scalar.muli (BitVec.ofNat 32 (i 0).val) 128#32) (BitVec.ofNat 32 42))).toNat = _; exact off_val _ 42 hi (by decide)) (by show 128 * (i 0).val + 42 < 16384; omega) _ _ _ q)
  ihave HR2 := (row_deliverP scM2 c 42 (by decide) inb_S128x64_S1x64_42_0 _ fs2 _ (gVj c i xt2 fh1)) $$ HR2 %(fun q => deliver_gath (by decide) c hbM1 tbM2 fh1 xt2 i ⟨42, by decide⟩ (k0_off169 i) (by show (Scalar.indexCast (Scalar.addi (Scalar.muli (BitVec.ofNat 32 (i 0).val) 128#32) (BitVec.ofNat 32 42))).toNat = _; exact off_val _ 42 hi (by decide)) (by show 128 * (i 0).val + 42 < 16384; omega) _ _ _ q)
  ihave HD0 := (consH _ _) $$ HR0 HD0
  ihave HD1 := (consH _ _) $$ HR1 HD1
  ihave HD2 := (consH _ _) $$ HR2 HD2
  ihave HDC0 := (consH _ _) $$ HC0 HDC0
  ihave HDC1 := (consH _ _) $$ HC1 HDC1
  ihave HDC2 := (consH _ _) $$ HC2 HDC2
  ihave HDT0 := (consH _ _) $$ HT0 HDT0
  ihave HDT1 := (consH _ _) $$ HT1 HDT1
  ihave HDT2 := (consH _ _) $$ HT2 HDT2
  -- row 43: its three copies land; the row's resources go to the heads of the chains of what is done
  icases HB43 with ⟨HC0, HT0, HC1, HT1, HC2, HT2⟩
  sl_exec (disch := first | sl_exact hU _ _ | sl_exact hI _ _ | sl_exact hJ _ _)
  ihave HR0 := (row_deliverP scM0 c 43 (by decide) inb_S128x64_S1x64_43_0 _ fs0 _ (gU c i xt0 fh0)) $$ HR0 %(fun q => deliver_gath (by decide) c hbM0 tbM0 fh0 xt0 i ⟨43, by decide⟩ (k0_off173 i) (by show (Scalar.indexCast (Scalar.addi (Scalar.muli (BitVec.ofNat 32 (i 0).val) 128#32) (BitVec.ofNat 32 43))).toNat = _; exact off_val _ 43 hi (by decide)) (by show 128 * (i 0).val + 43 < 16384; omega) _ _ _ q)
  ihave HR1 := (row_deliverP scM1 c 43 (by decide) inb_S128x64_S1x64_43_0 _ fs1 _ (gVi c i xt1 fh1)) $$ HR1 %(fun q => deliver_gath (by decide) c hbM1 tbM1 fh1 xt1 i ⟨43, by decide⟩ (k0_off173 i) (by show (Scalar.indexCast (Scalar.addi (Scalar.muli (BitVec.ofNat 32 (i 0).val) 128#32) (BitVec.ofNat 32 43))).toNat = _; exact off_val _ 43 hi (by decide)) (by show 128 * (i 0).val + 43 < 16384; omega) _ _ _ q)
  ihave HR2 := (row_deliverP scM2 c 43 (by decide) inb_S128x64_S1x64_43_0 _ fs2 _ (gVj c i xt2 fh1)) $$ HR2 %(fun q => deliver_gath (by decide) c hbM1 tbM2 fh1 xt2 i ⟨43, by decide⟩ (k0_off173 i) (by show (Scalar.indexCast (Scalar.addi (Scalar.muli (BitVec.ofNat 32 (i 0).val) 128#32) (BitVec.ofNat 32 43))).toNat = _; exact off_val _ 43 hi (by decide)) (by show 128 * (i 0).val + 43 < 16384; omega) _ _ _ q)
  ihave HD0 := (consH _ _) $$ HR0 HD0
  ihave HD1 := (consH _ _) $$ HR1 HD1
  ihave HD2 := (consH _ _) $$ HR2 HD2
  ihave HDC0 := (consH _ _) $$ HC0 HDC0
  ihave HDC1 := (consH _ _) $$ HC1 HDC1
  ihave HDC2 := (consH _ _) $$ HC2 HDC2
  ihave HDT0 := (consH _ _) $$ HT0 HDT0
  ihave HDT1 := (consH _ _) $$ HT1 HDT1
  ihave HDT2 := (consH _ _) $$ HT2 HDT2
  -- row 44: its three copies land; the row's resources go to the heads of the chains of what is done
  icases HB44 with ⟨HC0, HT0, HC1, HT1, HC2, HT2⟩
  sl_exec (disch := first | sl_exact hU _ _ | sl_exact hI _ _ | sl_exact hJ _ _)
  ihave HR0 := (row_deliverP scM0 c 44 (by decide) inb_S128x64_S1x64_44_0 _ fs0 _ (gU c i xt0 fh0)) $$ HR0 %(fun q => deliver_gath (by decide) c hbM0 tbM0 fh0 xt0 i ⟨44, by decide⟩ (k0_off177 i) (by show (Scalar.indexCast (Scalar.addi (Scalar.muli (BitVec.ofNat 32 (i 0).val) 128#32) (BitVec.ofNat 32 44))).toNat = _; exact off_val _ 44 hi (by decide)) (by show 128 * (i 0).val + 44 < 16384; omega) _ _ _ q)
  ihave HR1 := (row_deliverP scM1 c 44 (by decide) inb_S128x64_S1x64_44_0 _ fs1 _ (gVi c i xt1 fh1)) $$ HR1 %(fun q => deliver_gath (by decide) c hbM1 tbM1 fh1 xt1 i ⟨44, by decide⟩ (k0_off177 i) (by show (Scalar.indexCast (Scalar.addi (Scalar.muli (BitVec.ofNat 32 (i 0).val) 128#32) (BitVec.ofNat 32 44))).toNat = _; exact off_val _ 44 hi (by decide)) (by show 128 * (i 0).val + 44 < 16384; omega) _ _ _ q)
  ihave HR2 := (row_deliverP scM2 c 44 (by decide) inb_S128x64_S1x64_44_0 _ fs2 _ (gVj c i xt2 fh1)) $$ HR2 %(fun q => deliver_gath (by decide) c hbM1 tbM2 fh1 xt2 i ⟨44, by decide⟩ (k0_off177 i) (by show (Scalar.indexCast (Scalar.addi (Scalar.muli (BitVec.ofNat 32 (i 0).val) 128#32) (BitVec.ofNat 32 44))).toNat = _; exact off_val _ 44 hi (by decide)) (by show 128 * (i 0).val + 44 < 16384; omega) _ _ _ q)
  ihave HD0 := (consH _ _) $$ HR0 HD0
  ihave HD1 := (consH _ _) $$ HR1 HD1
  ihave HD2 := (consH _ _) $$ HR2 HD2
  ihave HDC0 := (consH _ _) $$ HC0 HDC0
  ihave HDC1 := (consH _ _) $$ HC1 HDC1
  ihave HDC2 := (consH _ _) $$ HC2 HDC2
  ihave HDT0 := (consH _ _) $$ HT0 HDT0
  ihave HDT1 := (consH _ _) $$ HT1 HDT1
  ihave HDT2 := (consH _ _) $$ HT2 HDT2
  -- row 45: its three copies land; the row's resources go to the heads of the chains of what is done
  icases HB45 with ⟨HC0, HT0, HC1, HT1, HC2, HT2⟩
  sl_exec (disch := first | sl_exact hU _ _ | sl_exact hI _ _ | sl_exact hJ _ _)
  ihave HR0 := (row_deliverP scM0 c 45 (by decide) inb_S128x64_S1x64_45_0 _ fs0 _ (gU c i xt0 fh0)) $$ HR0 %(fun q => deliver_gath (by decide) c hbM0 tbM0 fh0 xt0 i ⟨45, by decide⟩ (k0_off181 i) (by show (Scalar.indexCast (Scalar.addi (Scalar.muli (BitVec.ofNat 32 (i 0).val) 128#32) (BitVec.ofNat 32 45))).toNat = _; exact off_val _ 45 hi (by decide)) (by show 128 * (i 0).val + 45 < 16384; omega) _ _ _ q)
  ihave HR1 := (row_deliverP scM1 c 45 (by decide) inb_S128x64_S1x64_45_0 _ fs1 _ (gVi c i xt1 fh1)) $$ HR1 %(fun q => deliver_gath (by decide) c hbM1 tbM1 fh1 xt1 i ⟨45, by decide⟩ (k0_off181 i) (by show (Scalar.indexCast (Scalar.addi (Scalar.muli (BitVec.ofNat 32 (i 0).val) 128#32) (BitVec.ofNat 32 45))).toNat = _; exact off_val _ 45 hi (by decide)) (by show 128 * (i 0).val + 45 < 16384; omega) _ _ _ q)
  ihave HR2 := (row_deliverP scM2 c 45 (by decide) inb_S128x64_S1x64_45_0 _ fs2 _ (gVj c i xt2 fh1)) $$ HR2 %(fun q => deliver_gath (by decide) c hbM1 tbM2 fh1 xt2 i ⟨45, by decide⟩ (k0_off181 i) (by show (Scalar.indexCast (Scalar.addi (Scalar.muli (BitVec.ofNat 32 (i 0).val) 128#32) (BitVec.ofNat 32 45))).toNat = _; exact off_val _ 45 hi (by decide)) (by show 128 * (i 0).val + 45 < 16384; omega) _ _ _ q)
  ihave HD0 := (consH _ _) $$ HR0 HD0
  ihave HD1 := (consH _ _) $$ HR1 HD1
  ihave HD2 := (consH _ _) $$ HR2 HD2
  ihave HDC0 := (consH _ _) $$ HC0 HDC0
  ihave HDC1 := (consH _ _) $$ HC1 HDC1
  ihave HDC2 := (consH _ _) $$ HC2 HDC2
  ihave HDT0 := (consH _ _) $$ HT0 HDT0
  ihave HDT1 := (consH _ _) $$ HT1 HDT1
  ihave HDT2 := (consH _ _) $$ HT2 HDT2
  -- row 46: its three copies land; the row's resources go to the heads of the chains of what is done
  icases HB46 with ⟨HC0, HT0, HC1, HT1, HC2, HT2⟩
  sl_exec (disch := first | sl_exact hU _ _ | sl_exact hI _ _ | sl_exact hJ _ _)
  ihave HR0 := (row_deliverP scM0 c 46 (by decide) inb_S128x64_S1x64_46_0 _ fs0 _ (gU c i xt0 fh0)) $$ HR0 %(fun q => deliver_gath (by decide) c hbM0 tbM0 fh0 xt0 i ⟨46, by decide⟩ (k0_off185 i) (by show (Scalar.indexCast (Scalar.addi (Scalar.muli (BitVec.ofNat 32 (i 0).val) 128#32) (BitVec.ofNat 32 46))).toNat = _; exact off_val _ 46 hi (by decide)) (by show 128 * (i 0).val + 46 < 16384; omega) _ _ _ q)
  ihave HR1 := (row_deliverP scM1 c 46 (by decide) inb_S128x64_S1x64_46_0 _ fs1 _ (gVi c i xt1 fh1)) $$ HR1 %(fun q => deliver_gath (by decide) c hbM1 tbM1 fh1 xt1 i ⟨46, by decide⟩ (k0_off185 i) (by show (Scalar.indexCast (Scalar.addi (Scalar.muli (BitVec.ofNat 32 (i 0).val) 128#32) (BitVec.ofNat 32 46))).toNat = _; exact off_val _ 46 hi (by decide)) (by show 128 * (i 0).val + 46 < 16384; omega) _ _ _ q)
  ihave HR2 := (row_deliverP scM2 c 46 (by decide) inb_S128x64_S1x64_46_0 _ fs2 _ (gVj c i xt2 fh1)) $$ HR2 %(fun q => deliver_gath (by decide) c hbM1 tbM2 fh1 xt2 i ⟨46, by decide⟩ (k0_off185 i) (by show (Scalar.indexCast (Scalar.addi (Scalar.muli (BitVec.ofNat 32 (i 0).val) 128#32) (BitVec.ofNat 32 46))).toNat = _; exact off_val _ 46 hi (by decide)) (by show 128 * (i 0).val + 46 < 16384; omega) _ _ _ q)
  ihave HD0 := (consH _ _) $$ HR0 HD0
  ihave HD1 := (consH _ _) $$ HR1 HD1
  ihave HD2 := (consH _ _) $$ HR2 HD2
  ihave HDC0 := (consH _ _) $$ HC0 HDC0
  ihave HDC1 := (consH _ _) $$ HC1 HDC1
  ihave HDC2 := (consH _ _) $$ HC2 HDC2
  ihave HDT0 := (consH _ _) $$ HT0 HDT0
  ihave HDT1 := (consH _ _) $$ HT1 HDT1
  ihave HDT2 := (consH _ _) $$ HT2 HDT2
  -- row 47: its three copies land; the row's resources go to the heads of the chains of what is done
  icases HB47 with ⟨HC0, HT0, HC1, HT1, HC2, HT2⟩
  sl_exec (disch := first | sl_exact hU _ _ | sl_exact hI _ _ | sl_exact hJ _ _)
  ihave HR0 := (row_deliverP scM0 c 47 (by decide) inb_S128x64_S1x64_47_0 _ fs0 _ (gU c i xt0 fh0)) $$ HR0 %(fun q => deliver_gath (by decide) c hbM0 tbM0 fh0 xt0 i ⟨47, by decide⟩ (k0_off189 i) (by show (Scalar.indexCast (Scalar.addi (Scalar.muli (BitVec.ofNat 32 (i 0).val) 128#32) (BitVec.ofNat 32 47))).toNat = _; exact off_val _ 47 hi (by decide)) (by show 128 * (i 0).val + 47 < 16384; omega) _ _ _ q)
  ihave HR1 := (row_deliverP scM1 c 47 (by decide) inb_S128x64_S1x64_47_0 _ fs1 _ (gVi c i xt1 fh1)) $$ HR1 %(fun q => deliver_gath (by decide) c hbM1 tbM1 fh1 xt1 i ⟨47, by decide⟩ (k0_off189 i) (by show (Scalar.indexCast (Scalar.addi (Scalar.muli (BitVec.ofNat 32 (i 0).val) 128#32) (BitVec.ofNat 32 47))).toNat = _; exact off_val _ 47 hi (by decide)) (by show 128 * (i 0).val + 47 < 16384; omega) _ _ _ q)
  ihave HR2 := (row_deliverP scM2 c 47 (by decide) inb_S128x64_S1x64_47_0 _ fs2 _ (gVj c i xt2 fh1)) $$ HR2 %(fun q => deliver_gath (by decide) c hbM1 tbM2 fh1 xt2 i ⟨47, by decide⟩ (k0_off189 i) (by show (Scalar.indexCast (Scalar.addi (Scalar.muli (BitVec.ofNat 32 (i 0).val) 128#32) (BitVec.ofNat 32 47))).toNat = _; exact off_val _ 47 hi (by decide)) (by show 128 * (i 0).val + 47 < 16384; omega) _ _ _ q)
  ihave HD0 := (consH _ _) $$ HR0 HD0
  ihave HD1 := (consH _ _) $$ HR1 HD1
  ihave HD2 := (consH _ _) $$ HR2 HD2
  ihave HDC0 := (consH _ _) $$ HC0 HDC0
  ihave HDC1 := (consH _ _) $$ HC1 HDC1
  ihave HDC2 := (consH _ _) $$ HC2 HDC2
  ihave HDT0 := (consH _ _) $$ HT0 HDT0
  ihave HDT1 := (consH _ _) $$ HT1 HDT1
  ihave HDT2 := (consH _ _) $$ HT2 HDT2
  -- row 48: its three copies land; the row's resources go to the heads of the chains of what is done
  icases HB48 with ⟨HC0, HT0, HC1, HT1, HC2, HT2⟩
  sl_exec (disch := first | sl_exact hU _ _ | sl_exact hI _ _ | sl_exact hJ _ _)
  ihave HR0 := (row_deliverP scM0 c 48 (by decide) inb_S128x64_S1x64_48_0 _ fs0 _ (gU c i xt0 fh0)) $$ HR0 %(fun q => deliver_gath (by decide) c hbM0 tbM0 fh0 xt0 i ⟨48, by decide⟩ (k0_off193 i) (by show (Scalar.indexCast (Scalar.addi (Scalar.muli (BitVec.ofNat 32 (i 0).val) 128#32) (BitVec.ofNat 32 48))).toNat = _; exact off_val _ 48 hi (by decide)) (by show 128 * (i 0).val + 48 < 16384; omega) _ _ _ q)
  ihave HR1 := (row_deliverP scM1 c 48 (by decide) inb_S128x64_S1x64_48_0 _ fs1 _ (gVi c i xt1 fh1)) $$ HR1 %(fun q => deliver_gath (by decide) c hbM1 tbM1 fh1 xt1 i ⟨48, by decide⟩ (k0_off193 i) (by show (Scalar.indexCast (Scalar.addi (Scalar.muli (BitVec.ofNat 32 (i 0).val) 128#32) (BitVec.ofNat 32 48))).toNat = _; exact off_val _ 48 hi (by decide)) (by show 128 * (i 0).val + 48 < 16384; omega) _ _ _ q)
  ihave HR2 := (row_deliverP scM2 c 48 (by decide) inb_S128x64_S1x64_48_0 _ fs2 _ (gVj c i xt2 fh1)) $$ HR2 %(fun q => deliver_gath (by decide) c hbM1 tbM2 fh1 xt2 i ⟨48, by decide⟩ (k0_off193 i) (by show (Scalar.indexCast (Scalar.addi (Scalar.muli (BitVec.ofNat 32 (i 0).val) 128#32) (BitVec.ofNat 32 48))).toNat = _; exact off_val _ 48 hi (by decide)) (by show 128 * (i 0).val + 48 < 16384; omega) _ _ _ q)
  ihave HD0 := (consH _ _) $$ HR0 HD0
  ihave HD1 := (consH _ _) $$ HR1 HD1
  ihave HD2 := (consH _ _) $$ HR2 HD2
  ihave HDC0 := (consH _ _) $$ HC0 HDC0
  ihave HDC1 := (consH _ _) $$ HC1 HDC1
  ihave HDC2 := (consH _ _) $$ HC2 HDC2
  ihave HDT0 := (consH _ _) $$ HT0 HDT0
  ihave HDT1 := (consH _ _) $$ HT1 HDT1
  ihave HDT2 := (consH _ _) $$ HT2 HDT2
  -- row 49: its three copies land; the row's resources go to the heads of the chains of what is done
  icases HB49 with ⟨HC0, HT0, HC1, HT1, HC2, HT2⟩
  sl_exec (disch := first | sl_exact hU _ _ | sl_exact hI _ _ | sl_exact hJ _ _)
  ihave HR0 := (row_deliverP scM0 c 49 (by decide) inb_S128x64_S1x64_49_0 _ fs0 _ (gU c i xt0 fh0)) $$ HR0 %(fun q => deliver_gath (by decide) c hbM0 tbM0 fh0 xt0 i ⟨49, by decide⟩ (k0_off197 i) (by show (Scalar.indexCast (Scalar.addi (Scalar.muli (BitVec.ofNat 32 (i 0).val) 128#32) (BitVec.ofNat 32 49))).toNat = _; exact off_val _ 49 hi (by decide)) (by show 128 * (i 0).val + 49 < 16384; omega) _ _ _ q)
  ihave HR1 := (row_deliverP scM1 c 49 (by decide) inb_S128x64_S1x64_49_0 _ fs1 _ (gVi c i xt1 fh1)) $$ HR1 %(fun q => deliver_gath (by decide) c hbM1 tbM1 fh1 xt1 i ⟨49, by decide⟩ (k0_off197 i) (by show (Scalar.indexCast (Scalar.addi (Scalar.muli (BitVec.ofNat 32 (i 0).val) 128#32) (BitVec.ofNat 32 49))).toNat = _; exact off_val _ 49 hi (by decide)) (by show 128 * (i 0).val + 49 < 16384; omega) _ _ _ q)
  ihave HR2 := (row_deliverP scM2 c 49 (by decide) inb_S128x64_S1x64_49_0 _ fs2 _ (gVj c i xt2 fh1)) $$ HR2 %(fun q => deliver_gath (by decide) c hbM1 tbM2 fh1 xt2 i ⟨49, by decide⟩ (k0_off197 i) (by show (Scalar.indexCast (Scalar.addi (Scalar.muli (BitVec.ofNat 32 (i 0).val) 128#32) (BitVec.ofNat 32 49))).toNat = _; exact off_val _ 49 hi (by decide)) (by show 128 * (i 0).val + 49 < 16384; omega) _ _ _ q)
  ihave HD0 := (consH _ _) $$ HR0 HD0
  ihave HD1 := (consH _ _) $$ HR1 HD1
  ihave HD2 := (consH _ _) $$ HR2 HD2
  ihave HDC0 := (consH _ _) $$ HC0 HDC0
  ihave HDC1 := (consH _ _) $$ HC1 HDC1
  ihave HDC2 := (consH _ _) $$ HC2 HDC2
  ihave HDT0 := (consH _ _) $$ HT0 HDT0
  ihave HDT1 := (consH _ _) $$ HT1 HDT1
  ihave HDT2 := (consH _ _) $$ HT2 HDT2
  -- row 50: its three copies land; the row's resources go to the heads of the chains of what is done
  icases HB50 with ⟨HC0, HT0, HC1, HT1, HC2, HT2⟩
  sl_exec (disch := first | sl_exact hU _ _ | sl_exact hI _ _ | sl_exact hJ _ _)
  ihave HR0 := (row_deliverP scM0 c 50 (by decide) inb_S128x64_S1x64_50_0 _ fs0 _ (gU c i xt0 fh0)) $$ HR0 %(fun q => deliver_gath (by decide) c hbM0 tbM0 fh0 xt0 i ⟨50, by decide⟩ (k0_off201 i) (by show (Scalar.indexCast (Scalar.addi (Scalar.muli (BitVec.ofNat 32 (i 0).val) 128#32) (BitVec.ofNat 32 50))).toNat = _; exact off_val _ 50 hi (by decide)) (by show 128 * (i 0).val + 50 < 16384; omega) _ _ _ q)
  ihave HR1 := (row_deliverP scM1 c 50 (by decide) inb_S128x64_S1x64_50_0 _ fs1 _ (gVi c i xt1 fh1)) $$ HR1 %(fun q => deliver_gath (by decide) c hbM1 tbM1 fh1 xt1 i ⟨50, by decide⟩ (k0_off201 i) (by show (Scalar.indexCast (Scalar.addi (Scalar.muli (BitVec.ofNat 32 (i 0).val) 128#32) (BitVec.ofNat 32 50))).toNat = _; exact off_val _ 50 hi (by decide)) (by show 128 * (i 0).val + 50 < 16384; omega) _ _ _ q)
  ihave HR2 := (row_deliverP scM2 c 50 (by decide) inb_S128x64_S1x64_50_0 _ fs2 _ (gVj c i xt2 fh1)) $$ HR2 %(fun q => deliver_gath (by decide) c hbM1 tbM2 fh1 xt2 i ⟨50, by decide⟩ (k0_off201 i) (by show (Scalar.indexCast (Scalar.addi (Scalar.muli (BitVec.ofNat 32 (i 0).val) 128#32) (BitVec.ofNat 32 50))).toNat = _; exact off_val _ 50 hi (by decide)) (by show 128 * (i 0).val + 50 < 16384; omega) _ _ _ q)
  ihave HD0 := (consH _ _) $$ HR0 HD0
  ihave HD1 := (consH _ _) $$ HR1 HD1
  ihave HD2 := (consH _ _) $$ HR2 HD2
  ihave HDC0 := (consH _ _) $$ HC0 HDC0
  ihave HDC1 := (consH _ _) $$ HC1 HDC1
  ihave HDC2 := (consH _ _) $$ HC2 HDC2
  ihave HDT0 := (consH _ _) $$ HT0 HDT0
  ihave HDT1 := (consH _ _) $$ HT1 HDT1
  ihave HDT2 := (consH _ _) $$ HT2 HDT2
  -- row 51: its three copies land; the row's resources go to the heads of the chains of what is done
  icases HB51 with ⟨HC0, HT0, HC1, HT1, HC2, HT2⟩
  sl_exec (disch := first | sl_exact hU _ _ | sl_exact hI _ _ | sl_exact hJ _ _)
  ihave HR0 := (row_deliverP scM0 c 51 (by decide) inb_S128x64_S1x64_51_0 _ fs0 _ (gU c i xt0 fh0)) $$ HR0 %(fun q => deliver_gath (by decide) c hbM0 tbM0 fh0 xt0 i ⟨51, by decide⟩ (k0_off205 i) (by show (Scalar.indexCast (Scalar.addi (Scalar.muli (BitVec.ofNat 32 (i 0).val) 128#32) (BitVec.ofNat 32 51))).toNat = _; exact off_val _ 51 hi (by decide)) (by show 128 * (i 0).val + 51 < 16384; omega) _ _ _ q)
  ihave HR1 := (row_deliverP scM1 c 51 (by decide) inb_S128x64_S1x64_51_0 _ fs1 _ (gVi c i xt1 fh1)) $$ HR1 %(fun q => deliver_gath (by decide) c hbM1 tbM1 fh1 xt1 i ⟨51, by decide⟩ (k0_off205 i) (by show (Scalar.indexCast (Scalar.addi (Scalar.muli (BitVec.ofNat 32 (i 0).val) 128#32) (BitVec.ofNat 32 51))).toNat = _; exact off_val _ 51 hi (by decide)) (by show 128 * (i 0).val + 51 < 16384; omega) _ _ _ q)
  ihave HR2 := (row_deliverP scM2 c 51 (by decide) inb_S128x64_S1x64_51_0 _ fs2 _ (gVj c i xt2 fh1)) $$ HR2 %(fun q => deliver_gath (by decide) c hbM1 tbM2 fh1 xt2 i ⟨51, by decide⟩ (k0_off205 i) (by show (Scalar.indexCast (Scalar.addi (Scalar.muli (BitVec.ofNat 32 (i 0).val) 128#32) (BitVec.ofNat 32 51))).toNat = _; exact off_val _ 51 hi (by decide)) (by show 128 * (i 0).val + 51 < 16384; omega) _ _ _ q)
  ihave HD0 := (consH _ _) $$ HR0 HD0
  ihave HD1 := (consH _ _) $$ HR1 HD1
  ihave HD2 := (consH _ _) $$ HR2 HD2
  ihave HDC0 := (consH _ _) $$ HC0 HDC0
  ihave HDC1 := (consH _ _) $$ HC1 HDC1
  ihave HDC2 := (consH _ _) $$ HC2 HDC2
  ihave HDT0 := (consH _ _) $$ HT0 HDT0
  ihave HDT1 := (consH _ _) $$ HT1 HDT1
  ihave HDT2 := (consH _ _) $$ HT2 HDT2
  -- row 52: its three copies land; the row's resources go to the heads of the chains of what is done
  icases HB52 with ⟨HC0, HT0, HC1, HT1, HC2, HT2⟩
  sl_exec (disch := first | sl_exact hU _ _ | sl_exact hI _ _ | sl_exact hJ _ _)
  ihave HR0 := (row_deliverP scM0 c 52 (by decide) inb_S128x64_S1x64_52_0 _ fs0 _ (gU c i xt0 fh0)) $$ HR0 %(fun q => deliver_gath (by decide) c hbM0 tbM0 fh0 xt0 i ⟨52, by decide⟩ (k0_off209 i) (by show (Scalar.indexCast (Scalar.addi (Scalar.muli (BitVec.ofNat 32 (i 0).val) 128#32) (BitVec.ofNat 32 52))).toNat = _; exact off_val _ 52 hi (by decide)) (by show 128 * (i 0).val + 52 < 16384; omega) _ _ _ q)
  ihave HR1 := (row_deliverP scM1 c 52 (by decide) inb_S128x64_S1x64_52_0 _ fs1 _ (gVi c i xt1 fh1)) $$ HR1 %(fun q => deliver_gath (by decide) c hbM1 tbM1 fh1 xt1 i ⟨52, by decide⟩ (k0_off209 i) (by show (Scalar.indexCast (Scalar.addi (Scalar.muli (BitVec.ofNat 32 (i 0).val) 128#32) (BitVec.ofNat 32 52))).toNat = _; exact off_val _ 52 hi (by decide)) (by show 128 * (i 0).val + 52 < 16384; omega) _ _ _ q)
  ihave HR2 := (row_deliverP scM2 c 52 (by decide) inb_S128x64_S1x64_52_0 _ fs2 _ (gVj c i xt2 fh1)) $$ HR2 %(fun q => deliver_gath (by decide) c hbM1 tbM2 fh1 xt2 i ⟨52, by decide⟩ (k0_off209 i) (by show (Scalar.indexCast (Scalar.addi (Scalar.muli (BitVec.ofNat 32 (i 0).val) 128#32) (BitVec.ofNat 32 52))).toNat = _; exact off_val _ 52 hi (by decide)) (by show 128 * (i 0).val + 52 < 16384; omega) _ _ _ q)
  ihave HD0 := (consH _ _) $$ HR0 HD0
  ihave HD1 := (consH _ _) $$ HR1 HD1
  ihave HD2 := (consH _ _) $$ HR2 HD2
  ihave HDC0 := (consH _ _) $$ HC0 HDC0
  ihave HDC1 := (consH _ _) $$ HC1 HDC1
  ihave HDC2 := (consH _ _) $$ HC2 HDC2
  ihave HDT0 := (consH _ _) $$ HT0 HDT0
  ihave HDT1 := (consH _ _) $$ HT1 HDT1
  ihave HDT2 := (consH _ _) $$ HT2 HDT2
  -- row 53: its three copies land; the row's resources go to the heads of the chains of what is done
  icases HB53 with ⟨HC0, HT0, HC1, HT1, HC2, HT2⟩
  sl_exec (disch := first | sl_exact hU _ _ | sl_exact hI _ _ | sl_exact hJ _ _)
  ihave HR0 := (row_deliverP scM0 c 53 (by decide) inb_S128x64_S1x64_53_0 _ fs0 _ (gU c i xt0 fh0)) $$ HR0 %(fun q => deliver_gath (by decide) c hbM0 tbM0 fh0 xt0 i ⟨53, by decide⟩ (k0_off213 i) (by show (Scalar.indexCast (Scalar.addi (Scalar.muli (BitVec.ofNat 32 (i 0).val) 128#32) (BitVec.ofNat 32 53))).toNat = _; exact off_val _ 53 hi (by decide)) (by show 128 * (i 0).val + 53 < 16384; omega) _ _ _ q)
  ihave HR1 := (row_deliverP scM1 c 53 (by decide) inb_S128x64_S1x64_53_0 _ fs1 _ (gVi c i xt1 fh1)) $$ HR1 %(fun q => deliver_gath (by decide) c hbM1 tbM1 fh1 xt1 i ⟨53, by decide⟩ (k0_off213 i) (by show (Scalar.indexCast (Scalar.addi (Scalar.muli (BitVec.ofNat 32 (i 0).val) 128#32) (BitVec.ofNat 32 53))).toNat = _; exact off_val _ 53 hi (by decide)) (by show 128 * (i 0).val + 53 < 16384; omega) _ _ _ q)
  ihave HR2 := (row_deliverP scM2 c 53 (by decide) inb_S128x64_S1x64_53_0 _ fs2 _ (gVj c i xt2 fh1)) $$ HR2 %(fun q => deliver_gath (by decide) c hbM1 tbM2 fh1 xt2 i ⟨53, by decide⟩ (k0_off213 i) (by show (Scalar.indexCast (Scalar.addi (Scalar.muli (BitVec.ofNat 32 (i 0).val) 128#32) (BitVec.ofNat 32 53))).toNat = _; exact off_val _ 53 hi (by decide)) (by show 128 * (i 0).val + 53 < 16384; omega) _ _ _ q)
  ihave HD0 := (consH _ _) $$ HR0 HD0
  ihave HD1 := (consH _ _) $$ HR1 HD1
  ihave HD2 := (consH _ _) $$ HR2 HD2
  ihave HDC0 := (consH _ _) $$ HC0 HDC0
  ihave HDC1 := (consH _ _) $$ HC1 HDC1
  ihave HDC2 := (consH _ _) $$ HC2 HDC2
  ihave HDT0 := (consH _ _) $$ HT0 HDT0
  ihave HDT1 := (consH _ _) $$ HT1 HDT1
  ihave HDT2 := (consH _ _) $$ HT2 HDT2
  -- row 54: its three copies land; the row's resources go to the heads of the chains of what is done
  icases HB54 with ⟨HC0, HT0, HC1, HT1, HC2, HT2⟩
  sl_exec (disch := first | sl_exact hU _ _ | sl_exact hI _ _ | sl_exact hJ _ _)
  ihave HR0 := (row_deliverP scM0 c 54 (by decide) inb_S128x64_S1x64_54_0 _ fs0 _ (gU c i xt0 fh0)) $$ HR0 %(fun q => deliver_gath (by decide) c hbM0 tbM0 fh0 xt0 i ⟨54, by decide⟩ (k0_off217 i) (by show (Scalar.indexCast (Scalar.addi (Scalar.muli (BitVec.ofNat 32 (i 0).val) 128#32) (BitVec.ofNat 32 54))).toNat = _; exact off_val _ 54 hi (by decide)) (by show 128 * (i 0).val + 54 < 16384; omega) _ _ _ q)
  ihave HR1 := (row_deliverP scM1 c 54 (by decide) inb_S128x64_S1x64_54_0 _ fs1 _ (gVi c i xt1 fh1)) $$ HR1 %(fun q => deliver_gath (by decide) c hbM1 tbM1 fh1 xt1 i ⟨54, by decide⟩ (k0_off217 i) (by show (Scalar.indexCast (Scalar.addi (Scalar.muli (BitVec.ofNat 32 (i 0).val) 128#32) (BitVec.ofNat 32 54))).toNat = _; exact off_val _ 54 hi (by decide)) (by show 128 * (i 0).val + 54 < 16384; omega) _ _ _ q)
  ihave HR2 := (row_deliverP scM2 c 54 (by decide) inb_S128x64_S1x64_54_0 _ fs2 _ (gVj c i xt2 fh1)) $$ HR2 %(fun q => deliver_gath (by decide) c hbM1 tbM2 fh1 xt2 i ⟨54, by decide⟩ (k0_off217 i) (by show (Scalar.indexCast (Scalar.addi (Scalar.muli (BitVec.ofNat 32 (i 0).val) 128#32) (BitVec.ofNat 32 54))).toNat = _; exact off_val _ 54 hi (by decide)) (by show 128 * (i 0).val + 54 < 16384; omega) _ _ _ q)
  ihave HD0 := (consH _ _) $$ HR0 HD0
  ihave HD1 := (consH _ _) $$ HR1 HD1
  ihave HD2 := (consH _ _) $$ HR2 HD2
  ihave HDC0 := (consH _ _) $$ HC0 HDC0
  ihave HDC1 := (consH _ _) $$ HC1 HDC1
  ihave HDC2 := (consH _ _) $$ HC2 HDC2
  ihave HDT0 := (consH _ _) $$ HT0 HDT0
  ihave HDT1 := (consH _ _) $$ HT1 HDT1
  ihave HDT2 := (consH _ _) $$ HT2 HDT2
  -- row 55: its three copies land; the row's resources go to the heads of the chains of what is done
  icases HB55 with ⟨HC0, HT0, HC1, HT1, HC2, HT2⟩
  sl_exec (disch := first | sl_exact hU _ _ | sl_exact hI _ _ | sl_exact hJ _ _)
  ihave HR0 := (row_deliverP scM0 c 55 (by decide) inb_S128x64_S1x64_55_0 _ fs0 _ (gU c i xt0 fh0)) $$ HR0 %(fun q => deliver_gath (by decide) c hbM0 tbM0 fh0 xt0 i ⟨55, by decide⟩ (k0_off221 i) (by show (Scalar.indexCast (Scalar.addi (Scalar.muli (BitVec.ofNat 32 (i 0).val) 128#32) (BitVec.ofNat 32 55))).toNat = _; exact off_val _ 55 hi (by decide)) (by show 128 * (i 0).val + 55 < 16384; omega) _ _ _ q)
  ihave HR1 := (row_deliverP scM1 c 55 (by decide) inb_S128x64_S1x64_55_0 _ fs1 _ (gVi c i xt1 fh1)) $$ HR1 %(fun q => deliver_gath (by decide) c hbM1 tbM1 fh1 xt1 i ⟨55, by decide⟩ (k0_off221 i) (by show (Scalar.indexCast (Scalar.addi (Scalar.muli (BitVec.ofNat 32 (i 0).val) 128#32) (BitVec.ofNat 32 55))).toNat = _; exact off_val _ 55 hi (by decide)) (by show 128 * (i 0).val + 55 < 16384; omega) _ _ _ q)
  ihave HR2 := (row_deliverP scM2 c 55 (by decide) inb_S128x64_S1x64_55_0 _ fs2 _ (gVj c i xt2 fh1)) $$ HR2 %(fun q => deliver_gath (by decide) c hbM1 tbM2 fh1 xt2 i ⟨55, by decide⟩ (k0_off221 i) (by show (Scalar.indexCast (Scalar.addi (Scalar.muli (BitVec.ofNat 32 (i 0).val) 128#32) (BitVec.ofNat 32 55))).toNat = _; exact off_val _ 55 hi (by decide)) (by show 128 * (i 0).val + 55 < 16384; omega) _ _ _ q)
  ihave HD0 := (consH _ _) $$ HR0 HD0
  ihave HD1 := (consH _ _) $$ HR1 HD1
  ihave HD2 := (consH _ _) $$ HR2 HD2
  ihave HDC0 := (consH _ _) $$ HC0 HDC0
  ihave HDC1 := (consH _ _) $$ HC1 HDC1
  ihave HDC2 := (consH _ _) $$ HC2 HDC2
  ihave HDT0 := (consH _ _) $$ HT0 HDT0
  ihave HDT1 := (consH _ _) $$ HT1 HDT1
  ihave HDT2 := (consH _ _) $$ HT2 HDT2
  -- row 56: its three copies land; the row's resources go to the heads of the chains of what is done
  icases HB56 with ⟨HC0, HT0, HC1, HT1, HC2, HT2⟩
  sl_exec (disch := first | sl_exact hU _ _ | sl_exact hI _ _ | sl_exact hJ _ _)
  ihave HR0 := (row_deliverP scM0 c 56 (by decide) inb_S128x64_S1x64_56_0 _ fs0 _ (gU c i xt0 fh0)) $$ HR0 %(fun q => deliver_gath (by decide) c hbM0 tbM0 fh0 xt0 i ⟨56, by decide⟩ (k0_off225 i) (by show (Scalar.indexCast (Scalar.addi (Scalar.muli (BitVec.ofNat 32 (i 0).val) 128#32) (BitVec.ofNat 32 56))).toNat = _; exact off_val _ 56 hi (by decide)) (by show 128 * (i 0).val + 56 < 16384; omega) _ _ _ q)
  ihave HR1 := (row_deliverP scM1 c 56 (by decide) inb_S128x64_S1x64_56_0 _ fs1 _ (gVi c i xt1 fh1)) $$ HR1 %(fun q => deliver_gath (by decide) c hbM1 tbM1 fh1 xt1 i ⟨56, by decide⟩ (k0_off225 i) (by show (Scalar.indexCast (Scalar.addi (Scalar.muli (BitVec.ofNat 32 (i 0).val) 128#32) (BitVec.ofNat 32 56))).toNat = _; exact off_val _ 56 hi (by decide)) (by show 128 * (i 0).val + 56 < 16384; omega) _ _ _ q)
  ihave HR2 := (row_deliverP scM2 c 56 (by decide) inb_S128x64_S1x64_56_0 _ fs2 _ (gVj c i xt2 fh1)) $$ HR2 %(fun q => deliver_gath (by decide) c hbM1 tbM2 fh1 xt2 i ⟨56, by decide⟩ (k0_off225 i) (by show (Scalar.indexCast (Scalar.addi (Scalar.muli (BitVec.ofNat 32 (i 0).val) 128#32) (BitVec.ofNat 32 56))).toNat = _; exact off_val _ 56 hi (by decide)) (by show 128 * (i 0).val + 56 < 16384; omega) _ _ _ q)
  ihave HD0 := (consH _ _) $$ HR0 HD0
  ihave HD1 := (consH _ _) $$ HR1 HD1
  ihave HD2 := (consH _ _) $$ HR2 HD2
  ihave HDC0 := (consH _ _) $$ HC0 HDC0
  ihave HDC1 := (consH _ _) $$ HC1 HDC1
  ihave HDC2 := (consH _ _) $$ HC2 HDC2
  ihave HDT0 := (consH _ _) $$ HT0 HDT0
  ihave HDT1 := (consH _ _) $$ HT1 HDT1
  ihave HDT2 := (consH _ _) $$ HT2 HDT2
  -- row 57: its three copies land; the row's resources go to the heads of the chains of what is done
  icases HB57 with ⟨HC0, HT0, HC1, HT1, HC2, HT2⟩
  sl_exec (disch := first | sl_exact hU _ _ | sl_exact hI _ _ | sl_exact hJ _ _)
  ihave HR0 := (row_deliverP scM0 c 57 (by decide) inb_S128x64_S1x64_57_0 _ fs0 _ (gU c i xt0 fh0)) $$ HR0 %(fun q => deliver_gath (by decide) c hbM0 tbM0 fh0 xt0 i ⟨57, by decide⟩ (k0_off229 i) (by show (Scalar.indexCast (Scalar.addi (Scalar.muli (BitVec.ofNat 32 (i 0).val) 128#32) (BitVec.ofNat 32 57))).toNat = _; exact off_val _ 57 hi (by decide)) (by show 128 * (i 0).val + 57 < 16384; omega) _ _ _ q)
  ihave HR1 := (row_deliverP scM1 c 57 (by decide) inb_S128x64_S1x64_57_0 _ fs1 _ (gVi c i xt1 fh1)) $$ HR1 %(fun q => deliver_gath (by decide) c hbM1 tbM1 fh1 xt1 i ⟨57, by decide⟩ (k0_off229 i) (by show (Scalar.indexCast (Scalar.addi (Scalar.muli (BitVec.ofNat 32 (i 0).val) 128#32) (BitVec.ofNat 32 57))).toNat = _; exact off_val _ 57 hi (by decide)) (by show 128 * (i 0).val + 57 < 16384; omega) _ _ _ q)
  ihave HR2 := (row_deliverP scM2 c 57 (by decide) inb_S128x64_S1x64_57_0 _ fs2 _ (gVj c i xt2 fh1)) $$ HR2 %(fun q => deliver_gath (by decide) c hbM1 tbM2 fh1 xt2 i ⟨57, by decide⟩ (k0_off229 i) (by show (Scalar.indexCast (Scalar.addi (Scalar.muli (BitVec.ofNat 32 (i 0).val) 128#32) (BitVec.ofNat 32 57))).toNat = _; exact off_val _ 57 hi (by decide)) (by show 128 * (i 0).val + 57 < 16384; omega) _ _ _ q)
  ihave HD0 := (consH _ _) $$ HR0 HD0
  ihave HD1 := (consH _ _) $$ HR1 HD1
  ihave HD2 := (consH _ _) $$ HR2 HD2
  ihave HDC0 := (consH _ _) $$ HC0 HDC0
  ihave HDC1 := (consH _ _) $$ HC1 HDC1
  ihave HDC2 := (consH _ _) $$ HC2 HDC2
  ihave HDT0 := (consH _ _) $$ HT0 HDT0
  ihave HDT1 := (consH _ _) $$ HT1 HDT1
  ihave HDT2 := (consH _ _) $$ HT2 HDT2
  -- row 58: its three copies land; the row's resources go to the heads of the chains of what is done
  icases HB58 with ⟨HC0, HT0, HC1, HT1, HC2, HT2⟩
  sl_exec (disch := first | sl_exact hU _ _ | sl_exact hI _ _ | sl_exact hJ _ _)
  ihave HR0 := (row_deliverP scM0 c 58 (by decide) inb_S128x64_S1x64_58_0 _ fs0 _ (gU c i xt0 fh0)) $$ HR0 %(fun q => deliver_gath (by decide) c hbM0 tbM0 fh0 xt0 i ⟨58, by decide⟩ (k0_off233 i) (by show (Scalar.indexCast (Scalar.addi (Scalar.muli (BitVec.ofNat 32 (i 0).val) 128#32) (BitVec.ofNat 32 58))).toNat = _; exact off_val _ 58 hi (by decide)) (by show 128 * (i 0).val + 58 < 16384; omega) _ _ _ q)
  ihave HR1 := (row_deliverP scM1 c 58 (by decide) inb_S128x64_S1x64_58_0 _ fs1 _ (gVi c i xt1 fh1)) $$ HR1 %(fun q => deliver_gath (by decide) c hbM1 tbM1 fh1 xt1 i ⟨58, by decide⟩ (k0_off233 i) (by show (Scalar.indexCast (Scalar.addi (Scalar.muli (BitVec.ofNat 32 (i 0).val) 128#32) (BitVec.ofNat 32 58))).toNat = _; exact off_val _ 58 hi (by decide)) (by show 128 * (i 0).val + 58 < 16384; omega) _ _ _ q)
  ihave HR2 := (row_deliverP scM2 c 58 (by decide) inb_S128x64_S1x64_58_0 _ fs2 _ (gVj c i xt2 fh1)) $$ HR2 %(fun q => deliver_gath (by decide) c hbM1 tbM2 fh1 xt2 i ⟨58, by decide⟩ (k0_off233 i) (by show (Scalar.indexCast (Scalar.addi (Scalar.muli (BitVec.ofNat 32 (i 0).val) 128#32) (BitVec.ofNat 32 58))).toNat = _; exact off_val _ 58 hi (by decide)) (by show 128 * (i 0).val + 58 < 16384; omega) _ _ _ q)
  ihave HD0 := (consH _ _) $$ HR0 HD0
  ihave HD1 := (consH _ _) $$ HR1 HD1
  ihave HD2 := (consH _ _) $$ HR2 HD2
  ihave HDC0 := (consH _ _) $$ HC0 HDC0
  ihave HDC1 := (consH _ _) $$ HC1 HDC1
  ihave HDC2 := (consH _ _) $$ HC2 HDC2
  ihave HDT0 := (consH _ _) $$ HT0 HDT0
  ihave HDT1 := (consH _ _) $$ HT1 HDT1
  ihave HDT2 := (consH _ _) $$ HT2 HDT2
  -- row 59: its three copies land; the row's resources go to the heads of the chains of what is done
  icases HB59 with ⟨HC0, HT0, HC1, HT1, HC2, HT2⟩
  sl_exec (disch := first | sl_exact hU _ _ | sl_exact hI _ _ | sl_exact hJ _ _)
  ihave HR0 := (row_deliverP scM0 c 59 (by decide) inb_S128x64_S1x64_59_0 _ fs0 _ (gU c i xt0 fh0)) $$ HR0 %(fun q => deliver_gath (by decide) c hbM0 tbM0 fh0 xt0 i ⟨59, by decide⟩ (k0_off237 i) (by show (Scalar.indexCast (Scalar.addi (Scalar.muli (BitVec.ofNat 32 (i 0).val) 128#32) (BitVec.ofNat 32 59))).toNat = _; exact off_val _ 59 hi (by decide)) (by show 128 * (i 0).val + 59 < 16384; omega) _ _ _ q)
  ihave HR1 := (row_deliverP scM1 c 59 (by decide) inb_S128x64_S1x64_59_0 _ fs1 _ (gVi c i xt1 fh1)) $$ HR1 %(fun q => deliver_gath (by decide) c hbM1 tbM1 fh1 xt1 i ⟨59, by decide⟩ (k0_off237 i) (by show (Scalar.indexCast (Scalar.addi (Scalar.muli (BitVec.ofNat 32 (i 0).val) 128#32) (BitVec.ofNat 32 59))).toNat = _; exact off_val _ 59 hi (by decide)) (by show 128 * (i 0).val + 59 < 16384; omega) _ _ _ q)
  ihave HR2 := (row_deliverP scM2 c 59 (by decide) inb_S128x64_S1x64_59_0 _ fs2 _ (gVj c i xt2 fh1)) $$ HR2 %(fun q => deliver_gath (by decide) c hbM1 tbM2 fh1 xt2 i ⟨59, by decide⟩ (k0_off237 i) (by show (Scalar.indexCast (Scalar.addi (Scalar.muli (BitVec.ofNat 32 (i 0).val) 128#32) (BitVec.ofNat 32 59))).toNat = _; exact off_val _ 59 hi (by decide)) (by show 128 * (i 0).val + 59 < 16384; omega) _ _ _ q)
  ihave HD0 := (consH _ _) $$ HR0 HD0
  ihave HD1 := (consH _ _) $$ HR1 HD1
  ihave HD2 := (consH _ _) $$ HR2 HD2
  ihave HDC0 := (consH _ _) $$ HC0 HDC0
  ihave HDC1 := (consH _ _) $$ HC1 HDC1
  ihave HDC2 := (consH _ _) $$ HC2 HDC2
  ihave HDT0 := (consH _ _) $$ HT0 HDT0
  ihave HDT1 := (consH _ _) $$ HT1 HDT1
  ihave HDT2 := (consH _ _) $$ HT2 HDT2
  -- row 60: its three copies land; the row's resources go to the heads of the chains of what is done
  icases HB60 with ⟨HC0, HT0, HC1, HT1, HC2, HT2⟩
  sl_exec (disch := first | sl_exact hU _ _ | sl_exact hI _ _ | sl_exact hJ _ _)
  ihave HR0 := (row_deliverP scM0 c 60 (by decide) inb_S128x64_S1x64_60_0 _ fs0 _ (gU c i xt0 fh0)) $$ HR0 %(fun q => deliver_gath (by decide) c hbM0 tbM0 fh0 xt0 i ⟨60, by decide⟩ (k0_off241 i) (by show (Scalar.indexCast (Scalar.addi (Scalar.muli (BitVec.ofNat 32 (i 0).val) 128#32) (BitVec.ofNat 32 60))).toNat = _; exact off_val _ 60 hi (by decide)) (by show 128 * (i 0).val + 60 < 16384; omega) _ _ _ q)
  ihave HR1 := (row_deliverP scM1 c 60 (by decide) inb_S128x64_S1x64_60_0 _ fs1 _ (gVi c i xt1 fh1)) $$ HR1 %(fun q => deliver_gath (by decide) c hbM1 tbM1 fh1 xt1 i ⟨60, by decide⟩ (k0_off241 i) (by show (Scalar.indexCast (Scalar.addi (Scalar.muli (BitVec.ofNat 32 (i 0).val) 128#32) (BitVec.ofNat 32 60))).toNat = _; exact off_val _ 60 hi (by decide)) (by show 128 * (i 0).val + 60 < 16384; omega) _ _ _ q)
  ihave HR2 := (row_deliverP scM2 c 60 (by decide) inb_S128x64_S1x64_60_0 _ fs2 _ (gVj c i xt2 fh1)) $$ HR2 %(fun q => deliver_gath (by decide) c hbM1 tbM2 fh1 xt2 i ⟨60, by decide⟩ (k0_off241 i) (by show (Scalar.indexCast (Scalar.addi (Scalar.muli (BitVec.ofNat 32 (i 0).val) 128#32) (BitVec.ofNat 32 60))).toNat = _; exact off_val _ 60 hi (by decide)) (by show 128 * (i 0).val + 60 < 16384; omega) _ _ _ q)
  ihave HD0 := (consH _ _) $$ HR0 HD0
  ihave HD1 := (consH _ _) $$ HR1 HD1
  ihave HD2 := (consH _ _) $$ HR2 HD2
  ihave HDC0 := (consH _ _) $$ HC0 HDC0
  ihave HDC1 := (consH _ _) $$ HC1 HDC1
  ihave HDC2 := (consH _ _) $$ HC2 HDC2
  ihave HDT0 := (consH _ _) $$ HT0 HDT0
  ihave HDT1 := (consH _ _) $$ HT1 HDT1
  ihave HDT2 := (consH _ _) $$ HT2 HDT2
  -- row 61: its three copies land; the row's resources go to the heads of the chains of what is done
  icases HB61 with ⟨HC0, HT0, HC1, HT1, HC2, HT2⟩
  sl_exec (disch := first | sl_exact hU _ _ | sl_exact hI _ _ | sl_exact hJ _ _)
  ihave HR0 := (row_deliverP scM0 c 61 (by decide) inb_S128x64_S1x64_61_0 _ fs0 _ (gU c i xt0 fh0)) $$ HR0 %(fun q => deliver_gath (by decide) c hbM0 tbM0 fh0 xt0 i ⟨61, by decide⟩ (k0_off245 i) (by show (Scalar.indexCast (Scalar.addi (Scalar.muli (BitVec.ofNat 32 (i 0).val) 128#32) (BitVec.ofNat 32 61))).toNat = _; exact off_val _ 61 hi (by decide)) (by show 128 * (i 0).val + 61 < 16384; omega) _ _ _ q)
  ihave HR1 := (row_deliverP scM1 c 61 (by decide) inb_S128x64_S1x64_61_0 _ fs1 _ (gVi c i xt1 fh1)) $$ HR1 %(fun q => deliver_gath (by decide) c hbM1 tbM1 fh1 xt1 i ⟨61, by decide⟩ (k0_off245 i) (by show (Scalar.indexCast (Scalar.addi (Scalar.muli (BitVec.ofNat 32 (i 0).val) 128#32) (BitVec.ofNat 32 61))).toNat = _; exact off_val _ 61 hi (by decide)) (by show 128 * (i 0).val + 61 < 16384; omega) _ _ _ q)
  ihave HR2 := (row_deliverP scM2 c 61 (by decide) inb_S128x64_S1x64_61_0 _ fs2 _ (gVj c i xt2 fh1)) $$ HR2 %(fun q => deliver_gath (by decide) c hbM1 tbM2 fh1 xt2 i ⟨61, by decide⟩ (k0_off245 i) (by show (Scalar.indexCast (Scalar.addi (Scalar.muli (BitVec.ofNat 32 (i 0).val) 128#32) (BitVec.ofNat 32 61))).toNat = _; exact off_val _ 61 hi (by decide)) (by show 128 * (i 0).val + 61 < 16384; omega) _ _ _ q)
  ihave HD0 := (consH _ _) $$ HR0 HD0
  ihave HD1 := (consH _ _) $$ HR1 HD1
  ihave HD2 := (consH _ _) $$ HR2 HD2
  ihave HDC0 := (consH _ _) $$ HC0 HDC0
  ihave HDC1 := (consH _ _) $$ HC1 HDC1
  ihave HDC2 := (consH _ _) $$ HC2 HDC2
  ihave HDT0 := (consH _ _) $$ HT0 HDT0
  ihave HDT1 := (consH _ _) $$ HT1 HDT1
  ihave HDT2 := (consH _ _) $$ HT2 HDT2
  -- row 62: its three copies land; the row's resources go to the heads of the chains of what is done
  icases HB62 with ⟨HC0, HT0, HC1, HT1, HC2, HT2⟩
  sl_exec (disch := first | sl_exact hU _ _ | sl_exact hI _ _ | sl_exact hJ _ _)
  ihave HR0 := (row_deliverP scM0 c 62 (by decide) inb_S128x64_S1x64_62_0 _ fs0 _ (gU c i xt0 fh0)) $$ HR0 %(fun q => deliver_gath (by decide) c hbM0 tbM0 fh0 xt0 i ⟨62, by decide⟩ (k0_off249 i) (by show (Scalar.indexCast (Scalar.addi (Scalar.muli (BitVec.ofNat 32 (i 0).val) 128#32) (BitVec.ofNat 32 62))).toNat = _; exact off_val _ 62 hi (by decide)) (by show 128 * (i 0).val + 62 < 16384; omega) _ _ _ q)
  ihave HR1 := (row_deliverP scM1 c 62 (by decide) inb_S128x64_S1x64_62_0 _ fs1 _ (gVi c i xt1 fh1)) $$ HR1 %(fun q => deliver_gath (by decide) c hbM1 tbM1 fh1 xt1 i ⟨62, by decide⟩ (k0_off249 i) (by show (Scalar.indexCast (Scalar.addi (Scalar.muli (BitVec.ofNat 32 (i 0).val) 128#32) (BitVec.ofNat 32 62))).toNat = _; exact off_val _ 62 hi (by decide)) (by show 128 * (i 0).val + 62 < 16384; omega) _ _ _ q)
  ihave HR2 := (row_deliverP scM2 c 62 (by decide) inb_S128x64_S1x64_62_0 _ fs2 _ (gVj c i xt2 fh1)) $$ HR2 %(fun q => deliver_gath (by decide) c hbM1 tbM2 fh1 xt2 i ⟨62, by decide⟩ (k0_off249 i) (by show (Scalar.indexCast (Scalar.addi (Scalar.muli (BitVec.ofNat 32 (i 0).val) 128#32) (BitVec.ofNat 32 62))).toNat = _; exact off_val _ 62 hi (by decide)) (by show 128 * (i 0).val + 62 < 16384; omega) _ _ _ q)
  ihave HD0 := (consH _ _) $$ HR0 HD0
  ihave HD1 := (consH _ _) $$ HR1 HD1
  ihave HD2 := (consH _ _) $$ HR2 HD2
  ihave HDC0 := (consH _ _) $$ HC0 HDC0
  ihave HDC1 := (consH _ _) $$ HC1 HDC1
  ihave HDC2 := (consH _ _) $$ HC2 HDC2
  ihave HDT0 := (consH _ _) $$ HT0 HDT0
  ihave HDT1 := (consH _ _) $$ HT1 HDT1
  ihave HDT2 := (consH _ _) $$ HT2 HDT2
  -- row 63: its three copies land; the row's resources go to the heads of the chains of what is done
  icases HB63 with ⟨HC0, HT0, HC1, HT1, HC2, HT2⟩
  sl_exec (disch := first | sl_exact hU _ _ | sl_exact hI _ _ | sl_exact hJ _ _)
  ihave HR0 := (row_deliverP scM0 c 63 (by decide) inb_S128x64_S1x64_63_0 _ fs0 _ (gU c i xt0 fh0)) $$ HR0 %(fun q => deliver_gath (by decide) c hbM0 tbM0 fh0 xt0 i ⟨63, by decide⟩ (k0_off253 i) (by show (Scalar.indexCast (Scalar.addi (Scalar.muli (BitVec.ofNat 32 (i 0).val) 128#32) (BitVec.ofNat 32 63))).toNat = _; exact off_val _ 63 hi (by decide)) (by show 128 * (i 0).val + 63 < 16384; omega) _ _ _ q)
  ihave HR1 := (row_deliverP scM1 c 63 (by decide) inb_S128x64_S1x64_63_0 _ fs1 _ (gVi c i xt1 fh1)) $$ HR1 %(fun q => deliver_gath (by decide) c hbM1 tbM1 fh1 xt1 i ⟨63, by decide⟩ (k0_off253 i) (by show (Scalar.indexCast (Scalar.addi (Scalar.muli (BitVec.ofNat 32 (i 0).val) 128#32) (BitVec.ofNat 32 63))).toNat = _; exact off_val _ 63 hi (by decide)) (by show 128 * (i 0).val + 63 < 16384; omega) _ _ _ q)
  ihave HR2 := (row_deliverP scM2 c 63 (by decide) inb_S128x64_S1x64_63_0 _ fs2 _ (gVj c i xt2 fh1)) $$ HR2 %(fun q => deliver_gath (by decide) c hbM1 tbM2 fh1 xt2 i ⟨63, by decide⟩ (k0_off253 i) (by show (Scalar.indexCast (Scalar.addi (Scalar.muli (BitVec.ofNat 32 (i 0).val) 128#32) (BitVec.ofNat 32 63))).toNat = _; exact off_val _ 63 hi (by decide)) (by show 128 * (i 0).val + 63 < 16384; omega) _ _ _ q)
  ihave HD0 := (consH _ _) $$ HR0 HD0
  ihave HD1 := (consH _ _) $$ HR1 HD1
  ihave HD2 := (consH _ _) $$ HR2 HD2
  ihave HDC0 := (consH _ _) $$ HC0 HDC0
  ihave HDC1 := (consH _ _) $$ HC1 HDC1
  ihave HDC2 := (consH _ _) $$ HC2 HDC2
  ihave HDT0 := (consH _ _) $$ HT0 HDT0
  ihave HDT1 := (consH _ _) $$ HT1 HDT1
  ihave HDT2 := (consH _ _) $$ HT2 HDT2
  -- row 64: its three copies land; the row's resources go to the heads of the chains of what is done
  icases HB64 with ⟨HC0, HT0, HC1, HT1, HC2, HT2⟩
  sl_exec (disch := first | sl_exact hU _ _ | sl_exact hI _ _ | sl_exact hJ _ _)
  ihave HR0 := (row_deliverP scM0 c 64 (by decide) inb_S128x64_S1x64_64_0 _ fs0 _ (gU c i xt0 fh0)) $$ HR0 %(fun q => deliver_gath (by decide) c hbM0 tbM0 fh0 xt0 i ⟨64, by decide⟩ (k0_off257 i) (by show (Scalar.indexCast (Scalar.addi (Scalar.muli (BitVec.ofNat 32 (i 0).val) 128#32) (BitVec.ofNat 32 64))).toNat = _; exact off_val _ 64 hi (by decide)) (by show 128 * (i 0).val + 64 < 16384; omega) _ _ _ q)
  ihave HR1 := (row_deliverP scM1 c 64 (by decide) inb_S128x64_S1x64_64_0 _ fs1 _ (gVi c i xt1 fh1)) $$ HR1 %(fun q => deliver_gath (by decide) c hbM1 tbM1 fh1 xt1 i ⟨64, by decide⟩ (k0_off257 i) (by show (Scalar.indexCast (Scalar.addi (Scalar.muli (BitVec.ofNat 32 (i 0).val) 128#32) (BitVec.ofNat 32 64))).toNat = _; exact off_val _ 64 hi (by decide)) (by show 128 * (i 0).val + 64 < 16384; omega) _ _ _ q)
  ihave HR2 := (row_deliverP scM2 c 64 (by decide) inb_S128x64_S1x64_64_0 _ fs2 _ (gVj c i xt2 fh1)) $$ HR2 %(fun q => deliver_gath (by decide) c hbM1 tbM2 fh1 xt2 i ⟨64, by decide⟩ (k0_off257 i) (by show (Scalar.indexCast (Scalar.addi (Scalar.muli (BitVec.ofNat 32 (i 0).val) 128#32) (BitVec.ofNat 32 64))).toNat = _; exact off_val _ 64 hi (by decide)) (by show 128 * (i 0).val + 64 < 16384; omega) _ _ _ q)
  ihave HD0 := (consH _ _) $$ HR0 HD0
  ihave HD1 := (consH _ _) $$ HR1 HD1
  ihave HD2 := (consH _ _) $$ HR2 HD2
  ihave HDC0 := (consH _ _) $$ HC0 HDC0
  ihave HDC1 := (consH _ _) $$ HC1 HDC1
  ihave HDC2 := (consH _ _) $$ HC2 HDC2
  ihave HDT0 := (consH _ _) $$ HT0 HDT0
  ihave HDT1 := (consH _ _) $$ HT1 HDT1
  ihave HDT2 := (consH _ _) $$ HT2 HDT2
  -- row 65: its three copies land; the row's resources go to the heads of the chains of what is done
  icases HB65 with ⟨HC0, HT0, HC1, HT1, HC2, HT2⟩
  sl_exec (disch := first | sl_exact hU _ _ | sl_exact hI _ _ | sl_exact hJ _ _)
  ihave HR0 := (row_deliverP scM0 c 65 (by decide) inb_S128x64_S1x64_65_0 _ fs0 _ (gU c i xt0 fh0)) $$ HR0 %(fun q => deliver_gath (by decide) c hbM0 tbM0 fh0 xt0 i ⟨65, by decide⟩ (k0_off261 i) (by show (Scalar.indexCast (Scalar.addi (Scalar.muli (BitVec.ofNat 32 (i 0).val) 128#32) (BitVec.ofNat 32 65))).toNat = _; exact off_val _ 65 hi (by decide)) (by show 128 * (i 0).val + 65 < 16384; omega) _ _ _ q)
  ihave HR1 := (row_deliverP scM1 c 65 (by decide) inb_S128x64_S1x64_65_0 _ fs1 _ (gVi c i xt1 fh1)) $$ HR1 %(fun q => deliver_gath (by decide) c hbM1 tbM1 fh1 xt1 i ⟨65, by decide⟩ (k0_off261 i) (by show (Scalar.indexCast (Scalar.addi (Scalar.muli (BitVec.ofNat 32 (i 0).val) 128#32) (BitVec.ofNat 32 65))).toNat = _; exact off_val _ 65 hi (by decide)) (by show 128 * (i 0).val + 65 < 16384; omega) _ _ _ q)
  ihave HR2 := (row_deliverP scM2 c 65 (by decide) inb_S128x64_S1x64_65_0 _ fs2 _ (gVj c i xt2 fh1)) $$ HR2 %(fun q => deliver_gath (by decide) c hbM1 tbM2 fh1 xt2 i ⟨65, by decide⟩ (k0_off261 i) (by show (Scalar.indexCast (Scalar.addi (Scalar.muli (BitVec.ofNat 32 (i 0).val) 128#32) (BitVec.ofNat 32 65))).toNat = _; exact off_val _ 65 hi (by decide)) (by show 128 * (i 0).val + 65 < 16384; omega) _ _ _ q)
  ihave HD0 := (consH _ _) $$ HR0 HD0
  ihave HD1 := (consH _ _) $$ HR1 HD1
  ihave HD2 := (consH _ _) $$ HR2 HD2
  ihave HDC0 := (consH _ _) $$ HC0 HDC0
  ihave HDC1 := (consH _ _) $$ HC1 HDC1
  ihave HDC2 := (consH _ _) $$ HC2 HDC2
  ihave HDT0 := (consH _ _) $$ HT0 HDT0
  ihave HDT1 := (consH _ _) $$ HT1 HDT1
  ihave HDT2 := (consH _ _) $$ HT2 HDT2
  -- row 66: its three copies land; the row's resources go to the heads of the chains of what is done
  icases HB66 with ⟨HC0, HT0, HC1, HT1, HC2, HT2⟩
  sl_exec (disch := first | sl_exact hU _ _ | sl_exact hI _ _ | sl_exact hJ _ _)
  ihave HR0 := (row_deliverP scM0 c 66 (by decide) inb_S128x64_S1x64_66_0 _ fs0 _ (gU c i xt0 fh0)) $$ HR0 %(fun q => deliver_gath (by decide) c hbM0 tbM0 fh0 xt0 i ⟨66, by decide⟩ (k0_off265 i) (by show (Scalar.indexCast (Scalar.addi (Scalar.muli (BitVec.ofNat 32 (i 0).val) 128#32) (BitVec.ofNat 32 66))).toNat = _; exact off_val _ 66 hi (by decide)) (by show 128 * (i 0).val + 66 < 16384; omega) _ _ _ q)
  ihave HR1 := (row_deliverP scM1 c 66 (by decide) inb_S128x64_S1x64_66_0 _ fs1 _ (gVi c i xt1 fh1)) $$ HR1 %(fun q => deliver_gath (by decide) c hbM1 tbM1 fh1 xt1 i ⟨66, by decide⟩ (k0_off265 i) (by show (Scalar.indexCast (Scalar.addi (Scalar.muli (BitVec.ofNat 32 (i 0).val) 128#32) (BitVec.ofNat 32 66))).toNat = _; exact off_val _ 66 hi (by decide)) (by show 128 * (i 0).val + 66 < 16384; omega) _ _ _ q)
  ihave HR2 := (row_deliverP scM2 c 66 (by decide) inb_S128x64_S1x64_66_0 _ fs2 _ (gVj c i xt2 fh1)) $$ HR2 %(fun q => deliver_gath (by decide) c hbM1 tbM2 fh1 xt2 i ⟨66, by decide⟩ (k0_off265 i) (by show (Scalar.indexCast (Scalar.addi (Scalar.muli (BitVec.ofNat 32 (i 0).val) 128#32) (BitVec.ofNat 32 66))).toNat = _; exact off_val _ 66 hi (by decide)) (by show 128 * (i 0).val + 66 < 16384; omega) _ _ _ q)
  ihave HD0 := (consH _ _) $$ HR0 HD0
  ihave HD1 := (consH _ _) $$ HR1 HD1
  ihave HD2 := (consH _ _) $$ HR2 HD2
  ihave HDC0 := (consH _ _) $$ HC0 HDC0
  ihave HDC1 := (consH _ _) $$ HC1 HDC1
  ihave HDC2 := (consH _ _) $$ HC2 HDC2
  ihave HDT0 := (consH _ _) $$ HT0 HDT0
  ihave HDT1 := (consH _ _) $$ HT1 HDT1
  ihave HDT2 := (consH _ _) $$ HT2 HDT2
  -- row 67: its three copies land; the row's resources go to the heads of the chains of what is done
  icases HB67 with ⟨HC0, HT0, HC1, HT1, HC2, HT2⟩
  sl_exec (disch := first | sl_exact hU _ _ | sl_exact hI _ _ | sl_exact hJ _ _)
  ihave HR0 := (row_deliverP scM0 c 67 (by decide) inb_S128x64_S1x64_67_0 _ fs0 _ (gU c i xt0 fh0)) $$ HR0 %(fun q => deliver_gath (by decide) c hbM0 tbM0 fh0 xt0 i ⟨67, by decide⟩ (k0_off269 i) (by show (Scalar.indexCast (Scalar.addi (Scalar.muli (BitVec.ofNat 32 (i 0).val) 128#32) (BitVec.ofNat 32 67))).toNat = _; exact off_val _ 67 hi (by decide)) (by show 128 * (i 0).val + 67 < 16384; omega) _ _ _ q)
  ihave HR1 := (row_deliverP scM1 c 67 (by decide) inb_S128x64_S1x64_67_0 _ fs1 _ (gVi c i xt1 fh1)) $$ HR1 %(fun q => deliver_gath (by decide) c hbM1 tbM1 fh1 xt1 i ⟨67, by decide⟩ (k0_off269 i) (by show (Scalar.indexCast (Scalar.addi (Scalar.muli (BitVec.ofNat 32 (i 0).val) 128#32) (BitVec.ofNat 32 67))).toNat = _; exact off_val _ 67 hi (by decide)) (by show 128 * (i 0).val + 67 < 16384; omega) _ _ _ q)
  ihave HR2 := (row_deliverP scM2 c 67 (by decide) inb_S128x64_S1x64_67_0 _ fs2 _ (gVj c i xt2 fh1)) $$ HR2 %(fun q => deliver_gath (by decide) c hbM1 tbM2 fh1 xt2 i ⟨67, by decide⟩ (k0_off269 i) (by show (Scalar.indexCast (Scalar.addi (Scalar.muli (BitVec.ofNat 32 (i 0).val) 128#32) (BitVec.ofNat 32 67))).toNat = _; exact off_val _ 67 hi (by decide)) (by show 128 * (i 0).val + 67 < 16384; omega) _ _ _ q)
  ihave HD0 := (consH _ _) $$ HR0 HD0
  ihave HD1 := (consH _ _) $$ HR1 HD1
  ihave HD2 := (consH _ _) $$ HR2 HD2
  ihave HDC0 := (consH _ _) $$ HC0 HDC0
  ihave HDC1 := (consH _ _) $$ HC1 HDC1
  ihave HDC2 := (consH _ _) $$ HC2 HDC2
  ihave HDT0 := (consH _ _) $$ HT0 HDT0
  ihave HDT1 := (consH _ _) $$ HT1 HDT1
  ihave HDT2 := (consH _ _) $$ HT2 HDT2
  -- row 68: its three copies land; the row's resources go to the heads of the chains of what is done
  icases HB68 with ⟨HC0, HT0, HC1, HT1, HC2, HT2⟩
  sl_exec (disch := first | sl_exact hU _ _ | sl_exact hI _ _ | sl_exact hJ _ _)
  ihave HR0 := (row_deliverP scM0 c 68 (by decide) inb_S128x64_S1x64_68_0 _ fs0 _ (gU c i xt0 fh0)) $$ HR0 %(fun q => deliver_gath (by decide) c hbM0 tbM0 fh0 xt0 i ⟨68, by decide⟩ (k0_off273 i) (by show (Scalar.indexCast (Scalar.addi (Scalar.muli (BitVec.ofNat 32 (i 0).val) 128#32) (BitVec.ofNat 32 68))).toNat = _; exact off_val _ 68 hi (by decide)) (by show 128 * (i 0).val + 68 < 16384; omega) _ _ _ q)
  ihave HR1 := (row_deliverP scM1 c 68 (by decide) inb_S128x64_S1x64_68_0 _ fs1 _ (gVi c i xt1 fh1)) $$ HR1 %(fun q => deliver_gath (by decide) c hbM1 tbM1 fh1 xt1 i ⟨68, by decide⟩ (k0_off273 i) (by show (Scalar.indexCast (Scalar.addi (Scalar.muli (BitVec.ofNat 32 (i 0).val) 128#32) (BitVec.ofNat 32 68))).toNat = _; exact off_val _ 68 hi (by decide)) (by show 128 * (i 0).val + 68 < 16384; omega) _ _ _ q)
  ihave HR2 := (row_deliverP scM2 c 68 (by decide) inb_S128x64_S1x64_68_0 _ fs2 _ (gVj c i xt2 fh1)) $$ HR2 %(fun q => deliver_gath (by decide) c hbM1 tbM2 fh1 xt2 i ⟨68, by decide⟩ (k0_off273 i) (by show (Scalar.indexCast (Scalar.addi (Scalar.muli (BitVec.ofNat 32 (i 0).val) 128#32) (BitVec.ofNat 32 68))).toNat = _; exact off_val _ 68 hi (by decide)) (by show 128 * (i 0).val + 68 < 16384; omega) _ _ _ q)
  ihave HD0 := (consH _ _) $$ HR0 HD0
  ihave HD1 := (consH _ _) $$ HR1 HD1
  ihave HD2 := (consH _ _) $$ HR2 HD2
  ihave HDC0 := (consH _ _) $$ HC0 HDC0
  ihave HDC1 := (consH _ _) $$ HC1 HDC1
  ihave HDC2 := (consH _ _) $$ HC2 HDC2
  ihave HDT0 := (consH _ _) $$ HT0 HDT0
  ihave HDT1 := (consH _ _) $$ HT1 HDT1
  ihave HDT2 := (consH _ _) $$ HT2 HDT2
  -- row 69: its three copies land; the row's resources go to the heads of the chains of what is done
  icases HB69 with ⟨HC0, HT0, HC1, HT1, HC2, HT2⟩
  sl_exec (disch := first | sl_exact hU _ _ | sl_exact hI _ _ | sl_exact hJ _ _)
  ihave HR0 := (row_deliverP scM0 c 69 (by decide) inb_S128x64_S1x64_69_0 _ fs0 _ (gU c i xt0 fh0)) $$ HR0 %(fun q => deliver_gath (by decide) c hbM0 tbM0 fh0 xt0 i ⟨69, by decide⟩ (k0_off277 i) (by show (Scalar.indexCast (Scalar.addi (Scalar.muli (BitVec.ofNat 32 (i 0).val) 128#32) (BitVec.ofNat 32 69))).toNat = _; exact off_val _ 69 hi (by decide)) (by show 128 * (i 0).val + 69 < 16384; omega) _ _ _ q)
  ihave HR1 := (row_deliverP scM1 c 69 (by decide) inb_S128x64_S1x64_69_0 _ fs1 _ (gVi c i xt1 fh1)) $$ HR1 %(fun q => deliver_gath (by decide) c hbM1 tbM1 fh1 xt1 i ⟨69, by decide⟩ (k0_off277 i) (by show (Scalar.indexCast (Scalar.addi (Scalar.muli (BitVec.ofNat 32 (i 0).val) 128#32) (BitVec.ofNat 32 69))).toNat = _; exact off_val _ 69 hi (by decide)) (by show 128 * (i 0).val + 69 < 16384; omega) _ _ _ q)
  ihave HR2 := (row_deliverP scM2 c 69 (by decide) inb_S128x64_S1x64_69_0 _ fs2 _ (gVj c i xt2 fh1)) $$ HR2 %(fun q => deliver_gath (by decide) c hbM1 tbM2 fh1 xt2 i ⟨69, by decide⟩ (k0_off277 i) (by show (Scalar.indexCast (Scalar.addi (Scalar.muli (BitVec.ofNat 32 (i 0).val) 128#32) (BitVec.ofNat 32 69))).toNat = _; exact off_val _ 69 hi (by decide)) (by show 128 * (i 0).val + 69 < 16384; omega) _ _ _ q)
  ihave HD0 := (consH _ _) $$ HR0 HD0
  ihave HD1 := (consH _ _) $$ HR1 HD1
  ihave HD2 := (consH _ _) $$ HR2 HD2
  ihave HDC0 := (consH _ _) $$ HC0 HDC0
  ihave HDC1 := (consH _ _) $$ HC1 HDC1
  ihave HDC2 := (consH _ _) $$ HC2 HDC2
  ihave HDT0 := (consH _ _) $$ HT0 HDT0
  ihave HDT1 := (consH _ _) $$ HT1 HDT1
  ihave HDT2 := (consH _ _) $$ HT2 HDT2
  -- row 70: its three copies land; the row's resources go to the heads of the chains of what is done
  icases HB70 with ⟨HC0, HT0, HC1, HT1, HC2, HT2⟩
  sl_exec (disch := first | sl_exact hU _ _ | sl_exact hI _ _ | sl_exact hJ _ _)
  ihave HR0 := (row_deliverP scM0 c 70 (by decide) inb_S128x64_S1x64_70_0 _ fs0 _ (gU c i xt0 fh0)) $$ HR0 %(fun q => deliver_gath (by decide) c hbM0 tbM0 fh0 xt0 i ⟨70, by decide⟩ (k0_off281 i) (by show (Scalar.indexCast (Scalar.addi (Scalar.muli (BitVec.ofNat 32 (i 0).val) 128#32) (BitVec.ofNat 32 70))).toNat = _; exact off_val _ 70 hi (by decide)) (by show 128 * (i 0).val + 70 < 16384; omega) _ _ _ q)
  ihave HR1 := (row_deliverP scM1 c 70 (by decide) inb_S128x64_S1x64_70_0 _ fs1 _ (gVi c i xt1 fh1)) $$ HR1 %(fun q => deliver_gath (by decide) c hbM1 tbM1 fh1 xt1 i ⟨70, by decide⟩ (k0_off281 i) (by show (Scalar.indexCast (Scalar.addi (Scalar.muli (BitVec.ofNat 32 (i 0).val) 128#32) (BitVec.ofNat 32 70))).toNat = _; exact off_val _ 70 hi (by decide)) (by show 128 * (i 0).val + 70 < 16384; omega) _ _ _ q)
  ihave HR2 := (row_deliverP scM2 c 70 (by decide) inb_S128x64_S1x64_70_0 _ fs2 _ (gVj c i xt2 fh1)) $$ HR2 %(fun q => deliver_gath (by decide) c hbM1 tbM2 fh1 xt2 i ⟨70, by decide⟩ (k0_off281 i) (by show (Scalar.indexCast (Scalar.addi (Scalar.muli (BitVec.ofNat 32 (i 0).val) 128#32) (BitVec.ofNat 32 70))).toNat = _; exact off_val _ 70 hi (by decide)) (by show 128 * (i 0).val + 70 < 16384; omega) _ _ _ q)
  ihave HD0 := (consH _ _) $$ HR0 HD0
  ihave HD1 := (consH _ _) $$ HR1 HD1
  ihave HD2 := (consH _ _) $$ HR2 HD2
  ihave HDC0 := (consH _ _) $$ HC0 HDC0
  ihave HDC1 := (consH _ _) $$ HC1 HDC1
  ihave HDC2 := (consH _ _) $$ HC2 HDC2
  ihave HDT0 := (consH _ _) $$ HT0 HDT0
  ihave HDT1 := (consH _ _) $$ HT1 HDT1
  ihave HDT2 := (consH _ _) $$ HT2 HDT2
  -- row 71: its three copies land; the row's resources go to the heads of the chains of what is done
  icases HB71 with ⟨HC0, HT0, HC1, HT1, HC2, HT2⟩
  sl_exec (disch := first | sl_exact hU _ _ | sl_exact hI _ _ | sl_exact hJ _ _)
  ihave HR0 := (row_deliverP scM0 c 71 (by decide) inb_S128x64_S1x64_71_0 _ fs0 _ (gU c i xt0 fh0)) $$ HR0 %(fun q => deliver_gath (by decide) c hbM0 tbM0 fh0 xt0 i ⟨71, by decide⟩ (k0_off285 i) (by show (Scalar.indexCast (Scalar.addi (Scalar.muli (BitVec.ofNat 32 (i 0).val) 128#32) (BitVec.ofNat 32 71))).toNat = _; exact off_val _ 71 hi (by decide)) (by show 128 * (i 0).val + 71 < 16384; omega) _ _ _ q)
  ihave HR1 := (row_deliverP scM1 c 71 (by decide) inb_S128x64_S1x64_71_0 _ fs1 _ (gVi c i xt1 fh1)) $$ HR1 %(fun q => deliver_gath (by decide) c hbM1 tbM1 fh1 xt1 i ⟨71, by decide⟩ (k0_off285 i) (by show (Scalar.indexCast (Scalar.addi (Scalar.muli (BitVec.ofNat 32 (i 0).val) 128#32) (BitVec.ofNat 32 71))).toNat = _; exact off_val _ 71 hi (by decide)) (by show 128 * (i 0).val + 71 < 16384; omega) _ _ _ q)
  ihave HR2 := (row_deliverP scM2 c 71 (by decide) inb_S128x64_S1x64_71_0 _ fs2 _ (gVj c i xt2 fh1)) $$ HR2 %(fun q => deliver_gath (by decide) c hbM1 tbM2 fh1 xt2 i ⟨71, by decide⟩ (k0_off285 i) (by show (Scalar.indexCast (Scalar.addi (Scalar.muli (BitVec.ofNat 32 (i 0).val) 128#32) (BitVec.ofNat 32 71))).toNat = _; exact off_val _ 71 hi (by decide)) (by show 128 * (i 0).val + 71 < 16384; omega) _ _ _ q)
  ihave HD0 := (consH _ _) $$ HR0 HD0
  ihave HD1 := (consH _ _) $$ HR1 HD1
  ihave HD2 := (consH _ _) $$ HR2 HD2
  ihave HDC0 := (consH _ _) $$ HC0 HDC0
  ihave HDC1 := (consH _ _) $$ HC1 HDC1
  ihave HDC2 := (consH _ _) $$ HC2 HDC2
  ihave HDT0 := (consH _ _) $$ HT0 HDT0
  ihave HDT1 := (consH _ _) $$ HT1 HDT1
  ihave HDT2 := (consH _ _) $$ HT2 HDT2
  -- row 72: its three copies land; the row's resources go to the heads of the chains of what is done
  icases HB72 with ⟨HC0, HT0, HC1, HT1, HC2, HT2⟩
  sl_exec (disch := first | sl_exact hU _ _ | sl_exact hI _ _ | sl_exact hJ _ _)
  ihave HR0 := (row_deliverP scM0 c 72 (by decide) inb_S128x64_S1x64_72_0 _ fs0 _ (gU c i xt0 fh0)) $$ HR0 %(fun q => deliver_gath (by decide) c hbM0 tbM0 fh0 xt0 i ⟨72, by decide⟩ (k0_off289 i) (by show (Scalar.indexCast (Scalar.addi (Scalar.muli (BitVec.ofNat 32 (i 0).val) 128#32) (BitVec.ofNat 32 72))).toNat = _; exact off_val _ 72 hi (by decide)) (by show 128 * (i 0).val + 72 < 16384; omega) _ _ _ q)
  ihave HR1 := (row_deliverP scM1 c 72 (by decide) inb_S128x64_S1x64_72_0 _ fs1 _ (gVi c i xt1 fh1)) $$ HR1 %(fun q => deliver_gath (by decide) c hbM1 tbM1 fh1 xt1 i ⟨72, by decide⟩ (k0_off289 i) (by show (Scalar.indexCast (Scalar.addi (Scalar.muli (BitVec.ofNat 32 (i 0).val) 128#32) (BitVec.ofNat 32 72))).toNat = _; exact off_val _ 72 hi (by decide)) (by show 128 * (i 0).val + 72 < 16384; omega) _ _ _ q)
  ihave HR2 := (row_deliverP scM2 c 72 (by decide) inb_S128x64_S1x64_72_0 _ fs2 _ (gVj c i xt2 fh1)) $$ HR2 %(fun q => deliver_gath (by decide) c hbM1 tbM2 fh1 xt2 i ⟨72, by decide⟩ (k0_off289 i) (by show (Scalar.indexCast (Scalar.addi (Scalar.muli (BitVec.ofNat 32 (i 0).val) 128#32) (BitVec.ofNat 32 72))).toNat = _; exact off_val _ 72 hi (by decide)) (by show 128 * (i 0).val + 72 < 16384; omega) _ _ _ q)
  ihave HD0 := (consH _ _) $$ HR0 HD0
  ihave HD1 := (consH _ _) $$ HR1 HD1
  ihave HD2 := (consH _ _) $$ HR2 HD2
  ihave HDC0 := (consH _ _) $$ HC0 HDC0
  ihave HDC1 := (consH _ _) $$ HC1 HDC1
  ihave HDC2 := (consH _ _) $$ HC2 HDC2
  ihave HDT0 := (consH _ _) $$ HT0 HDT0
  ihave HDT1 := (consH _ _) $$ HT1 HDT1
  ihave HDT2 := (consH _ _) $$ HT2 HDT2
  -- row 73: its three copies land; the row's resources go to the heads of the chains of what is done
  icases HB73 with ⟨HC0, HT0, HC1, HT1, HC2, HT2⟩
  sl_exec (disch := first | sl_exact hU _ _ | sl_exact hI _ _ | sl_exact hJ _ _)
  ihave HR0 := (row_deliverP scM0 c 73 (by decide) inb_S128x64_S1x64_73_0 _ fs0 _ (gU c i xt0 fh0)) $$ HR0 %(fun q => deliver_gath (by decide) c hbM0 tbM0 fh0 xt0 i ⟨73, by decide⟩ (k0_off293 i) (by show (Scalar.indexCast (Scalar.addi (Scalar.muli (BitVec.ofNat 32 (i 0).val) 128#32) (BitVec.ofNat 32 73))).toNat = _; exact off_val _ 73 hi (by decide)) (by show 128 * (i 0).val + 73 < 16384; omega) _ _ _ q)
  ihave HR1 := (row_deliverP scM1 c 73 (by decide) inb_S128x64_S1x64_73_0 _ fs1 _ (gVi c i xt1 fh1)) $$ HR1 %(fun q => deliver_gath (by decide) c hbM1 tbM1 fh1 xt1 i ⟨73, by decide⟩ (k0_off293 i) (by show (Scalar.indexCast (Scalar.addi (Scalar.muli (BitVec.ofNat 32 (i 0).val) 128#32) (BitVec.ofNat 32 73))).toNat = _; exact off_val _ 73 hi (by decide)) (by show 128 * (i 0).val + 73 < 16384; omega) _ _ _ q)
  ihave HR2 := (row_deliverP scM2 c 73 (by decide) inb_S128x64_S1x64_73_0 _ fs2 _ (gVj c i xt2 fh1)) $$ HR2 %(fun q => deliver_gath (by decide) c hbM1 tbM2 fh1 xt2 i ⟨73, by decide⟩ (k0_off293 i) (by show (Scalar.indexCast (Scalar.addi (Scalar.muli (BitVec.ofNat 32 (i 0).val) 128#32) (BitVec.ofNat 32 73))).toNat = _; exact off_val _ 73 hi (by decide)) (by show 128 * (i 0).val + 73 < 16384; omega) _ _ _ q)
  ihave HD0 := (consH _ _) $$ HR0 HD0
  ihave HD1 := (consH _ _) $$ HR1 HD1
  ihave HD2 := (consH _ _) $$ HR2 HD2
  ihave HDC0 := (consH _ _) $$ HC0 HDC0
  ihave HDC1 := (consH _ _) $$ HC1 HDC1
  ihave HDC2 := (consH _ _) $$ HC2 HDC2
  ihave HDT0 := (consH _ _) $$ HT0 HDT0
  ihave HDT1 := (consH _ _) $$ HT1 HDT1
  ihave HDT2 := (consH _ _) $$ HT2 HDT2
  -- row 74: its three copies land; the row's resources go to the heads of the chains of what is done
  icases HB74 with ⟨HC0, HT0, HC1, HT1, HC2, HT2⟩
  sl_exec (disch := first | sl_exact hU _ _ | sl_exact hI _ _ | sl_exact hJ _ _)
  ihave HR0 := (row_deliverP scM0 c 74 (by decide) inb_S128x64_S1x64_74_0 _ fs0 _ (gU c i xt0 fh0)) $$ HR0 %(fun q => deliver_gath (by decide) c hbM0 tbM0 fh0 xt0 i ⟨74, by decide⟩ (k0_off297 i) (by show (Scalar.indexCast (Scalar.addi (Scalar.muli (BitVec.ofNat 32 (i 0).val) 128#32) (BitVec.ofNat 32 74))).toNat = _; exact off_val _ 74 hi (by decide)) (by show 128 * (i 0).val + 74 < 16384; omega) _ _ _ q)
  ihave HR1 := (row_deliverP scM1 c 74 (by decide) inb_S128x64_S1x64_74_0 _ fs1 _ (gVi c i xt1 fh1)) $$ HR1 %(fun q => deliver_gath (by decide) c hbM1 tbM1 fh1 xt1 i ⟨74, by decide⟩ (k0_off297 i) (by show (Scalar.indexCast (Scalar.addi (Scalar.muli (BitVec.ofNat 32 (i 0).val) 128#32) (BitVec.ofNat 32 74))).toNat = _; exact off_val _ 74 hi (by decide)) (by show 128 * (i 0).val + 74 < 16384; omega) _ _ _ q)
  ihave HR2 := (row_deliverP scM2 c 74 (by decide) inb_S128x64_S1x64_74_0 _ fs2 _ (gVj c i xt2 fh1)) $$ HR2 %(fun q => deliver_gath (by decide) c hbM1 tbM2 fh1 xt2 i ⟨74, by decide⟩ (k0_off297 i) (by show (Scalar.indexCast (Scalar.addi (Scalar.muli (BitVec.ofNat 32 (i 0).val) 128#32) (BitVec.ofNat 32 74))).toNat = _; exact off_val _ 74 hi (by decide)) (by show 128 * (i 0).val + 74 < 16384; omega) _ _ _ q)
  ihave HD0 := (consH _ _) $$ HR0 HD0
  ihave HD1 := (consH _ _) $$ HR1 HD1
  ihave HD2 := (consH _ _) $$ HR2 HD2
  ihave HDC0 := (consH _ _) $$ HC0 HDC0
  ihave HDC1 := (consH _ _) $$ HC1 HDC1
  ihave HDC2 := (consH _ _) $$ HC2 HDC2
  ihave HDT0 := (consH _ _) $$ HT0 HDT0
  ihave HDT1 := (consH _ _) $$ HT1 HDT1
  ihave HDT2 := (consH _ _) $$ HT2 HDT2
  -- row 75: its three copies land; the row's resources go to the heads of the chains of what is done
  icases HB75 with ⟨HC0, HT0, HC1, HT1, HC2, HT2⟩
  sl_exec (disch := first | sl_exact hU _ _ | sl_exact hI _ _ | sl_exact hJ _ _)
  ihave HR0 := (row_deliverP scM0 c 75 (by decide) inb_S128x64_S1x64_75_0 _ fs0 _ (gU c i xt0 fh0)) $$ HR0 %(fun q => deliver_gath (by decide) c hbM0 tbM0 fh0 xt0 i ⟨75, by decide⟩ (k0_off301 i) (by show (Scalar.indexCast (Scalar.addi (Scalar.muli (BitVec.ofNat 32 (i 0).val) 128#32) (BitVec.ofNat 32 75))).toNat = _; exact off_val _ 75 hi (by decide)) (by show 128 * (i 0).val + 75 < 16384; omega) _ _ _ q)
  ihave HR1 := (row_deliverP scM1 c 75 (by decide) inb_S128x64_S1x64_75_0 _ fs1 _ (gVi c i xt1 fh1)) $$ HR1 %(fun q => deliver_gath (by decide) c hbM1 tbM1 fh1 xt1 i ⟨75, by decide⟩ (k0_off301 i) (by show (Scalar.indexCast (Scalar.addi (Scalar.muli (BitVec.ofNat 32 (i 0).val) 128#32) (BitVec.ofNat 32 75))).toNat = _; exact off_val _ 75 hi (by decide)) (by show 128 * (i 0).val + 75 < 16384; omega) _ _ _ q)
  ihave HR2 := (row_deliverP scM2 c 75 (by decide) inb_S128x64_S1x64_75_0 _ fs2 _ (gVj c i xt2 fh1)) $$ HR2 %(fun q => deliver_gath (by decide) c hbM1 tbM2 fh1 xt2 i ⟨75, by decide⟩ (k0_off301 i) (by show (Scalar.indexCast (Scalar.addi (Scalar.muli (BitVec.ofNat 32 (i 0).val) 128#32) (BitVec.ofNat 32 75))).toNat = _; exact off_val _ 75 hi (by decide)) (by show 128 * (i 0).val + 75 < 16384; omega) _ _ _ q)
  ihave HD0 := (consH _ _) $$ HR0 HD0
  ihave HD1 := (consH _ _) $$ HR1 HD1
  ihave HD2 := (consH _ _) $$ HR2 HD2
  ihave HDC0 := (consH _ _) $$ HC0 HDC0
  ihave HDC1 := (consH _ _) $$ HC1 HDC1
  ihave HDC2 := (consH _ _) $$ HC2 HDC2
  ihave HDT0 := (consH _ _) $$ HT0 HDT0
  ihave HDT1 := (consH _ _) $$ HT1 HDT1
  ihave HDT2 := (consH _ _) $$ HT2 HDT2
  -- row 76: its three copies land; the row's resources go to the heads of the chains of what is done
  icases HB76 with ⟨HC0, HT0, HC1, HT1, HC2, HT2⟩
  sl_exec (disch := first | sl_exact hU _ _ | sl_exact hI _ _ | sl_exact hJ _ _)
  ihave HR0 := (row_deliverP scM0 c 76 (by decide) inb_S128x64_S1x64_76_0 _ fs0 _ (gU c i xt0 fh0)) $$ HR0 %(fun q => deliver_gath (by decide) c hbM0 tbM0 fh0 xt0 i ⟨76, by decide⟩ (k0_off305 i) (by show (Scalar.indexCast (Scalar.addi (Scalar.muli (BitVec.ofNat 32 (i 0).val) 128#32) (BitVec.ofNat 32 76))).toNat = _; exact off_val _ 76 hi (by decide)) (by show 128 * (i 0).val + 76 < 16384; omega) _ _ _ q)
  ihave HR1 := (row_deliverP scM1 c 76 (by decide) inb_S128x64_S1x64_76_0 _ fs1 _ (gVi c i xt1 fh1)) $$ HR1 %(fun q => deliver_gath (by decide) c hbM1 tbM1 fh1 xt1 i ⟨76, by decide⟩ (k0_off305 i) (by show (Scalar.indexCast (Scalar.addi (Scalar.muli (BitVec.ofNat 32 (i 0).val) 128#32) (BitVec.ofNat 32 76))).toNat = _; exact off_val _ 76 hi (by decide)) (by show 128 * (i 0).val + 76 < 16384; omega) _ _ _ q)
  ihave HR2 := (row_deliverP scM2 c 76 (by decide) inb_S128x64_S1x64_76_0 _ fs2 _ (gVj c i xt2 fh1)) $$ HR2 %(fun q => deliver_gath (by decide) c hbM1 tbM2 fh1 xt2 i ⟨76, by decide⟩ (k0_off305 i) (by show (Scalar.indexCast (Scalar.addi (Scalar.muli (BitVec.ofNat 32 (i 0).val) 128#32) (BitVec.ofNat 32 76))).toNat = _; exact off_val _ 76 hi (by decide)) (by show 128 * (i 0).val + 76 < 16384; omega) _ _ _ q)
  ihave HD0 := (consH _ _) $$ HR0 HD0
  ihave HD1 := (consH _ _) $$ HR1 HD1
  ihave HD2 := (consH _ _) $$ HR2 HD2
  ihave HDC0 := (consH _ _) $$ HC0 HDC0
  ihave HDC1 := (consH _ _) $$ HC1 HDC1
  ihave HDC2 := (consH _ _) $$ HC2 HDC2
  ihave HDT0 := (consH _ _) $$ HT0 HDT0
  ihave HDT1 := (consH _ _) $$ HT1 HDT1
  ihave HDT2 := (consH _ _) $$ HT2 HDT2
  -- row 77: its three copies land; the row's resources go to the heads of the chains of what is done
  icases HB77 with ⟨HC0, HT0, HC1, HT1, HC2, HT2⟩
  sl_exec (disch := first | sl_exact hU _ _ | sl_exact hI _ _ | sl_exact hJ _ _)
  ihave HR0 := (row_deliverP scM0 c 77 (by decide) inb_S128x64_S1x64_77_0 _ fs0 _ (gU c i xt0 fh0)) $$ HR0 %(fun q => deliver_gath (by decide) c hbM0 tbM0 fh0 xt0 i ⟨77, by decide⟩ (k0_off309 i) (by show (Scalar.indexCast (Scalar.addi (Scalar.muli (BitVec.ofNat 32 (i 0).val) 128#32) (BitVec.ofNat 32 77))).toNat = _; exact off_val _ 77 hi (by decide)) (by show 128 * (i 0).val + 77 < 16384; omega) _ _ _ q)
  ihave HR1 := (row_deliverP scM1 c 77 (by decide) inb_S128x64_S1x64_77_0 _ fs1 _ (gVi c i xt1 fh1)) $$ HR1 %(fun q => deliver_gath (by decide) c hbM1 tbM1 fh1 xt1 i ⟨77, by decide⟩ (k0_off309 i) (by show (Scalar.indexCast (Scalar.addi (Scalar.muli (BitVec.ofNat 32 (i 0).val) 128#32) (BitVec.ofNat 32 77))).toNat = _; exact off_val _ 77 hi (by decide)) (by show 128 * (i 0).val + 77 < 16384; omega) _ _ _ q)
  ihave HR2 := (row_deliverP scM2 c 77 (by decide) inb_S128x64_S1x64_77_0 _ fs2 _ (gVj c i xt2 fh1)) $$ HR2 %(fun q => deliver_gath (by decide) c hbM1 tbM2 fh1 xt2 i ⟨77, by decide⟩ (k0_off309 i) (by show (Scalar.indexCast (Scalar.addi (Scalar.muli (BitVec.ofNat 32 (i 0).val) 128#32) (BitVec.ofNat 32 77))).toNat = _; exact off_val _ 77 hi (by decide)) (by show 128 * (i 0).val + 77 < 16384; omega) _ _ _ q)
  ihave HD0 := (consH _ _) $$ HR0 HD0
  ihave HD1 := (consH _ _) $$ HR1 HD1
  ihave HD2 := (consH _ _) $$ HR2 HD2
  ihave HDC0 := (consH _ _) $$ HC0 HDC0
  ihave HDC1 := (consH _ _) $$ HC1 HDC1
  ihave HDC2 := (consH _ _) $$ HC2 HDC2
  ihave HDT0 := (consH _ _) $$ HT0 HDT0
  ihave HDT1 := (consH _ _) $$ HT1 HDT1
  ihave HDT2 := (consH _ _) $$ HT2 HDT2
  -- row 78: its three copies land; the row's resources go to the heads of the chains of what is done
  icases HB78 with ⟨HC0, HT0, HC1, HT1, HC2, HT2⟩
  sl_exec (disch := first | sl_exact hU _ _ | sl_exact hI _ _ | sl_exact hJ _ _)
  ihave HR0 := (row_deliverP scM0 c 78 (by decide) inb_S128x64_S1x64_78_0 _ fs0 _ (gU c i xt0 fh0)) $$ HR0 %(fun q => deliver_gath (by decide) c hbM0 tbM0 fh0 xt0 i ⟨78, by decide⟩ (k0_off313 i) (by show (Scalar.indexCast (Scalar.addi (Scalar.muli (BitVec.ofNat 32 (i 0).val) 128#32) (BitVec.ofNat 32 78))).toNat = _; exact off_val _ 78 hi (by decide)) (by show 128 * (i 0).val + 78 < 16384; omega) _ _ _ q)
  ihave HR1 := (row_deliverP scM1 c 78 (by decide) inb_S128x64_S1x64_78_0 _ fs1 _ (gVi c i xt1 fh1)) $$ HR1 %(fun q => deliver_gath (by decide) c hbM1 tbM1 fh1 xt1 i ⟨78, by decide⟩ (k0_off313 i) (by show (Scalar.indexCast (Scalar.addi (Scalar.muli (BitVec.ofNat 32 (i 0).val) 128#32) (BitVec.ofNat 32 78))).toNat = _; exact off_val _ 78 hi (by decide)) (by show 128 * (i 0).val + 78 < 16384; omega) _ _ _ q)
  ihave HR2 := (row_deliverP scM2 c 78 (by decide) inb_S128x64_S1x64_78_0 _ fs2 _ (gVj c i xt2 fh1)) $$ HR2 %(fun q => deliver_gath (by decide) c hbM1 tbM2 fh1 xt2 i ⟨78, by decide⟩ (k0_off313 i) (by show (Scalar.indexCast (Scalar.addi (Scalar.muli (BitVec.ofNat 32 (i 0).val) 128#32) (BitVec.ofNat 32 78))).toNat = _; exact off_val _ 78 hi (by decide)) (by show 128 * (i 0).val + 78 < 16384; omega) _ _ _ q)
  ihave HD0 := (consH _ _) $$ HR0 HD0
  ihave HD1 := (consH _ _) $$ HR1 HD1
  ihave HD2 := (consH _ _) $$ HR2 HD2
  ihave HDC0 := (consH _ _) $$ HC0 HDC0
  ihave HDC1 := (consH _ _) $$ HC1 HDC1
  ihave HDC2 := (consH _ _) $$ HC2 HDC2
  ihave HDT0 := (consH _ _) $$ HT0 HDT0
  ihave HDT1 := (consH _ _) $$ HT1 HDT1
  ihave HDT2 := (consH _ _) $$ HT2 HDT2
  -- row 79: its three copies land; the row's resources go to the heads of the chains of what is done
  icases HB79 with ⟨HC0, HT0, HC1, HT1, HC2, HT2⟩
  sl_exec (disch := first | sl_exact hU _ _ | sl_exact hI _ _ | sl_exact hJ _ _)
  ihave HR0 := (row_deliverP scM0 c 79 (by decide) inb_S128x64_S1x64_79_0 _ fs0 _ (gU c i xt0 fh0)) $$ HR0 %(fun q => deliver_gath (by decide) c hbM0 tbM0 fh0 xt0 i ⟨79, by decide⟩ (k0_off317 i) (by show (Scalar.indexCast (Scalar.addi (Scalar.muli (BitVec.ofNat 32 (i 0).val) 128#32) (BitVec.ofNat 32 79))).toNat = _; exact off_val _ 79 hi (by decide)) (by show 128 * (i 0).val + 79 < 16384; omega) _ _ _ q)
  ihave HR1 := (row_deliverP scM1 c 79 (by decide) inb_S128x64_S1x64_79_0 _ fs1 _ (gVi c i xt1 fh1)) $$ HR1 %(fun q => deliver_gath (by decide) c hbM1 tbM1 fh1 xt1 i ⟨79, by decide⟩ (k0_off317 i) (by show (Scalar.indexCast (Scalar.addi (Scalar.muli (BitVec.ofNat 32 (i 0).val) 128#32) (BitVec.ofNat 32 79))).toNat = _; exact off_val _ 79 hi (by decide)) (by show 128 * (i 0).val + 79 < 16384; omega) _ _ _ q)
  ihave HR2 := (row_deliverP scM2 c 79 (by decide) inb_S128x64_S1x64_79_0 _ fs2 _ (gVj c i xt2 fh1)) $$ HR2 %(fun q => deliver_gath (by decide) c hbM1 tbM2 fh1 xt2 i ⟨79, by decide⟩ (k0_off317 i) (by show (Scalar.indexCast (Scalar.addi (Scalar.muli (BitVec.ofNat 32 (i 0).val) 128#32) (BitVec.ofNat 32 79))).toNat = _; exact off_val _ 79 hi (by decide)) (by show 128 * (i 0).val + 79 < 16384; omega) _ _ _ q)
  ihave HD0 := (consH _ _) $$ HR0 HD0
  ihave HD1 := (consH _ _) $$ HR1 HD1
  ihave HD2 := (consH _ _) $$ HR2 HD2
  ihave HDC0 := (consH _ _) $$ HC0 HDC0
  ihave HDC1 := (consH _ _) $$ HC1 HDC1
  ihave HDC2 := (consH _ _) $$ HC2 HDC2
  ihave HDT0 := (consH _ _) $$ HT0 HDT0
  ihave HDT1 := (consH _ _) $$ HT1 HDT1
  ihave HDT2 := (consH _ _) $$ HT2 HDT2
  -- row 80: its three copies land; the row's resources go to the heads of the chains of what is done
  icases HB80 with ⟨HC0, HT0, HC1, HT1, HC2, HT2⟩
  sl_exec (disch := first | sl_exact hU _ _ | sl_exact hI _ _ | sl_exact hJ _ _)
  ihave HR0 := (row_deliverP scM0 c 80 (by decide) inb_S128x64_S1x64_80_0 _ fs0 _ (gU c i xt0 fh0)) $$ HR0 %(fun q => deliver_gath (by decide) c hbM0 tbM0 fh0 xt0 i ⟨80, by decide⟩ (k0_off321 i) (by show (Scalar.indexCast (Scalar.addi (Scalar.muli (BitVec.ofNat 32 (i 0).val) 128#32) (BitVec.ofNat 32 80))).toNat = _; exact off_val _ 80 hi (by decide)) (by show 128 * (i 0).val + 80 < 16384; omega) _ _ _ q)
  ihave HR1 := (row_deliverP scM1 c 80 (by decide) inb_S128x64_S1x64_80_0 _ fs1 _ (gVi c i xt1 fh1)) $$ HR1 %(fun q => deliver_gath (by decide) c hbM1 tbM1 fh1 xt1 i ⟨80, by decide⟩ (k0_off321 i) (by show (Scalar.indexCast (Scalar.addi (Scalar.muli (BitVec.ofNat 32 (i 0).val) 128#32) (BitVec.ofNat 32 80))).toNat = _; exact off_val _ 80 hi (by decide)) (by show 128 * (i 0).val + 80 < 16384; omega) _ _ _ q)
  ihave HR2 := (row_deliverP scM2 c 80 (by decide) inb_S128x64_S1x64_80_0 _ fs2 _ (gVj c i xt2 fh1)) $$ HR2 %(fun q => deliver_gath (by decide) c hbM1 tbM2 fh1 xt2 i ⟨80, by decide⟩ (k0_off321 i) (by show (Scalar.indexCast (Scalar.addi (Scalar.muli (BitVec.ofNat 32 (i 0).val) 128#32) (BitVec.ofNat 32 80))).toNat = _; exact off_val _ 80 hi (by decide)) (by show 128 * (i 0).val + 80 < 16384; omega) _ _ _ q)
  ihave HD0 := (consH _ _) $$ HR0 HD0
  ihave HD1 := (consH _ _) $$ HR1 HD1
  ihave HD2 := (consH _ _) $$ HR2 HD2
  ihave HDC0 := (consH _ _) $$ HC0 HDC0
  ihave HDC1 := (consH _ _) $$ HC1 HDC1
  ihave HDC2 := (consH _ _) $$ HC2 HDC2
  ihave HDT0 := (consH _ _) $$ HT0 HDT0
  ihave HDT1 := (consH _ _) $$ HT1 HDT1
  ihave HDT2 := (consH _ _) $$ HT2 HDT2
  -- row 81: its three copies land; the row's resources go to the heads of the chains of what is done
  icases HB81 with ⟨HC0, HT0, HC1, HT1, HC2, HT2⟩
  sl_exec (disch := first | sl_exact hU _ _ | sl_exact hI _ _ | sl_exact hJ _ _)
  ihave HR0 := (row_deliverP scM0 c 81 (by decide) inb_S128x64_S1x64_81_0 _ fs0 _ (gU c i xt0 fh0)) $$ HR0 %(fun q => deliver_gath (by decide) c hbM0 tbM0 fh0 xt0 i ⟨81, by decide⟩ (k0_off325 i) (by show (Scalar.indexCast (Scalar.addi (Scalar.muli (BitVec.ofNat 32 (i 0).val) 128#32) (BitVec.ofNat 32 81))).toNat = _; exact off_val _ 81 hi (by decide)) (by show 128 * (i 0).val + 81 < 16384; omega) _ _ _ q)
  ihave HR1 := (row_deliverP scM1 c 81 (by decide) inb_S128x64_S1x64_81_0 _ fs1 _ (gVi c i xt1 fh1)) $$ HR1 %(fun q => deliver_gath (by decide) c hbM1 tbM1 fh1 xt1 i ⟨81, by decide⟩ (k0_off325 i) (by show (Scalar.indexCast (Scalar.addi (Scalar.muli (BitVec.ofNat 32 (i 0).val) 128#32) (BitVec.ofNat 32 81))).toNat = _; exact off_val _ 81 hi (by decide)) (by show 128 * (i 0).val + 81 < 16384; omega) _ _ _ q)
  ihave HR2 := (row_deliverP scM2 c 81 (by decide) inb_S128x64_S1x64_81_0 _ fs2 _ (gVj c i xt2 fh1)) $$ HR2 %(fun q => deliver_gath (by decide) c hbM1 tbM2 fh1 xt2 i ⟨81, by decide⟩ (k0_off325 i) (by show (Scalar.indexCast (Scalar.addi (Scalar.muli (BitVec.ofNat 32 (i 0).val) 128#32) (BitVec.ofNat 32 81))).toNat = _; exact off_val _ 81 hi (by decide)) (by show 128 * (i 0).val + 81 < 16384; omega) _ _ _ q)
  ihave HD0 := (consH _ _) $$ HR0 HD0
  ihave HD1 := (consH _ _) $$ HR1 HD1
  ihave HD2 := (consH _ _) $$ HR2 HD2
  ihave HDC0 := (consH _ _) $$ HC0 HDC0
  ihave HDC1 := (consH _ _) $$ HC1 HDC1
  ihave HDC2 := (consH _ _) $$ HC2 HDC2
  ihave HDT0 := (consH _ _) $$ HT0 HDT0
  ihave HDT1 := (consH _ _) $$ HT1 HDT1
  ihave HDT2 := (consH _ _) $$ HT2 HDT2
  -- row 82: its three copies land; the row's resources go to the heads of the chains of what is done
  icases HB82 with ⟨HC0, HT0, HC1, HT1, HC2, HT2⟩
  sl_exec (disch := first | sl_exact hU _ _ | sl_exact hI _ _ | sl_exact hJ _ _)
  ihave HR0 := (row_deliverP scM0 c 82 (by decide) inb_S128x64_S1x64_82_0 _ fs0 _ (gU c i xt0 fh0)) $$ HR0 %(fun q => deliver_gath (by decide) c hbM0 tbM0 fh0 xt0 i ⟨82, by decide⟩ (k0_off329 i) (by show (Scalar.indexCast (Scalar.addi (Scalar.muli (BitVec.ofNat 32 (i 0).val) 128#32) (BitVec.ofNat 32 82))).toNat = _; exact off_val _ 82 hi (by decide)) (by show 128 * (i 0).val + 82 < 16384; omega) _ _ _ q)
  ihave HR1 := (row_deliverP scM1 c 82 (by decide) inb_S128x64_S1x64_82_0 _ fs1 _ (gVi c i xt1 fh1)) $$ HR1 %(fun q => deliver_gath (by decide) c hbM1 tbM1 fh1 xt1 i ⟨82, by decide⟩ (k0_off329 i) (by show (Scalar.indexCast (Scalar.addi (Scalar.muli (BitVec.ofNat 32 (i 0).val) 128#32) (BitVec.ofNat 32 82))).toNat = _; exact off_val _ 82 hi (by decide)) (by show 128 * (i 0).val + 82 < 16384; omega) _ _ _ q)
  ihave HR2 := (row_deliverP scM2 c 82 (by decide) inb_S128x64_S1x64_82_0 _ fs2 _ (gVj c i xt2 fh1)) $$ HR2 %(fun q => deliver_gath (by decide) c hbM1 tbM2 fh1 xt2 i ⟨82, by decide⟩ (k0_off329 i) (by show (Scalar.indexCast (Scalar.addi (Scalar.muli (BitVec.ofNat 32 (i 0).val) 128#32) (BitVec.ofNat 32 82))).toNat = _; exact off_val _ 82 hi (by decide)) (by show 128 * (i 0).val + 82 < 16384; omega) _ _ _ q)
  ihave HD0 := (consH _ _) $$ HR0 HD0
  ihave HD1 := (consH _ _) $$ HR1 HD1
  ihave HD2 := (consH _ _) $$ HR2 HD2
  ihave HDC0 := (consH _ _) $$ HC0 HDC0
  ihave HDC1 := (consH _ _) $$ HC1 HDC1
  ihave HDC2 := (consH _ _) $$ HC2 HDC2
  ihave HDT0 := (consH _ _) $$ HT0 HDT0
  ihave HDT1 := (consH _ _) $$ HT1 HDT1
  ihave HDT2 := (consH _ _) $$ HT2 HDT2
  -- row 83: its three copies land; the row's resources go to the heads of the chains of what is done
  icases HB83 with ⟨HC0, HT0, HC1, HT1, HC2, HT2⟩
  sl_exec (disch := first | sl_exact hU _ _ | sl_exact hI _ _ | sl_exact hJ _ _)
  ihave HR0 := (row_deliverP scM0 c 83 (by decide) inb_S128x64_S1x64_83_0 _ fs0 _ (gU c i xt0 fh0)) $$ HR0 %(fun q => deliver_gath (by decide) c hbM0 tbM0 fh0 xt0 i ⟨83, by decide⟩ (k0_off333 i) (by show (Scalar.indexCast (Scalar.addi (Scalar.muli (BitVec.ofNat 32 (i 0).val) 128#32) (BitVec.ofNat 32 83))).toNat = _; exact off_val _ 83 hi (by decide)) (by show 128 * (i 0).val + 83 < 16384; omega) _ _ _ q)
  ihave HR1 := (row_deliverP scM1 c 83 (by decide) inb_S128x64_S1x64_83_0 _ fs1 _ (gVi c i xt1 fh1)) $$ HR1 %(fun q => deliver_gath (by decide) c hbM1 tbM1 fh1 xt1 i ⟨83, by decide⟩ (k0_off333 i) (by show (Scalar.indexCast (Scalar.addi (Scalar.muli (BitVec.ofNat 32 (i 0).val) 128#32) (BitVec.ofNat 32 83))).toNat = _; exact off_val _ 83 hi (by decide)) (by show 128 * (i 0).val + 83 < 16384; omega) _ _ _ q)
  ihave HR2 := (row_deliverP scM2 c 83 (by decide) inb_S128x64_S1x64_83_0 _ fs2 _ (gVj c i xt2 fh1)) $$ HR2 %(fun q => deliver_gath (by decide) c hbM1 tbM2 fh1 xt2 i ⟨83, by decide⟩ (k0_off333 i) (by show (Scalar.indexCast (Scalar.addi (Scalar.muli (BitVec.ofNat 32 (i 0).val) 128#32) (BitVec.ofNat 32 83))).toNat = _; exact off_val _ 83 hi (by decide)) (by show 128 * (i 0).val + 83 < 16384; omega) _ _ _ q)
  ihave HD0 := (consH _ _) $$ HR0 HD0
  ihave HD1 := (consH _ _) $$ HR1 HD1
  ihave HD2 := (consH _ _) $$ HR2 HD2
  ihave HDC0 := (consH _ _) $$ HC0 HDC0
  ihave HDC1 := (consH _ _) $$ HC1 HDC1
  ihave HDC2 := (consH _ _) $$ HC2 HDC2
  ihave HDT0 := (consH _ _) $$ HT0 HDT0
  ihave HDT1 := (consH _ _) $$ HT1 HDT1
  ihave HDT2 := (consH _ _) $$ HT2 HDT2
  -- row 84: its three copies land; the row's resources go to the heads of the chains of what is done
  icases HB84 with ⟨HC0, HT0, HC1, HT1, HC2, HT2⟩
  sl_exec (disch := first | sl_exact hU _ _ | sl_exact hI _ _ | sl_exact hJ _ _)
  ihave HR0 := (row_deliverP scM0 c 84 (by decide) inb_S128x64_S1x64_84_0 _ fs0 _ (gU c i xt0 fh0)) $$ HR0 %(fun q => deliver_gath (by decide) c hbM0 tbM0 fh0 xt0 i ⟨84, by decide⟩ (k0_off337 i) (by show (Scalar.indexCast (Scalar.addi (Scalar.muli (BitVec.ofNat 32 (i 0).val) 128#32) (BitVec.ofNat 32 84))).toNat = _; exact off_val _ 84 hi (by decide)) (by show 128 * (i 0).val + 84 < 16384; omega) _ _ _ q)
  ihave HR1 := (row_deliverP scM1 c 84 (by decide) inb_S128x64_S1x64_84_0 _ fs1 _ (gVi c i xt1 fh1)) $$ HR1 %(fun q => deliver_gath (by decide) c hbM1 tbM1 fh1 xt1 i ⟨84, by decide⟩ (k0_off337 i) (by show (Scalar.indexCast (Scalar.addi (Scalar.muli (BitVec.ofNat 32 (i 0).val) 128#32) (BitVec.ofNat 32 84))).toNat = _; exact off_val _ 84 hi (by decide)) (by show 128 * (i 0).val + 84 < 16384; omega) _ _ _ q)
  ihave HR2 := (row_deliverP scM2 c 84 (by decide) inb_S128x64_S1x64_84_0 _ fs2 _ (gVj c i xt2 fh1)) $$ HR2 %(fun q => deliver_gath (by decide) c hbM1 tbM2 fh1 xt2 i ⟨84, by decide⟩ (k0_off337 i) (by show (Scalar.indexCast (Scalar.addi (Scalar.muli (BitVec.ofNat 32 (i 0).val) 128#32) (BitVec.ofNat 32 84))).toNat = _; exact off_val _ 84 hi (by decide)) (by show 128 * (i 0).val + 84 < 16384; omega) _ _ _ q)
  ihave HD0 := (consH _ _) $$ HR0 HD0
  ihave HD1 := (consH _ _) $$ HR1 HD1
  ihave HD2 := (consH _ _) $$ HR2 HD2
  ihave HDC0 := (consH _ _) $$ HC0 HDC0
  ihave HDC1 := (consH _ _) $$ HC1 HDC1
  ihave HDC2 := (consH _ _) $$ HC2 HDC2
  ihave HDT0 := (consH _ _) $$ HT0 HDT0
  ihave HDT1 := (consH _ _) $$ HT1 HDT1
  ihave HDT2 := (consH _ _) $$ HT2 HDT2
  -- row 85: its three copies land; the row's resources go to the heads of the chains of what is done
  icases HB85 with ⟨HC0, HT0, HC1, HT1, HC2, HT2⟩
  sl_exec (disch := first | sl_exact hU _ _ | sl_exact hI _ _ | sl_exact hJ _ _)
  ihave HR0 := (row_deliverP scM0 c 85 (by decide) inb_S128x64_S1x64_85_0 _ fs0 _ (gU c i xt0 fh0)) $$ HR0 %(fun q => deliver_gath (by decide) c hbM0 tbM0 fh0 xt0 i ⟨85, by decide⟩ (k0_off341 i) (by show (Scalar.indexCast (Scalar.addi (Scalar.muli (BitVec.ofNat 32 (i 0).val) 128#32) (BitVec.ofNat 32 85))).toNat = _; exact off_val _ 85 hi (by decide)) (by show 128 * (i 0).val + 85 < 16384; omega) _ _ _ q)
  ihave HR1 := (row_deliverP scM1 c 85 (by decide) inb_S128x64_S1x64_85_0 _ fs1 _ (gVi c i xt1 fh1)) $$ HR1 %(fun q => deliver_gath (by decide) c hbM1 tbM1 fh1 xt1 i ⟨85, by decide⟩ (k0_off341 i) (by show (Scalar.indexCast (Scalar.addi (Scalar.muli (BitVec.ofNat 32 (i 0).val) 128#32) (BitVec.ofNat 32 85))).toNat = _; exact off_val _ 85 hi (by decide)) (by show 128 * (i 0).val + 85 < 16384; omega) _ _ _ q)
  ihave HR2 := (row_deliverP scM2 c 85 (by decide) inb_S128x64_S1x64_85_0 _ fs2 _ (gVj c i xt2 fh1)) $$ HR2 %(fun q => deliver_gath (by decide) c hbM1 tbM2 fh1 xt2 i ⟨85, by decide⟩ (k0_off341 i) (by show (Scalar.indexCast (Scalar.addi (Scalar.muli (BitVec.ofNat 32 (i 0).val) 128#32) (BitVec.ofNat 32 85))).toNat = _; exact off_val _ 85 hi (by decide)) (by show 128 * (i 0).val + 85 < 16384; omega) _ _ _ q)
  ihave HD0 := (consH _ _) $$ HR0 HD0
  ihave HD1 := (consH _ _) $$ HR1 HD1
  ihave HD2 := (consH _ _) $$ HR2 HD2
  ihave HDC0 := (consH _ _) $$ HC0 HDC0
  ihave HDC1 := (consH _ _) $$ HC1 HDC1
  ihave HDC2 := (consH _ _) $$ HC2 HDC2
  ihave HDT0 := (consH _ _) $$ HT0 HDT0
  ihave HDT1 := (consH _ _) $$ HT1 HDT1
  ihave HDT2 := (consH _ _) $$ HT2 HDT2
  -- row 86: its three copies land; the row's resources go to the heads of the chains of what is done
  icases HB86 with ⟨HC0, HT0, HC1, HT1, HC2, HT2⟩
  sl_exec (disch := first | sl_exact hU _ _ | sl_exact hI _ _ | sl_exact hJ _ _)
  ihave HR0 := (row_deliverP scM0 c 86 (by decide) inb_S128x64_S1x64_86_0 _ fs0 _ (gU c i xt0 fh0)) $$ HR0 %(fun q => deliver_gath (by decide) c hbM0 tbM0 fh0 xt0 i ⟨86, by decide⟩ (k0_off345 i) (by show (Scalar.indexCast (Scalar.addi (Scalar.muli (BitVec.ofNat 32 (i 0).val) 128#32) (BitVec.ofNat 32 86))).toNat = _; exact off_val _ 86 hi (by decide)) (by show 128 * (i 0).val + 86 < 16384; omega) _ _ _ q)
  ihave HR1 := (row_deliverP scM1 c 86 (by decide) inb_S128x64_S1x64_86_0 _ fs1 _ (gVi c i xt1 fh1)) $$ HR1 %(fun q => deliver_gath (by decide) c hbM1 tbM1 fh1 xt1 i ⟨86, by decide⟩ (k0_off345 i) (by show (Scalar.indexCast (Scalar.addi (Scalar.muli (BitVec.ofNat 32 (i 0).val) 128#32) (BitVec.ofNat 32 86))).toNat = _; exact off_val _ 86 hi (by decide)) (by show 128 * (i 0).val + 86 < 16384; omega) _ _ _ q)
  ihave HR2 := (row_deliverP scM2 c 86 (by decide) inb_S128x64_S1x64_86_0 _ fs2 _ (gVj c i xt2 fh1)) $$ HR2 %(fun q => deliver_gath (by decide) c hbM1 tbM2 fh1 xt2 i ⟨86, by decide⟩ (k0_off345 i) (by show (Scalar.indexCast (Scalar.addi (Scalar.muli (BitVec.ofNat 32 (i 0).val) 128#32) (BitVec.ofNat 32 86))).toNat = _; exact off_val _ 86 hi (by decide)) (by show 128 * (i 0).val + 86 < 16384; omega) _ _ _ q)
  ihave HD0 := (consH _ _) $$ HR0 HD0
  ihave HD1 := (consH _ _) $$ HR1 HD1
  ihave HD2 := (consH _ _) $$ HR2 HD2
  ihave HDC0 := (consH _ _) $$ HC0 HDC0
  ihave HDC1 := (consH _ _) $$ HC1 HDC1
  ihave HDC2 := (consH _ _) $$ HC2 HDC2
  ihave HDT0 := (consH _ _) $$ HT0 HDT0
  ihave HDT1 := (consH _ _) $$ HT1 HDT1
  ihave HDT2 := (consH _ _) $$ HT2 HDT2
  -- row 87: its three copies land; the row's resources go to the heads of the chains of what is done
  icases HB87 with ⟨HC0, HT0, HC1, HT1, HC2, HT2⟩
  sl_exec (disch := first | sl_exact hU _ _ | sl_exact hI _ _ | sl_exact hJ _ _)
  ihave HR0 := (row_deliverP scM0 c 87 (by decide) inb_S128x64_S1x64_87_0 _ fs0 _ (gU c i xt0 fh0)) $$ HR0 %(fun q => deliver_gath (by decide) c hbM0 tbM0 fh0 xt0 i ⟨87, by decide⟩ (k0_off349 i) (by show (Scalar.indexCast (Scalar.addi (Scalar.muli (BitVec.ofNat 32 (i 0).val) 128#32) (BitVec.ofNat 32 87))).toNat = _; exact off_val _ 87 hi (by decide)) (by show 128 * (i 0).val + 87 < 16384; omega) _ _ _ q)
  ihave HR1 := (row_deliverP scM1 c 87 (by decide) inb_S128x64_S1x64_87_0 _ fs1 _ (gVi c i xt1 fh1)) $$ HR1 %(fun q => deliver_gath (by decide) c hbM1 tbM1 fh1 xt1 i ⟨87, by decide⟩ (k0_off349 i) (by show (Scalar.indexCast (Scalar.addi (Scalar.muli (BitVec.ofNat 32 (i 0).val) 128#32) (BitVec.ofNat 32 87))).toNat = _; exact off_val _ 87 hi (by decide)) (by show 128 * (i 0).val + 87 < 16384; omega) _ _ _ q)
  ihave HR2 := (row_deliverP scM2 c 87 (by decide) inb_S128x64_S1x64_87_0 _ fs2 _ (gVj c i xt2 fh1)) $$ HR2 %(fun q => deliver_gath (by decide) c hbM1 tbM2 fh1 xt2 i ⟨87, by decide⟩ (k0_off349 i) (by show (Scalar.indexCast (Scalar.addi (Scalar.muli (BitVec.ofNat 32 (i 0).val) 128#32) (BitVec.ofNat 32 87))).toNat = _; exact off_val _ 87 hi (by decide)) (by show 128 * (i 0).val + 87 < 16384; omega) _ _ _ q)
  ihave HD0 := (consH _ _) $$ HR0 HD0
  ihave HD1 := (consH _ _) $$ HR1 HD1
  ihave HD2 := (consH _ _) $$ HR2 HD2
  ihave HDC0 := (consH _ _) $$ HC0 HDC0
  ihave HDC1 := (consH _ _) $$ HC1 HDC1
  ihave HDC2 := (consH _ _) $$ HC2 HDC2
  ihave HDT0 := (consH _ _) $$ HT0 HDT0
  ihave HDT1 := (consH _ _) $$ HT1 HDT1
  ihave HDT2 := (consH _ _) $$ HT2 HDT2
  -- row 88: its three copies land; the row's resources go to the heads of the chains of what is done
  icases HB88 with ⟨HC0, HT0, HC1, HT1, HC2, HT2⟩
  sl_exec (disch := first | sl_exact hU _ _ | sl_exact hI _ _ | sl_exact hJ _ _)
  ihave HR0 := (row_deliverP scM0 c 88 (by decide) inb_S128x64_S1x64_88_0 _ fs0 _ (gU c i xt0 fh0)) $$ HR0 %(fun q => deliver_gath (by decide) c hbM0 tbM0 fh0 xt0 i ⟨88, by decide⟩ (k0_off353 i) (by show (Scalar.indexCast (Scalar.addi (Scalar.muli (BitVec.ofNat 32 (i 0).val) 128#32) (BitVec.ofNat 32 88))).toNat = _; exact off_val _ 88 hi (by decide)) (by show 128 * (i 0).val + 88 < 16384; omega) _ _ _ q)
  ihave HR1 := (row_deliverP scM1 c 88 (by decide) inb_S128x64_S1x64_88_0 _ fs1 _ (gVi c i xt1 fh1)) $$ HR1 %(fun q => deliver_gath (by decide) c hbM1 tbM1 fh1 xt1 i ⟨88, by decide⟩ (k0_off353 i) (by show (Scalar.indexCast (Scalar.addi (Scalar.muli (BitVec.ofNat 32 (i 0).val) 128#32) (BitVec.ofNat 32 88))).toNat = _; exact off_val _ 88 hi (by decide)) (by show 128 * (i 0).val + 88 < 16384; omega) _ _ _ q)
  ihave HR2 := (row_deliverP scM2 c 88 (by decide) inb_S128x64_S1x64_88_0 _ fs2 _ (gVj c i xt2 fh1)) $$ HR2 %(fun q => deliver_gath (by decide) c hbM1 tbM2 fh1 xt2 i ⟨88, by decide⟩ (k0_off353 i) (by show (Scalar.indexCast (Scalar.addi (Scalar.muli (BitVec.ofNat 32 (i 0).val) 128#32) (BitVec.ofNat 32 88))).toNat = _; exact off_val _ 88 hi (by decide)) (by show 128 * (i 0).val + 88 < 16384; omega) _ _ _ q)
  ihave HD0 := (consH _ _) $$ HR0 HD0
  ihave HD1 := (consH _ _) $$ HR1 HD1
  ihave HD2 := (consH _ _) $$ HR2 HD2
  ihave HDC0 := (consH _ _) $$ HC0 HDC0
  ihave HDC1 := (consH _ _) $$ HC1 HDC1
  ihave HDC2 := (consH _ _) $$ HC2 HDC2
  ihave HDT0 := (consH _ _) $$ HT0 HDT0
  ihave HDT1 := (consH _ _) $$ HT1 HDT1
  ihave HDT2 := (consH _ _) $$ HT2 HDT2
  -- row 89: its three copies land; the row's resources go to the heads of the chains of what is done
  icases HB89 with ⟨HC0, HT0, HC1, HT1, HC2, HT2⟩
  sl_exec (disch := first | sl_exact hU _ _ | sl_exact hI _ _ | sl_exact hJ _ _)
  ihave HR0 := (row_deliverP scM0 c 89 (by decide) inb_S128x64_S1x64_89_0 _ fs0 _ (gU c i xt0 fh0)) $$ HR0 %(fun q => deliver_gath (by decide) c hbM0 tbM0 fh0 xt0 i ⟨89, by decide⟩ (k0_off357 i) (by show (Scalar.indexCast (Scalar.addi (Scalar.muli (BitVec.ofNat 32 (i 0).val) 128#32) (BitVec.ofNat 32 89))).toNat = _; exact off_val _ 89 hi (by decide)) (by show 128 * (i 0).val + 89 < 16384; omega) _ _ _ q)
  ihave HR1 := (row_deliverP scM1 c 89 (by decide) inb_S128x64_S1x64_89_0 _ fs1 _ (gVi c i xt1 fh1)) $$ HR1 %(fun q => deliver_gath (by decide) c hbM1 tbM1 fh1 xt1 i ⟨89, by decide⟩ (k0_off357 i) (by show (Scalar.indexCast (Scalar.addi (Scalar.muli (BitVec.ofNat 32 (i 0).val) 128#32) (BitVec.ofNat 32 89))).toNat = _; exact off_val _ 89 hi (by decide)) (by show 128 * (i 0).val + 89 < 16384; omega) _ _ _ q)
  ihave HR2 := (row_deliverP scM2 c 89 (by decide) inb_S128x64_S1x64_89_0 _ fs2 _ (gVj c i xt2 fh1)) $$ HR2 %(fun q => deliver_gath (by decide) c hbM1 tbM2 fh1 xt2 i ⟨89, by decide⟩ (k0_off357 i) (by show (Scalar.indexCast (Scalar.addi (Scalar.muli (BitVec.ofNat 32 (i 0).val) 128#32) (BitVec.ofNat 32 89))).toNat = _; exact off_val _ 89 hi (by decide)) (by show 128 * (i 0).val + 89 < 16384; omega) _ _ _ q)
  ihave HD0 := (consH _ _) $$ HR0 HD0
  ihave HD1 := (consH _ _) $$ HR1 HD1
  ihave HD2 := (consH _ _) $$ HR2 HD2
  ihave HDC0 := (consH _ _) $$ HC0 HDC0
  ihave HDC1 := (consH _ _) $$ HC1 HDC1
  ihave HDC2 := (consH _ _) $$ HC2 HDC2
  ihave HDT0 := (consH _ _) $$ HT0 HDT0
  ihave HDT1 := (consH _ _) $$ HT1 HDT1
  ihave HDT2 := (consH _ _) $$ HT2 HDT2
  -- row 90: its three copies land; the row's resources go to the heads of the chains of what is done
  icases HB90 with ⟨HC0, HT0, HC1, HT1, HC2, HT2⟩
  sl_exec (disch := first | sl_exact hU _ _ | sl_exact hI _ _ | sl_exact hJ _ _)
  ihave HR0 := (row_deliverP scM0 c 90 (by decide) inb_S128x64_S1x64_90_0 _ fs0 _ (gU c i xt0 fh0)) $$ HR0 %(fun q => deliver_gath (by decide) c hbM0 tbM0 fh0 xt0 i ⟨90, by decide⟩ (k0_off361 i) (by show (Scalar.indexCast (Scalar.addi (Scalar.muli (BitVec.ofNat 32 (i 0).val) 128#32) (BitVec.ofNat 32 90))).toNat = _; exact off_val _ 90 hi (by decide)) (by show 128 * (i 0).val + 90 < 16384; omega) _ _ _ q)
  ihave HR1 := (row_deliverP scM1 c 90 (by decide) inb_S128x64_S1x64_90_0 _ fs1 _ (gVi c i xt1 fh1)) $$ HR1 %(fun q => deliver_gath (by decide) c hbM1 tbM1 fh1 xt1 i ⟨90, by decide⟩ (k0_off361 i) (by show (Scalar.indexCast (Scalar.addi (Scalar.muli (BitVec.ofNat 32 (i 0).val) 128#32) (BitVec.ofNat 32 90))).toNat = _; exact off_val _ 90 hi (by decide)) (by show 128 * (i 0).val + 90 < 16384; omega) _ _ _ q)
  ihave HR2 := (row_deliverP scM2 c 90 (by decide) inb_S128x64_S1x64_90_0 _ fs2 _ (gVj c i xt2 fh1)) $$ HR2 %(fun q => deliver_gath (by decide) c hbM1 tbM2 fh1 xt2 i ⟨90, by decide⟩ (k0_off361 i) (by show (Scalar.indexCast (Scalar.addi (Scalar.muli (BitVec.ofNat 32 (i 0).val) 128#32) (BitVec.ofNat 32 90))).toNat = _; exact off_val _ 90 hi (by decide)) (by show 128 * (i 0).val + 90 < 16384; omega) _ _ _ q)
  ihave HD0 := (consH _ _) $$ HR0 HD0
  ihave HD1 := (consH _ _) $$ HR1 HD1
  ihave HD2 := (consH _ _) $$ HR2 HD2
  ihave HDC0 := (consH _ _) $$ HC0 HDC0
  ihave HDC1 := (consH _ _) $$ HC1 HDC1
  ihave HDC2 := (consH _ _) $$ HC2 HDC2
  ihave HDT0 := (consH _ _) $$ HT0 HDT0
  ihave HDT1 := (consH _ _) $$ HT1 HDT1
  ihave HDT2 := (consH _ _) $$ HT2 HDT2
  -- row 91: its three copies land; the row's resources go to the heads of the chains of what is done
  icases HB91 with ⟨HC0, HT0, HC1, HT1, HC2, HT2⟩
  sl_exec (disch := first | sl_exact hU _ _ | sl_exact hI _ _ | sl_exact hJ _ _)
  ihave HR0 := (row_deliverP scM0 c 91 (by decide) inb_S128x64_S1x64_91_0 _ fs0 _ (gU c i xt0 fh0)) $$ HR0 %(fun q => deliver_gath (by decide) c hbM0 tbM0 fh0 xt0 i ⟨91, by decide⟩ (k0_off365 i) (by show (Scalar.indexCast (Scalar.addi (Scalar.muli (BitVec.ofNat 32 (i 0).val) 128#32) (BitVec.ofNat 32 91))).toNat = _; exact off_val _ 91 hi (by decide)) (by show 128 * (i 0).val + 91 < 16384; omega) _ _ _ q)
  ihave HR1 := (row_deliverP scM1 c 91 (by decide) inb_S128x64_S1x64_91_0 _ fs1 _ (gVi c i xt1 fh1)) $$ HR1 %(fun q => deliver_gath (by decide) c hbM1 tbM1 fh1 xt1 i ⟨91, by decide⟩ (k0_off365 i) (by show (Scalar.indexCast (Scalar.addi (Scalar.muli (BitVec.ofNat 32 (i 0).val) 128#32) (BitVec.ofNat 32 91))).toNat = _; exact off_val _ 91 hi (by decide)) (by show 128 * (i 0).val + 91 < 16384; omega) _ _ _ q)
  ihave HR2 := (row_deliverP scM2 c 91 (by decide) inb_S128x64_S1x64_91_0 _ fs2 _ (gVj c i xt2 fh1)) $$ HR2 %(fun q => deliver_gath (by decide) c hbM1 tbM2 fh1 xt2 i ⟨91, by decide⟩ (k0_off365 i) (by show (Scalar.indexCast (Scalar.addi (Scalar.muli (BitVec.ofNat 32 (i 0).val) 128#32) (BitVec.ofNat 32 91))).toNat = _; exact off_val _ 91 hi (by decide)) (by show 128 * (i 0).val + 91 < 16384; omega) _ _ _ q)
  ihave HD0 := (consH _ _) $$ HR0 HD0
  ihave HD1 := (consH _ _) $$ HR1 HD1
  ihave HD2 := (consH _ _) $$ HR2 HD2
  ihave HDC0 := (consH _ _) $$ HC0 HDC0
  ihave HDC1 := (consH _ _) $$ HC1 HDC1
  ihave HDC2 := (consH _ _) $$ HC2 HDC2
  ihave HDT0 := (consH _ _) $$ HT0 HDT0
  ihave HDT1 := (consH _ _) $$ HT1 HDT1
  ihave HDT2 := (consH _ _) $$ HT2 HDT2
  -- row 92: its three copies land; the row's resources go to the heads of the chains of what is done
  icases HB92 with ⟨HC0, HT0, HC1, HT1, HC2, HT2⟩
  sl_exec (disch := first | sl_exact hU _ _ | sl_exact hI _ _ | sl_exact hJ _ _)
  ihave HR0 := (row_deliverP scM0 c 92 (by decide) inb_S128x64_S1x64_92_0 _ fs0 _ (gU c i xt0 fh0)) $$ HR0 %(fun q => deliver_gath (by decide) c hbM0 tbM0 fh0 xt0 i ⟨92, by decide⟩ (k0_off369 i) (by show (Scalar.indexCast (Scalar.addi (Scalar.muli (BitVec.ofNat 32 (i 0).val) 128#32) (BitVec.ofNat 32 92))).toNat = _; exact off_val _ 92 hi (by decide)) (by show 128 * (i 0).val + 92 < 16384; omega) _ _ _ q)
  ihave HR1 := (row_deliverP scM1 c 92 (by decide) inb_S128x64_S1x64_92_0 _ fs1 _ (gVi c i xt1 fh1)) $$ HR1 %(fun q => deliver_gath (by decide) c hbM1 tbM1 fh1 xt1 i ⟨92, by decide⟩ (k0_off369 i) (by show (Scalar.indexCast (Scalar.addi (Scalar.muli (BitVec.ofNat 32 (i 0).val) 128#32) (BitVec.ofNat 32 92))).toNat = _; exact off_val _ 92 hi (by decide)) (by show 128 * (i 0).val + 92 < 16384; omega) _ _ _ q)
  ihave HR2 := (row_deliverP scM2 c 92 (by decide) inb_S128x64_S1x64_92_0 _ fs2 _ (gVj c i xt2 fh1)) $$ HR2 %(fun q => deliver_gath (by decide) c hbM1 tbM2 fh1 xt2 i ⟨92, by decide⟩ (k0_off369 i) (by show (Scalar.indexCast (Scalar.addi (Scalar.muli (BitVec.ofNat 32 (i 0).val) 128#32) (BitVec.ofNat 32 92))).toNat = _; exact off_val _ 92 hi (by decide)) (by show 128 * (i 0).val + 92 < 16384; omega) _ _ _ q)
  ihave HD0 := (consH _ _) $$ HR0 HD0
  ihave HD1 := (consH _ _) $$ HR1 HD1
  ihave HD2 := (consH _ _) $$ HR2 HD2
  ihave HDC0 := (consH _ _) $$ HC0 HDC0
  ihave HDC1 := (consH _ _) $$ HC1 HDC1
  ihave HDC2 := (consH _ _) $$ HC2 HDC2
  ihave HDT0 := (consH _ _) $$ HT0 HDT0
  ihave HDT1 := (consH _ _) $$ HT1 HDT1
  ihave HDT2 := (consH _ _) $$ HT2 HDT2
  -- row 93: its three copies land; the row's resources go to the heads of the chains of what is done
  icases HB93 with ⟨HC0, HT0, HC1, HT1, HC2, HT2⟩
  sl_exec (disch := first | sl_exact hU _ _ | sl_exact hI _ _ | sl_exact hJ _ _)
  ihave HR0 := (row_deliverP scM0 c 93 (by decide) inb_S128x64_S1x64_93_0 _ fs0 _ (gU c i xt0 fh0)) $$ HR0 %(fun q => deliver_gath (by decide) c hbM0 tbM0 fh0 xt0 i ⟨93, by decide⟩ (k0_off373 i) (by show (Scalar.indexCast (Scalar.addi (Scalar.muli (BitVec.ofNat 32 (i 0).val) 128#32) (BitVec.ofNat 32 93))).toNat = _; exact off_val _ 93 hi (by decide)) (by show 128 * (i 0).val + 93 < 16384; omega) _ _ _ q)
  ihave HR1 := (row_deliverP scM1 c 93 (by decide) inb_S128x64_S1x64_93_0 _ fs1 _ (gVi c i xt1 fh1)) $$ HR1 %(fun q => deliver_gath (by decide) c hbM1 tbM1 fh1 xt1 i ⟨93, by decide⟩ (k0_off373 i) (by show (Scalar.indexCast (Scalar.addi (Scalar.muli (BitVec.ofNat 32 (i 0).val) 128#32) (BitVec.ofNat 32 93))).toNat = _; exact off_val _ 93 hi (by decide)) (by show 128 * (i 0).val + 93 < 16384; omega) _ _ _ q)
  ihave HR2 := (row_deliverP scM2 c 93 (by decide) inb_S128x64_S1x64_93_0 _ fs2 _ (gVj c i xt2 fh1)) $$ HR2 %(fun q => deliver_gath (by decide) c hbM1 tbM2 fh1 xt2 i ⟨93, by decide⟩ (k0_off373 i) (by show (Scalar.indexCast (Scalar.addi (Scalar.muli (BitVec.ofNat 32 (i 0).val) 128#32) (BitVec.ofNat 32 93))).toNat = _; exact off_val _ 93 hi (by decide)) (by show 128 * (i 0).val + 93 < 16384; omega) _ _ _ q)
  ihave HD0 := (consH _ _) $$ HR0 HD0
  ihave HD1 := (consH _ _) $$ HR1 HD1
  ihave HD2 := (consH _ _) $$ HR2 HD2
  ihave HDC0 := (consH _ _) $$ HC0 HDC0
  ihave HDC1 := (consH _ _) $$ HC1 HDC1
  ihave HDC2 := (consH _ _) $$ HC2 HDC2
  ihave HDT0 := (consH _ _) $$ HT0 HDT0
  ihave HDT1 := (consH _ _) $$ HT1 HDT1
  ihave HDT2 := (consH _ _) $$ HT2 HDT2
  -- row 94: its three copies land; the row's resources go to the heads of the chains of what is done
  icases HB94 with ⟨HC0, HT0, HC1, HT1, HC2, HT2⟩
  sl_exec (disch := first | sl_exact hU _ _ | sl_exact hI _ _ | sl_exact hJ _ _)
  ihave HR0 := (row_deliverP scM0 c 94 (by decide) inb_S128x64_S1x64_94_0 _ fs0 _ (gU c i xt0 fh0)) $$ HR0 %(fun q => deliver_gath (by decide) c hbM0 tbM0 fh0 xt0 i ⟨94, by decide⟩ (k0_off377 i) (by show (Scalar.indexCast (Scalar.addi (Scalar.muli (BitVec.ofNat 32 (i 0).val) 128#32) (BitVec.ofNat 32 94))).toNat = _; exact off_val _ 94 hi (by decide)) (by show 128 * (i 0).val + 94 < 16384; omega) _ _ _ q)
  ihave HR1 := (row_deliverP scM1 c 94 (by decide) inb_S128x64_S1x64_94_0 _ fs1 _ (gVi c i xt1 fh1)) $$ HR1 %(fun q => deliver_gath (by decide) c hbM1 tbM1 fh1 xt1 i ⟨94, by decide⟩ (k0_off377 i) (by show (Scalar.indexCast (Scalar.addi (Scalar.muli (BitVec.ofNat 32 (i 0).val) 128#32) (BitVec.ofNat 32 94))).toNat = _; exact off_val _ 94 hi (by decide)) (by show 128 * (i 0).val + 94 < 16384; omega) _ _ _ q)
  ihave HR2 := (row_deliverP scM2 c 94 (by decide) inb_S128x64_S1x64_94_0 _ fs2 _ (gVj c i xt2 fh1)) $$ HR2 %(fun q => deliver_gath (by decide) c hbM1 tbM2 fh1 xt2 i ⟨94, by decide⟩ (k0_off377 i) (by show (Scalar.indexCast (Scalar.addi (Scalar.muli (BitVec.ofNat 32 (i 0).val) 128#32) (BitVec.ofNat 32 94))).toNat = _; exact off_val _ 94 hi (by decide)) (by show 128 * (i 0).val + 94 < 16384; omega) _ _ _ q)
  ihave HD0 := (consH _ _) $$ HR0 HD0
  ihave HD1 := (consH _ _) $$ HR1 HD1
  ihave HD2 := (consH _ _) $$ HR2 HD2
  ihave HDC0 := (consH _ _) $$ HC0 HDC0
  ihave HDC1 := (consH _ _) $$ HC1 HDC1
  ihave HDC2 := (consH _ _) $$ HC2 HDC2
  ihave HDT0 := (consH _ _) $$ HT0 HDT0
  ihave HDT1 := (consH _ _) $$ HT1 HDT1
  ihave HDT2 := (consH _ _) $$ HT2 HDT2
  -- row 95: its three copies land; the row's resources go to the heads of the chains of what is done
  icases HB95 with ⟨HC0, HT0, HC1, HT1, HC2, HT2⟩
  sl_exec (disch := first | sl_exact hU _ _ | sl_exact hI _ _ | sl_exact hJ _ _)
  ihave HR0 := (row_deliverP scM0 c 95 (by decide) inb_S128x64_S1x64_95_0 _ fs0 _ (gU c i xt0 fh0)) $$ HR0 %(fun q => deliver_gath (by decide) c hbM0 tbM0 fh0 xt0 i ⟨95, by decide⟩ (k0_off381 i) (by show (Scalar.indexCast (Scalar.addi (Scalar.muli (BitVec.ofNat 32 (i 0).val) 128#32) (BitVec.ofNat 32 95))).toNat = _; exact off_val _ 95 hi (by decide)) (by show 128 * (i 0).val + 95 < 16384; omega) _ _ _ q)
  ihave HR1 := (row_deliverP scM1 c 95 (by decide) inb_S128x64_S1x64_95_0 _ fs1 _ (gVi c i xt1 fh1)) $$ HR1 %(fun q => deliver_gath (by decide) c hbM1 tbM1 fh1 xt1 i ⟨95, by decide⟩ (k0_off381 i) (by show (Scalar.indexCast (Scalar.addi (Scalar.muli (BitVec.ofNat 32 (i 0).val) 128#32) (BitVec.ofNat 32 95))).toNat = _; exact off_val _ 95 hi (by decide)) (by show 128 * (i 0).val + 95 < 16384; omega) _ _ _ q)
  ihave HR2 := (row_deliverP scM2 c 95 (by decide) inb_S128x64_S1x64_95_0 _ fs2 _ (gVj c i xt2 fh1)) $$ HR2 %(fun q => deliver_gath (by decide) c hbM1 tbM2 fh1 xt2 i ⟨95, by decide⟩ (k0_off381 i) (by show (Scalar.indexCast (Scalar.addi (Scalar.muli (BitVec.ofNat 32 (i 0).val) 128#32) (BitVec.ofNat 32 95))).toNat = _; exact off_val _ 95 hi (by decide)) (by show 128 * (i 0).val + 95 < 16384; omega) _ _ _ q)
  ihave HD0 := (consH _ _) $$ HR0 HD0
  ihave HD1 := (consH _ _) $$ HR1 HD1
  ihave HD2 := (consH _ _) $$ HR2 HD2
  ihave HDC0 := (consH _ _) $$ HC0 HDC0
  ihave HDC1 := (consH _ _) $$ HC1 HDC1
  ihave HDC2 := (consH _ _) $$ HC2 HDC2
  ihave HDT0 := (consH _ _) $$ HT0 HDT0
  ihave HDT1 := (consH _ _) $$ HT1 HDT1
  ihave HDT2 := (consH _ _) $$ HT2 HDT2
  -- row 96: its three copies land; the row's resources go to the heads of the chains of what is done
  icases HB96 with ⟨HC0, HT0, HC1, HT1, HC2, HT2⟩
  sl_exec (disch := first | sl_exact hU _ _ | sl_exact hI _ _ | sl_exact hJ _ _)
  ihave HR0 := (row_deliverP scM0 c 96 (by decide) inb_S128x64_S1x64_96_0 _ fs0 _ (gU c i xt0 fh0)) $$ HR0 %(fun q => deliver_gath (by decide) c hbM0 tbM0 fh0 xt0 i ⟨96, by decide⟩ (k0_off385 i) (by show (Scalar.indexCast (Scalar.addi (Scalar.muli (BitVec.ofNat 32 (i 0).val) 128#32) (BitVec.ofNat 32 96))).toNat = _; exact off_val _ 96 hi (by decide)) (by show 128 * (i 0).val + 96 < 16384; omega) _ _ _ q)
  ihave HR1 := (row_deliverP scM1 c 96 (by decide) inb_S128x64_S1x64_96_0 _ fs1 _ (gVi c i xt1 fh1)) $$ HR1 %(fun q => deliver_gath (by decide) c hbM1 tbM1 fh1 xt1 i ⟨96, by decide⟩ (k0_off385 i) (by show (Scalar.indexCast (Scalar.addi (Scalar.muli (BitVec.ofNat 32 (i 0).val) 128#32) (BitVec.ofNat 32 96))).toNat = _; exact off_val _ 96 hi (by decide)) (by show 128 * (i 0).val + 96 < 16384; omega) _ _ _ q)
  ihave HR2 := (row_deliverP scM2 c 96 (by decide) inb_S128x64_S1x64_96_0 _ fs2 _ (gVj c i xt2 fh1)) $$ HR2 %(fun q => deliver_gath (by decide) c hbM1 tbM2 fh1 xt2 i ⟨96, by decide⟩ (k0_off385 i) (by show (Scalar.indexCast (Scalar.addi (Scalar.muli (BitVec.ofNat 32 (i 0).val) 128#32) (BitVec.ofNat 32 96))).toNat = _; exact off_val _ 96 hi (by decide)) (by show 128 * (i 0).val + 96 < 16384; omega) _ _ _ q)
  ihave HD0 := (consH _ _) $$ HR0 HD0
  ihave HD1 := (consH _ _) $$ HR1 HD1
  ihave HD2 := (consH _ _) $$ HR2 HD2
  ihave HDC0 := (consH _ _) $$ HC0 HDC0
  ihave HDC1 := (consH _ _) $$ HC1 HDC1
  ihave HDC2 := (consH _ _) $$ HC2 HDC2
  ihave HDT0 := (consH _ _) $$ HT0 HDT0
  ihave HDT1 := (consH _ _) $$ HT1 HDT1
  ihave HDT2 := (consH _ _) $$ HT2 HDT2
  -- row 97: its three copies land; the row's resources go to the heads of the chains of what is done
  icases HB97 with ⟨HC0, HT0, HC1, HT1, HC2, HT2⟩
  sl_exec (disch := first | sl_exact hU _ _ | sl_exact hI _ _ | sl_exact hJ _ _)
  ihave HR0 := (row_deliverP scM0 c 97 (by decide) inb_S128x64_S1x64_97_0 _ fs0 _ (gU c i xt0 fh0)) $$ HR0 %(fun q => deliver_gath (by decide) c hbM0 tbM0 fh0 xt0 i ⟨97, by decide⟩ (k0_off389 i) (by show (Scalar.indexCast (Scalar.addi (Scalar.muli (BitVec.ofNat 32 (i 0).val) 128#32) (BitVec.ofNat 32 97))).toNat = _; exact off_val _ 97 hi (by decide)) (by show 128 * (i 0).val + 97 < 16384; omega) _ _ _ q)
  ihave HR1 := (row_deliverP scM1 c 97 (by decide) inb_S128x64_S1x64_97_0 _ fs1 _ (gVi c i xt1 fh1)) $$ HR1 %(fun q => deliver_gath (by decide) c hbM1 tbM1 fh1 xt1 i ⟨97, by decide⟩ (k0_off389 i) (by show (Scalar.indexCast (Scalar.addi (Scalar.muli (BitVec.ofNat 32 (i 0).val) 128#32) (BitVec.ofNat 32 97))).toNat = _; exact off_val _ 97 hi (by decide)) (by show 128 * (i 0).val + 97 < 16384; omega) _ _ _ q)
  ihave HR2 := (row_deliverP scM2 c 97 (by decide) inb_S128x64_S1x64_97_0 _ fs2 _ (gVj c i xt2 fh1)) $$ HR2 %(fun q => deliver_gath (by decide) c hbM1 tbM2 fh1 xt2 i ⟨97, by decide⟩ (k0_off389 i) (by show (Scalar.indexCast (Scalar.addi (Scalar.muli (BitVec.ofNat 32 (i 0).val) 128#32) (BitVec.ofNat 32 97))).toNat = _; exact off_val _ 97 hi (by decide)) (by show 128 * (i 0).val + 97 < 16384; omega) _ _ _ q)
  ihave HD0 := (consH _ _) $$ HR0 HD0
  ihave HD1 := (consH _ _) $$ HR1 HD1
  ihave HD2 := (consH _ _) $$ HR2 HD2
  ihave HDC0 := (consH _ _) $$ HC0 HDC0
  ihave HDC1 := (consH _ _) $$ HC1 HDC1
  ihave HDC2 := (consH _ _) $$ HC2 HDC2
  ihave HDT0 := (consH _ _) $$ HT0 HDT0
  ihave HDT1 := (consH _ _) $$ HT1 HDT1
  ihave HDT2 := (consH _ _) $$ HT2 HDT2
  -- row 98: its three copies land; the row's resources go to the heads of the chains of what is done
  icases HB98 with ⟨HC0, HT0, HC1, HT1, HC2, HT2⟩
  sl_exec (disch := first | sl_exact hU _ _ | sl_exact hI _ _ | sl_exact hJ _ _)
  ihave HR0 := (row_deliverP scM0 c 98 (by decide) inb_S128x64_S1x64_98_0 _ fs0 _ (gU c i xt0 fh0)) $$ HR0 %(fun q => deliver_gath (by decide) c hbM0 tbM0 fh0 xt0 i ⟨98, by decide⟩ (k0_off393 i) (by show (Scalar.indexCast (Scalar.addi (Scalar.muli (BitVec.ofNat 32 (i 0).val) 128#32) (BitVec.ofNat 32 98))).toNat = _; exact off_val _ 98 hi (by decide)) (by show 128 * (i 0).val + 98 < 16384; omega) _ _ _ q)
  ihave HR1 := (row_deliverP scM1 c 98 (by decide) inb_S128x64_S1x64_98_0 _ fs1 _ (gVi c i xt1 fh1)) $$ HR1 %(fun q => deliver_gath (by decide) c hbM1 tbM1 fh1 xt1 i ⟨98, by decide⟩ (k0_off393 i) (by show (Scalar.indexCast (Scalar.addi (Scalar.muli (BitVec.ofNat 32 (i 0).val) 128#32) (BitVec.ofNat 32 98))).toNat = _; exact off_val _ 98 hi (by decide)) (by show 128 * (i 0).val + 98 < 16384; omega) _ _ _ q)
  ihave HR2 := (row_deliverP scM2 c 98 (by decide) inb_S128x64_S1x64_98_0 _ fs2 _ (gVj c i xt2 fh1)) $$ HR2 %(fun q => deliver_gath (by decide) c hbM1 tbM2 fh1 xt2 i ⟨98, by decide⟩ (k0_off393 i) (by show (Scalar.indexCast (Scalar.addi (Scalar.muli (BitVec.ofNat 32 (i 0).val) 128#32) (BitVec.ofNat 32 98))).toNat = _; exact off_val _ 98 hi (by decide)) (by show 128 * (i 0).val + 98 < 16384; omega) _ _ _ q)
  ihave HD0 := (consH _ _) $$ HR0 HD0
  ihave HD1 := (consH _ _) $$ HR1 HD1
  ihave HD2 := (consH _ _) $$ HR2 HD2
  ihave HDC0 := (consH _ _) $$ HC0 HDC0
  ihave HDC1 := (consH _ _) $$ HC1 HDC1
  ihave HDC2 := (consH _ _) $$ HC2 HDC2
  ihave HDT0 := (consH _ _) $$ HT0 HDT0
  ihave HDT1 := (consH _ _) $$ HT1 HDT1
  ihave HDT2 := (consH _ _) $$ HT2 HDT2
  -- row 99: its three copies land; the row's resources go to the heads of the chains of what is done
  icases HB99 with ⟨HC0, HT0, HC1, HT1, HC2, HT2⟩
  sl_exec (disch := first | sl_exact hU _ _ | sl_exact hI _ _ | sl_exact hJ _ _)
  ihave HR0 := (row_deliverP scM0 c 99 (by decide) inb_S128x64_S1x64_99_0 _ fs0 _ (gU c i xt0 fh0)) $$ HR0 %(fun q => deliver_gath (by decide) c hbM0 tbM0 fh0 xt0 i ⟨99, by decide⟩ (k0_off397 i) (by show (Scalar.indexCast (Scalar.addi (Scalar.muli (BitVec.ofNat 32 (i 0).val) 128#32) (BitVec.ofNat 32 99))).toNat = _; exact off_val _ 99 hi (by decide)) (by show 128 * (i 0).val + 99 < 16384; omega) _ _ _ q)
  ihave HR1 := (row_deliverP scM1 c 99 (by decide) inb_S128x64_S1x64_99_0 _ fs1 _ (gVi c i xt1 fh1)) $$ HR1 %(fun q => deliver_gath (by decide) c hbM1 tbM1 fh1 xt1 i ⟨99, by decide⟩ (k0_off397 i) (by show (Scalar.indexCast (Scalar.addi (Scalar.muli (BitVec.ofNat 32 (i 0).val) 128#32) (BitVec.ofNat 32 99))).toNat = _; exact off_val _ 99 hi (by decide)) (by show 128 * (i 0).val + 99 < 16384; omega) _ _ _ q)
  ihave HR2 := (row_deliverP scM2 c 99 (by decide) inb_S128x64_S1x64_99_0 _ fs2 _ (gVj c i xt2 fh1)) $$ HR2 %(fun q => deliver_gath (by decide) c hbM1 tbM2 fh1 xt2 i ⟨99, by decide⟩ (k0_off397 i) (by show (Scalar.indexCast (Scalar.addi (Scalar.muli (BitVec.ofNat 32 (i 0).val) 128#32) (BitVec.ofNat 32 99))).toNat = _; exact off_val _ 99 hi (by decide)) (by show 128 * (i 0).val + 99 < 16384; omega) _ _ _ q)
  ihave HD0 := (consH _ _) $$ HR0 HD0
  ihave HD1 := (consH _ _) $$ HR1 HD1
  ihave HD2 := (consH _ _) $$ HR2 HD2
  ihave HDC0 := (consH _ _) $$ HC0 HDC0
  ihave HDC1 := (consH _ _) $$ HC1 HDC1
  ihave HDC2 := (consH _ _) $$ HC2 HDC2
  ihave HDT0 := (consH _ _) $$ HT0 HDT0
  ihave HDT1 := (consH _ _) $$ HT1 HDT1
  ihave HDT2 := (consH _ _) $$ HT2 HDT2
  -- row 100: its three copies land; the row's resources go to the heads of the chains of what is done
  icases HB100 with ⟨HC0, HT0, HC1, HT1, HC2, HT2⟩
  sl_exec (disch := first | sl_exact hU _ _ | sl_exact hI _ _ | sl_exact hJ _ _)
  ihave HR0 := (row_deliverP scM0 c 100 (by decide) inb_S128x64_S1x64_100_0 _ fs0 _ (gU c i xt0 fh0)) $$ HR0 %(fun q => deliver_gath (by decide) c hbM0 tbM0 fh0 xt0 i ⟨100, by decide⟩ (k0_off401 i) (by show (Scalar.indexCast (Scalar.addi (Scalar.muli (BitVec.ofNat 32 (i 0).val) 128#32) (BitVec.ofNat 32 100))).toNat = _; exact off_val _ 100 hi (by decide)) (by show 128 * (i 0).val + 100 < 16384; omega) _ _ _ q)
  ihave HR1 := (row_deliverP scM1 c 100 (by decide) inb_S128x64_S1x64_100_0 _ fs1 _ (gVi c i xt1 fh1)) $$ HR1 %(fun q => deliver_gath (by decide) c hbM1 tbM1 fh1 xt1 i ⟨100, by decide⟩ (k0_off401 i) (by show (Scalar.indexCast (Scalar.addi (Scalar.muli (BitVec.ofNat 32 (i 0).val) 128#32) (BitVec.ofNat 32 100))).toNat = _; exact off_val _ 100 hi (by decide)) (by show 128 * (i 0).val + 100 < 16384; omega) _ _ _ q)
  ihave HR2 := (row_deliverP scM2 c 100 (by decide) inb_S128x64_S1x64_100_0 _ fs2 _ (gVj c i xt2 fh1)) $$ HR2 %(fun q => deliver_gath (by decide) c hbM1 tbM2 fh1 xt2 i ⟨100, by decide⟩ (k0_off401 i) (by show (Scalar.indexCast (Scalar.addi (Scalar.muli (BitVec.ofNat 32 (i 0).val) 128#32) (BitVec.ofNat 32 100))).toNat = _; exact off_val _ 100 hi (by decide)) (by show 128 * (i 0).val + 100 < 16384; omega) _ _ _ q)
  ihave HD0 := (consH _ _) $$ HR0 HD0
  ihave HD1 := (consH _ _) $$ HR1 HD1
  ihave HD2 := (consH _ _) $$ HR2 HD2
  ihave HDC0 := (consH _ _) $$ HC0 HDC0
  ihave HDC1 := (consH _ _) $$ HC1 HDC1
  ihave HDC2 := (consH _ _) $$ HC2 HDC2
  ihave HDT0 := (consH _ _) $$ HT0 HDT0
  ihave HDT1 := (consH _ _) $$ HT1 HDT1
  ihave HDT2 := (consH _ _) $$ HT2 HDT2
  -- row 101: its three copies land; the row's resources go to the heads of the chains of what is done
  icases HB101 with ⟨HC0, HT0, HC1, HT1, HC2, HT2⟩
  sl_exec (disch := first | sl_exact hU _ _ | sl_exact hI _ _ | sl_exact hJ _ _)
  ihave HR0 := (row_deliverP scM0 c 101 (by decide) inb_S128x64_S1x64_101_0 _ fs0 _ (gU c i xt0 fh0)) $$ HR0 %(fun q => deliver_gath (by decide) c hbM0 tbM0 fh0 xt0 i ⟨101, by decide⟩ (k0_off405 i) (by show (Scalar.indexCast (Scalar.addi (Scalar.muli (BitVec.ofNat 32 (i 0).val) 128#32) (BitVec.ofNat 32 101))).toNat = _; exact off_val _ 101 hi (by decide)) (by show 128 * (i 0).val + 101 < 16384; omega) _ _ _ q)
  ihave HR1 := (row_deliverP scM1 c 101 (by decide) inb_S128x64_S1x64_101_0 _ fs1 _ (gVi c i xt1 fh1)) $$ HR1 %(fun q => deliver_gath (by decide) c hbM1 tbM1 fh1 xt1 i ⟨101, by decide⟩ (k0_off405 i) (by show (Scalar.indexCast (Scalar.addi (Scalar.muli (BitVec.ofNat 32 (i 0).val) 128#32) (BitVec.ofNat 32 101))).toNat = _; exact off_val _ 101 hi (by decide)) (by show 128 * (i 0).val + 101 < 16384; omega) _ _ _ q)
  ihave HR2 := (row_deliverP scM2 c 101 (by decide) inb_S128x64_S1x64_101_0 _ fs2 _ (gVj c i xt2 fh1)) $$ HR2 %(fun q => deliver_gath (by decide) c hbM1 tbM2 fh1 xt2 i ⟨101, by decide⟩ (k0_off405 i) (by show (Scalar.indexCast (Scalar.addi (Scalar.muli (BitVec.ofNat 32 (i 0).val) 128#32) (BitVec.ofNat 32 101))).toNat = _; exact off_val _ 101 hi (by decide)) (by show 128 * (i 0).val + 101 < 16384; omega) _ _ _ q)
  ihave HD0 := (consH _ _) $$ HR0 HD0
  ihave HD1 := (consH _ _) $$ HR1 HD1
  ihave HD2 := (consH _ _) $$ HR2 HD2
  ihave HDC0 := (consH _ _) $$ HC0 HDC0
  ihave HDC1 := (consH _ _) $$ HC1 HDC1
  ihave HDC2 := (consH _ _) $$ HC2 HDC2
  ihave HDT0 := (consH _ _) $$ HT0 HDT0
  ihave HDT1 := (consH _ _) $$ HT1 HDT1
  ihave HDT2 := (consH _ _) $$ HT2 HDT2
  -- row 102: its three copies land; the row's resources go to the heads of the chains of what is done
  icases HB102 with ⟨HC0, HT0, HC1, HT1, HC2, HT2⟩
  sl_exec (disch := first | sl_exact hU _ _ | sl_exact hI _ _ | sl_exact hJ _ _)
  ihave HR0 := (row_deliverP scM0 c 102 (by decide) inb_S128x64_S1x64_102_0 _ fs0 _ (gU c i xt0 fh0)) $$ HR0 %(fun q => deliver_gath (by decide) c hbM0 tbM0 fh0 xt0 i ⟨102, by decide⟩ (k0_off409 i) (by show (Scalar.indexCast (Scalar.addi (Scalar.muli (BitVec.ofNat 32 (i 0).val) 128#32) (BitVec.ofNat 32 102))).toNat = _; exact off_val _ 102 hi (by decide)) (by show 128 * (i 0).val + 102 < 16384; omega) _ _ _ q)
  ihave HR1 := (row_deliverP scM1 c 102 (by decide) inb_S128x64_S1x64_102_0 _ fs1 _ (gVi c i xt1 fh1)) $$ HR1 %(fun q => deliver_gath (by decide) c hbM1 tbM1 fh1 xt1 i ⟨102, by decide⟩ (k0_off409 i) (by show (Scalar.indexCast (Scalar.addi (Scalar.muli (BitVec.ofNat 32 (i 0).val) 128#32) (BitVec.ofNat 32 102))).toNat = _; exact off_val _ 102 hi (by decide)) (by show 128 * (i 0).val + 102 < 16384; omega) _ _ _ q)
  ihave HR2 := (row_deliverP scM2 c 102 (by decide) inb_S128x64_S1x64_102_0 _ fs2 _ (gVj c i xt2 fh1)) $$ HR2 %(fun q => deliver_gath (by decide) c hbM1 tbM2 fh1 xt2 i ⟨102, by decide⟩ (k0_off409 i) (by show (Scalar.indexCast (Scalar.addi (Scalar.muli (BitVec.ofNat 32 (i 0).val) 128#32) (BitVec.ofNat 32 102))).toNat = _; exact off_val _ 102 hi (by decide)) (by show 128 * (i 0).val + 102 < 16384; omega) _ _ _ q)
  ihave HD0 := (consH _ _) $$ HR0 HD0
  ihave HD1 := (consH _ _) $$ HR1 HD1
  ihave HD2 := (consH _ _) $$ HR2 HD2
  ihave HDC0 := (consH _ _) $$ HC0 HDC0
  ihave HDC1 := (consH _ _) $$ HC1 HDC1
  ihave HDC2 := (consH _ _) $$ HC2 HDC2
  ihave HDT0 := (consH _ _) $$ HT0 HDT0
  ihave HDT1 := (consH _ _) $$ HT1 HDT1
  ihave HDT2 := (consH _ _) $$ HT2 HDT2
  -- row 103: its three copies land; the row's resources go to the heads of the chains of what is done
  icases HB103 with ⟨HC0, HT0, HC1, HT1, HC2, HT2⟩
  sl_exec (disch := first | sl_exact hU _ _ | sl_exact hI _ _ | sl_exact hJ _ _)
  ihave HR0 := (row_deliverP scM0 c 103 (by decide) inb_S128x64_S1x64_103_0 _ fs0 _ (gU c i xt0 fh0)) $$ HR0 %(fun q => deliver_gath (by decide) c hbM0 tbM0 fh0 xt0 i ⟨103, by decide⟩ (k0_off413 i) (by show (Scalar.indexCast (Scalar.addi (Scalar.muli (BitVec.ofNat 32 (i 0).val) 128#32) (BitVec.ofNat 32 103))).toNat = _; exact off_val _ 103 hi (by decide)) (by show 128 * (i 0).val + 103 < 16384; omega) _ _ _ q)
  ihave HR1 := (row_deliverP scM1 c 103 (by decide) inb_S128x64_S1x64_103_0 _ fs1 _ (gVi c i xt1 fh1)) $$ HR1 %(fun q => deliver_gath (by decide) c hbM1 tbM1 fh1 xt1 i ⟨103, by decide⟩ (k0_off413 i) (by show (Scalar.indexCast (Scalar.addi (Scalar.muli (BitVec.ofNat 32 (i 0).val) 128#32) (BitVec.ofNat 32 103))).toNat = _; exact off_val _ 103 hi (by decide)) (by show 128 * (i 0).val + 103 < 16384; omega) _ _ _ q)
  ihave HR2 := (row_deliverP scM2 c 103 (by decide) inb_S128x64_S1x64_103_0 _ fs2 _ (gVj c i xt2 fh1)) $$ HR2 %(fun q => deliver_gath (by decide) c hbM1 tbM2 fh1 xt2 i ⟨103, by decide⟩ (k0_off413 i) (by show (Scalar.indexCast (Scalar.addi (Scalar.muli (BitVec.ofNat 32 (i 0).val) 128#32) (BitVec.ofNat 32 103))).toNat = _; exact off_val _ 103 hi (by decide)) (by show 128 * (i 0).val + 103 < 16384; omega) _ _ _ q)
  ihave HD0 := (consH _ _) $$ HR0 HD0
  ihave HD1 := (consH _ _) $$ HR1 HD1
  ihave HD2 := (consH _ _) $$ HR2 HD2
  ihave HDC0 := (consH _ _) $$ HC0 HDC0
  ihave HDC1 := (consH _ _) $$ HC1 HDC1
  ihave HDC2 := (consH _ _) $$ HC2 HDC2
  ihave HDT0 := (consH _ _) $$ HT0 HDT0
  ihave HDT1 := (consH _ _) $$ HT1 HDT1
  ihave HDT2 := (consH _ _) $$ HT2 HDT2
  -- row 104: its three copies land; the row's resources go to the heads of the chains of what is done
  icases HB104 with ⟨HC0, HT0, HC1, HT1, HC2, HT2⟩
  sl_exec (disch := first | sl_exact hU _ _ | sl_exact hI _ _ | sl_exact hJ _ _)
  ihave HR0 := (row_deliverP scM0 c 104 (by decide) inb_S128x64_S1x64_104_0 _ fs0 _ (gU c i xt0 fh0)) $$ HR0 %(fun q => deliver_gath (by decide) c hbM0 tbM0 fh0 xt0 i ⟨104, by decide⟩ (k0_off417 i) (by show (Scalar.indexCast (Scalar.addi (Scalar.muli (BitVec.ofNat 32 (i 0).val) 128#32) (BitVec.ofNat 32 104))).toNat = _; exact off_val _ 104 hi (by decide)) (by show 128 * (i 0).val + 104 < 16384; omega) _ _ _ q)
  ihave HR1 := (row_deliverP scM1 c 104 (by decide) inb_S128x64_S1x64_104_0 _ fs1 _ (gVi c i xt1 fh1)) $$ HR1 %(fun q => deliver_gath (by decide) c hbM1 tbM1 fh1 xt1 i ⟨104, by decide⟩ (k0_off417 i) (by show (Scalar.indexCast (Scalar.addi (Scalar.muli (BitVec.ofNat 32 (i 0).val) 128#32) (BitVec.ofNat 32 104))).toNat = _; exact off_val _ 104 hi (by decide)) (by show 128 * (i 0).val + 104 < 16384; omega) _ _ _ q)
  ihave HR2 := (row_deliverP scM2 c 104 (by decide) inb_S128x64_S1x64_104_0 _ fs2 _ (gVj c i xt2 fh1)) $$ HR2 %(fun q => deliver_gath (by decide) c hbM1 tbM2 fh1 xt2 i ⟨104, by decide⟩ (k0_off417 i) (by show (Scalar.indexCast (Scalar.addi (Scalar.muli (BitVec.ofNat 32 (i 0).val) 128#32) (BitVec.ofNat 32 104))).toNat = _; exact off_val _ 104 hi (by decide)) (by show 128 * (i 0).val + 104 < 16384; omega) _ _ _ q)
  ihave HD0 := (consH _ _) $$ HR0 HD0
  ihave HD1 := (consH _ _) $$ HR1 HD1
  ihave HD2 := (consH _ _) $$ HR2 HD2
  ihave HDC0 := (consH _ _) $$ HC0 HDC0
  ihave HDC1 := (consH _ _) $$ HC1 HDC1
  ihave HDC2 := (consH _ _) $$ HC2 HDC2
  ihave HDT0 := (consH _ _) $$ HT0 HDT0
  ihave HDT1 := (consH _ _) $$ HT1 HDT1
  ihave HDT2 := (consH _ _) $$ HT2 HDT2
  -- row 105: its three copies land; the row's resources go to the heads of the chains of what is done
  icases HB105 with ⟨HC0, HT0, HC1, HT1, HC2, HT2⟩
  sl_exec (disch := first | sl_exact hU _ _ | sl_exact hI _ _ | sl_exact hJ _ _)
  ihave HR0 := (row_deliverP scM0 c 105 (by decide) inb_S128x64_S1x64_105_0 _ fs0 _ (gU c i xt0 fh0)) $$ HR0 %(fun q => deliver_gath (by decide) c hbM0 tbM0 fh0 xt0 i ⟨105, by decide⟩ (k0_off421 i) (by show (Scalar.indexCast (Scalar.addi (Scalar.muli (BitVec.ofNat 32 (i 0).val) 128#32) (BitVec.ofNat 32 105))).toNat = _; exact off_val _ 105 hi (by decide)) (by show 128 * (i 0).val + 105 < 16384; omega) _ _ _ q)
  ihave HR1 := (row_deliverP scM1 c 105 (by decide) inb_S128x64_S1x64_105_0 _ fs1 _ (gVi c i xt1 fh1)) $$ HR1 %(fun q => deliver_gath (by decide) c hbM1 tbM1 fh1 xt1 i ⟨105, by decide⟩ (k0_off421 i) (by show (Scalar.indexCast (Scalar.addi (Scalar.muli (BitVec.ofNat 32 (i 0).val) 128#32) (BitVec.ofNat 32 105))).toNat = _; exact off_val _ 105 hi (by decide)) (by show 128 * (i 0).val + 105 < 16384; omega) _ _ _ q)
  ihave HR2 := (row_deliverP scM2 c 105 (by decide) inb_S128x64_S1x64_105_0 _ fs2 _ (gVj c i xt2 fh1)) $$ HR2 %(fun q => deliver_gath (by decide) c hbM1 tbM2 fh1 xt2 i ⟨105, by decide⟩ (k0_off421 i) (by show (Scalar.indexCast (Scalar.addi (Scalar.muli (BitVec.ofNat 32 (i 0).val) 128#32) (BitVec.ofNat 32 105))).toNat = _; exact off_val _ 105 hi (by decide)) (by show 128 * (i 0).val + 105 < 16384; omega) _ _ _ q)
  ihave HD0 := (consH _ _) $$ HR0 HD0
  ihave HD1 := (consH _ _) $$ HR1 HD1
  ihave HD2 := (consH _ _) $$ HR2 HD2
  ihave HDC0 := (consH _ _) $$ HC0 HDC0
  ihave HDC1 := (consH _ _) $$ HC1 HDC1
  ihave HDC2 := (consH _ _) $$ HC2 HDC2
  ihave HDT0 := (consH _ _) $$ HT0 HDT0
  ihave HDT1 := (consH _ _) $$ HT1 HDT1
  ihave HDT2 := (consH _ _) $$ HT2 HDT2
  -- row 106: its three copies land; the row's resources go to the heads of the chains of what is done
  icases HB106 with ⟨HC0, HT0, HC1, HT1, HC2, HT2⟩
  sl_exec (disch := first | sl_exact hU _ _ | sl_exact hI _ _ | sl_exact hJ _ _)
  ihave HR0 := (row_deliverP scM0 c 106 (by decide) inb_S128x64_S1x64_106_0 _ fs0 _ (gU c i xt0 fh0)) $$ HR0 %(fun q => deliver_gath (by decide) c hbM0 tbM0 fh0 xt0 i ⟨106, by decide⟩ (k0_off425 i) (by show (Scalar.indexCast (Scalar.addi (Scalar.muli (BitVec.ofNat 32 (i 0).val) 128#32) (BitVec.ofNat 32 106))).toNat = _; exact off_val _ 106 hi (by decide)) (by show 128 * (i 0).val + 106 < 16384; omega) _ _ _ q)
  ihave HR1 := (row_deliverP scM1 c 106 (by decide) inb_S128x64_S1x64_106_0 _ fs1 _ (gVi c i xt1 fh1)) $$ HR1 %(fun q => deliver_gath (by decide) c hbM1 tbM1 fh1 xt1 i ⟨106, by decide⟩ (k0_off425 i) (by show (Scalar.indexCast (Scalar.addi (Scalar.muli (BitVec.ofNat 32 (i 0).val) 128#32) (BitVec.ofNat 32 106))).toNat = _; exact off_val _ 106 hi (by decide)) (by show 128 * (i 0).val + 106 < 16384; omega) _ _ _ q)
  ihave HR2 := (row_deliverP scM2 c 106 (by decide) inb_S128x64_S1x64_106_0 _ fs2 _ (gVj c i xt2 fh1)) $$ HR2 %(fun q => deliver_gath (by decide) c hbM1 tbM2 fh1 xt2 i ⟨106, by decide⟩ (k0_off425 i) (by show (Scalar.indexCast (Scalar.addi (Scalar.muli (BitVec.ofNat 32 (i 0).val) 128#32) (BitVec.ofNat 32 106))).toNat = _; exact off_val _ 106 hi (by decide)) (by show 128 * (i 0).val + 106 < 16384; omega) _ _ _ q)
  ihave HD0 := (consH _ _) $$ HR0 HD0
  ihave HD1 := (consH _ _) $$ HR1 HD1
  ihave HD2 := (consH _ _) $$ HR2 HD2
  ihave HDC0 := (consH _ _) $$ HC0 HDC0
  ihave HDC1 := (consH _ _) $$ HC1 HDC1
  ihave HDC2 := (consH _ _) $$ HC2 HDC2
  ihave HDT0 := (consH _ _) $$ HT0 HDT0
  ihave HDT1 := (consH _ _) $$ HT1 HDT1
  ihave HDT2 := (consH _ _) $$ HT2 HDT2
  -- row 107: its three copies land; the row's resources go to the heads of the chains of what is done
  icases HB107 with ⟨HC0, HT0, HC1, HT1, HC2, HT2⟩
  sl_exec (disch := first | sl_exact hU _ _ | sl_exact hI _ _ | sl_exact hJ _ _)
  ihave HR0 := (row_deliverP scM0 c 107 (by decide) inb_S128x64_S1x64_107_0 _ fs0 _ (gU c i xt0 fh0)) $$ HR0 %(fun q => deliver_gath (by decide) c hbM0 tbM0 fh0 xt0 i ⟨107, by decide⟩ (k0_off429 i) (by show (Scalar.indexCast (Scalar.addi (Scalar.muli (BitVec.ofNat 32 (i 0).val) 128#32) (BitVec.ofNat 32 107))).toNat = _; exact off_val _ 107 hi (by decide)) (by show 128 * (i 0).val + 107 < 16384; omega) _ _ _ q)
  ihave HR1 := (row_deliverP scM1 c 107 (by decide) inb_S128x64_S1x64_107_0 _ fs1 _ (gVi c i xt1 fh1)) $$ HR1 %(fun q => deliver_gath (by decide) c hbM1 tbM1 fh1 xt1 i ⟨107, by decide⟩ (k0_off429 i) (by show (Scalar.indexCast (Scalar.addi (Scalar.muli (BitVec.ofNat 32 (i 0).val) 128#32) (BitVec.ofNat 32 107))).toNat = _; exact off_val _ 107 hi (by decide)) (by show 128 * (i 0).val + 107 < 16384; omega) _ _ _ q)
  ihave HR2 := (row_deliverP scM2 c 107 (by decide) inb_S128x64_S1x64_107_0 _ fs2 _ (gVj c i xt2 fh1)) $$ HR2 %(fun q => deliver_gath (by decide) c hbM1 tbM2 fh1 xt2 i ⟨107, by decide⟩ (k0_off429 i) (by show (Scalar.indexCast (Scalar.addi (Scalar.muli (BitVec.ofNat 32 (i 0).val) 128#32) (BitVec.ofNat 32 107))).toNat = _; exact off_val _ 107 hi (by decide)) (by show 128 * (i 0).val + 107 < 16384; omega) _ _ _ q)
  ihave HD0 := (consH _ _) $$ HR0 HD0
  ihave HD1 := (consH _ _) $$ HR1 HD1
  ihave HD2 := (consH _ _) $$ HR2 HD2
  ihave HDC0 := (consH _ _) $$ HC0 HDC0
  ihave HDC1 := (consH _ _) $$ HC1 HDC1
  ihave HDC2 := (consH _ _) $$ HC2 HDC2
  ihave HDT0 := (consH _ _) $$ HT0 HDT0
  ihave HDT1 := (consH _ _) $$ HT1 HDT1
  ihave HDT2 := (consH _ _) $$ HT2 HDT2
  -- row 108: its three copies land; the row's resources go to the heads of the chains of what is done
  icases HB108 with ⟨HC0, HT0, HC1, HT1, HC2, HT2⟩
  sl_exec (disch := first | sl_exact hU _ _ | sl_exact hI _ _ | sl_exact hJ _ _)
  ihave HR0 := (row_deliverP scM0 c 108 (by decide) inb_S128x64_S1x64_108_0 _ fs0 _ (gU c i xt0 fh0)) $$ HR0 %(fun q => deliver_gath (by decide) c hbM0 tbM0 fh0 xt0 i ⟨108, by decide⟩ (k0_off433 i) (by show (Scalar.indexCast (Scalar.addi (Scalar.muli (BitVec.ofNat 32 (i 0).val) 128#32) (BitVec.ofNat 32 108))).toNat = _; exact off_val _ 108 hi (by decide)) (by show 128 * (i 0).val + 108 < 16384; omega) _ _ _ q)
  ihave HR1 := (row_deliverP scM1 c 108 (by decide) inb_S128x64_S1x64_108_0 _ fs1 _ (gVi c i xt1 fh1)) $$ HR1 %(fun q => deliver_gath (by decide) c hbM1 tbM1 fh1 xt1 i ⟨108, by decide⟩ (k0_off433 i) (by show (Scalar.indexCast (Scalar.addi (Scalar.muli (BitVec.ofNat 32 (i 0).val) 128#32) (BitVec.ofNat 32 108))).toNat = _; exact off_val _ 108 hi (by decide)) (by show 128 * (i 0).val + 108 < 16384; omega) _ _ _ q)
  ihave HR2 := (row_deliverP scM2 c 108 (by decide) inb_S128x64_S1x64_108_0 _ fs2 _ (gVj c i xt2 fh1)) $$ HR2 %(fun q => deliver_gath (by decide) c hbM1 tbM2 fh1 xt2 i ⟨108, by decide⟩ (k0_off433 i) (by show (Scalar.indexCast (Scalar.addi (Scalar.muli (BitVec.ofNat 32 (i 0).val) 128#32) (BitVec.ofNat 32 108))).toNat = _; exact off_val _ 108 hi (by decide)) (by show 128 * (i 0).val + 108 < 16384; omega) _ _ _ q)
  ihave HD0 := (consH _ _) $$ HR0 HD0
  ihave HD1 := (consH _ _) $$ HR1 HD1
  ihave HD2 := (consH _ _) $$ HR2 HD2
  ihave HDC0 := (consH _ _) $$ HC0 HDC0
  ihave HDC1 := (consH _ _) $$ HC1 HDC1
  ihave HDC2 := (consH _ _) $$ HC2 HDC2
  ihave HDT0 := (consH _ _) $$ HT0 HDT0
  ihave HDT1 := (consH _ _) $$ HT1 HDT1
  ihave HDT2 := (consH _ _) $$ HT2 HDT2
  -- row 109: its three copies land; the row's resources go to the heads of the chains of what is done
  icases HB109 with ⟨HC0, HT0, HC1, HT1, HC2, HT2⟩
  sl_exec (disch := first | sl_exact hU _ _ | sl_exact hI _ _ | sl_exact hJ _ _)
  ihave HR0 := (row_deliverP scM0 c 109 (by decide) inb_S128x64_S1x64_109_0 _ fs0 _ (gU c i xt0 fh0)) $$ HR0 %(fun q => deliver_gath (by decide) c hbM0 tbM0 fh0 xt0 i ⟨109, by decide⟩ (k0_off437 i) (by show (Scalar.indexCast (Scalar.addi (Scalar.muli (BitVec.ofNat 32 (i 0).val) 128#32) (BitVec.ofNat 32 109))).toNat = _; exact off_val _ 109 hi (by decide)) (by show 128 * (i 0).val + 109 < 16384; omega) _ _ _ q)
  ihave HR1 := (row_deliverP scM1 c 109 (by decide) inb_S128x64_S1x64_109_0 _ fs1 _ (gVi c i xt1 fh1)) $$ HR1 %(fun q => deliver_gath (by decide) c hbM1 tbM1 fh1 xt1 i ⟨109, by decide⟩ (k0_off437 i) (by show (Scalar.indexCast (Scalar.addi (Scalar.muli (BitVec.ofNat 32 (i 0).val) 128#32) (BitVec.ofNat 32 109))).toNat = _; exact off_val _ 109 hi (by decide)) (by show 128 * (i 0).val + 109 < 16384; omega) _ _ _ q)
  ihave HR2 := (row_deliverP scM2 c 109 (by decide) inb_S128x64_S1x64_109_0 _ fs2 _ (gVj c i xt2 fh1)) $$ HR2 %(fun q => deliver_gath (by decide) c hbM1 tbM2 fh1 xt2 i ⟨109, by decide⟩ (k0_off437 i) (by show (Scalar.indexCast (Scalar.addi (Scalar.muli (BitVec.ofNat 32 (i 0).val) 128#32) (BitVec.ofNat 32 109))).toNat = _; exact off_val _ 109 hi (by decide)) (by show 128 * (i 0).val + 109 < 16384; omega) _ _ _ q)
  ihave HD0 := (consH _ _) $$ HR0 HD0
  ihave HD1 := (consH _ _) $$ HR1 HD1
  ihave HD2 := (consH _ _) $$ HR2 HD2
  ihave HDC0 := (consH _ _) $$ HC0 HDC0
  ihave HDC1 := (consH _ _) $$ HC1 HDC1
  ihave HDC2 := (consH _ _) $$ HC2 HDC2
  ihave HDT0 := (consH _ _) $$ HT0 HDT0
  ihave HDT1 := (consH _ _) $$ HT1 HDT1
  ihave HDT2 := (consH _ _) $$ HT2 HDT2
  -- row 110: its three copies land; the row's resources go to the heads of the chains of what is done
  icases HB110 with ⟨HC0, HT0, HC1, HT1, HC2, HT2⟩
  sl_exec (disch := first | sl_exact hU _ _ | sl_exact hI _ _ | sl_exact hJ _ _)
  ihave HR0 := (row_deliverP scM0 c 110 (by decide) inb_S128x64_S1x64_110_0 _ fs0 _ (gU c i xt0 fh0)) $$ HR0 %(fun q => deliver_gath (by decide) c hbM0 tbM0 fh0 xt0 i ⟨110, by decide⟩ (k0_off441 i) (by show (Scalar.indexCast (Scalar.addi (Scalar.muli (BitVec.ofNat 32 (i 0).val) 128#32) (BitVec.ofNat 32 110))).toNat = _; exact off_val _ 110 hi (by decide)) (by show 128 * (i 0).val + 110 < 16384; omega) _ _ _ q)
  ihave HR1 := (row_deliverP scM1 c 110 (by decide) inb_S128x64_S1x64_110_0 _ fs1 _ (gVi c i xt1 fh1)) $$ HR1 %(fun q => deliver_gath (by decide) c hbM1 tbM1 fh1 xt1 i ⟨110, by decide⟩ (k0_off441 i) (by show (Scalar.indexCast (Scalar.addi (Scalar.muli (BitVec.ofNat 32 (i 0).val) 128#32) (BitVec.ofNat 32 110))).toNat = _; exact off_val _ 110 hi (by decide)) (by show 128 * (i 0).val + 110 < 16384; omega) _ _ _ q)
  ihave HR2 := (row_deliverP scM2 c 110 (by decide) inb_S128x64_S1x64_110_0 _ fs2 _ (gVj c i xt2 fh1)) $$ HR2 %(fun q => deliver_gath (by decide) c hbM1 tbM2 fh1 xt2 i ⟨110, by decide⟩ (k0_off441 i) (by show (Scalar.indexCast (Scalar.addi (Scalar.muli (BitVec.ofNat 32 (i 0).val) 128#32) (BitVec.ofNat 32 110))).toNat = _; exact off_val _ 110 hi (by decide)) (by show 128 * (i 0).val + 110 < 16384; omega) _ _ _ q)
  ihave HD0 := (consH _ _) $$ HR0 HD0
  ihave HD1 := (consH _ _) $$ HR1 HD1
  ihave HD2 := (consH _ _) $$ HR2 HD2
  ihave HDC0 := (consH _ _) $$ HC0 HDC0
  ihave HDC1 := (consH _ _) $$ HC1 HDC1
  ihave HDC2 := (consH _ _) $$ HC2 HDC2
  ihave HDT0 := (consH _ _) $$ HT0 HDT0
  ihave HDT1 := (consH _ _) $$ HT1 HDT1
  ihave HDT2 := (consH _ _) $$ HT2 HDT2
  -- row 111: its three copies land; the row's resources go to the heads of the chains of what is done
  icases HB111 with ⟨HC0, HT0, HC1, HT1, HC2, HT2⟩
  sl_exec (disch := first | sl_exact hU _ _ | sl_exact hI _ _ | sl_exact hJ _ _)
  ihave HR0 := (row_deliverP scM0 c 111 (by decide) inb_S128x64_S1x64_111_0 _ fs0 _ (gU c i xt0 fh0)) $$ HR0 %(fun q => deliver_gath (by decide) c hbM0 tbM0 fh0 xt0 i ⟨111, by decide⟩ (k0_off445 i) (by show (Scalar.indexCast (Scalar.addi (Scalar.muli (BitVec.ofNat 32 (i 0).val) 128#32) (BitVec.ofNat 32 111))).toNat = _; exact off_val _ 111 hi (by decide)) (by show 128 * (i 0).val + 111 < 16384; omega) _ _ _ q)
  ihave HR1 := (row_deliverP scM1 c 111 (by decide) inb_S128x64_S1x64_111_0 _ fs1 _ (gVi c i xt1 fh1)) $$ HR1 %(fun q => deliver_gath (by decide) c hbM1 tbM1 fh1 xt1 i ⟨111, by decide⟩ (k0_off445 i) (by show (Scalar.indexCast (Scalar.addi (Scalar.muli (BitVec.ofNat 32 (i 0).val) 128#32) (BitVec.ofNat 32 111))).toNat = _; exact off_val _ 111 hi (by decide)) (by show 128 * (i 0).val + 111 < 16384; omega) _ _ _ q)
  ihave HR2 := (row_deliverP scM2 c 111 (by decide) inb_S128x64_S1x64_111_0 _ fs2 _ (gVj c i xt2 fh1)) $$ HR2 %(fun q => deliver_gath (by decide) c hbM1 tbM2 fh1 xt2 i ⟨111, by decide⟩ (k0_off445 i) (by show (Scalar.indexCast (Scalar.addi (Scalar.muli (BitVec.ofNat 32 (i 0).val) 128#32) (BitVec.ofNat 32 111))).toNat = _; exact off_val _ 111 hi (by decide)) (by show 128 * (i 0).val + 111 < 16384; omega) _ _ _ q)
  ihave HD0 := (consH _ _) $$ HR0 HD0
  ihave HD1 := (consH _ _) $$ HR1 HD1
  ihave HD2 := (consH _ _) $$ HR2 HD2
  ihave HDC0 := (consH _ _) $$ HC0 HDC0
  ihave HDC1 := (consH _ _) $$ HC1 HDC1
  ihave HDC2 := (consH _ _) $$ HC2 HDC2
  ihave HDT0 := (consH _ _) $$ HT0 HDT0
  ihave HDT1 := (consH _ _) $$ HT1 HDT1
  ihave HDT2 := (consH _ _) $$ HT2 HDT2
  -- row 112: its three copies land; the row's resources go to the heads of the chains of what is done
  icases HB112 with ⟨HC0, HT0, HC1, HT1, HC2, HT2⟩
  sl_exec (disch := first | sl_exact hU _ _ | sl_exact hI _ _ | sl_exact hJ _ _)
  ihave HR0 := (row_deliverP scM0 c 112 (by decide) inb_S128x64_S1x64_112_0 _ fs0 _ (gU c i xt0 fh0)) $$ HR0 %(fun q => deliver_gath (by decide) c hbM0 tbM0 fh0 xt0 i ⟨112, by decide⟩ (k0_off449 i) (by show (Scalar.indexCast (Scalar.addi (Scalar.muli (BitVec.ofNat 32 (i 0).val) 128#32) (BitVec.ofNat 32 112))).toNat = _; exact off_val _ 112 hi (by decide)) (by show 128 * (i 0).val + 112 < 16384; omega) _ _ _ q)
  ihave HR1 := (row_deliverP scM1 c 112 (by decide) inb_S128x64_S1x64_112_0 _ fs1 _ (gVi c i xt1 fh1)) $$ HR1 %(fun q => deliver_gath (by decide) c hbM1 tbM1 fh1 xt1 i ⟨112, by decide⟩ (k0_off449 i) (by show (Scalar.indexCast (Scalar.addi (Scalar.muli (BitVec.ofNat 32 (i 0).val) 128#32) (BitVec.ofNat 32 112))).toNat = _; exact off_val _ 112 hi (by decide)) (by show 128 * (i 0).val + 112 < 16384; omega) _ _ _ q)
  ihave HR2 := (row_deliverP scM2 c 112 (by decide) inb_S128x64_S1x64_112_0 _ fs2 _ (gVj c i xt2 fh1)) $$ HR2 %(fun q => deliver_gath (by decide) c hbM1 tbM2 fh1 xt2 i ⟨112, by decide⟩ (k0_off449 i) (by show (Scalar.indexCast (Scalar.addi (Scalar.muli (BitVec.ofNat 32 (i 0).val) 128#32) (BitVec.ofNat 32 112))).toNat = _; exact off_val _ 112 hi (by decide)) (by show 128 * (i 0).val + 112 < 16384; omega) _ _ _ q)
  ihave HD0 := (consH _ _) $$ HR0 HD0
  ihave HD1 := (consH _ _) $$ HR1 HD1
  ihave HD2 := (consH _ _) $$ HR2 HD2
  ihave HDC0 := (consH _ _) $$ HC0 HDC0
  ihave HDC1 := (consH _ _) $$ HC1 HDC1
  ihave HDC2 := (consH _ _) $$ HC2 HDC2
  ihave HDT0 := (consH _ _) $$ HT0 HDT0
  ihave HDT1 := (consH _ _) $$ HT1 HDT1
  ihave HDT2 := (consH _ _) $$ HT2 HDT2
  -- row 113: its three copies land; the row's resources go to the heads of the chains of what is done
  icases HB113 with ⟨HC0, HT0, HC1, HT1, HC2, HT2⟩
  sl_exec (disch := first | sl_exact hU _ _ | sl_exact hI _ _ | sl_exact hJ _ _)
  ihave HR0 := (row_deliverP scM0 c 113 (by decide) inb_S128x64_S1x64_113_0 _ fs0 _ (gU c i xt0 fh0)) $$ HR0 %(fun q => deliver_gath (by decide) c hbM0 tbM0 fh0 xt0 i ⟨113, by decide⟩ (k0_off453 i) (by show (Scalar.indexCast (Scalar.addi (Scalar.muli (BitVec.ofNat 32 (i 0).val) 128#32) (BitVec.ofNat 32 113))).toNat = _; exact off_val _ 113 hi (by decide)) (by show 128 * (i 0).val + 113 < 16384; omega) _ _ _ q)
  ihave HR1 := (row_deliverP scM1 c 113 (by decide) inb_S128x64_S1x64_113_0 _ fs1 _ (gVi c i xt1 fh1)) $$ HR1 %(fun q => deliver_gath (by decide) c hbM1 tbM1 fh1 xt1 i ⟨113, by decide⟩ (k0_off453 i) (by show (Scalar.indexCast (Scalar.addi (Scalar.muli (BitVec.ofNat 32 (i 0).val) 128#32) (BitVec.ofNat 32 113))).toNat = _; exact off_val _ 113 hi (by decide)) (by show 128 * (i 0).val + 113 < 16384; omega) _ _ _ q)
  ihave HR2 := (row_deliverP scM2 c 113 (by decide) inb_S128x64_S1x64_113_0 _ fs2 _ (gVj c i xt2 fh1)) $$ HR2 %(fun q => deliver_gath (by decide) c hbM1 tbM2 fh1 xt2 i ⟨113, by decide⟩ (k0_off453 i) (by show (Scalar.indexCast (Scalar.addi (Scalar.muli (BitVec.ofNat 32 (i 0).val) 128#32) (BitVec.ofNat 32 113))).toNat = _; exact off_val _ 113 hi (by decide)) (by show 128 * (i 0).val + 113 < 16384; omega) _ _ _ q)
  ihave HD0 := (consH _ _) $$ HR0 HD0
  ihave HD1 := (consH _ _) $$ HR1 HD1
  ihave HD2 := (consH _ _) $$ HR2 HD2
  ihave HDC0 := (consH _ _) $$ HC0 HDC0
  ihave HDC1 := (consH _ _) $$ HC1 HDC1
  ihave HDC2 := (consH _ _) $$ HC2 HDC2
  ihave HDT0 := (consH _ _) $$ HT0 HDT0
  ihave HDT1 := (consH _ _) $$ HT1 HDT1
  ihave HDT2 := (consH _ _) $$ HT2 HDT2
  -- row 114: its three copies land; the row's resources go to the heads of the chains of what is done
  icases HB114 with ⟨HC0, HT0, HC1, HT1, HC2, HT2⟩
  sl_exec (disch := first | sl_exact hU _ _ | sl_exact hI _ _ | sl_exact hJ _ _)
  ihave HR0 := (row_deliverP scM0 c 114 (by decide) inb_S128x64_S1x64_114_0 _ fs0 _ (gU c i xt0 fh0)) $$ HR0 %(fun q => deliver_gath (by decide) c hbM0 tbM0 fh0 xt0 i ⟨114, by decide⟩ (k0_off457 i) (by show (Scalar.indexCast (Scalar.addi (Scalar.muli (BitVec.ofNat 32 (i 0).val) 128#32) (BitVec.ofNat 32 114))).toNat = _; exact off_val _ 114 hi (by decide)) (by show 128 * (i 0).val + 114 < 16384; omega) _ _ _ q)
  ihave HR1 := (row_deliverP scM1 c 114 (by decide) inb_S128x64_S1x64_114_0 _ fs1 _ (gVi c i xt1 fh1)) $$ HR1 %(fun q => deliver_gath (by decide) c hbM1 tbM1 fh1 xt1 i ⟨114, by decide⟩ (k0_off457 i) (by show (Scalar.indexCast (Scalar.addi (Scalar.muli (BitVec.ofNat 32 (i 0).val) 128#32) (BitVec.ofNat 32 114))).toNat = _; exact off_val _ 114 hi (by decide)) (by show 128 * (i 0).val + 114 < 16384; omega) _ _ _ q)
  ihave HR2 := (row_deliverP scM2 c 114 (by decide) inb_S128x64_S1x64_114_0 _ fs2 _ (gVj c i xt2 fh1)) $$ HR2 %(fun q => deliver_gath (by decide) c hbM1 tbM2 fh1 xt2 i ⟨114, by decide⟩ (k0_off457 i) (by show (Scalar.indexCast (Scalar.addi (Scalar.muli (BitVec.ofNat 32 (i 0).val) 128#32) (BitVec.ofNat 32 114))).toNat = _; exact off_val _ 114 hi (by decide)) (by show 128 * (i 0).val + 114 < 16384; omega) _ _ _ q)
  ihave HD0 := (consH _ _) $$ HR0 HD0
  ihave HD1 := (consH _ _) $$ HR1 HD1
  ihave HD2 := (consH _ _) $$ HR2 HD2
  ihave HDC0 := (consH _ _) $$ HC0 HDC0
  ihave HDC1 := (consH _ _) $$ HC1 HDC1
  ihave HDC2 := (consH _ _) $$ HC2 HDC2
  ihave HDT0 := (consH _ _) $$ HT0 HDT0
  ihave HDT1 := (consH _ _) $$ HT1 HDT1
  ihave HDT2 := (consH _ _) $$ HT2 HDT2
  -- row 115: its three copies land; the row's resources go to the heads of the chains of what is done
  icases HB115 with ⟨HC0, HT0, HC1, HT1, HC2, HT2⟩
  sl_exec (disch := first | sl_exact hU _ _ | sl_exact hI _ _ | sl_exact hJ _ _)
  ihave HR0 := (row_deliverP scM0 c 115 (by decide) inb_S128x64_S1x64_115_0 _ fs0 _ (gU c i xt0 fh0)) $$ HR0 %(fun q => deliver_gath (by decide) c hbM0 tbM0 fh0 xt0 i ⟨115, by decide⟩ (k0_off461 i) (by show (Scalar.indexCast (Scalar.addi (Scalar.muli (BitVec.ofNat 32 (i 0).val) 128#32) (BitVec.ofNat 32 115))).toNat = _; exact off_val _ 115 hi (by decide)) (by show 128 * (i 0).val + 115 < 16384; omega) _ _ _ q)
  ihave HR1 := (row_deliverP scM1 c 115 (by decide) inb_S128x64_S1x64_115_0 _ fs1 _ (gVi c i xt1 fh1)) $$ HR1 %(fun q => deliver_gath (by decide) c hbM1 tbM1 fh1 xt1 i ⟨115, by decide⟩ (k0_off461 i) (by show (Scalar.indexCast (Scalar.addi (Scalar.muli (BitVec.ofNat 32 (i 0).val) 128#32) (BitVec.ofNat 32 115))).toNat = _; exact off_val _ 115 hi (by decide)) (by show 128 * (i 0).val + 115 < 16384; omega) _ _ _ q)
  ihave HR2 := (row_deliverP scM2 c 115 (by decide) inb_S128x64_S1x64_115_0 _ fs2 _ (gVj c i xt2 fh1)) $$ HR2 %(fun q => deliver_gath (by decide) c hbM1 tbM2 fh1 xt2 i ⟨115, by decide⟩ (k0_off461 i) (by show (Scalar.indexCast (Scalar.addi (Scalar.muli (BitVec.ofNat 32 (i 0).val) 128#32) (BitVec.ofNat 32 115))).toNat = _; exact off_val _ 115 hi (by decide)) (by show 128 * (i 0).val + 115 < 16384; omega) _ _ _ q)
  ihave HD0 := (consH _ _) $$ HR0 HD0
  ihave HD1 := (consH _ _) $$ HR1 HD1
  ihave HD2 := (consH _ _) $$ HR2 HD2
  ihave HDC0 := (consH _ _) $$ HC0 HDC0
  ihave HDC1 := (consH _ _) $$ HC1 HDC1
  ihave HDC2 := (consH _ _) $$ HC2 HDC2
  ihave HDT0 := (consH _ _) $$ HT0 HDT0
  ihave HDT1 := (consH _ _) $$ HT1 HDT1
  ihave HDT2 := (consH _ _) $$ HT2 HDT2
  -- row 116: its three copies land; the row's resources go to the heads of the chains of what is done
  icases HB116 with ⟨HC0, HT0, HC1, HT1, HC2, HT2⟩
  sl_exec (disch := first | sl_exact hU _ _ | sl_exact hI _ _ | sl_exact hJ _ _)
  ihave HR0 := (row_deliverP scM0 c 116 (by decide) inb_S128x64_S1x64_116_0 _ fs0 _ (gU c i xt0 fh0)) $$ HR0 %(fun q => deliver_gath (by decide) c hbM0 tbM0 fh0 xt0 i ⟨116, by decide⟩ (k0_off465 i) (by show (Scalar.indexCast (Scalar.addi (Scalar.muli (BitVec.ofNat 32 (i 0).val) 128#32) (BitVec.ofNat 32 116))).toNat = _; exact off_val _ 116 hi (by decide)) (by show 128 * (i 0).val + 116 < 16384; omega) _ _ _ q)
  ihave HR1 := (row_deliverP scM1 c 116 (by decide) inb_S128x64_S1x64_116_0 _ fs1 _ (gVi c i xt1 fh1)) $$ HR1 %(fun q => deliver_gath (by decide) c hbM1 tbM1 fh1 xt1 i ⟨116, by decide⟩ (k0_off465 i) (by show (Scalar.indexCast (Scalar.addi (Scalar.muli (BitVec.ofNat 32 (i 0).val) 128#32) (BitVec.ofNat 32 116))).toNat = _; exact off_val _ 116 hi (by decide)) (by show 128 * (i 0).val + 116 < 16384; omega) _ _ _ q)
  ihave HR2 := (row_deliverP scM2 c 116 (by decide) inb_S128x64_S1x64_116_0 _ fs2 _ (gVj c i xt2 fh1)) $$ HR2 %(fun q => deliver_gath (by decide) c hbM1 tbM2 fh1 xt2 i ⟨116, by decide⟩ (k0_off465 i) (by show (Scalar.indexCast (Scalar.addi (Scalar.muli (BitVec.ofNat 32 (i 0).val) 128#32) (BitVec.ofNat 32 116))).toNat = _; exact off_val _ 116 hi (by decide)) (by show 128 * (i 0).val + 116 < 16384; omega) _ _ _ q)
  ihave HD0 := (consH _ _) $$ HR0 HD0
  ihave HD1 := (consH _ _) $$ HR1 HD1
  ihave HD2 := (consH _ _) $$ HR2 HD2
  ihave HDC0 := (consH _ _) $$ HC0 HDC0
  ihave HDC1 := (consH _ _) $$ HC1 HDC1
  ihave HDC2 := (consH _ _) $$ HC2 HDC2
  ihave HDT0 := (consH _ _) $$ HT0 HDT0
  ihave HDT1 := (consH _ _) $$ HT1 HDT1
  ihave HDT2 := (consH _ _) $$ HT2 HDT2
  -- row 117: its three copies land; the row's resources go to the heads of the chains of what is done
  icases HB117 with ⟨HC0, HT0, HC1, HT1, HC2, HT2⟩
  sl_exec (disch := first | sl_exact hU _ _ | sl_exact hI _ _ | sl_exact hJ _ _)
  ihave HR0 := (row_deliverP scM0 c 117 (by decide) inb_S128x64_S1x64_117_0 _ fs0 _ (gU c i xt0 fh0)) $$ HR0 %(fun q => deliver_gath (by decide) c hbM0 tbM0 fh0 xt0 i ⟨117, by decide⟩ (k0_off469 i) (by show (Scalar.indexCast (Scalar.addi (Scalar.muli (BitVec.ofNat 32 (i 0).val) 128#32) (BitVec.ofNat 32 117))).toNat = _; exact off_val _ 117 hi (by decide)) (by show 128 * (i 0).val + 117 < 16384; omega) _ _ _ q)
  ihave HR1 := (row_deliverP scM1 c 117 (by decide) inb_S128x64_S1x64_117_0 _ fs1 _ (gVi c i xt1 fh1)) $$ HR1 %(fun q => deliver_gath (by decide) c hbM1 tbM1 fh1 xt1 i ⟨117, by decide⟩ (k0_off469 i) (by show (Scalar.indexCast (Scalar.addi (Scalar.muli (BitVec.ofNat 32 (i 0).val) 128#32) (BitVec.ofNat 32 117))).toNat = _; exact off_val _ 117 hi (by decide)) (by show 128 * (i 0).val + 117 < 16384; omega) _ _ _ q)
  ihave HR2 := (row_deliverP scM2 c 117 (by decide) inb_S128x64_S1x64_117_0 _ fs2 _ (gVj c i xt2 fh1)) $$ HR2 %(fun q => deliver_gath (by decide) c hbM1 tbM2 fh1 xt2 i ⟨117, by decide⟩ (k0_off469 i) (by show (Scalar.indexCast (Scalar.addi (Scalar.muli (BitVec.ofNat 32 (i 0).val) 128#32) (BitVec.ofNat 32 117))).toNat = _; exact off_val _ 117 hi (by decide)) (by show 128 * (i 0).val + 117 < 16384; omega) _ _ _ q)
  ihave HD0 := (consH _ _) $$ HR0 HD0
  ihave HD1 := (consH _ _) $$ HR1 HD1
  ihave HD2 := (consH _ _) $$ HR2 HD2
  ihave HDC0 := (consH _ _) $$ HC0 HDC0
  ihave HDC1 := (consH _ _) $$ HC1 HDC1
  ihave HDC2 := (consH _ _) $$ HC2 HDC2
  ihave HDT0 := (consH _ _) $$ HT0 HDT0
  ihave HDT1 := (consH _ _) $$ HT1 HDT1
  ihave HDT2 := (consH _ _) $$ HT2 HDT2
  -- row 118: its three copies land; the row's resources go to the heads of the chains of what is done
  icases HB118 with ⟨HC0, HT0, HC1, HT1, HC2, HT2⟩
  sl_exec (disch := first | sl_exact hU _ _ | sl_exact hI _ _ | sl_exact hJ _ _)
  ihave HR0 := (row_deliverP scM0 c 118 (by decide) inb_S128x64_S1x64_118_0 _ fs0 _ (gU c i xt0 fh0)) $$ HR0 %(fun q => deliver_gath (by decide) c hbM0 tbM0 fh0 xt0 i ⟨118, by decide⟩ (k0_off473 i) (by show (Scalar.indexCast (Scalar.addi (Scalar.muli (BitVec.ofNat 32 (i 0).val) 128#32) (BitVec.ofNat 32 118))).toNat = _; exact off_val _ 118 hi (by decide)) (by show 128 * (i 0).val + 118 < 16384; omega) _ _ _ q)
  ihave HR1 := (row_deliverP scM1 c 118 (by decide) inb_S128x64_S1x64_118_0 _ fs1 _ (gVi c i xt1 fh1)) $$ HR1 %(fun q => deliver_gath (by decide) c hbM1 tbM1 fh1 xt1 i ⟨118, by decide⟩ (k0_off473 i) (by show (Scalar.indexCast (Scalar.addi (Scalar.muli (BitVec.ofNat 32 (i 0).val) 128#32) (BitVec.ofNat 32 118))).toNat = _; exact off_val _ 118 hi (by decide)) (by show 128 * (i 0).val + 118 < 16384; omega) _ _ _ q)
  ihave HR2 := (row_deliverP scM2 c 118 (by decide) inb_S128x64_S1x64_118_0 _ fs2 _ (gVj c i xt2 fh1)) $$ HR2 %(fun q => deliver_gath (by decide) c hbM1 tbM2 fh1 xt2 i ⟨118, by decide⟩ (k0_off473 i) (by show (Scalar.indexCast (Scalar.addi (Scalar.muli (BitVec.ofNat 32 (i 0).val) 128#32) (BitVec.ofNat 32 118))).toNat = _; exact off_val _ 118 hi (by decide)) (by show 128 * (i 0).val + 118 < 16384; omega) _ _ _ q)
  ihave HD0 := (consH _ _) $$ HR0 HD0
  ihave HD1 := (consH _ _) $$ HR1 HD1
  ihave HD2 := (consH _ _) $$ HR2 HD2
  ihave HDC0 := (consH _ _) $$ HC0 HDC0
  ihave HDC1 := (consH _ _) $$ HC1 HDC1
  ihave HDC2 := (consH _ _) $$ HC2 HDC2
  ihave HDT0 := (consH _ _) $$ HT0 HDT0
  ihave HDT1 := (consH _ _) $$ HT1 HDT1
  ihave HDT2 := (consH _ _) $$ HT2 HDT2
  -- row 119: its three copies land; the row's resources go to the heads of the chains of what is done
  icases HB119 with ⟨HC0, HT0, HC1, HT1, HC2, HT2⟩
  sl_exec (disch := first | sl_exact hU _ _ | sl_exact hI _ _ | sl_exact hJ _ _)
  ihave HR0 := (row_deliverP scM0 c 119 (by decide) inb_S128x64_S1x64_119_0 _ fs0 _ (gU c i xt0 fh0)) $$ HR0 %(fun q => deliver_gath (by decide) c hbM0 tbM0 fh0 xt0 i ⟨119, by decide⟩ (k0_off477 i) (by show (Scalar.indexCast (Scalar.addi (Scalar.muli (BitVec.ofNat 32 (i 0).val) 128#32) (BitVec.ofNat 32 119))).toNat = _; exact off_val _ 119 hi (by decide)) (by show 128 * (i 0).val + 119 < 16384; omega) _ _ _ q)
  ihave HR1 := (row_deliverP scM1 c 119 (by decide) inb_S128x64_S1x64_119_0 _ fs1 _ (gVi c i xt1 fh1)) $$ HR1 %(fun q => deliver_gath (by decide) c hbM1 tbM1 fh1 xt1 i ⟨119, by decide⟩ (k0_off477 i) (by show (Scalar.indexCast (Scalar.addi (Scalar.muli (BitVec.ofNat 32 (i 0).val) 128#32) (BitVec.ofNat 32 119))).toNat = _; exact off_val _ 119 hi (by decide)) (by show 128 * (i 0).val + 119 < 16384; omega) _ _ _ q)
  ihave HR2 := (row_deliverP scM2 c 119 (by decide) inb_S128x64_S1x64_119_0 _ fs2 _ (gVj c i xt2 fh1)) $$ HR2 %(fun q => deliver_gath (by decide) c hbM1 tbM2 fh1 xt2 i ⟨119, by decide⟩ (k0_off477 i) (by show (Scalar.indexCast (Scalar.addi (Scalar.muli (BitVec.ofNat 32 (i 0).val) 128#32) (BitVec.ofNat 32 119))).toNat = _; exact off_val _ 119 hi (by decide)) (by show 128 * (i 0).val + 119 < 16384; omega) _ _ _ q)
  ihave HD0 := (consH _ _) $$ HR0 HD0
  ihave HD1 := (consH _ _) $$ HR1 HD1
  ihave HD2 := (consH _ _) $$ HR2 HD2
  ihave HDC0 := (consH _ _) $$ HC0 HDC0
  ihave HDC1 := (consH _ _) $$ HC1 HDC1
  ihave HDC2 := (consH _ _) $$ HC2 HDC2
  ihave HDT0 := (consH _ _) $$ HT0 HDT0
  ihave HDT1 := (consH _ _) $$ HT1 HDT1
  ihave HDT2 := (consH _ _) $$ HT2 HDT2
  -- row 120: its three copies land; the row's resources go to the heads of the chains of what is done
  icases HB120 with ⟨HC0, HT0, HC1, HT1, HC2, HT2⟩
  sl_exec (disch := first | sl_exact hU _ _ | sl_exact hI _ _ | sl_exact hJ _ _)
  ihave HR0 := (row_deliverP scM0 c 120 (by decide) inb_S128x64_S1x64_120_0 _ fs0 _ (gU c i xt0 fh0)) $$ HR0 %(fun q => deliver_gath (by decide) c hbM0 tbM0 fh0 xt0 i ⟨120, by decide⟩ (k0_off481 i) (by show (Scalar.indexCast (Scalar.addi (Scalar.muli (BitVec.ofNat 32 (i 0).val) 128#32) (BitVec.ofNat 32 120))).toNat = _; exact off_val _ 120 hi (by decide)) (by show 128 * (i 0).val + 120 < 16384; omega) _ _ _ q)
  ihave HR1 := (row_deliverP scM1 c 120 (by decide) inb_S128x64_S1x64_120_0 _ fs1 _ (gVi c i xt1 fh1)) $$ HR1 %(fun q => deliver_gath (by decide) c hbM1 tbM1 fh1 xt1 i ⟨120, by decide⟩ (k0_off481 i) (by show (Scalar.indexCast (Scalar.addi (Scalar.muli (BitVec.ofNat 32 (i 0).val) 128#32) (BitVec.ofNat 32 120))).toNat = _; exact off_val _ 120 hi (by decide)) (by show 128 * (i 0).val + 120 < 16384; omega) _ _ _ q)
  ihave HR2 := (row_deliverP scM2 c 120 (by decide) inb_S128x64_S1x64_120_0 _ fs2 _ (gVj c i xt2 fh1)) $$ HR2 %(fun q => deliver_gath (by decide) c hbM1 tbM2 fh1 xt2 i ⟨120, by decide⟩ (k0_off481 i) (by show (Scalar.indexCast (Scalar.addi (Scalar.muli (BitVec.ofNat 32 (i 0).val) 128#32) (BitVec.ofNat 32 120))).toNat = _; exact off_val _ 120 hi (by decide)) (by show 128 * (i 0).val + 120 < 16384; omega) _ _ _ q)
  ihave HD0 := (consH _ _) $$ HR0 HD0
  ihave HD1 := (consH _ _) $$ HR1 HD1
  ihave HD2 := (consH _ _) $$ HR2 HD2
  ihave HDC0 := (consH _ _) $$ HC0 HDC0
  ihave HDC1 := (consH _ _) $$ HC1 HDC1
  ihave HDC2 := (consH _ _) $$ HC2 HDC2
  ihave HDT0 := (consH _ _) $$ HT0 HDT0
  ihave HDT1 := (consH _ _) $$ HT1 HDT1
  ihave HDT2 := (consH _ _) $$ HT2 HDT2
  -- row 121: its three copies land; the row's resources go to the heads of the chains of what is done
  icases HB121 with ⟨HC0, HT0, HC1, HT1, HC2, HT2⟩
  sl_exec (disch := first | sl_exact hU _ _ | sl_exact hI _ _ | sl_exact hJ _ _)
  ihave HR0 := (row_deliverP scM0 c 121 (by decide) inb_S128x64_S1x64_121_0 _ fs0 _ (gU c i xt0 fh0)) $$ HR0 %(fun q => deliver_gath (by decide) c hbM0 tbM0 fh0 xt0 i ⟨121, by decide⟩ (k0_off485 i) (by show (Scalar.indexCast (Scalar.addi (Scalar.muli (BitVec.ofNat 32 (i 0).val) 128#32) (BitVec.ofNat 32 121))).toNat = _; exact off_val _ 121 hi (by decide)) (by show 128 * (i 0).val + 121 < 16384; omega) _ _ _ q)
  ihave HR1 := (row_deliverP scM1 c 121 (by decide) inb_S128x64_S1x64_121_0 _ fs1 _ (gVi c i xt1 fh1)) $$ HR1 %(fun q => deliver_gath (by decide) c hbM1 tbM1 fh1 xt1 i ⟨121, by decide⟩ (k0_off485 i) (by show (Scalar.indexCast (Scalar.addi (Scalar.muli (BitVec.ofNat 32 (i 0).val) 128#32) (BitVec.ofNat 32 121))).toNat = _; exact off_val _ 121 hi (by decide)) (by show 128 * (i 0).val + 121 < 16384; omega) _ _ _ q)
  ihave HR2 := (row_deliverP scM2 c 121 (by decide) inb_S128x64_S1x64_121_0 _ fs2 _ (gVj c i xt2 fh1)) $$ HR2 %(fun q => deliver_gath (by decide) c hbM1 tbM2 fh1 xt2 i ⟨121, by decide⟩ (k0_off485 i) (by show (Scalar.indexCast (Scalar.addi (Scalar.muli (BitVec.ofNat 32 (i 0).val) 128#32) (BitVec.ofNat 32 121))).toNat = _; exact off_val _ 121 hi (by decide)) (by show 128 * (i 0).val + 121 < 16384; omega) _ _ _ q)
  ihave HD0 := (consH _ _) $$ HR0 HD0
  ihave HD1 := (consH _ _) $$ HR1 HD1
  ihave HD2 := (consH _ _) $$ HR2 HD2
  ihave HDC0 := (consH _ _) $$ HC0 HDC0
  ihave HDC1 := (consH _ _) $$ HC1 HDC1
  ihave HDC2 := (consH _ _) $$ HC2 HDC2
  ihave HDT0 := (consH _ _) $$ HT0 HDT0
  ihave HDT1 := (consH _ _) $$ HT1 HDT1
  ihave HDT2 := (consH _ _) $$ HT2 HDT2
  -- row 122: its three copies land; the row's resources go to the heads of the chains of what is done
  icases HB122 with ⟨HC0, HT0, HC1, HT1, HC2, HT2⟩
  sl_exec (disch := first | sl_exact hU _ _ | sl_exact hI _ _ | sl_exact hJ _ _)
  ihave HR0 := (row_deliverP scM0 c 122 (by decide) inb_S128x64_S1x64_122_0 _ fs0 _ (gU c i xt0 fh0)) $$ HR0 %(fun q => deliver_gath (by decide) c hbM0 tbM0 fh0 xt0 i ⟨122, by decide⟩ (k0_off489 i) (by show (Scalar.indexCast (Scalar.addi (Scalar.muli (BitVec.ofNat 32 (i 0).val) 128#32) (BitVec.ofNat 32 122))).toNat = _; exact off_val _ 122 hi (by decide)) (by show 128 * (i 0).val + 122 < 16384; omega) _ _ _ q)
  ihave HR1 := (row_deliverP scM1 c 122 (by decide) inb_S128x64_S1x64_122_0 _ fs1 _ (gVi c i xt1 fh1)) $$ HR1 %(fun q => deliver_gath (by decide) c hbM1 tbM1 fh1 xt1 i ⟨122, by decide⟩ (k0_off489 i) (by show (Scalar.indexCast (Scalar.addi (Scalar.muli (BitVec.ofNat 32 (i 0).val) 128#32) (BitVec.ofNat 32 122))).toNat = _; exact off_val _ 122 hi (by decide)) (by show 128 * (i 0).val + 122 < 16384; omega) _ _ _ q)
  ihave HR2 := (row_deliverP scM2 c 122 (by decide) inb_S128x64_S1x64_122_0 _ fs2 _ (gVj c i xt2 fh1)) $$ HR2 %(fun q => deliver_gath (by decide) c hbM1 tbM2 fh1 xt2 i ⟨122, by decide⟩ (k0_off489 i) (by show (Scalar.indexCast (Scalar.addi (Scalar.muli (BitVec.ofNat 32 (i 0).val) 128#32) (BitVec.ofNat 32 122))).toNat = _; exact off_val _ 122 hi (by decide)) (by show 128 * (i 0).val + 122 < 16384; omega) _ _ _ q)
  ihave HD0 := (consH _ _) $$ HR0 HD0
  ihave HD1 := (consH _ _) $$ HR1 HD1
  ihave HD2 := (consH _ _) $$ HR2 HD2
  ihave HDC0 := (consH _ _) $$ HC0 HDC0
  ihave HDC1 := (consH _ _) $$ HC1 HDC1
  ihave HDC2 := (consH _ _) $$ HC2 HDC2
  ihave HDT0 := (consH _ _) $$ HT0 HDT0
  ihave HDT1 := (consH _ _) $$ HT1 HDT1
  ihave HDT2 := (consH _ _) $$ HT2 HDT2
  -- row 123: its three copies land; the row's resources go to the heads of the chains of what is done
  icases HB123 with ⟨HC0, HT0, HC1, HT1, HC2, HT2⟩
  sl_exec (disch := first | sl_exact hU _ _ | sl_exact hI _ _ | sl_exact hJ _ _)
  ihave HR0 := (row_deliverP scM0 c 123 (by decide) inb_S128x64_S1x64_123_0 _ fs0 _ (gU c i xt0 fh0)) $$ HR0 %(fun q => deliver_gath (by decide) c hbM0 tbM0 fh0 xt0 i ⟨123, by decide⟩ (k0_off493 i) (by show (Scalar.indexCast (Scalar.addi (Scalar.muli (BitVec.ofNat 32 (i 0).val) 128#32) (BitVec.ofNat 32 123))).toNat = _; exact off_val _ 123 hi (by decide)) (by show 128 * (i 0).val + 123 < 16384; omega) _ _ _ q)
  ihave HR1 := (row_deliverP scM1 c 123 (by decide) inb_S128x64_S1x64_123_0 _ fs1 _ (gVi c i xt1 fh1)) $$ HR1 %(fun q => deliver_gath (by decide) c hbM1 tbM1 fh1 xt1 i ⟨123, by decide⟩ (k0_off493 i) (by show (Scalar.indexCast (Scalar.addi (Scalar.muli (BitVec.ofNat 32 (i 0).val) 128#32) (BitVec.ofNat 32 123))).toNat = _; exact off_val _ 123 hi (by decide)) (by show 128 * (i 0).val + 123 < 16384; omega) _ _ _ q)
  ihave HR2 := (row_deliverP scM2 c 123 (by decide) inb_S128x64_S1x64_123_0 _ fs2 _ (gVj c i xt2 fh1)) $$ HR2 %(fun q => deliver_gath (by decide) c hbM1 tbM2 fh1 xt2 i ⟨123, by decide⟩ (k0_off493 i) (by show (Scalar.indexCast (Scalar.addi (Scalar.muli (BitVec.ofNat 32 (i 0).val) 128#32) (BitVec.ofNat 32 123))).toNat = _; exact off_val _ 123 hi (by decide)) (by show 128 * (i 0).val + 123 < 16384; omega) _ _ _ q)
  ihave HD0 := (consH _ _) $$ HR0 HD0
  ihave HD1 := (consH _ _) $$ HR1 HD1
  ihave HD2 := (consH _ _) $$ HR2 HD2
  ihave HDC0 := (consH _ _) $$ HC0 HDC0
  ihave HDC1 := (consH _ _) $$ HC1 HDC1
  ihave HDC2 := (consH _ _) $$ HC2 HDC2
  ihave HDT0 := (consH _ _) $$ HT0 HDT0
  ihave HDT1 := (consH _ _) $$ HT1 HDT1
  ihave HDT2 := (consH _ _) $$ HT2 HDT2
  -- row 124: its three copies land; the row's resources go to the heads of the chains of what is done
  icases HB124 with ⟨HC0, HT0, HC1, HT1, HC2, HT2⟩
  sl_exec (disch := first | sl_exact hU _ _ | sl_exact hI _ _ | sl_exact hJ _ _)
  ihave HR0 := (row_deliverP scM0 c 124 (by decide) inb_S128x64_S1x64_124_0 _ fs0 _ (gU c i xt0 fh0)) $$ HR0 %(fun q => deliver_gath (by decide) c hbM0 tbM0 fh0 xt0 i ⟨124, by decide⟩ (k0_off497 i) (by show (Scalar.indexCast (Scalar.addi (Scalar.muli (BitVec.ofNat 32 (i 0).val) 128#32) (BitVec.ofNat 32 124))).toNat = _; exact off_val _ 124 hi (by decide)) (by show 128 * (i 0).val + 124 < 16384; omega) _ _ _ q)
  ihave HR1 := (row_deliverP scM1 c 124 (by decide) inb_S128x64_S1x64_124_0 _ fs1 _ (gVi c i xt1 fh1)) $$ HR1 %(fun q => deliver_gath (by decide) c hbM1 tbM1 fh1 xt1 i ⟨124, by decide⟩ (k0_off497 i) (by show (Scalar.indexCast (Scalar.addi (Scalar.muli (BitVec.ofNat 32 (i 0).val) 128#32) (BitVec.ofNat 32 124))).toNat = _; exact off_val _ 124 hi (by decide)) (by show 128 * (i 0).val + 124 < 16384; omega) _ _ _ q)
  ihave HR2 := (row_deliverP scM2 c 124 (by decide) inb_S128x64_S1x64_124_0 _ fs2 _ (gVj c i xt2 fh1)) $$ HR2 %(fun q => deliver_gath (by decide) c hbM1 tbM2 fh1 xt2 i ⟨124, by decide⟩ (k0_off497 i) (by show (Scalar.indexCast (Scalar.addi (Scalar.muli (BitVec.ofNat 32 (i 0).val) 128#32) (BitVec.ofNat 32 124))).toNat = _; exact off_val _ 124 hi (by decide)) (by show 128 * (i 0).val + 124 < 16384; omega) _ _ _ q)
  ihave HD0 := (consH _ _) $$ HR0 HD0
  ihave HD1 := (consH _ _) $$ HR1 HD1
  ihave HD2 := (consH _ _) $$ HR2 HD2
  ihave HDC0 := (consH _ _) $$ HC0 HDC0
  ihave HDC1 := (consH _ _) $$ HC1 HDC1
  ihave HDC2 := (consH _ _) $$ HC2 HDC2
  ihave HDT0 := (consH _ _) $$ HT0 HDT0
  ihave HDT1 := (consH _ _) $$ HT1 HDT1
  ihave HDT2 := (consH _ _) $$ HT2 HDT2
  -- row 125: its three copies land; the row's resources go to the heads of the chains of what is done
  icases HB125 with ⟨HC0, HT0, HC1, HT1, HC2, HT2⟩
  sl_exec (disch := first | sl_exact hU _ _ | sl_exact hI _ _ | sl_exact hJ _ _)
  ihave HR0 := (row_deliverP scM0 c 125 (by decide) inb_S128x64_S1x64_125_0 _ fs0 _ (gU c i xt0 fh0)) $$ HR0 %(fun q => deliver_gath (by decide) c hbM0 tbM0 fh0 xt0 i ⟨125, by decide⟩ (k0_off501 i) (by show (Scalar.indexCast (Scalar.addi (Scalar.muli (BitVec.ofNat 32 (i 0).val) 128#32) (BitVec.ofNat 32 125))).toNat = _; exact off_val _ 125 hi (by decide)) (by show 128 * (i 0).val + 125 < 16384; omega) _ _ _ q)
  ihave HR1 := (row_deliverP scM1 c 125 (by decide) inb_S128x64_S1x64_125_0 _ fs1 _ (gVi c i xt1 fh1)) $$ HR1 %(fun q => deliver_gath (by decide) c hbM1 tbM1 fh1 xt1 i ⟨125, by decide⟩ (k0_off501 i) (by show (Scalar.indexCast (Scalar.addi (Scalar.muli (BitVec.ofNat 32 (i 0).val) 128#32) (BitVec.ofNat 32 125))).toNat = _; exact off_val _ 125 hi (by decide)) (by show 128 * (i 0).val + 125 < 16384; omega) _ _ _ q)
  ihave HR2 := (row_deliverP scM2 c 125 (by decide) inb_S128x64_S1x64_125_0 _ fs2 _ (gVj c i xt2 fh1)) $$ HR2 %(fun q => deliver_gath (by decide) c hbM1 tbM2 fh1 xt2 i ⟨125, by decide⟩ (k0_off501 i) (by show (Scalar.indexCast (Scalar.addi (Scalar.muli (BitVec.ofNat 32 (i 0).val) 128#32) (BitVec.ofNat 32 125))).toNat = _; exact off_val _ 125 hi (by decide)) (by show 128 * (i 0).val + 125 < 16384; omega) _ _ _ q)
  ihave HD0 := (consH _ _) $$ HR0 HD0
  ihave HD1 := (consH _ _) $$ HR1 HD1
  ihave HD2 := (consH _ _) $$ HR2 HD2
  ihave HDC0 := (consH _ _) $$ HC0 HDC0
  ihave HDC1 := (consH _ _) $$ HC1 HDC1
  ihave HDC2 := (consH _ _) $$ HC2 HDC2
  ihave HDT0 := (consH _ _) $$ HT0 HDT0
  ihave HDT1 := (consH _ _) $$ HT1 HDT1
  ihave HDT2 := (consH _ _) $$ HT2 HDT2
  -- row 126: its three copies land; the row's resources go to the heads of the chains of what is done
  icases HB126 with ⟨HC0, HT0, HC1, HT1, HC2, HT2⟩
  sl_exec (disch := first | sl_exact hU _ _ | sl_exact hI _ _ | sl_exact hJ _ _)
  ihave HR0 := (row_deliverP scM0 c 126 (by decide) inb_S128x64_S1x64_126_0 _ fs0 _ (gU c i xt0 fh0)) $$ HR0 %(fun q => deliver_gath (by decide) c hbM0 tbM0 fh0 xt0 i ⟨126, by decide⟩ (k0_off505 i) (by show (Scalar.indexCast (Scalar.addi (Scalar.muli (BitVec.ofNat 32 (i 0).val) 128#32) (BitVec.ofNat 32 126))).toNat = _; exact off_val _ 126 hi (by decide)) (by show 128 * (i 0).val + 126 < 16384; omega) _ _ _ q)
  ihave HR1 := (row_deliverP scM1 c 126 (by decide) inb_S128x64_S1x64_126_0 _ fs1 _ (gVi c i xt1 fh1)) $$ HR1 %(fun q => deliver_gath (by decide) c hbM1 tbM1 fh1 xt1 i ⟨126, by decide⟩ (k0_off505 i) (by show (Scalar.indexCast (Scalar.addi (Scalar.muli (BitVec.ofNat 32 (i 0).val) 128#32) (BitVec.ofNat 32 126))).toNat = _; exact off_val _ 126 hi (by decide)) (by show 128 * (i 0).val + 126 < 16384; omega) _ _ _ q)
  ihave HR2 := (row_deliverP scM2 c 126 (by decide) inb_S128x64_S1x64_126_0 _ fs2 _ (gVj c i xt2 fh1)) $$ HR2 %(fun q => deliver_gath (by decide) c hbM1 tbM2 fh1 xt2 i ⟨126, by decide⟩ (k0_off505 i) (by show (Scalar.indexCast (Scalar.addi (Scalar.muli (BitVec.ofNat 32 (i 0).val) 128#32) (BitVec.ofNat 32 126))).toNat = _; exact off_val _ 126 hi (by decide)) (by show 128 * (i 0).val + 126 < 16384; omega) _ _ _ q)
  ihave HD0 := (consH _ _) $$ HR0 HD0
  ihave HD1 := (consH _ _) $$ HR1 HD1
  ihave HD2 := (consH _ _) $$ HR2 HD2
  ihave HDC0 := (consH _ _) $$ HC0 HDC0
  ihave HDC1 := (consH _ _) $$ HC1 HDC1
  ihave HDC2 := (consH _ _) $$ HC2 HDC2
  ihave HDT0 := (consH _ _) $$ HT0 HDT0
  ihave HDT1 := (consH _ _) $$ HT1 HDT1
  ihave HDT2 := (consH _ _) $$ HT2 HDT2
  -- row 127: its three copies land; the row's resources go to the heads of the chains of what is done
  icases HB127 with ⟨HC0, HT0, HC1, HT1, HC2, HT2⟩
  sl_exec (disch := first | sl_exact hU _ _ | sl_exact hI _ _ | sl_exact hJ _ _)
  ihave HR0 := (row_deliverP scM0 c 127 (by decide) inb_S128x64_S1x64_127_0 _ fs0 _ (gU c i xt0 fh0)) $$ HR0 %(fun q => deliver_gath (by decide) c hbM0 tbM0 fh0 xt0 i ⟨127, by decide⟩ (k0_off509 i) (by show (Scalar.indexCast (Scalar.addi (Scalar.muli (BitVec.ofNat 32 (i 0).val) 128#32) (BitVec.ofNat 32 127))).toNat = _; exact off_val _ 127 hi (by decide)) (by show 128 * (i 0).val + 127 < 16384; omega) _ _ _ q)
  ihave HR1 := (row_deliverP scM1 c 127 (by decide) inb_S128x64_S1x64_127_0 _ fs1 _ (gVi c i xt1 fh1)) $$ HR1 %(fun q => deliver_gath (by decide) c hbM1 tbM1 fh1 xt1 i ⟨127, by decide⟩ (k0_off509 i) (by show (Scalar.indexCast (Scalar.addi (Scalar.muli (BitVec.ofNat 32 (i 0).val) 128#32) (BitVec.ofNat 32 127))).toNat = _; exact off_val _ 127 hi (by decide)) (by show 128 * (i 0).val + 127 < 16384; omega) _ _ _ q)
  ihave HR2 := (row_deliverP scM2 c 127 (by decide) inb_S128x64_S1x64_127_0 _ fs2 _ (gVj c i xt2 fh1)) $$ HR2 %(fun q => deliver_gath (by decide) c hbM1 tbM2 fh1 xt2 i ⟨127, by decide⟩ (k0_off509 i) (by show (Scalar.indexCast (Scalar.addi (Scalar.muli (BitVec.ofNat 32 (i 0).val) 128#32) (BitVec.ofNat 32 127))).toNat = _; exact off_val _ 127 hi (by decide)) (by show 128 * (i 0).val + 127 < 16384; omega) _ _ _ q)
  ihave HD0 := (consH _ _) $$ HR0 HD0
  ihave HD1 := (consH _ _) $$ HR1 HD1
  ihave HD2 := (consH _ _) $$ HR2 HD2
  ihave HDC0 := (consH _ _) $$ HC0 HDC0
  ihave HDC1 := (consH _ _) $$ HC1 HDC1
  ihave HDC2 := (consH _ _) $$ HC2 HDC2
  ihave HDT0 := (consH _ _) $$ HT0 HDT0
  ihave HDT1 := (consH _ _) $$ HT1 HDT1
  ihave HDT2 := (consH _ _) $$ HT2 HDT2
  -- the 128 delivered rows of each scratch buffer are the buffer at the contents whose reading is the gathered block
  ihave HS0 := (rows_down0 (F := F) c _) $$ HD0
  ihave HS1 := (rows_down1 (F := F) c _) $$ HD1
  ihave HS2 := (rows_down2 (F := F) c _) $$ HD2
  -- the three loads and the five stores
  sl_exec
  -- what is handed back
  icases HUrl with ⟨HUr, HUlo⟩
  icases HVrl with ⟨HVr, HVlo⟩
  ihave HZ := (cells_down' (F := F) c) $$ [HDC0 HDC1 HDC2]
  · isplitl [HDC0]
    · iexact HDC0
    isplitl [HDC1]
    · iexact HDC1
    iexact HDC2
  ihave HU := (tokU_down (F := F) c fh0) $$ [HUr HUlo HDT0]
  · isplitl [HUr]
    · iexact HUr
    isplitl [HUlo]
    · iexact HUlo
    iexact HDT0
  ihave HV := (tokV_down (F := F) c fh1) $$ [HVr HVlo HDT1 HDT2]
  · isplitl [HVr]
    · iexact HVr
    isplitl [HVlo]
    · iexact HVlo
    isplitl [HDT1]
    · iexact HDT1
    iexact HDT2
  ihave H6 := (out6 (F := F) c i xt0 xt1 xt2 fh0 fh1 fs0 fs1 fs2 arg6 _) $$ H6
  ihave H7 := (out7 (F := F) c i xt0 xt1 xt2 fh0 fh1 fs0 fs1 fs2 arg7 _) $$ H7
  ihave H8 := (out8 (F := F) c i xt0 xt1 xt2 fh0 fh1 fs0 fs1 fs2 arg8 _) $$ H8
  ihave H9 := (out9 (F := F) c i xt0 xt1 xt2 fh0 fh1 fs0 fs1 fs2 arg9 _) $$ H9
  have hout10P : ∀ (v : FVec F S128x64 .f32),
      ((arg10.view.loc (c : Thread nD τ) ↦[arg10.view.set]{fullShare} arg10.view.writes (Elt F) f10
          [⟨Rect.unit (s := S128x1) ![0, 0] S128x1.size inb_S128x1_S128x1_0_0, k0_pay1 v⟩] : sProp 𝕄)
        ⊢ iprop(⌜v = k0_pay6 (scM2.view.readAt (Elt F) (Rect.unit (s := S128x64) ![0, 0] S128x64.size inb_S128x64_S128x64_0_0).toLoadRect (scM2.view.write (Elt F) fs2 (gVj c i xt2 fh1) Finset.univ))⌝ -∗
            ∃ f, arg10.view.loc (c : Thread nD τ) ↦[arg10.view.set]{fullShare}
              arg10.view.writes (Elt F) f (runL c i xt0 xt1 xt2 fh0 fh1).2.2.2.2)) := by
    intro v
    iintro H
    iintro %hv
    subst hv
    iapply (out10 (F := F) c i xt0 xt1 xt2 fh0 fh1 fs0 fs1 fs2 arg10 f10)
    iexact H
  ihave H10 := (hout10P _) $$ H10 %rfl
  rw [wp_ret]
  imodintro
  iapply Hk
  isplitl [H6]
  · iexact H6
  isplitl [H7]
  · iexact H7
  isplitl [H8]
  · iexact H8
  isplitl [H9]
  · iexact H9
  isplitl [H10]
  · iexact H10
  isplitl [HS0]
  · iexists _, _
    isplitr
    swap
    · iexact HS0
    ipureintro
    rfl
  isplitl [HS1]
  · iexists _, _
    isplitr
    swap
    · iexact HS1
    ipureintro
    rfl
  isplitl [HS2]
  · iexists _, _
    isplitr
    swap
    · iexact HS2
    ipureintro
    rfl
  isplitl [HZ]
  · iexact HZ
  isplitl [Ht0]
  · iexact Ht0
  isplitl [Ht1]
  · iexact Ht1
  isplitl [Ht2]
  · iexact Ht2
  isplitl [HU]
  · iexact HU
  isplitl [HV]
  · iexact HV
  iexists _; iexact HW

end Cert.Kernel.Hand

end
-- ==== Proof.KArgs.lean ====
/-
  The program's five arguments after its host lines: each holds what it held at launch.

  After the region the core's buffers are the region's exit contents — the five result arrays at what the region
  wrote, every other buffer at its contents when the region was entered — run through the host lines.  No host line
  writes an argument (each writes one buffer of its own, which is no argument), and no result array is an argument.
  So an argument's contents after the lines are its contents when the region was entered, which are its launch
  contents, no host line coming before the region.

  Generic in the float instance, and for any proof data of the region: the result arrays' contents are never looked at.
-/
import proofs.«414929_j28089086116333_1_alg».proof.Proof.KKit
import Idealize.ShloMosaic.Lib.Pipeline.FrameSuffix
import Idealize.ShloMosaic.Lib.StableHlo.Run

noncomputable section

namespace Cert.Kernel.Hand

open Cert.Kernel Cert.Kernel.Gen
open Idealize.ShloMosaic Idealize.ShloMosaic.TcCoe
open Idealize.SL Idealize.SL.Sem

variable {F : FTy → Type} [FloatOps F]

variable (m : (ℓ : Loc nD τ sig) → Buf (Elt F) ℓ)

/-! ## No result array is an argument -/

theorem arr_ne_arg0 : ∀ w, Pipeline.arrRef spec0 w ≠ main_arg0 := by decide
theorem arr_ne_arg1 : ∀ w, Pipeline.arrRef spec0 w ≠ main_arg1 := by decide
theorem arr_ne_arg2 : ∀ w, Pipeline.arrRef spec0 w ≠ main_arg2 := by decide
theorem arr_ne_arg3 : ∀ w, Pipeline.arrRef spec0 w ≠ main_arg3 := by decide
theorem arr_ne_arg4 : ∀ w, Pipeline.arrRef spec0 w ≠ main_arg4 := by decide

/-! ## The arguments after the host lines -/

/-- The first table after the host lines holds its launch contents. -/
theorem afterTail_arg0 (c : Dev nD)
    (dats : (p : Fin 1) → (c : Dev nD) →
      Pipeline.Dat τ (Elt F) Unit ℕ (Pipeline.UD sig nD τ) ℕ (Pipeline.pin pcfgs (fun _ => adm m) p) c) :
    Pipeline.afterTail pcfgs (fun _ => adm m) dats 0 (V0 m) [hostOps1, hostOps1_1, hostOps1_2] c main_arg0
      = m ((c : Thread nD τ).loc main_arg0) := by
  unfold Pipeline.afterTail
  simp only [hostOps1, hostOps1_1, hostOps1_2, List.flatten_cons, List.flatten_nil, List.append_nil,
    List.cons_append, List.nil_append]
  after_results_simp
  rw [Pipeline.withArrays_of_ne _ c (V0 m c) _ main_arg0 arr_ne_arg0]
  exact V_main_arg0 m c

/-- The second table after the host lines holds its launch contents. -/
theorem afterTail_arg1 (c : Dev nD)
    (dats : (p : Fin 1) → (c : Dev nD) →
      Pipeline.Dat τ (Elt F) Unit ℕ (Pipeline.UD sig nD τ) ℕ (Pipeline.pin pcfgs (fun _ => adm m) p) c) :
    Pipeline.afterTail pcfgs (fun _ => adm m) dats 0 (V0 m) [hostOps1, hostOps1_1, hostOps1_2] c main_arg1
      = m ((c : Thread nD τ).loc main_arg1) := by
  unfold Pipeline.afterTail
  simp only [hostOps1, hostOps1_1, hostOps1_2, List.flatten_cons, List.flatten_nil, List.append_nil,
    List.cons_append, List.nil_append]
  after_results_simp
  rw [Pipeline.withArrays_of_ne _ c (V0 m c) _ main_arg1 arr_ne_arg1]
  exact V_main_arg1 m c

/-- The first index vector after the host lines holds its launch contents. -/
theorem afterTail_arg2 (c : Dev nD)
    (dats : (p : Fin 1) → (c : Dev nD) →
      Pipeline.Dat τ (Elt F) Unit ℕ (Pipeline.UD sig nD τ) ℕ (Pipeline.pin pcfgs (fun _ => adm m) p) c) :
    Pipeline.afterTail pcfgs (fun _ => adm m) dats 0 (V0 m) [hostOps1, hostOps1_1, hostOps1_2] c main_arg2
      = m ((c : Thread nD τ).loc main_arg2) := by
  unfold Pipeline.afterTail
  simp only [hostOps1, hostOps1_1, hostOps1_2, List.flatten_cons, List.flatten_nil, List.append_nil,
    List.cons_append, List.nil_append]
  after_results_simp
  rw [Pipeline.withArrays_of_ne _ c (V0 m c) _ main_arg2 arr_ne_arg2]
  exact V_main_arg2 m c

/-- The second index vector after the host lines holds its launch contents. -/
theorem afterTail_arg3 (c : Dev nD)
    (dats : (p : Fin 1) → (c : Dev nD) →
      Pipeline.Dat τ (Elt F) Unit ℕ (Pipeline.UD sig nD τ) ℕ (Pipeline.pin pcfgs (fun _ => adm m) p) c) :
    Pipeline.afterTail pcfgs (fun _ => adm m) dats 0 (V0 m) [hostOps1, hostOps1_1, hostOps1_2] c main_arg3
      = m ((c : Thread nD τ).loc main_arg3) := by
  unfold Pipeline.afterTail
  simp only [hostOps1, hostOps1_1, hostOps1_2, List.flatten_cons, List.flatten_nil, List.append_nil,
    List.cons_append, List.nil_append]
  after_results_simp
  rw [Pipeline.withArrays_of_ne _ c (V0 m c) _ main_arg3 arr_ne_arg3]
  exact V_main_arg3 m c

/-- The third index vector after the host lines holds its launch contents. -/
theorem afterTail_arg4 (c : Dev nD)
    (dats : (p : Fin 1) → (c : Dev nD) →
      Pipeline.Dat τ (Elt F) Unit ℕ (Pipeline.UD sig nD τ) ℕ (Pipeline.pin pcfgs (fun _ => adm m) p) c) :
    Pipeline.afterTail pcfgs (fun _ => adm m) dats 0 (V0 m) [hostOps1, hostOps1_1, hostOps1_2] c main_arg4
      = m ((c : Thread nD τ).loc main_arg4) := by
  unfold Pipeline.afterTail
  simp only [hostOps1, hostOps1_1, hostOps1_2, List.flatten_cons, List.flatten_nil, List.append_nil,
    List.cons_append, List.nil_append]
  after_results_simp
  rw [Pipeline.withArrays_of_ne _ c (V0 m c) _ main_arg4 arr_ne_arg4]
  exact V_main_arg4 m c

end Cert.Kernel.Hand

end
-- ==== Proof.KHyps.lean ====
import proofs.«414929_j28089086116333_1_alg».proof.Proof.KOps
import proofs.«414929_j28089086116333_1_alg».proof.Proof.PreRange

/-!
  The range facts of the three index tables, in the form the body uses them. The body reads a word `w` from an
  index table and takes the one-row rectangle of 64 columns at row `w`, column 0, out of the data table the word
  indexes; that rectangle lies inside an `n × 64` table exactly when `w < n`. Since a whole buffer reads as its own
  contents, "every entry of the table's contents is below `n`" gives the containment for every word any load can
  read from it.
-/

namespace Cert.Kernel.Hand

open Cert.Kernel Cert.Kernel.Gen Idealize.ShloMosaic Idealize.ShloMosaic.TcCoe Idealize.SL.Sem

variable {F : FTy → Type} [FloatOps F]

/-- The one-row, 64-column rectangle at row `r`, column 0 lies inside an `n × 64` table when `r < n`:
    on the row axis `r + 1 ≤ n`, on the column axis `0 + 64 ≤ 64`. -/
theorem row_rect_le {r n : Nat} (hr : r < n) (a : Fin 2) :
    (![r, 0] : Fin 2 → Nat) a + S1x64.size a ≤ (⟨2, ![n, 64]⟩ : Shape).size a := by
  match a with
  | ⟨0, _⟩ => show r + 1 ≤ n; omega
  | ⟨1, _⟩ => show 0 + 64 ≤ 64; omega

theorem rowsU_of_lt (c : Dev nD) (xt : BufOf (F := F) c tbM0)
    (h : ∀ g : S16384.Idx, ((xt : S16384.Idx → BitVec 32) g).toNat < 1000000) :
    ∀ (R : LoadRect S16384) (j : R.shape.Idx) (a : Fin 2),
      (![(tbM0.view.readAt (Elt F) R xt j).toNat, 0] : Fin 2 → Nat) a + S1x64.size a ≤ S1000000x64.size a :=
  fun R j a => row_rect_le (h (R.idx j)) a

theorem rowsV1_of_lt (c : Dev nD) (xt : BufOf (F := F) c tbM1)
    (h : ∀ g : S16384.Idx, ((xt : S16384.Idx → BitVec 32) g).toNat < 500000) :
    ∀ (R : LoadRect S16384) (j : R.shape.Idx) (a : Fin 2),
      (![(tbM1.view.readAt (Elt F) R xt j).toNat, 0] : Fin 2 → Nat) a + S1x64.size a ≤ S500000x64.size a :=
  fun R j a => row_rect_le (h (R.idx j)) a

theorem rowsV2_of_lt (c : Dev nD) (xt : BufOf (F := F) c tbM2)
    (h : ∀ g : S16384.Idx, ((xt : S16384.Idx → BitVec 32) g).toNat < 500000) :
    ∀ (R : LoadRect S16384) (j : R.shape.Idx) (a : Fin 2),
      (![(tbM2.view.readAt (Elt F) R xt j).toNat, 0] : Fin 2 → Nat) a + S1x64.size a ≤ S500000x64.size a :=
  fun R j a => row_rect_le (h (R.idx j)) a

theorem rows_of_fn [hP : Cert.Pre_finite_inputs.Facts] (c : Dev nD)
    (A0 : FVec F Cert.Pre_finite_inputs.S1000000x64 .f32) (A1 : FVec F Cert.Pre_finite_inputs.S500000x64 .f32)
    (xt0 : BufOf (F := F) c tbM0) (xt1 : BufOf (F := F) c tbM1) (xt2 : BufOf (F := F) c tbM2)
    (h : Cert.Pre_finite_inputs.fn (F := F) A0 A1 (xt0 : S16384.Idx → BitVec 32) xt1 xt2 = fun _ => 1#1) :
    (∀ (R : LoadRect S16384) (j : R.shape.Idx) (a : Fin 2),
      (![(tbM0.view.readAt (Elt F) R xt0 j).toNat, 0] : Fin 2 → Nat) a + S1x64.size a ≤ S1000000x64.size a)
    ∧ (∀ (R : LoadRect S16384) (j : R.shape.Idx) (a : Fin 2),
      (![(tbM1.view.readAt (Elt F) R xt1 j).toNat, 0] : Fin 2 → Nat) a + S1x64.size a ≤ S500000x64.size a)
    ∧ (∀ (R : LoadRect S16384) (j : R.shape.Idx) (a : Fin 2),
      (![(tbM2.view.readAt (Elt F) R xt2 j).toNat, 0] : Fin 2 → Nat) a + S1x64.size a ≤ S500000x64.size a) := by
  obtain ⟨h0, h1, h2⟩ := Cert.PreRange.range_of_pre A0 A1 _ _ _ h
  exact ⟨rowsU_of_lt c xt0 h0, rowsV1_of_lt c xt1 h1, rowsV2_of_lt c xt2 h2⟩

end Cert.Kernel.Hand
-- ==== Proof.KFrame.lean ====
/-
  The kernel's frame: the proof data of its one pipeline, the body obligation at every grid point, and the run of
  @main — the region, then the host stretches — for the program read at any float instance.

  After the body at point `t`, result window `w`'s staging buffer holds what the body's run stored there, read back over
  anything: one whole 128 × 1 column.  Between points the invariant holds the three scratch buffers at any contents,
  the generator register, the 384 transfer semaphores at zero, the two data tables at their entry contents, and the
  read-only halves of the three index tables.  The body obligation hands the run exactly that together with the five
  current staging buffers, and takes it back.  The index tables' words address rows of the tables they index: that is
  the one hypothesis (`TblOk`), which the certificate's precondition gives.
-/
import proofs.«414929_j28089086116333_1_alg».proof.Proof.KKit
import proofs.«414929_j28089086116333_1_alg».proof.Proof.KRun
import proofs.«414929_j28089086116333_1_alg».proof.Proof.KArgs
import proofs.«414929_j28089086116333_1_alg».proof.Proof.KHyps

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- Every word of each index table, as the region finds the table, addresses a row of the table it indexes — in the
    form the body's checks take. -/
structure TblOk : Prop where
  u : ∀ (R : LoadRect S16384) (j : R.shape.Idx) (a : Fin 2), (![(tbM0.view.readAt (Elt F) R (tbl m 0) j).toNat, 0] : Fin 2 → Nat) a + S1x64.size a ≤ S1000000x64.size a
  i : ∀ (R : LoadRect S16384) (j : R.shape.Idx) (a : Fin 2), (![(tbM1.view.readAt (Elt F) R (tbl m 1) j).toNat, 0] : Fin 2 → Nat) a + S1x64.size a ≤ S500000x64.size a
  j : ∀ (R : LoadRect S16384) (j : R.shape.Idx) (a : Fin 2), (![(tbM2.view.readAt (Elt F) R (tbl m 2) j).toNat, 0] : Fin 2 → Nat) a + S1x64.size a ≤ S500000x64.size a

/-! ## What the run leaves in each result window's staging buffer -/

/-- One staging buffer of a result window, through which its contents are stated (the choice does not matter). -/
abbrev VO : View sig .tc .vmem S128x1 .f32 := (Memref.whole cc0_stg0_0 : Memref sig .tc .vmem S128x1 .f32).view

/-- One store of the whole 128 × 1 block covers the block, whatever it stores. -/
theorem cover_whole (w : (Rect.whole S128x1).shape.Idx → Elt F .f32) (y : S128x1.Idx) :
    ∃ pc ∈ ([⟨Rect.whole S128x1, w⟩] : List (View.Piece (Elt F) S128x1 .f32)), y ∈ pc.1.set :=
  ⟨⟨Rect.whole S128x1, w⟩, List.mem_singleton.mpr rfl, by
    show y ∈ (Rect.whole S128x1).set
    rw [Rect.set_whole]; exact Finset.mem_univ y⟩

/-- The run lists one store for result window 0, of its whole 128 × 1 block: it covers the block. -/
theorem cover0 (c : Dev nD) (i : grid0.Coords)
    (xt0 : BufOf (F := F) c tbM0) (xt1 : BufOf (F := F) c tbM1) (xt2 : BufOf (F := F) c tbM2) (fh0 : BufOf (F := F) c hbM0) (fh1 : BufOf (F := F) c hbM1) (y : S128x1.Idx) :
    ∃ pc ∈ (runL c i xt0 xt1 xt2 fh0 fh1).1, y ∈ pc.1.set :=
  cover_whole (k0_pay2 (gU c i xt0 fh0) (gVi c i xt1 fh1)) y

/-- What the run leaves in result window 0's staging buffer: its store read back over junk. -/
def out0 (c : Dev nD) (i : grid0.Coords)
    (xt0 : BufOf (F := F) c tbM0) (xt1 : BufOf (F := F) c tbM1) (xt2 : BufOf (F := F) c tbM2) (fh0 : BufOf (F := F) c hbM0) (fh1 : BufOf (F := F) c hbM1) : Vec F S128x1 .f32 :=
  VO.read (Elt F) (VO.writes (Elt F) VO.junk (runL c i xt0 xt1 xt2 fh0 fh1).1)

/-- That is the stored column itself: the row sums of the first gathered block times the second. -/
theorem out0_eq (c : Dev nD) (i : grid0.Coords)
    (xt0 : BufOf (F := F) c tbM0) (xt1 : BufOf (F := F) c tbM1) (xt2 : BufOf (F := F) c tbM2) (fh0 : BufOf (F := F) c hbM0) (fh1 : BufOf (F := F) c hbM1) :
    out0 c i xt0 xt1 xt2 fh0 fh1 = k0_pay2 (gU c i xt0 fh0) (gVi c i xt1 fh1) :=
  View.read_writes_whole (Val := Elt F) VO VO.junk (k0_pay2 (gU c i xt0 fh0) (gVi c i xt1 fh1))

/-- The run lists one store for result window 1, of its whole 128 × 1 block: it covers the block. -/
theorem cover1 (c : Dev nD) (i : grid0.Coords)
    (xt0 : BufOf (F := F) c tbM0) (xt1 : BufOf (F := F) c tbM1) (xt2 : BufOf (F := F) c tbM2) (fh0 : BufOf (F := F) c hbM0) (fh1 : BufOf (F := F) c hbM1) (y : S128x1.Idx) :
    ∃ pc ∈ (runL c i xt0 xt1 xt2 fh0 fh1).2.1, y ∈ pc.1.set :=
  cover_whole (k0_pay3 (gU c i xt0 fh0) (gVj c i xt2 fh1)) y

/-- What the run leaves in result window 1's staging buffer: its store read back over junk. -/
def out1 (c : Dev nD) (i : grid0.Coords)
    (xt0 : BufOf (F := F) c tbM0) (xt1 : BufOf (F := F) c tbM1) (xt2 : BufOf (F := F) c tbM2) (fh0 : BufOf (F := F) c hbM0) (fh1 : BufOf (F := F) c hbM1) : Vec F S128x1 .f32 :=
  VO.read (Elt F) (VO.writes (Elt F) VO.junk (runL c i xt0 xt1 xt2 fh0 fh1).2.1)

/-- That is the stored column itself: the row sums of the first gathered block times the third. -/
theorem out1_eq (c : Dev nD) (i : grid0.Coords)
    (xt0 : BufOf (F := F) c tbM0) (xt1 : BufOf (F := F) c tbM1) (xt2 : BufOf (F := F) c tbM2) (fh0 : BufOf (F := F) c hbM0) (fh1 : BufOf (F := F) c hbM1) :
    out1 c i xt0 xt1 xt2 fh0 fh1 = k0_pay3 (gU c i xt0 fh0) (gVj c i xt2 fh1) :=
  View.read_writes_whole (Val := Elt F) VO VO.junk (k0_pay3 (gU c i xt0 fh0) (gVj c i xt2 fh1))

/-- The run lists one store for result window 2, of its whole 128 × 1 block: it covers the block. -/
theorem cover2 (c : Dev nD) (i : grid0.Coords)
    (xt0 : BufOf (F := F) c tbM0) (xt1 : BufOf (F := F) c tbM1) (xt2 : BufOf (F := F) c tbM2) (fh0 : BufOf (F := F) c hbM0) (fh1 : BufOf (F := F) c hbM1) (y : S128x1.Idx) :
    ∃ pc ∈ (runL c i xt0 xt1 xt2 fh0 fh1).2.2.1, y ∈ pc.1.set :=
  cover_whole (k0_pay4 (gU c i xt0 fh0)) y

/-- What the run leaves in result window 2's staging buffer: its store read back over junk. -/
def out2 (c : Dev nD) (i : grid0.Coords)
    (xt0 : BufOf (F := F) c tbM0) (xt1 : BufOf (F := F) c tbM1) (xt2 : BufOf (F := F) c tbM2) (fh0 : BufOf (F := F) c hbM0) (fh1 : BufOf (F := F) c hbM1) : Vec F S128x1 .f32 :=
  VO.read (Elt F) (VO.writes (Elt F) VO.junk (runL c i xt0 xt1 xt2 fh0 fh1).2.2.1)

/-- That is the stored column itself: the row sums of the first gathered block's squares. -/
theorem out2_eq (c : Dev nD) (i : grid0.Coords)
    (xt0 : BufOf (F := F) c tbM0) (xt1 : BufOf (F := F) c tbM1) (xt2 : BufOf (F := F) c tbM2) (fh0 : BufOf (F := F) c hbM0) (fh1 : BufOf (F := F) c hbM1) :
    out2 c i xt0 xt1 xt2 fh0 fh1 = k0_pay4 (gU c i xt0 fh0) :=
  View.read_writes_whole (Val := Elt F) VO VO.junk (k0_pay4 (gU c i xt0 fh0))

/-- The run lists one store for result window 3, of its whole 128 × 1 block: it covers the block. -/
theorem cover3 (c : Dev nD) (i : grid0.Coords)
    (xt0 : BufOf (F := F) c tbM0) (xt1 : BufOf (F := F) c tbM1) (xt2 : BufOf (F := F) c tbM2) (fh0 : BufOf (F := F) c hbM0) (fh1 : BufOf (F := F) c hbM1) (y : S128x1.Idx) :
    ∃ pc ∈ (runL c i xt0 xt1 xt2 fh0 fh1).2.2.2.1, y ∈ pc.1.set :=
  cover_whole (k0_pay5 (gVi c i xt1 fh1)) y

/-- What the run leaves in result window 3's staging buffer: its store read back over junk. -/
def out3 (c : Dev nD) (i : grid0.Coords)
    (xt0 : BufOf (F := F) c tbM0) (xt1 : BufOf (F := F) c tbM1) (xt2 : BufOf (F := F) c tbM2) (fh0 : BufOf (F := F) c hbM0) (fh1 : BufOf (F := F) c hbM1) : Vec F S128x1 .f32 :=
  VO.read (Elt F) (VO.writes (Elt F) VO.junk (runL c i xt0 xt1 xt2 fh0 fh1).2.2.2.1)

/-- That is the stored column itself: the row sums of the second gathered block's squares. -/
theorem out3_eq (c : Dev nD) (i : grid0.Coords)
    (xt0 : BufOf (F := F) c tbM0) (xt1 : BufOf (F := F) c tbM1) (xt2 : BufOf (F := F) c tbM2) (fh0 : BufOf (F := F) c hbM0) (fh1 : BufOf (F := F) c hbM1) :
    out3 c i xt0 xt1 xt2 fh0 fh1 = k0_pay5 (gVi c i xt1 fh1) :=
  View.read_writes_whole (Val := Elt F) VO VO.junk (k0_pay5 (gVi c i xt1 fh1))

/-- The run lists one store for result window 4, of its whole 128 × 1 block: it covers the block. -/
theorem cover4 (c : Dev nD) (i : grid0.Coords)
    (xt0 : BufOf (F := F) c tbM0) (xt1 : BufOf (F := F) c tbM1) (xt2 : BufOf (F := F) c tbM2) (fh0 : BufOf (F := F) c hbM0) (fh1 : BufOf (F := F) c hbM1) (y : S128x1.Idx) :
    ∃ pc ∈ (runL c i xt0 xt1 xt2 fh0 fh1).2.2.2.2, y ∈ pc.1.set :=
  cover_whole (k0_pay1 (k0_pay6 (gVj c i xt2 fh1))) y

/-- What the run leaves in result window 4's staging buffer: its store read back over junk. -/
def out4 (c : Dev nD) (i : grid0.Coords)
    (xt0 : BufOf (F := F) c tbM0) (xt1 : BufOf (F := F) c tbM1) (xt2 : BufOf (F := F) c tbM2) (fh0 : BufOf (F := F) c hbM0) (fh1 : BufOf (F := F) c hbM1) : Vec F S128x1 .f32 :=
  VO.read (Elt F) (VO.writes (Elt F) VO.junk (runL c i xt0 xt1 xt2 fh0 fh1).2.2.2.2)

/-- That is the stored column itself: the row sums of the third gathered block's squares. -/
theorem out4_eq (c : Dev nD) (i : grid0.Coords)
    (xt0 : BufOf (F := F) c tbM0) (xt1 : BufOf (F := F) c tbM1) (xt2 : BufOf (F := F) c tbM2) (fh0 : BufOf (F := F) c hbM0) (fh1 : BufOf (F := F) c hbM1) :
    out4 c i xt0 xt1 xt2 fh0 fh1 = k0_pay1 (k0_pay6 (gVj c i xt2 fh1)) :=
  View.read_writes_whole (Val := Elt F) VO VO.junk (k0_pay1 (k0_pay6 (gVj c i xt2 fh1)))

/-- The certificate's precondition gives the tables' hypothesis: every entry of each index vector, read as a natural
    number, is below the row count of the table it indexes, so every word the body reads addresses a row. -/
theorem tblOk_of_pre [hP : Cert.Pre_finite_inputs.Facts]
    (h : ∀ c : Dev nD, Cert.Pre_finite_inputs.fn (F := F) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) = fun _ => 1#1) :
    TblOk m := by
  obtain ⟨hu, hi, hj⟩ := rows_of_fn (F := F) (0 : Dev nD) (m (((0 : Dev nD).tc : Thread nD τ).loc main_arg0)) (m (((0 : Dev nD).tc : Thread nD τ).loc main_arg1))
    (tbl m 0) (tbl m 1) (tbl m 2) (h 0)
  exact ⟨hu, hi, hj⟩

/-! ## The pipeline's proof data -/

/-- The proof data of the one pipeline on core `c`: the result arrays as the region finds them; after the body at point
    `t` each result window's buffer at what the run left; the invariant — the scratch buffers, the register, the own cells
    at zero, the data tables at their entry contents, and the index tables' halves —; nothing owed; full shares. -/
def dats (hT : TblOk m) (_ : Fin 1) (c : Dev nD) : Dat τ (Elt F) Unit ℕ (Pipeline.UD sig nD τ) ℕ (cfgM m) c where
  A w := V m c (Pipeline.arrRef spec0 w)
  after w t := match w with
    | ⟨0, _⟩ => out0 c (grid0.coords t) (tbl m 0) (tbl m 1) (tbl m 2) (V m c main_arg0) (V m c main_arg1)
    | ⟨1, _⟩ => out1 c (grid0.coords t) (tbl m 0) (tbl m 1) (tbl m 2) (V m c main_arg0) (V m c main_arg1)
    | ⟨2, _⟩ => out2 c (grid0.coords t) (tbl m 0) (tbl m 1) (tbl m 2) (V m c main_arg0) (V m c main_arg1)
    | ⟨3, _⟩ => out3 c (grid0.coords t) (tbl m 0) (tbl m 1) (tbl m 2) (V m c main_arg0) (V m c main_arg1)
    | ⟨4, _⟩ => out4 c (grid0.coords t) (tbl m 0) (tbl m 1) (tbl m 2) (V m c main_arg0) (V m c main_arg1)
  Φ _ := iprop(Pipeline.ΦD osem0 spec0 H0 (V m) c ∗ Pipeline.ΦT pre0 (tbl m) c)
  q _ := fullShare
  owed _ := 0

-- from here on everything is stated under the tables' hypothesis: the proof data is, and the body's run needs it at every point
variable (hT : TblOk m)
include hT

/-- The proof data's arrays are the region-entry contents. -/
theorem A_eq (c : Dev nD) (w : Fin (cfgM m).W) : (dats m hT 0 c).A w = V m c (Pipeline.arrRef spec0 w) := by
  dsimp only [dats]

/-- What the body leaves, window by window. -/
theorem after0 (c : Dev nD) (t : Fin (cfgM m).N) : (dats m hT 0 c).after 0 t = out0 c (grid0.coords t) (tbl m 0) (tbl m 1) (tbl m 2) (V m c main_arg0) (V m c main_arg1) := by dsimp only [dats]; try rfl
theorem after1 (c : Dev nD) (t : Fin (cfgM m).N) : (dats m hT 0 c).after 1 t = out1 c (grid0.coords t) (tbl m 0) (tbl m 1) (tbl m 2) (V m c main_arg0) (V m c main_arg1) := by dsimp only [dats]; try rfl
theorem after2 (c : Dev nD) (t : Fin (cfgM m).N) : (dats m hT 0 c).after 2 t = out2 c (grid0.coords t) (tbl m 0) (tbl m 1) (tbl m 2) (V m c main_arg0) (V m c main_arg1) := by dsimp only [dats]; try rfl
theorem after3 (c : Dev nD) (t : Fin (cfgM m).N) : (dats m hT 0 c).after 3 t = out3 c (grid0.coords t) (tbl m 0) (tbl m 1) (tbl m 2) (V m c main_arg0) (V m c main_arg1) := by dsimp only [dats]; try rfl
theorem after4 (c : Dev nD) (t : Fin (cfgM m).N) : (dats m hT 0 c).after 4 t = out4 c (grid0.coords t) (tbl m 0) (tbl m 1) (tbl m 2) (V m c main_arg0) (V m c main_arg1) := by dsimp only [dats]; try rfl

/-! ## The body obligation, at a generic point -/

/-- What the body is called with at point `t`, the windows one by one, -/
def bodyPre (c : Dev nD) (t : Fin (cfgM m).N) : sProp 𝕄 :=
  iprop((dats m hT 0 c).Φ t.castSucc ∗ (dats m hT 0 c).owesAt () t.castSucc
    ∗ (∃ d, owns (c : Thread nD τ) (ms0_0 m t) fullShare ((dats m hT 0 c).before 0 t d))
    ∗ (∃ d, owns (c : Thread nD τ) (ms0_1 m t) fullShare ((dats m hT 0 c).before 1 t d))
    ∗ (∃ d, owns (c : Thread nD τ) (ms0_2 m t) fullShare ((dats m hT 0 c).before 2 t d))
    ∗ (∃ d, owns (c : Thread nD τ) (ms0_3 m t) fullShare ((dats m hT 0 c).before 3 t d))
    ∗ (∃ d, owns (c : Thread nD τ) (ms0_4 m t) fullShare ((dats m hT 0 c).before 4 t d)))

/-- and what it returns. -/
def bodyPost (c : Dev nD) (t : Fin (cfgM m).N) : sProp 𝕄 :=
  iprop((dats m hT 0 c).Φ t.succ ∗ (dats m hT 0 c).owesAt () t.succ
    ∗ owns (c : Thread nD τ) (ms0_0 m t) fullShare ((dats m hT 0 c).after 0 t)
    ∗ owns (c : Thread nD τ) (ms0_1 m t) fullShare ((dats m hT 0 c).after 1 t)
    ∗ owns (c : Thread nD τ) (ms0_2 m t) fullShare ((dats m hT 0 c).after 2 t)
    ∗ owns (c : Thread nD τ) (ms0_3 m t) fullShare ((dats m hT 0 c).after 3 t)
    ∗ owns (c : Thread nD τ) (ms0_4 m t) fullShare ((dats m hT 0 c).after 4 t))

/-- The body at any point, run to any continuation that takes what it returns: whatever the result windows' buffers hold,
    the run applies; the invariant hands the body its scratch, the register, its cells at zero, the data tables and the index
    tables' halves, and takes them back as they were; the core's record of waits goes in at whatever the points before left
    and comes back with this point's waits. -/
theorem sound_body (c : Dev nD) (t : Fin (cfgM m).N) (K : PUnit → sProp 𝕄) :
    iprop(bodyPre m hT c t ∗ (bodyPost m hT c t -∗ K ⟨⟩))
      ⊢ wp frame (wpE (defs₀ (F := F)) Variants.none c none) Set.univ (bodyAt0 m t) K := by
  unfold bodyPre bodyPost bodyAt0
  rw [show (dats m hT 0 c).Φ t.succ = (dats m hT 0 c).Φ t.castSucc from rfl,
    after0, after1, after2, after3, after4]
  rw [show (dats m hT 0 c).Φ t.castSucc = iprop(Pipeline.ΦD osem0 spec0 H0 (V m) c ∗ Pipeline.ΦT pre0 (tbl m) c) from rfl, PhiD0_eq, PhiT0_eq]
  unfold Dat.owesAt Pipeline.owesWithin
  rw [show (dats m hT 0 c).owed t.castSucc = 0 from rfl, show (dats m hT 0 c).owed t.succ = 0 from rfl]
  unfold out0 out1 out2 out3 out4
  iintro ⟨⟨⟨⟨⟨HS0, HS1, HS2⟩, Hg, Hq, ⟨Hh0, Hh1⟩⟩, ⟨HT0, HT1, HT2⟩⟩, ⟨%W, -, HW⟩, ⟨%d0, H0⟩, ⟨%d1, H1⟩, ⟨%d2, H2⟩, ⟨%d3, H3⟩, ⟨%d4, H4⟩⟩, Hk⟩
  iapply (kernelRun_spec c (grid0.coords t) (ms0_0 m t) (hs0_0 m t) (ms0_1 m t) (hs0_1 m t) (ms0_2 m t) (hs0_2 m t) (ms0_3 m t) (hs0_3 m t) (ms0_4 m t) (hs0_4 m t) (tbl m 0) (tbl m 1) (tbl m 2) (V m c main_arg0) (V m c main_arg1) hT.u hT.i hT.j W K)
  isplitl [H0]; · iexists _; iexact H0
  isplitl [H1]; · iexists _; iexact H1
  isplitl [H2]; · iexists _; iexact H2
  isplitl [H3]; · iexists _; iexact H3
  isplitl [H4]; · iexists _; iexact H4
  isplitl [HS0]; · iexact HS0
  isplitl [HS1]; · iexact HS1
  isplitl [HS2]; · iexact HS2
  isplitl [Hq]; · iexact Hq
  isplitl [HT0]; · iexact HT0
  isplitl [HT1]; · iexact HT1
  isplitl [HT2]; · iexact HT2
  isplitl [Hh0]; · iexact Hh0
  isplitl [Hh1]; · iexact Hh1
  isplitl [HW]; · iexact HW
  iintro ⟨⟨%e0, H0⟩, ⟨%e1, H1⟩, ⟨%e2, H2⟩, ⟨%e3, H3⟩, ⟨%e4, H4⟩, HS0, HS1, HS2, Hq, HT0, HT1, HT2, Hh0, Hh1, ⟨%W', HW'⟩⟩
  iapply Hk
  isplitl [HS0 HS1 HS2 Hg Hq Hh0 Hh1 HT0 HT1 HT2]
  · isplitl [HS0 HS1 HS2 Hg Hq Hh0 Hh1]
    · isplitl [HS0 HS1 HS2]
      · isplitl [HS0]; · iexact HS0
        isplitl [HS1]; · iexact HS1
        iexact HS2
      isplitl [Hg]; · iexact Hg
      isplitl [Hq]; · iexact Hq
      isplitl [Hh0]; · iexact Hh0
      iexact Hh1
    isplitl [HT0]; · iexact HT0
    isplitl [HT1]; · iexact HT1
    iexact HT2
  isplitl [HW']
  · iexists W'; isplitr; · ipureintro; exact fun _ _ => Or.inl trivial
    iexact HW'
  isplitl [H0]
  · unfold owns; iexists _; isplitr
    swap; · iexact H0
    ipureintro; exact View.read_writes_of_cover _ _ _ _ _ (cover0 c _ _ _ _ _ _)
  isplitl [H1]
  · unfold owns; iexists _; isplitr
    swap; · iexact H1
    ipureintro; exact View.read_writes_of_cover _ _ _ _ _ (cover1 c _ _ _ _ _ _)
  isplitl [H2]
  · unfold owns; iexists _; isplitr
    swap; · iexact H2
    ipureintro; exact View.read_writes_of_cover _ _ _ _ _ (cover2 c _ _ _ _ _ _)
  isplitl [H3]
  · unfold owns; iexists _; isplitr
    swap; · iexact H3
    ipureintro; exact View.read_writes_of_cover _ _ _ _ _ (cover3 c _ _ _ _ _ _)
  unfold owns; iexists _; isplitr
  swap; · iexact H4
  ipureintro; exact View.read_writes_of_cover _ _ _ _ _ (cover4 c _ _ _ _ _ _)

omit hT in
/-- The body the pipeline calls at point `t` — its label's program on the point and the current staging slots — is the
    kernel body on the operands named above. -/
theorem bodyAt0_eq (t : Fin (cfgM m).N) :
    (defs₀ (F := F)) .tc (cfgM m).body ((cfgM m).bodyArgs t ((cfgM m).slots t)) = bodyAt0 m t := rfl

/-- The library's body obligation, at every point. -/
theorem body_obligation (c : Dev nD) : BodyObligation (dats (F := F) m hT 0 c) (defs₀ (F := F)) Variants.none () Set.univ := fun t => by
  rw [bigSep_W0, bigSep_W0, bodyAt0_eq]
  -- the windows' conjuncts are the stated ones case by case: no window is forgotten and no point is idle
  iintro H
  iapply (sound_body m hT c t _)
  isplitl [H]
  · unfold bodyPre; iexact H
  iintro H
  unfold bodyPost; iexact H

/-! ## The run -/

set_option backward.isDefEq.respectTransparency.types false in
/-- At the compiled mesh, for any values, from any memory with zero counters whose index tables address rows: every weakly
    fair execution of @main on the TensorCores terminates, and every final state has every result array of the pipeline at
    what the library computes from the proof data and every other unscoped buffer as the host stretches after the region
    leave it — the two data tables and the index tables as the region found them. -/
theorem run_main : θ_run defs (onTc (τ := τ) (main (F := F))) (s₀ m ρ)
    (Pipeline.FramePost (Pipeline.pin pcfgs fun _ => adm m) (dats m hT) 0
      (Pipeline.afterTail pcfgs (fun _ => adm m) (dats m hT) 0 (V0 m) [hostOps1, hostOps1_1, hostOps1_2])) :=
  Pipeline.θ_run_frameP_dma_around pcfgs (fun _ => adm m) (dats m hT) (0 : Fin 1) launch0 osem0 defs₀ Variants.none ownSemFacts0 H0 H0_sub m ρ main
    (hbody := fun c => (body_obligation m hT c).loose) (hshare := fun c => (dats m hT 0 c).share_full fun _ => rfl)
    (howed := fun _ _ => rfl) (V₀ := V0 m) (opss := [hostOps1, hostOps1_1, hostOps1_2]) (hsub := sfx_sub) (hfresh := sfx_fresh) (hkeep := sfx_keeps)
    (hmain := hmain m Variants.none) (hA := A_eq m hT) (hpf := V_pre m)
    (hin := fun _ => .rfl) (hout := fun c => by change iprop(_ ∗ _) ⊢ _; iintro ⟨H, -⟩; iexact H)

/-- THE FRAME: every weakly fair execution terminates, nothing faulting, and the five argument arrays end as they were —
    none of them is a result array, and no host stretch after the region writes one. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_arg0 (by decide : main_arg0 ∈ Pipeline.restRefs sig spec0)).trans (afterTail_arg0 m c (dats m hT)),
     ((h c).2 main_arg1 (by decide : main_arg1 ∈ Pipeline.restRefs sig spec0)).trans (afterTail_arg1 m c (dats m hT)),
     ((h c).2 main_arg2 (by decide : main_arg2 ∈ Pipeline.restRefs sig spec0)).trans (afterTail_arg2 m c (dats m hT)),
     ((h c).2 main_arg3 (by decide : main_arg3 ∈ Pipeline.restRefs sig spec0)).trans (afterTail_arg3 m c (dats m hT)),
     ((h c).2 main_arg4 (by decide : main_arg4 ∈ Pipeline.restRefs sig spec0)).trans (afterTail_arg4 m c (dats m hT))⟩)
    (run_main m ρ hT)

end Cert.Kernel.Hand

end
-- ==== Proof.KIOps.lean ====
/-
  The operands the kernel body is handed besides its five result windows, named once: the three index tables
  (prefetched into scalar memory), the two data tables left in main memory, the three scratch buffers; and how each
  is held while the body runs — an index table at half the full share (read only; the pipeline keeps the other half),
  a data table whole.
-/
import proofs.«414929_j28089086116333_1_alg».proof.Proof.Gen.KernelIdeal.Launch
import proofs.«414929_j28089086116333_1_alg».proof.Proof.Gen.KernelIdeal.Skeleton
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The operands the body is handed besides its windows -/

/-- The three index tables and the two data tables, whole buffers. -/
abbrev tbM0 : Memref sig .tc .smem S16384 .i32 := Memref.whole main_arg2
abbrev tbM1 : Memref sig .tc .smem S16384 .i32 := Memref.whole main_arg3
abbrev tbM2 : Memref sig .tc .smem S16384 .i32 := Memref.whole main_arg4
abbrev hbM0 : Memref sig .tc .hbm S1000000x64 .f32 := Memref.whole main_arg0
abbrev hbM1 : Memref sig .tc .hbm S500000x64 .f32 := Memref.whole main_arg1
/-- The three scratch buffers. -/
abbrev scM0 : Memref sig .tc .vmem S128x64 .f32 := Memref.whole cc0_scratch0
abbrev scM1 : Memref sig .tc .vmem S128x64 .f32 := Memref.whole cc0_scratch1
abbrev scM2 : Memref sig .tc .vmem S128x64 .f32 := Memref.whole cc0_scratch2

/-- A memref's buffer on core `c`: its contents type; an index table held at half the full share (read only: the
    pipeline keeps the other half), a data table held whole. -/
abbrev BufOf (c : Dev nD) {sp : Space} {S : Shape} {e : EltTy} (M : Memref sig .tc sp S e) : Type := Buf (Elt F) (M.view.loc (c : Thread nD τ))
abbrev tbPt (c : Dev nD) {S : Shape} {e : EltTy} (M : Memref sig .tc .smem S e) (f : BufOf (F := F) c M) : sProp 𝕄 :=
  M.view.loc (c : Thread nD τ) ↦{fullShare.right} f
abbrev hbPt (c : Dev nD) {sp : Space} {S : Shape} {e : EltTy} (M : Memref sig .tc sp S e) (f : BufOf (F := F) c M) : sProp 𝕄 :=
  M.view.loc (c : Thread nD τ) ↦{fullShare} f

end Cert.KernelIdeal.Hand

end
-- ==== Proof.KITok.lean ====
/-
  One array read by many copies at once.

  A buffer held whole can be split into a remainder and any number `k` of READ TOKENS, each a share of the whole
  buffer at the same contents, and joined back.  A copy in flight borrows the token numbered by the semaphore cell it
  completes on, and returns it when it is waited for; so `k` copies out of one table may be in flight together.  Here the
  split is restated as an explicit chain `token (k−1) ∗ … ∗ token 0`, the form in which the tokens can be named one by one.
-/
import proofs.«414929_j28089086116333_1_alg».proof.Proof.KIOps
import Idealize.ShloMosaic.Lib.Transfers

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.Sem

variable {F : FTy → Type} [FloatOps F]

local notation "𝕄" => MT nD τ sig Unit (Elt F) ℕ (Pipeline.UD sig nD τ) ℕ

/-- The separating chain `Φ (k − 1) ∗ … ∗ Φ 1 ∗ Φ 0`. -/
def chainDown (Φ : ℕ → sProp 𝕄) : ℕ → sProp 𝕄
  | 0 => BI.emp
  | 1 => Φ 0
  | k + 2 => iprop(Φ (k + 1) ∗ chainDown Φ (k + 1))

/-- The separating conjunction over `0, …, k − 1` is that chain. -/
theorem bigSep_range_eq_chainDown (Φ : ℕ → sProp 𝕄) : ∀ k, bigSep (Finset.range k) Φ = chainDown Φ k
  | 0 => by rw [Finset.range_zero, bigSep_empty]; rfl
  | 1 => by rw [Finset.range_one, bigSep_singleton]; rfl
  | k + 2 => by
    rw [Finset.range_add_one, bigSep_insert Finset.notMem_range_self, bigSep_range_eq_chainDown Φ (k + 1)]; rfl

/-- A buffer held whole is the remainder after `k` read tokens together with the `k` tokens, as a chain. -/
theorem toks_chain {ℓ : Loc nD τ sig} (f : Buf (Elt F) ℓ) (k : ℕ) :
    (ℓ ↦{fullShare} f : sProp 𝕄)
      ⊣⊢ iprop((ℓ ↦{Transfers.shareDrop fullShare k} f) ∗ chainDown (fun i => (ℓ ↦{Transfers.shareTokN fullShare i} f : sProp 𝕄)) k) := by
  rw [← bigSep_range_eq_chainDown]
  exact Transfers.pointsTo_toks_range fullShare k

end Cert.KernelIdeal.Hand

end
-- ==== Proof.KISems.lean ====
/-
  The kernel's own transfer semaphores: three arrays of 128 cells, one cell per row and per scratch buffer, pool cells
  10 to 393 in order.  Between grid points, and before and after the body, every one of them is at zero: each copy is
  started and waited for inside one run of the body.  `semsZero c` says so, cell by cell, on core `c`.
-/
import proofs.«414929_j28089086116333_1_alg».proof.Proof.KITok

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.Sem

variable {F : FTy → Type} [FloatOps F]

local notation "𝕄" => MT nD τ sig Unit (Elt F) ℕ (Pipeline.UD sig nD τ) ℕ

/-- The 384 own cells, in pool order. -/
abbrev ownCells : List (DmaSem sig) := [10, 11, 12, 13, 14, 15, 16, 17, 18, 19, 20, 21, 22, 23, 24, 25, 26, 27, 28, 29, 30, 31, 32, 33, 34, 35, 36, 37, 38, 39, 40, 41, 42, 43, 44, 45, 46, 47, 48, 49, 50, 51, 52, 53, 54, 55, 56, 57, 58, 59, 60, 61, 62, 63, 64, 65, 66, 67, 68, 69, 70, 71, 72, 73, 74, 75, 76, 77, 78, 79, 80, 81, 82, 83, 84, 85, 86, 87, 88, 89, 90, 91, 92, 93, 94, 95, 96, 97, 98, 99, 100, 101, 102, 103, 104, 105, 106, 107, 108, 109, 110, 111, 112, 113, 114, 115, 116, 117, 118, 119, 120, 121, 122, 123, 124, 125, 126, 127, 128, 129, 130, 131, 132, 133, 134, 135, 136, 137, 138, 139, 140, 141, 142, 143, 144, 145, 146, 147, 148, 149, 150, 151, 152, 153, 154, 155, 156, 157, 158, 159, 160, 161, 162, 163, 164, 165, 166, 167, 168, 169, 170, 171, 172, 173, 174, 175, 176, 177, 178, 179, 180, 181, 182, 183, 184, 185, 186, 187, 188, 189, 190, 191, 192, 193, 194, 195, 196, 197, 198, 199, 200, 201, 202, 203, 204, 205, 206, 207, 208, 209, 210, 211, 212, 213, 214, 215, 216, 217, 218, 219, 220, 221, 222, 223, 224, 225, 226, 227, 228, 229, 230, 231, 232, 233, 234, 235, 236, 237, 238, 239, 240, 241, 242, 243, 244, 245, 246, 247, 248, 249, 250, 251, 252, 253, 254, 255, 256, 257, 258, 259, 260, 261, 262, 263, 264, 265, 266, 267, 268, 269, 270, 271, 272, 273, 274, 275, 276, 277, 278, 279, 280, 281, 282, 283, 284, 285, 286, 287, 288, 289, 290, 291, 292, 293, 294, 295, 296, 297, 298, 299, 300, 301, 302, 303, 304, 305, 306, 307, 308, 309, 310, 311, 312, 313, 314, 315, 316, 317, 318, 319, 320, 321, 322, 323, 324, 325, 326, 327, 328, 329, 330, 331, 332, 333, 334, 335, 336, 337, 338, 339, 340, 341, 342, 343, 344, 345, 346, 347, 348, 349, 350, 351, 352, 353, 354, 355, 356, 357, 358, 359, 360, 361, 362, 363, 364, 365, 366, 367, 368, 369, 370, 371, 372, 373, 374, 375, 376, 377, 378, 379, 380, 381, 382, 383, 384, 385, 386, 387, 388, 389, 390, 391, 392, 393]

/-- Every own cell at zero. -/
def semsZero (c : Dev nD) : sProp 𝕄 :=
  iprop(semVal ((c : Thread nD τ), SemLoc.dma 10) 0
    ∗ semVal ((c : Thread nD τ), SemLoc.dma 11) 0
    ∗ semVal ((c : Thread nD τ), SemLoc.dma 12) 0
    ∗ semVal ((c : Thread nD τ), SemLoc.dma 13) 0
    ∗ semVal ((c : Thread nD τ), SemLoc.dma 14) 0
    ∗ semVal ((c : Thread nD τ), SemLoc.dma 15) 0
    ∗ semVal ((c : Thread nD τ), SemLoc.dma 16) 0
    ∗ semVal ((c : Thread nD τ), SemLoc.dma 17) 0
    ∗ semVal ((c : Thread nD τ), SemLoc.dma 18) 0
    ∗ semVal ((c : Thread nD τ), SemLoc.dma 19) 0
    ∗ semVal ((c : Thread nD τ), SemLoc.dma 20) 0
    ∗ semVal ((c : Thread nD τ), SemLoc.dma 21) 0
    ∗ semVal ((c : Thread nD τ), SemLoc.dma 22) 0
    ∗ semVal ((c : Thread nD τ), SemLoc.dma 23) 0
    ∗ semVal ((c : Thread nD τ), SemLoc.dma 24) 0
    ∗ semVal ((c : Thread nD τ), SemLoc.dma 25) 0
    ∗ semVal ((c : Thread nD τ), SemLoc.dma 26) 0
    ∗ semVal ((c : Thread nD τ), SemLoc.dma 27) 0
    ∗ semVal ((c : Thread nD τ), SemLoc.dma 28) 0
    ∗ semVal ((c : Thread nD τ), SemLoc.dma 29) 0
    ∗ semVal ((c : Thread nD τ), SemLoc.dma 30) 0
    ∗ semVal ((c : Thread nD τ), SemLoc.dma 31) 0
    ∗ semVal ((c : Thread nD τ), SemLoc.dma 32) 0
    ∗ semVal ((c : Thread nD τ), SemLoc.dma 33) 0
    ∗ semVal ((c : Thread nD τ), SemLoc.dma 34) 0
    ∗ semVal ((c : Thread nD τ), SemLoc.dma 35) 0
    ∗ semVal ((c : Thread nD τ), SemLoc.dma 36) 0
    ∗ semVal ((c : Thread nD τ), SemLoc.dma 37) 0
    ∗ semVal ((c : Thread nD τ), SemLoc.dma 38) 0
    ∗ semVal ((c : Thread nD τ), SemLoc.dma 39) 0
    ∗ semVal ((c : Thread nD τ), SemLoc.dma 40) 0
    ∗ semVal ((c : Thread nD τ), SemLoc.dma 41) 0
    ∗ semVal ((c : Thread nD τ), SemLoc.dma 42) 0
    ∗ semVal ((c : Thread nD τ), SemLoc.dma 43) 0
    ∗ semVal ((c : Thread nD τ), SemLoc.dma 44) 0
    ∗ semVal ((c : Thread nD τ), SemLoc.dma 45) 0
    ∗ semVal ((c : Thread nD τ), SemLoc.dma 46) 0
    ∗ semVal ((c : Thread nD τ), SemLoc.dma 47) 0
    ∗ semVal ((c : Thread nD τ), SemLoc.dma 48) 0
    ∗ semVal ((c : Thread nD τ), SemLoc.dma 49) 0
    ∗ semVal ((c : Thread nD τ), SemLoc.dma 50) 0
    ∗ semVal ((c : Thread nD τ), SemLoc.dma 51) 0
    ∗ semVal ((c : Thread nD τ), SemLoc.dma 52) 0
    ∗ semVal ((c : Thread nD τ), SemLoc.dma 53) 0
    ∗ semVal ((c : Thread nD τ), SemLoc.dma 54) 0
    ∗ semVal ((c : Thread nD τ), SemLoc.dma 55) 0
    ∗ semVal ((c : Thread nD τ), SemLoc.dma 56) 0
    ∗ semVal ((c : Thread nD τ), SemLoc.dma 57) 0
    ∗ semVal ((c : Thread nD τ), SemLoc.dma 58) 0
    ∗ semVal ((c : Thread nD τ), SemLoc.dma 59) 0
    ∗ semVal ((c : Thread nD τ), SemLoc.dma 60) 0
    ∗ semVal ((c : Thread nD τ), SemLoc.dma 61) 0
    ∗ semVal ((c : Thread nD τ), SemLoc.dma 62) 0
    ∗ semVal ((c : Thread nD τ), SemLoc.dma 63) 0
    ∗ semVal ((c : Thread nD τ), SemLoc.dma 64) 0
    ∗ semVal ((c : Thread nD τ), SemLoc.dma 65) 0
    ∗ semVal ((c : Thread nD τ), SemLoc.dma 66) 0
    ∗ semVal ((c : Thread nD τ), SemLoc.dma 67) 0
    ∗ semVal ((c : Thread nD τ), SemLoc.dma 68) 0
    ∗ semVal ((c : Thread nD τ), SemLoc.dma 69) 0
    ∗ semVal ((c : Thread nD τ), SemLoc.dma 70) 0
    ∗ semVal ((c : Thread nD τ), SemLoc.dma 71) 0
    ∗ semVal ((c : Thread nD τ), SemLoc.dma 72) 0
    ∗ semVal ((c : Thread nD τ), SemLoc.dma 73) 0
    ∗ semVal ((c : Thread nD τ), SemLoc.dma 74) 0
    ∗ semVal ((c : Thread nD τ), SemLoc.dma 75) 0
    ∗ semVal ((c : Thread nD τ), SemLoc.dma 76) 0
    ∗ semVal ((c : Thread nD τ), SemLoc.dma 77) 0
    ∗ semVal ((c : Thread nD τ), SemLoc.dma 78) 0
    ∗ semVal ((c : Thread nD τ), SemLoc.dma 79) 0
    ∗ semVal ((c : Thread nD τ), SemLoc.dma 80) 0
    ∗ semVal ((c : Thread nD τ), SemLoc.dma 81) 0
    ∗ semVal ((c : Thread nD τ), SemLoc.dma 82) 0
    ∗ semVal ((c : Thread nD τ), SemLoc.dma 83) 0
    ∗ semVal ((c : Thread nD τ), SemLoc.dma 84) 0
    ∗ semVal ((c : Thread nD τ), SemLoc.dma 85) 0
    ∗ semVal ((c : Thread nD τ), SemLoc.dma 86) 0
    ∗ semVal ((c : Thread nD τ), SemLoc.dma 87) 0
    ∗ semVal ((c : Thread nD τ), SemLoc.dma 88) 0
    ∗ semVal ((c : Thread nD τ), SemLoc.dma 89) 0
    ∗ semVal ((c : Thread nD τ), SemLoc.dma 90) 0
    ∗ semVal ((c : Thread nD τ), SemLoc.dma 91) 0
    ∗ semVal ((c : Thread nD τ), SemLoc.dma 92) 0
    ∗ semVal ((c : Thread nD τ), SemLoc.dma 93) 0
    ∗ semVal ((c : Thread nD τ), SemLoc.dma 94) 0
    ∗ semVal ((c : Thread nD τ), SemLoc.dma 95) 0
    ∗ semVal ((c : Thread nD τ), SemLoc.dma 96) 0
    ∗ semVal ((c : Thread nD τ), SemLoc.dma 97) 0
    ∗ semVal ((c : Thread nD τ), SemLoc.dma 98) 0
    ∗ semVal ((c : Thread nD τ), SemLoc.dma 99) 0
    ∗ semVal ((c : Thread nD τ), SemLoc.dma 100) 0
    ∗ semVal ((c : Thread nD τ), SemLoc.dma 101) 0
    ∗ semVal ((c : Thread nD τ), SemLoc.dma 102) 0
    ∗ semVal ((c : Thread nD τ), SemLoc.dma 103) 0
    ∗ semVal ((c : Thread nD τ), SemLoc.dma 104) 0
    ∗ semVal ((c : Thread nD τ), SemLoc.dma 105) 0
    ∗ semVal ((c : Thread nD τ), SemLoc.dma 106) 0
    ∗ semVal ((c : Thread nD τ), SemLoc.dma 107) 0
    ∗ semVal ((c : Thread nD τ), SemLoc.dma 108) 0
    ∗ semVal ((c : Thread nD τ), SemLoc.dma 109) 0
    ∗ semVal ((c : Thread nD τ), SemLoc.dma 110) 0
    ∗ semVal ((c : Thread nD τ), SemLoc.dma 111) 0
    ∗ semVal ((c : Thread nD τ), SemLoc.dma 112) 0
    ∗ semVal ((c : Thread nD τ), SemLoc.dma 113) 0
    ∗ semVal ((c : Thread nD τ), SemLoc.dma 114) 0
    ∗ semVal ((c : Thread nD τ), SemLoc.dma 115) 0
    ∗ semVal ((c : Thread nD τ), SemLoc.dma 116) 0
    ∗ semVal ((c : Thread nD τ), SemLoc.dma 117) 0
    ∗ semVal ((c : Thread nD τ), SemLoc.dma 118) 0
    ∗ semVal ((c : Thread nD τ), SemLoc.dma 119) 0
    ∗ semVal ((c : Thread nD τ), SemLoc.dma 120) 0
    ∗ semVal ((c : Thread nD τ), SemLoc.dma 121) 0
    ∗ semVal ((c : Thread nD τ), SemLoc.dma 122) 0
    ∗ semVal ((c : Thread nD τ), SemLoc.dma 123) 0
    ∗ semVal ((c : Thread nD τ), SemLoc.dma 124) 0
    ∗ semVal ((c : Thread nD τ), SemLoc.dma 125) 0
    ∗ semVal ((c : Thread nD τ), SemLoc.dma 126) 0
    ∗ semVal ((c : Thread nD τ), SemLoc.dma 127) 0
    ∗ semVal ((c : Thread nD τ), SemLoc.dma 128) 0
    ∗ semVal ((c : Thread nD τ), SemLoc.dma 129) 0
    ∗ semVal ((c : Thread nD τ), SemLoc.dma 130) 0
    ∗ semVal ((c : Thread nD τ), SemLoc.dma 131) 0
    ∗ semVal ((c : Thread nD τ), SemLoc.dma 132) 0
    ∗ semVal ((c : Thread nD τ), SemLoc.dma 133) 0
    ∗ semVal ((c : Thread nD τ), SemLoc.dma 134) 0
    ∗ semVal ((c : Thread nD τ), SemLoc.dma 135) 0
    ∗ semVal ((c : Thread nD τ), SemLoc.dma 136) 0
    ∗ semVal ((c : Thread nD τ), SemLoc.dma 137) 0
    ∗ semVal ((c : Thread nD τ), SemLoc.dma 138) 0
    ∗ semVal ((c : Thread nD τ), SemLoc.dma 139) 0
    ∗ semVal ((c : Thread nD τ), SemLoc.dma 140) 0
    ∗ semVal ((c : Thread nD τ), SemLoc.dma 141) 0
    ∗ semVal ((c : Thread nD τ), SemLoc.dma 142) 0
    ∗ semVal ((c : Thread nD τ), SemLoc.dma 143) 0
    ∗ semVal ((c : Thread nD τ), SemLoc.dma 144) 0
    ∗ semVal ((c : Thread nD τ), SemLoc.dma 145) 0
    ∗ semVal ((c : Thread nD τ), SemLoc.dma 146) 0
    ∗ semVal ((c : Thread nD τ), SemLoc.dma 147) 0
    ∗ semVal ((c : Thread nD τ), SemLoc.dma 148) 0
    ∗ semVal ((c : Thread nD τ), SemLoc.dma 149) 0
    ∗ semVal ((c : Thread nD τ), SemLoc.dma 150) 0
    ∗ semVal ((c : Thread nD τ), SemLoc.dma 151) 0
    ∗ semVal ((c : Thread nD τ), SemLoc.dma 152) 0
    ∗ semVal ((c : Thread nD τ), SemLoc.dma 153) 0
    ∗ semVal ((c : Thread nD τ), SemLoc.dma 154) 0
    ∗ semVal ((c : Thread nD τ), SemLoc.dma 155) 0
    ∗ semVal ((c : Thread nD τ), SemLoc.dma 156) 0
    ∗ semVal ((c : Thread nD τ), SemLoc.dma 157) 0
    ∗ semVal ((c : Thread nD τ), SemLoc.dma 158) 0
    ∗ semVal ((c : Thread nD τ), SemLoc.dma 159) 0
    ∗ semVal ((c : Thread nD τ), SemLoc.dma 160) 0
    ∗ semVal ((c : Thread nD τ), SemLoc.dma 161) 0
    ∗ semVal ((c : Thread nD τ), SemLoc.dma 162) 0
    ∗ semVal ((c : Thread nD τ), SemLoc.dma 163) 0
    ∗ semVal ((c : Thread nD τ), SemLoc.dma 164) 0
    ∗ semVal ((c : Thread nD τ), SemLoc.dma 165) 0
    ∗ semVal ((c : Thread nD τ), SemLoc.dma 166) 0
    ∗ semVal ((c : Thread nD τ), SemLoc.dma 167) 0
    ∗ semVal ((c : Thread nD τ), SemLoc.dma 168) 0
    ∗ semVal ((c : Thread nD τ), SemLoc.dma 169) 0
    ∗ semVal ((c : Thread nD τ), SemLoc.dma 170) 0
    ∗ semVal ((c : Thread nD τ), SemLoc.dma 171) 0
    ∗ semVal ((c : Thread nD τ), SemLoc.dma 172) 0
    ∗ semVal ((c : Thread nD τ), SemLoc.dma 173) 0
    ∗ semVal ((c : Thread nD τ), SemLoc.dma 174) 0
    ∗ semVal ((c : Thread nD τ), SemLoc.dma 175) 0
    ∗ semVal ((c : Thread nD τ), SemLoc.dma 176) 0
    ∗ semVal ((c : Thread nD τ), SemLoc.dma 177) 0
    ∗ semVal ((c : Thread nD τ), SemLoc.dma 178) 0
    ∗ semVal ((c : Thread nD τ), SemLoc.dma 179) 0
    ∗ semVal ((c : Thread nD τ), SemLoc.dma 180) 0
    ∗ semVal ((c : Thread nD τ), SemLoc.dma 181) 0
    ∗ semVal ((c : Thread nD τ), SemLoc.dma 182) 0
    ∗ semVal ((c : Thread nD τ), SemLoc.dma 183) 0
    ∗ semVal ((c : Thread nD τ), SemLoc.dma 184) 0
    ∗ semVal ((c : Thread nD τ), SemLoc.dma 185) 0
    ∗ semVal ((c : Thread nD τ), SemLoc.dma 186) 0
    ∗ semVal ((c : Thread nD τ), SemLoc.dma 187) 0
    ∗ semVal ((c : Thread nD τ), SemLoc.dma 188) 0
    ∗ semVal ((c : Thread nD τ), SemLoc.dma 189) 0
    ∗ semVal ((c : Thread nD τ), SemLoc.dma 190) 0
    ∗ semVal ((c : Thread nD τ), SemLoc.dma 191) 0
    ∗ semVal ((c : Thread nD τ), SemLoc.dma 192) 0
    ∗ semVal ((c : Thread nD τ), SemLoc.dma 193) 0
    ∗ semVal ((c : Thread nD τ), SemLoc.dma 194) 0
    ∗ semVal ((c : Thread nD τ), SemLoc.dma 195) 0
    ∗ semVal ((c : Thread nD τ), SemLoc.dma 196) 0
    ∗ semVal ((c : Thread nD τ), SemLoc.dma 197) 0
    ∗ semVal ((c : Thread nD τ), SemLoc.dma 198) 0
    ∗ semVal ((c : Thread nD τ), SemLoc.dma 199) 0
    ∗ semVal ((c : Thread nD τ), SemLoc.dma 200) 0
    ∗ semVal ((c : Thread nD τ), SemLoc.dma 201) 0
    ∗ semVal ((c : Thread nD τ), SemLoc.dma 202) 0
    ∗ semVal ((c : Thread nD τ), SemLoc.dma 203) 0
    ∗ semVal ((c : Thread nD τ), SemLoc.dma 204) 0
    ∗ semVal ((c : Thread nD τ), SemLoc.dma 205) 0
    ∗ semVal ((c : Thread nD τ), SemLoc.dma 206) 0
    ∗ semVal ((c : Thread nD τ), SemLoc.dma 207) 0
    ∗ semVal ((c : Thread nD τ), SemLoc.dma 208) 0
    ∗ semVal ((c : Thread nD τ), SemLoc.dma 209) 0
    ∗ semVal ((c : Thread nD τ), SemLoc.dma 210) 0
    ∗ semVal ((c : Thread nD τ), SemLoc.dma 211) 0
    ∗ semVal ((c : Thread nD τ), SemLoc.dma 212) 0
    ∗ semVal ((c : Thread nD τ), SemLoc.dma 213) 0
    ∗ semVal ((c : Thread nD τ), SemLoc.dma 214) 0
    ∗ semVal ((c : Thread nD τ), SemLoc.dma 215) 0
    ∗ semVal ((c : Thread nD τ), SemLoc.dma 216) 0
    ∗ semVal ((c : Thread nD τ), SemLoc.dma 217) 0
    ∗ semVal ((c : Thread nD τ), SemLoc.dma 218) 0
    ∗ semVal ((c : Thread nD τ), SemLoc.dma 219) 0
    ∗ semVal ((c : Thread nD τ), SemLoc.dma 220) 0
    ∗ semVal ((c : Thread nD τ), SemLoc.dma 221) 0
    ∗ semVal ((c : Thread nD τ), SemLoc.dma 222) 0
    ∗ semVal ((c : Thread nD τ), SemLoc.dma 223) 0
    ∗ semVal ((c : Thread nD τ), SemLoc.dma 224) 0
    ∗ semVal ((c : Thread nD τ), SemLoc.dma 225) 0
    ∗ semVal ((c : Thread nD τ), SemLoc.dma 226) 0
    ∗ semVal ((c : Thread nD τ), SemLoc.dma 227) 0
    ∗ semVal ((c : Thread nD τ), SemLoc.dma 228) 0
    ∗ semVal ((c : Thread nD τ), SemLoc.dma 229) 0
    ∗ semVal ((c : Thread nD τ), SemLoc.dma 230) 0
    ∗ semVal ((c : Thread nD τ), SemLoc.dma 231) 0
    ∗ semVal ((c : Thread nD τ), SemLoc.dma 232) 0
    ∗ semVal ((c : Thread nD τ), SemLoc.dma 233) 0
    ∗ semVal ((c : Thread nD τ), SemLoc.dma 234) 0
    ∗ semVal ((c : Thread nD τ), SemLoc.dma 235) 0
    ∗ semVal ((c : Thread nD τ), SemLoc.dma 236) 0
    ∗ semVal ((c : Thread nD τ), SemLoc.dma 237) 0
    ∗ semVal ((c : Thread nD τ), SemLoc.dma 238) 0
    ∗ semVal ((c : Thread nD τ), SemLoc.dma 239) 0
    ∗ semVal ((c : Thread nD τ), SemLoc.dma 240) 0
    ∗ semVal ((c : Thread nD τ), SemLoc.dma 241) 0
    ∗ semVal ((c : Thread nD τ), SemLoc.dma 242) 0
    ∗ semVal ((c : Thread nD τ), SemLoc.dma 243) 0
    ∗ semVal ((c : Thread nD τ), SemLoc.dma 244) 0
    ∗ semVal ((c : Thread nD τ), SemLoc.dma 245) 0
    ∗ semVal ((c : Thread nD τ), SemLoc.dma 246) 0
    ∗ semVal ((c : Thread nD τ), SemLoc.dma 247) 0
    ∗ semVal ((c : Thread nD τ), SemLoc.dma 248) 0
    ∗ semVal ((c : Thread nD τ), SemLoc.dma 249) 0
    ∗ semVal ((c : Thread nD τ), SemLoc.dma 250) 0
    ∗ semVal ((c : Thread nD τ), SemLoc.dma 251) 0
    ∗ semVal ((c : Thread nD τ), SemLoc.dma 252) 0
    ∗ semVal ((c : Thread nD τ), SemLoc.dma 253) 0
    ∗ semVal ((c : Thread nD τ), SemLoc.dma 254) 0
    ∗ semVal ((c : Thread nD τ), SemLoc.dma 255) 0
    ∗ semVal ((c : Thread nD τ), SemLoc.dma 256) 0
    ∗ semVal ((c : Thread nD τ), SemLoc.dma 257) 0
    ∗ semVal ((c : Thread nD τ), SemLoc.dma 258) 0
    ∗ semVal ((c : Thread nD τ), SemLoc.dma 259) 0
    ∗ semVal ((c : Thread nD τ), SemLoc.dma 260) 0
    ∗ semVal ((c : Thread nD τ), SemLoc.dma 261) 0
    ∗ semVal ((c : Thread nD τ), SemLoc.dma 262) 0
    ∗ semVal ((c : Thread nD τ), SemLoc.dma 263) 0
    ∗ semVal ((c : Thread nD τ), SemLoc.dma 264) 0
    ∗ semVal ((c : Thread nD τ), SemLoc.dma 265) 0
    ∗ semVal ((c : Thread nD τ), SemLoc.dma 266) 0
    ∗ semVal ((c : Thread nD τ), SemLoc.dma 267) 0
    ∗ semVal ((c : Thread nD τ), SemLoc.dma 268) 0
    ∗ semVal ((c : Thread nD τ), SemLoc.dma 269) 0
    ∗ semVal ((c : Thread nD τ), SemLoc.dma 270) 0
    ∗ semVal ((c : Thread nD τ), SemLoc.dma 271) 0
    ∗ semVal ((c : Thread nD τ), SemLoc.dma 272) 0
    ∗ semVal ((c : Thread nD τ), SemLoc.dma 273) 0
    ∗ semVal ((c : Thread nD τ), SemLoc.dma 274) 0
    ∗ semVal ((c : Thread nD τ), SemLoc.dma 275) 0
    ∗ semVal ((c : Thread nD τ), SemLoc.dma 276) 0
    ∗ semVal ((c : Thread nD τ), SemLoc.dma 277) 0
    ∗ semVal ((c : Thread nD τ), SemLoc.dma 278) 0
    ∗ semVal ((c : Thread nD τ), SemLoc.dma 279) 0
    ∗ semVal ((c : Thread nD τ), SemLoc.dma 280) 0
    ∗ semVal ((c : Thread nD τ), SemLoc.dma 281) 0
    ∗ semVal ((c : Thread nD τ), SemLoc.dma 282) 0
    ∗ semVal ((c : Thread nD τ), SemLoc.dma 283) 0
    ∗ semVal ((c : Thread nD τ), SemLoc.dma 284) 0
    ∗ semVal ((c : Thread nD τ), SemLoc.dma 285) 0
    ∗ semVal ((c : Thread nD τ), SemLoc.dma 286) 0
    ∗ semVal ((c : Thread nD τ), SemLoc.dma 287) 0
    ∗ semVal ((c : Thread nD τ), SemLoc.dma 288) 0
    ∗ semVal ((c : Thread nD τ), SemLoc.dma 289) 0
    ∗ semVal ((c : Thread nD τ), SemLoc.dma 290) 0
    ∗ semVal ((c : Thread nD τ), SemLoc.dma 291) 0
    ∗ semVal ((c : Thread nD τ), SemLoc.dma 292) 0
    ∗ semVal ((c : Thread nD τ), SemLoc.dma 293) 0
    ∗ semVal ((c : Thread nD τ), SemLoc.dma 294) 0
    ∗ semVal ((c : Thread nD τ), SemLoc.dma 295) 0
    ∗ semVal ((c : Thread nD τ), SemLoc.dma 296) 0
    ∗ semVal ((c : Thread nD τ), SemLoc.dma 297) 0
    ∗ semVal ((c : Thread nD τ), SemLoc.dma 298) 0
    ∗ semVal ((c : Thread nD τ), SemLoc.dma 299) 0
    ∗ semVal ((c : Thread nD τ), SemLoc.dma 300) 0
    ∗ semVal ((c : Thread nD τ), SemLoc.dma 301) 0
    ∗ semVal ((c : Thread nD τ), SemLoc.dma 302) 0
    ∗ semVal ((c : Thread nD τ), SemLoc.dma 303) 0
    ∗ semVal ((c : Thread nD τ), SemLoc.dma 304) 0
    ∗ semVal ((c : Thread nD τ), SemLoc.dma 305) 0
    ∗ semVal ((c : Thread nD τ), SemLoc.dma 306) 0
    ∗ semVal ((c : Thread nD τ), SemLoc.dma 307) 0
    ∗ semVal ((c : Thread nD τ), SemLoc.dma 308) 0
    ∗ semVal ((c : Thread nD τ), SemLoc.dma 309) 0
    ∗ semVal ((c : Thread nD τ), SemLoc.dma 310) 0
    ∗ semVal ((c : Thread nD τ), SemLoc.dma 311) 0
    ∗ semVal ((c : Thread nD τ), SemLoc.dma 312) 0
    ∗ semVal ((c : Thread nD τ), SemLoc.dma 313) 0
    ∗ semVal ((c : Thread nD τ), SemLoc.dma 314) 0
    ∗ semVal ((c : Thread nD τ), SemLoc.dma 315) 0
    ∗ semVal ((c : Thread nD τ), SemLoc.dma 316) 0
    ∗ semVal ((c : Thread nD τ), SemLoc.dma 317) 0
    ∗ semVal ((c : Thread nD τ), SemLoc.dma 318) 0
    ∗ semVal ((c : Thread nD τ), SemLoc.dma 319) 0
    ∗ semVal ((c : Thread nD τ), SemLoc.dma 320) 0
    ∗ semVal ((c : Thread nD τ), SemLoc.dma 321) 0
    ∗ semVal ((c : Thread nD τ), SemLoc.dma 322) 0
    ∗ semVal ((c : Thread nD τ), SemLoc.dma 323) 0
    ∗ semVal ((c : Thread nD τ), SemLoc.dma 324) 0
    ∗ semVal ((c : Thread nD τ), SemLoc.dma 325) 0
    ∗ semVal ((c : Thread nD τ), SemLoc.dma 326) 0
    ∗ semVal ((c : Thread nD τ), SemLoc.dma 327) 0
    ∗ semVal ((c : Thread nD τ), SemLoc.dma 328) 0
    ∗ semVal ((c : Thread nD τ), SemLoc.dma 329) 0
    ∗ semVal ((c : Thread nD τ), SemLoc.dma 330) 0
    ∗ semVal ((c : Thread nD τ), SemLoc.dma 331) 0
    ∗ semVal ((c : Thread nD τ), SemLoc.dma 332) 0
    ∗ semVal ((c : Thread nD τ), SemLoc.dma 333) 0
    ∗ semVal ((c : Thread nD τ), SemLoc.dma 334) 0
    ∗ semVal ((c : Thread nD τ), SemLoc.dma 335) 0
    ∗ semVal ((c : Thread nD τ), SemLoc.dma 336) 0
    ∗ semVal ((c : Thread nD τ), SemLoc.dma 337) 0
    ∗ semVal ((c : Thread nD τ), SemLoc.dma 338) 0
    ∗ semVal ((c : Thread nD τ), SemLoc.dma 339) 0
    ∗ semVal ((c : Thread nD τ), SemLoc.dma 340) 0
    ∗ semVal ((c : Thread nD τ), SemLoc.dma 341) 0
    ∗ semVal ((c : Thread nD τ), SemLoc.dma 342) 0
    ∗ semVal ((c : Thread nD τ), SemLoc.dma 343) 0
    ∗ semVal ((c : Thread nD τ), SemLoc.dma 344) 0
    ∗ semVal ((c : Thread nD τ), SemLoc.dma 345) 0
    ∗ semVal ((c : Thread nD τ), SemLoc.dma 346) 0
    ∗ semVal ((c : Thread nD τ), SemLoc.dma 347) 0
    ∗ semVal ((c : Thread nD τ), SemLoc.dma 348) 0
    ∗ semVal ((c : Thread nD τ), SemLoc.dma 349) 0
    ∗ semVal ((c : Thread nD τ), SemLoc.dma 350) 0
    ∗ semVal ((c : Thread nD τ), SemLoc.dma 351) 0
    ∗ semVal ((c : Thread nD τ), SemLoc.dma 352) 0
    ∗ semVal ((c : Thread nD τ), SemLoc.dma 353) 0
    ∗ semVal ((c : Thread nD τ), SemLoc.dma 354) 0
    ∗ semVal ((c : Thread nD τ), SemLoc.dma 355) 0
    ∗ semVal ((c : Thread nD τ), SemLoc.dma 356) 0
    ∗ semVal ((c : Thread nD τ), SemLoc.dma 357) 0
    ∗ semVal ((c : Thread nD τ), SemLoc.dma 358) 0
    ∗ semVal ((c : Thread nD τ), SemLoc.dma 359) 0
    ∗ semVal ((c : Thread nD τ), SemLoc.dma 360) 0
    ∗ semVal ((c : Thread nD τ), SemLoc.dma 361) 0
    ∗ semVal ((c : Thread nD τ), SemLoc.dma 362) 0
    ∗ semVal ((c : Thread nD τ), SemLoc.dma 363) 0
    ∗ semVal ((c : Thread nD τ), SemLoc.dma 364) 0
    ∗ semVal ((c : Thread nD τ), SemLoc.dma 365) 0
    ∗ semVal ((c : Thread nD τ), SemLoc.dma 366) 0
    ∗ semVal ((c : Thread nD τ), SemLoc.dma 367) 0
    ∗ semVal ((c : Thread nD τ), SemLoc.dma 368) 0
    ∗ semVal ((c : Thread nD τ), SemLoc.dma 369) 0
    ∗ semVal ((c : Thread nD τ), SemLoc.dma 370) 0
    ∗ semVal ((c : Thread nD τ), SemLoc.dma 371) 0
    ∗ semVal ((c : Thread nD τ), SemLoc.dma 372) 0
    ∗ semVal ((c : Thread nD τ), SemLoc.dma 373) 0
    ∗ semVal ((c : Thread nD τ), SemLoc.dma 374) 0
    ∗ semVal ((c : Thread nD τ), SemLoc.dma 375) 0
    ∗ semVal ((c : Thread nD τ), SemLoc.dma 376) 0
    ∗ semVal ((c : Thread nD τ), SemLoc.dma 377) 0
    ∗ semVal ((c : Thread nD τ), SemLoc.dma 378) 0
    ∗ semVal ((c : Thread nD τ), SemLoc.dma 379) 0
    ∗ semVal ((c : Thread nD τ), SemLoc.dma 380) 0
    ∗ semVal ((c : Thread nD τ), SemLoc.dma 381) 0
    ∗ semVal ((c : Thread nD τ), SemLoc.dma 382) 0
    ∗ semVal ((c : Thread nD τ), SemLoc.dma 383) 0
    ∗ semVal ((c : Thread nD τ), SemLoc.dma 384) 0
    ∗ semVal ((c : Thread nD τ), SemLoc.dma 385) 0
    ∗ semVal ((c : Thread nD τ), SemLoc.dma 386) 0
    ∗ semVal ((c : Thread nD τ), SemLoc.dma 387) 0
    ∗ semVal ((c : Thread nD τ), SemLoc.dma 388) 0
    ∗ semVal ((c : Thread nD τ), SemLoc.dma 389) 0
    ∗ semVal ((c : Thread nD τ), SemLoc.dma 390) 0
    ∗ semVal ((c : Thread nD τ), SemLoc.dma 391) 0
    ∗ semVal ((c : Thread nD τ), SemLoc.dma 392) 0
    ∗ semVal ((c : Thread nD τ), SemLoc.dma 393) 0)

set_option maxHeartbeats 8000000 in
/-- The first data table held whole, split into the remainder after 138 read tokens and the tokens, highest first: one token per
    semaphore-cell number below 138. -/
theorem hbU_split (c : Dev nD) (f : BufOf (F := F) c hbM0) :
    hbPt c hbM0 f ⊢ iprop((hbM0.view.loc (c : Thread nD τ) ↦{Transfers.shareDrop fullShare 138} f)
      ∗ (hbM0.view.loc (c : Thread nD τ) ↦{Transfers.shareTokN fullShare 137} f)
      ∗ (hbM0.view.loc (c : Thread nD τ) ↦{Transfers.shareTokN fullShare 136} f)
      ∗ (hbM0.view.loc (c : Thread nD τ) ↦{Transfers.shareTokN fullShare 135} f)
      ∗ (hbM0.view.loc (c : Thread nD τ) ↦{Transfers.shareTokN fullShare 134} f)
      ∗ (hbM0.view.loc (c : Thread nD τ) ↦{Transfers.shareTokN fullShare 133} f)
      ∗ (hbM0.view.loc (c : Thread nD τ) ↦{Transfers.shareTokN fullShare 132} f)
      ∗ (hbM0.view.loc (c : Thread nD τ) ↦{Transfers.shareTokN fullShare 131} f)
      ∗ (hbM0.view.loc (c : Thread nD τ) ↦{Transfers.shareTokN fullShare 130} f)
      ∗ (hbM0.view.loc (c : Thread nD τ) ↦{Transfers.shareTokN fullShare 129} f)
      ∗ (hbM0.view.loc (c : Thread nD τ) ↦{Transfers.shareTokN fullShare 128} f)
      ∗ (hbM0.view.loc (c : Thread nD τ) ↦{Transfers.shareTokN fullShare 127} f)
      ∗ (hbM0.view.loc (c : Thread nD τ) ↦{Transfers.shareTokN fullShare 126} f)
      ∗ (hbM0.view.loc (c : Thread nD τ) ↦{Transfers.shareTokN fullShare 125} f)
      ∗ (hbM0.view.loc (c : Thread nD τ) ↦{Transfers.shareTokN fullShare 124} f)
      ∗ (hbM0.view.loc (c : Thread nD τ) ↦{Transfers.shareTokN fullShare 123} f)
      ∗ (hbM0.view.loc (c : Thread nD τ) ↦{Transfers.shareTokN fullShare 122} f)
      ∗ (hbM0.view.loc (c : Thread nD τ) ↦{Transfers.shareTokN fullShare 121} f)
      ∗ (hbM0.view.loc (c : Thread nD τ) ↦{Transfers.shareTokN fullShare 120} f)
      ∗ (hbM0.view.loc (c : Thread nD τ) ↦{Transfers.shareTokN fullShare 119} f)
      ∗ (hbM0.view.loc (c : Thread nD τ) ↦{Transfers.shareTokN fullShare 118} f)
      ∗ (hbM0.view.loc (c : Thread nD τ) ↦{Transfers.shareTokN fullShare 117} f)
      ∗ (hbM0.view.loc (c : Thread nD τ) ↦{Transfers.shareTokN fullShare 116} f)
      ∗ (hbM0.view.loc (c : Thread nD τ) ↦{Transfers.shareTokN fullShare 115} f)
      ∗ (hbM0.view.loc (c : Thread nD τ) ↦{Transfers.shareTokN fullShare 114} f)
      ∗ (hbM0.view.loc (c : Thread nD τ) ↦{Transfers.shareTokN fullShare 113} f)
      ∗ (hbM0.view.loc (c : Thread nD τ) ↦{Transfers.shareTokN fullShare 112} f)
      ∗ (hbM0.view.loc (c : Thread nD τ) ↦{Transfers.shareTokN fullShare 111} f)
      ∗ (hbM0.view.loc (c : Thread nD τ) ↦{Transfers.shareTokN fullShare 110} f)
      ∗ (hbM0.view.loc (c : Thread nD τ) ↦{Transfers.shareTokN fullShare 109} f)
      ∗ (hbM0.view.loc (c : Thread nD τ) ↦{Transfers.shareTokN fullShare 108} f)
      ∗ (hbM0.view.loc (c : Thread nD τ) ↦{Transfers.shareTokN fullShare 107} f)
      ∗ (hbM0.view.loc (c : Thread nD τ) ↦{Transfers.shareTokN fullShare 106} f)
      ∗ (hbM0.view.loc (c : Thread nD τ) ↦{Transfers.shareTokN fullShare 105} f)
      ∗ (hbM0.view.loc (c : Thread nD τ) ↦{Transfers.shareTokN fullShare 104} f)
      ∗ (hbM0.view.loc (c : Thread nD τ) ↦{Transfers.shareTokN fullShare 103} f)
      ∗ (hbM0.view.loc (c : Thread nD τ) ↦{Transfers.shareTokN fullShare 102} f)
      ∗ (hbM0.view.loc (c : Thread nD τ) ↦{Transfers.shareTokN fullShare 101} f)
      ∗ (hbM0.view.loc (c : Thread nD τ) ↦{Transfers.shareTokN fullShare 100} f)
      ∗ (hbM0.view.loc (c : Thread nD τ) ↦{Transfers.shareTokN fullShare 99} f)
      ∗ (hbM0.view.loc (c : Thread nD τ) ↦{Transfers.shareTokN fullShare 98} f)
      ∗ (hbM0.view.loc (c : Thread nD τ) ↦{Transfers.shareTokN fullShare 97} f)
      ∗ (hbM0.view.loc (c : Thread nD τ) ↦{Transfers.shareTokN fullShare 96} f)
      ∗ (hbM0.view.loc (c : Thread nD τ) ↦{Transfers.shareTokN fullShare 95} f)
      ∗ (hbM0.view.loc (c : Thread nD τ) ↦{Transfers.shareTokN fullShare 94} f)
      ∗ (hbM0.view.loc (c : Thread nD τ) ↦{Transfers.shareTokN fullShare 93} f)
      ∗ (hbM0.view.loc (c : Thread nD τ) ↦{Transfers.shareTokN fullShare 92} f)
      ∗ (hbM0.view.loc (c : Thread nD τ) ↦{Transfers.shareTokN fullShare 91} f)
      ∗ (hbM0.view.loc (c : Thread nD τ) ↦{Transfers.shareTokN fullShare 90} f)
      ∗ (hbM0.view.loc (c : Thread nD τ) ↦{Transfers.shareTokN fullShare 89} f)
      ∗ (hbM0.view.loc (c : Thread nD τ) ↦{Transfers.shareTokN fullShare 88} f)
      ∗ (hbM0.view.loc (c : Thread nD τ) ↦{Transfers.shareTokN fullShare 87} f)
      ∗ (hbM0.view.loc (c : Thread nD τ) ↦{Transfers.shareTokN fullShare 86} f)
      ∗ (hbM0.view.loc (c : Thread nD τ) ↦{Transfers.shareTokN fullShare 85} f)
      ∗ (hbM0.view.loc (c : Thread nD τ) ↦{Transfers.shareTokN fullShare 84} f)
      ∗ (hbM0.view.loc (c : Thread nD τ) ↦{Transfers.shareTokN fullShare 83} f)
      ∗ (hbM0.view.loc (c : Thread nD τ) ↦{Transfers.shareTokN fullShare 82} f)
      ∗ (hbM0.view.loc (c : Thread nD τ) ↦{Transfers.shareTokN fullShare 81} f)
      ∗ (hbM0.view.loc (c : Thread nD τ) ↦{Transfers.shareTokN fullShare 80} f)
      ∗ (hbM0.view.loc (c : Thread nD τ) ↦{Transfers.shareTokN fullShare 79} f)
      ∗ (hbM0.view.loc (c : Thread nD τ) ↦{Transfers.shareTokN fullShare 78} f)
      ∗ (hbM0.view.loc (c : Thread nD τ) ↦{Transfers.shareTokN fullShare 77} f)
      ∗ (hbM0.view.loc (c : Thread nD τ) ↦{Transfers.shareTokN fullShare 76} f)
      ∗ (hbM0.view.loc (c : Thread nD τ) ↦{Transfers.shareTokN fullShare 75} f)
      ∗ (hbM0.view.loc (c : Thread nD τ) ↦{Transfers.shareTokN fullShare 74} f)
      ∗ (hbM0.view.loc (c : Thread nD τ) ↦{Transfers.shareTokN fullShare 73} f)
      ∗ (hbM0.view.loc (c : Thread nD τ) ↦{Transfers.shareTokN fullShare 72} f)
      ∗ (hbM0.view.loc (c : Thread nD τ) ↦{Transfers.shareTokN fullShare 71} f)
      ∗ (hbM0.view.loc (c : Thread nD τ) ↦{Transfers.shareTokN fullShare 70} f)
      ∗ (hbM0.view.loc (c : Thread nD τ) ↦{Transfers.shareTokN fullShare 69} f)
      ∗ (hbM0.view.loc (c : Thread nD τ) ↦{Transfers.shareTokN fullShare 68} f)
      ∗ (hbM0.view.loc (c : Thread nD τ) ↦{Transfers.shareTokN fullShare 67} f)
      ∗ (hbM0.view.loc (c : Thread nD τ) ↦{Transfers.shareTokN fullShare 66} f)
      ∗ (hbM0.view.loc (c : Thread nD τ) ↦{Transfers.shareTokN fullShare 65} f)
      ∗ (hbM0.view.loc (c : Thread nD τ) ↦{Transfers.shareTokN fullShare 64} f)
      ∗ (hbM0.view.loc (c : Thread nD τ) ↦{Transfers.shareTokN fullShare 63} f)
      ∗ (hbM0.view.loc (c : Thread nD τ) ↦{Transfers.shareTokN fullShare 62} f)
      ∗ (hbM0.view.loc (c : Thread nD τ) ↦{Transfers.shareTokN fullShare 61} f)
      ∗ (hbM0.view.loc (c : Thread nD τ) ↦{Transfers.shareTokN fullShare 60} f)
      ∗ (hbM0.view.loc (c : Thread nD τ) ↦{Transfers.shareTokN fullShare 59} f)
      ∗ (hbM0.view.loc (c : Thread nD τ) ↦{Transfers.shareTokN fullShare 58} f)
      ∗ (hbM0.view.loc (c : Thread nD τ) ↦{Transfers.shareTokN fullShare 57} f)
      ∗ (hbM0.view.loc (c : Thread nD τ) ↦{Transfers.shareTokN fullShare 56} f)
      ∗ (hbM0.view.loc (c : Thread nD τ) ↦{Transfers.shareTokN fullShare 55} f)
      ∗ (hbM0.view.loc (c : Thread nD τ) ↦{Transfers.shareTokN fullShare 54} f)
      ∗ (hbM0.view.loc (c : Thread nD τ) ↦{Transfers.shareTokN fullShare 53} f)
      ∗ (hbM0.view.loc (c : Thread nD τ) ↦{Transfers.shareTokN fullShare 52} f)
      ∗ (hbM0.view.loc (c : Thread nD τ) ↦{Transfers.shareTokN fullShare 51} f)
      ∗ (hbM0.view.loc (c : Thread nD τ) ↦{Transfers.shareTokN fullShare 50} f)
      ∗ (hbM0.view.loc (c : Thread nD τ) ↦{Transfers.shareTokN fullShare 49} f)
      ∗ (hbM0.view.loc (c : Thread nD τ) ↦{Transfers.shareTokN fullShare 48} f)
      ∗ (hbM0.view.loc (c : Thread nD τ) ↦{Transfers.shareTokN fullShare 47} f)
      ∗ (hbM0.view.loc (c : Thread nD τ) ↦{Transfers.shareTokN fullShare 46} f)
      ∗ (hbM0.view.loc (c : Thread nD τ) ↦{Transfers.shareTokN fullShare 45} f)
      ∗ (hbM0.view.loc (c : Thread nD τ) ↦{Transfers.shareTokN fullShare 44} f)
      ∗ (hbM0.view.loc (c : Thread nD τ) ↦{Transfers.shareTokN fullShare 43} f)
      ∗ (hbM0.view.loc (c : Thread nD τ) ↦{Transfers.shareTokN fullShare 42} f)
      ∗ (hbM0.view.loc (c : Thread nD τ) ↦{Transfers.shareTokN fullShare 41} f)
      ∗ (hbM0.view.loc (c : Thread nD τ) ↦{Transfers.shareTokN fullShare 40} f)
      ∗ (hbM0.view.loc (c : Thread nD τ) ↦{Transfers.shareTokN fullShare 39} f)
      ∗ (hbM0.view.loc (c : Thread nD τ) ↦{Transfers.shareTokN fullShare 38} f)
      ∗ (hbM0.view.loc (c : Thread nD τ) ↦{Transfers.shareTokN fullShare 37} f)
      ∗ (hbM0.view.loc (c : Thread nD τ) ↦{Transfers.shareTokN fullShare 36} f)
      ∗ (hbM0.view.loc (c : Thread nD τ) ↦{Transfers.shareTokN fullShare 35} f)
      ∗ (hbM0.view.loc (c : Thread nD τ) ↦{Transfers.shareTokN fullShare 34} f)
      ∗ (hbM0.view.loc (c : Thread nD τ) ↦{Transfers.shareTokN fullShare 33} f)
      ∗ (hbM0.view.loc (c : Thread nD τ) ↦{Transfers.shareTokN fullShare 32} f)
      ∗ (hbM0.view.loc (c : Thread nD τ) ↦{Transfers.shareTokN fullShare 31} f)
      ∗ (hbM0.view.loc (c : Thread nD τ) ↦{Transfers.shareTokN fullShare 30} f)
      ∗ (hbM0.view.loc (c : Thread nD τ) ↦{Transfers.shareTokN fullShare 29} f)
      ∗ (hbM0.view.loc (c : Thread nD τ) ↦{Transfers.shareTokN fullShare 28} f)
      ∗ (hbM0.view.loc (c : Thread nD τ) ↦{Transfers.shareTokN fullShare 27} f)
      ∗ (hbM0.view.loc (c : Thread nD τ) ↦{Transfers.shareTokN fullShare 26} f)
      ∗ (hbM0.view.loc (c : Thread nD τ) ↦{Transfers.shareTokN fullShare 25} f)
      ∗ (hbM0.view.loc (c : Thread nD τ) ↦{Transfers.shareTokN fullShare 24} f)
      ∗ (hbM0.view.loc (c : Thread nD τ) ↦{Transfers.shareTokN fullShare 23} f)
      ∗ (hbM0.view.loc (c : Thread nD τ) ↦{Transfers.shareTokN fullShare 22} f)
      ∗ (hbM0.view.loc (c : Thread nD τ) ↦{Transfers.shareTokN fullShare 21} f)
      ∗ (hbM0.view.loc (c : Thread nD τ) ↦{Transfers.shareTokN fullShare 20} f)
      ∗ (hbM0.view.loc (c : Thread nD τ) ↦{Transfers.shareTokN fullShare 19} f)
      ∗ (hbM0.view.loc (c : Thread nD τ) ↦{Transfers.shareTokN fullShare 18} f)
      ∗ (hbM0.view.loc (c : Thread nD τ) ↦{Transfers.shareTokN fullShare 17} f)
      ∗ (hbM0.view.loc (c : Thread nD τ) ↦{Transfers.shareTokN fullShare 16} f)
      ∗ (hbM0.view.loc (c : Thread nD τ) ↦{Transfers.shareTokN fullShare 15} f)
      ∗ (hbM0.view.loc (c : Thread nD τ) ↦{Transfers.shareTokN fullShare 14} f)
      ∗ (hbM0.view.loc (c : Thread nD τ) ↦{Transfers.shareTokN fullShare 13} f)
      ∗ (hbM0.view.loc (c : Thread nD τ) ↦{Transfers.shareTokN fullShare 12} f)
      ∗ (hbM0.view.loc (c : Thread nD τ) ↦{Transfers.shareTokN fullShare 11} f)
      ∗ (hbM0.view.loc (c : Thread nD τ) ↦{Transfers.shareTokN fullShare 10} f)
      ∗ (hbM0.view.loc (c : Thread nD τ) ↦{Transfers.shareTokN fullShare 9} f)
      ∗ (hbM0.view.loc (c : Thread nD τ) ↦{Transfers.shareTokN fullShare 8} f)
      ∗ (hbM0.view.loc (c : Thread nD τ) ↦{Transfers.shareTokN fullShare 7} f)
      ∗ (hbM0.view.loc (c : Thread nD τ) ↦{Transfers.shareTokN fullShare 6} f)
      ∗ (hbM0.view.loc (c : Thread nD τ) ↦{Transfers.shareTokN fullShare 5} f)
      ∗ (hbM0.view.loc (c : Thread nD τ) ↦{Transfers.shareTokN fullShare 4} f)
      ∗ (hbM0.view.loc (c : Thread nD τ) ↦{Transfers.shareTokN fullShare 3} f)
      ∗ (hbM0.view.loc (c : Thread nD τ) ↦{Transfers.shareTokN fullShare 2} f)
      ∗ (hbM0.view.loc (c : Thread nD τ) ↦{Transfers.shareTokN fullShare 1} f)
      ∗ (hbM0.view.loc (c : Thread nD τ) ↦{Transfers.shareTokN fullShare 0} f)) := by
  have h := (toks_chain (F := F) (ℓ := hbM0.view.loc (c : Thread nD τ)) f 138).1
  simp only [chainDown] at h
  exact h

set_option maxHeartbeats 8000000 in
/-- And joined back. -/
theorem hbU_join (c : Dev nD) (f : BufOf (F := F) c hbM0) :
    iprop((hbM0.view.loc (c : Thread nD τ) ↦{Transfers.shareDrop fullShare 138} f)
      ∗ (hbM0.view.loc (c : Thread nD τ) ↦{Transfers.shareTokN fullShare 137} f)
      ∗ (hbM0.view.loc (c : Thread nD τ) ↦{Transfers.shareTokN fullShare 136} f)
      ∗ (hbM0.view.loc (c : Thread nD τ) ↦{Transfers.shareTokN fullShare 135} f)
      ∗ (hbM0.view.loc (c : Thread nD τ) ↦{Transfers.shareTokN fullShare 134} f)
      ∗ (hbM0.view.loc (c : Thread nD τ) ↦{Transfers.shareTokN fullShare 133} f)
      ∗ (hbM0.view.loc (c : Thread nD τ) ↦{Transfers.shareTokN fullShare 132} f)
      ∗ (hbM0.view.loc (c : Thread nD τ) ↦{Transfers.shareTokN fullShare 131} f)
      ∗ (hbM0.view.loc (c : Thread nD τ) ↦{Transfers.shareTokN fullShare 130} f)
      ∗ (hbM0.view.loc (c : Thread nD τ) ↦{Transfers.shareTokN fullShare 129} f)
      ∗ (hbM0.view.loc (c : Thread nD τ) ↦{Transfers.shareTokN fullShare 128} f)
      ∗ (hbM0.view.loc (c : Thread nD τ) ↦{Transfers.shareTokN fullShare 127} f)
      ∗ (hbM0.view.loc (c : Thread nD τ) ↦{Transfers.shareTokN fullShare 126} f)
      ∗ (hbM0.view.loc (c : Thread nD τ) ↦{Transfers.shareTokN fullShare 125} f)
      ∗ (hbM0.view.loc (c : Thread nD τ) ↦{Transfers.shareTokN fullShare 124} f)
      ∗ (hbM0.view.loc (c : Thread nD τ) ↦{Transfers.shareTokN fullShare 123} f)
      ∗ (hbM0.view.loc (c : Thread nD τ) ↦{Transfers.shareTokN fullShare 122} f)
      ∗ (hbM0.view.loc (c : Thread nD τ) ↦{Transfers.shareTokN fullShare 121} f)
      ∗ (hbM0.view.loc (c : Thread nD τ) ↦{Transfers.shareTokN fullShare 120} f)
      ∗ (hbM0.view.loc (c : Thread nD τ) ↦{Transfers.shareTokN fullShare 119} f)
      ∗ (hbM0.view.loc (c : Thread nD τ) ↦{Transfers.shareTokN fullShare 118} f)
      ∗ (hbM0.view.loc (c : Thread nD τ) ↦{Transfers.shareTokN fullShare 117} f)
      ∗ (hbM0.view.loc (c : Thread nD τ) ↦{Transfers.shareTokN fullShare 116} f)
      ∗ (hbM0.view.loc (c : Thread nD τ) ↦{Transfers.shareTokN fullShare 115} f)
      ∗ (hbM0.view.loc (c : Thread nD τ) ↦{Transfers.shareTokN fullShare 114} f)
      ∗ (hbM0.view.loc (c : Thread nD τ) ↦{Transfers.shareTokN fullShare 113} f)
      ∗ (hbM0.view.loc (c : Thread nD τ) ↦{Transfers.shareTokN fullShare 112} f)
      ∗ (hbM0.view.loc (c : Thread nD τ) ↦{Transfers.shareTokN fullShare 111} f)
      ∗ (hbM0.view.loc (c : Thread nD τ) ↦{Transfers.shareTokN fullShare 110} f)
      ∗ (hbM0.view.loc (c : Thread nD τ) ↦{Transfers.shareTokN fullShare 109} f)
      ∗ (hbM0.view.loc (c : Thread nD τ) ↦{Transfers.shareTokN fullShare 108} f)
      ∗ (hbM0.view.loc (c : Thread nD τ) ↦{Transfers.shareTokN fullShare 107} f)
      ∗ (hbM0.view.loc (c : Thread nD τ) ↦{Transfers.shareTokN fullShare 106} f)
      ∗ (hbM0.view.loc (c : Thread nD τ) ↦{Transfers.shareTokN fullShare 105} f)
      ∗ (hbM0.view.loc (c : Thread nD τ) ↦{Transfers.shareTokN fullShare 104} f)
      ∗ (hbM0.view.loc (c : Thread nD τ) ↦{Transfers.shareTokN fullShare 103} f)
      ∗ (hbM0.view.loc (c : Thread nD τ) ↦{Transfers.shareTokN fullShare 102} f)
      ∗ (hbM0.view.loc (c : Thread nD τ) ↦{Transfers.shareTokN fullShare 101} f)
      ∗ (hbM0.view.loc (c : Thread nD τ) ↦{Transfers.shareTokN fullShare 100} f)
      ∗ (hbM0.view.loc (c : Thread nD τ) ↦{Transfers.shareTokN fullShare 99} f)
      ∗ (hbM0.view.loc (c : Thread nD τ) ↦{Transfers.shareTokN fullShare 98} f)
      ∗ (hbM0.view.loc (c : Thread nD τ) ↦{Transfers.shareTokN fullShare 97} f)
      ∗ (hbM0.view.loc (c : Thread nD τ) ↦{Transfers.shareTokN fullShare 96} f)
      ∗ (hbM0.view.loc (c : Thread nD τ) ↦{Transfers.shareTokN fullShare 95} f)
      ∗ (hbM0.view.loc (c : Thread nD τ) ↦{Transfers.shareTokN fullShare 94} f)
      ∗ (hbM0.view.loc (c : Thread nD τ) ↦{Transfers.shareTokN fullShare 93} f)
      ∗ (hbM0.view.loc (c : Thread nD τ) ↦{Transfers.shareTokN fullShare 92} f)
      ∗ (hbM0.view.loc (c : Thread nD τ) ↦{Transfers.shareTokN fullShare 91} f)
      ∗ (hbM0.view.loc (c : Thread nD τ) ↦{Transfers.shareTokN fullShare 90} f)
      ∗ (hbM0.view.loc (c : Thread nD τ) ↦{Transfers.shareTokN fullShare 89} f)
      ∗ (hbM0.view.loc (c : Thread nD τ) ↦{Transfers.shareTokN fullShare 88} f)
      ∗ (hbM0.view.loc (c : Thread nD τ) ↦{Transfers.shareTokN fullShare 87} f)
      ∗ (hbM0.view.loc (c : Thread nD τ) ↦{Transfers.shareTokN fullShare 86} f)
      ∗ (hbM0.view.loc (c : Thread nD τ) ↦{Transfers.shareTokN fullShare 85} f)
      ∗ (hbM0.view.loc (c : Thread nD τ) ↦{Transfers.shareTokN fullShare 84} f)
      ∗ (hbM0.view.loc (c : Thread nD τ) ↦{Transfers.shareTokN fullShare 83} f)
      ∗ (hbM0.view.loc (c : Thread nD τ) ↦{Transfers.shareTokN fullShare 82} f)
      ∗ (hbM0.view.loc (c : Thread nD τ) ↦{Transfers.shareTokN fullShare 81} f)
      ∗ (hbM0.view.loc (c : Thread nD τ) ↦{Transfers.shareTokN fullShare 80} f)
      ∗ (hbM0.view.loc (c : Thread nD τ) ↦{Transfers.shareTokN fullShare 79} f)
      ∗ (hbM0.view.loc (c : Thread nD τ) ↦{Transfers.shareTokN fullShare 78} f)
      ∗ (hbM0.view.loc (c : Thread nD τ) ↦{Transfers.shareTokN fullShare 77} f)
      ∗ (hbM0.view.loc (c : Thread nD τ) ↦{Transfers.shareTokN fullShare 76} f)
      ∗ (hbM0.view.loc (c : Thread nD τ) ↦{Transfers.shareTokN fullShare 75} f)
      ∗ (hbM0.view.loc (c : Thread nD τ) ↦{Transfers.shareTokN fullShare 74} f)
      ∗ (hbM0.view.loc (c : Thread nD τ) ↦{Transfers.shareTokN fullShare 73} f)
      ∗ (hbM0.view.loc (c : Thread nD τ) ↦{Transfers.shareTokN fullShare 72} f)
      ∗ (hbM0.view.loc (c : Thread nD τ) ↦{Transfers.shareTokN fullShare 71} f)
      ∗ (hbM0.view.loc (c : Thread nD τ) ↦{Transfers.shareTokN fullShare 70} f)
      ∗ (hbM0.view.loc (c : Thread nD τ) ↦{Transfers.shareTokN fullShare 69} f)
      ∗ (hbM0.view.loc (c : Thread nD τ) ↦{Transfers.shareTokN fullShare 68} f)
      ∗ (hbM0.view.loc (c : Thread nD τ) ↦{Transfers.shareTokN fullShare 67} f)
      ∗ (hbM0.view.loc (c : Thread nD τ) ↦{Transfers.shareTokN fullShare 66} f)
      ∗ (hbM0.view.loc (c : Thread nD τ) ↦{Transfers.shareTokN fullShare 65} f)
      ∗ (hbM0.view.loc (c : Thread nD τ) ↦{Transfers.shareTokN fullShare 64} f)
      ∗ (hbM0.view.loc (c : Thread nD τ) ↦{Transfers.shareTokN fullShare 63} f)
      ∗ (hbM0.view.loc (c : Thread nD τ) ↦{Transfers.shareTokN fullShare 62} f)
      ∗ (hbM0.view.loc (c : Thread nD τ) ↦{Transfers.shareTokN fullShare 61} f)
      ∗ (hbM0.view.loc (c : Thread nD τ) ↦{Transfers.shareTokN fullShare 60} f)
      ∗ (hbM0.view.loc (c : Thread nD τ) ↦{Transfers.shareTokN fullShare 59} f)
      ∗ (hbM0.view.loc (c : Thread nD τ) ↦{Transfers.shareTokN fullShare 58} f)
      ∗ (hbM0.view.loc (c : Thread nD τ) ↦{Transfers.shareTokN fullShare 57} f)
      ∗ (hbM0.view.loc (c : Thread nD τ) ↦{Transfers.shareTokN fullShare 56} f)
      ∗ (hbM0.view.loc (c : Thread nD τ) ↦{Transfers.shareTokN fullShare 55} f)
      ∗ (hbM0.view.loc (c : Thread nD τ) ↦{Transfers.shareTokN fullShare 54} f)
      ∗ (hbM0.view.loc (c : Thread nD τ) ↦{Transfers.shareTokN fullShare 53} f)
      ∗ (hbM0.view.loc (c : Thread nD τ) ↦{Transfers.shareTokN fullShare 52} f)
      ∗ (hbM0.view.loc (c : Thread nD τ) ↦{Transfers.shareTokN fullShare 51} f)
      ∗ (hbM0.view.loc (c : Thread nD τ) ↦{Transfers.shareTokN fullShare 50} f)
      ∗ (hbM0.view.loc (c : Thread nD τ) ↦{Transfers.shareTokN fullShare 49} f)
      ∗ (hbM0.view.loc (c : Thread nD τ) ↦{Transfers.shareTokN fullShare 48} f)
      ∗ (hbM0.view.loc (c : Thread nD τ) ↦{Transfers.shareTokN fullShare 47} f)
      ∗ (hbM0.view.loc (c : Thread nD τ) ↦{Transfers.shareTokN fullShare 46} f)
      ∗ (hbM0.view.loc (c : Thread nD τ) ↦{Transfers.shareTokN fullShare 45} f)
      ∗ (hbM0.view.loc (c : Thread nD τ) ↦{Transfers.shareTokN fullShare 44} f)
      ∗ (hbM0.view.loc (c : Thread nD τ) ↦{Transfers.shareTokN fullShare 43} f)
      ∗ (hbM0.view.loc (c : Thread nD τ) ↦{Transfers.shareTokN fullShare 42} f)
      ∗ (hbM0.view.loc (c : Thread nD τ) ↦{Transfers.shareTokN fullShare 41} f)
      ∗ (hbM0.view.loc (c : Thread nD τ) ↦{Transfers.shareTokN fullShare 40} f)
      ∗ (hbM0.view.loc (c : Thread nD τ) ↦{Transfers.shareTokN fullShare 39} f)
      ∗ (hbM0.view.loc (c : Thread nD τ) ↦{Transfers.shareTokN fullShare 38} f)
      ∗ (hbM0.view.loc (c : Thread nD τ) ↦{Transfers.shareTokN fullShare 37} f)
      ∗ (hbM0.view.loc (c : Thread nD τ) ↦{Transfers.shareTokN fullShare 36} f)
      ∗ (hbM0.view.loc (c : Thread nD τ) ↦{Transfers.shareTokN fullShare 35} f)
      ∗ (hbM0.view.loc (c : Thread nD τ) ↦{Transfers.shareTokN fullShare 34} f)
      ∗ (hbM0.view.loc (c : Thread nD τ) ↦{Transfers.shareTokN fullShare 33} f)
      ∗ (hbM0.view.loc (c : Thread nD τ) ↦{Transfers.shareTokN fullShare 32} f)
      ∗ (hbM0.view.loc (c : Thread nD τ) ↦{Transfers.shareTokN fullShare 31} f)
      ∗ (hbM0.view.loc (c : Thread nD τ) ↦{Transfers.shareTokN fullShare 30} f)
      ∗ (hbM0.view.loc (c : Thread nD τ) ↦{Transfers.shareTokN fullShare 29} f)
      ∗ (hbM0.view.loc (c : Thread nD τ) ↦{Transfers.shareTokN fullShare 28} f)
      ∗ (hbM0.view.loc (c : Thread nD τ) ↦{Transfers.shareTokN fullShare 27} f)
      ∗ (hbM0.view.loc (c : Thread nD τ) ↦{Transfers.shareTokN fullShare 26} f)
      ∗ (hbM0.view.loc (c : Thread nD τ) ↦{Transfers.shareTokN fullShare 25} f)
      ∗ (hbM0.view.loc (c : Thread nD τ) ↦{Transfers.shareTokN fullShare 24} f)
      ∗ (hbM0.view.loc (c : Thread nD τ) ↦{Transfers.shareTokN fullShare 23} f)
      ∗ (hbM0.view.loc (c : Thread nD τ) ↦{Transfers.shareTokN fullShare 22} f)
      ∗ (hbM0.view.loc (c : Thread nD τ) ↦{Transfers.shareTokN fullShare 21} f)
      ∗ (hbM0.view.loc (c : Thread nD τ) ↦{Transfers.shareTokN fullShare 20} f)
      ∗ (hbM0.view.loc (c : Thread nD τ) ↦{Transfers.shareTokN fullShare 19} f)
      ∗ (hbM0.view.loc (c : Thread nD τ) ↦{Transfers.shareTokN fullShare 18} f)
      ∗ (hbM0.view.loc (c : Thread nD τ) ↦{Transfers.shareTokN fullShare 17} f)
      ∗ (hbM0.view.loc (c : Thread nD τ) ↦{Transfers.shareTokN fullShare 16} f)
      ∗ (hbM0.view.loc (c : Thread nD τ) ↦{Transfers.shareTokN fullShare 15} f)
      ∗ (hbM0.view.loc (c : Thread nD τ) ↦{Transfers.shareTokN fullShare 14} f)
      ∗ (hbM0.view.loc (c : Thread nD τ) ↦{Transfers.shareTokN fullShare 13} f)
      ∗ (hbM0.view.loc (c : Thread nD τ) ↦{Transfers.shareTokN fullShare 12} f)
      ∗ (hbM0.view.loc (c : Thread nD τ) ↦{Transfers.shareTokN fullShare 11} f)
      ∗ (hbM0.view.loc (c : Thread nD τ) ↦{Transfers.shareTokN fullShare 10} f)
      ∗ (hbM0.view.loc (c : Thread nD τ) ↦{Transfers.shareTokN fullShare 9} f)
      ∗ (hbM0.view.loc (c : Thread nD τ) ↦{Transfers.shareTokN fullShare 8} f)
      ∗ (hbM0.view.loc (c : Thread nD τ) ↦{Transfers.shareTokN fullShare 7} f)
      ∗ (hbM0.view.loc (c : Thread nD τ) ↦{Transfers.shareTokN fullShare 6} f)
      ∗ (hbM0.view.loc (c : Thread nD τ) ↦{Transfers.shareTokN fullShare 5} f)
      ∗ (hbM0.view.loc (c : Thread nD τ) ↦{Transfers.shareTokN fullShare 4} f)
      ∗ (hbM0.view.loc (c : Thread nD τ) ↦{Transfers.shareTokN fullShare 3} f)
      ∗ (hbM0.view.loc (c : Thread nD τ) ↦{Transfers.shareTokN fullShare 2} f)
      ∗ (hbM0.view.loc (c : Thread nD τ) ↦{Transfers.shareTokN fullShare 1} f)
      ∗ (hbM0.view.loc (c : Thread nD τ) ↦{Transfers.shareTokN fullShare 0} f)) ⊢ hbPt c hbM0 f := by
  have h := (toks_chain (F := F) (ℓ := hbM0.view.loc (c : Thread nD τ)) f 138).2
  simp only [chainDown] at h
  exact h

set_option maxHeartbeats 8000000 in
/-- The second data table held whole, split into the remainder after 394 read tokens and the tokens, highest first: one token per
    semaphore-cell number below 394. -/
theorem hbV_split (c : Dev nD) (f : BufOf (F := F) c hbM1) :
    hbPt c hbM1 f ⊢ iprop((hbM1.view.loc (c : Thread nD τ) ↦{Transfers.shareDrop fullShare 394} f)
      ∗ (hbM1.view.loc (c : Thread nD τ) ↦{Transfers.shareTokN fullShare 393} f)
      ∗ (hbM1.view.loc (c : Thread nD τ) ↦{Transfers.shareTokN fullShare 392} f)
      ∗ (hbM1.view.loc (c : Thread nD τ) ↦{Transfers.shareTokN fullShare 391} f)
      ∗ (hbM1.view.loc (c : Thread nD τ) ↦{Transfers.shareTokN fullShare 390} f)
      ∗ (hbM1.view.loc (c : Thread nD τ) ↦{Transfers.shareTokN fullShare 389} f)
      ∗ (hbM1.view.loc (c : Thread nD τ) ↦{Transfers.shareTokN fullShare 388} f)
      ∗ (hbM1.view.loc (c : Thread nD τ) ↦{Transfers.shareTokN fullShare 387} f)
      ∗ (hbM1.view.loc (c : Thread nD τ) ↦{Transfers.shareTokN fullShare 386} f)
      ∗ (hbM1.view.loc (c : Thread nD τ) ↦{Transfers.shareTokN fullShare 385} f)
      ∗ (hbM1.view.loc (c : Thread nD τ) ↦{Transfers.shareTokN fullShare 384} f)
      ∗ (hbM1.view.loc (c : Thread nD τ) ↦{Transfers.shareTokN fullShare 383} f)
      ∗ (hbM1.view.loc (c : Thread nD τ) ↦{Transfers.shareTokN fullShare 382} f)
      ∗ (hbM1.view.loc (c : Thread nD τ) ↦{Transfers.shareTokN fullShare 381} f)
      ∗ (hbM1.view.loc (c : Thread nD τ) ↦{Transfers.shareTokN fullShare 380} f)
      ∗ (hbM1.view.loc (c : Thread nD τ) ↦{Transfers.shareTokN fullShare 379} f)
      ∗ (hbM1.view.loc (c : Thread nD τ) ↦{Transfers.shareTokN fullShare 378} f)
      ∗ (hbM1.view.loc (c : Thread nD τ) ↦{Transfers.shareTokN fullShare 377} f)
      ∗ (hbM1.view.loc (c : Thread nD τ) ↦{Transfers.shareTokN fullShare 376} f)
      ∗ (hbM1.view.loc (c : Thread nD τ) ↦{Transfers.shareTokN fullShare 375} f)
      ∗ (hbM1.view.loc (c : Thread nD τ) ↦{Transfers.shareTokN fullShare 374} f)
      ∗ (hbM1.view.loc (c : Thread nD τ) ↦{Transfers.shareTokN fullShare 373} f)
      ∗ (hbM1.view.loc (c : Thread nD τ) ↦{Transfers.shareTokN fullShare 372} f)
      ∗ (hbM1.view.loc (c : Thread nD τ) ↦{Transfers.shareTokN fullShare 371} f)
      ∗ (hbM1.view.loc (c : Thread nD τ) ↦{Transfers.shareTokN fullShare 370} f)
      ∗ (hbM1.view.loc (c : Thread nD τ) ↦{Transfers.shareTokN fullShare 369} f)
      ∗ (hbM1.view.loc (c : Thread nD τ) ↦{Transfers.shareTokN fullShare 368} f)
      ∗ (hbM1.view.loc (c : Thread nD τ) ↦{Transfers.shareTokN fullShare 367} f)
      ∗ (hbM1.view.loc (c : Thread nD τ) ↦{Transfers.shareTokN fullShare 366} f)
      ∗ (hbM1.view.loc (c : Thread nD τ) ↦{Transfers.shareTokN fullShare 365} f)
      ∗ (hbM1.view.loc (c : Thread nD τ) ↦{Transfers.shareTokN fullShare 364} f)
      ∗ (hbM1.view.loc (c : Thread nD τ) ↦{Transfers.shareTokN fullShare 363} f)
      ∗ (hbM1.view.loc (c : Thread nD τ) ↦{Transfers.shareTokN fullShare 362} f)
      ∗ (hbM1.view.loc (c : Thread nD τ) ↦{Transfers.shareTokN fullShare 361} f)
      ∗ (hbM1.view.loc (c : Thread nD τ) ↦{Transfers.shareTokN fullShare 360} f)
      ∗ (hbM1.view.loc (c : Thread nD τ) ↦{Transfers.shareTokN fullShare 359} f)
      ∗ (hbM1.view.loc (c : Thread nD τ) ↦{Transfers.shareTokN fullShare 358} f)
      ∗ (hbM1.view.loc (c : Thread nD τ) ↦{Transfers.shareTokN fullShare 357} f)
      ∗ (hbM1.view.loc (c : Thread nD τ) ↦{Transfers.shareTokN fullShare 356} f)
      ∗ (hbM1.view.loc (c : Thread nD τ) ↦{Transfers.shareTokN fullShare 355} f)
      ∗ (hbM1.view.loc (c : Thread nD τ) ↦{Transfers.shareTokN fullShare 354} f)
      ∗ (hbM1.view.loc (c : Thread nD τ) ↦{Transfers.shareTokN fullShare 353} f)
      ∗ (hbM1.view.loc (c : Thread nD τ) ↦{Transfers.shareTokN fullShare 352} f)
      ∗ (hbM1.view.loc (c : Thread nD τ) ↦{Transfers.shareTokN fullShare 351} f)
      ∗ (hbM1.view.loc (c : Thread nD τ) ↦{Transfers.shareTokN fullShare 350} f)
      ∗ (hbM1.view.loc (c : Thread nD τ) ↦{Transfers.shareTokN fullShare 349} f)
      ∗ (hbM1.view.loc (c : Thread nD τ) ↦{Transfers.shareTokN fullShare 348} f)
      ∗ (hbM1.view.loc (c : Thread nD τ) ↦{Transfers.shareTokN fullShare 347} f)
      ∗ (hbM1.view.loc (c : Thread nD τ) ↦{Transfers.shareTokN fullShare 346} f)
      ∗ (hbM1.view.loc (c : Thread nD τ) ↦{Transfers.shareTokN fullShare 345} f)
      ∗ (hbM1.view.loc (c : Thread nD τ) ↦{Transfers.shareTokN fullShare 344} f)
      ∗ (hbM1.view.loc (c : Thread nD τ) ↦{Transfers.shareTokN fullShare 343} f)
      ∗ (hbM1.view.loc (c : Thread nD τ) ↦{Transfers.shareTokN fullShare 342} f)
      ∗ (hbM1.view.loc (c : Thread nD τ) ↦{Transfers.shareTokN fullShare 341} f)
      ∗ (hbM1.view.loc (c : Thread nD τ) ↦{Transfers.shareTokN fullShare 340} f)
      ∗ (hbM1.view.loc (c : Thread nD τ) ↦{Transfers.shareTokN fullShare 339} f)
      ∗ (hbM1.view.loc (c : Thread nD τ) ↦{Transfers.shareTokN fullShare 338} f)
      ∗ (hbM1.view.loc (c : Thread nD τ) ↦{Transfers.shareTokN fullShare 337} f)
      ∗ (hbM1.view.loc (c : Thread nD τ) ↦{Transfers.shareTokN fullShare 336} f)
      ∗ (hbM1.view.loc (c : Thread nD τ) ↦{Transfers.shareTokN fullShare 335} f)
      ∗ (hbM1.view.loc (c : Thread nD τ) ↦{Transfers.shareTokN fullShare 334} f)
      ∗ (hbM1.view.loc (c : Thread nD τ) ↦{Transfers.shareTokN fullShare 333} f)
      ∗ (hbM1.view.loc (c : Thread nD τ) ↦{Transfers.shareTokN fullShare 332} f)
      ∗ (hbM1.view.loc (c : Thread nD τ) ↦{Transfers.shareTokN fullShare 331} f)
      ∗ (hbM1.view.loc (c : Thread nD τ) ↦{Transfers.shareTokN fullShare 330} f)
      ∗ (hbM1.view.loc (c : Thread nD τ) ↦{Transfers.shareTokN fullShare 329} f)
      ∗ (hbM1.view.loc (c : Thread nD τ) ↦{Transfers.shareTokN fullShare 328} f)
      ∗ (hbM1.view.loc (c : Thread nD τ) ↦{Transfers.shareTokN fullShare 327} f)
      ∗ (hbM1.view.loc (c : Thread nD τ) ↦{Transfers.shareTokN fullShare 326} f)
      ∗ (hbM1.view.loc (c : Thread nD τ) ↦{Transfers.shareTokN fullShare 325} f)
      ∗ (hbM1.view.loc (c : Thread nD τ) ↦{Transfers.shareTokN fullShare 324} f)
      ∗ (hbM1.view.loc (c : Thread nD τ) ↦{Transfers.shareTokN fullShare 323} f)
      ∗ (hbM1.view.loc (c : Thread nD τ) ↦{Transfers.shareTokN fullShare 322} f)
      ∗ (hbM1.view.loc (c : Thread nD τ) ↦{Transfers.shareTokN fullShare 321} f)
      ∗ (hbM1.view.loc (c : Thread nD τ) ↦{Transfers.shareTokN fullShare 320} f)
      ∗ (hbM1.view.loc (c : Thread nD τ) ↦{Transfers.shareTokN fullShare 319} f)
      ∗ (hbM1.view.loc (c : Thread nD τ) ↦{Transfers.shareTokN fullShare 318} f)
      ∗ (hbM1.view.loc (c : Thread nD τ) ↦{Transfers.shareTokN fullShare 317} f)
      ∗ (hbM1.view.loc (c : Thread nD τ) ↦{Transfers.shareTokN fullShare 316} f)
      ∗ (hbM1.view.loc (c : Thread nD τ) ↦{Transfers.shareTokN fullShare 315} f)
      ∗ (hbM1.view.loc (c : Thread nD τ) ↦{Transfers.shareTokN fullShare 314} f)
      ∗ (hbM1.view.loc (c : Thread nD τ) ↦{Transfers.shareTokN fullShare 313} f)
      ∗ (hbM1.view.loc (c : Thread nD τ) ↦{Transfers.shareTokN fullShare 312} f)
      ∗ (hbM1.view.loc (c : Thread nD τ) ↦{Transfers.shareTokN fullShare 311} f)
      ∗ (hbM1.view.loc (c : Thread nD τ) ↦{Transfers.shareTokN fullShare 310} f)
      ∗ (hbM1.view.loc (c : Thread nD τ) ↦{Transfers.shareTokN fullShare 309} f)
      ∗ (hbM1.view.loc (c : Thread nD τ) ↦{Transfers.shareTokN fullShare 308} f)
      ∗ (hbM1.view.loc (c : Thread nD τ) ↦{Transfers.shareTokN fullShare 307} f)
      ∗ (hbM1.view.loc (c : Thread nD τ) ↦{Transfers.shareTokN fullShare 306} f)
      ∗ (hbM1.view.loc (c : Thread nD τ) ↦{Transfers.shareTokN fullShare 305} f)
      ∗ (hbM1.view.loc (c : Thread nD τ) ↦{Transfers.shareTokN fullShare 304} f)
      ∗ (hbM1.view.loc (c : Thread nD τ) ↦{Transfers.shareTokN fullShare 303} f)
      ∗ (hbM1.view.loc (c : Thread nD τ) ↦{Transfers.shareTokN fullShare 302} f)
      ∗ (hbM1.view.loc (c : Thread nD τ) ↦{Transfers.shareTokN fullShare 301} f)
      ∗ (hbM1.view.loc (c : Thread nD τ) ↦{Transfers.shareTokN fullShare 300} f)
      ∗ (hbM1.view.loc (c : Thread nD τ) ↦{Transfers.shareTokN fullShare 299} f)
      ∗ (hbM1.view.loc (c : Thread nD τ) ↦{Transfers.shareTokN fullShare 298} f)
      ∗ (hbM1.view.loc (c : Thread nD τ) ↦{Transfers.shareTokN fullShare 297} f)
      ∗ (hbM1.view.loc (c : Thread nD τ) ↦{Transfers.shareTokN fullShare 296} f)
      ∗ (hbM1.view.loc (c : Thread nD τ) ↦{Transfers.shareTokN fullShare 295} f)
      ∗ (hbM1.view.loc (c : Thread nD τ) ↦{Transfers.shareTokN fullShare 294} f)
      ∗ (hbM1.view.loc (c : Thread nD τ) ↦{Transfers.shareTokN fullShare 293} f)
      ∗ (hbM1.view.loc (c : Thread nD τ) ↦{Transfers.shareTokN fullShare 292} f)
      ∗ (hbM1.view.loc (c : Thread nD τ) ↦{Transfers.shareTokN fullShare 291} f)
      ∗ (hbM1.view.loc (c : Thread nD τ) ↦{Transfers.shareTokN fullShare 290} f)
      ∗ (hbM1.view.loc (c : Thread nD τ) ↦{Transfers.shareTokN fullShare 289} f)
      ∗ (hbM1.view.loc (c : Thread nD τ) ↦{Transfers.shareTokN fullShare 288} f)
      ∗ (hbM1.view.loc (c : Thread nD τ) ↦{Transfers.shareTokN fullShare 287} f)
      ∗ (hbM1.view.loc (c : Thread nD τ) ↦{Transfers.shareTokN fullShare 286} f)
      ∗ (hbM1.view.loc (c : Thread nD τ) ↦{Transfers.shareTokN fullShare 285} f)
      ∗ (hbM1.view.loc (c : Thread nD τ) ↦{Transfers.shareTokN fullShare 284} f)
      ∗ (hbM1.view.loc (c : Thread nD τ) ↦{Transfers.shareTokN fullShare 283} f)
      ∗ (hbM1.view.loc (c : Thread nD τ) ↦{Transfers.shareTokN fullShare 282} f)
      ∗ (hbM1.view.loc (c : Thread nD τ) ↦{Transfers.shareTokN fullShare 281} f)
      ∗ (hbM1.view.loc (c : Thread nD τ) ↦{Transfers.shareTokN fullShare 280} f)
      ∗ (hbM1.view.loc (c : Thread nD τ) ↦{Transfers.shareTokN fullShare 279} f)
      ∗ (hbM1.view.loc (c : Thread nD τ) ↦{Transfers.shareTokN fullShare 278} f)
      ∗ (hbM1.view.loc (c : Thread nD τ) ↦{Transfers.shareTokN fullShare 277} f)
      ∗ (hbM1.view.loc (c : Thread nD τ) ↦{Transfers.shareTokN fullShare 276} f)
      ∗ (hbM1.view.loc (c : Thread nD τ) ↦{Transfers.shareTokN fullShare 275} f)
      ∗ (hbM1.view.loc (c : Thread nD τ) ↦{Transfers.shareTokN fullShare 274} f)
      ∗ (hbM1.view.loc (c : Thread nD τ) ↦{Transfers.shareTokN fullShare 273} f)
      ∗ (hbM1.view.loc (c : Thread nD τ) ↦{Transfers.shareTokN fullShare 272} f)
      ∗ (hbM1.view.loc (c : Thread nD τ) ↦{Transfers.shareTokN fullShare 271} f)
      ∗ (hbM1.view.loc (c : Thread nD τ) ↦{Transfers.shareTokN fullShare 270} f)
      ∗ (hbM1.view.loc (c : Thread nD τ) ↦{Transfers.shareTokN fullShare 269} f)
      ∗ (hbM1.view.loc (c : Thread nD τ) ↦{Transfers.shareTokN fullShare 268} f)
      ∗ (hbM1.view.loc (c : Thread nD τ) ↦{Transfers.shareTokN fullShare 267} f)
      ∗ (hbM1.view.loc (c : Thread nD τ) ↦{Transfers.shareTokN fullShare 266} f)
      ∗ (hbM1.view.loc (c : Thread nD τ) ↦{Transfers.shareTokN fullShare 265} f)
      ∗ (hbM1.view.loc (c : Thread nD τ) ↦{Transfers.shareTokN fullShare 264} f)
      ∗ (hbM1.view.loc (c : Thread nD τ) ↦{Transfers.shareTokN fullShare 263} f)
      ∗ (hbM1.view.loc (c : Thread nD τ) ↦{Transfers.shareTokN fullShare 262} f)
      ∗ (hbM1.view.loc (c : Thread nD τ) ↦{Transfers.shareTokN fullShare 261} f)
      ∗ (hbM1.view.loc (c : Thread nD τ) ↦{Transfers.shareTokN fullShare 260} f)
      ∗ (hbM1.view.loc (c : Thread nD τ) ↦{Transfers.shareTokN fullShare 259} f)
      ∗ (hbM1.view.loc (c : Thread nD τ) ↦{Transfers.shareTokN fullShare 258} f)
      ∗ (hbM1.view.loc (c : Thread nD τ) ↦{Transfers.shareTokN fullShare 257} f)
      ∗ (hbM1.view.loc (c : Thread nD τ) ↦{Transfers.shareTokN fullShare 256} f)
      ∗ (hbM1.view.loc (c : Thread nD τ) ↦{Transfers.shareTokN fullShare 255} f)
      ∗ (hbM1.view.loc (c : Thread nD τ) ↦{Transfers.shareTokN fullShare 254} f)
      ∗ (hbM1.view.loc (c : Thread nD τ) ↦{Transfers.shareTokN fullShare 253} f)
      ∗ (hbM1.view.loc (c : Thread nD τ) ↦{Transfers.shareTokN fullShare 252} f)
      ∗ (hbM1.view.loc (c : Thread nD τ) ↦{Transfers.shareTokN fullShare 251} f)
      ∗ (hbM1.view.loc (c : Thread nD τ) ↦{Transfers.shareTokN fullShare 250} f)
      ∗ (hbM1.view.loc (c : Thread nD τ) ↦{Transfers.shareTokN fullShare 249} f)
      ∗ (hbM1.view.loc (c : Thread nD τ) ↦{Transfers.shareTokN fullShare 248} f)
      ∗ (hbM1.view.loc (c : Thread nD τ) ↦{Transfers.shareTokN fullShare 247} f)
      ∗ (hbM1.view.loc (c : Thread nD τ) ↦{Transfers.shareTokN fullShare 246} f)
      ∗ (hbM1.view.loc (c : Thread nD τ) ↦{Transfers.shareTokN fullShare 245} f)
      ∗ (hbM1.view.loc (c : Thread nD τ) ↦{Transfers.shareTokN fullShare 244} f)
      ∗ (hbM1.view.loc (c : Thread nD τ) ↦{Transfers.shareTokN fullShare 243} f)
      ∗ (hbM1.view.loc (c : Thread nD τ) ↦{Transfers.shareTokN fullShare 242} f)
      ∗ (hbM1.view.loc (c : Thread nD τ) ↦{Transfers.shareTokN fullShare 241} f)
      ∗ (hbM1.view.loc (c : Thread nD τ) ↦{Transfers.shareTokN fullShare 240} f)
      ∗ (hbM1.view.loc (c : Thread nD τ) ↦{Transfers.shareTokN fullShare 239} f)
      ∗ (hbM1.view.loc (c : Thread nD τ) ↦{Transfers.shareTokN fullShare 238} f)
      ∗ (hbM1.view.loc (c : Thread nD τ) ↦{Transfers.shareTokN fullShare 237} f)
      ∗ (hbM1.view.loc (c : Thread nD τ) ↦{Transfers.shareTokN fullShare 236} f)
      ∗ (hbM1.view.loc (c : Thread nD τ) ↦{Transfers.shareTokN fullShare 235} f)
      ∗ (hbM1.view.loc (c : Thread nD τ) ↦{Transfers.shareTokN fullShare 234} f)
      ∗ (hbM1.view.loc (c : Thread nD τ) ↦{Transfers.shareTokN fullShare 233} f)
      ∗ (hbM1.view.loc (c : Thread nD τ) ↦{Transfers.shareTokN fullShare 232} f)
      ∗ (hbM1.view.loc (c : Thread nD τ) ↦{Transfers.shareTokN fullShare 231} f)
      ∗ (hbM1.view.loc (c : Thread nD τ) ↦{Transfers.shareTokN fullShare 230} f)
      ∗ (hbM1.view.loc (c : Thread nD τ) ↦{Transfers.shareTokN fullShare 229} f)
      ∗ (hbM1.view.loc (c : Thread nD τ) ↦{Transfers.shareTokN fullShare 228} f)
      ∗ (hbM1.view.loc (c : Thread nD τ) ↦{Transfers.shareTokN fullShare 227} f)
      ∗ (hbM1.view.loc (c : Thread nD τ) ↦{Transfers.shareTokN fullShare 226} f)
      ∗ (hbM1.view.loc (c : Thread nD τ) ↦{Transfers.shareTokN fullShare 225} f)
      ∗ (hbM1.view.loc (c : Thread nD τ) ↦{Transfers.shareTokN fullShare 224} f)
      ∗ (hbM1.view.loc (c : Thread nD τ) ↦{Transfers.shareTokN fullShare 223} f)
      ∗ (hbM1.view.loc (c : Thread nD τ) ↦{Transfers.shareTokN fullShare 222} f)
      ∗ (hbM1.view.loc (c : Thread nD τ) ↦{Transfers.shareTokN fullShare 221} f)
      ∗ (hbM1.view.loc (c : Thread nD τ) ↦{Transfers.shareTokN fullShare 220} f)
      ∗ (hbM1.view.loc (c : Thread nD τ) ↦{Transfers.shareTokN fullShare 219} f)
      ∗ (hbM1.view.loc (c : Thread nD τ) ↦{Transfers.shareTokN fullShare 218} f)
      ∗ (hbM1.view.loc (c : Thread nD τ) ↦{Transfers.shareTokN fullShare 217} f)
      ∗ (hbM1.view.loc (c : Thread nD τ) ↦{Transfers.shareTokN fullShare 216} f)
      ∗ (hbM1.view.loc (c : Thread nD τ) ↦{Transfers.shareTokN fullShare 215} f)
      ∗ (hbM1.view.loc (c : Thread nD τ) ↦{Transfers.shareTokN fullShare 214} f)
      ∗ (hbM1.view.loc (c : Thread nD τ) ↦{Transfers.shareTokN fullShare 213} f)
      ∗ (hbM1.view.loc (c : Thread nD τ) ↦{Transfers.shareTokN fullShare 212} f)
      ∗ (hbM1.view.loc (c : Thread nD τ) ↦{Transfers.shareTokN fullShare 211} f)
      ∗ (hbM1.view.loc (c : Thread nD τ) ↦{Transfers.shareTokN fullShare 210} f)
      ∗ (hbM1.view.loc (c : Thread nD τ) ↦{Transfers.shareTokN fullShare 209} f)
      ∗ (hbM1.view.loc (c : Thread nD τ) ↦{Transfers.shareTokN fullShare 208} f)
      ∗ (hbM1.view.loc (c : Thread nD τ) ↦{Transfers.shareTokN fullShare 207} f)
      ∗ (hbM1.view.loc (c : Thread nD τ) ↦{Transfers.shareTokN fullShare 206} f)
      ∗ (hbM1.view.loc (c : Thread nD τ) ↦{Transfers.shareTokN fullShare 205} f)
      ∗ (hbM1.view.loc (c : Thread nD τ) ↦{Transfers.shareTokN fullShare 204} f)
      ∗ (hbM1.view.loc (c : Thread nD τ) ↦{Transfers.shareTokN fullShare 203} f)
      ∗ (hbM1.view.loc (c : Thread nD τ) ↦{Transfers.shareTokN fullShare 202} f)
      ∗ (hbM1.view.loc (c : Thread nD τ) ↦{Transfers.shareTokN fullShare 201} f)
      ∗ (hbM1.view.loc (c : Thread nD τ) ↦{Transfers.shareTokN fullShare 200} f)
      ∗ (hbM1.view.loc (c : Thread nD τ) ↦{Transfers.shareTokN fullShare 199} f)
      ∗ (hbM1.view.loc (c : Thread nD τ) ↦{Transfers.shareTokN fullShare 198} f)
      ∗ (hbM1.view.loc (c : Thread nD τ) ↦{Transfers.shareTokN fullShare 197} f)
      ∗ (hbM1.view.loc (c : Thread nD τ) ↦{Transfers.shareTokN fullShare 196} f)
      ∗ (hbM1.view.loc (c : Thread nD τ) ↦{Transfers.shareTokN fullShare 195} f)
      ∗ (hbM1.view.loc (c : Thread nD τ) ↦{Transfers.shareTokN fullShare 194} f)
      ∗ (hbM1.view.loc (c : Thread nD τ) ↦{Transfers.shareTokN fullShare 193} f)
      ∗ (hbM1.view.loc (c : Thread nD τ) ↦{Transfers.shareTokN fullShare 192} f)
      ∗ (hbM1.view.loc (c : Thread nD τ) ↦{Transfers.shareTokN fullShare 191} f)
      ∗ (hbM1.view.loc (c : Thread nD τ) ↦{Transfers.shareTokN fullShare 190} f)
      ∗ (hbM1.view.loc (c : Thread nD τ) ↦{Transfers.shareTokN fullShare 189} f)
      ∗ (hbM1.view.loc (c : Thread nD τ) ↦{Transfers.shareTokN fullShare 188} f)
      ∗ (hbM1.view.loc (c : Thread nD τ) ↦{Transfers.shareTokN fullShare 187} f)
      ∗ (hbM1.view.loc (c : Thread nD τ) ↦{Transfers.shareTokN fullShare 186} f)
      ∗ (hbM1.view.loc (c : Thread nD τ) ↦{Transfers.shareTokN fullShare 185} f)
      ∗ (hbM1.view.loc (c : Thread nD τ) ↦{Transfers.shareTokN fullShare 184} f)
      ∗ (hbM1.view.loc (c : Thread nD τ) ↦{Transfers.shareTokN fullShare 183} f)
      ∗ (hbM1.view.loc (c : Thread nD τ) ↦{Transfers.shareTokN fullShare 182} f)
      ∗ (hbM1.view.loc (c : Thread nD τ) ↦{Transfers.shareTokN fullShare 181} f)
      ∗ (hbM1.view.loc (c : Thread nD τ) ↦{Transfers.shareTokN fullShare 180} f)
      ∗ (hbM1.view.loc (c : Thread nD τ) ↦{Transfers.shareTokN fullShare 179} f)
      ∗ (hbM1.view.loc (c : Thread nD τ) ↦{Transfers.shareTokN fullShare 178} f)
      ∗ (hbM1.view.loc (c : Thread nD τ) ↦{Transfers.shareTokN fullShare 177} f)
      ∗ (hbM1.view.loc (c : Thread nD τ) ↦{Transfers.shareTokN fullShare 176} f)
      ∗ (hbM1.view.loc (c : Thread nD τ) ↦{Transfers.shareTokN fullShare 175} f)
      ∗ (hbM1.view.loc (c : Thread nD τ) ↦{Transfers.shareTokN fullShare 174} f)
      ∗ (hbM1.view.loc (c : Thread nD τ) ↦{Transfers.shareTokN fullShare 173} f)
      ∗ (hbM1.view.loc (c : Thread nD τ) ↦{Transfers.shareTokN fullShare 172} f)
      ∗ (hbM1.view.loc (c : Thread nD τ) ↦{Transfers.shareTokN fullShare 171} f)
      ∗ (hbM1.view.loc (c : Thread nD τ) ↦{Transfers.shareTokN fullShare 170} f)
      ∗ (hbM1.view.loc (c : Thread nD τ) ↦{Transfers.shareTokN fullShare 169} f)
      ∗ (hbM1.view.loc (c : Thread nD τ) ↦{Transfers.shareTokN fullShare 168} f)
      ∗ (hbM1.view.loc (c : Thread nD τ) ↦{Transfers.shareTokN fullShare 167} f)
      ∗ (hbM1.view.loc (c : Thread nD τ) ↦{Transfers.shareTokN fullShare 166} f)
      ∗ (hbM1.view.loc (c : Thread nD τ) ↦{Transfers.shareTokN fullShare 165} f)
      ∗ (hbM1.view.loc (c : Thread nD τ) ↦{Transfers.shareTokN fullShare 164} f)
      ∗ (hbM1.view.loc (c : Thread nD τ) ↦{Transfers.shareTokN fullShare 163} f)
      ∗ (hbM1.view.loc (c : Thread nD τ) ↦{Transfers.shareTokN fullShare 162} f)
      ∗ (hbM1.view.loc (c : Thread nD τ) ↦{Transfers.shareTokN fullShare 161} f)
      ∗ (hbM1.view.loc (c : Thread nD τ) ↦{Transfers.shareTokN fullShare 160} f)
      ∗ (hbM1.view.loc (c : Thread nD τ) ↦{Transfers.shareTokN fullShare 159} f)
      ∗ (hbM1.view.loc (c : Thread nD τ) ↦{Transfers.shareTokN fullShare 158} f)
      ∗ (hbM1.view.loc (c : Thread nD τ) ↦{Transfers.shareTokN fullShare 157} f)
      ∗ (hbM1.view.loc (c : Thread nD τ) ↦{Transfers.shareTokN fullShare 156} f)
      ∗ (hbM1.view.loc (c : Thread nD τ) ↦{Transfers.shareTokN fullShare 155} f)
      ∗ (hbM1.view.loc (c : Thread nD τ) ↦{Transfers.shareTokN fullShare 154} f)
      ∗ (hbM1.view.loc (c : Thread nD τ) ↦{Transfers.shareTokN fullShare 153} f)
      ∗ (hbM1.view.loc (c : Thread nD τ) ↦{Transfers.shareTokN fullShare 152} f)
      ∗ (hbM1.view.loc (c : Thread nD τ) ↦{Transfers.shareTokN fullShare 151} f)
      ∗ (hbM1.view.loc (c : Thread nD τ) ↦{Transfers.shareTokN fullShare 150} f)
      ∗ (hbM1.view.loc (c : Thread nD τ) ↦{Transfers.shareTokN fullShare 149} f)
      ∗ (hbM1.view.loc (c : Thread nD τ) ↦{Transfers.shareTokN fullShare 148} f)
      ∗ (hbM1.view.loc (c : Thread nD τ) ↦{Transfers.shareTokN fullShare 147} f)
      ∗ (hbM1.view.loc (c : Thread nD τ) ↦{Transfers.shareTokN fullShare 146} f)
      ∗ (hbM1.view.loc (c : Thread nD τ) ↦{Transfers.shareTokN fullShare 145} f)
      ∗ (hbM1.view.loc (c : Thread nD τ) ↦{Transfers.shareTokN fullShare 144} f)
      ∗ (hbM1.view.loc (c : Thread nD τ) ↦{Transfers.shareTokN fullShare 143} f)
      ∗ (hbM1.view.loc (c : Thread nD τ) ↦{Transfers.shareTokN fullShare 142} f)
      ∗ (hbM1.view.loc (c : Thread nD τ) ↦{Transfers.shareTokN fullShare 141} f)
      ∗ (hbM1.view.loc (c : Thread nD τ) ↦{Transfers.shareTokN fullShare 140} f)
      ∗ (hbM1.view.loc (c : Thread nD τ) ↦{Transfers.shareTokN fullShare 139} f)
      ∗ (hbM1.view.loc (c : Thread nD τ) ↦{Transfers.shareTokN fullShare 138} f)
      ∗ (hbM1.view.loc (c : Thread nD τ) ↦{Transfers.shareTokN fullShare 137} f)
      ∗ (hbM1.view.loc (c : Thread nD τ) ↦{Transfers.shareTokN fullShare 136} f)
      ∗ (hbM1.view.loc (c : Thread nD τ) ↦{Transfers.shareTokN fullShare 135} f)
      ∗ (hbM1.view.loc (c : Thread nD τ) ↦{Transfers.shareTokN fullShare 134} f)
      ∗ (hbM1.view.loc (c : Thread nD τ) ↦{Transfers.shareTokN fullShare 133} f)
      ∗ (hbM1.view.loc (c : Thread nD τ) ↦{Transfers.shareTokN fullShare 132} f)
      ∗ (hbM1.view.loc (c : Thread nD τ) ↦{Transfers.shareTokN fullShare 131} f)
      ∗ (hbM1.view.loc (c : Thread nD τ) ↦{Transfers.shareTokN fullShare 130} f)
      ∗ (hbM1.view.loc (c : Thread nD τ) ↦{Transfers.shareTokN fullShare 129} f)
      ∗ (hbM1.view.loc (c : Thread nD τ) ↦{Transfers.shareTokN fullShare 128} f)
      ∗ (hbM1.view.loc (c : Thread nD τ) ↦{Transfers.shareTokN fullShare 127} f)
      ∗ (hbM1.view.loc (c : Thread nD τ) ↦{Transfers.shareTokN fullShare 126} f)
      ∗ (hbM1.view.loc (c : Thread nD τ) ↦{Transfers.shareTokN fullShare 125} f)
      ∗ (hbM1.view.loc (c : Thread nD τ) ↦{Transfers.shareTokN fullShare 124} f)
      ∗ (hbM1.view.loc (c : Thread nD τ) ↦{Transfers.shareTokN fullShare 123} f)
      ∗ (hbM1.view.loc (c : Thread nD τ) ↦{Transfers.shareTokN fullShare 122} f)
      ∗ (hbM1.view.loc (c : Thread nD τ) ↦{Transfers.shareTokN fullShare 121} f)
      ∗ (hbM1.view.loc (c : Thread nD τ) ↦{Transfers.shareTokN fullShare 120} f)
      ∗ (hbM1.view.loc (c : Thread nD τ) ↦{Transfers.shareTokN fullShare 119} f)
      ∗ (hbM1.view.loc (c : Thread nD τ) ↦{Transfers.shareTokN fullShare 118} f)
      ∗ (hbM1.view.loc (c : Thread nD τ) ↦{Transfers.shareTokN fullShare 117} f)
      ∗ (hbM1.view.loc (c : Thread nD τ) ↦{Transfers.shareTokN fullShare 116} f)
      ∗ (hbM1.view.loc (c : Thread nD τ) ↦{Transfers.shareTokN fullShare 115} f)
      ∗ (hbM1.view.loc (c : Thread nD τ) ↦{Transfers.shareTokN fullShare 114} f)
      ∗ (hbM1.view.loc (c : Thread nD τ) ↦{Transfers.shareTokN fullShare 113} f)
      ∗ (hbM1.view.loc (c : Thread nD τ) ↦{Transfers.shareTokN fullShare 112} f)
      ∗ (hbM1.view.loc (c : Thread nD τ) ↦{Transfers.shareTokN fullShare 111} f)
      ∗ (hbM1.view.loc (c : Thread nD τ) ↦{Transfers.shareTokN fullShare 110} f)
      ∗ (hbM1.view.loc (c : Thread nD τ) ↦{Transfers.shareTokN fullShare 109} f)
      ∗ (hbM1.view.loc (c : Thread nD τ) ↦{Transfers.shareTokN fullShare 108} f)
      ∗ (hbM1.view.loc (c : Thread nD τ) ↦{Transfers.shareTokN fullShare 107} f)
      ∗ (hbM1.view.loc (c : Thread nD τ) ↦{Transfers.shareTokN fullShare 106} f)
      ∗ (hbM1.view.loc (c : Thread nD τ) ↦{Transfers.shareTokN fullShare 105} f)
      ∗ (hbM1.view.loc (c : Thread nD τ) ↦{Transfers.shareTokN fullShare 104} f)
      ∗ (hbM1.view.loc (c : Thread nD τ) ↦{Transfers.shareTokN fullShare 103} f)
      ∗ (hbM1.view.loc (c : Thread nD τ) ↦{Transfers.shareTokN fullShare 102} f)
      ∗ (hbM1.view.loc (c : Thread nD τ) ↦{Transfers.shareTokN fullShare 101} f)
      ∗ (hbM1.view.loc (c : Thread nD τ) ↦{Transfers.shareTokN fullShare 100} f)
      ∗ (hbM1.view.loc (c : Thread nD τ) ↦{Transfers.shareTokN fullShare 99} f)
      ∗ (hbM1.view.loc (c : Thread nD τ) ↦{Transfers.shareTokN fullShare 98} f)
      ∗ (hbM1.view.loc (c : Thread nD τ) ↦{Transfers.shareTokN fullShare 97} f)
      ∗ (hbM1.view.loc (c : Thread nD τ) ↦{Transfers.shareTokN fullShare 96} f)
      ∗ (hbM1.view.loc (c : Thread nD τ) ↦{Transfers.shareTokN fullShare 95} f)
      ∗ (hbM1.view.loc (c : Thread nD τ) ↦{Transfers.shareTokN fullShare 94} f)
      ∗ (hbM1.view.loc (c : Thread nD τ) ↦{Transfers.shareTokN fullShare 93} f)
      ∗ (hbM1.view.loc (c : Thread nD τ) ↦{Transfers.shareTokN fullShare 92} f)
      ∗ (hbM1.view.loc (c : Thread nD τ) ↦{Transfers.shareTokN fullShare 91} f)
      ∗ (hbM1.view.loc (c : Thread nD τ) ↦{Transfers.shareTokN fullShare 90} f)
      ∗ (hbM1.view.loc (c : Thread nD τ) ↦{Transfers.shareTokN fullShare 89} f)
      ∗ (hbM1.view.loc (c : Thread nD τ) ↦{Transfers.shareTokN fullShare 88} f)
      ∗ (hbM1.view.loc (c : Thread nD τ) ↦{Transfers.shareTokN fullShare 87} f)
      ∗ (hbM1.view.loc (c : Thread nD τ) ↦{Transfers.shareTokN fullShare 86} f)
      ∗ (hbM1.view.loc (c : Thread nD τ) ↦{Transfers.shareTokN fullShare 85} f)
      ∗ (hbM1.view.loc (c : Thread nD τ) ↦{Transfers.shareTokN fullShare 84} f)
      ∗ (hbM1.view.loc (c : Thread nD τ) ↦{Transfers.shareTokN fullShare 83} f)
      ∗ (hbM1.view.loc (c : Thread nD τ) ↦{Transfers.shareTokN fullShare 82} f)
      ∗ (hbM1.view.loc (c : Thread nD τ) ↦{Transfers.shareTokN fullShare 81} f)
      ∗ (hbM1.view.loc (c : Thread nD τ) ↦{Transfers.shareTokN fullShare 80} f)
      ∗ (hbM1.view.loc (c : Thread nD τ) ↦{Transfers.shareTokN fullShare 79} f)
      ∗ (hbM1.view.loc (c : Thread nD τ) ↦{Transfers.shareTokN fullShare 78} f)
      ∗ (hbM1.view.loc (c : Thread nD τ) ↦{Transfers.shareTokN fullShare 77} f)
      ∗ (hbM1.view.loc (c : Thread nD τ) ↦{Transfers.shareTokN fullShare 76} f)
      ∗ (hbM1.view.loc (c : Thread nD τ) ↦{Transfers.shareTokN fullShare 75} f)
      ∗ (hbM1.view.loc (c : Thread nD τ) ↦{Transfers.shareTokN fullShare 74} f)
      ∗ (hbM1.view.loc (c : Thread nD τ) ↦{Transfers.shareTokN fullShare 73} f)
      ∗ (hbM1.view.loc (c : Thread nD τ) ↦{Transfers.shareTokN fullShare 72} f)
      ∗ (hbM1.view.loc (c : Thread nD τ) ↦{Transfers.shareTokN fullShare 71} f)
      ∗ (hbM1.view.loc (c : Thread nD τ) ↦{Transfers.shareTokN fullShare 70} f)
      ∗ (hbM1.view.loc (c : Thread nD τ) ↦{Transfers.shareTokN fullShare 69} f)
      ∗ (hbM1.view.loc (c : Thread nD τ) ↦{Transfers.shareTokN fullShare 68} f)
      ∗ (hbM1.view.loc (c : Thread nD τ) ↦{Transfers.shareTokN fullShare 67} f)
      ∗ (hbM1.view.loc (c : Thread nD τ) ↦{Transfers.shareTokN fullShare 66} f)
      ∗ (hbM1.view.loc (c : Thread nD τ) ↦{Transfers.shareTokN fullShare 65} f)
      ∗ (hbM1.view.loc (c : Thread nD τ) ↦{Transfers.shareTokN fullShare 64} f)
      ∗ (hbM1.view.loc (c : Thread nD τ) ↦{Transfers.shareTokN fullShare 63} f)
      ∗ (hbM1.view.loc (c : Thread nD τ) ↦{Transfers.shareTokN fullShare 62} f)
      ∗ (hbM1.view.loc (c : Thread nD τ) ↦{Transfers.shareTokN fullShare 61} f)
      ∗ (hbM1.view.loc (c : Thread nD τ) ↦{Transfers.shareTokN fullShare 60} f)
      ∗ (hbM1.view.loc (c : Thread nD τ) ↦{Transfers.shareTokN fullShare 59} f)
      ∗ (hbM1.view.loc (c : Thread nD τ) ↦{Transfers.shareTokN fullShare 58} f)
      ∗ (hbM1.view.loc (c : Thread nD τ) ↦{Transfers.shareTokN fullShare 57} f)
      ∗ (hbM1.view.loc (c : Thread nD τ) ↦{Transfers.shareTokN fullShare 56} f)
      ∗ (hbM1.view.loc (c : Thread nD τ) ↦{Transfers.shareTokN fullShare 55} f)
      ∗ (hbM1.view.loc (c : Thread nD τ) ↦{Transfers.shareTokN fullShare 54} f)
      ∗ (hbM1.view.loc (c : Thread nD τ) ↦{Transfers.shareTokN fullShare 53} f)
      ∗ (hbM1.view.loc (c : Thread nD τ) ↦{Transfers.shareTokN fullShare 52} f)
      ∗ (hbM1.view.loc (c : Thread nD τ) ↦{Transfers.shareTokN fullShare 51} f)
      ∗ (hbM1.view.loc (c : Thread nD τ) ↦{Transfers.shareTokN fullShare 50} f)
      ∗ (hbM1.view.loc (c : Thread nD τ) ↦{Transfers.shareTokN fullShare 49} f)
      ∗ (hbM1.view.loc (c : Thread nD τ) ↦{Transfers.shareTokN fullShare 48} f)
      ∗ (hbM1.view.loc (c : Thread nD τ) ↦{Transfers.shareTokN fullShare 47} f)
      ∗ (hbM1.view.loc (c : Thread nD τ) ↦{Transfers.shareTokN fullShare 46} f)
      ∗ (hbM1.view.loc (c : Thread nD τ) ↦{Transfers.shareTokN fullShare 45} f)
      ∗ (hbM1.view.loc (c : Thread nD τ) ↦{Transfers.shareTokN fullShare 44} f)
      ∗ (hbM1.view.loc (c : Thread nD τ) ↦{Transfers.shareTokN fullShare 43} f)
      ∗ (hbM1.view.loc (c : Thread nD τ) ↦{Transfers.shareTokN fullShare 42} f)
      ∗ (hbM1.view.loc (c : Thread nD τ) ↦{Transfers.shareTokN fullShare 41} f)
      ∗ (hbM1.view.loc (c : Thread nD τ) ↦{Transfers.shareTokN fullShare 40} f)
      ∗ (hbM1.view.loc (c : Thread nD τ) ↦{Transfers.shareTokN fullShare 39} f)
      ∗ (hbM1.view.loc (c : Thread nD τ) ↦{Transfers.shareTokN fullShare 38} f)
      ∗ (hbM1.view.loc (c : Thread nD τ) ↦{Transfers.shareTokN fullShare 37} f)
      ∗ (hbM1.view.loc (c : Thread nD τ) ↦{Transfers.shareTokN fullShare 36} f)
      ∗ (hbM1.view.loc (c : Thread nD τ) ↦{Transfers.shareTokN fullShare 35} f)
      ∗ (hbM1.view.loc (c : Thread nD τ) ↦{Transfers.shareTokN fullShare 34} f)
      ∗ (hbM1.view.loc (c : Thread nD τ) ↦{Transfers.shareTokN fullShare 33} f)
      ∗ (hbM1.view.loc (c : Thread nD τ) ↦{Transfers.shareTokN fullShare 32} f)
      ∗ (hbM1.view.loc (c : Thread nD τ) ↦{Transfers.shareTokN fullShare 31} f)
      ∗ (hbM1.view.loc (c : Thread nD τ) ↦{Transfers.shareTokN fullShare 30} f)
      ∗ (hbM1.view.loc (c : Thread nD τ) ↦{Transfers.shareTokN fullShare 29} f)
      ∗ (hbM1.view.loc (c : Thread nD τ) ↦{Transfers.shareTokN fullShare 28} f)
      ∗ (hbM1.view.loc (c : Thread nD τ) ↦{Transfers.shareTokN fullShare 27} f)
      ∗ (hbM1.view.loc (c : Thread nD τ) ↦{Transfers.shareTokN fullShare 26} f)
      ∗ (hbM1.view.loc (c : Thread nD τ) ↦{Transfers.shareTokN fullShare 25} f)
      ∗ (hbM1.view.loc (c : Thread nD τ) ↦{Transfers.shareTokN fullShare 24} f)
      ∗ (hbM1.view.loc (c : Thread nD τ) ↦{Transfers.shareTokN fullShare 23} f)
      ∗ (hbM1.view.loc (c : Thread nD τ) ↦{Transfers.shareTokN fullShare 22} f)
      ∗ (hbM1.view.loc (c : Thread nD τ) ↦{Transfers.shareTokN fullShare 21} f)
      ∗ (hbM1.view.loc (c : Thread nD τ) ↦{Transfers.shareTokN fullShare 20} f)
      ∗ (hbM1.view.loc (c : Thread nD τ) ↦{Transfers.shareTokN fullShare 19} f)
      ∗ (hbM1.view.loc (c : Thread nD τ) ↦{Transfers.shareTokN fullShare 18} f)
      ∗ (hbM1.view.loc (c : Thread nD τ) ↦{Transfers.shareTokN fullShare 17} f)
      ∗ (hbM1.view.loc (c : Thread nD τ) ↦{Transfers.shareTokN fullShare 16} f)
      ∗ (hbM1.view.loc (c : Thread nD τ) ↦{Transfers.shareTokN fullShare 15} f)
      ∗ (hbM1.view.loc (c : Thread nD τ) ↦{Transfers.shareTokN fullShare 14} f)
      ∗ (hbM1.view.loc (c : Thread nD τ) ↦{Transfers.shareTokN fullShare 13} f)
      ∗ (hbM1.view.loc (c : Thread nD τ) ↦{Transfers.shareTokN fullShare 12} f)
      ∗ (hbM1.view.loc (c : Thread nD τ) ↦{Transfers.shareTokN fullShare 11} f)
      ∗ (hbM1.view.loc (c : Thread nD τ) ↦{Transfers.shareTokN fullShare 10} f)
      ∗ (hbM1.view.loc (c : Thread nD τ) ↦{Transfers.shareTokN fullShare 9} f)
      ∗ (hbM1.view.loc (c : Thread nD τ) ↦{Transfers.shareTokN fullShare 8} f)
      ∗ (hbM1.view.loc (c : Thread nD τ) ↦{Transfers.shareTokN fullShare 7} f)
      ∗ (hbM1.view.loc (c : Thread nD τ) ↦{Transfers.shareTokN fullShare 6} f)
      ∗ (hbM1.view.loc (c : Thread nD τ) ↦{Transfers.shareTokN fullShare 5} f)
      ∗ (hbM1.view.loc (c : Thread nD τ) ↦{Transfers.shareTokN fullShare 4} f)
      ∗ (hbM1.view.loc (c : Thread nD τ) ↦{Transfers.shareTokN fullShare 3} f)
      ∗ (hbM1.view.loc (c : Thread nD τ) ↦{Transfers.shareTokN fullShare 2} f)
      ∗ (hbM1.view.loc (c : Thread nD τ) ↦{Transfers.shareTokN fullShare 1} f)
      ∗ (hbM1.view.loc (c : Thread nD τ) ↦{Transfers.shareTokN fullShare 0} f)) := by
  have h := (toks_chain (F := F) (ℓ := hbM1.view.loc (c : Thread nD τ)) f 394).1
  simp only [chainDown] at h
  exact h

set_option maxHeartbeats 8000000 in
/-- And joined back. -/
theorem hbV_join (c : Dev nD) (f : BufOf (F := F) c hbM1) :
    iprop((hbM1.view.loc (c : Thread nD τ) ↦{Transfers.shareDrop fullShare 394} f)
      ∗ (hbM1.view.loc (c : Thread nD τ) ↦{Transfers.shareTokN fullShare 393} f)
      ∗ (hbM1.view.loc (c : Thread nD τ) ↦{Transfers.shareTokN fullShare 392} f)
      ∗ (hbM1.view.loc (c : Thread nD τ) ↦{Transfers.shareTokN fullShare 391} f)
      ∗ (hbM1.view.loc (c : Thread nD τ) ↦{Transfers.shareTokN fullShare 390} f)
      ∗ (hbM1.view.loc (c : Thread nD τ) ↦{Transfers.shareTokN fullShare 389} f)
      ∗ (hbM1.view.loc (c : Thread nD τ) ↦{Transfers.shareTokN fullShare 388} f)
      ∗ (hbM1.view.loc (c : Thread nD τ) ↦{Transfers.shareTokN fullShare 387} f)
      ∗ (hbM1.view.loc (c : Thread nD τ) ↦{Transfers.shareTokN fullShare 386} f)
      ∗ (hbM1.view.loc (c : Thread nD τ) ↦{Transfers.shareTokN fullShare 385} f)
      ∗ (hbM1.view.loc (c : Thread nD τ) ↦{Transfers.shareTokN fullShare 384} f)
      ∗ (hbM1.view.loc (c : Thread nD τ) ↦{Transfers.shareTokN fullShare 383} f)
      ∗ (hbM1.view.loc (c : Thread nD τ) ↦{Transfers.shareTokN fullShare 382} f)
      ∗ (hbM1.view.loc (c : Thread nD τ) ↦{Transfers.shareTokN fullShare 381} f)
      ∗ (hbM1.view.loc (c : Thread nD τ) ↦{Transfers.shareTokN fullShare 380} f)
      ∗ (hbM1.view.loc (c : Thread nD τ) ↦{Transfers.shareTokN fullShare 379} f)
      ∗ (hbM1.view.loc (c : Thread nD τ) ↦{Transfers.shareTokN fullShare 378} f)
      ∗ (hbM1.view.loc (c : Thread nD τ) ↦{Transfers.shareTokN fullShare 377} f)
      ∗ (hbM1.view.loc (c : Thread nD τ) ↦{Transfers.shareTokN fullShare 376} f)
      ∗ (hbM1.view.loc (c : Thread nD τ) ↦{Transfers.shareTokN fullShare 375} f)
      ∗ (hbM1.view.loc (c : Thread nD τ) ↦{Transfers.shareTokN fullShare 374} f)
      ∗ (hbM1.view.loc (c : Thread nD τ) ↦{Transfers.shareTokN fullShare 373} f)
      ∗ (hbM1.view.loc (c : Thread nD τ) ↦{Transfers.shareTokN fullShare 372} f)
      ∗ (hbM1.view.loc (c : Thread nD τ) ↦{Transfers.shareTokN fullShare 371} f)
      ∗ (hbM1.view.loc (c : Thread nD τ) ↦{Transfers.shareTokN fullShare 370} f)
      ∗ (hbM1.view.loc (c : Thread nD τ) ↦{Transfers.shareTokN fullShare 369} f)
      ∗ (hbM1.view.loc (c : Thread nD τ) ↦{Transfers.shareTokN fullShare 368} f)
      ∗ (hbM1.view.loc (c : Thread nD τ) ↦{Transfers.shareTokN fullShare 367} f)
      ∗ (hbM1.view.loc (c : Thread nD τ) ↦{Transfers.shareTokN fullShare 366} f)
      ∗ (hbM1.view.loc (c : Thread nD τ) ↦{Transfers.shareTokN fullShare 365} f)
      ∗ (hbM1.view.loc (c : Thread nD τ) ↦{Transfers.shareTokN fullShare 364} f)
      ∗ (hbM1.view.loc (c : Thread nD τ) ↦{Transfers.shareTokN fullShare 363} f)
      ∗ (hbM1.view.loc (c : Thread nD τ) ↦{Transfers.shareTokN fullShare 362} f)
      ∗ (hbM1.view.loc (c : Thread nD τ) ↦{Transfers.shareTokN fullShare 361} f)
      ∗ (hbM1.view.loc (c : Thread nD τ) ↦{Transfers.shareTokN fullShare 360} f)
      ∗ (hbM1.view.loc (c : Thread nD τ) ↦{Transfers.shareTokN fullShare 359} f)
      ∗ (hbM1.view.loc (c : Thread nD τ) ↦{Transfers.shareTokN fullShare 358} f)
      ∗ (hbM1.view.loc (c : Thread nD τ) ↦{Transfers.shareTokN fullShare 357} f)
      ∗ (hbM1.view.loc (c : Thread nD τ) ↦{Transfers.shareTokN fullShare 356} f)
      ∗ (hbM1.view.loc (c : Thread nD τ) ↦{Transfers.shareTokN fullShare 355} f)
      ∗ (hbM1.view.loc (c : Thread nD τ) ↦{Transfers.shareTokN fullShare 354} f)
      ∗ (hbM1.view.loc (c : Thread nD τ) ↦{Transfers.shareTokN fullShare 353} f)
      ∗ (hbM1.view.loc (c : Thread nD τ) ↦{Transfers.shareTokN fullShare 352} f)
      ∗ (hbM1.view.loc (c : Thread nD τ) ↦{Transfers.shareTokN fullShare 351} f)
      ∗ (hbM1.view.loc (c : Thread nD τ) ↦{Transfers.shareTokN fullShare 350} f)
      ∗ (hbM1.view.loc (c : Thread nD τ) ↦{Transfers.shareTokN fullShare 349} f)
      ∗ (hbM1.view.loc (c : Thread nD τ) ↦{Transfers.shareTokN fullShare 348} f)
      ∗ (hbM1.view.loc (c : Thread nD τ) ↦{Transfers.shareTokN fullShare 347} f)
      ∗ (hbM1.view.loc (c : Thread nD τ) ↦{Transfers.shareTokN fullShare 346} f)
      ∗ (hbM1.view.loc (c : Thread nD τ) ↦{Transfers.shareTokN fullShare 345} f)
      ∗ (hbM1.view.loc (c : Thread nD τ) ↦{Transfers.shareTokN fullShare 344} f)
      ∗ (hbM1.view.loc (c : Thread nD τ) ↦{Transfers.shareTokN fullShare 343} f)
      ∗ (hbM1.view.loc (c : Thread nD τ) ↦{Transfers.shareTokN fullShare 342} f)
      ∗ (hbM1.view.loc (c : Thread nD τ) ↦{Transfers.shareTokN fullShare 341} f)
      ∗ (hbM1.view.loc (c : Thread nD τ) ↦{Transfers.shareTokN fullShare 340} f)
      ∗ (hbM1.view.loc (c : Thread nD τ) ↦{Transfers.shareTokN fullShare 339} f)
      ∗ (hbM1.view.loc (c : Thread nD τ) ↦{Transfers.shareTokN fullShare 338} f)
      ∗ (hbM1.view.loc (c : Thread nD τ) ↦{Transfers.shareTokN fullShare 337} f)
      ∗ (hbM1.view.loc (c : Thread nD τ) ↦{Transfers.shareTokN fullShare 336} f)
      ∗ (hbM1.view.loc (c : Thread nD τ) ↦{Transfers.shareTokN fullShare 335} f)
      ∗ (hbM1.view.loc (c : Thread nD τ) ↦{Transfers.shareTokN fullShare 334} f)
      ∗ (hbM1.view.loc (c : Thread nD τ) ↦{Transfers.shareTokN fullShare 333} f)
      ∗ (hbM1.view.loc (c : Thread nD τ) ↦{Transfers.shareTokN fullShare 332} f)
      ∗ (hbM1.view.loc (c : Thread nD τ) ↦{Transfers.shareTokN fullShare 331} f)
      ∗ (hbM1.view.loc (c : Thread nD τ) ↦{Transfers.shareTokN fullShare 330} f)
      ∗ (hbM1.view.loc (c : Thread nD τ) ↦{Transfers.shareTokN fullShare 329} f)
      ∗ (hbM1.view.loc (c : Thread nD τ) ↦{Transfers.shareTokN fullShare 328} f)
      ∗ (hbM1.view.loc (c : Thread nD τ) ↦{Transfers.shareTokN fullShare 327} f)
      ∗ (hbM1.view.loc (c : Thread nD τ) ↦{Transfers.shareTokN fullShare 326} f)
      ∗ (hbM1.view.loc (c : Thread nD τ) ↦{Transfers.shareTokN fullShare 325} f)
      ∗ (hbM1.view.loc (c : Thread nD τ) ↦{Transfers.shareTokN fullShare 324} f)
      ∗ (hbM1.view.loc (c : Thread nD τ) ↦{Transfers.shareTokN fullShare 323} f)
      ∗ (hbM1.view.loc (c : Thread nD τ) ↦{Transfers.shareTokN fullShare 322} f)
      ∗ (hbM1.view.loc (c : Thread nD τ) ↦{Transfers.shareTokN fullShare 321} f)
      ∗ (hbM1.view.loc (c : Thread nD τ) ↦{Transfers.shareTokN fullShare 320} f)
      ∗ (hbM1.view.loc (c : Thread nD τ) ↦{Transfers.shareTokN fullShare 319} f)
      ∗ (hbM1.view.loc (c : Thread nD τ) ↦{Transfers.shareTokN fullShare 318} f)
      ∗ (hbM1.view.loc (c : Thread nD τ) ↦{Transfers.shareTokN fullShare 317} f)
      ∗ (hbM1.view.loc (c : Thread nD τ) ↦{Transfers.shareTokN fullShare 316} f)
      ∗ (hbM1.view.loc (c : Thread nD τ) ↦{Transfers.shareTokN fullShare 315} f)
      ∗ (hbM1.view.loc (c : Thread nD τ) ↦{Transfers.shareTokN fullShare 314} f)
      ∗ (hbM1.view.loc (c : Thread nD τ) ↦{Transfers.shareTokN fullShare 313} f)
      ∗ (hbM1.view.loc (c : Thread nD τ) ↦{Transfers.shareTokN fullShare 312} f)
      ∗ (hbM1.view.loc (c : Thread nD τ) ↦{Transfers.shareTokN fullShare 311} f)
      ∗ (hbM1.view.loc (c : Thread nD τ) ↦{Transfers.shareTokN fullShare 310} f)
      ∗ (hbM1.view.loc (c : Thread nD τ) ↦{Transfers.shareTokN fullShare 309} f)
      ∗ (hbM1.view.loc (c : Thread nD τ) ↦{Transfers.shareTokN fullShare 308} f)
      ∗ (hbM1.view.loc (c : Thread nD τ) ↦{Transfers.shareTokN fullShare 307} f)
      ∗ (hbM1.view.loc (c : Thread nD τ) ↦{Transfers.shareTokN fullShare 306} f)
      ∗ (hbM1.view.loc (c : Thread nD τ) ↦{Transfers.shareTokN fullShare 305} f)
      ∗ (hbM1.view.loc (c : Thread nD τ) ↦{Transfers.shareTokN fullShare 304} f)
      ∗ (hbM1.view.loc (c : Thread nD τ) ↦{Transfers.shareTokN fullShare 303} f)
      ∗ (hbM1.view.loc (c : Thread nD τ) ↦{Transfers.shareTokN fullShare 302} f)
      ∗ (hbM1.view.loc (c : Thread nD τ) ↦{Transfers.shareTokN fullShare 301} f)
      ∗ (hbM1.view.loc (c : Thread nD τ) ↦{Transfers.shareTokN fullShare 300} f)
      ∗ (hbM1.view.loc (c : Thread nD τ) ↦{Transfers.shareTokN fullShare 299} f)
      ∗ (hbM1.view.loc (c : Thread nD τ) ↦{Transfers.shareTokN fullShare 298} f)
      ∗ (hbM1.view.loc (c : Thread nD τ) ↦{Transfers.shareTokN fullShare 297} f)
      ∗ (hbM1.view.loc (c : Thread nD τ) ↦{Transfers.shareTokN fullShare 296} f)
      ∗ (hbM1.view.loc (c : Thread nD τ) ↦{Transfers.shareTokN fullShare 295} f)
      ∗ (hbM1.view.loc (c : Thread nD τ) ↦{Transfers.shareTokN fullShare 294} f)
      ∗ (hbM1.view.loc (c : Thread nD τ) ↦{Transfers.shareTokN fullShare 293} f)
      ∗ (hbM1.view.loc (c : Thread nD τ) ↦{Transfers.shareTokN fullShare 292} f)
      ∗ (hbM1.view.loc (c : Thread nD τ) ↦{Transfers.shareTokN fullShare 291} f)
      ∗ (hbM1.view.loc (c : Thread nD τ) ↦{Transfers.shareTokN fullShare 290} f)
      ∗ (hbM1.view.loc (c : Thread nD τ) ↦{Transfers.shareTokN fullShare 289} f)
      ∗ (hbM1.view.loc (c : Thread nD τ) ↦{Transfers.shareTokN fullShare 288} f)
      ∗ (hbM1.view.loc (c : Thread nD τ) ↦{Transfers.shareTokN fullShare 287} f)
      ∗ (hbM1.view.loc (c : Thread nD τ) ↦{Transfers.shareTokN fullShare 286} f)
      ∗ (hbM1.view.loc (c : Thread nD τ) ↦{Transfers.shareTokN fullShare 285} f)
      ∗ (hbM1.view.loc (c : Thread nD τ) ↦{Transfers.shareTokN fullShare 284} f)
      ∗ (hbM1.view.loc (c : Thread nD τ) ↦{Transfers.shareTokN fullShare 283} f)
      ∗ (hbM1.view.loc (c : Thread nD τ) ↦{Transfers.shareTokN fullShare 282} f)
      ∗ (hbM1.view.loc (c : Thread nD τ) ↦{Transfers.shareTokN fullShare 281} f)
      ∗ (hbM1.view.loc (c : Thread nD τ) ↦{Transfers.shareTokN fullShare 280} f)
      ∗ (hbM1.view.loc (c : Thread nD τ) ↦{Transfers.shareTokN fullShare 279} f)
      ∗ (hbM1.view.loc (c : Thread nD τ) ↦{Transfers.shareTokN fullShare 278} f)
      ∗ (hbM1.view.loc (c : Thread nD τ) ↦{Transfers.shareTokN fullShare 277} f)
      ∗ (hbM1.view.loc (c : Thread nD τ) ↦{Transfers.shareTokN fullShare 276} f)
      ∗ (hbM1.view.loc (c : Thread nD τ) ↦{Transfers.shareTokN fullShare 275} f)
      ∗ (hbM1.view.loc (c : Thread nD τ) ↦{Transfers.shareTokN fullShare 274} f)
      ∗ (hbM1.view.loc (c : Thread nD τ) ↦{Transfers.shareTokN fullShare 273} f)
      ∗ (hbM1.view.loc (c : Thread nD τ) ↦{Transfers.shareTokN fullShare 272} f)
      ∗ (hbM1.view.loc (c : Thread nD τ) ↦{Transfers.shareTokN fullShare 271} f)
      ∗ (hbM1.view.loc (c : Thread nD τ) ↦{Transfers.shareTokN fullShare 270} f)
      ∗ (hbM1.view.loc (c : Thread nD τ) ↦{Transfers.shareTokN fullShare 269} f)
      ∗ (hbM1.view.loc (c : Thread nD τ) ↦{Transfers.shareTokN fullShare 268} f)
      ∗ (hbM1.view.loc (c : Thread nD τ) ↦{Transfers.shareTokN fullShare 267} f)
      ∗ (hbM1.view.loc (c : Thread nD τ) ↦{Transfers.shareTokN fullShare 266} f)
      ∗ (hbM1.view.loc (c : Thread nD τ) ↦{Transfers.shareTokN fullShare 265} f)
      ∗ (hbM1.view.loc (c : Thread nD τ) ↦{Transfers.shareTokN fullShare 264} f)
      ∗ (hbM1.view.loc (c : Thread nD τ) ↦{Transfers.shareTokN fullShare 263} f)
      ∗ (hbM1.view.loc (c : Thread nD τ) ↦{Transfers.shareTokN fullShare 262} f)
      ∗ (hbM1.view.loc (c : Thread nD τ) ↦{Transfers.shareTokN fullShare 261} f)
      ∗ (hbM1.view.loc (c : Thread nD τ) ↦{Transfers.shareTokN fullShare 260} f)
      ∗ (hbM1.view.loc (c : Thread nD τ) ↦{Transfers.shareTokN fullShare 259} f)
      ∗ (hbM1.view.loc (c : Thread nD τ) ↦{Transfers.shareTokN fullShare 258} f)
      ∗ (hbM1.view.loc (c : Thread nD τ) ↦{Transfers.shareTokN fullShare 257} f)
      ∗ (hbM1.view.loc (c : Thread nD τ) ↦{Transfers.shareTokN fullShare 256} f)
      ∗ (hbM1.view.loc (c : Thread nD τ) ↦{Transfers.shareTokN fullShare 255} f)
      ∗ (hbM1.view.loc (c : Thread nD τ) ↦{Transfers.shareTokN fullShare 254} f)
      ∗ (hbM1.view.loc (c : Thread nD τ) ↦{Transfers.shareTokN fullShare 253} f)
      ∗ (hbM1.view.loc (c : Thread nD τ) ↦{Transfers.shareTokN fullShare 252} f)
      ∗ (hbM1.view.loc (c : Thread nD τ) ↦{Transfers.shareTokN fullShare 251} f)
      ∗ (hbM1.view.loc (c : Thread nD τ) ↦{Transfers.shareTokN fullShare 250} f)
      ∗ (hbM1.view.loc (c : Thread nD τ) ↦{Transfers.shareTokN fullShare 249} f)
      ∗ (hbM1.view.loc (c : Thread nD τ) ↦{Transfers.shareTokN fullShare 248} f)
      ∗ (hbM1.view.loc (c : Thread nD τ) ↦{Transfers.shareTokN fullShare 247} f)
      ∗ (hbM1.view.loc (c : Thread nD τ) ↦{Transfers.shareTokN fullShare 246} f)
      ∗ (hbM1.view.loc (c : Thread nD τ) ↦{Transfers.shareTokN fullShare 245} f)
      ∗ (hbM1.view.loc (c : Thread nD τ) ↦{Transfers.shareTokN fullShare 244} f)
      ∗ (hbM1.view.loc (c : Thread nD τ) ↦{Transfers.shareTokN fullShare 243} f)
      ∗ (hbM1.view.loc (c : Thread nD τ) ↦{Transfers.shareTokN fullShare 242} f)
      ∗ (hbM1.view.loc (c : Thread nD τ) ↦{Transfers.shareTokN fullShare 241} f)
      ∗ (hbM1.view.loc (c : Thread nD τ) ↦{Transfers.shareTokN fullShare 240} f)
      ∗ (hbM1.view.loc (c : Thread nD τ) ↦{Transfers.shareTokN fullShare 239} f)
      ∗ (hbM1.view.loc (c : Thread nD τ) ↦{Transfers.shareTokN fullShare 238} f)
      ∗ (hbM1.view.loc (c : Thread nD τ) ↦{Transfers.shareTokN fullShare 237} f)
      ∗ (hbM1.view.loc (c : Thread nD τ) ↦{Transfers.shareTokN fullShare 236} f)
      ∗ (hbM1.view.loc (c : Thread nD τ) ↦{Transfers.shareTokN fullShare 235} f)
      ∗ (hbM1.view.loc (c : Thread nD τ) ↦{Transfers.shareTokN fullShare 234} f)
      ∗ (hbM1.view.loc (c : Thread nD τ) ↦{Transfers.shareTokN fullShare 233} f)
      ∗ (hbM1.view.loc (c : Thread nD τ) ↦{Transfers.shareTokN fullShare 232} f)
      ∗ (hbM1.view.loc (c : Thread nD τ) ↦{Transfers.shareTokN fullShare 231} f)
      ∗ (hbM1.view.loc (c : Thread nD τ) ↦{Transfers.shareTokN fullShare 230} f)
      ∗ (hbM1.view.loc (c : Thread nD τ) ↦{Transfers.shareTokN fullShare 229} f)
      ∗ (hbM1.view.loc (c : Thread nD τ) ↦{Transfers.shareTokN fullShare 228} f)
      ∗ (hbM1.view.loc (c : Thread nD τ) ↦{Transfers.shareTokN fullShare 227} f)
      ∗ (hbM1.view.loc (c : Thread nD τ) ↦{Transfers.shareTokN fullShare 226} f)
      ∗ (hbM1.view.loc (c : Thread nD τ) ↦{Transfers.shareTokN fullShare 225} f)
      ∗ (hbM1.view.loc (c : Thread nD τ) ↦{Transfers.shareTokN fullShare 224} f)
      ∗ (hbM1.view.loc (c : Thread nD τ) ↦{Transfers.shareTokN fullShare 223} f)
      ∗ (hbM1.view.loc (c : Thread nD τ) ↦{Transfers.shareTokN fullShare 222} f)
      ∗ (hbM1.view.loc (c : Thread nD τ) ↦{Transfers.shareTokN fullShare 221} f)
      ∗ (hbM1.view.loc (c : Thread nD τ) ↦{Transfers.shareTokN fullShare 220} f)
      ∗ (hbM1.view.loc (c : Thread nD τ) ↦{Transfers.shareTokN fullShare 219} f)
      ∗ (hbM1.view.loc (c : Thread nD τ) ↦{Transfers.shareTokN fullShare 218} f)
      ∗ (hbM1.view.loc (c : Thread nD τ) ↦{Transfers.shareTokN fullShare 217} f)
      ∗ (hbM1.view.loc (c : Thread nD τ) ↦{Transfers.shareTokN fullShare 216} f)
      ∗ (hbM1.view.loc (c : Thread nD τ) ↦{Transfers.shareTokN fullShare 215} f)
      ∗ (hbM1.view.loc (c : Thread nD τ) ↦{Transfers.shareTokN fullShare 214} f)
      ∗ (hbM1.view.loc (c : Thread nD τ) ↦{Transfers.shareTokN fullShare 213} f)
      ∗ (hbM1.view.loc (c : Thread nD τ) ↦{Transfers.shareTokN fullShare 212} f)
      ∗ (hbM1.view.loc (c : Thread nD τ) ↦{Transfers.shareTokN fullShare 211} f)
      ∗ (hbM1.view.loc (c : Thread nD τ) ↦{Transfers.shareTokN fullShare 210} f)
      ∗ (hbM1.view.loc (c : Thread nD τ) ↦{Transfers.shareTokN fullShare 209} f)
      ∗ (hbM1.view.loc (c : Thread nD τ) ↦{Transfers.shareTokN fullShare 208} f)
      ∗ (hbM1.view.loc (c : Thread nD τ) ↦{Transfers.shareTokN fullShare 207} f)
      ∗ (hbM1.view.loc (c : Thread nD τ) ↦{Transfers.shareTokN fullShare 206} f)
      ∗ (hbM1.view.loc (c : Thread nD τ) ↦{Transfers.shareTokN fullShare 205} f)
      ∗ (hbM1.view.loc (c : Thread nD τ) ↦{Transfers.shareTokN fullShare 204} f)
      ∗ (hbM1.view.loc (c : Thread nD τ) ↦{Transfers.shareTokN fullShare 203} f)
      ∗ (hbM1.view.loc (c : Thread nD τ) ↦{Transfers.shareTokN fullShare 202} f)
      ∗ (hbM1.view.loc (c : Thread nD τ) ↦{Transfers.shareTokN fullShare 201} f)
      ∗ (hbM1.view.loc (c : Thread nD τ) ↦{Transfers.shareTokN fullShare 200} f)
      ∗ (hbM1.view.loc (c : Thread nD τ) ↦{Transfers.shareTokN fullShare 199} f)
      ∗ (hbM1.view.loc (c : Thread nD τ) ↦{Transfers.shareTokN fullShare 198} f)
      ∗ (hbM1.view.loc (c : Thread nD τ) ↦{Transfers.shareTokN fullShare 197} f)
      ∗ (hbM1.view.loc (c : Thread nD τ) ↦{Transfers.shareTokN fullShare 196} f)
      ∗ (hbM1.view.loc (c : Thread nD τ) ↦{Transfers.shareTokN fullShare 195} f)
      ∗ (hbM1.view.loc (c : Thread nD τ) ↦{Transfers.shareTokN fullShare 194} f)
      ∗ (hbM1.view.loc (c : Thread nD τ) ↦{Transfers.shareTokN fullShare 193} f)
      ∗ (hbM1.view.loc (c : Thread nD τ) ↦{Transfers.shareTokN fullShare 192} f)
      ∗ (hbM1.view.loc (c : Thread nD τ) ↦{Transfers.shareTokN fullShare 191} f)
      ∗ (hbM1.view.loc (c : Thread nD τ) ↦{Transfers.shareTokN fullShare 190} f)
      ∗ (hbM1.view.loc (c : Thread nD τ) ↦{Transfers.shareTokN fullShare 189} f)
      ∗ (hbM1.view.loc (c : Thread nD τ) ↦{Transfers.shareTokN fullShare 188} f)
      ∗ (hbM1.view.loc (c : Thread nD τ) ↦{Transfers.shareTokN fullShare 187} f)
      ∗ (hbM1.view.loc (c : Thread nD τ) ↦{Transfers.shareTokN fullShare 186} f)
      ∗ (hbM1.view.loc (c : Thread nD τ) ↦{Transfers.shareTokN fullShare 185} f)
      ∗ (hbM1.view.loc (c : Thread nD τ) ↦{Transfers.shareTokN fullShare 184} f)
      ∗ (hbM1.view.loc (c : Thread nD τ) ↦{Transfers.shareTokN fullShare 183} f)
      ∗ (hbM1.view.loc (c : Thread nD τ) ↦{Transfers.shareTokN fullShare 182} f)
      ∗ (hbM1.view.loc (c : Thread nD τ) ↦{Transfers.shareTokN fullShare 181} f)
      ∗ (hbM1.view.loc (c : Thread nD τ) ↦{Transfers.shareTokN fullShare 180} f)
      ∗ (hbM1.view.loc (c : Thread nD τ) ↦{Transfers.shareTokN fullShare 179} f)
      ∗ (hbM1.view.loc (c : Thread nD τ) ↦{Transfers.shareTokN fullShare 178} f)
      ∗ (hbM1.view.loc (c : Thread nD τ) ↦{Transfers.shareTokN fullShare 177} f)
      ∗ (hbM1.view.loc (c : Thread nD τ) ↦{Transfers.shareTokN fullShare 176} f)
      ∗ (hbM1.view.loc (c : Thread nD τ) ↦{Transfers.shareTokN fullShare 175} f)
      ∗ (hbM1.view.loc (c : Thread nD τ) ↦{Transfers.shareTokN fullShare 174} f)
      ∗ (hbM1.view.loc (c : Thread nD τ) ↦{Transfers.shareTokN fullShare 173} f)
      ∗ (hbM1.view.loc (c : Thread nD τ) ↦{Transfers.shareTokN fullShare 172} f)
      ∗ (hbM1.view.loc (c : Thread nD τ) ↦{Transfers.shareTokN fullShare 171} f)
      ∗ (hbM1.view.loc (c : Thread nD τ) ↦{Transfers.shareTokN fullShare 170} f)
      ∗ (hbM1.view.loc (c : Thread nD τ) ↦{Transfers.shareTokN fullShare 169} f)
      ∗ (hbM1.view.loc (c : Thread nD τ) ↦{Transfers.shareTokN fullShare 168} f)
      ∗ (hbM1.view.loc (c : Thread nD τ) ↦{Transfers.shareTokN fullShare 167} f)
      ∗ (hbM1.view.loc (c : Thread nD τ) ↦{Transfers.shareTokN fullShare 166} f)
      ∗ (hbM1.view.loc (c : Thread nD τ) ↦{Transfers.shareTokN fullShare 165} f)
      ∗ (hbM1.view.loc (c : Thread nD τ) ↦{Transfers.shareTokN fullShare 164} f)
      ∗ (hbM1.view.loc (c : Thread nD τ) ↦{Transfers.shareTokN fullShare 163} f)
      ∗ (hbM1.view.loc (c : Thread nD τ) ↦{Transfers.shareTokN fullShare 162} f)
      ∗ (hbM1.view.loc (c : Thread nD τ) ↦{Transfers.shareTokN fullShare 161} f)
      ∗ (hbM1.view.loc (c : Thread nD τ) ↦{Transfers.shareTokN fullShare 160} f)
      ∗ (hbM1.view.loc (c : Thread nD τ) ↦{Transfers.shareTokN fullShare 159} f)
      ∗ (hbM1.view.loc (c : Thread nD τ) ↦{Transfers.shareTokN fullShare 158} f)
      ∗ (hbM1.view.loc (c : Thread nD τ) ↦{Transfers.shareTokN fullShare 157} f)
      ∗ (hbM1.view.loc (c : Thread nD τ) ↦{Transfers.shareTokN fullShare 156} f)
      ∗ (hbM1.view.loc (c : Thread nD τ) ↦{Transfers.shareTokN fullShare 155} f)
      ∗ (hbM1.view.loc (c : Thread nD τ) ↦{Transfers.shareTokN fullShare 154} f)
      ∗ (hbM1.view.loc (c : Thread nD τ) ↦{Transfers.shareTokN fullShare 153} f)
      ∗ (hbM1.view.loc (c : Thread nD τ) ↦{Transfers.shareTokN fullShare 152} f)
      ∗ (hbM1.view.loc (c : Thread nD τ) ↦{Transfers.shareTokN fullShare 151} f)
      ∗ (hbM1.view.loc (c : Thread nD τ) ↦{Transfers.shareTokN fullShare 150} f)
      ∗ (hbM1.view.loc (c : Thread nD τ) ↦{Transfers.shareTokN fullShare 149} f)
      ∗ (hbM1.view.loc (c : Thread nD τ) ↦{Transfers.shareTokN fullShare 148} f)
      ∗ (hbM1.view.loc (c : Thread nD τ) ↦{Transfers.shareTokN fullShare 147} f)
      ∗ (hbM1.view.loc (c : Thread nD τ) ↦{Transfers.shareTokN fullShare 146} f)
      ∗ (hbM1.view.loc (c : Thread nD τ) ↦{Transfers.shareTokN fullShare 145} f)
      ∗ (hbM1.view.loc (c : Thread nD τ) ↦{Transfers.shareTokN fullShare 144} f)
      ∗ (hbM1.view.loc (c : Thread nD τ) ↦{Transfers.shareTokN fullShare 143} f)
      ∗ (hbM1.view.loc (c : Thread nD τ) ↦{Transfers.shareTokN fullShare 142} f)
      ∗ (hbM1.view.loc (c : Thread nD τ) ↦{Transfers.shareTokN fullShare 141} f)
      ∗ (hbM1.view.loc (c : Thread nD τ) ↦{Transfers.shareTokN fullShare 140} f)
      ∗ (hbM1.view.loc (c : Thread nD τ) ↦{Transfers.shareTokN fullShare 139} f)
      ∗ (hbM1.view.loc (c : Thread nD τ) ↦{Transfers.shareTokN fullShare 138} f)
      ∗ (hbM1.view.loc (c : Thread nD τ) ↦{Transfers.shareTokN fullShare 137} f)
      ∗ (hbM1.view.loc (c : Thread nD τ) ↦{Transfers.shareTokN fullShare 136} f)
      ∗ (hbM1.view.loc (c : Thread nD τ) ↦{Transfers.shareTokN fullShare 135} f)
      ∗ (hbM1.view.loc (c : Thread nD τ) ↦{Transfers.shareTokN fullShare 134} f)
      ∗ (hbM1.view.loc (c : Thread nD τ) ↦{Transfers.shareTokN fullShare 133} f)
      ∗ (hbM1.view.loc (c : Thread nD τ) ↦{Transfers.shareTokN fullShare 132} f)
      ∗ (hbM1.view.loc (c : Thread nD τ) ↦{Transfers.shareTokN fullShare 131} f)
      ∗ (hbM1.view.loc (c : Thread nD τ) ↦{Transfers.shareTokN fullShare 130} f)
      ∗ (hbM1.view.loc (c : Thread nD τ) ↦{Transfers.shareTokN fullShare 129} f)
      ∗ (hbM1.view.loc (c : Thread nD τ) ↦{Transfers.shareTokN fullShare 128} f)
      ∗ (hbM1.view.loc (c : Thread nD τ) ↦{Transfers.shareTokN fullShare 127} f)
      ∗ (hbM1.view.loc (c : Thread nD τ) ↦{Transfers.shareTokN fullShare 126} f)
      ∗ (hbM1.view.loc (c : Thread nD τ) ↦{Transfers.shareTokN fullShare 125} f)
      ∗ (hbM1.view.loc (c : Thread nD τ) ↦{Transfers.shareTokN fullShare 124} f)
      ∗ (hbM1.view.loc (c : Thread nD τ) ↦{Transfers.shareTokN fullShare 123} f)
      ∗ (hbM1.view.loc (c : Thread nD τ) ↦{Transfers.shareTokN fullShare 122} f)
      ∗ (hbM1.view.loc (c : Thread nD τ) ↦{Transfers.shareTokN fullShare 121} f)
      ∗ (hbM1.view.loc (c : Thread nD τ) ↦{Transfers.shareTokN fullShare 120} f)
      ∗ (hbM1.view.loc (c : Thread nD τ) ↦{Transfers.shareTokN fullShare 119} f)
      ∗ (hbM1.view.loc (c : Thread nD τ) ↦{Transfers.shareTokN fullShare 118} f)
      ∗ (hbM1.view.loc (c : Thread nD τ) ↦{Transfers.shareTokN fullShare 117} f)
      ∗ (hbM1.view.loc (c : Thread nD τ) ↦{Transfers.shareTokN fullShare 116} f)
      ∗ (hbM1.view.loc (c : Thread nD τ) ↦{Transfers.shareTokN fullShare 115} f)
      ∗ (hbM1.view.loc (c : Thread nD τ) ↦{Transfers.shareTokN fullShare 114} f)
      ∗ (hbM1.view.loc (c : Thread nD τ) ↦{Transfers.shareTokN fullShare 113} f)
      ∗ (hbM1.view.loc (c : Thread nD τ) ↦{Transfers.shareTokN fullShare 112} f)
      ∗ (hbM1.view.loc (c : Thread nD τ) ↦{Transfers.shareTokN fullShare 111} f)
      ∗ (hbM1.view.loc (c : Thread nD τ) ↦{Transfers.shareTokN fullShare 110} f)
      ∗ (hbM1.view.loc (c : Thread nD τ) ↦{Transfers.shareTokN fullShare 109} f)
      ∗ (hbM1.view.loc (c : Thread nD τ) ↦{Transfers.shareTokN fullShare 108} f)
      ∗ (hbM1.view.loc (c : Thread nD τ) ↦{Transfers.shareTokN fullShare 107} f)
      ∗ (hbM1.view.loc (c : Thread nD τ) ↦{Transfers.shareTokN fullShare 106} f)
      ∗ (hbM1.view.loc (c : Thread nD τ) ↦{Transfers.shareTokN fullShare 105} f)
      ∗ (hbM1.view.loc (c : Thread nD τ) ↦{Transfers.shareTokN fullShare 104} f)
      ∗ (hbM1.view.loc (c : Thread nD τ) ↦{Transfers.shareTokN fullShare 103} f)
      ∗ (hbM1.view.loc (c : Thread nD τ) ↦{Transfers.shareTokN fullShare 102} f)
      ∗ (hbM1.view.loc (c : Thread nD τ) ↦{Transfers.shareTokN fullShare 101} f)
      ∗ (hbM1.view.loc (c : Thread nD τ) ↦{Transfers.shareTokN fullShare 100} f)
      ∗ (hbM1.view.loc (c : Thread nD τ) ↦{Transfers.shareTokN fullShare 99} f)
      ∗ (hbM1.view.loc (c : Thread nD τ) ↦{Transfers.shareTokN fullShare 98} f)
      ∗ (hbM1.view.loc (c : Thread nD τ) ↦{Transfers.shareTokN fullShare 97} f)
      ∗ (hbM1.view.loc (c : Thread nD τ) ↦{Transfers.shareTokN fullShare 96} f)
      ∗ (hbM1.view.loc (c : Thread nD τ) ↦{Transfers.shareTokN fullShare 95} f)
      ∗ (hbM1.view.loc (c : Thread nD τ) ↦{Transfers.shareTokN fullShare 94} f)
      ∗ (hbM1.view.loc (c : Thread nD τ) ↦{Transfers.shareTokN fullShare 93} f)
      ∗ (hbM1.view.loc (c : Thread nD τ) ↦{Transfers.shareTokN fullShare 92} f)
      ∗ (hbM1.view.loc (c : Thread nD τ) ↦{Transfers.shareTokN fullShare 91} f)
      ∗ (hbM1.view.loc (c : Thread nD τ) ↦{Transfers.shareTokN fullShare 90} f)
      ∗ (hbM1.view.loc (c : Thread nD τ) ↦{Transfers.shareTokN fullShare 89} f)
      ∗ (hbM1.view.loc (c : Thread nD τ) ↦{Transfers.shareTokN fullShare 88} f)
      ∗ (hbM1.view.loc (c : Thread nD τ) ↦{Transfers.shareTokN fullShare 87} f)
      ∗ (hbM1.view.loc (c : Thread nD τ) ↦{Transfers.shareTokN fullShare 86} f)
      ∗ (hbM1.view.loc (c : Thread nD τ) ↦{Transfers.shareTokN fullShare 85} f)
      ∗ (hbM1.view.loc (c : Thread nD τ) ↦{Transfers.shareTokN fullShare 84} f)
      ∗ (hbM1.view.loc (c : Thread nD τ) ↦{Transfers.shareTokN fullShare 83} f)
      ∗ (hbM1.view.loc (c : Thread nD τ) ↦{Transfers.shareTokN fullShare 82} f)
      ∗ (hbM1.view.loc (c : Thread nD τ) ↦{Transfers.shareTokN fullShare 81} f)
      ∗ (hbM1.view.loc (c : Thread nD τ) ↦{Transfers.shareTokN fullShare 80} f)
      ∗ (hbM1.view.loc (c : Thread nD τ) ↦{Transfers.shareTokN fullShare 79} f)
      ∗ (hbM1.view.loc (c : Thread nD τ) ↦{Transfers.shareTokN fullShare 78} f)
      ∗ (hbM1.view.loc (c : Thread nD τ) ↦{Transfers.shareTokN fullShare 77} f)
      ∗ (hbM1.view.loc (c : Thread nD τ) ↦{Transfers.shareTokN fullShare 76} f)
      ∗ (hbM1.view.loc (c : Thread nD τ) ↦{Transfers.shareTokN fullShare 75} f)
      ∗ (hbM1.view.loc (c : Thread nD τ) ↦{Transfers.shareTokN fullShare 74} f)
      ∗ (hbM1.view.loc (c : Thread nD τ) ↦{Transfers.shareTokN fullShare 73} f)
      ∗ (hbM1.view.loc (c : Thread nD τ) ↦{Transfers.shareTokN fullShare 72} f)
      ∗ (hbM1.view.loc (c : Thread nD τ) ↦{Transfers.shareTokN fullShare 71} f)
      ∗ (hbM1.view.loc (c : Thread nD τ) ↦{Transfers.shareTokN fullShare 70} f)
      ∗ (hbM1.view.loc (c : Thread nD τ) ↦{Transfers.shareTokN fullShare 69} f)
      ∗ (hbM1.view.loc (c : Thread nD τ) ↦{Transfers.shareTokN fullShare 68} f)
      ∗ (hbM1.view.loc (c : Thread nD τ) ↦{Transfers.shareTokN fullShare 67} f)
      ∗ (hbM1.view.loc (c : Thread nD τ) ↦{Transfers.shareTokN fullShare 66} f)
      ∗ (hbM1.view.loc (c : Thread nD τ) ↦{Transfers.shareTokN fullShare 65} f)
      ∗ (hbM1.view.loc (c : Thread nD τ) ↦{Transfers.shareTokN fullShare 64} f)
      ∗ (hbM1.view.loc (c : Thread nD τ) ↦{Transfers.shareTokN fullShare 63} f)
      ∗ (hbM1.view.loc (c : Thread nD τ) ↦{Transfers.shareTokN fullShare 62} f)
      ∗ (hbM1.view.loc (c : Thread nD τ) ↦{Transfers.shareTokN fullShare 61} f)
      ∗ (hbM1.view.loc (c : Thread nD τ) ↦{Transfers.shareTokN fullShare 60} f)
      ∗ (hbM1.view.loc (c : Thread nD τ) ↦{Transfers.shareTokN fullShare 59} f)
      ∗ (hbM1.view.loc (c : Thread nD τ) ↦{Transfers.shareTokN fullShare 58} f)
      ∗ (hbM1.view.loc (c : Thread nD τ) ↦{Transfers.shareTokN fullShare 57} f)
      ∗ (hbM1.view.loc (c : Thread nD τ) ↦{Transfers.shareTokN fullShare 56} f)
      ∗ (hbM1.view.loc (c : Thread nD τ) ↦{Transfers.shareTokN fullShare 55} f)
      ∗ (hbM1.view.loc (c : Thread nD τ) ↦{Transfers.shareTokN fullShare 54} f)
      ∗ (hbM1.view.loc (c : Thread nD τ) ↦{Transfers.shareTokN fullShare 53} f)
      ∗ (hbM1.view.loc (c : Thread nD τ) ↦{Transfers.shareTokN fullShare 52} f)
      ∗ (hbM1.view.loc (c : Thread nD τ) ↦{Transfers.shareTokN fullShare 51} f)
      ∗ (hbM1.view.loc (c : Thread nD τ) ↦{Transfers.shareTokN fullShare 50} f)
      ∗ (hbM1.view.loc (c : Thread nD τ) ↦{Transfers.shareTokN fullShare 49} f)
      ∗ (hbM1.view.loc (c : Thread nD τ) ↦{Transfers.shareTokN fullShare 48} f)
      ∗ (hbM1.view.loc (c : Thread nD τ) ↦{Transfers.shareTokN fullShare 47} f)
      ∗ (hbM1.view.loc (c : Thread nD τ) ↦{Transfers.shareTokN fullShare 46} f)
      ∗ (hbM1.view.loc (c : Thread nD τ) ↦{Transfers.shareTokN fullShare 45} f)
      ∗ (hbM1.view.loc (c : Thread nD τ) ↦{Transfers.shareTokN fullShare 44} f)
      ∗ (hbM1.view.loc (c : Thread nD τ) ↦{Transfers.shareTokN fullShare 43} f)
      ∗ (hbM1.view.loc (c : Thread nD τ) ↦{Transfers.shareTokN fullShare 42} f)
      ∗ (hbM1.view.loc (c : Thread nD τ) ↦{Transfers.shareTokN fullShare 41} f)
      ∗ (hbM1.view.loc (c : Thread nD τ) ↦{Transfers.shareTokN fullShare 40} f)
      ∗ (hbM1.view.loc (c : Thread nD τ) ↦{Transfers.shareTokN fullShare 39} f)
      ∗ (hbM1.view.loc (c : Thread nD τ) ↦{Transfers.shareTokN fullShare 38} f)
      ∗ (hbM1.view.loc (c : Thread nD τ) ↦{Transfers.shareTokN fullShare 37} f)
      ∗ (hbM1.view.loc (c : Thread nD τ) ↦{Transfers.shareTokN fullShare 36} f)
      ∗ (hbM1.view.loc (c : Thread nD τ) ↦{Transfers.shareTokN fullShare 35} f)
      ∗ (hbM1.view.loc (c : Thread nD τ) ↦{Transfers.shareTokN fullShare 34} f)
      ∗ (hbM1.view.loc (c : Thread nD τ) ↦{Transfers.shareTokN fullShare 33} f)
      ∗ (hbM1.view.loc (c : Thread nD τ) ↦{Transfers.shareTokN fullShare 32} f)
      ∗ (hbM1.view.loc (c : Thread nD τ) ↦{Transfers.shareTokN fullShare 31} f)
      ∗ (hbM1.view.loc (c : Thread nD τ) ↦{Transfers.shareTokN fullShare 30} f)
      ∗ (hbM1.view.loc (c : Thread nD τ) ↦{Transfers.shareTokN fullShare 29} f)
      ∗ (hbM1.view.loc (c : Thread nD τ) ↦{Transfers.shareTokN fullShare 28} f)
      ∗ (hbM1.view.loc (c : Thread nD τ) ↦{Transfers.shareTokN fullShare 27} f)
      ∗ (hbM1.view.loc (c : Thread nD τ) ↦{Transfers.shareTokN fullShare 26} f)
      ∗ (hbM1.view.loc (c : Thread nD τ) ↦{Transfers.shareTokN fullShare 25} f)
      ∗ (hbM1.view.loc (c : Thread nD τ) ↦{Transfers.shareTokN fullShare 24} f)
      ∗ (hbM1.view.loc (c : Thread nD τ) ↦{Transfers.shareTokN fullShare 23} f)
      ∗ (hbM1.view.loc (c : Thread nD τ) ↦{Transfers.shareTokN fullShare 22} f)
      ∗ (hbM1.view.loc (c : Thread nD τ) ↦{Transfers.shareTokN fullShare 21} f)
      ∗ (hbM1.view.loc (c : Thread nD τ) ↦{Transfers.shareTokN fullShare 20} f)
      ∗ (hbM1.view.loc (c : Thread nD τ) ↦{Transfers.shareTokN fullShare 19} f)
      ∗ (hbM1.view.loc (c : Thread nD τ) ↦{Transfers.shareTokN fullShare 18} f)
      ∗ (hbM1.view.loc (c : Thread nD τ) ↦{Transfers.shareTokN fullShare 17} f)
      ∗ (hbM1.view.loc (c : Thread nD τ) ↦{Transfers.shareTokN fullShare 16} f)
      ∗ (hbM1.view.loc (c : Thread nD τ) ↦{Transfers.shareTokN fullShare 15} f)
      ∗ (hbM1.view.loc (c : Thread nD τ) ↦{Transfers.shareTokN fullShare 14} f)
      ∗ (hbM1.view.loc (c : Thread nD τ) ↦{Transfers.shareTokN fullShare 13} f)
      ∗ (hbM1.view.loc (c : Thread nD τ) ↦{Transfers.shareTokN fullShare 12} f)
      ∗ (hbM1.view.loc (c : Thread nD τ) ↦{Transfers.shareTokN fullShare 11} f)
      ∗ (hbM1.view.loc (c : Thread nD τ) ↦{Transfers.shareTokN fullShare 10} f)
      ∗ (hbM1.view.loc (c : Thread nD τ) ↦{Transfers.shareTokN fullShare 9} f)
      ∗ (hbM1.view.loc (c : Thread nD τ) ↦{Transfers.shareTokN fullShare 8} f)
      ∗ (hbM1.view.loc (c : Thread nD τ) ↦{Transfers.shareTokN fullShare 7} f)
      ∗ (hbM1.view.loc (c : Thread nD τ) ↦{Transfers.shareTokN fullShare 6} f)
      ∗ (hbM1.view.loc (c : Thread nD τ) ↦{Transfers.shareTokN fullShare 5} f)
      ∗ (hbM1.view.loc (c : Thread nD τ) ↦{Transfers.shareTokN fullShare 4} f)
      ∗ (hbM1.view.loc (c : Thread nD τ) ↦{Transfers.shareTokN fullShare 3} f)
      ∗ (hbM1.view.loc (c : Thread nD τ) ↦{Transfers.shareTokN fullShare 2} f)
      ∗ (hbM1.view.loc (c : Thread nD τ) ↦{Transfers.shareTokN fullShare 1} f)
      ∗ (hbM1.view.loc (c : Thread nD τ) ↦{Transfers.shareTokN fullShare 0} f)) ⊢ hbPt c hbM1 f := by
  have h := (toks_chain (F := F) (ℓ := hbM1.view.loc (c : Thread nD τ)) f 394).2
  simp only [chainDown] at h
  exact h

end Cert.KernelIdeal.Hand

end
-- ==== Proof.KIKit.lean ====
/-
  What the frame run of this program's one pipelined call takes, besides the proof data of the body: the buffers'
  contents when the region is entered and the three index tables read off them; the program as the region followed by
  its host operations, and what those operations touch, allocate and write; the body's own transfer semaphores and the
  two data tables it copies rows of itself; the region invariant and the tables' halves spelled conjunct by conjunct;
  the body as the pipeline calls it at a point; and that every result block is written back at every point.
-/
import proofs.«414929_j28089086116333_1_alg».proof.Proof.KIOps
import proofs.«414929_j28089086116333_1_alg».proof.Proof.KISems
import Idealize.ShloMosaic.Lib.Pipeline.Frame
import Idealize.ShloMosaic.Lib.Pipeline.FrameSuffix
import Idealize.ShloMosaic.Lib.Pipeline.Kit
import Idealize.ShloMosaic.Lib.StableHlo.Run
import Mathlib.Data.Fintype.Basic
import Mathlib.Tactic.FinCases

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The buffers when the region is entered -/

/-- Core `c`'s buffer contents when the region is entered, as a valuation: the launch contents, no host operation
    coming before the region. -/
abbrev V0 (c : Dev nD) : Valuation τ sig (Elt F) := StableHlo.after (List.flatten []) (fun b => m (c, b))
/-- The same read at a TensorCore reference. -/
abbrev V (c : Dev nD) (b : Ref sig .tc) : Buf (Elt F) ((c : Thread nD τ).loc b) := V0 m c (Proc.devRef .tc b)

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl
theorem V_main_arg4 (c : Dev nD) : V m c main_arg4 = m ((c : Thread nD τ).loc main_arg4) := rfl

/-! ## The index tables -/

/-- The three index tables' contents when the region is entered (there is one device: device 0's). -/
def tbl : pre0.Contents (Elt F) := fun j => V m (0 : Dev nD) (pre0.ref j)
/-- On every device the tables hold those contents. -/
theorem V_pre (c : Dev nD) (j : Fin 3) : V m c (pre0.ref j) = tbl m j := by
  obtain rfl : c = 0 := Subsingleton.elim _ _; rfl
/-- The tables' contents as admissible contents: the pipeline asks nothing of them (no window's index map reads a
    table), so its side condition is `True`. -/
abbrev adm : (pcfg0 (F := F)).Adm := ⟨tbl m, trivial⟩
/-- The pipeline at those contents. -/
abbrev cfgM : Pipeline.Cfg sig Λ₀ := cfg0 (adm m)

/-! ## The program around the region -/

theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor

/-- The program is the region followed by three stretches of host operations: it reduces to the region continued by
    them, the buffers at their launch contents. -/
theorem hmain (𝒱₀ : Variants) : Pipeline.HMainPK (Ix := Unit) (Name := ℕ) (U := Pipeline.UD sig nD τ) (Lvl := ℕ) pcfgs 0 defs₀ 𝒱₀ m (main (F := F)) (V m)
      (fun _ => Pipeline.chain [StableHlo.seq hostOps1, StableHlo.seq hostOps1_1, StableHlo.seq hostOps1_2]) :=
  Pipeline.hmainP_around pcfgs 0 defs₀ 𝒱₀ m main [] [hostOps1, hostOps1_1, hostOps1_2] (by simp only [List.Forall])
    (by simp only [List.Forall]) main_chain

/-! ## The operands the body copies rows of itself -/

/-- The two data tables, as references: the body reads rows of them by copies of its own. -/
def H0 : Finset (Ref sig .tc) := {main_arg0, main_arg1}
/-- They are unscoped, no window's array and no index table. -/
theorem H0_sub : H0 ⊆ Pipeline.restRefsP sig pre0 spec0 := by decide

/-! ## The host operations after the region -/

/-- An operation on TensorCore buffers that touches no index table and no data table is one the lines after the region
    may run. -/
theorem sub_tail_of (op : HloOp τ sig (Elt F)) (h₁ : op.bufs ⊆ StableHlo.tcRefs τ sig)
    (h : ∀ b ∈ ([main_arg2, main_arg3, main_arg4, main_arg0, main_arg1] : List (Ref sig .tc)), Proc.devRef .tc b ∉ op.bufs) :
    op.bufs ⊆ Pipeline.tailRefsBut sig pre0 spec0 H0 :=
  Pipeline.sub_tailRefsBut pre0 spec0 H0 op h₁
    (fun k => by fin_cases k <;> exact h _ (by decide))
    (fun b hb => by
      simp only [H0, Finset.mem_insert, Finset.mem_singleton] at hb
      rcases hb with rfl | rfl <;> exact h _ (by simp))

/-- The lines after the region touch the result arrays and the buffers that bypass the region, never an index table or
    a data table. -/
theorem sfx_sub : ∀ ops ∈ ([hostOps1, hostOps1_1, hostOps1_2] : List (List (HloOp τ sig (Elt F)))), ∀ op ∈ ops,
    op.bufs ⊆ Pipeline.tailRefsBut sig pre0 spec0 H0 := by
  intro ops hops op hop
  simp only [List.mem_cons, List.mem_nil_iff, or_false] at hops
  rcases hops with rfl | rfl | rfl
  · refine sub_tail_of op ((List.forall_iff_forall_mem.mp hostOps1_sub) op hop) ?_
    simp only [hostOps1, List.mem_cons, List.mem_nil_iff, or_false] at hop
    rcases hop with rfl | rfl | rfl | rfl | rfl | rfl | rfl | rfl | rfl | rfl | rfl | rfl | rfl | rfl | rfl | rfl
    all_goals
      intro b hb
      simp only [List.mem_cons, List.mem_nil_iff, or_false] at hb
      rcases hb with rfl | rfl | rfl | rfl | rfl <;>
        simp only [StableHlo.nullary_bufs, StableHlo.unary_bufs, StableHlo.binary_bufs, StableHlo.ternary_bufs, StableHlo.reshape_bufs,
          Finset.mem_insert, Finset.mem_singleton, not_or] <;>
        and_intros <;> exact StableHlo.devRef_ne_of_ne (by decide)
  · refine sub_tail_of op ((List.forall_iff_forall_mem.mp hostOps1_1_sub) op hop) ?_
    simp only [hostOps1_1, List.mem_cons, List.mem_nil_iff, or_false] at hop
    rcases hop with rfl | rfl | rfl | rfl | rfl | rfl | rfl | rfl | rfl | rfl | rfl | rfl | rfl | rfl | rfl | rfl
    all_goals
      intro b hb
      simp only [List.mem_cons, List.mem_nil_iff, or_false] at hb
      rcases hb with rfl | rfl | rfl | rfl | rfl <;>
        simp only [StableHlo.nullary_bufs, StableHlo.unary_bufs, StableHlo.binary_bufs, StableHlo.ternary_bufs, StableHlo.reshape_bufs,
          Finset.mem_insert, Finset.mem_singleton, not_or] <;>
        and_intros <;> exact StableHlo.devRef_ne_of_ne (by decide)
  · refine sub_tail_of op ((List.forall_iff_forall_mem.mp hostOps1_2_sub) op hop) ?_
    simp only [hostOps1_2, List.mem_cons, List.mem_nil_iff, or_false] at hop
    rcases hop with rfl | rfl | rfl | rfl | rfl
    all_goals
      intro b hb
      simp only [List.mem_cons, List.mem_nil_iff, or_false] at hb
      rcases hb with rfl | rfl | rfl | rfl | rfl <;>
        simp only [StableHlo.nullary_bufs, StableHlo.unary_bufs, StableHlo.binary_bufs, StableHlo.ternary_bufs, StableHlo.reshape_bufs,
          Finset.mem_insert, Finset.mem_singleton, not_or] <;>
        and_intros <;> exact StableHlo.devRef_ne_of_ne (by decide)

/-- They allocate nothing. -/
theorem sfx_fresh : ∀ ops ∈ ([hostOps1, hostOps1_1, hostOps1_2] : List (List (HloOp τ sig (Elt F)))), ∀ op ∈ ops, op.fresh = ∅ := by
  intro ops hops op hop
  simp only [List.mem_cons, List.mem_nil_iff, or_false] at hops
  rcases hops with rfl | rfl | rfl
  · exact (List.forall_iff_forall_mem.mp hostOps1_fresh) op hop
  · exact (List.forall_iff_forall_mem.mp hostOps1_1_fresh) op hop
  · exact (List.forall_iff_forall_mem.mp hostOps1_2_fresh) op hop

/-- And write no result array of the pipeline: each writes one buffer of its own, which is no array. -/
theorem sfx_keeps : ∀ ops ∈ ([hostOps1, hostOps1_1, hostOps1_2] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl | rfl | rfl
  · simp only [hostOps1, List.mem_cons, List.mem_nil_iff, or_false] at hop
    rcases hop with rfl | rfl | rfl | rfl | rfl | rfl | rfl | rfl | rfl | rfl | rfl | rfl | rfl | rfl | rfl | rfl
    all_goals intro w; fin_cases w <;> simp only [StableHlo.nullary_writes, StableHlo.unary_writes, StableHlo.binary_writes, StableHlo.ternary_writes, StableHlo.reshape_writes, Finset.mem_singleton] <;> exact StableHlo.devRef_ne_of_ne (by decide)
  · simp only [hostOps1_1, List.mem_cons, List.mem_nil_iff, or_false] at hop
    rcases hop with rfl | rfl | rfl | rfl | rfl | rfl | rfl | rfl | rfl | rfl | rfl | rfl | rfl | rfl | rfl | rfl
    all_goals intro w; fin_cases w <;> simp only [StableHlo.nullary_writes, StableHlo.unary_writes, StableHlo.binary_writes, StableHlo.ternary_writes, StableHlo.reshape_writes, Finset.mem_singleton] <;> exact StableHlo.devRef_ne_of_ne (by decide)
  · simp only [hostOps1_2, List.mem_cons, List.mem_nil_iff, or_false] at hop
    rcases hop with rfl | rfl | rfl | rfl | rfl
    all_goals intro w; fin_cases w <;> simp only [StableHlo.nullary_writes, StableHlo.unary_writes, StableHlo.binary_writes, StableHlo.ternary_writes, StableHlo.reshape_writes, Finset.mem_singleton] <;> exact StableHlo.devRef_ne_of_ne (by decide)

/-! ## The body's own transfer semaphores -/

/-- The body's own cells, in pool order: cell `10 + k` for `k < 384` (three arrays of 128, one after the other). -/
abbrev osem0 : Fin 384 → SemLoc sig := fun k => SemLoc.dma ⟨10 + k.val, by have := k.isLt; show 10 + k.val < 394; omega⟩

/-- Every staging semaphore of the pipeline lies below the body's own cells. -/
theorem winSem_lt : ∀ (w : Fin 5) (s : Fin (spec0 w).nbuf), ((spec0 w).sem s).val < 10 := by decide

/-- The own cells are scoped, pairwise distinct, and none is a window's staging semaphore. -/
theorem ownSemFacts0 : Pipeline.OwnSemFacts spec0 osem0 where
  isScoped := by decide
  inj := fun a b h => by
    have h' := congrArg Fin.val (SemLoc.dma.inj h)
    exact Fin.ext (by simp only at h'; omega)
  disj := fun k w s h => by
    have h' := congrArg Fin.val (SemLoc.dma.inj h)
    have := winSem_lt w s
    simp only at h'; omega

/-- The own cells at zero, cell by cell. -/
theorem ownSems00_eq (c : Dev nD) :
    (Pipeline.ownSems0 (Ix := Unit) (Name := ℕ) (U := Pipeline.UD sig nD τ) (Lvl := ℕ) (Val := Elt F) (τ := τ) osem0 c : sProp 𝕄)
      = semsZero c := by
  rw [Pipeline.ownSems0_eq_of_list c osem0 (List.finRange 384) (List.toFinset_finRange 384).symm (List.nodup_finRange 384)]
  rfl

/-! ## The region invariant, conjunct by conjunct -/

/-- The two data tables' points-tos at the launch contents, one by one. -/
theorem hbmPts0_eq (c : Dev nD) :
    (bigSep H0 (fun b => ((c : Thread nD τ).loc b) ↦{fullShare} V m c b) : sProp 𝕄)
      = iprop(hbPt c hbM0 (V m c main_arg0) ∗ hbPt c hbM1 (V m c main_arg1)) := by
  rw [BI.bigSep_eq_bigSepL_of_eq [main_arg0, main_arg1] (by decide) (by decide)]; rfl

/-- The invariant of a body with transfers of its own, conjunct by conjunct: the three scratch buffers owned at some
    contents, the generator register at some state, the own cells at zero, the two data tables whole at their launch
    contents. -/
theorem PhiD0_eq (c : Dev nD) :
    (Pipeline.ΦD osem0 spec0 H0 (V m) c : sProp 𝕄)
      = iprop(iprop((∃ d, owns (c : Thread nD τ) scM0 fullShare d) ∗ (∃ d, owns (c : Thread nD τ) scM1 fullShare d) ∗ (∃ d, owns (c : Thread nD τ) scM2 fullShare d))
          ∗ (∃ r, prngReg c r) ∗ semsZero c ∗ iprop(hbPt c hbM0 (V m c main_arg0) ∗ hbPt c hbM1 (V m c main_arg1))) := by
  rw [Pipeline.ΦD_eq, scopedRest0_eq, ownSems00_eq, hbmPts0_eq]; simp only [scM0, scM1, scM2, owns_whole]; try rfl

/-- The index tables' halves the region hands the body, table by table. -/
theorem PhiT0_eq (c : Dev nD) :
    (Pipeline.ΦT pre0 (tbl m) c : sProp 𝕄) = iprop(tbPt c tbM0 (tbl m 0) ∗ tbPt c tbM1 (tbl m 1) ∗ tbPt c tbM2 (tbl m 2)) := by
  unfold Pipeline.ΦT Pipeline.prefHeld
  rw [show (Finset.univ : Finset (Fin 3)) = insert (0 : Fin 3) (insert (1 : Fin 3) {(2 : Fin 3)}) from by decide,
    bigSep_insert (by decide), bigSep_insert (by decide), bigSep_singleton]
  rfl

/-! ## The body as the pipeline calls it -/

/-- Each result window's current staging memref at point `t`, and its wholeness. -/
abbrev ms0_0 (t : Fin (cfgM m).N) : Memref sig .tc .vmem S128x1 .f32 := spec0_0.stage ((cfgM m).slots t 0)
abbrev hs0_0 (t : Fin (cfgM m).N) : (ms0_0 m t).IsWhole := hstage0_0 (((cfgM m).slots t 0).cast nbuf0_0)
abbrev ms0_1 (t : Fin (cfgM m).N) : Memref sig .tc .vmem S128x1 .f32 := spec0_1.stage ((cfgM m).slots t 1)
abbrev hs0_1 (t : Fin (cfgM m).N) : (ms0_1 m t).IsWhole := hstage0_1 (((cfgM m).slots t 1).cast nbuf0_1)
abbrev ms0_2 (t : Fin (cfgM m).N) : Memref sig .tc .vmem S128x1 .f32 := spec0_2.stage ((cfgM m).slots t 2)
abbrev hs0_2 (t : Fin (cfgM m).N) : (ms0_2 m t).IsWhole := hstage0_2 (((cfgM m).slots t 2).cast nbuf0_2)
abbrev ms0_3 (t : Fin (cfgM m).N) : Memref sig .tc .vmem S128x1 .f32 := spec0_3.stage ((cfgM m).slots t 3)
abbrev hs0_3 (t : Fin (cfgM m).N) : (ms0_3 m t).IsWhole := hstage0_3 (((cfgM m).slots t 3).cast nbuf0_3)
abbrev ms0_4 (t : Fin (cfgM m).N) : Memref sig .tc .vmem S128x1 .f32 := spec0_4.stage ((cfgM m).slots t 4)
abbrev hs0_4 (t : Fin (cfgM m).N) : (ms0_4 m t).IsWhole := hstage0_4 (((cfgM m).slots t 4).cast nbuf0_4)

/-- The kernel body at point `t`, on what the pipeline calls it with: the index tables, the data tables, the five
    current staging memrefs, the scratch buffers and the three semaphore arrays. -/
abbrev bodyAt0 (t : Fin (cfgM m).N) : Prog (TpuEff nD τ sig (Elt F) Λ₀ .tc) PUnit :=
  cc0__gather_kernel (grid0.coords t) tbM0 (Memref.isWhole_whole _) tbM1 (Memref.isWhole_whole _) tbM2 (Memref.isWhole_whole _)
    hbM0 (Memref.isWhole_whole _) hbM1 (Memref.isWhole_whole _)
    (ms0_0 m t) (hs0_0 m t) (ms0_1 m t) (hs0_1 m t) (ms0_2 m t) (hs0_2 m t) (ms0_3 m t) (hs0_3 m t) (ms0_4 m t) (hs0_4 m t)
    scM0 (Memref.isWhole_whole _) scM1 (Memref.isWhole_whole _) scM2 (Memref.isWhole_whole _) cc0_scratch3 cc0_scratch4 cc0_scratch5

/-! ## Where the result windows are written back -/

/-- Each result window's block index is the point's (its index map is `(t, 0)` and reads no table), so it moves at
    every point and the block is written back at every point — at any contents of the tables. -/
theorem flush0_0_at (a : (pcfg0 (F := F)).Adm) : ∀ t : Fin (cfg0 a).N, ((cfg0 a).win 0).flush t = true :=
  (by decide +kernel : ∀ t : Fin grid0.N, Pipeline.Window.flushOf grid0 true cc0_transform_2 t = true)
theorem flush0_1_at (a : (pcfg0 (F := F)).Adm) : ∀ t : Fin (cfg0 a).N, ((cfg0 a).win 1).flush t = true :=
  (by decide +kernel : ∀ t : Fin grid0.N, Pipeline.Window.flushOf grid0 true cc0_transform_3 t = true)
theorem flush0_2_at (a : (pcfg0 (F := F)).Adm) : ∀ t : Fin (cfg0 a).N, ((cfg0 a).win 2).flush t = true :=
  (by decide +kernel : ∀ t : Fin grid0.N, Pipeline.Window.flushOf grid0 true cc0_transform_4 t = true)
theorem flush0_3_at (a : (pcfg0 (F := F)).Adm) : ∀ t : Fin (cfg0 a).N, ((cfg0 a).win 3).flush t = true :=
  (by decide +kernel : ∀ t : Fin grid0.N, Pipeline.Window.flushOf grid0 true cc0_transform_5 t = true)
theorem flush0_4_at (a : (pcfg0 (F := F)).Adm) : ∀ t : Fin (cfg0 a).N, ((cfg0 a).win 4).flush t = true :=
  (by decide +kernel : ∀ t : Fin grid0.N, Pipeline.Window.flushOf grid0 true cc0_transform_6 t = true)

theorem flush0_0 : ∀ t : Fin (cfgM m).N, ((cfgM m).win 0).flush t = true := flush0_0_at (adm m)
theorem flush0_1 : ∀ t : Fin (cfgM m).N, ((cfgM m).win 1).flush t = true := flush0_1_at (adm m)
theorem flush0_2 : ∀ t : Fin (cfgM m).N, ((cfgM m).win 2).flush t = true := flush0_2_at (adm m)
theorem flush0_3 : ∀ t : Fin (cfgM m).N, ((cfgM m).win 3).flush t = true := flush0_3_at (adm m)
theorem flush0_4 : ∀ t : Fin (cfgM m).N, ((cfgM m).win 4).flush t = true := flush0_4_at (adm m)

end Cert.KernelIdeal.Hand

end
-- ==== Proof.KIGath.lean ====
/-
  The three gathered blocks, and the five stored columns as closed terms.

  At grid point p the body fills row r of a 128 × 64 scratch buffer with the table row addressed by entry 128·p + r of an
  index table.  `gath` is that block as a function of the table's contents and the index table's words; it is total:
  the entry number is taken modulo the index table's length and the addressed row modulo the table's height, and
  where the entry number is below the length and the word addresses a row of the table these are the numbers
  themselves (`rowIdx_val`, `gath_apply`).  The body stores five 128 × 1 columns, each one store of the whole block:
  the row sums of the products of two gathered blocks — `runL` lists them.
-/
import proofs.«414929_j28089086116333_1_alg».proof.Proof.KIOps
import proofs.«414929_j28089086116333_1_alg».proof.Proof.Gen.KernelIdeal.Skeleton
import Idealize.ShloMosaic.Lib.ValueIdx

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

open ValueIdx

/-- Entry number 128·p + r of an index table of 16384 words, for the grid point whose coordinate is p. -/
def rowIdx (i : grid0.Coords) (r : Fin 128) : Fin 16384 := ⟨(128 * (i 0).val + r.val) % 16384, Nat.mod_lt _ (by decide)⟩

/-- Below the table's length the entry number is 128·p + r itself. -/
theorem rowIdx_val (i : grid0.Coords) (r : Fin 128) (h : 128 * (i 0).val + r.val < 16384) :
    (rowIdx i r).val = 128 * (i 0).val + r.val := Nat.mod_eq_of_lt h

/-- The block gathered at a grid point: row r is the row of `tab` addressed by word `rowIdx i r` of `words`. -/
def gath {n : ℕ} (hn : 0 < n) (tab : (⟨2, ![n, 64]⟩ : Shape).Idx → Elt F .f32) (words : S16384.Idx → BitVec 32)
    (i : grid0.Coords) : Vec F S128x64 .f32 :=
  fun y => tab (ix2 (⟨(words (ix1 (rowIdx i ⟨(y 0).val, (y 0).isLt⟩))).toNat % n, Nat.mod_lt _ hn⟩ : Fin n)
    (⟨(y 1).val, (y 1).isLt⟩ : Fin 64))

/-- Where the word addresses a row of the table, the gathered block's entry (r, q) is the table's entry (word, q). -/
theorem gath_apply {n : ℕ} (hn : 0 < n) (tab : (⟨2, ![n, 64]⟩ : Shape).Idx → Elt F .f32) (words : S16384.Idx → BitVec 32)
    (i : grid0.Coords) (r : Fin 128) (q : Fin 64) (hw : (words (ix1 (rowIdx i r))).toNat < n) :
    gath hn tab words i (ix2 r q) = tab (ix2 (⟨(words (ix1 (rowIdx i r))).toNat, hw⟩ : Fin n) q) := by
  have e : (⟨(words (ix1 (rowIdx i r))).toNat % n, Nat.mod_lt _ hn⟩ : Fin n) = ⟨(words (ix1 (rowIdx i r))).toNat, hw⟩ :=
    Fin.ext (Nat.mod_eq_of_lt hw)
  show tab (ix2 (⟨(words (ix1 (rowIdx i r))).toNat % n, Nat.mod_lt _ hn⟩ : Fin n) q) = _
  rw [e]

variable (c : Dev nD) (i : grid0.Coords)

/-- Rows of the first table addressed by the first index table. -/
def gU (xt0 : BufOf (F := F) c tbM0) (fh0 : BufOf (F := F) c hbM0) : Vec F S128x64 .f32 :=
  gath (by decide) (hbM0.view.read (Elt F) fh0) (tbM0.view.read (Elt F) xt0) i
/-- Rows of the second table addressed by the second index table. -/
def gVi (xt1 : BufOf (F := F) c tbM1) (fh1 : BufOf (F := F) c hbM1) : Vec F S128x64 .f32 :=
  gath (by decide) (hbM1.view.read (Elt F) fh1) (tbM1.view.read (Elt F) xt1) i
/-- Rows of the second table addressed by the third index table. -/
def gVj (xt2 : BufOf (F := F) c tbM2) (fh1 : BufOf (F := F) c hbM1) : Vec F S128x64 .f32 :=
  gath (by decide) (hbM1.view.read (Elt F) fh1) (tbM2.view.read (Elt F) xt2) i

/-- Entry (r, q) of the first gathered block is the first table's entry (word, q). -/
theorem gU_apply (xt0 : BufOf (F := F) c tbM0) (fh0 : BufOf (F := F) c hbM0) (r : Fin 128) (q : Fin 64)
    (hw : (tbM0.view.read (Elt F) xt0 (ix1 (rowIdx i r))).toNat < 1000000) :
    gU c i xt0 fh0 (ix2 r q)
      = hbM0.view.read (Elt F) fh0 (ix2 (⟨(tbM0.view.read (Elt F) xt0 (ix1 (rowIdx i r))).toNat, hw⟩ : Fin 1000000) q) :=
  gath_apply _ _ _ i r q hw
/-- Entry (r, q) of the second gathered block is the second table's entry (word, q). -/
theorem gVi_apply (xt1 : BufOf (F := F) c tbM1) (fh1 : BufOf (F := F) c hbM1) (r : Fin 128) (q : Fin 64)
    (hw : (tbM1.view.read (Elt F) xt1 (ix1 (rowIdx i r))).toNat < 500000) :
    gVi c i xt1 fh1 (ix2 r q)
      = hbM1.view.read (Elt F) fh1 (ix2 (⟨(tbM1.view.read (Elt F) xt1 (ix1 (rowIdx i r))).toNat, hw⟩ : Fin 500000) q) :=
  gath_apply _ _ _ i r q hw
/-- Entry (r, q) of the third gathered block is the second table's entry (word, q), the word from the third index table. -/
theorem gVj_apply (xt2 : BufOf (F := F) c tbM2) (fh1 : BufOf (F := F) c hbM1) (r : Fin 128) (q : Fin 64)
    (hw : (tbM2.view.read (Elt F) xt2 (ix1 (rowIdx i r))).toNat < 500000) :
    gVj c i xt2 fh1 (ix2 r q)
      = hbM1.view.read (Elt F) fh1 (ix2 (⟨(tbM2.view.read (Elt F) xt2 (ix1 (rowIdx i r))).toNat, hw⟩ : Fin 500000) q) :=
  gath_apply _ _ _ i r q hw

/-- The five columns the body stores, each one store of its whole 128 × 1 block: the row sums of first·second, first·third,
    first·first, second·second, third·third. -/
def runL (xt0 : BufOf (F := F) c tbM0) (xt1 : BufOf (F := F) c tbM1) (xt2 : BufOf (F := F) c tbM2)
    (fh0 : BufOf (F := F) c hbM0) (fh1 : BufOf (F := F) c hbM1) :
    List (View.Piece (Elt F) S128x1 .f32) × List (View.Piece (Elt F) S128x1 .f32) × List (View.Piece (Elt F) S128x1 .f32)
      × List (View.Piece (Elt F) S128x1 .f32) × List (View.Piece (Elt F) S128x1 .f32) :=
  ([⟨Rect.whole S128x1, k0_pay2 (gU c i xt0 fh0) (gVi c i xt1 fh1)⟩],
   [⟨Rect.whole S128x1, k0_pay3 (gU c i xt0 fh0) (gVj c i xt2 fh1)⟩],
   [⟨Rect.whole S128x1, k0_pay4 (gU c i xt0 fh0)⟩],
   [⟨Rect.whole S128x1, k0_pay5 (gVi c i xt1 fh1)⟩],
   [⟨Rect.whole S128x1, k0_pay1 (k0_pay6 (gVj c i xt2 fh1))⟩])

end Cert.KernelIdeal.Hand

end
-- ==== Proof.KIUp.lean ====
/-
  Ascending chains.

  A finite family of resources `Φ lo, Φ (lo + 1), …, Φ (lo + n − 1)` held together can be written as the chain
  `Φ lo ∗ (Φ (lo + 1) ∗ (… ∗ (Φ (lo + n − 1) ∗ emp)))`: its head is the family's first member, which is what a body that
  uses the members in increasing order takes next.  Separating conjunction is associative and `emp` is its unit, as
  EQUATIONS between assertions, so that regrouping a long chain is rewriting.
-/
import proofs.«414929_j28089086116333_1_alg».proof.Proof.KITok

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.Sem

variable {F : FTy → Type} [FloatOps F]

local notation "𝕄" => MT nD τ sig Unit (Elt F) ℕ (Pipeline.UD sig nD τ) ℕ

theorem sep_assoc_eq (P Q R : sProp 𝕄) : (iprop((P ∗ Q) ∗ R) : sProp 𝕄) = iprop(P ∗ (Q ∗ R)) :=
  BI.equiv_iff.mp ⟨sep_assoc, sep_assoc'⟩
theorem sep_emp_eq (P : sProp 𝕄) : (iprop(P ∗ emp) : sProp 𝕄) = P := BI.equiv_iff.mp sep_emp
theorem emp_sep_eq (P : sProp 𝕄) : (iprop(emp ∗ P) : sProp 𝕄) = P := BI.equiv_iff.mp emp_sep

/-- `Φ lo ∗ (Φ (lo + 1) ∗ (… ∗ (Φ (lo + n − 1) ∗ emp)))`. -/
def chainUp (Φ : ℕ → sProp 𝕄) : ℕ → ℕ → sProp 𝕄
  | _, 0 => BI.emp
  | lo, n + 1 => iprop(Φ lo ∗ chainUp Φ (lo + 1) n)

/-- The separating conjunction over `lo, …, lo + n − 1` is that chain. -/
theorem bigSep_Ico_eq_chainUp (Φ : ℕ → sProp 𝕄) : ∀ n lo, bigSep (Finset.Ico lo (lo + n)) Φ = chainUp Φ lo n
  | 0, lo => by rw [Nat.add_zero, Finset.Ico_self, bigSep_empty]; rfl
  | n + 1, lo => by
    have h : Finset.Ico lo (lo + (n + 1)) = insert lo (Finset.Ico (lo + 1) (lo + 1 + n)) := by
      ext x; simp only [Finset.mem_Ico, Finset.mem_insert]; omega
    rw [h, bigSep_insert (by simp only [Finset.mem_Ico]; omega), bigSep_Ico_eq_chainUp Φ n (lo + 1)]; rfl

/-- Over `0, …, n − 1`. -/
theorem bigSep_range_eq_chainUp (Φ : ℕ → sProp 𝕄) (n : ℕ) : bigSep (Finset.range n) Φ = chainUp Φ 0 n := by
  rw [Finset.range_eq_Ico]; simpa using bigSep_Ico_eq_chainUp Φ n 0

/-! ## A table's read tokens, the ones the rows take in ascending chains -/

/-- The `i`-th read token of a buffer held at contents `f`. -/
abbrev tokAt {ℓ : Loc nD τ sig} (f : Buf (Elt F) ℓ) (i : ℕ) : sProp 𝕄 := ℓ ↦{Transfers.shareTokN fullShare i} f

/-- A range cut into an initial segment and an ascending chain. -/
theorem bigSep_range_cut (Φ : ℕ → sProp 𝕄) (lo n : ℕ) :
    bigSep (Finset.range (lo + n)) Φ = iprop(bigSep (Finset.range lo) Φ ∗ chainUp Φ lo n) := by
  have hr : Finset.range (lo + n) = Finset.range lo ∪ Finset.Ico lo (lo + n) := by
    ext x; simp only [Finset.mem_range, Finset.mem_union, Finset.mem_Ico]; omega
  have hd : Disjoint (Finset.range lo) (Finset.Ico lo (lo + n)) := by
    rw [Finset.disjoint_left]; intro x hx hx'; simp only [Finset.mem_range] at hx; simp only [Finset.mem_Ico] at hx'; omega
  rw [hr, bigSep_union hd, bigSep_Ico_eq_chainUp]; rfl

/-- … and into an initial segment and two ascending chains. -/
theorem bigSep_range_cut2 (Φ : ℕ → sProp 𝕄) (lo n k : ℕ) :
    bigSep (Finset.range (lo + n + k)) Φ = iprop(bigSep (Finset.range lo) Φ ∗ chainUp Φ lo n ∗ chainUp Φ (lo + n) k) := by
  have hr : Finset.range (lo + n + k) = Finset.range (lo + n) ∪ Finset.Ico (lo + n) (lo + n + k) := by
    ext x; simp only [Finset.mem_range, Finset.mem_union, Finset.mem_Ico]; omega
  have hd : Disjoint (Finset.range (lo + n)) (Finset.Ico (lo + n) (lo + n + k)) := by
    rw [Finset.disjoint_left]; intro x hx hx'; simp only [Finset.mem_range] at hx; simp only [Finset.mem_Ico] at hx'; omega
  rw [hr, bigSep_union hd, bigSep_Ico_eq_chainUp, bigSep_range_cut Φ lo n]
  exact sep_assoc_eq _ _ _

/-- A buffer held whole: the remainder after `lo + n` tokens, the tokens below `lo` (kept together), and the tokens
    `lo, …, lo + n − 1` as an ascending chain. -/
theorem toks_up {ℓ : Loc nD τ sig} (f : Buf (Elt F) ℓ) (lo n : ℕ) :
    (ℓ ↦{fullShare} f : sProp 𝕄)
      ⊣⊢ iprop((ℓ ↦{Transfers.shareDrop fullShare (lo + n)} f) ∗ bigSep (Finset.range lo) (tokAt f) ∗ chainUp (tokAt f) lo n) := by
  have h := Transfers.pointsTo_toks_range (Ix := Unit) (Val := Elt F) (Name := ℕ) (U := Pipeline.UD sig nD τ) (Lvl := ℕ) (ℓ := ℓ) (S := Finset.univ) (f := f) fullShare (lo + n)
  rw [bigSep_range_cut] at h
  exact h

/-- The same with two ascending chains, `lo, …, lo + n − 1` and `lo + n, …, lo + n + k − 1`. -/
theorem toks_up2 {ℓ : Loc nD τ sig} (f : Buf (Elt F) ℓ) (lo n k : ℕ) :
    (ℓ ↦{fullShare} f : sProp 𝕄)
      ⊣⊢ iprop((ℓ ↦{Transfers.shareDrop fullShare (lo + n + k)} f) ∗ bigSep (Finset.range lo) (tokAt f)
          ∗ chainUp (tokAt f) lo n ∗ chainUp (tokAt f) (lo + n) k) := by
  have h := Transfers.pointsTo_toks_range (Ix := Unit) (Val := Elt F) (Name := ℕ) (U := Pipeline.UD sig nD τ) (Lvl := ℕ) (ℓ := ℓ) (S := Finset.univ) (f := f) fullShare (lo + n + k)
  rw [bigSep_range_cut2] at h
  exact h

end Cert.KernelIdeal.Hand

end
-- ==== Proof.KIRows.lean ====
/-
  A 128 × 64 buffer held as its 128 rows.

  The kernel body copies one table row into each row of a 128 × 64 scratch buffer, many copies in flight at once,
  waits for all of them, then loads the buffer whole.  Held as 128 separate ROW PIECES, each copy's destination is a
  piece held by exactly its own elements; before the whole load the pieces are joined back.

  The row memref is the buffer's memref restricted to the unit-stride rectangle at offsets `(r, 0)` of sizes
  `(1, 64)`, with the unit axis dropped.  Dropping an axis keeps the elements, so the row's element set is the
  rectangle's, carried into the buffer by the memref's placement: the placed indices `(p, q)` with `p = r`.

    * two different rows are separated on axis 0, so their element sets are disjoint;
    * every index `(p, q)` of the 128 × 64 shape lies in row `p`, so the rows cover the memref's elements;
    * a points-to over a union of pairwise disjoint element sets is the separating conjunction of the points-tos
      over the sets, and pieces held at different contents join to some contents agreeing with each on its set;
    * the row memref places its index `x` where the buffer's memref places `(r, x)`.

  For any memref of that shape: nothing here asks that it be a whole buffer.
-/
import proofs.«414929_j28089086116333_1_alg».proof.Proof.KIOps
import Idealize.ShloMosaic.Rules.PointsTo
import Idealize.ShloMosaic.Lib.ValueIdx

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ## The row memref and its element set -/

/-- Row `r` of a 128 × 64 shape lies inside it. -/
theorem row_inb {r : ℕ} (hr : r < 128) :
    ∀ a, (![r, 0] : Fin 2 → Nat) a + S1x64.size a ≤ S128x64.size a :=
  Rect.inb₂ (show r + 1 ≤ 128 by omega) (show 0 + 64 ≤ 64 by omega)

/-- Row `r` of `M`, as a copy's destination is spelt: the slice at offsets `(r, 0)` of sizes `(1, 64)`, its unit axis
    dropped. -/
abbrev rowM (M : Memref sig .tc .vmem S128x64 .f32) (r : ℕ)
    (hinb : ∀ a, (![r, 0] : Fin 2 → Nat) a + S1x64.size a ≤ S128x64.size a) : Memref sig .tc .vmem S64 .f32 :=
  (M.slice (Rect.unit (s := S128x64) ![r, 0] S1x64.size hinb) (fun _ => rfl)).squeeze S64 squeezes_S1x64_S64

/-- The buffer elements of row `r` of `M` (none past the last row). -/
def rowSet (M : Memref sig .tc .vmem S128x64 .f32) (r : ℕ) : Finset M.view.ty.Idx :=
  if hr : r < 128 then (rowM M r (row_inb hr)).view.set else ∅

/-- The row's elements are its rectangle's, placed in the buffer as `M` places them. -/
theorem rowSet_eq (M : Memref sig .tc .vmem S128x64 .f32) {r : ℕ} (hr : r < 128) :
    rowSet M r = (Rect.unit (s := S128x64) ![r, 0] S1x64.size (row_inb hr)).set.map M.view.emb := by
  unfold rowSet
  rw [dif_pos hr]
  show ((M.view.slice (Rect.unit (s := S128x64) ![r, 0] S1x64.size (row_inb hr))).reshape S64
    squeezes_S1x64_S64.numel_eq).set = _
  rw [View.set_reshape, View.set_slice]

/-- Two different rows share no element. -/
theorem rowSet_disjoint (M : Memref sig .tc .vmem S128x64 .f32) {r r' : ℕ} (h : r ≠ r') :
    Disjoint (rowSet M r) (rowSet M r') := by
  by_cases hr : r < 128
  · by_cases hr' : r' < 128
    · rw [rowSet_eq M hr, rowSet_eq M hr', Finset.disjoint_map]
      exact Rect.unit_disjoint (0 : Fin 2) (show r + 1 ≤ r' ∨ r' + 1 ≤ r by omega)
    · unfold rowSet
      rw [dif_neg hr']
      exact Finset.disjoint_empty_right _
  · unfold rowSet
    rw [dif_neg hr]
    exact Finset.disjoint_empty_left _

/-- A placed index `(p, q)` is an element of row `r` exactly when `p = r`. -/
theorem mem_rowSet (M : Memref sig .tc .vmem S128x64 .f32) {r : ℕ} (hr : r < 128) (j : S128x64.Idx) :
    M.view.emb j ∈ rowSet M r ↔ (j 0).val = r := by
  rw [rowSet_eq M hr, Finset.mem_map', Rect.mem_set_unit]
  have h1 : (j 1).val < 64 := (j 1).isLt
  constructor
  · intro h
    have b0 : r ≤ (j 0).val ∧ (j 0).val < r + 1 := h (0 : Fin 2)
    omega
  · intro h a
    match a with
    | ⟨0, _⟩ => show r ≤ (j 0).val ∧ (j 0).val < r + 1; omega
    | ⟨1, _⟩ => show 0 ≤ (j 1).val ∧ (j 1).val < 0 + 64; omega

/-- The rows cover the memref's elements. -/
theorem rowSet_cover (M : Memref sig .tc .vmem S128x64 .f32) :
    (Finset.range 128).biUnion (rowSet M) = M.view.set := by
  ext i
  constructor
  · intro hi
    obtain ⟨r, hr, hir⟩ := Finset.mem_biUnion.mp hi
    rw [rowSet_eq M (Finset.mem_range.mp hr)] at hir
    obtain ⟨j, -, rfl⟩ := Finset.mem_map.mp hir
    exact M.view.emb_mem_set j
  · intro hi
    obtain ⟨j, -, rfl⟩ := Finset.mem_map.mp hi
    have h0 : (j 0).val < 128 := (j 0).isLt
    exact Finset.mem_biUnion.mpr ⟨(j 0).val, Finset.mem_range.mpr h0, (mem_rowSet M h0 j).mpr rfl⟩

/-! ## The split and the join -/

section Abstract
variable {ℓ : Loc nD τ sig}

/-- Elements that are the union of `n` pairwise disjoint sets, held at `f`, are the sets each held at `f`. -/
theorem split_of_cover (n : ℕ) (K : ℕ → Finset (Idx ℓ)) (A : Finset (Idx ℓ))
    (hd : ∀ r r', r ≠ r' → Disjoint (K r) (K r')) (hc : (Finset.range n).biUnion K = A) (f : Buf (Elt F) ℓ) :
    (ℓ ↦[A]{fullShare} f : sProp 𝕄) ⊢ bigSep (Finset.range n) (fun r => ℓ ↦[K r]{fullShare} f) := by
  subst hc
  exact Entails.of_eq (pointsTo_biUnion (Finset.range n) K fun r _ r' _ h => hd r r' h)

/-- `n` pairwise disjoint sets held at different contents are their union held at some contents that agree with
    each set's on that set. -/
theorem join_of_cover (n : ℕ) (K : ℕ → Finset (Idx ℓ)) (A : Finset (Idx ℓ))
    (hd : ∀ r r', r ≠ r' → Disjoint (K r) (K r')) (hc : (Finset.range n).biUnion K = A)
    (fs : ℕ → Buf (Elt F) ℓ) :
    (bigSep (Finset.range n) (fun r => ℓ ↦[K r]{fullShare} fs r) : sProp 𝕄)
      ⊢ iprop(∃ g, ⌜∀ r < n, ∀ i ∈ K r, g i = fs r i⌝ ∗ ℓ ↦[A]{fullShare} g) := by
  subst hc
  iintro H
  ihave H' := (pointsTo_biUnion_join (Finset.range n) K fs (fs 0) fun r _ r' _ h => hd r r' h) $$ H
  icases H' with ⟨%g, %hg, HS⟩
  iexists g
  isplitr
  · ipureintro
    intro r hr i hi
    exact hg r (Finset.mem_range.mpr hr) i hi
  · iexact HS

end Abstract

/-- The memref's elements held at `f` are its 128 rows, each held at `f`. -/
theorem rows_split (M : Memref sig .tc .vmem S128x64 .f32) (c : Dev nD)
    (f : Buf (Elt F) (M.view.loc (c : Thread nD τ))) :
    (M.view.loc (c : Thread nD τ) ↦[M.view.set]{fullShare} f : sProp 𝕄)
      ⊢ bigSep (Finset.range 128) (fun r => M.view.loc (c : Thread nD τ) ↦[rowSet M r]{fullShare} f) :=
  split_of_cover (ℓ := M.view.loc (c : Thread nD τ)) 128 (rowSet M) M.view.set
    (fun _ _ h => rowSet_disjoint M h) (rowSet_cover M) f

/-- The 128 rows, held at different contents, are the memref's elements held at some contents that agree with each
    row's on that row. -/
theorem rows_join (M : Memref sig .tc .vmem S128x64 .f32) (c : Dev nD)
    (fs : ℕ → Buf (Elt F) (M.view.loc (c : Thread nD τ))) :
    (bigSep (Finset.range 128) (fun r => M.view.loc (c : Thread nD τ) ↦[rowSet M r]{fullShare} fs r) : sProp 𝕄)
      ⊢ iprop(∃ g, ⌜∀ r < 128, ∀ i ∈ rowSet M r, g i = fs r i⌝
          ∗ M.view.loc (c : Thread nD τ) ↦[M.view.set]{fullShare} g) :=
  join_of_cover (ℓ := M.view.loc (c : Thread nD τ)) 128 (rowSet M) M.view.set
    (fun _ _ h => rowSet_disjoint M h) (rowSet_cover M) fs

/-! ## Where the row memref places an index -/

/-- The row memref places every index inside the row's element set. -/
theorem rowM_emb_mem (M : Memref sig .tc .vmem S128x64 .f32) (r : ℕ) (hr : r < 128)
    (hinb : ∀ a, (![r, 0] : Fin 2 → Nat) a + S1x64.size a ≤ S128x64.size a) (x : S64.Idx) :
    (rowM M r hinb).view.emb x ∈ rowSet M r := by
  unfold rowSet
  rw [dif_pos hr]
  exact (rowM M r hinb).view.emb_mem_set x

/-- The row memref places its index `q` where the buffer's memref places `(r, q)`. -/
theorem rowM_emb (M : Memref sig .tc .vmem S128x64 .f32) (r : ℕ) (hr : r < 128)
    (hinb : ∀ a, (![r, 0] : Fin 2 → Nat) a + S1x64.size a ≤ S128x64.size a) (q : Fin 64) :
    (rowM M r hinb).view.emb (ValueIdx.ix1 q) = M.view.emb (ValueIdx.ix2 (⟨r, hr⟩ : Fin 128) q) := by
  have hre : Shape.reshapeEquiv squeezes_S1x64_S64.numel_eq (ValueIdx.ix1 q) = ValueIdx.ix2 (0 : Fin 1) q :=
    Shape.reshapeEquiv_eq_of_rowMajor _ (by
      rw [Shape.rowMajor_val_two, Shape.rowMajor_val_one]
      show 0 * 64 + q.val = q.val
      omega)
  show M.view.emb ((Rect.unit (s := S128x64) ![r, 0] S1x64.size hinb).emb
    (Shape.reshapeEquiv squeezes_S1x64_S64.numel_eq (ValueIdx.ix1 q))) = _
  rw [hre]
  congr 1
  funext a
  refine Fin.ext ?_
  match a with
  | ⟨0, _⟩ => show r + 1 * 0 = r; omega
  | ⟨1, _⟩ => show 0 + 1 * q.val = q.val; omega

/-- The same at any index of the row memref: its one coordinate is the column. -/
theorem rowM_emb_idx (M : Memref sig .tc .vmem S128x64 .f32) (r : ℕ) (hr : r < 128)
    (hinb : ∀ a, (![r, 0] : Fin 2 → Nat) a + S1x64.size a ≤ S128x64.size a) (x : S64.Idx) :
    (rowM M r hinb).view.emb x
      = M.view.emb (ValueIdx.ix2 (⟨r, hr⟩ : Fin 128) (⟨(x 0).val, (x 0).isLt⟩ : Fin 64)) := by
  have hx : x = ValueIdx.ix1 (⟨(x 0).val, (x 0).isLt⟩ : Fin 64) := ValueIdx.eq_ix1 x
  rw [hx]
  exact rowM_emb M r hr hinb _

end Cert.KernelIdeal.Hand

end
-- ==== Proof.KISt.lean ====
/-
  The kernel body's resources in the order the body uses them.

  The body treats its 128 rows in increasing order, and for row r it needs: the three semaphore cells 10 + r, 138 + r, 266 + r
  at zero; the read tokens numbered by those cells (one of the first data table, two of the second); and row r of each of
  the three scratch buffers, the destination of the three copies.  Here each of these nine families is restated as an
  ascending chain `x₀ ∗ (x₁ ∗ (… ∗ (x₁₂₇ ∗ emp)))`, whose head is what the next row takes; the tokens below a table's
  first cell number, which no row takes, stay together as one conjunct.  The proofs regroup and unfold; nothing else.
-/
import proofs.«414929_j28089086116333_1_alg».proof.Proof.KISems
import proofs.«414929_j28089086116333_1_alg».proof.Proof.KIUp
import proofs.«414929_j28089086116333_1_alg».proof.Proof.KIRows

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.Sem

variable {F : FTy → Type} [FloatOps F]

local notation "𝕄" => MT nD τ sig Unit (Elt F) ℕ (Pipeline.UD sig nD τ) ℕ

/-- Row `r`'s elements are the view set of the row's memref, whichever proof of its bounds it carries. -/
theorem rowSet_lit (M : Memref sig .tc .vmem S128x64 .f32) (r : ℕ) (hr : r < 128)
    (hinb : ∀ a, (![r, 0] : Fin 2 → Nat) a + S1x64.size a ≤ S128x64.size a) : rowSet M r = (rowM M r hinb).view.set := by
  unfold rowSet; rw [dif_pos hr]

set_option maxHeartbeats 8000000 in
/-- The 384 cells at zero, as three ascending chains: the first table's copies' cells, then the two chains of the second table's. -/
theorem cells_up (c : Dev nD) :
    (semsZero (F := F) c : sProp 𝕄) ⊢ iprop((semVal ((c : Thread nD τ), SemLoc.dma 10) 0
      ∗ semVal ((c : Thread nD τ), SemLoc.dma 11) 0
      ∗ semVal ((c : Thread nD τ), SemLoc.dma 12) 0
      ∗ semVal ((c : Thread nD τ), SemLoc.dma 13) 0
      ∗ semVal ((c : Thread nD τ), SemLoc.dma 14) 0
      ∗ semVal ((c : Thread nD τ), SemLoc.dma 15) 0
      ∗ semVal ((c : Thread nD τ), SemLoc.dma 16) 0
      ∗ semVal ((c : Thread nD τ), SemLoc.dma 17) 0
      ∗ semVal ((c : Thread nD τ), SemLoc.dma 18) 0
      ∗ semVal ((c : Thread nD τ), SemLoc.dma 19) 0
      ∗ semVal ((c : Thread nD τ), SemLoc.dma 20) 0
      ∗ semVal ((c : Thread nD τ), SemLoc.dma 21) 0
      ∗ semVal ((c : Thread nD τ), SemLoc.dma 22) 0
      ∗ semVal ((c : Thread nD τ), SemLoc.dma 23) 0
      ∗ semVal ((c : Thread nD τ), SemLoc.dma 24) 0
      ∗ semVal ((c : Thread nD τ), SemLoc.dma 25) 0
      ∗ semVal ((c : Thread nD τ), SemLoc.dma 26) 0
      ∗ semVal ((c : Thread nD τ), SemLoc.dma 27) 0
      ∗ semVal ((c : Thread nD τ), SemLoc.dma 28) 0
      ∗ semVal ((c : Thread nD τ), SemLoc.dma 29) 0
      ∗ semVal ((c : Thread nD τ), SemLoc.dma 30) 0
      ∗ semVal ((c : Thread nD τ), SemLoc.dma 31) 0
      ∗ semVal ((c : Thread nD τ), SemLoc.dma 32) 0
      ∗ semVal ((c : Thread nD τ), SemLoc.dma 33) 0
      ∗ semVal ((c : Thread nD τ), SemLoc.dma 34) 0
      ∗ semVal ((c : Thread nD τ), SemLoc.dma 35) 0
      ∗ semVal ((c : Thread nD τ), SemLoc.dma 36) 0
      ∗ semVal ((c : Thread nD τ), SemLoc.dma 37) 0
      ∗ semVal ((c : Thread nD τ), SemLoc.dma 38) 0
      ∗ semVal ((c : Thread nD τ), SemLoc.dma 39) 0
      ∗ semVal ((c : Thread nD τ), SemLoc.dma 40) 0
      ∗ semVal ((c : Thread nD τ), SemLoc.dma 41) 0
      ∗ semVal ((c : Thread nD τ), SemLoc.dma 42) 0
      ∗ semVal ((c : Thread nD τ), SemLoc.dma 43) 0
      ∗ semVal ((c : Thread nD τ), SemLoc.dma 44) 0
      ∗ semVal ((c : Thread nD τ), SemLoc.dma 45) 0
      ∗ semVal ((c : Thread nD τ), SemLoc.dma 46) 0
      ∗ semVal ((c : Thread nD τ), SemLoc.dma 47) 0
      ∗ semVal ((c : Thread nD τ), SemLoc.dma 48) 0
      ∗ semVal ((c : Thread nD τ), SemLoc.dma 49) 0
      ∗ semVal ((c : Thread nD τ), SemLoc.dma 50) 0
      ∗ semVal ((c : Thread nD τ), SemLoc.dma 51) 0
      ∗ semVal ((c : Thread nD τ), SemLoc.dma 52) 0
      ∗ semVal ((c : Thread nD τ), SemLoc.dma 53) 0
      ∗ semVal ((c : Thread nD τ), SemLoc.dma 54) 0
      ∗ semVal ((c : Thread nD τ), SemLoc.dma 55) 0
      ∗ semVal ((c : Thread nD τ), SemLoc.dma 56) 0
      ∗ semVal ((c : Thread nD τ), SemLoc.dma 57) 0
      ∗ semVal ((c : Thread nD τ), SemLoc.dma 58) 0
      ∗ semVal ((c : Thread nD τ), SemLoc.dma 59) 0
      ∗ semVal ((c : Thread nD τ), SemLoc.dma 60) 0
      ∗ semVal ((c : Thread nD τ), SemLoc.dma 61) 0
      ∗ semVal ((c : Thread nD τ), SemLoc.dma 62) 0
      ∗ semVal ((c : Thread nD τ), SemLoc.dma 63) 0
      ∗ semVal ((c : Thread nD τ), SemLoc.dma 64) 0
      ∗ semVal ((c : Thread nD τ), SemLoc.dma 65) 0
      ∗ semVal ((c : Thread nD τ), SemLoc.dma 66) 0
      ∗ semVal ((c : Thread nD τ), SemLoc.dma 67) 0
      ∗ semVal ((c : Thread nD τ), SemLoc.dma 68) 0
      ∗ semVal ((c : Thread nD τ), SemLoc.dma 69) 0
      ∗ semVal ((c : Thread nD τ), SemLoc.dma 70) 0
      ∗ semVal ((c : Thread nD τ), SemLoc.dma 71) 0
      ∗ semVal ((c : Thread nD τ), SemLoc.dma 72) 0
      ∗ semVal ((c : Thread nD τ), SemLoc.dma 73) 0
      ∗ semVal ((c : Thread nD τ), SemLoc.dma 74) 0
      ∗ semVal ((c : Thread nD τ), SemLoc.dma 75) 0
      ∗ semVal ((c : Thread nD τ), SemLoc.dma 76) 0
      ∗ semVal ((c : Thread nD τ), SemLoc.dma 77) 0
      ∗ semVal ((c : Thread nD τ), SemLoc.dma 78) 0
      ∗ semVal ((c : Thread nD τ), SemLoc.dma 79) 0
      ∗ semVal ((c : Thread nD τ), SemLoc.dma 80) 0
      ∗ semVal ((c : Thread nD τ), SemLoc.dma 81) 0
      ∗ semVal ((c : Thread nD τ), SemLoc.dma 82) 0
      ∗ semVal ((c : Thread nD τ), SemLoc.dma 83) 0
      ∗ semVal ((c : Thread nD τ), SemLoc.dma 84) 0
      ∗ semVal ((c : Thread nD τ), SemLoc.dma 85) 0
      ∗ semVal ((c : Thread nD τ), SemLoc.dma 86) 0
      ∗ semVal ((c : Thread nD τ), SemLoc.dma 87) 0
      ∗ semVal ((c : Thread nD τ), SemLoc.dma 88) 0
      ∗ semVal ((c : Thread nD τ), SemLoc.dma 89) 0
      ∗ semVal ((c : Thread nD τ), SemLoc.dma 90) 0
      ∗ semVal ((c : Thread nD τ), SemLoc.dma 91) 0
      ∗ semVal ((c : Thread nD τ), SemLoc.dma 92) 0
      ∗ semVal ((c : Thread nD τ), SemLoc.dma 93) 0
      ∗ semVal ((c : Thread nD τ), SemLoc.dma 94) 0
      ∗ semVal ((c : Thread nD τ), SemLoc.dma 95) 0
      ∗ semVal ((c : Thread nD τ), SemLoc.dma 96) 0
      ∗ semVal ((c : Thread nD τ), SemLoc.dma 97) 0
      ∗ semVal ((c : Thread nD τ), SemLoc.dma 98) 0
      ∗ semVal ((c : Thread nD τ), SemLoc.dma 99) 0
      ∗ semVal ((c : Thread nD τ), SemLoc.dma 100) 0
      ∗ semVal ((c : Thread nD τ), SemLoc.dma 101) 0
      ∗ semVal ((c : Thread nD τ), SemLoc.dma 102) 0
      ∗ semVal ((c : Thread nD τ), SemLoc.dma 103) 0
      ∗ semVal ((c : Thread nD τ), SemLoc.dma 104) 0
      ∗ semVal ((c : Thread nD τ), SemLoc.dma 105) 0
      ∗ semVal ((c : Thread nD τ), SemLoc.dma 106) 0
      ∗ semVal ((c : Thread nD τ), SemLoc.dma 107) 0
      ∗ semVal ((c : Thread nD τ), SemLoc.dma 108) 0
      ∗ semVal ((c : Thread nD τ), SemLoc.dma 109) 0
      ∗ semVal ((c : Thread nD τ), SemLoc.dma 110) 0
      ∗ semVal ((c : Thread nD τ), SemLoc.dma 111) 0
      ∗ semVal ((c : Thread nD τ), SemLoc.dma 112) 0
      ∗ semVal ((c : Thread nD τ), SemLoc.dma 113) 0
      ∗ semVal ((c : Thread nD τ), SemLoc.dma 114) 0
      ∗ semVal ((c : Thread nD τ), SemLoc.dma 115) 0
      ∗ semVal ((c : Thread nD τ), SemLoc.dma 116) 0
      ∗ semVal ((c : Thread nD τ), SemLoc.dma 117) 0
      ∗ semVal ((c : Thread nD τ), SemLoc.dma 118) 0
      ∗ semVal ((c : Thread nD τ), SemLoc.dma 119) 0
      ∗ semVal ((c : Thread nD τ), SemLoc.dma 120) 0
      ∗ semVal ((c : Thread nD τ), SemLoc.dma 121) 0
      ∗ semVal ((c : Thread nD τ), SemLoc.dma 122) 0
      ∗ semVal ((c : Thread nD τ), SemLoc.dma 123) 0
      ∗ semVal ((c : Thread nD τ), SemLoc.dma 124) 0
      ∗ semVal ((c : Thread nD τ), SemLoc.dma 125) 0
      ∗ semVal ((c : Thread nD τ), SemLoc.dma 126) 0
      ∗ semVal ((c : Thread nD τ), SemLoc.dma 127) 0
      ∗ semVal ((c : Thread nD τ), SemLoc.dma 128) 0
      ∗ semVal ((c : Thread nD τ), SemLoc.dma 129) 0
      ∗ semVal ((c : Thread nD τ), SemLoc.dma 130) 0
      ∗ semVal ((c : Thread nD τ), SemLoc.dma 131) 0
      ∗ semVal ((c : Thread nD τ), SemLoc.dma 132) 0
      ∗ semVal ((c : Thread nD τ), SemLoc.dma 133) 0
      ∗ semVal ((c : Thread nD τ), SemLoc.dma 134) 0
      ∗ semVal ((c : Thread nD τ), SemLoc.dma 135) 0
      ∗ semVal ((c : Thread nD τ), SemLoc.dma 136) 0
      ∗ semVal ((c : Thread nD τ), SemLoc.dma 137) 0
      ∗ emp)
      ∗ (semVal ((c : Thread nD τ), SemLoc.dma 138) 0
      ∗ semVal ((c : Thread nD τ), SemLoc.dma 139) 0
      ∗ semVal ((c : Thread nD τ), SemLoc.dma 140) 0
      ∗ semVal ((c : Thread nD τ), SemLoc.dma 141) 0
      ∗ semVal ((c : Thread nD τ), SemLoc.dma 142) 0
      ∗ semVal ((c : Thread nD τ), SemLoc.dma 143) 0
      ∗ semVal ((c : Thread nD τ), SemLoc.dma 144) 0
      ∗ semVal ((c : Thread nD τ), SemLoc.dma 145) 0
      ∗ semVal ((c : Thread nD τ), SemLoc.dma 146) 0
      ∗ semVal ((c : Thread nD τ), SemLoc.dma 147) 0
      ∗ semVal ((c : Thread nD τ), SemLoc.dma 148) 0
      ∗ semVal ((c : Thread nD τ), SemLoc.dma 149) 0
      ∗ semVal ((c : Thread nD τ), SemLoc.dma 150) 0
      ∗ semVal ((c : Thread nD τ), SemLoc.dma 151) 0
      ∗ semVal ((c : Thread nD τ), SemLoc.dma 152) 0
      ∗ semVal ((c : Thread nD τ), SemLoc.dma 153) 0
      ∗ semVal ((c : Thread nD τ), SemLoc.dma 154) 0
      ∗ semVal ((c : Thread nD τ), SemLoc.dma 155) 0
      ∗ semVal ((c : Thread nD τ), SemLoc.dma 156) 0
      ∗ semVal ((c : Thread nD τ), SemLoc.dma 157) 0
      ∗ semVal ((c : Thread nD τ), SemLoc.dma 158) 0
      ∗ semVal ((c : Thread nD τ), SemLoc.dma 159) 0
      ∗ semVal ((c : Thread nD τ), SemLoc.dma 160) 0
      ∗ semVal ((c : Thread nD τ), SemLoc.dma 161) 0
      ∗ semVal ((c : Thread nD τ), SemLoc.dma 162) 0
      ∗ semVal ((c : Thread nD τ), SemLoc.dma 163) 0
      ∗ semVal ((c : Thread nD τ), SemLoc.dma 164) 0
      ∗ semVal ((c : Thread nD τ), SemLoc.dma 165) 0
      ∗ semVal ((c : Thread nD τ), SemLoc.dma 166) 0
      ∗ semVal ((c : Thread nD τ), SemLoc.dma 167) 0
      ∗ semVal ((c : Thread nD τ), SemLoc.dma 168) 0
      ∗ semVal ((c : Thread nD τ), SemLoc.dma 169) 0
      ∗ semVal ((c : Thread nD τ), SemLoc.dma 170) 0
      ∗ semVal ((c : Thread nD τ), SemLoc.dma 171) 0
      ∗ semVal ((c : Thread nD τ), SemLoc.dma 172) 0
      ∗ semVal ((c : Thread nD τ), SemLoc.dma 173) 0
      ∗ semVal ((c : Thread nD τ), SemLoc.dma 174) 0
      ∗ semVal ((c : Thread nD τ), SemLoc.dma 175) 0
      ∗ semVal ((c : Thread nD τ), SemLoc.dma 176) 0
      ∗ semVal ((c : Thread nD τ), SemLoc.dma 177) 0
      ∗ semVal ((c : Thread nD τ), SemLoc.dma 178) 0
      ∗ semVal ((c : Thread nD τ), SemLoc.dma 179) 0
      ∗ semVal ((c : Thread nD τ), SemLoc.dma 180) 0
      ∗ semVal ((c : Thread nD τ), SemLoc.dma 181) 0
      ∗ semVal ((c : Thread nD τ), SemLoc.dma 182) 0
      ∗ semVal ((c : Thread nD τ), SemLoc.dma 183) 0
      ∗ semVal ((c : Thread nD τ), SemLoc.dma 184) 0
      ∗ semVal ((c : Thread nD τ), SemLoc.dma 185) 0
      ∗ semVal ((c : Thread nD τ), SemLoc.dma 186) 0
      ∗ semVal ((c : Thread nD τ), SemLoc.dma 187) 0
      ∗ semVal ((c : Thread nD τ), SemLoc.dma 188) 0
      ∗ semVal ((c : Thread nD τ), SemLoc.dma 189) 0
      ∗ semVal ((c : Thread nD τ), SemLoc.dma 190) 0
      ∗ semVal ((c : Thread nD τ), SemLoc.dma 191) 0
      ∗ semVal ((c : Thread nD τ), SemLoc.dma 192) 0
      ∗ semVal ((c : Thread nD τ), SemLoc.dma 193) 0
      ∗ semVal ((c : Thread nD τ), SemLoc.dma 194) 0
      ∗ semVal ((c : Thread nD τ), SemLoc.dma 195) 0
      ∗ semVal ((c : Thread nD τ), SemLoc.dma 196) 0
      ∗ semVal ((c : Thread nD τ), SemLoc.dma 197) 0
      ∗ semVal ((c : Thread nD τ), SemLoc.dma 198) 0
      ∗ semVal ((c : Thread nD τ), SemLoc.dma 199) 0
      ∗ semVal ((c : Thread nD τ), SemLoc.dma 200) 0
      ∗ semVal ((c : Thread nD τ), SemLoc.dma 201) 0
      ∗ semVal ((c : Thread nD τ), SemLoc.dma 202) 0
      ∗ semVal ((c : Thread nD τ), SemLoc.dma 203) 0
      ∗ semVal ((c : Thread nD τ), SemLoc.dma 204) 0
      ∗ semVal ((c : Thread nD τ), SemLoc.dma 205) 0
      ∗ semVal ((c : Thread nD τ), SemLoc.dma 206) 0
      ∗ semVal ((c : Thread nD τ), SemLoc.dma 207) 0
      ∗ semVal ((c : Thread nD τ), SemLoc.dma 208) 0
      ∗ semVal ((c : Thread nD τ), SemLoc.dma 209) 0
      ∗ semVal ((c : Thread nD τ), SemLoc.dma 210) 0
      ∗ semVal ((c : Thread nD τ), SemLoc.dma 211) 0
      ∗ semVal ((c : Thread nD τ), SemLoc.dma 212) 0
      ∗ semVal ((c : Thread nD τ), SemLoc.dma 213) 0
      ∗ semVal ((c : Thread nD τ), SemLoc.dma 214) 0
      ∗ semVal ((c : Thread nD τ), SemLoc.dma 215) 0
      ∗ semVal ((c : Thread nD τ), SemLoc.dma 216) 0
      ∗ semVal ((c : Thread nD τ), SemLoc.dma 217) 0
      ∗ semVal ((c : Thread nD τ), SemLoc.dma 218) 0
      ∗ semVal ((c : Thread nD τ), SemLoc.dma 219) 0
      ∗ semVal ((c : Thread nD τ), SemLoc.dma 220) 0
      ∗ semVal ((c : Thread nD τ), SemLoc.dma 221) 0
      ∗ semVal ((c : Thread nD τ), SemLoc.dma 222) 0
      ∗ semVal ((c : Thread nD τ), SemLoc.dma 223) 0
      ∗ semVal ((c : Thread nD τ), SemLoc.dma 224) 0
      ∗ semVal ((c : Thread nD τ), SemLoc.dma 225) 0
      ∗ semVal ((c : Thread nD τ), SemLoc.dma 226) 0
      ∗ semVal ((c : Thread nD τ), SemLoc.dma 227) 0
      ∗ semVal ((c : Thread nD τ), SemLoc.dma 228) 0
      ∗ semVal ((c : Thread nD τ), SemLoc.dma 229) 0
      ∗ semVal ((c : Thread nD τ), SemLoc.dma 230) 0
      ∗ semVal ((c : Thread nD τ), SemLoc.dma 231) 0
      ∗ semVal ((c : Thread nD τ), SemLoc.dma 232) 0
      ∗ semVal ((c : Thread nD τ), SemLoc.dma 233) 0
      ∗ semVal ((c : Thread nD τ), SemLoc.dma 234) 0
      ∗ semVal ((c : Thread nD τ), SemLoc.dma 235) 0
      ∗ semVal ((c : Thread nD τ), SemLoc.dma 236) 0
      ∗ semVal ((c : Thread nD τ), SemLoc.dma 237) 0
      ∗ semVal ((c : Thread nD τ), SemLoc.dma 238) 0
      ∗ semVal ((c : Thread nD τ), SemLoc.dma 239) 0
      ∗ semVal ((c : Thread nD τ), SemLoc.dma 240) 0
      ∗ semVal ((c : Thread nD τ), SemLoc.dma 241) 0
      ∗ semVal ((c : Thread nD τ), SemLoc.dma 242) 0
      ∗ semVal ((c : Thread nD τ), SemLoc.dma 243) 0
      ∗ semVal ((c : Thread nD τ), SemLoc.dma 244) 0
      ∗ semVal ((c : Thread nD τ), SemLoc.dma 245) 0
      ∗ semVal ((c : Thread nD τ), SemLoc.dma 246) 0
      ∗ semVal ((c : Thread nD τ), SemLoc.dma 247) 0
      ∗ semVal ((c : Thread nD τ), SemLoc.dma 248) 0
      ∗ semVal ((c : Thread nD τ), SemLoc.dma 249) 0
      ∗ semVal ((c : Thread nD τ), SemLoc.dma 250) 0
      ∗ semVal ((c : Thread nD τ), SemLoc.dma 251) 0
      ∗ semVal ((c : Thread nD τ), SemLoc.dma 252) 0
      ∗ semVal ((c : Thread nD τ), SemLoc.dma 253) 0
      ∗ semVal ((c : Thread nD τ), SemLoc.dma 254) 0
      ∗ semVal ((c : Thread nD τ), SemLoc.dma 255) 0
      ∗ semVal ((c : Thread nD τ), SemLoc.dma 256) 0
      ∗ semVal ((c : Thread nD τ), SemLoc.dma 257) 0
      ∗ semVal ((c : Thread nD τ), SemLoc.dma 258) 0
      ∗ semVal ((c : Thread nD τ), SemLoc.dma 259) 0
      ∗ semVal ((c : Thread nD τ), SemLoc.dma 260) 0
      ∗ semVal ((c : Thread nD τ), SemLoc.dma 261) 0
      ∗ semVal ((c : Thread nD τ), SemLoc.dma 262) 0
      ∗ semVal ((c : Thread nD τ), SemLoc.dma 263) 0
      ∗ semVal ((c : Thread nD τ), SemLoc.dma 264) 0
      ∗ semVal ((c : Thread nD τ), SemLoc.dma 265) 0
      ∗ emp)
      ∗ (semVal ((c : Thread nD τ), SemLoc.dma 266) 0
      ∗ semVal ((c : Thread nD τ), SemLoc.dma 267) 0
      ∗ semVal ((c : Thread nD τ), SemLoc.dma 268) 0
      ∗ semVal ((c : Thread nD τ), SemLoc.dma 269) 0
      ∗ semVal ((c : Thread nD τ), SemLoc.dma 270) 0
      ∗ semVal ((c : Thread nD τ), SemLoc.dma 271) 0
      ∗ semVal ((c : Thread nD τ), SemLoc.dma 272) 0
      ∗ semVal ((c : Thread nD τ), SemLoc.dma 273) 0
      ∗ semVal ((c : Thread nD τ), SemLoc.dma 274) 0
      ∗ semVal ((c : Thread nD τ), SemLoc.dma 275) 0
      ∗ semVal ((c : Thread nD τ), SemLoc.dma 276) 0
      ∗ semVal ((c : Thread nD τ), SemLoc.dma 277) 0
      ∗ semVal ((c : Thread nD τ), SemLoc.dma 278) 0
      ∗ semVal ((c : Thread nD τ), SemLoc.dma 279) 0
      ∗ semVal ((c : Thread nD τ), SemLoc.dma 280) 0
      ∗ semVal ((c : Thread nD τ), SemLoc.dma 281) 0
      ∗ semVal ((c : Thread nD τ), SemLoc.dma 282) 0
      ∗ semVal ((c : Thread nD τ), SemLoc.dma 283) 0
      ∗ semVal ((c : Thread nD τ), SemLoc.dma 284) 0
      ∗ semVal ((c : Thread nD τ), SemLoc.dma 285) 0
      ∗ semVal ((c : Thread nD τ), SemLoc.dma 286) 0
      ∗ semVal ((c : Thread nD τ), SemLoc.dma 287) 0
      ∗ semVal ((c : Thread nD τ), SemLoc.dma 288) 0
      ∗ semVal ((c : Thread nD τ), SemLoc.dma 289) 0
      ∗ semVal ((c : Thread nD τ), SemLoc.dma 290) 0
      ∗ semVal ((c : Thread nD τ), SemLoc.dma 291) 0
      ∗ semVal ((c : Thread nD τ), SemLoc.dma 292) 0
      ∗ semVal ((c : Thread nD τ), SemLoc.dma 293) 0
      ∗ semVal ((c : Thread nD τ), SemLoc.dma 294) 0
      ∗ semVal ((c : Thread nD τ), SemLoc.dma 295) 0
      ∗ semVal ((c : Thread nD τ), SemLoc.dma 296) 0
      ∗ semVal ((c : Thread nD τ), SemLoc.dma 297) 0
      ∗ semVal ((c : Thread nD τ), SemLoc.dma 298) 0
      ∗ semVal ((c : Thread nD τ), SemLoc.dma 299) 0
      ∗ semVal ((c : Thread nD τ), SemLoc.dma 300) 0
      ∗ semVal ((c : Thread nD τ), SemLoc.dma 301) 0
      ∗ semVal ((c : Thread nD τ), SemLoc.dma 302) 0
      ∗ semVal ((c : Thread nD τ), SemLoc.dma 303) 0
      ∗ semVal ((c : Thread nD τ), SemLoc.dma 304) 0
      ∗ semVal ((c : Thread nD τ), SemLoc.dma 305) 0
      ∗ semVal ((c : Thread nD τ), SemLoc.dma 306) 0
      ∗ semVal ((c : Thread nD τ), SemLoc.dma 307) 0
      ∗ semVal ((c : Thread nD τ), SemLoc.dma 308) 0
      ∗ semVal ((c : Thread nD τ), SemLoc.dma 309) 0
      ∗ semVal ((c : Thread nD τ), SemLoc.dma 310) 0
      ∗ semVal ((c : Thread nD τ), SemLoc.dma 311) 0
      ∗ semVal ((c : Thread nD τ), SemLoc.dma 312) 0
      ∗ semVal ((c : Thread nD τ), SemLoc.dma 313) 0
      ∗ semVal ((c : Thread nD τ), SemLoc.dma 314) 0
      ∗ semVal ((c : Thread nD τ), SemLoc.dma 315) 0
      ∗ semVal ((c : Thread nD τ), SemLoc.dma 316) 0
      ∗ semVal ((c : Thread nD τ), SemLoc.dma 317) 0
      ∗ semVal ((c : Thread nD τ), SemLoc.dma 318) 0
      ∗ semVal ((c : Thread nD τ), SemLoc.dma 319) 0
      ∗ semVal ((c : Thread nD τ), SemLoc.dma 320) 0
      ∗ semVal ((c : Thread nD τ), SemLoc.dma 321) 0
      ∗ semVal ((c : Thread nD τ), SemLoc.dma 322) 0
      ∗ semVal ((c : Thread nD τ), SemLoc.dma 323) 0
      ∗ semVal ((c : Thread nD τ), SemLoc.dma 324) 0
      ∗ semVal ((c : Thread nD τ), SemLoc.dma 325) 0
      ∗ semVal ((c : Thread nD τ), SemLoc.dma 326) 0
      ∗ semVal ((c : Thread nD τ), SemLoc.dma 327) 0
      ∗ semVal ((c : Thread nD τ), SemLoc.dma 328) 0
      ∗ semVal ((c : Thread nD τ), SemLoc.dma 329) 0
      ∗ semVal ((c : Thread nD τ), SemLoc.dma 330) 0
      ∗ semVal ((c : Thread nD τ), SemLoc.dma 331) 0
      ∗ semVal ((c : Thread nD τ), SemLoc.dma 332) 0
      ∗ semVal ((c : Thread nD τ), SemLoc.dma 333) 0
      ∗ semVal ((c : Thread nD τ), SemLoc.dma 334) 0
      ∗ semVal ((c : Thread nD τ), SemLoc.dma 335) 0
      ∗ semVal ((c : Thread nD τ), SemLoc.dma 336) 0
      ∗ semVal ((c : Thread nD τ), SemLoc.dma 337) 0
      ∗ semVal ((c : Thread nD τ), SemLoc.dma 338) 0
      ∗ semVal ((c : Thread nD τ), SemLoc.dma 339) 0
      ∗ semVal ((c : Thread nD τ), SemLoc.dma 340) 0
      ∗ semVal ((c : Thread nD τ), SemLoc.dma 341) 0
      ∗ semVal ((c : Thread nD τ), SemLoc.dma 342) 0
      ∗ semVal ((c : Thread nD τ), SemLoc.dma 343) 0
      ∗ semVal ((c : Thread nD τ), SemLoc.dma 344) 0
      ∗ semVal ((c : Thread nD τ), SemLoc.dma 345) 0
      ∗ semVal ((c : Thread nD τ), SemLoc.dma 346) 0
      ∗ semVal ((c : Thread nD τ), SemLoc.dma 347) 0
      ∗ semVal ((c : Thread nD τ), SemLoc.dma 348) 0
      ∗ semVal ((c : Thread nD τ), SemLoc.dma 349) 0
      ∗ semVal ((c : Thread nD τ), SemLoc.dma 350) 0
      ∗ semVal ((c : Thread nD τ), SemLoc.dma 351) 0
      ∗ semVal ((c : Thread nD τ), SemLoc.dma 352) 0
      ∗ semVal ((c : Thread nD τ), SemLoc.dma 353) 0
      ∗ semVal ((c : Thread nD τ), SemLoc.dma 354) 0
      ∗ semVal ((c : Thread nD τ), SemLoc.dma 355) 0
      ∗ semVal ((c : Thread nD τ), SemLoc.dma 356) 0
      ∗ semVal ((c : Thread nD τ), SemLoc.dma 357) 0
      ∗ semVal ((c : Thread nD τ), SemLoc.dma 358) 0
      ∗ semVal ((c : Thread nD τ), SemLoc.dma 359) 0
      ∗ semVal ((c : Thread nD τ), SemLoc.dma 360) 0
      ∗ semVal ((c : Thread nD τ), SemLoc.dma 361) 0
      ∗ semVal ((c : Thread nD τ), SemLoc.dma 362) 0
      ∗ semVal ((c : Thread nD τ), SemLoc.dma 363) 0
      ∗ semVal ((c : Thread nD τ), SemLoc.dma 364) 0
      ∗ semVal ((c : Thread nD τ), SemLoc.dma 365) 0
      ∗ semVal ((c : Thread nD τ), SemLoc.dma 366) 0
      ∗ semVal ((c : Thread nD τ), SemLoc.dma 367) 0
      ∗ semVal ((c : Thread nD τ), SemLoc.dma 368) 0
      ∗ semVal ((c : Thread nD τ), SemLoc.dma 369) 0
      ∗ semVal ((c : Thread nD τ), SemLoc.dma 370) 0
      ∗ semVal ((c : Thread nD τ), SemLoc.dma 371) 0
      ∗ semVal ((c : Thread nD τ), SemLoc.dma 372) 0
      ∗ semVal ((c : Thread nD τ), SemLoc.dma 373) 0
      ∗ semVal ((c : Thread nD τ), SemLoc.dma 374) 0
      ∗ semVal ((c : Thread nD τ), SemLoc.dma 375) 0
      ∗ semVal ((c : Thread nD τ), SemLoc.dma 376) 0
      ∗ semVal ((c : Thread nD τ), SemLoc.dma 377) 0
      ∗ semVal ((c : Thread nD τ), SemLoc.dma 378) 0
      ∗ semVal ((c : Thread nD τ), SemLoc.dma 379) 0
      ∗ semVal ((c : Thread nD τ), SemLoc.dma 380) 0
      ∗ semVal ((c : Thread nD τ), SemLoc.dma 381) 0
      ∗ semVal ((c : Thread nD τ), SemLoc.dma 382) 0
      ∗ semVal ((c : Thread nD τ), SemLoc.dma 383) 0
      ∗ semVal ((c : Thread nD τ), SemLoc.dma 384) 0
      ∗ semVal ((c : Thread nD τ), SemLoc.dma 385) 0
      ∗ semVal ((c : Thread nD τ), SemLoc.dma 386) 0
      ∗ semVal ((c : Thread nD τ), SemLoc.dma 387) 0
      ∗ semVal ((c : Thread nD τ), SemLoc.dma 388) 0
      ∗ semVal ((c : Thread nD τ), SemLoc.dma 389) 0
      ∗ semVal ((c : Thread nD τ), SemLoc.dma 390) 0
      ∗ semVal ((c : Thread nD τ), SemLoc.dma 391) 0
      ∗ semVal ((c : Thread nD τ), SemLoc.dma 392) 0
      ∗ semVal ((c : Thread nD τ), SemLoc.dma 393) 0
      ∗ emp)) := by
  unfold semsZero
  refine Entails.of_eq ?_
  simp only [sep_assoc_eq, sep_emp_eq, emp_sep_eq]

set_option maxHeartbeats 8000000 in
/-- The first data table held whole: the remainder after 138 tokens, the ten tokens no row takes, and tokens 10 … 137 ascending. -/
theorem tokU_up (c : Dev nD) (f : BufOf (F := F) c hbM0) :
    hbPt c hbM0 f ⊢ iprop((hbM0.view.loc (c : Thread nD τ) ↦{Transfers.shareDrop fullShare 138} f)
      ∗ bigSep (Finset.range 10) (tokAt f)
      ∗ ((hbM0.view.loc (c : Thread nD τ) ↦{Transfers.shareTokN fullShare 10} f)
      ∗ (hbM0.view.loc (c : Thread nD τ) ↦{Transfers.shareTokN fullShare 11} f)
      ∗ (hbM0.view.loc (c : Thread nD τ) ↦{Transfers.shareTokN fullShare 12} f)
      ∗ (hbM0.view.loc (c : Thread nD τ) ↦{Transfers.shareTokN fullShare 13} f)
      ∗ (hbM0.view.loc (c : Thread nD τ) ↦{Transfers.shareTokN fullShare 14} f)
      ∗ (hbM0.view.loc (c : Thread nD τ) ↦{Transfers.shareTokN fullShare 15} f)
      ∗ (hbM0.view.loc (c : Thread nD τ) ↦{Transfers.shareTokN fullShare 16} f)
      ∗ (hbM0.view.loc (c : Thread nD τ) ↦{Transfers.shareTokN fullShare 17} f)
      ∗ (hbM0.view.loc (c : Thread nD τ) ↦{Transfers.shareTokN fullShare 18} f)
      ∗ (hbM0.view.loc (c : Thread nD τ) ↦{Transfers.shareTokN fullShare 19} f)
      ∗ (hbM0.view.loc (c : Thread nD τ) ↦{Transfers.shareTokN fullShare 20} f)
      ∗ (hbM0.view.loc (c : Thread nD τ) ↦{Transfers.shareTokN fullShare 21} f)
      ∗ (hbM0.view.loc (c : Thread nD τ) ↦{Transfers.shareTokN fullShare 22} f)
      ∗ (hbM0.view.loc (c : Thread nD τ) ↦{Transfers.shareTokN fullShare 23} f)
      ∗ (hbM0.view.loc (c : Thread nD τ) ↦{Transfers.shareTokN fullShare 24} f)
      ∗ (hbM0.view.loc (c : Thread nD τ) ↦{Transfers.shareTokN fullShare 25} f)
      ∗ (hbM0.view.loc (c : Thread nD τ) ↦{Transfers.shareTokN fullShare 26} f)
      ∗ (hbM0.view.loc (c : Thread nD τ) ↦{Transfers.shareTokN fullShare 27} f)
      ∗ (hbM0.view.loc (c : Thread nD τ) ↦{Transfers.shareTokN fullShare 28} f)
      ∗ (hbM0.view.loc (c : Thread nD τ) ↦{Transfers.shareTokN fullShare 29} f)
      ∗ (hbM0.view.loc (c : Thread nD τ) ↦{Transfers.shareTokN fullShare 30} f)
      ∗ (hbM0.view.loc (c : Thread nD τ) ↦{Transfers.shareTokN fullShare 31} f)
      ∗ (hbM0.view.loc (c : Thread nD τ) ↦{Transfers.shareTokN fullShare 32} f)
      ∗ (hbM0.view.loc (c : Thread nD τ) ↦{Transfers.shareTokN fullShare 33} f)
      ∗ (hbM0.view.loc (c : Thread nD τ) ↦{Transfers.shareTokN fullShare 34} f)
      ∗ (hbM0.view.loc (c : Thread nD τ) ↦{Transfers.shareTokN fullShare 35} f)
      ∗ (hbM0.view.loc (c : Thread nD τ) ↦{Transfers.shareTokN fullShare 36} f)
      ∗ (hbM0.view.loc (c : Thread nD τ) ↦{Transfers.shareTokN fullShare 37} f)
      ∗ (hbM0.view.loc (c : Thread nD τ) ↦{Transfers.shareTokN fullShare 38} f)
      ∗ (hbM0.view.loc (c : Thread nD τ) ↦{Transfers.shareTokN fullShare 39} f)
      ∗ (hbM0.view.loc (c : Thread nD τ) ↦{Transfers.shareTokN fullShare 40} f)
      ∗ (hbM0.view.loc (c : Thread nD τ) ↦{Transfers.shareTokN fullShare 41} f)
      ∗ (hbM0.view.loc (c : Thread nD τ) ↦{Transfers.shareTokN fullShare 42} f)
      ∗ (hbM0.view.loc (c : Thread nD τ) ↦{Transfers.shareTokN fullShare 43} f)
      ∗ (hbM0.view.loc (c : Thread nD τ) ↦{Transfers.shareTokN fullShare 44} f)
      ∗ (hbM0.view.loc (c : Thread nD τ) ↦{Transfers.shareTokN fullShare 45} f)
      ∗ (hbM0.view.loc (c : Thread nD τ) ↦{Transfers.shareTokN fullShare 46} f)
      ∗ (hbM0.view.loc (c : Thread nD τ) ↦{Transfers.shareTokN fullShare 47} f)
      ∗ (hbM0.view.loc (c : Thread nD τ) ↦{Transfers.shareTokN fullShare 48} f)
      ∗ (hbM0.view.loc (c : Thread nD τ) ↦{Transfers.shareTokN fullShare 49} f)
      ∗ (hbM0.view.loc (c : Thread nD τ) ↦{Transfers.shareTokN fullShare 50} f)
      ∗ (hbM0.view.loc (c : Thread nD τ) ↦{Transfers.shareTokN fullShare 51} f)
      ∗ (hbM0.view.loc (c : Thread nD τ) ↦{Transfers.shareTokN fullShare 52} f)
      ∗ (hbM0.view.loc (c : Thread nD τ) ↦{Transfers.shareTokN fullShare 53} f)
      ∗ (hbM0.view.loc (c : Thread nD τ) ↦{Transfers.shareTokN fullShare 54} f)
      ∗ (hbM0.view.loc (c : Thread nD τ) ↦{Transfers.shareTokN fullShare 55} f)
      ∗ (hbM0.view.loc (c : Thread nD τ) ↦{Transfers.shareTokN fullShare 56} f)
      ∗ (hbM0.view.loc (c : Thread nD τ) ↦{Transfers.shareTokN fullShare 57} f)
      ∗ (hbM0.view.loc (c : Thread nD τ) ↦{Transfers.shareTokN fullShare 58} f)
      ∗ (hbM0.view.loc (c : Thread nD τ) ↦{Transfers.shareTokN fullShare 59} f)
      ∗ (hbM0.view.loc (c : Thread nD τ) ↦{Transfers.shareTokN fullShare 60} f)
      ∗ (hbM0.view.loc (c : Thread nD τ) ↦{Transfers.shareTokN fullShare 61} f)
      ∗ (hbM0.view.loc (c : Thread nD τ) ↦{Transfers.shareTokN fullShare 62} f)
      ∗ (hbM0.view.loc (c : Thread nD τ) ↦{Transfers.shareTokN fullShare 63} f)
      ∗ (hbM0.view.loc (c : Thread nD τ) ↦{Transfers.shareTokN fullShare 64} f)
      ∗ (hbM0.view.loc (c : Thread nD τ) ↦{Transfers.shareTokN fullShare 65} f)
      ∗ (hbM0.view.loc (c : Thread nD τ) ↦{Transfers.shareTokN fullShare 66} f)
      ∗ (hbM0.view.loc (c : Thread nD τ) ↦{Transfers.shareTokN fullShare 67} f)
      ∗ (hbM0.view.loc (c : Thread nD τ) ↦{Transfers.shareTokN fullShare 68} f)
      ∗ (hbM0.view.loc (c : Thread nD τ) ↦{Transfers.shareTokN fullShare 69} f)
      ∗ (hbM0.view.loc (c : Thread nD τ) ↦{Transfers.shareTokN fullShare 70} f)
      ∗ (hbM0.view.loc (c : Thread nD τ) ↦{Transfers.shareTokN fullShare 71} f)
      ∗ (hbM0.view.loc (c : Thread nD τ) ↦{Transfers.shareTokN fullShare 72} f)
      ∗ (hbM0.view.loc (c : Thread nD τ) ↦{Transfers.shareTokN fullShare 73} f)
      ∗ (hbM0.view.loc (c : Thread nD τ) ↦{Transfers.shareTokN fullShare 74} f)
      ∗ (hbM0.view.loc (c : Thread nD τ) ↦{Transfers.shareTokN fullShare 75} f)
      ∗ (hbM0.view.loc (c : Thread nD τ) ↦{Transfers.shareTokN fullShare 76} f)
      ∗ (hbM0.view.loc (c : Thread nD τ) ↦{Transfers.shareTokN fullShare 77} f)
      ∗ (hbM0.view.loc (c : Thread nD τ) ↦{Transfers.shareTokN fullShare 78} f)
      ∗ (hbM0.view.loc (c : Thread nD τ) ↦{Transfers.shareTokN fullShare 79} f)
      ∗ (hbM0.view.loc (c : Thread nD τ) ↦{Transfers.shareTokN fullShare 80} f)
      ∗ (hbM0.view.loc (c : Thread nD τ) ↦{Transfers.shareTokN fullShare 81} f)
      ∗ (hbM0.view.loc (c : Thread nD τ) ↦{Transfers.shareTokN fullShare 82} f)
      ∗ (hbM0.view.loc (c : Thread nD τ) ↦{Transfers.shareTokN fullShare 83} f)
      ∗ (hbM0.view.loc (c : Thread nD τ) ↦{Transfers.shareTokN fullShare 84} f)
      ∗ (hbM0.view.loc (c : Thread nD τ) ↦{Transfers.shareTokN fullShare 85} f)
      ∗ (hbM0.view.loc (c : Thread nD τ) ↦{Transfers.shareTokN fullShare 86} f)
      ∗ (hbM0.view.loc (c : Thread nD τ) ↦{Transfers.shareTokN fullShare 87} f)
      ∗ (hbM0.view.loc (c : Thread nD τ) ↦{Transfers.shareTokN fullShare 88} f)
      ∗ (hbM0.view.loc (c : Thread nD τ) ↦{Transfers.shareTokN fullShare 89} f)
      ∗ (hbM0.view.loc (c : Thread nD τ) ↦{Transfers.shareTokN fullShare 90} f)
      ∗ (hbM0.view.loc (c : Thread nD τ) ↦{Transfers.shareTokN fullShare 91} f)
      ∗ (hbM0.view.loc (c : Thread nD τ) ↦{Transfers.shareTokN fullShare 92} f)
      ∗ (hbM0.view.loc (c : Thread nD τ) ↦{Transfers.shareTokN fullShare 93} f)
      ∗ (hbM0.view.loc (c : Thread nD τ) ↦{Transfers.shareTokN fullShare 94} f)
      ∗ (hbM0.view.loc (c : Thread nD τ) ↦{Transfers.shareTokN fullShare 95} f)
      ∗ (hbM0.view.loc (c : Thread nD τ) ↦{Transfers.shareTokN fullShare 96} f)
      ∗ (hbM0.view.loc (c : Thread nD τ) ↦{Transfers.shareTokN fullShare 97} f)
      ∗ (hbM0.view.loc (c : Thread nD τ) ↦{Transfers.shareTokN fullShare 98} f)
      ∗ (hbM0.view.loc (c : Thread nD τ) ↦{Transfers.shareTokN fullShare 99} f)
      ∗ (hbM0.view.loc (c : Thread nD τ) ↦{Transfers.shareTokN fullShare 100} f)
      ∗ (hbM0.view.loc (c : Thread nD τ) ↦{Transfers.shareTokN fullShare 101} f)
      ∗ (hbM0.view.loc (c : Thread nD τ) ↦{Transfers.shareTokN fullShare 102} f)
      ∗ (hbM0.view.loc (c : Thread nD τ) ↦{Transfers.shareTokN fullShare 103} f)
      ∗ (hbM0.view.loc (c : Thread nD τ) ↦{Transfers.shareTokN fullShare 104} f)
      ∗ (hbM0.view.loc (c : Thread nD τ) ↦{Transfers.shareTokN fullShare 105} f)
      ∗ (hbM0.view.loc (c : Thread nD τ) ↦{Transfers.shareTokN fullShare 106} f)
      ∗ (hbM0.view.loc (c : Thread nD τ) ↦{Transfers.shareTokN fullShare 107} f)
      ∗ (hbM0.view.loc (c : Thread nD τ) ↦{Transfers.shareTokN fullShare 108} f)
      ∗ (hbM0.view.loc (c : Thread nD τ) ↦{Transfers.shareTokN fullShare 109} f)
      ∗ (hbM0.view.loc (c : Thread nD τ) ↦{Transfers.shareTokN fullShare 110} f)
      ∗ (hbM0.view.loc (c : Thread nD τ) ↦{Transfers.shareTokN fullShare 111} f)
      ∗ (hbM0.view.loc (c : Thread nD τ) ↦{Transfers.shareTokN fullShare 112} f)
      ∗ (hbM0.view.loc (c : Thread nD τ) ↦{Transfers.shareTokN fullShare 113} f)
      ∗ (hbM0.view.loc (c : Thread nD τ) ↦{Transfers.shareTokN fullShare 114} f)
      ∗ (hbM0.view.loc (c : Thread nD τ) ↦{Transfers.shareTokN fullShare 115} f)
      ∗ (hbM0.view.loc (c : Thread nD τ) ↦{Transfers.shareTokN fullShare 116} f)
      ∗ (hbM0.view.loc (c : Thread nD τ) ↦{Transfers.shareTokN fullShare 117} f)
      ∗ (hbM0.view.loc (c : Thread nD τ) ↦{Transfers.shareTokN fullShare 118} f)
      ∗ (hbM0.view.loc (c : Thread nD τ) ↦{Transfers.shareTokN fullShare 119} f)
      ∗ (hbM0.view.loc (c : Thread nD τ) ↦{Transfers.shareTokN fullShare 120} f)
      ∗ (hbM0.view.loc (c : Thread nD τ) ↦{Transfers.shareTokN fullShare 121} f)
      ∗ (hbM0.view.loc (c : Thread nD τ) ↦{Transfers.shareTokN fullShare 122} f)
      ∗ (hbM0.view.loc (c : Thread nD τ) ↦{Transfers.shareTokN fullShare 123} f)
      ∗ (hbM0.view.loc (c : Thread nD τ) ↦{Transfers.shareTokN fullShare 124} f)
      ∗ (hbM0.view.loc (c : Thread nD τ) ↦{Transfers.shareTokN fullShare 125} f)
      ∗ (hbM0.view.loc (c : Thread nD τ) ↦{Transfers.shareTokN fullShare 126} f)
      ∗ (hbM0.view.loc (c : Thread nD τ) ↦{Transfers.shareTokN fullShare 127} f)
      ∗ (hbM0.view.loc (c : Thread nD τ) ↦{Transfers.shareTokN fullShare 128} f)
      ∗ (hbM0.view.loc (c : Thread nD τ) ↦{Transfers.shareTokN fullShare 129} f)
      ∗ (hbM0.view.loc (c : Thread nD τ) ↦{Transfers.shareTokN fullShare 130} f)
      ∗ (hbM0.view.loc (c : Thread nD τ) ↦{Transfers.shareTokN fullShare 131} f)
      ∗ (hbM0.view.loc (c : Thread nD τ) ↦{Transfers.shareTokN fullShare 132} f)
      ∗ (hbM0.view.loc (c : Thread nD τ) ↦{Transfers.shareTokN fullShare 133} f)
      ∗ (hbM0.view.loc (c : Thread nD τ) ↦{Transfers.shareTokN fullShare 134} f)
      ∗ (hbM0.view.loc (c : Thread nD τ) ↦{Transfers.shareTokN fullShare 135} f)
      ∗ (hbM0.view.loc (c : Thread nD τ) ↦{Transfers.shareTokN fullShare 136} f)
      ∗ (hbM0.view.loc (c : Thread nD τ) ↦{Transfers.shareTokN fullShare 137} f)
      ∗ emp)) := by
  have h := (toks_up (F := F) (ℓ := hbM0.view.loc (c : Thread nD τ)) f 10 128).1
  simp only [chainUp, Nat.reduceAdd] at h
  exact h

set_option maxHeartbeats 8000000 in
/-- The second data table held whole: the remainder after 394 tokens, the 138 tokens no row takes, and tokens 138 … 265 and 266 … 393 ascending. -/
theorem tokV_up (c : Dev nD) (f : BufOf (F := F) c hbM1) :
    hbPt c hbM1 f ⊢ iprop((hbM1.view.loc (c : Thread nD τ) ↦{Transfers.shareDrop fullShare 394} f)
      ∗ bigSep (Finset.range 138) (tokAt f)
      ∗ ((hbM1.view.loc (c : Thread nD τ) ↦{Transfers.shareTokN fullShare 138} f)
      ∗ (hbM1.view.loc (c : Thread nD τ) ↦{Transfers.shareTokN fullShare 139} f)
      ∗ (hbM1.view.loc (c : Thread nD τ) ↦{Transfers.shareTokN fullShare 140} f)
      ∗ (hbM1.view.loc (c : Thread nD τ) ↦{Transfers.shareTokN fullShare 141} f)
      ∗ (hbM1.view.loc (c : Thread nD τ) ↦{Transfers.shareTokN fullShare 142} f)
      ∗ (hbM1.view.loc (c : Thread nD τ) ↦{Transfers.shareTokN fullShare 143} f)
      ∗ (hbM1.view.loc (c : Thread nD τ) ↦{Transfers.shareTokN fullShare 144} f)
      ∗ (hbM1.view.loc (c : Thread nD τ) ↦{Transfers.shareTokN fullShare 145} f)
      ∗ (hbM1.view.loc (c : Thread nD τ) ↦{Transfers.shareTokN fullShare 146} f)
      ∗ (hbM1.view.loc (c : Thread nD τ) ↦{Transfers.shareTokN fullShare 147} f)
      ∗ (hbM1.view.loc (c : Thread nD τ) ↦{Transfers.shareTokN fullShare 148} f)
      ∗ (hbM1.view.loc (c : Thread nD τ) ↦{Transfers.shareTokN fullShare 149} f)
      ∗ (hbM1.view.loc (c : Thread nD τ) ↦{Transfers.shareTokN fullShare 150} f)
      ∗ (hbM1.view.loc (c : Thread nD τ) ↦{Transfers.shareTokN fullShare 151} f)
      ∗ (hbM1.view.loc (c : Thread nD τ) ↦{Transfers.shareTokN fullShare 152} f)
      ∗ (hbM1.view.loc (c : Thread nD τ) ↦{Transfers.shareTokN fullShare 153} f)
      ∗ (hbM1.view.loc (c : Thread nD τ) ↦{Transfers.shareTokN fullShare 154} f)
      ∗ (hbM1.view.loc (c : Thread nD τ) ↦{Transfers.shareTokN fullShare 155} f)
      ∗ (hbM1.view.loc (c : Thread nD τ) ↦{Transfers.shareTokN fullShare 156} f)
      ∗ (hbM1.view.loc (c : Thread nD τ) ↦{Transfers.shareTokN fullShare 157} f)
      ∗ (hbM1.view.loc (c : Thread nD τ) ↦{Transfers.shareTokN fullShare 158} f)
      ∗ (hbM1.view.loc (c : Thread nD τ) ↦{Transfers.shareTokN fullShare 159} f)
      ∗ (hbM1.view.loc (c : Thread nD τ) ↦{Transfers.shareTokN fullShare 160} f)
      ∗ (hbM1.view.loc (c : Thread nD τ) ↦{Transfers.shareTokN fullShare 161} f)
      ∗ (hbM1.view.loc (c : Thread nD τ) ↦{Transfers.shareTokN fullShare 162} f)
      ∗ (hbM1.view.loc (c : Thread nD τ) ↦{Transfers.shareTokN fullShare 163} f)
      ∗ (hbM1.view.loc (c : Thread nD τ) ↦{Transfers.shareTokN fullShare 164} f)
      ∗ (hbM1.view.loc (c : Thread nD τ) ↦{Transfers.shareTokN fullShare 165} f)
      ∗ (hbM1.view.loc (c : Thread nD τ) ↦{Transfers.shareTokN fullShare 166} f)
      ∗ (hbM1.view.loc (c : Thread nD τ) ↦{Transfers.shareTokN fullShare 167} f)
      ∗ (hbM1.view.loc (c : Thread nD τ) ↦{Transfers.shareTokN fullShare 168} f)
      ∗ (hbM1.view.loc (c : Thread nD τ) ↦{Transfers.shareTokN fullShare 169} f)
      ∗ (hbM1.view.loc (c : Thread nD τ) ↦{Transfers.shareTokN fullShare 170} f)
      ∗ (hbM1.view.loc (c : Thread nD τ) ↦{Transfers.shareTokN fullShare 171} f)
      ∗ (hbM1.view.loc (c : Thread nD τ) ↦{Transfers.shareTokN fullShare 172} f)
      ∗ (hbM1.view.loc (c : Thread nD τ) ↦{Transfers.shareTokN fullShare 173} f)
      ∗ (hbM1.view.loc (c : Thread nD τ) ↦{Transfers.shareTokN fullShare 174} f)
      ∗ (hbM1.view.loc (c : Thread nD τ) ↦{Transfers.shareTokN fullShare 175} f)
      ∗ (hbM1.view.loc (c : Thread nD τ) ↦{Transfers.shareTokN fullShare 176} f)
      ∗ (hbM1.view.loc (c : Thread nD τ) ↦{Transfers.shareTokN fullShare 177} f)
      ∗ (hbM1.view.loc (c : Thread nD τ) ↦{Transfers.shareTokN fullShare 178} f)
      ∗ (hbM1.view.loc (c : Thread nD τ) ↦{Transfers.shareTokN fullShare 179} f)
      ∗ (hbM1.view.loc (c : Thread nD τ) ↦{Transfers.shareTokN fullShare 180} f)
      ∗ (hbM1.view.loc (c : Thread nD τ) ↦{Transfers.shareTokN fullShare 181} f)
      ∗ (hbM1.view.loc (c : Thread nD τ) ↦{Transfers.shareTokN fullShare 182} f)
      ∗ (hbM1.view.loc (c : Thread nD τ) ↦{Transfers.shareTokN fullShare 183} f)
      ∗ (hbM1.view.loc (c : Thread nD τ) ↦{Transfers.shareTokN fullShare 184} f)
      ∗ (hbM1.view.loc (c : Thread nD τ) ↦{Transfers.shareTokN fullShare 185} f)
      ∗ (hbM1.view.loc (c : Thread nD τ) ↦{Transfers.shareTokN fullShare 186} f)
      ∗ (hbM1.view.loc (c : Thread nD τ) ↦{Transfers.shareTokN fullShare 187} f)
      ∗ (hbM1.view.loc (c : Thread nD τ) ↦{Transfers.shareTokN fullShare 188} f)
      ∗ (hbM1.view.loc (c : Thread nD τ) ↦{Transfers.shareTokN fullShare 189} f)
      ∗ (hbM1.view.loc (c : Thread nD τ) ↦{Transfers.shareTokN fullShare 190} f)
      ∗ (hbM1.view.loc (c : Thread nD τ) ↦{Transfers.shareTokN fullShare 191} f)
      ∗ (hbM1.view.loc (c : Thread nD τ) ↦{Transfers.shareTokN fullShare 192} f)
      ∗ (hbM1.view.loc (c : Thread nD τ) ↦{Transfers.shareTokN fullShare 193} f)
      ∗ (hbM1.view.loc (c : Thread nD τ) ↦{Transfers.shareTokN fullShare 194} f)
      ∗ (hbM1.view.loc (c : Thread nD τ) ↦{Transfers.shareTokN fullShare 195} f)
      ∗ (hbM1.view.loc (c : Thread nD τ) ↦{Transfers.shareTokN fullShare 196} f)
      ∗ (hbM1.view.loc (c : Thread nD τ) ↦{Transfers.shareTokN fullShare 197} f)
      ∗ (hbM1.view.loc (c : Thread nD τ) ↦{Transfers.shareTokN fullShare 198} f)
      ∗ (hbM1.view.loc (c : Thread nD τ) ↦{Transfers.shareTokN fullShare 199} f)
      ∗ (hbM1.view.loc (c : Thread nD τ) ↦{Transfers.shareTokN fullShare 200} f)
      ∗ (hbM1.view.loc (c : Thread nD τ) ↦{Transfers.shareTokN fullShare 201} f)
      ∗ (hbM1.view.loc (c : Thread nD τ) ↦{Transfers.shareTokN fullShare 202} f)
      ∗ (hbM1.view.loc (c : Thread nD τ) ↦{Transfers.shareTokN fullShare 203} f)
      ∗ (hbM1.view.loc (c : Thread nD τ) ↦{Transfers.shareTokN fullShare 204} f)
      ∗ (hbM1.view.loc (c : Thread nD τ) ↦{Transfers.shareTokN fullShare 205} f)
      ∗ (hbM1.view.loc (c : Thread nD τ) ↦{Transfers.shareTokN fullShare 206} f)
      ∗ (hbM1.view.loc (c : Thread nD τ) ↦{Transfers.shareTokN fullShare 207} f)
      ∗ (hbM1.view.loc (c : Thread nD τ) ↦{Transfers.shareTokN fullShare 208} f)
      ∗ (hbM1.view.loc (c : Thread nD τ) ↦{Transfers.shareTokN fullShare 209} f)
      ∗ (hbM1.view.loc (c : Thread nD τ) ↦{Transfers.shareTokN fullShare 210} f)
      ∗ (hbM1.view.loc (c : Thread nD τ) ↦{Transfers.shareTokN fullShare 211} f)
      ∗ (hbM1.view.loc (c : Thread nD τ) ↦{Transfers.shareTokN fullShare 212} f)
      ∗ (hbM1.view.loc (c : Thread nD τ) ↦{Transfers.shareTokN fullShare 213} f)
      ∗ (hbM1.view.loc (c : Thread nD τ) ↦{Transfers.shareTokN fullShare 214} f)
      ∗ (hbM1.view.loc (c : Thread nD τ) ↦{Transfers.shareTokN fullShare 215} f)
      ∗ (hbM1.view.loc (c : Thread nD τ) ↦{Transfers.shareTokN fullShare 216} f)
      ∗ (hbM1.view.loc (c : Thread nD τ) ↦{Transfers.shareTokN fullShare 217} f)
      ∗ (hbM1.view.loc (c : Thread nD τ) ↦{Transfers.shareTokN fullShare 218} f)
      ∗ (hbM1.view.loc (c : Thread nD τ) ↦{Transfers.shareTokN fullShare 219} f)
      ∗ (hbM1.view.loc (c : Thread nD τ) ↦{Transfers.shareTokN fullShare 220} f)
      ∗ (hbM1.view.loc (c : Thread nD τ) ↦{Transfers.shareTokN fullShare 221} f)
      ∗ (hbM1.view.loc (c : Thread nD τ) ↦{Transfers.shareTokN fullShare 222} f)
      ∗ (hbM1.view.loc (c : Thread nD τ) ↦{Transfers.shareTokN fullShare 223} f)
      ∗ (hbM1.view.loc (c : Thread nD τ) ↦{Transfers.shareTokN fullShare 224} f)
      ∗ (hbM1.view.loc (c : Thread nD τ) ↦{Transfers.shareTokN fullShare 225} f)
      ∗ (hbM1.view.loc (c : Thread nD τ) ↦{Transfers.shareTokN fullShare 226} f)
      ∗ (hbM1.view.loc (c : Thread nD τ) ↦{Transfers.shareTokN fullShare 227} f)
      ∗ (hbM1.view.loc (c : Thread nD τ) ↦{Transfers.shareTokN fullShare 228} f)
      ∗ (hbM1.view.loc (c : Thread nD τ) ↦{Transfers.shareTokN fullShare 229} f)
      ∗ (hbM1.view.loc (c : Thread nD τ) ↦{Transfers.shareTokN fullShare 230} f)
      ∗ (hbM1.view.loc (c : Thread nD τ) ↦{Transfers.shareTokN fullShare 231} f)
      ∗ (hbM1.view.loc (c : Thread nD τ) ↦{Transfers.shareTokN fullShare 232} f)
      ∗ (hbM1.view.loc (c : Thread nD τ) ↦{Transfers.shareTokN fullShare 233} f)
      ∗ (hbM1.view.loc (c : Thread nD τ) ↦{Transfers.shareTokN fullShare 234} f)
      ∗ (hbM1.view.loc (c : Thread nD τ) ↦{Transfers.shareTokN fullShare 235} f)
      ∗ (hbM1.view.loc (c : Thread nD τ) ↦{Transfers.shareTokN fullShare 236} f)
      ∗ (hbM1.view.loc (c : Thread nD τ) ↦{Transfers.shareTokN fullShare 237} f)
      ∗ (hbM1.view.loc (c : Thread nD τ) ↦{Transfers.shareTokN fullShare 238} f)
      ∗ (hbM1.view.loc (c : Thread nD τ) ↦{Transfers.shareTokN fullShare 239} f)
      ∗ (hbM1.view.loc (c : Thread nD τ) ↦{Transfers.shareTokN fullShare 240} f)
      ∗ (hbM1.view.loc (c : Thread nD τ) ↦{Transfers.shareTokN fullShare 241} f)
      ∗ (hbM1.view.loc (c : Thread nD τ) ↦{Transfers.shareTokN fullShare 242} f)
      ∗ (hbM1.view.loc (c : Thread nD τ) ↦{Transfers.shareTokN fullShare 243} f)
      ∗ (hbM1.view.loc (c : Thread nD τ) ↦{Transfers.shareTokN fullShare 244} f)
      ∗ (hbM1.view.loc (c : Thread nD τ) ↦{Transfers.shareTokN fullShare 245} f)
      ∗ (hbM1.view.loc (c : Thread nD τ) ↦{Transfers.shareTokN fullShare 246} f)
      ∗ (hbM1.view.loc (c : Thread nD τ) ↦{Transfers.shareTokN fullShare 247} f)
      ∗ (hbM1.view.loc (c : Thread nD τ) ↦{Transfers.shareTokN fullShare 248} f)
      ∗ (hbM1.view.loc (c : Thread nD τ) ↦{Transfers.shareTokN fullShare 249} f)
      ∗ (hbM1.view.loc (c : Thread nD τ) ↦{Transfers.shareTokN fullShare 250} f)
      ∗ (hbM1.view.loc (c : Thread nD τ) ↦{Transfers.shareTokN fullShare 251} f)
      ∗ (hbM1.view.loc (c : Thread nD τ) ↦{Transfers.shareTokN fullShare 252} f)
      ∗ (hbM1.view.loc (c : Thread nD τ) ↦{Transfers.shareTokN fullShare 253} f)
      ∗ (hbM1.view.loc (c : Thread nD τ) ↦{Transfers.shareTokN fullShare 254} f)
      ∗ (hbM1.view.loc (c : Thread nD τ) ↦{Transfers.shareTokN fullShare 255} f)
      ∗ (hbM1.view.loc (c : Thread nD τ) ↦{Transfers.shareTokN fullShare 256} f)
      ∗ (hbM1.view.loc (c : Thread nD τ) ↦{Transfers.shareTokN fullShare 257} f)
      ∗ (hbM1.view.loc (c : Thread nD τ) ↦{Transfers.shareTokN fullShare 258} f)
      ∗ (hbM1.view.loc (c : Thread nD τ) ↦{Transfers.shareTokN fullShare 259} f)
      ∗ (hbM1.view.loc (c : Thread nD τ) ↦{Transfers.shareTokN fullShare 260} f)
      ∗ (hbM1.view.loc (c : Thread nD τ) ↦{Transfers.shareTokN fullShare 261} f)
      ∗ (hbM1.view.loc (c : Thread nD τ) ↦{Transfers.shareTokN fullShare 262} f)
      ∗ (hbM1.view.loc (c : Thread nD τ) ↦{Transfers.shareTokN fullShare 263} f)
      ∗ (hbM1.view.loc (c : Thread nD τ) ↦{Transfers.shareTokN fullShare 264} f)
      ∗ (hbM1.view.loc (c : Thread nD τ) ↦{Transfers.shareTokN fullShare 265} f)
      ∗ emp)
      ∗ ((hbM1.view.loc (c : Thread nD τ) ↦{Transfers.shareTokN fullShare 266} f)
      ∗ (hbM1.view.loc (c : Thread nD τ) ↦{Transfers.shareTokN fullShare 267} f)
      ∗ (hbM1.view.loc (c : Thread nD τ) ↦{Transfers.shareTokN fullShare 268} f)
      ∗ (hbM1.view.loc (c : Thread nD τ) ↦{Transfers.shareTokN fullShare 269} f)
      ∗ (hbM1.view.loc (c : Thread nD τ) ↦{Transfers.shareTokN fullShare 270} f)
      ∗ (hbM1.view.loc (c : Thread nD τ) ↦{Transfers.shareTokN fullShare 271} f)
      ∗ (hbM1.view.loc (c : Thread nD τ) ↦{Transfers.shareTokN fullShare 272} f)
      ∗ (hbM1.view.loc (c : Thread nD τ) ↦{Transfers.shareTokN fullShare 273} f)
      ∗ (hbM1.view.loc (c : Thread nD τ) ↦{Transfers.shareTokN fullShare 274} f)
      ∗ (hbM1.view.loc (c : Thread nD τ) ↦{Transfers.shareTokN fullShare 275} f)
      ∗ (hbM1.view.loc (c : Thread nD τ) ↦{Transfers.shareTokN fullShare 276} f)
      ∗ (hbM1.view.loc (c : Thread nD τ) ↦{Transfers.shareTokN fullShare 277} f)
      ∗ (hbM1.view.loc (c : Thread nD τ) ↦{Transfers.shareTokN fullShare 278} f)
      ∗ (hbM1.view.loc (c : Thread nD τ) ↦{Transfers.shareTokN fullShare 279} f)
      ∗ (hbM1.view.loc (c : Thread nD τ) ↦{Transfers.shareTokN fullShare 280} f)
      ∗ (hbM1.view.loc (c : Thread nD τ) ↦{Transfers.shareTokN fullShare 281} f)
      ∗ (hbM1.view.loc (c : Thread nD τ) ↦{Transfers.shareTokN fullShare 282} f)
      ∗ (hbM1.view.loc (c : Thread nD τ) ↦{Transfers.shareTokN fullShare 283} f)
      ∗ (hbM1.view.loc (c : Thread nD τ) ↦{Transfers.shareTokN fullShare 284} f)
      ∗ (hbM1.view.loc (c : Thread nD τ) ↦{Transfers.shareTokN fullShare 285} f)
      ∗ (hbM1.view.loc (c : Thread nD τ) ↦{Transfers.shareTokN fullShare 286} f)
      ∗ (hbM1.view.loc (c : Thread nD τ) ↦{Transfers.shareTokN fullShare 287} f)
      ∗ (hbM1.view.loc (c : Thread nD τ) ↦{Transfers.shareTokN fullShare 288} f)
      ∗ (hbM1.view.loc (c : Thread nD τ) ↦{Transfers.shareTokN fullShare 289} f)
      ∗ (hbM1.view.loc (c : Thread nD τ) ↦{Transfers.shareTokN fullShare 290} f)
      ∗ (hbM1.view.loc (c : Thread nD τ) ↦{Transfers.shareTokN fullShare 291} f)
      ∗ (hbM1.view.loc (c : Thread nD τ) ↦{Transfers.shareTokN fullShare 292} f)
      ∗ (hbM1.view.loc (c : Thread nD τ) ↦{Transfers.shareTokN fullShare 293} f)
      ∗ (hbM1.view.loc (c : Thread nD τ) ↦{Transfers.shareTokN fullShare 294} f)
      ∗ (hbM1.view.loc (c : Thread nD τ) ↦{Transfers.shareTokN fullShare 295} f)
      ∗ (hbM1.view.loc (c : Thread nD τ) ↦{Transfers.shareTokN fullShare 296} f)
      ∗ (hbM1.view.loc (c : Thread nD τ) ↦{Transfers.shareTokN fullShare 297} f)
      ∗ (hbM1.view.loc (c : Thread nD τ) ↦{Transfers.shareTokN fullShare 298} f)
      ∗ (hbM1.view.loc (c : Thread nD τ) ↦{Transfers.shareTokN fullShare 299} f)
      ∗ (hbM1.view.loc (c : Thread nD τ) ↦{Transfers.shareTokN fullShare 300} f)
      ∗ (hbM1.view.loc (c : Thread nD τ) ↦{Transfers.shareTokN fullShare 301} f)
      ∗ (hbM1.view.loc (c : Thread nD τ) ↦{Transfers.shareTokN fullShare 302} f)
      ∗ (hbM1.view.loc (c : Thread nD τ) ↦{Transfers.shareTokN fullShare 303} f)
      ∗ (hbM1.view.loc (c : Thread nD τ) ↦{Transfers.shareTokN fullShare 304} f)
      ∗ (hbM1.view.loc (c : Thread nD τ) ↦{Transfers.shareTokN fullShare 305} f)
      ∗ (hbM1.view.loc (c : Thread nD τ) ↦{Transfers.shareTokN fullShare 306} f)
      ∗ (hbM1.view.loc (c : Thread nD τ) ↦{Transfers.shareTokN fullShare 307} f)
      ∗ (hbM1.view.loc (c : Thread nD τ) ↦{Transfers.shareTokN fullShare 308} f)
      ∗ (hbM1.view.loc (c : Thread nD τ) ↦{Transfers.shareTokN fullShare 309} f)
      ∗ (hbM1.view.loc (c : Thread nD τ) ↦{Transfers.shareTokN fullShare 310} f)
      ∗ (hbM1.view.loc (c : Thread nD τ) ↦{Transfers.shareTokN fullShare 311} f)
      ∗ (hbM1.view.loc (c : Thread nD τ) ↦{Transfers.shareTokN fullShare 312} f)
      ∗ (hbM1.view.loc (c : Thread nD τ) ↦{Transfers.shareTokN fullShare 313} f)
      ∗ (hbM1.view.loc (c : Thread nD τ) ↦{Transfers.shareTokN fullShare 314} f)
      ∗ (hbM1.view.loc (c : Thread nD τ) ↦{Transfers.shareTokN fullShare 315} f)
      ∗ (hbM1.view.loc (c : Thread nD τ) ↦{Transfers.shareTokN fullShare 316} f)
      ∗ (hbM1.view.loc (c : Thread nD τ) ↦{Transfers.shareTokN fullShare 317} f)
      ∗ (hbM1.view.loc (c : Thread nD τ) ↦{Transfers.shareTokN fullShare 318} f)
      ∗ (hbM1.view.loc (c : Thread nD τ) ↦{Transfers.shareTokN fullShare 319} f)
      ∗ (hbM1.view.loc (c : Thread nD τ) ↦{Transfers.shareTokN fullShare 320} f)
      ∗ (hbM1.view.loc (c : Thread nD τ) ↦{Transfers.shareTokN fullShare 321} f)
      ∗ (hbM1.view.loc (c : Thread nD τ) ↦{Transfers.shareTokN fullShare 322} f)
      ∗ (hbM1.view.loc (c : Thread nD τ) ↦{Transfers.shareTokN fullShare 323} f)
      ∗ (hbM1.view.loc (c : Thread nD τ) ↦{Transfers.shareTokN fullShare 324} f)
      ∗ (hbM1.view.loc (c : Thread nD τ) ↦{Transfers.shareTokN fullShare 325} f)
      ∗ (hbM1.view.loc (c : Thread nD τ) ↦{Transfers.shareTokN fullShare 326} f)
      ∗ (hbM1.view.loc (c : Thread nD τ) ↦{Transfers.shareTokN fullShare 327} f)
      ∗ (hbM1.view.loc (c : Thread nD τ) ↦{Transfers.shareTokN fullShare 328} f)
      ∗ (hbM1.view.loc (c : Thread nD τ) ↦{Transfers.shareTokN fullShare 329} f)
      ∗ (hbM1.view.loc (c : Thread nD τ) ↦{Transfers.shareTokN fullShare 330} f)
      ∗ (hbM1.view.loc (c : Thread nD τ) ↦{Transfers.shareTokN fullShare 331} f)
      ∗ (hbM1.view.loc (c : Thread nD τ) ↦{Transfers.shareTokN fullShare 332} f)
      ∗ (hbM1.view.loc (c : Thread nD τ) ↦{Transfers.shareTokN fullShare 333} f)
      ∗ (hbM1.view.loc (c : Thread nD τ) ↦{Transfers.shareTokN fullShare 334} f)
      ∗ (hbM1.view.loc (c : Thread nD τ) ↦{Transfers.shareTokN fullShare 335} f)
      ∗ (hbM1.view.loc (c : Thread nD τ) ↦{Transfers.shareTokN fullShare 336} f)
      ∗ (hbM1.view.loc (c : Thread nD τ) ↦{Transfers.shareTokN fullShare 337} f)
      ∗ (hbM1.view.loc (c : Thread nD τ) ↦{Transfers.shareTokN fullShare 338} f)
      ∗ (hbM1.view.loc (c : Thread nD τ) ↦{Transfers.shareTokN fullShare 339} f)
      ∗ (hbM1.view.loc (c : Thread nD τ) ↦{Transfers.shareTokN fullShare 340} f)
      ∗ (hbM1.view.loc (c : Thread nD τ) ↦{Transfers.shareTokN fullShare 341} f)
      ∗ (hbM1.view.loc (c : Thread nD τ) ↦{Transfers.shareTokN fullShare 342} f)
      ∗ (hbM1.view.loc (c : Thread nD τ) ↦{Transfers.shareTokN fullShare 343} f)
      ∗ (hbM1.view.loc (c : Thread nD τ) ↦{Transfers.shareTokN fullShare 344} f)
      ∗ (hbM1.view.loc (c : Thread nD τ) ↦{Transfers.shareTokN fullShare 345} f)
      ∗ (hbM1.view.loc (c : Thread nD τ) ↦{Transfers.shareTokN fullShare 346} f)
      ∗ (hbM1.view.loc (c : Thread nD τ) ↦{Transfers.shareTokN fullShare 347} f)
      ∗ (hbM1.view.loc (c : Thread nD τ) ↦{Transfers.shareTokN fullShare 348} f)
      ∗ (hbM1.view.loc (c : Thread nD τ) ↦{Transfers.shareTokN fullShare 349} f)
      ∗ (hbM1.view.loc (c : Thread nD τ) ↦{Transfers.shareTokN fullShare 350} f)
      ∗ (hbM1.view.loc (c : Thread nD τ) ↦{Transfers.shareTokN fullShare 351} f)
      ∗ (hbM1.view.loc (c : Thread nD τ) ↦{Transfers.shareTokN fullShare 352} f)
      ∗ (hbM1.view.loc (c : Thread nD τ) ↦{Transfers.shareTokN fullShare 353} f)
      ∗ (hbM1.view.loc (c : Thread nD τ) ↦{Transfers.shareTokN fullShare 354} f)
      ∗ (hbM1.view.loc (c : Thread nD τ) ↦{Transfers.shareTokN fullShare 355} f)
      ∗ (hbM1.view.loc (c : Thread nD τ) ↦{Transfers.shareTokN fullShare 356} f)
      ∗ (hbM1.view.loc (c : Thread nD τ) ↦{Transfers.shareTokN fullShare 357} f)
      ∗ (hbM1.view.loc (c : Thread nD τ) ↦{Transfers.shareTokN fullShare 358} f)
      ∗ (hbM1.view.loc (c : Thread nD τ) ↦{Transfers.shareTokN fullShare 359} f)
      ∗ (hbM1.view.loc (c : Thread nD τ) ↦{Transfers.shareTokN fullShare 360} f)
      ∗ (hbM1.view.loc (c : Thread nD τ) ↦{Transfers.shareTokN fullShare 361} f)
      ∗ (hbM1.view.loc (c : Thread nD τ) ↦{Transfers.shareTokN fullShare 362} f)
      ∗ (hbM1.view.loc (c : Thread nD τ) ↦{Transfers.shareTokN fullShare 363} f)
      ∗ (hbM1.view.loc (c : Thread nD τ) ↦{Transfers.shareTokN fullShare 364} f)
      ∗ (hbM1.view.loc (c : Thread nD τ) ↦{Transfers.shareTokN fullShare 365} f)
      ∗ (hbM1.view.loc (c : Thread nD τ) ↦{Transfers.shareTokN fullShare 366} f)
      ∗ (hbM1.view.loc (c : Thread nD τ) ↦{Transfers.shareTokN fullShare 367} f)
      ∗ (hbM1.view.loc (c : Thread nD τ) ↦{Transfers.shareTokN fullShare 368} f)
      ∗ (hbM1.view.loc (c : Thread nD τ) ↦{Transfers.shareTokN fullShare 369} f)
      ∗ (hbM1.view.loc (c : Thread nD τ) ↦{Transfers.shareTokN fullShare 370} f)
      ∗ (hbM1.view.loc (c : Thread nD τ) ↦{Transfers.shareTokN fullShare 371} f)
      ∗ (hbM1.view.loc (c : Thread nD τ) ↦{Transfers.shareTokN fullShare 372} f)
      ∗ (hbM1.view.loc (c : Thread nD τ) ↦{Transfers.shareTokN fullShare 373} f)
      ∗ (hbM1.view.loc (c : Thread nD τ) ↦{Transfers.shareTokN fullShare 374} f)
      ∗ (hbM1.view.loc (c : Thread nD τ) ↦{Transfers.shareTokN fullShare 375} f)
      ∗ (hbM1.view.loc (c : Thread nD τ) ↦{Transfers.shareTokN fullShare 376} f)
      ∗ (hbM1.view.loc (c : Thread nD τ) ↦{Transfers.shareTokN fullShare 377} f)
      ∗ (hbM1.view.loc (c : Thread nD τ) ↦{Transfers.shareTokN fullShare 378} f)
      ∗ (hbM1.view.loc (c : Thread nD τ) ↦{Transfers.shareTokN fullShare 379} f)
      ∗ (hbM1.view.loc (c : Thread nD τ) ↦{Transfers.shareTokN fullShare 380} f)
      ∗ (hbM1.view.loc (c : Thread nD τ) ↦{Transfers.shareTokN fullShare 381} f)
      ∗ (hbM1.view.loc (c : Thread nD τ) ↦{Transfers.shareTokN fullShare 382} f)
      ∗ (hbM1.view.loc (c : Thread nD τ) ↦{Transfers.shareTokN fullShare 383} f)
      ∗ (hbM1.view.loc (c : Thread nD τ) ↦{Transfers.shareTokN fullShare 384} f)
      ∗ (hbM1.view.loc (c : Thread nD τ) ↦{Transfers.shareTokN fullShare 385} f)
      ∗ (hbM1.view.loc (c : Thread nD τ) ↦{Transfers.shareTokN fullShare 386} f)
      ∗ (hbM1.view.loc (c : Thread nD τ) ↦{Transfers.shareTokN fullShare 387} f)
      ∗ (hbM1.view.loc (c : Thread nD τ) ↦{Transfers.shareTokN fullShare 388} f)
      ∗ (hbM1.view.loc (c : Thread nD τ) ↦{Transfers.shareTokN fullShare 389} f)
      ∗ (hbM1.view.loc (c : Thread nD τ) ↦{Transfers.shareTokN fullShare 390} f)
      ∗ (hbM1.view.loc (c : Thread nD τ) ↦{Transfers.shareTokN fullShare 391} f)
      ∗ (hbM1.view.loc (c : Thread nD τ) ↦{Transfers.shareTokN fullShare 392} f)
      ∗ (hbM1.view.loc (c : Thread nD τ) ↦{Transfers.shareTokN fullShare 393} f)
      ∗ emp)) := by
  have h := (toks_up2 (F := F) (ℓ := hbM1.view.loc (c : Thread nD τ)) f 138 128 128).1
  simp only [chainUp, Nat.reduceAdd] at h
  exact h

set_option maxHeartbeats 8000000 in
/-- Scratch buffer 0 held at its own elements, as its 128 rows, row 0 first: each row is the destination of one copy. -/
theorem rows_up0 (c : Dev nD) (f : Buf (Elt F) (scM0.view.loc (c : Thread nD τ))) :
    (scM0.view.loc (c : Thread nD τ) ↦[scM0.view.set]{fullShare} f : sProp 𝕄) ⊢ iprop(((rowM scM0 0 inb_S128x64_S1x64_0_0).view.loc (c : Thread nD τ) ↦[(rowM scM0 0 inb_S128x64_S1x64_0_0).view.set]{fullShare} f)
      ∗ ((rowM scM0 1 inb_S128x64_S1x64_1_0).view.loc (c : Thread nD τ) ↦[(rowM scM0 1 inb_S128x64_S1x64_1_0).view.set]{fullShare} f)
      ∗ ((rowM scM0 2 inb_S128x64_S1x64_2_0).view.loc (c : Thread nD τ) ↦[(rowM scM0 2 inb_S128x64_S1x64_2_0).view.set]{fullShare} f)
      ∗ ((rowM scM0 3 inb_S128x64_S1x64_3_0).view.loc (c : Thread nD τ) ↦[(rowM scM0 3 inb_S128x64_S1x64_3_0).view.set]{fullShare} f)
      ∗ ((rowM scM0 4 inb_S128x64_S1x64_4_0).view.loc (c : Thread nD τ) ↦[(rowM scM0 4 inb_S128x64_S1x64_4_0).view.set]{fullShare} f)
      ∗ ((rowM scM0 5 inb_S128x64_S1x64_5_0).view.loc (c : Thread nD τ) ↦[(rowM scM0 5 inb_S128x64_S1x64_5_0).view.set]{fullShare} f)
      ∗ ((rowM scM0 6 inb_S128x64_S1x64_6_0).view.loc (c : Thread nD τ) ↦[(rowM scM0 6 inb_S128x64_S1x64_6_0).view.set]{fullShare} f)
      ∗ ((rowM scM0 7 inb_S128x64_S1x64_7_0).view.loc (c : Thread nD τ) ↦[(rowM scM0 7 inb_S128x64_S1x64_7_0).view.set]{fullShare} f)
      ∗ ((rowM scM0 8 inb_S128x64_S1x64_8_0).view.loc (c : Thread nD τ) ↦[(rowM scM0 8 inb_S128x64_S1x64_8_0).view.set]{fullShare} f)
      ∗ ((rowM scM0 9 inb_S128x64_S1x64_9_0).view.loc (c : Thread nD τ) ↦[(rowM scM0 9 inb_S128x64_S1x64_9_0).view.set]{fullShare} f)
      ∗ ((rowM scM0 10 inb_S128x64_S1x64_10_0).view.loc (c : Thread nD τ) ↦[(rowM scM0 10 inb_S128x64_S1x64_10_0).view.set]{fullShare} f)
      ∗ ((rowM scM0 11 inb_S128x64_S1x64_11_0).view.loc (c : Thread nD τ) ↦[(rowM scM0 11 inb_S128x64_S1x64_11_0).view.set]{fullShare} f)
      ∗ ((rowM scM0 12 inb_S128x64_S1x64_12_0).view.loc (c : Thread nD τ) ↦[(rowM scM0 12 inb_S128x64_S1x64_12_0).view.set]{fullShare} f)
      ∗ ((rowM scM0 13 inb_S128x64_S1x64_13_0).view.loc (c : Thread nD τ) ↦[(rowM scM0 13 inb_S128x64_S1x64_13_0).view.set]{fullShare} f)
      ∗ ((rowM scM0 14 inb_S128x64_S1x64_14_0).view.loc (c : Thread nD τ) ↦[(rowM scM0 14 inb_S128x64_S1x64_14_0).view.set]{fullShare} f)
      ∗ ((rowM scM0 15 inb_S128x64_S1x64_15_0).view.loc (c : Thread nD τ) ↦[(rowM scM0 15 inb_S128x64_S1x64_15_0).view.set]{fullShare} f)
      ∗ ((rowM scM0 16 inb_S128x64_S1x64_16_0).view.loc (c : Thread nD τ) ↦[(rowM scM0 16 inb_S128x64_S1x64_16_0).view.set]{fullShare} f)
      ∗ ((rowM scM0 17 inb_S128x64_S1x64_17_0).view.loc (c : Thread nD τ) ↦[(rowM scM0 17 inb_S128x64_S1x64_17_0).view.set]{fullShare} f)
      ∗ ((rowM scM0 18 inb_S128x64_S1x64_18_0).view.loc (c : Thread nD τ) ↦[(rowM scM0 18 inb_S128x64_S1x64_18_0).view.set]{fullShare} f)
      ∗ ((rowM scM0 19 inb_S128x64_S1x64_19_0).view.loc (c : Thread nD τ) ↦[(rowM scM0 19 inb_S128x64_S1x64_19_0).view.set]{fullShare} f)
      ∗ ((rowM scM0 20 inb_S128x64_S1x64_20_0).view.loc (c : Thread nD τ) ↦[(rowM scM0 20 inb_S128x64_S1x64_20_0).view.set]{fullShare} f)
      ∗ ((rowM scM0 21 inb_S128x64_S1x64_21_0).view.loc (c : Thread nD τ) ↦[(rowM scM0 21 inb_S128x64_S1x64_21_0).view.set]{fullShare} f)
      ∗ ((rowM scM0 22 inb_S128x64_S1x64_22_0).view.loc (c : Thread nD τ) ↦[(rowM scM0 22 inb_S128x64_S1x64_22_0).view.set]{fullShare} f)
      ∗ ((rowM scM0 23 inb_S128x64_S1x64_23_0).view.loc (c : Thread nD τ) ↦[(rowM scM0 23 inb_S128x64_S1x64_23_0).view.set]{fullShare} f)
      ∗ ((rowM scM0 24 inb_S128x64_S1x64_24_0).view.loc (c : Thread nD τ) ↦[(rowM scM0 24 inb_S128x64_S1x64_24_0).view.set]{fullShare} f)
      ∗ ((rowM scM0 25 inb_S128x64_S1x64_25_0).view.loc (c : Thread nD τ) ↦[(rowM scM0 25 inb_S128x64_S1x64_25_0).view.set]{fullShare} f)
      ∗ ((rowM scM0 26 inb_S128x64_S1x64_26_0).view.loc (c : Thread nD τ) ↦[(rowM scM0 26 inb_S128x64_S1x64_26_0).view.set]{fullShare} f)
      ∗ ((rowM scM0 27 inb_S128x64_S1x64_27_0).view.loc (c : Thread nD τ) ↦[(rowM scM0 27 inb_S128x64_S1x64_27_0).view.set]{fullShare} f)
      ∗ ((rowM scM0 28 inb_S128x64_S1x64_28_0).view.loc (c : Thread nD τ) ↦[(rowM scM0 28 inb_S128x64_S1x64_28_0).view.set]{fullShare} f)
      ∗ ((rowM scM0 29 inb_S128x64_S1x64_29_0).view.loc (c : Thread nD τ) ↦[(rowM scM0 29 inb_S128x64_S1x64_29_0).view.set]{fullShare} f)
      ∗ ((rowM scM0 30 inb_S128x64_S1x64_30_0).view.loc (c : Thread nD τ) ↦[(rowM scM0 30 inb_S128x64_S1x64_30_0).view.set]{fullShare} f)
      ∗ ((rowM scM0 31 inb_S128x64_S1x64_31_0).view.loc (c : Thread nD τ) ↦[(rowM scM0 31 inb_S128x64_S1x64_31_0).view.set]{fullShare} f)
      ∗ ((rowM scM0 32 inb_S128x64_S1x64_32_0).view.loc (c : Thread nD τ) ↦[(rowM scM0 32 inb_S128x64_S1x64_32_0).view.set]{fullShare} f)
      ∗ ((rowM scM0 33 inb_S128x64_S1x64_33_0).view.loc (c : Thread nD τ) ↦[(rowM scM0 33 inb_S128x64_S1x64_33_0).view.set]{fullShare} f)
      ∗ ((rowM scM0 34 inb_S128x64_S1x64_34_0).view.loc (c : Thread nD τ) ↦[(rowM scM0 34 inb_S128x64_S1x64_34_0).view.set]{fullShare} f)
      ∗ ((rowM scM0 35 inb_S128x64_S1x64_35_0).view.loc (c : Thread nD τ) ↦[(rowM scM0 35 inb_S128x64_S1x64_35_0).view.set]{fullShare} f)
      ∗ ((rowM scM0 36 inb_S128x64_S1x64_36_0).view.loc (c : Thread nD τ) ↦[(rowM scM0 36 inb_S128x64_S1x64_36_0).view.set]{fullShare} f)
      ∗ ((rowM scM0 37 inb_S128x64_S1x64_37_0).view.loc (c : Thread nD τ) ↦[(rowM scM0 37 inb_S128x64_S1x64_37_0).view.set]{fullShare} f)
      ∗ ((rowM scM0 38 inb_S128x64_S1x64_38_0).view.loc (c : Thread nD τ) ↦[(rowM scM0 38 inb_S128x64_S1x64_38_0).view.set]{fullShare} f)
      ∗ ((rowM scM0 39 inb_S128x64_S1x64_39_0).view.loc (c : Thread nD τ) ↦[(rowM scM0 39 inb_S128x64_S1x64_39_0).view.set]{fullShare} f)
      ∗ ((rowM scM0 40 inb_S128x64_S1x64_40_0).view.loc (c : Thread nD τ) ↦[(rowM scM0 40 inb_S128x64_S1x64_40_0).view.set]{fullShare} f)
      ∗ ((rowM scM0 41 inb_S128x64_S1x64_41_0).view.loc (c : Thread nD τ) ↦[(rowM scM0 41 inb_S128x64_S1x64_41_0).view.set]{fullShare} f)
      ∗ ((rowM scM0 42 inb_S128x64_S1x64_42_0).view.loc (c : Thread nD τ) ↦[(rowM scM0 42 inb_S128x64_S1x64_42_0).view.set]{fullShare} f)
      ∗ ((rowM scM0 43 inb_S128x64_S1x64_43_0).view.loc (c : Thread nD τ) ↦[(rowM scM0 43 inb_S128x64_S1x64_43_0).view.set]{fullShare} f)
      ∗ ((rowM scM0 44 inb_S128x64_S1x64_44_0).view.loc (c : Thread nD τ) ↦[(rowM scM0 44 inb_S128x64_S1x64_44_0).view.set]{fullShare} f)
      ∗ ((rowM scM0 45 inb_S128x64_S1x64_45_0).view.loc (c : Thread nD τ) ↦[(rowM scM0 45 inb_S128x64_S1x64_45_0).view.set]{fullShare} f)
      ∗ ((rowM scM0 46 inb_S128x64_S1x64_46_0).view.loc (c : Thread nD τ) ↦[(rowM scM0 46 inb_S128x64_S1x64_46_0).view.set]{fullShare} f)
      ∗ ((rowM scM0 47 inb_S128x64_S1x64_47_0).view.loc (c : Thread nD τ) ↦[(rowM scM0 47 inb_S128x64_S1x64_47_0).view.set]{fullShare} f)
      ∗ ((rowM scM0 48 inb_S128x64_S1x64_48_0).view.loc (c : Thread nD τ) ↦[(rowM scM0 48 inb_S128x64_S1x64_48_0).view.set]{fullShare} f)
      ∗ ((rowM scM0 49 inb_S128x64_S1x64_49_0).view.loc (c : Thread nD τ) ↦[(rowM scM0 49 inb_S128x64_S1x64_49_0).view.set]{fullShare} f)
      ∗ ((rowM scM0 50 inb_S128x64_S1x64_50_0).view.loc (c : Thread nD τ) ↦[(rowM scM0 50 inb_S128x64_S1x64_50_0).view.set]{fullShare} f)
      ∗ ((rowM scM0 51 inb_S128x64_S1x64_51_0).view.loc (c : Thread nD τ) ↦[(rowM scM0 51 inb_S128x64_S1x64_51_0).view.set]{fullShare} f)
      ∗ ((rowM scM0 52 inb_S128x64_S1x64_52_0).view.loc (c : Thread nD τ) ↦[(rowM scM0 52 inb_S128x64_S1x64_52_0).view.set]{fullShare} f)
      ∗ ((rowM scM0 53 inb_S128x64_S1x64_53_0).view.loc (c : Thread nD τ) ↦[(rowM scM0 53 inb_S128x64_S1x64_53_0).view.set]{fullShare} f)
      ∗ ((rowM scM0 54 inb_S128x64_S1x64_54_0).view.loc (c : Thread nD τ) ↦[(rowM scM0 54 inb_S128x64_S1x64_54_0).view.set]{fullShare} f)
      ∗ ((rowM scM0 55 inb_S128x64_S1x64_55_0).view.loc (c : Thread nD τ) ↦[(rowM scM0 55 inb_S128x64_S1x64_55_0).view.set]{fullShare} f)
      ∗ ((rowM scM0 56 inb_S128x64_S1x64_56_0).view.loc (c : Thread nD τ) ↦[(rowM scM0 56 inb_S128x64_S1x64_56_0).view.set]{fullShare} f)
      ∗ ((rowM scM0 57 inb_S128x64_S1x64_57_0).view.loc (c : Thread nD τ) ↦[(rowM scM0 57 inb_S128x64_S1x64_57_0).view.set]{fullShare} f)
      ∗ ((rowM scM0 58 inb_S128x64_S1x64_58_0).view.loc (c : Thread nD τ) ↦[(rowM scM0 58 inb_S128x64_S1x64_58_0).view.set]{fullShare} f)
      ∗ ((rowM scM0 59 inb_S128x64_S1x64_59_0).view.loc (c : Thread nD τ) ↦[(rowM scM0 59 inb_S128x64_S1x64_59_0).view.set]{fullShare} f)
      ∗ ((rowM scM0 60 inb_S128x64_S1x64_60_0).view.loc (c : Thread nD τ) ↦[(rowM scM0 60 inb_S128x64_S1x64_60_0).view.set]{fullShare} f)
      ∗ ((rowM scM0 61 inb_S128x64_S1x64_61_0).view.loc (c : Thread nD τ) ↦[(rowM scM0 61 inb_S128x64_S1x64_61_0).view.set]{fullShare} f)
      ∗ ((rowM scM0 62 inb_S128x64_S1x64_62_0).view.loc (c : Thread nD τ) ↦[(rowM scM0 62 inb_S128x64_S1x64_62_0).view.set]{fullShare} f)
      ∗ ((rowM scM0 63 inb_S128x64_S1x64_63_0).view.loc (c : Thread nD τ) ↦[(rowM scM0 63 inb_S128x64_S1x64_63_0).view.set]{fullShare} f)
      ∗ ((rowM scM0 64 inb_S128x64_S1x64_64_0).view.loc (c : Thread nD τ) ↦[(rowM scM0 64 inb_S128x64_S1x64_64_0).view.set]{fullShare} f)
      ∗ ((rowM scM0 65 inb_S128x64_S1x64_65_0).view.loc (c : Thread nD τ) ↦[(rowM scM0 65 inb_S128x64_S1x64_65_0).view.set]{fullShare} f)
      ∗ ((rowM scM0 66 inb_S128x64_S1x64_66_0).view.loc (c : Thread nD τ) ↦[(rowM scM0 66 inb_S128x64_S1x64_66_0).view.set]{fullShare} f)
      ∗ ((rowM scM0 67 inb_S128x64_S1x64_67_0).view.loc (c : Thread nD τ) ↦[(rowM scM0 67 inb_S128x64_S1x64_67_0).view.set]{fullShare} f)
      ∗ ((rowM scM0 68 inb_S128x64_S1x64_68_0).view.loc (c : Thread nD τ) ↦[(rowM scM0 68 inb_S128x64_S1x64_68_0).view.set]{fullShare} f)
      ∗ ((rowM scM0 69 inb_S128x64_S1x64_69_0).view.loc (c : Thread nD τ) ↦[(rowM scM0 69 inb_S128x64_S1x64_69_0).view.set]{fullShare} f)
      ∗ ((rowM scM0 70 inb_S128x64_S1x64_70_0).view.loc (c : Thread nD τ) ↦[(rowM scM0 70 inb_S128x64_S1x64_70_0).view.set]{fullShare} f)
      ∗ ((rowM scM0 71 inb_S128x64_S1x64_71_0).view.loc (c : Thread nD τ) ↦[(rowM scM0 71 inb_S128x64_S1x64_71_0).view.set]{fullShare} f)
      ∗ ((rowM scM0 72 inb_S128x64_S1x64_72_0).view.loc (c : Thread nD τ) ↦[(rowM scM0 72 inb_S128x64_S1x64_72_0).view.set]{fullShare} f)
      ∗ ((rowM scM0 73 inb_S128x64_S1x64_73_0).view.loc (c : Thread nD τ) ↦[(rowM scM0 73 inb_S128x64_S1x64_73_0).view.set]{fullShare} f)
      ∗ ((rowM scM0 74 inb_S128x64_S1x64_74_0).view.loc (c : Thread nD τ) ↦[(rowM scM0 74 inb_S128x64_S1x64_74_0).view.set]{fullShare} f)
      ∗ ((rowM scM0 75 inb_S128x64_S1x64_75_0).view.loc (c : Thread nD τ) ↦[(rowM scM0 75 inb_S128x64_S1x64_75_0).view.set]{fullShare} f)
      ∗ ((rowM scM0 76 inb_S128x64_S1x64_76_0).view.loc (c : Thread nD τ) ↦[(rowM scM0 76 inb_S128x64_S1x64_76_0).view.set]{fullShare} f)
      ∗ ((rowM scM0 77 inb_S128x64_S1x64_77_0).view.loc (c : Thread nD τ) ↦[(rowM scM0 77 inb_S128x64_S1x64_77_0).view.set]{fullShare} f)
      ∗ ((rowM scM0 78 inb_S128x64_S1x64_78_0).view.loc (c : Thread nD τ) ↦[(rowM scM0 78 inb_S128x64_S1x64_78_0).view.set]{fullShare} f)
      ∗ ((rowM scM0 79 inb_S128x64_S1x64_79_0).view.loc (c : Thread nD τ) ↦[(rowM scM0 79 inb_S128x64_S1x64_79_0).view.set]{fullShare} f)
      ∗ ((rowM scM0 80 inb_S128x64_S1x64_80_0).view.loc (c : Thread nD τ) ↦[(rowM scM0 80 inb_S128x64_S1x64_80_0).view.set]{fullShare} f)
      ∗ ((rowM scM0 81 inb_S128x64_S1x64_81_0).view.loc (c : Thread nD τ) ↦[(rowM scM0 81 inb_S128x64_S1x64_81_0).view.set]{fullShare} f)
      ∗ ((rowM scM0 82 inb_S128x64_S1x64_82_0).view.loc (c : Thread nD τ) ↦[(rowM scM0 82 inb_S128x64_S1x64_82_0).view.set]{fullShare} f)
      ∗ ((rowM scM0 83 inb_S128x64_S1x64_83_0).view.loc (c : Thread nD τ) ↦[(rowM scM0 83 inb_S128x64_S1x64_83_0).view.set]{fullShare} f)
      ∗ ((rowM scM0 84 inb_S128x64_S1x64_84_0).view.loc (c : Thread nD τ) ↦[(rowM scM0 84 inb_S128x64_S1x64_84_0).view.set]{fullShare} f)
      ∗ ((rowM scM0 85 inb_S128x64_S1x64_85_0).view.loc (c : Thread nD τ) ↦[(rowM scM0 85 inb_S128x64_S1x64_85_0).view.set]{fullShare} f)
      ∗ ((rowM scM0 86 inb_S128x64_S1x64_86_0).view.loc (c : Thread nD τ) ↦[(rowM scM0 86 inb_S128x64_S1x64_86_0).view.set]{fullShare} f)
      ∗ ((rowM scM0 87 inb_S128x64_S1x64_87_0).view.loc (c : Thread nD τ) ↦[(rowM scM0 87 inb_S128x64_S1x64_87_0).view.set]{fullShare} f)
      ∗ ((rowM scM0 88 inb_S128x64_S1x64_88_0).view.loc (c : Thread nD τ) ↦[(rowM scM0 88 inb_S128x64_S1x64_88_0).view.set]{fullShare} f)
      ∗ ((rowM scM0 89 inb_S128x64_S1x64_89_0).view.loc (c : Thread nD τ) ↦[(rowM scM0 89 inb_S128x64_S1x64_89_0).view.set]{fullShare} f)
      ∗ ((rowM scM0 90 inb_S128x64_S1x64_90_0).view.loc (c : Thread nD τ) ↦[(rowM scM0 90 inb_S128x64_S1x64_90_0).view.set]{fullShare} f)
      ∗ ((rowM scM0 91 inb_S128x64_S1x64_91_0).view.loc (c : Thread nD τ) ↦[(rowM scM0 91 inb_S128x64_S1x64_91_0).view.set]{fullShare} f)
      ∗ ((rowM scM0 92 inb_S128x64_S1x64_92_0).view.loc (c : Thread nD τ) ↦[(rowM scM0 92 inb_S128x64_S1x64_92_0).view.set]{fullShare} f)
      ∗ ((rowM scM0 93 inb_S128x64_S1x64_93_0).view.loc (c : Thread nD τ) ↦[(rowM scM0 93 inb_S128x64_S1x64_93_0).view.set]{fullShare} f)
      ∗ ((rowM scM0 94 inb_S128x64_S1x64_94_0).view.loc (c : Thread nD τ) ↦[(rowM scM0 94 inb_S128x64_S1x64_94_0).view.set]{fullShare} f)
      ∗ ((rowM scM0 95 inb_S128x64_S1x64_95_0).view.loc (c : Thread nD τ) ↦[(rowM scM0 95 inb_S128x64_S1x64_95_0).view.set]{fullShare} f)
      ∗ ((rowM scM0 96 inb_S128x64_S1x64_96_0).view.loc (c : Thread nD τ) ↦[(rowM scM0 96 inb_S128x64_S1x64_96_0).view.set]{fullShare} f)
      ∗ ((rowM scM0 97 inb_S128x64_S1x64_97_0).view.loc (c : Thread nD τ) ↦[(rowM scM0 97 inb_S128x64_S1x64_97_0).view.set]{fullShare} f)
      ∗ ((rowM scM0 98 inb_S128x64_S1x64_98_0).view.loc (c : Thread nD τ) ↦[(rowM scM0 98 inb_S128x64_S1x64_98_0).view.set]{fullShare} f)
      ∗ ((rowM scM0 99 inb_S128x64_S1x64_99_0).view.loc (c : Thread nD τ) ↦[(rowM scM0 99 inb_S128x64_S1x64_99_0).view.set]{fullShare} f)
      ∗ ((rowM scM0 100 inb_S128x64_S1x64_100_0).view.loc (c : Thread nD τ) ↦[(rowM scM0 100 inb_S128x64_S1x64_100_0).view.set]{fullShare} f)
      ∗ ((rowM scM0 101 inb_S128x64_S1x64_101_0).view.loc (c : Thread nD τ) ↦[(rowM scM0 101 inb_S128x64_S1x64_101_0).view.set]{fullShare} f)
      ∗ ((rowM scM0 102 inb_S128x64_S1x64_102_0).view.loc (c : Thread nD τ) ↦[(rowM scM0 102 inb_S128x64_S1x64_102_0).view.set]{fullShare} f)
      ∗ ((rowM scM0 103 inb_S128x64_S1x64_103_0).view.loc (c : Thread nD τ) ↦[(rowM scM0 103 inb_S128x64_S1x64_103_0).view.set]{fullShare} f)
      ∗ ((rowM scM0 104 inb_S128x64_S1x64_104_0).view.loc (c : Thread nD τ) ↦[(rowM scM0 104 inb_S128x64_S1x64_104_0).view.set]{fullShare} f)
      ∗ ((rowM scM0 105 inb_S128x64_S1x64_105_0).view.loc (c : Thread nD τ) ↦[(rowM scM0 105 inb_S128x64_S1x64_105_0).view.set]{fullShare} f)
      ∗ ((rowM scM0 106 inb_S128x64_S1x64_106_0).view.loc (c : Thread nD τ) ↦[(rowM scM0 106 inb_S128x64_S1x64_106_0).view.set]{fullShare} f)
      ∗ ((rowM scM0 107 inb_S128x64_S1x64_107_0).view.loc (c : Thread nD τ) ↦[(rowM scM0 107 inb_S128x64_S1x64_107_0).view.set]{fullShare} f)
      ∗ ((rowM scM0 108 inb_S128x64_S1x64_108_0).view.loc (c : Thread nD τ) ↦[(rowM scM0 108 inb_S128x64_S1x64_108_0).view.set]{fullShare} f)
      ∗ ((rowM scM0 109 inb_S128x64_S1x64_109_0).view.loc (c : Thread nD τ) ↦[(rowM scM0 109 inb_S128x64_S1x64_109_0).view.set]{fullShare} f)
      ∗ ((rowM scM0 110 inb_S128x64_S1x64_110_0).view.loc (c : Thread nD τ) ↦[(rowM scM0 110 inb_S128x64_S1x64_110_0).view.set]{fullShare} f)
      ∗ ((rowM scM0 111 inb_S128x64_S1x64_111_0).view.loc (c : Thread nD τ) ↦[(rowM scM0 111 inb_S128x64_S1x64_111_0).view.set]{fullShare} f)
      ∗ ((rowM scM0 112 inb_S128x64_S1x64_112_0).view.loc (c : Thread nD τ) ↦[(rowM scM0 112 inb_S128x64_S1x64_112_0).view.set]{fullShare} f)
      ∗ ((rowM scM0 113 inb_S128x64_S1x64_113_0).view.loc (c : Thread nD τ) ↦[(rowM scM0 113 inb_S128x64_S1x64_113_0).view.set]{fullShare} f)
      ∗ ((rowM scM0 114 inb_S128x64_S1x64_114_0).view.loc (c : Thread nD τ) ↦[(rowM scM0 114 inb_S128x64_S1x64_114_0).view.set]{fullShare} f)
      ∗ ((rowM scM0 115 inb_S128x64_S1x64_115_0).view.loc (c : Thread nD τ) ↦[(rowM scM0 115 inb_S128x64_S1x64_115_0).view.set]{fullShare} f)
      ∗ ((rowM scM0 116 inb_S128x64_S1x64_116_0).view.loc (c : Thread nD τ) ↦[(rowM scM0 116 inb_S128x64_S1x64_116_0).view.set]{fullShare} f)
      ∗ ((rowM scM0 117 inb_S128x64_S1x64_117_0).view.loc (c : Thread nD τ) ↦[(rowM scM0 117 inb_S128x64_S1x64_117_0).view.set]{fullShare} f)
      ∗ ((rowM scM0 118 inb_S128x64_S1x64_118_0).view.loc (c : Thread nD τ) ↦[(rowM scM0 118 inb_S128x64_S1x64_118_0).view.set]{fullShare} f)
      ∗ ((rowM scM0 119 inb_S128x64_S1x64_119_0).view.loc (c : Thread nD τ) ↦[(rowM scM0 119 inb_S128x64_S1x64_119_0).view.set]{fullShare} f)
      ∗ ((rowM scM0 120 inb_S128x64_S1x64_120_0).view.loc (c : Thread nD τ) ↦[(rowM scM0 120 inb_S128x64_S1x64_120_0).view.set]{fullShare} f)
      ∗ ((rowM scM0 121 inb_S128x64_S1x64_121_0).view.loc (c : Thread nD τ) ↦[(rowM scM0 121 inb_S128x64_S1x64_121_0).view.set]{fullShare} f)
      ∗ ((rowM scM0 122 inb_S128x64_S1x64_122_0).view.loc (c : Thread nD τ) ↦[(rowM scM0 122 inb_S128x64_S1x64_122_0).view.set]{fullShare} f)
      ∗ ((rowM scM0 123 inb_S128x64_S1x64_123_0).view.loc (c : Thread nD τ) ↦[(rowM scM0 123 inb_S128x64_S1x64_123_0).view.set]{fullShare} f)
      ∗ ((rowM scM0 124 inb_S128x64_S1x64_124_0).view.loc (c : Thread nD τ) ↦[(rowM scM0 124 inb_S128x64_S1x64_124_0).view.set]{fullShare} f)
      ∗ ((rowM scM0 125 inb_S128x64_S1x64_125_0).view.loc (c : Thread nD τ) ↦[(rowM scM0 125 inb_S128x64_S1x64_125_0).view.set]{fullShare} f)
      ∗ ((rowM scM0 126 inb_S128x64_S1x64_126_0).view.loc (c : Thread nD τ) ↦[(rowM scM0 126 inb_S128x64_S1x64_126_0).view.set]{fullShare} f)
      ∗ ((rowM scM0 127 inb_S128x64_S1x64_127_0).view.loc (c : Thread nD τ) ↦[(rowM scM0 127 inb_S128x64_S1x64_127_0).view.set]{fullShare} f)
      ∗ emp) := by
  have h := rows_split (F := F) scM0 c f
  rw [bigSep_range_eq_chainUp] at h
  simp only [chainUp, Nat.reduceAdd, rowSet_lit scM0 0 (by decide) inb_S128x64_S1x64_0_0, rowSet_lit scM0 1 (by decide) inb_S128x64_S1x64_1_0, rowSet_lit scM0 2 (by decide) inb_S128x64_S1x64_2_0, rowSet_lit scM0 3 (by decide) inb_S128x64_S1x64_3_0, rowSet_lit scM0 4 (by decide) inb_S128x64_S1x64_4_0, rowSet_lit scM0 5 (by decide) inb_S128x64_S1x64_5_0, rowSet_lit scM0 6 (by decide) inb_S128x64_S1x64_6_0, rowSet_lit scM0 7 (by decide) inb_S128x64_S1x64_7_0, rowSet_lit scM0 8 (by decide) inb_S128x64_S1x64_8_0, rowSet_lit scM0 9 (by decide) inb_S128x64_S1x64_9_0, rowSet_lit scM0 10 (by decide) inb_S128x64_S1x64_10_0, rowSet_lit scM0 11 (by decide) inb_S128x64_S1x64_11_0, rowSet_lit scM0 12 (by decide) inb_S128x64_S1x64_12_0, rowSet_lit scM0 13 (by decide) inb_S128x64_S1x64_13_0, rowSet_lit scM0 14 (by decide) inb_S128x64_S1x64_14_0, rowSet_lit scM0 15 (by decide) inb_S128x64_S1x64_15_0, rowSet_lit scM0 16 (by decide) inb_S128x64_S1x64_16_0, rowSet_lit scM0 17 (by decide) inb_S128x64_S1x64_17_0, rowSet_lit scM0 18 (by decide) inb_S128x64_S1x64_18_0, rowSet_lit scM0 19 (by decide) inb_S128x64_S1x64_19_0, rowSet_lit scM0 20 (by decide) inb_S128x64_S1x64_20_0, rowSet_lit scM0 21 (by decide) inb_S128x64_S1x64_21_0, rowSet_lit scM0 22 (by decide) inb_S128x64_S1x64_22_0, rowSet_lit scM0 23 (by decide) inb_S128x64_S1x64_23_0, rowSet_lit scM0 24 (by decide) inb_S128x64_S1x64_24_0, rowSet_lit scM0 25 (by decide) inb_S128x64_S1x64_25_0, rowSet_lit scM0 26 (by decide) inb_S128x64_S1x64_26_0, rowSet_lit scM0 27 (by decide) inb_S128x64_S1x64_27_0, rowSet_lit scM0 28 (by decide) inb_S128x64_S1x64_28_0, rowSet_lit scM0 29 (by decide) inb_S128x64_S1x64_29_0, rowSet_lit scM0 30 (by decide) inb_S128x64_S1x64_30_0, rowSet_lit scM0 31 (by decide) inb_S128x64_S1x64_31_0, rowSet_lit scM0 32 (by decide) inb_S128x64_S1x64_32_0, rowSet_lit scM0 33 (by decide) inb_S128x64_S1x64_33_0, rowSet_lit scM0 34 (by decide) inb_S128x64_S1x64_34_0, rowSet_lit scM0 35 (by decide) inb_S128x64_S1x64_35_0, rowSet_lit scM0 36 (by decide) inb_S128x64_S1x64_36_0, rowSet_lit scM0 37 (by decide) inb_S128x64_S1x64_37_0, rowSet_lit scM0 38 (by decide) inb_S128x64_S1x64_38_0, rowSet_lit scM0 39 (by decide) inb_S128x64_S1x64_39_0, rowSet_lit scM0 40 (by decide) inb_S128x64_S1x64_40_0, rowSet_lit scM0 41 (by decide) inb_S128x64_S1x64_41_0, rowSet_lit scM0 42 (by decide) inb_S128x64_S1x64_42_0, rowSet_lit scM0 43 (by decide) inb_S128x64_S1x64_43_0, rowSet_lit scM0 44 (by decide) inb_S128x64_S1x64_44_0, rowSet_lit scM0 45 (by decide) inb_S128x64_S1x64_45_0, rowSet_lit scM0 46 (by decide) inb_S128x64_S1x64_46_0, rowSet_lit scM0 47 (by decide) inb_S128x64_S1x64_47_0, rowSet_lit scM0 48 (by decide) inb_S128x64_S1x64_48_0, rowSet_lit scM0 49 (by decide) inb_S128x64_S1x64_49_0, rowSet_lit scM0 50 (by decide) inb_S128x64_S1x64_50_0, rowSet_lit scM0 51 (by decide) inb_S128x64_S1x64_51_0, rowSet_lit scM0 52 (by decide) inb_S128x64_S1x64_52_0, rowSet_lit scM0 53 (by decide) inb_S128x64_S1x64_53_0, rowSet_lit scM0 54 (by decide) inb_S128x64_S1x64_54_0, rowSet_lit scM0 55 (by decide) inb_S128x64_S1x64_55_0, rowSet_lit scM0 56 (by decide) inb_S128x64_S1x64_56_0, rowSet_lit scM0 57 (by decide) inb_S128x64_S1x64_57_0, rowSet_lit scM0 58 (by decide) inb_S128x64_S1x64_58_0, rowSet_lit scM0 59 (by decide) inb_S128x64_S1x64_59_0, rowSet_lit scM0 60 (by decide) inb_S128x64_S1x64_60_0, rowSet_lit scM0 61 (by decide) inb_S128x64_S1x64_61_0, rowSet_lit scM0 62 (by decide) inb_S128x64_S1x64_62_0, rowSet_lit scM0 63 (by decide) inb_S128x64_S1x64_63_0, rowSet_lit scM0 64 (by decide) inb_S128x64_S1x64_64_0, rowSet_lit scM0 65 (by decide) inb_S128x64_S1x64_65_0, rowSet_lit scM0 66 (by decide) inb_S128x64_S1x64_66_0, rowSet_lit scM0 67 (by decide) inb_S128x64_S1x64_67_0, rowSet_lit scM0 68 (by decide) inb_S128x64_S1x64_68_0, rowSet_lit scM0 69 (by decide) inb_S128x64_S1x64_69_0, rowSet_lit scM0 70 (by decide) inb_S128x64_S1x64_70_0, rowSet_lit scM0 71 (by decide) inb_S128x64_S1x64_71_0, rowSet_lit scM0 72 (by decide) inb_S128x64_S1x64_72_0, rowSet_lit scM0 73 (by decide) inb_S128x64_S1x64_73_0, rowSet_lit scM0 74 (by decide) inb_S128x64_S1x64_74_0, rowSet_lit scM0 75 (by decide) inb_S128x64_S1x64_75_0, rowSet_lit scM0 76 (by decide) inb_S128x64_S1x64_76_0, rowSet_lit scM0 77 (by decide) inb_S128x64_S1x64_77_0, rowSet_lit scM0 78 (by decide) inb_S128x64_S1x64_78_0, rowSet_lit scM0 79 (by decide) inb_S128x64_S1x64_79_0, rowSet_lit scM0 80 (by decide) inb_S128x64_S1x64_80_0, rowSet_lit scM0 81 (by decide) inb_S128x64_S1x64_81_0, rowSet_lit scM0 82 (by decide) inb_S128x64_S1x64_82_0, rowSet_lit scM0 83 (by decide) inb_S128x64_S1x64_83_0, rowSet_lit scM0 84 (by decide) inb_S128x64_S1x64_84_0, rowSet_lit scM0 85 (by decide) inb_S128x64_S1x64_85_0, rowSet_lit scM0 86 (by decide) inb_S128x64_S1x64_86_0, rowSet_lit scM0 87 (by decide) inb_S128x64_S1x64_87_0, rowSet_lit scM0 88 (by decide) inb_S128x64_S1x64_88_0, rowSet_lit scM0 89 (by decide) inb_S128x64_S1x64_89_0, rowSet_lit scM0 90 (by decide) inb_S128x64_S1x64_90_0, rowSet_lit scM0 91 (by decide) inb_S128x64_S1x64_91_0, rowSet_lit scM0 92 (by decide) inb_S128x64_S1x64_92_0, rowSet_lit scM0 93 (by decide) inb_S128x64_S1x64_93_0, rowSet_lit scM0 94 (by decide) inb_S128x64_S1x64_94_0, rowSet_lit scM0 95 (by decide) inb_S128x64_S1x64_95_0, rowSet_lit scM0 96 (by decide) inb_S128x64_S1x64_96_0, rowSet_lit scM0 97 (by decide) inb_S128x64_S1x64_97_0, rowSet_lit scM0 98 (by decide) inb_S128x64_S1x64_98_0, rowSet_lit scM0 99 (by decide) inb_S128x64_S1x64_99_0, rowSet_lit scM0 100 (by decide) inb_S128x64_S1x64_100_0, rowSet_lit scM0 101 (by decide) inb_S128x64_S1x64_101_0, rowSet_lit scM0 102 (by decide) inb_S128x64_S1x64_102_0, rowSet_lit scM0 103 (by decide) inb_S128x64_S1x64_103_0, rowSet_lit scM0 104 (by decide) inb_S128x64_S1x64_104_0, rowSet_lit scM0 105 (by decide) inb_S128x64_S1x64_105_0, rowSet_lit scM0 106 (by decide) inb_S128x64_S1x64_106_0, rowSet_lit scM0 107 (by decide) inb_S128x64_S1x64_107_0, rowSet_lit scM0 108 (by decide) inb_S128x64_S1x64_108_0, rowSet_lit scM0 109 (by decide) inb_S128x64_S1x64_109_0, rowSet_lit scM0 110 (by decide) inb_S128x64_S1x64_110_0, rowSet_lit scM0 111 (by decide) inb_S128x64_S1x64_111_0, rowSet_lit scM0 112 (by decide) inb_S128x64_S1x64_112_0, rowSet_lit scM0 113 (by decide) inb_S128x64_S1x64_113_0, rowSet_lit scM0 114 (by decide) inb_S128x64_S1x64_114_0, rowSet_lit scM0 115 (by decide) inb_S128x64_S1x64_115_0, rowSet_lit scM0 116 (by decide) inb_S128x64_S1x64_116_0, rowSet_lit scM0 117 (by decide) inb_S128x64_S1x64_117_0, rowSet_lit scM0 118 (by decide) inb_S128x64_S1x64_118_0, rowSet_lit scM0 119 (by decide) inb_S128x64_S1x64_119_0, rowSet_lit scM0 120 (by decide) inb_S128x64_S1x64_120_0, rowSet_lit scM0 121 (by decide) inb_S128x64_S1x64_121_0, rowSet_lit scM0 122 (by decide) inb_S128x64_S1x64_122_0, rowSet_lit scM0 123 (by decide) inb_S128x64_S1x64_123_0, rowSet_lit scM0 124 (by decide) inb_S128x64_S1x64_124_0, rowSet_lit scM0 125 (by decide) inb_S128x64_S1x64_125_0, rowSet_lit scM0 126 (by decide) inb_S128x64_S1x64_126_0, rowSet_lit scM0 127 (by decide) inb_S128x64_S1x64_127_0] at h
  exact h

set_option maxHeartbeats 8000000 in
/-- Scratch buffer 1 held at its own elements, as its 128 rows, row 0 first: each row is the destination of one copy. -/
theorem rows_up1 (c : Dev nD) (f : Buf (Elt F) (scM1.view.loc (c : Thread nD τ))) :
    (scM1.view.loc (c : Thread nD τ) ↦[scM1.view.set]{fullShare} f : sProp 𝕄) ⊢ iprop(((rowM scM1 0 inb_S128x64_S1x64_0_0).view.loc (c : Thread nD τ) ↦[(rowM scM1 0 inb_S128x64_S1x64_0_0).view.set]{fullShare} f)
      ∗ ((rowM scM1 1 inb_S128x64_S1x64_1_0).view.loc (c : Thread nD τ) ↦[(rowM scM1 1 inb_S128x64_S1x64_1_0).view.set]{fullShare} f)
      ∗ ((rowM scM1 2 inb_S128x64_S1x64_2_0).view.loc (c : Thread nD τ) ↦[(rowM scM1 2 inb_S128x64_S1x64_2_0).view.set]{fullShare} f)
      ∗ ((rowM scM1 3 inb_S128x64_S1x64_3_0).view.loc (c : Thread nD τ) ↦[(rowM scM1 3 inb_S128x64_S1x64_3_0).view.set]{fullShare} f)
      ∗ ((rowM scM1 4 inb_S128x64_S1x64_4_0).view.loc (c : Thread nD τ) ↦[(rowM scM1 4 inb_S128x64_S1x64_4_0).view.set]{fullShare} f)
      ∗ ((rowM scM1 5 inb_S128x64_S1x64_5_0).view.loc (c : Thread nD τ) ↦[(rowM scM1 5 inb_S128x64_S1x64_5_0).view.set]{fullShare} f)
      ∗ ((rowM scM1 6 inb_S128x64_S1x64_6_0).view.loc (c : Thread nD τ) ↦[(rowM scM1 6 inb_S128x64_S1x64_6_0).view.set]{fullShare} f)
      ∗ ((rowM scM1 7 inb_S128x64_S1x64_7_0).view.loc (c : Thread nD τ) ↦[(rowM scM1 7 inb_S128x64_S1x64_7_0).view.set]{fullShare} f)
      ∗ ((rowM scM1 8 inb_S128x64_S1x64_8_0).view.loc (c : Thread nD τ) ↦[(rowM scM1 8 inb_S128x64_S1x64_8_0).view.set]{fullShare} f)
      ∗ ((rowM scM1 9 inb_S128x64_S1x64_9_0).view.loc (c : Thread nD τ) ↦[(rowM scM1 9 inb_S128x64_S1x64_9_0).view.set]{fullShare} f)
      ∗ ((rowM scM1 10 inb_S128x64_S1x64_10_0).view.loc (c : Thread nD τ) ↦[(rowM scM1 10 inb_S128x64_S1x64_10_0).view.set]{fullShare} f)
      ∗ ((rowM scM1 11 inb_S128x64_S1x64_11_0).view.loc (c : Thread nD τ) ↦[(rowM scM1 11 inb_S128x64_S1x64_11_0).view.set]{fullShare} f)
      ∗ ((rowM scM1 12 inb_S128x64_S1x64_12_0).view.loc (c : Thread nD τ) ↦[(rowM scM1 12 inb_S128x64_S1x64_12_0).view.set]{fullShare} f)
      ∗ ((rowM scM1 13 inb_S128x64_S1x64_13_0).view.loc (c : Thread nD τ) ↦[(rowM scM1 13 inb_S128x64_S1x64_13_0).view.set]{fullShare} f)
      ∗ ((rowM scM1 14 inb_S128x64_S1x64_14_0).view.loc (c : Thread nD τ) ↦[(rowM scM1 14 inb_S128x64_S1x64_14_0).view.set]{fullShare} f)
      ∗ ((rowM scM1 15 inb_S128x64_S1x64_15_0).view.loc (c : Thread nD τ) ↦[(rowM scM1 15 inb_S128x64_S1x64_15_0).view.set]{fullShare} f)
      ∗ ((rowM scM1 16 inb_S128x64_S1x64_16_0).view.loc (c : Thread nD τ) ↦[(rowM scM1 16 inb_S128x64_S1x64_16_0).view.set]{fullShare} f)
      ∗ ((rowM scM1 17 inb_S128x64_S1x64_17_0).view.loc (c : Thread nD τ) ↦[(rowM scM1 17 inb_S128x64_S1x64_17_0).view.set]{fullShare} f)
      ∗ ((rowM scM1 18 inb_S128x64_S1x64_18_0).view.loc (c : Thread nD τ) ↦[(rowM scM1 18 inb_S128x64_S1x64_18_0).view.set]{fullShare} f)
      ∗ ((rowM scM1 19 inb_S128x64_S1x64_19_0).view.loc (c : Thread nD τ) ↦[(rowM scM1 19 inb_S128x64_S1x64_19_0).view.set]{fullShare} f)
      ∗ ((rowM scM1 20 inb_S128x64_S1x64_20_0).view.loc (c : Thread nD τ) ↦[(rowM scM1 20 inb_S128x64_S1x64_20_0).view.set]{fullShare} f)
      ∗ ((rowM scM1 21 inb_S128x64_S1x64_21_0).view.loc (c : Thread nD τ) ↦[(rowM scM1 21 inb_S128x64_S1x64_21_0).view.set]{fullShare} f)
      ∗ ((rowM scM1 22 inb_S128x64_S1x64_22_0).view.loc (c : Thread nD τ) ↦[(rowM scM1 22 inb_S128x64_S1x64_22_0).view.set]{fullShare} f)
      ∗ ((rowM scM1 23 inb_S128x64_S1x64_23_0).view.loc (c : Thread nD τ) ↦[(rowM scM1 23 inb_S128x64_S1x64_23_0).view.set]{fullShare} f)
      ∗ ((rowM scM1 24 inb_S128x64_S1x64_24_0).view.loc (c : Thread nD τ) ↦[(rowM scM1 24 inb_S128x64_S1x64_24_0).view.set]{fullShare} f)
      ∗ ((rowM scM1 25 inb_S128x64_S1x64_25_0).view.loc (c : Thread nD τ) ↦[(rowM scM1 25 inb_S128x64_S1x64_25_0).view.set]{fullShare} f)
      ∗ ((rowM scM1 26 inb_S128x64_S1x64_26_0).view.loc (c : Thread nD τ) ↦[(rowM scM1 26 inb_S128x64_S1x64_26_0).view.set]{fullShare} f)
      ∗ ((rowM scM1 27 inb_S128x64_S1x64_27_0).view.loc (c : Thread nD τ) ↦[(rowM scM1 27 inb_S128x64_S1x64_27_0).view.set]{fullShare} f)
      ∗ ((rowM scM1 28 inb_S128x64_S1x64_28_0).view.loc (c : Thread nD τ) ↦[(rowM scM1 28 inb_S128x64_S1x64_28_0).view.set]{fullShare} f)
      ∗ ((rowM scM1 29 inb_S128x64_S1x64_29_0).view.loc (c : Thread nD τ) ↦[(rowM scM1 29 inb_S128x64_S1x64_29_0).view.set]{fullShare} f)
      ∗ ((rowM scM1 30 inb_S128x64_S1x64_30_0).view.loc (c : Thread nD τ) ↦[(rowM scM1 30 inb_S128x64_S1x64_30_0).view.set]{fullShare} f)
      ∗ ((rowM scM1 31 inb_S128x64_S1x64_31_0).view.loc (c : Thread nD τ) ↦[(rowM scM1 31 inb_S128x64_S1x64_31_0).view.set]{fullShare} f)
      ∗ ((rowM scM1 32 inb_S128x64_S1x64_32_0).view.loc (c : Thread nD τ) ↦[(rowM scM1 32 inb_S128x64_S1x64_32_0).view.set]{fullShare} f)
      ∗ ((rowM scM1 33 inb_S128x64_S1x64_33_0).view.loc (c : Thread nD τ) ↦[(rowM scM1 33 inb_S128x64_S1x64_33_0).view.set]{fullShare} f)
      ∗ ((rowM scM1 34 inb_S128x64_S1x64_34_0).view.loc (c : Thread nD τ) ↦[(rowM scM1 34 inb_S128x64_S1x64_34_0).view.set]{fullShare} f)
      ∗ ((rowM scM1 35 inb_S128x64_S1x64_35_0).view.loc (c : Thread nD τ) ↦[(rowM scM1 35 inb_S128x64_S1x64_35_0).view.set]{fullShare} f)
      ∗ ((rowM scM1 36 inb_S128x64_S1x64_36_0).view.loc (c : Thread nD τ) ↦[(rowM scM1 36 inb_S128x64_S1x64_36_0).view.set]{fullShare} f)
      ∗ ((rowM scM1 37 inb_S128x64_S1x64_37_0).view.loc (c : Thread nD τ) ↦[(rowM scM1 37 inb_S128x64_S1x64_37_0).view.set]{fullShare} f)
      ∗ ((rowM scM1 38 inb_S128x64_S1x64_38_0).view.loc (c : Thread nD τ) ↦[(rowM scM1 38 inb_S128x64_S1x64_38_0).view.set]{fullShare} f)
      ∗ ((rowM scM1 39 inb_S128x64_S1x64_39_0).view.loc (c : Thread nD τ) ↦[(rowM scM1 39 inb_S128x64_S1x64_39_0).view.set]{fullShare} f)
      ∗ ((rowM scM1 40 inb_S128x64_S1x64_40_0).view.loc (c : Thread nD τ) ↦[(rowM scM1 40 inb_S128x64_S1x64_40_0).view.set]{fullShare} f)
      ∗ ((rowM scM1 41 inb_S128x64_S1x64_41_0).view.loc (c : Thread nD τ) ↦[(rowM scM1 41 inb_S128x64_S1x64_41_0).view.set]{fullShare} f)
      ∗ ((rowM scM1 42 inb_S128x64_S1x64_42_0).view.loc (c : Thread nD τ) ↦[(rowM scM1 42 inb_S128x64_S1x64_42_0).view.set]{fullShare} f)
      ∗ ((rowM scM1 43 inb_S128x64_S1x64_43_0).view.loc (c : Thread nD τ) ↦[(rowM scM1 43 inb_S128x64_S1x64_43_0).view.set]{fullShare} f)
      ∗ ((rowM scM1 44 inb_S128x64_S1x64_44_0).view.loc (c : Thread nD τ) ↦[(rowM scM1 44 inb_S128x64_S1x64_44_0).view.set]{fullShare} f)
      ∗ ((rowM scM1 45 inb_S128x64_S1x64_45_0).view.loc (c : Thread nD τ) ↦[(rowM scM1 45 inb_S128x64_S1x64_45_0).view.set]{fullShare} f)
      ∗ ((rowM scM1 46 inb_S128x64_S1x64_46_0).view.loc (c : Thread nD τ) ↦[(rowM scM1 46 inb_S128x64_S1x64_46_0).view.set]{fullShare} f)
      ∗ ((rowM scM1 47 inb_S128x64_S1x64_47_0).view.loc (c : Thread nD τ) ↦[(rowM scM1 47 inb_S128x64_S1x64_47_0).view.set]{fullShare} f)
      ∗ ((rowM scM1 48 inb_S128x64_S1x64_48_0).view.loc (c : Thread nD τ) ↦[(rowM scM1 48 inb_S128x64_S1x64_48_0).view.set]{fullShare} f)
      ∗ ((rowM scM1 49 inb_S128x64_S1x64_49_0).view.loc (c : Thread nD τ) ↦[(rowM scM1 49 inb_S128x64_S1x64_49_0).view.set]{fullShare} f)
      ∗ ((rowM scM1 50 inb_S128x64_S1x64_50_0).view.loc (c : Thread nD τ) ↦[(rowM scM1 50 inb_S128x64_S1x64_50_0).view.set]{fullShare} f)
      ∗ ((rowM scM1 51 inb_S128x64_S1x64_51_0).view.loc (c : Thread nD τ) ↦[(rowM scM1 51 inb_S128x64_S1x64_51_0).view.set]{fullShare} f)
      ∗ ((rowM scM1 52 inb_S128x64_S1x64_52_0).view.loc (c : Thread nD τ) ↦[(rowM scM1 52 inb_S128x64_S1x64_52_0).view.set]{fullShare} f)
      ∗ ((rowM scM1 53 inb_S128x64_S1x64_53_0).view.loc (c : Thread nD τ) ↦[(rowM scM1 53 inb_S128x64_S1x64_53_0).view.set]{fullShare} f)
      ∗ ((rowM scM1 54 inb_S128x64_S1x64_54_0).view.loc (c : Thread nD τ) ↦[(rowM scM1 54 inb_S128x64_S1x64_54_0).view.set]{fullShare} f)
      ∗ ((rowM scM1 55 inb_S128x64_S1x64_55_0).view.loc (c : Thread nD τ) ↦[(rowM scM1 55 inb_S128x64_S1x64_55_0).view.set]{fullShare} f)
      ∗ ((rowM scM1 56 inb_S128x64_S1x64_56_0).view.loc (c : Thread nD τ) ↦[(rowM scM1 56 inb_S128x64_S1x64_56_0).view.set]{fullShare} f)
      ∗ ((rowM scM1 57 inb_S128x64_S1x64_57_0).view.loc (c : Thread nD τ) ↦[(rowM scM1 57 inb_S128x64_S1x64_57_0).view.set]{fullShare} f)
      ∗ ((rowM scM1 58 inb_S128x64_S1x64_58_0).view.loc (c : Thread nD τ) ↦[(rowM scM1 58 inb_S128x64_S1x64_58_0).view.set]{fullShare} f)
      ∗ ((rowM scM1 59 inb_S128x64_S1x64_59_0).view.loc (c : Thread nD τ) ↦[(rowM scM1 59 inb_S128x64_S1x64_59_0).view.set]{fullShare} f)
      ∗ ((rowM scM1 60 inb_S128x64_S1x64_60_0).view.loc (c : Thread nD τ) ↦[(rowM scM1 60 inb_S128x64_S1x64_60_0).view.set]{fullShare} f)
      ∗ ((rowM scM1 61 inb_S128x64_S1x64_61_0).view.loc (c : Thread nD τ) ↦[(rowM scM1 61 inb_S128x64_S1x64_61_0).view.set]{fullShare} f)
      ∗ ((rowM scM1 62 inb_S128x64_S1x64_62_0).view.loc (c : Thread nD τ) ↦[(rowM scM1 62 inb_S128x64_S1x64_62_0).view.set]{fullShare} f)
      ∗ ((rowM scM1 63 inb_S128x64_S1x64_63_0).view.loc (c : Thread nD τ) ↦[(rowM scM1 63 inb_S128x64_S1x64_63_0).view.set]{fullShare} f)
      ∗ ((rowM scM1 64 inb_S128x64_S1x64_64_0).view.loc (c : Thread nD τ) ↦[(rowM scM1 64 inb_S128x64_S1x64_64_0).view.set]{fullShare} f)
      ∗ ((rowM scM1 65 inb_S128x64_S1x64_65_0).view.loc (c : Thread nD τ) ↦[(rowM scM1 65 inb_S128x64_S1x64_65_0).view.set]{fullShare} f)
      ∗ ((rowM scM1 66 inb_S128x64_S1x64_66_0).view.loc (c : Thread nD τ) ↦[(rowM scM1 66 inb_S128x64_S1x64_66_0).view.set]{fullShare} f)
      ∗ ((rowM scM1 67 inb_S128x64_S1x64_67_0).view.loc (c : Thread nD τ) ↦[(rowM scM1 67 inb_S128x64_S1x64_67_0).view.set]{fullShare} f)
      ∗ ((rowM scM1 68 inb_S128x64_S1x64_68_0).view.loc (c : Thread nD τ) ↦[(rowM scM1 68 inb_S128x64_S1x64_68_0).view.set]{fullShare} f)
      ∗ ((rowM scM1 69 inb_S128x64_S1x64_69_0).view.loc (c : Thread nD τ) ↦[(rowM scM1 69 inb_S128x64_S1x64_69_0).view.set]{fullShare} f)
      ∗ ((rowM scM1 70 inb_S128x64_S1x64_70_0).view.loc (c : Thread nD τ) ↦[(rowM scM1 70 inb_S128x64_S1x64_70_0).view.set]{fullShare} f)
      ∗ ((rowM scM1 71 inb_S128x64_S1x64_71_0).view.loc (c : Thread nD τ) ↦[(rowM scM1 71 inb_S128x64_S1x64_71_0).view.set]{fullShare} f)
      ∗ ((rowM scM1 72 inb_S128x64_S1x64_72_0).view.loc (c : Thread nD τ) ↦[(rowM scM1 72 inb_S128x64_S1x64_72_0).view.set]{fullShare} f)
      ∗ ((rowM scM1 73 inb_S128x64_S1x64_73_0).view.loc (c : Thread nD τ) ↦[(rowM scM1 73 inb_S128x64_S1x64_73_0).view.set]{fullShare} f)
      ∗ ((rowM scM1 74 inb_S128x64_S1x64_74_0).view.loc (c : Thread nD τ) ↦[(rowM scM1 74 inb_S128x64_S1x64_74_0).view.set]{fullShare} f)
      ∗ ((rowM scM1 75 inb_S128x64_S1x64_75_0).view.loc (c : Thread nD τ) ↦[(rowM scM1 75 inb_S128x64_S1x64_75_0).view.set]{fullShare} f)
      ∗ ((rowM scM1 76 inb_S128x64_S1x64_76_0).view.loc (c : Thread nD τ) ↦[(rowM scM1 76 inb_S128x64_S1x64_76_0).view.set]{fullShare} f)
      ∗ ((rowM scM1 77 inb_S128x64_S1x64_77_0).view.loc (c : Thread nD τ) ↦[(rowM scM1 77 inb_S128x64_S1x64_77_0).view.set]{fullShare} f)
      ∗ ((rowM scM1 78 inb_S128x64_S1x64_78_0).view.loc (c : Thread nD τ) ↦[(rowM scM1 78 inb_S128x64_S1x64_78_0).view.set]{fullShare} f)
      ∗ ((rowM scM1 79 inb_S128x64_S1x64_79_0).view.loc (c : Thread nD τ) ↦[(rowM scM1 79 inb_S128x64_S1x64_79_0).view.set]{fullShare} f)
      ∗ ((rowM scM1 80 inb_S128x64_S1x64_80_0).view.loc (c : Thread nD τ) ↦[(rowM scM1 80 inb_S128x64_S1x64_80_0).view.set]{fullShare} f)
      ∗ ((rowM scM1 81 inb_S128x64_S1x64_81_0).view.loc (c : Thread nD τ) ↦[(rowM scM1 81 inb_S128x64_S1x64_81_0).view.set]{fullShare} f)
      ∗ ((rowM scM1 82 inb_S128x64_S1x64_82_0).view.loc (c : Thread nD τ) ↦[(rowM scM1 82 inb_S128x64_S1x64_82_0).view.set]{fullShare} f)
      ∗ ((rowM scM1 83 inb_S128x64_S1x64_83_0).view.loc (c : Thread nD τ) ↦[(rowM scM1 83 inb_S128x64_S1x64_83_0).view.set]{fullShare} f)
      ∗ ((rowM scM1 84 inb_S128x64_S1x64_84_0).view.loc (c : Thread nD τ) ↦[(rowM scM1 84 inb_S128x64_S1x64_84_0).view.set]{fullShare} f)
      ∗ ((rowM scM1 85 inb_S128x64_S1x64_85_0).view.loc (c : Thread nD τ) ↦[(rowM scM1 85 inb_S128x64_S1x64_85_0).view.set]{fullShare} f)
      ∗ ((rowM scM1 86 inb_S128x64_S1x64_86_0).view.loc (c : Thread nD τ) ↦[(rowM scM1 86 inb_S128x64_S1x64_86_0).view.set]{fullShare} f)
      ∗ ((rowM scM1 87 inb_S128x64_S1x64_87_0).view.loc (c : Thread nD τ) ↦[(rowM scM1 87 inb_S128x64_S1x64_87_0).view.set]{fullShare} f)
      ∗ ((rowM scM1 88 inb_S128x64_S1x64_88_0).view.loc (c : Thread nD τ) ↦[(rowM scM1 88 inb_S128x64_S1x64_88_0).view.set]{fullShare} f)
      ∗ ((rowM scM1 89 inb_S128x64_S1x64_89_0).view.loc (c : Thread nD τ) ↦[(rowM scM1 89 inb_S128x64_S1x64_89_0).view.set]{fullShare} f)
      ∗ ((rowM scM1 90 inb_S128x64_S1x64_90_0).view.loc (c : Thread nD τ) ↦[(rowM scM1 90 inb_S128x64_S1x64_90_0).view.set]{fullShare} f)
      ∗ ((rowM scM1 91 inb_S128x64_S1x64_91_0).view.loc (c : Thread nD τ) ↦[(rowM scM1 91 inb_S128x64_S1x64_91_0).view.set]{fullShare} f)
      ∗ ((rowM scM1 92 inb_S128x64_S1x64_92_0).view.loc (c : Thread nD τ) ↦[(rowM scM1 92 inb_S128x64_S1x64_92_0).view.set]{fullShare} f)
      ∗ ((rowM scM1 93 inb_S128x64_S1x64_93_0).view.loc (c : Thread nD τ) ↦[(rowM scM1 93 inb_S128x64_S1x64_93_0).view.set]{fullShare} f)
      ∗ ((rowM scM1 94 inb_S128x64_S1x64_94_0).view.loc (c : Thread nD τ) ↦[(rowM scM1 94 inb_S128x64_S1x64_94_0).view.set]{fullShare} f)
      ∗ ((rowM scM1 95 inb_S128x64_S1x64_95_0).view.loc (c : Thread nD τ) ↦[(rowM scM1 95 inb_S128x64_S1x64_95_0).view.set]{fullShare} f)
      ∗ ((rowM scM1 96 inb_S128x64_S1x64_96_0).view.loc (c : Thread nD τ) ↦[(rowM scM1 96 inb_S128x64_S1x64_96_0).view.set]{fullShare} f)
      ∗ ((rowM scM1 97 inb_S128x64_S1x64_97_0).view.loc (c : Thread nD τ) ↦[(rowM scM1 97 inb_S128x64_S1x64_97_0).view.set]{fullShare} f)
      ∗ ((rowM scM1 98 inb_S128x64_S1x64_98_0).view.loc (c : Thread nD τ) ↦[(rowM scM1 98 inb_S128x64_S1x64_98_0).view.set]{fullShare} f)
      ∗ ((rowM scM1 99 inb_S128x64_S1x64_99_0).view.loc (c : Thread nD τ) ↦[(rowM scM1 99 inb_S128x64_S1x64_99_0).view.set]{fullShare} f)
      ∗ ((rowM scM1 100 inb_S128x64_S1x64_100_0).view.loc (c : Thread nD τ) ↦[(rowM scM1 100 inb_S128x64_S1x64_100_0).view.set]{fullShare} f)
      ∗ ((rowM scM1 101 inb_S128x64_S1x64_101_0).view.loc (c : Thread nD τ) ↦[(rowM scM1 101 inb_S128x64_S1x64_101_0).view.set]{fullShare} f)
      ∗ ((rowM scM1 102 inb_S128x64_S1x64_102_0).view.loc (c : Thread nD τ) ↦[(rowM scM1 102 inb_S128x64_S1x64_102_0).view.set]{fullShare} f)
      ∗ ((rowM scM1 103 inb_S128x64_S1x64_103_0).view.loc (c : Thread nD τ) ↦[(rowM scM1 103 inb_S128x64_S1x64_103_0).view.set]{fullShare} f)
      ∗ ((rowM scM1 104 inb_S128x64_S1x64_104_0).view.loc (c : Thread nD τ) ↦[(rowM scM1 104 inb_S128x64_S1x64_104_0).view.set]{fullShare} f)
      ∗ ((rowM scM1 105 inb_S128x64_S1x64_105_0).view.loc (c : Thread nD τ) ↦[(rowM scM1 105 inb_S128x64_S1x64_105_0).view.set]{fullShare} f)
      ∗ ((rowM scM1 106 inb_S128x64_S1x64_106_0).view.loc (c : Thread nD τ) ↦[(rowM scM1 106 inb_S128x64_S1x64_106_0).view.set]{fullShare} f)
      ∗ ((rowM scM1 107 inb_S128x64_S1x64_107_0).view.loc (c : Thread nD τ) ↦[(rowM scM1 107 inb_S128x64_S1x64_107_0).view.set]{fullShare} f)
      ∗ ((rowM scM1 108 inb_S128x64_S1x64_108_0).view.loc (c : Thread nD τ) ↦[(rowM scM1 108 inb_S128x64_S1x64_108_0).view.set]{fullShare} f)
      ∗ ((rowM scM1 109 inb_S128x64_S1x64_109_0).view.loc (c : Thread nD τ) ↦[(rowM scM1 109 inb_S128x64_S1x64_109_0).view.set]{fullShare} f)
      ∗ ((rowM scM1 110 inb_S128x64_S1x64_110_0).view.loc (c : Thread nD τ) ↦[(rowM scM1 110 inb_S128x64_S1x64_110_0).view.set]{fullShare} f)
      ∗ ((rowM scM1 111 inb_S128x64_S1x64_111_0).view.loc (c : Thread nD τ) ↦[(rowM scM1 111 inb_S128x64_S1x64_111_0).view.set]{fullShare} f)
      ∗ ((rowM scM1 112 inb_S128x64_S1x64_112_0).view.loc (c : Thread nD τ) ↦[(rowM scM1 112 inb_S128x64_S1x64_112_0).view.set]{fullShare} f)
      ∗ ((rowM scM1 113 inb_S128x64_S1x64_113_0).view.loc (c : Thread nD τ) ↦[(rowM scM1 113 inb_S128x64_S1x64_113_0).view.set]{fullShare} f)
      ∗ ((rowM scM1 114 inb_S128x64_S1x64_114_0).view.loc (c : Thread nD τ) ↦[(rowM scM1 114 inb_S128x64_S1x64_114_0).view.set]{fullShare} f)
      ∗ ((rowM scM1 115 inb_S128x64_S1x64_115_0).view.loc (c : Thread nD τ) ↦[(rowM scM1 115 inb_S128x64_S1x64_115_0).view.set]{fullShare} f)
      ∗ ((rowM scM1 116 inb_S128x64_S1x64_116_0).view.loc (c : Thread nD τ) ↦[(rowM scM1 116 inb_S128x64_S1x64_116_0).view.set]{fullShare} f)
      ∗ ((rowM scM1 117 inb_S128x64_S1x64_117_0).view.loc (c : Thread nD τ) ↦[(rowM scM1 117 inb_S128x64_S1x64_117_0).view.set]{fullShare} f)
      ∗ ((rowM scM1 118 inb_S128x64_S1x64_118_0).view.loc (c : Thread nD τ) ↦[(rowM scM1 118 inb_S128x64_S1x64_118_0).view.set]{fullShare} f)
      ∗ ((rowM scM1 119 inb_S128x64_S1x64_119_0).view.loc (c : Thread nD τ) ↦[(rowM scM1 119 inb_S128x64_S1x64_119_0).view.set]{fullShare} f)
      ∗ ((rowM scM1 120 inb_S128x64_S1x64_120_0).view.loc (c : Thread nD τ) ↦[(rowM scM1 120 inb_S128x64_S1x64_120_0).view.set]{fullShare} f)
      ∗ ((rowM scM1 121 inb_S128x64_S1x64_121_0).view.loc (c : Thread nD τ) ↦[(rowM scM1 121 inb_S128x64_S1x64_121_0).view.set]{fullShare} f)
      ∗ ((rowM scM1 122 inb_S128x64_S1x64_122_0).view.loc (c : Thread nD τ) ↦[(rowM scM1 122 inb_S128x64_S1x64_122_0).view.set]{fullShare} f)
      ∗ ((rowM scM1 123 inb_S128x64_S1x64_123_0).view.loc (c : Thread nD τ) ↦[(rowM scM1 123 inb_S128x64_S1x64_123_0).view.set]{fullShare} f)
      ∗ ((rowM scM1 124 inb_S128x64_S1x64_124_0).view.loc (c : Thread nD τ) ↦[(rowM scM1 124 inb_S128x64_S1x64_124_0).view.set]{fullShare} f)
      ∗ ((rowM scM1 125 inb_S128x64_S1x64_125_0).view.loc (c : Thread nD τ) ↦[(rowM scM1 125 inb_S128x64_S1x64_125_0).view.set]{fullShare} f)
      ∗ ((rowM scM1 126 inb_S128x64_S1x64_126_0).view.loc (c : Thread nD τ) ↦[(rowM scM1 126 inb_S128x64_S1x64_126_0).view.set]{fullShare} f)
      ∗ ((rowM scM1 127 inb_S128x64_S1x64_127_0).view.loc (c : Thread nD τ) ↦[(rowM scM1 127 inb_S128x64_S1x64_127_0).view.set]{fullShare} f)
      ∗ emp) := by
  have h := rows_split (F := F) scM1 c f
  rw [bigSep_range_eq_chainUp] at h
  simp only [chainUp, Nat.reduceAdd, rowSet_lit scM1 0 (by decide) inb_S128x64_S1x64_0_0, rowSet_lit scM1 1 (by decide) inb_S128x64_S1x64_1_0, rowSet_lit scM1 2 (by decide) inb_S128x64_S1x64_2_0, rowSet_lit scM1 3 (by decide) inb_S128x64_S1x64_3_0, rowSet_lit scM1 4 (by decide) inb_S128x64_S1x64_4_0, rowSet_lit scM1 5 (by decide) inb_S128x64_S1x64_5_0, rowSet_lit scM1 6 (by decide) inb_S128x64_S1x64_6_0, rowSet_lit scM1 7 (by decide) inb_S128x64_S1x64_7_0, rowSet_lit scM1 8 (by decide) inb_S128x64_S1x64_8_0, rowSet_lit scM1 9 (by decide) inb_S128x64_S1x64_9_0, rowSet_lit scM1 10 (by decide) inb_S128x64_S1x64_10_0, rowSet_lit scM1 11 (by decide) inb_S128x64_S1x64_11_0, rowSet_lit scM1 12 (by decide) inb_S128x64_S1x64_12_0, rowSet_lit scM1 13 (by decide) inb_S128x64_S1x64_13_0, rowSet_lit scM1 14 (by decide) inb_S128x64_S1x64_14_0, rowSet_lit scM1 15 (by decide) inb_S128x64_S1x64_15_0, rowSet_lit scM1 16 (by decide) inb_S128x64_S1x64_16_0, rowSet_lit scM1 17 (by decide) inb_S128x64_S1x64_17_0, rowSet_lit scM1 18 (by decide) inb_S128x64_S1x64_18_0, rowSet_lit scM1 19 (by decide) inb_S128x64_S1x64_19_0, rowSet_lit scM1 20 (by decide) inb_S128x64_S1x64_20_0, rowSet_lit scM1 21 (by decide) inb_S128x64_S1x64_21_0, rowSet_lit scM1 22 (by decide) inb_S128x64_S1x64_22_0, rowSet_lit scM1 23 (by decide) inb_S128x64_S1x64_23_0, rowSet_lit scM1 24 (by decide) inb_S128x64_S1x64_24_0, rowSet_lit scM1 25 (by decide) inb_S128x64_S1x64_25_0, rowSet_lit scM1 26 (by decide) inb_S128x64_S1x64_26_0, rowSet_lit scM1 27 (by decide) inb_S128x64_S1x64_27_0, rowSet_lit scM1 28 (by decide) inb_S128x64_S1x64_28_0, rowSet_lit scM1 29 (by decide) inb_S128x64_S1x64_29_0, rowSet_lit scM1 30 (by decide) inb_S128x64_S1x64_30_0, rowSet_lit scM1 31 (by decide) inb_S128x64_S1x64_31_0, rowSet_lit scM1 32 (by decide) inb_S128x64_S1x64_32_0, rowSet_lit scM1 33 (by decide) inb_S128x64_S1x64_33_0, rowSet_lit scM1 34 (by decide) inb_S128x64_S1x64_34_0, rowSet_lit scM1 35 (by decide) inb_S128x64_S1x64_35_0, rowSet_lit scM1 36 (by decide) inb_S128x64_S1x64_36_0, rowSet_lit scM1 37 (by decide) inb_S128x64_S1x64_37_0, rowSet_lit scM1 38 (by decide) inb_S128x64_S1x64_38_0, rowSet_lit scM1 39 (by decide) inb_S128x64_S1x64_39_0, rowSet_lit scM1 40 (by decide) inb_S128x64_S1x64_40_0, rowSet_lit scM1 41 (by decide) inb_S128x64_S1x64_41_0, rowSet_lit scM1 42 (by decide) inb_S128x64_S1x64_42_0, rowSet_lit scM1 43 (by decide) inb_S128x64_S1x64_43_0, rowSet_lit scM1 44 (by decide) inb_S128x64_S1x64_44_0, rowSet_lit scM1 45 (by decide) inb_S128x64_S1x64_45_0, rowSet_lit scM1 46 (by decide) inb_S128x64_S1x64_46_0, rowSet_lit scM1 47 (by decide) inb_S128x64_S1x64_47_0, rowSet_lit scM1 48 (by decide) inb_S128x64_S1x64_48_0, rowSet_lit scM1 49 (by decide) inb_S128x64_S1x64_49_0, rowSet_lit scM1 50 (by decide) inb_S128x64_S1x64_50_0, rowSet_lit scM1 51 (by decide) inb_S128x64_S1x64_51_0, rowSet_lit scM1 52 (by decide) inb_S128x64_S1x64_52_0, rowSet_lit scM1 53 (by decide) inb_S128x64_S1x64_53_0, rowSet_lit scM1 54 (by decide) inb_S128x64_S1x64_54_0, rowSet_lit scM1 55 (by decide) inb_S128x64_S1x64_55_0, rowSet_lit scM1 56 (by decide) inb_S128x64_S1x64_56_0, rowSet_lit scM1 57 (by decide) inb_S128x64_S1x64_57_0, rowSet_lit scM1 58 (by decide) inb_S128x64_S1x64_58_0, rowSet_lit scM1 59 (by decide) inb_S128x64_S1x64_59_0, rowSet_lit scM1 60 (by decide) inb_S128x64_S1x64_60_0, rowSet_lit scM1 61 (by decide) inb_S128x64_S1x64_61_0, rowSet_lit scM1 62 (by decide) inb_S128x64_S1x64_62_0, rowSet_lit scM1 63 (by decide) inb_S128x64_S1x64_63_0, rowSet_lit scM1 64 (by decide) inb_S128x64_S1x64_64_0, rowSet_lit scM1 65 (by decide) inb_S128x64_S1x64_65_0, rowSet_lit scM1 66 (by decide) inb_S128x64_S1x64_66_0, rowSet_lit scM1 67 (by decide) inb_S128x64_S1x64_67_0, rowSet_lit scM1 68 (by decide) inb_S128x64_S1x64_68_0, rowSet_lit scM1 69 (by decide) inb_S128x64_S1x64_69_0, rowSet_lit scM1 70 (by decide) inb_S128x64_S1x64_70_0, rowSet_lit scM1 71 (by decide) inb_S128x64_S1x64_71_0, rowSet_lit scM1 72 (by decide) inb_S128x64_S1x64_72_0, rowSet_lit scM1 73 (by decide) inb_S128x64_S1x64_73_0, rowSet_lit scM1 74 (by decide) inb_S128x64_S1x64_74_0, rowSet_lit scM1 75 (by decide) inb_S128x64_S1x64_75_0, rowSet_lit scM1 76 (by decide) inb_S128x64_S1x64_76_0, rowSet_lit scM1 77 (by decide) inb_S128x64_S1x64_77_0, rowSet_lit scM1 78 (by decide) inb_S128x64_S1x64_78_0, rowSet_lit scM1 79 (by decide) inb_S128x64_S1x64_79_0, rowSet_lit scM1 80 (by decide) inb_S128x64_S1x64_80_0, rowSet_lit scM1 81 (by decide) inb_S128x64_S1x64_81_0, rowSet_lit scM1 82 (by decide) inb_S128x64_S1x64_82_0, rowSet_lit scM1 83 (by decide) inb_S128x64_S1x64_83_0, rowSet_lit scM1 84 (by decide) inb_S128x64_S1x64_84_0, rowSet_lit scM1 85 (by decide) inb_S128x64_S1x64_85_0, rowSet_lit scM1 86 (by decide) inb_S128x64_S1x64_86_0, rowSet_lit scM1 87 (by decide) inb_S128x64_S1x64_87_0, rowSet_lit scM1 88 (by decide) inb_S128x64_S1x64_88_0, rowSet_lit scM1 89 (by decide) inb_S128x64_S1x64_89_0, rowSet_lit scM1 90 (by decide) inb_S128x64_S1x64_90_0, rowSet_lit scM1 91 (by decide) inb_S128x64_S1x64_91_0, rowSet_lit scM1 92 (by decide) inb_S128x64_S1x64_92_0, rowSet_lit scM1 93 (by decide) inb_S128x64_S1x64_93_0, rowSet_lit scM1 94 (by decide) inb_S128x64_S1x64_94_0, rowSet_lit scM1 95 (by decide) inb_S128x64_S1x64_95_0, rowSet_lit scM1 96 (by decide) inb_S128x64_S1x64_96_0, rowSet_lit scM1 97 (by decide) inb_S128x64_S1x64_97_0, rowSet_lit scM1 98 (by decide) inb_S128x64_S1x64_98_0, rowSet_lit scM1 99 (by decide) inb_S128x64_S1x64_99_0, rowSet_lit scM1 100 (by decide) inb_S128x64_S1x64_100_0, rowSet_lit scM1 101 (by decide) inb_S128x64_S1x64_101_0, rowSet_lit scM1 102 (by decide) inb_S128x64_S1x64_102_0, rowSet_lit scM1 103 (by decide) inb_S128x64_S1x64_103_0, rowSet_lit scM1 104 (by decide) inb_S128x64_S1x64_104_0, rowSet_lit scM1 105 (by decide) inb_S128x64_S1x64_105_0, rowSet_lit scM1 106 (by decide) inb_S128x64_S1x64_106_0, rowSet_lit scM1 107 (by decide) inb_S128x64_S1x64_107_0, rowSet_lit scM1 108 (by decide) inb_S128x64_S1x64_108_0, rowSet_lit scM1 109 (by decide) inb_S128x64_S1x64_109_0, rowSet_lit scM1 110 (by decide) inb_S128x64_S1x64_110_0, rowSet_lit scM1 111 (by decide) inb_S128x64_S1x64_111_0, rowSet_lit scM1 112 (by decide) inb_S128x64_S1x64_112_0, rowSet_lit scM1 113 (by decide) inb_S128x64_S1x64_113_0, rowSet_lit scM1 114 (by decide) inb_S128x64_S1x64_114_0, rowSet_lit scM1 115 (by decide) inb_S128x64_S1x64_115_0, rowSet_lit scM1 116 (by decide) inb_S128x64_S1x64_116_0, rowSet_lit scM1 117 (by decide) inb_S128x64_S1x64_117_0, rowSet_lit scM1 118 (by decide) inb_S128x64_S1x64_118_0, rowSet_lit scM1 119 (by decide) inb_S128x64_S1x64_119_0, rowSet_lit scM1 120 (by decide) inb_S128x64_S1x64_120_0, rowSet_lit scM1 121 (by decide) inb_S128x64_S1x64_121_0, rowSet_lit scM1 122 (by decide) inb_S128x64_S1x64_122_0, rowSet_lit scM1 123 (by decide) inb_S128x64_S1x64_123_0, rowSet_lit scM1 124 (by decide) inb_S128x64_S1x64_124_0, rowSet_lit scM1 125 (by decide) inb_S128x64_S1x64_125_0, rowSet_lit scM1 126 (by decide) inb_S128x64_S1x64_126_0, rowSet_lit scM1 127 (by decide) inb_S128x64_S1x64_127_0] at h
  exact h

set_option maxHeartbeats 8000000 in
/-- Scratch buffer 2 held at its own elements, as its 128 rows, row 0 first: each row is the destination of one copy. -/
theorem rows_up2 (c : Dev nD) (f : Buf (Elt F) (scM2.view.loc (c : Thread nD τ))) :
    (scM2.view.loc (c : Thread nD τ) ↦[scM2.view.set]{fullShare} f : sProp 𝕄) ⊢ iprop(((rowM scM2 0 inb_S128x64_S1x64_0_0).view.loc (c : Thread nD τ) ↦[(rowM scM2 0 inb_S128x64_S1x64_0_0).view.set]{fullShare} f)
      ∗ ((rowM scM2 1 inb_S128x64_S1x64_1_0).view.loc (c : Thread nD τ) ↦[(rowM scM2 1 inb_S128x64_S1x64_1_0).view.set]{fullShare} f)
      ∗ ((rowM scM2 2 inb_S128x64_S1x64_2_0).view.loc (c : Thread nD τ) ↦[(rowM scM2 2 inb_S128x64_S1x64_2_0).view.set]{fullShare} f)
      ∗ ((rowM scM2 3 inb_S128x64_S1x64_3_0).view.loc (c : Thread nD τ) ↦[(rowM scM2 3 inb_S128x64_S1x64_3_0).view.set]{fullShare} f)
      ∗ ((rowM scM2 4 inb_S128x64_S1x64_4_0).view.loc (c : Thread nD τ) ↦[(rowM scM2 4 inb_S128x64_S1x64_4_0).view.set]{fullShare} f)
      ∗ ((rowM scM2 5 inb_S128x64_S1x64_5_0).view.loc (c : Thread nD τ) ↦[(rowM scM2 5 inb_S128x64_S1x64_5_0).view.set]{fullShare} f)
      ∗ ((rowM scM2 6 inb_S128x64_S1x64_6_0).view.loc (c : Thread nD τ) ↦[(rowM scM2 6 inb_S128x64_S1x64_6_0).view.set]{fullShare} f)
      ∗ ((rowM scM2 7 inb_S128x64_S1x64_7_0).view.loc (c : Thread nD τ) ↦[(rowM scM2 7 inb_S128x64_S1x64_7_0).view.set]{fullShare} f)
      ∗ ((rowM scM2 8 inb_S128x64_S1x64_8_0).view.loc (c : Thread nD τ) ↦[(rowM scM2 8 inb_S128x64_S1x64_8_0).view.set]{fullShare} f)
      ∗ ((rowM scM2 9 inb_S128x64_S1x64_9_0).view.loc (c : Thread nD τ) ↦[(rowM scM2 9 inb_S128x64_S1x64_9_0).view.set]{fullShare} f)
      ∗ ((rowM scM2 10 inb_S128x64_S1x64_10_0).view.loc (c : Thread nD τ) ↦[(rowM scM2 10 inb_S128x64_S1x64_10_0).view.set]{fullShare} f)
      ∗ ((rowM scM2 11 inb_S128x64_S1x64_11_0).view.loc (c : Thread nD τ) ↦[(rowM scM2 11 inb_S128x64_S1x64_11_0).view.set]{fullShare} f)
      ∗ ((rowM scM2 12 inb_S128x64_S1x64_12_0).view.loc (c : Thread nD τ) ↦[(rowM scM2 12 inb_S128x64_S1x64_12_0).view.set]{fullShare} f)
      ∗ ((rowM scM2 13 inb_S128x64_S1x64_13_0).view.loc (c : Thread nD τ) ↦[(rowM scM2 13 inb_S128x64_S1x64_13_0).view.set]{fullShare} f)
      ∗ ((rowM scM2 14 inb_S128x64_S1x64_14_0).view.loc (c : Thread nD τ) ↦[(rowM scM2 14 inb_S128x64_S1x64_14_0).view.set]{fullShare} f)
      ∗ ((rowM scM2 15 inb_S128x64_S1x64_15_0).view.loc (c : Thread nD τ) ↦[(rowM scM2 15 inb_S128x64_S1x64_15_0).view.set]{fullShare} f)
      ∗ ((rowM scM2 16 inb_S128x64_S1x64_16_0).view.loc (c : Thread nD τ) ↦[(rowM scM2 16 inb_S128x64_S1x64_16_0).view.set]{fullShare} f)
      ∗ ((rowM scM2 17 inb_S128x64_S1x64_17_0).view.loc (c : Thread nD τ) ↦[(rowM scM2 17 inb_S128x64_S1x64_17_0).view.set]{fullShare} f)
      ∗ ((rowM scM2 18 inb_S128x64_S1x64_18_0).view.loc (c : Thread nD τ) ↦[(rowM scM2 18 inb_S128x64_S1x64_18_0).view.set]{fullShare} f)
      ∗ ((rowM scM2 19 inb_S128x64_S1x64_19_0).view.loc (c : Thread nD τ) ↦[(rowM scM2 19 inb_S128x64_S1x64_19_0).view.set]{fullShare} f)
      ∗ ((rowM scM2 20 inb_S128x64_S1x64_20_0).view.loc (c : Thread nD τ) ↦[(rowM scM2 20 inb_S128x64_S1x64_20_0).view.set]{fullShare} f)
      ∗ ((rowM scM2 21 inb_S128x64_S1x64_21_0).view.loc (c : Thread nD τ) ↦[(rowM scM2 21 inb_S128x64_S1x64_21_0).view.set]{fullShare} f)
      ∗ ((rowM scM2 22 inb_S128x64_S1x64_22_0).view.loc (c : Thread nD τ) ↦[(rowM scM2 22 inb_S128x64_S1x64_22_0).view.set]{fullShare} f)
      ∗ ((rowM scM2 23 inb_S128x64_S1x64_23_0).view.loc (c : Thread nD τ) ↦[(rowM scM2 23 inb_S128x64_S1x64_23_0).view.set]{fullShare} f)
      ∗ ((rowM scM2 24 inb_S128x64_S1x64_24_0).view.loc (c : Thread nD τ) ↦[(rowM scM2 24 inb_S128x64_S1x64_24_0).view.set]{fullShare} f)
      ∗ ((rowM scM2 25 inb_S128x64_S1x64_25_0).view.loc (c : Thread nD τ) ↦[(rowM scM2 25 inb_S128x64_S1x64_25_0).view.set]{fullShare} f)
      ∗ ((rowM scM2 26 inb_S128x64_S1x64_26_0).view.loc (c : Thread nD τ) ↦[(rowM scM2 26 inb_S128x64_S1x64_26_0).view.set]{fullShare} f)
      ∗ ((rowM scM2 27 inb_S128x64_S1x64_27_0).view.loc (c : Thread nD τ) ↦[(rowM scM2 27 inb_S128x64_S1x64_27_0).view.set]{fullShare} f)
      ∗ ((rowM scM2 28 inb_S128x64_S1x64_28_0).view.loc (c : Thread nD τ) ↦[(rowM scM2 28 inb_S128x64_S1x64_28_0).view.set]{fullShare} f)
      ∗ ((rowM scM2 29 inb_S128x64_S1x64_29_0).view.loc (c : Thread nD τ) ↦[(rowM scM2 29 inb_S128x64_S1x64_29_0).view.set]{fullShare} f)
      ∗ ((rowM scM2 30 inb_S128x64_S1x64_30_0).view.loc (c : Thread nD τ) ↦[(rowM scM2 30 inb_S128x64_S1x64_30_0).view.set]{fullShare} f)
      ∗ ((rowM scM2 31 inb_S128x64_S1x64_31_0).view.loc (c : Thread nD τ) ↦[(rowM scM2 31 inb_S128x64_S1x64_31_0).view.set]{fullShare} f)
      ∗ ((rowM scM2 32 inb_S128x64_S1x64_32_0).view.loc (c : Thread nD τ) ↦[(rowM scM2 32 inb_S128x64_S1x64_32_0).view.set]{fullShare} f)
      ∗ ((rowM scM2 33 inb_S128x64_S1x64_33_0).view.loc (c : Thread nD τ) ↦[(rowM scM2 33 inb_S128x64_S1x64_33_0).view.set]{fullShare} f)
      ∗ ((rowM scM2 34 inb_S128x64_S1x64_34_0).view.loc (c : Thread nD τ) ↦[(rowM scM2 34 inb_S128x64_S1x64_34_0).view.set]{fullShare} f)
      ∗ ((rowM scM2 35 inb_S128x64_S1x64_35_0).view.loc (c : Thread nD τ) ↦[(rowM scM2 35 inb_S128x64_S1x64_35_0).view.set]{fullShare} f)
      ∗ ((rowM scM2 36 inb_S128x64_S1x64_36_0).view.loc (c : Thread nD τ) ↦[(rowM scM2 36 inb_S128x64_S1x64_36_0).view.set]{fullShare} f)
      ∗ ((rowM scM2 37 inb_S128x64_S1x64_37_0).view.loc (c : Thread nD τ) ↦[(rowM scM2 37 inb_S128x64_S1x64_37_0).view.set]{fullShare} f)
      ∗ ((rowM scM2 38 inb_S128x64_S1x64_38_0).view.loc (c : Thread nD τ) ↦[(rowM scM2 38 inb_S128x64_S1x64_38_0).view.set]{fullShare} f)
      ∗ ((rowM scM2 39 inb_S128x64_S1x64_39_0).view.loc (c : Thread nD τ) ↦[(rowM scM2 39 inb_S128x64_S1x64_39_0).view.set]{fullShare} f)
      ∗ ((rowM scM2 40 inb_S128x64_S1x64_40_0).view.loc (c : Thread nD τ) ↦[(rowM scM2 40 inb_S128x64_S1x64_40_0).view.set]{fullShare} f)
      ∗ ((rowM scM2 41 inb_S128x64_S1x64_41_0).view.loc (c : Thread nD τ) ↦[(rowM scM2 41 inb_S128x64_S1x64_41_0).view.set]{fullShare} f)
      ∗ ((rowM scM2 42 inb_S128x64_S1x64_42_0).view.loc (c : Thread nD τ) ↦[(rowM scM2 42 inb_S128x64_S1x64_42_0).view.set]{fullShare} f)
      ∗ ((rowM scM2 43 inb_S128x64_S1x64_43_0).view.loc (c : Thread nD τ) ↦[(rowM scM2 43 inb_S128x64_S1x64_43_0).view.set]{fullShare} f)
      ∗ ((rowM scM2 44 inb_S128x64_S1x64_44_0).view.loc (c : Thread nD τ) ↦[(rowM scM2 44 inb_S128x64_S1x64_44_0).view.set]{fullShare} f)
      ∗ ((rowM scM2 45 inb_S128x64_S1x64_45_0).view.loc (c : Thread nD τ) ↦[(rowM scM2 45 inb_S128x64_S1x64_45_0).view.set]{fullShare} f)
      ∗ ((rowM scM2 46 inb_S128x64_S1x64_46_0).view.loc (c : Thread nD τ) ↦[(rowM scM2 46 inb_S128x64_S1x64_46_0).view.set]{fullShare} f)
      ∗ ((rowM scM2 47 inb_S128x64_S1x64_47_0).view.loc (c : Thread nD τ) ↦[(rowM scM2 47 inb_S128x64_S1x64_47_0).view.set]{fullShare} f)
      ∗ ((rowM scM2 48 inb_S128x64_S1x64_48_0).view.loc (c : Thread nD τ) ↦[(rowM scM2 48 inb_S128x64_S1x64_48_0).view.set]{fullShare} f)
      ∗ ((rowM scM2 49 inb_S128x64_S1x64_49_0).view.loc (c : Thread nD τ) ↦[(rowM scM2 49 inb_S128x64_S1x64_49_0).view.set]{fullShare} f)
      ∗ ((rowM scM2 50 inb_S128x64_S1x64_50_0).view.loc (c : Thread nD τ) ↦[(rowM scM2 50 inb_S128x64_S1x64_50_0).view.set]{fullShare} f)
      ∗ ((rowM scM2 51 inb_S128x64_S1x64_51_0).view.loc (c : Thread nD τ) ↦[(rowM scM2 51 inb_S128x64_S1x64_51_0).view.set]{fullShare} f)
      ∗ ((rowM scM2 52 inb_S128x64_S1x64_52_0).view.loc (c : Thread nD τ) ↦[(rowM scM2 52 inb_S128x64_S1x64_52_0).view.set]{fullShare} f)
      ∗ ((rowM scM2 53 inb_S128x64_S1x64_53_0).view.loc (c : Thread nD τ) ↦[(rowM scM2 53 inb_S128x64_S1x64_53_0).view.set]{fullShare} f)
      ∗ ((rowM scM2 54 inb_S128x64_S1x64_54_0).view.loc (c : Thread nD τ) ↦[(rowM scM2 54 inb_S128x64_S1x64_54_0).view.set]{fullShare} f)
      ∗ ((rowM scM2 55 inb_S128x64_S1x64_55_0).view.loc (c : Thread nD τ) ↦[(rowM scM2 55 inb_S128x64_S1x64_55_0).view.set]{fullShare} f)
      ∗ ((rowM scM2 56 inb_S128x64_S1x64_56_0).view.loc (c : Thread nD τ) ↦[(rowM scM2 56 inb_S128x64_S1x64_56_0).view.set]{fullShare} f)
      ∗ ((rowM scM2 57 inb_S128x64_S1x64_57_0).view.loc (c : Thread nD τ) ↦[(rowM scM2 57 inb_S128x64_S1x64_57_0).view.set]{fullShare} f)
      ∗ ((rowM scM2 58 inb_S128x64_S1x64_58_0).view.loc (c : Thread nD τ) ↦[(rowM scM2 58 inb_S128x64_S1x64_58_0).view.set]{fullShare} f)
      ∗ ((rowM scM2 59 inb_S128x64_S1x64_59_0).view.loc (c : Thread nD τ) ↦[(rowM scM2 59 inb_S128x64_S1x64_59_0).view.set]{fullShare} f)
      ∗ ((rowM scM2 60 inb_S128x64_S1x64_60_0).view.loc (c : Thread nD τ) ↦[(rowM scM2 60 inb_S128x64_S1x64_60_0).view.set]{fullShare} f)
      ∗ ((rowM scM2 61 inb_S128x64_S1x64_61_0).view.loc (c : Thread nD τ) ↦[(rowM scM2 61 inb_S128x64_S1x64_61_0).view.set]{fullShare} f)
      ∗ ((rowM scM2 62 inb_S128x64_S1x64_62_0).view.loc (c : Thread nD τ) ↦[(rowM scM2 62 inb_S128x64_S1x64_62_0).view.set]{fullShare} f)
      ∗ ((rowM scM2 63 inb_S128x64_S1x64_63_0).view.loc (c : Thread nD τ) ↦[(rowM scM2 63 inb_S128x64_S1x64_63_0).view.set]{fullShare} f)
      ∗ ((rowM scM2 64 inb_S128x64_S1x64_64_0).view.loc (c : Thread nD τ) ↦[(rowM scM2 64 inb_S128x64_S1x64_64_0).view.set]{fullShare} f)
      ∗ ((rowM scM2 65 inb_S128x64_S1x64_65_0).view.loc (c : Thread nD τ) ↦[(rowM scM2 65 inb_S128x64_S1x64_65_0).view.set]{fullShare} f)
      ∗ ((rowM scM2 66 inb_S128x64_S1x64_66_0).view.loc (c : Thread nD τ) ↦[(rowM scM2 66 inb_S128x64_S1x64_66_0).view.set]{fullShare} f)
      ∗ ((rowM scM2 67 inb_S128x64_S1x64_67_0).view.loc (c : Thread nD τ) ↦[(rowM scM2 67 inb_S128x64_S1x64_67_0).view.set]{fullShare} f)
      ∗ ((rowM scM2 68 inb_S128x64_S1x64_68_0).view.loc (c : Thread nD τ) ↦[(rowM scM2 68 inb_S128x64_S1x64_68_0).view.set]{fullShare} f)
      ∗ ((rowM scM2 69 inb_S128x64_S1x64_69_0).view.loc (c : Thread nD τ) ↦[(rowM scM2 69 inb_S128x64_S1x64_69_0).view.set]{fullShare} f)
      ∗ ((rowM scM2 70 inb_S128x64_S1x64_70_0).view.loc (c : Thread nD τ) ↦[(rowM scM2 70 inb_S128x64_S1x64_70_0).view.set]{fullShare} f)
      ∗ ((rowM scM2 71 inb_S128x64_S1x64_71_0).view.loc (c : Thread nD τ) ↦[(rowM scM2 71 inb_S128x64_S1x64_71_0).view.set]{fullShare} f)
      ∗ ((rowM scM2 72 inb_S128x64_S1x64_72_0).view.loc (c : Thread nD τ) ↦[(rowM scM2 72 inb_S128x64_S1x64_72_0).view.set]{fullShare} f)
      ∗ ((rowM scM2 73 inb_S128x64_S1x64_73_0).view.loc (c : Thread nD τ) ↦[(rowM scM2 73 inb_S128x64_S1x64_73_0).view.set]{fullShare} f)
      ∗ ((rowM scM2 74 inb_S128x64_S1x64_74_0).view.loc (c : Thread nD τ) ↦[(rowM scM2 74 inb_S128x64_S1x64_74_0).view.set]{fullShare} f)
      ∗ ((rowM scM2 75 inb_S128x64_S1x64_75_0).view.loc (c : Thread nD τ) ↦[(rowM scM2 75 inb_S128x64_S1x64_75_0).view.set]{fullShare} f)
      ∗ ((rowM scM2 76 inb_S128x64_S1x64_76_0).view.loc (c : Thread nD τ) ↦[(rowM scM2 76 inb_S128x64_S1x64_76_0).view.set]{fullShare} f)
      ∗ ((rowM scM2 77 inb_S128x64_S1x64_77_0).view.loc (c : Thread nD τ) ↦[(rowM scM2 77 inb_S128x64_S1x64_77_0).view.set]{fullShare} f)
      ∗ ((rowM scM2 78 inb_S128x64_S1x64_78_0).view.loc (c : Thread nD τ) ↦[(rowM scM2 78 inb_S128x64_S1x64_78_0).view.set]{fullShare} f)
      ∗ ((rowM scM2 79 inb_S128x64_S1x64_79_0).view.loc (c : Thread nD τ) ↦[(rowM scM2 79 inb_S128x64_S1x64_79_0).view.set]{fullShare} f)
      ∗ ((rowM scM2 80 inb_S128x64_S1x64_80_0).view.loc (c : Thread nD τ) ↦[(rowM scM2 80 inb_S128x64_S1x64_80_0).view.set]{fullShare} f)
      ∗ ((rowM scM2 81 inb_S128x64_S1x64_81_0).view.loc (c : Thread nD τ) ↦[(rowM scM2 81 inb_S128x64_S1x64_81_0).view.set]{fullShare} f)
      ∗ ((rowM scM2 82 inb_S128x64_S1x64_82_0).view.loc (c : Thread nD τ) ↦[(rowM scM2 82 inb_S128x64_S1x64_82_0).view.set]{fullShare} f)
      ∗ ((rowM scM2 83 inb_S128x64_S1x64_83_0).view.loc (c : Thread nD τ) ↦[(rowM scM2 83 inb_S128x64_S1x64_83_0).view.set]{fullShare} f)
      ∗ ((rowM scM2 84 inb_S128x64_S1x64_84_0).view.loc (c : Thread nD τ) ↦[(rowM scM2 84 inb_S128x64_S1x64_84_0).view.set]{fullShare} f)
      ∗ ((rowM scM2 85 inb_S128x64_S1x64_85_0).view.loc (c : Thread nD τ) ↦[(rowM scM2 85 inb_S128x64_S1x64_85_0).view.set]{fullShare} f)
      ∗ ((rowM scM2 86 inb_S128x64_S1x64_86_0).view.loc (c : Thread nD τ) ↦[(rowM scM2 86 inb_S128x64_S1x64_86_0).view.set]{fullShare} f)
      ∗ ((rowM scM2 87 inb_S128x64_S1x64_87_0).view.loc (c : Thread nD τ) ↦[(rowM scM2 87 inb_S128x64_S1x64_87_0).view.set]{fullShare} f)
      ∗ ((rowM scM2 88 inb_S128x64_S1x64_88_0).view.loc (c : Thread nD τ) ↦[(rowM scM2 88 inb_S128x64_S1x64_88_0).view.set]{fullShare} f)
      ∗ ((rowM scM2 89 inb_S128x64_S1x64_89_0).view.loc (c : Thread nD τ) ↦[(rowM scM2 89 inb_S128x64_S1x64_89_0).view.set]{fullShare} f)
      ∗ ((rowM scM2 90 inb_S128x64_S1x64_90_0).view.loc (c : Thread nD τ) ↦[(rowM scM2 90 inb_S128x64_S1x64_90_0).view.set]{fullShare} f)
      ∗ ((rowM scM2 91 inb_S128x64_S1x64_91_0).view.loc (c : Thread nD τ) ↦[(rowM scM2 91 inb_S128x64_S1x64_91_0).view.set]{fullShare} f)
      ∗ ((rowM scM2 92 inb_S128x64_S1x64_92_0).view.loc (c : Thread nD τ) ↦[(rowM scM2 92 inb_S128x64_S1x64_92_0).view.set]{fullShare} f)
      ∗ ((rowM scM2 93 inb_S128x64_S1x64_93_0).view.loc (c : Thread nD τ) ↦[(rowM scM2 93 inb_S128x64_S1x64_93_0).view.set]{fullShare} f)
      ∗ ((rowM scM2 94 inb_S128x64_S1x64_94_0).view.loc (c : Thread nD τ) ↦[(rowM scM2 94 inb_S128x64_S1x64_94_0).view.set]{fullShare} f)
      ∗ ((rowM scM2 95 inb_S128x64_S1x64_95_0).view.loc (c : Thread nD τ) ↦[(rowM scM2 95 inb_S128x64_S1x64_95_0).view.set]{fullShare} f)
      ∗ ((rowM scM2 96 inb_S128x64_S1x64_96_0).view.loc (c : Thread nD τ) ↦[(rowM scM2 96 inb_S128x64_S1x64_96_0).view.set]{fullShare} f)
      ∗ ((rowM scM2 97 inb_S128x64_S1x64_97_0).view.loc (c : Thread nD τ) ↦[(rowM scM2 97 inb_S128x64_S1x64_97_0).view.set]{fullShare} f)
      ∗ ((rowM scM2 98 inb_S128x64_S1x64_98_0).view.loc (c : Thread nD τ) ↦[(rowM scM2 98 inb_S128x64_S1x64_98_0).view.set]{fullShare} f)
      ∗ ((rowM scM2 99 inb_S128x64_S1x64_99_0).view.loc (c : Thread nD τ) ↦[(rowM scM2 99 inb_S128x64_S1x64_99_0).view.set]{fullShare} f)
      ∗ ((rowM scM2 100 inb_S128x64_S1x64_100_0).view.loc (c : Thread nD τ) ↦[(rowM scM2 100 inb_S128x64_S1x64_100_0).view.set]{fullShare} f)
      ∗ ((rowM scM2 101 inb_S128x64_S1x64_101_0).view.loc (c : Thread nD τ) ↦[(rowM scM2 101 inb_S128x64_S1x64_101_0).view.set]{fullShare} f)
      ∗ ((rowM scM2 102 inb_S128x64_S1x64_102_0).view.loc (c : Thread nD τ) ↦[(rowM scM2 102 inb_S128x64_S1x64_102_0).view.set]{fullShare} f)
      ∗ ((rowM scM2 103 inb_S128x64_S1x64_103_0).view.loc (c : Thread nD τ) ↦[(rowM scM2 103 inb_S128x64_S1x64_103_0).view.set]{fullShare} f)
      ∗ ((rowM scM2 104 inb_S128x64_S1x64_104_0).view.loc (c : Thread nD τ) ↦[(rowM scM2 104 inb_S128x64_S1x64_104_0).view.set]{fullShare} f)
      ∗ ((rowM scM2 105 inb_S128x64_S1x64_105_0).view.loc (c : Thread nD τ) ↦[(rowM scM2 105 inb_S128x64_S1x64_105_0).view.set]{fullShare} f)
      ∗ ((rowM scM2 106 inb_S128x64_S1x64_106_0).view.loc (c : Thread nD τ) ↦[(rowM scM2 106 inb_S128x64_S1x64_106_0).view.set]{fullShare} f)
      ∗ ((rowM scM2 107 inb_S128x64_S1x64_107_0).view.loc (c : Thread nD τ) ↦[(rowM scM2 107 inb_S128x64_S1x64_107_0).view.set]{fullShare} f)
      ∗ ((rowM scM2 108 inb_S128x64_S1x64_108_0).view.loc (c : Thread nD τ) ↦[(rowM scM2 108 inb_S128x64_S1x64_108_0).view.set]{fullShare} f)
      ∗ ((rowM scM2 109 inb_S128x64_S1x64_109_0).view.loc (c : Thread nD τ) ↦[(rowM scM2 109 inb_S128x64_S1x64_109_0).view.set]{fullShare} f)
      ∗ ((rowM scM2 110 inb_S128x64_S1x64_110_0).view.loc (c : Thread nD τ) ↦[(rowM scM2 110 inb_S128x64_S1x64_110_0).view.set]{fullShare} f)
      ∗ ((rowM scM2 111 inb_S128x64_S1x64_111_0).view.loc (c : Thread nD τ) ↦[(rowM scM2 111 inb_S128x64_S1x64_111_0).view.set]{fullShare} f)
      ∗ ((rowM scM2 112 inb_S128x64_S1x64_112_0).view.loc (c : Thread nD τ) ↦[(rowM scM2 112 inb_S128x64_S1x64_112_0).view.set]{fullShare} f)
      ∗ ((rowM scM2 113 inb_S128x64_S1x64_113_0).view.loc (c : Thread nD τ) ↦[(rowM scM2 113 inb_S128x64_S1x64_113_0).view.set]{fullShare} f)
      ∗ ((rowM scM2 114 inb_S128x64_S1x64_114_0).view.loc (c : Thread nD τ) ↦[(rowM scM2 114 inb_S128x64_S1x64_114_0).view.set]{fullShare} f)
      ∗ ((rowM scM2 115 inb_S128x64_S1x64_115_0).view.loc (c : Thread nD τ) ↦[(rowM scM2 115 inb_S128x64_S1x64_115_0).view.set]{fullShare} f)
      ∗ ((rowM scM2 116 inb_S128x64_S1x64_116_0).view.loc (c : Thread nD τ) ↦[(rowM scM2 116 inb_S128x64_S1x64_116_0).view.set]{fullShare} f)
      ∗ ((rowM scM2 117 inb_S128x64_S1x64_117_0).view.loc (c : Thread nD τ) ↦[(rowM scM2 117 inb_S128x64_S1x64_117_0).view.set]{fullShare} f)
      ∗ ((rowM scM2 118 inb_S128x64_S1x64_118_0).view.loc (c : Thread nD τ) ↦[(rowM scM2 118 inb_S128x64_S1x64_118_0).view.set]{fullShare} f)
      ∗ ((rowM scM2 119 inb_S128x64_S1x64_119_0).view.loc (c : Thread nD τ) ↦[(rowM scM2 119 inb_S128x64_S1x64_119_0).view.set]{fullShare} f)
      ∗ ((rowM scM2 120 inb_S128x64_S1x64_120_0).view.loc (c : Thread nD τ) ↦[(rowM scM2 120 inb_S128x64_S1x64_120_0).view.set]{fullShare} f)
      ∗ ((rowM scM2 121 inb_S128x64_S1x64_121_0).view.loc (c : Thread nD τ) ↦[(rowM scM2 121 inb_S128x64_S1x64_121_0).view.set]{fullShare} f)
      ∗ ((rowM scM2 122 inb_S128x64_S1x64_122_0).view.loc (c : Thread nD τ) ↦[(rowM scM2 122 inb_S128x64_S1x64_122_0).view.set]{fullShare} f)
      ∗ ((rowM scM2 123 inb_S128x64_S1x64_123_0).view.loc (c : Thread nD τ) ↦[(rowM scM2 123 inb_S128x64_S1x64_123_0).view.set]{fullShare} f)
      ∗ ((rowM scM2 124 inb_S128x64_S1x64_124_0).view.loc (c : Thread nD τ) ↦[(rowM scM2 124 inb_S128x64_S1x64_124_0).view.set]{fullShare} f)
      ∗ ((rowM scM2 125 inb_S128x64_S1x64_125_0).view.loc (c : Thread nD τ) ↦[(rowM scM2 125 inb_S128x64_S1x64_125_0).view.set]{fullShare} f)
      ∗ ((rowM scM2 126 inb_S128x64_S1x64_126_0).view.loc (c : Thread nD τ) ↦[(rowM scM2 126 inb_S128x64_S1x64_126_0).view.set]{fullShare} f)
      ∗ ((rowM scM2 127 inb_S128x64_S1x64_127_0).view.loc (c : Thread nD τ) ↦[(rowM scM2 127 inb_S128x64_S1x64_127_0).view.set]{fullShare} f)
      ∗ emp) := by
  have h := rows_split (F := F) scM2 c f
  rw [bigSep_range_eq_chainUp] at h
  simp only [chainUp, Nat.reduceAdd, rowSet_lit scM2 0 (by decide) inb_S128x64_S1x64_0_0, rowSet_lit scM2 1 (by decide) inb_S128x64_S1x64_1_0, rowSet_lit scM2 2 (by decide) inb_S128x64_S1x64_2_0, rowSet_lit scM2 3 (by decide) inb_S128x64_S1x64_3_0, rowSet_lit scM2 4 (by decide) inb_S128x64_S1x64_4_0, rowSet_lit scM2 5 (by decide) inb_S128x64_S1x64_5_0, rowSet_lit scM2 6 (by decide) inb_S128x64_S1x64_6_0, rowSet_lit scM2 7 (by decide) inb_S128x64_S1x64_7_0, rowSet_lit scM2 8 (by decide) inb_S128x64_S1x64_8_0, rowSet_lit scM2 9 (by decide) inb_S128x64_S1x64_9_0, rowSet_lit scM2 10 (by decide) inb_S128x64_S1x64_10_0, rowSet_lit scM2 11 (by decide) inb_S128x64_S1x64_11_0, rowSet_lit scM2 12 (by decide) inb_S128x64_S1x64_12_0, rowSet_lit scM2 13 (by decide) inb_S128x64_S1x64_13_0, rowSet_lit scM2 14 (by decide) inb_S128x64_S1x64_14_0, rowSet_lit scM2 15 (by decide) inb_S128x64_S1x64_15_0, rowSet_lit scM2 16 (by decide) inb_S128x64_S1x64_16_0, rowSet_lit scM2 17 (by decide) inb_S128x64_S1x64_17_0, rowSet_lit scM2 18 (by decide) inb_S128x64_S1x64_18_0, rowSet_lit scM2 19 (by decide) inb_S128x64_S1x64_19_0, rowSet_lit scM2 20 (by decide) inb_S128x64_S1x64_20_0, rowSet_lit scM2 21 (by decide) inb_S128x64_S1x64_21_0, rowSet_lit scM2 22 (by decide) inb_S128x64_S1x64_22_0, rowSet_lit scM2 23 (by decide) inb_S128x64_S1x64_23_0, rowSet_lit scM2 24 (by decide) inb_S128x64_S1x64_24_0, rowSet_lit scM2 25 (by decide) inb_S128x64_S1x64_25_0, rowSet_lit scM2 26 (by decide) inb_S128x64_S1x64_26_0, rowSet_lit scM2 27 (by decide) inb_S128x64_S1x64_27_0, rowSet_lit scM2 28 (by decide) inb_S128x64_S1x64_28_0, rowSet_lit scM2 29 (by decide) inb_S128x64_S1x64_29_0, rowSet_lit scM2 30 (by decide) inb_S128x64_S1x64_30_0, rowSet_lit scM2 31 (by decide) inb_S128x64_S1x64_31_0, rowSet_lit scM2 32 (by decide) inb_S128x64_S1x64_32_0, rowSet_lit scM2 33 (by decide) inb_S128x64_S1x64_33_0, rowSet_lit scM2 34 (by decide) inb_S128x64_S1x64_34_0, rowSet_lit scM2 35 (by decide) inb_S128x64_S1x64_35_0, rowSet_lit scM2 36 (by decide) inb_S128x64_S1x64_36_0, rowSet_lit scM2 37 (by decide) inb_S128x64_S1x64_37_0, rowSet_lit scM2 38 (by decide) inb_S128x64_S1x64_38_0, rowSet_lit scM2 39 (by decide) inb_S128x64_S1x64_39_0, rowSet_lit scM2 40 (by decide) inb_S128x64_S1x64_40_0, rowSet_lit scM2 41 (by decide) inb_S128x64_S1x64_41_0, rowSet_lit scM2 42 (by decide) inb_S128x64_S1x64_42_0, rowSet_lit scM2 43 (by decide) inb_S128x64_S1x64_43_0, rowSet_lit scM2 44 (by decide) inb_S128x64_S1x64_44_0, rowSet_lit scM2 45 (by decide) inb_S128x64_S1x64_45_0, rowSet_lit scM2 46 (by decide) inb_S128x64_S1x64_46_0, rowSet_lit scM2 47 (by decide) inb_S128x64_S1x64_47_0, rowSet_lit scM2 48 (by decide) inb_S128x64_S1x64_48_0, rowSet_lit scM2 49 (by decide) inb_S128x64_S1x64_49_0, rowSet_lit scM2 50 (by decide) inb_S128x64_S1x64_50_0, rowSet_lit scM2 51 (by decide) inb_S128x64_S1x64_51_0, rowSet_lit scM2 52 (by decide) inb_S128x64_S1x64_52_0, rowSet_lit scM2 53 (by decide) inb_S128x64_S1x64_53_0, rowSet_lit scM2 54 (by decide) inb_S128x64_S1x64_54_0, rowSet_lit scM2 55 (by decide) inb_S128x64_S1x64_55_0, rowSet_lit scM2 56 (by decide) inb_S128x64_S1x64_56_0, rowSet_lit scM2 57 (by decide) inb_S128x64_S1x64_57_0, rowSet_lit scM2 58 (by decide) inb_S128x64_S1x64_58_0, rowSet_lit scM2 59 (by decide) inb_S128x64_S1x64_59_0, rowSet_lit scM2 60 (by decide) inb_S128x64_S1x64_60_0, rowSet_lit scM2 61 (by decide) inb_S128x64_S1x64_61_0, rowSet_lit scM2 62 (by decide) inb_S128x64_S1x64_62_0, rowSet_lit scM2 63 (by decide) inb_S128x64_S1x64_63_0, rowSet_lit scM2 64 (by decide) inb_S128x64_S1x64_64_0, rowSet_lit scM2 65 (by decide) inb_S128x64_S1x64_65_0, rowSet_lit scM2 66 (by decide) inb_S128x64_S1x64_66_0, rowSet_lit scM2 67 (by decide) inb_S128x64_S1x64_67_0, rowSet_lit scM2 68 (by decide) inb_S128x64_S1x64_68_0, rowSet_lit scM2 69 (by decide) inb_S128x64_S1x64_69_0, rowSet_lit scM2 70 (by decide) inb_S128x64_S1x64_70_0, rowSet_lit scM2 71 (by decide) inb_S128x64_S1x64_71_0, rowSet_lit scM2 72 (by decide) inb_S128x64_S1x64_72_0, rowSet_lit scM2 73 (by decide) inb_S128x64_S1x64_73_0, rowSet_lit scM2 74 (by decide) inb_S128x64_S1x64_74_0, rowSet_lit scM2 75 (by decide) inb_S128x64_S1x64_75_0, rowSet_lit scM2 76 (by decide) inb_S128x64_S1x64_76_0, rowSet_lit scM2 77 (by decide) inb_S128x64_S1x64_77_0, rowSet_lit scM2 78 (by decide) inb_S128x64_S1x64_78_0, rowSet_lit scM2 79 (by decide) inb_S128x64_S1x64_79_0, rowSet_lit scM2 80 (by decide) inb_S128x64_S1x64_80_0, rowSet_lit scM2 81 (by decide) inb_S128x64_S1x64_81_0, rowSet_lit scM2 82 (by decide) inb_S128x64_S1x64_82_0, rowSet_lit scM2 83 (by decide) inb_S128x64_S1x64_83_0, rowSet_lit scM2 84 (by decide) inb_S128x64_S1x64_84_0, rowSet_lit scM2 85 (by decide) inb_S128x64_S1x64_85_0, rowSet_lit scM2 86 (by decide) inb_S128x64_S1x64_86_0, rowSet_lit scM2 87 (by decide) inb_S128x64_S1x64_87_0, rowSet_lit scM2 88 (by decide) inb_S128x64_S1x64_88_0, rowSet_lit scM2 89 (by decide) inb_S128x64_S1x64_89_0, rowSet_lit scM2 90 (by decide) inb_S128x64_S1x64_90_0, rowSet_lit scM2 91 (by decide) inb_S128x64_S1x64_91_0, rowSet_lit scM2 92 (by decide) inb_S128x64_S1x64_92_0, rowSet_lit scM2 93 (by decide) inb_S128x64_S1x64_93_0, rowSet_lit scM2 94 (by decide) inb_S128x64_S1x64_94_0, rowSet_lit scM2 95 (by decide) inb_S128x64_S1x64_95_0, rowSet_lit scM2 96 (by decide) inb_S128x64_S1x64_96_0, rowSet_lit scM2 97 (by decide) inb_S128x64_S1x64_97_0, rowSet_lit scM2 98 (by decide) inb_S128x64_S1x64_98_0, rowSet_lit scM2 99 (by decide) inb_S128x64_S1x64_99_0, rowSet_lit scM2 100 (by decide) inb_S128x64_S1x64_100_0, rowSet_lit scM2 101 (by decide) inb_S128x64_S1x64_101_0, rowSet_lit scM2 102 (by decide) inb_S128x64_S1x64_102_0, rowSet_lit scM2 103 (by decide) inb_S128x64_S1x64_103_0, rowSet_lit scM2 104 (by decide) inb_S128x64_S1x64_104_0, rowSet_lit scM2 105 (by decide) inb_S128x64_S1x64_105_0, rowSet_lit scM2 106 (by decide) inb_S128x64_S1x64_106_0, rowSet_lit scM2 107 (by decide) inb_S128x64_S1x64_107_0, rowSet_lit scM2 108 (by decide) inb_S128x64_S1x64_108_0, rowSet_lit scM2 109 (by decide) inb_S128x64_S1x64_109_0, rowSet_lit scM2 110 (by decide) inb_S128x64_S1x64_110_0, rowSet_lit scM2 111 (by decide) inb_S128x64_S1x64_111_0, rowSet_lit scM2 112 (by decide) inb_S128x64_S1x64_112_0, rowSet_lit scM2 113 (by decide) inb_S128x64_S1x64_113_0, rowSet_lit scM2 114 (by decide) inb_S128x64_S1x64_114_0, rowSet_lit scM2 115 (by decide) inb_S128x64_S1x64_115_0, rowSet_lit scM2 116 (by decide) inb_S128x64_S1x64_116_0, rowSet_lit scM2 117 (by decide) inb_S128x64_S1x64_117_0, rowSet_lit scM2 118 (by decide) inb_S128x64_S1x64_118_0, rowSet_lit scM2 119 (by decide) inb_S128x64_S1x64_119_0, rowSet_lit scM2 120 (by decide) inb_S128x64_S1x64_120_0, rowSet_lit scM2 121 (by decide) inb_S128x64_S1x64_121_0, rowSet_lit scM2 122 (by decide) inb_S128x64_S1x64_122_0, rowSet_lit scM2 123 (by decide) inb_S128x64_S1x64_123_0, rowSet_lit scM2 124 (by decide) inb_S128x64_S1x64_124_0, rowSet_lit scM2 125 (by decide) inb_S128x64_S1x64_125_0, rowSet_lit scM2 126 (by decide) inb_S128x64_S1x64_126_0, rowSet_lit scM2 127 (by decide) inb_S128x64_S1x64_127_0] at h
  exact h

end Cert.KernelIdeal.Hand

end
-- ==== Proof.KIRunA.lean ====
/-
  Two regroupings of separating conjunctions, as entailments with the parts taken one at a time.

  A body that treats its rows in increasing order takes each row's resources from the head of a chain
  `x₀ ∗ (x₁ ∗ (… ∗ emp))`, and what a row leaves is put at the head of another chain: `consH` is that step.  The six
  resources a row's three copies leave while they are in flight (per copy, the cell carrying the flight and the rest of
  the source's read token) are kept together as one conjunct until the row's waits: `bundle6`.
-/
import proofs.«414929_j28089086116333_1_alg».proof.Proof.KIUp

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- A resource put at the head of a chain. -/
theorem consH (P Q : sProp 𝕄) : P ⊢ iprop(Q -∗ P ∗ Q) := by
  iintro HP HQ
  isplitl [HP]
  · iexact HP
  · iexact HQ

/-- Six resources kept together as one conjunct. -/
theorem bundle6 (A B C D E G : sProp 𝕄) : A ⊢ iprop(B -∗ C -∗ D -∗ E -∗ G -∗ A ∗ B ∗ C ∗ D ∗ E ∗ G) := by
  iintro HA HB HC HD HE HG
  isplitl [HA]
  · iexact HA
  isplitl [HB]
  · iexact HB
  isplitl [HC]
  · iexact HC
  isplitl [HD]
  · iexact HD
  isplitl [HE]
  · iexact HE
  · iexact HG

end Cert.KernelIdeal.Hand

end
-- ==== Proof.KIRunB.lean ====
/-
  The end of the kernel body's run: the delivered rows as one block, the loads, the stores, and what is handed back.

  After its 384 copies have been waited for, each row of a scratch buffer holds what its copy delivered.  A delivered row,
  held as a piece of its own, is the same assertion as that row held at ANY contents of the whole buffer that agree with
  the delivery on the row; taking for every row the one buffer contents whose reading is the gathered block, the 128 rows
  are the whole buffer held at those contents, and a load of the whole buffer reads the gathered block.
-/
import proofs.«414929_j28089086116333_1_alg».proof.Proof.KIRows
import proofs.«414929_j28089086116333_1_alg».proof.Proof.KIUp
import proofs.«414929_j28089086116333_1_alg».proof.Proof.KISems
import proofs.«414929_j28089086116333_1_alg».proof.Proof.KIGath

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

open ValueIdx

/-- Row `r`'s elements are the view set of the row's memref, whichever proof of its bounds it carries. -/
theorem rowSet_eq_lit (M : Memref sig .tc .vmem S128x64 .f32) (r : ℕ) (hr : r < 128)
    (hinb : ∀ a, (![r, 0] : Fin 2 → Nat) a + S1x64.size a ≤ S128x64.size a) : rowSet M r = (rowM M r hinb).view.set := by
  unfold rowSet; rw [dif_pos hr]

/-! ## A delivered row -/

/-- What a row piece holds after a delivery `d` into it, at the element the row memref places index `x` at: `d x`. -/
theorem row_writes_emb (M : Memref sig .tc .vmem S128x64 .f32) (c : Dev nD) (r : ℕ)
    (hinb : ∀ a, (![r, 0] : Fin 2 → Nat) a + S1x64.size a ≤ S128x64.size a)
    (f : Buf (Elt F) (M.view.loc (c : Thread nD τ))) (d : (Rect.whole S64).shape.Idx → Elt F .f32) (x : S64.Idx) :
    (rowM M r hinb).view.writes (Elt F) f [⟨Rect.whole S64, d⟩] ((rowM M r hinb).view.emb x)
      = _root_.cast (congrArg (Elt F) (rowM M r hinb).view.elt_eq.symm) (d x) := by
  rw [View.writes_singleton]
  have e : (rowM M r hinb).view.emb x = ((rowM M r hinb).view.slice (Rect.whole S64)).emb x := by
    rw [View.emb_slice]
    show _ = (rowM M r hinb).view.emb ((Rect.whole S64).emb x)
    rw [Rect.emb_whole_apply]
  rw [e, View.write_emb_of_mem _ _ (Finset.mem_univ x)]

/-- A delivered row is that row held at any contents `g` of the buffer that read, on row `r`, as the delivery. -/
theorem row_deliver (M : Memref sig .tc .vmem S128x64 .f32) (c : Dev nD) (r : ℕ) (hr : r < 128)
    (hinb : ∀ a, (![r, 0] : Fin 2 → Nat) a + S1x64.size a ≤ S128x64.size a)
    (f g : Buf (Elt F) (M.view.loc (c : Thread nD τ))) (d : (Rect.whole S64).shape.Idx → Elt F .f32)
    (hg : ∀ x : S64.Idx, M.view.read (Elt F) g (ix2 (⟨r, hr⟩ : Fin 128) (⟨(x 0).val, (x 0).isLt⟩ : Fin 64)) = d x) :
    ((rowM M r hinb).view.loc (c : Thread nD τ) ↦[(rowM M r hinb).view.set]{fullShare}
        (rowM M r hinb).view.writes (Elt F) f [⟨Rect.whole S64, d⟩] : sProp 𝕄)
      = (M.view.loc (c : Thread nD τ) ↦[rowSet M r]{fullShare} g) := by
  rw [rowSet_eq_lit M r hr hinb]
  refine pointsTo_congr ?_
  intro i hi
  obtain ⟨x, -, rfl⟩ := Finset.mem_map.mp hi
  rw [row_writes_emb, rowM_emb_idx M r hr hinb x]
  have h := hg x
  rw [View.read_apply] at h
  rw [← h, cast_cast, cast_eq]

/-- The same with the row's element set as the row memref spells it, and the contents those of the whole buffer after the
    block `G` is written over any contents `f₀`: the delivery agrees with row `r` of `G`. -/
theorem row_deliver_block (M : Memref sig .tc .vmem S128x64 .f32) (c : Dev nD) (r : ℕ) (hr : r < 128)
    (hinb : ∀ a, (![r, 0] : Fin 2 → Nat) a + S1x64.size a ≤ S128x64.size a)
    (f f₀ : Buf (Elt F) (M.view.loc (c : Thread nD τ))) (d : (Rect.whole S64).shape.Idx → Elt F .f32)
    (G : S128x64.Idx → Elt F .f32)
    (hd : ∀ q : Fin 64, d (ix1 q) = G (ix2 (⟨r, hr⟩ : Fin 128) q)) :
    ((rowM M r hinb).view.loc (c : Thread nD τ) ↦[(rowM M r hinb).view.set]{fullShare}
        (rowM M r hinb).view.writes (Elt F) f [⟨Rect.whole S64, d⟩] : sProp 𝕄)
      = ((rowM M r hinb).view.loc (c : Thread nD τ) ↦[(rowM M r hinb).view.set]{fullShare}
          M.view.write (Elt F) f₀ G Finset.univ) := by
  rw [row_deliver M c r hr hinb f (M.view.write (Elt F) f₀ G Finset.univ) d, rowSet_eq_lit M r hr hinb]
  intro x
  rw [View.read_write_univ, ValueIdx.eq_ix1 x]
  exact (hd _).symm

/-- … as an entailment. -/
theorem row_deliver_block' (M : Memref sig .tc .vmem S128x64 .f32) (c : Dev nD) (r : ℕ) (hr : r < 128)
    (hinb : ∀ a, (![r, 0] : Fin 2 → Nat) a + S1x64.size a ≤ S128x64.size a)
    (f f₀ : Buf (Elt F) (M.view.loc (c : Thread nD τ))) (d : (Rect.whole S64).shape.Idx → Elt F .f32)
    (G : S128x64.Idx → Elt F .f32)
    (hd : ∀ q : Fin 64, d (ix1 q) = G (ix2 (⟨r, hr⟩ : Fin 128) q)) :
    ((rowM M r hinb).view.loc (c : Thread nD τ) ↦[(rowM M r hinb).view.set]{fullShare}
        (rowM M r hinb).view.writes (Elt F) f [⟨Rect.whole S64, d⟩] : sProp 𝕄)
      ⊢ ((rowM M r hinb).view.loc (c : Thread nD τ) ↦[(rowM M r hinb).view.set]{fullShare}
          M.view.write (Elt F) f₀ G Finset.univ) :=
  Entails.of_eq (row_deliver_block M c r hr hinb f f₀ d G hd)

/-- The same with the agreement taken as a premise after the row: the delivery is then whatever the row holds. -/
theorem row_deliverP (M : Memref sig .tc .vmem S128x64 .f32) (c : Dev nD) (r : ℕ) (hr : r < 128)
    (hinb : ∀ a, (![r, 0] : Fin 2 → Nat) a + S1x64.size a ≤ S128x64.size a)
    (f f₀ : Buf (Elt F) (M.view.loc (c : Thread nD τ))) (d : (Rect.whole S64).shape.Idx → Elt F .f32)
    (G : S128x64.Idx → Elt F .f32) :
    ((rowM M r hinb).view.loc (c : Thread nD τ) ↦[(rowM M r hinb).view.set]{fullShare}
        (rowM M r hinb).view.writes (Elt F) f [⟨Rect.whole S64, d⟩] : sProp 𝕄)
      ⊢ iprop(⌜∀ q : Fin 64, d (ix1 q) = G (ix2 (⟨r, hr⟩ : Fin 128) q)⌝ -∗
          ((rowM M r hinb).view.loc (c : Thread nD τ) ↦[(rowM M r hinb).view.set]{fullShare}
            M.view.write (Elt F) f₀ G Finset.univ)) := by
  iintro H
  iintro %hd
  ihave H' := (row_deliver_block' M c r hr hinb f f₀ d G hd) $$ H
  iexact H'

/-! ## The 128 rows at one contents are the buffer -/

section Abstract
variable {ℓ : Loc nD τ sig}

/-- Elements that are the union of `n` pairwise disjoint sets, held at `f`, ARE the sets each held at `f`. -/
theorem eq_of_cover (n : ℕ) (K : ℕ → Finset (Idx ℓ)) (A : Finset (Idx ℓ))
    (hd : ∀ r r', r ≠ r' → Disjoint (K r) (K r')) (hc : (Finset.range n).biUnion K = A) (f : Buf (Elt F) ℓ) :
    (ℓ ↦[A]{fullShare} f : sProp 𝕄) = bigSep (Finset.range n) (fun r => ℓ ↦[K r]{fullShare} f) := by
  subst hc
  exact pointsTo_biUnion (Finset.range n) K fun r _ r' _ h => hd r r' h

end Abstract

/-- The memref's elements held at `f` ARE its 128 rows each held at `f`. -/
theorem rows_eq (M : Memref sig .tc .vmem S128x64 .f32) (c : Dev nD)
    (f : Buf (Elt F) (M.view.loc (c : Thread nD τ))) :
    (M.view.loc (c : Thread nD τ) ↦[M.view.set]{fullShare} f : sProp 𝕄)
      = bigSep (Finset.range 128) (fun r => M.view.loc (c : Thread nD τ) ↦[rowSet M r]{fullShare} f) :=
  eq_of_cover (ℓ := M.view.loc (c : Thread nD τ)) 128 (rowSet M) M.view.set
    (fun _ _ h => rowSet_disjoint M h) (rowSet_cover M) f

/-- A descending chain `Φ (n − 1) ∗ (Φ (n − 2) ∗ (… ∗ (Φ 0 ∗ emp)))`: what is left when members taken in increasing order
    are put back one by one in front of those already put back. -/
def chainDn (Φ : ℕ → sProp 𝕄) : ℕ → sProp 𝕄
  | 0 => BI.emp
  | n + 1 => iprop(Φ n ∗ chainDn Φ n)

/-- The separating conjunction over `0, …, n − 1` is that chain. -/
theorem bigSep_range_eq_chainDn (Φ : ℕ → sProp 𝕄) : ∀ n, bigSep (Finset.range n) Φ = chainDn Φ n
  | 0 => by rw [Finset.range_zero, bigSep_empty]; rfl
  | n + 1 => by
    rw [Finset.range_add_one, bigSep_insert Finset.notMem_range_self, bigSep_range_eq_chainDn Φ n]; rfl

/-- Row `r` of `M` held at `f`, spelt through the row memref (nothing past the last row). -/
def rowAt (M : Memref sig .tc .vmem S128x64 .f32) (c : Dev nD) (f : Buf (Elt F) (M.view.loc (c : Thread nD τ))) (r : ℕ) :
    sProp 𝕄 :=
  if hr : r < 128 then
    ((rowM M r (row_inb hr)).view.loc (c : Thread nD τ) ↦[(rowM M r (row_inb hr)).view.set]{fullShare} f) else BI.emp

theorem rowAt_lit (M : Memref sig .tc .vmem S128x64 .f32) (c : Dev nD) (f : Buf (Elt F) (M.view.loc (c : Thread nD τ)))
    (r : ℕ) (hr : r < 128) (hinb : ∀ a, (![r, 0] : Fin 2 → Nat) a + S1x64.size a ≤ S128x64.size a) :
    rowAt M c f r = ((rowM M r hinb).view.loc (c : Thread nD τ) ↦[(rowM M r hinb).view.set]{fullShare} f) := by
  unfold rowAt; rw [dif_pos hr]

theorem rowAt_eq (M : Memref sig .tc .vmem S128x64 .f32) (c : Dev nD) (f : Buf (Elt F) (M.view.loc (c : Thread nD τ)))
    (r : ℕ) (hr : r ∈ Finset.range 128) :
    (M.view.loc (c : Thread nD τ) ↦[rowSet M r]{fullShare} f : sProp 𝕄) = rowAt M c f r := by
  have hr' : r < 128 := Finset.mem_range.mp hr
  rw [rowAt_lit M c f r hr' (row_inb hr'), rowSet_eq_lit M r hr' (row_inb hr')]

/-- The 128 row pieces at one contents, as a descending chain, are the memref's elements held at those contents. -/
theorem rows_close (M : Memref sig .tc .vmem S128x64 .f32) (c : Dev nD)
    (f : Buf (Elt F) (M.view.loc (c : Thread nD τ))) :
    (chainDn (rowAt M c f) 128 : sProp 𝕄) = (M.view.loc (c : Thread nD τ) ↦[M.view.set]{fullShare} f) := by
  rw [rows_eq M c f, ← bigSep_range_eq_chainDn]
  exact (bigSep_congr fun r hr => rowAt_eq M c f r hr).symm

/-- The buffer's contents after the block `G` is written over `f₀` read as `G`. -/
theorem read_block (M : Memref sig .tc .vmem S128x64 .f32) (c : Dev nD)
    (f₀ : Buf (Elt F) (M.view.loc (c : Thread nD τ))) (G : S128x64.Idx → Elt F .f32) :
    M.view.read (Elt F) (M.view.write (Elt F) f₀ G Finset.univ) = G :=
  View.read_write_univ (v := M.view) (Val := Elt F) f₀ G

/-! ## Lists of resources, and a chain put back in the opposite order -/

theorem sep_comm_eq (P Q : sProp 𝕄) : (iprop(P ∗ Q) : sProp 𝕄) = iprop(Q ∗ P) :=
  BI.equiv_iff.mp ⟨sep_comm, sep_comm⟩

/-- `P₀ ∗ (P₁ ∗ (… ∗ (Pₙ ∗ emp)))`. -/
def sepL : List (sProp 𝕄) → sProp 𝕄
  | [] => BI.emp
  | P :: L => iprop(P ∗ sepL L)

theorem sepL_append : ∀ L L' : List (sProp 𝕄), sepL (L ++ L') = iprop(sepL L ∗ sepL L')
  | [], L' => by rw [List.nil_append]; exact (emp_sep_eq _).symm
  | P :: L, L' => by
    rw [List.cons_append]
    show iprop(P ∗ sepL (L ++ L')) = iprop((P ∗ sepL L) ∗ sepL L')
    rw [sepL_append L L', sep_assoc_eq]

/-- The members in the opposite order are the same resources. -/
theorem sepL_reverse : ∀ L : List (sProp 𝕄), sepL L.reverse = sepL L
  | [] => rfl
  | P :: L => by
    rw [List.reverse_cons, sepL_append, sepL_reverse L]
    show iprop(sepL L ∗ (P ∗ emp)) = iprop(P ∗ sepL L)
    rw [sep_emp_eq, sep_comm_eq]

theorem sep_congr_eq {A A' B B' : sProp 𝕄} (ha : A = A') (hb : B = B') : (iprop(A ∗ B) : sProp 𝕄) = iprop(A' ∗ B') := by
  subst ha; subst hb; rfl
/-! ## The cells, the read tokens and the row pieces, put back highest first, are what the body was handed -/

set_option maxHeartbeats 16000000 in
/-- Every own cell at zero, as three chains each lowest first. -/
theorem cells_asc_eq (c : Dev nD) :
    (semsZero (F := F) c : sProp 𝕄) = iprop((semVal ((c : Thread nD τ), SemLoc.dma 10) 0
      ∗ semVal ((c : Thread nD τ), SemLoc.dma 11) 0
      ∗ semVal ((c : Thread nD τ), SemLoc.dma 12) 0
      ∗ semVal ((c : Thread nD τ), SemLoc.dma 13) 0
      ∗ semVal ((c : Thread nD τ), SemLoc.dma 14) 0
      ∗ semVal ((c : Thread nD τ), SemLoc.dma 15) 0
      ∗ semVal ((c : Thread nD τ), SemLoc.dma 16) 0
      ∗ semVal ((c : Thread nD τ), SemLoc.dma 17) 0
      ∗ semVal ((c : Thread nD τ), SemLoc.dma 18) 0
      ∗ semVal ((c : Thread nD τ), SemLoc.dma 19) 0
      ∗ semVal ((c : Thread nD τ), SemLoc.dma 20) 0
      ∗ semVal ((c : Thread nD τ), SemLoc.dma 21) 0
      ∗ semVal ((c : Thread nD τ), SemLoc.dma 22) 0
      ∗ semVal ((c : Thread nD τ), SemLoc.dma 23) 0
      ∗ semVal ((c : Thread nD τ), SemLoc.dma 24) 0
      ∗ semVal ((c : Thread nD τ), SemLoc.dma 25) 0
      ∗ semVal ((c : Thread nD τ), SemLoc.dma 26) 0
      ∗ semVal ((c : Thread nD τ), SemLoc.dma 27) 0
      ∗ semVal ((c : Thread nD τ), SemLoc.dma 28) 0
      ∗ semVal ((c : Thread nD τ), SemLoc.dma 29) 0
      ∗ semVal ((c : Thread nD τ), SemLoc.dma 30) 0
      ∗ semVal ((c : Thread nD τ), SemLoc.dma 31) 0
      ∗ semVal ((c : Thread nD τ), SemLoc.dma 32) 0
      ∗ semVal ((c : Thread nD τ), SemLoc.dma 33) 0
      ∗ semVal ((c : Thread nD τ), SemLoc.dma 34) 0
      ∗ semVal ((c : Thread nD τ), SemLoc.dma 35) 0
      ∗ semVal ((c : Thread nD τ), SemLoc.dma 36) 0
      ∗ semVal ((c : Thread nD τ), SemLoc.dma 37) 0
      ∗ semVal ((c : Thread nD τ), SemLoc.dma 38) 0
      ∗ semVal ((c : Thread nD τ), SemLoc.dma 39) 0
      ∗ semVal ((c : Thread nD τ), SemLoc.dma 40) 0
      ∗ semVal ((c : Thread nD τ), SemLoc.dma 41) 0
      ∗ semVal ((c : Thread nD τ), SemLoc.dma 42) 0
      ∗ semVal ((c : Thread nD τ), SemLoc.dma 43) 0
      ∗ semVal ((c : Thread nD τ), SemLoc.dma 44) 0
      ∗ semVal ((c : Thread nD τ), SemLoc.dma 45) 0
      ∗ semVal ((c : Thread nD τ), SemLoc.dma 46) 0
      ∗ semVal ((c : Thread nD τ), SemLoc.dma 47) 0
      ∗ semVal ((c : Thread nD τ), SemLoc.dma 48) 0
      ∗ semVal ((c : Thread nD τ), SemLoc.dma 49) 0
      ∗ semVal ((c : Thread nD τ), SemLoc.dma 50) 0
      ∗ semVal ((c : Thread nD τ), SemLoc.dma 51) 0
      ∗ semVal ((c : Thread nD τ), SemLoc.dma 52) 0
      ∗ semVal ((c : Thread nD τ), SemLoc.dma 53) 0
      ∗ semVal ((c : Thread nD τ), SemLoc.dma 54) 0
      ∗ semVal ((c : Thread nD τ), SemLoc.dma 55) 0
      ∗ semVal ((c : Thread nD τ), SemLoc.dma 56) 0
      ∗ semVal ((c : Thread nD τ), SemLoc.dma 57) 0
      ∗ semVal ((c : Thread nD τ), SemLoc.dma 58) 0
      ∗ semVal ((c : Thread nD τ), SemLoc.dma 59) 0
      ∗ semVal ((c : Thread nD τ), SemLoc.dma 60) 0
      ∗ semVal ((c : Thread nD τ), SemLoc.dma 61) 0
      ∗ semVal ((c : Thread nD τ), SemLoc.dma 62) 0
      ∗ semVal ((c : Thread nD τ), SemLoc.dma 63) 0
      ∗ semVal ((c : Thread nD τ), SemLoc.dma 64) 0
      ∗ semVal ((c : Thread nD τ), SemLoc.dma 65) 0
      ∗ semVal ((c : Thread nD τ), SemLoc.dma 66) 0
      ∗ semVal ((c : Thread nD τ), SemLoc.dma 67) 0
      ∗ semVal ((c : Thread nD τ), SemLoc.dma 68) 0
      ∗ semVal ((c : Thread nD τ), SemLoc.dma 69) 0
      ∗ semVal ((c : Thread nD τ), SemLoc.dma 70) 0
      ∗ semVal ((c : Thread nD τ), SemLoc.dma 71) 0
      ∗ semVal ((c : Thread nD τ), SemLoc.dma 72) 0
      ∗ semVal ((c : Thread nD τ), SemLoc.dma 73) 0
      ∗ semVal ((c : Thread nD τ), SemLoc.dma 74) 0
      ∗ semVal ((c : Thread nD τ), SemLoc.dma 75) 0
      ∗ semVal ((c : Thread nD τ), SemLoc.dma 76) 0
      ∗ semVal ((c : Thread nD τ), SemLoc.dma 77) 0
      ∗ semVal ((c : Thread nD τ), SemLoc.dma 78) 0
      ∗ semVal ((c : Thread nD τ), SemLoc.dma 79) 0
      ∗ semVal ((c : Thread nD τ), SemLoc.dma 80) 0
      ∗ semVal ((c : Thread nD τ), SemLoc.dma 81) 0
      ∗ semVal ((c : Thread nD τ), SemLoc.dma 82) 0
      ∗ semVal ((c : Thread nD τ), SemLoc.dma 83) 0
      ∗ semVal ((c : Thread nD τ), SemLoc.dma 84) 0
      ∗ semVal ((c : Thread nD τ), SemLoc.dma 85) 0
      ∗ semVal ((c : Thread nD τ), SemLoc.dma 86) 0
      ∗ semVal ((c : Thread nD τ), SemLoc.dma 87) 0
      ∗ semVal ((c : Thread nD τ), SemLoc.dma 88) 0
      ∗ semVal ((c : Thread nD τ), SemLoc.dma 89) 0
      ∗ semVal ((c : Thread nD τ), SemLoc.dma 90) 0
      ∗ semVal ((c : Thread nD τ), SemLoc.dma 91) 0
      ∗ semVal ((c : Thread nD τ), SemLoc.dma 92) 0
      ∗ semVal ((c : Thread nD τ), SemLoc.dma 93) 0
      ∗ semVal ((c : Thread nD τ), SemLoc.dma 94) 0
      ∗ semVal ((c : Thread nD τ), SemLoc.dma 95) 0
      ∗ semVal ((c : Thread nD τ), SemLoc.dma 96) 0
      ∗ semVal ((c : Thread nD τ), SemLoc.dma 97) 0
      ∗ semVal ((c : Thread nD τ), SemLoc.dma 98) 0
      ∗ semVal ((c : Thread nD τ), SemLoc.dma 99) 0
      ∗ semVal ((c : Thread nD τ), SemLoc.dma 100) 0
      ∗ semVal ((c : Thread nD τ), SemLoc.dma 101) 0
      ∗ semVal ((c : Thread nD τ), SemLoc.dma 102) 0
      ∗ semVal ((c : Thread nD τ), SemLoc.dma 103) 0
      ∗ semVal ((c : Thread nD τ), SemLoc.dma 104) 0
      ∗ semVal ((c : Thread nD τ), SemLoc.dma 105) 0
      ∗ semVal ((c : Thread nD τ), SemLoc.dma 106) 0
      ∗ semVal ((c : Thread nD τ), SemLoc.dma 107) 0
      ∗ semVal ((c : Thread nD τ), SemLoc.dma 108) 0
      ∗ semVal ((c : Thread nD τ), SemLoc.dma 109) 0
      ∗ semVal ((c : Thread nD τ), SemLoc.dma 110) 0
      ∗ semVal ((c : Thread nD τ), SemLoc.dma 111) 0
      ∗ semVal ((c : Thread nD τ), SemLoc.dma 112) 0
      ∗ semVal ((c : Thread nD τ), SemLoc.dma 113) 0
      ∗ semVal ((c : Thread nD τ), SemLoc.dma 114) 0
      ∗ semVal ((c : Thread nD τ), SemLoc.dma 115) 0
      ∗ semVal ((c : Thread nD τ), SemLoc.dma 116) 0
      ∗ semVal ((c : Thread nD τ), SemLoc.dma 117) 0
      ∗ semVal ((c : Thread nD τ), SemLoc.dma 118) 0
      ∗ semVal ((c : Thread nD τ), SemLoc.dma 119) 0
      ∗ semVal ((c : Thread nD τ), SemLoc.dma 120) 0
      ∗ semVal ((c : Thread nD τ), SemLoc.dma 121) 0
      ∗ semVal ((c : Thread nD τ), SemLoc.dma 122) 0
      ∗ semVal ((c : Thread nD τ), SemLoc.dma 123) 0
      ∗ semVal ((c : Thread nD τ), SemLoc.dma 124) 0
      ∗ semVal ((c : Thread nD τ), SemLoc.dma 125) 0
      ∗ semVal ((c : Thread nD τ), SemLoc.dma 126) 0
      ∗ semVal ((c : Thread nD τ), SemLoc.dma 127) 0
      ∗ semVal ((c : Thread nD τ), SemLoc.dma 128) 0
      ∗ semVal ((c : Thread nD τ), SemLoc.dma 129) 0
      ∗ semVal ((c : Thread nD τ), SemLoc.dma 130) 0
      ∗ semVal ((c : Thread nD τ), SemLoc.dma 131) 0
      ∗ semVal ((c : Thread nD τ), SemLoc.dma 132) 0
      ∗ semVal ((c : Thread nD τ), SemLoc.dma 133) 0
      ∗ semVal ((c : Thread nD τ), SemLoc.dma 134) 0
      ∗ semVal ((c : Thread nD τ), SemLoc.dma 135) 0
      ∗ semVal ((c : Thread nD τ), SemLoc.dma 136) 0
      ∗ semVal ((c : Thread nD τ), SemLoc.dma 137) 0
      ∗ emp)
      ∗ (semVal ((c : Thread nD τ), SemLoc.dma 138) 0
      ∗ semVal ((c : Thread nD τ), SemLoc.dma 139) 0
      ∗ semVal ((c : Thread nD τ), SemLoc.dma 140) 0
      ∗ semVal ((c : Thread nD τ), SemLoc.dma 141) 0
      ∗ semVal ((c : Thread nD τ), SemLoc.dma 142) 0
      ∗ semVal ((c : Thread nD τ), SemLoc.dma 143) 0
      ∗ semVal ((c : Thread nD τ), SemLoc.dma 144) 0
      ∗ semVal ((c : Thread nD τ), SemLoc.dma 145) 0
      ∗ semVal ((c : Thread nD τ), SemLoc.dma 146) 0
      ∗ semVal ((c : Thread nD τ), SemLoc.dma 147) 0
      ∗ semVal ((c : Thread nD τ), SemLoc.dma 148) 0
      ∗ semVal ((c : Thread nD τ), SemLoc.dma 149) 0
      ∗ semVal ((c : Thread nD τ), SemLoc.dma 150) 0
      ∗ semVal ((c : Thread nD τ), SemLoc.dma 151) 0
      ∗ semVal ((c : Thread nD τ), SemLoc.dma 152) 0
      ∗ semVal ((c : Thread nD τ), SemLoc.dma 153) 0
      ∗ semVal ((c : Thread nD τ), SemLoc.dma 154) 0
      ∗ semVal ((c : Thread nD τ), SemLoc.dma 155) 0
      ∗ semVal ((c : Thread nD τ), SemLoc.dma 156) 0
      ∗ semVal ((c : Thread nD τ), SemLoc.dma 157) 0
      ∗ semVal ((c : Thread nD τ), SemLoc.dma 158) 0
      ∗ semVal ((c : Thread nD τ), SemLoc.dma 159) 0
      ∗ semVal ((c : Thread nD τ), SemLoc.dma 160) 0
      ∗ semVal ((c : Thread nD τ), SemLoc.dma 161) 0
      ∗ semVal ((c : Thread nD τ), SemLoc.dma 162) 0
      ∗ semVal ((c : Thread nD τ), SemLoc.dma 163) 0
      ∗ semVal ((c : Thread nD τ), SemLoc.dma 164) 0
      ∗ semVal ((c : Thread nD τ), SemLoc.dma 165) 0
      ∗ semVal ((c : Thread nD τ), SemLoc.dma 166) 0
      ∗ semVal ((c : Thread nD τ), SemLoc.dma 167) 0
      ∗ semVal ((c : Thread nD τ), SemLoc.dma 168) 0
      ∗ semVal ((c : Thread nD τ), SemLoc.dma 169) 0
      ∗ semVal ((c : Thread nD τ), SemLoc.dma 170) 0
      ∗ semVal ((c : Thread nD τ), SemLoc.dma 171) 0
      ∗ semVal ((c : Thread nD τ), SemLoc.dma 172) 0
      ∗ semVal ((c : Thread nD τ), SemLoc.dma 173) 0
      ∗ semVal ((c : Thread nD τ), SemLoc.dma 174) 0
      ∗ semVal ((c : Thread nD τ), SemLoc.dma 175) 0
      ∗ semVal ((c : Thread nD τ), SemLoc.dma 176) 0
      ∗ semVal ((c : Thread nD τ), SemLoc.dma 177) 0
      ∗ semVal ((c : Thread nD τ), SemLoc.dma 178) 0
      ∗ semVal ((c : Thread nD τ), SemLoc.dma 179) 0
      ∗ semVal ((c : Thread nD τ), SemLoc.dma 180) 0
      ∗ semVal ((c : Thread nD τ), SemLoc.dma 181) 0
      ∗ semVal ((c : Thread nD τ), SemLoc.dma 182) 0
      ∗ semVal ((c : Thread nD τ), SemLoc.dma 183) 0
      ∗ semVal ((c : Thread nD τ), SemLoc.dma 184) 0
      ∗ semVal ((c : Thread nD τ), SemLoc.dma 185) 0
      ∗ semVal ((c : Thread nD τ), SemLoc.dma 186) 0
      ∗ semVal ((c : Thread nD τ), SemLoc.dma 187) 0
      ∗ semVal ((c : Thread nD τ), SemLoc.dma 188) 0
      ∗ semVal ((c : Thread nD τ), SemLoc.dma 189) 0
      ∗ semVal ((c : Thread nD τ), SemLoc.dma 190) 0
      ∗ semVal ((c : Thread nD τ), SemLoc.dma 191) 0
      ∗ semVal ((c : Thread nD τ), SemLoc.dma 192) 0
      ∗ semVal ((c : Thread nD τ), SemLoc.dma 193) 0
      ∗ semVal ((c : Thread nD τ), SemLoc.dma 194) 0
      ∗ semVal ((c : Thread nD τ), SemLoc.dma 195) 0
      ∗ semVal ((c : Thread nD τ), SemLoc.dma 196) 0
      ∗ semVal ((c : Thread nD τ), SemLoc.dma 197) 0
      ∗ semVal ((c : Thread nD τ), SemLoc.dma 198) 0
      ∗ semVal ((c : Thread nD τ), SemLoc.dma 199) 0
      ∗ semVal ((c : Thread nD τ), SemLoc.dma 200) 0
      ∗ semVal ((c : Thread nD τ), SemLoc.dma 201) 0
      ∗ semVal ((c : Thread nD τ), SemLoc.dma 202) 0
      ∗ semVal ((c : Thread nD τ), SemLoc.dma 203) 0
      ∗ semVal ((c : Thread nD τ), SemLoc.dma 204) 0
      ∗ semVal ((c : Thread nD τ), SemLoc.dma 205) 0
      ∗ semVal ((c : Thread nD τ), SemLoc.dma 206) 0
      ∗ semVal ((c : Thread nD τ), SemLoc.dma 207) 0
      ∗ semVal ((c : Thread nD τ), SemLoc.dma 208) 0
      ∗ semVal ((c : Thread nD τ), SemLoc.dma 209) 0
      ∗ semVal ((c : Thread nD τ), SemLoc.dma 210) 0
      ∗ semVal ((c : Thread nD τ), SemLoc.dma 211) 0
      ∗ semVal ((c : Thread nD τ), SemLoc.dma 212) 0
      ∗ semVal ((c : Thread nD τ), SemLoc.dma 213) 0
      ∗ semVal ((c : Thread nD τ), SemLoc.dma 214) 0
      ∗ semVal ((c : Thread nD τ), SemLoc.dma 215) 0
      ∗ semVal ((c : Thread nD τ), SemLoc.dma 216) 0
      ∗ semVal ((c : Thread nD τ), SemLoc.dma 217) 0
      ∗ semVal ((c : Thread nD τ), SemLoc.dma 218) 0
      ∗ semVal ((c : Thread nD τ), SemLoc.dma 219) 0
      ∗ semVal ((c : Thread nD τ), SemLoc.dma 220) 0
      ∗ semVal ((c : Thread nD τ), SemLoc.dma 221) 0
      ∗ semVal ((c : Thread nD τ), SemLoc.dma 222) 0
      ∗ semVal ((c : Thread nD τ), SemLoc.dma 223) 0
      ∗ semVal ((c : Thread nD τ), SemLoc.dma 224) 0
      ∗ semVal ((c : Thread nD τ), SemLoc.dma 225) 0
      ∗ semVal ((c : Thread nD τ), SemLoc.dma 226) 0
      ∗ semVal ((c : Thread nD τ), SemLoc.dma 227) 0
      ∗ semVal ((c : Thread nD τ), SemLoc.dma 228) 0
      ∗ semVal ((c : Thread nD τ), SemLoc.dma 229) 0
      ∗ semVal ((c : Thread nD τ), SemLoc.dma 230) 0
      ∗ semVal ((c : Thread nD τ), SemLoc.dma 231) 0
      ∗ semVal ((c : Thread nD τ), SemLoc.dma 232) 0
      ∗ semVal ((c : Thread nD τ), SemLoc.dma 233) 0
      ∗ semVal ((c : Thread nD τ), SemLoc.dma 234) 0
      ∗ semVal ((c : Thread nD τ), SemLoc.dma 235) 0
      ∗ semVal ((c : Thread nD τ), SemLoc.dma 236) 0
      ∗ semVal ((c : Thread nD τ), SemLoc.dma 237) 0
      ∗ semVal ((c : Thread nD τ), SemLoc.dma 238) 0
      ∗ semVal ((c : Thread nD τ), SemLoc.dma 239) 0
      ∗ semVal ((c : Thread nD τ), SemLoc.dma 240) 0
      ∗ semVal ((c : Thread nD τ), SemLoc.dma 241) 0
      ∗ semVal ((c : Thread nD τ), SemLoc.dma 242) 0
      ∗ semVal ((c : Thread nD τ), SemLoc.dma 243) 0
      ∗ semVal ((c : Thread nD τ), SemLoc.dma 244) 0
      ∗ semVal ((c : Thread nD τ), SemLoc.dma 245) 0
      ∗ semVal ((c : Thread nD τ), SemLoc.dma 246) 0
      ∗ semVal ((c : Thread nD τ), SemLoc.dma 247) 0
      ∗ semVal ((c : Thread nD τ), SemLoc.dma 248) 0
      ∗ semVal ((c : Thread nD τ), SemLoc.dma 249) 0
      ∗ semVal ((c : Thread nD τ), SemLoc.dma 250) 0
      ∗ semVal ((c : Thread nD τ), SemLoc.dma 251) 0
      ∗ semVal ((c : Thread nD τ), SemLoc.dma 252) 0
      ∗ semVal ((c : Thread nD τ), SemLoc.dma 253) 0
      ∗ semVal ((c : Thread nD τ), SemLoc.dma 254) 0
      ∗ semVal ((c : Thread nD τ), SemLoc.dma 255) 0
      ∗ semVal ((c : Thread nD τ), SemLoc.dma 256) 0
      ∗ semVal ((c : Thread nD τ), SemLoc.dma 257) 0
      ∗ semVal ((c : Thread nD τ), SemLoc.dma 258) 0
      ∗ semVal ((c : Thread nD τ), SemLoc.dma 259) 0
      ∗ semVal ((c : Thread nD τ), SemLoc.dma 260) 0
      ∗ semVal ((c : Thread nD τ), SemLoc.dma 261) 0
      ∗ semVal ((c : Thread nD τ), SemLoc.dma 262) 0
      ∗ semVal ((c : Thread nD τ), SemLoc.dma 263) 0
      ∗ semVal ((c : Thread nD τ), SemLoc.dma 264) 0
      ∗ semVal ((c : Thread nD τ), SemLoc.dma 265) 0
      ∗ emp)
      ∗ (semVal ((c : Thread nD τ), SemLoc.dma 266) 0
      ∗ semVal ((c : Thread nD τ), SemLoc.dma 267) 0
      ∗ semVal ((c : Thread nD τ), SemLoc.dma 268) 0
      ∗ semVal ((c : Thread nD τ), SemLoc.dma 269) 0
      ∗ semVal ((c : Thread nD τ), SemLoc.dma 270) 0
      ∗ semVal ((c : Thread nD τ), SemLoc.dma 271) 0
      ∗ semVal ((c : Thread nD τ), SemLoc.dma 272) 0
      ∗ semVal ((c : Thread nD τ), SemLoc.dma 273) 0
      ∗ semVal ((c : Thread nD τ), SemLoc.dma 274) 0
      ∗ semVal ((c : Thread nD τ), SemLoc.dma 275) 0
      ∗ semVal ((c : Thread nD τ), SemLoc.dma 276) 0
      ∗ semVal ((c : Thread nD τ), SemLoc.dma 277) 0
      ∗ semVal ((c : Thread nD τ), SemLoc.dma 278) 0
      ∗ semVal ((c : Thread nD τ), SemLoc.dma 279) 0
      ∗ semVal ((c : Thread nD τ), SemLoc.dma 280) 0
      ∗ semVal ((c : Thread nD τ), SemLoc.dma 281) 0
      ∗ semVal ((c : Thread nD τ), SemLoc.dma 282) 0
      ∗ semVal ((c : Thread nD τ), SemLoc.dma 283) 0
      ∗ semVal ((c : Thread nD τ), SemLoc.dma 284) 0
      ∗ semVal ((c : Thread nD τ), SemLoc.dma 285) 0
      ∗ semVal ((c : Thread nD τ), SemLoc.dma 286) 0
      ∗ semVal ((c : Thread nD τ), SemLoc.dma 287) 0
      ∗ semVal ((c : Thread nD τ), SemLoc.dma 288) 0
      ∗ semVal ((c : Thread nD τ), SemLoc.dma 289) 0
      ∗ semVal ((c : Thread nD τ), SemLoc.dma 290) 0
      ∗ semVal ((c : Thread nD τ), SemLoc.dma 291) 0
      ∗ semVal ((c : Thread nD τ), SemLoc.dma 292) 0
      ∗ semVal ((c : Thread nD τ), SemLoc.dma 293) 0
      ∗ semVal ((c : Thread nD τ), SemLoc.dma 294) 0
      ∗ semVal ((c : Thread nD τ), SemLoc.dma 295) 0
      ∗ semVal ((c : Thread nD τ), SemLoc.dma 296) 0
      ∗ semVal ((c : Thread nD τ), SemLoc.dma 297) 0
      ∗ semVal ((c : Thread nD τ), SemLoc.dma 298) 0
      ∗ semVal ((c : Thread nD τ), SemLoc.dma 299) 0
      ∗ semVal ((c : Thread nD τ), SemLoc.dma 300) 0
      ∗ semVal ((c : Thread nD τ), SemLoc.dma 301) 0
      ∗ semVal ((c : Thread nD τ), SemLoc.dma 302) 0
      ∗ semVal ((c : Thread nD τ), SemLoc.dma 303) 0
      ∗ semVal ((c : Thread nD τ), SemLoc.dma 304) 0
      ∗ semVal ((c : Thread nD τ), SemLoc.dma 305) 0
      ∗ semVal ((c : Thread nD τ), SemLoc.dma 306) 0
      ∗ semVal ((c : Thread nD τ), SemLoc.dma 307) 0
      ∗ semVal ((c : Thread nD τ), SemLoc.dma 308) 0
      ∗ semVal ((c : Thread nD τ), SemLoc.dma 309) 0
      ∗ semVal ((c : Thread nD τ), SemLoc.dma 310) 0
      ∗ semVal ((c : Thread nD τ), SemLoc.dma 311) 0
      ∗ semVal ((c : Thread nD τ), SemLoc.dma 312) 0
      ∗ semVal ((c : Thread nD τ), SemLoc.dma 313) 0
      ∗ semVal ((c : Thread nD τ), SemLoc.dma 314) 0
      ∗ semVal ((c : Thread nD τ), SemLoc.dma 315) 0
      ∗ semVal ((c : Thread nD τ), SemLoc.dma 316) 0
      ∗ semVal ((c : Thread nD τ), SemLoc.dma 317) 0
      ∗ semVal ((c : Thread nD τ), SemLoc.dma 318) 0
      ∗ semVal ((c : Thread nD τ), SemLoc.dma 319) 0
      ∗ semVal ((c : Thread nD τ), SemLoc.dma 320) 0
      ∗ semVal ((c : Thread nD τ), SemLoc.dma 321) 0
      ∗ semVal ((c : Thread nD τ), SemLoc.dma 322) 0
      ∗ semVal ((c : Thread nD τ), SemLoc.dma 323) 0
      ∗ semVal ((c : Thread nD τ), SemLoc.dma 324) 0
      ∗ semVal ((c : Thread nD τ), SemLoc.dma 325) 0
      ∗ semVal ((c : Thread nD τ), SemLoc.dma 326) 0
      ∗ semVal ((c : Thread nD τ), SemLoc.dma 327) 0
      ∗ semVal ((c : Thread nD τ), SemLoc.dma 328) 0
      ∗ semVal ((c : Thread nD τ), SemLoc.dma 329) 0
      ∗ semVal ((c : Thread nD τ), SemLoc.dma 330) 0
      ∗ semVal ((c : Thread nD τ), SemLoc.dma 331) 0
      ∗ semVal ((c : Thread nD τ), SemLoc.dma 332) 0
      ∗ semVal ((c : Thread nD τ), SemLoc.dma 333) 0
      ∗ semVal ((c : Thread nD τ), SemLoc.dma 334) 0
      ∗ semVal ((c : Thread nD τ), SemLoc.dma 335) 0
      ∗ semVal ((c : Thread nD τ), SemLoc.dma 336) 0
      ∗ semVal ((c : Thread nD τ), SemLoc.dma 337) 0
      ∗ semVal ((c : Thread nD τ), SemLoc.dma 338) 0
      ∗ semVal ((c : Thread nD τ), SemLoc.dma 339) 0
      ∗ semVal ((c : Thread nD τ), SemLoc.dma 340) 0
      ∗ semVal ((c : Thread nD τ), SemLoc.dma 341) 0
      ∗ semVal ((c : Thread nD τ), SemLoc.dma 342) 0
      ∗ semVal ((c : Thread nD τ), SemLoc.dma 343) 0
      ∗ semVal ((c : Thread nD τ), SemLoc.dma 344) 0
      ∗ semVal ((c : Thread nD τ), SemLoc.dma 345) 0
      ∗ semVal ((c : Thread nD τ), SemLoc.dma 346) 0
      ∗ semVal ((c : Thread nD τ), SemLoc.dma 347) 0
      ∗ semVal ((c : Thread nD τ), SemLoc.dma 348) 0
      ∗ semVal ((c : Thread nD τ), SemLoc.dma 349) 0
      ∗ semVal ((c : Thread nD τ), SemLoc.dma 350) 0
      ∗ semVal ((c : Thread nD τ), SemLoc.dma 351) 0
      ∗ semVal ((c : Thread nD τ), SemLoc.dma 352) 0
      ∗ semVal ((c : Thread nD τ), SemLoc.dma 353) 0
      ∗ semVal ((c : Thread nD τ), SemLoc.dma 354) 0
      ∗ semVal ((c : Thread nD τ), SemLoc.dma 355) 0
      ∗ semVal ((c : Thread nD τ), SemLoc.dma 356) 0
      ∗ semVal ((c : Thread nD τ), SemLoc.dma 357) 0
      ∗ semVal ((c : Thread nD τ), SemLoc.dma 358) 0
      ∗ semVal ((c : Thread nD τ), SemLoc.dma 359) 0
      ∗ semVal ((c : Thread nD τ), SemLoc.dma 360) 0
      ∗ semVal ((c : Thread nD τ), SemLoc.dma 361) 0
      ∗ semVal ((c : Thread nD τ), SemLoc.dma 362) 0
      ∗ semVal ((c : Thread nD τ), SemLoc.dma 363) 0
      ∗ semVal ((c : Thread nD τ), SemLoc.dma 364) 0
      ∗ semVal ((c : Thread nD τ), SemLoc.dma 365) 0
      ∗ semVal ((c : Thread nD τ), SemLoc.dma 366) 0
      ∗ semVal ((c : Thread nD τ), SemLoc.dma 367) 0
      ∗ semVal ((c : Thread nD τ), SemLoc.dma 368) 0
      ∗ semVal ((c : Thread nD τ), SemLoc.dma 369) 0
      ∗ semVal ((c : Thread nD τ), SemLoc.dma 370) 0
      ∗ semVal ((c : Thread nD τ), SemLoc.dma 371) 0
      ∗ semVal ((c : Thread nD τ), SemLoc.dma 372) 0
      ∗ semVal ((c : Thread nD τ), SemLoc.dma 373) 0
      ∗ semVal ((c : Thread nD τ), SemLoc.dma 374) 0
      ∗ semVal ((c : Thread nD τ), SemLoc.dma 375) 0
      ∗ semVal ((c : Thread nD τ), SemLoc.dma 376) 0
      ∗ semVal ((c : Thread nD τ), SemLoc.dma 377) 0
      ∗ semVal ((c : Thread nD τ), SemLoc.dma 378) 0
      ∗ semVal ((c : Thread nD τ), SemLoc.dma 379) 0
      ∗ semVal ((c : Thread nD τ), SemLoc.dma 380) 0
      ∗ semVal ((c : Thread nD τ), SemLoc.dma 381) 0
      ∗ semVal ((c : Thread nD τ), SemLoc.dma 382) 0
      ∗ semVal ((c : Thread nD τ), SemLoc.dma 383) 0
      ∗ semVal ((c : Thread nD τ), SemLoc.dma 384) 0
      ∗ semVal ((c : Thread nD τ), SemLoc.dma 385) 0
      ∗ semVal ((c : Thread nD τ), SemLoc.dma 386) 0
      ∗ semVal ((c : Thread nD τ), SemLoc.dma 387) 0
      ∗ semVal ((c : Thread nD τ), SemLoc.dma 388) 0
      ∗ semVal ((c : Thread nD τ), SemLoc.dma 389) 0
      ∗ semVal ((c : Thread nD τ), SemLoc.dma 390) 0
      ∗ semVal ((c : Thread nD τ), SemLoc.dma 391) 0
      ∗ semVal ((c : Thread nD τ), SemLoc.dma 392) 0
      ∗ semVal ((c : Thread nD τ), SemLoc.dma 393) 0
      ∗ emp)) := by
  unfold semsZero
  simp only [sep_assoc_eq, sep_emp_eq, emp_sep_eq]

set_option maxHeartbeats 16000000 in
/-- The 384 cells at zero, in three chains each highest first, are every own cell at zero. -/
theorem cells_down (c : Dev nD) :
    (iprop((semVal ((c : Thread nD τ), SemLoc.dma 137) 0
      ∗ semVal ((c : Thread nD τ), SemLoc.dma 136) 0
      ∗ semVal ((c : Thread nD τ), SemLoc.dma 135) 0
      ∗ semVal ((c : Thread nD τ), SemLoc.dma 134) 0
      ∗ semVal ((c : Thread nD τ), SemLoc.dma 133) 0
      ∗ semVal ((c : Thread nD τ), SemLoc.dma 132) 0
      ∗ semVal ((c : Thread nD τ), SemLoc.dma 131) 0
      ∗ semVal ((c : Thread nD τ), SemLoc.dma 130) 0
      ∗ semVal ((c : Thread nD τ), SemLoc.dma 129) 0
      ∗ semVal ((c : Thread nD τ), SemLoc.dma 128) 0
      ∗ semVal ((c : Thread nD τ), SemLoc.dma 127) 0
      ∗ semVal ((c : Thread nD τ), SemLoc.dma 126) 0
      ∗ semVal ((c : Thread nD τ), SemLoc.dma 125) 0
      ∗ semVal ((c : Thread nD τ), SemLoc.dma 124) 0
      ∗ semVal ((c : Thread nD τ), SemLoc.dma 123) 0
      ∗ semVal ((c : Thread nD τ), SemLoc.dma 122) 0
      ∗ semVal ((c : Thread nD τ), SemLoc.dma 121) 0
      ∗ semVal ((c : Thread nD τ), SemLoc.dma 120) 0
      ∗ semVal ((c : Thread nD τ), SemLoc.dma 119) 0
      ∗ semVal ((c : Thread nD τ), SemLoc.dma 118) 0
      ∗ semVal ((c : Thread nD τ), SemLoc.dma 117) 0
      ∗ semVal ((c : Thread nD τ), SemLoc.dma 116) 0
      ∗ semVal ((c : Thread nD τ), SemLoc.dma 115) 0
      ∗ semVal ((c : Thread nD τ), SemLoc.dma 114) 0
      ∗ semVal ((c : Thread nD τ), SemLoc.dma 113) 0
      ∗ semVal ((c : Thread nD τ), SemLoc.dma 112) 0
      ∗ semVal ((c : Thread nD τ), SemLoc.dma 111) 0
      ∗ semVal ((c : Thread nD τ), SemLoc.dma 110) 0
      ∗ semVal ((c : Thread nD τ), SemLoc.dma 109) 0
      ∗ semVal ((c : Thread nD τ), SemLoc.dma 108) 0
      ∗ semVal ((c : Thread nD τ), SemLoc.dma 107) 0
      ∗ semVal ((c : Thread nD τ), SemLoc.dma 106) 0
      ∗ semVal ((c : Thread nD τ), SemLoc.dma 105) 0
      ∗ semVal ((c : Thread nD τ), SemLoc.dma 104) 0
      ∗ semVal ((c : Thread nD τ), SemLoc.dma 103) 0
      ∗ semVal ((c : Thread nD τ), SemLoc.dma 102) 0
      ∗ semVal ((c : Thread nD τ), SemLoc.dma 101) 0
      ∗ semVal ((c : Thread nD τ), SemLoc.dma 100) 0
      ∗ semVal ((c : Thread nD τ), SemLoc.dma 99) 0
      ∗ semVal ((c : Thread nD τ), SemLoc.dma 98) 0
      ∗ semVal ((c : Thread nD τ), SemLoc.dma 97) 0
      ∗ semVal ((c : Thread nD τ), SemLoc.dma 96) 0
      ∗ semVal ((c : Thread nD τ), SemLoc.dma 95) 0
      ∗ semVal ((c : Thread nD τ), SemLoc.dma 94) 0
      ∗ semVal ((c : Thread nD τ), SemLoc.dma 93) 0
      ∗ semVal ((c : Thread nD τ), SemLoc.dma 92) 0
      ∗ semVal ((c : Thread nD τ), SemLoc.dma 91) 0
      ∗ semVal ((c : Thread nD τ), SemLoc.dma 90) 0
      ∗ semVal ((c : Thread nD τ), SemLoc.dma 89) 0
      ∗ semVal ((c : Thread nD τ), SemLoc.dma 88) 0
      ∗ semVal ((c : Thread nD τ), SemLoc.dma 87) 0
      ∗ semVal ((c : Thread nD τ), SemLoc.dma 86) 0
      ∗ semVal ((c : Thread nD τ), SemLoc.dma 85) 0
      ∗ semVal ((c : Thread nD τ), SemLoc.dma 84) 0
      ∗ semVal ((c : Thread nD τ), SemLoc.dma 83) 0
      ∗ semVal ((c : Thread nD τ), SemLoc.dma 82) 0
      ∗ semVal ((c : Thread nD τ), SemLoc.dma 81) 0
      ∗ semVal ((c : Thread nD τ), SemLoc.dma 80) 0
      ∗ semVal ((c : Thread nD τ), SemLoc.dma 79) 0
      ∗ semVal ((c : Thread nD τ), SemLoc.dma 78) 0
      ∗ semVal ((c : Thread nD τ), SemLoc.dma 77) 0
      ∗ semVal ((c : Thread nD τ), SemLoc.dma 76) 0
      ∗ semVal ((c : Thread nD τ), SemLoc.dma 75) 0
      ∗ semVal ((c : Thread nD τ), SemLoc.dma 74) 0
      ∗ semVal ((c : Thread nD τ), SemLoc.dma 73) 0
      ∗ semVal ((c : Thread nD τ), SemLoc.dma 72) 0
      ∗ semVal ((c : Thread nD τ), SemLoc.dma 71) 0
      ∗ semVal ((c : Thread nD τ), SemLoc.dma 70) 0
      ∗ semVal ((c : Thread nD τ), SemLoc.dma 69) 0
      ∗ semVal ((c : Thread nD τ), SemLoc.dma 68) 0
      ∗ semVal ((c : Thread nD τ), SemLoc.dma 67) 0
      ∗ semVal ((c : Thread nD τ), SemLoc.dma 66) 0
      ∗ semVal ((c : Thread nD τ), SemLoc.dma 65) 0
      ∗ semVal ((c : Thread nD τ), SemLoc.dma 64) 0
      ∗ semVal ((c : Thread nD τ), SemLoc.dma 63) 0
      ∗ semVal ((c : Thread nD τ), SemLoc.dma 62) 0
      ∗ semVal ((c : Thread nD τ), SemLoc.dma 61) 0
      ∗ semVal ((c : Thread nD τ), SemLoc.dma 60) 0
      ∗ semVal ((c : Thread nD τ), SemLoc.dma 59) 0
      ∗ semVal ((c : Thread nD τ), SemLoc.dma 58) 0
      ∗ semVal ((c : Thread nD τ), SemLoc.dma 57) 0
      ∗ semVal ((c : Thread nD τ), SemLoc.dma 56) 0
      ∗ semVal ((c : Thread nD τ), SemLoc.dma 55) 0
      ∗ semVal ((c : Thread nD τ), SemLoc.dma 54) 0
      ∗ semVal ((c : Thread nD τ), SemLoc.dma 53) 0
      ∗ semVal ((c : Thread nD τ), SemLoc.dma 52) 0
      ∗ semVal ((c : Thread nD τ), SemLoc.dma 51) 0
      ∗ semVal ((c : Thread nD τ), SemLoc.dma 50) 0
      ∗ semVal ((c : Thread nD τ), SemLoc.dma 49) 0
      ∗ semVal ((c : Thread nD τ), SemLoc.dma 48) 0
      ∗ semVal ((c : Thread nD τ), SemLoc.dma 47) 0
      ∗ semVal ((c : Thread nD τ), SemLoc.dma 46) 0
      ∗ semVal ((c : Thread nD τ), SemLoc.dma 45) 0
      ∗ semVal ((c : Thread nD τ), SemLoc.dma 44) 0
      ∗ semVal ((c : Thread nD τ), SemLoc.dma 43) 0
      ∗ semVal ((c : Thread nD τ), SemLoc.dma 42) 0
      ∗ semVal ((c : Thread nD τ), SemLoc.dma 41) 0
      ∗ semVal ((c : Thread nD τ), SemLoc.dma 40) 0
      ∗ semVal ((c : Thread nD τ), SemLoc.dma 39) 0
      ∗ semVal ((c : Thread nD τ), SemLoc.dma 38) 0
      ∗ semVal ((c : Thread nD τ), SemLoc.dma 37) 0
      ∗ semVal ((c : Thread nD τ), SemLoc.dma 36) 0
      ∗ semVal ((c : Thread nD τ), SemLoc.dma 35) 0
      ∗ semVal ((c : Thread nD τ), SemLoc.dma 34) 0
      ∗ semVal ((c : Thread nD τ), SemLoc.dma 33) 0
      ∗ semVal ((c : Thread nD τ), SemLoc.dma 32) 0
      ∗ semVal ((c : Thread nD τ), SemLoc.dma 31) 0
      ∗ semVal ((c : Thread nD τ), SemLoc.dma 30) 0
      ∗ semVal ((c : Thread nD τ), SemLoc.dma 29) 0
      ∗ semVal ((c : Thread nD τ), SemLoc.dma 28) 0
      ∗ semVal ((c : Thread nD τ), SemLoc.dma 27) 0
      ∗ semVal ((c : Thread nD τ), SemLoc.dma 26) 0
      ∗ semVal ((c : Thread nD τ), SemLoc.dma 25) 0
      ∗ semVal ((c : Thread nD τ), SemLoc.dma 24) 0
      ∗ semVal ((c : Thread nD τ), SemLoc.dma 23) 0
      ∗ semVal ((c : Thread nD τ), SemLoc.dma 22) 0
      ∗ semVal ((c : Thread nD τ), SemLoc.dma 21) 0
      ∗ semVal ((c : Thread nD τ), SemLoc.dma 20) 0
      ∗ semVal ((c : Thread nD τ), SemLoc.dma 19) 0
      ∗ semVal ((c : Thread nD τ), SemLoc.dma 18) 0
      ∗ semVal ((c : Thread nD τ), SemLoc.dma 17) 0
      ∗ semVal ((c : Thread nD τ), SemLoc.dma 16) 0
      ∗ semVal ((c : Thread nD τ), SemLoc.dma 15) 0
      ∗ semVal ((c : Thread nD τ), SemLoc.dma 14) 0
      ∗ semVal ((c : Thread nD τ), SemLoc.dma 13) 0
      ∗ semVal ((c : Thread nD τ), SemLoc.dma 12) 0
      ∗ semVal ((c : Thread nD τ), SemLoc.dma 11) 0
      ∗ semVal ((c : Thread nD τ), SemLoc.dma 10) 0
      ∗ emp)
      ∗ (semVal ((c : Thread nD τ), SemLoc.dma 265) 0
      ∗ semVal ((c : Thread nD τ), SemLoc.dma 264) 0
      ∗ semVal ((c : Thread nD τ), SemLoc.dma 263) 0
      ∗ semVal ((c : Thread nD τ), SemLoc.dma 262) 0
      ∗ semVal ((c : Thread nD τ), SemLoc.dma 261) 0
      ∗ semVal ((c : Thread nD τ), SemLoc.dma 260) 0
      ∗ semVal ((c : Thread nD τ), SemLoc.dma 259) 0
      ∗ semVal ((c : Thread nD τ), SemLoc.dma 258) 0
      ∗ semVal ((c : Thread nD τ), SemLoc.dma 257) 0
      ∗ semVal ((c : Thread nD τ), SemLoc.dma 256) 0
      ∗ semVal ((c : Thread nD τ), SemLoc.dma 255) 0
      ∗ semVal ((c : Thread nD τ), SemLoc.dma 254) 0
      ∗ semVal ((c : Thread nD τ), SemLoc.dma 253) 0
      ∗ semVal ((c : Thread nD τ), SemLoc.dma 252) 0
      ∗ semVal ((c : Thread nD τ), SemLoc.dma 251) 0
      ∗ semVal ((c : Thread nD τ), SemLoc.dma 250) 0
      ∗ semVal ((c : Thread nD τ), SemLoc.dma 249) 0
      ∗ semVal ((c : Thread nD τ), SemLoc.dma 248) 0
      ∗ semVal ((c : Thread nD τ), SemLoc.dma 247) 0
      ∗ semVal ((c : Thread nD τ), SemLoc.dma 246) 0
      ∗ semVal ((c : Thread nD τ), SemLoc.dma 245) 0
      ∗ semVal ((c : Thread nD τ), SemLoc.dma 244) 0
      ∗ semVal ((c : Thread nD τ), SemLoc.dma 243) 0
      ∗ semVal ((c : Thread nD τ), SemLoc.dma 242) 0
      ∗ semVal ((c : Thread nD τ), SemLoc.dma 241) 0
      ∗ semVal ((c : Thread nD τ), SemLoc.dma 240) 0
      ∗ semVal ((c : Thread nD τ), SemLoc.dma 239) 0
      ∗ semVal ((c : Thread nD τ), SemLoc.dma 238) 0
      ∗ semVal ((c : Thread nD τ), SemLoc.dma 237) 0
      ∗ semVal ((c : Thread nD τ), SemLoc.dma 236) 0
      ∗ semVal ((c : Thread nD τ), SemLoc.dma 235) 0
      ∗ semVal ((c : Thread nD τ), SemLoc.dma 234) 0
      ∗ semVal ((c : Thread nD τ), SemLoc.dma 233) 0
      ∗ semVal ((c : Thread nD τ), SemLoc.dma 232) 0
      ∗ semVal ((c : Thread nD τ), SemLoc.dma 231) 0
      ∗ semVal ((c : Thread nD τ), SemLoc.dma 230) 0
      ∗ semVal ((c : Thread nD τ), SemLoc.dma 229) 0
      ∗ semVal ((c : Thread nD τ), SemLoc.dma 228) 0
      ∗ semVal ((c : Thread nD τ), SemLoc.dma 227) 0
      ∗ semVal ((c : Thread nD τ), SemLoc.dma 226) 0
      ∗ semVal ((c : Thread nD τ), SemLoc.dma 225) 0
      ∗ semVal ((c : Thread nD τ), SemLoc.dma 224) 0
      ∗ semVal ((c : Thread nD τ), SemLoc.dma 223) 0
      ∗ semVal ((c : Thread nD τ), SemLoc.dma 222) 0
      ∗ semVal ((c : Thread nD τ), SemLoc.dma 221) 0
      ∗ semVal ((c : Thread nD τ), SemLoc.dma 220) 0
      ∗ semVal ((c : Thread nD τ), SemLoc.dma 219) 0
      ∗ semVal ((c : Thread nD τ), SemLoc.dma 218) 0
      ∗ semVal ((c : Thread nD τ), SemLoc.dma 217) 0
      ∗ semVal ((c : Thread nD τ), SemLoc.dma 216) 0
      ∗ semVal ((c : Thread nD τ), SemLoc.dma 215) 0
      ∗ semVal ((c : Thread nD τ), SemLoc.dma 214) 0
      ∗ semVal ((c : Thread nD τ), SemLoc.dma 213) 0
      ∗ semVal ((c : Thread nD τ), SemLoc.dma 212) 0
      ∗ semVal ((c : Thread nD τ), SemLoc.dma 211) 0
      ∗ semVal ((c : Thread nD τ), SemLoc.dma 210) 0
      ∗ semVal ((c : Thread nD τ), SemLoc.dma 209) 0
      ∗ semVal ((c : Thread nD τ), SemLoc.dma 208) 0
      ∗ semVal ((c : Thread nD τ), SemLoc.dma 207) 0
      ∗ semVal ((c : Thread nD τ), SemLoc.dma 206) 0
      ∗ semVal ((c : Thread nD τ), SemLoc.dma 205) 0
      ∗ semVal ((c : Thread nD τ), SemLoc.dma 204) 0
      ∗ semVal ((c : Thread nD τ), SemLoc.dma 203) 0
      ∗ semVal ((c : Thread nD τ), SemLoc.dma 202) 0
      ∗ semVal ((c : Thread nD τ), SemLoc.dma 201) 0
      ∗ semVal ((c : Thread nD τ), SemLoc.dma 200) 0
      ∗ semVal ((c : Thread nD τ), SemLoc.dma 199) 0
      ∗ semVal ((c : Thread nD τ), SemLoc.dma 198) 0
      ∗ semVal ((c : Thread nD τ), SemLoc.dma 197) 0
      ∗ semVal ((c : Thread nD τ), SemLoc.dma 196) 0
      ∗ semVal ((c : Thread nD τ), SemLoc.dma 195) 0
      ∗ semVal ((c : Thread nD τ), SemLoc.dma 194) 0
      ∗ semVal ((c : Thread nD τ), SemLoc.dma 193) 0
      ∗ semVal ((c : Thread nD τ), SemLoc.dma 192) 0
      ∗ semVal ((c : Thread nD τ), SemLoc.dma 191) 0
      ∗ semVal ((c : Thread nD τ), SemLoc.dma 190) 0
      ∗ semVal ((c : Thread nD τ), SemLoc.dma 189) 0
      ∗ semVal ((c : Thread nD τ), SemLoc.dma 188) 0
      ∗ semVal ((c : Thread nD τ), SemLoc.dma 187) 0
      ∗ semVal ((c : Thread nD τ), SemLoc.dma 186) 0
      ∗ semVal ((c : Thread nD τ), SemLoc.dma 185) 0
      ∗ semVal ((c : Thread nD τ), SemLoc.dma 184) 0
      ∗ semVal ((c : Thread nD τ), SemLoc.dma 183) 0
      ∗ semVal ((c : Thread nD τ), SemLoc.dma 182) 0
      ∗ semVal ((c : Thread nD τ), SemLoc.dma 181) 0
      ∗ semVal ((c : Thread nD τ), SemLoc.dma 180) 0
      ∗ semVal ((c : Thread nD τ), SemLoc.dma 179) 0
      ∗ semVal ((c : Thread nD τ), SemLoc.dma 178) 0
      ∗ semVal ((c : Thread nD τ), SemLoc.dma 177) 0
      ∗ semVal ((c : Thread nD τ), SemLoc.dma 176) 0
      ∗ semVal ((c : Thread nD τ), SemLoc.dma 175) 0
      ∗ semVal ((c : Thread nD τ), SemLoc.dma 174) 0
      ∗ semVal ((c : Thread nD τ), SemLoc.dma 173) 0
      ∗ semVal ((c : Thread nD τ), SemLoc.dma 172) 0
      ∗ semVal ((c : Thread nD τ), SemLoc.dma 171) 0
      ∗ semVal ((c : Thread nD τ), SemLoc.dma 170) 0
      ∗ semVal ((c : Thread nD τ), SemLoc.dma 169) 0
      ∗ semVal ((c : Thread nD τ), SemLoc.dma 168) 0
      ∗ semVal ((c : Thread nD τ), SemLoc.dma 167) 0
      ∗ semVal ((c : Thread nD τ), SemLoc.dma 166) 0
      ∗ semVal ((c : Thread nD τ), SemLoc.dma 165) 0
      ∗ semVal ((c : Thread nD τ), SemLoc.dma 164) 0
      ∗ semVal ((c : Thread nD τ), SemLoc.dma 163) 0
      ∗ semVal ((c : Thread nD τ), SemLoc.dma 162) 0
      ∗ semVal ((c : Thread nD τ), SemLoc.dma 161) 0
      ∗ semVal ((c : Thread nD τ), SemLoc.dma 160) 0
      ∗ semVal ((c : Thread nD τ), SemLoc.dma 159) 0
      ∗ semVal ((c : Thread nD τ), SemLoc.dma 158) 0
      ∗ semVal ((c : Thread nD τ), SemLoc.dma 157) 0
      ∗ semVal ((c : Thread nD τ), SemLoc.dma 156) 0
      ∗ semVal ((c : Thread nD τ), SemLoc.dma 155) 0
      ∗ semVal ((c : Thread nD τ), SemLoc.dma 154) 0
      ∗ semVal ((c : Thread nD τ), SemLoc.dma 153) 0
      ∗ semVal ((c : Thread nD τ), SemLoc.dma 152) 0
      ∗ semVal ((c : Thread nD τ), SemLoc.dma 151) 0
      ∗ semVal ((c : Thread nD τ), SemLoc.dma 150) 0
      ∗ semVal ((c : Thread nD τ), SemLoc.dma 149) 0
      ∗ semVal ((c : Thread nD τ), SemLoc.dma 148) 0
      ∗ semVal ((c : Thread nD τ), SemLoc.dma 147) 0
      ∗ semVal ((c : Thread nD τ), SemLoc.dma 146) 0
      ∗ semVal ((c : Thread nD τ), SemLoc.dma 145) 0
      ∗ semVal ((c : Thread nD τ), SemLoc.dma 144) 0
      ∗ semVal ((c : Thread nD τ), SemLoc.dma 143) 0
      ∗ semVal ((c : Thread nD τ), SemLoc.dma 142) 0
      ∗ semVal ((c : Thread nD τ), SemLoc.dma 141) 0
      ∗ semVal ((c : Thread nD τ), SemLoc.dma 140) 0
      ∗ semVal ((c : Thread nD τ), SemLoc.dma 139) 0
      ∗ semVal ((c : Thread nD τ), SemLoc.dma 138) 0
      ∗ emp)
      ∗ (semVal ((c : Thread nD τ), SemLoc.dma 393) 0
      ∗ semVal ((c : Thread nD τ), SemLoc.dma 392) 0
      ∗ semVal ((c : Thread nD τ), SemLoc.dma 391) 0
      ∗ semVal ((c : Thread nD τ), SemLoc.dma 390) 0
      ∗ semVal ((c : Thread nD τ), SemLoc.dma 389) 0
      ∗ semVal ((c : Thread nD τ), SemLoc.dma 388) 0
      ∗ semVal ((c : Thread nD τ), SemLoc.dma 387) 0
      ∗ semVal ((c : Thread nD τ), SemLoc.dma 386) 0
      ∗ semVal ((c : Thread nD τ), SemLoc.dma 385) 0
      ∗ semVal ((c : Thread nD τ), SemLoc.dma 384) 0
      ∗ semVal ((c : Thread nD τ), SemLoc.dma 383) 0
      ∗ semVal ((c : Thread nD τ), SemLoc.dma 382) 0
      ∗ semVal ((c : Thread nD τ), SemLoc.dma 381) 0
      ∗ semVal ((c : Thread nD τ), SemLoc.dma 380) 0
      ∗ semVal ((c : Thread nD τ), SemLoc.dma 379) 0
      ∗ semVal ((c : Thread nD τ), SemLoc.dma 378) 0
      ∗ semVal ((c : Thread nD τ), SemLoc.dma 377) 0
      ∗ semVal ((c : Thread nD τ), SemLoc.dma 376) 0
      ∗ semVal ((c : Thread nD τ), SemLoc.dma 375) 0
      ∗ semVal ((c : Thread nD τ), SemLoc.dma 374) 0
      ∗ semVal ((c : Thread nD τ), SemLoc.dma 373) 0
      ∗ semVal ((c : Thread nD τ), SemLoc.dma 372) 0
      ∗ semVal ((c : Thread nD τ), SemLoc.dma 371) 0
      ∗ semVal ((c : Thread nD τ), SemLoc.dma 370) 0
      ∗ semVal ((c : Thread nD τ), SemLoc.dma 369) 0
      ∗ semVal ((c : Thread nD τ), SemLoc.dma 368) 0
      ∗ semVal ((c : Thread nD τ), SemLoc.dma 367) 0
      ∗ semVal ((c : Thread nD τ), SemLoc.dma 366) 0
      ∗ semVal ((c : Thread nD τ), SemLoc.dma 365) 0
      ∗ semVal ((c : Thread nD τ), SemLoc.dma 364) 0
      ∗ semVal ((c : Thread nD τ), SemLoc.dma 363) 0
      ∗ semVal ((c : Thread nD τ), SemLoc.dma 362) 0
      ∗ semVal ((c : Thread nD τ), SemLoc.dma 361) 0
      ∗ semVal ((c : Thread nD τ), SemLoc.dma 360) 0
      ∗ semVal ((c : Thread nD τ), SemLoc.dma 359) 0
      ∗ semVal ((c : Thread nD τ), SemLoc.dma 358) 0
      ∗ semVal ((c : Thread nD τ), SemLoc.dma 357) 0
      ∗ semVal ((c : Thread nD τ), SemLoc.dma 356) 0
      ∗ semVal ((c : Thread nD τ), SemLoc.dma 355) 0
      ∗ semVal ((c : Thread nD τ), SemLoc.dma 354) 0
      ∗ semVal ((c : Thread nD τ), SemLoc.dma 353) 0
      ∗ semVal ((c : Thread nD τ), SemLoc.dma 352) 0
      ∗ semVal ((c : Thread nD τ), SemLoc.dma 351) 0
      ∗ semVal ((c : Thread nD τ), SemLoc.dma 350) 0
      ∗ semVal ((c : Thread nD τ), SemLoc.dma 349) 0
      ∗ semVal ((c : Thread nD τ), SemLoc.dma 348) 0
      ∗ semVal ((c : Thread nD τ), SemLoc.dma 347) 0
      ∗ semVal ((c : Thread nD τ), SemLoc.dma 346) 0
      ∗ semVal ((c : Thread nD τ), SemLoc.dma 345) 0
      ∗ semVal ((c : Thread nD τ), SemLoc.dma 344) 0
      ∗ semVal ((c : Thread nD τ), SemLoc.dma 343) 0
      ∗ semVal ((c : Thread nD τ), SemLoc.dma 342) 0
      ∗ semVal ((c : Thread nD τ), SemLoc.dma 341) 0
      ∗ semVal ((c : Thread nD τ), SemLoc.dma 340) 0
      ∗ semVal ((c : Thread nD τ), SemLoc.dma 339) 0
      ∗ semVal ((c : Thread nD τ), SemLoc.dma 338) 0
      ∗ semVal ((c : Thread nD τ), SemLoc.dma 337) 0
      ∗ semVal ((c : Thread nD τ), SemLoc.dma 336) 0
      ∗ semVal ((c : Thread nD τ), SemLoc.dma 335) 0
      ∗ semVal ((c : Thread nD τ), SemLoc.dma 334) 0
      ∗ semVal ((c : Thread nD τ), SemLoc.dma 333) 0
      ∗ semVal ((c : Thread nD τ), SemLoc.dma 332) 0
      ∗ semVal ((c : Thread nD τ), SemLoc.dma 331) 0
      ∗ semVal ((c : Thread nD τ), SemLoc.dma 330) 0
      ∗ semVal ((c : Thread nD τ), SemLoc.dma 329) 0
      ∗ semVal ((c : Thread nD τ), SemLoc.dma 328) 0
      ∗ semVal ((c : Thread nD τ), SemLoc.dma 327) 0
      ∗ semVal ((c : Thread nD τ), SemLoc.dma 326) 0
      ∗ semVal ((c : Thread nD τ), SemLoc.dma 325) 0
      ∗ semVal ((c : Thread nD τ), SemLoc.dma 324) 0
      ∗ semVal ((c : Thread nD τ), SemLoc.dma 323) 0
      ∗ semVal ((c : Thread nD τ), SemLoc.dma 322) 0
      ∗ semVal ((c : Thread nD τ), SemLoc.dma 321) 0
      ∗ semVal ((c : Thread nD τ), SemLoc.dma 320) 0
      ∗ semVal ((c : Thread nD τ), SemLoc.dma 319) 0
      ∗ semVal ((c : Thread nD τ), SemLoc.dma 318) 0
      ∗ semVal ((c : Thread nD τ), SemLoc.dma 317) 0
      ∗ semVal ((c : Thread nD τ), SemLoc.dma 316) 0
      ∗ semVal ((c : Thread nD τ), SemLoc.dma 315) 0
      ∗ semVal ((c : Thread nD τ), SemLoc.dma 314) 0
      ∗ semVal ((c : Thread nD τ), SemLoc.dma 313) 0
      ∗ semVal ((c : Thread nD τ), SemLoc.dma 312) 0
      ∗ semVal ((c : Thread nD τ), SemLoc.dma 311) 0
      ∗ semVal ((c : Thread nD τ), SemLoc.dma 310) 0
      ∗ semVal ((c : Thread nD τ), SemLoc.dma 309) 0
      ∗ semVal ((c : Thread nD τ), SemLoc.dma 308) 0
      ∗ semVal ((c : Thread nD τ), SemLoc.dma 307) 0
      ∗ semVal ((c : Thread nD τ), SemLoc.dma 306) 0
      ∗ semVal ((c : Thread nD τ), SemLoc.dma 305) 0
      ∗ semVal ((c : Thread nD τ), SemLoc.dma 304) 0
      ∗ semVal ((c : Thread nD τ), SemLoc.dma 303) 0
      ∗ semVal ((c : Thread nD τ), SemLoc.dma 302) 0
      ∗ semVal ((c : Thread nD τ), SemLoc.dma 301) 0
      ∗ semVal ((c : Thread nD τ), SemLoc.dma 300) 0
      ∗ semVal ((c : Thread nD τ), SemLoc.dma 299) 0
      ∗ semVal ((c : Thread nD τ), SemLoc.dma 298) 0
      ∗ semVal ((c : Thread nD τ), SemLoc.dma 297) 0
      ∗ semVal ((c : Thread nD τ), SemLoc.dma 296) 0
      ∗ semVal ((c : Thread nD τ), SemLoc.dma 295) 0
      ∗ semVal ((c : Thread nD τ), SemLoc.dma 294) 0
      ∗ semVal ((c : Thread nD τ), SemLoc.dma 293) 0
      ∗ semVal ((c : Thread nD τ), SemLoc.dma 292) 0
      ∗ semVal ((c : Thread nD τ), SemLoc.dma 291) 0
      ∗ semVal ((c : Thread nD τ), SemLoc.dma 290) 0
      ∗ semVal ((c : Thread nD τ), SemLoc.dma 289) 0
      ∗ semVal ((c : Thread nD τ), SemLoc.dma 288) 0
      ∗ semVal ((c : Thread nD τ), SemLoc.dma 287) 0
      ∗ semVal ((c : Thread nD τ), SemLoc.dma 286) 0
      ∗ semVal ((c : Thread nD τ), SemLoc.dma 285) 0
      ∗ semVal ((c : Thread nD τ), SemLoc.dma 284) 0
      ∗ semVal ((c : Thread nD τ), SemLoc.dma 283) 0
      ∗ semVal ((c : Thread nD τ), SemLoc.dma 282) 0
      ∗ semVal ((c : Thread nD τ), SemLoc.dma 281) 0
      ∗ semVal ((c : Thread nD τ), SemLoc.dma 280) 0
      ∗ semVal ((c : Thread nD τ), SemLoc.dma 279) 0
      ∗ semVal ((c : Thread nD τ), SemLoc.dma 278) 0
      ∗ semVal ((c : Thread nD τ), SemLoc.dma 277) 0
      ∗ semVal ((c : Thread nD τ), SemLoc.dma 276) 0
      ∗ semVal ((c : Thread nD τ), SemLoc.dma 275) 0
      ∗ semVal ((c : Thread nD τ), SemLoc.dma 274) 0
      ∗ semVal ((c : Thread nD τ), SemLoc.dma 273) 0
      ∗ semVal ((c : Thread nD τ), SemLoc.dma 272) 0
      ∗ semVal ((c : Thread nD τ), SemLoc.dma 271) 0
      ∗ semVal ((c : Thread nD τ), SemLoc.dma 270) 0
      ∗ semVal ((c : Thread nD τ), SemLoc.dma 269) 0
      ∗ semVal ((c : Thread nD τ), SemLoc.dma 268) 0
      ∗ semVal ((c : Thread nD τ), SemLoc.dma 267) 0
      ∗ semVal ((c : Thread nD τ), SemLoc.dma 266) 0
      ∗ emp)) : sProp 𝕄) ⊢ semsZero (F := F) c :=
  (Entails.of_eq (sep_congr_eq (sepL_reverse (F := F) [semVal ((c : Thread nD τ), SemLoc.dma 10) 0,
      semVal ((c : Thread nD τ), SemLoc.dma 11) 0,
      semVal ((c : Thread nD τ), SemLoc.dma 12) 0,
      semVal ((c : Thread nD τ), SemLoc.dma 13) 0,
      semVal ((c : Thread nD τ), SemLoc.dma 14) 0,
      semVal ((c : Thread nD τ), SemLoc.dma 15) 0,
      semVal ((c : Thread nD τ), SemLoc.dma 16) 0,
      semVal ((c : Thread nD τ), SemLoc.dma 17) 0,
      semVal ((c : Thread nD τ), SemLoc.dma 18) 0,
      semVal ((c : Thread nD τ), SemLoc.dma 19) 0,
      semVal ((c : Thread nD τ), SemLoc.dma 20) 0,
      semVal ((c : Thread nD τ), SemLoc.dma 21) 0,
      semVal ((c : Thread nD τ), SemLoc.dma 22) 0,
      semVal ((c : Thread nD τ), SemLoc.dma 23) 0,
      semVal ((c : Thread nD τ), SemLoc.dma 24) 0,
      semVal ((c : Thread nD τ), SemLoc.dma 25) 0,
      semVal ((c : Thread nD τ), SemLoc.dma 26) 0,
      semVal ((c : Thread nD τ), SemLoc.dma 27) 0,
      semVal ((c : Thread nD τ), SemLoc.dma 28) 0,
      semVal ((c : Thread nD τ), SemLoc.dma 29) 0,
      semVal ((c : Thread nD τ), SemLoc.dma 30) 0,
      semVal ((c : Thread nD τ), SemLoc.dma 31) 0,
      semVal ((c : Thread nD τ), SemLoc.dma 32) 0,
      semVal ((c : Thread nD τ), SemLoc.dma 33) 0,
      semVal ((c : Thread nD τ), SemLoc.dma 34) 0,
      semVal ((c : Thread nD τ), SemLoc.dma 35) 0,
      semVal ((c : Thread nD τ), SemLoc.dma 36) 0,
      semVal ((c : Thread nD τ), SemLoc.dma 37) 0,
      semVal ((c : Thread nD τ), SemLoc.dma 38) 0,
      semVal ((c : Thread nD τ), SemLoc.dma 39) 0,
      semVal ((c : Thread nD τ), SemLoc.dma 40) 0,
      semVal ((c : Thread nD τ), SemLoc.dma 41) 0,
      semVal ((c : Thread nD τ), SemLoc.dma 42) 0,
      semVal ((c : Thread nD τ), SemLoc.dma 43) 0,
      semVal ((c : Thread nD τ), SemLoc.dma 44) 0,
      semVal ((c : Thread nD τ), SemLoc.dma 45) 0,
      semVal ((c : Thread nD τ), SemLoc.dma 46) 0,
      semVal ((c : Thread nD τ), SemLoc.dma 47) 0,
      semVal ((c : Thread nD τ), SemLoc.dma 48) 0,
      semVal ((c : Thread nD τ), SemLoc.dma 49) 0,
      semVal ((c : Thread nD τ), SemLoc.dma 50) 0,
      semVal ((c : Thread nD τ), SemLoc.dma 51) 0,
      semVal ((c : Thread nD τ), SemLoc.dma 52) 0,
      semVal ((c : Thread nD τ), SemLoc.dma 53) 0,
      semVal ((c : Thread nD τ), SemLoc.dma 54) 0,
      semVal ((c : Thread nD τ), SemLoc.dma 55) 0,
      semVal ((c : Thread nD τ), SemLoc.dma 56) 0,
      semVal ((c : Thread nD τ), SemLoc.dma 57) 0,
      semVal ((c : Thread nD τ), SemLoc.dma 58) 0,
      semVal ((c : Thread nD τ), SemLoc.dma 59) 0,
      semVal ((c : Thread nD τ), SemLoc.dma 60) 0,
      semVal ((c : Thread nD τ), SemLoc.dma 61) 0,
      semVal ((c : Thread nD τ), SemLoc.dma 62) 0,
      semVal ((c : Thread nD τ), SemLoc.dma 63) 0,
      semVal ((c : Thread nD τ), SemLoc.dma 64) 0,
      semVal ((c : Thread nD τ), SemLoc.dma 65) 0,
      semVal ((c : Thread nD τ), SemLoc.dma 66) 0,
      semVal ((c : Thread nD τ), SemLoc.dma 67) 0,
      semVal ((c : Thread nD τ), SemLoc.dma 68) 0,
      semVal ((c : Thread nD τ), SemLoc.dma 69) 0,
      semVal ((c : Thread nD τ), SemLoc.dma 70) 0,
      semVal ((c : Thread nD τ), SemLoc.dma 71) 0,
      semVal ((c : Thread nD τ), SemLoc.dma 72) 0,
      semVal ((c : Thread nD τ), SemLoc.dma 73) 0,
      semVal ((c : Thread nD τ), SemLoc.dma 74) 0,
      semVal ((c : Thread nD τ), SemLoc.dma 75) 0,
      semVal ((c : Thread nD τ), SemLoc.dma 76) 0,
      semVal ((c : Thread nD τ), SemLoc.dma 77) 0,
      semVal ((c : Thread nD τ), SemLoc.dma 78) 0,
      semVal ((c : Thread nD τ), SemLoc.dma 79) 0,
      semVal ((c : Thread nD τ), SemLoc.dma 80) 0,
      semVal ((c : Thread nD τ), SemLoc.dma 81) 0,
      semVal ((c : Thread nD τ), SemLoc.dma 82) 0,
      semVal ((c : Thread nD τ), SemLoc.dma 83) 0,
      semVal ((c : Thread nD τ), SemLoc.dma 84) 0,
      semVal ((c : Thread nD τ), SemLoc.dma 85) 0,
      semVal ((c : Thread nD τ), SemLoc.dma 86) 0,
      semVal ((c : Thread nD τ), SemLoc.dma 87) 0,
      semVal ((c : Thread nD τ), SemLoc.dma 88) 0,
      semVal ((c : Thread nD τ), SemLoc.dma 89) 0,
      semVal ((c : Thread nD τ), SemLoc.dma 90) 0,
      semVal ((c : Thread nD τ), SemLoc.dma 91) 0,
      semVal ((c : Thread nD τ), SemLoc.dma 92) 0,
      semVal ((c : Thread nD τ), SemLoc.dma 93) 0,
      semVal ((c : Thread nD τ), SemLoc.dma 94) 0,
      semVal ((c : Thread nD τ), SemLoc.dma 95) 0,
      semVal ((c : Thread nD τ), SemLoc.dma 96) 0,
      semVal ((c : Thread nD τ), SemLoc.dma 97) 0,
      semVal ((c : Thread nD τ), SemLoc.dma 98) 0,
      semVal ((c : Thread nD τ), SemLoc.dma 99) 0,
      semVal ((c : Thread nD τ), SemLoc.dma 100) 0,
      semVal ((c : Thread nD τ), SemLoc.dma 101) 0,
      semVal ((c : Thread nD τ), SemLoc.dma 102) 0,
      semVal ((c : Thread nD τ), SemLoc.dma 103) 0,
      semVal ((c : Thread nD τ), SemLoc.dma 104) 0,
      semVal ((c : Thread nD τ), SemLoc.dma 105) 0,
      semVal ((c : Thread nD τ), SemLoc.dma 106) 0,
      semVal ((c : Thread nD τ), SemLoc.dma 107) 0,
      semVal ((c : Thread nD τ), SemLoc.dma 108) 0,
      semVal ((c : Thread nD τ), SemLoc.dma 109) 0,
      semVal ((c : Thread nD τ), SemLoc.dma 110) 0,
      semVal ((c : Thread nD τ), SemLoc.dma 111) 0,
      semVal ((c : Thread nD τ), SemLoc.dma 112) 0,
      semVal ((c : Thread nD τ), SemLoc.dma 113) 0,
      semVal ((c : Thread nD τ), SemLoc.dma 114) 0,
      semVal ((c : Thread nD τ), SemLoc.dma 115) 0,
      semVal ((c : Thread nD τ), SemLoc.dma 116) 0,
      semVal ((c : Thread nD τ), SemLoc.dma 117) 0,
      semVal ((c : Thread nD τ), SemLoc.dma 118) 0,
      semVal ((c : Thread nD τ), SemLoc.dma 119) 0,
      semVal ((c : Thread nD τ), SemLoc.dma 120) 0,
      semVal ((c : Thread nD τ), SemLoc.dma 121) 0,
      semVal ((c : Thread nD τ), SemLoc.dma 122) 0,
      semVal ((c : Thread nD τ), SemLoc.dma 123) 0,
      semVal ((c : Thread nD τ), SemLoc.dma 124) 0,
      semVal ((c : Thread nD τ), SemLoc.dma 125) 0,
      semVal ((c : Thread nD τ), SemLoc.dma 126) 0,
      semVal ((c : Thread nD τ), SemLoc.dma 127) 0,
      semVal ((c : Thread nD τ), SemLoc.dma 128) 0,
      semVal ((c : Thread nD τ), SemLoc.dma 129) 0,
      semVal ((c : Thread nD τ), SemLoc.dma 130) 0,
      semVal ((c : Thread nD τ), SemLoc.dma 131) 0,
      semVal ((c : Thread nD τ), SemLoc.dma 132) 0,
      semVal ((c : Thread nD τ), SemLoc.dma 133) 0,
      semVal ((c : Thread nD τ), SemLoc.dma 134) 0,
      semVal ((c : Thread nD τ), SemLoc.dma 135) 0,
      semVal ((c : Thread nD τ), SemLoc.dma 136) 0,
      semVal ((c : Thread nD τ), SemLoc.dma 137) 0]) (sep_congr_eq (sepL_reverse (F := F) [semVal ((c : Thread nD τ), SemLoc.dma 138) 0,
      semVal ((c : Thread nD τ), SemLoc.dma 139) 0,
      semVal ((c : Thread nD τ), SemLoc.dma 140) 0,
      semVal ((c : Thread nD τ), SemLoc.dma 141) 0,
      semVal ((c : Thread nD τ), SemLoc.dma 142) 0,
      semVal ((c : Thread nD τ), SemLoc.dma 143) 0,
      semVal ((c : Thread nD τ), SemLoc.dma 144) 0,
      semVal ((c : Thread nD τ), SemLoc.dma 145) 0,
      semVal ((c : Thread nD τ), SemLoc.dma 146) 0,
      semVal ((c : Thread nD τ), SemLoc.dma 147) 0,
      semVal ((c : Thread nD τ), SemLoc.dma 148) 0,
      semVal ((c : Thread nD τ), SemLoc.dma 149) 0,
      semVal ((c : Thread nD τ), SemLoc.dma 150) 0,
      semVal ((c : Thread nD τ), SemLoc.dma 151) 0,
      semVal ((c : Thread nD τ), SemLoc.dma 152) 0,
      semVal ((c : Thread nD τ), SemLoc.dma 153) 0,
      semVal ((c : Thread nD τ), SemLoc.dma 154) 0,
      semVal ((c : Thread nD τ), SemLoc.dma 155) 0,
      semVal ((c : Thread nD τ), SemLoc.dma 156) 0,
      semVal ((c : Thread nD τ), SemLoc.dma 157) 0,
      semVal ((c : Thread nD τ), SemLoc.dma 158) 0,
      semVal ((c : Thread nD τ), SemLoc.dma 159) 0,
      semVal ((c : Thread nD τ), SemLoc.dma 160) 0,
      semVal ((c : Thread nD τ), SemLoc.dma 161) 0,
      semVal ((c : Thread nD τ), SemLoc.dma 162) 0,
      semVal ((c : Thread nD τ), SemLoc.dma 163) 0,
      semVal ((c : Thread nD τ), SemLoc.dma 164) 0,
      semVal ((c : Thread nD τ), SemLoc.dma 165) 0,
      semVal ((c : Thread nD τ), SemLoc.dma 166) 0,
      semVal ((c : Thread nD τ), SemLoc.dma 167) 0,
      semVal ((c : Thread nD τ), SemLoc.dma 168) 0,
      semVal ((c : Thread nD τ), SemLoc.dma 169) 0,
      semVal ((c : Thread nD τ), SemLoc.dma 170) 0,
      semVal ((c : Thread nD τ), SemLoc.dma 171) 0,
      semVal ((c : Thread nD τ), SemLoc.dma 172) 0,
      semVal ((c : Thread nD τ), SemLoc.dma 173) 0,
      semVal ((c : Thread nD τ), SemLoc.dma 174) 0,
      semVal ((c : Thread nD τ), SemLoc.dma 175) 0,
      semVal ((c : Thread nD τ), SemLoc.dma 176) 0,
      semVal ((c : Thread nD τ), SemLoc.dma 177) 0,
      semVal ((c : Thread nD τ), SemLoc.dma 178) 0,
      semVal ((c : Thread nD τ), SemLoc.dma 179) 0,
      semVal ((c : Thread nD τ), SemLoc.dma 180) 0,
      semVal ((c : Thread nD τ), SemLoc.dma 181) 0,
      semVal ((c : Thread nD τ), SemLoc.dma 182) 0,
      semVal ((c : Thread nD τ), SemLoc.dma 183) 0,
      semVal ((c : Thread nD τ), SemLoc.dma 184) 0,
      semVal ((c : Thread nD τ), SemLoc.dma 185) 0,
      semVal ((c : Thread nD τ), SemLoc.dma 186) 0,
      semVal ((c : Thread nD τ), SemLoc.dma 187) 0,
      semVal ((c : Thread nD τ), SemLoc.dma 188) 0,
      semVal ((c : Thread nD τ), SemLoc.dma 189) 0,
      semVal ((c : Thread nD τ), SemLoc.dma 190) 0,
      semVal ((c : Thread nD τ), SemLoc.dma 191) 0,
      semVal ((c : Thread nD τ), SemLoc.dma 192) 0,
      semVal ((c : Thread nD τ), SemLoc.dma 193) 0,
      semVal ((c : Thread nD τ), SemLoc.dma 194) 0,
      semVal ((c : Thread nD τ), SemLoc.dma 195) 0,
      semVal ((c : Thread nD τ), SemLoc.dma 196) 0,
      semVal ((c : Thread nD τ), SemLoc.dma 197) 0,
      semVal ((c : Thread nD τ), SemLoc.dma 198) 0,
      semVal ((c : Thread nD τ), SemLoc.dma 199) 0,
      semVal ((c : Thread nD τ), SemLoc.dma 200) 0,
      semVal ((c : Thread nD τ), SemLoc.dma 201) 0,
      semVal ((c : Thread nD τ), SemLoc.dma 202) 0,
      semVal ((c : Thread nD τ), SemLoc.dma 203) 0,
      semVal ((c : Thread nD τ), SemLoc.dma 204) 0,
      semVal ((c : Thread nD τ), SemLoc.dma 205) 0,
      semVal ((c : Thread nD τ), SemLoc.dma 206) 0,
      semVal ((c : Thread nD τ), SemLoc.dma 207) 0,
      semVal ((c : Thread nD τ), SemLoc.dma 208) 0,
      semVal ((c : Thread nD τ), SemLoc.dma 209) 0,
      semVal ((c : Thread nD τ), SemLoc.dma 210) 0,
      semVal ((c : Thread nD τ), SemLoc.dma 211) 0,
      semVal ((c : Thread nD τ), SemLoc.dma 212) 0,
      semVal ((c : Thread nD τ), SemLoc.dma 213) 0,
      semVal ((c : Thread nD τ), SemLoc.dma 214) 0,
      semVal ((c : Thread nD τ), SemLoc.dma 215) 0,
      semVal ((c : Thread nD τ), SemLoc.dma 216) 0,
      semVal ((c : Thread nD τ), SemLoc.dma 217) 0,
      semVal ((c : Thread nD τ), SemLoc.dma 218) 0,
      semVal ((c : Thread nD τ), SemLoc.dma 219) 0,
      semVal ((c : Thread nD τ), SemLoc.dma 220) 0,
      semVal ((c : Thread nD τ), SemLoc.dma 221) 0,
      semVal ((c : Thread nD τ), SemLoc.dma 222) 0,
      semVal ((c : Thread nD τ), SemLoc.dma 223) 0,
      semVal ((c : Thread nD τ), SemLoc.dma 224) 0,
      semVal ((c : Thread nD τ), SemLoc.dma 225) 0,
      semVal ((c : Thread nD τ), SemLoc.dma 226) 0,
      semVal ((c : Thread nD τ), SemLoc.dma 227) 0,
      semVal ((c : Thread nD τ), SemLoc.dma 228) 0,
      semVal ((c : Thread nD τ), SemLoc.dma 229) 0,
      semVal ((c : Thread nD τ), SemLoc.dma 230) 0,
      semVal ((c : Thread nD τ), SemLoc.dma 231) 0,
      semVal ((c : Thread nD τ), SemLoc.dma 232) 0,
      semVal ((c : Thread nD τ), SemLoc.dma 233) 0,
      semVal ((c : Thread nD τ), SemLoc.dma 234) 0,
      semVal ((c : Thread nD τ), SemLoc.dma 235) 0,
      semVal ((c : Thread nD τ), SemLoc.dma 236) 0,
      semVal ((c : Thread nD τ), SemLoc.dma 237) 0,
      semVal ((c : Thread nD τ), SemLoc.dma 238) 0,
      semVal ((c : Thread nD τ), SemLoc.dma 239) 0,
      semVal ((c : Thread nD τ), SemLoc.dma 240) 0,
      semVal ((c : Thread nD τ), SemLoc.dma 241) 0,
      semVal ((c : Thread nD τ), SemLoc.dma 242) 0,
      semVal ((c : Thread nD τ), SemLoc.dma 243) 0,
      semVal ((c : Thread nD τ), SemLoc.dma 244) 0,
      semVal ((c : Thread nD τ), SemLoc.dma 245) 0,
      semVal ((c : Thread nD τ), SemLoc.dma 246) 0,
      semVal ((c : Thread nD τ), SemLoc.dma 247) 0,
      semVal ((c : Thread nD τ), SemLoc.dma 248) 0,
      semVal ((c : Thread nD τ), SemLoc.dma 249) 0,
      semVal ((c : Thread nD τ), SemLoc.dma 250) 0,
      semVal ((c : Thread nD τ), SemLoc.dma 251) 0,
      semVal ((c : Thread nD τ), SemLoc.dma 252) 0,
      semVal ((c : Thread nD τ), SemLoc.dma 253) 0,
      semVal ((c : Thread nD τ), SemLoc.dma 254) 0,
      semVal ((c : Thread nD τ), SemLoc.dma 255) 0,
      semVal ((c : Thread nD τ), SemLoc.dma 256) 0,
      semVal ((c : Thread nD τ), SemLoc.dma 257) 0,
      semVal ((c : Thread nD τ), SemLoc.dma 258) 0,
      semVal ((c : Thread nD τ), SemLoc.dma 259) 0,
      semVal ((c : Thread nD τ), SemLoc.dma 260) 0,
      semVal ((c : Thread nD τ), SemLoc.dma 261) 0,
      semVal ((c : Thread nD τ), SemLoc.dma 262) 0,
      semVal ((c : Thread nD τ), SemLoc.dma 263) 0,
      semVal ((c : Thread nD τ), SemLoc.dma 264) 0,
      semVal ((c : Thread nD τ), SemLoc.dma 265) 0]) (sepL_reverse (F := F) [semVal ((c : Thread nD τ), SemLoc.dma 266) 0,
      semVal ((c : Thread nD τ), SemLoc.dma 267) 0,
      semVal ((c : Thread nD τ), SemLoc.dma 268) 0,
      semVal ((c : Thread nD τ), SemLoc.dma 269) 0,
      semVal ((c : Thread nD τ), SemLoc.dma 270) 0,
      semVal ((c : Thread nD τ), SemLoc.dma 271) 0,
      semVal ((c : Thread nD τ), SemLoc.dma 272) 0,
      semVal ((c : Thread nD τ), SemLoc.dma 273) 0,
      semVal ((c : Thread nD τ), SemLoc.dma 274) 0,
      semVal ((c : Thread nD τ), SemLoc.dma 275) 0,
      semVal ((c : Thread nD τ), SemLoc.dma 276) 0,
      semVal ((c : Thread nD τ), SemLoc.dma 277) 0,
      semVal ((c : Thread nD τ), SemLoc.dma 278) 0,
      semVal ((c : Thread nD τ), SemLoc.dma 279) 0,
      semVal ((c : Thread nD τ), SemLoc.dma 280) 0,
      semVal ((c : Thread nD τ), SemLoc.dma 281) 0,
      semVal ((c : Thread nD τ), SemLoc.dma 282) 0,
      semVal ((c : Thread nD τ), SemLoc.dma 283) 0,
      semVal ((c : Thread nD τ), SemLoc.dma 284) 0,
      semVal ((c : Thread nD τ), SemLoc.dma 285) 0,
      semVal ((c : Thread nD τ), SemLoc.dma 286) 0,
      semVal ((c : Thread nD τ), SemLoc.dma 287) 0,
      semVal ((c : Thread nD τ), SemLoc.dma 288) 0,
      semVal ((c : Thread nD τ), SemLoc.dma 289) 0,
      semVal ((c : Thread nD τ), SemLoc.dma 290) 0,
      semVal ((c : Thread nD τ), SemLoc.dma 291) 0,
      semVal ((c : Thread nD τ), SemLoc.dma 292) 0,
      semVal ((c : Thread nD τ), SemLoc.dma 293) 0,
      semVal ((c : Thread nD τ), SemLoc.dma 294) 0,
      semVal ((c : Thread nD τ), SemLoc.dma 295) 0,
      semVal ((c : Thread nD τ), SemLoc.dma 296) 0,
      semVal ((c : Thread nD τ), SemLoc.dma 297) 0,
      semVal ((c : Thread nD τ), SemLoc.dma 298) 0,
      semVal ((c : Thread nD τ), SemLoc.dma 299) 0,
      semVal ((c : Thread nD τ), SemLoc.dma 300) 0,
      semVal ((c : Thread nD τ), SemLoc.dma 301) 0,
      semVal ((c : Thread nD τ), SemLoc.dma 302) 0,
      semVal ((c : Thread nD τ), SemLoc.dma 303) 0,
      semVal ((c : Thread nD τ), SemLoc.dma 304) 0,
      semVal ((c : Thread nD τ), SemLoc.dma 305) 0,
      semVal ((c : Thread nD τ), SemLoc.dma 306) 0,
      semVal ((c : Thread nD τ), SemLoc.dma 307) 0,
      semVal ((c : Thread nD τ), SemLoc.dma 308) 0,
      semVal ((c : Thread nD τ), SemLoc.dma 309) 0,
      semVal ((c : Thread nD τ), SemLoc.dma 310) 0,
      semVal ((c : Thread nD τ), SemLoc.dma 311) 0,
      semVal ((c : Thread nD τ), SemLoc.dma 312) 0,
      semVal ((c : Thread nD τ), SemLoc.dma 313) 0,
      semVal ((c : Thread nD τ), SemLoc.dma 314) 0,
      semVal ((c : Thread nD τ), SemLoc.dma 315) 0,
      semVal ((c : Thread nD τ), SemLoc.dma 316) 0,
      semVal ((c : Thread nD τ), SemLoc.dma 317) 0,
      semVal ((c : Thread nD τ), SemLoc.dma 318) 0,
      semVal ((c : Thread nD τ), SemLoc.dma 319) 0,
      semVal ((c : Thread nD τ), SemLoc.dma 320) 0,
      semVal ((c : Thread nD τ), SemLoc.dma 321) 0,
      semVal ((c : Thread nD τ), SemLoc.dma 322) 0,
      semVal ((c : Thread nD τ), SemLoc.dma 323) 0,
      semVal ((c : Thread nD τ), SemLoc.dma 324) 0,
      semVal ((c : Thread nD τ), SemLoc.dma 325) 0,
      semVal ((c : Thread nD τ), SemLoc.dma 326) 0,
      semVal ((c : Thread nD τ), SemLoc.dma 327) 0,
      semVal ((c : Thread nD τ), SemLoc.dma 328) 0,
      semVal ((c : Thread nD τ), SemLoc.dma 329) 0,
      semVal ((c : Thread nD τ), SemLoc.dma 330) 0,
      semVal ((c : Thread nD τ), SemLoc.dma 331) 0,
      semVal ((c : Thread nD τ), SemLoc.dma 332) 0,
      semVal ((c : Thread nD τ), SemLoc.dma 333) 0,
      semVal ((c : Thread nD τ), SemLoc.dma 334) 0,
      semVal ((c : Thread nD τ), SemLoc.dma 335) 0,
      semVal ((c : Thread nD τ), SemLoc.dma 336) 0,
      semVal ((c : Thread nD τ), SemLoc.dma 337) 0,
      semVal ((c : Thread nD τ), SemLoc.dma 338) 0,
      semVal ((c : Thread nD τ), SemLoc.dma 339) 0,
      semVal ((c : Thread nD τ), SemLoc.dma 340) 0,
      semVal ((c : Thread nD τ), SemLoc.dma 341) 0,
      semVal ((c : Thread nD τ), SemLoc.dma 342) 0,
      semVal ((c : Thread nD τ), SemLoc.dma 343) 0,
      semVal ((c : Thread nD τ), SemLoc.dma 344) 0,
      semVal ((c : Thread nD τ), SemLoc.dma 345) 0,
      semVal ((c : Thread nD τ), SemLoc.dma 346) 0,
      semVal ((c : Thread nD τ), SemLoc.dma 347) 0,
      semVal ((c : Thread nD τ), SemLoc.dma 348) 0,
      semVal ((c : Thread nD τ), SemLoc.dma 349) 0,
      semVal ((c : Thread nD τ), SemLoc.dma 350) 0,
      semVal ((c : Thread nD τ), SemLoc.dma 351) 0,
      semVal ((c : Thread nD τ), SemLoc.dma 352) 0,
      semVal ((c : Thread nD τ), SemLoc.dma 353) 0,
      semVal ((c : Thread nD τ), SemLoc.dma 354) 0,
      semVal ((c : Thread nD τ), SemLoc.dma 355) 0,
      semVal ((c : Thread nD τ), SemLoc.dma 356) 0,
      semVal ((c : Thread nD τ), SemLoc.dma 357) 0,
      semVal ((c : Thread nD τ), SemLoc.dma 358) 0,
      semVal ((c : Thread nD τ), SemLoc.dma 359) 0,
      semVal ((c : Thread nD τ), SemLoc.dma 360) 0,
      semVal ((c : Thread nD τ), SemLoc.dma 361) 0,
      semVal ((c : Thread nD τ), SemLoc.dma 362) 0,
      semVal ((c : Thread nD τ), SemLoc.dma 363) 0,
      semVal ((c : Thread nD τ), SemLoc.dma 364) 0,
      semVal ((c : Thread nD τ), SemLoc.dma 365) 0,
      semVal ((c : Thread nD τ), SemLoc.dma 366) 0,
      semVal ((c : Thread nD τ), SemLoc.dma 367) 0,
      semVal ((c : Thread nD τ), SemLoc.dma 368) 0,
      semVal ((c : Thread nD τ), SemLoc.dma 369) 0,
      semVal ((c : Thread nD τ), SemLoc.dma 370) 0,
      semVal ((c : Thread nD τ), SemLoc.dma 371) 0,
      semVal ((c : Thread nD τ), SemLoc.dma 372) 0,
      semVal ((c : Thread nD τ), SemLoc.dma 373) 0,
      semVal ((c : Thread nD τ), SemLoc.dma 374) 0,
      semVal ((c : Thread nD τ), SemLoc.dma 375) 0,
      semVal ((c : Thread nD τ), SemLoc.dma 376) 0,
      semVal ((c : Thread nD τ), SemLoc.dma 377) 0,
      semVal ((c : Thread nD τ), SemLoc.dma 378) 0,
      semVal ((c : Thread nD τ), SemLoc.dma 379) 0,
      semVal ((c : Thread nD τ), SemLoc.dma 380) 0,
      semVal ((c : Thread nD τ), SemLoc.dma 381) 0,
      semVal ((c : Thread nD τ), SemLoc.dma 382) 0,
      semVal ((c : Thread nD τ), SemLoc.dma 383) 0,
      semVal ((c : Thread nD τ), SemLoc.dma 384) 0,
      semVal ((c : Thread nD τ), SemLoc.dma 385) 0,
      semVal ((c : Thread nD τ), SemLoc.dma 386) 0,
      semVal ((c : Thread nD τ), SemLoc.dma 387) 0,
      semVal ((c : Thread nD τ), SemLoc.dma 388) 0,
      semVal ((c : Thread nD τ), SemLoc.dma 389) 0,
      semVal ((c : Thread nD τ), SemLoc.dma 390) 0,
      semVal ((c : Thread nD τ), SemLoc.dma 391) 0,
      semVal ((c : Thread nD τ), SemLoc.dma 392) 0,
      semVal ((c : Thread nD τ), SemLoc.dma 393) 0])))).trans
    (Entails.of_eq (cells_asc_eq (F := F) c).symm)

set_option maxHeartbeats 16000000 in
/-- The first data table's remainder, its ten lowest tokens and tokens 137 … 10 highest first are the table held whole. -/
theorem tokU_down (c : Dev nD) (f : BufOf (F := F) c hbM0) :
    (iprop((hbM0.view.loc (c : Thread nD τ) ↦{Transfers.shareDrop fullShare 138} f)
      ∗ bigSep (Finset.range 10) (tokAt f)
      ∗ ((hbM0.view.loc (c : Thread nD τ) ↦{Transfers.shareTokN fullShare 137} f)
      ∗ (hbM0.view.loc (c : Thread nD τ) ↦{Transfers.shareTokN fullShare 136} f)
      ∗ (hbM0.view.loc (c : Thread nD τ) ↦{Transfers.shareTokN fullShare 135} f)
      ∗ (hbM0.view.loc (c : Thread nD τ) ↦{Transfers.shareTokN fullShare 134} f)
      ∗ (hbM0.view.loc (c : Thread nD τ) ↦{Transfers.shareTokN fullShare 133} f)
      ∗ (hbM0.view.loc (c : Thread nD τ) ↦{Transfers.shareTokN fullShare 132} f)
      ∗ (hbM0.view.loc (c : Thread nD τ) ↦{Transfers.shareTokN fullShare 131} f)
      ∗ (hbM0.view.loc (c : Thread nD τ) ↦{Transfers.shareTokN fullShare 130} f)
      ∗ (hbM0.view.loc (c : Thread nD τ) ↦{Transfers.shareTokN fullShare 129} f)
      ∗ (hbM0.view.loc (c : Thread nD τ) ↦{Transfers.shareTokN fullShare 128} f)
      ∗ (hbM0.view.loc (c : Thread nD τ) ↦{Transfers.shareTokN fullShare 127} f)
      ∗ (hbM0.view.loc (c : Thread nD τ) ↦{Transfers.shareTokN fullShare 126} f)
      ∗ (hbM0.view.loc (c : Thread nD τ) ↦{Transfers.shareTokN fullShare 125} f)
      ∗ (hbM0.view.loc (c : Thread nD τ) ↦{Transfers.shareTokN fullShare 124} f)
      ∗ (hbM0.view.loc (c : Thread nD τ) ↦{Transfers.shareTokN fullShare 123} f)
      ∗ (hbM0.view.loc (c : Thread nD τ) ↦{Transfers.shareTokN fullShare 122} f)
      ∗ (hbM0.view.loc (c : Thread nD τ) ↦{Transfers.shareTokN fullShare 121} f)
      ∗ (hbM0.view.loc (c : Thread nD τ) ↦{Transfers.shareTokN fullShare 120} f)
      ∗ (hbM0.view.loc (c : Thread nD τ) ↦{Transfers.shareTokN fullShare 119} f)
      ∗ (hbM0.view.loc (c : Thread nD τ) ↦{Transfers.shareTokN fullShare 118} f)
      ∗ (hbM0.view.loc (c : Thread nD τ) ↦{Transfers.shareTokN fullShare 117} f)
      ∗ (hbM0.view.loc (c : Thread nD τ) ↦{Transfers.shareTokN fullShare 116} f)
      ∗ (hbM0.view.loc (c : Thread nD τ) ↦{Transfers.shareTokN fullShare 115} f)
      ∗ (hbM0.view.loc (c : Thread nD τ) ↦{Transfers.shareTokN fullShare 114} f)
      ∗ (hbM0.view.loc (c : Thread nD τ) ↦{Transfers.shareTokN fullShare 113} f)
      ∗ (hbM0.view.loc (c : Thread nD τ) ↦{Transfers.shareTokN fullShare 112} f)
      ∗ (hbM0.view.loc (c : Thread nD τ) ↦{Transfers.shareTokN fullShare 111} f)
      ∗ (hbM0.view.loc (c : Thread nD τ) ↦{Transfers.shareTokN fullShare 110} f)
      ∗ (hbM0.view.loc (c : Thread nD τ) ↦{Transfers.shareTokN fullShare 109} f)
      ∗ (hbM0.view.loc (c : Thread nD τ) ↦{Transfers.shareTokN fullShare 108} f)
      ∗ (hbM0.view.loc (c : Thread nD τ) ↦{Transfers.shareTokN fullShare 107} f)
      ∗ (hbM0.view.loc (c : Thread nD τ) ↦{Transfers.shareTokN fullShare 106} f)
      ∗ (hbM0.view.loc (c : Thread nD τ) ↦{Transfers.shareTokN fullShare 105} f)
      ∗ (hbM0.view.loc (c : Thread nD τ) ↦{Transfers.shareTokN fullShare 104} f)
      ∗ (hbM0.view.loc (c : Thread nD τ) ↦{Transfers.shareTokN fullShare 103} f)
      ∗ (hbM0.view.loc (c : Thread nD τ) ↦{Transfers.shareTokN fullShare 102} f)
      ∗ (hbM0.view.loc (c : Thread nD τ) ↦{Transfers.shareTokN fullShare 101} f)
      ∗ (hbM0.view.loc (c : Thread nD τ) ↦{Transfers.shareTokN fullShare 100} f)
      ∗ (hbM0.view.loc (c : Thread nD τ) ↦{Transfers.shareTokN fullShare 99} f)
      ∗ (hbM0.view.loc (c : Thread nD τ) ↦{Transfers.shareTokN fullShare 98} f)
      ∗ (hbM0.view.loc (c : Thread nD τ) ↦{Transfers.shareTokN fullShare 97} f)
      ∗ (hbM0.view.loc (c : Thread nD τ) ↦{Transfers.shareTokN fullShare 96} f)
      ∗ (hbM0.view.loc (c : Thread nD τ) ↦{Transfers.shareTokN fullShare 95} f)
      ∗ (hbM0.view.loc (c : Thread nD τ) ↦{Transfers.shareTokN fullShare 94} f)
      ∗ (hbM0.view.loc (c : Thread nD τ) ↦{Transfers.shareTokN fullShare 93} f)
      ∗ (hbM0.view.loc (c : Thread nD τ) ↦{Transfers.shareTokN fullShare 92} f)
      ∗ (hbM0.view.loc (c : Thread nD τ) ↦{Transfers.shareTokN fullShare 91} f)
      ∗ (hbM0.view.loc (c : Thread nD τ) ↦{Transfers.shareTokN fullShare 90} f)
      ∗ (hbM0.view.loc (c : Thread nD τ) ↦{Transfers.shareTokN fullShare 89} f)
      ∗ (hbM0.view.loc (c : Thread nD τ) ↦{Transfers.shareTokN fullShare 88} f)
      ∗ (hbM0.view.loc (c : Thread nD τ) ↦{Transfers.shareTokN fullShare 87} f)
      ∗ (hbM0.view.loc (c : Thread nD τ) ↦{Transfers.shareTokN fullShare 86} f)
      ∗ (hbM0.view.loc (c : Thread nD τ) ↦{Transfers.shareTokN fullShare 85} f)
      ∗ (hbM0.view.loc (c : Thread nD τ) ↦{Transfers.shareTokN fullShare 84} f)
      ∗ (hbM0.view.loc (c : Thread nD τ) ↦{Transfers.shareTokN fullShare 83} f)
      ∗ (hbM0.view.loc (c : Thread nD τ) ↦{Transfers.shareTokN fullShare 82} f)
      ∗ (hbM0.view.loc (c : Thread nD τ) ↦{Transfers.shareTokN fullShare 81} f)
      ∗ (hbM0.view.loc (c : Thread nD τ) ↦{Transfers.shareTokN fullShare 80} f)
      ∗ (hbM0.view.loc (c : Thread nD τ) ↦{Transfers.shareTokN fullShare 79} f)
      ∗ (hbM0.view.loc (c : Thread nD τ) ↦{Transfers.shareTokN fullShare 78} f)
      ∗ (hbM0.view.loc (c : Thread nD τ) ↦{Transfers.shareTokN fullShare 77} f)
      ∗ (hbM0.view.loc (c : Thread nD τ) ↦{Transfers.shareTokN fullShare 76} f)
      ∗ (hbM0.view.loc (c : Thread nD τ) ↦{Transfers.shareTokN fullShare 75} f)
      ∗ (hbM0.view.loc (c : Thread nD τ) ↦{Transfers.shareTokN fullShare 74} f)
      ∗ (hbM0.view.loc (c : Thread nD τ) ↦{Transfers.shareTokN fullShare 73} f)
      ∗ (hbM0.view.loc (c : Thread nD τ) ↦{Transfers.shareTokN fullShare 72} f)
      ∗ (hbM0.view.loc (c : Thread nD τ) ↦{Transfers.shareTokN fullShare 71} f)
      ∗ (hbM0.view.loc (c : Thread nD τ) ↦{Transfers.shareTokN fullShare 70} f)
      ∗ (hbM0.view.loc (c : Thread nD τ) ↦{Transfers.shareTokN fullShare 69} f)
      ∗ (hbM0.view.loc (c : Thread nD τ) ↦{Transfers.shareTokN fullShare 68} f)
      ∗ (hbM0.view.loc (c : Thread nD τ) ↦{Transfers.shareTokN fullShare 67} f)
      ∗ (hbM0.view.loc (c : Thread nD τ) ↦{Transfers.shareTokN fullShare 66} f)
      ∗ (hbM0.view.loc (c : Thread nD τ) ↦{Transfers.shareTokN fullShare 65} f)
      ∗ (hbM0.view.loc (c : Thread nD τ) ↦{Transfers.shareTokN fullShare 64} f)
      ∗ (hbM0.view.loc (c : Thread nD τ) ↦{Transfers.shareTokN fullShare 63} f)
      ∗ (hbM0.view.loc (c : Thread nD τ) ↦{Transfers.shareTokN fullShare 62} f)
      ∗ (hbM0.view.loc (c : Thread nD τ) ↦{Transfers.shareTokN fullShare 61} f)
      ∗ (hbM0.view.loc (c : Thread nD τ) ↦{Transfers.shareTokN fullShare 60} f)
      ∗ (hbM0.view.loc (c : Thread nD τ) ↦{Transfers.shareTokN fullShare 59} f)
      ∗ (hbM0.view.loc (c : Thread nD τ) ↦{Transfers.shareTokN fullShare 58} f)
      ∗ (hbM0.view.loc (c : Thread nD τ) ↦{Transfers.shareTokN fullShare 57} f)
      ∗ (hbM0.view.loc (c : Thread nD τ) ↦{Transfers.shareTokN fullShare 56} f)
      ∗ (hbM0.view.loc (c : Thread nD τ) ↦{Transfers.shareTokN fullShare 55} f)
      ∗ (hbM0.view.loc (c : Thread nD τ) ↦{Transfers.shareTokN fullShare 54} f)
      ∗ (hbM0.view.loc (c : Thread nD τ) ↦{Transfers.shareTokN fullShare 53} f)
      ∗ (hbM0.view.loc (c : Thread nD τ) ↦{Transfers.shareTokN fullShare 52} f)
      ∗ (hbM0.view.loc (c : Thread nD τ) ↦{Transfers.shareTokN fullShare 51} f)
      ∗ (hbM0.view.loc (c : Thread nD τ) ↦{Transfers.shareTokN fullShare 50} f)
      ∗ (hbM0.view.loc (c : Thread nD τ) ↦{Transfers.shareTokN fullShare 49} f)
      ∗ (hbM0.view.loc (c : Thread nD τ) ↦{Transfers.shareTokN fullShare 48} f)
      ∗ (hbM0.view.loc (c : Thread nD τ) ↦{Transfers.shareTokN fullShare 47} f)
      ∗ (hbM0.view.loc (c : Thread nD τ) ↦{Transfers.shareTokN fullShare 46} f)
      ∗ (hbM0.view.loc (c : Thread nD τ) ↦{Transfers.shareTokN fullShare 45} f)
      ∗ (hbM0.view.loc (c : Thread nD τ) ↦{Transfers.shareTokN fullShare 44} f)
      ∗ (hbM0.view.loc (c : Thread nD τ) ↦{Transfers.shareTokN fullShare 43} f)
      ∗ (hbM0.view.loc (c : Thread nD τ) ↦{Transfers.shareTokN fullShare 42} f)
      ∗ (hbM0.view.loc (c : Thread nD τ) ↦{Transfers.shareTokN fullShare 41} f)
      ∗ (hbM0.view.loc (c : Thread nD τ) ↦{Transfers.shareTokN fullShare 40} f)
      ∗ (hbM0.view.loc (c : Thread nD τ) ↦{Transfers.shareTokN fullShare 39} f)
      ∗ (hbM0.view.loc (c : Thread nD τ) ↦{Transfers.shareTokN fullShare 38} f)
      ∗ (hbM0.view.loc (c : Thread nD τ) ↦{Transfers.shareTokN fullShare 37} f)
      ∗ (hbM0.view.loc (c : Thread nD τ) ↦{Transfers.shareTokN fullShare 36} f)
      ∗ (hbM0.view.loc (c : Thread nD τ) ↦{Transfers.shareTokN fullShare 35} f)
      ∗ (hbM0.view.loc (c : Thread nD τ) ↦{Transfers.shareTokN fullShare 34} f)
      ∗ (hbM0.view.loc (c : Thread nD τ) ↦{Transfers.shareTokN fullShare 33} f)
      ∗ (hbM0.view.loc (c : Thread nD τ) ↦{Transfers.shareTokN fullShare 32} f)
      ∗ (hbM0.view.loc (c : Thread nD τ) ↦{Transfers.shareTokN fullShare 31} f)
      ∗ (hbM0.view.loc (c : Thread nD τ) ↦{Transfers.shareTokN fullShare 30} f)
      ∗ (hbM0.view.loc (c : Thread nD τ) ↦{Transfers.shareTokN fullShare 29} f)
      ∗ (hbM0.view.loc (c : Thread nD τ) ↦{Transfers.shareTokN fullShare 28} f)
      ∗ (hbM0.view.loc (c : Thread nD τ) ↦{Transfers.shareTokN fullShare 27} f)
      ∗ (hbM0.view.loc (c : Thread nD τ) ↦{Transfers.shareTokN fullShare 26} f)
      ∗ (hbM0.view.loc (c : Thread nD τ) ↦{Transfers.shareTokN fullShare 25} f)
      ∗ (hbM0.view.loc (c : Thread nD τ) ↦{Transfers.shareTokN fullShare 24} f)
      ∗ (hbM0.view.loc (c : Thread nD τ) ↦{Transfers.shareTokN fullShare 23} f)
      ∗ (hbM0.view.loc (c : Thread nD τ) ↦{Transfers.shareTokN fullShare 22} f)
      ∗ (hbM0.view.loc (c : Thread nD τ) ↦{Transfers.shareTokN fullShare 21} f)
      ∗ (hbM0.view.loc (c : Thread nD τ) ↦{Transfers.shareTokN fullShare 20} f)
      ∗ (hbM0.view.loc (c : Thread nD τ) ↦{Transfers.shareTokN fullShare 19} f)
      ∗ (hbM0.view.loc (c : Thread nD τ) ↦{Transfers.shareTokN fullShare 18} f)
      ∗ (hbM0.view.loc (c : Thread nD τ) ↦{Transfers.shareTokN fullShare 17} f)
      ∗ (hbM0.view.loc (c : Thread nD τ) ↦{Transfers.shareTokN fullShare 16} f)
      ∗ (hbM0.view.loc (c : Thread nD τ) ↦{Transfers.shareTokN fullShare 15} f)
      ∗ (hbM0.view.loc (c : Thread nD τ) ↦{Transfers.shareTokN fullShare 14} f)
      ∗ (hbM0.view.loc (c : Thread nD τ) ↦{Transfers.shareTokN fullShare 13} f)
      ∗ (hbM0.view.loc (c : Thread nD τ) ↦{Transfers.shareTokN fullShare 12} f)
      ∗ (hbM0.view.loc (c : Thread nD τ) ↦{Transfers.shareTokN fullShare 11} f)
      ∗ (hbM0.view.loc (c : Thread nD τ) ↦{Transfers.shareTokN fullShare 10} f)
      ∗ emp)) : sProp 𝕄) ⊢ hbPt c hbM0 f := by
  refine (Entails.of_eq (sep_congr_eq rfl (sep_congr_eq rfl (sepL_reverse (F := F) [(hbM0.view.loc (c : Thread nD τ) ↦{Transfers.shareTokN fullShare 10} f),
      (hbM0.view.loc (c : Thread nD τ) ↦{Transfers.shareTokN fullShare 11} f),
      (hbM0.view.loc (c : Thread nD τ) ↦{Transfers.shareTokN fullShare 12} f),
      (hbM0.view.loc (c : Thread nD τ) ↦{Transfers.shareTokN fullShare 13} f),
      (hbM0.view.loc (c : Thread nD τ) ↦{Transfers.shareTokN fullShare 14} f),
      (hbM0.view.loc (c : Thread nD τ) ↦{Transfers.shareTokN fullShare 15} f),
      (hbM0.view.loc (c : Thread nD τ) ↦{Transfers.shareTokN fullShare 16} f),
      (hbM0.view.loc (c : Thread nD τ) ↦{Transfers.shareTokN fullShare 17} f),
      (hbM0.view.loc (c : Thread nD τ) ↦{Transfers.shareTokN fullShare 18} f),
      (hbM0.view.loc (c : Thread nD τ) ↦{Transfers.shareTokN fullShare 19} f),
      (hbM0.view.loc (c : Thread nD τ) ↦{Transfers.shareTokN fullShare 20} f),
      (hbM0.view.loc (c : Thread nD τ) ↦{Transfers.shareTokN fullShare 21} f),
      (hbM0.view.loc (c : Thread nD τ) ↦{Transfers.shareTokN fullShare 22} f),
      (hbM0.view.loc (c : Thread nD τ) ↦{Transfers.shareTokN fullShare 23} f),
      (hbM0.view.loc (c : Thread nD τ) ↦{Transfers.shareTokN fullShare 24} f),
      (hbM0.view.loc (c : Thread nD τ) ↦{Transfers.shareTokN fullShare 25} f),
      (hbM0.view.loc (c : Thread nD τ) ↦{Transfers.shareTokN fullShare 26} f),
      (hbM0.view.loc (c : Thread nD τ) ↦{Transfers.shareTokN fullShare 27} f),
      (hbM0.view.loc (c : Thread nD τ) ↦{Transfers.shareTokN fullShare 28} f),
      (hbM0.view.loc (c : Thread nD τ) ↦{Transfers.shareTokN fullShare 29} f),
      (hbM0.view.loc (c : Thread nD τ) ↦{Transfers.shareTokN fullShare 30} f),
      (hbM0.view.loc (c : Thread nD τ) ↦{Transfers.shareTokN fullShare 31} f),
      (hbM0.view.loc (c : Thread nD τ) ↦{Transfers.shareTokN fullShare 32} f),
      (hbM0.view.loc (c : Thread nD τ) ↦{Transfers.shareTokN fullShare 33} f),
      (hbM0.view.loc (c : Thread nD τ) ↦{Transfers.shareTokN fullShare 34} f),
      (hbM0.view.loc (c : Thread nD τ) ↦{Transfers.shareTokN fullShare 35} f),
      (hbM0.view.loc (c : Thread nD τ) ↦{Transfers.shareTokN fullShare 36} f),
      (hbM0.view.loc (c : Thread nD τ) ↦{Transfers.shareTokN fullShare 37} f),
      (hbM0.view.loc (c : Thread nD τ) ↦{Transfers.shareTokN fullShare 38} f),
      (hbM0.view.loc (c : Thread nD τ) ↦{Transfers.shareTokN fullShare 39} f),
      (hbM0.view.loc (c : Thread nD τ) ↦{Transfers.shareTokN fullShare 40} f),
      (hbM0.view.loc (c : Thread nD τ) ↦{Transfers.shareTokN fullShare 41} f),
      (hbM0.view.loc (c : Thread nD τ) ↦{Transfers.shareTokN fullShare 42} f),
      (hbM0.view.loc (c : Thread nD τ) ↦{Transfers.shareTokN fullShare 43} f),
      (hbM0.view.loc (c : Thread nD τ) ↦{Transfers.shareTokN fullShare 44} f),
      (hbM0.view.loc (c : Thread nD τ) ↦{Transfers.shareTokN fullShare 45} f),
      (hbM0.view.loc (c : Thread nD τ) ↦{Transfers.shareTokN fullShare 46} f),
      (hbM0.view.loc (c : Thread nD τ) ↦{Transfers.shareTokN fullShare 47} f),
      (hbM0.view.loc (c : Thread nD τ) ↦{Transfers.shareTokN fullShare 48} f),
      (hbM0.view.loc (c : Thread nD τ) ↦{Transfers.shareTokN fullShare 49} f),
      (hbM0.view.loc (c : Thread nD τ) ↦{Transfers.shareTokN fullShare 50} f),
      (hbM0.view.loc (c : Thread nD τ) ↦{Transfers.shareTokN fullShare 51} f),
      (hbM0.view.loc (c : Thread nD τ) ↦{Transfers.shareTokN fullShare 52} f),
      (hbM0.view.loc (c : Thread nD τ) ↦{Transfers.shareTokN fullShare 53} f),
      (hbM0.view.loc (c : Thread nD τ) ↦{Transfers.shareTokN fullShare 54} f),
      (hbM0.view.loc (c : Thread nD τ) ↦{Transfers.shareTokN fullShare 55} f),
      (hbM0.view.loc (c : Thread nD τ) ↦{Transfers.shareTokN fullShare 56} f),
      (hbM0.view.loc (c : Thread nD τ) ↦{Transfers.shareTokN fullShare 57} f),
      (hbM0.view.loc (c : Thread nD τ) ↦{Transfers.shareTokN fullShare 58} f),
      (hbM0.view.loc (c : Thread nD τ) ↦{Transfers.shareTokN fullShare 59} f),
      (hbM0.view.loc (c : Thread nD τ) ↦{Transfers.shareTokN fullShare 60} f),
      (hbM0.view.loc (c : Thread nD τ) ↦{Transfers.shareTokN fullShare 61} f),
      (hbM0.view.loc (c : Thread nD τ) ↦{Transfers.shareTokN fullShare 62} f),
      (hbM0.view.loc (c : Thread nD τ) ↦{Transfers.shareTokN fullShare 63} f),
      (hbM0.view.loc (c : Thread nD τ) ↦{Transfers.shareTokN fullShare 64} f),
      (hbM0.view.loc (c : Thread nD τ) ↦{Transfers.shareTokN fullShare 65} f),
      (hbM0.view.loc (c : Thread nD τ) ↦{Transfers.shareTokN fullShare 66} f),
      (hbM0.view.loc (c : Thread nD τ) ↦{Transfers.shareTokN fullShare 67} f),
      (hbM0.view.loc (c : Thread nD τ) ↦{Transfers.shareTokN fullShare 68} f),
      (hbM0.view.loc (c : Thread nD τ) ↦{Transfers.shareTokN fullShare 69} f),
      (hbM0.view.loc (c : Thread nD τ) ↦{Transfers.shareTokN fullShare 70} f),
      (hbM0.view.loc (c : Thread nD τ) ↦{Transfers.shareTokN fullShare 71} f),
      (hbM0.view.loc (c : Thread nD τ) ↦{Transfers.shareTokN fullShare 72} f),
      (hbM0.view.loc (c : Thread nD τ) ↦{Transfers.shareTokN fullShare 73} f),
      (hbM0.view.loc (c : Thread nD τ) ↦{Transfers.shareTokN fullShare 74} f),
      (hbM0.view.loc (c : Thread nD τ) ↦{Transfers.shareTokN fullShare 75} f),
      (hbM0.view.loc (c : Thread nD τ) ↦{Transfers.shareTokN fullShare 76} f),
      (hbM0.view.loc (c : Thread nD τ) ↦{Transfers.shareTokN fullShare 77} f),
      (hbM0.view.loc (c : Thread nD τ) ↦{Transfers.shareTokN fullShare 78} f),
      (hbM0.view.loc (c : Thread nD τ) ↦{Transfers.shareTokN fullShare 79} f),
      (hbM0.view.loc (c : Thread nD τ) ↦{Transfers.shareTokN fullShare 80} f),
      (hbM0.view.loc (c : Thread nD τ) ↦{Transfers.shareTokN fullShare 81} f),
      (hbM0.view.loc (c : Thread nD τ) ↦{Transfers.shareTokN fullShare 82} f),
      (hbM0.view.loc (c : Thread nD τ) ↦{Transfers.shareTokN fullShare 83} f),
      (hbM0.view.loc (c : Thread nD τ) ↦{Transfers.shareTokN fullShare 84} f),
      (hbM0.view.loc (c : Thread nD τ) ↦{Transfers.shareTokN fullShare 85} f),
      (hbM0.view.loc (c : Thread nD τ) ↦{Transfers.shareTokN fullShare 86} f),
      (hbM0.view.loc (c : Thread nD τ) ↦{Transfers.shareTokN fullShare 87} f),
      (hbM0.view.loc (c : Thread nD τ) ↦{Transfers.shareTokN fullShare 88} f),
      (hbM0.view.loc (c : Thread nD τ) ↦{Transfers.shareTokN fullShare 89} f),
      (hbM0.view.loc (c : Thread nD τ) ↦{Transfers.shareTokN fullShare 90} f),
      (hbM0.view.loc (c : Thread nD τ) ↦{Transfers.shareTokN fullShare 91} f),
      (hbM0.view.loc (c : Thread nD τ) ↦{Transfers.shareTokN fullShare 92} f),
      (hbM0.view.loc (c : Thread nD τ) ↦{Transfers.shareTokN fullShare 93} f),
      (hbM0.view.loc (c : Thread nD τ) ↦{Transfers.shareTokN fullShare 94} f),
      (hbM0.view.loc (c : Thread nD τ) ↦{Transfers.shareTokN fullShare 95} f),
      (hbM0.view.loc (c : Thread nD τ) ↦{Transfers.shareTokN fullShare 96} f),
      (hbM0.view.loc (c : Thread nD τ) ↦{Transfers.shareTokN fullShare 97} f),
      (hbM0.view.loc (c : Thread nD τ) ↦{Transfers.shareTokN fullShare 98} f),
      (hbM0.view.loc (c : Thread nD τ) ↦{Transfers.shareTokN fullShare 99} f),
      (hbM0.view.loc (c : Thread nD τ) ↦{Transfers.shareTokN fullShare 100} f),
      (hbM0.view.loc (c : Thread nD τ) ↦{Transfers.shareTokN fullShare 101} f),
      (hbM0.view.loc (c : Thread nD τ) ↦{Transfers.shareTokN fullShare 102} f),
      (hbM0.view.loc (c : Thread nD τ) ↦{Transfers.shareTokN fullShare 103} f),
      (hbM0.view.loc (c : Thread nD τ) ↦{Transfers.shareTokN fullShare 104} f),
      (hbM0.view.loc (c : Thread nD τ) ↦{Transfers.shareTokN fullShare 105} f),
      (hbM0.view.loc (c : Thread nD τ) ↦{Transfers.shareTokN fullShare 106} f),
      (hbM0.view.loc (c : Thread nD τ) ↦{Transfers.shareTokN fullShare 107} f),
      (hbM0.view.loc (c : Thread nD τ) ↦{Transfers.shareTokN fullShare 108} f),
      (hbM0.view.loc (c : Thread nD τ) ↦{Transfers.shareTokN fullShare 109} f),
      (hbM0.view.loc (c : Thread nD τ) ↦{Transfers.shareTokN fullShare 110} f),
      (hbM0.view.loc (c : Thread nD τ) ↦{Transfers.shareTokN fullShare 111} f),
      (hbM0.view.loc (c : Thread nD τ) ↦{Transfers.shareTokN fullShare 112} f),
      (hbM0.view.loc (c : Thread nD τ) ↦{Transfers.shareTokN fullShare 113} f),
      (hbM0.view.loc (c : Thread nD τ) ↦{Transfers.shareTokN fullShare 114} f),
      (hbM0.view.loc (c : Thread nD τ) ↦{Transfers.shareTokN fullShare 115} f),
      (hbM0.view.loc (c : Thread nD τ) ↦{Transfers.shareTokN fullShare 116} f),
      (hbM0.view.loc (c : Thread nD τ) ↦{Transfers.shareTokN fullShare 117} f),
      (hbM0.view.loc (c : Thread nD τ) ↦{Transfers.shareTokN fullShare 118} f),
      (hbM0.view.loc (c : Thread nD τ) ↦{Transfers.shareTokN fullShare 119} f),
      (hbM0.view.loc (c : Thread nD τ) ↦{Transfers.shareTokN fullShare 120} f),
      (hbM0.view.loc (c : Thread nD τ) ↦{Transfers.shareTokN fullShare 121} f),
      (hbM0.view.loc (c : Thread nD τ) ↦{Transfers.shareTokN fullShare 122} f),
      (hbM0.view.loc (c : Thread nD τ) ↦{Transfers.shareTokN fullShare 123} f),
      (hbM0.view.loc (c : Thread nD τ) ↦{Transfers.shareTokN fullShare 124} f),
      (hbM0.view.loc (c : Thread nD τ) ↦{Transfers.shareTokN fullShare 125} f),
      (hbM0.view.loc (c : Thread nD τ) ↦{Transfers.shareTokN fullShare 126} f),
      (hbM0.view.loc (c : Thread nD τ) ↦{Transfers.shareTokN fullShare 127} f),
      (hbM0.view.loc (c : Thread nD τ) ↦{Transfers.shareTokN fullShare 128} f),
      (hbM0.view.loc (c : Thread nD τ) ↦{Transfers.shareTokN fullShare 129} f),
      (hbM0.view.loc (c : Thread nD τ) ↦{Transfers.shareTokN fullShare 130} f),
      (hbM0.view.loc (c : Thread nD τ) ↦{Transfers.shareTokN fullShare 131} f),
      (hbM0.view.loc (c : Thread nD τ) ↦{Transfers.shareTokN fullShare 132} f),
      (hbM0.view.loc (c : Thread nD τ) ↦{Transfers.shareTokN fullShare 133} f),
      (hbM0.view.loc (c : Thread nD τ) ↦{Transfers.shareTokN fullShare 134} f),
      (hbM0.view.loc (c : Thread nD τ) ↦{Transfers.shareTokN fullShare 135} f),
      (hbM0.view.loc (c : Thread nD τ) ↦{Transfers.shareTokN fullShare 136} f),
      (hbM0.view.loc (c : Thread nD τ) ↦{Transfers.shareTokN fullShare 137} f)])))).trans ?_
  have h := (toks_up (F := F) (ℓ := hbM0.view.loc (c : Thread nD τ)) f 10 128).2
  simp only [chainUp, Nat.reduceAdd] at h
  simp only [sepL]
  exact h

set_option maxHeartbeats 16000000 in
/-- The second data table's remainder, its 138 lowest tokens and tokens 265 … 138 and 393 … 266, each highest first, are the
    table held whole. -/
theorem tokV_down (c : Dev nD) (f : BufOf (F := F) c hbM1) :
    (iprop((hbM1.view.loc (c : Thread nD τ) ↦{Transfers.shareDrop fullShare 394} f)
      ∗ bigSep (Finset.range 138) (tokAt f)
      ∗ ((hbM1.view.loc (c : Thread nD τ) ↦{Transfers.shareTokN fullShare 265} f)
      ∗ (hbM1.view.loc (c : Thread nD τ) ↦{Transfers.shareTokN fullShare 264} f)
      ∗ (hbM1.view.loc (c : Thread nD τ) ↦{Transfers.shareTokN fullShare 263} f)
      ∗ (hbM1.view.loc (c : Thread nD τ) ↦{Transfers.shareTokN fullShare 262} f)
      ∗ (hbM1.view.loc (c : Thread nD τ) ↦{Transfers.shareTokN fullShare 261} f)
      ∗ (hbM1.view.loc (c : Thread nD τ) ↦{Transfers.shareTokN fullShare 260} f)
      ∗ (hbM1.view.loc (c : Thread nD τ) ↦{Transfers.shareTokN fullShare 259} f)
      ∗ (hbM1.view.loc (c : Thread nD τ) ↦{Transfers.shareTokN fullShare 258} f)
      ∗ (hbM1.view.loc (c : Thread nD τ) ↦{Transfers.shareTokN fullShare 257} f)
      ∗ (hbM1.view.loc (c : Thread nD τ) ↦{Transfers.shareTokN fullShare 256} f)
      ∗ (hbM1.view.loc (c : Thread nD τ) ↦{Transfers.shareTokN fullShare 255} f)
      ∗ (hbM1.view.loc (c : Thread nD τ) ↦{Transfers.shareTokN fullShare 254} f)
      ∗ (hbM1.view.loc (c : Thread nD τ) ↦{Transfers.shareTokN fullShare 253} f)
      ∗ (hbM1.view.loc (c : Thread nD τ) ↦{Transfers.shareTokN fullShare 252} f)
      ∗ (hbM1.view.loc (c : Thread nD τ) ↦{Transfers.shareTokN fullShare 251} f)
      ∗ (hbM1.view.loc (c : Thread nD τ) ↦{Transfers.shareTokN fullShare 250} f)
      ∗ (hbM1.view.loc (c : Thread nD τ) ↦{Transfers.shareTokN fullShare 249} f)
      ∗ (hbM1.view.loc (c : Thread nD τ) ↦{Transfers.shareTokN fullShare 248} f)
      ∗ (hbM1.view.loc (c : Thread nD τ) ↦{Transfers.shareTokN fullShare 247} f)
      ∗ (hbM1.view.loc (c : Thread nD τ) ↦{Transfers.shareTokN fullShare 246} f)
      ∗ (hbM1.view.loc (c : Thread nD τ) ↦{Transfers.shareTokN fullShare 245} f)
      ∗ (hbM1.view.loc (c : Thread nD τ) ↦{Transfers.shareTokN fullShare 244} f)
      ∗ (hbM1.view.loc (c : Thread nD τ) ↦{Transfers.shareTokN fullShare 243} f)
      ∗ (hbM1.view.loc (c : Thread nD τ) ↦{Transfers.shareTokN fullShare 242} f)
      ∗ (hbM1.view.loc (c : Thread nD τ) ↦{Transfers.shareTokN fullShare 241} f)
      ∗ (hbM1.view.loc (c : Thread nD τ) ↦{Transfers.shareTokN fullShare 240} f)
      ∗ (hbM1.view.loc (c : Thread nD τ) ↦{Transfers.shareTokN fullShare 239} f)
      ∗ (hbM1.view.loc (c : Thread nD τ) ↦{Transfers.shareTokN fullShare 238} f)
      ∗ (hbM1.view.loc (c : Thread nD τ) ↦{Transfers.shareTokN fullShare 237} f)
      ∗ (hbM1.view.loc (c : Thread nD τ) ↦{Transfers.shareTokN fullShare 236} f)
      ∗ (hbM1.view.loc (c : Thread nD τ) ↦{Transfers.shareTokN fullShare 235} f)
      ∗ (hbM1.view.loc (c : Thread nD τ) ↦{Transfers.shareTokN fullShare 234} f)
      ∗ (hbM1.view.loc (c : Thread nD τ) ↦{Transfers.shareTokN fullShare 233} f)
      ∗ (hbM1.view.loc (c : Thread nD τ) ↦{Transfers.shareTokN fullShare 232} f)
      ∗ (hbM1.view.loc (c : Thread nD τ) ↦{Transfers.shareTokN fullShare 231} f)
      ∗ (hbM1.view.loc (c : Thread nD τ) ↦{Transfers.shareTokN fullShare 230} f)
      ∗ (hbM1.view.loc (c : Thread nD τ) ↦{Transfers.shareTokN fullShare 229} f)
      ∗ (hbM1.view.loc (c : Thread nD τ) ↦{Transfers.shareTokN fullShare 228} f)
      ∗ (hbM1.view.loc (c : Thread nD τ) ↦{Transfers.shareTokN fullShare 227} f)
      ∗ (hbM1.view.loc (c : Thread nD τ) ↦{Transfers.shareTokN fullShare 226} f)
      ∗ (hbM1.view.loc (c : Thread nD τ) ↦{Transfers.shareTokN fullShare 225} f)
      ∗ (hbM1.view.loc (c : Thread nD τ) ↦{Transfers.shareTokN fullShare 224} f)
      ∗ (hbM1.view.loc (c : Thread nD τ) ↦{Transfers.shareTokN fullShare 223} f)
      ∗ (hbM1.view.loc (c : Thread nD τ) ↦{Transfers.shareTokN fullShare 222} f)
      ∗ (hbM1.view.loc (c : Thread nD τ) ↦{Transfers.shareTokN fullShare 221} f)
      ∗ (hbM1.view.loc (c : Thread nD τ) ↦{Transfers.shareTokN fullShare 220} f)
      ∗ (hbM1.view.loc (c : Thread nD τ) ↦{Transfers.shareTokN fullShare 219} f)
      ∗ (hbM1.view.loc (c : Thread nD τ) ↦{Transfers.shareTokN fullShare 218} f)
      ∗ (hbM1.view.loc (c : Thread nD τ) ↦{Transfers.shareTokN fullShare 217} f)
      ∗ (hbM1.view.loc (c : Thread nD τ) ↦{Transfers.shareTokN fullShare 216} f)
      ∗ (hbM1.view.loc (c : Thread nD τ) ↦{Transfers.shareTokN fullShare 215} f)
      ∗ (hbM1.view.loc (c : Thread nD τ) ↦{Transfers.shareTokN fullShare 214} f)
      ∗ (hbM1.view.loc (c : Thread nD τ) ↦{Transfers.shareTokN fullShare 213} f)
      ∗ (hbM1.view.loc (c : Thread nD τ) ↦{Transfers.shareTokN fullShare 212} f)
      ∗ (hbM1.view.loc (c : Thread nD τ) ↦{Transfers.shareTokN fullShare 211} f)
      ∗ (hbM1.view.loc (c : Thread nD τ) ↦{Transfers.shareTokN fullShare 210} f)
      ∗ (hbM1.view.loc (c : Thread nD τ) ↦{Transfers.shareTokN fullShare 209} f)
      ∗ (hbM1.view.loc (c : Thread nD τ) ↦{Transfers.shareTokN fullShare 208} f)
      ∗ (hbM1.view.loc (c : Thread nD τ) ↦{Transfers.shareTokN fullShare 207} f)
      ∗ (hbM1.view.loc (c : Thread nD τ) ↦{Transfers.shareTokN fullShare 206} f)
      ∗ (hbM1.view.loc (c : Thread nD τ) ↦{Transfers.shareTokN fullShare 205} f)
      ∗ (hbM1.view.loc (c : Thread nD τ) ↦{Transfers.shareTokN fullShare 204} f)
      ∗ (hbM1.view.loc (c : Thread nD τ) ↦{Transfers.shareTokN fullShare 203} f)
      ∗ (hbM1.view.loc (c : Thread nD τ) ↦{Transfers.shareTokN fullShare 202} f)
      ∗ (hbM1.view.loc (c : Thread nD τ) ↦{Transfers.shareTokN fullShare 201} f)
      ∗ (hbM1.view.loc (c : Thread nD τ) ↦{Transfers.shareTokN fullShare 200} f)
      ∗ (hbM1.view.loc (c : Thread nD τ) ↦{Transfers.shareTokN fullShare 199} f)
      ∗ (hbM1.view.loc (c : Thread nD τ) ↦{Transfers.shareTokN fullShare 198} f)
      ∗ (hbM1.view.loc (c : Thread nD τ) ↦{Transfers.shareTokN fullShare 197} f)
      ∗ (hbM1.view.loc (c : Thread nD τ) ↦{Transfers.shareTokN fullShare 196} f)
      ∗ (hbM1.view.loc (c : Thread nD τ) ↦{Transfers.shareTokN fullShare 195} f)
      ∗ (hbM1.view.loc (c : Thread nD τ) ↦{Transfers.shareTokN fullShare 194} f)
      ∗ (hbM1.view.loc (c : Thread nD τ) ↦{Transfers.shareTokN fullShare 193} f)
      ∗ (hbM1.view.loc (c : Thread nD τ) ↦{Transfers.shareTokN fullShare 192} f)
      ∗ (hbM1.view.loc (c : Thread nD τ) ↦{Transfers.shareTokN fullShare 191} f)
      ∗ (hbM1.view.loc (c : Thread nD τ) ↦{Transfers.shareTokN fullShare 190} f)
      ∗ (hbM1.view.loc (c : Thread nD τ) ↦{Transfers.shareTokN fullShare 189} f)
      ∗ (hbM1.view.loc (c : Thread nD τ) ↦{Transfers.shareTokN fullShare 188} f)
      ∗ (hbM1.view.loc (c : Thread nD τ) ↦{Transfers.shareTokN fullShare 187} f)
      ∗ (hbM1.view.loc (c : Thread nD τ) ↦{Transfers.shareTokN fullShare 186} f)
      ∗ (hbM1.view.loc (c : Thread nD τ) ↦{Transfers.shareTokN fullShare 185} f)
      ∗ (hbM1.view.loc (c : Thread nD τ) ↦{Transfers.shareTokN fullShare 184} f)
      ∗ (hbM1.view.loc (c : Thread nD τ) ↦{Transfers.shareTokN fullShare 183} f)
      ∗ (hbM1.view.loc (c : Thread nD τ) ↦{Transfers.shareTokN fullShare 182} f)
      ∗ (hbM1.view.loc (c : Thread nD τ) ↦{Transfers.shareTokN fullShare 181} f)
      ∗ (hbM1.view.loc (c : Thread nD τ) ↦{Transfers.shareTokN fullShare 180} f)
      ∗ (hbM1.view.loc (c : Thread nD τ) ↦{Transfers.shareTokN fullShare 179} f)
      ∗ (hbM1.view.loc (c : Thread nD τ) ↦{Transfers.shareTokN fullShare 178} f)
      ∗ (hbM1.view.loc (c : Thread nD τ) ↦{Transfers.shareTokN fullShare 177} f)
      ∗ (hbM1.view.loc (c : Thread nD τ) ↦{Transfers.shareTokN fullShare 176} f)
      ∗ (hbM1.view.loc (c : Thread nD τ) ↦{Transfers.shareTokN fullShare 175} f)
      ∗ (hbM1.view.loc (c : Thread nD τ) ↦{Transfers.shareTokN fullShare 174} f)
      ∗ (hbM1.view.loc (c : Thread nD τ) ↦{Transfers.shareTokN fullShare 173} f)
      ∗ (hbM1.view.loc (c : Thread nD τ) ↦{Transfers.shareTokN fullShare 172} f)
      ∗ (hbM1.view.loc (c : Thread nD τ) ↦{Transfers.shareTokN fullShare 171} f)
      ∗ (hbM1.view.loc (c : Thread nD τ) ↦{Transfers.shareTokN fullShare 170} f)
      ∗ (hbM1.view.loc (c : Thread nD τ) ↦{Transfers.shareTokN fullShare 169} f)
      ∗ (hbM1.view.loc (c : Thread nD τ) ↦{Transfers.shareTokN fullShare 168} f)
      ∗ (hbM1.view.loc (c : Thread nD τ) ↦{Transfers.shareTokN fullShare 167} f)
      ∗ (hbM1.view.loc (c : Thread nD τ) ↦{Transfers.shareTokN fullShare 166} f)
      ∗ (hbM1.view.loc (c : Thread nD τ) ↦{Transfers.shareTokN fullShare 165} f)
      ∗ (hbM1.view.loc (c : Thread nD τ) ↦{Transfers.shareTokN fullShare 164} f)
      ∗ (hbM1.view.loc (c : Thread nD τ) ↦{Transfers.shareTokN fullShare 163} f)
      ∗ (hbM1.view.loc (c : Thread nD τ) ↦{Transfers.shareTokN fullShare 162} f)
      ∗ (hbM1.view.loc (c : Thread nD τ) ↦{Transfers.shareTokN fullShare 161} f)
      ∗ (hbM1.view.loc (c : Thread nD τ) ↦{Transfers.shareTokN fullShare 160} f)
      ∗ (hbM1.view.loc (c : Thread nD τ) ↦{Transfers.shareTokN fullShare 159} f)
      ∗ (hbM1.view.loc (c : Thread nD τ) ↦{Transfers.shareTokN fullShare 158} f)
      ∗ (hbM1.view.loc (c : Thread nD τ) ↦{Transfers.shareTokN fullShare 157} f)
      ∗ (hbM1.view.loc (c : Thread nD τ) ↦{Transfers.shareTokN fullShare 156} f)
      ∗ (hbM1.view.loc (c : Thread nD τ) ↦{Transfers.shareTokN fullShare 155} f)
      ∗ (hbM1.view.loc (c : Thread nD τ) ↦{Transfers.shareTokN fullShare 154} f)
      ∗ (hbM1.view.loc (c : Thread nD τ) ↦{Transfers.shareTokN fullShare 153} f)
      ∗ (hbM1.view.loc (c : Thread nD τ) ↦{Transfers.shareTokN fullShare 152} f)
      ∗ (hbM1.view.loc (c : Thread nD τ) ↦{Transfers.shareTokN fullShare 151} f)
      ∗ (hbM1.view.loc (c : Thread nD τ) ↦{Transfers.shareTokN fullShare 150} f)
      ∗ (hbM1.view.loc (c : Thread nD τ) ↦{Transfers.shareTokN fullShare 149} f)
      ∗ (hbM1.view.loc (c : Thread nD τ) ↦{Transfers.shareTokN fullShare 148} f)
      ∗ (hbM1.view.loc (c : Thread nD τ) ↦{Transfers.shareTokN fullShare 147} f)
      ∗ (hbM1.view.loc (c : Thread nD τ) ↦{Transfers.shareTokN fullShare 146} f)
      ∗ (hbM1.view.loc (c : Thread nD τ) ↦{Transfers.shareTokN fullShare 145} f)
      ∗ (hbM1.view.loc (c : Thread nD τ) ↦{Transfers.shareTokN fullShare 144} f)
      ∗ (hbM1.view.loc (c : Thread nD τ) ↦{Transfers.shareTokN fullShare 143} f)
      ∗ (hbM1.view.loc (c : Thread nD τ) ↦{Transfers.shareTokN fullShare 142} f)
      ∗ (hbM1.view.loc (c : Thread nD τ) ↦{Transfers.shareTokN fullShare 141} f)
      ∗ (hbM1.view.loc (c : Thread nD τ) ↦{Transfers.shareTokN fullShare 140} f)
      ∗ (hbM1.view.loc (c : Thread nD τ) ↦{Transfers.shareTokN fullShare 139} f)
      ∗ (hbM1.view.loc (c : Thread nD τ) ↦{Transfers.shareTokN fullShare 138} f)
      ∗ emp)
      ∗ ((hbM1.view.loc (c : Thread nD τ) ↦{Transfers.shareTokN fullShare 393} f)
      ∗ (hbM1.view.loc (c : Thread nD τ) ↦{Transfers.shareTokN fullShare 392} f)
      ∗ (hbM1.view.loc (c : Thread nD τ) ↦{Transfers.shareTokN fullShare 391} f)
      ∗ (hbM1.view.loc (c : Thread nD τ) ↦{Transfers.shareTokN fullShare 390} f)
      ∗ (hbM1.view.loc (c : Thread nD τ) ↦{Transfers.shareTokN fullShare 389} f)
      ∗ (hbM1.view.loc (c : Thread nD τ) ↦{Transfers.shareTokN fullShare 388} f)
      ∗ (hbM1.view.loc (c : Thread nD τ) ↦{Transfers.shareTokN fullShare 387} f)
      ∗ (hbM1.view.loc (c : Thread nD τ) ↦{Transfers.shareTokN fullShare 386} f)
      ∗ (hbM1.view.loc (c : Thread nD τ) ↦{Transfers.shareTokN fullShare 385} f)
      ∗ (hbM1.view.loc (c : Thread nD τ) ↦{Transfers.shareTokN fullShare 384} f)
      ∗ (hbM1.view.loc (c : Thread nD τ) ↦{Transfers.shareTokN fullShare 383} f)
      ∗ (hbM1.view.loc (c : Thread nD τ) ↦{Transfers.shareTokN fullShare 382} f)
      ∗ (hbM1.view.loc (c : Thread nD τ) ↦{Transfers.shareTokN fullShare 381} f)
      ∗ (hbM1.view.loc (c : Thread nD τ) ↦{Transfers.shareTokN fullShare 380} f)
      ∗ (hbM1.view.loc (c : Thread nD τ) ↦{Transfers.shareTokN fullShare 379} f)
      ∗ (hbM1.view.loc (c : Thread nD τ) ↦{Transfers.shareTokN fullShare 378} f)
      ∗ (hbM1.view.loc (c : Thread nD τ) ↦{Transfers.shareTokN fullShare 377} f)
      ∗ (hbM1.view.loc (c : Thread nD τ) ↦{Transfers.shareTokN fullShare 376} f)
      ∗ (hbM1.view.loc (c : Thread nD τ) ↦{Transfers.shareTokN fullShare 375} f)
      ∗ (hbM1.view.loc (c : Thread nD τ) ↦{Transfers.shareTokN fullShare 374} f)
      ∗ (hbM1.view.loc (c : Thread nD τ) ↦{Transfers.shareTokN fullShare 373} f)
      ∗ (hbM1.view.loc (c : Thread nD τ) ↦{Transfers.shareTokN fullShare 372} f)
      ∗ (hbM1.view.loc (c : Thread nD τ) ↦{Transfers.shareTokN fullShare 371} f)
      ∗ (hbM1.view.loc (c : Thread nD τ) ↦{Transfers.shareTokN fullShare 370} f)
      ∗ (hbM1.view.loc (c : Thread nD τ) ↦{Transfers.shareTokN fullShare 369} f)
      ∗ (hbM1.view.loc (c : Thread nD τ) ↦{Transfers.shareTokN fullShare 368} f)
      ∗ (hbM1.view.loc (c : Thread nD τ) ↦{Transfers.shareTokN fullShare 367} f)
      ∗ (hbM1.view.loc (c : Thread nD τ) ↦{Transfers.shareTokN fullShare 366} f)
      ∗ (hbM1.view.loc (c : Thread nD τ) ↦{Transfers.shareTokN fullShare 365} f)
      ∗ (hbM1.view.loc (c : Thread nD τ) ↦{Transfers.shareTokN fullShare 364} f)
      ∗ (hbM1.view.loc (c : Thread nD τ) ↦{Transfers.shareTokN fullShare 363} f)
      ∗ (hbM1.view.loc (c : Thread nD τ) ↦{Transfers.shareTokN fullShare 362} f)
      ∗ (hbM1.view.loc (c : Thread nD τ) ↦{Transfers.shareTokN fullShare 361} f)
      ∗ (hbM1.view.loc (c : Thread nD τ) ↦{Transfers.shareTokN fullShare 360} f)
      ∗ (hbM1.view.loc (c : Thread nD τ) ↦{Transfers.shareTokN fullShare 359} f)
      ∗ (hbM1.view.loc (c : Thread nD τ) ↦{Transfers.shareTokN fullShare 358} f)
      ∗ (hbM1.view.loc (c : Thread nD τ) ↦{Transfers.shareTokN fullShare 357} f)
      ∗ (hbM1.view.loc (c : Thread nD τ) ↦{Transfers.shareTokN fullShare 356} f)
      ∗ (hbM1.view.loc (c : Thread nD τ) ↦{Transfers.shareTokN fullShare 355} f)
      ∗ (hbM1.view.loc (c : Thread nD τ) ↦{Transfers.shareTokN fullShare 354} f)
      ∗ (hbM1.view.loc (c : Thread nD τ) ↦{Transfers.shareTokN fullShare 353} f)
      ∗ (hbM1.view.loc (c : Thread nD τ) ↦{Transfers.shareTokN fullShare 352} f)
      ∗ (hbM1.view.loc (c : Thread nD τ) ↦{Transfers.shareTokN fullShare 351} f)
      ∗ (hbM1.view.loc (c : Thread nD τ) ↦{Transfers.shareTokN fullShare 350} f)
      ∗ (hbM1.view.loc (c : Thread nD τ) ↦{Transfers.shareTokN fullShare 349} f)
      ∗ (hbM1.view.loc (c : Thread nD τ) ↦{Transfers.shareTokN fullShare 348} f)
      ∗ (hbM1.view.loc (c : Thread nD τ) ↦{Transfers.shareTokN fullShare 347} f)
      ∗ (hbM1.view.loc (c : Thread nD τ) ↦{Transfers.shareTokN fullShare 346} f)
      ∗ (hbM1.view.loc (c : Thread nD τ) ↦{Transfers.shareTokN fullShare 345} f)
      ∗ (hbM1.view.loc (c : Thread nD τ) ↦{Transfers.shareTokN fullShare 344} f)
      ∗ (hbM1.view.loc (c : Thread nD τ) ↦{Transfers.shareTokN fullShare 343} f)
      ∗ (hbM1.view.loc (c : Thread nD τ) ↦{Transfers.shareTokN fullShare 342} f)
      ∗ (hbM1.view.loc (c : Thread nD τ) ↦{Transfers.shareTokN fullShare 341} f)
      ∗ (hbM1.view.loc (c : Thread nD τ) ↦{Transfers.shareTokN fullShare 340} f)
      ∗ (hbM1.view.loc (c : Thread nD τ) ↦{Transfers.shareTokN fullShare 339} f)
      ∗ (hbM1.view.loc (c : Thread nD τ) ↦{Transfers.shareTokN fullShare 338} f)
      ∗ (hbM1.view.loc (c : Thread nD τ) ↦{Transfers.shareTokN fullShare 337} f)
      ∗ (hbM1.view.loc (c : Thread nD τ) ↦{Transfers.shareTokN fullShare 336} f)
      ∗ (hbM1.view.loc (c : Thread nD τ) ↦{Transfers.shareTokN fullShare 335} f)
      ∗ (hbM1.view.loc (c : Thread nD τ) ↦{Transfers.shareTokN fullShare 334} f)
      ∗ (hbM1.view.loc (c : Thread nD τ) ↦{Transfers.shareTokN fullShare 333} f)
      ∗ (hbM1.view.loc (c : Thread nD τ) ↦{Transfers.shareTokN fullShare 332} f)
      ∗ (hbM1.view.loc (c : Thread nD τ) ↦{Transfers.shareTokN fullShare 331} f)
      ∗ (hbM1.view.loc (c : Thread nD τ) ↦{Transfers.shareTokN fullShare 330} f)
      ∗ (hbM1.view.loc (c : Thread nD τ) ↦{Transfers.shareTokN fullShare 329} f)
      ∗ (hbM1.view.loc (c : Thread nD τ) ↦{Transfers.shareTokN fullShare 328} f)
      ∗ (hbM1.view.loc (c : Thread nD τ) ↦{Transfers.shareTokN fullShare 327} f)
      ∗ (hbM1.view.loc (c : Thread nD τ) ↦{Transfers.shareTokN fullShare 326} f)
      ∗ (hbM1.view.loc (c : Thread nD τ) ↦{Transfers.shareTokN fullShare 325} f)
      ∗ (hbM1.view.loc (c : Thread nD τ) ↦{Transfers.shareTokN fullShare 324} f)
      ∗ (hbM1.view.loc (c : Thread nD τ) ↦{Transfers.shareTokN fullShare 323} f)
      ∗ (hbM1.view.loc (c : Thread nD τ) ↦{Transfers.shareTokN fullShare 322} f)
      ∗ (hbM1.view.loc (c : Thread nD τ) ↦{Transfers.shareTokN fullShare 321} f)
      ∗ (hbM1.view.loc (c : Thread nD τ) ↦{Transfers.shareTokN fullShare 320} f)
      ∗ (hbM1.view.loc (c : Thread nD τ) ↦{Transfers.shareTokN fullShare 319} f)
      ∗ (hbM1.view.loc (c : Thread nD τ) ↦{Transfers.shareTokN fullShare 318} f)
      ∗ (hbM1.view.loc (c : Thread nD τ) ↦{Transfers.shareTokN fullShare 317} f)
      ∗ (hbM1.view.loc (c : Thread nD τ) ↦{Transfers.shareTokN fullShare 316} f)
      ∗ (hbM1.view.loc (c : Thread nD τ) ↦{Transfers.shareTokN fullShare 315} f)
      ∗ (hbM1.view.loc (c : Thread nD τ) ↦{Transfers.shareTokN fullShare 314} f)
      ∗ (hbM1.view.loc (c : Thread nD τ) ↦{Transfers.shareTokN fullShare 313} f)
      ∗ (hbM1.view.loc (c : Thread nD τ) ↦{Transfers.shareTokN fullShare 312} f)
      ∗ (hbM1.view.loc (c : Thread nD τ) ↦{Transfers.shareTokN fullShare 311} f)
      ∗ (hbM1.view.loc (c : Thread nD τ) ↦{Transfers.shareTokN fullShare 310} f)
      ∗ (hbM1.view.loc (c : Thread nD τ) ↦{Transfers.shareTokN fullShare 309} f)
      ∗ (hbM1.view.loc (c : Thread nD τ) ↦{Transfers.shareTokN fullShare 308} f)
      ∗ (hbM1.view.loc (c : Thread nD τ) ↦{Transfers.shareTokN fullShare 307} f)
      ∗ (hbM1.view.loc (c : Thread nD τ) ↦{Transfers.shareTokN fullShare 306} f)
      ∗ (hbM1.view.loc (c : Thread nD τ) ↦{Transfers.shareTokN fullShare 305} f)
      ∗ (hbM1.view.loc (c : Thread nD τ) ↦{Transfers.shareTokN fullShare 304} f)
      ∗ (hbM1.view.loc (c : Thread nD τ) ↦{Transfers.shareTokN fullShare 303} f)
      ∗ (hbM1.view.loc (c : Thread nD τ) ↦{Transfers.shareTokN fullShare 302} f)
      ∗ (hbM1.view.loc (c : Thread nD τ) ↦{Transfers.shareTokN fullShare 301} f)
      ∗ (hbM1.view.loc (c : Thread nD τ) ↦{Transfers.shareTokN fullShare 300} f)
      ∗ (hbM1.view.loc (c : Thread nD τ) ↦{Transfers.shareTokN fullShare 299} f)
      ∗ (hbM1.view.loc (c : Thread nD τ) ↦{Transfers.shareTokN fullShare 298} f)
      ∗ (hbM1.view.loc (c : Thread nD τ) ↦{Transfers.shareTokN fullShare 297} f)
      ∗ (hbM1.view.loc (c : Thread nD τ) ↦{Transfers.shareTokN fullShare 296} f)
      ∗ (hbM1.view.loc (c : Thread nD τ) ↦{Transfers.shareTokN fullShare 295} f)
      ∗ (hbM1.view.loc (c : Thread nD τ) ↦{Transfers.shareTokN fullShare 294} f)
      ∗ (hbM1.view.loc (c : Thread nD τ) ↦{Transfers.shareTokN fullShare 293} f)
      ∗ (hbM1.view.loc (c : Thread nD τ) ↦{Transfers.shareTokN fullShare 292} f)
      ∗ (hbM1.view.loc (c : Thread nD τ) ↦{Transfers.shareTokN fullShare 291} f)
      ∗ (hbM1.view.loc (c : Thread nD τ) ↦{Transfers.shareTokN fullShare 290} f)
      ∗ (hbM1.view.loc (c : Thread nD τ) ↦{Transfers.shareTokN fullShare 289} f)
      ∗ (hbM1.view.loc (c : Thread nD τ) ↦{Transfers.shareTokN fullShare 288} f)
      ∗ (hbM1.view.loc (c : Thread nD τ) ↦{Transfers.shareTokN fullShare 287} f)
      ∗ (hbM1.view.loc (c : Thread nD τ) ↦{Transfers.shareTokN fullShare 286} f)
      ∗ (hbM1.view.loc (c : Thread nD τ) ↦{Transfers.shareTokN fullShare 285} f)
      ∗ (hbM1.view.loc (c : Thread nD τ) ↦{Transfers.shareTokN fullShare 284} f)
      ∗ (hbM1.view.loc (c : Thread nD τ) ↦{Transfers.shareTokN fullShare 283} f)
      ∗ (hbM1.view.loc (c : Thread nD τ) ↦{Transfers.shareTokN fullShare 282} f)
      ∗ (hbM1.view.loc (c : Thread nD τ) ↦{Transfers.shareTokN fullShare 281} f)
      ∗ (hbM1.view.loc (c : Thread nD τ) ↦{Transfers.shareTokN fullShare 280} f)
      ∗ (hbM1.view.loc (c : Thread nD τ) ↦{Transfers.shareTokN fullShare 279} f)
      ∗ (hbM1.view.loc (c : Thread nD τ) ↦{Transfers.shareTokN fullShare 278} f)
      ∗ (hbM1.view.loc (c : Thread nD τ) ↦{Transfers.shareTokN fullShare 277} f)
      ∗ (hbM1.view.loc (c : Thread nD τ) ↦{Transfers.shareTokN fullShare 276} f)
      ∗ (hbM1.view.loc (c : Thread nD τ) ↦{Transfers.shareTokN fullShare 275} f)
      ∗ (hbM1.view.loc (c : Thread nD τ) ↦{Transfers.shareTokN fullShare 274} f)
      ∗ (hbM1.view.loc (c : Thread nD τ) ↦{Transfers.shareTokN fullShare 273} f)
      ∗ (hbM1.view.loc (c : Thread nD τ) ↦{Transfers.shareTokN fullShare 272} f)
      ∗ (hbM1.view.loc (c : Thread nD τ) ↦{Transfers.shareTokN fullShare 271} f)
      ∗ (hbM1.view.loc (c : Thread nD τ) ↦{Transfers.shareTokN fullShare 270} f)
      ∗ (hbM1.view.loc (c : Thread nD τ) ↦{Transfers.shareTokN fullShare 269} f)
      ∗ (hbM1.view.loc (c : Thread nD τ) ↦{Transfers.shareTokN fullShare 268} f)
      ∗ (hbM1.view.loc (c : Thread nD τ) ↦{Transfers.shareTokN fullShare 267} f)
      ∗ (hbM1.view.loc (c : Thread nD τ) ↦{Transfers.shareTokN fullShare 266} f)
      ∗ emp)) : sProp 𝕄) ⊢ hbPt c hbM1 f := by
  refine (Entails.of_eq (sep_congr_eq rfl (sep_congr_eq rfl (sep_congr_eq (sepL_reverse (F := F) [(hbM1.view.loc (c : Thread nD τ) ↦{Transfers.shareTokN fullShare 138} f),
      (hbM1.view.loc (c : Thread nD τ) ↦{Transfers.shareTokN fullShare 139} f),
      (hbM1.view.loc (c : Thread nD τ) ↦{Transfers.shareTokN fullShare 140} f),
      (hbM1.view.loc (c : Thread nD τ) ↦{Transfers.shareTokN fullShare 141} f),
      (hbM1.view.loc (c : Thread nD τ) ↦{Transfers.shareTokN fullShare 142} f),
      (hbM1.view.loc (c : Thread nD τ) ↦{Transfers.shareTokN fullShare 143} f),
      (hbM1.view.loc (c : Thread nD τ) ↦{Transfers.shareTokN fullShare 144} f),
      (hbM1.view.loc (c : Thread nD τ) ↦{Transfers.shareTokN fullShare 145} f),
      (hbM1.view.loc (c : Thread nD τ) ↦{Transfers.shareTokN fullShare 146} f),
      (hbM1.view.loc (c : Thread nD τ) ↦{Transfers.shareTokN fullShare 147} f),
      (hbM1.view.loc (c : Thread nD τ) ↦{Transfers.shareTokN fullShare 148} f),
      (hbM1.view.loc (c : Thread nD τ) ↦{Transfers.shareTokN fullShare 149} f),
      (hbM1.view.loc (c : Thread nD τ) ↦{Transfers.shareTokN fullShare 150} f),
      (hbM1.view.loc (c : Thread nD τ) ↦{Transfers.shareTokN fullShare 151} f),
      (hbM1.view.loc (c : Thread nD τ) ↦{Transfers.shareTokN fullShare 152} f),
      (hbM1.view.loc (c : Thread nD τ) ↦{Transfers.shareTokN fullShare 153} f),
      (hbM1.view.loc (c : Thread nD τ) ↦{Transfers.shareTokN fullShare 154} f),
      (hbM1.view.loc (c : Thread nD τ) ↦{Transfers.shareTokN fullShare 155} f),
      (hbM1.view.loc (c : Thread nD τ) ↦{Transfers.shareTokN fullShare 156} f),
      (hbM1.view.loc (c : Thread nD τ) ↦{Transfers.shareTokN fullShare 157} f),
      (hbM1.view.loc (c : Thread nD τ) ↦{Transfers.shareTokN fullShare 158} f),
      (hbM1.view.loc (c : Thread nD τ) ↦{Transfers.shareTokN fullShare 159} f),
      (hbM1.view.loc (c : Thread nD τ) ↦{Transfers.shareTokN fullShare 160} f),
      (hbM1.view.loc (c : Thread nD τ) ↦{Transfers.shareTokN fullShare 161} f),
      (hbM1.view.loc (c : Thread nD τ) ↦{Transfers.shareTokN fullShare 162} f),
      (hbM1.view.loc (c : Thread nD τ) ↦{Transfers.shareTokN fullShare 163} f),
      (hbM1.view.loc (c : Thread nD τ) ↦{Transfers.shareTokN fullShare 164} f),
      (hbM1.view.loc (c : Thread nD τ) ↦{Transfers.shareTokN fullShare 165} f),
      (hbM1.view.loc (c : Thread nD τ) ↦{Transfers.shareTokN fullShare 166} f),
      (hbM1.view.loc (c : Thread nD τ) ↦{Transfers.shareTokN fullShare 167} f),
      (hbM1.view.loc (c : Thread nD τ) ↦{Transfers.shareTokN fullShare 168} f),
      (hbM1.view.loc (c : Thread nD τ) ↦{Transfers.shareTokN fullShare 169} f),
      (hbM1.view.loc (c : Thread nD τ) ↦{Transfers.shareTokN fullShare 170} f),
      (hbM1.view.loc (c : Thread nD τ) ↦{Transfers.shareTokN fullShare 171} f),
      (hbM1.view.loc (c : Thread nD τ) ↦{Transfers.shareTokN fullShare 172} f),
      (hbM1.view.loc (c : Thread nD τ) ↦{Transfers.shareTokN fullShare 173} f),
      (hbM1.view.loc (c : Thread nD τ) ↦{Transfers.shareTokN fullShare 174} f),
      (hbM1.view.loc (c : Thread nD τ) ↦{Transfers.shareTokN fullShare 175} f),
      (hbM1.view.loc (c : Thread nD τ) ↦{Transfers.shareTokN fullShare 176} f),
      (hbM1.view.loc (c : Thread nD τ) ↦{Transfers.shareTokN fullShare 177} f),
      (hbM1.view.loc (c : Thread nD τ) ↦{Transfers.shareTokN fullShare 178} f),
      (hbM1.view.loc (c : Thread nD τ) ↦{Transfers.shareTokN fullShare 179} f),
      (hbM1.view.loc (c : Thread nD τ) ↦{Transfers.shareTokN fullShare 180} f),
      (hbM1.view.loc (c : Thread nD τ) ↦{Transfers.shareTokN fullShare 181} f),
      (hbM1.view.loc (c : Thread nD τ) ↦{Transfers.shareTokN fullShare 182} f),
      (hbM1.view.loc (c : Thread nD τ) ↦{Transfers.shareTokN fullShare 183} f),
      (hbM1.view.loc (c : Thread nD τ) ↦{Transfers.shareTokN fullShare 184} f),
      (hbM1.view.loc (c : Thread nD τ) ↦{Transfers.shareTokN fullShare 185} f),
      (hbM1.view.loc (c : Thread nD τ) ↦{Transfers.shareTokN fullShare 186} f),
      (hbM1.view.loc (c : Thread nD τ) ↦{Transfers.shareTokN fullShare 187} f),
      (hbM1.view.loc (c : Thread nD τ) ↦{Transfers.shareTokN fullShare 188} f),
      (hbM1.view.loc (c : Thread nD τ) ↦{Transfers.shareTokN fullShare 189} f),
      (hbM1.view.loc (c : Thread nD τ) ↦{Transfers.shareTokN fullShare 190} f),
      (hbM1.view.loc (c : Thread nD τ) ↦{Transfers.shareTokN fullShare 191} f),
      (hbM1.view.loc (c : Thread nD τ) ↦{Transfers.shareTokN fullShare 192} f),
      (hbM1.view.loc (c : Thread nD τ) ↦{Transfers.shareTokN fullShare 193} f),
      (hbM1.view.loc (c : Thread nD τ) ↦{Transfers.shareTokN fullShare 194} f),
      (hbM1.view.loc (c : Thread nD τ) ↦{Transfers.shareTokN fullShare 195} f),
      (hbM1.view.loc (c : Thread nD τ) ↦{Transfers.shareTokN fullShare 196} f),
      (hbM1.view.loc (c : Thread nD τ) ↦{Transfers.shareTokN fullShare 197} f),
      (hbM1.view.loc (c : Thread nD τ) ↦{Transfers.shareTokN fullShare 198} f),
      (hbM1.view.loc (c : Thread nD τ) ↦{Transfers.shareTokN fullShare 199} f),
      (hbM1.view.loc (c : Thread nD τ) ↦{Transfers.shareTokN fullShare 200} f),
      (hbM1.view.loc (c : Thread nD τ) ↦{Transfers.shareTokN fullShare 201} f),
      (hbM1.view.loc (c : Thread nD τ) ↦{Transfers.shareTokN fullShare 202} f),
      (hbM1.view.loc (c : Thread nD τ) ↦{Transfers.shareTokN fullShare 203} f),
      (hbM1.view.loc (c : Thread nD τ) ↦{Transfers.shareTokN fullShare 204} f),
      (hbM1.view.loc (c : Thread nD τ) ↦{Transfers.shareTokN fullShare 205} f),
      (hbM1.view.loc (c : Thread nD τ) ↦{Transfers.shareTokN fullShare 206} f),
      (hbM1.view.loc (c : Thread nD τ) ↦{Transfers.shareTokN fullShare 207} f),
      (hbM1.view.loc (c : Thread nD τ) ↦{Transfers.shareTokN fullShare 208} f),
      (hbM1.view.loc (c : Thread nD τ) ↦{Transfers.shareTokN fullShare 209} f),
      (hbM1.view.loc (c : Thread nD τ) ↦{Transfers.shareTokN fullShare 210} f),
      (hbM1.view.loc (c : Thread nD τ) ↦{Transfers.shareTokN fullShare 211} f),
      (hbM1.view.loc (c : Thread nD τ) ↦{Transfers.shareTokN fullShare 212} f),
      (hbM1.view.loc (c : Thread nD τ) ↦{Transfers.shareTokN fullShare 213} f),
      (hbM1.view.loc (c : Thread nD τ) ↦{Transfers.shareTokN fullShare 214} f),
      (hbM1.view.loc (c : Thread nD τ) ↦{Transfers.shareTokN fullShare 215} f),
      (hbM1.view.loc (c : Thread nD τ) ↦{Transfers.shareTokN fullShare 216} f),
      (hbM1.view.loc (c : Thread nD τ) ↦{Transfers.shareTokN fullShare 217} f),
      (hbM1.view.loc (c : Thread nD τ) ↦{Transfers.shareTokN fullShare 218} f),
      (hbM1.view.loc (c : Thread nD τ) ↦{Transfers.shareTokN fullShare 219} f),
      (hbM1.view.loc (c : Thread nD τ) ↦{Transfers.shareTokN fullShare 220} f),
      (hbM1.view.loc (c : Thread nD τ) ↦{Transfers.shareTokN fullShare 221} f),
      (hbM1.view.loc (c : Thread nD τ) ↦{Transfers.shareTokN fullShare 222} f),
      (hbM1.view.loc (c : Thread nD τ) ↦{Transfers.shareTokN fullShare 223} f),
      (hbM1.view.loc (c : Thread nD τ) ↦{Transfers.shareTokN fullShare 224} f),
      (hbM1.view.loc (c : Thread nD τ) ↦{Transfers.shareTokN fullShare 225} f),
      (hbM1.view.loc (c : Thread nD τ) ↦{Transfers.shareTokN fullShare 226} f),
      (hbM1.view.loc (c : Thread nD τ) ↦{Transfers.shareTokN fullShare 227} f),
      (hbM1.view.loc (c : Thread nD τ) ↦{Transfers.shareTokN fullShare 228} f),
      (hbM1.view.loc (c : Thread nD τ) ↦{Transfers.shareTokN fullShare 229} f),
      (hbM1.view.loc (c : Thread nD τ) ↦{Transfers.shareTokN fullShare 230} f),
      (hbM1.view.loc (c : Thread nD τ) ↦{Transfers.shareTokN fullShare 231} f),
      (hbM1.view.loc (c : Thread nD τ) ↦{Transfers.shareTokN fullShare 232} f),
      (hbM1.view.loc (c : Thread nD τ) ↦{Transfers.shareTokN fullShare 233} f),
      (hbM1.view.loc (c : Thread nD τ) ↦{Transfers.shareTokN fullShare 234} f),
      (hbM1.view.loc (c : Thread nD τ) ↦{Transfers.shareTokN fullShare 235} f),
      (hbM1.view.loc (c : Thread nD τ) ↦{Transfers.shareTokN fullShare 236} f),
      (hbM1.view.loc (c : Thread nD τ) ↦{Transfers.shareTokN fullShare 237} f),
      (hbM1.view.loc (c : Thread nD τ) ↦{Transfers.shareTokN fullShare 238} f),
      (hbM1.view.loc (c : Thread nD τ) ↦{Transfers.shareTokN fullShare 239} f),
      (hbM1.view.loc (c : Thread nD τ) ↦{Transfers.shareTokN fullShare 240} f),
      (hbM1.view.loc (c : Thread nD τ) ↦{Transfers.shareTokN fullShare 241} f),
      (hbM1.view.loc (c : Thread nD τ) ↦{Transfers.shareTokN fullShare 242} f),
      (hbM1.view.loc (c : Thread nD τ) ↦{Transfers.shareTokN fullShare 243} f),
      (hbM1.view.loc (c : Thread nD τ) ↦{Transfers.shareTokN fullShare 244} f),
      (hbM1.view.loc (c : Thread nD τ) ↦{Transfers.shareTokN fullShare 245} f),
      (hbM1.view.loc (c : Thread nD τ) ↦{Transfers.shareTokN fullShare 246} f),
      (hbM1.view.loc (c : Thread nD τ) ↦{Transfers.shareTokN fullShare 247} f),
      (hbM1.view.loc (c : Thread nD τ) ↦{Transfers.shareTokN fullShare 248} f),
      (hbM1.view.loc (c : Thread nD τ) ↦{Transfers.shareTokN fullShare 249} f),
      (hbM1.view.loc (c : Thread nD τ) ↦{Transfers.shareTokN fullShare 250} f),
      (hbM1.view.loc (c : Thread nD τ) ↦{Transfers.shareTokN fullShare 251} f),
      (hbM1.view.loc (c : Thread nD τ) ↦{Transfers.shareTokN fullShare 252} f),
      (hbM1.view.loc (c : Thread nD τ) ↦{Transfers.shareTokN fullShare 253} f),
      (hbM1.view.loc (c : Thread nD τ) ↦{Transfers.shareTokN fullShare 254} f),
      (hbM1.view.loc (c : Thread nD τ) ↦{Transfers.shareTokN fullShare 255} f),
      (hbM1.view.loc (c : Thread nD τ) ↦{Transfers.shareTokN fullShare 256} f),
      (hbM1.view.loc (c : Thread nD τ) ↦{Transfers.shareTokN fullShare 257} f),
      (hbM1.view.loc (c : Thread nD τ) ↦{Transfers.shareTokN fullShare 258} f),
      (hbM1.view.loc (c : Thread nD τ) ↦{Transfers.shareTokN fullShare 259} f),
      (hbM1.view.loc (c : Thread nD τ) ↦{Transfers.shareTokN fullShare 260} f),
      (hbM1.view.loc (c : Thread nD τ) ↦{Transfers.shareTokN fullShare 261} f),
      (hbM1.view.loc (c : Thread nD τ) ↦{Transfers.shareTokN fullShare 262} f),
      (hbM1.view.loc (c : Thread nD τ) ↦{Transfers.shareTokN fullShare 263} f),
      (hbM1.view.loc (c : Thread nD τ) ↦{Transfers.shareTokN fullShare 264} f),
      (hbM1.view.loc (c : Thread nD τ) ↦{Transfers.shareTokN fullShare 265} f)]) (sepL_reverse (F := F) [(hbM1.view.loc (c : Thread nD τ) ↦{Transfers.shareTokN fullShare 266} f),
      (hbM1.view.loc (c : Thread nD τ) ↦{Transfers.shareTokN fullShare 267} f),
      (hbM1.view.loc (c : Thread nD τ) ↦{Transfers.shareTokN fullShare 268} f),
      (hbM1.view.loc (c : Thread nD τ) ↦{Transfers.shareTokN fullShare 269} f),
      (hbM1.view.loc (c : Thread nD τ) ↦{Transfers.shareTokN fullShare 270} f),
      (hbM1.view.loc (c : Thread nD τ) ↦{Transfers.shareTokN fullShare 271} f),
      (hbM1.view.loc (c : Thread nD τ) ↦{Transfers.shareTokN fullShare 272} f),
      (hbM1.view.loc (c : Thread nD τ) ↦{Transfers.shareTokN fullShare 273} f),
      (hbM1.view.loc (c : Thread nD τ) ↦{Transfers.shareTokN fullShare 274} f),
      (hbM1.view.loc (c : Thread nD τ) ↦{Transfers.shareTokN fullShare 275} f),
      (hbM1.view.loc (c : Thread nD τ) ↦{Transfers.shareTokN fullShare 276} f),
      (hbM1.view.loc (c : Thread nD τ) ↦{Transfers.shareTokN fullShare 277} f),
      (hbM1.view.loc (c : Thread nD τ) ↦{Transfers.shareTokN fullShare 278} f),
      (hbM1.view.loc (c : Thread nD τ) ↦{Transfers.shareTokN fullShare 279} f),
      (hbM1.view.loc (c : Thread nD τ) ↦{Transfers.shareTokN fullShare 280} f),
      (hbM1.view.loc (c : Thread nD τ) ↦{Transfers.shareTokN fullShare 281} f),
      (hbM1.view.loc (c : Thread nD τ) ↦{Transfers.shareTokN fullShare 282} f),
      (hbM1.view.loc (c : Thread nD τ) ↦{Transfers.shareTokN fullShare 283} f),
      (hbM1.view.loc (c : Thread nD τ) ↦{Transfers.shareTokN fullShare 284} f),
      (hbM1.view.loc (c : Thread nD τ) ↦{Transfers.shareTokN fullShare 285} f),
      (hbM1.view.loc (c : Thread nD τ) ↦{Transfers.shareTokN fullShare 286} f),
      (hbM1.view.loc (c : Thread nD τ) ↦{Transfers.shareTokN fullShare 287} f),
      (hbM1.view.loc (c : Thread nD τ) ↦{Transfers.shareTokN fullShare 288} f),
      (hbM1.view.loc (c : Thread nD τ) ↦{Transfers.shareTokN fullShare 289} f),
      (hbM1.view.loc (c : Thread nD τ) ↦{Transfers.shareTokN fullShare 290} f),
      (hbM1.view.loc (c : Thread nD τ) ↦{Transfers.shareTokN fullShare 291} f),
      (hbM1.view.loc (c : Thread nD τ) ↦{Transfers.shareTokN fullShare 292} f),
      (hbM1.view.loc (c : Thread nD τ) ↦{Transfers.shareTokN fullShare 293} f),
      (hbM1.view.loc (c : Thread nD τ) ↦{Transfers.shareTokN fullShare 294} f),
      (hbM1.view.loc (c : Thread nD τ) ↦{Transfers.shareTokN fullShare 295} f),
      (hbM1.view.loc (c : Thread nD τ) ↦{Transfers.shareTokN fullShare 296} f),
      (hbM1.view.loc (c : Thread nD τ) ↦{Transfers.shareTokN fullShare 297} f),
      (hbM1.view.loc (c : Thread nD τ) ↦{Transfers.shareTokN fullShare 298} f),
      (hbM1.view.loc (c : Thread nD τ) ↦{Transfers.shareTokN fullShare 299} f),
      (hbM1.view.loc (c : Thread nD τ) ↦{Transfers.shareTokN fullShare 300} f),
      (hbM1.view.loc (c : Thread nD τ) ↦{Transfers.shareTokN fullShare 301} f),
      (hbM1.view.loc (c : Thread nD τ) ↦{Transfers.shareTokN fullShare 302} f),
      (hbM1.view.loc (c : Thread nD τ) ↦{Transfers.shareTokN fullShare 303} f),
      (hbM1.view.loc (c : Thread nD τ) ↦{Transfers.shareTokN fullShare 304} f),
      (hbM1.view.loc (c : Thread nD τ) ↦{Transfers.shareTokN fullShare 305} f),
      (hbM1.view.loc (c : Thread nD τ) ↦{Transfers.shareTokN fullShare 306} f),
      (hbM1.view.loc (c : Thread nD τ) ↦{Transfers.shareTokN fullShare 307} f),
      (hbM1.view.loc (c : Thread nD τ) ↦{Transfers.shareTokN fullShare 308} f),
      (hbM1.view.loc (c : Thread nD τ) ↦{Transfers.shareTokN fullShare 309} f),
      (hbM1.view.loc (c : Thread nD τ) ↦{Transfers.shareTokN fullShare 310} f),
      (hbM1.view.loc (c : Thread nD τ) ↦{Transfers.shareTokN fullShare 311} f),
      (hbM1.view.loc (c : Thread nD τ) ↦{Transfers.shareTokN fullShare 312} f),
      (hbM1.view.loc (c : Thread nD τ) ↦{Transfers.shareTokN fullShare 313} f),
      (hbM1.view.loc (c : Thread nD τ) ↦{Transfers.shareTokN fullShare 314} f),
      (hbM1.view.loc (c : Thread nD τ) ↦{Transfers.shareTokN fullShare 315} f),
      (hbM1.view.loc (c : Thread nD τ) ↦{Transfers.shareTokN fullShare 316} f),
      (hbM1.view.loc (c : Thread nD τ) ↦{Transfers.shareTokN fullShare 317} f),
      (hbM1.view.loc (c : Thread nD τ) ↦{Transfers.shareTokN fullShare 318} f),
      (hbM1.view.loc (c : Thread nD τ) ↦{Transfers.shareTokN fullShare 319} f),
      (hbM1.view.loc (c : Thread nD τ) ↦{Transfers.shareTokN fullShare 320} f),
      (hbM1.view.loc (c : Thread nD τ) ↦{Transfers.shareTokN fullShare 321} f),
      (hbM1.view.loc (c : Thread nD τ) ↦{Transfers.shareTokN fullShare 322} f),
      (hbM1.view.loc (c : Thread nD τ) ↦{Transfers.shareTokN fullShare 323} f),
      (hbM1.view.loc (c : Thread nD τ) ↦{Transfers.shareTokN fullShare 324} f),
      (hbM1.view.loc (c : Thread nD τ) ↦{Transfers.shareTokN fullShare 325} f),
      (hbM1.view.loc (c : Thread nD τ) ↦{Transfers.shareTokN fullShare 326} f),
      (hbM1.view.loc (c : Thread nD τ) ↦{Transfers.shareTokN fullShare 327} f),
      (hbM1.view.loc (c : Thread nD τ) ↦{Transfers.shareTokN fullShare 328} f),
      (hbM1.view.loc (c : Thread nD τ) ↦{Transfers.shareTokN fullShare 329} f),
      (hbM1.view.loc (c : Thread nD τ) ↦{Transfers.shareTokN fullShare 330} f),
      (hbM1.view.loc (c : Thread nD τ) ↦{Transfers.shareTokN fullShare 331} f),
      (hbM1.view.loc (c : Thread nD τ) ↦{Transfers.shareTokN fullShare 332} f),
      (hbM1.view.loc (c : Thread nD τ) ↦{Transfers.shareTokN fullShare 333} f),
      (hbM1.view.loc (c : Thread nD τ) ↦{Transfers.shareTokN fullShare 334} f),
      (hbM1.view.loc (c : Thread nD τ) ↦{Transfers.shareTokN fullShare 335} f),
      (hbM1.view.loc (c : Thread nD τ) ↦{Transfers.shareTokN fullShare 336} f),
      (hbM1.view.loc (c : Thread nD τ) ↦{Transfers.shareTokN fullShare 337} f),
      (hbM1.view.loc (c : Thread nD τ) ↦{Transfers.shareTokN fullShare 338} f),
      (hbM1.view.loc (c : Thread nD τ) ↦{Transfers.shareTokN fullShare 339} f),
      (hbM1.view.loc (c : Thread nD τ) ↦{Transfers.shareTokN fullShare 340} f),
      (hbM1.view.loc (c : Thread nD τ) ↦{Transfers.shareTokN fullShare 341} f),
      (hbM1.view.loc (c : Thread nD τ) ↦{Transfers.shareTokN fullShare 342} f),
      (hbM1.view.loc (c : Thread nD τ) ↦{Transfers.shareTokN fullShare 343} f),
      (hbM1.view.loc (c : Thread nD τ) ↦{Transfers.shareTokN fullShare 344} f),
      (hbM1.view.loc (c : Thread nD τ) ↦{Transfers.shareTokN fullShare 345} f),
      (hbM1.view.loc (c : Thread nD τ) ↦{Transfers.shareTokN fullShare 346} f),
      (hbM1.view.loc (c : Thread nD τ) ↦{Transfers.shareTokN fullShare 347} f),
      (hbM1.view.loc (c : Thread nD τ) ↦{Transfers.shareTokN fullShare 348} f),
      (hbM1.view.loc (c : Thread nD τ) ↦{Transfers.shareTokN fullShare 349} f),
      (hbM1.view.loc (c : Thread nD τ) ↦{Transfers.shareTokN fullShare 350} f),
      (hbM1.view.loc (c : Thread nD τ) ↦{Transfers.shareTokN fullShare 351} f),
      (hbM1.view.loc (c : Thread nD τ) ↦{Transfers.shareTokN fullShare 352} f),
      (hbM1.view.loc (c : Thread nD τ) ↦{Transfers.shareTokN fullShare 353} f),
      (hbM1.view.loc (c : Thread nD τ) ↦{Transfers.shareTokN fullShare 354} f),
      (hbM1.view.loc (c : Thread nD τ) ↦{Transfers.shareTokN fullShare 355} f),
      (hbM1.view.loc (c : Thread nD τ) ↦{Transfers.shareTokN fullShare 356} f),
      (hbM1.view.loc (c : Thread nD τ) ↦{Transfers.shareTokN fullShare 357} f),
      (hbM1.view.loc (c : Thread nD τ) ↦{Transfers.shareTokN fullShare 358} f),
      (hbM1.view.loc (c : Thread nD τ) ↦{Transfers.shareTokN fullShare 359} f),
      (hbM1.view.loc (c : Thread nD τ) ↦{Transfers.shareTokN fullShare 360} f),
      (hbM1.view.loc (c : Thread nD τ) ↦{Transfers.shareTokN fullShare 361} f),
      (hbM1.view.loc (c : Thread nD τ) ↦{Transfers.shareTokN fullShare 362} f),
      (hbM1.view.loc (c : Thread nD τ) ↦{Transfers.shareTokN fullShare 363} f),
      (hbM1.view.loc (c : Thread nD τ) ↦{Transfers.shareTokN fullShare 364} f),
      (hbM1.view.loc (c : Thread nD τ) ↦{Transfers.shareTokN fullShare 365} f),
      (hbM1.view.loc (c : Thread nD τ) ↦{Transfers.shareTokN fullShare 366} f),
      (hbM1.view.loc (c : Thread nD τ) ↦{Transfers.shareTokN fullShare 367} f),
      (hbM1.view.loc (c : Thread nD τ) ↦{Transfers.shareTokN fullShare 368} f),
      (hbM1.view.loc (c : Thread nD τ) ↦{Transfers.shareTokN fullShare 369} f),
      (hbM1.view.loc (c : Thread nD τ) ↦{Transfers.shareTokN fullShare 370} f),
      (hbM1.view.loc (c : Thread nD τ) ↦{Transfers.shareTokN fullShare 371} f),
      (hbM1.view.loc (c : Thread nD τ) ↦{Transfers.shareTokN fullShare 372} f),
      (hbM1.view.loc (c : Thread nD τ) ↦{Transfers.shareTokN fullShare 373} f),
      (hbM1.view.loc (c : Thread nD τ) ↦{Transfers.shareTokN fullShare 374} f),
      (hbM1.view.loc (c : Thread nD τ) ↦{Transfers.shareTokN fullShare 375} f),
      (hbM1.view.loc (c : Thread nD τ) ↦{Transfers.shareTokN fullShare 376} f),
      (hbM1.view.loc (c : Thread nD τ) ↦{Transfers.shareTokN fullShare 377} f),
      (hbM1.view.loc (c : Thread nD τ) ↦{Transfers.shareTokN fullShare 378} f),
      (hbM1.view.loc (c : Thread nD τ) ↦{Transfers.shareTokN fullShare 379} f),
      (hbM1.view.loc (c : Thread nD τ) ↦{Transfers.shareTokN fullShare 380} f),
      (hbM1.view.loc (c : Thread nD τ) ↦{Transfers.shareTokN fullShare 381} f),
      (hbM1.view.loc (c : Thread nD τ) ↦{Transfers.shareTokN fullShare 382} f),
      (hbM1.view.loc (c : Thread nD τ) ↦{Transfers.shareTokN fullShare 383} f),
      (hbM1.view.loc (c : Thread nD τ) ↦{Transfers.shareTokN fullShare 384} f),
      (hbM1.view.loc (c : Thread nD τ) ↦{Transfers.shareTokN fullShare 385} f),
      (hbM1.view.loc (c : Thread nD τ) ↦{Transfers.shareTokN fullShare 386} f),
      (hbM1.view.loc (c : Thread nD τ) ↦{Transfers.shareTokN fullShare 387} f),
      (hbM1.view.loc (c : Thread nD τ) ↦{Transfers.shareTokN fullShare 388} f),
      (hbM1.view.loc (c : Thread nD τ) ↦{Transfers.shareTokN fullShare 389} f),
      (hbM1.view.loc (c : Thread nD τ) ↦{Transfers.shareTokN fullShare 390} f),
      (hbM1.view.loc (c : Thread nD τ) ↦{Transfers.shareTokN fullShare 391} f),
      (hbM1.view.loc (c : Thread nD τ) ↦{Transfers.shareTokN fullShare 392} f),
      (hbM1.view.loc (c : Thread nD τ) ↦{Transfers.shareTokN fullShare 393} f)]))))).trans ?_
  have h := (toks_up2 (F := F) (ℓ := hbM1.view.loc (c : Thread nD τ)) f 138 128 128).2
  simp only [chainUp, Nat.reduceAdd] at h
  simp only [sepL]
  exact h

set_option maxHeartbeats 16000000 in
/-- The 128 row pieces of scratch buffer 0, all at one contents, highest row first, are the buffer's elements at those contents. -/
theorem rows_down0 (c : Dev nD) (f : Buf (Elt F) (scM0.view.loc (c : Thread nD τ))) :
    (iprop(((rowM scM0 127 inb_S128x64_S1x64_127_0).view.loc (c : Thread nD τ) ↦[(rowM scM0 127 inb_S128x64_S1x64_127_0).view.set]{fullShare} f)
      ∗ ((rowM scM0 126 inb_S128x64_S1x64_126_0).view.loc (c : Thread nD τ) ↦[(rowM scM0 126 inb_S128x64_S1x64_126_0).view.set]{fullShare} f)
      ∗ ((rowM scM0 125 inb_S128x64_S1x64_125_0).view.loc (c : Thread nD τ) ↦[(rowM scM0 125 inb_S128x64_S1x64_125_0).view.set]{fullShare} f)
      ∗ ((rowM scM0 124 inb_S128x64_S1x64_124_0).view.loc (c : Thread nD τ) ↦[(rowM scM0 124 inb_S128x64_S1x64_124_0).view.set]{fullShare} f)
      ∗ ((rowM scM0 123 inb_S128x64_S1x64_123_0).view.loc (c : Thread nD τ) ↦[(rowM scM0 123 inb_S128x64_S1x64_123_0).view.set]{fullShare} f)
      ∗ ((rowM scM0 122 inb_S128x64_S1x64_122_0).view.loc (c : Thread nD τ) ↦[(rowM scM0 122 inb_S128x64_S1x64_122_0).view.set]{fullShare} f)
      ∗ ((rowM scM0 121 inb_S128x64_S1x64_121_0).view.loc (c : Thread nD τ) ↦[(rowM scM0 121 inb_S128x64_S1x64_121_0).view.set]{fullShare} f)
      ∗ ((rowM scM0 120 inb_S128x64_S1x64_120_0).view.loc (c : Thread nD τ) ↦[(rowM scM0 120 inb_S128x64_S1x64_120_0).view.set]{fullShare} f)
      ∗ ((rowM scM0 119 inb_S128x64_S1x64_119_0).view.loc (c : Thread nD τ) ↦[(rowM scM0 119 inb_S128x64_S1x64_119_0).view.set]{fullShare} f)
      ∗ ((rowM scM0 118 inb_S128x64_S1x64_118_0).view.loc (c : Thread nD τ) ↦[(rowM scM0 118 inb_S128x64_S1x64_118_0).view.set]{fullShare} f)
      ∗ ((rowM scM0 117 inb_S128x64_S1x64_117_0).view.loc (c : Thread nD τ) ↦[(rowM scM0 117 inb_S128x64_S1x64_117_0).view.set]{fullShare} f)
      ∗ ((rowM scM0 116 inb_S128x64_S1x64_116_0).view.loc (c : Thread nD τ) ↦[(rowM scM0 116 inb_S128x64_S1x64_116_0).view.set]{fullShare} f)
      ∗ ((rowM scM0 115 inb_S128x64_S1x64_115_0).view.loc (c : Thread nD τ) ↦[(rowM scM0 115 inb_S128x64_S1x64_115_0).view.set]{fullShare} f)
      ∗ ((rowM scM0 114 inb_S128x64_S1x64_114_0).view.loc (c : Thread nD τ) ↦[(rowM scM0 114 inb_S128x64_S1x64_114_0).view.set]{fullShare} f)
      ∗ ((rowM scM0 113 inb_S128x64_S1x64_113_0).view.loc (c : Thread nD τ) ↦[(rowM scM0 113 inb_S128x64_S1x64_113_0).view.set]{fullShare} f)
      ∗ ((rowM scM0 112 inb_S128x64_S1x64_112_0).view.loc (c : Thread nD τ) ↦[(rowM scM0 112 inb_S128x64_S1x64_112_0).view.set]{fullShare} f)
      ∗ ((rowM scM0 111 inb_S128x64_S1x64_111_0).view.loc (c : Thread nD τ) ↦[(rowM scM0 111 inb_S128x64_S1x64_111_0).view.set]{fullShare} f)
      ∗ ((rowM scM0 110 inb_S128x64_S1x64_110_0).view.loc (c : Thread nD τ) ↦[(rowM scM0 110 inb_S128x64_S1x64_110_0).view.set]{fullShare} f)
      ∗ ((rowM scM0 109 inb_S128x64_S1x64_109_0).view.loc (c : Thread nD τ) ↦[(rowM scM0 109 inb_S128x64_S1x64_109_0).view.set]{fullShare} f)
      ∗ ((rowM scM0 108 inb_S128x64_S1x64_108_0).view.loc (c : Thread nD τ) ↦[(rowM scM0 108 inb_S128x64_S1x64_108_0).view.set]{fullShare} f)
      ∗ ((rowM scM0 107 inb_S128x64_S1x64_107_0).view.loc (c : Thread nD τ) ↦[(rowM scM0 107 inb_S128x64_S1x64_107_0).view.set]{fullShare} f)
      ∗ ((rowM scM0 106 inb_S128x64_S1x64_106_0).view.loc (c : Thread nD τ) ↦[(rowM scM0 106 inb_S128x64_S1x64_106_0).view.set]{fullShare} f)
      ∗ ((rowM scM0 105 inb_S128x64_S1x64_105_0).view.loc (c : Thread nD τ) ↦[(rowM scM0 105 inb_S128x64_S1x64_105_0).view.set]{fullShare} f)
      ∗ ((rowM scM0 104 inb_S128x64_S1x64_104_0).view.loc (c : Thread nD τ) ↦[(rowM scM0 104 inb_S128x64_S1x64_104_0).view.set]{fullShare} f)
      ∗ ((rowM scM0 103 inb_S128x64_S1x64_103_0).view.loc (c : Thread nD τ) ↦[(rowM scM0 103 inb_S128x64_S1x64_103_0).view.set]{fullShare} f)
      ∗ ((rowM scM0 102 inb_S128x64_S1x64_102_0).view.loc (c : Thread nD τ) ↦[(rowM scM0 102 inb_S128x64_S1x64_102_0).view.set]{fullShare} f)
      ∗ ((rowM scM0 101 inb_S128x64_S1x64_101_0).view.loc (c : Thread nD τ) ↦[(rowM scM0 101 inb_S128x64_S1x64_101_0).view.set]{fullShare} f)
      ∗ ((rowM scM0 100 inb_S128x64_S1x64_100_0).view.loc (c : Thread nD τ) ↦[(rowM scM0 100 inb_S128x64_S1x64_100_0).view.set]{fullShare} f)
      ∗ ((rowM scM0 99 inb_S128x64_S1x64_99_0).view.loc (c : Thread nD τ) ↦[(rowM scM0 99 inb_S128x64_S1x64_99_0).view.set]{fullShare} f)
      ∗ ((rowM scM0 98 inb_S128x64_S1x64_98_0).view.loc (c : Thread nD τ) ↦[(rowM scM0 98 inb_S128x64_S1x64_98_0).view.set]{fullShare} f)
      ∗ ((rowM scM0 97 inb_S128x64_S1x64_97_0).view.loc (c : Thread nD τ) ↦[(rowM scM0 97 inb_S128x64_S1x64_97_0).view.set]{fullShare} f)
      ∗ ((rowM scM0 96 inb_S128x64_S1x64_96_0).view.loc (c : Thread nD τ) ↦[(rowM scM0 96 inb_S128x64_S1x64_96_0).view.set]{fullShare} f)
      ∗ ((rowM scM0 95 inb_S128x64_S1x64_95_0).view.loc (c : Thread nD τ) ↦[(rowM scM0 95 inb_S128x64_S1x64_95_0).view.set]{fullShare} f)
      ∗ ((rowM scM0 94 inb_S128x64_S1x64_94_0).view.loc (c : Thread nD τ) ↦[(rowM scM0 94 inb_S128x64_S1x64_94_0).view.set]{fullShare} f)
      ∗ ((rowM scM0 93 inb_S128x64_S1x64_93_0).view.loc (c : Thread nD τ) ↦[(rowM scM0 93 inb_S128x64_S1x64_93_0).view.set]{fullShare} f)
      ∗ ((rowM scM0 92 inb_S128x64_S1x64_92_0).view.loc (c : Thread nD τ) ↦[(rowM scM0 92 inb_S128x64_S1x64_92_0).view.set]{fullShare} f)
      ∗ ((rowM scM0 91 inb_S128x64_S1x64_91_0).view.loc (c : Thread nD τ) ↦[(rowM scM0 91 inb_S128x64_S1x64_91_0).view.set]{fullShare} f)
      ∗ ((rowM scM0 90 inb_S128x64_S1x64_90_0).view.loc (c : Thread nD τ) ↦[(rowM scM0 90 inb_S128x64_S1x64_90_0).view.set]{fullShare} f)
      ∗ ((rowM scM0 89 inb_S128x64_S1x64_89_0).view.loc (c : Thread nD τ) ↦[(rowM scM0 89 inb_S128x64_S1x64_89_0).view.set]{fullShare} f)
      ∗ ((rowM scM0 88 inb_S128x64_S1x64_88_0).view.loc (c : Thread nD τ) ↦[(rowM scM0 88 inb_S128x64_S1x64_88_0).view.set]{fullShare} f)
      ∗ ((rowM scM0 87 inb_S128x64_S1x64_87_0).view.loc (c : Thread nD τ) ↦[(rowM scM0 87 inb_S128x64_S1x64_87_0).view.set]{fullShare} f)
      ∗ ((rowM scM0 86 inb_S128x64_S1x64_86_0).view.loc (c : Thread nD τ) ↦[(rowM scM0 86 inb_S128x64_S1x64_86_0).view.set]{fullShare} f)
      ∗ ((rowM scM0 85 inb_S128x64_S1x64_85_0).view.loc (c : Thread nD τ) ↦[(rowM scM0 85 inb_S128x64_S1x64_85_0).view.set]{fullShare} f)
      ∗ ((rowM scM0 84 inb_S128x64_S1x64_84_0).view.loc (c : Thread nD τ) ↦[(rowM scM0 84 inb_S128x64_S1x64_84_0).view.set]{fullShare} f)
      ∗ ((rowM scM0 83 inb_S128x64_S1x64_83_0).view.loc (c : Thread nD τ) ↦[(rowM scM0 83 inb_S128x64_S1x64_83_0).view.set]{fullShare} f)
      ∗ ((rowM scM0 82 inb_S128x64_S1x64_82_0).view.loc (c : Thread nD τ) ↦[(rowM scM0 82 inb_S128x64_S1x64_82_0).view.set]{fullShare} f)
      ∗ ((rowM scM0 81 inb_S128x64_S1x64_81_0).view.loc (c : Thread nD τ) ↦[(rowM scM0 81 inb_S128x64_S1x64_81_0).view.set]{fullShare} f)
      ∗ ((rowM scM0 80 inb_S128x64_S1x64_80_0).view.loc (c : Thread nD τ) ↦[(rowM scM0 80 inb_S128x64_S1x64_80_0).view.set]{fullShare} f)
      ∗ ((rowM scM0 79 inb_S128x64_S1x64_79_0).view.loc (c : Thread nD τ) ↦[(rowM scM0 79 inb_S128x64_S1x64_79_0).view.set]{fullShare} f)
      ∗ ((rowM scM0 78 inb_S128x64_S1x64_78_0).view.loc (c : Thread nD τ) ↦[(rowM scM0 78 inb_S128x64_S1x64_78_0).view.set]{fullShare} f)
      ∗ ((rowM scM0 77 inb_S128x64_S1x64_77_0).view.loc (c : Thread nD τ) ↦[(rowM scM0 77 inb_S128x64_S1x64_77_0).view.set]{fullShare} f)
      ∗ ((rowM scM0 76 inb_S128x64_S1x64_76_0).view.loc (c : Thread nD τ) ↦[(rowM scM0 76 inb_S128x64_S1x64_76_0).view.set]{fullShare} f)
      ∗ ((rowM scM0 75 inb_S128x64_S1x64_75_0).view.loc (c : Thread nD τ) ↦[(rowM scM0 75 inb_S128x64_S1x64_75_0).view.set]{fullShare} f)
      ∗ ((rowM scM0 74 inb_S128x64_S1x64_74_0).view.loc (c : Thread nD τ) ↦[(rowM scM0 74 inb_S128x64_S1x64_74_0).view.set]{fullShare} f)
      ∗ ((rowM scM0 73 inb_S128x64_S1x64_73_0).view.loc (c : Thread nD τ) ↦[(rowM scM0 73 inb_S128x64_S1x64_73_0).view.set]{fullShare} f)
      ∗ ((rowM scM0 72 inb_S128x64_S1x64_72_0).view.loc (c : Thread nD τ) ↦[(rowM scM0 72 inb_S128x64_S1x64_72_0).view.set]{fullShare} f)
      ∗ ((rowM scM0 71 inb_S128x64_S1x64_71_0).view.loc (c : Thread nD τ) ↦[(rowM scM0 71 inb_S128x64_S1x64_71_0).view.set]{fullShare} f)
      ∗ ((rowM scM0 70 inb_S128x64_S1x64_70_0).view.loc (c : Thread nD τ) ↦[(rowM scM0 70 inb_S128x64_S1x64_70_0).view.set]{fullShare} f)
      ∗ ((rowM scM0 69 inb_S128x64_S1x64_69_0).view.loc (c : Thread nD τ) ↦[(rowM scM0 69 inb_S128x64_S1x64_69_0).view.set]{fullShare} f)
      ∗ ((rowM scM0 68 inb_S128x64_S1x64_68_0).view.loc (c : Thread nD τ) ↦[(rowM scM0 68 inb_S128x64_S1x64_68_0).view.set]{fullShare} f)
      ∗ ((rowM scM0 67 inb_S128x64_S1x64_67_0).view.loc (c : Thread nD τ) ↦[(rowM scM0 67 inb_S128x64_S1x64_67_0).view.set]{fullShare} f)
      ∗ ((rowM scM0 66 inb_S128x64_S1x64_66_0).view.loc (c : Thread nD τ) ↦[(rowM scM0 66 inb_S128x64_S1x64_66_0).view.set]{fullShare} f)
      ∗ ((rowM scM0 65 inb_S128x64_S1x64_65_0).view.loc (c : Thread nD τ) ↦[(rowM scM0 65 inb_S128x64_S1x64_65_0).view.set]{fullShare} f)
      ∗ ((rowM scM0 64 inb_S128x64_S1x64_64_0).view.loc (c : Thread nD τ) ↦[(rowM scM0 64 inb_S128x64_S1x64_64_0).view.set]{fullShare} f)
      ∗ ((rowM scM0 63 inb_S128x64_S1x64_63_0).view.loc (c : Thread nD τ) ↦[(rowM scM0 63 inb_S128x64_S1x64_63_0).view.set]{fullShare} f)
      ∗ ((rowM scM0 62 inb_S128x64_S1x64_62_0).view.loc (c : Thread nD τ) ↦[(rowM scM0 62 inb_S128x64_S1x64_62_0).view.set]{fullShare} f)
      ∗ ((rowM scM0 61 inb_S128x64_S1x64_61_0).view.loc (c : Thread nD τ) ↦[(rowM scM0 61 inb_S128x64_S1x64_61_0).view.set]{fullShare} f)
      ∗ ((rowM scM0 60 inb_S128x64_S1x64_60_0).view.loc (c : Thread nD τ) ↦[(rowM scM0 60 inb_S128x64_S1x64_60_0).view.set]{fullShare} f)
      ∗ ((rowM scM0 59 inb_S128x64_S1x64_59_0).view.loc (c : Thread nD τ) ↦[(rowM scM0 59 inb_S128x64_S1x64_59_0).view.set]{fullShare} f)
      ∗ ((rowM scM0 58 inb_S128x64_S1x64_58_0).view.loc (c : Thread nD τ) ↦[(rowM scM0 58 inb_S128x64_S1x64_58_0).view.set]{fullShare} f)
      ∗ ((rowM scM0 57 inb_S128x64_S1x64_57_0).view.loc (c : Thread nD τ) ↦[(rowM scM0 57 inb_S128x64_S1x64_57_0).view.set]{fullShare} f)
      ∗ ((rowM scM0 56 inb_S128x64_S1x64_56_0).view.loc (c : Thread nD τ) ↦[(rowM scM0 56 inb_S128x64_S1x64_56_0).view.set]{fullShare} f)
      ∗ ((rowM scM0 55 inb_S128x64_S1x64_55_0).view.loc (c : Thread nD τ) ↦[(rowM scM0 55 inb_S128x64_S1x64_55_0).view.set]{fullShare} f)
      ∗ ((rowM scM0 54 inb_S128x64_S1x64_54_0).view.loc (c : Thread nD τ) ↦[(rowM scM0 54 inb_S128x64_S1x64_54_0).view.set]{fullShare} f)
      ∗ ((rowM scM0 53 inb_S128x64_S1x64_53_0).view.loc (c : Thread nD τ) ↦[(rowM scM0 53 inb_S128x64_S1x64_53_0).view.set]{fullShare} f)
      ∗ ((rowM scM0 52 inb_S128x64_S1x64_52_0).view.loc (c : Thread nD τ) ↦[(rowM scM0 52 inb_S128x64_S1x64_52_0).view.set]{fullShare} f)
      ∗ ((rowM scM0 51 inb_S128x64_S1x64_51_0).view.loc (c : Thread nD τ) ↦[(rowM scM0 51 inb_S128x64_S1x64_51_0).view.set]{fullShare} f)
      ∗ ((rowM scM0 50 inb_S128x64_S1x64_50_0).view.loc (c : Thread nD τ) ↦[(rowM scM0 50 inb_S128x64_S1x64_50_0).view.set]{fullShare} f)
      ∗ ((rowM scM0 49 inb_S128x64_S1x64_49_0).view.loc (c : Thread nD τ) ↦[(rowM scM0 49 inb_S128x64_S1x64_49_0).view.set]{fullShare} f)
      ∗ ((rowM scM0 48 inb_S128x64_S1x64_48_0).view.loc (c : Thread nD τ) ↦[(rowM scM0 48 inb_S128x64_S1x64_48_0).view.set]{fullShare} f)
      ∗ ((rowM scM0 47 inb_S128x64_S1x64_47_0).view.loc (c : Thread nD τ) ↦[(rowM scM0 47 inb_S128x64_S1x64_47_0).view.set]{fullShare} f)
      ∗ ((rowM scM0 46 inb_S128x64_S1x64_46_0).view.loc (c : Thread nD τ) ↦[(rowM scM0 46 inb_S128x64_S1x64_46_0).view.set]{fullShare} f)
      ∗ ((rowM scM0 45 inb_S128x64_S1x64_45_0).view.loc (c : Thread nD τ) ↦[(rowM scM0 45 inb_S128x64_S1x64_45_0).view.set]{fullShare} f)
      ∗ ((rowM scM0 44 inb_S128x64_S1x64_44_0).view.loc (c : Thread nD τ) ↦[(rowM scM0 44 inb_S128x64_S1x64_44_0).view.set]{fullShare} f)
      ∗ ((rowM scM0 43 inb_S128x64_S1x64_43_0).view.loc (c : Thread nD τ) ↦[(rowM scM0 43 inb_S128x64_S1x64_43_0).view.set]{fullShare} f)
      ∗ ((rowM scM0 42 inb_S128x64_S1x64_42_0).view.loc (c : Thread nD τ) ↦[(rowM scM0 42 inb_S128x64_S1x64_42_0).view.set]{fullShare} f)
      ∗ ((rowM scM0 41 inb_S128x64_S1x64_41_0).view.loc (c : Thread nD τ) ↦[(rowM scM0 41 inb_S128x64_S1x64_41_0).view.set]{fullShare} f)
      ∗ ((rowM scM0 40 inb_S128x64_S1x64_40_0).view.loc (c : Thread nD τ) ↦[(rowM scM0 40 inb_S128x64_S1x64_40_0).view.set]{fullShare} f)
      ∗ ((rowM scM0 39 inb_S128x64_S1x64_39_0).view.loc (c : Thread nD τ) ↦[(rowM scM0 39 inb_S128x64_S1x64_39_0).view.set]{fullShare} f)
      ∗ ((rowM scM0 38 inb_S128x64_S1x64_38_0).view.loc (c : Thread nD τ) ↦[(rowM scM0 38 inb_S128x64_S1x64_38_0).view.set]{fullShare} f)
      ∗ ((rowM scM0 37 inb_S128x64_S1x64_37_0).view.loc (c : Thread nD τ) ↦[(rowM scM0 37 inb_S128x64_S1x64_37_0).view.set]{fullShare} f)
      ∗ ((rowM scM0 36 inb_S128x64_S1x64_36_0).view.loc (c : Thread nD τ) ↦[(rowM scM0 36 inb_S128x64_S1x64_36_0).view.set]{fullShare} f)
      ∗ ((rowM scM0 35 inb_S128x64_S1x64_35_0).view.loc (c : Thread nD τ) ↦[(rowM scM0 35 inb_S128x64_S1x64_35_0).view.set]{fullShare} f)
      ∗ ((rowM scM0 34 inb_S128x64_S1x64_34_0).view.loc (c : Thread nD τ) ↦[(rowM scM0 34 inb_S128x64_S1x64_34_0).view.set]{fullShare} f)
      ∗ ((rowM scM0 33 inb_S128x64_S1x64_33_0).view.loc (c : Thread nD τ) ↦[(rowM scM0 33 inb_S128x64_S1x64_33_0).view.set]{fullShare} f)
      ∗ ((rowM scM0 32 inb_S128x64_S1x64_32_0).view.loc (c : Thread nD τ) ↦[(rowM scM0 32 inb_S128x64_S1x64_32_0).view.set]{fullShare} f)
      ∗ ((rowM scM0 31 inb_S128x64_S1x64_31_0).view.loc (c : Thread nD τ) ↦[(rowM scM0 31 inb_S128x64_S1x64_31_0).view.set]{fullShare} f)
      ∗ ((rowM scM0 30 inb_S128x64_S1x64_30_0).view.loc (c : Thread nD τ) ↦[(rowM scM0 30 inb_S128x64_S1x64_30_0).view.set]{fullShare} f)
      ∗ ((rowM scM0 29 inb_S128x64_S1x64_29_0).view.loc (c : Thread nD τ) ↦[(rowM scM0 29 inb_S128x64_S1x64_29_0).view.set]{fullShare} f)
      ∗ ((rowM scM0 28 inb_S128x64_S1x64_28_0).view.loc (c : Thread nD τ) ↦[(rowM scM0 28 inb_S128x64_S1x64_28_0).view.set]{fullShare} f)
      ∗ ((rowM scM0 27 inb_S128x64_S1x64_27_0).view.loc (c : Thread nD τ) ↦[(rowM scM0 27 inb_S128x64_S1x64_27_0).view.set]{fullShare} f)
      ∗ ((rowM scM0 26 inb_S128x64_S1x64_26_0).view.loc (c : Thread nD τ) ↦[(rowM scM0 26 inb_S128x64_S1x64_26_0).view.set]{fullShare} f)
      ∗ ((rowM scM0 25 inb_S128x64_S1x64_25_0).view.loc (c : Thread nD τ) ↦[(rowM scM0 25 inb_S128x64_S1x64_25_0).view.set]{fullShare} f)
      ∗ ((rowM scM0 24 inb_S128x64_S1x64_24_0).view.loc (c : Thread nD τ) ↦[(rowM scM0 24 inb_S128x64_S1x64_24_0).view.set]{fullShare} f)
      ∗ ((rowM scM0 23 inb_S128x64_S1x64_23_0).view.loc (c : Thread nD τ) ↦[(rowM scM0 23 inb_S128x64_S1x64_23_0).view.set]{fullShare} f)
      ∗ ((rowM scM0 22 inb_S128x64_S1x64_22_0).view.loc (c : Thread nD τ) ↦[(rowM scM0 22 inb_S128x64_S1x64_22_0).view.set]{fullShare} f)
      ∗ ((rowM scM0 21 inb_S128x64_S1x64_21_0).view.loc (c : Thread nD τ) ↦[(rowM scM0 21 inb_S128x64_S1x64_21_0).view.set]{fullShare} f)
      ∗ ((rowM scM0 20 inb_S128x64_S1x64_20_0).view.loc (c : Thread nD τ) ↦[(rowM scM0 20 inb_S128x64_S1x64_20_0).view.set]{fullShare} f)
      ∗ ((rowM scM0 19 inb_S128x64_S1x64_19_0).view.loc (c : Thread nD τ) ↦[(rowM scM0 19 inb_S128x64_S1x64_19_0).view.set]{fullShare} f)
      ∗ ((rowM scM0 18 inb_S128x64_S1x64_18_0).view.loc (c : Thread nD τ) ↦[(rowM scM0 18 inb_S128x64_S1x64_18_0).view.set]{fullShare} f)
      ∗ ((rowM scM0 17 inb_S128x64_S1x64_17_0).view.loc (c : Thread nD τ) ↦[(rowM scM0 17 inb_S128x64_S1x64_17_0).view.set]{fullShare} f)
      ∗ ((rowM scM0 16 inb_S128x64_S1x64_16_0).view.loc (c : Thread nD τ) ↦[(rowM scM0 16 inb_S128x64_S1x64_16_0).view.set]{fullShare} f)
      ∗ ((rowM scM0 15 inb_S128x64_S1x64_15_0).view.loc (c : Thread nD τ) ↦[(rowM scM0 15 inb_S128x64_S1x64_15_0).view.set]{fullShare} f)
      ∗ ((rowM scM0 14 inb_S128x64_S1x64_14_0).view.loc (c : Thread nD τ) ↦[(rowM scM0 14 inb_S128x64_S1x64_14_0).view.set]{fullShare} f)
      ∗ ((rowM scM0 13 inb_S128x64_S1x64_13_0).view.loc (c : Thread nD τ) ↦[(rowM scM0 13 inb_S128x64_S1x64_13_0).view.set]{fullShare} f)
      ∗ ((rowM scM0 12 inb_S128x64_S1x64_12_0).view.loc (c : Thread nD τ) ↦[(rowM scM0 12 inb_S128x64_S1x64_12_0).view.set]{fullShare} f)
      ∗ ((rowM scM0 11 inb_S128x64_S1x64_11_0).view.loc (c : Thread nD τ) ↦[(rowM scM0 11 inb_S128x64_S1x64_11_0).view.set]{fullShare} f)
      ∗ ((rowM scM0 10 inb_S128x64_S1x64_10_0).view.loc (c : Thread nD τ) ↦[(rowM scM0 10 inb_S128x64_S1x64_10_0).view.set]{fullShare} f)
      ∗ ((rowM scM0 9 inb_S128x64_S1x64_9_0).view.loc (c : Thread nD τ) ↦[(rowM scM0 9 inb_S128x64_S1x64_9_0).view.set]{fullShare} f)
      ∗ ((rowM scM0 8 inb_S128x64_S1x64_8_0).view.loc (c : Thread nD τ) ↦[(rowM scM0 8 inb_S128x64_S1x64_8_0).view.set]{fullShare} f)
      ∗ ((rowM scM0 7 inb_S128x64_S1x64_7_0).view.loc (c : Thread nD τ) ↦[(rowM scM0 7 inb_S128x64_S1x64_7_0).view.set]{fullShare} f)
      ∗ ((rowM scM0 6 inb_S128x64_S1x64_6_0).view.loc (c : Thread nD τ) ↦[(rowM scM0 6 inb_S128x64_S1x64_6_0).view.set]{fullShare} f)
      ∗ ((rowM scM0 5 inb_S128x64_S1x64_5_0).view.loc (c : Thread nD τ) ↦[(rowM scM0 5 inb_S128x64_S1x64_5_0).view.set]{fullShare} f)
      ∗ ((rowM scM0 4 inb_S128x64_S1x64_4_0).view.loc (c : Thread nD τ) ↦[(rowM scM0 4 inb_S128x64_S1x64_4_0).view.set]{fullShare} f)
      ∗ ((rowM scM0 3 inb_S128x64_S1x64_3_0).view.loc (c : Thread nD τ) ↦[(rowM scM0 3 inb_S128x64_S1x64_3_0).view.set]{fullShare} f)
      ∗ ((rowM scM0 2 inb_S128x64_S1x64_2_0).view.loc (c : Thread nD τ) ↦[(rowM scM0 2 inb_S128x64_S1x64_2_0).view.set]{fullShare} f)
      ∗ ((rowM scM0 1 inb_S128x64_S1x64_1_0).view.loc (c : Thread nD τ) ↦[(rowM scM0 1 inb_S128x64_S1x64_1_0).view.set]{fullShare} f)
      ∗ ((rowM scM0 0 inb_S128x64_S1x64_0_0).view.loc (c : Thread nD τ) ↦[(rowM scM0 0 inb_S128x64_S1x64_0_0).view.set]{fullShare} f)
      ∗ emp) : sProp 𝕄) ⊢ (scM0.view.loc (c : Thread nD τ) ↦[scM0.view.set]{fullShare} f) :=
  Entails.of_eq (rows_close (F := F) scM0 c f)

set_option maxHeartbeats 16000000 in
/-- The 128 row pieces of scratch buffer 1, all at one contents, highest row first, are the buffer's elements at those contents. -/
theorem rows_down1 (c : Dev nD) (f : Buf (Elt F) (scM1.view.loc (c : Thread nD τ))) :
    (iprop(((rowM scM1 127 inb_S128x64_S1x64_127_0).view.loc (c : Thread nD τ) ↦[(rowM scM1 127 inb_S128x64_S1x64_127_0).view.set]{fullShare} f)
      ∗ ((rowM scM1 126 inb_S128x64_S1x64_126_0).view.loc (c : Thread nD τ) ↦[(rowM scM1 126 inb_S128x64_S1x64_126_0).view.set]{fullShare} f)
      ∗ ((rowM scM1 125 inb_S128x64_S1x64_125_0).view.loc (c : Thread nD τ) ↦[(rowM scM1 125 inb_S128x64_S1x64_125_0).view.set]{fullShare} f)
      ∗ ((rowM scM1 124 inb_S128x64_S1x64_124_0).view.loc (c : Thread nD τ) ↦[(rowM scM1 124 inb_S128x64_S1x64_124_0).view.set]{fullShare} f)
      ∗ ((rowM scM1 123 inb_S128x64_S1x64_123_0).view.loc (c : Thread nD τ) ↦[(rowM scM1 123 inb_S128x64_S1x64_123_0).view.set]{fullShare} f)
      ∗ ((rowM scM1 122 inb_S128x64_S1x64_122_0).view.loc (c : Thread nD τ) ↦[(rowM scM1 122 inb_S128x64_S1x64_122_0).view.set]{fullShare} f)
      ∗ ((rowM scM1 121 inb_S128x64_S1x64_121_0).view.loc (c : Thread nD τ) ↦[(rowM scM1 121 inb_S128x64_S1x64_121_0).view.set]{fullShare} f)
      ∗ ((rowM scM1 120 inb_S128x64_S1x64_120_0).view.loc (c : Thread nD τ) ↦[(rowM scM1 120 inb_S128x64_S1x64_120_0).view.set]{fullShare} f)
      ∗ ((rowM scM1 119 inb_S128x64_S1x64_119_0).view.loc (c : Thread nD τ) ↦[(rowM scM1 119 inb_S128x64_S1x64_119_0).view.set]{fullShare} f)
      ∗ ((rowM scM1 118 inb_S128x64_S1x64_118_0).view.loc (c : Thread nD τ) ↦[(rowM scM1 118 inb_S128x64_S1x64_118_0).view.set]{fullShare} f)
      ∗ ((rowM scM1 117 inb_S128x64_S1x64_117_0).view.loc (c : Thread nD τ) ↦[(rowM scM1 117 inb_S128x64_S1x64_117_0).view.set]{fullShare} f)
      ∗ ((rowM scM1 116 inb_S128x64_S1x64_116_0).view.loc (c : Thread nD τ) ↦[(rowM scM1 116 inb_S128x64_S1x64_116_0).view.set]{fullShare} f)
      ∗ ((rowM scM1 115 inb_S128x64_S1x64_115_0).view.loc (c : Thread nD τ) ↦[(rowM scM1 115 inb_S128x64_S1x64_115_0).view.set]{fullShare} f)
      ∗ ((rowM scM1 114 inb_S128x64_S1x64_114_0).view.loc (c : Thread nD τ) ↦[(rowM scM1 114 inb_S128x64_S1x64_114_0).view.set]{fullShare} f)
      ∗ ((rowM scM1 113 inb_S128x64_S1x64_113_0).view.loc (c : Thread nD τ) ↦[(rowM scM1 113 inb_S128x64_S1x64_113_0).view.set]{fullShare} f)
      ∗ ((rowM scM1 112 inb_S128x64_S1x64_112_0).view.loc (c : Thread nD τ) ↦[(rowM scM1 112 inb_S128x64_S1x64_112_0).view.set]{fullShare} f)
      ∗ ((rowM scM1 111 inb_S128x64_S1x64_111_0).view.loc (c : Thread nD τ) ↦[(rowM scM1 111 inb_S128x64_S1x64_111_0).view.set]{fullShare} f)
      ∗ ((rowM scM1 110 inb_S128x64_S1x64_110_0).view.loc (c : Thread nD τ) ↦[(rowM scM1 110 inb_S128x64_S1x64_110_0).view.set]{fullShare} f)
      ∗ ((rowM scM1 109 inb_S128x64_S1x64_109_0).view.loc (c : Thread nD τ) ↦[(rowM scM1 109 inb_S128x64_S1x64_109_0).view.set]{fullShare} f)
      ∗ ((rowM scM1 108 inb_S128x64_S1x64_108_0).view.loc (c : Thread nD τ) ↦[(rowM scM1 108 inb_S128x64_S1x64_108_0).view.set]{fullShare} f)
      ∗ ((rowM scM1 107 inb_S128x64_S1x64_107_0).view.loc (c : Thread nD τ) ↦[(rowM scM1 107 inb_S128x64_S1x64_107_0).view.set]{fullShare} f)
      ∗ ((rowM scM1 106 inb_S128x64_S1x64_106_0).view.loc (c : Thread nD τ) ↦[(rowM scM1 106 inb_S128x64_S1x64_106_0).view.set]{fullShare} f)
      ∗ ((rowM scM1 105 inb_S128x64_S1x64_105_0).view.loc (c : Thread nD τ) ↦[(rowM scM1 105 inb_S128x64_S1x64_105_0).view.set]{fullShare} f)
      ∗ ((rowM scM1 104 inb_S128x64_S1x64_104_0).view.loc (c : Thread nD τ) ↦[(rowM scM1 104 inb_S128x64_S1x64_104_0).view.set]{fullShare} f)
      ∗ ((rowM scM1 103 inb_S128x64_S1x64_103_0).view.loc (c : Thread nD τ) ↦[(rowM scM1 103 inb_S128x64_S1x64_103_0).view.set]{fullShare} f)
      ∗ ((rowM scM1 102 inb_S128x64_S1x64_102_0).view.loc (c : Thread nD τ) ↦[(rowM scM1 102 inb_S128x64_S1x64_102_0).view.set]{fullShare} f)
      ∗ ((rowM scM1 101 inb_S128x64_S1x64_101_0).view.loc (c : Thread nD τ) ↦[(rowM scM1 101 inb_S128x64_S1x64_101_0).view.set]{fullShare} f)
      ∗ ((rowM scM1 100 inb_S128x64_S1x64_100_0).view.loc (c : Thread nD τ) ↦[(rowM scM1 100 inb_S128x64_S1x64_100_0).view.set]{fullShare} f)
      ∗ ((rowM scM1 99 inb_S128x64_S1x64_99_0).view.loc (c : Thread nD τ) ↦[(rowM scM1 99 inb_S128x64_S1x64_99_0).view.set]{fullShare} f)
      ∗ ((rowM scM1 98 inb_S128x64_S1x64_98_0).view.loc (c : Thread nD τ) ↦[(rowM scM1 98 inb_S128x64_S1x64_98_0).view.set]{fullShare} f)
      ∗ ((rowM scM1 97 inb_S128x64_S1x64_97_0).view.loc (c : Thread nD τ) ↦[(rowM scM1 97 inb_S128x64_S1x64_97_0).view.set]{fullShare} f)
      ∗ ((rowM scM1 96 inb_S128x64_S1x64_96_0).view.loc (c : Thread nD τ) ↦[(rowM scM1 96 inb_S128x64_S1x64_96_0).view.set]{fullShare} f)
      ∗ ((rowM scM1 95 inb_S128x64_S1x64_95_0).view.loc (c : Thread nD τ) ↦[(rowM scM1 95 inb_S128x64_S1x64_95_0).view.set]{fullShare} f)
      ∗ ((rowM scM1 94 inb_S128x64_S1x64_94_0).view.loc (c : Thread nD τ) ↦[(rowM scM1 94 inb_S128x64_S1x64_94_0).view.set]{fullShare} f)
      ∗ ((rowM scM1 93 inb_S128x64_S1x64_93_0).view.loc (c : Thread nD τ) ↦[(rowM scM1 93 inb_S128x64_S1x64_93_0).view.set]{fullShare} f)
      ∗ ((rowM scM1 92 inb_S128x64_S1x64_92_0).view.loc (c : Thread nD τ) ↦[(rowM scM1 92 inb_S128x64_S1x64_92_0).view.set]{fullShare} f)
      ∗ ((rowM scM1 91 inb_S128x64_S1x64_91_0).view.loc (c : Thread nD τ) ↦[(rowM scM1 91 inb_S128x64_S1x64_91_0).view.set]{fullShare} f)
      ∗ ((rowM scM1 90 inb_S128x64_S1x64_90_0).view.loc (c : Thread nD τ) ↦[(rowM scM1 90 inb_S128x64_S1x64_90_0).view.set]{fullShare} f)
      ∗ ((rowM scM1 89 inb_S128x64_S1x64_89_0).view.loc (c : Thread nD τ) ↦[(rowM scM1 89 inb_S128x64_S1x64_89_0).view.set]{fullShare} f)
      ∗ ((rowM scM1 88 inb_S128x64_S1x64_88_0).view.loc (c : Thread nD τ) ↦[(rowM scM1 88 inb_S128x64_S1x64_88_0).view.set]{fullShare} f)
      ∗ ((rowM scM1 87 inb_S128x64_S1x64_87_0).view.loc (c : Thread nD τ) ↦[(rowM scM1 87 inb_S128x64_S1x64_87_0).view.set]{fullShare} f)
      ∗ ((rowM scM1 86 inb_S128x64_S1x64_86_0).view.loc (c : Thread nD τ) ↦[(rowM scM1 86 inb_S128x64_S1x64_86_0).view.set]{fullShare} f)
      ∗ ((rowM scM1 85 inb_S128x64_S1x64_85_0).view.loc (c : Thread nD τ) ↦[(rowM scM1 85 inb_S128x64_S1x64_85_0).view.set]{fullShare} f)
      ∗ ((rowM scM1 84 inb_S128x64_S1x64_84_0).view.loc (c : Thread nD τ) ↦[(rowM scM1 84 inb_S128x64_S1x64_84_0).view.set]{fullShare} f)
      ∗ ((rowM scM1 83 inb_S128x64_S1x64_83_0).view.loc (c : Thread nD τ) ↦[(rowM scM1 83 inb_S128x64_S1x64_83_0).view.set]{fullShare} f)
      ∗ ((rowM scM1 82 inb_S128x64_S1x64_82_0).view.loc (c : Thread nD τ) ↦[(rowM scM1 82 inb_S128x64_S1x64_82_0).view.set]{fullShare} f)
      ∗ ((rowM scM1 81 inb_S128x64_S1x64_81_0).view.loc (c : Thread nD τ) ↦[(rowM scM1 81 inb_S128x64_S1x64_81_0).view.set]{fullShare} f)
      ∗ ((rowM scM1 80 inb_S128x64_S1x64_80_0).view.loc (c : Thread nD τ) ↦[(rowM scM1 80 inb_S128x64_S1x64_80_0).view.set]{fullShare} f)
      ∗ ((rowM scM1 79 inb_S128x64_S1x64_79_0).view.loc (c : Thread nD τ) ↦[(rowM scM1 79 inb_S128x64_S1x64_79_0).view.set]{fullShare} f)
      ∗ ((rowM scM1 78 inb_S128x64_S1x64_78_0).view.loc (c : Thread nD τ) ↦[(rowM scM1 78 inb_S128x64_S1x64_78_0).view.set]{fullShare} f)
      ∗ ((rowM scM1 77 inb_S128x64_S1x64_77_0).view.loc (c : Thread nD τ) ↦[(rowM scM1 77 inb_S128x64_S1x64_77_0).view.set]{fullShare} f)
      ∗ ((rowM scM1 76 inb_S128x64_S1x64_76_0).view.loc (c : Thread nD τ) ↦[(rowM scM1 76 inb_S128x64_S1x64_76_0).view.set]{fullShare} f)
      ∗ ((rowM scM1 75 inb_S128x64_S1x64_75_0).view.loc (c : Thread nD τ) ↦[(rowM scM1 75 inb_S128x64_S1x64_75_0).view.set]{fullShare} f)
      ∗ ((rowM scM1 74 inb_S128x64_S1x64_74_0).view.loc (c : Thread nD τ) ↦[(rowM scM1 74 inb_S128x64_S1x64_74_0).view.set]{fullShare} f)
      ∗ ((rowM scM1 73 inb_S128x64_S1x64_73_0).view.loc (c : Thread nD τ) ↦[(rowM scM1 73 inb_S128x64_S1x64_73_0).view.set]{fullShare} f)
      ∗ ((rowM scM1 72 inb_S128x64_S1x64_72_0).view.loc (c : Thread nD τ) ↦[(rowM scM1 72 inb_S128x64_S1x64_72_0).view.set]{fullShare} f)
      ∗ ((rowM scM1 71 inb_S128x64_S1x64_71_0).view.loc (c : Thread nD τ) ↦[(rowM scM1 71 inb_S128x64_S1x64_71_0).view.set]{fullShare} f)
      ∗ ((rowM scM1 70 inb_S128x64_S1x64_70_0).view.loc (c : Thread nD τ) ↦[(rowM scM1 70 inb_S128x64_S1x64_70_0).view.set]{fullShare} f)
      ∗ ((rowM scM1 69 inb_S128x64_S1x64_69_0).view.loc (c : Thread nD τ) ↦[(rowM scM1 69 inb_S128x64_S1x64_69_0).view.set]{fullShare} f)
      ∗ ((rowM scM1 68 inb_S128x64_S1x64_68_0).view.loc (c : Thread nD τ) ↦[(rowM scM1 68 inb_S128x64_S1x64_68_0).view.set]{fullShare} f)
      ∗ ((rowM scM1 67 inb_S128x64_S1x64_67_0).view.loc (c : Thread nD τ) ↦[(rowM scM1 67 inb_S128x64_S1x64_67_0).view.set]{fullShare} f)
      ∗ ((rowM scM1 66 inb_S128x64_S1x64_66_0).view.loc (c : Thread nD τ) ↦[(rowM scM1 66 inb_S128x64_S1x64_66_0).view.set]{fullShare} f)
      ∗ ((rowM scM1 65 inb_S128x64_S1x64_65_0).view.loc (c : Thread nD τ) ↦[(rowM scM1 65 inb_S128x64_S1x64_65_0).view.set]{fullShare} f)
      ∗ ((rowM scM1 64 inb_S128x64_S1x64_64_0).view.loc (c : Thread nD τ) ↦[(rowM scM1 64 inb_S128x64_S1x64_64_0).view.set]{fullShare} f)
      ∗ ((rowM scM1 63 inb_S128x64_S1x64_63_0).view.loc (c : Thread nD τ) ↦[(rowM scM1 63 inb_S128x64_S1x64_63_0).view.set]{fullShare} f)
      ∗ ((rowM scM1 62 inb_S128x64_S1x64_62_0).view.loc (c : Thread nD τ) ↦[(rowM scM1 62 inb_S128x64_S1x64_62_0).view.set]{fullShare} f)
      ∗ ((rowM scM1 61 inb_S128x64_S1x64_61_0).view.loc (c : Thread nD τ) ↦[(rowM scM1 61 inb_S128x64_S1x64_61_0).view.set]{fullShare} f)
      ∗ ((rowM scM1 60 inb_S128x64_S1x64_60_0).view.loc (c : Thread nD τ) ↦[(rowM scM1 60 inb_S128x64_S1x64_60_0).view.set]{fullShare} f)
      ∗ ((rowM scM1 59 inb_S128x64_S1x64_59_0).view.loc (c : Thread nD τ) ↦[(rowM scM1 59 inb_S128x64_S1x64_59_0).view.set]{fullShare} f)
      ∗ ((rowM scM1 58 inb_S128x64_S1x64_58_0).view.loc (c : Thread nD τ) ↦[(rowM scM1 58 inb_S128x64_S1x64_58_0).view.set]{fullShare} f)
      ∗ ((rowM scM1 57 inb_S128x64_S1x64_57_0).view.loc (c : Thread nD τ) ↦[(rowM scM1 57 inb_S128x64_S1x64_57_0).view.set]{fullShare} f)
      ∗ ((rowM scM1 56 inb_S128x64_S1x64_56_0).view.loc (c : Thread nD τ) ↦[(rowM scM1 56 inb_S128x64_S1x64_56_0).view.set]{fullShare} f)
      ∗ ((rowM scM1 55 inb_S128x64_S1x64_55_0).view.loc (c : Thread nD τ) ↦[(rowM scM1 55 inb_S128x64_S1x64_55_0).view.set]{fullShare} f)
      ∗ ((rowM scM1 54 inb_S128x64_S1x64_54_0).view.loc (c : Thread nD τ) ↦[(rowM scM1 54 inb_S128x64_S1x64_54_0).view.set]{fullShare} f)
      ∗ ((rowM scM1 53 inb_S128x64_S1x64_53_0).view.loc (c : Thread nD τ) ↦[(rowM scM1 53 inb_S128x64_S1x64_53_0).view.set]{fullShare} f)
      ∗ ((rowM scM1 52 inb_S128x64_S1x64_52_0).view.loc (c : Thread nD τ) ↦[(rowM scM1 52 inb_S128x64_S1x64_52_0).view.set]{fullShare} f)
      ∗ ((rowM scM1 51 inb_S128x64_S1x64_51_0).view.loc (c : Thread nD τ) ↦[(rowM scM1 51 inb_S128x64_S1x64_51_0).view.set]{fullShare} f)
      ∗ ((rowM scM1 50 inb_S128x64_S1x64_50_0).view.loc (c : Thread nD τ) ↦[(rowM scM1 50 inb_S128x64_S1x64_50_0).view.set]{fullShare} f)
      ∗ ((rowM scM1 49 inb_S128x64_S1x64_49_0).view.loc (c : Thread nD τ) ↦[(rowM scM1 49 inb_S128x64_S1x64_49_0).view.set]{fullShare} f)
      ∗ ((rowM scM1 48 inb_S128x64_S1x64_48_0).view.loc (c : Thread nD τ) ↦[(rowM scM1 48 inb_S128x64_S1x64_48_0).view.set]{fullShare} f)
      ∗ ((rowM scM1 47 inb_S128x64_S1x64_47_0).view.loc (c : Thread nD τ) ↦[(rowM scM1 47 inb_S128x64_S1x64_47_0).view.set]{fullShare} f)
      ∗ ((rowM scM1 46 inb_S128x64_S1x64_46_0).view.loc (c : Thread nD τ) ↦[(rowM scM1 46 inb_S128x64_S1x64_46_0).view.set]{fullShare} f)
      ∗ ((rowM scM1 45 inb_S128x64_S1x64_45_0).view.loc (c : Thread nD τ) ↦[(rowM scM1 45 inb_S128x64_S1x64_45_0).view.set]{fullShare} f)
      ∗ ((rowM scM1 44 inb_S128x64_S1x64_44_0).view.loc (c : Thread nD τ) ↦[(rowM scM1 44 inb_S128x64_S1x64_44_0).view.set]{fullShare} f)
      ∗ ((rowM scM1 43 inb_S128x64_S1x64_43_0).view.loc (c : Thread nD τ) ↦[(rowM scM1 43 inb_S128x64_S1x64_43_0).view.set]{fullShare} f)
      ∗ ((rowM scM1 42 inb_S128x64_S1x64_42_0).view.loc (c : Thread nD τ) ↦[(rowM scM1 42 inb_S128x64_S1x64_42_0).view.set]{fullShare} f)
      ∗ ((rowM scM1 41 inb_S128x64_S1x64_41_0).view.loc (c : Thread nD τ) ↦[(rowM scM1 41 inb_S128x64_S1x64_41_0).view.set]{fullShare} f)
      ∗ ((rowM scM1 40 inb_S128x64_S1x64_40_0).view.loc (c : Thread nD τ) ↦[(rowM scM1 40 inb_S128x64_S1x64_40_0).view.set]{fullShare} f)
      ∗ ((rowM scM1 39 inb_S128x64_S1x64_39_0).view.loc (c : Thread nD τ) ↦[(rowM scM1 39 inb_S128x64_S1x64_39_0).view.set]{fullShare} f)
      ∗ ((rowM scM1 38 inb_S128x64_S1x64_38_0).view.loc (c : Thread nD τ) ↦[(rowM scM1 38 inb_S128x64_S1x64_38_0).view.set]{fullShare} f)
      ∗ ((rowM scM1 37 inb_S128x64_S1x64_37_0).view.loc (c : Thread nD τ) ↦[(rowM scM1 37 inb_S128x64_S1x64_37_0).view.set]{fullShare} f)
      ∗ ((rowM scM1 36 inb_S128x64_S1x64_36_0).view.loc (c : Thread nD τ) ↦[(rowM scM1 36 inb_S128x64_S1x64_36_0).view.set]{fullShare} f)
      ∗ ((rowM scM1 35 inb_S128x64_S1x64_35_0).view.loc (c : Thread nD τ) ↦[(rowM scM1 35 inb_S128x64_S1x64_35_0).view.set]{fullShare} f)
      ∗ ((rowM scM1 34 inb_S128x64_S1x64_34_0).view.loc (c : Thread nD τ) ↦[(rowM scM1 34 inb_S128x64_S1x64_34_0).view.set]{fullShare} f)
      ∗ ((rowM scM1 33 inb_S128x64_S1x64_33_0).view.loc (c : Thread nD τ) ↦[(rowM scM1 33 inb_S128x64_S1x64_33_0).view.set]{fullShare} f)
      ∗ ((rowM scM1 32 inb_S128x64_S1x64_32_0).view.loc (c : Thread nD τ) ↦[(rowM scM1 32 inb_S128x64_S1x64_32_0).view.set]{fullShare} f)
      ∗ ((rowM scM1 31 inb_S128x64_S1x64_31_0).view.loc (c : Thread nD τ) ↦[(rowM scM1 31 inb_S128x64_S1x64_31_0).view.set]{fullShare} f)
      ∗ ((rowM scM1 30 inb_S128x64_S1x64_30_0).view.loc (c : Thread nD τ) ↦[(rowM scM1 30 inb_S128x64_S1x64_30_0).view.set]{fullShare} f)
      ∗ ((rowM scM1 29 inb_S128x64_S1x64_29_0).view.loc (c : Thread nD τ) ↦[(rowM scM1 29 inb_S128x64_S1x64_29_0).view.set]{fullShare} f)
      ∗ ((rowM scM1 28 inb_S128x64_S1x64_28_0).view.loc (c : Thread nD τ) ↦[(rowM scM1 28 inb_S128x64_S1x64_28_0).view.set]{fullShare} f)
      ∗ ((rowM scM1 27 inb_S128x64_S1x64_27_0).view.loc (c : Thread nD τ) ↦[(rowM scM1 27 inb_S128x64_S1x64_27_0).view.set]{fullShare} f)
      ∗ ((rowM scM1 26 inb_S128x64_S1x64_26_0).view.loc (c : Thread nD τ) ↦[(rowM scM1 26 inb_S128x64_S1x64_26_0).view.set]{fullShare} f)
      ∗ ((rowM scM1 25 inb_S128x64_S1x64_25_0).view.loc (c : Thread nD τ) ↦[(rowM scM1 25 inb_S128x64_S1x64_25_0).view.set]{fullShare} f)
      ∗ ((rowM scM1 24 inb_S128x64_S1x64_24_0).view.loc (c : Thread nD τ) ↦[(rowM scM1 24 inb_S128x64_S1x64_24_0).view.set]{fullShare} f)
      ∗ ((rowM scM1 23 inb_S128x64_S1x64_23_0).view.loc (c : Thread nD τ) ↦[(rowM scM1 23 inb_S128x64_S1x64_23_0).view.set]{fullShare} f)
      ∗ ((rowM scM1 22 inb_S128x64_S1x64_22_0).view.loc (c : Thread nD τ) ↦[(rowM scM1 22 inb_S128x64_S1x64_22_0).view.set]{fullShare} f)
      ∗ ((rowM scM1 21 inb_S128x64_S1x64_21_0).view.loc (c : Thread nD τ) ↦[(rowM scM1 21 inb_S128x64_S1x64_21_0).view.set]{fullShare} f)
      ∗ ((rowM scM1 20 inb_S128x64_S1x64_20_0).view.loc (c : Thread nD τ) ↦[(rowM scM1 20 inb_S128x64_S1x64_20_0).view.set]{fullShare} f)
      ∗ ((rowM scM1 19 inb_S128x64_S1x64_19_0).view.loc (c : Thread nD τ) ↦[(rowM scM1 19 inb_S128x64_S1x64_19_0).view.set]{fullShare} f)
      ∗ ((rowM scM1 18 inb_S128x64_S1x64_18_0).view.loc (c : Thread nD τ) ↦[(rowM scM1 18 inb_S128x64_S1x64_18_0).view.set]{fullShare} f)
      ∗ ((rowM scM1 17 inb_S128x64_S1x64_17_0).view.loc (c : Thread nD τ) ↦[(rowM scM1 17 inb_S128x64_S1x64_17_0).view.set]{fullShare} f)
      ∗ ((rowM scM1 16 inb_S128x64_S1x64_16_0).view.loc (c : Thread nD τ) ↦[(rowM scM1 16 inb_S128x64_S1x64_16_0).view.set]{fullShare} f)
      ∗ ((rowM scM1 15 inb_S128x64_S1x64_15_0).view.loc (c : Thread nD τ) ↦[(rowM scM1 15 inb_S128x64_S1x64_15_0).view.set]{fullShare} f)
      ∗ ((rowM scM1 14 inb_S128x64_S1x64_14_0).view.loc (c : Thread nD τ) ↦[(rowM scM1 14 inb_S128x64_S1x64_14_0).view.set]{fullShare} f)
      ∗ ((rowM scM1 13 inb_S128x64_S1x64_13_0).view.loc (c : Thread nD τ) ↦[(rowM scM1 13 inb_S128x64_S1x64_13_0).view.set]{fullShare} f)
      ∗ ((rowM scM1 12 inb_S128x64_S1x64_12_0).view.loc (c : Thread nD τ) ↦[(rowM scM1 12 inb_S128x64_S1x64_12_0).view.set]{fullShare} f)
      ∗ ((rowM scM1 11 inb_S128x64_S1x64_11_0).view.loc (c : Thread nD τ) ↦[(rowM scM1 11 inb_S128x64_S1x64_11_0).view.set]{fullShare} f)
      ∗ ((rowM scM1 10 inb_S128x64_S1x64_10_0).view.loc (c : Thread nD τ) ↦[(rowM scM1 10 inb_S128x64_S1x64_10_0).view.set]{fullShare} f)
      ∗ ((rowM scM1 9 inb_S128x64_S1x64_9_0).view.loc (c : Thread nD τ) ↦[(rowM scM1 9 inb_S128x64_S1x64_9_0).view.set]{fullShare} f)
      ∗ ((rowM scM1 8 inb_S128x64_S1x64_8_0).view.loc (c : Thread nD τ) ↦[(rowM scM1 8 inb_S128x64_S1x64_8_0).view.set]{fullShare} f)
      ∗ ((rowM scM1 7 inb_S128x64_S1x64_7_0).view.loc (c : Thread nD τ) ↦[(rowM scM1 7 inb_S128x64_S1x64_7_0).view.set]{fullShare} f)
      ∗ ((rowM scM1 6 inb_S128x64_S1x64_6_0).view.loc (c : Thread nD τ) ↦[(rowM scM1 6 inb_S128x64_S1x64_6_0).view.set]{fullShare} f)
      ∗ ((rowM scM1 5 inb_S128x64_S1x64_5_0).view.loc (c : Thread nD τ) ↦[(rowM scM1 5 inb_S128x64_S1x64_5_0).view.set]{fullShare} f)
      ∗ ((rowM scM1 4 inb_S128x64_S1x64_4_0).view.loc (c : Thread nD τ) ↦[(rowM scM1 4 inb_S128x64_S1x64_4_0).view.set]{fullShare} f)
      ∗ ((rowM scM1 3 inb_S128x64_S1x64_3_0).view.loc (c : Thread nD τ) ↦[(rowM scM1 3 inb_S128x64_S1x64_3_0).view.set]{fullShare} f)
      ∗ ((rowM scM1 2 inb_S128x64_S1x64_2_0).view.loc (c : Thread nD τ) ↦[(rowM scM1 2 inb_S128x64_S1x64_2_0).view.set]{fullShare} f)
      ∗ ((rowM scM1 1 inb_S128x64_S1x64_1_0).view.loc (c : Thread nD τ) ↦[(rowM scM1 1 inb_S128x64_S1x64_1_0).view.set]{fullShare} f)
      ∗ ((rowM scM1 0 inb_S128x64_S1x64_0_0).view.loc (c : Thread nD τ) ↦[(rowM scM1 0 inb_S128x64_S1x64_0_0).view.set]{fullShare} f)
      ∗ emp) : sProp 𝕄) ⊢ (scM1.view.loc (c : Thread nD τ) ↦[scM1.view.set]{fullShare} f) :=
  Entails.of_eq (rows_close (F := F) scM1 c f)

set_option maxHeartbeats 16000000 in
/-- The 128 row pieces of scratch buffer 2, all at one contents, highest row first, are the buffer's elements at those contents. -/
theorem rows_down2 (c : Dev nD) (f : Buf (Elt F) (scM2.view.loc (c : Thread nD τ))) :
    (iprop(((rowM scM2 127 inb_S128x64_S1x64_127_0).view.loc (c : Thread nD τ) ↦[(rowM scM2 127 inb_S128x64_S1x64_127_0).view.set]{fullShare} f)
      ∗ ((rowM scM2 126 inb_S128x64_S1x64_126_0).view.loc (c : Thread nD τ) ↦[(rowM scM2 126 inb_S128x64_S1x64_126_0).view.set]{fullShare} f)
      ∗ ((rowM scM2 125 inb_S128x64_S1x64_125_0).view.loc (c : Thread nD τ) ↦[(rowM scM2 125 inb_S128x64_S1x64_125_0).view.set]{fullShare} f)
      ∗ ((rowM scM2 124 inb_S128x64_S1x64_124_0).view.loc (c : Thread nD τ) ↦[(rowM scM2 124 inb_S128x64_S1x64_124_0).view.set]{fullShare} f)
      ∗ ((rowM scM2 123 inb_S128x64_S1x64_123_0).view.loc (c : Thread nD τ) ↦[(rowM scM2 123 inb_S128x64_S1x64_123_0).view.set]{fullShare} f)
      ∗ ((rowM scM2 122 inb_S128x64_S1x64_122_0).view.loc (c : Thread nD τ) ↦[(rowM scM2 122 inb_S128x64_S1x64_122_0).view.set]{fullShare} f)
      ∗ ((rowM scM2 121 inb_S128x64_S1x64_121_0).view.loc (c : Thread nD τ) ↦[(rowM scM2 121 inb_S128x64_S1x64_121_0).view.set]{fullShare} f)
      ∗ ((rowM scM2 120 inb_S128x64_S1x64_120_0).view.loc (c : Thread nD τ) ↦[(rowM scM2 120 inb_S128x64_S1x64_120_0).view.set]{fullShare} f)
      ∗ ((rowM scM2 119 inb_S128x64_S1x64_119_0).view.loc (c : Thread nD τ) ↦[(rowM scM2 119 inb_S128x64_S1x64_119_0).view.set]{fullShare} f)
      ∗ ((rowM scM2 118 inb_S128x64_S1x64_118_0).view.loc (c : Thread nD τ) ↦[(rowM scM2 118 inb_S128x64_S1x64_118_0).view.set]{fullShare} f)
      ∗ ((rowM scM2 117 inb_S128x64_S1x64_117_0).view.loc (c : Thread nD τ) ↦[(rowM scM2 117 inb_S128x64_S1x64_117_0).view.set]{fullShare} f)
      ∗ ((rowM scM2 116 inb_S128x64_S1x64_116_0).view.loc (c : Thread nD τ) ↦[(rowM scM2 116 inb_S128x64_S1x64_116_0).view.set]{fullShare} f)
      ∗ ((rowM scM2 115 inb_S128x64_S1x64_115_0).view.loc (c : Thread nD τ) ↦[(rowM scM2 115 inb_S128x64_S1x64_115_0).view.set]{fullShare} f)
      ∗ ((rowM scM2 114 inb_S128x64_S1x64_114_0).view.loc (c : Thread nD τ) ↦[(rowM scM2 114 inb_S128x64_S1x64_114_0).view.set]{fullShare} f)
      ∗ ((rowM scM2 113 inb_S128x64_S1x64_113_0).view.loc (c : Thread nD τ) ↦[(rowM scM2 113 inb_S128x64_S1x64_113_0).view.set]{fullShare} f)
      ∗ ((rowM scM2 112 inb_S128x64_S1x64_112_0).view.loc (c : Thread nD τ) ↦[(rowM scM2 112 inb_S128x64_S1x64_112_0).view.set]{fullShare} f)
      ∗ ((rowM scM2 111 inb_S128x64_S1x64_111_0).view.loc (c : Thread nD τ) ↦[(rowM scM2 111 inb_S128x64_S1x64_111_0).view.set]{fullShare} f)
      ∗ ((rowM scM2 110 inb_S128x64_S1x64_110_0).view.loc (c : Thread nD τ) ↦[(rowM scM2 110 inb_S128x64_S1x64_110_0).view.set]{fullShare} f)
      ∗ ((rowM scM2 109 inb_S128x64_S1x64_109_0).view.loc (c : Thread nD τ) ↦[(rowM scM2 109 inb_S128x64_S1x64_109_0).view.set]{fullShare} f)
      ∗ ((rowM scM2 108 inb_S128x64_S1x64_108_0).view.loc (c : Thread nD τ) ↦[(rowM scM2 108 inb_S128x64_S1x64_108_0).view.set]{fullShare} f)
      ∗ ((rowM scM2 107 inb_S128x64_S1x64_107_0).view.loc (c : Thread nD τ) ↦[(rowM scM2 107 inb_S128x64_S1x64_107_0).view.set]{fullShare} f)
      ∗ ((rowM scM2 106 inb_S128x64_S1x64_106_0).view.loc (c : Thread nD τ) ↦[(rowM scM2 106 inb_S128x64_S1x64_106_0).view.set]{fullShare} f)
      ∗ ((rowM scM2 105 inb_S128x64_S1x64_105_0).view.loc (c : Thread nD τ) ↦[(rowM scM2 105 inb_S128x64_S1x64_105_0).view.set]{fullShare} f)
      ∗ ((rowM scM2 104 inb_S128x64_S1x64_104_0).view.loc (c : Thread nD τ) ↦[(rowM scM2 104 inb_S128x64_S1x64_104_0).view.set]{fullShare} f)
      ∗ ((rowM scM2 103 inb_S128x64_S1x64_103_0).view.loc (c : Thread nD τ) ↦[(rowM scM2 103 inb_S128x64_S1x64_103_0).view.set]{fullShare} f)
      ∗ ((rowM scM2 102 inb_S128x64_S1x64_102_0).view.loc (c : Thread nD τ) ↦[(rowM scM2 102 inb_S128x64_S1x64_102_0).view.set]{fullShare} f)
      ∗ ((rowM scM2 101 inb_S128x64_S1x64_101_0).view.loc (c : Thread nD τ) ↦[(rowM scM2 101 inb_S128x64_S1x64_101_0).view.set]{fullShare} f)
      ∗ ((rowM scM2 100 inb_S128x64_S1x64_100_0).view.loc (c : Thread nD τ) ↦[(rowM scM2 100 inb_S128x64_S1x64_100_0).view.set]{fullShare} f)
      ∗ ((rowM scM2 99 inb_S128x64_S1x64_99_0).view.loc (c : Thread nD τ) ↦[(rowM scM2 99 inb_S128x64_S1x64_99_0).view.set]{fullShare} f)
      ∗ ((rowM scM2 98 inb_S128x64_S1x64_98_0).view.loc (c : Thread nD τ) ↦[(rowM scM2 98 inb_S128x64_S1x64_98_0).view.set]{fullShare} f)
      ∗ ((rowM scM2 97 inb_S128x64_S1x64_97_0).view.loc (c : Thread nD τ) ↦[(rowM scM2 97 inb_S128x64_S1x64_97_0).view.set]{fullShare} f)
      ∗ ((rowM scM2 96 inb_S128x64_S1x64_96_0).view.loc (c : Thread nD τ) ↦[(rowM scM2 96 inb_S128x64_S1x64_96_0).view.set]{fullShare} f)
      ∗ ((rowM scM2 95 inb_S128x64_S1x64_95_0).view.loc (c : Thread nD τ) ↦[(rowM scM2 95 inb_S128x64_S1x64_95_0).view.set]{fullShare} f)
      ∗ ((rowM scM2 94 inb_S128x64_S1x64_94_0).view.loc (c : Thread nD τ) ↦[(rowM scM2 94 inb_S128x64_S1x64_94_0).view.set]{fullShare} f)
      ∗ ((rowM scM2 93 inb_S128x64_S1x64_93_0).view.loc (c : Thread nD τ) ↦[(rowM scM2 93 inb_S128x64_S1x64_93_0).view.set]{fullShare} f)
      ∗ ((rowM scM2 92 inb_S128x64_S1x64_92_0).view.loc (c : Thread nD τ) ↦[(rowM scM2 92 inb_S128x64_S1x64_92_0).view.set]{fullShare} f)
      ∗ ((rowM scM2 91 inb_S128x64_S1x64_91_0).view.loc (c : Thread nD τ) ↦[(rowM scM2 91 inb_S128x64_S1x64_91_0).view.set]{fullShare} f)
      ∗ ((rowM scM2 90 inb_S128x64_S1x64_90_0).view.loc (c : Thread nD τ) ↦[(rowM scM2 90 inb_S128x64_S1x64_90_0).view.set]{fullShare} f)
      ∗ ((rowM scM2 89 inb_S128x64_S1x64_89_0).view.loc (c : Thread nD τ) ↦[(rowM scM2 89 inb_S128x64_S1x64_89_0).view.set]{fullShare} f)
      ∗ ((rowM scM2 88 inb_S128x64_S1x64_88_0).view.loc (c : Thread nD τ) ↦[(rowM scM2 88 inb_S128x64_S1x64_88_0).view.set]{fullShare} f)
      ∗ ((rowM scM2 87 inb_S128x64_S1x64_87_0).view.loc (c : Thread nD τ) ↦[(rowM scM2 87 inb_S128x64_S1x64_87_0).view.set]{fullShare} f)
      ∗ ((rowM scM2 86 inb_S128x64_S1x64_86_0).view.loc (c : Thread nD τ) ↦[(rowM scM2 86 inb_S128x64_S1x64_86_0).view.set]{fullShare} f)
      ∗ ((rowM scM2 85 inb_S128x64_S1x64_85_0).view.loc (c : Thread nD τ) ↦[(rowM scM2 85 inb_S128x64_S1x64_85_0).view.set]{fullShare} f)
      ∗ ((rowM scM2 84 inb_S128x64_S1x64_84_0).view.loc (c : Thread nD τ) ↦[(rowM scM2 84 inb_S128x64_S1x64_84_0).view.set]{fullShare} f)
      ∗ ((rowM scM2 83 inb_S128x64_S1x64_83_0).view.loc (c : Thread nD τ) ↦[(rowM scM2 83 inb_S128x64_S1x64_83_0).view.set]{fullShare} f)
      ∗ ((rowM scM2 82 inb_S128x64_S1x64_82_0).view.loc (c : Thread nD τ) ↦[(rowM scM2 82 inb_S128x64_S1x64_82_0).view.set]{fullShare} f)
      ∗ ((rowM scM2 81 inb_S128x64_S1x64_81_0).view.loc (c : Thread nD τ) ↦[(rowM scM2 81 inb_S128x64_S1x64_81_0).view.set]{fullShare} f)
      ∗ ((rowM scM2 80 inb_S128x64_S1x64_80_0).view.loc (c : Thread nD τ) ↦[(rowM scM2 80 inb_S128x64_S1x64_80_0).view.set]{fullShare} f)
      ∗ ((rowM scM2 79 inb_S128x64_S1x64_79_0).view.loc (c : Thread nD τ) ↦[(rowM scM2 79 inb_S128x64_S1x64_79_0).view.set]{fullShare} f)
      ∗ ((rowM scM2 78 inb_S128x64_S1x64_78_0).view.loc (c : Thread nD τ) ↦[(rowM scM2 78 inb_S128x64_S1x64_78_0).view.set]{fullShare} f)
      ∗ ((rowM scM2 77 inb_S128x64_S1x64_77_0).view.loc (c : Thread nD τ) ↦[(rowM scM2 77 inb_S128x64_S1x64_77_0).view.set]{fullShare} f)
      ∗ ((rowM scM2 76 inb_S128x64_S1x64_76_0).view.loc (c : Thread nD τ) ↦[(rowM scM2 76 inb_S128x64_S1x64_76_0).view.set]{fullShare} f)
      ∗ ((rowM scM2 75 inb_S128x64_S1x64_75_0).view.loc (c : Thread nD τ) ↦[(rowM scM2 75 inb_S128x64_S1x64_75_0).view.set]{fullShare} f)
      ∗ ((rowM scM2 74 inb_S128x64_S1x64_74_0).view.loc (c : Thread nD τ) ↦[(rowM scM2 74 inb_S128x64_S1x64_74_0).view.set]{fullShare} f)
      ∗ ((rowM scM2 73 inb_S128x64_S1x64_73_0).view.loc (c : Thread nD τ) ↦[(rowM scM2 73 inb_S128x64_S1x64_73_0).view.set]{fullShare} f)
      ∗ ((rowM scM2 72 inb_S128x64_S1x64_72_0).view.loc (c : Thread nD τ) ↦[(rowM scM2 72 inb_S128x64_S1x64_72_0).view.set]{fullShare} f)
      ∗ ((rowM scM2 71 inb_S128x64_S1x64_71_0).view.loc (c : Thread nD τ) ↦[(rowM scM2 71 inb_S128x64_S1x64_71_0).view.set]{fullShare} f)
      ∗ ((rowM scM2 70 inb_S128x64_S1x64_70_0).view.loc (c : Thread nD τ) ↦[(rowM scM2 70 inb_S128x64_S1x64_70_0).view.set]{fullShare} f)
      ∗ ((rowM scM2 69 inb_S128x64_S1x64_69_0).view.loc (c : Thread nD τ) ↦[(rowM scM2 69 inb_S128x64_S1x64_69_0).view.set]{fullShare} f)
      ∗ ((rowM scM2 68 inb_S128x64_S1x64_68_0).view.loc (c : Thread nD τ) ↦[(rowM scM2 68 inb_S128x64_S1x64_68_0).view.set]{fullShare} f)
      ∗ ((rowM scM2 67 inb_S128x64_S1x64_67_0).view.loc (c : Thread nD τ) ↦[(rowM scM2 67 inb_S128x64_S1x64_67_0).view.set]{fullShare} f)
      ∗ ((rowM scM2 66 inb_S128x64_S1x64_66_0).view.loc (c : Thread nD τ) ↦[(rowM scM2 66 inb_S128x64_S1x64_66_0).view.set]{fullShare} f)
      ∗ ((rowM scM2 65 inb_S128x64_S1x64_65_0).view.loc (c : Thread nD τ) ↦[(rowM scM2 65 inb_S128x64_S1x64_65_0).view.set]{fullShare} f)
      ∗ ((rowM scM2 64 inb_S128x64_S1x64_64_0).view.loc (c : Thread nD τ) ↦[(rowM scM2 64 inb_S128x64_S1x64_64_0).view.set]{fullShare} f)
      ∗ ((rowM scM2 63 inb_S128x64_S1x64_63_0).view.loc (c : Thread nD τ) ↦[(rowM scM2 63 inb_S128x64_S1x64_63_0).view.set]{fullShare} f)
      ∗ ((rowM scM2 62 inb_S128x64_S1x64_62_0).view.loc (c : Thread nD τ) ↦[(rowM scM2 62 inb_S128x64_S1x64_62_0).view.set]{fullShare} f)
      ∗ ((rowM scM2 61 inb_S128x64_S1x64_61_0).view.loc (c : Thread nD τ) ↦[(rowM scM2 61 inb_S128x64_S1x64_61_0).view.set]{fullShare} f)
      ∗ ((rowM scM2 60 inb_S128x64_S1x64_60_0).view.loc (c : Thread nD τ) ↦[(rowM scM2 60 inb_S128x64_S1x64_60_0).view.set]{fullShare} f)
      ∗ ((rowM scM2 59 inb_S128x64_S1x64_59_0).view.loc (c : Thread nD τ) ↦[(rowM scM2 59 inb_S128x64_S1x64_59_0).view.set]{fullShare} f)
      ∗ ((rowM scM2 58 inb_S128x64_S1x64_58_0).view.loc (c : Thread nD τ) ↦[(rowM scM2 58 inb_S128x64_S1x64_58_0).view.set]{fullShare} f)
      ∗ ((rowM scM2 57 inb_S128x64_S1x64_57_0).view.loc (c : Thread nD τ) ↦[(rowM scM2 57 inb_S128x64_S1x64_57_0).view.set]{fullShare} f)
      ∗ ((rowM scM2 56 inb_S128x64_S1x64_56_0).view.loc (c : Thread nD τ) ↦[(rowM scM2 56 inb_S128x64_S1x64_56_0).view.set]{fullShare} f)
      ∗ ((rowM scM2 55 inb_S128x64_S1x64_55_0).view.loc (c : Thread nD τ) ↦[(rowM scM2 55 inb_S128x64_S1x64_55_0).view.set]{fullShare} f)
      ∗ ((rowM scM2 54 inb_S128x64_S1x64_54_0).view.loc (c : Thread nD τ) ↦[(rowM scM2 54 inb_S128x64_S1x64_54_0).view.set]{fullShare} f)
      ∗ ((rowM scM2 53 inb_S128x64_S1x64_53_0).view.loc (c : Thread nD τ) ↦[(rowM scM2 53 inb_S128x64_S1x64_53_0).view.set]{fullShare} f)
      ∗ ((rowM scM2 52 inb_S128x64_S1x64_52_0).view.loc (c : Thread nD τ) ↦[(rowM scM2 52 inb_S128x64_S1x64_52_0).view.set]{fullShare} f)
      ∗ ((rowM scM2 51 inb_S128x64_S1x64_51_0).view.loc (c : Thread nD τ) ↦[(rowM scM2 51 inb_S128x64_S1x64_51_0).view.set]{fullShare} f)
      ∗ ((rowM scM2 50 inb_S128x64_S1x64_50_0).view.loc (c : Thread nD τ) ↦[(rowM scM2 50 inb_S128x64_S1x64_50_0).view.set]{fullShare} f)
      ∗ ((rowM scM2 49 inb_S128x64_S1x64_49_0).view.loc (c : Thread nD τ) ↦[(rowM scM2 49 inb_S128x64_S1x64_49_0).view.set]{fullShare} f)
      ∗ ((rowM scM2 48 inb_S128x64_S1x64_48_0).view.loc (c : Thread nD τ) ↦[(rowM scM2 48 inb_S128x64_S1x64_48_0).view.set]{fullShare} f)
      ∗ ((rowM scM2 47 inb_S128x64_S1x64_47_0).view.loc (c : Thread nD τ) ↦[(rowM scM2 47 inb_S128x64_S1x64_47_0).view.set]{fullShare} f)
      ∗ ((rowM scM2 46 inb_S128x64_S1x64_46_0).view.loc (c : Thread nD τ) ↦[(rowM scM2 46 inb_S128x64_S1x64_46_0).view.set]{fullShare} f)
      ∗ ((rowM scM2 45 inb_S128x64_S1x64_45_0).view.loc (c : Thread nD τ) ↦[(rowM scM2 45 inb_S128x64_S1x64_45_0).view.set]{fullShare} f)
      ∗ ((rowM scM2 44 inb_S128x64_S1x64_44_0).view.loc (c : Thread nD τ) ↦[(rowM scM2 44 inb_S128x64_S1x64_44_0).view.set]{fullShare} f)
      ∗ ((rowM scM2 43 inb_S128x64_S1x64_43_0).view.loc (c : Thread nD τ) ↦[(rowM scM2 43 inb_S128x64_S1x64_43_0).view.set]{fullShare} f)
      ∗ ((rowM scM2 42 inb_S128x64_S1x64_42_0).view.loc (c : Thread nD τ) ↦[(rowM scM2 42 inb_S128x64_S1x64_42_0).view.set]{fullShare} f)
      ∗ ((rowM scM2 41 inb_S128x64_S1x64_41_0).view.loc (c : Thread nD τ) ↦[(rowM scM2 41 inb_S128x64_S1x64_41_0).view.set]{fullShare} f)
      ∗ ((rowM scM2 40 inb_S128x64_S1x64_40_0).view.loc (c : Thread nD τ) ↦[(rowM scM2 40 inb_S128x64_S1x64_40_0).view.set]{fullShare} f)
      ∗ ((rowM scM2 39 inb_S128x64_S1x64_39_0).view.loc (c : Thread nD τ) ↦[(rowM scM2 39 inb_S128x64_S1x64_39_0).view.set]{fullShare} f)
      ∗ ((rowM scM2 38 inb_S128x64_S1x64_38_0).view.loc (c : Thread nD τ) ↦[(rowM scM2 38 inb_S128x64_S1x64_38_0).view.set]{fullShare} f)
      ∗ ((rowM scM2 37 inb_S128x64_S1x64_37_0).view.loc (c : Thread nD τ) ↦[(rowM scM2 37 inb_S128x64_S1x64_37_0).view.set]{fullShare} f)
      ∗ ((rowM scM2 36 inb_S128x64_S1x64_36_0).view.loc (c : Thread nD τ) ↦[(rowM scM2 36 inb_S128x64_S1x64_36_0).view.set]{fullShare} f)
      ∗ ((rowM scM2 35 inb_S128x64_S1x64_35_0).view.loc (c : Thread nD τ) ↦[(rowM scM2 35 inb_S128x64_S1x64_35_0).view.set]{fullShare} f)
      ∗ ((rowM scM2 34 inb_S128x64_S1x64_34_0).view.loc (c : Thread nD τ) ↦[(rowM scM2 34 inb_S128x64_S1x64_34_0).view.set]{fullShare} f)
      ∗ ((rowM scM2 33 inb_S128x64_S1x64_33_0).view.loc (c : Thread nD τ) ↦[(rowM scM2 33 inb_S128x64_S1x64_33_0).view.set]{fullShare} f)
      ∗ ((rowM scM2 32 inb_S128x64_S1x64_32_0).view.loc (c : Thread nD τ) ↦[(rowM scM2 32 inb_S128x64_S1x64_32_0).view.set]{fullShare} f)
      ∗ ((rowM scM2 31 inb_S128x64_S1x64_31_0).view.loc (c : Thread nD τ) ↦[(rowM scM2 31 inb_S128x64_S1x64_31_0).view.set]{fullShare} f)
      ∗ ((rowM scM2 30 inb_S128x64_S1x64_30_0).view.loc (c : Thread nD τ) ↦[(rowM scM2 30 inb_S128x64_S1x64_30_0).view.set]{fullShare} f)
      ∗ ((rowM scM2 29 inb_S128x64_S1x64_29_0).view.loc (c : Thread nD τ) ↦[(rowM scM2 29 inb_S128x64_S1x64_29_0).view.set]{fullShare} f)
      ∗ ((rowM scM2 28 inb_S128x64_S1x64_28_0).view.loc (c : Thread nD τ) ↦[(rowM scM2 28 inb_S128x64_S1x64_28_0).view.set]{fullShare} f)
      ∗ ((rowM scM2 27 inb_S128x64_S1x64_27_0).view.loc (c : Thread nD τ) ↦[(rowM scM2 27 inb_S128x64_S1x64_27_0).view.set]{fullShare} f)
      ∗ ((rowM scM2 26 inb_S128x64_S1x64_26_0).view.loc (c : Thread nD τ) ↦[(rowM scM2 26 inb_S128x64_S1x64_26_0).view.set]{fullShare} f)
      ∗ ((rowM scM2 25 inb_S128x64_S1x64_25_0).view.loc (c : Thread nD τ) ↦[(rowM scM2 25 inb_S128x64_S1x64_25_0).view.set]{fullShare} f)
      ∗ ((rowM scM2 24 inb_S128x64_S1x64_24_0).view.loc (c : Thread nD τ) ↦[(rowM scM2 24 inb_S128x64_S1x64_24_0).view.set]{fullShare} f)
      ∗ ((rowM scM2 23 inb_S128x64_S1x64_23_0).view.loc (c : Thread nD τ) ↦[(rowM scM2 23 inb_S128x64_S1x64_23_0).view.set]{fullShare} f)
      ∗ ((rowM scM2 22 inb_S128x64_S1x64_22_0).view.loc (c : Thread nD τ) ↦[(rowM scM2 22 inb_S128x64_S1x64_22_0).view.set]{fullShare} f)
      ∗ ((rowM scM2 21 inb_S128x64_S1x64_21_0).view.loc (c : Thread nD τ) ↦[(rowM scM2 21 inb_S128x64_S1x64_21_0).view.set]{fullShare} f)
      ∗ ((rowM scM2 20 inb_S128x64_S1x64_20_0).view.loc (c : Thread nD τ) ↦[(rowM scM2 20 inb_S128x64_S1x64_20_0).view.set]{fullShare} f)
      ∗ ((rowM scM2 19 inb_S128x64_S1x64_19_0).view.loc (c : Thread nD τ) ↦[(rowM scM2 19 inb_S128x64_S1x64_19_0).view.set]{fullShare} f)
      ∗ ((rowM scM2 18 inb_S128x64_S1x64_18_0).view.loc (c : Thread nD τ) ↦[(rowM scM2 18 inb_S128x64_S1x64_18_0).view.set]{fullShare} f)
      ∗ ((rowM scM2 17 inb_S128x64_S1x64_17_0).view.loc (c : Thread nD τ) ↦[(rowM scM2 17 inb_S128x64_S1x64_17_0).view.set]{fullShare} f)
      ∗ ((rowM scM2 16 inb_S128x64_S1x64_16_0).view.loc (c : Thread nD τ) ↦[(rowM scM2 16 inb_S128x64_S1x64_16_0).view.set]{fullShare} f)
      ∗ ((rowM scM2 15 inb_S128x64_S1x64_15_0).view.loc (c : Thread nD τ) ↦[(rowM scM2 15 inb_S128x64_S1x64_15_0).view.set]{fullShare} f)
      ∗ ((rowM scM2 14 inb_S128x64_S1x64_14_0).view.loc (c : Thread nD τ) ↦[(rowM scM2 14 inb_S128x64_S1x64_14_0).view.set]{fullShare} f)
      ∗ ((rowM scM2 13 inb_S128x64_S1x64_13_0).view.loc (c : Thread nD τ) ↦[(rowM scM2 13 inb_S128x64_S1x64_13_0).view.set]{fullShare} f)
      ∗ ((rowM scM2 12 inb_S128x64_S1x64_12_0).view.loc (c : Thread nD τ) ↦[(rowM scM2 12 inb_S128x64_S1x64_12_0).view.set]{fullShare} f)
      ∗ ((rowM scM2 11 inb_S128x64_S1x64_11_0).view.loc (c : Thread nD τ) ↦[(rowM scM2 11 inb_S128x64_S1x64_11_0).view.set]{fullShare} f)
      ∗ ((rowM scM2 10 inb_S128x64_S1x64_10_0).view.loc (c : Thread nD τ) ↦[(rowM scM2 10 inb_S128x64_S1x64_10_0).view.set]{fullShare} f)
      ∗ ((rowM scM2 9 inb_S128x64_S1x64_9_0).view.loc (c : Thread nD τ) ↦[(rowM scM2 9 inb_S128x64_S1x64_9_0).view.set]{fullShare} f)
      ∗ ((rowM scM2 8 inb_S128x64_S1x64_8_0).view.loc (c : Thread nD τ) ↦[(rowM scM2 8 inb_S128x64_S1x64_8_0).view.set]{fullShare} f)
      ∗ ((rowM scM2 7 inb_S128x64_S1x64_7_0).view.loc (c : Thread nD τ) ↦[(rowM scM2 7 inb_S128x64_S1x64_7_0).view.set]{fullShare} f)
      ∗ ((rowM scM2 6 inb_S128x64_S1x64_6_0).view.loc (c : Thread nD τ) ↦[(rowM scM2 6 inb_S128x64_S1x64_6_0).view.set]{fullShare} f)
      ∗ ((rowM scM2 5 inb_S128x64_S1x64_5_0).view.loc (c : Thread nD τ) ↦[(rowM scM2 5 inb_S128x64_S1x64_5_0).view.set]{fullShare} f)
      ∗ ((rowM scM2 4 inb_S128x64_S1x64_4_0).view.loc (c : Thread nD τ) ↦[(rowM scM2 4 inb_S128x64_S1x64_4_0).view.set]{fullShare} f)
      ∗ ((rowM scM2 3 inb_S128x64_S1x64_3_0).view.loc (c : Thread nD τ) ↦[(rowM scM2 3 inb_S128x64_S1x64_3_0).view.set]{fullShare} f)
      ∗ ((rowM scM2 2 inb_S128x64_S1x64_2_0).view.loc (c : Thread nD τ) ↦[(rowM scM2 2 inb_S128x64_S1x64_2_0).view.set]{fullShare} f)
      ∗ ((rowM scM2 1 inb_S128x64_S1x64_1_0).view.loc (c : Thread nD τ) ↦[(rowM scM2 1 inb_S128x64_S1x64_1_0).view.set]{fullShare} f)
      ∗ ((rowM scM2 0 inb_S128x64_S1x64_0_0).view.loc (c : Thread nD τ) ↦[(rowM scM2 0 inb_S128x64_S1x64_0_0).view.set]{fullShare} f)
      ∗ emp) : sProp 𝕄) ⊢ (scM2.view.loc (c : Thread nD τ) ↦[scM2.view.set]{fullShare} f) :=
  Entails.of_eq (rows_close (F := F) scM2 c f)

/-! ## The loads and the stores -/

theorem zero_offs : (![0, 0] : Fin 2 → ℕ) = fun _ => 0 := by
  funext a
  match a with
  | ⟨0, _⟩ => rfl
  | ⟨1, _⟩ => rfl

/-- A load of scratch buffer 0 whole, held at the contents whose reading is the gathered block, reads that block. -/
theorem load_block0 (c : Dev nD) (i : grid0.Coords) (xt0 : BufOf (F := F) c tbM0) (fh0 : BufOf (F := F) c hbM0) (fs0 : BufOf (F := F) c scM0) :
    scM0.view.readAt (Elt F) (Rect.unit (s := S128x64) ![0, 0] S128x64.size inb_S128x64_S128x64_0_0).toLoadRect
      (scM0.view.write (Elt F) fs0 (gU c i xt0 fh0) Finset.univ) = gU c i xt0 fh0 := by
  refine (Memref.readAt_unit_zero (Elt F) cc0_scratch0 zero_offs inb_S128x64_S128x64_0_0 _).trans ?_
  simpa only [Memref.view_whole, View.read_whole] using read_block (F := F) scM0 c fs0 (gU c i xt0 fh0)

/-- A load of scratch buffer 1 whole, held at the contents whose reading is the gathered block, reads that block. -/
theorem load_block1 (c : Dev nD) (i : grid0.Coords) (xt1 : BufOf (F := F) c tbM1) (fh1 : BufOf (F := F) c hbM1) (fs1 : BufOf (F := F) c scM1) :
    scM1.view.readAt (Elt F) (Rect.unit (s := S128x64) ![0, 0] S128x64.size inb_S128x64_S128x64_0_0).toLoadRect
      (scM1.view.write (Elt F) fs1 (gVi c i xt1 fh1) Finset.univ) = gVi c i xt1 fh1 := by
  refine (Memref.readAt_unit_zero (Elt F) cc0_scratch1 zero_offs inb_S128x64_S128x64_0_0 _).trans ?_
  simpa only [Memref.view_whole, View.read_whole] using read_block (F := F) scM1 c fs1 (gVi c i xt1 fh1)

/-- A load of scratch buffer 2 whole, held at the contents whose reading is the gathered block, reads that block. -/
theorem load_block2 (c : Dev nD) (i : grid0.Coords) (xt2 : BufOf (F := F) c tbM2) (fh1 : BufOf (F := F) c hbM1) (fs2 : BufOf (F := F) c scM2) :
    scM2.view.readAt (Elt F) (Rect.unit (s := S128x64) ![0, 0] S128x64.size inb_S128x64_S128x64_0_0).toLoadRect
      (scM2.view.write (Elt F) fs2 (gVj c i xt2 fh1) Finset.univ) = gVj c i xt2 fh1 := by
  refine (Memref.readAt_unit_zero (Elt F) cc0_scratch2 zero_offs inb_S128x64_S128x64_0_0 _).trans ?_
  simpa only [Memref.view_whole, View.read_whole] using read_block (F := F) scM2 c fs2 (gVj c i xt2 fh1)

/-- A store through the rectangle at offsets zero of the block's own sizes is a store of the whole block. -/
theorem piece_whole (w : (Rect.whole S128x1).shape.Idx → Elt F .f32) :
    (⟨Rect.unit (s := S128x1) ![0, 0] S128x1.size inb_S128x1_S128x1_0_0, w⟩ : View.Piece (Elt F) S128x1 .f32)
      = ⟨Rect.whole S128x1, w⟩ := by
  have h : ∀ (off : Fin 2 → ℕ) (h : off = fun _ => 0) (inb : ∀ a, off a + S128x1.size a ≤ S128x1.size a)
      (w : (Rect.whole S128x1).shape.Idx → Elt F .f32),
      (⟨Rect.unit (s := S128x1) off S128x1.size inb, w⟩ : View.Piece (Elt F) S128x1 .f32) = ⟨Rect.whole S128x1, w⟩ := by
    intro off h inb w; subst h; rfl
  exact h _ zero_offs _ w

/-- What the run leaves in result buffer 1 is the listed store over some contents. -/
theorem out6 (c : Dev nD) (i : grid0.Coords) (xt0 : BufOf (F := F) c tbM0) (xt1 : BufOf (F := F) c tbM1) (xt2 : BufOf (F := F) c tbM2)
    (fh0 : BufOf (F := F) c hbM0) (fh1 : BufOf (F := F) c hbM1)
    (fs0 : BufOf (F := F) c scM0) (fs1 : BufOf (F := F) c scM1) (fs2 : BufOf (F := F) c scM2)
    (arg : Memref sig .tc .vmem S128x1 .f32) (f : BufOf (F := F) c arg) :
    (arg.view.loc (c : Thread nD τ) ↦[arg.view.set]{fullShare} arg.view.writes (Elt F) f
        [⟨Rect.unit (s := S128x1) ![0, 0] S128x1.size inb_S128x1_S128x1_0_0, k0_pay2 (scM0.view.readAt (Elt F) (Rect.unit (s := S128x64) ![0, 0] S128x64.size inb_S128x64_S128x64_0_0).toLoadRect (scM0.view.write (Elt F) fs0 (gU c i xt0 fh0) Finset.univ)) (scM1.view.readAt (Elt F) (Rect.unit (s := S128x64) ![0, 0] S128x64.size inb_S128x64_S128x64_0_0).toLoadRect (scM1.view.write (Elt F) fs1 (gVi c i xt1 fh1) Finset.univ))⟩] : sProp 𝕄)
      ⊢ iprop(∃ f, arg.view.loc (c : Thread nD τ) ↦[arg.view.set]{fullShare} arg.view.writes (Elt F) f (runL c i xt0 xt1 xt2 fh0 fh1).1) := by
  rw [load_block0, load_block1, piece_whole]
  iintro H
  iexists f
  iexact H

/-- What the run leaves in result buffer 2 is the listed store over some contents. -/
theorem out7 (c : Dev nD) (i : grid0.Coords) (xt0 : BufOf (F := F) c tbM0) (xt1 : BufOf (F := F) c tbM1) (xt2 : BufOf (F := F) c tbM2)
    (fh0 : BufOf (F := F) c hbM0) (fh1 : BufOf (F := F) c hbM1)
    (fs0 : BufOf (F := F) c scM0) (fs1 : BufOf (F := F) c scM1) (fs2 : BufOf (F := F) c scM2)
    (arg : Memref sig .tc .vmem S128x1 .f32) (f : BufOf (F := F) c arg) :
    (arg.view.loc (c : Thread nD τ) ↦[arg.view.set]{fullShare} arg.view.writes (Elt F) f
        [⟨Rect.unit (s := S128x1) ![0, 0] S128x1.size inb_S128x1_S128x1_0_0, k0_pay3 (scM0.view.readAt (Elt F) (Rect.unit (s := S128x64) ![0, 0] S128x64.size inb_S128x64_S128x64_0_0).toLoadRect (scM0.view.write (Elt F) fs0 (gU c i xt0 fh0) Finset.univ)) (scM2.view.readAt (Elt F) (Rect.unit (s := S128x64) ![0, 0] S128x64.size inb_S128x64_S128x64_0_0).toLoadRect (scM2.view.write (Elt F) fs2 (gVj c i xt2 fh1) Finset.univ))⟩] : sProp 𝕄)
      ⊢ iprop(∃ f, arg.view.loc (c : Thread nD τ) ↦[arg.view.set]{fullShare} arg.view.writes (Elt F) f (runL c i xt0 xt1 xt2 fh0 fh1).2.1) := by
  rw [load_block0, load_block2, piece_whole]
  iintro H
  iexists f
  iexact H

/-- What the run leaves in result buffer 3 is the listed store over some contents. -/
theorem out8 (c : Dev nD) (i : grid0.Coords) (xt0 : BufOf (F := F) c tbM0) (xt1 : BufOf (F := F) c tbM1) (xt2 : BufOf (F := F) c tbM2)
    (fh0 : BufOf (F := F) c hbM0) (fh1 : BufOf (F := F) c hbM1)
    (fs0 : BufOf (F := F) c scM0) (fs1 : BufOf (F := F) c scM1) (fs2 : BufOf (F := F) c scM2)
    (arg : Memref sig .tc .vmem S128x1 .f32) (f : BufOf (F := F) c arg) :
    (arg.view.loc (c : Thread nD τ) ↦[arg.view.set]{fullShare} arg.view.writes (Elt F) f
        [⟨Rect.unit (s := S128x1) ![0, 0] S128x1.size inb_S128x1_S128x1_0_0, k0_pay4 (scM0.view.readAt (Elt F) (Rect.unit (s := S128x64) ![0, 0] S128x64.size inb_S128x64_S128x64_0_0).toLoadRect (scM0.view.write (Elt F) fs0 (gU c i xt0 fh0) Finset.univ))⟩] : sProp 𝕄)
      ⊢ iprop(∃ f, arg.view.loc (c : Thread nD τ) ↦[arg.view.set]{fullShare} arg.view.writes (Elt F) f (runL c i xt0 xt1 xt2 fh0 fh1).2.2.1) := by
  rw [load_block0, piece_whole]
  iintro H
  iexists f
  iexact H

/-- What the run leaves in result buffer 4 is the listed store over some contents. -/
theorem out9 (c : Dev nD) (i : grid0.Coords) (xt0 : BufOf (F := F) c tbM0) (xt1 : BufOf (F := F) c tbM1) (xt2 : BufOf (F := F) c tbM2)
    (fh0 : BufOf (F := F) c hbM0) (fh1 : BufOf (F := F) c hbM1)
    (fs0 : BufOf (F := F) c scM0) (fs1 : BufOf (F := F) c scM1) (fs2 : BufOf (F := F) c scM2)
    (arg : Memref sig .tc .vmem S128x1 .f32) (f : BufOf (F := F) c arg) :
    (arg.view.loc (c : Thread nD τ) ↦[arg.view.set]{fullShare} arg.view.writes (Elt F) f
        [⟨Rect.unit (s := S128x1) ![0, 0] S128x1.size inb_S128x1_S128x1_0_0, k0_pay5 (scM1.view.readAt (Elt F) (Rect.unit (s := S128x64) ![0, 0] S128x64.size inb_S128x64_S128x64_0_0).toLoadRect (scM1.view.write (Elt F) fs1 (gVi c i xt1 fh1) Finset.univ))⟩] : sProp 𝕄)
      ⊢ iprop(∃ f, arg.view.loc (c : Thread nD τ) ↦[arg.view.set]{fullShare} arg.view.writes (Elt F) f (runL c i xt0 xt1 xt2 fh0 fh1).2.2.2.1) := by
  rw [load_block1, piece_whole]
  iintro H
  iexists f
  iexact H

/-- What the run leaves in result buffer 5 is the listed store over some contents. -/
theorem out10 (c : Dev nD) (i : grid0.Coords) (xt0 : BufOf (F := F) c tbM0) (xt1 : BufOf (F := F) c tbM1) (xt2 : BufOf (F := F) c tbM2)
    (fh0 : BufOf (F := F) c hbM0) (fh1 : BufOf (F := F) c hbM1)
    (fs0 : BufOf (F := F) c scM0) (fs1 : BufOf (F := F) c scM1) (fs2 : BufOf (F := F) c scM2)
    (arg : Memref sig .tc .vmem S128x1 .f32) (f : BufOf (F := F) c arg) :
    (arg.view.loc (c : Thread nD τ) ↦[arg.view.set]{fullShare} arg.view.writes (Elt F) f
        [⟨Rect.unit (s := S128x1) ![0, 0] S128x1.size inb_S128x1_S128x1_0_0, k0_pay1 (k0_pay6 (scM2.view.readAt (Elt F) (Rect.unit (s := S128x64) ![0, 0] S128x64.size inb_S128x64_S128x64_0_0).toLoadRect (scM2.view.write (Elt F) fs2 (gVj c i xt2 fh1) Finset.univ)))⟩] : sProp 𝕄)
      ⊢ iprop(∃ f, arg.view.loc (c : Thread nD τ) ↦[arg.view.set]{fullShare} arg.view.writes (Elt F) f (runL c i xt0 xt1 xt2 fh0 fh1).2.2.2.2) := by
  rw [load_block2, piece_whole]
  iintro H
  iexists f
  iexact H

/-! ## The cells named by number and membership -/

set_option maxHeartbeats 64000000 in
/-- The 384 cells at zero, in three chains each highest first, are every own cell at zero. -/
theorem cells_down' (c : Dev nD) :
    (iprop((semVal ((c : Thread nD τ), SemLoc.dma ⟨137, by decide⟩) 0
      ∗ semVal ((c : Thread nD τ), SemLoc.dma ⟨136, by decide⟩) 0
      ∗ semVal ((c : Thread nD τ), SemLoc.dma ⟨135, by decide⟩) 0
      ∗ semVal ((c : Thread nD τ), SemLoc.dma ⟨134, by decide⟩) 0
      ∗ semVal ((c : Thread nD τ), SemLoc.dma ⟨133, by decide⟩) 0
      ∗ semVal ((c : Thread nD τ), SemLoc.dma ⟨132, by decide⟩) 0
      ∗ semVal ((c : Thread nD τ), SemLoc.dma ⟨131, by decide⟩) 0
      ∗ semVal ((c : Thread nD τ), SemLoc.dma ⟨130, by decide⟩) 0
      ∗ semVal ((c : Thread nD τ), SemLoc.dma ⟨129, by decide⟩) 0
      ∗ semVal ((c : Thread nD τ), SemLoc.dma ⟨128, by decide⟩) 0
      ∗ semVal ((c : Thread nD τ), SemLoc.dma ⟨127, by decide⟩) 0
      ∗ semVal ((c : Thread nD τ), SemLoc.dma ⟨126, by decide⟩) 0
      ∗ semVal ((c : Thread nD τ), SemLoc.dma ⟨125, by decide⟩) 0
      ∗ semVal ((c : Thread nD τ), SemLoc.dma ⟨124, by decide⟩) 0
      ∗ semVal ((c : Thread nD τ), SemLoc.dma ⟨123, by decide⟩) 0
      ∗ semVal ((c : Thread nD τ), SemLoc.dma ⟨122, by decide⟩) 0
      ∗ semVal ((c : Thread nD τ), SemLoc.dma ⟨121, by decide⟩) 0
      ∗ semVal ((c : Thread nD τ), SemLoc.dma ⟨120, by decide⟩) 0
      ∗ semVal ((c : Thread nD τ), SemLoc.dma ⟨119, by decide⟩) 0
      ∗ semVal ((c : Thread nD τ), SemLoc.dma ⟨118, by decide⟩) 0
      ∗ semVal ((c : Thread nD τ), SemLoc.dma ⟨117, by decide⟩) 0
      ∗ semVal ((c : Thread nD τ), SemLoc.dma ⟨116, by decide⟩) 0
      ∗ semVal ((c : Thread nD τ), SemLoc.dma ⟨115, by decide⟩) 0
      ∗ semVal ((c : Thread nD τ), SemLoc.dma ⟨114, by decide⟩) 0
      ∗ semVal ((c : Thread nD τ), SemLoc.dma ⟨113, by decide⟩) 0
      ∗ semVal ((c : Thread nD τ), SemLoc.dma ⟨112, by decide⟩) 0
      ∗ semVal ((c : Thread nD τ), SemLoc.dma ⟨111, by decide⟩) 0
      ∗ semVal ((c : Thread nD τ), SemLoc.dma ⟨110, by decide⟩) 0
      ∗ semVal ((c : Thread nD τ), SemLoc.dma ⟨109, by decide⟩) 0
      ∗ semVal ((c : Thread nD τ), SemLoc.dma ⟨108, by decide⟩) 0
      ∗ semVal ((c : Thread nD τ), SemLoc.dma ⟨107, by decide⟩) 0
      ∗ semVal ((c : Thread nD τ), SemLoc.dma ⟨106, by decide⟩) 0
      ∗ semVal ((c : Thread nD τ), SemLoc.dma ⟨105, by decide⟩) 0
      ∗ semVal ((c : Thread nD τ), SemLoc.dma ⟨104, by decide⟩) 0
      ∗ semVal ((c : Thread nD τ), SemLoc.dma ⟨103, by decide⟩) 0
      ∗ semVal ((c : Thread nD τ), SemLoc.dma ⟨102, by decide⟩) 0
      ∗ semVal ((c : Thread nD τ), SemLoc.dma ⟨101, by decide⟩) 0
      ∗ semVal ((c : Thread nD τ), SemLoc.dma ⟨100, by decide⟩) 0
      ∗ semVal ((c : Thread nD τ), SemLoc.dma ⟨99, by decide⟩) 0
      ∗ semVal ((c : Thread nD τ), SemLoc.dma ⟨98, by decide⟩) 0
      ∗ semVal ((c : Thread nD τ), SemLoc.dma ⟨97, by decide⟩) 0
      ∗ semVal ((c : Thread nD τ), SemLoc.dma ⟨96, by decide⟩) 0
      ∗ semVal ((c : Thread nD τ), SemLoc.dma ⟨95, by decide⟩) 0
      ∗ semVal ((c : Thread nD τ), SemLoc.dma ⟨94, by decide⟩) 0
      ∗ semVal ((c : Thread nD τ), SemLoc.dma ⟨93, by decide⟩) 0
      ∗ semVal ((c : Thread nD τ), SemLoc.dma ⟨92, by decide⟩) 0
      ∗ semVal ((c : Thread nD τ), SemLoc.dma ⟨91, by decide⟩) 0
      ∗ semVal ((c : Thread nD τ), SemLoc.dma ⟨90, by decide⟩) 0
      ∗ semVal ((c : Thread nD τ), SemLoc.dma ⟨89, by decide⟩) 0
      ∗ semVal ((c : Thread nD τ), SemLoc.dma ⟨88, by decide⟩) 0
      ∗ semVal ((c : Thread nD τ), SemLoc.dma ⟨87, by decide⟩) 0
      ∗ semVal ((c : Thread nD τ), SemLoc.dma ⟨86, by decide⟩) 0
      ∗ semVal ((c : Thread nD τ), SemLoc.dma ⟨85, by decide⟩) 0
      ∗ semVal ((c : Thread nD τ), SemLoc.dma ⟨84, by decide⟩) 0
      ∗ semVal ((c : Thread nD τ), SemLoc.dma ⟨83, by decide⟩) 0
      ∗ semVal ((c : Thread nD τ), SemLoc.dma ⟨82, by decide⟩) 0
      ∗ semVal ((c : Thread nD τ), SemLoc.dma ⟨81, by decide⟩) 0
      ∗ semVal ((c : Thread nD τ), SemLoc.dma ⟨80, by decide⟩) 0
      ∗ semVal ((c : Thread nD τ), SemLoc.dma ⟨79, by decide⟩) 0
      ∗ semVal ((c : Thread nD τ), SemLoc.dma ⟨78, by decide⟩) 0
      ∗ semVal ((c : Thread nD τ), SemLoc.dma ⟨77, by decide⟩) 0
      ∗ semVal ((c : Thread nD τ), SemLoc.dma ⟨76, by decide⟩) 0
      ∗ semVal ((c : Thread nD τ), SemLoc.dma ⟨75, by decide⟩) 0
      ∗ semVal ((c : Thread nD τ), SemLoc.dma ⟨74, by decide⟩) 0
      ∗ semVal ((c : Thread nD τ), SemLoc.dma ⟨73, by decide⟩) 0
      ∗ semVal ((c : Thread nD τ), SemLoc.dma ⟨72, by decide⟩) 0
      ∗ semVal ((c : Thread nD τ), SemLoc.dma ⟨71, by decide⟩) 0
      ∗ semVal ((c : Thread nD τ), SemLoc.dma ⟨70, by decide⟩) 0
      ∗ semVal ((c : Thread nD τ), SemLoc.dma ⟨69, by decide⟩) 0
      ∗ semVal ((c : Thread nD τ), SemLoc.dma ⟨68, by decide⟩) 0
      ∗ semVal ((c : Thread nD τ), SemLoc.dma ⟨67, by decide⟩) 0
      ∗ semVal ((c : Thread nD τ), SemLoc.dma ⟨66, by decide⟩) 0
      ∗ semVal ((c : Thread nD τ), SemLoc.dma ⟨65, by decide⟩) 0
      ∗ semVal ((c : Thread nD τ), SemLoc.dma ⟨64, by decide⟩) 0
      ∗ semVal ((c : Thread nD τ), SemLoc.dma ⟨63, by decide⟩) 0
      ∗ semVal ((c : Thread nD τ), SemLoc.dma ⟨62, by decide⟩) 0
      ∗ semVal ((c : Thread nD τ), SemLoc.dma ⟨61, by decide⟩) 0
      ∗ semVal ((c : Thread nD τ), SemLoc.dma ⟨60, by decide⟩) 0
      ∗ semVal ((c : Thread nD τ), SemLoc.dma ⟨59, by decide⟩) 0
      ∗ semVal ((c : Thread nD τ), SemLoc.dma ⟨58, by decide⟩) 0
      ∗ semVal ((c : Thread nD τ), SemLoc.dma ⟨57, by decide⟩) 0
      ∗ semVal ((c : Thread nD τ), SemLoc.dma ⟨56, by decide⟩) 0
      ∗ semVal ((c : Thread nD τ), SemLoc.dma ⟨55, by decide⟩) 0
      ∗ semVal ((c : Thread nD τ), SemLoc.dma ⟨54, by decide⟩) 0
      ∗ semVal ((c : Thread nD τ), SemLoc.dma ⟨53, by decide⟩) 0
      ∗ semVal ((c : Thread nD τ), SemLoc.dma ⟨52, by decide⟩) 0
      ∗ semVal ((c : Thread nD τ), SemLoc.dma ⟨51, by decide⟩) 0
      ∗ semVal ((c : Thread nD τ), SemLoc.dma ⟨50, by decide⟩) 0
      ∗ semVal ((c : Thread nD τ), SemLoc.dma ⟨49, by decide⟩) 0
      ∗ semVal ((c : Thread nD τ), SemLoc.dma ⟨48, by decide⟩) 0
      ∗ semVal ((c : Thread nD τ), SemLoc.dma ⟨47, by decide⟩) 0
      ∗ semVal ((c : Thread nD τ), SemLoc.dma ⟨46, by decide⟩) 0
      ∗ semVal ((c : Thread nD τ), SemLoc.dma ⟨45, by decide⟩) 0
      ∗ semVal ((c : Thread nD τ), SemLoc.dma ⟨44, by decide⟩) 0
      ∗ semVal ((c : Thread nD τ), SemLoc.dma ⟨43, by decide⟩) 0
      ∗ semVal ((c : Thread nD τ), SemLoc.dma ⟨42, by decide⟩) 0
      ∗ semVal ((c : Thread nD τ), SemLoc.dma ⟨41, by decide⟩) 0
      ∗ semVal ((c : Thread nD τ), SemLoc.dma ⟨40, by decide⟩) 0
      ∗ semVal ((c : Thread nD τ), SemLoc.dma ⟨39, by decide⟩) 0
      ∗ semVal ((c : Thread nD τ), SemLoc.dma ⟨38, by decide⟩) 0
      ∗ semVal ((c : Thread nD τ), SemLoc.dma ⟨37, by decide⟩) 0
      ∗ semVal ((c : Thread nD τ), SemLoc.dma ⟨36, by decide⟩) 0
      ∗ semVal ((c : Thread nD τ), SemLoc.dma ⟨35, by decide⟩) 0
      ∗ semVal ((c : Thread nD τ), SemLoc.dma ⟨34, by decide⟩) 0
      ∗ semVal ((c : Thread nD τ), SemLoc.dma ⟨33, by decide⟩) 0
      ∗ semVal ((c : Thread nD τ), SemLoc.dma ⟨32, by decide⟩) 0
      ∗ semVal ((c : Thread nD τ), SemLoc.dma ⟨31, by decide⟩) 0
      ∗ semVal ((c : Thread nD τ), SemLoc.dma ⟨30, by decide⟩) 0
      ∗ semVal ((c : Thread nD τ), SemLoc.dma ⟨29, by decide⟩) 0
      ∗ semVal ((c : Thread nD τ), SemLoc.dma ⟨28, by decide⟩) 0
      ∗ semVal ((c : Thread nD τ), SemLoc.dma ⟨27, by decide⟩) 0
      ∗ semVal ((c : Thread nD τ), SemLoc.dma ⟨26, by decide⟩) 0
      ∗ semVal ((c : Thread nD τ), SemLoc.dma ⟨25, by decide⟩) 0
      ∗ semVal ((c : Thread nD τ), SemLoc.dma ⟨24, by decide⟩) 0
      ∗ semVal ((c : Thread nD τ), SemLoc.dma ⟨23, by decide⟩) 0
      ∗ semVal ((c : Thread nD τ), SemLoc.dma ⟨22, by decide⟩) 0
      ∗ semVal ((c : Thread nD τ), SemLoc.dma ⟨21, by decide⟩) 0
      ∗ semVal ((c : Thread nD τ), SemLoc.dma ⟨20, by decide⟩) 0
      ∗ semVal ((c : Thread nD τ), SemLoc.dma ⟨19, by decide⟩) 0
      ∗ semVal ((c : Thread nD τ), SemLoc.dma ⟨18, by decide⟩) 0
      ∗ semVal ((c : Thread nD τ), SemLoc.dma ⟨17, by decide⟩) 0
      ∗ semVal ((c : Thread nD τ), SemLoc.dma ⟨16, by decide⟩) 0
      ∗ semVal ((c : Thread nD τ), SemLoc.dma ⟨15, by decide⟩) 0
      ∗ semVal ((c : Thread nD τ), SemLoc.dma ⟨14, by decide⟩) 0
      ∗ semVal ((c : Thread nD τ), SemLoc.dma ⟨13, by decide⟩) 0
      ∗ semVal ((c : Thread nD τ), SemLoc.dma ⟨12, by decide⟩) 0
      ∗ semVal ((c : Thread nD τ), SemLoc.dma ⟨11, by decide⟩) 0
      ∗ semVal ((c : Thread nD τ), SemLoc.dma ⟨10, by decide⟩) 0
      ∗ emp)
      ∗ (semVal ((c : Thread nD τ), SemLoc.dma ⟨265, by decide⟩) 0
      ∗ semVal ((c : Thread nD τ), SemLoc.dma ⟨264, by decide⟩) 0
      ∗ semVal ((c : Thread nD τ), SemLoc.dma ⟨263, by decide⟩) 0
      ∗ semVal ((c : Thread nD τ), SemLoc.dma ⟨262, by decide⟩) 0
      ∗ semVal ((c : Thread nD τ), SemLoc.dma ⟨261, by decide⟩) 0
      ∗ semVal ((c : Thread nD τ), SemLoc.dma ⟨260, by decide⟩) 0
      ∗ semVal ((c : Thread nD τ), SemLoc.dma ⟨259, by decide⟩) 0
      ∗ semVal ((c : Thread nD τ), SemLoc.dma ⟨258, by decide⟩) 0
      ∗ semVal ((c : Thread nD τ), SemLoc.dma ⟨257, by decide⟩) 0
      ∗ semVal ((c : Thread nD τ), SemLoc.dma ⟨256, by decide⟩) 0
      ∗ semVal ((c : Thread nD τ), SemLoc.dma ⟨255, by decide⟩) 0
      ∗ semVal ((c : Thread nD τ), SemLoc.dma ⟨254, by decide⟩) 0
      ∗ semVal ((c : Thread nD τ), SemLoc.dma ⟨253, by decide⟩) 0
      ∗ semVal ((c : Thread nD τ), SemLoc.dma ⟨252, by decide⟩) 0
      ∗ semVal ((c : Thread nD τ), SemLoc.dma ⟨251, by decide⟩) 0
      ∗ semVal ((c : Thread nD τ), SemLoc.dma ⟨250, by decide⟩) 0
      ∗ semVal ((c : Thread nD τ), SemLoc.dma ⟨249, by decide⟩) 0
      ∗ semVal ((c : Thread nD τ), SemLoc.dma ⟨248, by decide⟩) 0
      ∗ semVal ((c : Thread nD τ), SemLoc.dma ⟨247, by decide⟩) 0
      ∗ semVal ((c : Thread nD τ), SemLoc.dma ⟨246, by decide⟩) 0
      ∗ semVal ((c : Thread nD τ), SemLoc.dma ⟨245, by decide⟩) 0
      ∗ semVal ((c : Thread nD τ), SemLoc.dma ⟨244, by decide⟩) 0
      ∗ semVal ((c : Thread nD τ), SemLoc.dma ⟨243, by decide⟩) 0
      ∗ semVal ((c : Thread nD τ), SemLoc.dma ⟨242, by decide⟩) 0
      ∗ semVal ((c : Thread nD τ), SemLoc.dma ⟨241, by decide⟩) 0
      ∗ semVal ((c : Thread nD τ), SemLoc.dma ⟨240, by decide⟩) 0
      ∗ semVal ((c : Thread nD τ), SemLoc.dma ⟨239, by decide⟩) 0
      ∗ semVal ((c : Thread nD τ), SemLoc.dma ⟨238, by decide⟩) 0
      ∗ semVal ((c : Thread nD τ), SemLoc.dma ⟨237, by decide⟩) 0
      ∗ semVal ((c : Thread nD τ), SemLoc.dma ⟨236, by decide⟩) 0
      ∗ semVal ((c : Thread nD τ), SemLoc.dma ⟨235, by decide⟩) 0
      ∗ semVal ((c : Thread nD τ), SemLoc.dma ⟨234, by decide⟩) 0
      ∗ semVal ((c : Thread nD τ), SemLoc.dma ⟨233, by decide⟩) 0
      ∗ semVal ((c : Thread nD τ), SemLoc.dma ⟨232, by decide⟩) 0
      ∗ semVal ((c : Thread nD τ), SemLoc.dma ⟨231, by decide⟩) 0
      ∗ semVal ((c : Thread nD τ), SemLoc.dma ⟨230, by decide⟩) 0
      ∗ semVal ((c : Thread nD τ), SemLoc.dma ⟨229, by decide⟩) 0
      ∗ semVal ((c : Thread nD τ), SemLoc.dma ⟨228, by decide⟩) 0
      ∗ semVal ((c : Thread nD τ), SemLoc.dma ⟨227, by decide⟩) 0
      ∗ semVal ((c : Thread nD τ), SemLoc.dma ⟨226, by decide⟩) 0
      ∗ semVal ((c : Thread nD τ), SemLoc.dma ⟨225, by decide⟩) 0
      ∗ semVal ((c : Thread nD τ), SemLoc.dma ⟨224, by decide⟩) 0
      ∗ semVal ((c : Thread nD τ), SemLoc.dma ⟨223, by decide⟩) 0
      ∗ semVal ((c : Thread nD τ), SemLoc.dma ⟨222, by decide⟩) 0
      ∗ semVal ((c : Thread nD τ), SemLoc.dma ⟨221, by decide⟩) 0
      ∗ semVal ((c : Thread nD τ), SemLoc.dma ⟨220, by decide⟩) 0
      ∗ semVal ((c : Thread nD τ), SemLoc.dma ⟨219, by decide⟩) 0
      ∗ semVal ((c : Thread nD τ), SemLoc.dma ⟨218, by decide⟩) 0
      ∗ semVal ((c : Thread nD τ), SemLoc.dma ⟨217, by decide⟩) 0
      ∗ semVal ((c : Thread nD τ), SemLoc.dma ⟨216, by decide⟩) 0
      ∗ semVal ((c : Thread nD τ), SemLoc.dma ⟨215, by decide⟩) 0
      ∗ semVal ((c : Thread nD τ), SemLoc.dma ⟨214, by decide⟩) 0
      ∗ semVal ((c : Thread nD τ), SemLoc.dma ⟨213, by decide⟩) 0
      ∗ semVal ((c : Thread nD τ), SemLoc.dma ⟨212, by decide⟩) 0
      ∗ semVal ((c : Thread nD τ), SemLoc.dma ⟨211, by decide⟩) 0
      ∗ semVal ((c : Thread nD τ), SemLoc.dma ⟨210, by decide⟩) 0
      ∗ semVal ((c : Thread nD τ), SemLoc.dma ⟨209, by decide⟩) 0
      ∗ semVal ((c : Thread nD τ), SemLoc.dma ⟨208, by decide⟩) 0
      ∗ semVal ((c : Thread nD τ), SemLoc.dma ⟨207, by decide⟩) 0
      ∗ semVal ((c : Thread nD τ), SemLoc.dma ⟨206, by decide⟩) 0
      ∗ semVal ((c : Thread nD τ), SemLoc.dma ⟨205, by decide⟩) 0
      ∗ semVal ((c : Thread nD τ), SemLoc.dma ⟨204, by decide⟩) 0
      ∗ semVal ((c : Thread nD τ), SemLoc.dma ⟨203, by decide⟩) 0
      ∗ semVal ((c : Thread nD τ), SemLoc.dma ⟨202, by decide⟩) 0
      ∗ semVal ((c : Thread nD τ), SemLoc.dma ⟨201, by decide⟩) 0
      ∗ semVal ((c : Thread nD τ), SemLoc.dma ⟨200, by decide⟩) 0
      ∗ semVal ((c : Thread nD τ), SemLoc.dma ⟨199, by decide⟩) 0
      ∗ semVal ((c : Thread nD τ), SemLoc.dma ⟨198, by decide⟩) 0
      ∗ semVal ((c : Thread nD τ), SemLoc.dma ⟨197, by decide⟩) 0
      ∗ semVal ((c : Thread nD τ), SemLoc.dma ⟨196, by decide⟩) 0
      ∗ semVal ((c : Thread nD τ), SemLoc.dma ⟨195, by decide⟩) 0
      ∗ semVal ((c : Thread nD τ), SemLoc.dma ⟨194, by decide⟩) 0
      ∗ semVal ((c : Thread nD τ), SemLoc.dma ⟨193, by decide⟩) 0
      ∗ semVal ((c : Thread nD τ), SemLoc.dma ⟨192, by decide⟩) 0
      ∗ semVal ((c : Thread nD τ), SemLoc.dma ⟨191, by decide⟩) 0
      ∗ semVal ((c : Thread nD τ), SemLoc.dma ⟨190, by decide⟩) 0
      ∗ semVal ((c : Thread nD τ), SemLoc.dma ⟨189, by decide⟩) 0
      ∗ semVal ((c : Thread nD τ), SemLoc.dma ⟨188, by decide⟩) 0
      ∗ semVal ((c : Thread nD τ), SemLoc.dma ⟨187, by decide⟩) 0
      ∗ semVal ((c : Thread nD τ), SemLoc.dma ⟨186, by decide⟩) 0
      ∗ semVal ((c : Thread nD τ), SemLoc.dma ⟨185, by decide⟩) 0
      ∗ semVal ((c : Thread nD τ), SemLoc.dma ⟨184, by decide⟩) 0
      ∗ semVal ((c : Thread nD τ), SemLoc.dma ⟨183, by decide⟩) 0
      ∗ semVal ((c : Thread nD τ), SemLoc.dma ⟨182, by decide⟩) 0
      ∗ semVal ((c : Thread nD τ), SemLoc.dma ⟨181, by decide⟩) 0
      ∗ semVal ((c : Thread nD τ), SemLoc.dma ⟨180, by decide⟩) 0
      ∗ semVal ((c : Thread nD τ), SemLoc.dma ⟨179, by decide⟩) 0
      ∗ semVal ((c : Thread nD τ), SemLoc.dma ⟨178, by decide⟩) 0
      ∗ semVal ((c : Thread nD τ), SemLoc.dma ⟨177, by decide⟩) 0
      ∗ semVal ((c : Thread nD τ), SemLoc.dma ⟨176, by decide⟩) 0
      ∗ semVal ((c : Thread nD τ), SemLoc.dma ⟨175, by decide⟩) 0
      ∗ semVal ((c : Thread nD τ), SemLoc.dma ⟨174, by decide⟩) 0
      ∗ semVal ((c : Thread nD τ), SemLoc.dma ⟨173, by decide⟩) 0
      ∗ semVal ((c : Thread nD τ), SemLoc.dma ⟨172, by decide⟩) 0
      ∗ semVal ((c : Thread nD τ), SemLoc.dma ⟨171, by decide⟩) 0
      ∗ semVal ((c : Thread nD τ), SemLoc.dma ⟨170, by decide⟩) 0
      ∗ semVal ((c : Thread nD τ), SemLoc.dma ⟨169, by decide⟩) 0
      ∗ semVal ((c : Thread nD τ), SemLoc.dma ⟨168, by decide⟩) 0
      ∗ semVal ((c : Thread nD τ), SemLoc.dma ⟨167, by decide⟩) 0
      ∗ semVal ((c : Thread nD τ), SemLoc.dma ⟨166, by decide⟩) 0
      ∗ semVal ((c : Thread nD τ), SemLoc.dma ⟨165, by decide⟩) 0
      ∗ semVal ((c : Thread nD τ), SemLoc.dma ⟨164, by decide⟩) 0
      ∗ semVal ((c : Thread nD τ), SemLoc.dma ⟨163, by decide⟩) 0
      ∗ semVal ((c : Thread nD τ), SemLoc.dma ⟨162, by decide⟩) 0
      ∗ semVal ((c : Thread nD τ), SemLoc.dma ⟨161, by decide⟩) 0
      ∗ semVal ((c : Thread nD τ), SemLoc.dma ⟨160, by decide⟩) 0
      ∗ semVal ((c : Thread nD τ), SemLoc.dma ⟨159, by decide⟩) 0
      ∗ semVal ((c : Thread nD τ), SemLoc.dma ⟨158, by decide⟩) 0
      ∗ semVal ((c : Thread nD τ), SemLoc.dma ⟨157, by decide⟩) 0
      ∗ semVal ((c : Thread nD τ), SemLoc.dma ⟨156, by decide⟩) 0
      ∗ semVal ((c : Thread nD τ), SemLoc.dma ⟨155, by decide⟩) 0
      ∗ semVal ((c : Thread nD τ), SemLoc.dma ⟨154, by decide⟩) 0
      ∗ semVal ((c : Thread nD τ), SemLoc.dma ⟨153, by decide⟩) 0
      ∗ semVal ((c : Thread nD τ), SemLoc.dma ⟨152, by decide⟩) 0
      ∗ semVal ((c : Thread nD τ), SemLoc.dma ⟨151, by decide⟩) 0
      ∗ semVal ((c : Thread nD τ), SemLoc.dma ⟨150, by decide⟩) 0
      ∗ semVal ((c : Thread nD τ), SemLoc.dma ⟨149, by decide⟩) 0
      ∗ semVal ((c : Thread nD τ), SemLoc.dma ⟨148, by decide⟩) 0
      ∗ semVal ((c : Thread nD τ), SemLoc.dma ⟨147, by decide⟩) 0
      ∗ semVal ((c : Thread nD τ), SemLoc.dma ⟨146, by decide⟩) 0
      ∗ semVal ((c : Thread nD τ), SemLoc.dma ⟨145, by decide⟩) 0
      ∗ semVal ((c : Thread nD τ), SemLoc.dma ⟨144, by decide⟩) 0
      ∗ semVal ((c : Thread nD τ), SemLoc.dma ⟨143, by decide⟩) 0
      ∗ semVal ((c : Thread nD τ), SemLoc.dma ⟨142, by decide⟩) 0
      ∗ semVal ((c : Thread nD τ), SemLoc.dma ⟨141, by decide⟩) 0
      ∗ semVal ((c : Thread nD τ), SemLoc.dma ⟨140, by decide⟩) 0
      ∗ semVal ((c : Thread nD τ), SemLoc.dma ⟨139, by decide⟩) 0
      ∗ semVal ((c : Thread nD τ), SemLoc.dma ⟨138, by decide⟩) 0
      ∗ emp)
      ∗ (semVal ((c : Thread nD τ), SemLoc.dma ⟨393, by decide⟩) 0
      ∗ semVal ((c : Thread nD τ), SemLoc.dma ⟨392, by decide⟩) 0
      ∗ semVal ((c : Thread nD τ), SemLoc.dma ⟨391, by decide⟩) 0
      ∗ semVal ((c : Thread nD τ), SemLoc.dma ⟨390, by decide⟩) 0
      ∗ semVal ((c : Thread nD τ), SemLoc.dma ⟨389, by decide⟩) 0
      ∗ semVal ((c : Thread nD τ), SemLoc.dma ⟨388, by decide⟩) 0
      ∗ semVal ((c : Thread nD τ), SemLoc.dma ⟨387, by decide⟩) 0
      ∗ semVal ((c : Thread nD τ), SemLoc.dma ⟨386, by decide⟩) 0
      ∗ semVal ((c : Thread nD τ), SemLoc.dma ⟨385, by decide⟩) 0
      ∗ semVal ((c : Thread nD τ), SemLoc.dma ⟨384, by decide⟩) 0
      ∗ semVal ((c : Thread nD τ), SemLoc.dma ⟨383, by decide⟩) 0
      ∗ semVal ((c : Thread nD τ), SemLoc.dma ⟨382, by decide⟩) 0
      ∗ semVal ((c : Thread nD τ), SemLoc.dma ⟨381, by decide⟩) 0
      ∗ semVal ((c : Thread nD τ), SemLoc.dma ⟨380, by decide⟩) 0
      ∗ semVal ((c : Thread nD τ), SemLoc.dma ⟨379, by decide⟩) 0
      ∗ semVal ((c : Thread nD τ), SemLoc.dma ⟨378, by decide⟩) 0
      ∗ semVal ((c : Thread nD τ), SemLoc.dma ⟨377, by decide⟩) 0
      ∗ semVal ((c : Thread nD τ), SemLoc.dma ⟨376, by decide⟩) 0
      ∗ semVal ((c : Thread nD τ), SemLoc.dma ⟨375, by decide⟩) 0
      ∗ semVal ((c : Thread nD τ), SemLoc.dma ⟨374, by decide⟩) 0
      ∗ semVal ((c : Thread nD τ), SemLoc.dma ⟨373, by decide⟩) 0
      ∗ semVal ((c : Thread nD τ), SemLoc.dma ⟨372, by decide⟩) 0
      ∗ semVal ((c : Thread nD τ), SemLoc.dma ⟨371, by decide⟩) 0
      ∗ semVal ((c : Thread nD τ), SemLoc.dma ⟨370, by decide⟩) 0
      ∗ semVal ((c : Thread nD τ), SemLoc.dma ⟨369, by decide⟩) 0
      ∗ semVal ((c : Thread nD τ), SemLoc.dma ⟨368, by decide⟩) 0
      ∗ semVal ((c : Thread nD τ), SemLoc.dma ⟨367, by decide⟩) 0
      ∗ semVal ((c : Thread nD τ), SemLoc.dma ⟨366, by decide⟩) 0
      ∗ semVal ((c : Thread nD τ), SemLoc.dma ⟨365, by decide⟩) 0
      ∗ semVal ((c : Thread nD τ), SemLoc.dma ⟨364, by decide⟩) 0
      ∗ semVal ((c : Thread nD τ), SemLoc.dma ⟨363, by decide⟩) 0
      ∗ semVal ((c : Thread nD τ), SemLoc.dma ⟨362, by decide⟩) 0
      ∗ semVal ((c : Thread nD τ), SemLoc.dma ⟨361, by decide⟩) 0
      ∗ semVal ((c : Thread nD τ), SemLoc.dma ⟨360, by decide⟩) 0
      ∗ semVal ((c : Thread nD τ), SemLoc.dma ⟨359, by decide⟩) 0
      ∗ semVal ((c : Thread nD τ), SemLoc.dma ⟨358, by decide⟩) 0
      ∗ semVal ((c : Thread nD τ), SemLoc.dma ⟨357, by decide⟩) 0
      ∗ semVal ((c : Thread nD τ), SemLoc.dma ⟨356, by decide⟩) 0
      ∗ semVal ((c : Thread nD τ), SemLoc.dma ⟨355, by decide⟩) 0
      ∗ semVal ((c : Thread nD τ), SemLoc.dma ⟨354, by decide⟩) 0
      ∗ semVal ((c : Thread nD τ), SemLoc.dma ⟨353, by decide⟩) 0
      ∗ semVal ((c : Thread nD τ), SemLoc.dma ⟨352, by decide⟩) 0
      ∗ semVal ((c : Thread nD τ), SemLoc.dma ⟨351, by decide⟩) 0
      ∗ semVal ((c : Thread nD τ), SemLoc.dma ⟨350, by decide⟩) 0
      ∗ semVal ((c : Thread nD τ), SemLoc.dma ⟨349, by decide⟩) 0
      ∗ semVal ((c : Thread nD τ), SemLoc.dma ⟨348, by decide⟩) 0
      ∗ semVal ((c : Thread nD τ), SemLoc.dma ⟨347, by decide⟩) 0
      ∗ semVal ((c : Thread nD τ), SemLoc.dma ⟨346, by decide⟩) 0
      ∗ semVal ((c : Thread nD τ), SemLoc.dma ⟨345, by decide⟩) 0
      ∗ semVal ((c : Thread nD τ), SemLoc.dma ⟨344, by decide⟩) 0
      ∗ semVal ((c : Thread nD τ), SemLoc.dma ⟨343, by decide⟩) 0
      ∗ semVal ((c : Thread nD τ), SemLoc.dma ⟨342, by decide⟩) 0
      ∗ semVal ((c : Thread nD τ), SemLoc.dma ⟨341, by decide⟩) 0
      ∗ semVal ((c : Thread nD τ), SemLoc.dma ⟨340, by decide⟩) 0
      ∗ semVal ((c : Thread nD τ), SemLoc.dma ⟨339, by decide⟩) 0
      ∗ semVal ((c : Thread nD τ), SemLoc.dma ⟨338, by decide⟩) 0
      ∗ semVal ((c : Thread nD τ), SemLoc.dma ⟨337, by decide⟩) 0
      ∗ semVal ((c : Thread nD τ), SemLoc.dma ⟨336, by decide⟩) 0
      ∗ semVal ((c : Thread nD τ), SemLoc.dma ⟨335, by decide⟩) 0
      ∗ semVal ((c : Thread nD τ), SemLoc.dma ⟨334, by decide⟩) 0
      ∗ semVal ((c : Thread nD τ), SemLoc.dma ⟨333, by decide⟩) 0
      ∗ semVal ((c : Thread nD τ), SemLoc.dma ⟨332, by decide⟩) 0
      ∗ semVal ((c : Thread nD τ), SemLoc.dma ⟨331, by decide⟩) 0
      ∗ semVal ((c : Thread nD τ), SemLoc.dma ⟨330, by decide⟩) 0
      ∗ semVal ((c : Thread nD τ), SemLoc.dma ⟨329, by decide⟩) 0
      ∗ semVal ((c : Thread nD τ), SemLoc.dma ⟨328, by decide⟩) 0
      ∗ semVal ((c : Thread nD τ), SemLoc.dma ⟨327, by decide⟩) 0
      ∗ semVal ((c : Thread nD τ), SemLoc.dma ⟨326, by decide⟩) 0
      ∗ semVal ((c : Thread nD τ), SemLoc.dma ⟨325, by decide⟩) 0
      ∗ semVal ((c : Thread nD τ), SemLoc.dma ⟨324, by decide⟩) 0
      ∗ semVal ((c : Thread nD τ), SemLoc.dma ⟨323, by decide⟩) 0
      ∗ semVal ((c : Thread nD τ), SemLoc.dma ⟨322, by decide⟩) 0
      ∗ semVal ((c : Thread nD τ), SemLoc.dma ⟨321, by decide⟩) 0
      ∗ semVal ((c : Thread nD τ), SemLoc.dma ⟨320, by decide⟩) 0
      ∗ semVal ((c : Thread nD τ), SemLoc.dma ⟨319, by decide⟩) 0
      ∗ semVal ((c : Thread nD τ), SemLoc.dma ⟨318, by decide⟩) 0
      ∗ semVal ((c : Thread nD τ), SemLoc.dma ⟨317, by decide⟩) 0
      ∗ semVal ((c : Thread nD τ), SemLoc.dma ⟨316, by decide⟩) 0
      ∗ semVal ((c : Thread nD τ), SemLoc.dma ⟨315, by decide⟩) 0
      ∗ semVal ((c : Thread nD τ), SemLoc.dma ⟨314, by decide⟩) 0
      ∗ semVal ((c : Thread nD τ), SemLoc.dma ⟨313, by decide⟩) 0
      ∗ semVal ((c : Thread nD τ), SemLoc.dma ⟨312, by decide⟩) 0
      ∗ semVal ((c : Thread nD τ), SemLoc.dma ⟨311, by decide⟩) 0
      ∗ semVal ((c : Thread nD τ), SemLoc.dma ⟨310, by decide⟩) 0
      ∗ semVal ((c : Thread nD τ), SemLoc.dma ⟨309, by decide⟩) 0
      ∗ semVal ((c : Thread nD τ), SemLoc.dma ⟨308, by decide⟩) 0
      ∗ semVal ((c : Thread nD τ), SemLoc.dma ⟨307, by decide⟩) 0
      ∗ semVal ((c : Thread nD τ), SemLoc.dma ⟨306, by decide⟩) 0
      ∗ semVal ((c : Thread nD τ), SemLoc.dma ⟨305, by decide⟩) 0
      ∗ semVal ((c : Thread nD τ), SemLoc.dma ⟨304, by decide⟩) 0
      ∗ semVal ((c : Thread nD τ), SemLoc.dma ⟨303, by decide⟩) 0
      ∗ semVal ((c : Thread nD τ), SemLoc.dma ⟨302, by decide⟩) 0
      ∗ semVal ((c : Thread nD τ), SemLoc.dma ⟨301, by decide⟩) 0
      ∗ semVal ((c : Thread nD τ), SemLoc.dma ⟨300, by decide⟩) 0
      ∗ semVal ((c : Thread nD τ), SemLoc.dma ⟨299, by decide⟩) 0
      ∗ semVal ((c : Thread nD τ), SemLoc.dma ⟨298, by decide⟩) 0
      ∗ semVal ((c : Thread nD τ), SemLoc.dma ⟨297, by decide⟩) 0
      ∗ semVal ((c : Thread nD τ), SemLoc.dma ⟨296, by decide⟩) 0
      ∗ semVal ((c : Thread nD τ), SemLoc.dma ⟨295, by decide⟩) 0
      ∗ semVal ((c : Thread nD τ), SemLoc.dma ⟨294, by decide⟩) 0
      ∗ semVal ((c : Thread nD τ), SemLoc.dma ⟨293, by decide⟩) 0
      ∗ semVal ((c : Thread nD τ), SemLoc.dma ⟨292, by decide⟩) 0
      ∗ semVal ((c : Thread nD τ), SemLoc.dma ⟨291, by decide⟩) 0
      ∗ semVal ((c : Thread nD τ), SemLoc.dma ⟨290, by decide⟩) 0
      ∗ semVal ((c : Thread nD τ), SemLoc.dma ⟨289, by decide⟩) 0
      ∗ semVal ((c : Thread nD τ), SemLoc.dma ⟨288, by decide⟩) 0
      ∗ semVal ((c : Thread nD τ), SemLoc.dma ⟨287, by decide⟩) 0
      ∗ semVal ((c : Thread nD τ), SemLoc.dma ⟨286, by decide⟩) 0
      ∗ semVal ((c : Thread nD τ), SemLoc.dma ⟨285, by decide⟩) 0
      ∗ semVal ((c : Thread nD τ), SemLoc.dma ⟨284, by decide⟩) 0
      ∗ semVal ((c : Thread nD τ), SemLoc.dma ⟨283, by decide⟩) 0
      ∗ semVal ((c : Thread nD τ), SemLoc.dma ⟨282, by decide⟩) 0
      ∗ semVal ((c : Thread nD τ), SemLoc.dma ⟨281, by decide⟩) 0
      ∗ semVal ((c : Thread nD τ), SemLoc.dma ⟨280, by decide⟩) 0
      ∗ semVal ((c : Thread nD τ), SemLoc.dma ⟨279, by decide⟩) 0
      ∗ semVal ((c : Thread nD τ), SemLoc.dma ⟨278, by decide⟩) 0
      ∗ semVal ((c : Thread nD τ), SemLoc.dma ⟨277, by decide⟩) 0
      ∗ semVal ((c : Thread nD τ), SemLoc.dma ⟨276, by decide⟩) 0
      ∗ semVal ((c : Thread nD τ), SemLoc.dma ⟨275, by decide⟩) 0
      ∗ semVal ((c : Thread nD τ), SemLoc.dma ⟨274, by decide⟩) 0
      ∗ semVal ((c : Thread nD τ), SemLoc.dma ⟨273, by decide⟩) 0
      ∗ semVal ((c : Thread nD τ), SemLoc.dma ⟨272, by decide⟩) 0
      ∗ semVal ((c : Thread nD τ), SemLoc.dma ⟨271, by decide⟩) 0
      ∗ semVal ((c : Thread nD τ), SemLoc.dma ⟨270, by decide⟩) 0
      ∗ semVal ((c : Thread nD τ), SemLoc.dma ⟨269, by decide⟩) 0
      ∗ semVal ((c : Thread nD τ), SemLoc.dma ⟨268, by decide⟩) 0
      ∗ semVal ((c : Thread nD τ), SemLoc.dma ⟨267, by decide⟩) 0
      ∗ semVal ((c : Thread nD τ), SemLoc.dma ⟨266, by decide⟩) 0
      ∗ emp)) : sProp 𝕄) ⊢ semsZero (F := F) c :=
  cells_down (F := F) c

end Cert.KernelIdeal.Hand

end
-- ==== Proof.KIDeliv.lean ====
/-
  A delivered row is a row of the gathered block.

  A copy's source is row w of an n × 64 table, spelt as the table's memref restricted to the unit-stride rectangle at
  offsets (w, 0) of sizes (1, 64) with the unit axis dropped; w is the word a one-element load reads from an index table
  at offset 128·p + r.  What such a copy delivers, read at column q, is the table's entry (w, q): the row memref places its
  index q where the table's memref places (w, q), and the one-element load at offset k reads entry k.  That is entry
  (r, q) of the gathered block.  The offset is computed in 32-bit words from the grid coordinate p and the row number r,
  both below 128, so nothing wraps: it is 128·p + r.
-/
import proofs.«414929_j28089086116333_1_alg».proof.Proof.KIGath
import proofs.«414929_j28089086116333_1_alg».proof.Proof.KIRows

noncomputable section

namespace Cert.KernelIdeal.Hand

open Cert.KernelIdeal Cert.KernelIdeal.Gen
open Idealize.ShloMosaic Idealize.ShloMosaic.TcCoe
open Idealize.SL Idealize.SL.Sem
open ValueIdx

variable {F : FTy → Type} [FloatOps F]

/-- 128·p + r in 32-bit words, for p and r below 128, is 128·p + r. -/
theorem off_val (p r : ℕ) (hp : p < 128) (hr : r < 128) :
    (Scalar.indexCast (Scalar.addi (Scalar.muli (BitVec.ofNat 32 p) 128#32) (BitVec.ofNat 32 r))).toNat = 128 * p + r := by
  simp only [Scalar.indexCast, Scalar.addi, Scalar.muli, IntOp.addi, IntOp.muli, BitVec.toNat_add, BitVec.toNat_mul,
    BitVec.toNat_ofNat]
  omega

/-- Row `w` of an n × 64 table, as a copy's source is spelt. -/
abbrev trowM {n : ℕ} (hb : Memref sig .tc .hbm (⟨2, ![n, 64]⟩ : Shape) .f32) (w : ℕ)
    (hinb : ∀ a, (![w, 0] : Fin 2 → Nat) a + S1x64.size a ≤ (⟨2, ![n, 64]⟩ : Shape).size a) : Memref sig .tc .hbm S64 .f32 :=
  (hb.slice (Rect.unit (s := (⟨2, ![n, 64]⟩ : Shape)) ![w, 0] S1x64.size hinb) (fun _ => rfl)).squeeze S64 squeezes_S1x64_S64

/-- The row memref places its index q where the table's memref places (w, q). -/
theorem trowM_emb {n : ℕ} (hb : Memref sig .tc .hbm (⟨2, ![n, 64]⟩ : Shape) .f32) (w : ℕ) (hw : w < n)
    (hinb : ∀ a, (![w, 0] : Fin 2 → Nat) a + S1x64.size a ≤ (⟨2, ![n, 64]⟩ : Shape).size a) (q : Fin 64) :
    (trowM hb w hinb).view.emb (ix1 q) = hb.view.emb (ix2 (⟨w, hw⟩ : Fin n) q) := by
  have hre : Shape.reshapeEquiv squeezes_S1x64_S64.numel_eq (ix1 q) = ix2 (0 : Fin 1) q :=
    Shape.reshapeEquiv_eq_of_rowMajor _ (by
      rw [Shape.rowMajor_val_two, Shape.rowMajor_val_one]
      show 0 * 64 + q.val = q.val
      omega)
  show hb.view.emb ((Rect.unit (s := (⟨2, ![n, 64]⟩ : Shape)) ![w, 0] S1x64.size hinb).emb
    (Shape.reshapeEquiv squeezes_S1x64_S64.numel_eq (ix1 q))) = _
  rw [hre]
  congr 1
  funext a
  refine Fin.ext ?_
  match a with
  | ⟨0, _⟩ => show w + 1 * 0 = w; omega
  | ⟨1, _⟩ => show 0 + 1 * q.val = q.val; omega

/-- A one-element load of a 16384-word index table at offset k reads entry k. -/
theorem word_at (c : Dev nD) (tb : Memref sig .tc .smem S16384 .i32) (xt : BufOf (F := F) c tb) (off : Fin 1 → ℕ)
    (hinb1 : ∀ a, off a + S1.size a ≤ S16384.size a)
    (hpos : 0 < (Rect.unit (s := S16384) off S1.size hinb1).toLoadRect.shape.numel) (k : Fin 16384) (hk : off 0 = k.val) :
    tb.view.readAt (Elt F) (Rect.unit (s := S16384) off S1.size hinb1).toLoadRect xt (Shape.Idx.first hpos)
      = tb.view.read (Elt F) xt (ix1 k) := by
  rw [View.readAt_apply]
  congr 1
  funext a
  refine Fin.ext ?_
  match a with
  | ⟨0, _⟩ => simp [hk, Shape.Idx.first]

/-- Read through the row memref at column q, the table's contents give the table's entry (w, q). -/
theorem trow_read {n : ℕ} (c : Dev nD) (hb : Memref sig .tc .hbm (⟨2, ![n, 64]⟩ : Shape) .f32) (fh : BufOf (F := F) c hb)
    (w : ℕ) (hw : w < n) (hinb : ∀ a, (![w, 0] : Fin 2 → Nat) a + S1x64.size a ≤ (⟨2, ![n, 64]⟩ : Shape).size a) (q : Fin 64) :
    (trowM hb w hinb).view.read (Elt F) fh (ix1 q) = hb.view.read (Elt F) fh (ix2 (⟨w, hw⟩ : Fin n) q) := by
  unfold View.read
  rw [trowM_emb hb w hw hinb q]

/-- What a copy out of row w of the table delivers, read at column q, is entry (r, q) of the gathered block, where w is the
    word a one-element load reads from the index table at offset 128·p + r. -/
theorem deliver_gath {n : ℕ} (hn : 0 < n) (c : Dev nD) (hb : Memref sig .tc .hbm (⟨2, ![n, 64]⟩ : Shape) .f32)
    (tb : Memref sig .tc .smem S16384 .i32) (fh : BufOf (F := F) c hb) (xt : BufOf (F := F) c tb) (i : grid0.Coords)
    (r : Fin 128) (off : Fin 1 → ℕ) (hoff : off 0 = 128 * (i 0).val + r.val) (hlt : 128 * (i 0).val + r.val < 16384)
    (hinb1 : ∀ a, off a + S1.size a ≤ S16384.size a)
    (hpos : 0 < (Rect.unit (s := S16384) off S1.size hinb1).toLoadRect.shape.numel)
    (hinb2 : ∀ a, (![(tb.view.readAt (Elt F) (Rect.unit (s := S16384) off S1.size hinb1).toLoadRect xt
        (Shape.Idx.first hpos)).toNat, 0] : Fin 2 → Nat) a + S1x64.size a ≤ (⟨2, ![n, 64]⟩ : Shape).size a)
    (q : Fin 64) :
    (trowM hb _ hinb2).view.read (Elt F) fh (ix1 q)
      = gath hn (hb.view.read (Elt F) fh) (tb.view.read (Elt F) xt) i (ix2 r q) := by
  have hk : off 0 = (rowIdx i r).val := by rw [rowIdx_val i r hlt]; exact hoff
  have hword := word_at c tb xt off hinb1 hpos (rowIdx i r) hk
  have h0 : (tb.view.readAt (Elt F) (Rect.unit (s := S16384) off S1.size hinb1).toLoadRect xt
      (Shape.Idx.first hpos)).toNat + 1 ≤ n := hinb2 (0 : Fin 2)
  have hwltA : (tb.view.readAt (Elt F) (Rect.unit (s := S16384) off S1.size hinb1).toLoadRect xt
      (Shape.Idx.first hpos)).toNat < n := by omega
  have hwlt : (tb.view.read (Elt F) xt (ix1 (rowIdx i r))).toNat < n := hword ▸ hwltA
  rw [gath_apply hn _ _ i r q hwlt]
  refine (trow_read c hb fh _ hwltA hinb2 q).trans ?_
  congr 2
  exact Fin.ext (congrArg BitVec.toNat hword)

end Cert.KernelIdeal.Hand

end
-- ==== Proof.KIRun.lean ====
/-
  The kernel body run once, at symbolic operands.

  At a grid point the body reads, for each of its 128 rows r, three index words from the three tables held in scalar
  memory (entry 128·point + r of each), assumes each word addresses a row of its table, and starts three copies: the
  addressed row of the first table into row r of the first scratch buffer, and the rows of the second table addressed by
  the other two words into row r of the second and third scratch buffers, each copy counted on a semaphore cell of its
  own.  It then waits for all 384 copies, cell by cell, loads the three scratch buffers whole, and stores five column
  vectors: the row sums of the products first·second, first·third, first·first, second·second, third·third.

  What is proved: from the five result buffers and the three scratch buffers held at any contents, the 384 cells at
  zero, the three index tables and the two data tables held at their contents, and every index word of each table
  addressing a row of the table it indexes, the body runs to its return, nothing faulting, handing back the tables as they
  were, the cells at zero, and each result buffer with one store of its whole block: the row sums of the gathered blocks.

  How: the body treats its rows in increasing order, so its resources are taken a row at a time.  The scratch rows, the
  cells and the read tokens are held as ascending chains; a row's three destinations, three cells and three tokens are
  taken from the heads of the chains just before its three copies start, and what the starts leave (per copy, the cell
  carrying the flight and the rest of the token) is kept as one conjunct until the row's waits.  After a row's three
  waits the delivered row is restated at the one closed contents of its buffer (the gathered block written over what the
  buffer held), and the row's nine resources go to the heads of the chains of what is done.  After the last wait each
  scratch buffer is its 128 rows at one contents, hence the buffer whole at those contents; a load of it reads the
  gathered block, and the five stores are the listed ones.
-/
import proofs.«414929_j28089086116333_1_alg».proof.Proof.KISems
import proofs.«414929_j28089086116333_1_alg».proof.Proof.KIGath
import proofs.«414929_j28089086116333_1_alg».proof.Proof.KISt
import proofs.«414929_j28089086116333_1_alg».proof.Proof.KIRunA
import proofs.«414929_j28089086116333_1_alg».proof.Proof.KIRunB
import proofs.«414929_j28089086116333_1_alg».proof.Proof.KIDeliv
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open ValueIdx

variable {F : FTy → Type} [FloatOps F]

local notation "𝕄" => MT nD τ sig Unit (Elt F) ℕ (Pipeline.UD sig nD τ) ℕ

/-- The fifth result buffer's store, its payload named by the run: the named value is the row sums of the third gathered block. -/
theorem out10P (c : Dev nD) (i : grid0.Coords) (xt0 : BufOf (F := F) c tbM0) (xt1 : BufOf (F := F) c tbM1) (xt2 : BufOf (F := F) c tbM2)
    (fh0 : BufOf (F := F) c hbM0) (fh1 : BufOf (F := F) c hbM1)
    (fs0 : BufOf (F := F) c scM0) (fs1 : BufOf (F := F) c scM1) (fs2 : BufOf (F := F) c scM2)
    (arg : Memref sig .tc .vmem S128x1 .f32) (f : BufOf (F := F) c arg) (v : FVec F S128x64 .f32) :
    (arg.view.loc (c : Thread nD τ) ↦[arg.view.set]{fullShare} arg.view.writes (Elt F) f
        [⟨Rect.unit (s := S128x1) ![0, 0] S128x1.size inb_S128x1_S128x1_0_0, k0_pay1 v⟩] : sProp 𝕄)
      ⊢ iprop(⌜v = k0_pay6 (scM2.view.readAt (Elt F) (Rect.unit (s := S128x64) ![0, 0] S128x64.size inb_S128x64_S128x64_0_0).toLoadRect (scM2.view.write (Elt F) fs2 (gVj c i xt2 fh1) Finset.univ))⌝ -∗
          ∃ f, arg.view.loc (c : Thread nD τ) ↦[arg.view.set]{fullShare} arg.view.writes (Elt F) f (runL c i xt0 xt1 xt2 fh0 fh1).2.2.2.2) := by
  iintro H %hv
  subst hv
  ihave H' := (out10 (F := F) c i xt0 xt1 xt2 fh0 fh1 fs0 fs1 fs2 arg f) $$ H
  iexact H'

set_option maxHeartbeats 400000000 in
theorem kernelRun_spec (c : Dev nD) (i : grid0.Coords)
    (arg6 : Memref sig .tc .vmem S128x1 .f32) (harg6 : arg6.IsWhole) (arg7 : Memref sig .tc .vmem S128x1 .f32) (harg7 : arg7.IsWhole) (arg8 : Memref sig .tc .vmem S128x1 .f32) (harg8 : arg8.IsWhole) (arg9 : Memref sig .tc .vmem S128x1 .f32) (harg9 : arg9.IsWhole) (arg10 : Memref sig .tc .vmem S128x1 .f32) (harg10 : arg10.IsWhole)
    (xt0 : BufOf (F := F) c tbM0) (xt1 : BufOf (F := F) c tbM1) (xt2 : BufOf (F := F) c tbM2)
    (fh0 : BufOf (F := F) c hbM0) (fh1 : BufOf (F := F) c hbM1)
    (hU : ∀ (R : LoadRect S16384) (j : R.shape.Idx) (a : Fin 2), (![(tbM0.view.readAt (Elt F) R xt0 j).toNat, 0] : Fin 2 → Nat) a + S1x64.size a ≤ S1000000x64.size a)
    (hI : ∀ (R : LoadRect S16384) (j : R.shape.Idx) (a : Fin 2), (![(tbM1.view.readAt (Elt F) R xt1 j).toNat, 0] : Fin 2 → Nat) a + S1x64.size a ≤ S500000x64.size a)
    (hJ : ∀ (R : LoadRect S16384) (j : R.shape.Idx) (a : Fin 2), (![(tbM2.view.readAt (Elt F) R xt2 j).toNat, 0] : Fin 2 → Nat) a + S1x64.size a ≤ S500000x64.size a) :
      ∀ (W : Waits sig Unit) (K : PUnit → sProp 𝕄),
        iprop((∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (∃ d, owns (c : Thread nD τ) scM0 fullShare d) ∗ (∃ d, owns (c : Thread nD τ) scM1 fullShare d) ∗ (∃ d, owns (c : Thread nD τ) scM2 fullShare d)
            ∗ semsZero c
            ∗ tbPt c tbM0 xt0 ∗ tbPt c tbM1 xt1 ∗ tbPt c tbM2 xt2 ∗ hbPt c hbM0 fh0 ∗ hbPt c hbM1 fh1 ∗ owes (c : Thread nD τ) 0 W
            ∗ (iprop((∃ f, arg6.view.loc (c : Thread nD τ) ↦[arg6.view.set]{fullShare} arg6.view.writes (Elt F) f (runL c i xt0 xt1 xt2 fh0 fh1).1)
                ∗ (∃ f, arg7.view.loc (c : Thread nD τ) ↦[arg7.view.set]{fullShare} arg7.view.writes (Elt F) f (runL c i xt0 xt1 xt2 fh0 fh1).2.1)
                ∗ (∃ f, arg8.view.loc (c : Thread nD τ) ↦[arg8.view.set]{fullShare} arg8.view.writes (Elt F) f (runL c i xt0 xt1 xt2 fh0 fh1).2.2.1)
                ∗ (∃ f, arg9.view.loc (c : Thread nD τ) ↦[arg9.view.set]{fullShare} arg9.view.writes (Elt F) f (runL c i xt0 xt1 xt2 fh0 fh1).2.2.2.1)
                ∗ (∃ f, arg10.view.loc (c : Thread nD τ) ↦[arg10.view.set]{fullShare} arg10.view.writes (Elt F) f (runL c i xt0 xt1 xt2 fh0 fh1).2.2.2.2)
                ∗ (∃ d, owns (c : Thread nD τ) scM0 fullShare d) ∗ (∃ d, owns (c : Thread nD τ) scM1 fullShare d) ∗ (∃ d, owns (c : Thread nD τ) scM2 fullShare d)
                ∗ semsZero c
                ∗ tbPt c tbM0 xt0 ∗ tbPt c tbM1 xt1 ∗ tbPt c tbM2 xt2 ∗ hbPt c hbM0 fh0 ∗ hbPt c hbM1 fh1 ∗ (∃ W', owes (c : Thread nD τ) 0 W')) -∗ K ⟨⟩))
          ⊢ wp frame (wpE (defs₀ (F := F)) Variants.none c none) Set.univ
              (cc0__gather_kernel i tbM0 (Memref.isWhole_whole _) tbM1 (Memref.isWhole_whole _) tbM2 (Memref.isWhole_whole _) hbM0 (Memref.isWhole_whole _) hbM1 (Memref.isWhole_whole _)
                arg6 harg6 arg7 harg7 arg8 harg8 arg9 harg9 arg10 harg10 scM0 (Memref.isWhole_whole _) scM1 (Memref.isWhole_whole _) scM2 (Memref.isWhole_whole _) cc0_scratch3 cc0_scratch4 cc0_scratch5) K := by
  intro W K
  have hi : (i 0).val < 128 := (i 0).isLt
  unfold owns
  iintro ⟨⟨%d6, %f6, -, H6⟩, ⟨%d7, %f7, -, H7⟩, ⟨%d8, %f8, -, H8⟩, ⟨%d9, %f9, -, H9⟩, ⟨%d10, %f10, -, H10⟩, ⟨%ds0, %fs0, -, HS0⟩, ⟨%ds1, %fs1, -, HS1⟩, ⟨%ds2, %fs2, -, HS2⟩, Hsem, Ht0, Ht1, Ht2, Hh0, Hh1, HW, Hk⟩
  -- the scratch rows, the cells and the read tokens as ascending chains; what no row takes is kept folded
  ihave HRs0 := (rows_up0 c fs0) $$ HS0
  ihave HRs1 := (rows_up1 c fs1) $$ HS1
  ihave HRs2 := (rows_up2 c fs2) $$ HS2
  ihave HCs := (cells_up c) $$ Hsem
  icases HCs with ⟨HA0, HA1, HA2⟩
  ihave HU' := (tokU_up c fh0) $$ Hh0
  icases HU' with ⟨HUr, HUlo, HAT0⟩
  ihave HUrl := (consH _ _) $$ HUr HUlo
  ihave HV' := (tokV_up c fh1) $$ Hh1
  icases HV' with ⟨HVr, HVlo, HAT1, HAT2⟩
  ihave HVrl := (consH _ _) $$ HVr HVlo
  -- row 0: its three destinations, cells and read tokens; its three copies start
  icases HRs0 with ⟨HR0, HRs0⟩
  icases HRs1 with ⟨HR1, HRs1⟩
  icases HRs2 with ⟨HR2, HRs2⟩
  icases HA0 with ⟨HC0, HA0⟩
  icases HA1 with ⟨HC1, HA1⟩
  icases HA2 with ⟨HC2, HA2⟩
  icases HAT0 with ⟨HT0, HAT0⟩
  icases HAT1 with ⟨HT1, HAT1⟩
  icases HAT2 with ⟨HT2, HAT2⟩
  sl_exec (disch := first | sl_exact hU _ _ | sl_exact hI _ _ | sl_exact hJ _ _)
  ihave HB0 := (bundle6 _ _ _ _ _ _) $$ HC0 HT0 HC1 HT1 HC2 HT2
  -- row 1: its three destinations, cells and read tokens; its three copies start
  icases HRs0 with ⟨HR0, HRs0⟩
  icases HRs1 with ⟨HR1, HRs1⟩
  icases HRs2 with ⟨HR2, HRs2⟩
  icases HA0 with ⟨HC0, HA0⟩
  icases HA1 with ⟨HC1, HA1⟩
  icases HA2 with ⟨HC2, HA2⟩
  icases HAT0 with ⟨HT0, HAT0⟩
  icases HAT1 with ⟨HT1, HAT1⟩
  icases HAT2 with ⟨HT2, HAT2⟩
  sl_exec (disch := first | sl_exact hU _ _ | sl_exact hI _ _ | sl_exact hJ _ _)
  ihave HB1 := (bundle6 _ _ _ _ _ _) $$ HC0 HT0 HC1 HT1 HC2 HT2
  -- row 2: its three destinations, cells and read tokens; its three copies start
  icases HRs0 with ⟨HR0, HRs0⟩
  icases HRs1 with ⟨HR1, HRs1⟩
  icases HRs2 with ⟨HR2, HRs2⟩
  icases HA0 with ⟨HC0, HA0⟩
  icases HA1 with ⟨HC1, HA1⟩
  icases HA2 with ⟨HC2, HA2⟩
  icases HAT0 with ⟨HT0, HAT0⟩
  icases HAT1 with ⟨HT1, HAT1⟩
  icases HAT2 with ⟨HT2, HAT2⟩
  sl_exec (disch := first | sl_exact hU _ _ | sl_exact hI _ _ | sl_exact hJ _ _)
  ihave HB2 := (bundle6 _ _ _ _ _ _) $$ HC0 HT0 HC1 HT1 HC2 HT2
  -- row 3: its three destinations, cells and read tokens; its three copies start
  icases HRs0 with ⟨HR0, HRs0⟩
  icases HRs1 with ⟨HR1, HRs1⟩
  icases HRs2 with ⟨HR2, HRs2⟩
  icases HA0 with ⟨HC0, HA0⟩
  icases HA1 with ⟨HC1, HA1⟩
  icases HA2 with ⟨HC2, HA2⟩
  icases HAT0 with ⟨HT0, HAT0⟩
  icases HAT1 with ⟨HT1, HAT1⟩
  icases HAT2 with ⟨HT2, HAT2⟩
  sl_exec (disch := first | sl_exact hU _ _ | sl_exact hI _ _ | sl_exact hJ _ _)
  ihave HB3 := (bundle6 _ _ _ _ _ _) $$ HC0 HT0 HC1 HT1 HC2 HT2
  -- row 4: its three destinations, cells and read tokens; its three copies start
  icases HRs0 with ⟨HR0, HRs0⟩
  icases HRs1 with ⟨HR1, HRs1⟩
  icases HRs2 with ⟨HR2, HRs2⟩
  icases HA0 with ⟨HC0, HA0⟩
  icases HA1 with ⟨HC1, HA1⟩
  icases HA2 with ⟨HC2, HA2⟩
  icases HAT0 with ⟨HT0, HAT0⟩
  icases HAT1 with ⟨HT1, HAT1⟩
  icases HAT2 with ⟨HT2, HAT2⟩
  sl_exec (disch := first | sl_exact hU _ _ | sl_exact hI _ _ | sl_exact hJ _ _)
  ihave HB4 := (bundle6 _ _ _ _ _ _) $$ HC0 HT0 HC1 HT1 HC2 HT2
  -- row 5: its three destinations, cells and read tokens; its three copies start
  icases HRs0 with ⟨HR0, HRs0⟩
  icases HRs1 with ⟨HR1, HRs1⟩
  icases HRs2 with ⟨HR2, HRs2⟩
  icases HA0 with ⟨HC0, HA0⟩
  icases HA1 with ⟨HC1, HA1⟩
  icases HA2 with ⟨HC2, HA2⟩
  icases HAT0 with ⟨HT0, HAT0⟩
  icases HAT1 with ⟨HT1, HAT1⟩
  icases HAT2 with ⟨HT2, HAT2⟩
  sl_exec (disch := first | sl_exact hU _ _ | sl_exact hI _ _ | sl_exact hJ _ _)
  ihave HB5 := (bundle6 _ _ _ _ _ _) $$ HC0 HT0 HC1 HT1 HC2 HT2
  -- row 6: its three destinations, cells and read tokens; its three copies start
  icases HRs0 with ⟨HR0, HRs0⟩
  icases HRs1 with ⟨HR1, HRs1⟩
  icases HRs2 with ⟨HR2, HRs2⟩
  icases HA0 with ⟨HC0, HA0⟩
  icases HA1 with ⟨HC1, HA1⟩
  icases HA2 with ⟨HC2, HA2⟩
  icases HAT0 with ⟨HT0, HAT0⟩
  icases HAT1 with ⟨HT1, HAT1⟩
  icases HAT2 with ⟨HT2, HAT2⟩
  sl_exec (disch := first | sl_exact hU _ _ | sl_exact hI _ _ | sl_exact hJ _ _)
  ihave HB6 := (bundle6 _ _ _ _ _ _) $$ HC0 HT0 HC1 HT1 HC2 HT2
  -- row 7: its three destinations, cells and read tokens; its three copies start
  icases HRs0 with ⟨HR0, HRs0⟩
  icases HRs1 with ⟨HR1, HRs1⟩
  icases HRs2 with ⟨HR2, HRs2⟩
  icases HA0 with ⟨HC0, HA0⟩
  icases HA1 with ⟨HC1, HA1⟩
  icases HA2 with ⟨HC2, HA2⟩
  icases HAT0 with ⟨HT0, HAT0⟩
  icases HAT1 with ⟨HT1, HAT1⟩
  icases HAT2 with ⟨HT2, HAT2⟩
  sl_exec (disch := first | sl_exact hU _ _ | sl_exact hI _ _ | sl_exact hJ _ _)
  ihave HB7 := (bundle6 _ _ _ _ _ _) $$ HC0 HT0 HC1 HT1 HC2 HT2
  -- row 8: its three destinations, cells and read tokens; its three copies start
  icases HRs0 with ⟨HR0, HRs0⟩
  icases HRs1 with ⟨HR1, HRs1⟩
  icases HRs2 with ⟨HR2, HRs2⟩
  icases HA0 with ⟨HC0, HA0⟩
  icases HA1 with ⟨HC1, HA1⟩
  icases HA2 with ⟨HC2, HA2⟩
  icases HAT0 with ⟨HT0, HAT0⟩
  icases HAT1 with ⟨HT1, HAT1⟩
  icases HAT2 with ⟨HT2, HAT2⟩
  sl_exec (disch := first | sl_exact hU _ _ | sl_exact hI _ _ | sl_exact hJ _ _)
  ihave HB8 := (bundle6 _ _ _ _ _ _) $$ HC0 HT0 HC1 HT1 HC2 HT2
  -- row 9: its three destinations, cells and read tokens; its three copies start
  icases HRs0 with ⟨HR0, HRs0⟩
  icases HRs1 with ⟨HR1, HRs1⟩
  icases HRs2 with ⟨HR2, HRs2⟩
  icases HA0 with ⟨HC0, HA0⟩
  icases HA1 with ⟨HC1, HA1⟩
  icases HA2 with ⟨HC2, HA2⟩
  icases HAT0 with ⟨HT0, HAT0⟩
  icases HAT1 with ⟨HT1, HAT1⟩
  icases HAT2 with ⟨HT2, HAT2⟩
  sl_exec (disch := first | sl_exact hU _ _ | sl_exact hI _ _ | sl_exact hJ _ _)
  ihave HB9 := (bundle6 _ _ _ _ _ _) $$ HC0 HT0 HC1 HT1 HC2 HT2
  -- row 10: its three destinations, cells and read tokens; its three copies start
  icases HRs0 with ⟨HR0, HRs0⟩
  icases HRs1 with ⟨HR1, HRs1⟩
  icases HRs2 with ⟨HR2, HRs2⟩
  icases HA0 with ⟨HC0, HA0⟩
  icases HA1 with ⟨HC1, HA1⟩
  icases HA2 with ⟨HC2, HA2⟩
  icases HAT0 with ⟨HT0, HAT0⟩
  icases HAT1 with ⟨HT1, HAT1⟩
  icases HAT2 with ⟨HT2, HAT2⟩
  sl_exec (disch := first | sl_exact hU _ _ | sl_exact hI _ _ | sl_exact hJ _ _)
  ihave HB10 := (bundle6 _ _ _ _ _ _) $$ HC0 HT0 HC1 HT1 HC2 HT2
  -- row 11: its three destinations, cells and read tokens; its three copies start
  icases HRs0 with ⟨HR0, HRs0⟩
  icases HRs1 with ⟨HR1, HRs1⟩
  icases HRs2 with ⟨HR2, HRs2⟩
  icases HA0 with ⟨HC0, HA0⟩
  icases HA1 with ⟨HC1, HA1⟩
  icases HA2 with ⟨HC2, HA2⟩
  icases HAT0 with ⟨HT0, HAT0⟩
  icases HAT1 with ⟨HT1, HAT1⟩
  icases HAT2 with ⟨HT2, HAT2⟩
  sl_exec (disch := first | sl_exact hU _ _ | sl_exact hI _ _ | sl_exact hJ _ _)
  ihave HB11 := (bundle6 _ _ _ _ _ _) $$ HC0 HT0 HC1 HT1 HC2 HT2
  -- row 12: its three destinations, cells and read tokens; its three copies start
  icases HRs0 with ⟨HR0, HRs0⟩
  icases HRs1 with ⟨HR1, HRs1⟩
  icases HRs2 with ⟨HR2, HRs2⟩
  icases HA0 with ⟨HC0, HA0⟩
  icases HA1 with ⟨HC1, HA1⟩
  icases HA2 with ⟨HC2, HA2⟩
  icases HAT0 with ⟨HT0, HAT0⟩
  icases HAT1 with ⟨HT1, HAT1⟩
  icases HAT2 with ⟨HT2, HAT2⟩
  sl_exec (disch := first | sl_exact hU _ _ | sl_exact hI _ _ | sl_exact hJ _ _)
  ihave HB12 := (bundle6 _ _ _ _ _ _) $$ HC0 HT0 HC1 HT1 HC2 HT2
  -- row 13: its three destinations, cells and read tokens; its three copies start
  icases HRs0 with ⟨HR0, HRs0⟩
  icases HRs1 with ⟨HR1, HRs1⟩
  icases HRs2 with ⟨HR2, HRs2⟩
  icases HA0 with ⟨HC0, HA0⟩
  icases HA1 with ⟨HC1, HA1⟩
  icases HA2 with ⟨HC2, HA2⟩
  icases HAT0 with ⟨HT0, HAT0⟩
  icases HAT1 with ⟨HT1, HAT1⟩
  icases HAT2 with ⟨HT2, HAT2⟩
  sl_exec (disch := first | sl_exact hU _ _ | sl_exact hI _ _ | sl_exact hJ _ _)
  ihave HB13 := (bundle6 _ _ _ _ _ _) $$ HC0 HT0 HC1 HT1 HC2 HT2
  -- row 14: its three destinations, cells and read tokens; its three copies start
  icases HRs0 with ⟨HR0, HRs0⟩
  icases HRs1 with ⟨HR1, HRs1⟩
  icases HRs2 with ⟨HR2, HRs2⟩
  icases HA0 with ⟨HC0, HA0⟩
  icases HA1 with ⟨HC1, HA1⟩
  icases HA2 with ⟨HC2, HA2⟩
  icases HAT0 with ⟨HT0, HAT0⟩
  icases HAT1 with ⟨HT1, HAT1⟩
  icases HAT2 with ⟨HT2, HAT2⟩
  sl_exec (disch := first | sl_exact hU _ _ | sl_exact hI _ _ | sl_exact hJ _ _)
  ihave HB14 := (bundle6 _ _ _ _ _ _) $$ HC0 HT0 HC1 HT1 HC2 HT2
  -- row 15: its three destinations, cells and read tokens; its three copies start
  icases HRs0 with ⟨HR0, HRs0⟩
  icases HRs1 with ⟨HR1, HRs1⟩
  icases HRs2 with ⟨HR2, HRs2⟩
  icases HA0 with ⟨HC0, HA0⟩
  icases HA1 with ⟨HC1, HA1⟩
  icases HA2 with ⟨HC2, HA2⟩
  icases HAT0 with ⟨HT0, HAT0⟩
  icases HAT1 with ⟨HT1, HAT1⟩
  icases HAT2 with ⟨HT2, HAT2⟩
  sl_exec (disch := first | sl_exact hU _ _ | sl_exact hI _ _ | sl_exact hJ _ _)
  ihave HB15 := (bundle6 _ _ _ _ _ _) $$ HC0 HT0 HC1 HT1 HC2 HT2
  -- row 16: its three destinations, cells and read tokens; its three copies start
  icases HRs0 with ⟨HR0, HRs0⟩
  icases HRs1 with ⟨HR1, HRs1⟩
  icases HRs2 with ⟨HR2, HRs2⟩
  icases HA0 with ⟨HC0, HA0⟩
  icases HA1 with ⟨HC1, HA1⟩
  icases HA2 with ⟨HC2, HA2⟩
  icases HAT0 with ⟨HT0, HAT0⟩
  icases HAT1 with ⟨HT1, HAT1⟩
  icases HAT2 with ⟨HT2, HAT2⟩
  sl_exec (disch := first | sl_exact hU _ _ | sl_exact hI _ _ | sl_exact hJ _ _)
  ihave HB16 := (bundle6 _ _ _ _ _ _) $$ HC0 HT0 HC1 HT1 HC2 HT2
  -- row 17: its three destinations, cells and read tokens; its three copies start
  icases HRs0 with ⟨HR0, HRs0⟩
  icases HRs1 with ⟨HR1, HRs1⟩
  icases HRs2 with ⟨HR2, HRs2⟩
  icases HA0 with ⟨HC0, HA0⟩
  icases HA1 with ⟨HC1, HA1⟩
  icases HA2 with ⟨HC2, HA2⟩
  icases HAT0 with ⟨HT0, HAT0⟩
  icases HAT1 with ⟨HT1, HAT1⟩
  icases HAT2 with ⟨HT2, HAT2⟩
  sl_exec (disch := first | sl_exact hU _ _ | sl_exact hI _ _ | sl_exact hJ _ _)
  ihave HB17 := (bundle6 _ _ _ _ _ _) $$ HC0 HT0 HC1 HT1 HC2 HT2
  -- row 18: its three destinations, cells and read tokens; its three copies start
  icases HRs0 with ⟨HR0, HRs0⟩
  icases HRs1 with ⟨HR1, HRs1⟩
  icases HRs2 with ⟨HR2, HRs2⟩
  icases HA0 with ⟨HC0, HA0⟩
  icases HA1 with ⟨HC1, HA1⟩
  icases HA2 with ⟨HC2, HA2⟩
  icases HAT0 with ⟨HT0, HAT0⟩
  icases HAT1 with ⟨HT1, HAT1⟩
  icases HAT2 with ⟨HT2, HAT2⟩
  sl_exec (disch := first | sl_exact hU _ _ | sl_exact hI _ _ | sl_exact hJ _ _)
  ihave HB18 := (bundle6 _ _ _ _ _ _) $$ HC0 HT0 HC1 HT1 HC2 HT2
  -- row 19: its three destinations, cells and read tokens; its three copies start
  icases HRs0 with ⟨HR0, HRs0⟩
  icases HRs1 with ⟨HR1, HRs1⟩
  icases HRs2 with ⟨HR2, HRs2⟩
  icases HA0 with ⟨HC0, HA0⟩
  icases HA1 with ⟨HC1, HA1⟩
  icases HA2 with ⟨HC2, HA2⟩
  icases HAT0 with ⟨HT0, HAT0⟩
  icases HAT1 with ⟨HT1, HAT1⟩
  icases HAT2 with ⟨HT2, HAT2⟩
  sl_exec (disch := first | sl_exact hU _ _ | sl_exact hI _ _ | sl_exact hJ _ _)
  ihave HB19 := (bundle6 _ _ _ _ _ _) $$ HC0 HT0 HC1 HT1 HC2 HT2
  -- row 20: its three destinations, cells and read tokens; its three copies start
  icases HRs0 with ⟨HR0, HRs0⟩
  icases HRs1 with ⟨HR1, HRs1⟩
  icases HRs2 with ⟨HR2, HRs2⟩
  icases HA0 with ⟨HC0, HA0⟩
  icases HA1 with ⟨HC1, HA1⟩
  icases HA2 with ⟨HC2, HA2⟩
  icases HAT0 with ⟨HT0, HAT0⟩
  icases HAT1 with ⟨HT1, HAT1⟩
  icases HAT2 with ⟨HT2, HAT2⟩
  sl_exec (disch := first | sl_exact hU _ _ | sl_exact hI _ _ | sl_exact hJ _ _)
  ihave HB20 := (bundle6 _ _ _ _ _ _) $$ HC0 HT0 HC1 HT1 HC2 HT2
  -- row 21: its three destinations, cells and read tokens; its three copies start
  icases HRs0 with ⟨HR0, HRs0⟩
  icases HRs1 with ⟨HR1, HRs1⟩
  icases HRs2 with ⟨HR2, HRs2⟩
  icases HA0 with ⟨HC0, HA0⟩
  icases HA1 with ⟨HC1, HA1⟩
  icases HA2 with ⟨HC2, HA2⟩
  icases HAT0 with ⟨HT0, HAT0⟩
  icases HAT1 with ⟨HT1, HAT1⟩
  icases HAT2 with ⟨HT2, HAT2⟩
  sl_exec (disch := first | sl_exact hU _ _ | sl_exact hI _ _ | sl_exact hJ _ _)
  ihave HB21 := (bundle6 _ _ _ _ _ _) $$ HC0 HT0 HC1 HT1 HC2 HT2
  -- row 22: its three destinations, cells and read tokens; its three copies start
  icases HRs0 with ⟨HR0, HRs0⟩
  icases HRs1 with ⟨HR1, HRs1⟩
  icases HRs2 with ⟨HR2, HRs2⟩
  icases HA0 with ⟨HC0, HA0⟩
  icases HA1 with ⟨HC1, HA1⟩
  icases HA2 with ⟨HC2, HA2⟩
  icases HAT0 with ⟨HT0, HAT0⟩
  icases HAT1 with ⟨HT1, HAT1⟩
  icases HAT2 with ⟨HT2, HAT2⟩
  sl_exec (disch := first | sl_exact hU _ _ | sl_exact hI _ _ | sl_exact hJ _ _)
  ihave HB22 := (bundle6 _ _ _ _ _ _) $$ HC0 HT0 HC1 HT1 HC2 HT2
  -- row 23: its three destinations, cells and read tokens; its three copies start
  icases HRs0 with ⟨HR0, HRs0⟩
  icases HRs1 with ⟨HR1, HRs1⟩
  icases HRs2 with ⟨HR2, HRs2⟩
  icases HA0 with ⟨HC0, HA0⟩
  icases HA1 with ⟨HC1, HA1⟩
  icases HA2 with ⟨HC2, HA2⟩
  icases HAT0 with ⟨HT0, HAT0⟩
  icases HAT1 with ⟨HT1, HAT1⟩
  icases HAT2 with ⟨HT2, HAT2⟩
  sl_exec (disch := first | sl_exact hU _ _ | sl_exact hI _ _ | sl_exact hJ _ _)
  ihave HB23 := (bundle6 _ _ _ _ _ _) $$ HC0 HT0 HC1 HT1 HC2 HT2
  -- row 24: its three destinations, cells and read tokens; its three copies start
  icases HRs0 with ⟨HR0, HRs0⟩
  icases HRs1 with ⟨HR1, HRs1⟩
  icases HRs2 with ⟨HR2, HRs2⟩
  icases HA0 with ⟨HC0, HA0⟩
  icases HA1 with ⟨HC1, HA1⟩
  icases HA2 with ⟨HC2, HA2⟩
  icases HAT0 with ⟨HT0, HAT0⟩
  icases HAT1 with ⟨HT1, HAT1⟩
  icases HAT2 with ⟨HT2, HAT2⟩
  sl_exec (disch := first | sl_exact hU _ _ | sl_exact hI _ _ | sl_exact hJ _ _)
  ihave HB24 := (bundle6 _ _ _ _ _ _) $$ HC0 HT0 HC1 HT1 HC2 HT2
  -- row 25: its three destinations, cells and read tokens; its three copies start
  icases HRs0 with ⟨HR0, HRs0⟩
  icases HRs1 with ⟨HR1, HRs1⟩
  icases HRs2 with ⟨HR2, HRs2⟩
  icases HA0 with ⟨HC0, HA0⟩
  icases HA1 with ⟨HC1, HA1⟩
  icases HA2 with ⟨HC2, HA2⟩
  icases HAT0 with ⟨HT0, HAT0⟩
  icases HAT1 with ⟨HT1, HAT1⟩
  icases HAT2 with ⟨HT2, HAT2⟩
  sl_exec (disch := first | sl_exact hU _ _ | sl_exact hI _ _ | sl_exact hJ _ _)
  ihave HB25 := (bundle6 _ _ _ _ _ _) $$ HC0 HT0 HC1 HT1 HC2 HT2
  -- row 26: its three destinations, cells and read tokens; its three copies start
  icases HRs0 with ⟨HR0, HRs0⟩
  icases HRs1 with ⟨HR1, HRs1⟩
  icases HRs2 with ⟨HR2, HRs2⟩
  icases HA0 with ⟨HC0, HA0⟩
  icases HA1 with ⟨HC1, HA1⟩
  icases HA2 with ⟨HC2, HA2⟩
  icases HAT0 with ⟨HT0, HAT0⟩
  icases HAT1 with ⟨HT1, HAT1⟩
  icases HAT2 with ⟨HT2, HAT2⟩
  sl_exec (disch := first | sl_exact hU _ _ | sl_exact hI _ _ | sl_exact hJ _ _)
  ihave HB26 := (bundle6 _ _ _ _ _ _) $$ HC0 HT0 HC1 HT1 HC2 HT2
  -- row 27: its three destinations, cells and read tokens; its three copies start
  icases HRs0 with ⟨HR0, HRs0⟩
  icases HRs1 with ⟨HR1, HRs1⟩
  icases HRs2 with ⟨HR2, HRs2⟩
  icases HA0 with ⟨HC0, HA0⟩
  icases HA1 with ⟨HC1, HA1⟩
  icases HA2 with ⟨HC2, HA2⟩
  icases HAT0 with ⟨HT0, HAT0⟩
  icases HAT1 with ⟨HT1, HAT1⟩
  icases HAT2 with ⟨HT2, HAT2⟩
  sl_exec (disch := first | sl_exact hU _ _ | sl_exact hI _ _ | sl_exact hJ _ _)
  ihave HB27 := (bundle6 _ _ _ _ _ _) $$ HC0 HT0 HC1 HT1 HC2 HT2
  -- row 28: its three destinations, cells and read tokens; its three copies start
  icases HRs0 with ⟨HR0, HRs0⟩
  icases HRs1 with ⟨HR1, HRs1⟩
  icases HRs2 with ⟨HR2, HRs2⟩
  icases HA0 with ⟨HC0, HA0⟩
  icases HA1 with ⟨HC1, HA1⟩
  icases HA2 with ⟨HC2, HA2⟩
  icases HAT0 with ⟨HT0, HAT0⟩
  icases HAT1 with ⟨HT1, HAT1⟩
  icases HAT2 with ⟨HT2, HAT2⟩
  sl_exec (disch := first | sl_exact hU _ _ | sl_exact hI _ _ | sl_exact hJ _ _)
  ihave HB28 := (bundle6 _ _ _ _ _ _) $$ HC0 HT0 HC1 HT1 HC2 HT2
  -- row 29: its three destinations, cells and read tokens; its three copies start
  icases HRs0 with ⟨HR0, HRs0⟩
  icases HRs1 with ⟨HR1, HRs1⟩
  icases HRs2 with ⟨HR2, HRs2⟩
  icases HA0 with ⟨HC0, HA0⟩
  icases HA1 with ⟨HC1, HA1⟩
  icases HA2 with ⟨HC2, HA2⟩
  icases HAT0 with ⟨HT0, HAT0⟩
  icases HAT1 with ⟨HT1, HAT1⟩
  icases HAT2 with ⟨HT2, HAT2⟩
  sl_exec (disch := first | sl_exact hU _ _ | sl_exact hI _ _ | sl_exact hJ _ _)
  ihave HB29 := (bundle6 _ _ _ _ _ _) $$ HC0 HT0 HC1 HT1 HC2 HT2
  -- row 30: its three destinations, cells and read tokens; its three copies start
  icases HRs0 with ⟨HR0, HRs0⟩
  icases HRs1 with ⟨HR1, HRs1⟩
  icases HRs2 with ⟨HR2, HRs2⟩
  icases HA0 with ⟨HC0, HA0⟩
  icases HA1 with ⟨HC1, HA1⟩
  icases HA2 with ⟨HC2, HA2⟩
  icases HAT0 with ⟨HT0, HAT0⟩
  icases HAT1 with ⟨HT1, HAT1⟩
  icases HAT2 with ⟨HT2, HAT2⟩
  sl_exec (disch := first | sl_exact hU _ _ | sl_exact hI _ _ | sl_exact hJ _ _)
  ihave HB30 := (bundle6 _ _ _ _ _ _) $$ HC0 HT0 HC1 HT1 HC2 HT2
  -- row 31: its three destinations, cells and read tokens; its three copies start
  icases HRs0 with ⟨HR0, HRs0⟩
  icases HRs1 with ⟨HR1, HRs1⟩
  icases HRs2 with ⟨HR2, HRs2⟩
  icases HA0 with ⟨HC0, HA0⟩
  icases HA1 with ⟨HC1, HA1⟩
  icases HA2 with ⟨HC2, HA2⟩
  icases HAT0 with ⟨HT0, HAT0⟩
  icases HAT1 with ⟨HT1, HAT1⟩
  icases HAT2 with ⟨HT2, HAT2⟩
  sl_exec (disch := first | sl_exact hU _ _ | sl_exact hI _ _ | sl_exact hJ _ _)
  ihave HB31 := (bundle6 _ _ _ _ _ _) $$ HC0 HT0 HC1 HT1 HC2 HT2
  -- row 32: its three destinations, cells and read tokens; its three copies start
  icases HRs0 with ⟨HR0, HRs0⟩
  icases HRs1 with ⟨HR1, HRs1⟩
  icases HRs2 with ⟨HR2, HRs2⟩
  icases HA0 with ⟨HC0, HA0⟩
  icases HA1 with ⟨HC1, HA1⟩
  icases HA2 with ⟨HC2, HA2⟩
  icases HAT0 with ⟨HT0, HAT0⟩
  icases HAT1 with ⟨HT1, HAT1⟩
  icases HAT2 with ⟨HT2, HAT2⟩
  sl_exec (disch := first | sl_exact hU _ _ | sl_exact hI _ _ | sl_exact hJ _ _)
  ihave HB32 := (bundle6 _ _ _ _ _ _) $$ HC0 HT0 HC1 HT1 HC2 HT2
  -- row 33: its three destinations, cells and read tokens; its three copies start
  icases HRs0 with ⟨HR0, HRs0⟩
  icases HRs1 with ⟨HR1, HRs1⟩
  icases HRs2 with ⟨HR2, HRs2⟩
  icases HA0 with ⟨HC0, HA0⟩
  icases HA1 with ⟨HC1, HA1⟩
  icases HA2 with ⟨HC2, HA2⟩
  icases HAT0 with ⟨HT0, HAT0⟩
  icases HAT1 with ⟨HT1, HAT1⟩
  icases HAT2 with ⟨HT2, HAT2⟩
  sl_exec (disch := first | sl_exact hU _ _ | sl_exact hI _ _ | sl_exact hJ _ _)
  ihave HB33 := (bundle6 _ _ _ _ _ _) $$ HC0 HT0 HC1 HT1 HC2 HT2
  -- row 34: its three destinations, cells and read tokens; its three copies start
  icases HRs0 with ⟨HR0, HRs0⟩
  icases HRs1 with ⟨HR1, HRs1⟩
  icases HRs2 with ⟨HR2, HRs2⟩
  icases HA0 with ⟨HC0, HA0⟩
  icases HA1 with ⟨HC1, HA1⟩
  icases HA2 with ⟨HC2, HA2⟩
  icases HAT0 with ⟨HT0, HAT0⟩
  icases HAT1 with ⟨HT1, HAT1⟩
  icases HAT2 with ⟨HT2, HAT2⟩
  sl_exec (disch := first | sl_exact hU _ _ | sl_exact hI _ _ | sl_exact hJ _ _)
  ihave HB34 := (bundle6 _ _ _ _ _ _) $$ HC0 HT0 HC1 HT1 HC2 HT2
  -- row 35: its three destinations, cells and read tokens; its three copies start
  icases HRs0 with ⟨HR0, HRs0⟩
  icases HRs1 with ⟨HR1, HRs1⟩
  icases HRs2 with ⟨HR2, HRs2⟩
  icases HA0 with ⟨HC0, HA0⟩
  icases HA1 with ⟨HC1, HA1⟩
  icases HA2 with ⟨HC2, HA2⟩
  icases HAT0 with ⟨HT0, HAT0⟩
  icases HAT1 with ⟨HT1, HAT1⟩
  icases HAT2 with ⟨HT2, HAT2⟩
  sl_exec (disch := first | sl_exact hU _ _ | sl_exact hI _ _ | sl_exact hJ _ _)
  ihave HB35 := (bundle6 _ _ _ _ _ _) $$ HC0 HT0 HC1 HT1 HC2 HT2
  -- row 36: its three destinations, cells and read tokens; its three copies start
  icases HRs0 with ⟨HR0, HRs0⟩
  icases HRs1 with ⟨HR1, HRs1⟩
  icases HRs2 with ⟨HR2, HRs2⟩
  icases HA0 with ⟨HC0, HA0⟩
  icases HA1 with ⟨HC1, HA1⟩
  icases HA2 with ⟨HC2, HA2⟩
  icases HAT0 with ⟨HT0, HAT0⟩
  icases HAT1 with ⟨HT1, HAT1⟩
  icases HAT2 with ⟨HT2, HAT2⟩
  sl_exec (disch := first | sl_exact hU _ _ | sl_exact hI _ _ | sl_exact hJ _ _)
  ihave HB36 := (bundle6 _ _ _ _ _ _) $$ HC0 HT0 HC1 HT1 HC2 HT2
  -- row 37: its three destinations, cells and read tokens; its three copies start
  icases HRs0 with ⟨HR0, HRs0⟩
  icases HRs1 with ⟨HR1, HRs1⟩
  icases HRs2 with ⟨HR2, HRs2⟩
  icases HA0 with ⟨HC0, HA0⟩
  icases HA1 with ⟨HC1, HA1⟩
  icases HA2 with ⟨HC2, HA2⟩
  icases HAT0 with ⟨HT0, HAT0⟩
  icases HAT1 with ⟨HT1, HAT1⟩
  icases HAT2 with ⟨HT2, HAT2⟩
  sl_exec (disch := first | sl_exact hU _ _ | sl_exact hI _ _ | sl_exact hJ _ _)
  ihave HB37 := (bundle6 _ _ _ _ _ _) $$ HC0 HT0 HC1 HT1 HC2 HT2
  -- row 38: its three destinations, cells and read tokens; its three copies start
  icases HRs0 with ⟨HR0, HRs0⟩
  icases HRs1 with ⟨HR1, HRs1⟩
  icases HRs2 with ⟨HR2, HRs2⟩
  icases HA0 with ⟨HC0, HA0⟩
  icases HA1 with ⟨HC1, HA1⟩
  icases HA2 with ⟨HC2, HA2⟩
  icases HAT0 with ⟨HT0, HAT0⟩
  icases HAT1 with ⟨HT1, HAT1⟩
  icases HAT2 with ⟨HT2, HAT2⟩
  sl_exec (disch := first | sl_exact hU _ _ | sl_exact hI _ _ | sl_exact hJ _ _)
  ihave HB38 := (bundle6 _ _ _ _ _ _) $$ HC0 HT0 HC1 HT1 HC2 HT2
  -- row 39: its three destinations, cells and read tokens; its three copies start
  icases HRs0 with ⟨HR0, HRs0⟩
  icases HRs1 with ⟨HR1, HRs1⟩
  icases HRs2 with ⟨HR2, HRs2⟩
  icases HA0 with ⟨HC0, HA0⟩
  icases HA1 with ⟨HC1, HA1⟩
  icases HA2 with ⟨HC2, HA2⟩
  icases HAT0 with ⟨HT0, HAT0⟩
  icases HAT1 with ⟨HT1, HAT1⟩
  icases HAT2 with ⟨HT2, HAT2⟩
  sl_exec (disch := first | sl_exact hU _ _ | sl_exact hI _ _ | sl_exact hJ _ _)
  ihave HB39 := (bundle6 _ _ _ _ _ _) $$ HC0 HT0 HC1 HT1 HC2 HT2
  -- row 40: its three destinations, cells and read tokens; its three copies start
  icases HRs0 with ⟨HR0, HRs0⟩
  icases HRs1 with ⟨HR1, HRs1⟩
  icases HRs2 with ⟨HR2, HRs2⟩
  icases HA0 with ⟨HC0, HA0⟩
  icases HA1 with ⟨HC1, HA1⟩
  icases HA2 with ⟨HC2, HA2⟩
  icases HAT0 with ⟨HT0, HAT0⟩
  icases HAT1 with ⟨HT1, HAT1⟩
  icases HAT2 with ⟨HT2, HAT2⟩
  sl_exec (disch := first | sl_exact hU _ _ | sl_exact hI _ _ | sl_exact hJ _ _)
  ihave HB40 := (bundle6 _ _ _ _ _ _) $$ HC0 HT0 HC1 HT1 HC2 HT2
  -- row 41: its three destinations, cells and read tokens; its three copies start
  icases HRs0 with ⟨HR0, HRs0⟩
  icases HRs1 with ⟨HR1, HRs1⟩
  icases HRs2 with ⟨HR2, HRs2⟩
  icases HA0 with ⟨HC0, HA0⟩
  icases HA1 with ⟨HC1, HA1⟩
  icases HA2 with ⟨HC2, HA2⟩
  icases HAT0 with ⟨HT0, HAT0⟩
  icases HAT1 with ⟨HT1, HAT1⟩
  icases HAT2 with ⟨HT2, HAT2⟩
  sl_exec (disch := first | sl_exact hU _ _ | sl_exact hI _ _ | sl_exact hJ _ _)
  ihave HB41 := (bundle6 _ _ _ _ _ _) $$ HC0 HT0 HC1 HT1 HC2 HT2
  -- row 42: its three destinations, cells and read tokens; its three copies start
  icases HRs0 with ⟨HR0, HRs0⟩
  icases HRs1 with ⟨HR1, HRs1⟩
  icases HRs2 with ⟨HR2, HRs2⟩
  icases HA0 with ⟨HC0, HA0⟩
  icases HA1 with ⟨HC1, HA1⟩
  icases HA2 with ⟨HC2, HA2⟩
  icases HAT0 with ⟨HT0, HAT0⟩
  icases HAT1 with ⟨HT1, HAT1⟩
  icases HAT2 with ⟨HT2, HAT2⟩
  sl_exec (disch := first | sl_exact hU _ _ | sl_exact hI _ _ | sl_exact hJ _ _)
  ihave HB42 := (bundle6 _ _ _ _ _ _) $$ HC0 HT0 HC1 HT1 HC2 HT2
  -- row 43: its three destinations, cells and read tokens; its three copies start
  icases HRs0 with ⟨HR0, HRs0⟩
  icases HRs1 with ⟨HR1, HRs1⟩
  icases HRs2 with ⟨HR2, HRs2⟩
  icases HA0 with ⟨HC0, HA0⟩
  icases HA1 with ⟨HC1, HA1⟩
  icases HA2 with ⟨HC2, HA2⟩
  icases HAT0 with ⟨HT0, HAT0⟩
  icases HAT1 with ⟨HT1, HAT1⟩
  icases HAT2 with ⟨HT2, HAT2⟩
  sl_exec (disch := first | sl_exact hU _ _ | sl_exact hI _ _ | sl_exact hJ _ _)
  ihave HB43 := (bundle6 _ _ _ _ _ _) $$ HC0 HT0 HC1 HT1 HC2 HT2
  -- row 44: its three destinations, cells and read tokens; its three copies start
  icases HRs0 with ⟨HR0, HRs0⟩
  icases HRs1 with ⟨HR1, HRs1⟩
  icases HRs2 with ⟨HR2, HRs2⟩
  icases HA0 with ⟨HC0, HA0⟩
  icases HA1 with ⟨HC1, HA1⟩
  icases HA2 with ⟨HC2, HA2⟩
  icases HAT0 with ⟨HT0, HAT0⟩
  icases HAT1 with ⟨HT1, HAT1⟩
  icases HAT2 with ⟨HT2, HAT2⟩
  sl_exec (disch := first | sl_exact hU _ _ | sl_exact hI _ _ | sl_exact hJ _ _)
  ihave HB44 := (bundle6 _ _ _ _ _ _) $$ HC0 HT0 HC1 HT1 HC2 HT2
  -- row 45: its three destinations, cells and read tokens; its three copies start
  icases HRs0 with ⟨HR0, HRs0⟩
  icases HRs1 with ⟨HR1, HRs1⟩
  icases HRs2 with ⟨HR2, HRs2⟩
  icases HA0 with ⟨HC0, HA0⟩
  icases HA1 with ⟨HC1, HA1⟩
  icases HA2 with ⟨HC2, HA2⟩
  icases HAT0 with ⟨HT0, HAT0⟩
  icases HAT1 with ⟨HT1, HAT1⟩
  icases HAT2 with ⟨HT2, HAT2⟩
  sl_exec (disch := first | sl_exact hU _ _ | sl_exact hI _ _ | sl_exact hJ _ _)
  ihave HB45 := (bundle6 _ _ _ _ _ _) $$ HC0 HT0 HC1 HT1 HC2 HT2
  -- row 46: its three destinations, cells and read tokens; its three copies start
  icases HRs0 with ⟨HR0, HRs0⟩
  icases HRs1 with ⟨HR1, HRs1⟩
  icases HRs2 with ⟨HR2, HRs2⟩
  icases HA0 with ⟨HC0, HA0⟩
  icases HA1 with ⟨HC1, HA1⟩
  icases HA2 with ⟨HC2, HA2⟩
  icases HAT0 with ⟨HT0, HAT0⟩
  icases HAT1 with ⟨HT1, HAT1⟩
  icases HAT2 with ⟨HT2, HAT2⟩
  sl_exec (disch := first | sl_exact hU _ _ | sl_exact hI _ _ | sl_exact hJ _ _)
  ihave HB46 := (bundle6 _ _ _ _ _ _) $$ HC0 HT0 HC1 HT1 HC2 HT2
  -- row 47: its three destinations, cells and read tokens; its three copies start
  icases HRs0 with ⟨HR0, HRs0⟩
  icases HRs1 with ⟨HR1, HRs1⟩
  icases HRs2 with ⟨HR2, HRs2⟩
  icases HA0 with ⟨HC0, HA0⟩
  icases HA1 with ⟨HC1, HA1⟩
  icases HA2 with ⟨HC2, HA2⟩
  icases HAT0 with ⟨HT0, HAT0⟩
  icases HAT1 with ⟨HT1, HAT1⟩
  icases HAT2 with ⟨HT2, HAT2⟩
  sl_exec (disch := first | sl_exact hU _ _ | sl_exact hI _ _ | sl_exact hJ _ _)
  ihave HB47 := (bundle6 _ _ _ _ _ _) $$ HC0 HT0 HC1 HT1 HC2 HT2
  -- row 48: its three destinations, cells and read tokens; its three copies start
  icases HRs0 with ⟨HR0, HRs0⟩
  icases HRs1 with ⟨HR1, HRs1⟩
  icases HRs2 with ⟨HR2, HRs2⟩
  icases HA0 with ⟨HC0, HA0⟩
  icases HA1 with ⟨HC1, HA1⟩
  icases HA2 with ⟨HC2, HA2⟩
  icases HAT0 with ⟨HT0, HAT0⟩
  icases HAT1 with ⟨HT1, HAT1⟩
  icases HAT2 with ⟨HT2, HAT2⟩
  sl_exec (disch := first | sl_exact hU _ _ | sl_exact hI _ _ | sl_exact hJ _ _)
  ihave HB48 := (bundle6 _ _ _ _ _ _) $$ HC0 HT0 HC1 HT1 HC2 HT2
  -- row 49: its three destinations, cells and read tokens; its three copies start
  icases HRs0 with ⟨HR0, HRs0⟩
  icases HRs1 with ⟨HR1, HRs1⟩
  icases HRs2 with ⟨HR2, HRs2⟩
  icases HA0 with ⟨HC0, HA0⟩
  icases HA1 with ⟨HC1, HA1⟩
  icases HA2 with ⟨HC2, HA2⟩
  icases HAT0 with ⟨HT0, HAT0⟩
  icases HAT1 with ⟨HT1, HAT1⟩
  icases HAT2 with ⟨HT2, HAT2⟩
  sl_exec (disch := first | sl_exact hU _ _ | sl_exact hI _ _ | sl_exact hJ _ _)
  ihave HB49 := (bundle6 _ _ _ _ _ _) $$ HC0 HT0 HC1 HT1 HC2 HT2
  -- row 50: its three destinations, cells and read tokens; its three copies start
  icases HRs0 with ⟨HR0, HRs0⟩
  icases HRs1 with ⟨HR1, HRs1⟩
  icases HRs2 with ⟨HR2, HRs2⟩
  icases HA0 with ⟨HC0, HA0⟩
  icases HA1 with ⟨HC1, HA1⟩
  icases HA2 with ⟨HC2, HA2⟩
  icases HAT0 with ⟨HT0, HAT0⟩
  icases HAT1 with ⟨HT1, HAT1⟩
  icases HAT2 with ⟨HT2, HAT2⟩
  sl_exec (disch := first | sl_exact hU _ _ | sl_exact hI _ _ | sl_exact hJ _ _)
  ihave HB50 := (bundle6 _ _ _ _ _ _) $$ HC0 HT0 HC1 HT1 HC2 HT2
  -- row 51: its three destinations, cells and read tokens; its three copies start
  icases HRs0 with ⟨HR0, HRs0⟩
  icases HRs1 with ⟨HR1, HRs1⟩
  icases HRs2 with ⟨HR2, HRs2⟩
  icases HA0 with ⟨HC0, HA0⟩
  icases HA1 with ⟨HC1, HA1⟩
  icases HA2 with ⟨HC2, HA2⟩
  icases HAT0 with ⟨HT0, HAT0⟩
  icases HAT1 with ⟨HT1, HAT1⟩
  icases HAT2 with ⟨HT2, HAT2⟩
  sl_exec (disch := first | sl_exact hU _ _ | sl_exact hI _ _ | sl_exact hJ _ _)
  ihave HB51 := (bundle6 _ _ _ _ _ _) $$ HC0 HT0 HC1 HT1 HC2 HT2
  -- row 52: its three destinations, cells and read tokens; its three copies start
  icases HRs0 with ⟨HR0, HRs0⟩
  icases HRs1 with ⟨HR1, HRs1⟩
  icases HRs2 with ⟨HR2, HRs2⟩
  icases HA0 with ⟨HC0, HA0⟩
  icases HA1 with ⟨HC1, HA1⟩
  icases HA2 with ⟨HC2, HA2⟩
  icases HAT0 with ⟨HT0, HAT0⟩
  icases HAT1 with ⟨HT1, HAT1⟩
  icases HAT2 with ⟨HT2, HAT2⟩
  sl_exec (disch := first | sl_exact hU _ _ | sl_exact hI _ _ | sl_exact hJ _ _)
  ihave HB52 := (bundle6 _ _ _ _ _ _) $$ HC0 HT0 HC1 HT1 HC2 HT2
  -- row 53: its three destinations, cells and read tokens; its three copies start
  icases HRs0 with ⟨HR0, HRs0⟩
  icases HRs1 with ⟨HR1, HRs1⟩
  icases HRs2 with ⟨HR2, HRs2⟩
  icases HA0 with ⟨HC0, HA0⟩
  icases HA1 with ⟨HC1, HA1⟩
  icases HA2 with ⟨HC2, HA2⟩
  icases HAT0 with ⟨HT0, HAT0⟩
  icases HAT1 with ⟨HT1, HAT1⟩
  icases HAT2 with ⟨HT2, HAT2⟩
  sl_exec (disch := first | sl_exact hU _ _ | sl_exact hI _ _ | sl_exact hJ _ _)
  ihave HB53 := (bundle6 _ _ _ _ _ _) $$ HC0 HT0 HC1 HT1 HC2 HT2
  -- row 54: its three destinations, cells and read tokens; its three copies start
  icases HRs0 with ⟨HR0, HRs0⟩
  icases HRs1 with ⟨HR1, HRs1⟩
  icases HRs2 with ⟨HR2, HRs2⟩
  icases HA0 with ⟨HC0, HA0⟩
  icases HA1 with ⟨HC1, HA1⟩
  icases HA2 with ⟨HC2, HA2⟩
  icases HAT0 with ⟨HT0, HAT0⟩
  icases HAT1 with ⟨HT1, HAT1⟩
  icases HAT2 with ⟨HT2, HAT2⟩
  sl_exec (disch := first | sl_exact hU _ _ | sl_exact hI _ _ | sl_exact hJ _ _)
  ihave HB54 := (bundle6 _ _ _ _ _ _) $$ HC0 HT0 HC1 HT1 HC2 HT2
  -- row 55: its three destinations, cells and read tokens; its three copies start
  icases HRs0 with ⟨HR0, HRs0⟩
  icases HRs1 with ⟨HR1, HRs1⟩
  icases HRs2 with ⟨HR2, HRs2⟩
  icases HA0 with ⟨HC0, HA0⟩
  icases HA1 with ⟨HC1, HA1⟩
  icases HA2 with ⟨HC2, HA2⟩
  icases HAT0 with ⟨HT0, HAT0⟩
  icases HAT1 with ⟨HT1, HAT1⟩
  icases HAT2 with ⟨HT2, HAT2⟩
  sl_exec (disch := first | sl_exact hU _ _ | sl_exact hI _ _ | sl_exact hJ _ _)
  ihave HB55 := (bundle6 _ _ _ _ _ _) $$ HC0 HT0 HC1 HT1 HC2 HT2
  -- row 56: its three destinations, cells and read tokens; its three copies start
  icases HRs0 with ⟨HR0, HRs0⟩
  icases HRs1 with ⟨HR1, HRs1⟩
  icases HRs2 with ⟨HR2, HRs2⟩
  icases HA0 with ⟨HC0, HA0⟩
  icases HA1 with ⟨HC1, HA1⟩
  icases HA2 with ⟨HC2, HA2⟩
  icases HAT0 with ⟨HT0, HAT0⟩
  icases HAT1 with ⟨HT1, HAT1⟩
  icases HAT2 with ⟨HT2, HAT2⟩
  sl_exec (disch := first | sl_exact hU _ _ | sl_exact hI _ _ | sl_exact hJ _ _)
  ihave HB56 := (bundle6 _ _ _ _ _ _) $$ HC0 HT0 HC1 HT1 HC2 HT2
  -- row 57: its three destinations, cells and read tokens; its three copies start
  icases HRs0 with ⟨HR0, HRs0⟩
  icases HRs1 with ⟨HR1, HRs1⟩
  icases HRs2 with ⟨HR2, HRs2⟩
  icases HA0 with ⟨HC0, HA0⟩
  icases HA1 with ⟨HC1, HA1⟩
  icases HA2 with ⟨HC2, HA2⟩
  icases HAT0 with ⟨HT0, HAT0⟩
  icases HAT1 with ⟨HT1, HAT1⟩
  icases HAT2 with ⟨HT2, HAT2⟩
  sl_exec (disch := first | sl_exact hU _ _ | sl_exact hI _ _ | sl_exact hJ _ _)
  ihave HB57 := (bundle6 _ _ _ _ _ _) $$ HC0 HT0 HC1 HT1 HC2 HT2
  -- row 58: its three destinations, cells and read tokens; its three copies start
  icases HRs0 with ⟨HR0, HRs0⟩
  icases HRs1 with ⟨HR1, HRs1⟩
  icases HRs2 with ⟨HR2, HRs2⟩
  icases HA0 with ⟨HC0, HA0⟩
  icases HA1 with ⟨HC1, HA1⟩
  icases HA2 with ⟨HC2, HA2⟩
  icases HAT0 with ⟨HT0, HAT0⟩
  icases HAT1 with ⟨HT1, HAT1⟩
  icases HAT2 with ⟨HT2, HAT2⟩
  sl_exec (disch := first | sl_exact hU _ _ | sl_exact hI _ _ | sl_exact hJ _ _)
  ihave HB58 := (bundle6 _ _ _ _ _ _) $$ HC0 HT0 HC1 HT1 HC2 HT2
  -- row 59: its three destinations, cells and read tokens; its three copies start
  icases HRs0 with ⟨HR0, HRs0⟩
  icases HRs1 with ⟨HR1, HRs1⟩
  icases HRs2 with ⟨HR2, HRs2⟩
  icases HA0 with ⟨HC0, HA0⟩
  icases HA1 with ⟨HC1, HA1⟩
  icases HA2 with ⟨HC2, HA2⟩
  icases HAT0 with ⟨HT0, HAT0⟩
  icases HAT1 with ⟨HT1, HAT1⟩
  icases HAT2 with ⟨HT2, HAT2⟩
  sl_exec (disch := first | sl_exact hU _ _ | sl_exact hI _ _ | sl_exact hJ _ _)
  ihave HB59 := (bundle6 _ _ _ _ _ _) $$ HC0 HT0 HC1 HT1 HC2 HT2
  -- row 60: its three destinations, cells and read tokens; its three copies start
  icases HRs0 with ⟨HR0, HRs0⟩
  icases HRs1 with ⟨HR1, HRs1⟩
  icases HRs2 with ⟨HR2, HRs2⟩
  icases HA0 with ⟨HC0, HA0⟩
  icases HA1 with ⟨HC1, HA1⟩
  icases HA2 with ⟨HC2, HA2⟩
  icases HAT0 with ⟨HT0, HAT0⟩
  icases HAT1 with ⟨HT1, HAT1⟩
  icases HAT2 with ⟨HT2, HAT2⟩
  sl_exec (disch := first | sl_exact hU _ _ | sl_exact hI _ _ | sl_exact hJ _ _)
  ihave HB60 := (bundle6 _ _ _ _ _ _) $$ HC0 HT0 HC1 HT1 HC2 HT2
  -- row 61: its three destinations, cells and read tokens; its three copies start
  icases HRs0 with ⟨HR0, HRs0⟩
  icases HRs1 with ⟨HR1, HRs1⟩
  icases HRs2 with ⟨HR2, HRs2⟩
  icases HA0 with ⟨HC0, HA0⟩
  icases HA1 with ⟨HC1, HA1⟩
  icases HA2 with ⟨HC2, HA2⟩
  icases HAT0 with ⟨HT0, HAT0⟩
  icases HAT1 with ⟨HT1, HAT1⟩
  icases HAT2 with ⟨HT2, HAT2⟩
  sl_exec (disch := first | sl_exact hU _ _ | sl_exact hI _ _ | sl_exact hJ _ _)
  ihave HB61 := (bundle6 _ _ _ _ _ _) $$ HC0 HT0 HC1 HT1 HC2 HT2
  -- row 62: its three destinations, cells and read tokens; its three copies start
  icases HRs0 with ⟨HR0, HRs0⟩
  icases HRs1 with ⟨HR1, HRs1⟩
  icases HRs2 with ⟨HR2, HRs2⟩
  icases HA0 with ⟨HC0, HA0⟩
  icases HA1 with ⟨HC1, HA1⟩
  icases HA2 with ⟨HC2, HA2⟩
  icases HAT0 with ⟨HT0, HAT0⟩
  icases HAT1 with ⟨HT1, HAT1⟩
  icases HAT2 with ⟨HT2, HAT2⟩
  sl_exec (disch := first | sl_exact hU _ _ | sl_exact hI _ _ | sl_exact hJ _ _)
  ihave HB62 := (bundle6 _ _ _ _ _ _) $$ HC0 HT0 HC1 HT1 HC2 HT2
  -- row 63: its three destinations, cells and read tokens; its three copies start
  icases HRs0 with ⟨HR0, HRs0⟩
  icases HRs1 with ⟨HR1, HRs1⟩
  icases HRs2 with ⟨HR2, HRs2⟩
  icases HA0 with ⟨HC0, HA0⟩
  icases HA1 with ⟨HC1, HA1⟩
  icases HA2 with ⟨HC2, HA2⟩
  icases HAT0 with ⟨HT0, HAT0⟩
  icases HAT1 with ⟨HT1, HAT1⟩
  icases HAT2 with ⟨HT2, HAT2⟩
  sl_exec (disch := first | sl_exact hU _ _ | sl_exact hI _ _ | sl_exact hJ _ _)
  ihave HB63 := (bundle6 _ _ _ _ _ _) $$ HC0 HT0 HC1 HT1 HC2 HT2
  -- row 64: its three destinations, cells and read tokens; its three copies start
  icases HRs0 with ⟨HR0, HRs0⟩
  icases HRs1 with ⟨HR1, HRs1⟩
  icases HRs2 with ⟨HR2, HRs2⟩
  icases HA0 with ⟨HC0, HA0⟩
  icases HA1 with ⟨HC1, HA1⟩
  icases HA2 with ⟨HC2, HA2⟩
  icases HAT0 with ⟨HT0, HAT0⟩
  icases HAT1 with ⟨HT1, HAT1⟩
  icases HAT2 with ⟨HT2, HAT2⟩
  sl_exec (disch := first | sl_exact hU _ _ | sl_exact hI _ _ | sl_exact hJ _ _)
  ihave HB64 := (bundle6 _ _ _ _ _ _) $$ HC0 HT0 HC1 HT1 HC2 HT2
  -- row 65: its three destinations, cells and read tokens; its three copies start
  icases HRs0 with ⟨HR0, HRs0⟩
  icases HRs1 with ⟨HR1, HRs1⟩
  icases HRs2 with ⟨HR2, HRs2⟩
  icases HA0 with ⟨HC0, HA0⟩
  icases HA1 with ⟨HC1, HA1⟩
  icases HA2 with ⟨HC2, HA2⟩
  icases HAT0 with ⟨HT0, HAT0⟩
  icases HAT1 with ⟨HT1, HAT1⟩
  icases HAT2 with ⟨HT2, HAT2⟩
  sl_exec (disch := first | sl_exact hU _ _ | sl_exact hI _ _ | sl_exact hJ _ _)
  ihave HB65 := (bundle6 _ _ _ _ _ _) $$ HC0 HT0 HC1 HT1 HC2 HT2
  -- row 66: its three destinations, cells and read tokens; its three copies start
  icases HRs0 with ⟨HR0, HRs0⟩
  icases HRs1 with ⟨HR1, HRs1⟩
  icases HRs2 with ⟨HR2, HRs2⟩
  icases HA0 with ⟨HC0, HA0⟩
  icases HA1 with ⟨HC1, HA1⟩
  icases HA2 with ⟨HC2, HA2⟩
  icases HAT0 with ⟨HT0, HAT0⟩
  icases HAT1 with ⟨HT1, HAT1⟩
  icases HAT2 with ⟨HT2, HAT2⟩
  sl_exec (disch := first | sl_exact hU _ _ | sl_exact hI _ _ | sl_exact hJ _ _)
  ihave HB66 := (bundle6 _ _ _ _ _ _) $$ HC0 HT0 HC1 HT1 HC2 HT2
  -- row 67: its three destinations, cells and read tokens; its three copies start
  icases HRs0 with ⟨HR0, HRs0⟩
  icases HRs1 with ⟨HR1, HRs1⟩
  icases HRs2 with ⟨HR2, HRs2⟩
  icases HA0 with ⟨HC0, HA0⟩
  icases HA1 with ⟨HC1, HA1⟩
  icases HA2 with ⟨HC2, HA2⟩
  icases HAT0 with ⟨HT0, HAT0⟩
  icases HAT1 with ⟨HT1, HAT1⟩
  icases HAT2 with ⟨HT2, HAT2⟩
  sl_exec (disch := first | sl_exact hU _ _ | sl_exact hI _ _ | sl_exact hJ _ _)
  ihave HB67 := (bundle6 _ _ _ _ _ _) $$ HC0 HT0 HC1 HT1 HC2 HT2
  -- row 68: its three destinations, cells and read tokens; its three copies start
  icases HRs0 with ⟨HR0, HRs0⟩
  icases HRs1 with ⟨HR1, HRs1⟩
  icases HRs2 with ⟨HR2, HRs2⟩
  icases HA0 with ⟨HC0, HA0⟩
  icases HA1 with ⟨HC1, HA1⟩
  icases HA2 with ⟨HC2, HA2⟩
  icases HAT0 with ⟨HT0, HAT0⟩
  icases HAT1 with ⟨HT1, HAT1⟩
  icases HAT2 with ⟨HT2, HAT2⟩
  sl_exec (disch := first | sl_exact hU _ _ | sl_exact hI _ _ | sl_exact hJ _ _)
  ihave HB68 := (bundle6 _ _ _ _ _ _) $$ HC0 HT0 HC1 HT1 HC2 HT2
  -- row 69: its three destinations, cells and read tokens; its three copies start
  icases HRs0 with ⟨HR0, HRs0⟩
  icases HRs1 with ⟨HR1, HRs1⟩
  icases HRs2 with ⟨HR2, HRs2⟩
  icases HA0 with ⟨HC0, HA0⟩
  icases HA1 with ⟨HC1, HA1⟩
  icases HA2 with ⟨HC2, HA2⟩
  icases HAT0 with ⟨HT0, HAT0⟩
  icases HAT1 with ⟨HT1, HAT1⟩
  icases HAT2 with ⟨HT2, HAT2⟩
  sl_exec (disch := first | sl_exact hU _ _ | sl_exact hI _ _ | sl_exact hJ _ _)
  ihave HB69 := (bundle6 _ _ _ _ _ _) $$ HC0 HT0 HC1 HT1 HC2 HT2
  -- row 70: its three destinations, cells and read tokens; its three copies start
  icases HRs0 with ⟨HR0, HRs0⟩
  icases HRs1 with ⟨HR1, HRs1⟩
  icases HRs2 with ⟨HR2, HRs2⟩
  icases HA0 with ⟨HC0, HA0⟩
  icases HA1 with ⟨HC1, HA1⟩
  icases HA2 with ⟨HC2, HA2⟩
  icases HAT0 with ⟨HT0, HAT0⟩
  icases HAT1 with ⟨HT1, HAT1⟩
  icases HAT2 with ⟨HT2, HAT2⟩
  sl_exec (disch := first | sl_exact hU _ _ | sl_exact hI _ _ | sl_exact hJ _ _)
  ihave HB70 := (bundle6 _ _ _ _ _ _) $$ HC0 HT0 HC1 HT1 HC2 HT2
  -- row 71: its three destinations, cells and read tokens; its three copies start
  icases HRs0 with ⟨HR0, HRs0⟩
  icases HRs1 with ⟨HR1, HRs1⟩
  icases HRs2 with ⟨HR2, HRs2⟩
  icases HA0 with ⟨HC0, HA0⟩
  icases HA1 with ⟨HC1, HA1⟩
  icases HA2 with ⟨HC2, HA2⟩
  icases HAT0 with ⟨HT0, HAT0⟩
  icases HAT1 with ⟨HT1, HAT1⟩
  icases HAT2 with ⟨HT2, HAT2⟩
  sl_exec (disch := first | sl_exact hU _ _ | sl_exact hI _ _ | sl_exact hJ _ _)
  ihave HB71 := (bundle6 _ _ _ _ _ _) $$ HC0 HT0 HC1 HT1 HC2 HT2
  -- row 72: its three destinations, cells and read tokens; its three copies start
  icases HRs0 with ⟨HR0, HRs0⟩
  icases HRs1 with ⟨HR1, HRs1⟩
  icases HRs2 with ⟨HR2, HRs2⟩
  icases HA0 with ⟨HC0, HA0⟩
  icases HA1 with ⟨HC1, HA1⟩
  icases HA2 with ⟨HC2, HA2⟩
  icases HAT0 with ⟨HT0, HAT0⟩
  icases HAT1 with ⟨HT1, HAT1⟩
  icases HAT2 with ⟨HT2, HAT2⟩
  sl_exec (disch := first | sl_exact hU _ _ | sl_exact hI _ _ | sl_exact hJ _ _)
  ihave HB72 := (bundle6 _ _ _ _ _ _) $$ HC0 HT0 HC1 HT1 HC2 HT2
  -- row 73: its three destinations, cells and read tokens; its three copies start
  icases HRs0 with ⟨HR0, HRs0⟩
  icases HRs1 with ⟨HR1, HRs1⟩
  icases HRs2 with ⟨HR2, HRs2⟩
  icases HA0 with ⟨HC0, HA0⟩
  icases HA1 with ⟨HC1, HA1⟩
  icases HA2 with ⟨HC2, HA2⟩
  icases HAT0 with ⟨HT0, HAT0⟩
  icases HAT1 with ⟨HT1, HAT1⟩
  icases HAT2 with ⟨HT2, HAT2⟩
  sl_exec (disch := first | sl_exact hU _ _ | sl_exact hI _ _ | sl_exact hJ _ _)
  ihave HB73 := (bundle6 _ _ _ _ _ _) $$ HC0 HT0 HC1 HT1 HC2 HT2
  -- row 74: its three destinations, cells and read tokens; its three copies start
  icases HRs0 with ⟨HR0, HRs0⟩
  icases HRs1 with ⟨HR1, HRs1⟩
  icases HRs2 with ⟨HR2, HRs2⟩
  icases HA0 with ⟨HC0, HA0⟩
  icases HA1 with ⟨HC1, HA1⟩
  icases HA2 with ⟨HC2, HA2⟩
  icases HAT0 with ⟨HT0, HAT0⟩
  icases HAT1 with ⟨HT1, HAT1⟩
  icases HAT2 with ⟨HT2, HAT2⟩
  sl_exec (disch := first | sl_exact hU _ _ | sl_exact hI _ _ | sl_exact hJ _ _)
  ihave HB74 := (bundle6 _ _ _ _ _ _) $$ HC0 HT0 HC1 HT1 HC2 HT2
  -- row 75: its three destinations, cells and read tokens; its three copies start
  icases HRs0 with ⟨HR0, HRs0⟩
  icases HRs1 with ⟨HR1, HRs1⟩
  icases HRs2 with ⟨HR2, HRs2⟩
  icases HA0 with ⟨HC0, HA0⟩
  icases HA1 with ⟨HC1, HA1⟩
  icases HA2 with ⟨HC2, HA2⟩
  icases HAT0 with ⟨HT0, HAT0⟩
  icases HAT1 with ⟨HT1, HAT1⟩
  icases HAT2 with ⟨HT2, HAT2⟩
  sl_exec (disch := first | sl_exact hU _ _ | sl_exact hI _ _ | sl_exact hJ _ _)
  ihave HB75 := (bundle6 _ _ _ _ _ _) $$ HC0 HT0 HC1 HT1 HC2 HT2
  -- row 76: its three destinations, cells and read tokens; its three copies start
  icases HRs0 with ⟨HR0, HRs0⟩
  icases HRs1 with ⟨HR1, HRs1⟩
  icases HRs2 with ⟨HR2, HRs2⟩
  icases HA0 with ⟨HC0, HA0⟩
  icases HA1 with ⟨HC1, HA1⟩
  icases HA2 with ⟨HC2, HA2⟩
  icases HAT0 with ⟨HT0, HAT0⟩
  icases HAT1 with ⟨HT1, HAT1⟩
  icases HAT2 with ⟨HT2, HAT2⟩
  sl_exec (disch := first | sl_exact hU _ _ | sl_exact hI _ _ | sl_exact hJ _ _)
  ihave HB76 := (bundle6 _ _ _ _ _ _) $$ HC0 HT0 HC1 HT1 HC2 HT2
  -- row 77: its three destinations, cells and read tokens; its three copies start
  icases HRs0 with ⟨HR0, HRs0⟩
  icases HRs1 with ⟨HR1, HRs1⟩
  icases HRs2 with ⟨HR2, HRs2⟩
  icases HA0 with ⟨HC0, HA0⟩
  icases HA1 with ⟨HC1, HA1⟩
  icases HA2 with ⟨HC2, HA2⟩
  icases HAT0 with ⟨HT0, HAT0⟩
  icases HAT1 with ⟨HT1, HAT1⟩
  icases HAT2 with ⟨HT2, HAT2⟩
  sl_exec (disch := first | sl_exact hU _ _ | sl_exact hI _ _ | sl_exact hJ _ _)
  ihave HB77 := (bundle6 _ _ _ _ _ _) $$ HC0 HT0 HC1 HT1 HC2 HT2
  -- row 78: its three destinations, cells and read tokens; its three copies start
  icases HRs0 with ⟨HR0, HRs0⟩
  icases HRs1 with ⟨HR1, HRs1⟩
  icases HRs2 with ⟨HR2, HRs2⟩
  icases HA0 with ⟨HC0, HA0⟩
  icases HA1 with ⟨HC1, HA1⟩
  icases HA2 with ⟨HC2, HA2⟩
  icases HAT0 with ⟨HT0, HAT0⟩
  icases HAT1 with ⟨HT1, HAT1⟩
  icases HAT2 with ⟨HT2, HAT2⟩
  sl_exec (disch := first | sl_exact hU _ _ | sl_exact hI _ _ | sl_exact hJ _ _)
  ihave HB78 := (bundle6 _ _ _ _ _ _) $$ HC0 HT0 HC1 HT1 HC2 HT2
  -- row 79: its three destinations, cells and read tokens; its three copies start
  icases HRs0 with ⟨HR0, HRs0⟩
  icases HRs1 with ⟨HR1, HRs1⟩
  icases HRs2 with ⟨HR2, HRs2⟩
  icases HA0 with ⟨HC0, HA0⟩
  icases HA1 with ⟨HC1, HA1⟩
  icases HA2 with ⟨HC2, HA2⟩
  icases HAT0 with ⟨HT0, HAT0⟩
  icases HAT1 with ⟨HT1, HAT1⟩
  icases HAT2 with ⟨HT2, HAT2⟩
  sl_exec (disch := first | sl_exact hU _ _ | sl_exact hI _ _ | sl_exact hJ _ _)
  ihave HB79 := (bundle6 _ _ _ _ _ _) $$ HC0 HT0 HC1 HT1 HC2 HT2
  -- row 80: its three destinations, cells and read tokens; its three copies start
  icases HRs0 with ⟨HR0, HRs0⟩
  icases HRs1 with ⟨HR1, HRs1⟩
  icases HRs2 with ⟨HR2, HRs2⟩
  icases HA0 with ⟨HC0, HA0⟩
  icases HA1 with ⟨HC1, HA1⟩
  icases HA2 with ⟨HC2, HA2⟩
  icases HAT0 with ⟨HT0, HAT0⟩
  icases HAT1 with ⟨HT1, HAT1⟩
  icases HAT2 with ⟨HT2, HAT2⟩
  sl_exec (disch := first | sl_exact hU _ _ | sl_exact hI _ _ | sl_exact hJ _ _)
  ihave HB80 := (bundle6 _ _ _ _ _ _) $$ HC0 HT0 HC1 HT1 HC2 HT2
  -- row 81: its three destinations, cells and read tokens; its three copies start
  icases HRs0 with ⟨HR0, HRs0⟩
  icases HRs1 with ⟨HR1, HRs1⟩
  icases HRs2 with ⟨HR2, HRs2⟩
  icases HA0 with ⟨HC0, HA0⟩
  icases HA1 with ⟨HC1, HA1⟩
  icases HA2 with ⟨HC2, HA2⟩
  icases HAT0 with ⟨HT0, HAT0⟩
  icases HAT1 with ⟨HT1, HAT1⟩
  icases HAT2 with ⟨HT2, HAT2⟩
  sl_exec (disch := first | sl_exact hU _ _ | sl_exact hI _ _ | sl_exact hJ _ _)
  ihave HB81 := (bundle6 _ _ _ _ _ _) $$ HC0 HT0 HC1 HT1 HC2 HT2
  -- row 82: its three destinations, cells and read tokens; its three copies start
  icases HRs0 with ⟨HR0, HRs0⟩
  icases HRs1 with ⟨HR1, HRs1⟩
  icases HRs2 with ⟨HR2, HRs2⟩
  icases HA0 with ⟨HC0, HA0⟩
  icases HA1 with ⟨HC1, HA1⟩
  icases HA2 with ⟨HC2, HA2⟩
  icases HAT0 with ⟨HT0, HAT0⟩
  icases HAT1 with ⟨HT1, HAT1⟩
  icases HAT2 with ⟨HT2, HAT2⟩
  sl_exec (disch := first | sl_exact hU _ _ | sl_exact hI _ _ | sl_exact hJ _ _)
  ihave HB82 := (bundle6 _ _ _ _ _ _) $$ HC0 HT0 HC1 HT1 HC2 HT2
  -- row 83: its three destinations, cells and read tokens; its three copies start
  icases HRs0 with ⟨HR0, HRs0⟩
  icases HRs1 with ⟨HR1, HRs1⟩
  icases HRs2 with ⟨HR2, HRs2⟩
  icases HA0 with ⟨HC0, HA0⟩
  icases HA1 with ⟨HC1, HA1⟩
  icases HA2 with ⟨HC2, HA2⟩
  icases HAT0 with ⟨HT0, HAT0⟩
  icases HAT1 with ⟨HT1, HAT1⟩
  icases HAT2 with ⟨HT2, HAT2⟩
  sl_exec (disch := first | sl_exact hU _ _ | sl_exact hI _ _ | sl_exact hJ _ _)
  ihave HB83 := (bundle6 _ _ _ _ _ _) $$ HC0 HT0 HC1 HT1 HC2 HT2
  -- row 84: its three destinations, cells and read tokens; its three copies start
  icases HRs0 with ⟨HR0, HRs0⟩
  icases HRs1 with ⟨HR1, HRs1⟩
  icases HRs2 with ⟨HR2, HRs2⟩
  icases HA0 with ⟨HC0, HA0⟩
  icases HA1 with ⟨HC1, HA1⟩
  icases HA2 with ⟨HC2, HA2⟩
  icases HAT0 with ⟨HT0, HAT0⟩
  icases HAT1 with ⟨HT1, HAT1⟩
  icases HAT2 with ⟨HT2, HAT2⟩
  sl_exec (disch := first | sl_exact hU _ _ | sl_exact hI _ _ | sl_exact hJ _ _)
  ihave HB84 := (bundle6 _ _ _ _ _ _) $$ HC0 HT0 HC1 HT1 HC2 HT2
  -- row 85: its three destinations, cells and read tokens; its three copies start
  icases HRs0 with ⟨HR0, HRs0⟩
  icases HRs1 with ⟨HR1, HRs1⟩
  icases HRs2 with ⟨HR2, HRs2⟩
  icases HA0 with ⟨HC0, HA0⟩
  icases HA1 with ⟨HC1, HA1⟩
  icases HA2 with ⟨HC2, HA2⟩
  icases HAT0 with ⟨HT0, HAT0⟩
  icases HAT1 with ⟨HT1, HAT1⟩
  icases HAT2 with ⟨HT2, HAT2⟩
  sl_exec (disch := first | sl_exact hU _ _ | sl_exact hI _ _ | sl_exact hJ _ _)
  ihave HB85 := (bundle6 _ _ _ _ _ _) $$ HC0 HT0 HC1 HT1 HC2 HT2
  -- row 86: its three destinations, cells and read tokens; its three copies start
  icases HRs0 with ⟨HR0, HRs0⟩
  icases HRs1 with ⟨HR1, HRs1⟩
  icases HRs2 with ⟨HR2, HRs2⟩
  icases HA0 with ⟨HC0, HA0⟩
  icases HA1 with ⟨HC1, HA1⟩
  icases HA2 with ⟨HC2, HA2⟩
  icases HAT0 with ⟨HT0, HAT0⟩
  icases HAT1 with ⟨HT1, HAT1⟩
  icases HAT2 with ⟨HT2, HAT2⟩
  sl_exec (disch := first | sl_exact hU _ _ | sl_exact hI _ _ | sl_exact hJ _ _)
  ihave HB86 := (bundle6 _ _ _ _ _ _) $$ HC0 HT0 HC1 HT1 HC2 HT2
  -- row 87: its three destinations, cells and read tokens; its three copies start
  icases HRs0 with ⟨HR0, HRs0⟩
  icases HRs1 with ⟨HR1, HRs1⟩
  icases HRs2 with ⟨HR2, HRs2⟩
  icases HA0 with ⟨HC0, HA0⟩
  icases HA1 with ⟨HC1, HA1⟩
  icases HA2 with ⟨HC2, HA2⟩
  icases HAT0 with ⟨HT0, HAT0⟩
  icases HAT1 with ⟨HT1, HAT1⟩
  icases HAT2 with ⟨HT2, HAT2⟩
  sl_exec (disch := first | sl_exact hU _ _ | sl_exact hI _ _ | sl_exact hJ _ _)
  ihave HB87 := (bundle6 _ _ _ _ _ _) $$ HC0 HT0 HC1 HT1 HC2 HT2
  -- row 88: its three destinations, cells and read tokens; its three copies start
  icases HRs0 with ⟨HR0, HRs0⟩
  icases HRs1 with ⟨HR1, HRs1⟩
  icases HRs2 with ⟨HR2, HRs2⟩
  icases HA0 with ⟨HC0, HA0⟩
  icases HA1 with ⟨HC1, HA1⟩
  icases HA2 with ⟨HC2, HA2⟩
  icases HAT0 with ⟨HT0, HAT0⟩
  icases HAT1 with ⟨HT1, HAT1⟩
  icases HAT2 with ⟨HT2, HAT2⟩
  sl_exec (disch := first | sl_exact hU _ _ | sl_exact hI _ _ | sl_exact hJ _ _)
  ihave HB88 := (bundle6 _ _ _ _ _ _) $$ HC0 HT0 HC1 HT1 HC2 HT2
  -- row 89: its three destinations, cells and read tokens; its three copies start
  icases HRs0 with ⟨HR0, HRs0⟩
  icases HRs1 with ⟨HR1, HRs1⟩
  icases HRs2 with ⟨HR2, HRs2⟩
  icases HA0 with ⟨HC0, HA0⟩
  icases HA1 with ⟨HC1, HA1⟩
  icases HA2 with ⟨HC2, HA2⟩
  icases HAT0 with ⟨HT0, HAT0⟩
  icases HAT1 with ⟨HT1, HAT1⟩
  icases HAT2 with ⟨HT2, HAT2⟩
  sl_exec (disch := first | sl_exact hU _ _ | sl_exact hI _ _ | sl_exact hJ _ _)
  ihave HB89 := (bundle6 _ _ _ _ _ _) $$ HC0 HT0 HC1 HT1 HC2 HT2
  -- row 90: its three destinations, cells and read tokens; its three copies start
  icases HRs0 with ⟨HR0, HRs0⟩
  icases HRs1 with ⟨HR1, HRs1⟩
  icases HRs2 with ⟨HR2, HRs2⟩
  icases HA0 with ⟨HC0, HA0⟩
  icases HA1 with ⟨HC1, HA1⟩
  icases HA2 with ⟨HC2, HA2⟩
  icases HAT0 with ⟨HT0, HAT0⟩
  icases HAT1 with ⟨HT1, HAT1⟩
  icases HAT2 with ⟨HT2, HAT2⟩
  sl_exec (disch := first | sl_exact hU _ _ | sl_exact hI _ _ | sl_exact hJ _ _)
  ihave HB90 := (bundle6 _ _ _ _ _ _) $$ HC0 HT0 HC1 HT1 HC2 HT2
  -- row 91: its three destinations, cells and read tokens; its three copies start
  icases HRs0 with ⟨HR0, HRs0⟩
  icases HRs1 with ⟨HR1, HRs1⟩
  icases HRs2 with ⟨HR2, HRs2⟩
  icases HA0 with ⟨HC0, HA0⟩
  icases HA1 with ⟨HC1, HA1⟩
  icases HA2 with ⟨HC2, HA2⟩
  icases HAT0 with ⟨HT0, HAT0⟩
  icases HAT1 with ⟨HT1, HAT1⟩
  icases HAT2 with ⟨HT2, HAT2⟩
  sl_exec (disch := first | sl_exact hU _ _ | sl_exact hI _ _ | sl_exact hJ _ _)
  ihave HB91 := (bundle6 _ _ _ _ _ _) $$ HC0 HT0 HC1 HT1 HC2 HT2
  -- row 92: its three destinations, cells and read tokens; its three copies start
  icases HRs0 with ⟨HR0, HRs0⟩
  icases HRs1 with ⟨HR1, HRs1⟩
  icases HRs2 with ⟨HR2, HRs2⟩
  icases HA0 with ⟨HC0, HA0⟩
  icases HA1 with ⟨HC1, HA1⟩
  icases HA2 with ⟨HC2, HA2⟩
  icases HAT0 with ⟨HT0, HAT0⟩
  icases HAT1 with ⟨HT1, HAT1⟩
  icases HAT2 with ⟨HT2, HAT2⟩
  sl_exec (disch := first | sl_exact hU _ _ | sl_exact hI _ _ | sl_exact hJ _ _)
  ihave HB92 := (bundle6 _ _ _ _ _ _) $$ HC0 HT0 HC1 HT1 HC2 HT2
  -- row 93: its three destinations, cells and read tokens; its three copies start
  icases HRs0 with ⟨HR0, HRs0⟩
  icases HRs1 with ⟨HR1, HRs1⟩
  icases HRs2 with ⟨HR2, HRs2⟩
  icases HA0 with ⟨HC0, HA0⟩
  icases HA1 with ⟨HC1, HA1⟩
  icases HA2 with ⟨HC2, HA2⟩
  icases HAT0 with ⟨HT0, HAT0⟩
  icases HAT1 with ⟨HT1, HAT1⟩
  icases HAT2 with ⟨HT2, HAT2⟩
  sl_exec (disch := first | sl_exact hU _ _ | sl_exact hI _ _ | sl_exact hJ _ _)
  ihave HB93 := (bundle6 _ _ _ _ _ _) $$ HC0 HT0 HC1 HT1 HC2 HT2
  -- row 94: its three destinations, cells and read tokens; its three copies start
  icases HRs0 with ⟨HR0, HRs0⟩
  icases HRs1 with ⟨HR1, HRs1⟩
  icases HRs2 with ⟨HR2, HRs2⟩
  icases HA0 with ⟨HC0, HA0⟩
  icases HA1 with ⟨HC1, HA1⟩
  icases HA2 with ⟨HC2, HA2⟩
  icases HAT0 with ⟨HT0, HAT0⟩
  icases HAT1 with ⟨HT1, HAT1⟩
  icases HAT2 with ⟨HT2, HAT2⟩
  sl_exec (disch := first | sl_exact hU _ _ | sl_exact hI _ _ | sl_exact hJ _ _)
  ihave HB94 := (bundle6 _ _ _ _ _ _) $$ HC0 HT0 HC1 HT1 HC2 HT2
  -- row 95: its three destinations, cells and read tokens; its three copies start
  icases HRs0 with ⟨HR0, HRs0⟩
  icases HRs1 with ⟨HR1, HRs1⟩
  icases HRs2 with ⟨HR2, HRs2⟩
  icases HA0 with ⟨HC0, HA0⟩
  icases HA1 with ⟨HC1, HA1⟩
  icases HA2 with ⟨HC2, HA2⟩
  icases HAT0 with ⟨HT0, HAT0⟩
  icases HAT1 with ⟨HT1, HAT1⟩
  icases HAT2 with ⟨HT2, HAT2⟩
  sl_exec (disch := first | sl_exact hU _ _ | sl_exact hI _ _ | sl_exact hJ _ _)
  ihave HB95 := (bundle6 _ _ _ _ _ _) $$ HC0 HT0 HC1 HT1 HC2 HT2
  -- row 96: its three destinations, cells and read tokens; its three copies start
  icases HRs0 with ⟨HR0, HRs0⟩
  icases HRs1 with ⟨HR1, HRs1⟩
  icases HRs2 with ⟨HR2, HRs2⟩
  icases HA0 with ⟨HC0, HA0⟩
  icases HA1 with ⟨HC1, HA1⟩
  icases HA2 with ⟨HC2, HA2⟩
  icases HAT0 with ⟨HT0, HAT0⟩
  icases HAT1 with ⟨HT1, HAT1⟩
  icases HAT2 with ⟨HT2, HAT2⟩
  sl_exec (disch := first | sl_exact hU _ _ | sl_exact hI _ _ | sl_exact hJ _ _)
  ihave HB96 := (bundle6 _ _ _ _ _ _) $$ HC0 HT0 HC1 HT1 HC2 HT2
  -- row 97: its three destinations, cells and read tokens; its three copies start
  icases HRs0 with ⟨HR0, HRs0⟩
  icases HRs1 with ⟨HR1, HRs1⟩
  icases HRs2 with ⟨HR2, HRs2⟩
  icases HA0 with ⟨HC0, HA0⟩
  icases HA1 with ⟨HC1, HA1⟩
  icases HA2 with ⟨HC2, HA2⟩
  icases HAT0 with ⟨HT0, HAT0⟩
  icases HAT1 with ⟨HT1, HAT1⟩
  icases HAT2 with ⟨HT2, HAT2⟩
  sl_exec (disch := first | sl_exact hU _ _ | sl_exact hI _ _ | sl_exact hJ _ _)
  ihave HB97 := (bundle6 _ _ _ _ _ _) $$ HC0 HT0 HC1 HT1 HC2 HT2
  -- row 98: its three destinations, cells and read tokens; its three copies start
  icases HRs0 with ⟨HR0, HRs0⟩
  icases HRs1 with ⟨HR1, HRs1⟩
  icases HRs2 with ⟨HR2, HRs2⟩
  icases HA0 with ⟨HC0, HA0⟩
  icases HA1 with ⟨HC1, HA1⟩
  icases HA2 with ⟨HC2, HA2⟩
  icases HAT0 with ⟨HT0, HAT0⟩
  icases HAT1 with ⟨HT1, HAT1⟩
  icases HAT2 with ⟨HT2, HAT2⟩
  sl_exec (disch := first | sl_exact hU _ _ | sl_exact hI _ _ | sl_exact hJ _ _)
  ihave HB98 := (bundle6 _ _ _ _ _ _) $$ HC0 HT0 HC1 HT1 HC2 HT2
  -- row 99: its three destinations, cells and read tokens; its three copies start
  icases HRs0 with ⟨HR0, HRs0⟩
  icases HRs1 with ⟨HR1, HRs1⟩
  icases HRs2 with ⟨HR2, HRs2⟩
  icases HA0 with ⟨HC0, HA0⟩
  icases HA1 with ⟨HC1, HA1⟩
  icases HA2 with ⟨HC2, HA2⟩
  icases HAT0 with ⟨HT0, HAT0⟩
  icases HAT1 with ⟨HT1, HAT1⟩
  icases HAT2 with ⟨HT2, HAT2⟩
  sl_exec (disch := first | sl_exact hU _ _ | sl_exact hI _ _ | sl_exact hJ _ _)
  ihave HB99 := (bundle6 _ _ _ _ _ _) $$ HC0 HT0 HC1 HT1 HC2 HT2
  -- row 100: its three destinations, cells and read tokens; its three copies start
  icases HRs0 with ⟨HR0, HRs0⟩
  icases HRs1 with ⟨HR1, HRs1⟩
  icases HRs2 with ⟨HR2, HRs2⟩
  icases HA0 with ⟨HC0, HA0⟩
  icases HA1 with ⟨HC1, HA1⟩
  icases HA2 with ⟨HC2, HA2⟩
  icases HAT0 with ⟨HT0, HAT0⟩
  icases HAT1 with ⟨HT1, HAT1⟩
  icases HAT2 with ⟨HT2, HAT2⟩
  sl_exec (disch := first | sl_exact hU _ _ | sl_exact hI _ _ | sl_exact hJ _ _)
  ihave HB100 := (bundle6 _ _ _ _ _ _) $$ HC0 HT0 HC1 HT1 HC2 HT2
  -- row 101: its three destinations, cells and read tokens; its three copies start
  icases HRs0 with ⟨HR0, HRs0⟩
  icases HRs1 with ⟨HR1, HRs1⟩
  icases HRs2 with ⟨HR2, HRs2⟩
  icases HA0 with ⟨HC0, HA0⟩
  icases HA1 with ⟨HC1, HA1⟩
  icases HA2 with ⟨HC2, HA2⟩
  icases HAT0 with ⟨HT0, HAT0⟩
  icases HAT1 with ⟨HT1, HAT1⟩
  icases HAT2 with ⟨HT2, HAT2⟩
  sl_exec (disch := first | sl_exact hU _ _ | sl_exact hI _ _ | sl_exact hJ _ _)
  ihave HB101 := (bundle6 _ _ _ _ _ _) $$ HC0 HT0 HC1 HT1 HC2 HT2
  -- row 102: its three destinations, cells and read tokens; its three copies start
  icases HRs0 with ⟨HR0, HRs0⟩
  icases HRs1 with ⟨HR1, HRs1⟩
  icases HRs2 with ⟨HR2, HRs2⟩
  icases HA0 with ⟨HC0, HA0⟩
  icases HA1 with ⟨HC1, HA1⟩
  icases HA2 with ⟨HC2, HA2⟩
  icases HAT0 with ⟨HT0, HAT0⟩
  icases HAT1 with ⟨HT1, HAT1⟩
  icases HAT2 with ⟨HT2, HAT2⟩
  sl_exec (disch := first | sl_exact hU _ _ | sl_exact hI _ _ | sl_exact hJ _ _)
  ihave HB102 := (bundle6 _ _ _ _ _ _) $$ HC0 HT0 HC1 HT1 HC2 HT2
  -- row 103: its three destinations, cells and read tokens; its three copies start
  icases HRs0 with ⟨HR0, HRs0⟩
  icases HRs1 with ⟨HR1, HRs1⟩
  icases HRs2 with ⟨HR2, HRs2⟩
  icases HA0 with ⟨HC0, HA0⟩
  icases HA1 with ⟨HC1, HA1⟩
  icases HA2 with ⟨HC2, HA2⟩
  icases HAT0 with ⟨HT0, HAT0⟩
  icases HAT1 with ⟨HT1, HAT1⟩
  icases HAT2 with ⟨HT2, HAT2⟩
  sl_exec (disch := first | sl_exact hU _ _ | sl_exact hI _ _ | sl_exact hJ _ _)
  ihave HB103 := (bundle6 _ _ _ _ _ _) $$ HC0 HT0 HC1 HT1 HC2 HT2
  -- row 104: its three destinations, cells and read tokens; its three copies start
  icases HRs0 with ⟨HR0, HRs0⟩
  icases HRs1 with ⟨HR1, HRs1⟩
  icases HRs2 with ⟨HR2, HRs2⟩
  icases HA0 with ⟨HC0, HA0⟩
  icases HA1 with ⟨HC1, HA1⟩
  icases HA2 with ⟨HC2, HA2⟩
  icases HAT0 with ⟨HT0, HAT0⟩
  icases HAT1 with ⟨HT1, HAT1⟩
  icases HAT2 with ⟨HT2, HAT2⟩
  sl_exec (disch := first | sl_exact hU _ _ | sl_exact hI _ _ | sl_exact hJ _ _)
  ihave HB104 := (bundle6 _ _ _ _ _ _) $$ HC0 HT0 HC1 HT1 HC2 HT2
  -- row 105: its three destinations, cells and read tokens; its three copies start
  icases HRs0 with ⟨HR0, HRs0⟩
  icases HRs1 with ⟨HR1, HRs1⟩
  icases HRs2 with ⟨HR2, HRs2⟩
  icases HA0 with ⟨HC0, HA0⟩
  icases HA1 with ⟨HC1, HA1⟩
  icases HA2 with ⟨HC2, HA2⟩
  icases HAT0 with ⟨HT0, HAT0⟩
  icases HAT1 with ⟨HT1, HAT1⟩
  icases HAT2 with ⟨HT2, HAT2⟩
  sl_exec (disch := first | sl_exact hU _ _ | sl_exact hI _ _ | sl_exact hJ _ _)
  ihave HB105 := (bundle6 _ _ _ _ _ _) $$ HC0 HT0 HC1 HT1 HC2 HT2
  -- row 106: its three destinations, cells and read tokens; its three copies start
  icases HRs0 with ⟨HR0, HRs0⟩
  icases HRs1 with ⟨HR1, HRs1⟩
  icases HRs2 with ⟨HR2, HRs2⟩
  icases HA0 with ⟨HC0, HA0⟩
  icases HA1 with ⟨HC1, HA1⟩
  icases HA2 with ⟨HC2, HA2⟩
  icases HAT0 with ⟨HT0, HAT0⟩
  icases HAT1 with ⟨HT1, HAT1⟩
  icases HAT2 with ⟨HT2, HAT2⟩
  sl_exec (disch := first | sl_exact hU _ _ | sl_exact hI _ _ | sl_exact hJ _ _)
  ihave HB106 := (bundle6 _ _ _ _ _ _) $$ HC0 HT0 HC1 HT1 HC2 HT2
  -- row 107: its three destinations, cells and read tokens; its three copies start
  icases HRs0 with ⟨HR0, HRs0⟩
  icases HRs1 with ⟨HR1, HRs1⟩
  icases HRs2 with ⟨HR2, HRs2⟩
  icases HA0 with ⟨HC0, HA0⟩
  icases HA1 with ⟨HC1, HA1⟩
  icases HA2 with ⟨HC2, HA2⟩
  icases HAT0 with ⟨HT0, HAT0⟩
  icases HAT1 with ⟨HT1, HAT1⟩
  icases HAT2 with ⟨HT2, HAT2⟩
  sl_exec (disch := first | sl_exact hU _ _ | sl_exact hI _ _ | sl_exact hJ _ _)
  ihave HB107 := (bundle6 _ _ _ _ _ _) $$ HC0 HT0 HC1 HT1 HC2 HT2
  -- row 108: its three destinations, cells and read tokens; its three copies start
  icases HRs0 with ⟨HR0, HRs0⟩
  icases HRs1 with ⟨HR1, HRs1⟩
  icases HRs2 with ⟨HR2, HRs2⟩
  icases HA0 with ⟨HC0, HA0⟩
  icases HA1 with ⟨HC1, HA1⟩
  icases HA2 with ⟨HC2, HA2⟩
  icases HAT0 with ⟨HT0, HAT0⟩
  icases HAT1 with ⟨HT1, HAT1⟩
  icases HAT2 with ⟨HT2, HAT2⟩
  sl_exec (disch := first | sl_exact hU _ _ | sl_exact hI _ _ | sl_exact hJ _ _)
  ihave HB108 := (bundle6 _ _ _ _ _ _) $$ HC0 HT0 HC1 HT1 HC2 HT2
  -- row 109: its three destinations, cells and read tokens; its three copies start
  icases HRs0 with ⟨HR0, HRs0⟩
  icases HRs1 with ⟨HR1, HRs1⟩
  icases HRs2 with ⟨HR2, HRs2⟩
  icases HA0 with ⟨HC0, HA0⟩
  icases HA1 with ⟨HC1, HA1⟩
  icases HA2 with ⟨HC2, HA2⟩
  icases HAT0 with ⟨HT0, HAT0⟩
  icases HAT1 with ⟨HT1, HAT1⟩
  icases HAT2 with ⟨HT2, HAT2⟩
  sl_exec (disch := first | sl_exact hU _ _ | sl_exact hI _ _ | sl_exact hJ _ _)
  ihave HB109 := (bundle6 _ _ _ _ _ _) $$ HC0 HT0 HC1 HT1 HC2 HT2
  -- row 110: its three destinations, cells and read tokens; its three copies start
  icases HRs0 with ⟨HR0, HRs0⟩
  icases HRs1 with ⟨HR1, HRs1⟩
  icases HRs2 with ⟨HR2, HRs2⟩
  icases HA0 with ⟨HC0, HA0⟩
  icases HA1 with ⟨HC1, HA1⟩
  icases HA2 with ⟨HC2, HA2⟩
  icases HAT0 with ⟨HT0, HAT0⟩
  icases HAT1 with ⟨HT1, HAT1⟩
  icases HAT2 with ⟨HT2, HAT2⟩
  sl_exec (disch := first | sl_exact hU _ _ | sl_exact hI _ _ | sl_exact hJ _ _)
  ihave HB110 := (bundle6 _ _ _ _ _ _) $$ HC0 HT0 HC1 HT1 HC2 HT2
  -- row 111: its three destinations, cells and read tokens; its three copies start
  icases HRs0 with ⟨HR0, HRs0⟩
  icases HRs1 with ⟨HR1, HRs1⟩
  icases HRs2 with ⟨HR2, HRs2⟩
  icases HA0 with ⟨HC0, HA0⟩
  icases HA1 with ⟨HC1, HA1⟩
  icases HA2 with ⟨HC2, HA2⟩
  icases HAT0 with ⟨HT0, HAT0⟩
  icases HAT1 with ⟨HT1, HAT1⟩
  icases HAT2 with ⟨HT2, HAT2⟩
  sl_exec (disch := first | sl_exact hU _ _ | sl_exact hI _ _ | sl_exact hJ _ _)
  ihave HB111 := (bundle6 _ _ _ _ _ _) $$ HC0 HT0 HC1 HT1 HC2 HT2
  -- row 112: its three destinations, cells and read tokens; its three copies start
  icases HRs0 with ⟨HR0, HRs0⟩
  icases HRs1 with ⟨HR1, HRs1⟩
  icases HRs2 with ⟨HR2, HRs2⟩
  icases HA0 with ⟨HC0, HA0⟩
  icases HA1 with ⟨HC1, HA1⟩
  icases HA2 with ⟨HC2, HA2⟩
  icases HAT0 with ⟨HT0, HAT0⟩
  icases HAT1 with ⟨HT1, HAT1⟩
  icases HAT2 with ⟨HT2, HAT2⟩
  sl_exec (disch := first | sl_exact hU _ _ | sl_exact hI _ _ | sl_exact hJ _ _)
  ihave HB112 := (bundle6 _ _ _ _ _ _) $$ HC0 HT0 HC1 HT1 HC2 HT2
  -- row 113: its three destinations, cells and read tokens; its three copies start
  icases HRs0 with ⟨HR0, HRs0⟩
  icases HRs1 with ⟨HR1, HRs1⟩
  icases HRs2 with ⟨HR2, HRs2⟩
  icases HA0 with ⟨HC0, HA0⟩
  icases HA1 with ⟨HC1, HA1⟩
  icases HA2 with ⟨HC2, HA2⟩
  icases HAT0 with ⟨HT0, HAT0⟩
  icases HAT1 with ⟨HT1, HAT1⟩
  icases HAT2 with ⟨HT2, HAT2⟩
  sl_exec (disch := first | sl_exact hU _ _ | sl_exact hI _ _ | sl_exact hJ _ _)
  ihave HB113 := (bundle6 _ _ _ _ _ _) $$ HC0 HT0 HC1 HT1 HC2 HT2
  -- row 114: its three destinations, cells and read tokens; its three copies start
  icases HRs0 with ⟨HR0, HRs0⟩
  icases HRs1 with ⟨HR1, HRs1⟩
  icases HRs2 with ⟨HR2, HRs2⟩
  icases HA0 with ⟨HC0, HA0⟩
  icases HA1 with ⟨HC1, HA1⟩
  icases HA2 with ⟨HC2, HA2⟩
  icases HAT0 with ⟨HT0, HAT0⟩
  icases HAT1 with ⟨HT1, HAT1⟩
  icases HAT2 with ⟨HT2, HAT2⟩
  sl_exec (disch := first | sl_exact hU _ _ | sl_exact hI _ _ | sl_exact hJ _ _)
  ihave HB114 := (bundle6 _ _ _ _ _ _) $$ HC0 HT0 HC1 HT1 HC2 HT2
  -- row 115: its three destinations, cells and read tokens; its three copies start
  icases HRs0 with ⟨HR0, HRs0⟩
  icases HRs1 with ⟨HR1, HRs1⟩
  icases HRs2 with ⟨HR2, HRs2⟩
  icases HA0 with ⟨HC0, HA0⟩
  icases HA1 with ⟨HC1, HA1⟩
  icases HA2 with ⟨HC2, HA2⟩
  icases HAT0 with ⟨HT0, HAT0⟩
  icases HAT1 with ⟨HT1, HAT1⟩
  icases HAT2 with ⟨HT2, HAT2⟩
  sl_exec (disch := first | sl_exact hU _ _ | sl_exact hI _ _ | sl_exact hJ _ _)
  ihave HB115 := (bundle6 _ _ _ _ _ _) $$ HC0 HT0 HC1 HT1 HC2 HT2
  -- row 116: its three destinations, cells and read tokens; its three copies start
  icases HRs0 with ⟨HR0, HRs0⟩
  icases HRs1 with ⟨HR1, HRs1⟩
  icases HRs2 with ⟨HR2, HRs2⟩
  icases HA0 with ⟨HC0, HA0⟩
  icases HA1 with ⟨HC1, HA1⟩
  icases HA2 with ⟨HC2, HA2⟩
  icases HAT0 with ⟨HT0, HAT0⟩
  icases HAT1 with ⟨HT1, HAT1⟩
  icases HAT2 with ⟨HT2, HAT2⟩
  sl_exec (disch := first | sl_exact hU _ _ | sl_exact hI _ _ | sl_exact hJ _ _)
  ihave HB116 := (bundle6 _ _ _ _ _ _) $$ HC0 HT0 HC1 HT1 HC2 HT2
  -- row 117: its three destinations, cells and read tokens; its three copies start
  icases HRs0 with ⟨HR0, HRs0⟩
  icases HRs1 with ⟨HR1, HRs1⟩
  icases HRs2 with ⟨HR2, HRs2⟩
  icases HA0 with ⟨HC0, HA0⟩
  icases HA1 with ⟨HC1, HA1⟩
  icases HA2 with ⟨HC2, HA2⟩
  icases HAT0 with ⟨HT0, HAT0⟩
  icases HAT1 with ⟨HT1, HAT1⟩
  icases HAT2 with ⟨HT2, HAT2⟩
  sl_exec (disch := first | sl_exact hU _ _ | sl_exact hI _ _ | sl_exact hJ _ _)
  ihave HB117 := (bundle6 _ _ _ _ _ _) $$ HC0 HT0 HC1 HT1 HC2 HT2
  -- row 118: its three destinations, cells and read tokens; its three copies start
  icases HRs0 with ⟨HR0, HRs0⟩
  icases HRs1 with ⟨HR1, HRs1⟩
  icases HRs2 with ⟨HR2, HRs2⟩
  icases HA0 with ⟨HC0, HA0⟩
  icases HA1 with ⟨HC1, HA1⟩
  icases HA2 with ⟨HC2, HA2⟩
  icases HAT0 with ⟨HT0, HAT0⟩
  icases HAT1 with ⟨HT1, HAT1⟩
  icases HAT2 with ⟨HT2, HAT2⟩
  sl_exec (disch := first | sl_exact hU _ _ | sl_exact hI _ _ | sl_exact hJ _ _)
  ihave HB118 := (bundle6 _ _ _ _ _ _) $$ HC0 HT0 HC1 HT1 HC2 HT2
  -- row 119: its three destinations, cells and read tokens; its three copies start
  icases HRs0 with ⟨HR0, HRs0⟩
  icases HRs1 with ⟨HR1, HRs1⟩
  icases HRs2 with ⟨HR2, HRs2⟩
  icases HA0 with ⟨HC0, HA0⟩
  icases HA1 with ⟨HC1, HA1⟩
  icases HA2 with ⟨HC2, HA2⟩
  icases HAT0 with ⟨HT0, HAT0⟩
  icases HAT1 with ⟨HT1, HAT1⟩
  icases HAT2 with ⟨HT2, HAT2⟩
  sl_exec (disch := first | sl_exact hU _ _ | sl_exact hI _ _ | sl_exact hJ _ _)
  ihave HB119 := (bundle6 _ _ _ _ _ _) $$ HC0 HT0 HC1 HT1 HC2 HT2
  -- row 120: its three destinations, cells and read tokens; its three copies start
  icases HRs0 with ⟨HR0, HRs0⟩
  icases HRs1 with ⟨HR1, HRs1⟩
  icases HRs2 with ⟨HR2, HRs2⟩
  icases HA0 with ⟨HC0, HA0⟩
  icases HA1 with ⟨HC1, HA1⟩
  icases HA2 with ⟨HC2, HA2⟩
  icases HAT0 with ⟨HT0, HAT0⟩
  icases HAT1 with ⟨HT1, HAT1⟩
  icases HAT2 with ⟨HT2, HAT2⟩
  sl_exec (disch := first | sl_exact hU _ _ | sl_exact hI _ _ | sl_exact hJ _ _)
  ihave HB120 := (bundle6 _ _ _ _ _ _) $$ HC0 HT0 HC1 HT1 HC2 HT2
  -- row 121: its three destinations, cells and read tokens; its three copies start
  icases HRs0 with ⟨HR0, HRs0⟩
  icases HRs1 with ⟨HR1, HRs1⟩
  icases HRs2 with ⟨HR2, HRs2⟩
  icases HA0 with ⟨HC0, HA0⟩
  icases HA1 with ⟨HC1, HA1⟩
  icases HA2 with ⟨HC2, HA2⟩
  icases HAT0 with ⟨HT0, HAT0⟩
  icases HAT1 with ⟨HT1, HAT1⟩
  icases HAT2 with ⟨HT2, HAT2⟩
  sl_exec (disch := first | sl_exact hU _ _ | sl_exact hI _ _ | sl_exact hJ _ _)
  ihave HB121 := (bundle6 _ _ _ _ _ _) $$ HC0 HT0 HC1 HT1 HC2 HT2
  -- row 122: its three destinations, cells and read tokens; its three copies start
  icases HRs0 with ⟨HR0, HRs0⟩
  icases HRs1 with ⟨HR1, HRs1⟩
  icases HRs2 with ⟨HR2, HRs2⟩
  icases HA0 with ⟨HC0, HA0⟩
  icases HA1 with ⟨HC1, HA1⟩
  icases HA2 with ⟨HC2, HA2⟩
  icases HAT0 with ⟨HT0, HAT0⟩
  icases HAT1 with ⟨HT1, HAT1⟩
  icases HAT2 with ⟨HT2, HAT2⟩
  sl_exec (disch := first | sl_exact hU _ _ | sl_exact hI _ _ | sl_exact hJ _ _)
  ihave HB122 := (bundle6 _ _ _ _ _ _) $$ HC0 HT0 HC1 HT1 HC2 HT2
  -- row 123: its three destinations, cells and read tokens; its three copies start
  icases HRs0 with ⟨HR0, HRs0⟩
  icases HRs1 with ⟨HR1, HRs1⟩
  icases HRs2 with ⟨HR2, HRs2⟩
  icases HA0 with ⟨HC0, HA0⟩
  icases HA1 with ⟨HC1, HA1⟩
  icases HA2 with ⟨HC2, HA2⟩
  icases HAT0 with ⟨HT0, HAT0⟩
  icases HAT1 with ⟨HT1, HAT1⟩
  icases HAT2 with ⟨HT2, HAT2⟩
  sl_exec (disch := first | sl_exact hU _ _ | sl_exact hI _ _ | sl_exact hJ _ _)
  ihave HB123 := (bundle6 _ _ _ _ _ _) $$ HC0 HT0 HC1 HT1 HC2 HT2
  -- row 124: its three destinations, cells and read tokens; its three copies start
  icases HRs0 with ⟨HR0, HRs0⟩
  icases HRs1 with ⟨HR1, HRs1⟩
  icases HRs2 with ⟨HR2, HRs2⟩
  icases HA0 with ⟨HC0, HA0⟩
  icases HA1 with ⟨HC1, HA1⟩
  icases HA2 with ⟨HC2, HA2⟩
  icases HAT0 with ⟨HT0, HAT0⟩
  icases HAT1 with ⟨HT1, HAT1⟩
  icases HAT2 with ⟨HT2, HAT2⟩
  sl_exec (disch := first | sl_exact hU _ _ | sl_exact hI _ _ | sl_exact hJ _ _)
  ihave HB124 := (bundle6 _ _ _ _ _ _) $$ HC0 HT0 HC1 HT1 HC2 HT2
  -- row 125: its three destinations, cells and read tokens; its three copies start
  icases HRs0 with ⟨HR0, HRs0⟩
  icases HRs1 with ⟨HR1, HRs1⟩
  icases HRs2 with ⟨HR2, HRs2⟩
  icases HA0 with ⟨HC0, HA0⟩
  icases HA1 with ⟨HC1, HA1⟩
  icases HA2 with ⟨HC2, HA2⟩
  icases HAT0 with ⟨HT0, HAT0⟩
  icases HAT1 with ⟨HT1, HAT1⟩
  icases HAT2 with ⟨HT2, HAT2⟩
  sl_exec (disch := first | sl_exact hU _ _ | sl_exact hI _ _ | sl_exact hJ _ _)
  ihave HB125 := (bundle6 _ _ _ _ _ _) $$ HC0 HT0 HC1 HT1 HC2 HT2
  -- row 126: its three destinations, cells and read tokens; its three copies start
  icases HRs0 with ⟨HR0, HRs0⟩
  icases HRs1 with ⟨HR1, HRs1⟩
  icases HRs2 with ⟨HR2, HRs2⟩
  icases HA0 with ⟨HC0, HA0⟩
  icases HA1 with ⟨HC1, HA1⟩
  icases HA2 with ⟨HC2, HA2⟩
  icases HAT0 with ⟨HT0, HAT0⟩
  icases HAT1 with ⟨HT1, HAT1⟩
  icases HAT2 with ⟨HT2, HAT2⟩
  sl_exec (disch := first | sl_exact hU _ _ | sl_exact hI _ _ | sl_exact hJ _ _)
  ihave HB126 := (bundle6 _ _ _ _ _ _) $$ HC0 HT0 HC1 HT1 HC2 HT2
  -- row 127: its three destinations, cells and read tokens; its three copies start
  icases HRs0 with ⟨HR0, HRs0⟩
  icases HRs1 with ⟨HR1, HRs1⟩
  icases HRs2 with ⟨HR2, HRs2⟩
  icases HA0 with ⟨HC0, HA0⟩
  icases HA1 with ⟨HC1, HA1⟩
  icases HA2 with ⟨HC2, HA2⟩
  icases HAT0 with ⟨HT0, HAT0⟩
  icases HAT1 with ⟨HT1, HAT1⟩
  icases HAT2 with ⟨HT2, HAT2⟩
  sl_exec (disch := first | sl_exact hU _ _ | sl_exact hI _ _ | sl_exact hJ _ _)
  ihave HB127 := (bundle6 _ _ _ _ _ _) $$ HC0 HT0 HC1 HT1 HC2 HT2
  -- row 0: its three copies land; the row's resources go to the heads of the chains of what is done
  icases HB0 with ⟨HC0, HT0, HC1, HT1, HC2, HT2⟩
  sl_exec (disch := first | sl_exact hU _ _ | sl_exact hI _ _ | sl_exact hJ _ _)
  ihave HR0 := (row_deliverP scM0 c 0 (by decide) inb_S128x64_S1x64_0_0 _ fs0 _ (gU c i xt0 fh0)) $$ HR0 %(fun q => deliver_gath (by decide) c hbM0 tbM0 fh0 xt0 i ⟨0, by decide⟩ (k0_off1 i) (by show (Scalar.indexCast (Scalar.addi (Scalar.muli (BitVec.ofNat 32 (i 0).val) 128#32) (BitVec.ofNat 32 0))).toNat = _; exact off_val _ 0 hi (by decide)) (by show 128 * (i 0).val + 0 < 16384; omega) _ _ _ q)
  ihave HR1 := (row_deliverP scM1 c 0 (by decide) inb_S128x64_S1x64_0_0 _ fs1 _ (gVi c i xt1 fh1)) $$ HR1 %(fun q => deliver_gath (by decide) c hbM1 tbM1 fh1 xt1 i ⟨0, by decide⟩ (k0_off1 i) (by show (Scalar.indexCast (Scalar.addi (Scalar.muli (BitVec.ofNat 32 (i 0).val) 128#32) (BitVec.ofNat 32 0))).toNat = _; exact off_val _ 0 hi (by decide)) (by show 128 * (i 0).val + 0 < 16384; omega) _ _ _ q)
  ihave HR2 := (row_deliverP scM2 c 0 (by decide) inb_S128x64_S1x64_0_0 _ fs2 _ (gVj c i xt2 fh1)) $$ HR2 %(fun q => deliver_gath (by decide) c hbM1 tbM2 fh1 xt2 i ⟨0, by decide⟩ (k0_off1 i) (by show (Scalar.indexCast (Scalar.addi (Scalar.muli (BitVec.ofNat 32 (i 0).val) 128#32) (BitVec.ofNat 32 0))).toNat = _; exact off_val _ 0 hi (by decide)) (by show 128 * (i 0).val + 0 < 16384; omega) _ _ _ q)
  ihave HD0 := (consH _ _) $$ HR0 HRs0
  ihave HD1 := (consH _ _) $$ HR1 HRs1
  ihave HD2 := (consH _ _) $$ HR2 HRs2
  ihave HDC0 := (consH _ _) $$ HC0 HA0
  ihave HDC1 := (consH _ _) $$ HC1 HA1
  ihave HDC2 := (consH _ _) $$ HC2 HA2
  ihave HDT0 := (consH _ _) $$ HT0 HAT0
  ihave HDT1 := (consH _ _) $$ HT1 HAT1
  ihave HDT2 := (consH _ _) $$ HT2 HAT2
  -- row 1: its three copies land; the row's resources go to the heads of the chains of what is done
  icases HB1 with ⟨HC0, HT0, HC1, HT1, HC2, HT2⟩
  sl_exec (disch := first | sl_exact hU _ _ | sl_exact hI _ _ | sl_exact hJ _ _)
  ihave HR0 := (row_deliverP scM0 c 1 (by decide) inb_S128x64_S1x64_1_0 _ fs0 _ (gU c i xt0 fh0)) $$ HR0 %(fun q => deliver_gath (by decide) c hbM0 tbM0 fh0 xt0 i ⟨1, by decide⟩ (k0_off5 i) (by show (Scalar.indexCast (Scalar.addi (Scalar.muli (BitVec.ofNat 32 (i 0).val) 128#32) (BitVec.ofNat 32 1))).toNat = _; exact off_val _ 1 hi (by decide)) (by show 128 * (i 0).val + 1 < 16384; omega) _ _ _ q)
  ihave HR1 := (row_deliverP scM1 c 1 (by decide) inb_S128x64_S1x64_1_0 _ fs1 _ (gVi c i xt1 fh1)) $$ HR1 %(fun q => deliver_gath (by decide) c hbM1 tbM1 fh1 xt1 i ⟨1, by decide⟩ (k0_off5 i) (by show (Scalar.indexCast (Scalar.addi (Scalar.muli (BitVec.ofNat 32 (i 0).val) 128#32) (BitVec.ofNat 32 1))).toNat = _; exact off_val _ 1 hi (by decide)) (by show 128 * (i 0).val + 1 < 16384; omega) _ _ _ q)
  ihave HR2 := (row_deliverP scM2 c 1 (by decide) inb_S128x64_S1x64_1_0 _ fs2 _ (gVj c i xt2 fh1)) $$ HR2 %(fun q => deliver_gath (by decide) c hbM1 tbM2 fh1 xt2 i ⟨1, by decide⟩ (k0_off5 i) (by show (Scalar.indexCast (Scalar.addi (Scalar.muli (BitVec.ofNat 32 (i 0).val) 128#32) (BitVec.ofNat 32 1))).toNat = _; exact off_val _ 1 hi (by decide)) (by show 128 * (i 0).val + 1 < 16384; omega) _ _ _ q)
  ihave HD0 := (consH _ _) $$ HR0 HD0
  ihave HD1 := (consH _ _) $$ HR1 HD1
  ihave HD2 := (consH _ _) $$ HR2 HD2
  ihave HDC0 := (consH _ _) $$ HC0 HDC0
  ihave HDC1 := (consH _ _) $$ HC1 HDC1
  ihave HDC2 := (consH _ _) $$ HC2 HDC2
  ihave HDT0 := (consH _ _) $$ HT0 HDT0
  ihave HDT1 := (consH _ _) $$ HT1 HDT1
  ihave HDT2 := (consH _ _) $$ HT2 HDT2
  -- row 2: its three copies land; the row's resources go to the heads of the chains of what is done
  icases HB2 with ⟨HC0, HT0, HC1, HT1, HC2, HT2⟩
  sl_exec (disch := first | sl_exact hU _ _ | sl_exact hI _ _ | sl_exact hJ _ _)
  ihave HR0 := (row_deliverP scM0 c 2 (by decide) inb_S128x64_S1x64_2_0 _ fs0 _ (gU c i xt0 fh0)) $$ HR0 %(fun q => deliver_gath (by decide) c hbM0 tbM0 fh0 xt0 i ⟨2, by decide⟩ (k0_off9 i) (by show (Scalar.indexCast (Scalar.addi (Scalar.muli (BitVec.ofNat 32 (i 0).val) 128#32) (BitVec.ofNat 32 2))).toNat = _; exact off_val _ 2 hi (by decide)) (by show 128 * (i 0).val + 2 < 16384; omega) _ _ _ q)
  ihave HR1 := (row_deliverP scM1 c 2 (by decide) inb_S128x64_S1x64_2_0 _ fs1 _ (gVi c i xt1 fh1)) $$ HR1 %(fun q => deliver_gath (by decide) c hbM1 tbM1 fh1 xt1 i ⟨2, by decide⟩ (k0_off9 i) (by show (Scalar.indexCast (Scalar.addi (Scalar.muli (BitVec.ofNat 32 (i 0).val) 128#32) (BitVec.ofNat 32 2))).toNat = _; exact off_val _ 2 hi (by decide)) (by show 128 * (i 0).val + 2 < 16384; omega) _ _ _ q)
  ihave HR2 := (row_deliverP scM2 c 2 (by decide) inb_S128x64_S1x64_2_0 _ fs2 _ (gVj c i xt2 fh1)) $$ HR2 %(fun q => deliver_gath (by decide) c hbM1 tbM2 fh1 xt2 i ⟨2, by decide⟩ (k0_off9 i) (by show (Scalar.indexCast (Scalar.addi (Scalar.muli (BitVec.ofNat 32 (i 0).val) 128#32) (BitVec.ofNat 32 2))).toNat = _; exact off_val _ 2 hi (by decide)) (by show 128 * (i 0).val + 2 < 16384; omega) _ _ _ q)
  ihave HD0 := (consH _ _) $$ HR0 HD0
  ihave HD1 := (consH _ _) $$ HR1 HD1
  ihave HD2 := (consH _ _) $$ HR2 HD2
  ihave HDC0 := (consH _ _) $$ HC0 HDC0
  ihave HDC1 := (consH _ _) $$ HC1 HDC1
  ihave HDC2 := (consH _ _) $$ HC2 HDC2
  ihave HDT0 := (consH _ _) $$ HT0 HDT0
  ihave HDT1 := (consH _ _) $$ HT1 HDT1
  ihave HDT2 := (consH _ _) $$ HT2 HDT2
  -- row 3: its three copies land; the row's resources go to the heads of the chains of what is done
  icases HB3 with ⟨HC0, HT0, HC1, HT1, HC2, HT2⟩
  sl_exec (disch := first | sl_exact hU _ _ | sl_exact hI _ _ | sl_exact hJ _ _)
  ihave HR0 := (row_deliverP scM0 c 3 (by decide) inb_S128x64_S1x64_3_0 _ fs0 _ (gU c i xt0 fh0)) $$ HR0 %(fun q => deliver_gath (by decide) c hbM0 tbM0 fh0 xt0 i ⟨3, by decide⟩ (k0_off13 i) (by show (Scalar.indexCast (Scalar.addi (Scalar.muli (BitVec.ofNat 32 (i 0).val) 128#32) (BitVec.ofNat 32 3))).toNat = _; exact off_val _ 3 hi (by decide)) (by show 128 * (i 0).val + 3 < 16384; omega) _ _ _ q)
  ihave HR1 := (row_deliverP scM1 c 3 (by decide) inb_S128x64_S1x64_3_0 _ fs1 _ (gVi c i xt1 fh1)) $$ HR1 %(fun q => deliver_gath (by decide) c hbM1 tbM1 fh1 xt1 i ⟨3, by decide⟩ (k0_off13 i) (by show (Scalar.indexCast (Scalar.addi (Scalar.muli (BitVec.ofNat 32 (i 0).val) 128#32) (BitVec.ofNat 32 3))).toNat = _; exact off_val _ 3 hi (by decide)) (by show 128 * (i 0).val + 3 < 16384; omega) _ _ _ q)
  ihave HR2 := (row_deliverP scM2 c 3 (by decide) inb_S128x64_S1x64_3_0 _ fs2 _ (gVj c i xt2 fh1)) $$ HR2 %(fun q => deliver_gath (by decide) c hbM1 tbM2 fh1 xt2 i ⟨3, by decide⟩ (k0_off13 i) (by show (Scalar.indexCast (Scalar.addi (Scalar.muli (BitVec.ofNat 32 (i 0).val) 128#32) (BitVec.ofNat 32 3))).toNat = _; exact off_val _ 3 hi (by decide)) (by show 128 * (i 0).val + 3 < 16384; omega) _ _ _ q)
  ihave HD0 := (consH _ _) $$ HR0 HD0
  ihave HD1 := (consH _ _) $$ HR1 HD1
  ihave HD2 := (consH _ _) $$ HR2 HD2
  ihave HDC0 := (consH _ _) $$ HC0 HDC0
  ihave HDC1 := (consH _ _) $$ HC1 HDC1
  ihave HDC2 := (consH _ _) $$ HC2 HDC2
  ihave HDT0 := (consH _ _) $$ HT0 HDT0
  ihave HDT1 := (consH _ _) $$ HT1 HDT1
  ihave HDT2 := (consH _ _) $$ HT2 HDT2
  -- row 4: its three copies land; the row's resources go to the heads of the chains of what is done
  icases HB4 with ⟨HC0, HT0, HC1, HT1, HC2, HT2⟩
  sl_exec (disch := first | sl_exact hU _ _ | sl_exact hI _ _ | sl_exact hJ _ _)
  ihave HR0 := (row_deliverP scM0 c 4 (by decide) inb_S128x64_S1x64_4_0 _ fs0 _ (gU c i xt0 fh0)) $$ HR0 %(fun q => deliver_gath (by decide) c hbM0 tbM0 fh0 xt0 i ⟨4, by decide⟩ (k0_off17 i) (by show (Scalar.indexCast (Scalar.addi (Scalar.muli (BitVec.ofNat 32 (i 0).val) 128#32) (BitVec.ofNat 32 4))).toNat = _; exact off_val _ 4 hi (by decide)) (by show 128 * (i 0).val + 4 < 16384; omega) _ _ _ q)
  ihave HR1 := (row_deliverP scM1 c 4 (by decide) inb_S128x64_S1x64_4_0 _ fs1 _ (gVi c i xt1 fh1)) $$ HR1 %(fun q => deliver_gath (by decide) c hbM1 tbM1 fh1 xt1 i ⟨4, by decide⟩ (k0_off17 i) (by show (Scalar.indexCast (Scalar.addi (Scalar.muli (BitVec.ofNat 32 (i 0).val) 128#32) (BitVec.ofNat 32 4))).toNat = _; exact off_val _ 4 hi (by decide)) (by show 128 * (i 0).val + 4 < 16384; omega) _ _ _ q)
  ihave HR2 := (row_deliverP scM2 c 4 (by decide) inb_S128x64_S1x64_4_0 _ fs2 _ (gVj c i xt2 fh1)) $$ HR2 %(fun q => deliver_gath (by decide) c hbM1 tbM2 fh1 xt2 i ⟨4, by decide⟩ (k0_off17 i) (by show (Scalar.indexCast (Scalar.addi (Scalar.muli (BitVec.ofNat 32 (i 0).val) 128#32) (BitVec.ofNat 32 4))).toNat = _; exact off_val _ 4 hi (by decide)) (by show 128 * (i 0).val + 4 < 16384; omega) _ _ _ q)
  ihave HD0 := (consH _ _) $$ HR0 HD0
  ihave HD1 := (consH _ _) $$ HR1 HD1
  ihave HD2 := (consH _ _) $$ HR2 HD2
  ihave HDC0 := (consH _ _) $$ HC0 HDC0
  ihave HDC1 := (consH _ _) $$ HC1 HDC1
  ihave HDC2 := (consH _ _) $$ HC2 HDC2
  ihave HDT0 := (consH _ _) $$ HT0 HDT0
  ihave HDT1 := (consH _ _) $$ HT1 HDT1
  ihave HDT2 := (consH _ _) $$ HT2 HDT2
  -- row 5: its three copies land; the row's resources go to the heads of the chains of what is done
  icases HB5 with ⟨HC0, HT0, HC1, HT1, HC2, HT2⟩
  sl_exec (disch := first | sl_exact hU _ _ | sl_exact hI _ _ | sl_exact hJ _ _)
  ihave HR0 := (row_deliverP scM0 c 5 (by decide) inb_S128x64_S1x64_5_0 _ fs0 _ (gU c i xt0 fh0)) $$ HR0 %(fun q => deliver_gath (by decide) c hbM0 tbM0 fh0 xt0 i ⟨5, by decide⟩ (k0_off21 i) (by show (Scalar.indexCast (Scalar.addi (Scalar.muli (BitVec.ofNat 32 (i 0).val) 128#32) (BitVec.ofNat 32 5))).toNat = _; exact off_val _ 5 hi (by decide)) (by show 128 * (i 0).val + 5 < 16384; omega) _ _ _ q)
  ihave HR1 := (row_deliverP scM1 c 5 (by decide) inb_S128x64_S1x64_5_0 _ fs1 _ (gVi c i xt1 fh1)) $$ HR1 %(fun q => deliver_gath (by decide) c hbM1 tbM1 fh1 xt1 i ⟨5, by decide⟩ (k0_off21 i) (by show (Scalar.indexCast (Scalar.addi (Scalar.muli (BitVec.ofNat 32 (i 0).val) 128#32) (BitVec.ofNat 32 5))).toNat = _; exact off_val _ 5 hi (by decide)) (by show 128 * (i 0).val + 5 < 16384; omega) _ _ _ q)
  ihave HR2 := (row_deliverP scM2 c 5 (by decide) inb_S128x64_S1x64_5_0 _ fs2 _ (gVj c i xt2 fh1)) $$ HR2 %(fun q => deliver_gath (by decide) c hbM1 tbM2 fh1 xt2 i ⟨5, by decide⟩ (k0_off21 i) (by show (Scalar.indexCast (Scalar.addi (Scalar.muli (BitVec.ofNat 32 (i 0).val) 128#32) (BitVec.ofNat 32 5))).toNat = _; exact off_val _ 5 hi (by decide)) (by show 128 * (i 0).val + 5 < 16384; omega) _ _ _ q)
  ihave HD0 := (consH _ _) $$ HR0 HD0
  ihave HD1 := (consH _ _) $$ HR1 HD1
  ihave HD2 := (consH _ _) $$ HR2 HD2
  ihave HDC0 := (consH _ _) $$ HC0 HDC0
  ihave HDC1 := (consH _ _) $$ HC1 HDC1
  ihave HDC2 := (consH _ _) $$ HC2 HDC2
  ihave HDT0 := (consH _ _) $$ HT0 HDT0
  ihave HDT1 := (consH _ _) $$ HT1 HDT1
  ihave HDT2 := (consH _ _) $$ HT2 HDT2
  -- row 6: its three copies land; the row's resources go to the heads of the chains of what is done
  icases HB6 with ⟨HC0, HT0, HC1, HT1, HC2, HT2⟩
  sl_exec (disch := first | sl_exact hU _ _ | sl_exact hI _ _ | sl_exact hJ _ _)
  ihave HR0 := (row_deliverP scM0 c 6 (by decide) inb_S128x64_S1x64_6_0 _ fs0 _ (gU c i xt0 fh0)) $$ HR0 %(fun q => deliver_gath (by decide) c hbM0 tbM0 fh0 xt0 i ⟨6, by decide⟩ (k0_off25 i) (by show (Scalar.indexCast (Scalar.addi (Scalar.muli (BitVec.ofNat 32 (i 0).val) 128#32) (BitVec.ofNat 32 6))).toNat = _; exact off_val _ 6 hi (by decide)) (by show 128 * (i 0).val + 6 < 16384; omega) _ _ _ q)
  ihave HR1 := (row_deliverP scM1 c 6 (by decide) inb_S128x64_S1x64_6_0 _ fs1 _ (gVi c i xt1 fh1)) $$ HR1 %(fun q => deliver_gath (by decide) c hbM1 tbM1 fh1 xt1 i ⟨6, by decide⟩ (k0_off25 i) (by show (Scalar.indexCast (Scalar.addi (Scalar.muli (BitVec.ofNat 32 (i 0).val) 128#32) (BitVec.ofNat 32 6))).toNat = _; exact off_val _ 6 hi (by decide)) (by show 128 * (i 0).val + 6 < 16384; omega) _ _ _ q)
  ihave HR2 := (row_deliverP scM2 c 6 (by decide) inb_S128x64_S1x64_6_0 _ fs2 _ (gVj c i xt2 fh1)) $$ HR2 %(fun q => deliver_gath (by decide) c hbM1 tbM2 fh1 xt2 i ⟨6, by decide⟩ (k0_off25 i) (by show (Scalar.indexCast (Scalar.addi (Scalar.muli (BitVec.ofNat 32 (i 0).val) 128#32) (BitVec.ofNat 32 6))).toNat = _; exact off_val _ 6 hi (by decide)) (by show 128 * (i 0).val + 6 < 16384; omega) _ _ _ q)
  ihave HD0 := (consH _ _) $$ HR0 HD0
  ihave HD1 := (consH _ _) $$ HR1 HD1
  ihave HD2 := (consH _ _) $$ HR2 HD2
  ihave HDC0 := (consH _ _) $$ HC0 HDC0
  ihave HDC1 := (consH _ _) $$ HC1 HDC1
  ihave HDC2 := (consH _ _) $$ HC2 HDC2
  ihave HDT0 := (consH _ _) $$ HT0 HDT0
  ihave HDT1 := (consH _ _) $$ HT1 HDT1
  ihave HDT2 := (consH _ _) $$ HT2 HDT2
  -- row 7: its three copies land; the row's resources go to the heads of the chains of what is done
  icases HB7 with ⟨HC0, HT0, HC1, HT1, HC2, HT2⟩
  sl_exec (disch := first | sl_exact hU _ _ | sl_exact hI _ _ | sl_exact hJ _ _)
  ihave HR0 := (row_deliverP scM0 c 7 (by decide) inb_S128x64_S1x64_7_0 _ fs0 _ (gU c i xt0 fh0)) $$ HR0 %(fun q => deliver_gath (by decide) c hbM0 tbM0 fh0 xt0 i ⟨7, by decide⟩ (k0_off29 i) (by show (Scalar.indexCast (Scalar.addi (Scalar.muli (BitVec.ofNat 32 (i 0).val) 128#32) (BitVec.ofNat 32 7))).toNat = _; exact off_val _ 7 hi (by decide)) (by show 128 * (i 0).val + 7 < 16384; omega) _ _ _ q)
  ihave HR1 := (row_deliverP scM1 c 7 (by decide) inb_S128x64_S1x64_7_0 _ fs1 _ (gVi c i xt1 fh1)) $$ HR1 %(fun q => deliver_gath (by decide) c hbM1 tbM1 fh1 xt1 i ⟨7, by decide⟩ (k0_off29 i) (by show (Scalar.indexCast (Scalar.addi (Scalar.muli (BitVec.ofNat 32 (i 0).val) 128#32) (BitVec.ofNat 32 7))).toNat = _; exact off_val _ 7 hi (by decide)) (by show 128 * (i 0).val + 7 < 16384; omega) _ _ _ q)
  ihave HR2 := (row_deliverP scM2 c 7 (by decide) inb_S128x64_S1x64_7_0 _ fs2 _ (gVj c i xt2 fh1)) $$ HR2 %(fun q => deliver_gath (by decide) c hbM1 tbM2 fh1 xt2 i ⟨7, by decide⟩ (k0_off29 i) (by show (Scalar.indexCast (Scalar.addi (Scalar.muli (BitVec.ofNat 32 (i 0).val) 128#32) (BitVec.ofNat 32 7))).toNat = _; exact off_val _ 7 hi (by decide)) (by show 128 * (i 0).val + 7 < 16384; omega) _ _ _ q)
  ihave HD0 := (consH _ _) $$ HR0 HD0
  ihave HD1 := (consH _ _) $$ HR1 HD1
  ihave HD2 := (consH _ _) $$ HR2 HD2
  ihave HDC0 := (consH _ _) $$ HC0 HDC0
  ihave HDC1 := (consH _ _) $$ HC1 HDC1
  ihave HDC2 := (consH _ _) $$ HC2 HDC2
  ihave HDT0 := (consH _ _) $$ HT0 HDT0
  ihave HDT1 := (consH _ _) $$ HT1 HDT1
  ihave HDT2 := (consH _ _) $$ HT2 HDT2
  -- row 8: its three copies land; the row's resources go to the heads of the chains of what is done
  icases HB8 with ⟨HC0, HT0, HC1, HT1, HC2, HT2⟩
  sl_exec (disch := first | sl_exact hU _ _ | sl_exact hI _ _ | sl_exact hJ _ _)
  ihave HR0 := (row_deliverP scM0 c 8 (by decide) inb_S128x64_S1x64_8_0 _ fs0 _ (gU c i xt0 fh0)) $$ HR0 %(fun q => deliver_gath (by decide) c hbM0 tbM0 fh0 xt0 i ⟨8, by decide⟩ (k0_off33 i) (by show (Scalar.indexCast (Scalar.addi (Scalar.muli (BitVec.ofNat 32 (i 0).val) 128#32) (BitVec.ofNat 32 8))).toNat = _; exact off_val _ 8 hi (by decide)) (by show 128 * (i 0).val + 8 < 16384; omega) _ _ _ q)
  ihave HR1 := (row_deliverP scM1 c 8 (by decide) inb_S128x64_S1x64_8_0 _ fs1 _ (gVi c i xt1 fh1)) $$ HR1 %(fun q => deliver_gath (by decide) c hbM1 tbM1 fh1 xt1 i ⟨8, by decide⟩ (k0_off33 i) (by show (Scalar.indexCast (Scalar.addi (Scalar.muli (BitVec.ofNat 32 (i 0).val) 128#32) (BitVec.ofNat 32 8))).toNat = _; exact off_val _ 8 hi (by decide)) (by show 128 * (i 0).val + 8 < 16384; omega) _ _ _ q)
  ihave HR2 := (row_deliverP scM2 c 8 (by decide) inb_S128x64_S1x64_8_0 _ fs2 _ (gVj c i xt2 fh1)) $$ HR2 %(fun q => deliver_gath (by decide) c hbM1 tbM2 fh1 xt2 i ⟨8, by decide⟩ (k0_off33 i) (by show (Scalar.indexCast (Scalar.addi (Scalar.muli (BitVec.ofNat 32 (i 0).val) 128#32) (BitVec.ofNat 32 8))).toNat = _; exact off_val _ 8 hi (by decide)) (by show 128 * (i 0).val + 8 < 16384; omega) _ _ _ q)
  ihave HD0 := (consH _ _) $$ HR0 HD0
  ihave HD1 := (consH _ _) $$ HR1 HD1
  ihave HD2 := (consH _ _) $$ HR2 HD2
  ihave HDC0 := (consH _ _) $$ HC0 HDC0
  ihave HDC1 := (consH _ _) $$ HC1 HDC1
  ihave HDC2 := (consH _ _) $$ HC2 HDC2
  ihave HDT0 := (consH _ _) $$ HT0 HDT0
  ihave HDT1 := (consH _ _) $$ HT1 HDT1
  ihave HDT2 := (consH _ _) $$ HT2 HDT2
  -- row 9: its three copies land; the row's resources go to the heads of the chains of what is done
  icases HB9 with ⟨HC0, HT0, HC1, HT1, HC2, HT2⟩
  sl_exec (disch := first | sl_exact hU _ _ | sl_exact hI _ _ | sl_exact hJ _ _)
  ihave HR0 := (row_deliverP scM0 c 9 (by decide) inb_S128x64_S1x64_9_0 _ fs0 _ (gU c i xt0 fh0)) $$ HR0 %(fun q => deliver_gath (by decide) c hbM0 tbM0 fh0 xt0 i ⟨9, by decide⟩ (k0_off37 i) (by show (Scalar.indexCast (Scalar.addi (Scalar.muli (BitVec.ofNat 32 (i 0).val) 128#32) (BitVec.ofNat 32 9))).toNat = _; exact off_val _ 9 hi (by decide)) (by show 128 * (i 0).val + 9 < 16384; omega) _ _ _ q)
  ihave HR1 := (row_deliverP scM1 c 9 (by decide) inb_S128x64_S1x64_9_0 _ fs1 _ (gVi c i xt1 fh1)) $$ HR1 %(fun q => deliver_gath (by decide) c hbM1 tbM1 fh1 xt1 i ⟨9, by decide⟩ (k0_off37 i) (by show (Scalar.indexCast (Scalar.addi (Scalar.muli (BitVec.ofNat 32 (i 0).val) 128#32) (BitVec.ofNat 32 9))).toNat = _; exact off_val _ 9 hi (by decide)) (by show 128 * (i 0).val + 9 < 16384; omega) _ _ _ q)
  ihave HR2 := (row_deliverP scM2 c 9 (by decide) inb_S128x64_S1x64_9_0 _ fs2 _ (gVj c i xt2 fh1)) $$ HR2 %(fun q => deliver_gath (by decide) c hbM1 tbM2 fh1 xt2 i ⟨9, by decide⟩ (k0_off37 i) (by show (Scalar.indexCast (Scalar.addi (Scalar.muli (BitVec.ofNat 32 (i 0).val) 128#32) (BitVec.ofNat 32 9))).toNat = _; exact off_val _ 9 hi (by decide)) (by show 128 * (i 0).val + 9 < 16384; omega) _ _ _ q)
  ihave HD0 := (consH _ _) $$ HR0 HD0
  ihave HD1 := (consH _ _) $$ HR1 HD1
  ihave HD2 := (consH _ _) $$ HR2 HD2
  ihave HDC0 := (consH _ _) $$ HC0 HDC0
  ihave HDC1 := (consH _ _) $$ HC1 HDC1
  ihave HDC2 := (consH _ _) $$ HC2 HDC2
  ihave HDT0 := (consH _ _) $$ HT0 HDT0
  ihave HDT1 := (consH _ _) $$ HT1 HDT1
  ihave HDT2 := (consH _ _) $$ HT2 HDT2
  -- row 10: its three copies land; the row's resources go to the heads of the chains of what is done
  icases HB10 with ⟨HC0, HT0, HC1, HT1, HC2, HT2⟩
  sl_exec (disch := first | sl_exact hU _ _ | sl_exact hI _ _ | sl_exact hJ _ _)
  ihave HR0 := (row_deliverP scM0 c 10 (by decide) inb_S128x64_S1x64_10_0 _ fs0 _ (gU c i xt0 fh0)) $$ HR0 %(fun q => deliver_gath (by decide) c hbM0 tbM0 fh0 xt0 i ⟨10, by decide⟩ (k0_off41 i) (by show (Scalar.indexCast (Scalar.addi (Scalar.muli (BitVec.ofNat 32 (i 0).val) 128#32) (BitVec.ofNat 32 10))).toNat = _; exact off_val _ 10 hi (by decide)) (by show 128 * (i 0).val + 10 < 16384; omega) _ _ _ q)
  ihave HR1 := (row_deliverP scM1 c 10 (by decide) inb_S128x64_S1x64_10_0 _ fs1 _ (gVi c i xt1 fh1)) $$ HR1 %(fun q => deliver_gath (by decide) c hbM1 tbM1 fh1 xt1 i ⟨10, by decide⟩ (k0_off41 i) (by show (Scalar.indexCast (Scalar.addi (Scalar.muli (BitVec.ofNat 32 (i 0).val) 128#32) (BitVec.ofNat 32 10))).toNat = _; exact off_val _ 10 hi (by decide)) (by show 128 * (i 0).val + 10 < 16384; omega) _ _ _ q)
  ihave HR2 := (row_deliverP scM2 c 10 (by decide) inb_S128x64_S1x64_10_0 _ fs2 _ (gVj c i xt2 fh1)) $$ HR2 %(fun q => deliver_gath (by decide) c hbM1 tbM2 fh1 xt2 i ⟨10, by decide⟩ (k0_off41 i) (by show (Scalar.indexCast (Scalar.addi (Scalar.muli (BitVec.ofNat 32 (i 0).val) 128#32) (BitVec.ofNat 32 10))).toNat = _; exact off_val _ 10 hi (by decide)) (by show 128 * (i 0).val + 10 < 16384; omega) _ _ _ q)
  ihave HD0 := (consH _ _) $$ HR0 HD0
  ihave HD1 := (consH _ _) $$ HR1 HD1
  ihave HD2 := (consH _ _) $$ HR2 HD2
  ihave HDC0 := (consH _ _) $$ HC0 HDC0
  ihave HDC1 := (consH _ _) $$ HC1 HDC1
  ihave HDC2 := (consH _ _) $$ HC2 HDC2
  ihave HDT0 := (consH _ _) $$ HT0 HDT0
  ihave HDT1 := (consH _ _) $$ HT1 HDT1
  ihave HDT2 := (consH _ _) $$ HT2 HDT2
  -- row 11: its three copies land; the row's resources go to the heads of the chains of what is done
  icases HB11 with ⟨HC0, HT0, HC1, HT1, HC2, HT2⟩
  sl_exec (disch := first | sl_exact hU _ _ | sl_exact hI _ _ | sl_exact hJ _ _)
  ihave HR0 := (row_deliverP scM0 c 11 (by decide) inb_S128x64_S1x64_11_0 _ fs0 _ (gU c i xt0 fh0)) $$ HR0 %(fun q => deliver_gath (by decide) c hbM0 tbM0 fh0 xt0 i ⟨11, by decide⟩ (k0_off45 i) (by show (Scalar.indexCast (Scalar.addi (Scalar.muli (BitVec.ofNat 32 (i 0).val) 128#32) (BitVec.ofNat 32 11))).toNat = _; exact off_val _ 11 hi (by decide)) (by show 128 * (i 0).val + 11 < 16384; omega) _ _ _ q)
  ihave HR1 := (row_deliverP scM1 c 11 (by decide) inb_S128x64_S1x64_11_0 _ fs1 _ (gVi c i xt1 fh1)) $$ HR1 %(fun q => deliver_gath (by decide) c hbM1 tbM1 fh1 xt1 i ⟨11, by decide⟩ (k0_off45 i) (by show (Scalar.indexCast (Scalar.addi (Scalar.muli (BitVec.ofNat 32 (i 0).val) 128#32) (BitVec.ofNat 32 11))).toNat = _; exact off_val _ 11 hi (by decide)) (by show 128 * (i 0).val + 11 < 16384; omega) _ _ _ q)
  ihave HR2 := (row_deliverP scM2 c 11 (by decide) inb_S128x64_S1x64_11_0 _ fs2 _ (gVj c i xt2 fh1)) $$ HR2 %(fun q => deliver_gath (by decide) c hbM1 tbM2 fh1 xt2 i ⟨11, by decide⟩ (k0_off45 i) (by show (Scalar.indexCast (Scalar.addi (Scalar.muli (BitVec.ofNat 32 (i 0).val) 128#32) (BitVec.ofNat 32 11))).toNat = _; exact off_val _ 11 hi (by decide)) (by show 128 * (i 0).val + 11 < 16384; omega) _ _ _ q)
  ihave HD0 := (consH _ _) $$ HR0 HD0
  ihave HD1 := (consH _ _) $$ HR1 HD1
  ihave HD2 := (consH _ _) $$ HR2 HD2
  ihave HDC0 := (consH _ _) $$ HC0 HDC0
  ihave HDC1 := (consH _ _) $$ HC1 HDC1
  ihave HDC2 := (consH _ _) $$ HC2 HDC2
  ihave HDT0 := (consH _ _) $$ HT0 HDT0
  ihave HDT1 := (consH _ _) $$ HT1 HDT1
  ihave HDT2 := (consH _ _) $$ HT2 HDT2
  -- row 12: its three copies land; the row's resources go to the heads of the chains of what is done
  icases HB12 with ⟨HC0, HT0, HC1, HT1, HC2, HT2⟩
  sl_exec (disch := first | sl_exact hU _ _ | sl_exact hI _ _ | sl_exact hJ _ _)
  ihave HR0 := (row_deliverP scM0 c 12 (by decide) inb_S128x64_S1x64_12_0 _ fs0 _ (gU c i xt0 fh0)) $$ HR0 %(fun q => deliver_gath (by decide) c hbM0 tbM0 fh0 xt0 i ⟨12, by decide⟩ (k0_off49 i) (by show (Scalar.indexCast (Scalar.addi (Scalar.muli (BitVec.ofNat 32 (i 0).val) 128#32) (BitVec.ofNat 32 12))).toNat = _; exact off_val _ 12 hi (by decide)) (by show 128 * (i 0).val + 12 < 16384; omega) _ _ _ q)
  ihave HR1 := (row_deliverP scM1 c 12 (by decide) inb_S128x64_S1x64_12_0 _ fs1 _ (gVi c i xt1 fh1)) $$ HR1 %(fun q => deliver_gath (by decide) c hbM1 tbM1 fh1 xt1 i ⟨12, by decide⟩ (k0_off49 i) (by show (Scalar.indexCast (Scalar.addi (Scalar.muli (BitVec.ofNat 32 (i 0).val) 128#32) (BitVec.ofNat 32 12))).toNat = _; exact off_val _ 12 hi (by decide)) (by show 128 * (i 0).val + 12 < 16384; omega) _ _ _ q)
  ihave HR2 := (row_deliverP scM2 c 12 (by decide) inb_S128x64_S1x64_12_0 _ fs2 _ (gVj c i xt2 fh1)) $$ HR2 %(fun q => deliver_gath (by decide) c hbM1 tbM2 fh1 xt2 i ⟨12, by decide⟩ (k0_off49 i) (by show (Scalar.indexCast (Scalar.addi (Scalar.muli (BitVec.ofNat 32 (i 0).val) 128#32) (BitVec.ofNat 32 12))).toNat = _; exact off_val _ 12 hi (by decide)) (by show 128 * (i 0).val + 12 < 16384; omega) _ _ _ q)
  ihave HD0 := (consH _ _) $$ HR0 HD0
  ihave HD1 := (consH _ _) $$ HR1 HD1
  ihave HD2 := (consH _ _) $$ HR2 HD2
  ihave HDC0 := (consH _ _) $$ HC0 HDC0
  ihave HDC1 := (consH _ _) $$ HC1 HDC1
  ihave HDC2 := (consH _ _) $$ HC2 HDC2
  ihave HDT0 := (consH _ _) $$ HT0 HDT0
  ihave HDT1 := (consH _ _) $$ HT1 HDT1
  ihave HDT2 := (consH _ _) $$ HT2 HDT2
  -- row 13: its three copies land; the row's resources go to the heads of the chains of what is done
  icases HB13 with ⟨HC0, HT0, HC1, HT1, HC2, HT2⟩
  sl_exec (disch := first | sl_exact hU _ _ | sl_exact hI _ _ | sl_exact hJ _ _)
  ihave HR0 := (row_deliverP scM0 c 13 (by decide) inb_S128x64_S1x64_13_0 _ fs0 _ (gU c i xt0 fh0)) $$ HR0 %(fun q => deliver_gath (by decide) c hbM0 tbM0 fh0 xt0 i ⟨13, by decide⟩ (k0_off53 i) (by show (Scalar.indexCast (Scalar.addi (Scalar.muli (BitVec.ofNat 32 (i 0).val) 128#32) (BitVec.ofNat 32 13))).toNat = _; exact off_val _ 13 hi (by decide)) (by show 128 * (i 0).val + 13 < 16384; omega) _ _ _ q)
  ihave HR1 := (row_deliverP scM1 c 13 (by decide) inb_S128x64_S1x64_13_0 _ fs1 _ (gVi c i xt1 fh1)) $$ HR1 %(fun q => deliver_gath (by decide) c hbM1 tbM1 fh1 xt1 i ⟨13, by decide⟩ (k0_off53 i) (by show (Scalar.indexCast (Scalar.addi (Scalar.muli (BitVec.ofNat 32 (i 0).val) 128#32) (BitVec.ofNat 32 13))).toNat = _; exact off_val _ 13 hi (by decide)) (by show 128 * (i 0).val + 13 < 16384; omega) _ _ _ q)
  ihave HR2 := (row_deliverP scM2 c 13 (by decide) inb_S128x64_S1x64_13_0 _ fs2 _ (gVj c i xt2 fh1)) $$ HR2 %(fun q => deliver_gath (by decide) c hbM1 tbM2 fh1 xt2 i ⟨13, by decide⟩ (k0_off53 i) (by show (Scalar.indexCast (Scalar.addi (Scalar.muli (BitVec.ofNat 32 (i 0).val) 128#32) (BitVec.ofNat 32 13))).toNat = _; exact off_val _ 13 hi (by decide)) (by show 128 * (i 0).val + 13 < 16384; omega) _ _ _ q)
  ihave HD0 := (consH _ _) $$ HR0 HD0
  ihave HD1 := (consH _ _) $$ HR1 HD1
  ihave HD2 := (consH _ _) $$ HR2 HD2
  ihave HDC0 := (consH _ _) $$ HC0 HDC0
  ihave HDC1 := (consH _ _) $$ HC1 HDC1
  ihave HDC2 := (consH _ _) $$ HC2 HDC2
  ihave HDT0 := (consH _ _) $$ HT0 HDT0
  ihave HDT1 := (consH _ _) $$ HT1 HDT1
  ihave HDT2 := (consH _ _) $$ HT2 HDT2
  -- row 14: its three copies land; the row's resources go to the heads of the chains of what is done
  icases HB14 with ⟨HC0, HT0, HC1, HT1, HC2, HT2⟩
  sl_exec (disch := first | sl_exact hU _ _ | sl_exact hI _ _ | sl_exact hJ _ _)
  ihave HR0 := (row_deliverP scM0 c 14 (by decide) inb_S128x64_S1x64_14_0 _ fs0 _ (gU c i xt0 fh0)) $$ HR0 %(fun q => deliver_gath (by decide) c hbM0 tbM0 fh0 xt0 i ⟨14, by decide⟩ (k0_off57 i) (by show (Scalar.indexCast (Scalar.addi (Scalar.muli (BitVec.ofNat 32 (i 0).val) 128#32) (BitVec.ofNat 32 14))).toNat = _; exact off_val _ 14 hi (by decide)) (by show 128 * (i 0).val + 14 < 16384; omega) _ _ _ q)
  ihave HR1 := (row_deliverP scM1 c 14 (by decide) inb_S128x64_S1x64_14_0 _ fs1 _ (gVi c i xt1 fh1)) $$ HR1 %(fun q => deliver_gath (by decide) c hbM1 tbM1 fh1 xt1 i ⟨14, by decide⟩ (k0_off57 i) (by show (Scalar.indexCast (Scalar.addi (Scalar.muli (BitVec.ofNat 32 (i 0).val) 128#32) (BitVec.ofNat 32 14))).toNat = _; exact off_val _ 14 hi (by decide)) (by show 128 * (i 0).val + 14 < 16384; omega) _ _ _ q)
  ihave HR2 := (row_deliverP scM2 c 14 (by decide) inb_S128x64_S1x64_14_0 _ fs2 _ (gVj c i xt2 fh1)) $$ HR2 %(fun q => deliver_gath (by decide) c hbM1 tbM2 fh1 xt2 i ⟨14, by decide⟩ (k0_off57 i) (by show (Scalar.indexCast (Scalar.addi (Scalar.muli (BitVec.ofNat 32 (i 0).val) 128#32) (BitVec.ofNat 32 14))).toNat = _; exact off_val _ 14 hi (by decide)) (by show 128 * (i 0).val + 14 < 16384; omega) _ _ _ q)
  ihave HD0 := (consH _ _) $$ HR0 HD0
  ihave HD1 := (consH _ _) $$ HR1 HD1
  ihave HD2 := (consH _ _) $$ HR2 HD2
  ihave HDC0 := (consH _ _) $$ HC0 HDC0
  ihave HDC1 := (consH _ _) $$ HC1 HDC1
  ihave HDC2 := (consH _ _) $$ HC2 HDC2
  ihave HDT0 := (consH _ _) $$ HT0 HDT0
  ihave HDT1 := (consH _ _) $$ HT1 HDT1
  ihave HDT2 := (consH _ _) $$ HT2 HDT2
  -- row 15: its three copies land; the row's resources go to the heads of the chains of what is done
  icases HB15 with ⟨HC0, HT0, HC1, HT1, HC2, HT2⟩
  sl_exec (disch := first | sl_exact hU _ _ | sl_exact hI _ _ | sl_exact hJ _ _)
  ihave HR0 := (row_deliverP scM0 c 15 (by decide) inb_S128x64_S1x64_15_0 _ fs0 _ (gU c i xt0 fh0)) $$ HR0 %(fun q => deliver_gath (by decide) c hbM0 tbM0 fh0 xt0 i ⟨15, by decide⟩ (k0_off61 i) (by show (Scalar.indexCast (Scalar.addi (Scalar.muli (BitVec.ofNat 32 (i 0).val) 128#32) (BitVec.ofNat 32 15))).toNat = _; exact off_val _ 15 hi (by decide)) (by show 128 * (i 0).val + 15 < 16384; omega) _ _ _ q)
  ihave HR1 := (row_deliverP scM1 c 15 (by decide) inb_S128x64_S1x64_15_0 _ fs1 _ (gVi c i xt1 fh1)) $$ HR1 %(fun q => deliver_gath (by decide) c hbM1 tbM1 fh1 xt1 i ⟨15, by decide⟩ (k0_off61 i) (by show (Scalar.indexCast (Scalar.addi (Scalar.muli (BitVec.ofNat 32 (i 0).val) 128#32) (BitVec.ofNat 32 15))).toNat = _; exact off_val _ 15 hi (by decide)) (by show 128 * (i 0).val + 15 < 16384; omega) _ _ _ q)
  ihave HR2 := (row_deliverP scM2 c 15 (by decide) inb_S128x64_S1x64_15_0 _ fs2 _ (gVj c i xt2 fh1)) $$ HR2 %(fun q => deliver_gath (by decide) c hbM1 tbM2 fh1 xt2 i ⟨15, by decide⟩ (k0_off61 i) (by show (Scalar.indexCast (Scalar.addi (Scalar.muli (BitVec.ofNat 32 (i 0).val) 128#32) (BitVec.ofNat 32 15))).toNat = _; exact off_val _ 15 hi (by decide)) (by show 128 * (i 0).val + 15 < 16384; omega) _ _ _ q)
  ihave HD0 := (consH _ _) $$ HR0 HD0
  ihave HD1 := (consH _ _) $$ HR1 HD1
  ihave HD2 := (consH _ _) $$ HR2 HD2
  ihave HDC0 := (consH _ _) $$ HC0 HDC0
  ihave HDC1 := (consH _ _) $$ HC1 HDC1
  ihave HDC2 := (consH _ _) $$ HC2 HDC2
  ihave HDT0 := (consH _ _) $$ HT0 HDT0
  ihave HDT1 := (consH _ _) $$ HT1 HDT1
  ihave HDT2 := (consH _ _) $$ HT2 HDT2
  -- row 16: its three copies land; the row's resources go to the heads of the chains of what is done
  icases HB16 with ⟨HC0, HT0, HC1, HT1, HC2, HT2⟩
  sl_exec (disch := first | sl_exact hU _ _ | sl_exact hI _ _ | sl_exact hJ _ _)
  ihave HR0 := (row_deliverP scM0 c 16 (by decide) inb_S128x64_S1x64_16_0 _ fs0 _ (gU c i xt0 fh0)) $$ HR0 %(fun q => deliver_gath (by decide) c hbM0 tbM0 fh0 xt0 i ⟨16, by decide⟩ (k0_off65 i) (by show (Scalar.indexCast (Scalar.addi (Scalar.muli (BitVec.ofNat 32 (i 0).val) 128#32) (BitVec.ofNat 32 16))).toNat = _; exact off_val _ 16 hi (by decide)) (by show 128 * (i 0).val + 16 < 16384; omega) _ _ _ q)
  ihave HR1 := (row_deliverP scM1 c 16 (by decide) inb_S128x64_S1x64_16_0 _ fs1 _ (gVi c i xt1 fh1)) $$ HR1 %(fun q => deliver_gath (by decide) c hbM1 tbM1 fh1 xt1 i ⟨16, by decide⟩ (k0_off65 i) (by show (Scalar.indexCast (Scalar.addi (Scalar.muli (BitVec.ofNat 32 (i 0).val) 128#32) (BitVec.ofNat 32 16))).toNat = _; exact off_val _ 16 hi (by decide)) (by show 128 * (i 0).val + 16 < 16384; omega) _ _ _ q)
  ihave HR2 := (row_deliverP scM2 c 16 (by decide) inb_S128x64_S1x64_16_0 _ fs2 _ (gVj c i xt2 fh1)) $$ HR2 %(fun q => deliver_gath (by decide) c hbM1 tbM2 fh1 xt2 i ⟨16, by decide⟩ (k0_off65 i) (by show (Scalar.indexCast (Scalar.addi (Scalar.muli (BitVec.ofNat 32 (i 0).val) 128#32) (BitVec.ofNat 32 16))).toNat = _; exact off_val _ 16 hi (by decide)) (by show 128 * (i 0).val + 16 < 16384; omega) _ _ _ q)
  ihave HD0 := (consH _ _) $$ HR0 HD0
  ihave HD1 := (consH _ _) $$ HR1 HD1
  ihave HD2 := (consH _ _) $$ HR2 HD2
  ihave HDC0 := (consH _ _) $$ HC0 HDC0
  ihave HDC1 := (consH _ _) $$ HC1 HDC1
  ihave HDC2 := (consH _ _) $$ HC2 HDC2
  ihave HDT0 := (consH _ _) $$ HT0 HDT0
  ihave HDT1 := (consH _ _) $$ HT1 HDT1
  ihave HDT2 := (consH _ _) $$ HT2 HDT2
  -- row 17: its three copies land; the row's resources go to the heads of the chains of what is done
  icases HB17 with ⟨HC0, HT0, HC1, HT1, HC2, HT2⟩
  sl_exec (disch := first | sl_exact hU _ _ | sl_exact hI _ _ | sl_exact hJ _ _)
  ihave HR0 := (row_deliverP scM0 c 17 (by decide) inb_S128x64_S1x64_17_0 _ fs0 _ (gU c i xt0 fh0)) $$ HR0 %(fun q => deliver_gath (by decide) c hbM0 tbM0 fh0 xt0 i ⟨17, by decide⟩ (k0_off69 i) (by show (Scalar.indexCast (Scalar.addi (Scalar.muli (BitVec.ofNat 32 (i 0).val) 128#32) (BitVec.ofNat 32 17))).toNat = _; exact off_val _ 17 hi (by decide)) (by show 128 * (i 0).val + 17 < 16384; omega) _ _ _ q)
  ihave HR1 := (row_deliverP scM1 c 17 (by decide) inb_S128x64_S1x64_17_0 _ fs1 _ (gVi c i xt1 fh1)) $$ HR1 %(fun q => deliver_gath (by decide) c hbM1 tbM1 fh1 xt1 i ⟨17, by decide⟩ (k0_off69 i) (by show (Scalar.indexCast (Scalar.addi (Scalar.muli (BitVec.ofNat 32 (i 0).val) 128#32) (BitVec.ofNat 32 17))).toNat = _; exact off_val _ 17 hi (by decide)) (by show 128 * (i 0).val + 17 < 16384; omega) _ _ _ q)
  ihave HR2 := (row_deliverP scM2 c 17 (by decide) inb_S128x64_S1x64_17_0 _ fs2 _ (gVj c i xt2 fh1)) $$ HR2 %(fun q => deliver_gath (by decide) c hbM1 tbM2 fh1 xt2 i ⟨17, by decide⟩ (k0_off69 i) (by show (Scalar.indexCast (Scalar.addi (Scalar.muli (BitVec.ofNat 32 (i 0).val) 128#32) (BitVec.ofNat 32 17))).toNat = _; exact off_val _ 17 hi (by decide)) (by show 128 * (i 0).val + 17 < 16384; omega) _ _ _ q)
  ihave HD0 := (consH _ _) $$ HR0 HD0
  ihave HD1 := (consH _ _) $$ HR1 HD1
  ihave HD2 := (consH _ _) $$ HR2 HD2
  ihave HDC0 := (consH _ _) $$ HC0 HDC0
  ihave HDC1 := (consH _ _) $$ HC1 HDC1
  ihave HDC2 := (consH _ _) $$ HC2 HDC2
  ihave HDT0 := (consH _ _) $$ HT0 HDT0
  ihave HDT1 := (consH _ _) $$ HT1 HDT1
  ihave HDT2 := (consH _ _) $$ HT2 HDT2
  -- row 18: its three copies land; the row's resources go to the heads of the chains of what is done
  icases HB18 with ⟨HC0, HT0, HC1, HT1, HC2, HT2⟩
  sl_exec (disch := first | sl_exact hU _ _ | sl_exact hI _ _ | sl_exact hJ _ _)
  ihave HR0 := (row_deliverP scM0 c 18 (by decide) inb_S128x64_S1x64_18_0 _ fs0 _ (gU c i xt0 fh0)) $$ HR0 %(fun q => deliver_gath (by decide) c hbM0 tbM0 fh0 xt0 i ⟨18, by decide⟩ (k0_off73 i) (by show (Scalar.indexCast (Scalar.addi (Scalar.muli (BitVec.ofNat 32 (i 0).val) 128#32) (BitVec.ofNat 32 18))).toNat = _; exact off_val _ 18 hi (by decide)) (by show 128 * (i 0).val + 18 < 16384; omega) _ _ _ q)
  ihave HR1 := (row_deliverP scM1 c 18 (by decide) inb_S128x64_S1x64_18_0 _ fs1 _ (gVi c i xt1 fh1)) $$ HR1 %(fun q => deliver_gath (by decide) c hbM1 tbM1 fh1 xt1 i ⟨18, by decide⟩ (k0_off73 i) (by show (Scalar.indexCast (Scalar.addi (Scalar.muli (BitVec.ofNat 32 (i 0).val) 128#32) (BitVec.ofNat 32 18))).toNat = _; exact off_val _ 18 hi (by decide)) (by show 128 * (i 0).val + 18 < 16384; omega) _ _ _ q)
  ihave HR2 := (row_deliverP scM2 c 18 (by decide) inb_S128x64_S1x64_18_0 _ fs2 _ (gVj c i xt2 fh1)) $$ HR2 %(fun q => deliver_gath (by decide) c hbM1 tbM2 fh1 xt2 i ⟨18, by decide⟩ (k0_off73 i) (by show (Scalar.indexCast (Scalar.addi (Scalar.muli (BitVec.ofNat 32 (i 0).val) 128#32) (BitVec.ofNat 32 18))).toNat = _; exact off_val _ 18 hi (by decide)) (by show 128 * (i 0).val + 18 < 16384; omega) _ _ _ q)
  ihave HD0 := (consH _ _) $$ HR0 HD0
  ihave HD1 := (consH _ _) $$ HR1 HD1
  ihave HD2 := (consH _ _) $$ HR2 HD2
  ihave HDC0 := (consH _ _) $$ HC0 HDC0
  ihave HDC1 := (consH _ _) $$ HC1 HDC1
  ihave HDC2 := (consH _ _) $$ HC2 HDC2
  ihave HDT0 := (consH _ _) $$ HT0 HDT0
  ihave HDT1 := (consH _ _) $$ HT1 HDT1
  ihave HDT2 := (consH _ _) $$ HT2 HDT2
  -- row 19: its three copies land; the row's resources go to the heads of the chains of what is done
  icases HB19 with ⟨HC0, HT0, HC1, HT1, HC2, HT2⟩
  sl_exec (disch := first | sl_exact hU _ _ | sl_exact hI _ _ | sl_exact hJ _ _)
  ihave HR0 := (row_deliverP scM0 c 19 (by decide) inb_S128x64_S1x64_19_0 _ fs0 _ (gU c i xt0 fh0)) $$ HR0 %(fun q => deliver_gath (by decide) c hbM0 tbM0 fh0 xt0 i ⟨19, by decide⟩ (k0_off77 i) (by show (Scalar.indexCast (Scalar.addi (Scalar.muli (BitVec.ofNat 32 (i 0).val) 128#32) (BitVec.ofNat 32 19))).toNat = _; exact off_val _ 19 hi (by decide)) (by show 128 * (i 0).val + 19 < 16384; omega) _ _ _ q)
  ihave HR1 := (row_deliverP scM1 c 19 (by decide) inb_S128x64_S1x64_19_0 _ fs1 _ (gVi c i xt1 fh1)) $$ HR1 %(fun q => deliver_gath (by decide) c hbM1 tbM1 fh1 xt1 i ⟨19, by decide⟩ (k0_off77 i) (by show (Scalar.indexCast (Scalar.addi (Scalar.muli (BitVec.ofNat 32 (i 0).val) 128#32) (BitVec.ofNat 32 19))).toNat = _; exact off_val _ 19 hi (by decide)) (by show 128 * (i 0).val + 19 < 16384; omega) _ _ _ q)
  ihave HR2 := (row_deliverP scM2 c 19 (by decide) inb_S128x64_S1x64_19_0 _ fs2 _ (gVj c i xt2 fh1)) $$ HR2 %(fun q => deliver_gath (by decide) c hbM1 tbM2 fh1 xt2 i ⟨19, by decide⟩ (k0_off77 i) (by show (Scalar.indexCast (Scalar.addi (Scalar.muli (BitVec.ofNat 32 (i 0).val) 128#32) (BitVec.ofNat 32 19))).toNat = _; exact off_val _ 19 hi (by decide)) (by show 128 * (i 0).val + 19 < 16384; omega) _ _ _ q)
  ihave HD0 := (consH _ _) $$ HR0 HD0
  ihave HD1 := (consH _ _) $$ HR1 HD1
  ihave HD2 := (consH _ _) $$ HR2 HD2
  ihave HDC0 := (consH _ _) $$ HC0 HDC0
  ihave HDC1 := (consH _ _) $$ HC1 HDC1
  ihave HDC2 := (consH _ _) $$ HC2 HDC2
  ihave HDT0 := (consH _ _) $$ HT0 HDT0
  ihave HDT1 := (consH _ _) $$ HT1 HDT1
  ihave HDT2 := (consH _ _) $$ HT2 HDT2
  -- row 20: its three copies land; the row's resources go to the heads of the chains of what is done
  icases HB20 with ⟨HC0, HT0, HC1, HT1, HC2, HT2⟩
  sl_exec (disch := first | sl_exact hU _ _ | sl_exact hI _ _ | sl_exact hJ _ _)
  ihave HR0 := (row_deliverP scM0 c 20 (by decide) inb_S128x64_S1x64_20_0 _ fs0 _ (gU c i xt0 fh0)) $$ HR0 %(fun q => deliver_gath (by decide) c hbM0 tbM0 fh0 xt0 i ⟨20, by decide⟩ (k0_off81 i) (by show (Scalar.indexCast (Scalar.addi (Scalar.muli (BitVec.ofNat 32 (i 0).val) 128#32) (BitVec.ofNat 32 20))).toNat = _; exact off_val _ 20 hi (by decide)) (by show 128 * (i 0).val + 20 < 16384; omega) _ _ _ q)
  ihave HR1 := (row_deliverP scM1 c 20 (by decide) inb_S128x64_S1x64_20_0 _ fs1 _ (gVi c i xt1 fh1)) $$ HR1 %(fun q => deliver_gath (by decide) c hbM1 tbM1 fh1 xt1 i ⟨20, by decide⟩ (k0_off81 i) (by show (Scalar.indexCast (Scalar.addi (Scalar.muli (BitVec.ofNat 32 (i 0).val) 128#32) (BitVec.ofNat 32 20))).toNat = _; exact off_val _ 20 hi (by decide)) (by show 128 * (i 0).val + 20 < 16384; omega) _ _ _ q)
  ihave HR2 := (row_deliverP scM2 c 20 (by decide) inb_S128x64_S1x64_20_0 _ fs2 _ (gVj c i xt2 fh1)) $$ HR2 %(fun q => deliver_gath (by decide) c hbM1 tbM2 fh1 xt2 i ⟨20, by decide⟩ (k0_off81 i) (by show (Scalar.indexCast (Scalar.addi (Scalar.muli (BitVec.ofNat 32 (i 0).val) 128#32) (BitVec.ofNat 32 20))).toNat = _; exact off_val _ 20 hi (by decide)) (by show 128 * (i 0).val + 20 < 16384; omega) _ _ _ q)
  ihave HD0 := (consH _ _) $$ HR0 HD0
  ihave HD1 := (consH _ _) $$ HR1 HD1
  ihave HD2 := (consH _ _) $$ HR2 HD2
  ihave HDC0 := (consH _ _) $$ HC0 HDC0
  ihave HDC1 := (consH _ _) $$ HC1 HDC1
  ihave HDC2 := (consH _ _) $$ HC2 HDC2
  ihave HDT0 := (consH _ _) $$ HT0 HDT0
  ihave HDT1 := (consH _ _) $$ HT1 HDT1
  ihave HDT2 := (consH _ _) $$ HT2 HDT2
  -- row 21: its three copies land; the row's resources go to the heads of the chains of what is done
  icases HB21 with ⟨HC0, HT0, HC1, HT1, HC2, HT2⟩
  sl_exec (disch := first | sl_exact hU _ _ | sl_exact hI _ _ | sl_exact hJ _ _)
  ihave HR0 := (row_deliverP scM0 c 21 (by decide) inb_S128x64_S1x64_21_0 _ fs0 _ (gU c i xt0 fh0)) $$ HR0 %(fun q => deliver_gath (by decide) c hbM0 tbM0 fh0 xt0 i ⟨21, by decide⟩ (k0_off85 i) (by show (Scalar.indexCast (Scalar.addi (Scalar.muli (BitVec.ofNat 32 (i 0).val) 128#32) (BitVec.ofNat 32 21))).toNat = _; exact off_val _ 21 hi (by decide)) (by show 128 * (i 0).val + 21 < 16384; omega) _ _ _ q)
  ihave HR1 := (row_deliverP scM1 c 21 (by decide) inb_S128x64_S1x64_21_0 _ fs1 _ (gVi c i xt1 fh1)) $$ HR1 %(fun q => deliver_gath (by decide) c hbM1 tbM1 fh1 xt1 i ⟨21, by decide⟩ (k0_off85 i) (by show (Scalar.indexCast (Scalar.addi (Scalar.muli (BitVec.ofNat 32 (i 0).val) 128#32) (BitVec.ofNat 32 21))).toNat = _; exact off_val _ 21 hi (by decide)) (by show 128 * (i 0).val + 21 < 16384; omega) _ _ _ q)
  ihave HR2 := (row_deliverP scM2 c 21 (by decide) inb_S128x64_S1x64_21_0 _ fs2 _ (gVj c i xt2 fh1)) $$ HR2 %(fun q => deliver_gath (by decide) c hbM1 tbM2 fh1 xt2 i ⟨21, by decide⟩ (k0_off85 i) (by show (Scalar.indexCast (Scalar.addi (Scalar.muli (BitVec.ofNat 32 (i 0).val) 128#32) (BitVec.ofNat 32 21))).toNat = _; exact off_val _ 21 hi (by decide)) (by show 128 * (i 0).val + 21 < 16384; omega) _ _ _ q)
  ihave HD0 := (consH _ _) $$ HR0 HD0
  ihave HD1 := (consH _ _) $$ HR1 HD1
  ihave HD2 := (consH _ _) $$ HR2 HD2
  ihave HDC0 := (consH _ _) $$ HC0 HDC0
  ihave HDC1 := (consH _ _) $$ HC1 HDC1
  ihave HDC2 := (consH _ _) $$ HC2 HDC2
  ihave HDT0 := (consH _ _) $$ HT0 HDT0
  ihave HDT1 := (consH _ _) $$ HT1 HDT1
  ihave HDT2 := (consH _ _) $$ HT2 HDT2
  -- row 22: its three copies land; the row's resources go to the heads of the chains of what is done
  icases HB22 with ⟨HC0, HT0, HC1, HT1, HC2, HT2⟩
  sl_exec (disch := first | sl_exact hU _ _ | sl_exact hI _ _ | sl_exact hJ _ _)
  ihave HR0 := (row_deliverP scM0 c 22 (by decide) inb_S128x64_S1x64_22_0 _ fs0 _ (gU c i xt0 fh0)) $$ HR0 %(fun q => deliver_gath (by decide) c hbM0 tbM0 fh0 xt0 i ⟨22, by decide⟩ (k0_off89 i) (by show (Scalar.indexCast (Scalar.addi (Scalar.muli (BitVec.ofNat 32 (i 0).val) 128#32) (BitVec.ofNat 32 22))).toNat = _; exact off_val _ 22 hi (by decide)) (by show 128 * (i 0).val + 22 < 16384; omega) _ _ _ q)
  ihave HR1 := (row_deliverP scM1 c 22 (by decide) inb_S128x64_S1x64_22_0 _ fs1 _ (gVi c i xt1 fh1)) $$ HR1 %(fun q => deliver_gath (by decide) c hbM1 tbM1 fh1 xt1 i ⟨22, by decide⟩ (k0_off89 i) (by show (Scalar.indexCast (Scalar.addi (Scalar.muli (BitVec.ofNat 32 (i 0).val) 128#32) (BitVec.ofNat 32 22))).toNat = _; exact off_val _ 22 hi (by decide)) (by show 128 * (i 0).val + 22 < 16384; omega) _ _ _ q)
  ihave HR2 := (row_deliverP scM2 c 22 (by decide) inb_S128x64_S1x64_22_0 _ fs2 _ (gVj c i xt2 fh1)) $$ HR2 %(fun q => deliver_gath (by decide) c hbM1 tbM2 fh1 xt2 i ⟨22, by decide⟩ (k0_off89 i) (by show (Scalar.indexCast (Scalar.addi (Scalar.muli (BitVec.ofNat 32 (i 0).val) 128#32) (BitVec.ofNat 32 22))).toNat = _; exact off_val _ 22 hi (by decide)) (by show 128 * (i 0).val + 22 < 16384; omega) _ _ _ q)
  ihave HD0 := (consH _ _) $$ HR0 HD0
  ihave HD1 := (consH _ _) $$ HR1 HD1
  ihave HD2 := (consH _ _) $$ HR2 HD2
  ihave HDC0 := (consH _ _) $$ HC0 HDC0
  ihave HDC1 := (consH _ _) $$ HC1 HDC1
  ihave HDC2 := (consH _ _) $$ HC2 HDC2
  ihave HDT0 := (consH _ _) $$ HT0 HDT0
  ihave HDT1 := (consH _ _) $$ HT1 HDT1
  ihave HDT2 := (consH _ _) $$ HT2 HDT2
  -- row 23: its three copies land; the row's resources go to the heads of the chains of what is done
  icases HB23 with ⟨HC0, HT0, HC1, HT1, HC2, HT2⟩
  sl_exec (disch := first | sl_exact hU _ _ | sl_exact hI _ _ | sl_exact hJ _ _)
  ihave HR0 := (row_deliverP scM0 c 23 (by decide) inb_S128x64_S1x64_23_0 _ fs0 _ (gU c i xt0 fh0)) $$ HR0 %(fun q => deliver_gath (by decide) c hbM0 tbM0 fh0 xt0 i ⟨23, by decide⟩ (k0_off93 i) (by show (Scalar.indexCast (Scalar.addi (Scalar.muli (BitVec.ofNat 32 (i 0).val) 128#32) (BitVec.ofNat 32 23))).toNat = _; exact off_val _ 23 hi (by decide)) (by show 128 * (i 0).val + 23 < 16384; omega) _ _ _ q)
  ihave HR1 := (row_deliverP scM1 c 23 (by decide) inb_S128x64_S1x64_23_0 _ fs1 _ (gVi c i xt1 fh1)) $$ HR1 %(fun q => deliver_gath (by decide) c hbM1 tbM1 fh1 xt1 i ⟨23, by decide⟩ (k0_off93 i) (by show (Scalar.indexCast (Scalar.addi (Scalar.muli (BitVec.ofNat 32 (i 0).val) 128#32) (BitVec.ofNat 32 23))).toNat = _; exact off_val _ 23 hi (by decide)) (by show 128 * (i 0).val + 23 < 16384; omega) _ _ _ q)
  ihave HR2 := (row_deliverP scM2 c 23 (by decide) inb_S128x64_S1x64_23_0 _ fs2 _ (gVj c i xt2 fh1)) $$ HR2 %(fun q => deliver_gath (by decide) c hbM1 tbM2 fh1 xt2 i ⟨23, by decide⟩ (k0_off93 i) (by show (Scalar.indexCast (Scalar.addi (Scalar.muli (BitVec.ofNat 32 (i 0).val) 128#32) (BitVec.ofNat 32 23))).toNat = _; exact off_val _ 23 hi (by decide)) (by show 128 * (i 0).val + 23 < 16384; omega) _ _ _ q)
  ihave HD0 := (consH _ _) $$ HR0 HD0
  ihave HD1 := (consH _ _) $$ HR1 HD1
  ihave HD2 := (consH _ _) $$ HR2 HD2
  ihave HDC0 := (consH _ _) $$ HC0 HDC0
  ihave HDC1 := (consH _ _) $$ HC1 HDC1
  ihave HDC2 := (consH _ _) $$ HC2 HDC2
  ihave HDT0 := (consH _ _) $$ HT0 HDT0
  ihave HDT1 := (consH _ _) $$ HT1 HDT1
  ihave HDT2 := (consH _ _) $$ HT2 HDT2
  -- row 24: its three copies land; the row's resources go to the heads of the chains of what is done
  icases HB24 with ⟨HC0, HT0, HC1, HT1, HC2, HT2⟩
  sl_exec (disch := first | sl_exact hU _ _ | sl_exact hI _ _ | sl_exact hJ _ _)
  ihave HR0 := (row_deliverP scM0 c 24 (by decide) inb_S128x64_S1x64_24_0 _ fs0 _ (gU c i xt0 fh0)) $$ HR0 %(fun q => deliver_gath (by decide) c hbM0 tbM0 fh0 xt0 i ⟨24, by decide⟩ (k0_off97 i) (by show (Scalar.indexCast (Scalar.addi (Scalar.muli (BitVec.ofNat 32 (i 0).val) 128#32) (BitVec.ofNat 32 24))).toNat = _; exact off_val _ 24 hi (by decide)) (by show 128 * (i 0).val + 24 < 16384; omega) _ _ _ q)
  ihave HR1 := (row_deliverP scM1 c 24 (by decide) inb_S128x64_S1x64_24_0 _ fs1 _ (gVi c i xt1 fh1)) $$ HR1 %(fun q => deliver_gath (by decide) c hbM1 tbM1 fh1 xt1 i ⟨24, by decide⟩ (k0_off97 i) (by show (Scalar.indexCast (Scalar.addi (Scalar.muli (BitVec.ofNat 32 (i 0).val) 128#32) (BitVec.ofNat 32 24))).toNat = _; exact off_val _ 24 hi (by decide)) (by show 128 * (i 0).val + 24 < 16384; omega) _ _ _ q)
  ihave HR2 := (row_deliverP scM2 c 24 (by decide) inb_S128x64_S1x64_24_0 _ fs2 _ (gVj c i xt2 fh1)) $$ HR2 %(fun q => deliver_gath (by decide) c hbM1 tbM2 fh1 xt2 i ⟨24, by decide⟩ (k0_off97 i) (by show (Scalar.indexCast (Scalar.addi (Scalar.muli (BitVec.ofNat 32 (i 0).val) 128#32) (BitVec.ofNat 32 24))).toNat = _; exact off_val _ 24 hi (by decide)) (by show 128 * (i 0).val + 24 < 16384; omega) _ _ _ q)
  ihave HD0 := (consH _ _) $$ HR0 HD0
  ihave HD1 := (consH _ _) $$ HR1 HD1
  ihave HD2 := (consH _ _) $$ HR2 HD2
  ihave HDC0 := (consH _ _) $$ HC0 HDC0
  ihave HDC1 := (consH _ _) $$ HC1 HDC1
  ihave HDC2 := (consH _ _) $$ HC2 HDC2
  ihave HDT0 := (consH _ _) $$ HT0 HDT0
  ihave HDT1 := (consH _ _) $$ HT1 HDT1
  ihave HDT2 := (consH _ _) $$ HT2 HDT2
  -- row 25: its three copies land; the row's resources go to the heads of the chains of what is done
  icases HB25 with ⟨HC0, HT0, HC1, HT1, HC2, HT2⟩
  sl_exec (disch := first | sl_exact hU _ _ | sl_exact hI _ _ | sl_exact hJ _ _)
  ihave HR0 := (row_deliverP scM0 c 25 (by decide) inb_S128x64_S1x64_25_0 _ fs0 _ (gU c i xt0 fh0)) $$ HR0 %(fun q => deliver_gath (by decide) c hbM0 tbM0 fh0 xt0 i ⟨25, by decide⟩ (k0_off101 i) (by show (Scalar.indexCast (Scalar.addi (Scalar.muli (BitVec.ofNat 32 (i 0).val) 128#32) (BitVec.ofNat 32 25))).toNat = _; exact off_val _ 25 hi (by decide)) (by show 128 * (i 0).val + 25 < 16384; omega) _ _ _ q)
  ihave HR1 := (row_deliverP scM1 c 25 (by decide) inb_S128x64_S1x64_25_0 _ fs1 _ (gVi c i xt1 fh1)) $$ HR1 %(fun q => deliver_gath (by decide) c hbM1 tbM1 fh1 xt1 i ⟨25, by decide⟩ (k0_off101 i) (by show (Scalar.indexCast (Scalar.addi (Scalar.muli (BitVec.ofNat 32 (i 0).val) 128#32) (BitVec.ofNat 32 25))).toNat = _; exact off_val _ 25 hi (by decide)) (by show 128 * (i 0).val + 25 < 16384; omega) _ _ _ q)
  ihave HR2 := (row_deliverP scM2 c 25 (by decide) inb_S128x64_S1x64_25_0 _ fs2 _ (gVj c i xt2 fh1)) $$ HR2 %(fun q => deliver_gath (by decide) c hbM1 tbM2 fh1 xt2 i ⟨25, by decide⟩ (k0_off101 i) (by show (Scalar.indexCast (Scalar.addi (Scalar.muli (BitVec.ofNat 32 (i 0).val) 128#32) (BitVec.ofNat 32 25))).toNat = _; exact off_val _ 25 hi (by decide)) (by show 128 * (i 0).val + 25 < 16384; omega) _ _ _ q)
  ihave HD0 := (consH _ _) $$ HR0 HD0
  ihave HD1 := (consH _ _) $$ HR1 HD1
  ihave HD2 := (consH _ _) $$ HR2 HD2
  ihave HDC0 := (consH _ _) $$ HC0 HDC0
  ihave HDC1 := (consH _ _) $$ HC1 HDC1
  ihave HDC2 := (consH _ _) $$ HC2 HDC2
  ihave HDT0 := (consH _ _) $$ HT0 HDT0
  ihave HDT1 := (consH _ _) $$ HT1 HDT1
  ihave HDT2 := (consH _ _) $$ HT2 HDT2
  -- row 26: its three copies land; the row's resources go to the heads of the chains of what is done
  icases HB26 with ⟨HC0, HT0, HC1, HT1, HC2, HT2⟩
  sl_exec (disch := first | sl_exact hU _ _ | sl_exact hI _ _ | sl_exact hJ _ _)
  ihave HR0 := (row_deliverP scM0 c 26 (by decide) inb_S128x64_S1x64_26_0 _ fs0 _ (gU c i xt0 fh0)) $$ HR0 %(fun q => deliver_gath (by decide) c hbM0 tbM0 fh0 xt0 i ⟨26, by decide⟩ (k0_off105 i) (by show (Scalar.indexCast (Scalar.addi (Scalar.muli (BitVec.ofNat 32 (i 0).val) 128#32) (BitVec.ofNat 32 26))).toNat = _; exact off_val _ 26 hi (by decide)) (by show 128 * (i 0).val + 26 < 16384; omega) _ _ _ q)
  ihave HR1 := (row_deliverP scM1 c 26 (by decide) inb_S128x64_S1x64_26_0 _ fs1 _ (gVi c i xt1 fh1)) $$ HR1 %(fun q => deliver_gath (by decide) c hbM1 tbM1 fh1 xt1 i ⟨26, by decide⟩ (k0_off105 i) (by show (Scalar.indexCast (Scalar.addi (Scalar.muli (BitVec.ofNat 32 (i 0).val) 128#32) (BitVec.ofNat 32 26))).toNat = _; exact off_val _ 26 hi (by decide)) (by show 128 * (i 0).val + 26 < 16384; omega) _ _ _ q)
  ihave HR2 := (row_deliverP scM2 c 26 (by decide) inb_S128x64_S1x64_26_0 _ fs2 _ (gVj c i xt2 fh1)) $$ HR2 %(fun q => deliver_gath (by decide) c hbM1 tbM2 fh1 xt2 i ⟨26, by decide⟩ (k0_off105 i) (by show (Scalar.indexCast (Scalar.addi (Scalar.muli (BitVec.ofNat 32 (i 0).val) 128#32) (BitVec.ofNat 32 26))).toNat = _; exact off_val _ 26 hi (by decide)) (by show 128 * (i 0).val + 26 < 16384; omega) _ _ _ q)
  ihave HD0 := (consH _ _) $$ HR0 HD0
  ihave HD1 := (consH _ _) $$ HR1 HD1
  ihave HD2 := (consH _ _) $$ HR2 HD2
  ihave HDC0 := (consH _ _) $$ HC0 HDC0
  ihave HDC1 := (consH _ _) $$ HC1 HDC1
  ihave HDC2 := (consH _ _) $$ HC2 HDC2
  ihave HDT0 := (consH _ _) $$ HT0 HDT0
  ihave HDT1 := (consH _ _) $$ HT1 HDT1
  ihave HDT2 := (consH _ _) $$ HT2 HDT2
  -- row 27: its three copies land; the row's resources go to the heads of the chains of what is done
  icases HB27 with ⟨HC0, HT0, HC1, HT1, HC2, HT2⟩
  sl_exec (disch := first | sl_exact hU _ _ | sl_exact hI _ _ | sl_exact hJ _ _)
  ihave HR0 := (row_deliverP scM0 c 27 (by decide) inb_S128x64_S1x64_27_0 _ fs0 _ (gU c i xt0 fh0)) $$ HR0 %(fun q => deliver_gath (by decide) c hbM0 tbM0 fh0 xt0 i ⟨27, by decide⟩ (k0_off109 i) (by show (Scalar.indexCast (Scalar.addi (Scalar.muli (BitVec.ofNat 32 (i 0).val) 128#32) (BitVec.ofNat 32 27))).toNat = _; exact off_val _ 27 hi (by decide)) (by show 128 * (i 0).val + 27 < 16384; omega) _ _ _ q)
  ihave HR1 := (row_deliverP scM1 c 27 (by decide) inb_S128x64_S1x64_27_0 _ fs1 _ (gVi c i xt1 fh1)) $$ HR1 %(fun q => deliver_gath (by decide) c hbM1 tbM1 fh1 xt1 i ⟨27, by decide⟩ (k0_off109 i) (by show (Scalar.indexCast (Scalar.addi (Scalar.muli (BitVec.ofNat 32 (i 0).val) 128#32) (BitVec.ofNat 32 27))).toNat = _; exact off_val _ 27 hi (by decide)) (by show 128 * (i 0).val + 27 < 16384; omega) _ _ _ q)
  ihave HR2 := (row_deliverP scM2 c 27 (by decide) inb_S128x64_S1x64_27_0 _ fs2 _ (gVj c i xt2 fh1)) $$ HR2 %(fun q => deliver_gath (by decide) c hbM1 tbM2 fh1 xt2 i ⟨27, by decide⟩ (k0_off109 i) (by show (Scalar.indexCast (Scalar.addi (Scalar.muli (BitVec.ofNat 32 (i 0).val) 128#32) (BitVec.ofNat 32 27))).toNat = _; exact off_val _ 27 hi (by decide)) (by show 128 * (i 0).val + 27 < 16384; omega) _ _ _ q)
  ihave HD0 := (consH _ _) $$ HR0 HD0
  ihave HD1 := (consH _ _) $$ HR1 HD1
  ihave HD2 := (consH _ _) $$ HR2 HD2
  ihave HDC0 := (consH _ _) $$ HC0 HDC0
  ihave HDC1 := (consH _ _) $$ HC1 HDC1
  ihave HDC2 := (consH _ _) $$ HC2 HDC2
  ihave HDT0 := (consH _ _) $$ HT0 HDT0
  ihave HDT1 := (consH _ _) $$ HT1 HDT1
  ihave HDT2 := (consH _ _) $$ HT2 HDT2
  -- row 28: its three copies land; the row's resources go to the heads of the chains of what is done
  icases HB28 with ⟨HC0, HT0, HC1, HT1, HC2, HT2⟩
  sl_exec (disch := first | sl_exact hU _ _ | sl_exact hI _ _ | sl_exact hJ _ _)
  ihave HR0 := (row_deliverP scM0 c 28 (by decide) inb_S128x64_S1x64_28_0 _ fs0 _ (gU c i xt0 fh0)) $$ HR0 %(fun q => deliver_gath (by decide) c hbM0 tbM0 fh0 xt0 i ⟨28, by decide⟩ (k0_off113 i) (by show (Scalar.indexCast (Scalar.addi (Scalar.muli (BitVec.ofNat 32 (i 0).val) 128#32) (BitVec.ofNat 32 28))).toNat = _; exact off_val _ 28 hi (by decide)) (by show 128 * (i 0).val + 28 < 16384; omega) _ _ _ q)
  ihave HR1 := (row_deliverP scM1 c 28 (by decide) inb_S128x64_S1x64_28_0 _ fs1 _ (gVi c i xt1 fh1)) $$ HR1 %(fun q => deliver_gath (by decide) c hbM1 tbM1 fh1 xt1 i ⟨28, by decide⟩ (k0_off113 i) (by show (Scalar.indexCast (Scalar.addi (Scalar.muli (BitVec.ofNat 32 (i 0).val) 128#32) (BitVec.ofNat 32 28))).toNat = _; exact off_val _ 28 hi (by decide)) (by show 128 * (i 0).val + 28 < 16384; omega) _ _ _ q)
  ihave HR2 := (row_deliverP scM2 c 28 (by decide) inb_S128x64_S1x64_28_0 _ fs2 _ (gVj c i xt2 fh1)) $$ HR2 %(fun q => deliver_gath (by decide) c hbM1 tbM2 fh1 xt2 i ⟨28, by decide⟩ (k0_off113 i) (by show (Scalar.indexCast (Scalar.addi (Scalar.muli (BitVec.ofNat 32 (i 0).val) 128#32) (BitVec.ofNat 32 28))).toNat = _; exact off_val _ 28 hi (by decide)) (by show 128 * (i 0).val + 28 < 16384; omega) _ _ _ q)
  ihave HD0 := (consH _ _) $$ HR0 HD0
  ihave HD1 := (consH _ _) $$ HR1 HD1
  ihave HD2 := (consH _ _) $$ HR2 HD2
  ihave HDC0 := (consH _ _) $$ HC0 HDC0
  ihave HDC1 := (consH _ _) $$ HC1 HDC1
  ihave HDC2 := (consH _ _) $$ HC2 HDC2
  ihave HDT0 := (consH _ _) $$ HT0 HDT0
  ihave HDT1 := (consH _ _) $$ HT1 HDT1
  ihave HDT2 := (consH _ _) $$ HT2 HDT2
  -- row 29: its three copies land; the row's resources go to the heads of the chains of what is done
  icases HB29 with ⟨HC0, HT0, HC1, HT1, HC2, HT2⟩
  sl_exec (disch := first | sl_exact hU _ _ | sl_exact hI _ _ | sl_exact hJ _ _)
  ihave HR0 := (row_deliverP scM0 c 29 (by decide) inb_S128x64_S1x64_29_0 _ fs0 _ (gU c i xt0 fh0)) $$ HR0 %(fun q => deliver_gath (by decide) c hbM0 tbM0 fh0 xt0 i ⟨29, by decide⟩ (k0_off117 i) (by show (Scalar.indexCast (Scalar.addi (Scalar.muli (BitVec.ofNat 32 (i 0).val) 128#32) (BitVec.ofNat 32 29))).toNat = _; exact off_val _ 29 hi (by decide)) (by show 128 * (i 0).val + 29 < 16384; omega) _ _ _ q)
  ihave HR1 := (row_deliverP scM1 c 29 (by decide) inb_S128x64_S1x64_29_0 _ fs1 _ (gVi c i xt1 fh1)) $$ HR1 %(fun q => deliver_gath (by decide) c hbM1 tbM1 fh1 xt1 i ⟨29, by decide⟩ (k0_off117 i) (by show (Scalar.indexCast (Scalar.addi (Scalar.muli (BitVec.ofNat 32 (i 0).val) 128#32) (BitVec.ofNat 32 29))).toNat = _; exact off_val _ 29 hi (by decide)) (by show 128 * (i 0).val + 29 < 16384; omega) _ _ _ q)
  ihave HR2 := (row_deliverP scM2 c 29 (by decide) inb_S128x64_S1x64_29_0 _ fs2 _ (gVj c i xt2 fh1)) $$ HR2 %(fun q => deliver_gath (by decide) c hbM1 tbM2 fh1 xt2 i ⟨29, by decide⟩ (k0_off117 i) (by show (Scalar.indexCast (Scalar.addi (Scalar.muli (BitVec.ofNat 32 (i 0).val) 128#32) (BitVec.ofNat 32 29))).toNat = _; exact off_val _ 29 hi (by decide)) (by show 128 * (i 0).val + 29 < 16384; omega) _ _ _ q)
  ihave HD0 := (consH _ _) $$ HR0 HD0
  ihave HD1 := (consH _ _) $$ HR1 HD1
  ihave HD2 := (consH _ _) $$ HR2 HD2
  ihave HDC0 := (consH _ _) $$ HC0 HDC0
  ihave HDC1 := (consH _ _) $$ HC1 HDC1
  ihave HDC2 := (consH _ _) $$ HC2 HDC2
  ihave HDT0 := (consH _ _) $$ HT0 HDT0
  ihave HDT1 := (consH _ _) $$ HT1 HDT1
  ihave HDT2 := (consH _ _) $$ HT2 HDT2
  -- row 30: its three copies land; the row's resources go to the heads of the chains of what is done
  icases HB30 with ⟨HC0, HT0, HC1, HT1, HC2, HT2⟩
  sl_exec (disch := first | sl_exact hU _ _ | sl_exact hI _ _ | sl_exact hJ _ _)
  ihave HR0 := (row_deliverP scM0 c 30 (by decide) inb_S128x64_S1x64_30_0 _ fs0 _ (gU c i xt0 fh0)) $$ HR0 %(fun q => deliver_gath (by decide) c hbM0 tbM0 fh0 xt0 i ⟨30, by decide⟩ (k0_off121 i) (by show (Scalar.indexCast (Scalar.addi (Scalar.muli (BitVec.ofNat 32 (i 0).val) 128#32) (BitVec.ofNat 32 30))).toNat = _; exact off_val _ 30 hi (by decide)) (by show 128 * (i 0).val + 30 < 16384; omega) _ _ _ q)
  ihave HR1 := (row_deliverP scM1 c 30 (by decide) inb_S128x64_S1x64_30_0 _ fs1 _ (gVi c i xt1 fh1)) $$ HR1 %(fun q => deliver_gath (by decide) c hbM1 tbM1 fh1 xt1 i ⟨30, by decide⟩ (k0_off121 i) (by show (Scalar.indexCast (Scalar.addi (Scalar.muli (BitVec.ofNat 32 (i 0).val) 128#32) (BitVec.ofNat 32 30))).toNat = _; exact off_val _ 30 hi (by decide)) (by show 128 * (i 0).val + 30 < 16384; omega) _ _ _ q)
  ihave HR2 := (row_deliverP scM2 c 30 (by decide) inb_S128x64_S1x64_30_0 _ fs2 _ (gVj c i xt2 fh1)) $$ HR2 %(fun q => deliver_gath (by decide) c hbM1 tbM2 fh1 xt2 i ⟨30, by decide⟩ (k0_off121 i) (by show (Scalar.indexCast (Scalar.addi (Scalar.muli (BitVec.ofNat 32 (i 0).val) 128#32) (BitVec.ofNat 32 30))).toNat = _; exact off_val _ 30 hi (by decide)) (by show 128 * (i 0).val + 30 < 16384; omega) _ _ _ q)
  ihave HD0 := (consH _ _) $$ HR0 HD0
  ihave HD1 := (consH _ _) $$ HR1 HD1
  ihave HD2 := (consH _ _) $$ HR2 HD2
  ihave HDC0 := (consH _ _) $$ HC0 HDC0
  ihave HDC1 := (consH _ _) $$ HC1 HDC1
  ihave HDC2 := (consH _ _) $$ HC2 HDC2
  ihave HDT0 := (consH _ _) $$ HT0 HDT0
  ihave HDT1 := (consH _ _) $$ HT1 HDT1
  ihave HDT2 := (consH _ _) $$ HT2 HDT2
  -- row 31: its three copies land; the row's resources go to the heads of the chains of what is done
  icases HB31 with ⟨HC0, HT0, HC1, HT1, HC2, HT2⟩
  sl_exec (disch := first | sl_exact hU _ _ | sl_exact hI _ _ | sl_exact hJ _ _)
  ihave HR0 := (row_deliverP scM0 c 31 (by decide) inb_S128x64_S1x64_31_0 _ fs0 _ (gU c i xt0 fh0)) $$ HR0 %(fun q => deliver_gath (by decide) c hbM0 tbM0 fh0 xt0 i ⟨31, by decide⟩ (k0_off125 i) (by show (Scalar.indexCast (Scalar.addi (Scalar.muli (BitVec.ofNat 32 (i 0).val) 128#32) (BitVec.ofNat 32 31))).toNat = _; exact off_val _ 31 hi (by decide)) (by show 128 * (i 0).val + 31 < 16384; omega) _ _ _ q)
  ihave HR1 := (row_deliverP scM1 c 31 (by decide) inb_S128x64_S1x64_31_0 _ fs1 _ (gVi c i xt1 fh1)) $$ HR1 %(fun q => deliver_gath (by decide) c hbM1 tbM1 fh1 xt1 i ⟨31, by decide⟩ (k0_off125 i) (by show (Scalar.indexCast (Scalar.addi (Scalar.muli (BitVec.ofNat 32 (i 0).val) 128#32) (BitVec.ofNat 32 31))).toNat = _; exact off_val _ 31 hi (by decide)) (by show 128 * (i 0).val + 31 < 16384; omega) _ _ _ q)
  ihave HR2 := (row_deliverP scM2 c 31 (by decide) inb_S128x64_S1x64_31_0 _ fs2 _ (gVj c i xt2 fh1)) $$ HR2 %(fun q => deliver_gath (by decide) c hbM1 tbM2 fh1 xt2 i ⟨31, by decide⟩ (k0_off125 i) (by show (Scalar.indexCast (Scalar.addi (Scalar.muli (BitVec.ofNat 32 (i 0).val) 128#32) (BitVec.ofNat 32 31))).toNat = _; exact off_val _ 31 hi (by decide)) (by show 128 * (i 0).val + 31 < 16384; omega) _ _ _ q)
  ihave HD0 := (consH _ _) $$ HR0 HD0
  ihave HD1 := (consH _ _) $$ HR1 HD1
  ihave HD2 := (consH _ _) $$ HR2 HD2
  ihave HDC0 := (consH _ _) $$ HC0 HDC0
  ihave HDC1 := (consH _ _) $$ HC1 HDC1
  ihave HDC2 := (consH _ _) $$ HC2 HDC2
  ihave HDT0 := (consH _ _) $$ HT0 HDT0
  ihave HDT1 := (consH _ _) $$ HT1 HDT1
  ihave HDT2 := (consH _ _) $$ HT2 HDT2
  -- row 32: its three copies land; the row's resources go to the heads of the chains of what is done
  icases HB32 with ⟨HC0, HT0, HC1, HT1, HC2, HT2⟩
  sl_exec (disch := first | sl_exact hU _ _ | sl_exact hI _ _ | sl_exact hJ _ _)
  ihave HR0 := (row_deliverP scM0 c 32 (by decide) inb_S128x64_S1x64_32_0 _ fs0 _ (gU c i xt0 fh0)) $$ HR0 %(fun q => deliver_gath (by decide) c hbM0 tbM0 fh0 xt0 i ⟨32, by decide⟩ (k0_off129 i) (by show (Scalar.indexCast (Scalar.addi (Scalar.muli (BitVec.ofNat 32 (i 0).val) 128#32) (BitVec.ofNat 32 32))).toNat = _; exact off_val _ 32 hi (by decide)) (by show 128 * (i 0).val + 32 < 16384; omega) _ _ _ q)
  ihave HR1 := (row_deliverP scM1 c 32 (by decide) inb_S128x64_S1x64_32_0 _ fs1 _ (gVi c i xt1 fh1)) $$ HR1 %(fun q => deliver_gath (by decide) c hbM1 tbM1 fh1 xt1 i ⟨32, by decide⟩ (k0_off129 i) (by show (Scalar.indexCast (Scalar.addi (Scalar.muli (BitVec.ofNat 32 (i 0).val) 128#32) (BitVec.ofNat 32 32))).toNat = _; exact off_val _ 32 hi (by decide)) (by show 128 * (i 0).val + 32 < 16384; omega) _ _ _ q)
  ihave HR2 := (row_deliverP scM2 c 32 (by decide) inb_S128x64_S1x64_32_0 _ fs2 _ (gVj c i xt2 fh1)) $$ HR2 %(fun q => deliver_gath (by decide) c hbM1 tbM2 fh1 xt2 i ⟨32, by decide⟩ (k0_off129 i) (by show (Scalar.indexCast (Scalar.addi (Scalar.muli (BitVec.ofNat 32 (i 0).val) 128#32) (BitVec.ofNat 32 32))).toNat = _; exact off_val _ 32 hi (by decide)) (by show 128 * (i 0).val + 32 < 16384; omega) _ _ _ q)
  ihave HD0 := (consH _ _) $$ HR0 HD0
  ihave HD1 := (consH _ _) $$ HR1 HD1
  ihave HD2 := (consH _ _) $$ HR2 HD2
  ihave HDC0 := (consH _ _) $$ HC0 HDC0
  ihave HDC1 := (consH _ _) $$ HC1 HDC1
  ihave HDC2 := (consH _ _) $$ HC2 HDC2
  ihave HDT0 := (consH _ _) $$ HT0 HDT0
  ihave HDT1 := (consH _ _) $$ HT1 HDT1
  ihave HDT2 := (consH _ _) $$ HT2 HDT2
  -- row 33: its three copies land; the row's resources go to the heads of the chains of what is done
  icases HB33 with ⟨HC0, HT0, HC1, HT1, HC2, HT2⟩
  sl_exec (disch := first | sl_exact hU _ _ | sl_exact hI _ _ | sl_exact hJ _ _)
  ihave HR0 := (row_deliverP scM0 c 33 (by decide) inb_S128x64_S1x64_33_0 _ fs0 _ (gU c i xt0 fh0)) $$ HR0 %(fun q => deliver_gath (by decide) c hbM0 tbM0 fh0 xt0 i ⟨33, by decide⟩ (k0_off133 i) (by show (Scalar.indexCast (Scalar.addi (Scalar.muli (BitVec.ofNat 32 (i 0).val) 128#32) (BitVec.ofNat 32 33))).toNat = _; exact off_val _ 33 hi (by decide)) (by show 128 * (i 0).val + 33 < 16384; omega) _ _ _ q)
  ihave HR1 := (row_deliverP scM1 c 33 (by decide) inb_S128x64_S1x64_33_0 _ fs1 _ (gVi c i xt1 fh1)) $$ HR1 %(fun q => deliver_gath (by decide) c hbM1 tbM1 fh1 xt1 i ⟨33, by decide⟩ (k0_off133 i) (by show (Scalar.indexCast (Scalar.addi (Scalar.muli (BitVec.ofNat 32 (i 0).val) 128#32) (BitVec.ofNat 32 33))).toNat = _; exact off_val _ 33 hi (by decide)) (by show 128 * (i 0).val + 33 < 16384; omega) _ _ _ q)
  ihave HR2 := (row_deliverP scM2 c 33 (by decide) inb_S128x64_S1x64_33_0 _ fs2 _ (gVj c i xt2 fh1)) $$ HR2 %(fun q => deliver_gath (by decide) c hbM1 tbM2 fh1 xt2 i ⟨33, by decide⟩ (k0_off133 i) (by show (Scalar.indexCast (Scalar.addi (Scalar.muli (BitVec.ofNat 32 (i 0).val) 128#32) (BitVec.ofNat 32 33))).toNat = _; exact off_val _ 33 hi (by decide)) (by show 128 * (i 0).val + 33 < 16384; omega) _ _ _ q)
  ihave HD0 := (consH _ _) $$ HR0 HD0
  ihave HD1 := (consH _ _) $$ HR1 HD1
  ihave HD2 := (consH _ _) $$ HR2 HD2
  ihave HDC0 := (consH _ _) $$ HC0 HDC0
  ihave HDC1 := (consH _ _) $$ HC1 HDC1
  ihave HDC2 := (consH _ _) $$ HC2 HDC2
  ihave HDT0 := (consH _ _) $$ HT0 HDT0
  ihave HDT1 := (consH _ _) $$ HT1 HDT1
  ihave HDT2 := (consH _ _) $$ HT2 HDT2
  -- row 34: its three copies land; the row's resources go to the heads of the chains of what is done
  icases HB34 with ⟨HC0, HT0, HC1, HT1, HC2, HT2⟩
  sl_exec (disch := first | sl_exact hU _ _ | sl_exact hI _ _ | sl_exact hJ _ _)
  ihave HR0 := (row_deliverP scM0 c 34 (by decide) inb_S128x64_S1x64_34_0 _ fs0 _ (gU c i xt0 fh0)) $$ HR0 %(fun q => deliver_gath (by decide) c hbM0 tbM0 fh0 xt0 i ⟨34, by decide⟩ (k0_off137 i) (by show (Scalar.indexCast (Scalar.addi (Scalar.muli (BitVec.ofNat 32 (i 0).val) 128#32) (BitVec.ofNat 32 34))).toNat = _; exact off_val _ 34 hi (by decide)) (by show 128 * (i 0).val + 34 < 16384; omega) _ _ _ q)
  ihave HR1 := (row_deliverP scM1 c 34 (by decide) inb_S128x64_S1x64_34_0 _ fs1 _ (gVi c i xt1 fh1)) $$ HR1 %(fun q => deliver_gath (by decide) c hbM1 tbM1 fh1 xt1 i ⟨34, by decide⟩ (k0_off137 i) (by show (Scalar.indexCast (Scalar.addi (Scalar.muli (BitVec.ofNat 32 (i 0).val) 128#32) (BitVec.ofNat 32 34))).toNat = _; exact off_val _ 34 hi (by decide)) (by show 128 * (i 0).val + 34 < 16384; omega) _ _ _ q)
  ihave HR2 := (row_deliverP scM2 c 34 (by decide) inb_S128x64_S1x64_34_0 _ fs2 _ (gVj c i xt2 fh1)) $$ HR2 %(fun q => deliver_gath (by decide) c hbM1 tbM2 fh1 xt2 i ⟨34, by decide⟩ (k0_off137 i) (by show (Scalar.indexCast (Scalar.addi (Scalar.muli (BitVec.ofNat 32 (i 0).val) 128#32) (BitVec.ofNat 32 34))).toNat = _; exact off_val _ 34 hi (by decide)) (by show 128 * (i 0).val + 34 < 16384; omega) _ _ _ q)
  ihave HD0 := (consH _ _) $$ HR0 HD0
  ihave HD1 := (consH _ _) $$ HR1 HD1
  ihave HD2 := (consH _ _) $$ HR2 HD2
  ihave HDC0 := (consH _ _) $$ HC0 HDC0
  ihave HDC1 := (consH _ _) $$ HC1 HDC1
  ihave HDC2 := (consH _ _) $$ HC2 HDC2
  ihave HDT0 := (consH _ _) $$ HT0 HDT0
  ihave HDT1 := (consH _ _) $$ HT1 HDT1
  ihave HDT2 := (consH _ _) $$ HT2 HDT2
  -- row 35: its three copies land; the row's resources go to the heads of the chains of what is done
  icases HB35 with ⟨HC0, HT0, HC1, HT1, HC2, HT2⟩
  sl_exec (disch := first | sl_exact hU _ _ | sl_exact hI _ _ | sl_exact hJ _ _)
  ihave HR0 := (row_deliverP scM0 c 35 (by decide) inb_S128x64_S1x64_35_0 _ fs0 _ (gU c i xt0 fh0)) $$ HR0 %(fun q => deliver_gath (by decide) c hbM0 tbM0 fh0 xt0 i ⟨35, by decide⟩ (k0_off141 i) (by show (Scalar.indexCast (Scalar.addi (Scalar.muli (BitVec.ofNat 32 (i 0).val) 128#32) (BitVec.ofNat 32 35))).toNat = _; exact off_val _ 35 hi (by decide)) (by show 128 * (i 0).val + 35 < 16384; omega) _ _ _ q)
  ihave HR1 := (row_deliverP scM1 c 35 (by decide) inb_S128x64_S1x64_35_0 _ fs1 _ (gVi c i xt1 fh1)) $$ HR1 %(fun q => deliver_gath (by decide) c hbM1 tbM1 fh1 xt1 i ⟨35, by decide⟩ (k0_off141 i) (by show (Scalar.indexCast (Scalar.addi (Scalar.muli (BitVec.ofNat 32 (i 0).val) 128#32) (BitVec.ofNat 32 35))).toNat = _; exact off_val _ 35 hi (by decide)) (by show 128 * (i 0).val + 35 < 16384; omega) _ _ _ q)
  ihave HR2 := (row_deliverP scM2 c 35 (by decide) inb_S128x64_S1x64_35_0 _ fs2 _ (gVj c i xt2 fh1)) $$ HR2 %(fun q => deliver_gath (by decide) c hbM1 tbM2 fh1 xt2 i ⟨35, by decide⟩ (k0_off141 i) (by show (Scalar.indexCast (Scalar.addi (Scalar.muli (BitVec.ofNat 32 (i 0).val) 128#32) (BitVec.ofNat 32 35))).toNat = _; exact off_val _ 35 hi (by decide)) (by show 128 * (i 0).val + 35 < 16384; omega) _ _ _ q)
  ihave HD0 := (consH _ _) $$ HR0 HD0
  ihave HD1 := (consH _ _) $$ HR1 HD1
  ihave HD2 := (consH _ _) $$ HR2 HD2
  ihave HDC0 := (consH _ _) $$ HC0 HDC0
  ihave HDC1 := (consH _ _) $$ HC1 HDC1
  ihave HDC2 := (consH _ _) $$ HC2 HDC2
  ihave HDT0 := (consH _ _) $$ HT0 HDT0
  ihave HDT1 := (consH _ _) $$ HT1 HDT1
  ihave HDT2 := (consH _ _) $$ HT2 HDT2
  -- row 36: its three copies land; the row's resources go to the heads of the chains of what is done
  icases HB36 with ⟨HC0, HT0, HC1, HT1, HC2, HT2⟩
  sl_exec (disch := first | sl_exact hU _ _ | sl_exact hI _ _ | sl_exact hJ _ _)
  ihave HR0 := (row_deliverP scM0 c 36 (by decide) inb_S128x64_S1x64_36_0 _ fs0 _ (gU c i xt0 fh0)) $$ HR0 %(fun q => deliver_gath (by decide) c hbM0 tbM0 fh0 xt0 i ⟨36, by decide⟩ (k0_off145 i) (by show (Scalar.indexCast (Scalar.addi (Scalar.muli (BitVec.ofNat 32 (i 0).val) 128#32) (BitVec.ofNat 32 36))).toNat = _; exact off_val _ 36 hi (by decide)) (by show 128 * (i 0).val + 36 < 16384; omega) _ _ _ q)
  ihave HR1 := (row_deliverP scM1 c 36 (by decide) inb_S128x64_S1x64_36_0 _ fs1 _ (gVi c i xt1 fh1)) $$ HR1 %(fun q => deliver_gath (by decide) c hbM1 tbM1 fh1 xt1 i ⟨36, by decide⟩ (k0_off145 i) (by show (Scalar.indexCast (Scalar.addi (Scalar.muli (BitVec.ofNat 32 (i 0).val) 128#32) (BitVec.ofNat 32 36))).toNat = _; exact off_val _ 36 hi (by decide)) (by show 128 * (i 0).val + 36 < 16384; omega) _ _ _ q)
  ihave HR2 := (row_deliverP scM2 c 36 (by decide) inb_S128x64_S1x64_36_0 _ fs2 _ (gVj c i xt2 fh1)) $$ HR2 %(fun q => deliver_gath (by decide) c hbM1 tbM2 fh1 xt2 i ⟨36, by decide⟩ (k0_off145 i) (by show (Scalar.indexCast (Scalar.addi (Scalar.muli (BitVec.ofNat 32 (i 0).val) 128#32) (BitVec.ofNat 32 36))).toNat = _; exact off_val _ 36 hi (by decide)) (by show 128 * (i 0).val + 36 < 16384; omega) _ _ _ q)
  ihave HD0 := (consH _ _) $$ HR0 HD0
  ihave HD1 := (consH _ _) $$ HR1 HD1
  ihave HD2 := (consH _ _) $$ HR2 HD2
  ihave HDC0 := (consH _ _) $$ HC0 HDC0
  ihave HDC1 := (consH _ _) $$ HC1 HDC1
  ihave HDC2 := (consH _ _) $$ HC2 HDC2
  ihave HDT0 := (consH _ _) $$ HT0 HDT0
  ihave HDT1 := (consH _ _) $$ HT1 HDT1
  ihave HDT2 := (consH _ _) $$ HT2 HDT2
  -- row 37: its three copies land; the row's resources go to the heads of the chains of what is done
  icases HB37 with ⟨HC0, HT0, HC1, HT1, HC2, HT2⟩
  sl_exec (disch := first | sl_exact hU _ _ | sl_exact hI _ _ | sl_exact hJ _ _)
  ihave HR0 := (row_deliverP scM0 c 37 (by decide) inb_S128x64_S1x64_37_0 _ fs0 _ (gU c i xt0 fh0)) $$ HR0 %(fun q => deliver_gath (by decide) c hbM0 tbM0 fh0 xt0 i ⟨37, by decide⟩ (k0_off149 i) (by show (Scalar.indexCast (Scalar.addi (Scalar.muli (BitVec.ofNat 32 (i 0).val) 128#32) (BitVec.ofNat 32 37))).toNat = _; exact off_val _ 37 hi (by decide)) (by show 128 * (i 0).val + 37 < 16384; omega) _ _ _ q)
  ihave HR1 := (row_deliverP scM1 c 37 (by decide) inb_S128x64_S1x64_37_0 _ fs1 _ (gVi c i xt1 fh1)) $$ HR1 %(fun q => deliver_gath (by decide) c hbM1 tbM1 fh1 xt1 i ⟨37, by decide⟩ (k0_off149 i) (by show (Scalar.indexCast (Scalar.addi (Scalar.muli (BitVec.ofNat 32 (i 0).val) 128#32) (BitVec.ofNat 32 37))).toNat = _; exact off_val _ 37 hi (by decide)) (by show 128 * (i 0).val + 37 < 16384; omega) _ _ _ q)
  ihave HR2 := (row_deliverP scM2 c 37 (by decide) inb_S128x64_S1x64_37_0 _ fs2 _ (gVj c i xt2 fh1)) $$ HR2 %(fun q => deliver_gath (by decide) c hbM1 tbM2 fh1 xt2 i ⟨37, by decide⟩ (k0_off149 i) (by show (Scalar.indexCast (Scalar.addi (Scalar.muli (BitVec.ofNat 32 (i 0).val) 128#32) (BitVec.ofNat 32 37))).toNat = _; exact off_val _ 37 hi (by decide)) (by show 128 * (i 0).val + 37 < 16384; omega) _ _ _ q)
  ihave HD0 := (consH _ _) $$ HR0 HD0
  ihave HD1 := (consH _ _) $$ HR1 HD1
  ihave HD2 := (consH _ _) $$ HR2 HD2
  ihave HDC0 := (consH _ _) $$ HC0 HDC0
  ihave HDC1 := (consH _ _) $$ HC1 HDC1
  ihave HDC2 := (consH _ _) $$ HC2 HDC2
  ihave HDT0 := (consH _ _) $$ HT0 HDT0
  ihave HDT1 := (consH _ _) $$ HT1 HDT1
  ihave HDT2 := (consH _ _) $$ HT2 HDT2
  -- row 38: its three copies land; the row's resources go to the heads of the chains of what is done
  icases HB38 with ⟨HC0, HT0, HC1, HT1, HC2, HT2⟩
  sl_exec (disch := first | sl_exact hU _ _ | sl_exact hI _ _ | sl_exact hJ _ _)
  ihave HR0 := (row_deliverP scM0 c 38 (by decide) inb_S128x64_S1x64_38_0 _ fs0 _ (gU c i xt0 fh0)) $$ HR0 %(fun q => deliver_gath (by decide) c hbM0 tbM0 fh0 xt0 i ⟨38, by decide⟩ (k0_off153 i) (by show (Scalar.indexCast (Scalar.addi (Scalar.muli (BitVec.ofNat 32 (i 0).val) 128#32) (BitVec.ofNat 32 38))).toNat = _; exact off_val _ 38 hi (by decide)) (by show 128 * (i 0).val + 38 < 16384; omega) _ _ _ q)
  ihave HR1 := (row_deliverP scM1 c 38 (by decide) inb_S128x64_S1x64_38_0 _ fs1 _ (gVi c i xt1 fh1)) $$ HR1 %(fun q => deliver_gath (by decide) c hbM1 tbM1 fh1 xt1 i ⟨38, by decide⟩ (k0_off153 i) (by show (Scalar.indexCast (Scalar.addi (Scalar.muli (BitVec.ofNat 32 (i 0).val) 128#32) (BitVec.ofNat 32 38))).toNat = _; exact off_val _ 38 hi (by decide)) (by show 128 * (i 0).val + 38 < 16384; omega) _ _ _ q)
  ihave HR2 := (row_deliverP scM2 c 38 (by decide) inb_S128x64_S1x64_38_0 _ fs2 _ (gVj c i xt2 fh1)) $$ HR2 %(fun q => deliver_gath (by decide) c hbM1 tbM2 fh1 xt2 i ⟨38, by decide⟩ (k0_off153 i) (by show (Scalar.indexCast (Scalar.addi (Scalar.muli (BitVec.ofNat 32 (i 0).val) 128#32) (BitVec.ofNat 32 38))).toNat = _; exact off_val _ 38 hi (by decide)) (by show 128 * (i 0).val + 38 < 16384; omega) _ _ _ q)
  ihave HD0 := (consH _ _) $$ HR0 HD0
  ihave HD1 := (consH _ _) $$ HR1 HD1
  ihave HD2 := (consH _ _) $$ HR2 HD2
  ihave HDC0 := (consH _ _) $$ HC0 HDC0
  ihave HDC1 := (consH _ _) $$ HC1 HDC1
  ihave HDC2 := (consH _ _) $$ HC2 HDC2
  ihave HDT0 := (consH _ _) $$ HT0 HDT0
  ihave HDT1 := (consH _ _) $$ HT1 HDT1
  ihave HDT2 := (consH _ _) $$ HT2 HDT2
  -- row 39: its three copies land; the row's resources go to the heads of the chains of what is done
  icases HB39 with ⟨HC0, HT0, HC1, HT1, HC2, HT2⟩
  sl_exec (disch := first | sl_exact hU _ _ | sl_exact hI _ _ | sl_exact hJ _ _)
  ihave HR0 := (row_deliverP scM0 c 39 (by decide) inb_S128x64_S1x64_39_0 _ fs0 _ (gU c i xt0 fh0)) $$ HR0 %(fun q => deliver_gath (by decide) c hbM0 tbM0 fh0 xt0 i ⟨39, by decide⟩ (k0_off157 i) (by show (Scalar.indexCast (Scalar.addi (Scalar.muli (BitVec.ofNat 32 (i 0).val) 128#32) (BitVec.ofNat 32 39))).toNat = _; exact off_val _ 39 hi (by decide)) (by show 128 * (i 0).val + 39 < 16384; omega) _ _ _ q)
  ihave HR1 := (row_deliverP scM1 c 39 (by decide) inb_S128x64_S1x64_39_0 _ fs1 _ (gVi c i xt1 fh1)) $$ HR1 %(fun q => deliver_gath (by decide) c hbM1 tbM1 fh1 xt1 i ⟨39, by decide⟩ (k0_off157 i) (by show (Scalar.indexCast (Scalar.addi (Scalar.muli (BitVec.ofNat 32 (i 0).val) 128#32) (BitVec.ofNat 32 39))).toNat = _; exact off_val _ 39 hi (by decide)) (by show 128 * (i 0).val + 39 < 16384; omega) _ _ _ q)
  ihave HR2 := (row_deliverP scM2 c 39 (by decide) inb_S128x64_S1x64_39_0 _ fs2 _ (gVj c i xt2 fh1)) $$ HR2 %(fun q => deliver_gath (by decide) c hbM1 tbM2 fh1 xt2 i ⟨39, by decide⟩ (k0_off157 i) (by show (Scalar.indexCast (Scalar.addi (Scalar.muli (BitVec.ofNat 32 (i 0).val) 128#32) (BitVec.ofNat 32 39))).toNat = _; exact off_val _ 39 hi (by decide)) (by show 128 * (i 0).val + 39 < 16384; omega) _ _ _ q)
  ihave HD0 := (consH _ _) $$ HR0 HD0
  ihave HD1 := (consH _ _) $$ HR1 HD1
  ihave HD2 := (consH _ _) $$ HR2 HD2
  ihave HDC0 := (consH _ _) $$ HC0 HDC0
  ihave HDC1 := (consH _ _) $$ HC1 HDC1
  ihave HDC2 := (consH _ _) $$ HC2 HDC2
  ihave HDT0 := (consH _ _) $$ HT0 HDT0
  ihave HDT1 := (consH _ _) $$ HT1 HDT1
  ihave HDT2 := (consH _ _) $$ HT2 HDT2
  -- row 40: its three copies land; the row's resources go to the heads of the chains of what is done
  icases HB40 with ⟨HC0, HT0, HC1, HT1, HC2, HT2⟩
  sl_exec (disch := first | sl_exact hU _ _ | sl_exact hI _ _ | sl_exact hJ _ _)
  ihave HR0 := (row_deliverP scM0 c 40 (by decide) inb_S128x64_S1x64_40_0 _ fs0 _ (gU c i xt0 fh0)) $$ HR0 %(fun q => deliver_gath (by decide) c hbM0 tbM0 fh0 xt0 i ⟨40, by decide⟩ (k0_off161 i) (by show (Scalar.indexCast (Scalar.addi (Scalar.muli (BitVec.ofNat 32 (i 0).val) 128#32) (BitVec.ofNat 32 40))).toNat = _; exact off_val _ 40 hi (by decide)) (by show 128 * (i 0).val + 40 < 16384; omega) _ _ _ q)
  ihave HR1 := (row_deliverP scM1 c 40 (by decide) inb_S128x64_S1x64_40_0 _ fs1 _ (gVi c i xt1 fh1)) $$ HR1 %(fun q => deliver_gath (by decide) c hbM1 tbM1 fh1 xt1 i ⟨40, by decide⟩ (k0_off161 i) (by show (Scalar.indexCast (Scalar.addi (Scalar.muli (BitVec.ofNat 32 (i 0).val) 128#32) (BitVec.ofNat 32 40))).toNat = _; exact off_val _ 40 hi (by decide)) (by show 128 * (i 0).val + 40 < 16384; omega) _ _ _ q)
  ihave HR2 := (row_deliverP scM2 c 40 (by decide) inb_S128x64_S1x64_40_0 _ fs2 _ (gVj c i xt2 fh1)) $$ HR2 %(fun q => deliver_gath (by decide) c hbM1 tbM2 fh1 xt2 i ⟨40, by decide⟩ (k0_off161 i) (by show (Scalar.indexCast (Scalar.addi (Scalar.muli (BitVec.ofNat 32 (i 0).val) 128#32) (BitVec.ofNat 32 40))).toNat = _; exact off_val _ 40 hi (by decide)) (by show 128 * (i 0).val + 40 < 16384; omega) _ _ _ q)
  ihave HD0 := (consH _ _) $$ HR0 HD0
  ihave HD1 := (consH _ _) $$ HR1 HD1
  ihave HD2 := (consH _ _) $$ HR2 HD2
  ihave HDC0 := (consH _ _) $$ HC0 HDC0
  ihave HDC1 := (consH _ _) $$ HC1 HDC1
  ihave HDC2 := (consH _ _) $$ HC2 HDC2
  ihave HDT0 := (consH _ _) $$ HT0 HDT0
  ihave HDT1 := (consH _ _) $$ HT1 HDT1
  ihave HDT2 := (consH _ _) $$ HT2 HDT2
  -- row 41: its three copies land; the row's resources go to the heads of the chains of what is done
  icases HB41 with ⟨HC0, HT0, HC1, HT1, HC2, HT2⟩
  sl_exec (disch := first | sl_exact hU _ _ | sl_exact hI _ _ | sl_exact hJ _ _)
  ihave HR0 := (row_deliverP scM0 c 41 (by decide) inb_S128x64_S1x64_41_0 _ fs0 _ (gU c i xt0 fh0)) $$ HR0 %(fun q => deliver_gath (by decide) c hbM0 tbM0 fh0 xt0 i ⟨41, by decide⟩ (k0_off165 i) (by show (Scalar.indexCast (Scalar.addi (Scalar.muli (BitVec.ofNat 32 (i 0).val) 128#32) (BitVec.ofNat 32 41))).toNat = _; exact off_val _ 41 hi (by decide)) (by show 128 * (i 0).val + 41 < 16384; omega) _ _ _ q)
  ihave HR1 := (row_deliverP scM1 c 41 (by decide) inb_S128x64_S1x64_41_0 _ fs1 _ (gVi c i xt1 fh1)) $$ HR1 %(fun q => deliver_gath (by decide) c hbM1 tbM1 fh1 xt1 i ⟨41, by decide⟩ (k0_off165 i) (by show (Scalar.indexCast (Scalar.addi (Scalar.muli (BitVec.ofNat 32 (i 0).val) 128#32) (BitVec.ofNat 32 41))).toNat = _; exact off_val _ 41 hi (by decide)) (by show 128 * (i 0).val + 41 < 16384; omega) _ _ _ q)
  ihave HR2 := (row_deliverP scM2 c 41 (by decide) inb_S128x64_S1x64_41_0 _ fs2 _ (gVj c i xt2 fh1)) $$ HR2 %(fun q => deliver_gath (by decide) c hbM1 tbM2 fh1 xt2 i ⟨41, by decide⟩ (k0_off165 i) (by show (Scalar.indexCast (Scalar.addi (Scalar.muli (BitVec.ofNat 32 (i 0).val) 128#32) (BitVec.ofNat 32 41))).toNat = _; exact off_val _ 41 hi (by decide)) (by show 128 * (i 0).val + 41 < 16384; omega) _ _ _ q)
  ihave HD0 := (consH _ _) $$ HR0 HD0
  ihave HD1 := (consH _ _) $$ HR1 HD1
  ihave HD2 := (consH _ _) $$ HR2 HD2
  ihave HDC0 := (consH _ _) $$ HC0 HDC0
  ihave HDC1 := (consH _ _) $$ HC1 HDC1
  ihave HDC2 := (consH _ _) $$ HC2 HDC2
  ihave HDT0 := (consH _ _) $$ HT0 HDT0
  ihave HDT1 := (consH _ _) $$ HT1 HDT1
  ihave HDT2 := (consH _ _) $$ HT2 HDT2
  -- row 42: its three copies land; the row's resources go to the heads of the chains of what is done
  icases HB42 with ⟨HC0, HT0, HC1, HT1, HC2, HT2⟩
  sl_exec (disch := first | sl_exact hU _ _ | sl_exact hI _ _ | sl_exact hJ _ _)
  ihave HR0 := (row_deliverP scM0 c 42 (by decide) inb_S128x64_S1x64_42_0 _ fs0 _ (gU c i xt0 fh0)) $$ HR0 %(fun q => deliver_gath (by decide) c hbM0 tbM0 fh0 xt0 i ⟨42, by decide⟩ (k0_off169 i) (by show (Scalar.indexCast (Scalar.addi (Scalar.muli (BitVec.ofNat 32 (i 0).val) 128#32) (BitVec.ofNat 32 42))).toNat = _; exact off_val _ 42 hi (by decide)) (by show 128 * (i 0).val + 42 < 16384; omega) _ _ _ q)
  ihave HR1 := (row_deliverP scM1 c 42 (by decide) inb_S128x64_S1x64_42_0 _ fs1 _ (gVi c i xt1 fh1)) $$ HR1 %(fun q => deliver_gath (by decide) c hbM1 tbM1 fh1 xt1 i ⟨42, by decide⟩ (k0_off169 i) (by show (Scalar.indexCast (Scalar.addi (Scalar.muli (BitVec.ofNat 32 (i 0).val) 128#32) (BitVec.ofNat 32 42))).toNat = _; exact off_val _ 42 hi (by decide)) (by show 128 * (i 0).val + 42 < 16384; omega) _ _ _ q)
  ihave HR2 := (row_deliverP scM2 c 42 (by decide) inb_S128x64_S1x64_42_0 _ fs2 _ (gVj c i xt2 fh1)) $$ HR2 %(fun q => deliver_gath (by decide) c hbM1 tbM2 fh1 xt2 i ⟨42, by decide⟩ (k0_off169 i) (by show (Scalar.indexCast (Scalar.addi (Scalar.muli (BitVec.ofNat 32 (i 0).val) 128#32) (BitVec.ofNat 32 42))).toNat = _; exact off_val _ 42 hi (by decide)) (by show 128 * (i 0).val + 42 < 16384; omega) _ _ _ q)
  ihave HD0 := (consH _ _) $$ HR0 HD0
  ihave HD1 := (consH _ _) $$ HR1 HD1
  ihave HD2 := (consH _ _) $$ HR2 HD2
  ihave HDC0 := (consH _ _) $$ HC0 HDC0
  ihave HDC1 := (consH _ _) $$ HC1 HDC1
  ihave HDC2 := (consH _ _) $$ HC2 HDC2
  ihave HDT0 := (consH _ _) $$ HT0 HDT0
  ihave HDT1 := (consH _ _) $$ HT1 HDT1
  ihave HDT2 := (consH _ _) $$ HT2 HDT2
  -- row 43: its three copies land; the row's resources go to the heads of the chains of what is done
  icases HB43 with ⟨HC0, HT0, HC1, HT1, HC2, HT2⟩
  sl_exec (disch := first | sl_exact hU _ _ | sl_exact hI _ _ | sl_exact hJ _ _)
  ihave HR0 := (row_deliverP scM0 c 43 (by decide) inb_S128x64_S1x64_43_0 _ fs0 _ (gU c i xt0 fh0)) $$ HR0 %(fun q => deliver_gath (by decide) c hbM0 tbM0 fh0 xt0 i ⟨43, by decide⟩ (k0_off173 i) (by show (Scalar.indexCast (Scalar.addi (Scalar.muli (BitVec.ofNat 32 (i 0).val) 128#32) (BitVec.ofNat 32 43))).toNat = _; exact off_val _ 43 hi (by decide)) (by show 128 * (i 0).val + 43 < 16384; omega) _ _ _ q)
  ihave HR1 := (row_deliverP scM1 c 43 (by decide) inb_S128x64_S1x64_43_0 _ fs1 _ (gVi c i xt1 fh1)) $$ HR1 %(fun q => deliver_gath (by decide) c hbM1 tbM1 fh1 xt1 i ⟨43, by decide⟩ (k0_off173 i) (by show (Scalar.indexCast (Scalar.addi (Scalar.muli (BitVec.ofNat 32 (i 0).val) 128#32) (BitVec.ofNat 32 43))).toNat = _; exact off_val _ 43 hi (by decide)) (by show 128 * (i 0).val + 43 < 16384; omega) _ _ _ q)
  ihave HR2 := (row_deliverP scM2 c 43 (by decide) inb_S128x64_S1x64_43_0 _ fs2 _ (gVj c i xt2 fh1)) $$ HR2 %(fun q => deliver_gath (by decide) c hbM1 tbM2 fh1 xt2 i ⟨43, by decide⟩ (k0_off173 i) (by show (Scalar.indexCast (Scalar.addi (Scalar.muli (BitVec.ofNat 32 (i 0).val) 128#32) (BitVec.ofNat 32 43))).toNat = _; exact off_val _ 43 hi (by decide)) (by show 128 * (i 0).val + 43 < 16384; omega) _ _ _ q)
  ihave HD0 := (consH _ _) $$ HR0 HD0
  ihave HD1 := (consH _ _) $$ HR1 HD1
  ihave HD2 := (consH _ _) $$ HR2 HD2
  ihave HDC0 := (consH _ _) $$ HC0 HDC0
  ihave HDC1 := (consH _ _) $$ HC1 HDC1
  ihave HDC2 := (consH _ _) $$ HC2 HDC2
  ihave HDT0 := (consH _ _) $$ HT0 HDT0
  ihave HDT1 := (consH _ _) $$ HT1 HDT1
  ihave HDT2 := (consH _ _) $$ HT2 HDT2
  -- row 44: its three copies land; the row's resources go to the heads of the chains of what is done
  icases HB44 with ⟨HC0, HT0, HC1, HT1, HC2, HT2⟩
  sl_exec (disch := first | sl_exact hU _ _ | sl_exact hI _ _ | sl_exact hJ _ _)
  ihave HR0 := (row_deliverP scM0 c 44 (by decide) inb_S128x64_S1x64_44_0 _ fs0 _ (gU c i xt0 fh0)) $$ HR0 %(fun q => deliver_gath (by decide) c hbM0 tbM0 fh0 xt0 i ⟨44, by decide⟩ (k0_off177 i) (by show (Scalar.indexCast (Scalar.addi (Scalar.muli (BitVec.ofNat 32 (i 0).val) 128#32) (BitVec.ofNat 32 44))).toNat = _; exact off_val _ 44 hi (by decide)) (by show 128 * (i 0).val + 44 < 16384; omega) _ _ _ q)
  ihave HR1 := (row_deliverP scM1 c 44 (by decide) inb_S128x64_S1x64_44_0 _ fs1 _ (gVi c i xt1 fh1)) $$ HR1 %(fun q => deliver_gath (by decide) c hbM1 tbM1 fh1 xt1 i ⟨44, by decide⟩ (k0_off177 i) (by show (Scalar.indexCast (Scalar.addi (Scalar.muli (BitVec.ofNat 32 (i 0).val) 128#32) (BitVec.ofNat 32 44))).toNat = _; exact off_val _ 44 hi (by decide)) (by show 128 * (i 0).val + 44 < 16384; omega) _ _ _ q)
  ihave HR2 := (row_deliverP scM2 c 44 (by decide) inb_S128x64_S1x64_44_0 _ fs2 _ (gVj c i xt2 fh1)) $$ HR2 %(fun q => deliver_gath (by decide) c hbM1 tbM2 fh1 xt2 i ⟨44, by decide⟩ (k0_off177 i) (by show (Scalar.indexCast (Scalar.addi (Scalar.muli (BitVec.ofNat 32 (i 0).val) 128#32) (BitVec.ofNat 32 44))).toNat = _; exact off_val _ 44 hi (by decide)) (by show 128 * (i 0).val + 44 < 16384; omega) _ _ _ q)
  ihave HD0 := (consH _ _) $$ HR0 HD0
  ihave HD1 := (consH _ _) $$ HR1 HD1
  ihave HD2 := (consH _ _) $$ HR2 HD2
  ihave HDC0 := (consH _ _) $$ HC0 HDC0
  ihave HDC1 := (consH _ _) $$ HC1 HDC1
  ihave HDC2 := (consH _ _) $$ HC2 HDC2
  ihave HDT0 := (consH _ _) $$ HT0 HDT0
  ihave HDT1 := (consH _ _) $$ HT1 HDT1
  ihave HDT2 := (consH _ _) $$ HT2 HDT2
  -- row 45: its three copies land; the row's resources go to the heads of the chains of what is done
  icases HB45 with ⟨HC0, HT0, HC1, HT1, HC2, HT2⟩
  sl_exec (disch := first | sl_exact hU _ _ | sl_exact hI _ _ | sl_exact hJ _ _)
  ihave HR0 := (row_deliverP scM0 c 45 (by decide) inb_S128x64_S1x64_45_0 _ fs0 _ (gU c i xt0 fh0)) $$ HR0 %(fun q => deliver_gath (by decide) c hbM0 tbM0 fh0 xt0 i ⟨45, by decide⟩ (k0_off181 i) (by show (Scalar.indexCast (Scalar.addi (Scalar.muli (BitVec.ofNat 32 (i 0).val) 128#32) (BitVec.ofNat 32 45))).toNat = _; exact off_val _ 45 hi (by decide)) (by show 128 * (i 0).val + 45 < 16384; omega) _ _ _ q)
  ihave HR1 := (row_deliverP scM1 c 45 (by decide) inb_S128x64_S1x64_45_0 _ fs1 _ (gVi c i xt1 fh1)) $$ HR1 %(fun q => deliver_gath (by decide) c hbM1 tbM1 fh1 xt1 i ⟨45, by decide⟩ (k0_off181 i) (by show (Scalar.indexCast (Scalar.addi (Scalar.muli (BitVec.ofNat 32 (i 0).val) 128#32) (BitVec.ofNat 32 45))).toNat = _; exact off_val _ 45 hi (by decide)) (by show 128 * (i 0).val + 45 < 16384; omega) _ _ _ q)
  ihave HR2 := (row_deliverP scM2 c 45 (by decide) inb_S128x64_S1x64_45_0 _ fs2 _ (gVj c i xt2 fh1)) $$ HR2 %(fun q => deliver_gath (by decide) c hbM1 tbM2 fh1 xt2 i ⟨45, by decide⟩ (k0_off181 i) (by show (Scalar.indexCast (Scalar.addi (Scalar.muli (BitVec.ofNat 32 (i 0).val) 128#32) (BitVec.ofNat 32 45))).toNat = _; exact off_val _ 45 hi (by decide)) (by show 128 * (i 0).val + 45 < 16384; omega) _ _ _ q)
  ihave HD0 := (consH _ _) $$ HR0 HD0
  ihave HD1 := (consH _ _) $$ HR1 HD1
  ihave HD2 := (consH _ _) $$ HR2 HD2
  ihave HDC0 := (consH _ _) $$ HC0 HDC0
  ihave HDC1 := (consH _ _) $$ HC1 HDC1
  ihave HDC2 := (consH _ _) $$ HC2 HDC2
  ihave HDT0 := (consH _ _) $$ HT0 HDT0
  ihave HDT1 := (consH _ _) $$ HT1 HDT1
  ihave HDT2 := (consH _ _) $$ HT2 HDT2
  -- row 46: its three copies land; the row's resources go to the heads of the chains of what is done
  icases HB46 with ⟨HC0, HT0, HC1, HT1, HC2, HT2⟩
  sl_exec (disch := first | sl_exact hU _ _ | sl_exact hI _ _ | sl_exact hJ _ _)
  ihave HR0 := (row_deliverP scM0 c 46 (by decide) inb_S128x64_S1x64_46_0 _ fs0 _ (gU c i xt0 fh0)) $$ HR0 %(fun q => deliver_gath (by decide) c hbM0 tbM0 fh0 xt0 i ⟨46, by decide⟩ (k0_off185 i) (by show (Scalar.indexCast (Scalar.addi (Scalar.muli (BitVec.ofNat 32 (i 0).val) 128#32) (BitVec.ofNat 32 46))).toNat = _; exact off_val _ 46 hi (by decide)) (by show 128 * (i 0).val + 46 < 16384; omega) _ _ _ q)
  ihave HR1 := (row_deliverP scM1 c 46 (by decide) inb_S128x64_S1x64_46_0 _ fs1 _ (gVi c i xt1 fh1)) $$ HR1 %(fun q => deliver_gath (by decide) c hbM1 tbM1 fh1 xt1 i ⟨46, by decide⟩ (k0_off185 i) (by show (Scalar.indexCast (Scalar.addi (Scalar.muli (BitVec.ofNat 32 (i 0).val) 128#32) (BitVec.ofNat 32 46))).toNat = _; exact off_val _ 46 hi (by decide)) (by show 128 * (i 0).val + 46 < 16384; omega) _ _ _ q)
  ihave HR2 := (row_deliverP scM2 c 46 (by decide) inb_S128x64_S1x64_46_0 _ fs2 _ (gVj c i xt2 fh1)) $$ HR2 %(fun q => deliver_gath (by decide) c hbM1 tbM2 fh1 xt2 i ⟨46, by decide⟩ (k0_off185 i) (by show (Scalar.indexCast (Scalar.addi (Scalar.muli (BitVec.ofNat 32 (i 0).val) 128#32) (BitVec.ofNat 32 46))).toNat = _; exact off_val _ 46 hi (by decide)) (by show 128 * (i 0).val + 46 < 16384; omega) _ _ _ q)
  ihave HD0 := (consH _ _) $$ HR0 HD0
  ihave HD1 := (consH _ _) $$ HR1 HD1
  ihave HD2 := (consH _ _) $$ HR2 HD2
  ihave HDC0 := (consH _ _) $$ HC0 HDC0
  ihave HDC1 := (consH _ _) $$ HC1 HDC1
  ihave HDC2 := (consH _ _) $$ HC2 HDC2
  ihave HDT0 := (consH _ _) $$ HT0 HDT0
  ihave HDT1 := (consH _ _) $$ HT1 HDT1
  ihave HDT2 := (consH _ _) $$ HT2 HDT2
  -- row 47: its three copies land; the row's resources go to the heads of the chains of what is done
  icases HB47 with ⟨HC0, HT0, HC1, HT1, HC2, HT2⟩
  sl_exec (disch := first | sl_exact hU _ _ | sl_exact hI _ _ | sl_exact hJ _ _)
  ihave HR0 := (row_deliverP scM0 c 47 (by decide) inb_S128x64_S1x64_47_0 _ fs0 _ (gU c i xt0 fh0)) $$ HR0 %(fun q => deliver_gath (by decide) c hbM0 tbM0 fh0 xt0 i ⟨47, by decide⟩ (k0_off189 i) (by show (Scalar.indexCast (Scalar.addi (Scalar.muli (BitVec.ofNat 32 (i 0).val) 128#32) (BitVec.ofNat 32 47))).toNat = _; exact off_val _ 47 hi (by decide)) (by show 128 * (i 0).val + 47 < 16384; omega) _ _ _ q)
  ihave HR1 := (row_deliverP scM1 c 47 (by decide) inb_S128x64_S1x64_47_0 _ fs1 _ (gVi c i xt1 fh1)) $$ HR1 %(fun q => deliver_gath (by decide) c hbM1 tbM1 fh1 xt1 i ⟨47, by decide⟩ (k0_off189 i) (by show (Scalar.indexCast (Scalar.addi (Scalar.muli (BitVec.ofNat 32 (i 0).val) 128#32) (BitVec.ofNat 32 47))).toNat = _; exact off_val _ 47 hi (by decide)) (by show 128 * (i 0).val + 47 < 16384; omega) _ _ _ q)
  ihave HR2 := (row_deliverP scM2 c 47 (by decide) inb_S128x64_S1x64_47_0 _ fs2 _ (gVj c i xt2 fh1)) $$ HR2 %(fun q => deliver_gath (by decide) c hbM1 tbM2 fh1 xt2 i ⟨47, by decide⟩ (k0_off189 i) (by show (Scalar.indexCast (Scalar.addi (Scalar.muli (BitVec.ofNat 32 (i 0).val) 128#32) (BitVec.ofNat 32 47))).toNat = _; exact off_val _ 47 hi (by decide)) (by show 128 * (i 0).val + 47 < 16384; omega) _ _ _ q)
  ihave HD0 := (consH _ _) $$ HR0 HD0
  ihave HD1 := (consH _ _) $$ HR1 HD1
  ihave HD2 := (consH _ _) $$ HR2 HD2
  ihave HDC0 := (consH _ _) $$ HC0 HDC0
  ihave HDC1 := (consH _ _) $$ HC1 HDC1
  ihave HDC2 := (consH _ _) $$ HC2 HDC2
  ihave HDT0 := (consH _ _) $$ HT0 HDT0
  ihave HDT1 := (consH _ _) $$ HT1 HDT1
  ihave HDT2 := (consH _ _) $$ HT2 HDT2
  -- row 48: its three copies land; the row's resources go to the heads of the chains of what is done
  icases HB48 with ⟨HC0, HT0, HC1, HT1, HC2, HT2⟩
  sl_exec (disch := first | sl_exact hU _ _ | sl_exact hI _ _ | sl_exact hJ _ _)
  ihave HR0 := (row_deliverP scM0 c 48 (by decide) inb_S128x64_S1x64_48_0 _ fs0 _ (gU c i xt0 fh0)) $$ HR0 %(fun q => deliver_gath (by decide) c hbM0 tbM0 fh0 xt0 i ⟨48, by decide⟩ (k0_off193 i) (by show (Scalar.indexCast (Scalar.addi (Scalar.muli (BitVec.ofNat 32 (i 0).val) 128#32) (BitVec.ofNat 32 48))).toNat = _; exact off_val _ 48 hi (by decide)) (by show 128 * (i 0).val + 48 < 16384; omega) _ _ _ q)
  ihave HR1 := (row_deliverP scM1 c 48 (by decide) inb_S128x64_S1x64_48_0 _ fs1 _ (gVi c i xt1 fh1)) $$ HR1 %(fun q => deliver_gath (by decide) c hbM1 tbM1 fh1 xt1 i ⟨48, by decide⟩ (k0_off193 i) (by show (Scalar.indexCast (Scalar.addi (Scalar.muli (BitVec.ofNat 32 (i 0).val) 128#32) (BitVec.ofNat 32 48))).toNat = _; exact off_val _ 48 hi (by decide)) (by show 128 * (i 0).val + 48 < 16384; omega) _ _ _ q)
  ihave HR2 := (row_deliverP scM2 c 48 (by decide) inb_S128x64_S1x64_48_0 _ fs2 _ (gVj c i xt2 fh1)) $$ HR2 %(fun q => deliver_gath (by decide) c hbM1 tbM2 fh1 xt2 i ⟨48, by decide⟩ (k0_off193 i) (by show (Scalar.indexCast (Scalar.addi (Scalar.muli (BitVec.ofNat 32 (i 0).val) 128#32) (BitVec.ofNat 32 48))).toNat = _; exact off_val _ 48 hi (by decide)) (by show 128 * (i 0).val + 48 < 16384; omega) _ _ _ q)
  ihave HD0 := (consH _ _) $$ HR0 HD0
  ihave HD1 := (consH _ _) $$ HR1 HD1
  ihave HD2 := (consH _ _) $$ HR2 HD2
  ihave HDC0 := (consH _ _) $$ HC0 HDC0
  ihave HDC1 := (consH _ _) $$ HC1 HDC1
  ihave HDC2 := (consH _ _) $$ HC2 HDC2
  ihave HDT0 := (consH _ _) $$ HT0 HDT0
  ihave HDT1 := (consH _ _) $$ HT1 HDT1
  ihave HDT2 := (consH _ _) $$ HT2 HDT2
  -- row 49: its three copies land; the row's resources go to the heads of the chains of what is done
  icases HB49 with ⟨HC0, HT0, HC1, HT1, HC2, HT2⟩
  sl_exec (disch := first | sl_exact hU _ _ | sl_exact hI _ _ | sl_exact hJ _ _)
  ihave HR0 := (row_deliverP scM0 c 49 (by decide) inb_S128x64_S1x64_49_0 _ fs0 _ (gU c i xt0 fh0)) $$ HR0 %(fun q => deliver_gath (by decide) c hbM0 tbM0 fh0 xt0 i ⟨49, by decide⟩ (k0_off197 i) (by show (Scalar.indexCast (Scalar.addi (Scalar.muli (BitVec.ofNat 32 (i 0).val) 128#32) (BitVec.ofNat 32 49))).toNat = _; exact off_val _ 49 hi (by decide)) (by show 128 * (i 0).val + 49 < 16384; omega) _ _ _ q)
  ihave HR1 := (row_deliverP scM1 c 49 (by decide) inb_S128x64_S1x64_49_0 _ fs1 _ (gVi c i xt1 fh1)) $$ HR1 %(fun q => deliver_gath (by decide) c hbM1 tbM1 fh1 xt1 i ⟨49, by decide⟩ (k0_off197 i) (by show (Scalar.indexCast (Scalar.addi (Scalar.muli (BitVec.ofNat 32 (i 0).val) 128#32) (BitVec.ofNat 32 49))).toNat = _; exact off_val _ 49 hi (by decide)) (by show 128 * (i 0).val + 49 < 16384; omega) _ _ _ q)
  ihave HR2 := (row_deliverP scM2 c 49 (by decide) inb_S128x64_S1x64_49_0 _ fs2 _ (gVj c i xt2 fh1)) $$ HR2 %(fun q => deliver_gath (by decide) c hbM1 tbM2 fh1 xt2 i ⟨49, by decide⟩ (k0_off197 i) (by show (Scalar.indexCast (Scalar.addi (Scalar.muli (BitVec.ofNat 32 (i 0).val) 128#32) (BitVec.ofNat 32 49))).toNat = _; exact off_val _ 49 hi (by decide)) (by show 128 * (i 0).val + 49 < 16384; omega) _ _ _ q)
  ihave HD0 := (consH _ _) $$ HR0 HD0
  ihave HD1 := (consH _ _) $$ HR1 HD1
  ihave HD2 := (consH _ _) $$ HR2 HD2
  ihave HDC0 := (consH _ _) $$ HC0 HDC0
  ihave HDC1 := (consH _ _) $$ HC1 HDC1
  ihave HDC2 := (consH _ _) $$ HC2 HDC2
  ihave HDT0 := (consH _ _) $$ HT0 HDT0
  ihave HDT1 := (consH _ _) $$ HT1 HDT1
  ihave HDT2 := (consH _ _) $$ HT2 HDT2
  -- row 50: its three copies land; the row's resources go to the heads of the chains of what is done
  icases HB50 with ⟨HC0, HT0, HC1, HT1, HC2, HT2⟩
  sl_exec (disch := first | sl_exact hU _ _ | sl_exact hI _ _ | sl_exact hJ _ _)
  ihave HR0 := (row_deliverP scM0 c 50 (by decide) inb_S128x64_S1x64_50_0 _ fs0 _ (gU c i xt0 fh0)) $$ HR0 %(fun q => deliver_gath (by decide) c hbM0 tbM0 fh0 xt0 i ⟨50, by decide⟩ (k0_off201 i) (by show (Scalar.indexCast (Scalar.addi (Scalar.muli (BitVec.ofNat 32 (i 0).val) 128#32) (BitVec.ofNat 32 50))).toNat = _; exact off_val _ 50 hi (by decide)) (by show 128 * (i 0).val + 50 < 16384; omega) _ _ _ q)
  ihave HR1 := (row_deliverP scM1 c 50 (by decide) inb_S128x64_S1x64_50_0 _ fs1 _ (gVi c i xt1 fh1)) $$ HR1 %(fun q => deliver_gath (by decide) c hbM1 tbM1 fh1 xt1 i ⟨50, by decide⟩ (k0_off201 i) (by show (Scalar.indexCast (Scalar.addi (Scalar.muli (BitVec.ofNat 32 (i 0).val) 128#32) (BitVec.ofNat 32 50))).toNat = _; exact off_val _ 50 hi (by decide)) (by show 128 * (i 0).val + 50 < 16384; omega) _ _ _ q)
  ihave HR2 := (row_deliverP scM2 c 50 (by decide) inb_S128x64_S1x64_50_0 _ fs2 _ (gVj c i xt2 fh1)) $$ HR2 %(fun q => deliver_gath (by decide) c hbM1 tbM2 fh1 xt2 i ⟨50, by decide⟩ (k0_off201 i) (by show (Scalar.indexCast (Scalar.addi (Scalar.muli (BitVec.ofNat 32 (i 0).val) 128#32) (BitVec.ofNat 32 50))).toNat = _; exact off_val _ 50 hi (by decide)) (by show 128 * (i 0).val + 50 < 16384; omega) _ _ _ q)
  ihave HD0 := (consH _ _) $$ HR0 HD0
  ihave HD1 := (consH _ _) $$ HR1 HD1
  ihave HD2 := (consH _ _) $$ HR2 HD2
  ihave HDC0 := (consH _ _) $$ HC0 HDC0
  ihave HDC1 := (consH _ _) $$ HC1 HDC1
  ihave HDC2 := (consH _ _) $$ HC2 HDC2
  ihave HDT0 := (consH _ _) $$ HT0 HDT0
  ihave HDT1 := (consH _ _) $$ HT1 HDT1
  ihave HDT2 := (consH _ _) $$ HT2 HDT2
  -- row 51: its three copies land; the row's resources go to the heads of the chains of what is done
  icases HB51 with ⟨HC0, HT0, HC1, HT1, HC2, HT2⟩
  sl_exec (disch := first | sl_exact hU _ _ | sl_exact hI _ _ | sl_exact hJ _ _)
  ihave HR0 := (row_deliverP scM0 c 51 (by decide) inb_S128x64_S1x64_51_0 _ fs0 _ (gU c i xt0 fh0)) $$ HR0 %(fun q => deliver_gath (by decide) c hbM0 tbM0 fh0 xt0 i ⟨51, by decide⟩ (k0_off205 i) (by show (Scalar.indexCast (Scalar.addi (Scalar.muli (BitVec.ofNat 32 (i 0).val) 128#32) (BitVec.ofNat 32 51))).toNat = _; exact off_val _ 51 hi (by decide)) (by show 128 * (i 0).val + 51 < 16384; omega) _ _ _ q)
  ihave HR1 := (row_deliverP scM1 c 51 (by decide) inb_S128x64_S1x64_51_0 _ fs1 _ (gVi c i xt1 fh1)) $$ HR1 %(fun q => deliver_gath (by decide) c hbM1 tbM1 fh1 xt1 i ⟨51, by decide⟩ (k0_off205 i) (by show (Scalar.indexCast (Scalar.addi (Scalar.muli (BitVec.ofNat 32 (i 0).val) 128#32) (BitVec.ofNat 32 51))).toNat = _; exact off_val _ 51 hi (by decide)) (by show 128 * (i 0).val + 51 < 16384; omega) _ _ _ q)
  ihave HR2 := (row_deliverP scM2 c 51 (by decide) inb_S128x64_S1x64_51_0 _ fs2 _ (gVj c i xt2 fh1)) $$ HR2 %(fun q => deliver_gath (by decide) c hbM1 tbM2 fh1 xt2 i ⟨51, by decide⟩ (k0_off205 i) (by show (Scalar.indexCast (Scalar.addi (Scalar.muli (BitVec.ofNat 32 (i 0).val) 128#32) (BitVec.ofNat 32 51))).toNat = _; exact off_val _ 51 hi (by decide)) (by show 128 * (i 0).val + 51 < 16384; omega) _ _ _ q)
  ihave HD0 := (consH _ _) $$ HR0 HD0
  ihave HD1 := (consH _ _) $$ HR1 HD1
  ihave HD2 := (consH _ _) $$ HR2 HD2
  ihave HDC0 := (consH _ _) $$ HC0 HDC0
  ihave HDC1 := (consH _ _) $$ HC1 HDC1
  ihave HDC2 := (consH _ _) $$ HC2 HDC2
  ihave HDT0 := (consH _ _) $$ HT0 HDT0
  ihave HDT1 := (consH _ _) $$ HT1 HDT1
  ihave HDT2 := (consH _ _) $$ HT2 HDT2
  -- row 52: its three copies land; the row's resources go to the heads of the chains of what is done
  icases HB52 with ⟨HC0, HT0, HC1, HT1, HC2, HT2⟩
  sl_exec (disch := first | sl_exact hU _ _ | sl_exact hI _ _ | sl_exact hJ _ _)
  ihave HR0 := (row_deliverP scM0 c 52 (by decide) inb_S128x64_S1x64_52_0 _ fs0 _ (gU c i xt0 fh0)) $$ HR0 %(fun q => deliver_gath (by decide) c hbM0 tbM0 fh0 xt0 i ⟨52, by decide⟩ (k0_off209 i) (by show (Scalar.indexCast (Scalar.addi (Scalar.muli (BitVec.ofNat 32 (i 0).val) 128#32) (BitVec.ofNat 32 52))).toNat = _; exact off_val _ 52 hi (by decide)) (by show 128 * (i 0).val + 52 < 16384; omega) _ _ _ q)
  ihave HR1 := (row_deliverP scM1 c 52 (by decide) inb_S128x64_S1x64_52_0 _ fs1 _ (gVi c i xt1 fh1)) $$ HR1 %(fun q => deliver_gath (by decide) c hbM1 tbM1 fh1 xt1 i ⟨52, by decide⟩ (k0_off209 i) (by show (Scalar.indexCast (Scalar.addi (Scalar.muli (BitVec.ofNat 32 (i 0).val) 128#32) (BitVec.ofNat 32 52))).toNat = _; exact off_val _ 52 hi (by decide)) (by show 128 * (i 0).val + 52 < 16384; omega) _ _ _ q)
  ihave HR2 := (row_deliverP scM2 c 52 (by decide) inb_S128x64_S1x64_52_0 _ fs2 _ (gVj c i xt2 fh1)) $$ HR2 %(fun q => deliver_gath (by decide) c hbM1 tbM2 fh1 xt2 i ⟨52, by decide⟩ (k0_off209 i) (by show (Scalar.indexCast (Scalar.addi (Scalar.muli (BitVec.ofNat 32 (i 0).val) 128#32) (BitVec.ofNat 32 52))).toNat = _; exact off_val _ 52 hi (by decide)) (by show 128 * (i 0).val + 52 < 16384; omega) _ _ _ q)
  ihave HD0 := (consH _ _) $$ HR0 HD0
  ihave HD1 := (consH _ _) $$ HR1 HD1
  ihave HD2 := (consH _ _) $$ HR2 HD2
  ihave HDC0 := (consH _ _) $$ HC0 HDC0
  ihave HDC1 := (consH _ _) $$ HC1 HDC1
  ihave HDC2 := (consH _ _) $$ HC2 HDC2
  ihave HDT0 := (consH _ _) $$ HT0 HDT0
  ihave HDT1 := (consH _ _) $$ HT1 HDT1
  ihave HDT2 := (consH _ _) $$ HT2 HDT2
  -- row 53: its three copies land; the row's resources go to the heads of the chains of what is done
  icases HB53 with ⟨HC0, HT0, HC1, HT1, HC2, HT2⟩
  sl_exec (disch := first | sl_exact hU _ _ | sl_exact hI _ _ | sl_exact hJ _ _)
  ihave HR0 := (row_deliverP scM0 c 53 (by decide) inb_S128x64_S1x64_53_0 _ fs0 _ (gU c i xt0 fh0)) $$ HR0 %(fun q => deliver_gath (by decide) c hbM0 tbM0 fh0 xt0 i ⟨53, by decide⟩ (k0_off213 i) (by show (Scalar.indexCast (Scalar.addi (Scalar.muli (BitVec.ofNat 32 (i 0).val) 128#32) (BitVec.ofNat 32 53))).toNat = _; exact off_val _ 53 hi (by decide)) (by show 128 * (i 0).val + 53 < 16384; omega) _ _ _ q)
  ihave HR1 := (row_deliverP scM1 c 53 (by decide) inb_S128x64_S1x64_53_0 _ fs1 _ (gVi c i xt1 fh1)) $$ HR1 %(fun q => deliver_gath (by decide) c hbM1 tbM1 fh1 xt1 i ⟨53, by decide⟩ (k0_off213 i) (by show (Scalar.indexCast (Scalar.addi (Scalar.muli (BitVec.ofNat 32 (i 0).val) 128#32) (BitVec.ofNat 32 53))).toNat = _; exact off_val _ 53 hi (by decide)) (by show 128 * (i 0).val + 53 < 16384; omega) _ _ _ q)
  ihave HR2 := (row_deliverP scM2 c 53 (by decide) inb_S128x64_S1x64_53_0 _ fs2 _ (gVj c i xt2 fh1)) $$ HR2 %(fun q => deliver_gath (by decide) c hbM1 tbM2 fh1 xt2 i ⟨53, by decide⟩ (k0_off213 i) (by show (Scalar.indexCast (Scalar.addi (Scalar.muli (BitVec.ofNat 32 (i 0).val) 128#32) (BitVec.ofNat 32 53))).toNat = _; exact off_val _ 53 hi (by decide)) (by show 128 * (i 0).val + 53 < 16384; omega) _ _ _ q)
  ihave HD0 := (consH _ _) $$ HR0 HD0
  ihave HD1 := (consH _ _) $$ HR1 HD1
  ihave HD2 := (consH _ _) $$ HR2 HD2
  ihave HDC0 := (consH _ _) $$ HC0 HDC0
  ihave HDC1 := (consH _ _) $$ HC1 HDC1
  ihave HDC2 := (consH _ _) $$ HC2 HDC2
  ihave HDT0 := (consH _ _) $$ HT0 HDT0
  ihave HDT1 := (consH _ _) $$ HT1 HDT1
  ihave HDT2 := (consH _ _) $$ HT2 HDT2
  -- row 54: its three copies land; the row's resources go to the heads of the chains of what is done
  icases HB54 with ⟨HC0, HT0, HC1, HT1, HC2, HT2⟩
  sl_exec (disch := first | sl_exact hU _ _ | sl_exact hI _ _ | sl_exact hJ _ _)
  ihave HR0 := (row_deliverP scM0 c 54 (by decide) inb_S128x64_S1x64_54_0 _ fs0 _ (gU c i xt0 fh0)) $$ HR0 %(fun q => deliver_gath (by decide) c hbM0 tbM0 fh0 xt0 i ⟨54, by decide⟩ (k0_off217 i) (by show (Scalar.indexCast (Scalar.addi (Scalar.muli (BitVec.ofNat 32 (i 0).val) 128#32) (BitVec.ofNat 32 54))).toNat = _; exact off_val _ 54 hi (by decide)) (by show 128 * (i 0).val + 54 < 16384; omega) _ _ _ q)
  ihave HR1 := (row_deliverP scM1 c 54 (by decide) inb_S128x64_S1x64_54_0 _ fs1 _ (gVi c i xt1 fh1)) $$ HR1 %(fun q => deliver_gath (by decide) c hbM1 tbM1 fh1 xt1 i ⟨54, by decide⟩ (k0_off217 i) (by show (Scalar.indexCast (Scalar.addi (Scalar.muli (BitVec.ofNat 32 (i 0).val) 128#32) (BitVec.ofNat 32 54))).toNat = _; exact off_val _ 54 hi (by decide)) (by show 128 * (i 0).val + 54 < 16384; omega) _ _ _ q)
  ihave HR2 := (row_deliverP scM2 c 54 (by decide) inb_S128x64_S1x64_54_0 _ fs2 _ (gVj c i xt2 fh1)) $$ HR2 %(fun q => deliver_gath (by decide) c hbM1 tbM2 fh1 xt2 i ⟨54, by decide⟩ (k0_off217 i) (by show (Scalar.indexCast (Scalar.addi (Scalar.muli (BitVec.ofNat 32 (i 0).val) 128#32) (BitVec.ofNat 32 54))).toNat = _; exact off_val _ 54 hi (by decide)) (by show 128 * (i 0).val + 54 < 16384; omega) _ _ _ q)
  ihave HD0 := (consH _ _) $$ HR0 HD0
  ihave HD1 := (consH _ _) $$ HR1 HD1
  ihave HD2 := (consH _ _) $$ HR2 HD2
  ihave HDC0 := (consH _ _) $$ HC0 HDC0
  ihave HDC1 := (consH _ _) $$ HC1 HDC1
  ihave HDC2 := (consH _ _) $$ HC2 HDC2
  ihave HDT0 := (consH _ _) $$ HT0 HDT0
  ihave HDT1 := (consH _ _) $$ HT1 HDT1
  ihave HDT2 := (consH _ _) $$ HT2 HDT2
  -- row 55: its three copies land; the row's resources go to the heads of the chains of what is done
  icases HB55 with ⟨HC0, HT0, HC1, HT1, HC2, HT2⟩
  sl_exec (disch := first | sl_exact hU _ _ | sl_exact hI _ _ | sl_exact hJ _ _)
  ihave HR0 := (row_deliverP scM0 c 55 (by decide) inb_S128x64_S1x64_55_0 _ fs0 _ (gU c i xt0 fh0)) $$ HR0 %(fun q => deliver_gath (by decide) c hbM0 tbM0 fh0 xt0 i ⟨55, by decide⟩ (k0_off221 i) (by show (Scalar.indexCast (Scalar.addi (Scalar.muli (BitVec.ofNat 32 (i 0).val) 128#32) (BitVec.ofNat 32 55))).toNat = _; exact off_val _ 55 hi (by decide)) (by show 128 * (i 0).val + 55 < 16384; omega) _ _ _ q)
  ihave HR1 := (row_deliverP scM1 c 55 (by decide) inb_S128x64_S1x64_55_0 _ fs1 _ (gVi c i xt1 fh1)) $$ HR1 %(fun q => deliver_gath (by decide) c hbM1 tbM1 fh1 xt1 i ⟨55, by decide⟩ (k0_off221 i) (by show (Scalar.indexCast (Scalar.addi (Scalar.muli (BitVec.ofNat 32 (i 0).val) 128#32) (BitVec.ofNat 32 55))).toNat = _; exact off_val _ 55 hi (by decide)) (by show 128 * (i 0).val + 55 < 16384; omega) _ _ _ q)
  ihave HR2 := (row_deliverP scM2 c 55 (by decide) inb_S128x64_S1x64_55_0 _ fs2 _ (gVj c i xt2 fh1)) $$ HR2 %(fun q => deliver_gath (by decide) c hbM1 tbM2 fh1 xt2 i ⟨55, by decide⟩ (k0_off221 i) (by show (Scalar.indexCast (Scalar.addi (Scalar.muli (BitVec.ofNat 32 (i 0).val) 128#32) (BitVec.ofNat 32 55))).toNat = _; exact off_val _ 55 hi (by decide)) (by show 128 * (i 0).val + 55 < 16384; omega) _ _ _ q)
  ihave HD0 := (consH _ _) $$ HR0 HD0
  ihave HD1 := (consH _ _) $$ HR1 HD1
  ihave HD2 := (consH _ _) $$ HR2 HD2
  ihave HDC0 := (consH _ _) $$ HC0 HDC0
  ihave HDC1 := (consH _ _) $$ HC1 HDC1
  ihave HDC2 := (consH _ _) $$ HC2 HDC2
  ihave HDT0 := (consH _ _) $$ HT0 HDT0
  ihave HDT1 := (consH _ _) $$ HT1 HDT1
  ihave HDT2 := (consH _ _) $$ HT2 HDT2
  -- row 56: its three copies land; the row's resources go to the heads of the chains of what is done
  icases HB56 with ⟨HC0, HT0, HC1, HT1, HC2, HT2⟩
  sl_exec (disch := first | sl_exact hU _ _ | sl_exact hI _ _ | sl_exact hJ _ _)
  ihave HR0 := (row_deliverP scM0 c 56 (by decide) inb_S128x64_S1x64_56_0 _ fs0 _ (gU c i xt0 fh0)) $$ HR0 %(fun q => deliver_gath (by decide) c hbM0 tbM0 fh0 xt0 i ⟨56, by decide⟩ (k0_off225 i) (by show (Scalar.indexCast (Scalar.addi (Scalar.muli (BitVec.ofNat 32 (i 0).val) 128#32) (BitVec.ofNat 32 56))).toNat = _; exact off_val _ 56 hi (by decide)) (by show 128 * (i 0).val + 56 < 16384; omega) _ _ _ q)
  ihave HR1 := (row_deliverP scM1 c 56 (by decide) inb_S128x64_S1x64_56_0 _ fs1 _ (gVi c i xt1 fh1)) $$ HR1 %(fun q => deliver_gath (by decide) c hbM1 tbM1 fh1 xt1 i ⟨56, by decide⟩ (k0_off225 i) (by show (Scalar.indexCast (Scalar.addi (Scalar.muli (BitVec.ofNat 32 (i 0).val) 128#32) (BitVec.ofNat 32 56))).toNat = _; exact off_val _ 56 hi (by decide)) (by show 128 * (i 0).val + 56 < 16384; omega) _ _ _ q)
  ihave HR2 := (row_deliverP scM2 c 56 (by decide) inb_S128x64_S1x64_56_0 _ fs2 _ (gVj c i xt2 fh1)) $$ HR2 %(fun q => deliver_gath (by decide) c hbM1 tbM2 fh1 xt2 i ⟨56, by decide⟩ (k0_off225 i) (by show (Scalar.indexCast (Scalar.addi (Scalar.muli (BitVec.ofNat 32 (i 0).val) 128#32) (BitVec.ofNat 32 56))).toNat = _; exact off_val _ 56 hi (by decide)) (by show 128 * (i 0).val + 56 < 16384; omega) _ _ _ q)
  ihave HD0 := (consH _ _) $$ HR0 HD0
  ihave HD1 := (consH _ _) $$ HR1 HD1
  ihave HD2 := (consH _ _) $$ HR2 HD2
  ihave HDC0 := (consH _ _) $$ HC0 HDC0
  ihave HDC1 := (consH _ _) $$ HC1 HDC1
  ihave HDC2 := (consH _ _) $$ HC2 HDC2
  ihave HDT0 := (consH _ _) $$ HT0 HDT0
  ihave HDT1 := (consH _ _) $$ HT1 HDT1
  ihave HDT2 := (consH _ _) $$ HT2 HDT2
  -- row 57: its three copies land; the row's resources go to the heads of the chains of what is done
  icases HB57 with ⟨HC0, HT0, HC1, HT1, HC2, HT2⟩
  sl_exec (disch := first | sl_exact hU _ _ | sl_exact hI _ _ | sl_exact hJ _ _)
  ihave HR0 := (row_deliverP scM0 c 57 (by decide) inb_S128x64_S1x64_57_0 _ fs0 _ (gU c i xt0 fh0)) $$ HR0 %(fun q => deliver_gath (by decide) c hbM0 tbM0 fh0 xt0 i ⟨57, by decide⟩ (k0_off229 i) (by show (Scalar.indexCast (Scalar.addi (Scalar.muli (BitVec.ofNat 32 (i 0).val) 128#32) (BitVec.ofNat 32 57))).toNat = _; exact off_val _ 57 hi (by decide)) (by show 128 * (i 0).val + 57 < 16384; omega) _ _ _ q)
  ihave HR1 := (row_deliverP scM1 c 57 (by decide) inb_S128x64_S1x64_57_0 _ fs1 _ (gVi c i xt1 fh1)) $$ HR1 %(fun q => deliver_gath (by decide) c hbM1 tbM1 fh1 xt1 i ⟨57, by decide⟩ (k0_off229 i) (by show (Scalar.indexCast (Scalar.addi (Scalar.muli (BitVec.ofNat 32 (i 0).val) 128#32) (BitVec.ofNat 32 57))).toNat = _; exact off_val _ 57 hi (by decide)) (by show 128 * (i 0).val + 57 < 16384; omega) _ _ _ q)
  ihave HR2 := (row_deliverP scM2 c 57 (by decide) inb_S128x64_S1x64_57_0 _ fs2 _ (gVj c i xt2 fh1)) $$ HR2 %(fun q => deliver_gath (by decide) c hbM1 tbM2 fh1 xt2 i ⟨57, by decide⟩ (k0_off229 i) (by show (Scalar.indexCast (Scalar.addi (Scalar.muli (BitVec.ofNat 32 (i 0).val) 128#32) (BitVec.ofNat 32 57))).toNat = _; exact off_val _ 57 hi (by decide)) (by show 128 * (i 0).val + 57 < 16384; omega) _ _ _ q)
  ihave HD0 := (consH _ _) $$ HR0 HD0
  ihave HD1 := (consH _ _) $$ HR1 HD1
  ihave HD2 := (consH _ _) $$ HR2 HD2
  ihave HDC0 := (consH _ _) $$ HC0 HDC0
  ihave HDC1 := (consH _ _) $$ HC1 HDC1
  ihave HDC2 := (consH _ _) $$ HC2 HDC2
  ihave HDT0 := (consH _ _) $$ HT0 HDT0
  ihave HDT1 := (consH _ _) $$ HT1 HDT1
  ihave HDT2 := (consH _ _) $$ HT2 HDT2
  -- row 58: its three copies land; the row's resources go to the heads of the chains of what is done
  icases HB58 with ⟨HC0, HT0, HC1, HT1, HC2, HT2⟩
  sl_exec (disch := first | sl_exact hU _ _ | sl_exact hI _ _ | sl_exact hJ _ _)
  ihave HR0 := (row_deliverP scM0 c 58 (by decide) inb_S128x64_S1x64_58_0 _ fs0 _ (gU c i xt0 fh0)) $$ HR0 %(fun q => deliver_gath (by decide) c hbM0 tbM0 fh0 xt0 i ⟨58, by decide⟩ (k0_off233 i) (by show (Scalar.indexCast (Scalar.addi (Scalar.muli (BitVec.ofNat 32 (i 0).val) 128#32) (BitVec.ofNat 32 58))).toNat = _; exact off_val _ 58 hi (by decide)) (by show 128 * (i 0).val + 58 < 16384; omega) _ _ _ q)
  ihave HR1 := (row_deliverP scM1 c 58 (by decide) inb_S128x64_S1x64_58_0 _ fs1 _ (gVi c i xt1 fh1)) $$ HR1 %(fun q => deliver_gath (by decide) c hbM1 tbM1 fh1 xt1 i ⟨58, by decide⟩ (k0_off233 i) (by show (Scalar.indexCast (Scalar.addi (Scalar.muli (BitVec.ofNat 32 (i 0).val) 128#32) (BitVec.ofNat 32 58))).toNat = _; exact off_val _ 58 hi (by decide)) (by show 128 * (i 0).val + 58 < 16384; omega) _ _ _ q)
  ihave HR2 := (row_deliverP scM2 c 58 (by decide) inb_S128x64_S1x64_58_0 _ fs2 _ (gVj c i xt2 fh1)) $$ HR2 %(fun q => deliver_gath (by decide) c hbM1 tbM2 fh1 xt2 i ⟨58, by decide⟩ (k0_off233 i) (by show (Scalar.indexCast (Scalar.addi (Scalar.muli (BitVec.ofNat 32 (i 0).val) 128#32) (BitVec.ofNat 32 58))).toNat = _; exact off_val _ 58 hi (by decide)) (by show 128 * (i 0).val + 58 < 16384; omega) _ _ _ q)
  ihave HD0 := (consH _ _) $$ HR0 HD0
  ihave HD1 := (consH _ _) $$ HR1 HD1
  ihave HD2 := (consH _ _) $$ HR2 HD2
  ihave HDC0 := (consH _ _) $$ HC0 HDC0
  ihave HDC1 := (consH _ _) $$ HC1 HDC1
  ihave HDC2 := (consH _ _) $$ HC2 HDC2
  ihave HDT0 := (consH _ _) $$ HT0 HDT0
  ihave HDT1 := (consH _ _) $$ HT1 HDT1
  ihave HDT2 := (consH _ _) $$ HT2 HDT2
  -- row 59: its three copies land; the row's resources go to the heads of the chains of what is done
  icases HB59 with ⟨HC0, HT0, HC1, HT1, HC2, HT2⟩
  sl_exec (disch := first | sl_exact hU _ _ | sl_exact hI _ _ | sl_exact hJ _ _)
  ihave HR0 := (row_deliverP scM0 c 59 (by decide) inb_S128x64_S1x64_59_0 _ fs0 _ (gU c i xt0 fh0)) $$ HR0 %(fun q => deliver_gath (by decide) c hbM0 tbM0 fh0 xt0 i ⟨59, by decide⟩ (k0_off237 i) (by show (Scalar.indexCast (Scalar.addi (Scalar.muli (BitVec.ofNat 32 (i 0).val) 128#32) (BitVec.ofNat 32 59))).toNat = _; exact off_val _ 59 hi (by decide)) (by show 128 * (i 0).val + 59 < 16384; omega) _ _ _ q)
  ihave HR1 := (row_deliverP scM1 c 59 (by decide) inb_S128x64_S1x64_59_0 _ fs1 _ (gVi c i xt1 fh1)) $$ HR1 %(fun q => deliver_gath (by decide) c hbM1 tbM1 fh1 xt1 i ⟨59, by decide⟩ (k0_off237 i) (by show (Scalar.indexCast (Scalar.addi (Scalar.muli (BitVec.ofNat 32 (i 0).val) 128#32) (BitVec.ofNat 32 59))).toNat = _; exact off_val _ 59 hi (by decide)) (by show 128 * (i 0).val + 59 < 16384; omega) _ _ _ q)
  ihave HR2 := (row_deliverP scM2 c 59 (by decide) inb_S128x64_S1x64_59_0 _ fs2 _ (gVj c i xt2 fh1)) $$ HR2 %(fun q => deliver_gath (by decide) c hbM1 tbM2 fh1 xt2 i ⟨59, by decide⟩ (k0_off237 i) (by show (Scalar.indexCast (Scalar.addi (Scalar.muli (BitVec.ofNat 32 (i 0).val) 128#32) (BitVec.ofNat 32 59))).toNat = _; exact off_val _ 59 hi (by decide)) (by show 128 * (i 0).val + 59 < 16384; omega) _ _ _ q)
  ihave HD0 := (consH _ _) $$ HR0 HD0
  ihave HD1 := (consH _ _) $$ HR1 HD1
  ihave HD2 := (consH _ _) $$ HR2 HD2
  ihave HDC0 := (consH _ _) $$ HC0 HDC0
  ihave HDC1 := (consH _ _) $$ HC1 HDC1
  ihave HDC2 := (consH _ _) $$ HC2 HDC2
  ihave HDT0 := (consH _ _) $$ HT0 HDT0
  ihave HDT1 := (consH _ _) $$ HT1 HDT1
  ihave HDT2 := (consH _ _) $$ HT2 HDT2
  -- row 60: its three copies land; the row's resources go to the heads of the chains of what is done
  icases HB60 with ⟨HC0, HT0, HC1, HT1, HC2, HT2⟩
  sl_exec (disch := first | sl_exact hU _ _ | sl_exact hI _ _ | sl_exact hJ _ _)
  ihave HR0 := (row_deliverP scM0 c 60 (by decide) inb_S128x64_S1x64_60_0 _ fs0 _ (gU c i xt0 fh0)) $$ HR0 %(fun q => deliver_gath (by decide) c hbM0 tbM0 fh0 xt0 i ⟨60, by decide⟩ (k0_off241 i) (by show (Scalar.indexCast (Scalar.addi (Scalar.muli (BitVec.ofNat 32 (i 0).val) 128#32) (BitVec.ofNat 32 60))).toNat = _; exact off_val _ 60 hi (by decide)) (by show 128 * (i 0).val + 60 < 16384; omega) _ _ _ q)
  ihave HR1 := (row_deliverP scM1 c 60 (by decide) inb_S128x64_S1x64_60_0 _ fs1 _ (gVi c i xt1 fh1)) $$ HR1 %(fun q => deliver_gath (by decide) c hbM1 tbM1 fh1 xt1 i ⟨60, by decide⟩ (k0_off241 i) (by show (Scalar.indexCast (Scalar.addi (Scalar.muli (BitVec.ofNat 32 (i 0).val) 128#32) (BitVec.ofNat 32 60))).toNat = _; exact off_val _ 60 hi (by decide)) (by show 128 * (i 0).val + 60 < 16384; omega) _ _ _ q)
  ihave HR2 := (row_deliverP scM2 c 60 (by decide) inb_S128x64_S1x64_60_0 _ fs2 _ (gVj c i xt2 fh1)) $$ HR2 %(fun q => deliver_gath (by decide) c hbM1 tbM2 fh1 xt2 i ⟨60, by decide⟩ (k0_off241 i) (by show (Scalar.indexCast (Scalar.addi (Scalar.muli (BitVec.ofNat 32 (i 0).val) 128#32) (BitVec.ofNat 32 60))).toNat = _; exact off_val _ 60 hi (by decide)) (by show 128 * (i 0).val + 60 < 16384; omega) _ _ _ q)
  ihave HD0 := (consH _ _) $$ HR0 HD0
  ihave HD1 := (consH _ _) $$ HR1 HD1
  ihave HD2 := (consH _ _) $$ HR2 HD2
  ihave HDC0 := (consH _ _) $$ HC0 HDC0
  ihave HDC1 := (consH _ _) $$ HC1 HDC1
  ihave HDC2 := (consH _ _) $$ HC2 HDC2
  ihave HDT0 := (consH _ _) $$ HT0 HDT0
  ihave HDT1 := (consH _ _) $$ HT1 HDT1
  ihave HDT2 := (consH _ _) $$ HT2 HDT2
  -- row 61: its three copies land; the row's resources go to the heads of the chains of what is done
  icases HB61 with ⟨HC0, HT0, HC1, HT1, HC2, HT2⟩
  sl_exec (disch := first | sl_exact hU _ _ | sl_exact hI _ _ | sl_exact hJ _ _)
  ihave HR0 := (row_deliverP scM0 c 61 (by decide) inb_S128x64_S1x64_61_0 _ fs0 _ (gU c i xt0 fh0)) $$ HR0 %(fun q => deliver_gath (by decide) c hbM0 tbM0 fh0 xt0 i ⟨61, by decide⟩ (k0_off245 i) (by show (Scalar.indexCast (Scalar.addi (Scalar.muli (BitVec.ofNat 32 (i 0).val) 128#32) (BitVec.ofNat 32 61))).toNat = _; exact off_val _ 61 hi (by decide)) (by show 128 * (i 0).val + 61 < 16384; omega) _ _ _ q)
  ihave HR1 := (row_deliverP scM1 c 61 (by decide) inb_S128x64_S1x64_61_0 _ fs1 _ (gVi c i xt1 fh1)) $$ HR1 %(fun q => deliver_gath (by decide) c hbM1 tbM1 fh1 xt1 i ⟨61, by decide⟩ (k0_off245 i) (by show (Scalar.indexCast (Scalar.addi (Scalar.muli (BitVec.ofNat 32 (i 0).val) 128#32) (BitVec.ofNat 32 61))).toNat = _; exact off_val _ 61 hi (by decide)) (by show 128 * (i 0).val + 61 < 16384; omega) _ _ _ q)
  ihave HR2 := (row_deliverP scM2 c 61 (by decide) inb_S128x64_S1x64_61_0 _ fs2 _ (gVj c i xt2 fh1)) $$ HR2 %(fun q => deliver_gath (by decide) c hbM1 tbM2 fh1 xt2 i ⟨61, by decide⟩ (k0_off245 i) (by show (Scalar.indexCast (Scalar.addi (Scalar.muli (BitVec.ofNat 32 (i 0).val) 128#32) (BitVec.ofNat 32 61))).toNat = _; exact off_val _ 61 hi (by decide)) (by show 128 * (i 0).val + 61 < 16384; omega) _ _ _ q)
  ihave HD0 := (consH _ _) $$ HR0 HD0
  ihave HD1 := (consH _ _) $$ HR1 HD1
  ihave HD2 := (consH _ _) $$ HR2 HD2
  ihave HDC0 := (consH _ _) $$ HC0 HDC0
  ihave HDC1 := (consH _ _) $$ HC1 HDC1
  ihave HDC2 := (consH _ _) $$ HC2 HDC2
  ihave HDT0 := (consH _ _) $$ HT0 HDT0
  ihave HDT1 := (consH _ _) $$ HT1 HDT1
  ihave HDT2 := (consH _ _) $$ HT2 HDT2
  -- row 62: its three copies land; the row's resources go to the heads of the chains of what is done
  icases HB62 with ⟨HC0, HT0, HC1, HT1, HC2, HT2⟩
  sl_exec (disch := first | sl_exact hU _ _ | sl_exact hI _ _ | sl_exact hJ _ _)
  ihave HR0 := (row_deliverP scM0 c 62 (by decide) inb_S128x64_S1x64_62_0 _ fs0 _ (gU c i xt0 fh0)) $$ HR0 %(fun q => deliver_gath (by decide) c hbM0 tbM0 fh0 xt0 i ⟨62, by decide⟩ (k0_off249 i) (by show (Scalar.indexCast (Scalar.addi (Scalar.muli (BitVec.ofNat 32 (i 0).val) 128#32) (BitVec.ofNat 32 62))).toNat = _; exact off_val _ 62 hi (by decide)) (by show 128 * (i 0).val + 62 < 16384; omega) _ _ _ q)
  ihave HR1 := (row_deliverP scM1 c 62 (by decide) inb_S128x64_S1x64_62_0 _ fs1 _ (gVi c i xt1 fh1)) $$ HR1 %(fun q => deliver_gath (by decide) c hbM1 tbM1 fh1 xt1 i ⟨62, by decide⟩ (k0_off249 i) (by show (Scalar.indexCast (Scalar.addi (Scalar.muli (BitVec.ofNat 32 (i 0).val) 128#32) (BitVec.ofNat 32 62))).toNat = _; exact off_val _ 62 hi (by decide)) (by show 128 * (i 0).val + 62 < 16384; omega) _ _ _ q)
  ihave HR2 := (row_deliverP scM2 c 62 (by decide) inb_S128x64_S1x64_62_0 _ fs2 _ (gVj c i xt2 fh1)) $$ HR2 %(fun q => deliver_gath (by decide) c hbM1 tbM2 fh1 xt2 i ⟨62, by decide⟩ (k0_off249 i) (by show (Scalar.indexCast (Scalar.addi (Scalar.muli (BitVec.ofNat 32 (i 0).val) 128#32) (BitVec.ofNat 32 62))).toNat = _; exact off_val _ 62 hi (by decide)) (by show 128 * (i 0).val + 62 < 16384; omega) _ _ _ q)
  ihave HD0 := (consH _ _) $$ HR0 HD0
  ihave HD1 := (consH _ _) $$ HR1 HD1
  ihave HD2 := (consH _ _) $$ HR2 HD2
  ihave HDC0 := (consH _ _) $$ HC0 HDC0
  ihave HDC1 := (consH _ _) $$ HC1 HDC1
  ihave HDC2 := (consH _ _) $$ HC2 HDC2
  ihave HDT0 := (consH _ _) $$ HT0 HDT0
  ihave HDT1 := (consH _ _) $$ HT1 HDT1
  ihave HDT2 := (consH _ _) $$ HT2 HDT2
  -- row 63: its three copies land; the row's resources go to the heads of the chains of what is done
  icases HB63 with ⟨HC0, HT0, HC1, HT1, HC2, HT2⟩
  sl_exec (disch := first | sl_exact hU _ _ | sl_exact hI _ _ | sl_exact hJ _ _)
  ihave HR0 := (row_deliverP scM0 c 63 (by decide) inb_S128x64_S1x64_63_0 _ fs0 _ (gU c i xt0 fh0)) $$ HR0 %(fun q => deliver_gath (by decide) c hbM0 tbM0 fh0 xt0 i ⟨63, by decide⟩ (k0_off253 i) (by show (Scalar.indexCast (Scalar.addi (Scalar.muli (BitVec.ofNat 32 (i 0).val) 128#32) (BitVec.ofNat 32 63))).toNat = _; exact off_val _ 63 hi (by decide)) (by show 128 * (i 0).val + 63 < 16384; omega) _ _ _ q)
  ihave HR1 := (row_deliverP scM1 c 63 (by decide) inb_S128x64_S1x64_63_0 _ fs1 _ (gVi c i xt1 fh1)) $$ HR1 %(fun q => deliver_gath (by decide) c hbM1 tbM1 fh1 xt1 i ⟨63, by decide⟩ (k0_off253 i) (by show (Scalar.indexCast (Scalar.addi (Scalar.muli (BitVec.ofNat 32 (i 0).val) 128#32) (BitVec.ofNat 32 63))).toNat = _; exact off_val _ 63 hi (by decide)) (by show 128 * (i 0).val + 63 < 16384; omega) _ _ _ q)
  ihave HR2 := (row_deliverP scM2 c 63 (by decide) inb_S128x64_S1x64_63_0 _ fs2 _ (gVj c i xt2 fh1)) $$ HR2 %(fun q => deliver_gath (by decide) c hbM1 tbM2 fh1 xt2 i ⟨63, by decide⟩ (k0_off253 i) (by show (Scalar.indexCast (Scalar.addi (Scalar.muli (BitVec.ofNat 32 (i 0).val) 128#32) (BitVec.ofNat 32 63))).toNat = _; exact off_val _ 63 hi (by decide)) (by show 128 * (i 0).val + 63 < 16384; omega) _ _ _ q)
  ihave HD0 := (consH _ _) $$ HR0 HD0
  ihave HD1 := (consH _ _) $$ HR1 HD1
  ihave HD2 := (consH _ _) $$ HR2 HD2
  ihave HDC0 := (consH _ _) $$ HC0 HDC0
  ihave HDC1 := (consH _ _) $$ HC1 HDC1
  ihave HDC2 := (consH _ _) $$ HC2 HDC2
  ihave HDT0 := (consH _ _) $$ HT0 HDT0
  ihave HDT1 := (consH _ _) $$ HT1 HDT1
  ihave HDT2 := (consH _ _) $$ HT2 HDT2
  -- row 64: its three copies land; the row's resources go to the heads of the chains of what is done
  icases HB64 with ⟨HC0, HT0, HC1, HT1, HC2, HT2⟩
  sl_exec (disch := first | sl_exact hU _ _ | sl_exact hI _ _ | sl_exact hJ _ _)
  ihave HR0 := (row_deliverP scM0 c 64 (by decide) inb_S128x64_S1x64_64_0 _ fs0 _ (gU c i xt0 fh0)) $$ HR0 %(fun q => deliver_gath (by decide) c hbM0 tbM0 fh0 xt0 i ⟨64, by decide⟩ (k0_off257 i) (by show (Scalar.indexCast (Scalar.addi (Scalar.muli (BitVec.ofNat 32 (i 0).val) 128#32) (BitVec.ofNat 32 64))).toNat = _; exact off_val _ 64 hi (by decide)) (by show 128 * (i 0).val + 64 < 16384; omega) _ _ _ q)
  ihave HR1 := (row_deliverP scM1 c 64 (by decide) inb_S128x64_S1x64_64_0 _ fs1 _ (gVi c i xt1 fh1)) $$ HR1 %(fun q => deliver_gath (by decide) c hbM1 tbM1 fh1 xt1 i ⟨64, by decide⟩ (k0_off257 i) (by show (Scalar.indexCast (Scalar.addi (Scalar.muli (BitVec.ofNat 32 (i 0).val) 128#32) (BitVec.ofNat 32 64))).toNat = _; exact off_val _ 64 hi (by decide)) (by show 128 * (i 0).val + 64 < 16384; omega) _ _ _ q)
  ihave HR2 := (row_deliverP scM2 c 64 (by decide) inb_S128x64_S1x64_64_0 _ fs2 _ (gVj c i xt2 fh1)) $$ HR2 %(fun q => deliver_gath (by decide) c hbM1 tbM2 fh1 xt2 i ⟨64, by decide⟩ (k0_off257 i) (by show (Scalar.indexCast (Scalar.addi (Scalar.muli (BitVec.ofNat 32 (i 0).val) 128#32) (BitVec.ofNat 32 64))).toNat = _; exact off_val _ 64 hi (by decide)) (by show 128 * (i 0).val + 64 < 16384; omega) _ _ _ q)
  ihave HD0 := (consH _ _) $$ HR0 HD0
  ihave HD1 := (consH _ _) $$ HR1 HD1
  ihave HD2 := (consH _ _) $$ HR2 HD2
  ihave HDC0 := (consH _ _) $$ HC0 HDC0
  ihave HDC1 := (consH _ _) $$ HC1 HDC1
  ihave HDC2 := (consH _ _) $$ HC2 HDC2
  ihave HDT0 := (consH _ _) $$ HT0 HDT0
  ihave HDT1 := (consH _ _) $$ HT1 HDT1
  ihave HDT2 := (consH _ _) $$ HT2 HDT2
  -- row 65: its three copies land; the row's resources go to the heads of the chains of what is done
  icases HB65 with ⟨HC0, HT0, HC1, HT1, HC2, HT2⟩
  sl_exec (disch := first | sl_exact hU _ _ | sl_exact hI _ _ | sl_exact hJ _ _)
  ihave HR0 := (row_deliverP scM0 c 65 (by decide) inb_S128x64_S1x64_65_0 _ fs0 _ (gU c i xt0 fh0)) $$ HR0 %(fun q => deliver_gath (by decide) c hbM0 tbM0 fh0 xt0 i ⟨65, by decide⟩ (k0_off261 i) (by show (Scalar.indexCast (Scalar.addi (Scalar.muli (BitVec.ofNat 32 (i 0).val) 128#32) (BitVec.ofNat 32 65))).toNat = _; exact off_val _ 65 hi (by decide)) (by show 128 * (i 0).val + 65 < 16384; omega) _ _ _ q)
  ihave HR1 := (row_deliverP scM1 c 65 (by decide) inb_S128x64_S1x64_65_0 _ fs1 _ (gVi c i xt1 fh1)) $$ HR1 %(fun q => deliver_gath (by decide) c hbM1 tbM1 fh1 xt1 i ⟨65, by decide⟩ (k0_off261 i) (by show (Scalar.indexCast (Scalar.addi (Scalar.muli (BitVec.ofNat 32 (i 0).val) 128#32) (BitVec.ofNat 32 65))).toNat = _; exact off_val _ 65 hi (by decide)) (by show 128 * (i 0).val + 65 < 16384; omega) _ _ _ q)
  ihave HR2 := (row_deliverP scM2 c 65 (by decide) inb_S128x64_S1x64_65_0 _ fs2 _ (gVj c i xt2 fh1)) $$ HR2 %(fun q => deliver_gath (by decide) c hbM1 tbM2 fh1 xt2 i ⟨65, by decide⟩ (k0_off261 i) (by show (Scalar.indexCast (Scalar.addi (Scalar.muli (BitVec.ofNat 32 (i 0).val) 128#32) (BitVec.ofNat 32 65))).toNat = _; exact off_val _ 65 hi (by decide)) (by show 128 * (i 0).val + 65 < 16384; omega) _ _ _ q)
  ihave HD0 := (consH _ _) $$ HR0 HD0
  ihave HD1 := (consH _ _) $$ HR1 HD1
  ihave HD2 := (consH _ _) $$ HR2 HD2
  ihave HDC0 := (consH _ _) $$ HC0 HDC0
  ihave HDC1 := (consH _ _) $$ HC1 HDC1
  ihave HDC2 := (consH _ _) $$ HC2 HDC2
  ihave HDT0 := (consH _ _) $$ HT0 HDT0
  ihave HDT1 := (consH _ _) $$ HT1 HDT1
  ihave HDT2 := (consH _ _) $$ HT2 HDT2
  -- row 66: its three copies land; the row's resources go to the heads of the chains of what is done
  icases HB66 with ⟨HC0, HT0, HC1, HT1, HC2, HT2⟩
  sl_exec (disch := first | sl_exact hU _ _ | sl_exact hI _ _ | sl_exact hJ _ _)
  ihave HR0 := (row_deliverP scM0 c 66 (by decide) inb_S128x64_S1x64_66_0 _ fs0 _ (gU c i xt0 fh0)) $$ HR0 %(fun q => deliver_gath (by decide) c hbM0 tbM0 fh0 xt0 i ⟨66, by decide⟩ (k0_off265 i) (by show (Scalar.indexCast (Scalar.addi (Scalar.muli (BitVec.ofNat 32 (i 0).val) 128#32) (BitVec.ofNat 32 66))).toNat = _; exact off_val _ 66 hi (by decide)) (by show 128 * (i 0).val + 66 < 16384; omega) _ _ _ q)
  ihave HR1 := (row_deliverP scM1 c 66 (by decide) inb_S128x64_S1x64_66_0 _ fs1 _ (gVi c i xt1 fh1)) $$ HR1 %(fun q => deliver_gath (by decide) c hbM1 tbM1 fh1 xt1 i ⟨66, by decide⟩ (k0_off265 i) (by show (Scalar.indexCast (Scalar.addi (Scalar.muli (BitVec.ofNat 32 (i 0).val) 128#32) (BitVec.ofNat 32 66))).toNat = _; exact off_val _ 66 hi (by decide)) (by show 128 * (i 0).val + 66 < 16384; omega) _ _ _ q)
  ihave HR2 := (row_deliverP scM2 c 66 (by decide) inb_S128x64_S1x64_66_0 _ fs2 _ (gVj c i xt2 fh1)) $$ HR2 %(fun q => deliver_gath (by decide) c hbM1 tbM2 fh1 xt2 i ⟨66, by decide⟩ (k0_off265 i) (by show (Scalar.indexCast (Scalar.addi (Scalar.muli (BitVec.ofNat 32 (i 0).val) 128#32) (BitVec.ofNat 32 66))).toNat = _; exact off_val _ 66 hi (by decide)) (by show 128 * (i 0).val + 66 < 16384; omega) _ _ _ q)
  ihave HD0 := (consH _ _) $$ HR0 HD0
  ihave HD1 := (consH _ _) $$ HR1 HD1
  ihave HD2 := (consH _ _) $$ HR2 HD2
  ihave HDC0 := (consH _ _) $$ HC0 HDC0
  ihave HDC1 := (consH _ _) $$ HC1 HDC1
  ihave HDC2 := (consH _ _) $$ HC2 HDC2
  ihave HDT0 := (consH _ _) $$ HT0 HDT0
  ihave HDT1 := (consH _ _) $$ HT1 HDT1
  ihave HDT2 := (consH _ _) $$ HT2 HDT2
  -- row 67: its three copies land; the row's resources go to the heads of the chains of what is done
  icases HB67 with ⟨HC0, HT0, HC1, HT1, HC2, HT2⟩
  sl_exec (disch := first | sl_exact hU _ _ | sl_exact hI _ _ | sl_exact hJ _ _)
  ihave HR0 := (row_deliverP scM0 c 67 (by decide) inb_S128x64_S1x64_67_0 _ fs0 _ (gU c i xt0 fh0)) $$ HR0 %(fun q => deliver_gath (by decide) c hbM0 tbM0 fh0 xt0 i ⟨67, by decide⟩ (k0_off269 i) (by show (Scalar.indexCast (Scalar.addi (Scalar.muli (BitVec.ofNat 32 (i 0).val) 128#32) (BitVec.ofNat 32 67))).toNat = _; exact off_val _ 67 hi (by decide)) (by show 128 * (i 0).val + 67 < 16384; omega) _ _ _ q)
  ihave HR1 := (row_deliverP scM1 c 67 (by decide) inb_S128x64_S1x64_67_0 _ fs1 _ (gVi c i xt1 fh1)) $$ HR1 %(fun q => deliver_gath (by decide) c hbM1 tbM1 fh1 xt1 i ⟨67, by decide⟩ (k0_off269 i) (by show (Scalar.indexCast (Scalar.addi (Scalar.muli (BitVec.ofNat 32 (i 0).val) 128#32) (BitVec.ofNat 32 67))).toNat = _; exact off_val _ 67 hi (by decide)) (by show 128 * (i 0).val + 67 < 16384; omega) _ _ _ q)
  ihave HR2 := (row_deliverP scM2 c 67 (by decide) inb_S128x64_S1x64_67_0 _ fs2 _ (gVj c i xt2 fh1)) $$ HR2 %(fun q => deliver_gath (by decide) c hbM1 tbM2 fh1 xt2 i ⟨67, by decide⟩ (k0_off269 i) (by show (Scalar.indexCast (Scalar.addi (Scalar.muli (BitVec.ofNat 32 (i 0).val) 128#32) (BitVec.ofNat 32 67))).toNat = _; exact off_val _ 67 hi (by decide)) (by show 128 * (i 0).val + 67 < 16384; omega) _ _ _ q)
  ihave HD0 := (consH _ _) $$ HR0 HD0
  ihave HD1 := (consH _ _) $$ HR1 HD1
  ihave HD2 := (consH _ _) $$ HR2 HD2
  ihave HDC0 := (consH _ _) $$ HC0 HDC0
  ihave HDC1 := (consH _ _) $$ HC1 HDC1
  ihave HDC2 := (consH _ _) $$ HC2 HDC2
  ihave HDT0 := (consH _ _) $$ HT0 HDT0
  ihave HDT1 := (consH _ _) $$ HT1 HDT1
  ihave HDT2 := (consH _ _) $$ HT2 HDT2
  -- row 68: its three copies land; the row's resources go to the heads of the chains of what is done
  icases HB68 with ⟨HC0, HT0, HC1, HT1, HC2, HT2⟩
  sl_exec (disch := first | sl_exact hU _ _ | sl_exact hI _ _ | sl_exact hJ _ _)
  ihave HR0 := (row_deliverP scM0 c 68 (by decide) inb_S128x64_S1x64_68_0 _ fs0 _ (gU c i xt0 fh0)) $$ HR0 %(fun q => deliver_gath (by decide) c hbM0 tbM0 fh0 xt0 i ⟨68, by decide⟩ (k0_off273 i) (by show (Scalar.indexCast (Scalar.addi (Scalar.muli (BitVec.ofNat 32 (i 0).val) 128#32) (BitVec.ofNat 32 68))).toNat = _; exact off_val _ 68 hi (by decide)) (by show 128 * (i 0).val + 68 < 16384; omega) _ _ _ q)
  ihave HR1 := (row_deliverP scM1 c 68 (by decide) inb_S128x64_S1x64_68_0 _ fs1 _ (gVi c i xt1 fh1)) $$ HR1 %(fun q => deliver_gath (by decide) c hbM1 tbM1 fh1 xt1 i ⟨68, by decide⟩ (k0_off273 i) (by show (Scalar.indexCast (Scalar.addi (Scalar.muli (BitVec.ofNat 32 (i 0).val) 128#32) (BitVec.ofNat 32 68))).toNat = _; exact off_val _ 68 hi (by decide)) (by show 128 * (i 0).val + 68 < 16384; omega) _ _ _ q)
  ihave HR2 := (row_deliverP scM2 c 68 (by decide) inb_S128x64_S1x64_68_0 _ fs2 _ (gVj c i xt2 fh1)) $$ HR2 %(fun q => deliver_gath (by decide) c hbM1 tbM2 fh1 xt2 i ⟨68, by decide⟩ (k0_off273 i) (by show (Scalar.indexCast (Scalar.addi (Scalar.muli (BitVec.ofNat 32 (i 0).val) 128#32) (BitVec.ofNat 32 68))).toNat = _; exact off_val _ 68 hi (by decide)) (by show 128 * (i 0).val + 68 < 16384; omega) _ _ _ q)
  ihave HD0 := (consH _ _) $$ HR0 HD0
  ihave HD1 := (consH _ _) $$ HR1 HD1
  ihave HD2 := (consH _ _) $$ HR2 HD2
  ihave HDC0 := (consH _ _) $$ HC0 HDC0
  ihave HDC1 := (consH _ _) $$ HC1 HDC1
  ihave HDC2 := (consH _ _) $$ HC2 HDC2
  ihave HDT0 := (consH _ _) $$ HT0 HDT0
  ihave HDT1 := (consH _ _) $$ HT1 HDT1
  ihave HDT2 := (consH _ _) $$ HT2 HDT2
  -- row 69: its three copies land; the row's resources go to the heads of the chains of what is done
  icases HB69 with ⟨HC0, HT0, HC1, HT1, HC2, HT2⟩
  sl_exec (disch := first | sl_exact hU _ _ | sl_exact hI _ _ | sl_exact hJ _ _)
  ihave HR0 := (row_deliverP scM0 c 69 (by decide) inb_S128x64_S1x64_69_0 _ fs0 _ (gU c i xt0 fh0)) $$ HR0 %(fun q => deliver_gath (by decide) c hbM0 tbM0 fh0 xt0 i ⟨69, by decide⟩ (k0_off277 i) (by show (Scalar.indexCast (Scalar.addi (Scalar.muli (BitVec.ofNat 32 (i 0).val) 128#32) (BitVec.ofNat 32 69))).toNat = _; exact off_val _ 69 hi (by decide)) (by show 128 * (i 0).val + 69 < 16384; omega) _ _ _ q)
  ihave HR1 := (row_deliverP scM1 c 69 (by decide) inb_S128x64_S1x64_69_0 _ fs1 _ (gVi c i xt1 fh1)) $$ HR1 %(fun q => deliver_gath (by decide) c hbM1 tbM1 fh1 xt1 i ⟨69, by decide⟩ (k0_off277 i) (by show (Scalar.indexCast (Scalar.addi (Scalar.muli (BitVec.ofNat 32 (i 0).val) 128#32) (BitVec.ofNat 32 69))).toNat = _; exact off_val _ 69 hi (by decide)) (by show 128 * (i 0).val + 69 < 16384; omega) _ _ _ q)
  ihave HR2 := (row_deliverP scM2 c 69 (by decide) inb_S128x64_S1x64_69_0 _ fs2 _ (gVj c i xt2 fh1)) $$ HR2 %(fun q => deliver_gath (by decide) c hbM1 tbM2 fh1 xt2 i ⟨69, by decide⟩ (k0_off277 i) (by show (Scalar.indexCast (Scalar.addi (Scalar.muli (BitVec.ofNat 32 (i 0).val) 128#32) (BitVec.ofNat 32 69))).toNat = _; exact off_val _ 69 hi (by decide)) (by show 128 * (i 0).val + 69 < 16384; omega) _ _ _ q)
  ihave HD0 := (consH _ _) $$ HR0 HD0
  ihave HD1 := (consH _ _) $$ HR1 HD1
  ihave HD2 := (consH _ _) $$ HR2 HD2
  ihave HDC0 := (consH _ _) $$ HC0 HDC0
  ihave HDC1 := (consH _ _) $$ HC1 HDC1
  ihave HDC2 := (consH _ _) $$ HC2 HDC2
  ihave HDT0 := (consH _ _) $$ HT0 HDT0
  ihave HDT1 := (consH _ _) $$ HT1 HDT1
  ihave HDT2 := (consH _ _) $$ HT2 HDT2
  -- row 70: its three copies land; the row's resources go to the heads of the chains of what is done
  icases HB70 with ⟨HC0, HT0, HC1, HT1, HC2, HT2⟩
  sl_exec (disch := first | sl_exact hU _ _ | sl_exact hI _ _ | sl_exact hJ _ _)
  ihave HR0 := (row_deliverP scM0 c 70 (by decide) inb_S128x64_S1x64_70_0 _ fs0 _ (gU c i xt0 fh0)) $$ HR0 %(fun q => deliver_gath (by decide) c hbM0 tbM0 fh0 xt0 i ⟨70, by decide⟩ (k0_off281 i) (by show (Scalar.indexCast (Scalar.addi (Scalar.muli (BitVec.ofNat 32 (i 0).val) 128#32) (BitVec.ofNat 32 70))).toNat = _; exact off_val _ 70 hi (by decide)) (by show 128 * (i 0).val + 70 < 16384; omega) _ _ _ q)
  ihave HR1 := (row_deliverP scM1 c 70 (by decide) inb_S128x64_S1x64_70_0 _ fs1 _ (gVi c i xt1 fh1)) $$ HR1 %(fun q => deliver_gath (by decide) c hbM1 tbM1 fh1 xt1 i ⟨70, by decide⟩ (k0_off281 i) (by show (Scalar.indexCast (Scalar.addi (Scalar.muli (BitVec.ofNat 32 (i 0).val) 128#32) (BitVec.ofNat 32 70))).toNat = _; exact off_val _ 70 hi (by decide)) (by show 128 * (i 0).val + 70 < 16384; omega) _ _ _ q)
  ihave HR2 := (row_deliverP scM2 c 70 (by decide) inb_S128x64_S1x64_70_0 _ fs2 _ (gVj c i xt2 fh1)) $$ HR2 %(fun q => deliver_gath (by decide) c hbM1 tbM2 fh1 xt2 i ⟨70, by decide⟩ (k0_off281 i) (by show (Scalar.indexCast (Scalar.addi (Scalar.muli (BitVec.ofNat 32 (i 0).val) 128#32) (BitVec.ofNat 32 70))).toNat = _; exact off_val _ 70 hi (by decide)) (by show 128 * (i 0).val + 70 < 16384; omega) _ _ _ q)
  ihave HD0 := (consH _ _) $$ HR0 HD0
  ihave HD1 := (consH _ _) $$ HR1 HD1
  ihave HD2 := (consH _ _) $$ HR2 HD2
  ihave HDC0 := (consH _ _) $$ HC0 HDC0
  ihave HDC1 := (consH _ _) $$ HC1 HDC1
  ihave HDC2 := (consH _ _) $$ HC2 HDC2
  ihave HDT0 := (consH _ _) $$ HT0 HDT0
  ihave HDT1 := (consH _ _) $$ HT1 HDT1
  ihave HDT2 := (consH _ _) $$ HT2 HDT2
  -- row 71: its three copies land; the row's resources go to the heads of the chains of what is done
  icases HB71 with ⟨HC0, HT0, HC1, HT1, HC2, HT2⟩
  sl_exec (disch := first | sl_exact hU _ _ | sl_exact hI _ _ | sl_exact hJ _ _)
  ihave HR0 := (row_deliverP scM0 c 71 (by decide) inb_S128x64_S1x64_71_0 _ fs0 _ (gU c i xt0 fh0)) $$ HR0 %(fun q => deliver_gath (by decide) c hbM0 tbM0 fh0 xt0 i ⟨71, by decide⟩ (k0_off285 i) (by show (Scalar.indexCast (Scalar.addi (Scalar.muli (BitVec.ofNat 32 (i 0).val) 128#32) (BitVec.ofNat 32 71))).toNat = _; exact off_val _ 71 hi (by decide)) (by show 128 * (i 0).val + 71 < 16384; omega) _ _ _ q)
  ihave HR1 := (row_deliverP scM1 c 71 (by decide) inb_S128x64_S1x64_71_0 _ fs1 _ (gVi c i xt1 fh1)) $$ HR1 %(fun q => deliver_gath (by decide) c hbM1 tbM1 fh1 xt1 i ⟨71, by decide⟩ (k0_off285 i) (by show (Scalar.indexCast (Scalar.addi (Scalar.muli (BitVec.ofNat 32 (i 0).val) 128#32) (BitVec.ofNat 32 71))).toNat = _; exact off_val _ 71 hi (by decide)) (by show 128 * (i 0).val + 71 < 16384; omega) _ _ _ q)
  ihave HR2 := (row_deliverP scM2 c 71 (by decide) inb_S128x64_S1x64_71_0 _ fs2 _ (gVj c i xt2 fh1)) $$ HR2 %(fun q => deliver_gath (by decide) c hbM1 tbM2 fh1 xt2 i ⟨71, by decide⟩ (k0_off285 i) (by show (Scalar.indexCast (Scalar.addi (Scalar.muli (BitVec.ofNat 32 (i 0).val) 128#32) (BitVec.ofNat 32 71))).toNat = _; exact off_val _ 71 hi (by decide)) (by show 128 * (i 0).val + 71 < 16384; omega) _ _ _ q)
  ihave HD0 := (consH _ _) $$ HR0 HD0
  ihave HD1 := (consH _ _) $$ HR1 HD1
  ihave HD2 := (consH _ _) $$ HR2 HD2
  ihave HDC0 := (consH _ _) $$ HC0 HDC0
  ihave HDC1 := (consH _ _) $$ HC1 HDC1
  ihave HDC2 := (consH _ _) $$ HC2 HDC2
  ihave HDT0 := (consH _ _) $$ HT0 HDT0
  ihave HDT1 := (consH _ _) $$ HT1 HDT1
  ihave HDT2 := (consH _ _) $$ HT2 HDT2
  -- row 72: its three copies land; the row's resources go to the heads of the chains of what is done
  icases HB72 with ⟨HC0, HT0, HC1, HT1, HC2, HT2⟩
  sl_exec (disch := first | sl_exact hU _ _ | sl_exact hI _ _ | sl_exact hJ _ _)
  ihave HR0 := (row_deliverP scM0 c 72 (by decide) inb_S128x64_S1x64_72_0 _ fs0 _ (gU c i xt0 fh0)) $$ HR0 %(fun q => deliver_gath (by decide) c hbM0 tbM0 fh0 xt0 i ⟨72, by decide⟩ (k0_off289 i) (by show (Scalar.indexCast (Scalar.addi (Scalar.muli (BitVec.ofNat 32 (i 0).val) 128#32) (BitVec.ofNat 32 72))).toNat = _; exact off_val _ 72 hi (by decide)) (by show 128 * (i 0).val + 72 < 16384; omega) _ _ _ q)
  ihave HR1 := (row_deliverP scM1 c 72 (by decide) inb_S128x64_S1x64_72_0 _ fs1 _ (gVi c i xt1 fh1)) $$ HR1 %(fun q => deliver_gath (by decide) c hbM1 tbM1 fh1 xt1 i ⟨72, by decide⟩ (k0_off289 i) (by show (Scalar.indexCast (Scalar.addi (Scalar.muli (BitVec.ofNat 32 (i 0).val) 128#32) (BitVec.ofNat 32 72))).toNat = _; exact off_val _ 72 hi (by decide)) (by show 128 * (i 0).val + 72 < 16384; omega) _ _ _ q)
  ihave HR2 := (row_deliverP scM2 c 72 (by decide) inb_S128x64_S1x64_72_0 _ fs2 _ (gVj c i xt2 fh1)) $$ HR2 %(fun q => deliver_gath (by decide) c hbM1 tbM2 fh1 xt2 i ⟨72, by decide⟩ (k0_off289 i) (by show (Scalar.indexCast (Scalar.addi (Scalar.muli (BitVec.ofNat 32 (i 0).val) 128#32) (BitVec.ofNat 32 72))).toNat = _; exact off_val _ 72 hi (by decide)) (by show 128 * (i 0).val + 72 < 16384; omega) _ _ _ q)
  ihave HD0 := (consH _ _) $$ HR0 HD0
  ihave HD1 := (consH _ _) $$ HR1 HD1
  ihave HD2 := (consH _ _) $$ HR2 HD2
  ihave HDC0 := (consH _ _) $$ HC0 HDC0
  ihave HDC1 := (consH _ _) $$ HC1 HDC1
  ihave HDC2 := (consH _ _) $$ HC2 HDC2
  ihave HDT0 := (consH _ _) $$ HT0 HDT0
  ihave HDT1 := (consH _ _) $$ HT1 HDT1
  ihave HDT2 := (consH _ _) $$ HT2 HDT2
  -- row 73: its three copies land; the row's resources go to the heads of the chains of what is done
  icases HB73 with ⟨HC0, HT0, HC1, HT1, HC2, HT2⟩
  sl_exec (disch := first | sl_exact hU _ _ | sl_exact hI _ _ | sl_exact hJ _ _)
  ihave HR0 := (row_deliverP scM0 c 73 (by decide) inb_S128x64_S1x64_73_0 _ fs0 _ (gU c i xt0 fh0)) $$ HR0 %(fun q => deliver_gath (by decide) c hbM0 tbM0 fh0 xt0 i ⟨73, by decide⟩ (k0_off293 i) (by show (Scalar.indexCast (Scalar.addi (Scalar.muli (BitVec.ofNat 32 (i 0).val) 128#32) (BitVec.ofNat 32 73))).toNat = _; exact off_val _ 73 hi (by decide)) (by show 128 * (i 0).val + 73 < 16384; omega) _ _ _ q)
  ihave HR1 := (row_deliverP scM1 c 73 (by decide) inb_S128x64_S1x64_73_0 _ fs1 _ (gVi c i xt1 fh1)) $$ HR1 %(fun q => deliver_gath (by decide) c hbM1 tbM1 fh1 xt1 i ⟨73, by decide⟩ (k0_off293 i) (by show (Scalar.indexCast (Scalar.addi (Scalar.muli (BitVec.ofNat 32 (i 0).val) 128#32) (BitVec.ofNat 32 73))).toNat = _; exact off_val _ 73 hi (by decide)) (by show 128 * (i 0).val + 73 < 16384; omega) _ _ _ q)
  ihave HR2 := (row_deliverP scM2 c 73 (by decide) inb_S128x64_S1x64_73_0 _ fs2 _ (gVj c i xt2 fh1)) $$ HR2 %(fun q => deliver_gath (by decide) c hbM1 tbM2 fh1 xt2 i ⟨73, by decide⟩ (k0_off293 i) (by show (Scalar.indexCast (Scalar.addi (Scalar.muli (BitVec.ofNat 32 (i 0).val) 128#32) (BitVec.ofNat 32 73))).toNat = _; exact off_val _ 73 hi (by decide)) (by show 128 * (i 0).val + 73 < 16384; omega) _ _ _ q)
  ihave HD0 := (consH _ _) $$ HR0 HD0
  ihave HD1 := (consH _ _) $$ HR1 HD1
  ihave HD2 := (consH _ _) $$ HR2 HD2
  ihave HDC0 := (consH _ _) $$ HC0 HDC0
  ihave HDC1 := (consH _ _) $$ HC1 HDC1
  ihave HDC2 := (consH _ _) $$ HC2 HDC2
  ihave HDT0 := (consH _ _) $$ HT0 HDT0
  ihave HDT1 := (consH _ _) $$ HT1 HDT1
  ihave HDT2 := (consH _ _) $$ HT2 HDT2
  -- row 74: its three copies land; the row's resources go to the heads of the chains of what is done
  icases HB74 with ⟨HC0, HT0, HC1, HT1, HC2, HT2⟩
  sl_exec (disch := first | sl_exact hU _ _ | sl_exact hI _ _ | sl_exact hJ _ _)
  ihave HR0 := (row_deliverP scM0 c 74 (by decide) inb_S128x64_S1x64_74_0 _ fs0 _ (gU c i xt0 fh0)) $$ HR0 %(fun q => deliver_gath (by decide) c hbM0 tbM0 fh0 xt0 i ⟨74, by decide⟩ (k0_off297 i) (by show (Scalar.indexCast (Scalar.addi (Scalar.muli (BitVec.ofNat 32 (i 0).val) 128#32) (BitVec.ofNat 32 74))).toNat = _; exact off_val _ 74 hi (by decide)) (by show 128 * (i 0).val + 74 < 16384; omega) _ _ _ q)
  ihave HR1 := (row_deliverP scM1 c 74 (by decide) inb_S128x64_S1x64_74_0 _ fs1 _ (gVi c i xt1 fh1)) $$ HR1 %(fun q => deliver_gath (by decide) c hbM1 tbM1 fh1 xt1 i ⟨74, by decide⟩ (k0_off297 i) (by show (Scalar.indexCast (Scalar.addi (Scalar.muli (BitVec.ofNat 32 (i 0).val) 128#32) (BitVec.ofNat 32 74))).toNat = _; exact off_val _ 74 hi (by decide)) (by show 128 * (i 0).val + 74 < 16384; omega) _ _ _ q)
  ihave HR2 := (row_deliverP scM2 c 74 (by decide) inb_S128x64_S1x64_74_0 _ fs2 _ (gVj c i xt2 fh1)) $$ HR2 %(fun q => deliver_gath (by decide) c hbM1 tbM2 fh1 xt2 i ⟨74, by decide⟩ (k0_off297 i) (by show (Scalar.indexCast (Scalar.addi (Scalar.muli (BitVec.ofNat 32 (i 0).val) 128#32) (BitVec.ofNat 32 74))).toNat = _; exact off_val _ 74 hi (by decide)) (by show 128 * (i 0).val + 74 < 16384; omega) _ _ _ q)
  ihave HD0 := (consH _ _) $$ HR0 HD0
  ihave HD1 := (consH _ _) $$ HR1 HD1
  ihave HD2 := (consH _ _) $$ HR2 HD2
  ihave HDC0 := (consH _ _) $$ HC0 HDC0
  ihave HDC1 := (consH _ _) $$ HC1 HDC1
  ihave HDC2 := (consH _ _) $$ HC2 HDC2
  ihave HDT0 := (consH _ _) $$ HT0 HDT0
  ihave HDT1 := (consH _ _) $$ HT1 HDT1
  ihave HDT2 := (consH _ _) $$ HT2 HDT2
  -- row 75: its three copies land; the row's resources go to the heads of the chains of what is done
  icases HB75 with ⟨HC0, HT0, HC1, HT1, HC2, HT2⟩
  sl_exec (disch := first | sl_exact hU _ _ | sl_exact hI _ _ | sl_exact hJ _ _)
  ihave HR0 := (row_deliverP scM0 c 75 (by decide) inb_S128x64_S1x64_75_0 _ fs0 _ (gU c i xt0 fh0)) $$ HR0 %(fun q => deliver_gath (by decide) c hbM0 tbM0 fh0 xt0 i ⟨75, by decide⟩ (k0_off301 i) (by show (Scalar.indexCast (Scalar.addi (Scalar.muli (BitVec.ofNat 32 (i 0).val) 128#32) (BitVec.ofNat 32 75))).toNat = _; exact off_val _ 75 hi (by decide)) (by show 128 * (i 0).val + 75 < 16384; omega) _ _ _ q)
  ihave HR1 := (row_deliverP scM1 c 75 (by decide) inb_S128x64_S1x64_75_0 _ fs1 _ (gVi c i xt1 fh1)) $$ HR1 %(fun q => deliver_gath (by decide) c hbM1 tbM1 fh1 xt1 i ⟨75, by decide⟩ (k0_off301 i) (by show (Scalar.indexCast (Scalar.addi (Scalar.muli (BitVec.ofNat 32 (i 0).val) 128#32) (BitVec.ofNat 32 75))).toNat = _; exact off_val _ 75 hi (by decide)) (by show 128 * (i 0).val + 75 < 16384; omega) _ _ _ q)
  ihave HR2 := (row_deliverP scM2 c 75 (by decide) inb_S128x64_S1x64_75_0 _ fs2 _ (gVj c i xt2 fh1)) $$ HR2 %(fun q => deliver_gath (by decide) c hbM1 tbM2 fh1 xt2 i ⟨75, by decide⟩ (k0_off301 i) (by show (Scalar.indexCast (Scalar.addi (Scalar.muli (BitVec.ofNat 32 (i 0).val) 128#32) (BitVec.ofNat 32 75))).toNat = _; exact off_val _ 75 hi (by decide)) (by show 128 * (i 0).val + 75 < 16384; omega) _ _ _ q)
  ihave HD0 := (consH _ _) $$ HR0 HD0
  ihave HD1 := (consH _ _) $$ HR1 HD1
  ihave HD2 := (consH _ _) $$ HR2 HD2
  ihave HDC0 := (consH _ _) $$ HC0 HDC0
  ihave HDC1 := (consH _ _) $$ HC1 HDC1
  ihave HDC2 := (consH _ _) $$ HC2 HDC2
  ihave HDT0 := (consH _ _) $$ HT0 HDT0
  ihave HDT1 := (consH _ _) $$ HT1 HDT1
  ihave HDT2 := (consH _ _) $$ HT2 HDT2
  -- row 76: its three copies land; the row's resources go to the heads of the chains of what is done
  icases HB76 with ⟨HC0, HT0, HC1, HT1, HC2, HT2⟩
  sl_exec (disch := first | sl_exact hU _ _ | sl_exact hI _ _ | sl_exact hJ _ _)
  ihave HR0 := (row_deliverP scM0 c 76 (by decide) inb_S128x64_S1x64_76_0 _ fs0 _ (gU c i xt0 fh0)) $$ HR0 %(fun q => deliver_gath (by decide) c hbM0 tbM0 fh0 xt0 i ⟨76, by decide⟩ (k0_off305 i) (by show (Scalar.indexCast (Scalar.addi (Scalar.muli (BitVec.ofNat 32 (i 0).val) 128#32) (BitVec.ofNat 32 76))).toNat = _; exact off_val _ 76 hi (by decide)) (by show 128 * (i 0).val + 76 < 16384; omega) _ _ _ q)
  ihave HR1 := (row_deliverP scM1 c 76 (by decide) inb_S128x64_S1x64_76_0 _ fs1 _ (gVi c i xt1 fh1)) $$ HR1 %(fun q => deliver_gath (by decide) c hbM1 tbM1 fh1 xt1 i ⟨76, by decide⟩ (k0_off305 i) (by show (Scalar.indexCast (Scalar.addi (Scalar.muli (BitVec.ofNat 32 (i 0).val) 128#32) (BitVec.ofNat 32 76))).toNat = _; exact off_val _ 76 hi (by decide)) (by show 128 * (i 0).val + 76 < 16384; omega) _ _ _ q)
  ihave HR2 := (row_deliverP scM2 c 76 (by decide) inb_S128x64_S1x64_76_0 _ fs2 _ (gVj c i xt2 fh1)) $$ HR2 %(fun q => deliver_gath (by decide) c hbM1 tbM2 fh1 xt2 i ⟨76, by decide⟩ (k0_off305 i) (by show (Scalar.indexCast (Scalar.addi (Scalar.muli (BitVec.ofNat 32 (i 0).val) 128#32) (BitVec.ofNat 32 76))).toNat = _; exact off_val _ 76 hi (by decide)) (by show 128 * (i 0).val + 76 < 16384; omega) _ _ _ q)
  ihave HD0 := (consH _ _) $$ HR0 HD0
  ihave HD1 := (consH _ _) $$ HR1 HD1
  ihave HD2 := (consH _ _) $$ HR2 HD2
  ihave HDC0 := (consH _ _) $$ HC0 HDC0
  ihave HDC1 := (consH _ _) $$ HC1 HDC1
  ihave HDC2 := (consH _ _) $$ HC2 HDC2
  ihave HDT0 := (consH _ _) $$ HT0 HDT0
  ihave HDT1 := (consH _ _) $$ HT1 HDT1
  ihave HDT2 := (consH _ _) $$ HT2 HDT2
  -- row 77: its three copies land; the row's resources go to the heads of the chains of what is done
  icases HB77 with ⟨HC0, HT0, HC1, HT1, HC2, HT2⟩
  sl_exec (disch := first | sl_exact hU _ _ | sl_exact hI _ _ | sl_exact hJ _ _)
  ihave HR0 := (row_deliverP scM0 c 77 (by decide) inb_S128x64_S1x64_77_0 _ fs0 _ (gU c i xt0 fh0)) $$ HR0 %(fun q => deliver_gath (by decide) c hbM0 tbM0 fh0 xt0 i ⟨77, by decide⟩ (k0_off309 i) (by show (Scalar.indexCast (Scalar.addi (Scalar.muli (BitVec.ofNat 32 (i 0).val) 128#32) (BitVec.ofNat 32 77))).toNat = _; exact off_val _ 77 hi (by decide)) (by show 128 * (i 0).val + 77 < 16384; omega) _ _ _ q)
  ihave HR1 := (row_deliverP scM1 c 77 (by decide) inb_S128x64_S1x64_77_0 _ fs1 _ (gVi c i xt1 fh1)) $$ HR1 %(fun q => deliver_gath (by decide) c hbM1 tbM1 fh1 xt1 i ⟨77, by decide⟩ (k0_off309 i) (by show (Scalar.indexCast (Scalar.addi (Scalar.muli (BitVec.ofNat 32 (i 0).val) 128#32) (BitVec.ofNat 32 77))).toNat = _; exact off_val _ 77 hi (by decide)) (by show 128 * (i 0).val + 77 < 16384; omega) _ _ _ q)
  ihave HR2 := (row_deliverP scM2 c 77 (by decide) inb_S128x64_S1x64_77_0 _ fs2 _ (gVj c i xt2 fh1)) $$ HR2 %(fun q => deliver_gath (by decide) c hbM1 tbM2 fh1 xt2 i ⟨77, by decide⟩ (k0_off309 i) (by show (Scalar.indexCast (Scalar.addi (Scalar.muli (BitVec.ofNat 32 (i 0).val) 128#32) (BitVec.ofNat 32 77))).toNat = _; exact off_val _ 77 hi (by decide)) (by show 128 * (i 0).val + 77 < 16384; omega) _ _ _ q)
  ihave HD0 := (consH _ _) $$ HR0 HD0
  ihave HD1 := (consH _ _) $$ HR1 HD1
  ihave HD2 := (consH _ _) $$ HR2 HD2
  ihave HDC0 := (consH _ _) $$ HC0 HDC0
  ihave HDC1 := (consH _ _) $$ HC1 HDC1
  ihave HDC2 := (consH _ _) $$ HC2 HDC2
  ihave HDT0 := (consH _ _) $$ HT0 HDT0
  ihave HDT1 := (consH _ _) $$ HT1 HDT1
  ihave HDT2 := (consH _ _) $$ HT2 HDT2
  -- row 78: its three copies land; the row's resources go to the heads of the chains of what is done
  icases HB78 with ⟨HC0, HT0, HC1, HT1, HC2, HT2⟩
  sl_exec (disch := first | sl_exact hU _ _ | sl_exact hI _ _ | sl_exact hJ _ _)
  ihave HR0 := (row_deliverP scM0 c 78 (by decide) inb_S128x64_S1x64_78_0 _ fs0 _ (gU c i xt0 fh0)) $$ HR0 %(fun q => deliver_gath (by decide) c hbM0 tbM0 fh0 xt0 i ⟨78, by decide⟩ (k0_off313 i) (by show (Scalar.indexCast (Scalar.addi (Scalar.muli (BitVec.ofNat 32 (i 0).val) 128#32) (BitVec.ofNat 32 78))).toNat = _; exact off_val _ 78 hi (by decide)) (by show 128 * (i 0).val + 78 < 16384; omega) _ _ _ q)
  ihave HR1 := (row_deliverP scM1 c 78 (by decide) inb_S128x64_S1x64_78_0 _ fs1 _ (gVi c i xt1 fh1)) $$ HR1 %(fun q => deliver_gath (by decide) c hbM1 tbM1 fh1 xt1 i ⟨78, by decide⟩ (k0_off313 i) (by show (Scalar.indexCast (Scalar.addi (Scalar.muli (BitVec.ofNat 32 (i 0).val) 128#32) (BitVec.ofNat 32 78))).toNat = _; exact off_val _ 78 hi (by decide)) (by show 128 * (i 0).val + 78 < 16384; omega) _ _ _ q)
  ihave HR2 := (row_deliverP scM2 c 78 (by decide) inb_S128x64_S1x64_78_0 _ fs2 _ (gVj c i xt2 fh1)) $$ HR2 %(fun q => deliver_gath (by decide) c hbM1 tbM2 fh1 xt2 i ⟨78, by decide⟩ (k0_off313 i) (by show (Scalar.indexCast (Scalar.addi (Scalar.muli (BitVec.ofNat 32 (i 0).val) 128#32) (BitVec.ofNat 32 78))).toNat = _; exact off_val _ 78 hi (by decide)) (by show 128 * (i 0).val + 78 < 16384; omega) _ _ _ q)
  ihave HD0 := (consH _ _) $$ HR0 HD0
  ihave HD1 := (consH _ _) $$ HR1 HD1
  ihave HD2 := (consH _ _) $$ HR2 HD2
  ihave HDC0 := (consH _ _) $$ HC0 HDC0
  ihave HDC1 := (consH _ _) $$ HC1 HDC1
  ihave HDC2 := (consH _ _) $$ HC2 HDC2
  ihave HDT0 := (consH _ _) $$ HT0 HDT0
  ihave HDT1 := (consH _ _) $$ HT1 HDT1
  ihave HDT2 := (consH _ _) $$ HT2 HDT2
  -- row 79: its three copies land; the row's resources go to the heads of the chains of what is done
  icases HB79 with ⟨HC0, HT0, HC1, HT1, HC2, HT2⟩
  sl_exec (disch := first | sl_exact hU _ _ | sl_exact hI _ _ | sl_exact hJ _ _)
  ihave HR0 := (row_deliverP scM0 c 79 (by decide) inb_S128x64_S1x64_79_0 _ fs0 _ (gU c i xt0 fh0)) $$ HR0 %(fun q => deliver_gath (by decide) c hbM0 tbM0 fh0 xt0 i ⟨79, by decide⟩ (k0_off317 i) (by show (Scalar.indexCast (Scalar.addi (Scalar.muli (BitVec.ofNat 32 (i 0).val) 128#32) (BitVec.ofNat 32 79))).toNat = _; exact off_val _ 79 hi (by decide)) (by show 128 * (i 0).val + 79 < 16384; omega) _ _ _ q)
  ihave HR1 := (row_deliverP scM1 c 79 (by decide) inb_S128x64_S1x64_79_0 _ fs1 _ (gVi c i xt1 fh1)) $$ HR1 %(fun q => deliver_gath (by decide) c hbM1 tbM1 fh1 xt1 i ⟨79, by decide⟩ (k0_off317 i) (by show (Scalar.indexCast (Scalar.addi (Scalar.muli (BitVec.ofNat 32 (i 0).val) 128#32) (BitVec.ofNat 32 79))).toNat = _; exact off_val _ 79 hi (by decide)) (by show 128 * (i 0).val + 79 < 16384; omega) _ _ _ q)
  ihave HR2 := (row_deliverP scM2 c 79 (by decide) inb_S128x64_S1x64_79_0 _ fs2 _ (gVj c i xt2 fh1)) $$ HR2 %(fun q => deliver_gath (by decide) c hbM1 tbM2 fh1 xt2 i ⟨79, by decide⟩ (k0_off317 i) (by show (Scalar.indexCast (Scalar.addi (Scalar.muli (BitVec.ofNat 32 (i 0).val) 128#32) (BitVec.ofNat 32 79))).toNat = _; exact off_val _ 79 hi (by decide)) (by show 128 * (i 0).val + 79 < 16384; omega) _ _ _ q)
  ihave HD0 := (consH _ _) $$ HR0 HD0
  ihave HD1 := (consH _ _) $$ HR1 HD1
  ihave HD2 := (consH _ _) $$ HR2 HD2
  ihave HDC0 := (consH _ _) $$ HC0 HDC0
  ihave HDC1 := (consH _ _) $$ HC1 HDC1
  ihave HDC2 := (consH _ _) $$ HC2 HDC2
  ihave HDT0 := (consH _ _) $$ HT0 HDT0
  ihave HDT1 := (consH _ _) $$ HT1 HDT1
  ihave HDT2 := (consH _ _) $$ HT2 HDT2
  -- row 80: its three copies land; the row's resources go to the heads of the chains of what is done
  icases HB80 with ⟨HC0, HT0, HC1, HT1, HC2, HT2⟩
  sl_exec (disch := first | sl_exact hU _ _ | sl_exact hI _ _ | sl_exact hJ _ _)
  ihave HR0 := (row_deliverP scM0 c 80 (by decide) inb_S128x64_S1x64_80_0 _ fs0 _ (gU c i xt0 fh0)) $$ HR0 %(fun q => deliver_gath (by decide) c hbM0 tbM0 fh0 xt0 i ⟨80, by decide⟩ (k0_off321 i) (by show (Scalar.indexCast (Scalar.addi (Scalar.muli (BitVec.ofNat 32 (i 0).val) 128#32) (BitVec.ofNat 32 80))).toNat = _; exact off_val _ 80 hi (by decide)) (by show 128 * (i 0).val + 80 < 16384; omega) _ _ _ q)
  ihave HR1 := (row_deliverP scM1 c 80 (by decide) inb_S128x64_S1x64_80_0 _ fs1 _ (gVi c i xt1 fh1)) $$ HR1 %(fun q => deliver_gath (by decide) c hbM1 tbM1 fh1 xt1 i ⟨80, by decide⟩ (k0_off321 i) (by show (Scalar.indexCast (Scalar.addi (Scalar.muli (BitVec.ofNat 32 (i 0).val) 128#32) (BitVec.ofNat 32 80))).toNat = _; exact off_val _ 80 hi (by decide)) (by show 128 * (i 0).val + 80 < 16384; omega) _ _ _ q)
  ihave HR2 := (row_deliverP scM2 c 80 (by decide) inb_S128x64_S1x64_80_0 _ fs2 _ (gVj c i xt2 fh1)) $$ HR2 %(fun q => deliver_gath (by decide) c hbM1 tbM2 fh1 xt2 i ⟨80, by decide⟩ (k0_off321 i) (by show (Scalar.indexCast (Scalar.addi (Scalar.muli (BitVec.ofNat 32 (i 0).val) 128#32) (BitVec.ofNat 32 80))).toNat = _; exact off_val _ 80 hi (by decide)) (by show 128 * (i 0).val + 80 < 16384; omega) _ _ _ q)
  ihave HD0 := (consH _ _) $$ HR0 HD0
  ihave HD1 := (consH _ _) $$ HR1 HD1
  ihave HD2 := (consH _ _) $$ HR2 HD2
  ihave HDC0 := (consH _ _) $$ HC0 HDC0
  ihave HDC1 := (consH _ _) $$ HC1 HDC1
  ihave HDC2 := (consH _ _) $$ HC2 HDC2
  ihave HDT0 := (consH _ _) $$ HT0 HDT0
  ihave HDT1 := (consH _ _) $$ HT1 HDT1
  ihave HDT2 := (consH _ _) $$ HT2 HDT2
  -- row 81: its three copies land; the row's resources go to the heads of the chains of what is done
  icases HB81 with ⟨HC0, HT0, HC1, HT1, HC2, HT2⟩
  sl_exec (disch := first | sl_exact hU _ _ | sl_exact hI _ _ | sl_exact hJ _ _)
  ihave HR0 := (row_deliverP scM0 c 81 (by decide) inb_S128x64_S1x64_81_0 _ fs0 _ (gU c i xt0 fh0)) $$ HR0 %(fun q => deliver_gath (by decide) c hbM0 tbM0 fh0 xt0 i ⟨81, by decide⟩ (k0_off325 i) (by show (Scalar.indexCast (Scalar.addi (Scalar.muli (BitVec.ofNat 32 (i 0).val) 128#32) (BitVec.ofNat 32 81))).toNat = _; exact off_val _ 81 hi (by decide)) (by show 128 * (i 0).val + 81 < 16384; omega) _ _ _ q)
  ihave HR1 := (row_deliverP scM1 c 81 (by decide) inb_S128x64_S1x64_81_0 _ fs1 _ (gVi c i xt1 fh1)) $$ HR1 %(fun q => deliver_gath (by decide) c hbM1 tbM1 fh1 xt1 i ⟨81, by decide⟩ (k0_off325 i) (by show (Scalar.indexCast (Scalar.addi (Scalar.muli (BitVec.ofNat 32 (i 0).val) 128#32) (BitVec.ofNat 32 81))).toNat = _; exact off_val _ 81 hi (by decide)) (by show 128 * (i 0).val + 81 < 16384; omega) _ _ _ q)
  ihave HR2 := (row_deliverP scM2 c 81 (by decide) inb_S128x64_S1x64_81_0 _ fs2 _ (gVj c i xt2 fh1)) $$ HR2 %(fun q => deliver_gath (by decide) c hbM1 tbM2 fh1 xt2 i ⟨81, by decide⟩ (k0_off325 i) (by show (Scalar.indexCast (Scalar.addi (Scalar.muli (BitVec.ofNat 32 (i 0).val) 128#32) (BitVec.ofNat 32 81))).toNat = _; exact off_val _ 81 hi (by decide)) (by show 128 * (i 0).val + 81 < 16384; omega) _ _ _ q)
  ihave HD0 := (consH _ _) $$ HR0 HD0
  ihave HD1 := (consH _ _) $$ HR1 HD1
  ihave HD2 := (consH _ _) $$ HR2 HD2
  ihave HDC0 := (consH _ _) $$ HC0 HDC0
  ihave HDC1 := (consH _ _) $$ HC1 HDC1
  ihave HDC2 := (consH _ _) $$ HC2 HDC2
  ihave HDT0 := (consH _ _) $$ HT0 HDT0
  ihave HDT1 := (consH _ _) $$ HT1 HDT1
  ihave HDT2 := (consH _ _) $$ HT2 HDT2
  -- row 82: its three copies land; the row's resources go to the heads of the chains of what is done
  icases HB82 with ⟨HC0, HT0, HC1, HT1, HC2, HT2⟩
  sl_exec (disch := first | sl_exact hU _ _ | sl_exact hI _ _ | sl_exact hJ _ _)
  ihave HR0 := (row_deliverP scM0 c 82 (by decide) inb_S128x64_S1x64_82_0 _ fs0 _ (gU c i xt0 fh0)) $$ HR0 %(fun q => deliver_gath (by decide) c hbM0 tbM0 fh0 xt0 i ⟨82, by decide⟩ (k0_off329 i) (by show (Scalar.indexCast (Scalar.addi (Scalar.muli (BitVec.ofNat 32 (i 0).val) 128#32) (BitVec.ofNat 32 82))).toNat = _; exact off_val _ 82 hi (by decide)) (by show 128 * (i 0).val + 82 < 16384; omega) _ _ _ q)
  ihave HR1 := (row_deliverP scM1 c 82 (by decide) inb_S128x64_S1x64_82_0 _ fs1 _ (gVi c i xt1 fh1)) $$ HR1 %(fun q => deliver_gath (by decide) c hbM1 tbM1 fh1 xt1 i ⟨82, by decide⟩ (k0_off329 i) (by show (Scalar.indexCast (Scalar.addi (Scalar.muli (BitVec.ofNat 32 (i 0).val) 128#32) (BitVec.ofNat 32 82))).toNat = _; exact off_val _ 82 hi (by decide)) (by show 128 * (i 0).val + 82 < 16384; omega) _ _ _ q)
  ihave HR2 := (row_deliverP scM2 c 82 (by decide) inb_S128x64_S1x64_82_0 _ fs2 _ (gVj c i xt2 fh1)) $$ HR2 %(fun q => deliver_gath (by decide) c hbM1 tbM2 fh1 xt2 i ⟨82, by decide⟩ (k0_off329 i) (by show (Scalar.indexCast (Scalar.addi (Scalar.muli (BitVec.ofNat 32 (i 0).val) 128#32) (BitVec.ofNat 32 82))).toNat = _; exact off_val _ 82 hi (by decide)) (by show 128 * (i 0).val + 82 < 16384; omega) _ _ _ q)
  ihave HD0 := (consH _ _) $$ HR0 HD0
  ihave HD1 := (consH _ _) $$ HR1 HD1
  ihave HD2 := (consH _ _) $$ HR2 HD2
  ihave HDC0 := (consH _ _) $$ HC0 HDC0
  ihave HDC1 := (consH _ _) $$ HC1 HDC1
  ihave HDC2 := (consH _ _) $$ HC2 HDC2
  ihave HDT0 := (consH _ _) $$ HT0 HDT0
  ihave HDT1 := (consH _ _) $$ HT1 HDT1
  ihave HDT2 := (consH _ _) $$ HT2 HDT2
  -- row 83: its three copies land; the row's resources go to the heads of the chains of what is done
  icases HB83 with ⟨HC0, HT0, HC1, HT1, HC2, HT2⟩
  sl_exec (disch := first | sl_exact hU _ _ | sl_exact hI _ _ | sl_exact hJ _ _)
  ihave HR0 := (row_deliverP scM0 c 83 (by decide) inb_S128x64_S1x64_83_0 _ fs0 _ (gU c i xt0 fh0)) $$ HR0 %(fun q => deliver_gath (by decide) c hbM0 tbM0 fh0 xt0 i ⟨83, by decide⟩ (k0_off333 i) (by show (Scalar.indexCast (Scalar.addi (Scalar.muli (BitVec.ofNat 32 (i 0).val) 128#32) (BitVec.ofNat 32 83))).toNat = _; exact off_val _ 83 hi (by decide)) (by show 128 * (i 0).val + 83 < 16384; omega) _ _ _ q)
  ihave HR1 := (row_deliverP scM1 c 83 (by decide) inb_S128x64_S1x64_83_0 _ fs1 _ (gVi c i xt1 fh1)) $$ HR1 %(fun q => deliver_gath (by decide) c hbM1 tbM1 fh1 xt1 i ⟨83, by decide⟩ (k0_off333 i) (by show (Scalar.indexCast (Scalar.addi (Scalar.muli (BitVec.ofNat 32 (i 0).val) 128#32) (BitVec.ofNat 32 83))).toNat = _; exact off_val _ 83 hi (by decide)) (by show 128 * (i 0).val + 83 < 16384; omega) _ _ _ q)
  ihave HR2 := (row_deliverP scM2 c 83 (by decide) inb_S128x64_S1x64_83_0 _ fs2 _ (gVj c i xt2 fh1)) $$ HR2 %(fun q => deliver_gath (by decide) c hbM1 tbM2 fh1 xt2 i ⟨83, by decide⟩ (k0_off333 i) (by show (Scalar.indexCast (Scalar.addi (Scalar.muli (BitVec.ofNat 32 (i 0).val) 128#32) (BitVec.ofNat 32 83))).toNat = _; exact off_val _ 83 hi (by decide)) (by show 128 * (i 0).val + 83 < 16384; omega) _ _ _ q)
  ihave HD0 := (consH _ _) $$ HR0 HD0
  ihave HD1 := (consH _ _) $$ HR1 HD1
  ihave HD2 := (consH _ _) $$ HR2 HD2
  ihave HDC0 := (consH _ _) $$ HC0 HDC0
  ihave HDC1 := (consH _ _) $$ HC1 HDC1
  ihave HDC2 := (consH _ _) $$ HC2 HDC2
  ihave HDT0 := (consH _ _) $$ HT0 HDT0
  ihave HDT1 := (consH _ _) $$ HT1 HDT1
  ihave HDT2 := (consH _ _) $$ HT2 HDT2
  -- row 84: its three copies land; the row's resources go to the heads of the chains of what is done
  icases HB84 with ⟨HC0, HT0, HC1, HT1, HC2, HT2⟩
  sl_exec (disch := first | sl_exact hU _ _ | sl_exact hI _ _ | sl_exact hJ _ _)
  ihave HR0 := (row_deliverP scM0 c 84 (by decide) inb_S128x64_S1x64_84_0 _ fs0 _ (gU c i xt0 fh0)) $$ HR0 %(fun q => deliver_gath (by decide) c hbM0 tbM0 fh0 xt0 i ⟨84, by decide⟩ (k0_off337 i) (by show (Scalar.indexCast (Scalar.addi (Scalar.muli (BitVec.ofNat 32 (i 0).val) 128#32) (BitVec.ofNat 32 84))).toNat = _; exact off_val _ 84 hi (by decide)) (by show 128 * (i 0).val + 84 < 16384; omega) _ _ _ q)
  ihave HR1 := (row_deliverP scM1 c 84 (by decide) inb_S128x64_S1x64_84_0 _ fs1 _ (gVi c i xt1 fh1)) $$ HR1 %(fun q => deliver_gath (by decide) c hbM1 tbM1 fh1 xt1 i ⟨84, by decide⟩ (k0_off337 i) (by show (Scalar.indexCast (Scalar.addi (Scalar.muli (BitVec.ofNat 32 (i 0).val) 128#32) (BitVec.ofNat 32 84))).toNat = _; exact off_val _ 84 hi (by decide)) (by show 128 * (i 0).val + 84 < 16384; omega) _ _ _ q)
  ihave HR2 := (row_deliverP scM2 c 84 (by decide) inb_S128x64_S1x64_84_0 _ fs2 _ (gVj c i xt2 fh1)) $$ HR2 %(fun q => deliver_gath (by decide) c hbM1 tbM2 fh1 xt2 i ⟨84, by decide⟩ (k0_off337 i) (by show (Scalar.indexCast (Scalar.addi (Scalar.muli (BitVec.ofNat 32 (i 0).val) 128#32) (BitVec.ofNat 32 84))).toNat = _; exact off_val _ 84 hi (by decide)) (by show 128 * (i 0).val + 84 < 16384; omega) _ _ _ q)
  ihave HD0 := (consH _ _) $$ HR0 HD0
  ihave HD1 := (consH _ _) $$ HR1 HD1
  ihave HD2 := (consH _ _) $$ HR2 HD2
  ihave HDC0 := (consH _ _) $$ HC0 HDC0
  ihave HDC1 := (consH _ _) $$ HC1 HDC1
  ihave HDC2 := (consH _ _) $$ HC2 HDC2
  ihave HDT0 := (consH _ _) $$ HT0 HDT0
  ihave HDT1 := (consH _ _) $$ HT1 HDT1
  ihave HDT2 := (consH _ _) $$ HT2 HDT2
  -- row 85: its three copies land; the row's resources go to the heads of the chains of what is done
  icases HB85 with ⟨HC0, HT0, HC1, HT1, HC2, HT2⟩
  sl_exec (disch := first | sl_exact hU _ _ | sl_exact hI _ _ | sl_exact hJ _ _)
  ihave HR0 := (row_deliverP scM0 c 85 (by decide) inb_S128x64_S1x64_85_0 _ fs0 _ (gU c i xt0 fh0)) $$ HR0 %(fun q => deliver_gath (by decide) c hbM0 tbM0 fh0 xt0 i ⟨85, by decide⟩ (k0_off341 i) (by show (Scalar.indexCast (Scalar.addi (Scalar.muli (BitVec.ofNat 32 (i 0).val) 128#32) (BitVec.ofNat 32 85))).toNat = _; exact off_val _ 85 hi (by decide)) (by show 128 * (i 0).val + 85 < 16384; omega) _ _ _ q)
  ihave HR1 := (row_deliverP scM1 c 85 (by decide) inb_S128x64_S1x64_85_0 _ fs1 _ (gVi c i xt1 fh1)) $$ HR1 %(fun q => deliver_gath (by decide) c hbM1 tbM1 fh1 xt1 i ⟨85, by decide⟩ (k0_off341 i) (by show (Scalar.indexCast (Scalar.addi (Scalar.muli (BitVec.ofNat 32 (i 0).val) 128#32) (BitVec.ofNat 32 85))).toNat = _; exact off_val _ 85 hi (by decide)) (by show 128 * (i 0).val + 85 < 16384; omega) _ _ _ q)
  ihave HR2 := (row_deliverP scM2 c 85 (by decide) inb_S128x64_S1x64_85_0 _ fs2 _ (gVj c i xt2 fh1)) $$ HR2 %(fun q => deliver_gath (by decide) c hbM1 tbM2 fh1 xt2 i ⟨85, by decide⟩ (k0_off341 i) (by show (Scalar.indexCast (Scalar.addi (Scalar.muli (BitVec.ofNat 32 (i 0).val) 128#32) (BitVec.ofNat 32 85))).toNat = _; exact off_val _ 85 hi (by decide)) (by show 128 * (i 0).val + 85 < 16384; omega) _ _ _ q)
  ihave HD0 := (consH _ _) $$ HR0 HD0
  ihave HD1 := (consH _ _) $$ HR1 HD1
  ihave HD2 := (consH _ _) $$ HR2 HD2
  ihave HDC0 := (consH _ _) $$ HC0 HDC0
  ihave HDC1 := (consH _ _) $$ HC1 HDC1
  ihave HDC2 := (consH _ _) $$ HC2 HDC2
  ihave HDT0 := (consH _ _) $$ HT0 HDT0
  ihave HDT1 := (consH _ _) $$ HT1 HDT1
  ihave HDT2 := (consH _ _) $$ HT2 HDT2
  -- row 86: its three copies land; the row's resources go to the heads of the chains of what is done
  icases HB86 with ⟨HC0, HT0, HC1, HT1, HC2, HT2⟩
  sl_exec (disch := first | sl_exact hU _ _ | sl_exact hI _ _ | sl_exact hJ _ _)
  ihave HR0 := (row_deliverP scM0 c 86 (by decide) inb_S128x64_S1x64_86_0 _ fs0 _ (gU c i xt0 fh0)) $$ HR0 %(fun q => deliver_gath (by decide) c hbM0 tbM0 fh0 xt0 i ⟨86, by decide⟩ (k0_off345 i) (by show (Scalar.indexCast (Scalar.addi (Scalar.muli (BitVec.ofNat 32 (i 0).val) 128#32) (BitVec.ofNat 32 86))).toNat = _; exact off_val _ 86 hi (by decide)) (by show 128 * (i 0).val + 86 < 16384; omega) _ _ _ q)
  ihave HR1 := (row_deliverP scM1 c 86 (by decide) inb_S128x64_S1x64_86_0 _ fs1 _ (gVi c i xt1 fh1)) $$ HR1 %(fun q => deliver_gath (by decide) c hbM1 tbM1 fh1 xt1 i ⟨86, by decide⟩ (k0_off345 i) (by show (Scalar.indexCast (Scalar.addi (Scalar.muli (BitVec.ofNat 32 (i 0).val) 128#32) (BitVec.ofNat 32 86))).toNat = _; exact off_val _ 86 hi (by decide)) (by show 128 * (i 0).val + 86 < 16384; omega) _ _ _ q)
  ihave HR2 := (row_deliverP scM2 c 86 (by decide) inb_S128x64_S1x64_86_0 _ fs2 _ (gVj c i xt2 fh1)) $$ HR2 %(fun q => deliver_gath (by decide) c hbM1 tbM2 fh1 xt2 i ⟨86, by decide⟩ (k0_off345 i) (by show (Scalar.indexCast (Scalar.addi (Scalar.muli (BitVec.ofNat 32 (i 0).val) 128#32) (BitVec.ofNat 32 86))).toNat = _; exact off_val _ 86 hi (by decide)) (by show 128 * (i 0).val + 86 < 16384; omega) _ _ _ q)
  ihave HD0 := (consH _ _) $$ HR0 HD0
  ihave HD1 := (consH _ _) $$ HR1 HD1
  ihave HD2 := (consH _ _) $$ HR2 HD2
  ihave HDC0 := (consH _ _) $$ HC0 HDC0
  ihave HDC1 := (consH _ _) $$ HC1 HDC1
  ihave HDC2 := (consH _ _) $$ HC2 HDC2
  ihave HDT0 := (consH _ _) $$ HT0 HDT0
  ihave HDT1 := (consH _ _) $$ HT1 HDT1
  ihave HDT2 := (consH _ _) $$ HT2 HDT2
  -- row 87: its three copies land; the row's resources go to the heads of the chains of what is done
  icases HB87 with ⟨HC0, HT0, HC1, HT1, HC2, HT2⟩
  sl_exec (disch := first | sl_exact hU _ _ | sl_exact hI _ _ | sl_exact hJ _ _)
  ihave HR0 := (row_deliverP scM0 c 87 (by decide) inb_S128x64_S1x64_87_0 _ fs0 _ (gU c i xt0 fh0)) $$ HR0 %(fun q => deliver_gath (by decide) c hbM0 tbM0 fh0 xt0 i ⟨87, by decide⟩ (k0_off349 i) (by show (Scalar.indexCast (Scalar.addi (Scalar.muli (BitVec.ofNat 32 (i 0).val) 128#32) (BitVec.ofNat 32 87))).toNat = _; exact off_val _ 87 hi (by decide)) (by show 128 * (i 0).val + 87 < 16384; omega) _ _ _ q)
  ihave HR1 := (row_deliverP scM1 c 87 (by decide) inb_S128x64_S1x64_87_0 _ fs1 _ (gVi c i xt1 fh1)) $$ HR1 %(fun q => deliver_gath (by decide) c hbM1 tbM1 fh1 xt1 i ⟨87, by decide⟩ (k0_off349 i) (by show (Scalar.indexCast (Scalar.addi (Scalar.muli (BitVec.ofNat 32 (i 0).val) 128#32) (BitVec.ofNat 32 87))).toNat = _; exact off_val _ 87 hi (by decide)) (by show 128 * (i 0).val + 87 < 16384; omega) _ _ _ q)
  ihave HR2 := (row_deliverP scM2 c 87 (by decide) inb_S128x64_S1x64_87_0 _ fs2 _ (gVj c i xt2 fh1)) $$ HR2 %(fun q => deliver_gath (by decide) c hbM1 tbM2 fh1 xt2 i ⟨87, by decide⟩ (k0_off349 i) (by show (Scalar.indexCast (Scalar.addi (Scalar.muli (BitVec.ofNat 32 (i 0).val) 128#32) (BitVec.ofNat 32 87))).toNat = _; exact off_val _ 87 hi (by decide)) (by show 128 * (i 0).val + 87 < 16384; omega) _ _ _ q)
  ihave HD0 := (consH _ _) $$ HR0 HD0
  ihave HD1 := (consH _ _) $$ HR1 HD1
  ihave HD2 := (consH _ _) $$ HR2 HD2
  ihave HDC0 := (consH _ _) $$ HC0 HDC0
  ihave HDC1 := (consH _ _) $$ HC1 HDC1
  ihave HDC2 := (consH _ _) $$ HC2 HDC2
  ihave HDT0 := (consH _ _) $$ HT0 HDT0
  ihave HDT1 := (consH _ _) $$ HT1 HDT1
  ihave HDT2 := (consH _ _) $$ HT2 HDT2
  -- row 88: its three copies land; the row's resources go to the heads of the chains of what is done
  icases HB88 with ⟨HC0, HT0, HC1, HT1, HC2, HT2⟩
  sl_exec (disch := first | sl_exact hU _ _ | sl_exact hI _ _ | sl_exact hJ _ _)
  ihave HR0 := (row_deliverP scM0 c 88 (by decide) inb_S128x64_S1x64_88_0 _ fs0 _ (gU c i xt0 fh0)) $$ HR0 %(fun q => deliver_gath (by decide) c hbM0 tbM0 fh0 xt0 i ⟨88, by decide⟩ (k0_off353 i) (by show (Scalar.indexCast (Scalar.addi (Scalar.muli (BitVec.ofNat 32 (i 0).val) 128#32) (BitVec.ofNat 32 88))).toNat = _; exact off_val _ 88 hi (by decide)) (by show 128 * (i 0).val + 88 < 16384; omega) _ _ _ q)
  ihave HR1 := (row_deliverP scM1 c 88 (by decide) inb_S128x64_S1x64_88_0 _ fs1 _ (gVi c i xt1 fh1)) $$ HR1 %(fun q => deliver_gath (by decide) c hbM1 tbM1 fh1 xt1 i ⟨88, by decide⟩ (k0_off353 i) (by show (Scalar.indexCast (Scalar.addi (Scalar.muli (BitVec.ofNat 32 (i 0).val) 128#32) (BitVec.ofNat 32 88))).toNat = _; exact off_val _ 88 hi (by decide)) (by show 128 * (i 0).val + 88 < 16384; omega) _ _ _ q)
  ihave HR2 := (row_deliverP scM2 c 88 (by decide) inb_S128x64_S1x64_88_0 _ fs2 _ (gVj c i xt2 fh1)) $$ HR2 %(fun q => deliver_gath (by decide) c hbM1 tbM2 fh1 xt2 i ⟨88, by decide⟩ (k0_off353 i) (by show (Scalar.indexCast (Scalar.addi (Scalar.muli (BitVec.ofNat 32 (i 0).val) 128#32) (BitVec.ofNat 32 88))).toNat = _; exact off_val _ 88 hi (by decide)) (by show 128 * (i 0).val + 88 < 16384; omega) _ _ _ q)
  ihave HD0 := (consH _ _) $$ HR0 HD0
  ihave HD1 := (consH _ _) $$ HR1 HD1
  ihave HD2 := (consH _ _) $$ HR2 HD2
  ihave HDC0 := (consH _ _) $$ HC0 HDC0
  ihave HDC1 := (consH _ _) $$ HC1 HDC1
  ihave HDC2 := (consH _ _) $$ HC2 HDC2
  ihave HDT0 := (consH _ _) $$ HT0 HDT0
  ihave HDT1 := (consH _ _) $$ HT1 HDT1
  ihave HDT2 := (consH _ _) $$ HT2 HDT2
  -- row 89: its three copies land; the row's resources go to the heads of the chains of what is done
  icases HB89 with ⟨HC0, HT0, HC1, HT1, HC2, HT2⟩
  sl_exec (disch := first | sl_exact hU _ _ | sl_exact hI _ _ | sl_exact hJ _ _)
  ihave HR0 := (row_deliverP scM0 c 89 (by decide) inb_S128x64_S1x64_89_0 _ fs0 _ (gU c i xt0 fh0)) $$ HR0 %(fun q => deliver_gath (by decide) c hbM0 tbM0 fh0 xt0 i ⟨89, by decide⟩ (k0_off357 i) (by show (Scalar.indexCast (Scalar.addi (Scalar.muli (BitVec.ofNat 32 (i 0).val) 128#32) (BitVec.ofNat 32 89))).toNat = _; exact off_val _ 89 hi (by decide)) (by show 128 * (i 0).val + 89 < 16384; omega) _ _ _ q)
  ihave HR1 := (row_deliverP scM1 c 89 (by decide) inb_S128x64_S1x64_89_0 _ fs1 _ (gVi c i xt1 fh1)) $$ HR1 %(fun q => deliver_gath (by decide) c hbM1 tbM1 fh1 xt1 i ⟨89, by decide⟩ (k0_off357 i) (by show (Scalar.indexCast (Scalar.addi (Scalar.muli (BitVec.ofNat 32 (i 0).val) 128#32) (BitVec.ofNat 32 89))).toNat = _; exact off_val _ 89 hi (by decide)) (by show 128 * (i 0).val + 89 < 16384; omega) _ _ _ q)
  ihave HR2 := (row_deliverP scM2 c 89 (by decide) inb_S128x64_S1x64_89_0 _ fs2 _ (gVj c i xt2 fh1)) $$ HR2 %(fun q => deliver_gath (by decide) c hbM1 tbM2 fh1 xt2 i ⟨89, by decide⟩ (k0_off357 i) (by show (Scalar.indexCast (Scalar.addi (Scalar.muli (BitVec.ofNat 32 (i 0).val) 128#32) (BitVec.ofNat 32 89))).toNat = _; exact off_val _ 89 hi (by decide)) (by show 128 * (i 0).val + 89 < 16384; omega) _ _ _ q)
  ihave HD0 := (consH _ _) $$ HR0 HD0
  ihave HD1 := (consH _ _) $$ HR1 HD1
  ihave HD2 := (consH _ _) $$ HR2 HD2
  ihave HDC0 := (consH _ _) $$ HC0 HDC0
  ihave HDC1 := (consH _ _) $$ HC1 HDC1
  ihave HDC2 := (consH _ _) $$ HC2 HDC2
  ihave HDT0 := (consH _ _) $$ HT0 HDT0
  ihave HDT1 := (consH _ _) $$ HT1 HDT1
  ihave HDT2 := (consH _ _) $$ HT2 HDT2
  -- row 90: its three copies land; the row's resources go to the heads of the chains of what is done
  icases HB90 with ⟨HC0, HT0, HC1, HT1, HC2, HT2⟩
  sl_exec (disch := first | sl_exact hU _ _ | sl_exact hI _ _ | sl_exact hJ _ _)
  ihave HR0 := (row_deliverP scM0 c 90 (by decide) inb_S128x64_S1x64_90_0 _ fs0 _ (gU c i xt0 fh0)) $$ HR0 %(fun q => deliver_gath (by decide) c hbM0 tbM0 fh0 xt0 i ⟨90, by decide⟩ (k0_off361 i) (by show (Scalar.indexCast (Scalar.addi (Scalar.muli (BitVec.ofNat 32 (i 0).val) 128#32) (BitVec.ofNat 32 90))).toNat = _; exact off_val _ 90 hi (by decide)) (by show 128 * (i 0).val + 90 < 16384; omega) _ _ _ q)
  ihave HR1 := (row_deliverP scM1 c 90 (by decide) inb_S128x64_S1x64_90_0 _ fs1 _ (gVi c i xt1 fh1)) $$ HR1 %(fun q => deliver_gath (by decide) c hbM1 tbM1 fh1 xt1 i ⟨90, by decide⟩ (k0_off361 i) (by show (Scalar.indexCast (Scalar.addi (Scalar.muli (BitVec.ofNat 32 (i 0).val) 128#32) (BitVec.ofNat 32 90))).toNat = _; exact off_val _ 90 hi (by decide)) (by show 128 * (i 0).val + 90 < 16384; omega) _ _ _ q)
  ihave HR2 := (row_deliverP scM2 c 90 (by decide) inb_S128x64_S1x64_90_0 _ fs2 _ (gVj c i xt2 fh1)) $$ HR2 %(fun q => deliver_gath (by decide) c hbM1 tbM2 fh1 xt2 i ⟨90, by decide⟩ (k0_off361 i) (by show (Scalar.indexCast (Scalar.addi (Scalar.muli (BitVec.ofNat 32 (i 0).val) 128#32) (BitVec.ofNat 32 90))).toNat = _; exact off_val _ 90 hi (by decide)) (by show 128 * (i 0).val + 90 < 16384; omega) _ _ _ q)
  ihave HD0 := (consH _ _) $$ HR0 HD0
  ihave HD1 := (consH _ _) $$ HR1 HD1
  ihave HD2 := (consH _ _) $$ HR2 HD2
  ihave HDC0 := (consH _ _) $$ HC0 HDC0
  ihave HDC1 := (consH _ _) $$ HC1 HDC1
  ihave HDC2 := (consH _ _) $$ HC2 HDC2
  ihave HDT0 := (consH _ _) $$ HT0 HDT0
  ihave HDT1 := (consH _ _) $$ HT1 HDT1
  ihave HDT2 := (consH _ _) $$ HT2 HDT2
  -- row 91: its three copies land; the row's resources go to the heads of the chains of what is done
  icases HB91 with ⟨HC0, HT0, HC1, HT1, HC2, HT2⟩
  sl_exec (disch := first | sl_exact hU _ _ | sl_exact hI _ _ | sl_exact hJ _ _)
  ihave HR0 := (row_deliverP scM0 c 91 (by decide) inb_S128x64_S1x64_91_0 _ fs0 _ (gU c i xt0 fh0)) $$ HR0 %(fun q => deliver_gath (by decide) c hbM0 tbM0 fh0 xt0 i ⟨91, by decide⟩ (k0_off365 i) (by show (Scalar.indexCast (Scalar.addi (Scalar.muli (BitVec.ofNat 32 (i 0).val) 128#32) (BitVec.ofNat 32 91))).toNat = _; exact off_val _ 91 hi (by decide)) (by show 128 * (i 0).val + 91 < 16384; omega) _ _ _ q)
  ihave HR1 := (row_deliverP scM1 c 91 (by decide) inb_S128x64_S1x64_91_0 _ fs1 _ (gVi c i xt1 fh1)) $$ HR1 %(fun q => deliver_gath (by decide) c hbM1 tbM1 fh1 xt1 i ⟨91, by decide⟩ (k0_off365 i) (by show (Scalar.indexCast (Scalar.addi (Scalar.muli (BitVec.ofNat 32 (i 0).val) 128#32) (BitVec.ofNat 32 91))).toNat = _; exact off_val _ 91 hi (by decide)) (by show 128 * (i 0).val + 91 < 16384; omega) _ _ _ q)
  ihave HR2 := (row_deliverP scM2 c 91 (by decide) inb_S128x64_S1x64_91_0 _ fs2 _ (gVj c i xt2 fh1)) $$ HR2 %(fun q => deliver_gath (by decide) c hbM1 tbM2 fh1 xt2 i ⟨91, by decide⟩ (k0_off365 i) (by show (Scalar.indexCast (Scalar.addi (Scalar.muli (BitVec.ofNat 32 (i 0).val) 128#32) (BitVec.ofNat 32 91))).toNat = _; exact off_val _ 91 hi (by decide)) (by show 128 * (i 0).val + 91 < 16384; omega) _ _ _ q)
  ihave HD0 := (consH _ _) $$ HR0 HD0
  ihave HD1 := (consH _ _) $$ HR1 HD1
  ihave HD2 := (consH _ _) $$ HR2 HD2
  ihave HDC0 := (consH _ _) $$ HC0 HDC0
  ihave HDC1 := (consH _ _) $$ HC1 HDC1
  ihave HDC2 := (consH _ _) $$ HC2 HDC2
  ihave HDT0 := (consH _ _) $$ HT0 HDT0
  ihave HDT1 := (consH _ _) $$ HT1 HDT1
  ihave HDT2 := (consH _ _) $$ HT2 HDT2
  -- row 92: its three copies land; the row's resources go to the heads of the chains of what is done
  icases HB92 with ⟨HC0, HT0, HC1, HT1, HC2, HT2⟩
  sl_exec (disch := first | sl_exact hU _ _ | sl_exact hI _ _ | sl_exact hJ _ _)
  ihave HR0 := (row_deliverP scM0 c 92 (by decide) inb_S128x64_S1x64_92_0 _ fs0 _ (gU c i xt0 fh0)) $$ HR0 %(fun q => deliver_gath (by decide) c hbM0 tbM0 fh0 xt0 i ⟨92, by decide⟩ (k0_off369 i) (by show (Scalar.indexCast (Scalar.addi (Scalar.muli (BitVec.ofNat 32 (i 0).val) 128#32) (BitVec.ofNat 32 92))).toNat = _; exact off_val _ 92 hi (by decide)) (by show 128 * (i 0).val + 92 < 16384; omega) _ _ _ q)
  ihave HR1 := (row_deliverP scM1 c 92 (by decide) inb_S128x64_S1x64_92_0 _ fs1 _ (gVi c i xt1 fh1)) $$ HR1 %(fun q => deliver_gath (by decide) c hbM1 tbM1 fh1 xt1 i ⟨92, by decide⟩ (k0_off369 i) (by show (Scalar.indexCast (Scalar.addi (Scalar.muli (BitVec.ofNat 32 (i 0).val) 128#32) (BitVec.ofNat 32 92))).toNat = _; exact off_val _ 92 hi (by decide)) (by show 128 * (i 0).val + 92 < 16384; omega) _ _ _ q)
  ihave HR2 := (row_deliverP scM2 c 92 (by decide) inb_S128x64_S1x64_92_0 _ fs2 _ (gVj c i xt2 fh1)) $$ HR2 %(fun q => deliver_gath (by decide) c hbM1 tbM2 fh1 xt2 i ⟨92, by decide⟩ (k0_off369 i) (by show (Scalar.indexCast (Scalar.addi (Scalar.muli (BitVec.ofNat 32 (i 0).val) 128#32) (BitVec.ofNat 32 92))).toNat = _; exact off_val _ 92 hi (by decide)) (by show 128 * (i 0).val + 92 < 16384; omega) _ _ _ q)
  ihave HD0 := (consH _ _) $$ HR0 HD0
  ihave HD1 := (consH _ _) $$ HR1 HD1
  ihave HD2 := (consH _ _) $$ HR2 HD2
  ihave HDC0 := (consH _ _) $$ HC0 HDC0
  ihave HDC1 := (consH _ _) $$ HC1 HDC1
  ihave HDC2 := (consH _ _) $$ HC2 HDC2
  ihave HDT0 := (consH _ _) $$ HT0 HDT0
  ihave HDT1 := (consH _ _) $$ HT1 HDT1
  ihave HDT2 := (consH _ _) $$ HT2 HDT2
  -- row 93: its three copies land; the row's resources go to the heads of the chains of what is done
  icases HB93 with ⟨HC0, HT0, HC1, HT1, HC2, HT2⟩
  sl_exec (disch := first | sl_exact hU _ _ | sl_exact hI _ _ | sl_exact hJ _ _)
  ihave HR0 := (row_deliverP scM0 c 93 (by decide) inb_S128x64_S1x64_93_0 _ fs0 _ (gU c i xt0 fh0)) $$ HR0 %(fun q => deliver_gath (by decide) c hbM0 tbM0 fh0 xt0 i ⟨93, by decide⟩ (k0_off373 i) (by show (Scalar.indexCast (Scalar.addi (Scalar.muli (BitVec.ofNat 32 (i 0).val) 128#32) (BitVec.ofNat 32 93))).toNat = _; exact off_val _ 93 hi (by decide)) (by show 128 * (i 0).val + 93 < 16384; omega) _ _ _ q)
  ihave HR1 := (row_deliverP scM1 c 93 (by decide) inb_S128x64_S1x64_93_0 _ fs1 _ (gVi c i xt1 fh1)) $$ HR1 %(fun q => deliver_gath (by decide) c hbM1 tbM1 fh1 xt1 i ⟨93, by decide⟩ (k0_off373 i) (by show (Scalar.indexCast (Scalar.addi (Scalar.muli (BitVec.ofNat 32 (i 0).val) 128#32) (BitVec.ofNat 32 93))).toNat = _; exact off_val _ 93 hi (by decide)) (by show 128 * (i 0).val + 93 < 16384; omega) _ _ _ q)
  ihave HR2 := (row_deliverP scM2 c 93 (by decide) inb_S128x64_S1x64_93_0 _ fs2 _ (gVj c i xt2 fh1)) $$ HR2 %(fun q => deliver_gath (by decide) c hbM1 tbM2 fh1 xt2 i ⟨93, by decide⟩ (k0_off373 i) (by show (Scalar.indexCast (Scalar.addi (Scalar.muli (BitVec.ofNat 32 (i 0).val) 128#32) (BitVec.ofNat 32 93))).toNat = _; exact off_val _ 93 hi (by decide)) (by show 128 * (i 0).val + 93 < 16384; omega) _ _ _ q)
  ihave HD0 := (consH _ _) $$ HR0 HD0
  ihave HD1 := (consH _ _) $$ HR1 HD1
  ihave HD2 := (consH _ _) $$ HR2 HD2
  ihave HDC0 := (consH _ _) $$ HC0 HDC0
  ihave HDC1 := (consH _ _) $$ HC1 HDC1
  ihave HDC2 := (consH _ _) $$ HC2 HDC2
  ihave HDT0 := (consH _ _) $$ HT0 HDT0
  ihave HDT1 := (consH _ _) $$ HT1 HDT1
  ihave HDT2 := (consH _ _) $$ HT2 HDT2
  -- row 94: its three copies land; the row's resources go to the heads of the chains of what is done
  icases HB94 with ⟨HC0, HT0, HC1, HT1, HC2, HT2⟩
  sl_exec (disch := first | sl_exact hU _ _ | sl_exact hI _ _ | sl_exact hJ _ _)
  ihave HR0 := (row_deliverP scM0 c 94 (by decide) inb_S128x64_S1x64_94_0 _ fs0 _ (gU c i xt0 fh0)) $$ HR0 %(fun q => deliver_gath (by decide) c hbM0 tbM0 fh0 xt0 i ⟨94, by decide⟩ (k0_off377 i) (by show (Scalar.indexCast (Scalar.addi (Scalar.muli (BitVec.ofNat 32 (i 0).val) 128#32) (BitVec.ofNat 32 94))).toNat = _; exact off_val _ 94 hi (by decide)) (by show 128 * (i 0).val + 94 < 16384; omega) _ _ _ q)
  ihave HR1 := (row_deliverP scM1 c 94 (by decide) inb_S128x64_S1x64_94_0 _ fs1 _ (gVi c i xt1 fh1)) $$ HR1 %(fun q => deliver_gath (by decide) c hbM1 tbM1 fh1 xt1 i ⟨94, by decide⟩ (k0_off377 i) (by show (Scalar.indexCast (Scalar.addi (Scalar.muli (BitVec.ofNat 32 (i 0).val) 128#32) (BitVec.ofNat 32 94))).toNat = _; exact off_val _ 94 hi (by decide)) (by show 128 * (i 0).val + 94 < 16384; omega) _ _ _ q)
  ihave HR2 := (row_deliverP scM2 c 94 (by decide) inb_S128x64_S1x64_94_0 _ fs2 _ (gVj c i xt2 fh1)) $$ HR2 %(fun q => deliver_gath (by decide) c hbM1 tbM2 fh1 xt2 i ⟨94, by decide⟩ (k0_off377 i) (by show (Scalar.indexCast (Scalar.addi (Scalar.muli (BitVec.ofNat 32 (i 0).val) 128#32) (BitVec.ofNat 32 94))).toNat = _; exact off_val _ 94 hi (by decide)) (by show 128 * (i 0).val + 94 < 16384; omega) _ _ _ q)
  ihave HD0 := (consH _ _) $$ HR0 HD0
  ihave HD1 := (consH _ _) $$ HR1 HD1
  ihave HD2 := (consH _ _) $$ HR2 HD2
  ihave HDC0 := (consH _ _) $$ HC0 HDC0
  ihave HDC1 := (consH _ _) $$ HC1 HDC1
  ihave HDC2 := (consH _ _) $$ HC2 HDC2
  ihave HDT0 := (consH _ _) $$ HT0 HDT0
  ihave HDT1 := (consH _ _) $$ HT1 HDT1
  ihave HDT2 := (consH _ _) $$ HT2 HDT2
  -- row 95: its three copies land; the row's resources go to the heads of the chains of what is done
  icases HB95 with ⟨HC0, HT0, HC1, HT1, HC2, HT2⟩
  sl_exec (disch := first | sl_exact hU _ _ | sl_exact hI _ _ | sl_exact hJ _ _)
  ihave HR0 := (row_deliverP scM0 c 95 (by decide) inb_S128x64_S1x64_95_0 _ fs0 _ (gU c i xt0 fh0)) $$ HR0 %(fun q => deliver_gath (by decide) c hbM0 tbM0 fh0 xt0 i ⟨95, by decide⟩ (k0_off381 i) (by show (Scalar.indexCast (Scalar.addi (Scalar.muli (BitVec.ofNat 32 (i 0).val) 128#32) (BitVec.ofNat 32 95))).toNat = _; exact off_val _ 95 hi (by decide)) (by show 128 * (i 0).val + 95 < 16384; omega) _ _ _ q)
  ihave HR1 := (row_deliverP scM1 c 95 (by decide) inb_S128x64_S1x64_95_0 _ fs1 _ (gVi c i xt1 fh1)) $$ HR1 %(fun q => deliver_gath (by decide) c hbM1 tbM1 fh1 xt1 i ⟨95, by decide⟩ (k0_off381 i) (by show (Scalar.indexCast (Scalar.addi (Scalar.muli (BitVec.ofNat 32 (i 0).val) 128#32) (BitVec.ofNat 32 95))).toNat = _; exact off_val _ 95 hi (by decide)) (by show 128 * (i 0).val + 95 < 16384; omega) _ _ _ q)
  ihave HR2 := (row_deliverP scM2 c 95 (by decide) inb_S128x64_S1x64_95_0 _ fs2 _ (gVj c i xt2 fh1)) $$ HR2 %(fun q => deliver_gath (by decide) c hbM1 tbM2 fh1 xt2 i ⟨95, by decide⟩ (k0_off381 i) (by show (Scalar.indexCast (Scalar.addi (Scalar.muli (BitVec.ofNat 32 (i 0).val) 128#32) (BitVec.ofNat 32 95))).toNat = _; exact off_val _ 95 hi (by decide)) (by show 128 * (i 0).val + 95 < 16384; omega) _ _ _ q)
  ihave HD0 := (consH _ _) $$ HR0 HD0
  ihave HD1 := (consH _ _) $$ HR1 HD1
  ihave HD2 := (consH _ _) $$ HR2 HD2
  ihave HDC0 := (consH _ _) $$ HC0 HDC0
  ihave HDC1 := (consH _ _) $$ HC1 HDC1
  ihave HDC2 := (consH _ _) $$ HC2 HDC2
  ihave HDT0 := (consH _ _) $$ HT0 HDT0
  ihave HDT1 := (consH _ _) $$ HT1 HDT1
  ihave HDT2 := (consH _ _) $$ HT2 HDT2
  -- row 96: its three copies land; the row's resources go to the heads of the chains of what is done
  icases HB96 with ⟨HC0, HT0, HC1, HT1, HC2, HT2⟩
  sl_exec (disch := first | sl_exact hU _ _ | sl_exact hI _ _ | sl_exact hJ _ _)
  ihave HR0 := (row_deliverP scM0 c 96 (by decide) inb_S128x64_S1x64_96_0 _ fs0 _ (gU c i xt0 fh0)) $$ HR0 %(fun q => deliver_gath (by decide) c hbM0 tbM0 fh0 xt0 i ⟨96, by decide⟩ (k0_off385 i) (by show (Scalar.indexCast (Scalar.addi (Scalar.muli (BitVec.ofNat 32 (i 0).val) 128#32) (BitVec.ofNat 32 96))).toNat = _; exact off_val _ 96 hi (by decide)) (by show 128 * (i 0).val + 96 < 16384; omega) _ _ _ q)
  ihave HR1 := (row_deliverP scM1 c 96 (by decide) inb_S128x64_S1x64_96_0 _ fs1 _ (gVi c i xt1 fh1)) $$ HR1 %(fun q => deliver_gath (by decide) c hbM1 tbM1 fh1 xt1 i ⟨96, by decide⟩ (k0_off385 i) (by show (Scalar.indexCast (Scalar.addi (Scalar.muli (BitVec.ofNat 32 (i 0).val) 128#32) (BitVec.ofNat 32 96))).toNat = _; exact off_val _ 96 hi (by decide)) (by show 128 * (i 0).val + 96 < 16384; omega) _ _ _ q)
  ihave HR2 := (row_deliverP scM2 c 96 (by decide) inb_S128x64_S1x64_96_0 _ fs2 _ (gVj c i xt2 fh1)) $$ HR2 %(fun q => deliver_gath (by decide) c hbM1 tbM2 fh1 xt2 i ⟨96, by decide⟩ (k0_off385 i) (by show (Scalar.indexCast (Scalar.addi (Scalar.muli (BitVec.ofNat 32 (i 0).val) 128#32) (BitVec.ofNat 32 96))).toNat = _; exact off_val _ 96 hi (by decide)) (by show 128 * (i 0).val + 96 < 16384; omega) _ _ _ q)
  ihave HD0 := (consH _ _) $$ HR0 HD0
  ihave HD1 := (consH _ _) $$ HR1 HD1
  ihave HD2 := (consH _ _) $$ HR2 HD2
  ihave HDC0 := (consH _ _) $$ HC0 HDC0
  ihave HDC1 := (consH _ _) $$ HC1 HDC1
  ihave HDC2 := (consH _ _) $$ HC2 HDC2
  ihave HDT0 := (consH _ _) $$ HT0 HDT0
  ihave HDT1 := (consH _ _) $$ HT1 HDT1
  ihave HDT2 := (consH _ _) $$ HT2 HDT2
  -- row 97: its three copies land; the row's resources go to the heads of the chains of what is done
  icases HB97 with ⟨HC0, HT0, HC1, HT1, HC2, HT2⟩
  sl_exec (disch := first | sl_exact hU _ _ | sl_exact hI _ _ | sl_exact hJ _ _)
  ihave HR0 := (row_deliverP scM0 c 97 (by decide) inb_S128x64_S1x64_97_0 _ fs0 _ (gU c i xt0 fh0)) $$ HR0 %(fun q => deliver_gath (by decide) c hbM0 tbM0 fh0 xt0 i ⟨97, by decide⟩ (k0_off389 i) (by show (Scalar.indexCast (Scalar.addi (Scalar.muli (BitVec.ofNat 32 (i 0).val) 128#32) (BitVec.ofNat 32 97))).toNat = _; exact off_val _ 97 hi (by decide)) (by show 128 * (i 0).val + 97 < 16384; omega) _ _ _ q)
  ihave HR1 := (row_deliverP scM1 c 97 (by decide) inb_S128x64_S1x64_97_0 _ fs1 _ (gVi c i xt1 fh1)) $$ HR1 %(fun q => deliver_gath (by decide) c hbM1 tbM1 fh1 xt1 i ⟨97, by decide⟩ (k0_off389 i) (by show (Scalar.indexCast (Scalar.addi (Scalar.muli (BitVec.ofNat 32 (i 0).val) 128#32) (BitVec.ofNat 32 97))).toNat = _; exact off_val _ 97 hi (by decide)) (by show 128 * (i 0).val + 97 < 16384; omega) _ _ _ q)
  ihave HR2 := (row_deliverP scM2 c 97 (by decide) inb_S128x64_S1x64_97_0 _ fs2 _ (gVj c i xt2 fh1)) $$ HR2 %(fun q => deliver_gath (by decide) c hbM1 tbM2 fh1 xt2 i ⟨97, by decide⟩ (k0_off389 i) (by show (Scalar.indexCast (Scalar.addi (Scalar.muli (BitVec.ofNat 32 (i 0).val) 128#32) (BitVec.ofNat 32 97))).toNat = _; exact off_val _ 97 hi (by decide)) (by show 128 * (i 0).val + 97 < 16384; omega) _ _ _ q)
  ihave HD0 := (consH _ _) $$ HR0 HD0
  ihave HD1 := (consH _ _) $$ HR1 HD1
  ihave HD2 := (consH _ _) $$ HR2 HD2
  ihave HDC0 := (consH _ _) $$ HC0 HDC0
  ihave HDC1 := (consH _ _) $$ HC1 HDC1
  ihave HDC2 := (consH _ _) $$ HC2 HDC2
  ihave HDT0 := (consH _ _) $$ HT0 HDT0
  ihave HDT1 := (consH _ _) $$ HT1 HDT1
  ihave HDT2 := (consH _ _) $$ HT2 HDT2
  -- row 98: its three copies land; the row's resources go to the heads of the chains of what is done
  icases HB98 with ⟨HC0, HT0, HC1, HT1, HC2, HT2⟩
  sl_exec (disch := first | sl_exact hU _ _ | sl_exact hI _ _ | sl_exact hJ _ _)
  ihave HR0 := (row_deliverP scM0 c 98 (by decide) inb_S128x64_S1x64_98_0 _ fs0 _ (gU c i xt0 fh0)) $$ HR0 %(fun q => deliver_gath (by decide) c hbM0 tbM0 fh0 xt0 i ⟨98, by decide⟩ (k0_off393 i) (by show (Scalar.indexCast (Scalar.addi (Scalar.muli (BitVec.ofNat 32 (i 0).val) 128#32) (BitVec.ofNat 32 98))).toNat = _; exact off_val _ 98 hi (by decide)) (by show 128 * (i 0).val + 98 < 16384; omega) _ _ _ q)
  ihave HR1 := (row_deliverP scM1 c 98 (by decide) inb_S128x64_S1x64_98_0 _ fs1 _ (gVi c i xt1 fh1)) $$ HR1 %(fun q => deliver_gath (by decide) c hbM1 tbM1 fh1 xt1 i ⟨98, by decide⟩ (k0_off393 i) (by show (Scalar.indexCast (Scalar.addi (Scalar.muli (BitVec.ofNat 32 (i 0).val) 128#32) (BitVec.ofNat 32 98))).toNat = _; exact off_val _ 98 hi (by decide)) (by show 128 * (i 0).val + 98 < 16384; omega) _ _ _ q)
  ihave HR2 := (row_deliverP scM2 c 98 (by decide) inb_S128x64_S1x64_98_0 _ fs2 _ (gVj c i xt2 fh1)) $$ HR2 %(fun q => deliver_gath (by decide) c hbM1 tbM2 fh1 xt2 i ⟨98, by decide⟩ (k0_off393 i) (by show (Scalar.indexCast (Scalar.addi (Scalar.muli (BitVec.ofNat 32 (i 0).val) 128#32) (BitVec.ofNat 32 98))).toNat = _; exact off_val _ 98 hi (by decide)) (by show 128 * (i 0).val + 98 < 16384; omega) _ _ _ q)
  ihave HD0 := (consH _ _) $$ HR0 HD0
  ihave HD1 := (consH _ _) $$ HR1 HD1
  ihave HD2 := (consH _ _) $$ HR2 HD2
  ihave HDC0 := (consH _ _) $$ HC0 HDC0
  ihave HDC1 := (consH _ _) $$ HC1 HDC1
  ihave HDC2 := (consH _ _) $$ HC2 HDC2
  ihave HDT0 := (consH _ _) $$ HT0 HDT0
  ihave HDT1 := (consH _ _) $$ HT1 HDT1
  ihave HDT2 := (consH _ _) $$ HT2 HDT2
  -- row 99: its three copies land; the row's resources go to the heads of the chains of what is done
  icases HB99 with ⟨HC0, HT0, HC1, HT1, HC2, HT2⟩
  sl_exec (disch := first | sl_exact hU _ _ | sl_exact hI _ _ | sl_exact hJ _ _)
  ihave HR0 := (row_deliverP scM0 c 99 (by decide) inb_S128x64_S1x64_99_0 _ fs0 _ (gU c i xt0 fh0)) $$ HR0 %(fun q => deliver_gath (by decide) c hbM0 tbM0 fh0 xt0 i ⟨99, by decide⟩ (k0_off397 i) (by show (Scalar.indexCast (Scalar.addi (Scalar.muli (BitVec.ofNat 32 (i 0).val) 128#32) (BitVec.ofNat 32 99))).toNat = _; exact off_val _ 99 hi (by decide)) (by show 128 * (i 0).val + 99 < 16384; omega) _ _ _ q)
  ihave HR1 := (row_deliverP scM1 c 99 (by decide) inb_S128x64_S1x64_99_0 _ fs1 _ (gVi c i xt1 fh1)) $$ HR1 %(fun q => deliver_gath (by decide) c hbM1 tbM1 fh1 xt1 i ⟨99, by decide⟩ (k0_off397 i) (by show (Scalar.indexCast (Scalar.addi (Scalar.muli (BitVec.ofNat 32 (i 0).val) 128#32) (BitVec.ofNat 32 99))).toNat = _; exact off_val _ 99 hi (by decide)) (by show 128 * (i 0).val + 99 < 16384; omega) _ _ _ q)
  ihave HR2 := (row_deliverP scM2 c 99 (by decide) inb_S128x64_S1x64_99_0 _ fs2 _ (gVj c i xt2 fh1)) $$ HR2 %(fun q => deliver_gath (by decide) c hbM1 tbM2 fh1 xt2 i ⟨99, by decide⟩ (k0_off397 i) (by show (Scalar.indexCast (Scalar.addi (Scalar.muli (BitVec.ofNat 32 (i 0).val) 128#32) (BitVec.ofNat 32 99))).toNat = _; exact off_val _ 99 hi (by decide)) (by show 128 * (i 0).val + 99 < 16384; omega) _ _ _ q)
  ihave HD0 := (consH _ _) $$ HR0 HD0
  ihave HD1 := (consH _ _) $$ HR1 HD1
  ihave HD2 := (consH _ _) $$ HR2 HD2
  ihave HDC0 := (consH _ _) $$ HC0 HDC0
  ihave HDC1 := (consH _ _) $$ HC1 HDC1
  ihave HDC2 := (consH _ _) $$ HC2 HDC2
  ihave HDT0 := (consH _ _) $$ HT0 HDT0
  ihave HDT1 := (consH _ _) $$ HT1 HDT1
  ihave HDT2 := (consH _ _) $$ HT2 HDT2
  -- row 100: its three copies land; the row's resources go to the heads of the chains of what is done
  icases HB100 with ⟨HC0, HT0, HC1, HT1, HC2, HT2⟩
  sl_exec (disch := first | sl_exact hU _ _ | sl_exact hI _ _ | sl_exact hJ _ _)
  ihave HR0 := (row_deliverP scM0 c 100 (by decide) inb_S128x64_S1x64_100_0 _ fs0 _ (gU c i xt0 fh0)) $$ HR0 %(fun q => deliver_gath (by decide) c hbM0 tbM0 fh0 xt0 i ⟨100, by decide⟩ (k0_off401 i) (by show (Scalar.indexCast (Scalar.addi (Scalar.muli (BitVec.ofNat 32 (i 0).val) 128#32) (BitVec.ofNat 32 100))).toNat = _; exact off_val _ 100 hi (by decide)) (by show 128 * (i 0).val + 100 < 16384; omega) _ _ _ q)
  ihave HR1 := (row_deliverP scM1 c 100 (by decide) inb_S128x64_S1x64_100_0 _ fs1 _ (gVi c i xt1 fh1)) $$ HR1 %(fun q => deliver_gath (by decide) c hbM1 tbM1 fh1 xt1 i ⟨100, by decide⟩ (k0_off401 i) (by show (Scalar.indexCast (Scalar.addi (Scalar.muli (BitVec.ofNat 32 (i 0).val) 128#32) (BitVec.ofNat 32 100))).toNat = _; exact off_val _ 100 hi (by decide)) (by show 128 * (i 0).val + 100 < 16384; omega) _ _ _ q)
  ihave HR2 := (row_deliverP scM2 c 100 (by decide) inb_S128x64_S1x64_100_0 _ fs2 _ (gVj c i xt2 fh1)) $$ HR2 %(fun q => deliver_gath (by decide) c hbM1 tbM2 fh1 xt2 i ⟨100, by decide⟩ (k0_off401 i) (by show (Scalar.indexCast (Scalar.addi (Scalar.muli (BitVec.ofNat 32 (i 0).val) 128#32) (BitVec.ofNat 32 100))).toNat = _; exact off_val _ 100 hi (by decide)) (by show 128 * (i 0).val + 100 < 16384; omega) _ _ _ q)
  ihave HD0 := (consH _ _) $$ HR0 HD0
  ihave HD1 := (consH _ _) $$ HR1 HD1
  ihave HD2 := (consH _ _) $$ HR2 HD2
  ihave HDC0 := (consH _ _) $$ HC0 HDC0
  ihave HDC1 := (consH _ _) $$ HC1 HDC1
  ihave HDC2 := (consH _ _) $$ HC2 HDC2
  ihave HDT0 := (consH _ _) $$ HT0 HDT0
  ihave HDT1 := (consH _ _) $$ HT1 HDT1
  ihave HDT2 := (consH _ _) $$ HT2 HDT2
  -- row 101: its three copies land; the row's resources go to the heads of the chains of what is done
  icases HB101 with ⟨HC0, HT0, HC1, HT1, HC2, HT2⟩
  sl_exec (disch := first | sl_exact hU _ _ | sl_exact hI _ _ | sl_exact hJ _ _)
  ihave HR0 := (row_deliverP scM0 c 101 (by decide) inb_S128x64_S1x64_101_0 _ fs0 _ (gU c i xt0 fh0)) $$ HR0 %(fun q => deliver_gath (by decide) c hbM0 tbM0 fh0 xt0 i ⟨101, by decide⟩ (k0_off405 i) (by show (Scalar.indexCast (Scalar.addi (Scalar.muli (BitVec.ofNat 32 (i 0).val) 128#32) (BitVec.ofNat 32 101))).toNat = _; exact off_val _ 101 hi (by decide)) (by show 128 * (i 0).val + 101 < 16384; omega) _ _ _ q)
  ihave HR1 := (row_deliverP scM1 c 101 (by decide) inb_S128x64_S1x64_101_0 _ fs1 _ (gVi c i xt1 fh1)) $$ HR1 %(fun q => deliver_gath (by decide) c hbM1 tbM1 fh1 xt1 i ⟨101, by decide⟩ (k0_off405 i) (by show (Scalar.indexCast (Scalar.addi (Scalar.muli (BitVec.ofNat 32 (i 0).val) 128#32) (BitVec.ofNat 32 101))).toNat = _; exact off_val _ 101 hi (by decide)) (by show 128 * (i 0).val + 101 < 16384; omega) _ _ _ q)
  ihave HR2 := (row_deliverP scM2 c 101 (by decide) inb_S128x64_S1x64_101_0 _ fs2 _ (gVj c i xt2 fh1)) $$ HR2 %(fun q => deliver_gath (by decide) c hbM1 tbM2 fh1 xt2 i ⟨101, by decide⟩ (k0_off405 i) (by show (Scalar.indexCast (Scalar.addi (Scalar.muli (BitVec.ofNat 32 (i 0).val) 128#32) (BitVec.ofNat 32 101))).toNat = _; exact off_val _ 101 hi (by decide)) (by show 128 * (i 0).val + 101 < 16384; omega) _ _ _ q)
  ihave HD0 := (consH _ _) $$ HR0 HD0
  ihave HD1 := (consH _ _) $$ HR1 HD1
  ihave HD2 := (consH _ _) $$ HR2 HD2
  ihave HDC0 := (consH _ _) $$ HC0 HDC0
  ihave HDC1 := (consH _ _) $$ HC1 HDC1
  ihave HDC2 := (consH _ _) $$ HC2 HDC2
  ihave HDT0 := (consH _ _) $$ HT0 HDT0
  ihave HDT1 := (consH _ _) $$ HT1 HDT1
  ihave HDT2 := (consH _ _) $$ HT2 HDT2
  -- row 102: its three copies land; the row's resources go to the heads of the chains of what is done
  icases HB102 with ⟨HC0, HT0, HC1, HT1, HC2, HT2⟩
  sl_exec (disch := first | sl_exact hU _ _ | sl_exact hI _ _ | sl_exact hJ _ _)
  ihave HR0 := (row_deliverP scM0 c 102 (by decide) inb_S128x64_S1x64_102_0 _ fs0 _ (gU c i xt0 fh0)) $$ HR0 %(fun q => deliver_gath (by decide) c hbM0 tbM0 fh0 xt0 i ⟨102, by decide⟩ (k0_off409 i) (by show (Scalar.indexCast (Scalar.addi (Scalar.muli (BitVec.ofNat 32 (i 0).val) 128#32) (BitVec.ofNat 32 102))).toNat = _; exact off_val _ 102 hi (by decide)) (by show 128 * (i 0).val + 102 < 16384; omega) _ _ _ q)
  ihave HR1 := (row_deliverP scM1 c 102 (by decide) inb_S128x64_S1x64_102_0 _ fs1 _ (gVi c i xt1 fh1)) $$ HR1 %(fun q => deliver_gath (by decide) c hbM1 tbM1 fh1 xt1 i ⟨102, by decide⟩ (k0_off409 i) (by show (Scalar.indexCast (Scalar.addi (Scalar.muli (BitVec.ofNat 32 (i 0).val) 128#32) (BitVec.ofNat 32 102))).toNat = _; exact off_val _ 102 hi (by decide)) (by show 128 * (i 0).val + 102 < 16384; omega) _ _ _ q)
  ihave HR2 := (row_deliverP scM2 c 102 (by decide) inb_S128x64_S1x64_102_0 _ fs2 _ (gVj c i xt2 fh1)) $$ HR2 %(fun q => deliver_gath (by decide) c hbM1 tbM2 fh1 xt2 i ⟨102, by decide⟩ (k0_off409 i) (by show (Scalar.indexCast (Scalar.addi (Scalar.muli (BitVec.ofNat 32 (i 0).val) 128#32) (BitVec.ofNat 32 102))).toNat = _; exact off_val _ 102 hi (by decide)) (by show 128 * (i 0).val + 102 < 16384; omega) _ _ _ q)
  ihave HD0 := (consH _ _) $$ HR0 HD0
  ihave HD1 := (consH _ _) $$ HR1 HD1
  ihave HD2 := (consH _ _) $$ HR2 HD2
  ihave HDC0 := (consH _ _) $$ HC0 HDC0
  ihave HDC1 := (consH _ _) $$ HC1 HDC1
  ihave HDC2 := (consH _ _) $$ HC2 HDC2
  ihave HDT0 := (consH _ _) $$ HT0 HDT0
  ihave HDT1 := (consH _ _) $$ HT1 HDT1
  ihave HDT2 := (consH _ _) $$ HT2 HDT2
  -- row 103: its three copies land; the row's resources go to the heads of the chains of what is done
  icases HB103 with ⟨HC0, HT0, HC1, HT1, HC2, HT2⟩
  sl_exec (disch := first | sl_exact hU _ _ | sl_exact hI _ _ | sl_exact hJ _ _)
  ihave HR0 := (row_deliverP scM0 c 103 (by decide) inb_S128x64_S1x64_103_0 _ fs0 _ (gU c i xt0 fh0)) $$ HR0 %(fun q => deliver_gath (by decide) c hbM0 tbM0 fh0 xt0 i ⟨103, by decide⟩ (k0_off413 i) (by show (Scalar.indexCast (Scalar.addi (Scalar.muli (BitVec.ofNat 32 (i 0).val) 128#32) (BitVec.ofNat 32 103))).toNat = _; exact off_val _ 103 hi (by decide)) (by show 128 * (i 0).val + 103 < 16384; omega) _ _ _ q)
  ihave HR1 := (row_deliverP scM1 c 103 (by decide) inb_S128x64_S1x64_103_0 _ fs1 _ (gVi c i xt1 fh1)) $$ HR1 %(fun q => deliver_gath (by decide) c hbM1 tbM1 fh1 xt1 i ⟨103, by decide⟩ (k0_off413 i) (by show (Scalar.indexCast (Scalar.addi (Scalar.muli (BitVec.ofNat 32 (i 0).val) 128#32) (BitVec.ofNat 32 103))).toNat = _; exact off_val _ 103 hi (by decide)) (by show 128 * (i 0).val + 103 < 16384; omega) _ _ _ q)
  ihave HR2 := (row_deliverP scM2 c 103 (by decide) inb_S128x64_S1x64_103_0 _ fs2 _ (gVj c i xt2 fh1)) $$ HR2 %(fun q => deliver_gath (by decide) c hbM1 tbM2 fh1 xt2 i ⟨103, by decide⟩ (k0_off413 i) (by show (Scalar.indexCast (Scalar.addi (Scalar.muli (BitVec.ofNat 32 (i 0).val) 128#32) (BitVec.ofNat 32 103))).toNat = _; exact off_val _ 103 hi (by decide)) (by show 128 * (i 0).val + 103 < 16384; omega) _ _ _ q)
  ihave HD0 := (consH _ _) $$ HR0 HD0
  ihave HD1 := (consH _ _) $$ HR1 HD1
  ihave HD2 := (consH _ _) $$ HR2 HD2
  ihave HDC0 := (consH _ _) $$ HC0 HDC0
  ihave HDC1 := (consH _ _) $$ HC1 HDC1
  ihave HDC2 := (consH _ _) $$ HC2 HDC2
  ihave HDT0 := (consH _ _) $$ HT0 HDT0
  ihave HDT1 := (consH _ _) $$ HT1 HDT1
  ihave HDT2 := (consH _ _) $$ HT2 HDT2
  -- row 104: its three copies land; the row's resources go to the heads of the chains of what is done
  icases HB104 with ⟨HC0, HT0, HC1, HT1, HC2, HT2⟩
  sl_exec (disch := first | sl_exact hU _ _ | sl_exact hI _ _ | sl_exact hJ _ _)
  ihave HR0 := (row_deliverP scM0 c 104 (by decide) inb_S128x64_S1x64_104_0 _ fs0 _ (gU c i xt0 fh0)) $$ HR0 %(fun q => deliver_gath (by decide) c hbM0 tbM0 fh0 xt0 i ⟨104, by decide⟩ (k0_off417 i) (by show (Scalar.indexCast (Scalar.addi (Scalar.muli (BitVec.ofNat 32 (i 0).val) 128#32) (BitVec.ofNat 32 104))).toNat = _; exact off_val _ 104 hi (by decide)) (by show 128 * (i 0).val + 104 < 16384; omega) _ _ _ q)
  ihave HR1 := (row_deliverP scM1 c 104 (by decide) inb_S128x64_S1x64_104_0 _ fs1 _ (gVi c i xt1 fh1)) $$ HR1 %(fun q => deliver_gath (by decide) c hbM1 tbM1 fh1 xt1 i ⟨104, by decide⟩ (k0_off417 i) (by show (Scalar.indexCast (Scalar.addi (Scalar.muli (BitVec.ofNat 32 (i 0).val) 128#32) (BitVec.ofNat 32 104))).toNat = _; exact off_val _ 104 hi (by decide)) (by show 128 * (i 0).val + 104 < 16384; omega) _ _ _ q)
  ihave HR2 := (row_deliverP scM2 c 104 (by decide) inb_S128x64_S1x64_104_0 _ fs2 _ (gVj c i xt2 fh1)) $$ HR2 %(fun q => deliver_gath (by decide) c hbM1 tbM2 fh1 xt2 i ⟨104, by decide⟩ (k0_off417 i) (by show (Scalar.indexCast (Scalar.addi (Scalar.muli (BitVec.ofNat 32 (i 0).val) 128#32) (BitVec.ofNat 32 104))).toNat = _; exact off_val _ 104 hi (by decide)) (by show 128 * (i 0).val + 104 < 16384; omega) _ _ _ q)
  ihave HD0 := (consH _ _) $$ HR0 HD0
  ihave HD1 := (consH _ _) $$ HR1 HD1
  ihave HD2 := (consH _ _) $$ HR2 HD2
  ihave HDC0 := (consH _ _) $$ HC0 HDC0
  ihave HDC1 := (consH _ _) $$ HC1 HDC1
  ihave HDC2 := (consH _ _) $$ HC2 HDC2
  ihave HDT0 := (consH _ _) $$ HT0 HDT0
  ihave HDT1 := (consH _ _) $$ HT1 HDT1
  ihave HDT2 := (consH _ _) $$ HT2 HDT2
  -- row 105: its three copies land; the row's resources go to the heads of the chains of what is done
  icases HB105 with ⟨HC0, HT0, HC1, HT1, HC2, HT2⟩
  sl_exec (disch := first | sl_exact hU _ _ | sl_exact hI _ _ | sl_exact hJ _ _)
  ihave HR0 := (row_deliverP scM0 c 105 (by decide) inb_S128x64_S1x64_105_0 _ fs0 _ (gU c i xt0 fh0)) $$ HR0 %(fun q => deliver_gath (by decide) c hbM0 tbM0 fh0 xt0 i ⟨105, by decide⟩ (k0_off421 i) (by show (Scalar.indexCast (Scalar.addi (Scalar.muli (BitVec.ofNat 32 (i 0).val) 128#32) (BitVec.ofNat 32 105))).toNat = _; exact off_val _ 105 hi (by decide)) (by show 128 * (i 0).val + 105 < 16384; omega) _ _ _ q)
  ihave HR1 := (row_deliverP scM1 c 105 (by decide) inb_S128x64_S1x64_105_0 _ fs1 _ (gVi c i xt1 fh1)) $$ HR1 %(fun q => deliver_gath (by decide) c hbM1 tbM1 fh1 xt1 i ⟨105, by decide⟩ (k0_off421 i) (by show (Scalar.indexCast (Scalar.addi (Scalar.muli (BitVec.ofNat 32 (i 0).val) 128#32) (BitVec.ofNat 32 105))).toNat = _; exact off_val _ 105 hi (by decide)) (by show 128 * (i 0).val + 105 < 16384; omega) _ _ _ q)
  ihave HR2 := (row_deliverP scM2 c 105 (by decide) inb_S128x64_S1x64_105_0 _ fs2 _ (gVj c i xt2 fh1)) $$ HR2 %(fun q => deliver_gath (by decide) c hbM1 tbM2 fh1 xt2 i ⟨105, by decide⟩ (k0_off421 i) (by show (Scalar.indexCast (Scalar.addi (Scalar.muli (BitVec.ofNat 32 (i 0).val) 128#32) (BitVec.ofNat 32 105))).toNat = _; exact off_val _ 105 hi (by decide)) (by show 128 * (i 0).val + 105 < 16384; omega) _ _ _ q)
  ihave HD0 := (consH _ _) $$ HR0 HD0
  ihave HD1 := (consH _ _) $$ HR1 HD1
  ihave HD2 := (consH _ _) $$ HR2 HD2
  ihave HDC0 := (consH _ _) $$ HC0 HDC0
  ihave HDC1 := (consH _ _) $$ HC1 HDC1
  ihave HDC2 := (consH _ _) $$ HC2 HDC2
  ihave HDT0 := (consH _ _) $$ HT0 HDT0
  ihave HDT1 := (consH _ _) $$ HT1 HDT1
  ihave HDT2 := (consH _ _) $$ HT2 HDT2
  -- row 106: its three copies land; the row's resources go to the heads of the chains of what is done
  icases HB106 with ⟨HC0, HT0, HC1, HT1, HC2, HT2⟩
  sl_exec (disch := first | sl_exact hU _ _ | sl_exact hI _ _ | sl_exact hJ _ _)
  ihave HR0 := (row_deliverP scM0 c 106 (by decide) inb_S128x64_S1x64_106_0 _ fs0 _ (gU c i xt0 fh0)) $$ HR0 %(fun q => deliver_gath (by decide) c hbM0 tbM0 fh0 xt0 i ⟨106, by decide⟩ (k0_off425 i) (by show (Scalar.indexCast (Scalar.addi (Scalar.muli (BitVec.ofNat 32 (i 0).val) 128#32) (BitVec.ofNat 32 106))).toNat = _; exact off_val _ 106 hi (by decide)) (by show 128 * (i 0).val + 106 < 16384; omega) _ _ _ q)
  ihave HR1 := (row_deliverP scM1 c 106 (by decide) inb_S128x64_S1x64_106_0 _ fs1 _ (gVi c i xt1 fh1)) $$ HR1 %(fun q => deliver_gath (by decide) c hbM1 tbM1 fh1 xt1 i ⟨106, by decide⟩ (k0_off425 i) (by show (Scalar.indexCast (Scalar.addi (Scalar.muli (BitVec.ofNat 32 (i 0).val) 128#32) (BitVec.ofNat 32 106))).toNat = _; exact off_val _ 106 hi (by decide)) (by show 128 * (i 0).val + 106 < 16384; omega) _ _ _ q)
  ihave HR2 := (row_deliverP scM2 c 106 (by decide) inb_S128x64_S1x64_106_0 _ fs2 _ (gVj c i xt2 fh1)) $$ HR2 %(fun q => deliver_gath (by decide) c hbM1 tbM2 fh1 xt2 i ⟨106, by decide⟩ (k0_off425 i) (by show (Scalar.indexCast (Scalar.addi (Scalar.muli (BitVec.ofNat 32 (i 0).val) 128#32) (BitVec.ofNat 32 106))).toNat = _; exact off_val _ 106 hi (by decide)) (by show 128 * (i 0).val + 106 < 16384; omega) _ _ _ q)
  ihave HD0 := (consH _ _) $$ HR0 HD0
  ihave HD1 := (consH _ _) $$ HR1 HD1
  ihave HD2 := (consH _ _) $$ HR2 HD2
  ihave HDC0 := (consH _ _) $$ HC0 HDC0
  ihave HDC1 := (consH _ _) $$ HC1 HDC1
  ihave HDC2 := (consH _ _) $$ HC2 HDC2
  ihave HDT0 := (consH _ _) $$ HT0 HDT0
  ihave HDT1 := (consH _ _) $$ HT1 HDT1
  ihave HDT2 := (consH _ _) $$ HT2 HDT2
  -- row 107: its three copies land; the row's resources go to the heads of the chains of what is done
  icases HB107 with ⟨HC0, HT0, HC1, HT1, HC2, HT2⟩
  sl_exec (disch := first | sl_exact hU _ _ | sl_exact hI _ _ | sl_exact hJ _ _)
  ihave HR0 := (row_deliverP scM0 c 107 (by decide) inb_S128x64_S1x64_107_0 _ fs0 _ (gU c i xt0 fh0)) $$ HR0 %(fun q => deliver_gath (by decide) c hbM0 tbM0 fh0 xt0 i ⟨107, by decide⟩ (k0_off429 i) (by show (Scalar.indexCast (Scalar.addi (Scalar.muli (BitVec.ofNat 32 (i 0).val) 128#32) (BitVec.ofNat 32 107))).toNat = _; exact off_val _ 107 hi (by decide)) (by show 128 * (i 0).val + 107 < 16384; omega) _ _ _ q)
  ihave HR1 := (row_deliverP scM1 c 107 (by decide) inb_S128x64_S1x64_107_0 _ fs1 _ (gVi c i xt1 fh1)) $$ HR1 %(fun q => deliver_gath (by decide) c hbM1 tbM1 fh1 xt1 i ⟨107, by decide⟩ (k0_off429 i) (by show (Scalar.indexCast (Scalar.addi (Scalar.muli (BitVec.ofNat 32 (i 0).val) 128#32) (BitVec.ofNat 32 107))).toNat = _; exact off_val _ 107 hi (by decide)) (by show 128 * (i 0).val + 107 < 16384; omega) _ _ _ q)
  ihave HR2 := (row_deliverP scM2 c 107 (by decide) inb_S128x64_S1x64_107_0 _ fs2 _ (gVj c i xt2 fh1)) $$ HR2 %(fun q => deliver_gath (by decide) c hbM1 tbM2 fh1 xt2 i ⟨107, by decide⟩ (k0_off429 i) (by show (Scalar.indexCast (Scalar.addi (Scalar.muli (BitVec.ofNat 32 (i 0).val) 128#32) (BitVec.ofNat 32 107))).toNat = _; exact off_val _ 107 hi (by decide)) (by show 128 * (i 0).val + 107 < 16384; omega) _ _ _ q)
  ihave HD0 := (consH _ _) $$ HR0 HD0
  ihave HD1 := (consH _ _) $$ HR1 HD1
  ihave HD2 := (consH _ _) $$ HR2 HD2
  ihave HDC0 := (consH _ _) $$ HC0 HDC0
  ihave HDC1 := (consH _ _) $$ HC1 HDC1
  ihave HDC2 := (consH _ _) $$ HC2 HDC2
  ihave HDT0 := (consH _ _) $$ HT0 HDT0
  ihave HDT1 := (consH _ _) $$ HT1 HDT1
  ihave HDT2 := (consH _ _) $$ HT2 HDT2
  -- row 108: its three copies land; the row's resources go to the heads of the chains of what is done
  icases HB108 with ⟨HC0, HT0, HC1, HT1, HC2, HT2⟩
  sl_exec (disch := first | sl_exact hU _ _ | sl_exact hI _ _ | sl_exact hJ _ _)
  ihave HR0 := (row_deliverP scM0 c 108 (by decide) inb_S128x64_S1x64_108_0 _ fs0 _ (gU c i xt0 fh0)) $$ HR0 %(fun q => deliver_gath (by decide) c hbM0 tbM0 fh0 xt0 i ⟨108, by decide⟩ (k0_off433 i) (by show (Scalar.indexCast (Scalar.addi (Scalar.muli (BitVec.ofNat 32 (i 0).val) 128#32) (BitVec.ofNat 32 108))).toNat = _; exact off_val _ 108 hi (by decide)) (by show 128 * (i 0).val + 108 < 16384; omega) _ _ _ q)
  ihave HR1 := (row_deliverP scM1 c 108 (by decide) inb_S128x64_S1x64_108_0 _ fs1 _ (gVi c i xt1 fh1)) $$ HR1 %(fun q => deliver_gath (by decide) c hbM1 tbM1 fh1 xt1 i ⟨108, by decide⟩ (k0_off433 i) (by show (Scalar.indexCast (Scalar.addi (Scalar.muli (BitVec.ofNat 32 (i 0).val) 128#32) (BitVec.ofNat 32 108))).toNat = _; exact off_val _ 108 hi (by decide)) (by show 128 * (i 0).val + 108 < 16384; omega) _ _ _ q)
  ihave HR2 := (row_deliverP scM2 c 108 (by decide) inb_S128x64_S1x64_108_0 _ fs2 _ (gVj c i xt2 fh1)) $$ HR2 %(fun q => deliver_gath (by decide) c hbM1 tbM2 fh1 xt2 i ⟨108, by decide⟩ (k0_off433 i) (by show (Scalar.indexCast (Scalar.addi (Scalar.muli (BitVec.ofNat 32 (i 0).val) 128#32) (BitVec.ofNat 32 108))).toNat = _; exact off_val _ 108 hi (by decide)) (by show 128 * (i 0).val + 108 < 16384; omega) _ _ _ q)
  ihave HD0 := (consH _ _) $$ HR0 HD0
  ihave HD1 := (consH _ _) $$ HR1 HD1
  ihave HD2 := (consH _ _) $$ HR2 HD2
  ihave HDC0 := (consH _ _) $$ HC0 HDC0
  ihave HDC1 := (consH _ _) $$ HC1 HDC1
  ihave HDC2 := (consH _ _) $$ HC2 HDC2
  ihave HDT0 := (consH _ _) $$ HT0 HDT0
  ihave HDT1 := (consH _ _) $$ HT1 HDT1
  ihave HDT2 := (consH _ _) $$ HT2 HDT2
  -- row 109: its three copies land; the row's resources go to the heads of the chains of what is done
  icases HB109 with ⟨HC0, HT0, HC1, HT1, HC2, HT2⟩
  sl_exec (disch := first | sl_exact hU _ _ | sl_exact hI _ _ | sl_exact hJ _ _)
  ihave HR0 := (row_deliverP scM0 c 109 (by decide) inb_S128x64_S1x64_109_0 _ fs0 _ (gU c i xt0 fh0)) $$ HR0 %(fun q => deliver_gath (by decide) c hbM0 tbM0 fh0 xt0 i ⟨109, by decide⟩ (k0_off437 i) (by show (Scalar.indexCast (Scalar.addi (Scalar.muli (BitVec.ofNat 32 (i 0).val) 128#32) (BitVec.ofNat 32 109))).toNat = _; exact off_val _ 109 hi (by decide)) (by show 128 * (i 0).val + 109 < 16384; omega) _ _ _ q)
  ihave HR1 := (row_deliverP scM1 c 109 (by decide) inb_S128x64_S1x64_109_0 _ fs1 _ (gVi c i xt1 fh1)) $$ HR1 %(fun q => deliver_gath (by decide) c hbM1 tbM1 fh1 xt1 i ⟨109, by decide⟩ (k0_off437 i) (by show (Scalar.indexCast (Scalar.addi (Scalar.muli (BitVec.ofNat 32 (i 0).val) 128#32) (BitVec.ofNat 32 109))).toNat = _; exact off_val _ 109 hi (by decide)) (by show 128 * (i 0).val + 109 < 16384; omega) _ _ _ q)
  ihave HR2 := (row_deliverP scM2 c 109 (by decide) inb_S128x64_S1x64_109_0 _ fs2 _ (gVj c i xt2 fh1)) $$ HR2 %(fun q => deliver_gath (by decide) c hbM1 tbM2 fh1 xt2 i ⟨109, by decide⟩ (k0_off437 i) (by show (Scalar.indexCast (Scalar.addi (Scalar.muli (BitVec.ofNat 32 (i 0).val) 128#32) (BitVec.ofNat 32 109))).toNat = _; exact off_val _ 109 hi (by decide)) (by show 128 * (i 0).val + 109 < 16384; omega) _ _ _ q)
  ihave HD0 := (consH _ _) $$ HR0 HD0
  ihave HD1 := (consH _ _) $$ HR1 HD1
  ihave HD2 := (consH _ _) $$ HR2 HD2
  ihave HDC0 := (consH _ _) $$ HC0 HDC0
  ihave HDC1 := (consH _ _) $$ HC1 HDC1
  ihave HDC2 := (consH _ _) $$ HC2 HDC2
  ihave HDT0 := (consH _ _) $$ HT0 HDT0
  ihave HDT1 := (consH _ _) $$ HT1 HDT1
  ihave HDT2 := (consH _ _) $$ HT2 HDT2
  -- row 110: its three copies land; the row's resources go to the heads of the chains of what is done
  icases HB110 with ⟨HC0, HT0, HC1, HT1, HC2, HT2⟩
  sl_exec (disch := first | sl_exact hU _ _ | sl_exact hI _ _ | sl_exact hJ _ _)
  ihave HR0 := (row_deliverP scM0 c 110 (by decide) inb_S128x64_S1x64_110_0 _ fs0 _ (gU c i xt0 fh0)) $$ HR0 %(fun q => deliver_gath (by decide) c hbM0 tbM0 fh0 xt0 i ⟨110, by decide⟩ (k0_off441 i) (by show (Scalar.indexCast (Scalar.addi (Scalar.muli (BitVec.ofNat 32 (i 0).val) 128#32) (BitVec.ofNat 32 110))).toNat = _; exact off_val _ 110 hi (by decide)) (by show 128 * (i 0).val + 110 < 16384; omega) _ _ _ q)
  ihave HR1 := (row_deliverP scM1 c 110 (by decide) inb_S128x64_S1x64_110_0 _ fs1 _ (gVi c i xt1 fh1)) $$ HR1 %(fun q => deliver_gath (by decide) c hbM1 tbM1 fh1 xt1 i ⟨110, by decide⟩ (k0_off441 i) (by show (Scalar.indexCast (Scalar.addi (Scalar.muli (BitVec.ofNat 32 (i 0).val) 128#32) (BitVec.ofNat 32 110))).toNat = _; exact off_val _ 110 hi (by decide)) (by show 128 * (i 0).val + 110 < 16384; omega) _ _ _ q)
  ihave HR2 := (row_deliverP scM2 c 110 (by decide) inb_S128x64_S1x64_110_0 _ fs2 _ (gVj c i xt2 fh1)) $$ HR2 %(fun q => deliver_gath (by decide) c hbM1 tbM2 fh1 xt2 i ⟨110, by decide⟩ (k0_off441 i) (by show (Scalar.indexCast (Scalar.addi (Scalar.muli (BitVec.ofNat 32 (i 0).val) 128#32) (BitVec.ofNat 32 110))).toNat = _; exact off_val _ 110 hi (by decide)) (by show 128 * (i 0).val + 110 < 16384; omega) _ _ _ q)
  ihave HD0 := (consH _ _) $$ HR0 HD0
  ihave HD1 := (consH _ _) $$ HR1 HD1
  ihave HD2 := (consH _ _) $$ HR2 HD2
  ihave HDC0 := (consH _ _) $$ HC0 HDC0
  ihave HDC1 := (consH _ _) $$ HC1 HDC1
  ihave HDC2 := (consH _ _) $$ HC2 HDC2
  ihave HDT0 := (consH _ _) $$ HT0 HDT0
  ihave HDT1 := (consH _ _) $$ HT1 HDT1
  ihave HDT2 := (consH _ _) $$ HT2 HDT2
  -- row 111: its three copies land; the row's resources go to the heads of the chains of what is done
  icases HB111 with ⟨HC0, HT0, HC1, HT1, HC2, HT2⟩
  sl_exec (disch := first | sl_exact hU _ _ | sl_exact hI _ _ | sl_exact hJ _ _)
  ihave HR0 := (row_deliverP scM0 c 111 (by decide) inb_S128x64_S1x64_111_0 _ fs0 _ (gU c i xt0 fh0)) $$ HR0 %(fun q => deliver_gath (by decide) c hbM0 tbM0 fh0 xt0 i ⟨111, by decide⟩ (k0_off445 i) (by show (Scalar.indexCast (Scalar.addi (Scalar.muli (BitVec.ofNat 32 (i 0).val) 128#32) (BitVec.ofNat 32 111))).toNat = _; exact off_val _ 111 hi (by decide)) (by show 128 * (i 0).val + 111 < 16384; omega) _ _ _ q)
  ihave HR1 := (row_deliverP scM1 c 111 (by decide) inb_S128x64_S1x64_111_0 _ fs1 _ (gVi c i xt1 fh1)) $$ HR1 %(fun q => deliver_gath (by decide) c hbM1 tbM1 fh1 xt1 i ⟨111, by decide⟩ (k0_off445 i) (by show (Scalar.indexCast (Scalar.addi (Scalar.muli (BitVec.ofNat 32 (i 0).val) 128#32) (BitVec.ofNat 32 111))).toNat = _; exact off_val _ 111 hi (by decide)) (by show 128 * (i 0).val + 111 < 16384; omega) _ _ _ q)
  ihave HR2 := (row_deliverP scM2 c 111 (by decide) inb_S128x64_S1x64_111_0 _ fs2 _ (gVj c i xt2 fh1)) $$ HR2 %(fun q => deliver_gath (by decide) c hbM1 tbM2 fh1 xt2 i ⟨111, by decide⟩ (k0_off445 i) (by show (Scalar.indexCast (Scalar.addi (Scalar.muli (BitVec.ofNat 32 (i 0).val) 128#32) (BitVec.ofNat 32 111))).toNat = _; exact off_val _ 111 hi (by decide)) (by show 128 * (i 0).val + 111 < 16384; omega) _ _ _ q)
  ihave HD0 := (consH _ _) $$ HR0 HD0
  ihave HD1 := (consH _ _) $$ HR1 HD1
  ihave HD2 := (consH _ _) $$ HR2 HD2
  ihave HDC0 := (consH _ _) $$ HC0 HDC0
  ihave HDC1 := (consH _ _) $$ HC1 HDC1
  ihave HDC2 := (consH _ _) $$ HC2 HDC2
  ihave HDT0 := (consH _ _) $$ HT0 HDT0
  ihave HDT1 := (consH _ _) $$ HT1 HDT1
  ihave HDT2 := (consH _ _) $$ HT2 HDT2
  -- row 112: its three copies land; the row's resources go to the heads of the chains of what is done
  icases HB112 with ⟨HC0, HT0, HC1, HT1, HC2, HT2⟩
  sl_exec (disch := first | sl_exact hU _ _ | sl_exact hI _ _ | sl_exact hJ _ _)
  ihave HR0 := (row_deliverP scM0 c 112 (by decide) inb_S128x64_S1x64_112_0 _ fs0 _ (gU c i xt0 fh0)) $$ HR0 %(fun q => deliver_gath (by decide) c hbM0 tbM0 fh0 xt0 i ⟨112, by decide⟩ (k0_off449 i) (by show (Scalar.indexCast (Scalar.addi (Scalar.muli (BitVec.ofNat 32 (i 0).val) 128#32) (BitVec.ofNat 32 112))).toNat = _; exact off_val _ 112 hi (by decide)) (by show 128 * (i 0).val + 112 < 16384; omega) _ _ _ q)
  ihave HR1 := (row_deliverP scM1 c 112 (by decide) inb_S128x64_S1x64_112_0 _ fs1 _ (gVi c i xt1 fh1)) $$ HR1 %(fun q => deliver_gath (by decide) c hbM1 tbM1 fh1 xt1 i ⟨112, by decide⟩ (k0_off449 i) (by show (Scalar.indexCast (Scalar.addi (Scalar.muli (BitVec.ofNat 32 (i 0).val) 128#32) (BitVec.ofNat 32 112))).toNat = _; exact off_val _ 112 hi (by decide)) (by show 128 * (i 0).val + 112 < 16384; omega) _ _ _ q)
  ihave HR2 := (row_deliverP scM2 c 112 (by decide) inb_S128x64_S1x64_112_0 _ fs2 _ (gVj c i xt2 fh1)) $$ HR2 %(fun q => deliver_gath (by decide) c hbM1 tbM2 fh1 xt2 i ⟨112, by decide⟩ (k0_off449 i) (by show (Scalar.indexCast (Scalar.addi (Scalar.muli (BitVec.ofNat 32 (i 0).val) 128#32) (BitVec.ofNat 32 112))).toNat = _; exact off_val _ 112 hi (by decide)) (by show 128 * (i 0).val + 112 < 16384; omega) _ _ _ q)
  ihave HD0 := (consH _ _) $$ HR0 HD0
  ihave HD1 := (consH _ _) $$ HR1 HD1
  ihave HD2 := (consH _ _) $$ HR2 HD2
  ihave HDC0 := (consH _ _) $$ HC0 HDC0
  ihave HDC1 := (consH _ _) $$ HC1 HDC1
  ihave HDC2 := (consH _ _) $$ HC2 HDC2
  ihave HDT0 := (consH _ _) $$ HT0 HDT0
  ihave HDT1 := (consH _ _) $$ HT1 HDT1
  ihave HDT2 := (consH _ _) $$ HT2 HDT2
  -- row 113: its three copies land; the row's resources go to the heads of the chains of what is done
  icases HB113 with ⟨HC0, HT0, HC1, HT1, HC2, HT2⟩
  sl_exec (disch := first | sl_exact hU _ _ | sl_exact hI _ _ | sl_exact hJ _ _)
  ihave HR0 := (row_deliverP scM0 c 113 (by decide) inb_S128x64_S1x64_113_0 _ fs0 _ (gU c i xt0 fh0)) $$ HR0 %(fun q => deliver_gath (by decide) c hbM0 tbM0 fh0 xt0 i ⟨113, by decide⟩ (k0_off453 i) (by show (Scalar.indexCast (Scalar.addi (Scalar.muli (BitVec.ofNat 32 (i 0).val) 128#32) (BitVec.ofNat 32 113))).toNat = _; exact off_val _ 113 hi (by decide)) (by show 128 * (i 0).val + 113 < 16384; omega) _ _ _ q)
  ihave HR1 := (row_deliverP scM1 c 113 (by decide) inb_S128x64_S1x64_113_0 _ fs1 _ (gVi c i xt1 fh1)) $$ HR1 %(fun q => deliver_gath (by decide) c hbM1 tbM1 fh1 xt1 i ⟨113, by decide⟩ (k0_off453 i) (by show (Scalar.indexCast (Scalar.addi (Scalar.muli (BitVec.ofNat 32 (i 0).val) 128#32) (BitVec.ofNat 32 113))).toNat = _; exact off_val _ 113 hi (by decide)) (by show 128 * (i 0).val + 113 < 16384; omega) _ _ _ q)
  ihave HR2 := (row_deliverP scM2 c 113 (by decide) inb_S128x64_S1x64_113_0 _ fs2 _ (gVj c i xt2 fh1)) $$ HR2 %(fun q => deliver_gath (by decide) c hbM1 tbM2 fh1 xt2 i ⟨113, by decide⟩ (k0_off453 i) (by show (Scalar.indexCast (Scalar.addi (Scalar.muli (BitVec.ofNat 32 (i 0).val) 128#32) (BitVec.ofNat 32 113))).toNat = _; exact off_val _ 113 hi (by decide)) (by show 128 * (i 0).val + 113 < 16384; omega) _ _ _ q)
  ihave HD0 := (consH _ _) $$ HR0 HD0
  ihave HD1 := (consH _ _) $$ HR1 HD1
  ihave HD2 := (consH _ _) $$ HR2 HD2
  ihave HDC0 := (consH _ _) $$ HC0 HDC0
  ihave HDC1 := (consH _ _) $$ HC1 HDC1
  ihave HDC2 := (consH _ _) $$ HC2 HDC2
  ihave HDT0 := (consH _ _) $$ HT0 HDT0
  ihave HDT1 := (consH _ _) $$ HT1 HDT1
  ihave HDT2 := (consH _ _) $$ HT2 HDT2
  -- row 114: its three copies land; the row's resources go to the heads of the chains of what is done
  icases HB114 with ⟨HC0, HT0, HC1, HT1, HC2, HT2⟩
  sl_exec (disch := first | sl_exact hU _ _ | sl_exact hI _ _ | sl_exact hJ _ _)
  ihave HR0 := (row_deliverP scM0 c 114 (by decide) inb_S128x64_S1x64_114_0 _ fs0 _ (gU c i xt0 fh0)) $$ HR0 %(fun q => deliver_gath (by decide) c hbM0 tbM0 fh0 xt0 i ⟨114, by decide⟩ (k0_off457 i) (by show (Scalar.indexCast (Scalar.addi (Scalar.muli (BitVec.ofNat 32 (i 0).val) 128#32) (BitVec.ofNat 32 114))).toNat = _; exact off_val _ 114 hi (by decide)) (by show 128 * (i 0).val + 114 < 16384; omega) _ _ _ q)
  ihave HR1 := (row_deliverP scM1 c 114 (by decide) inb_S128x64_S1x64_114_0 _ fs1 _ (gVi c i xt1 fh1)) $$ HR1 %(fun q => deliver_gath (by decide) c hbM1 tbM1 fh1 xt1 i ⟨114, by decide⟩ (k0_off457 i) (by show (Scalar.indexCast (Scalar.addi (Scalar.muli (BitVec.ofNat 32 (i 0).val) 128#32) (BitVec.ofNat 32 114))).toNat = _; exact off_val _ 114 hi (by decide)) (by show 128 * (i 0).val + 114 < 16384; omega) _ _ _ q)
  ihave HR2 := (row_deliverP scM2 c 114 (by decide) inb_S128x64_S1x64_114_0 _ fs2 _ (gVj c i xt2 fh1)) $$ HR2 %(fun q => deliver_gath (by decide) c hbM1 tbM2 fh1 xt2 i ⟨114, by decide⟩ (k0_off457 i) (by show (Scalar.indexCast (Scalar.addi (Scalar.muli (BitVec.ofNat 32 (i 0).val) 128#32) (BitVec.ofNat 32 114))).toNat = _; exact off_val _ 114 hi (by decide)) (by show 128 * (i 0).val + 114 < 16384; omega) _ _ _ q)
  ihave HD0 := (consH _ _) $$ HR0 HD0
  ihave HD1 := (consH _ _) $$ HR1 HD1
  ihave HD2 := (consH _ _) $$ HR2 HD2
  ihave HDC0 := (consH _ _) $$ HC0 HDC0
  ihave HDC1 := (consH _ _) $$ HC1 HDC1
  ihave HDC2 := (consH _ _) $$ HC2 HDC2
  ihave HDT0 := (consH _ _) $$ HT0 HDT0
  ihave HDT1 := (consH _ _) $$ HT1 HDT1
  ihave HDT2 := (consH _ _) $$ HT2 HDT2
  -- row 115: its three copies land; the row's resources go to the heads of the chains of what is done
  icases HB115 with ⟨HC0, HT0, HC1, HT1, HC2, HT2⟩
  sl_exec (disch := first | sl_exact hU _ _ | sl_exact hI _ _ | sl_exact hJ _ _)
  ihave HR0 := (row_deliverP scM0 c 115 (by decide) inb_S128x64_S1x64_115_0 _ fs0 _ (gU c i xt0 fh0)) $$ HR0 %(fun q => deliver_gath (by decide) c hbM0 tbM0 fh0 xt0 i ⟨115, by decide⟩ (k0_off461 i) (by show (Scalar.indexCast (Scalar.addi (Scalar.muli (BitVec.ofNat 32 (i 0).val) 128#32) (BitVec.ofNat 32 115))).toNat = _; exact off_val _ 115 hi (by decide)) (by show 128 * (i 0).val + 115 < 16384; omega) _ _ _ q)
  ihave HR1 := (row_deliverP scM1 c 115 (by decide) inb_S128x64_S1x64_115_0 _ fs1 _ (gVi c i xt1 fh1)) $$ HR1 %(fun q => deliver_gath (by decide) c hbM1 tbM1 fh1 xt1 i ⟨115, by decide⟩ (k0_off461 i) (by show (Scalar.indexCast (Scalar.addi (Scalar.muli (BitVec.ofNat 32 (i 0).val) 128#32) (BitVec.ofNat 32 115))).toNat = _; exact off_val _ 115 hi (by decide)) (by show 128 * (i 0).val + 115 < 16384; omega) _ _ _ q)
  ihave HR2 := (row_deliverP scM2 c 115 (by decide) inb_S128x64_S1x64_115_0 _ fs2 _ (gVj c i xt2 fh1)) $$ HR2 %(fun q => deliver_gath (by decide) c hbM1 tbM2 fh1 xt2 i ⟨115, by decide⟩ (k0_off461 i) (by show (Scalar.indexCast (Scalar.addi (Scalar.muli (BitVec.ofNat 32 (i 0).val) 128#32) (BitVec.ofNat 32 115))).toNat = _; exact off_val _ 115 hi (by decide)) (by show 128 * (i 0).val + 115 < 16384; omega) _ _ _ q)
  ihave HD0 := (consH _ _) $$ HR0 HD0
  ihave HD1 := (consH _ _) $$ HR1 HD1
  ihave HD2 := (consH _ _) $$ HR2 HD2
  ihave HDC0 := (consH _ _) $$ HC0 HDC0
  ihave HDC1 := (consH _ _) $$ HC1 HDC1
  ihave HDC2 := (consH _ _) $$ HC2 HDC2
  ihave HDT0 := (consH _ _) $$ HT0 HDT0
  ihave HDT1 := (consH _ _) $$ HT1 HDT1
  ihave HDT2 := (consH _ _) $$ HT2 HDT2
  -- row 116: its three copies land; the row's resources go to the heads of the chains of what is done
  icases HB116 with ⟨HC0, HT0, HC1, HT1, HC2, HT2⟩
  sl_exec (disch := first | sl_exact hU _ _ | sl_exact hI _ _ | sl_exact hJ _ _)
  ihave HR0 := (row_deliverP scM0 c 116 (by decide) inb_S128x64_S1x64_116_0 _ fs0 _ (gU c i xt0 fh0)) $$ HR0 %(fun q => deliver_gath (by decide) c hbM0 tbM0 fh0 xt0 i ⟨116, by decide⟩ (k0_off465 i) (by show (Scalar.indexCast (Scalar.addi (Scalar.muli (BitVec.ofNat 32 (i 0).val) 128#32) (BitVec.ofNat 32 116))).toNat = _; exact off_val _ 116 hi (by decide)) (by show 128 * (i 0).val + 116 < 16384; omega) _ _ _ q)
  ihave HR1 := (row_deliverP scM1 c 116 (by decide) inb_S128x64_S1x64_116_0 _ fs1 _ (gVi c i xt1 fh1)) $$ HR1 %(fun q => deliver_gath (by decide) c hbM1 tbM1 fh1 xt1 i ⟨116, by decide⟩ (k0_off465 i) (by show (Scalar.indexCast (Scalar.addi (Scalar.muli (BitVec.ofNat 32 (i 0).val) 128#32) (BitVec.ofNat 32 116))).toNat = _; exact off_val _ 116 hi (by decide)) (by show 128 * (i 0).val + 116 < 16384; omega) _ _ _ q)
  ihave HR2 := (row_deliverP scM2 c 116 (by decide) inb_S128x64_S1x64_116_0 _ fs2 _ (gVj c i xt2 fh1)) $$ HR2 %(fun q => deliver_gath (by decide) c hbM1 tbM2 fh1 xt2 i ⟨116, by decide⟩ (k0_off465 i) (by show (Scalar.indexCast (Scalar.addi (Scalar.muli (BitVec.ofNat 32 (i 0).val) 128#32) (BitVec.ofNat 32 116))).toNat = _; exact off_val _ 116 hi (by decide)) (by show 128 * (i 0).val + 116 < 16384; omega) _ _ _ q)
  ihave HD0 := (consH _ _) $$ HR0 HD0
  ihave HD1 := (consH _ _) $$ HR1 HD1
  ihave HD2 := (consH _ _) $$ HR2 HD2
  ihave HDC0 := (consH _ _) $$ HC0 HDC0
  ihave HDC1 := (consH _ _) $$ HC1 HDC1
  ihave HDC2 := (consH _ _) $$ HC2 HDC2
  ihave HDT0 := (consH _ _) $$ HT0 HDT0
  ihave HDT1 := (consH _ _) $$ HT1 HDT1
  ihave HDT2 := (consH _ _) $$ HT2 HDT2
  -- row 117: its three copies land; the row's resources go to the heads of the chains of what is done
  icases HB117 with ⟨HC0, HT0, HC1, HT1, HC2, HT2⟩
  sl_exec (disch := first | sl_exact hU _ _ | sl_exact hI _ _ | sl_exact hJ _ _)
  ihave HR0 := (row_deliverP scM0 c 117 (by decide) inb_S128x64_S1x64_117_0 _ fs0 _ (gU c i xt0 fh0)) $$ HR0 %(fun q => deliver_gath (by decide) c hbM0 tbM0 fh0 xt0 i ⟨117, by decide⟩ (k0_off469 i) (by show (Scalar.indexCast (Scalar.addi (Scalar.muli (BitVec.ofNat 32 (i 0).val) 128#32) (BitVec.ofNat 32 117))).toNat = _; exact off_val _ 117 hi (by decide)) (by show 128 * (i 0).val + 117 < 16384; omega) _ _ _ q)
  ihave HR1 := (row_deliverP scM1 c 117 (by decide) inb_S128x64_S1x64_117_0 _ fs1 _ (gVi c i xt1 fh1)) $$ HR1 %(fun q => deliver_gath (by decide) c hbM1 tbM1 fh1 xt1 i ⟨117, by decide⟩ (k0_off469 i) (by show (Scalar.indexCast (Scalar.addi (Scalar.muli (BitVec.ofNat 32 (i 0).val) 128#32) (BitVec.ofNat 32 117))).toNat = _; exact off_val _ 117 hi (by decide)) (by show 128 * (i 0).val + 117 < 16384; omega) _ _ _ q)
  ihave HR2 := (row_deliverP scM2 c 117 (by decide) inb_S128x64_S1x64_117_0 _ fs2 _ (gVj c i xt2 fh1)) $$ HR2 %(fun q => deliver_gath (by decide) c hbM1 tbM2 fh1 xt2 i ⟨117, by decide⟩ (k0_off469 i) (by show (Scalar.indexCast (Scalar.addi (Scalar.muli (BitVec.ofNat 32 (i 0).val) 128#32) (BitVec.ofNat 32 117))).toNat = _; exact off_val _ 117 hi (by decide)) (by show 128 * (i 0).val + 117 < 16384; omega) _ _ _ q)
  ihave HD0 := (consH _ _) $$ HR0 HD0
  ihave HD1 := (consH _ _) $$ HR1 HD1
  ihave HD2 := (consH _ _) $$ HR2 HD2
  ihave HDC0 := (consH _ _) $$ HC0 HDC0
  ihave HDC1 := (consH _ _) $$ HC1 HDC1
  ihave HDC2 := (consH _ _) $$ HC2 HDC2
  ihave HDT0 := (consH _ _) $$ HT0 HDT0
  ihave HDT1 := (consH _ _) $$ HT1 HDT1
  ihave HDT2 := (consH _ _) $$ HT2 HDT2
  -- row 118: its three copies land; the row's resources go to the heads of the chains of what is done
  icases HB118 with ⟨HC0, HT0, HC1, HT1, HC2, HT2⟩
  sl_exec (disch := first | sl_exact hU _ _ | sl_exact hI _ _ | sl_exact hJ _ _)
  ihave HR0 := (row_deliverP scM0 c 118 (by decide) inb_S128x64_S1x64_118_0 _ fs0 _ (gU c i xt0 fh0)) $$ HR0 %(fun q => deliver_gath (by decide) c hbM0 tbM0 fh0 xt0 i ⟨118, by decide⟩ (k0_off473 i) (by show (Scalar.indexCast (Scalar.addi (Scalar.muli (BitVec.ofNat 32 (i 0).val) 128#32) (BitVec.ofNat 32 118))).toNat = _; exact off_val _ 118 hi (by decide)) (by show 128 * (i 0).val + 118 < 16384; omega) _ _ _ q)
  ihave HR1 := (row_deliverP scM1 c 118 (by decide) inb_S128x64_S1x64_118_0 _ fs1 _ (gVi c i xt1 fh1)) $$ HR1 %(fun q => deliver_gath (by decide) c hbM1 tbM1 fh1 xt1 i ⟨118, by decide⟩ (k0_off473 i) (by show (Scalar.indexCast (Scalar.addi (Scalar.muli (BitVec.ofNat 32 (i 0).val) 128#32) (BitVec.ofNat 32 118))).toNat = _; exact off_val _ 118 hi (by decide)) (by show 128 * (i 0).val + 118 < 16384; omega) _ _ _ q)
  ihave HR2 := (row_deliverP scM2 c 118 (by decide) inb_S128x64_S1x64_118_0 _ fs2 _ (gVj c i xt2 fh1)) $$ HR2 %(fun q => deliver_gath (by decide) c hbM1 tbM2 fh1 xt2 i ⟨118, by decide⟩ (k0_off473 i) (by show (Scalar.indexCast (Scalar.addi (Scalar.muli (BitVec.ofNat 32 (i 0).val) 128#32) (BitVec.ofNat 32 118))).toNat = _; exact off_val _ 118 hi (by decide)) (by show 128 * (i 0).val + 118 < 16384; omega) _ _ _ q)
  ihave HD0 := (consH _ _) $$ HR0 HD0
  ihave HD1 := (consH _ _) $$ HR1 HD1
  ihave HD2 := (consH _ _) $$ HR2 HD2
  ihave HDC0 := (consH _ _) $$ HC0 HDC0
  ihave HDC1 := (consH _ _) $$ HC1 HDC1
  ihave HDC2 := (consH _ _) $$ HC2 HDC2
  ihave HDT0 := (consH _ _) $$ HT0 HDT0
  ihave HDT1 := (consH _ _) $$ HT1 HDT1
  ihave HDT2 := (consH _ _) $$ HT2 HDT2
  -- row 119: its three copies land; the row's resources go to the heads of the chains of what is done
  icases HB119 with ⟨HC0, HT0, HC1, HT1, HC2, HT2⟩
  sl_exec (disch := first | sl_exact hU _ _ | sl_exact hI _ _ | sl_exact hJ _ _)
  ihave HR0 := (row_deliverP scM0 c 119 (by decide) inb_S128x64_S1x64_119_0 _ fs0 _ (gU c i xt0 fh0)) $$ HR0 %(fun q => deliver_gath (by decide) c hbM0 tbM0 fh0 xt0 i ⟨119, by decide⟩ (k0_off477 i) (by show (Scalar.indexCast (Scalar.addi (Scalar.muli (BitVec.ofNat 32 (i 0).val) 128#32) (BitVec.ofNat 32 119))).toNat = _; exact off_val _ 119 hi (by decide)) (by show 128 * (i 0).val + 119 < 16384; omega) _ _ _ q)
  ihave HR1 := (row_deliverP scM1 c 119 (by decide) inb_S128x64_S1x64_119_0 _ fs1 _ (gVi c i xt1 fh1)) $$ HR1 %(fun q => deliver_gath (by decide) c hbM1 tbM1 fh1 xt1 i ⟨119, by decide⟩ (k0_off477 i) (by show (Scalar.indexCast (Scalar.addi (Scalar.muli (BitVec.ofNat 32 (i 0).val) 128#32) (BitVec.ofNat 32 119))).toNat = _; exact off_val _ 119 hi (by decide)) (by show 128 * (i 0).val + 119 < 16384; omega) _ _ _ q)
  ihave HR2 := (row_deliverP scM2 c 119 (by decide) inb_S128x64_S1x64_119_0 _ fs2 _ (gVj c i xt2 fh1)) $$ HR2 %(fun q => deliver_gath (by decide) c hbM1 tbM2 fh1 xt2 i ⟨119, by decide⟩ (k0_off477 i) (by show (Scalar.indexCast (Scalar.addi (Scalar.muli (BitVec.ofNat 32 (i 0).val) 128#32) (BitVec.ofNat 32 119))).toNat = _; exact off_val _ 119 hi (by decide)) (by show 128 * (i 0).val + 119 < 16384; omega) _ _ _ q)
  ihave HD0 := (consH _ _) $$ HR0 HD0
  ihave HD1 := (consH _ _) $$ HR1 HD1
  ihave HD2 := (consH _ _) $$ HR2 HD2
  ihave HDC0 := (consH _ _) $$ HC0 HDC0
  ihave HDC1 := (consH _ _) $$ HC1 HDC1
  ihave HDC2 := (consH _ _) $$ HC2 HDC2
  ihave HDT0 := (consH _ _) $$ HT0 HDT0
  ihave HDT1 := (consH _ _) $$ HT1 HDT1
  ihave HDT2 := (consH _ _) $$ HT2 HDT2
  -- row 120: its three copies land; the row's resources go to the heads of the chains of what is done
  icases HB120 with ⟨HC0, HT0, HC1, HT1, HC2, HT2⟩
  sl_exec (disch := first | sl_exact hU _ _ | sl_exact hI _ _ | sl_exact hJ _ _)
  ihave HR0 := (row_deliverP scM0 c 120 (by decide) inb_S128x64_S1x64_120_0 _ fs0 _ (gU c i xt0 fh0)) $$ HR0 %(fun q => deliver_gath (by decide) c hbM0 tbM0 fh0 xt0 i ⟨120, by decide⟩ (k0_off481 i) (by show (Scalar.indexCast (Scalar.addi (Scalar.muli (BitVec.ofNat 32 (i 0).val) 128#32) (BitVec.ofNat 32 120))).toNat = _; exact off_val _ 120 hi (by decide)) (by show 128 * (i 0).val + 120 < 16384; omega) _ _ _ q)
  ihave HR1 := (row_deliverP scM1 c 120 (by decide) inb_S128x64_S1x64_120_0 _ fs1 _ (gVi c i xt1 fh1)) $$ HR1 %(fun q => deliver_gath (by decide) c hbM1 tbM1 fh1 xt1 i ⟨120, by decide⟩ (k0_off481 i) (by show (Scalar.indexCast (Scalar.addi (Scalar.muli (BitVec.ofNat 32 (i 0).val) 128#32) (BitVec.ofNat 32 120))).toNat = _; exact off_val _ 120 hi (by decide)) (by show 128 * (i 0).val + 120 < 16384; omega) _ _ _ q)
  ihave HR2 := (row_deliverP scM2 c 120 (by decide) inb_S128x64_S1x64_120_0 _ fs2 _ (gVj c i xt2 fh1)) $$ HR2 %(fun q => deliver_gath (by decide) c hbM1 tbM2 fh1 xt2 i ⟨120, by decide⟩ (k0_off481 i) (by show (Scalar.indexCast (Scalar.addi (Scalar.muli (BitVec.ofNat 32 (i 0).val) 128#32) (BitVec.ofNat 32 120))).toNat = _; exact off_val _ 120 hi (by decide)) (by show 128 * (i 0).val + 120 < 16384; omega) _ _ _ q)
  ihave HD0 := (consH _ _) $$ HR0 HD0
  ihave HD1 := (consH _ _) $$ HR1 HD1
  ihave HD2 := (consH _ _) $$ HR2 HD2
  ihave HDC0 := (consH _ _) $$ HC0 HDC0
  ihave HDC1 := (consH _ _) $$ HC1 HDC1
  ihave HDC2 := (consH _ _) $$ HC2 HDC2
  ihave HDT0 := (consH _ _) $$ HT0 HDT0
  ihave HDT1 := (consH _ _) $$ HT1 HDT1
  ihave HDT2 := (consH _ _) $$ HT2 HDT2
  -- row 121: its three copies land; the row's resources go to the heads of the chains of what is done
  icases HB121 with ⟨HC0, HT0, HC1, HT1, HC2, HT2⟩
  sl_exec (disch := first | sl_exact hU _ _ | sl_exact hI _ _ | sl_exact hJ _ _)
  ihave HR0 := (row_deliverP scM0 c 121 (by decide) inb_S128x64_S1x64_121_0 _ fs0 _ (gU c i xt0 fh0)) $$ HR0 %(fun q => deliver_gath (by decide) c hbM0 tbM0 fh0 xt0 i ⟨121, by decide⟩ (k0_off485 i) (by show (Scalar.indexCast (Scalar.addi (Scalar.muli (BitVec.ofNat 32 (i 0).val) 128#32) (BitVec.ofNat 32 121))).toNat = _; exact off_val _ 121 hi (by decide)) (by show 128 * (i 0).val + 121 < 16384; omega) _ _ _ q)
  ihave HR1 := (row_deliverP scM1 c 121 (by decide) inb_S128x64_S1x64_121_0 _ fs1 _ (gVi c i xt1 fh1)) $$ HR1 %(fun q => deliver_gath (by decide) c hbM1 tbM1 fh1 xt1 i ⟨121, by decide⟩ (k0_off485 i) (by show (Scalar.indexCast (Scalar.addi (Scalar.muli (BitVec.ofNat 32 (i 0).val) 128#32) (BitVec.ofNat 32 121))).toNat = _; exact off_val _ 121 hi (by decide)) (by show 128 * (i 0).val + 121 < 16384; omega) _ _ _ q)
  ihave HR2 := (row_deliverP scM2 c 121 (by decide) inb_S128x64_S1x64_121_0 _ fs2 _ (gVj c i xt2 fh1)) $$ HR2 %(fun q => deliver_gath (by decide) c hbM1 tbM2 fh1 xt2 i ⟨121, by decide⟩ (k0_off485 i) (by show (Scalar.indexCast (Scalar.addi (Scalar.muli (BitVec.ofNat 32 (i 0).val) 128#32) (BitVec.ofNat 32 121))).toNat = _; exact off_val _ 121 hi (by decide)) (by show 128 * (i 0).val + 121 < 16384; omega) _ _ _ q)
  ihave HD0 := (consH _ _) $$ HR0 HD0
  ihave HD1 := (consH _ _) $$ HR1 HD1
  ihave HD2 := (consH _ _) $$ HR2 HD2
  ihave HDC0 := (consH _ _) $$ HC0 HDC0
  ihave HDC1 := (consH _ _) $$ HC1 HDC1
  ihave HDC2 := (consH _ _) $$ HC2 HDC2
  ihave HDT0 := (consH _ _) $$ HT0 HDT0
  ihave HDT1 := (consH _ _) $$ HT1 HDT1
  ihave HDT2 := (consH _ _) $$ HT2 HDT2
  -- row 122: its three copies land; the row's resources go to the heads of the chains of what is done
  icases HB122 with ⟨HC0, HT0, HC1, HT1, HC2, HT2⟩
  sl_exec (disch := first | sl_exact hU _ _ | sl_exact hI _ _ | sl_exact hJ _ _)
  ihave HR0 := (row_deliverP scM0 c 122 (by decide) inb_S128x64_S1x64_122_0 _ fs0 _ (gU c i xt0 fh0)) $$ HR0 %(fun q => deliver_gath (by decide) c hbM0 tbM0 fh0 xt0 i ⟨122, by decide⟩ (k0_off489 i) (by show (Scalar.indexCast (Scalar.addi (Scalar.muli (BitVec.ofNat 32 (i 0).val) 128#32) (BitVec.ofNat 32 122))).toNat = _; exact off_val _ 122 hi (by decide)) (by show 128 * (i 0).val + 122 < 16384; omega) _ _ _ q)
  ihave HR1 := (row_deliverP scM1 c 122 (by decide) inb_S128x64_S1x64_122_0 _ fs1 _ (gVi c i xt1 fh1)) $$ HR1 %(fun q => deliver_gath (by decide) c hbM1 tbM1 fh1 xt1 i ⟨122, by decide⟩ (k0_off489 i) (by show (Scalar.indexCast (Scalar.addi (Scalar.muli (BitVec.ofNat 32 (i 0).val) 128#32) (BitVec.ofNat 32 122))).toNat = _; exact off_val _ 122 hi (by decide)) (by show 128 * (i 0).val + 122 < 16384; omega) _ _ _ q)
  ihave HR2 := (row_deliverP scM2 c 122 (by decide) inb_S128x64_S1x64_122_0 _ fs2 _ (gVj c i xt2 fh1)) $$ HR2 %(fun q => deliver_gath (by decide) c hbM1 tbM2 fh1 xt2 i ⟨122, by decide⟩ (k0_off489 i) (by show (Scalar.indexCast (Scalar.addi (Scalar.muli (BitVec.ofNat 32 (i 0).val) 128#32) (BitVec.ofNat 32 122))).toNat = _; exact off_val _ 122 hi (by decide)) (by show 128 * (i 0).val + 122 < 16384; omega) _ _ _ q)
  ihave HD0 := (consH _ _) $$ HR0 HD0
  ihave HD1 := (consH _ _) $$ HR1 HD1
  ihave HD2 := (consH _ _) $$ HR2 HD2
  ihave HDC0 := (consH _ _) $$ HC0 HDC0
  ihave HDC1 := (consH _ _) $$ HC1 HDC1
  ihave HDC2 := (consH _ _) $$ HC2 HDC2
  ihave HDT0 := (consH _ _) $$ HT0 HDT0
  ihave HDT1 := (consH _ _) $$ HT1 HDT1
  ihave HDT2 := (consH _ _) $$ HT2 HDT2
  -- row 123: its three copies land; the row's resources go to the heads of the chains of what is done
  icases HB123 with ⟨HC0, HT0, HC1, HT1, HC2, HT2⟩
  sl_exec (disch := first | sl_exact hU _ _ | sl_exact hI _ _ | sl_exact hJ _ _)
  ihave HR0 := (row_deliverP scM0 c 123 (by decide) inb_S128x64_S1x64_123_0 _ fs0 _ (gU c i xt0 fh0)) $$ HR0 %(fun q => deliver_gath (by decide) c hbM0 tbM0 fh0 xt0 i ⟨123, by decide⟩ (k0_off493 i) (by show (Scalar.indexCast (Scalar.addi (Scalar.muli (BitVec.ofNat 32 (i 0).val) 128#32) (BitVec.ofNat 32 123))).toNat = _; exact off_val _ 123 hi (by decide)) (by show 128 * (i 0).val + 123 < 16384; omega) _ _ _ q)
  ihave HR1 := (row_deliverP scM1 c 123 (by decide) inb_S128x64_S1x64_123_0 _ fs1 _ (gVi c i xt1 fh1)) $$ HR1 %(fun q => deliver_gath (by decide) c hbM1 tbM1 fh1 xt1 i ⟨123, by decide⟩ (k0_off493 i) (by show (Scalar.indexCast (Scalar.addi (Scalar.muli (BitVec.ofNat 32 (i 0).val) 128#32) (BitVec.ofNat 32 123))).toNat = _; exact off_val _ 123 hi (by decide)) (by show 128 * (i 0).val + 123 < 16384; omega) _ _ _ q)
  ihave HR2 := (row_deliverP scM2 c 123 (by decide) inb_S128x64_S1x64_123_0 _ fs2 _ (gVj c i xt2 fh1)) $$ HR2 %(fun q => deliver_gath (by decide) c hbM1 tbM2 fh1 xt2 i ⟨123, by decide⟩ (k0_off493 i) (by show (Scalar.indexCast (Scalar.addi (Scalar.muli (BitVec.ofNat 32 (i 0).val) 128#32) (BitVec.ofNat 32 123))).toNat = _; exact off_val _ 123 hi (by decide)) (by show 128 * (i 0).val + 123 < 16384; omega) _ _ _ q)
  ihave HD0 := (consH _ _) $$ HR0 HD0
  ihave HD1 := (consH _ _) $$ HR1 HD1
  ihave HD2 := (consH _ _) $$ HR2 HD2
  ihave HDC0 := (consH _ _) $$ HC0 HDC0
  ihave HDC1 := (consH _ _) $$ HC1 HDC1
  ihave HDC2 := (consH _ _) $$ HC2 HDC2
  ihave HDT0 := (consH _ _) $$ HT0 HDT0
  ihave HDT1 := (consH _ _) $$ HT1 HDT1
  ihave HDT2 := (consH _ _) $$ HT2 HDT2
  -- row 124: its three copies land; the row's resources go to the heads of the chains of what is done
  icases HB124 with ⟨HC0, HT0, HC1, HT1, HC2, HT2⟩
  sl_exec (disch := first | sl_exact hU _ _ | sl_exact hI _ _ | sl_exact hJ _ _)
  ihave HR0 := (row_deliverP scM0 c 124 (by decide) inb_S128x64_S1x64_124_0 _ fs0 _ (gU c i xt0 fh0)) $$ HR0 %(fun q => deliver_gath (by decide) c hbM0 tbM0 fh0 xt0 i ⟨124, by decide⟩ (k0_off497 i) (by show (Scalar.indexCast (Scalar.addi (Scalar.muli (BitVec.ofNat 32 (i 0).val) 128#32) (BitVec.ofNat 32 124))).toNat = _; exact off_val _ 124 hi (by decide)) (by show 128 * (i 0).val + 124 < 16384; omega) _ _ _ q)
  ihave HR1 := (row_deliverP scM1 c 124 (by decide) inb_S128x64_S1x64_124_0 _ fs1 _ (gVi c i xt1 fh1)) $$ HR1 %(fun q => deliver_gath (by decide) c hbM1 tbM1 fh1 xt1 i ⟨124, by decide⟩ (k0_off497 i) (by show (Scalar.indexCast (Scalar.addi (Scalar.muli (BitVec.ofNat 32 (i 0).val) 128#32) (BitVec.ofNat 32 124))).toNat = _; exact off_val _ 124 hi (by decide)) (by show 128 * (i 0).val + 124 < 16384; omega) _ _ _ q)
  ihave HR2 := (row_deliverP scM2 c 124 (by decide) inb_S128x64_S1x64_124_0 _ fs2 _ (gVj c i xt2 fh1)) $$ HR2 %(fun q => deliver_gath (by decide) c hbM1 tbM2 fh1 xt2 i ⟨124, by decide⟩ (k0_off497 i) (by show (Scalar.indexCast (Scalar.addi (Scalar.muli (BitVec.ofNat 32 (i 0).val) 128#32) (BitVec.ofNat 32 124))).toNat = _; exact off_val _ 124 hi (by decide)) (by show 128 * (i 0).val + 124 < 16384; omega) _ _ _ q)
  ihave HD0 := (consH _ _) $$ HR0 HD0
  ihave HD1 := (consH _ _) $$ HR1 HD1
  ihave HD2 := (consH _ _) $$ HR2 HD2
  ihave HDC0 := (consH _ _) $$ HC0 HDC0
  ihave HDC1 := (consH _ _) $$ HC1 HDC1
  ihave HDC2 := (consH _ _) $$ HC2 HDC2
  ihave HDT0 := (consH _ _) $$ HT0 HDT0
  ihave HDT1 := (consH _ _) $$ HT1 HDT1
  ihave HDT2 := (consH _ _) $$ HT2 HDT2
  -- row 125: its three copies land; the row's resources go to the heads of the chains of what is done
  icases HB125 with ⟨HC0, HT0, HC1, HT1, HC2, HT2⟩
  sl_exec (disch := first | sl_exact hU _ _ | sl_exact hI _ _ | sl_exact hJ _ _)
  ihave HR0 := (row_deliverP scM0 c 125 (by decide) inb_S128x64_S1x64_125_0 _ fs0 _ (gU c i xt0 fh0)) $$ HR0 %(fun q => deliver_gath (by decide) c hbM0 tbM0 fh0 xt0 i ⟨125, by decide⟩ (k0_off501 i) (by show (Scalar.indexCast (Scalar.addi (Scalar.muli (BitVec.ofNat 32 (i 0).val) 128#32) (BitVec.ofNat 32 125))).toNat = _; exact off_val _ 125 hi (by decide)) (by show 128 * (i 0).val + 125 < 16384; omega) _ _ _ q)
  ihave HR1 := (row_deliverP scM1 c 125 (by decide) inb_S128x64_S1x64_125_0 _ fs1 _ (gVi c i xt1 fh1)) $$ HR1 %(fun q => deliver_gath (by decide) c hbM1 tbM1 fh1 xt1 i ⟨125, by decide⟩ (k0_off501 i) (by show (Scalar.indexCast (Scalar.addi (Scalar.muli (BitVec.ofNat 32 (i 0).val) 128#32) (BitVec.ofNat 32 125))).toNat = _; exact off_val _ 125 hi (by decide)) (by show 128 * (i 0).val + 125 < 16384; omega) _ _ _ q)
  ihave HR2 := (row_deliverP scM2 c 125 (by decide) inb_S128x64_S1x64_125_0 _ fs2 _ (gVj c i xt2 fh1)) $$ HR2 %(fun q => deliver_gath (by decide) c hbM1 tbM2 fh1 xt2 i ⟨125, by decide⟩ (k0_off501 i) (by show (Scalar.indexCast (Scalar.addi (Scalar.muli (BitVec.ofNat 32 (i 0).val) 128#32) (BitVec.ofNat 32 125))).toNat = _; exact off_val _ 125 hi (by decide)) (by show 128 * (i 0).val + 125 < 16384; omega) _ _ _ q)
  ihave HD0 := (consH _ _) $$ HR0 HD0
  ihave HD1 := (consH _ _) $$ HR1 HD1
  ihave HD2 := (consH _ _) $$ HR2 HD2
  ihave HDC0 := (consH _ _) $$ HC0 HDC0
  ihave HDC1 := (consH _ _) $$ HC1 HDC1
  ihave HDC2 := (consH _ _) $$ HC2 HDC2
  ihave HDT0 := (consH _ _) $$ HT0 HDT0
  ihave HDT1 := (consH _ _) $$ HT1 HDT1
  ihave HDT2 := (consH _ _) $$ HT2 HDT2
  -- row 126: its three copies land; the row's resources go to the heads of the chains of what is done
  icases HB126 with ⟨HC0, HT0, HC1, HT1, HC2, HT2⟩
  sl_exec (disch := first | sl_exact hU _ _ | sl_exact hI _ _ | sl_exact hJ _ _)
  ihave HR0 := (row_deliverP scM0 c 126 (by decide) inb_S128x64_S1x64_126_0 _ fs0 _ (gU c i xt0 fh0)) $$ HR0 %(fun q => deliver_gath (by decide) c hbM0 tbM0 fh0 xt0 i ⟨126, by decide⟩ (k0_off505 i) (by show (Scalar.indexCast (Scalar.addi (Scalar.muli (BitVec.ofNat 32 (i 0).val) 128#32) (BitVec.ofNat 32 126))).toNat = _; exact off_val _ 126 hi (by decide)) (by show 128 * (i 0).val + 126 < 16384; omega) _ _ _ q)
  ihave HR1 := (row_deliverP scM1 c 126 (by decide) inb_S128x64_S1x64_126_0 _ fs1 _ (gVi c i xt1 fh1)) $$ HR1 %(fun q => deliver_gath (by decide) c hbM1 tbM1 fh1 xt1 i ⟨126, by decide⟩ (k0_off505 i) (by show (Scalar.indexCast (Scalar.addi (Scalar.muli (BitVec.ofNat 32 (i 0).val) 128#32) (BitVec.ofNat 32 126))).toNat = _; exact off_val _ 126 hi (by decide)) (by show 128 * (i 0).val + 126 < 16384; omega) _ _ _ q)
  ihave HR2 := (row_deliverP scM2 c 126 (by decide) inb_S128x64_S1x64_126_0 _ fs2 _ (gVj c i xt2 fh1)) $$ HR2 %(fun q => deliver_gath (by decide) c hbM1 tbM2 fh1 xt2 i ⟨126, by decide⟩ (k0_off505 i) (by show (Scalar.indexCast (Scalar.addi (Scalar.muli (BitVec.ofNat 32 (i 0).val) 128#32) (BitVec.ofNat 32 126))).toNat = _; exact off_val _ 126 hi (by decide)) (by show 128 * (i 0).val + 126 < 16384; omega) _ _ _ q)
  ihave HD0 := (consH _ _) $$ HR0 HD0
  ihave HD1 := (consH _ _) $$ HR1 HD1
  ihave HD2 := (consH _ _) $$ HR2 HD2
  ihave HDC0 := (consH _ _) $$ HC0 HDC0
  ihave HDC1 := (consH _ _) $$ HC1 HDC1
  ihave HDC2 := (consH _ _) $$ HC2 HDC2
  ihave HDT0 := (consH _ _) $$ HT0 HDT0
  ihave HDT1 := (consH _ _) $$ HT1 HDT1
  ihave HDT2 := (consH _ _) $$ HT2 HDT2
  -- row 127: its three copies land; the row's resources go to the heads of the chains of what is done
  icases HB127 with ⟨HC0, HT0, HC1, HT1, HC2, HT2⟩
  sl_exec (disch := first | sl_exact hU _ _ | sl_exact hI _ _ | sl_exact hJ _ _)
  ihave HR0 := (row_deliverP scM0 c 127 (by decide) inb_S128x64_S1x64_127_0 _ fs0 _ (gU c i xt0 fh0)) $$ HR0 %(fun q => deliver_gath (by decide) c hbM0 tbM0 fh0 xt0 i ⟨127, by decide⟩ (k0_off509 i) (by show (Scalar.indexCast (Scalar.addi (Scalar.muli (BitVec.ofNat 32 (i 0).val) 128#32) (BitVec.ofNat 32 127))).toNat = _; exact off_val _ 127 hi (by decide)) (by show 128 * (i 0).val + 127 < 16384; omega) _ _ _ q)
  ihave HR1 := (row_deliverP scM1 c 127 (by decide) inb_S128x64_S1x64_127_0 _ fs1 _ (gVi c i xt1 fh1)) $$ HR1 %(fun q => deliver_gath (by decide) c hbM1 tbM1 fh1 xt1 i ⟨127, by decide⟩ (k0_off509 i) (by show (Scalar.indexCast (Scalar.addi (Scalar.muli (BitVec.ofNat 32 (i 0).val) 128#32) (BitVec.ofNat 32 127))).toNat = _; exact off_val _ 127 hi (by decide)) (by show 128 * (i 0).val + 127 < 16384; omega) _ _ _ q)
  ihave HR2 := (row_deliverP scM2 c 127 (by decide) inb_S128x64_S1x64_127_0 _ fs2 _ (gVj c i xt2 fh1)) $$ HR2 %(fun q => deliver_gath (by decide) c hbM1 tbM2 fh1 xt2 i ⟨127, by decide⟩ (k0_off509 i) (by show (Scalar.indexCast (Scalar.addi (Scalar.muli (BitVec.ofNat 32 (i 0).val) 128#32) (BitVec.ofNat 32 127))).toNat = _; exact off_val _ 127 hi (by decide)) (by show 128 * (i 0).val + 127 < 16384; omega) _ _ _ q)
  ihave HD0 := (consH _ _) $$ HR0 HD0
  ihave HD1 := (consH _ _) $$ HR1 HD1
  ihave HD2 := (consH _ _) $$ HR2 HD2
  ihave HDC0 := (consH _ _) $$ HC0 HDC0
  ihave HDC1 := (consH _ _) $$ HC1 HDC1
  ihave HDC2 := (consH _ _) $$ HC2 HDC2
  ihave HDT0 := (consH _ _) $$ HT0 HDT0
  ihave HDT1 := (consH _ _) $$ HT1 HDT1
  ihave HDT2 := (consH _ _) $$ HT2 HDT2
  -- the 128 delivered rows of each scratch buffer are the buffer at the contents whose reading is the gathered block
  ihave HS0 := (rows_down0 (F := F) c _) $$ HD0
  ihave HS1 := (rows_down1 (F := F) c _) $$ HD1
  ihave HS2 := (rows_down2 (F := F) c _) $$ HD2
  -- the three loads and the five stores
  sl_exec
  -- what is handed back
  icases HUrl with ⟨HUr, HUlo⟩
  icases HVrl with ⟨HVr, HVlo⟩
  ihave HZ := (cells_down' (F := F) c) $$ [HDC0 HDC1 HDC2]
  · isplitl [HDC0]
    · iexact HDC0
    isplitl [HDC1]
    · iexact HDC1
    iexact HDC2
  ihave HU := (tokU_down (F := F) c fh0) $$ [HUr HUlo HDT0]
  · isplitl [HUr]
    · iexact HUr
    isplitl [HUlo]
    · iexact HUlo
    iexact HDT0
  ihave HV := (tokV_down (F := F) c fh1) $$ [HVr HVlo HDT1 HDT2]
  · isplitl [HVr]
    · iexact HVr
    isplitl [HVlo]
    · iexact HVlo
    isplitl [HDT1]
    · iexact HDT1
    iexact HDT2
  ihave H6 := (out6 (F := F) c i xt0 xt1 xt2 fh0 fh1 fs0 fs1 fs2 arg6 _) $$ H6
  ihave H7 := (out7 (F := F) c i xt0 xt1 xt2 fh0 fh1 fs0 fs1 fs2 arg7 _) $$ H7
  ihave H8 := (out8 (F := F) c i xt0 xt1 xt2 fh0 fh1 fs0 fs1 fs2 arg8 _) $$ H8
  ihave H9 := (out9 (F := F) c i xt0 xt1 xt2 fh0 fh1 fs0 fs1 fs2 arg9 _) $$ H9
  have hout10P : ∀ (v : FVec F S128x64 .f32),
      ((arg10.view.loc (c : Thread nD τ) ↦[arg10.view.set]{fullShare} arg10.view.writes (Elt F) f10
          [⟨Rect.unit (s := S128x1) ![0, 0] S128x1.size inb_S128x1_S128x1_0_0, k0_pay1 v⟩] : sProp 𝕄)
        ⊢ iprop(⌜v = k0_pay6 (scM2.view.readAt (Elt F) (Rect.unit (s := S128x64) ![0, 0] S128x64.size inb_S128x64_S128x64_0_0).toLoadRect (scM2.view.write (Elt F) fs2 (gVj c i xt2 fh1) Finset.univ))⌝ -∗
            ∃ f, arg10.view.loc (c : Thread nD τ) ↦[arg10.view.set]{fullShare}
              arg10.view.writes (Elt F) f (runL c i xt0 xt1 xt2 fh0 fh1).2.2.2.2)) := by
    intro v
    iintro H
    iintro %hv
    subst hv
    iapply (out10 (F := F) c i xt0 xt1 xt2 fh0 fh1 fs0 fs1 fs2 arg10 f10)
    iexact H
  ihave H10 := (hout10P _) $$ H10 %rfl
  rw [wp_ret]
  imodintro
  iapply Hk
  isplitl [H6]
  · iexact H6
  isplitl [H7]
  · iexact H7
  isplitl [H8]
  · iexact H8
  isplitl [H9]
  · iexact H9
  isplitl [H10]
  · iexact H10
  isplitl [HS0]
  · iexists _, _
    isplitr
    swap
    · iexact HS0
    ipureintro
    rfl
  isplitl [HS1]
  · iexists _, _
    isplitr
    swap
    · iexact HS1
    ipureintro
    rfl
  isplitl [HS2]
  · iexists _, _
    isplitr
    swap
    · iexact HS2
    ipureintro
    rfl
  isplitl [HZ]
  · iexact HZ
  isplitl [Ht0]
  · iexact Ht0
  isplitl [Ht1]
  · iexact Ht1
  isplitl [Ht2]
  · iexact Ht2
  isplitl [HU]
  · iexact HU
  isplitl [HV]
  · iexact HV
  iexists _; iexact HW

end Cert.KernelIdeal.Hand

end
-- ==== Proof.KIArgs.lean ====
/-
  The program's five arguments after its host lines: each holds what it held at launch.

  After the region the core's buffers are the region's exit contents — the five result arrays at what the region
  wrote, every other buffer at its contents when the region was entered — run through the host lines.  No host line
  writes an argument (each writes one buffer of its own, which is no argument), and no result array is an argument.
  So an argument's contents after the lines are its contents when the region was entered, which are its launch
  contents, no host line coming before the region.

  Generic in the float instance, and for any proof data of the region: the result arrays' contents are never looked at.
-/
import proofs.«414929_j28089086116333_1_alg».proof.Proof.KIKit
import Idealize.ShloMosaic.Lib.Pipeline.FrameSuffix
import Idealize.ShloMosaic.Lib.StableHlo.Run

noncomputable section

namespace Cert.KernelIdeal.Hand

open Cert.KernelIdeal Cert.KernelIdeal.Gen
open Idealize.ShloMosaic Idealize.ShloMosaic.TcCoe
open Idealize.SL Idealize.SL.Sem

variable {F : FTy → Type} [FloatOps F]

variable (m : (ℓ : Loc nD τ sig) → Buf (Elt F) ℓ)

/-! ## No result array is an argument -/

theorem arr_ne_arg0 : ∀ w, Pipeline.arrRef spec0 w ≠ main_arg0 := by decide
theorem arr_ne_arg1 : ∀ w, Pipeline.arrRef spec0 w ≠ main_arg1 := by decide
theorem arr_ne_arg2 : ∀ w, Pipeline.arrRef spec0 w ≠ main_arg2 := by decide
theorem arr_ne_arg3 : ∀ w, Pipeline.arrRef spec0 w ≠ main_arg3 := by decide
theorem arr_ne_arg4 : ∀ w, Pipeline.arrRef spec0 w ≠ main_arg4 := by decide

/-! ## The arguments after the host lines -/

/-- The first table after the host lines holds its launch contents. -/
theorem afterTail_arg0 (c : Dev nD)
    (dats : (p : Fin 1) → (c : Dev nD) →
      Pipeline.Dat τ (Elt F) Unit ℕ (Pipeline.UD sig nD τ) ℕ (Pipeline.pin pcfgs (fun _ => adm m) p) c) :
    Pipeline.afterTail pcfgs (fun _ => adm m) dats 0 (V0 m) [hostOps1, hostOps1_1, hostOps1_2] c main_arg0
      = m ((c : Thread nD τ).loc main_arg0) := by
  unfold Pipeline.afterTail
  simp only [hostOps1, hostOps1_1, hostOps1_2, List.flatten_cons, List.flatten_nil, List.append_nil,
    List.cons_append, List.nil_append]
  after_results_simp
  rw [Pipeline.withArrays_of_ne _ c (V0 m c) _ main_arg0 arr_ne_arg0]
  exact V_main_arg0 m c

/-- The second table after the host lines holds its launch contents. -/
theorem afterTail_arg1 (c : Dev nD)
    (dats : (p : Fin 1) → (c : Dev nD) →
      Pipeline.Dat τ (Elt F) Unit ℕ (Pipeline.UD sig nD τ) ℕ (Pipeline.pin pcfgs (fun _ => adm m) p) c) :
    Pipeline.afterTail pcfgs (fun _ => adm m) dats 0 (V0 m) [hostOps1, hostOps1_1, hostOps1_2] c main_arg1
      = m ((c : Thread nD τ).loc main_arg1) := by
  unfold Pipeline.afterTail
  simp only [hostOps1, hostOps1_1, hostOps1_2, List.flatten_cons, List.flatten_nil, List.append_nil,
    List.cons_append, List.nil_append]
  after_results_simp
  rw [Pipeline.withArrays_of_ne _ c (V0 m c) _ main_arg1 arr_ne_arg1]
  exact V_main_arg1 m c

/-- The first index vector after the host lines holds its launch contents. -/
theorem afterTail_arg2 (c : Dev nD)
    (dats : (p : Fin 1) → (c : Dev nD) →
      Pipeline.Dat τ (Elt F) Unit ℕ (Pipeline.UD sig nD τ) ℕ (Pipeline.pin pcfgs (fun _ => adm m) p) c) :
    Pipeline.afterTail pcfgs (fun _ => adm m) dats 0 (V0 m) [hostOps1, hostOps1_1, hostOps1_2] c main_arg2
      = m ((c : Thread nD τ).loc main_arg2) := by
  unfold Pipeline.afterTail
  simp only [hostOps1, hostOps1_1, hostOps1_2, List.flatten_cons, List.flatten_nil, List.append_nil,
    List.cons_append, List.nil_append]
  after_results_simp
  rw [Pipeline.withArrays_of_ne _ c (V0 m c) _ main_arg2 arr_ne_arg2]
  exact V_main_arg2 m c

/-- The second index vector after the host lines holds its launch contents. -/
theorem afterTail_arg3 (c : Dev nD)
    (dats : (p : Fin 1) → (c : Dev nD) →
      Pipeline.Dat τ (Elt F) Unit ℕ (Pipeline.UD sig nD τ) ℕ (Pipeline.pin pcfgs (fun _ => adm m) p) c) :
    Pipeline.afterTail pcfgs (fun _ => adm m) dats 0 (V0 m) [hostOps1, hostOps1_1, hostOps1_2] c main_arg3
      = m ((c : Thread nD τ).loc main_arg3) := by
  unfold Pipeline.afterTail
  simp only [hostOps1, hostOps1_1, hostOps1_2, List.flatten_cons, List.flatten_nil, List.append_nil,
    List.cons_append, List.nil_append]
  after_results_simp
  rw [Pipeline.withArrays_of_ne _ c (V0 m c) _ main_arg3 arr_ne_arg3]
  exact V_main_arg3 m c

/-- The third index vector after the host lines holds its launch contents. -/
theorem afterTail_arg4 (c : Dev nD)
    (dats : (p : Fin 1) → (c : Dev nD) →
      Pipeline.Dat τ (Elt F) Unit ℕ (Pipeline.UD sig nD τ) ℕ (Pipeline.pin pcfgs (fun _ => adm m) p) c) :
    Pipeline.afterTail pcfgs (fun _ => adm m) dats 0 (V0 m) [hostOps1, hostOps1_1, hostOps1_2] c main_arg4
      = m ((c : Thread nD τ).loc main_arg4) := by
  unfold Pipeline.afterTail
  simp only [hostOps1, hostOps1_1, hostOps1_2, List.flatten_cons, List.flatten_nil, List.append_nil,
    List.cons_append, List.nil_append]
  after_results_simp
  rw [Pipeline.withArrays_of_ne _ c (V0 m c) _ main_arg4 arr_ne_arg4]
  exact V_main_arg4 m c

end Cert.KernelIdeal.Hand

end
-- ==== Proof.KIHyps.lean ====
import proofs.«414929_j28089086116333_1_alg».proof.Proof.KIOps
import proofs.«414929_j28089086116333_1_alg».proof.Proof.PreRange

/-!
  The range facts of the three index tables, in the form the body uses them. The body reads a word `w` from an
  index table and takes the one-row rectangle of 64 columns at row `w`, column 0, out of the data table the word
  indexes; that rectangle lies inside an `n × 64` table exactly when `w < n`. Since a whole buffer reads as its own
  contents, "every entry of the table's contents is below `n`" gives the containment for every word any load can
  read from it.
-/

namespace Cert.KernelIdeal.Hand

open Cert.KernelIdeal Cert.KernelIdeal.Gen Idealize.ShloMosaic Idealize.ShloMosaic.TcCoe Idealize.SL.Sem

variable {F : FTy → Type} [FloatOps F]

/-- The one-row, 64-column rectangle at row `r`, column 0 lies inside an `n × 64` table when `r < n`:
    on the row axis `r + 1 ≤ n`, on the column axis `0 + 64 ≤ 64`. -/
theorem row_rect_le {r n : Nat} (hr : r < n) (a : Fin 2) :
    (![r, 0] : Fin 2 → Nat) a + S1x64.size a ≤ (⟨2, ![n, 64]⟩ : Shape).size a := by
  match a with
  | ⟨0, _⟩ => show r + 1 ≤ n; omega
  | ⟨1, _⟩ => show 0 + 64 ≤ 64; omega

theorem rowsU_of_lt (c : Dev nD) (xt : BufOf (F := F) c tbM0)
    (h : ∀ g : S16384.Idx, ((xt : S16384.Idx → BitVec 32) g).toNat < 1000000) :
    ∀ (R : LoadRect S16384) (j : R.shape.Idx) (a : Fin 2),
      (![(tbM0.view.readAt (Elt F) R xt j).toNat, 0] : Fin 2 → Nat) a + S1x64.size a ≤ S1000000x64.size a :=
  fun R j a => row_rect_le (h (R.idx j)) a

theorem rowsV1_of_lt (c : Dev nD) (xt : BufOf (F := F) c tbM1)
    (h : ∀ g : S16384.Idx, ((xt : S16384.Idx → BitVec 32) g).toNat < 500000) :
    ∀ (R : LoadRect S16384) (j : R.shape.Idx) (a : Fin 2),
      (![(tbM1.view.readAt (Elt F) R xt j).toNat, 0] : Fin 2 → Nat) a + S1x64.size a ≤ S500000x64.size a :=
  fun R j a => row_rect_le (h (R.idx j)) a

theorem rowsV2_of_lt (c : Dev nD) (xt : BufOf (F := F) c tbM2)
    (h : ∀ g : S16384.Idx, ((xt : S16384.Idx → BitVec 32) g).toNat < 500000) :
    ∀ (R : LoadRect S16384) (j : R.shape.Idx) (a : Fin 2),
      (![(tbM2.view.readAt (Elt F) R xt j).toNat, 0] : Fin 2 → Nat) a + S1x64.size a ≤ S500000x64.size a :=
  fun R j a => row_rect_le (h (R.idx j)) a

theorem rows_of_fn [hP : Cert.Pre_finite_inputs.Facts] (c : Dev nD)
    (A0 : FVec F Cert.Pre_finite_inputs.S1000000x64 .f32) (A1 : FVec F Cert.Pre_finite_inputs.S500000x64 .f32)
    (xt0 : BufOf (F := F) c tbM0) (xt1 : BufOf (F := F) c tbM1) (xt2 : BufOf (F := F) c tbM2)
    (h : Cert.Pre_finite_inputs.fn (F := F) A0 A1 (xt0 : S16384.Idx → BitVec 32) xt1 xt2 = fun _ => 1#1) :
    (∀ (R : LoadRect S16384) (j : R.shape.Idx) (a : Fin 2),
      (![(tbM0.view.readAt (Elt F) R xt0 j).toNat, 0] : Fin 2 → Nat) a + S1x64.size a ≤ S1000000x64.size a)
    ∧ (∀ (R : LoadRect S16384) (j : R.shape.Idx) (a : Fin 2),
      (![(tbM1.view.readAt (Elt F) R xt1 j).toNat, 0] : Fin 2 → Nat) a + S1x64.size a ≤ S500000x64.size a)
    ∧ (∀ (R : LoadRect S16384) (j : R.shape.Idx) (a : Fin 2),
      (![(tbM2.view.readAt (Elt F) R xt2 j).toNat, 0] : Fin 2 → Nat) a + S1x64.size a ≤ S500000x64.size a) := by
  obtain ⟨h0, h1, h2⟩ := Cert.PreRange.range_of_pre A0 A1 _ _ _ h
  exact ⟨rowsU_of_lt c xt0 h0, rowsV1_of_lt c xt1 h1, rowsV2_of_lt c xt2 h2⟩

end Cert.KernelIdeal.Hand
-- ==== Proof.KIFrame.lean ====
/-
  The kernel's frame: the proof data of its one pipeline, the body obligation at every grid point, and the run of
  @main — the region, then the host stretches — for the program read at any float instance.

  After the body at point `t`, result window `w`'s staging buffer holds what the body's run stored there, read back over
  anything: one whole 128 × 1 column.  Between points the invariant holds the three scratch buffers at any contents,
  the generator register, the 384 transfer semaphores at zero, the two data tables at their entry contents, and the
  read-only halves of the three index tables.  The body obligation hands the run exactly that together with the five
  current staging buffers, and takes it back.  The index tables' words address rows of the tables they index: that is
  the one hypothesis (`TblOk`), which the certificate's precondition gives.
-/
import proofs.«414929_j28089086116333_1_alg».proof.Proof.KIKit
import proofs.«414929_j28089086116333_1_alg».proof.Proof.KIRun
import proofs.«414929_j28089086116333_1_alg».proof.Proof.KIArgs
import proofs.«414929_j28089086116333_1_alg».proof.Proof.KIHyps

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- Every word of each index table, as the region finds the table, addresses a row of the table it indexes — in the
    form the body's checks take. -/
structure TblOk : Prop where
  u : ∀ (R : LoadRect S16384) (j : R.shape.Idx) (a : Fin 2), (![(tbM0.view.readAt (Elt F) R (tbl m 0) j).toNat, 0] : Fin 2 → Nat) a + S1x64.size a ≤ S1000000x64.size a
  i : ∀ (R : LoadRect S16384) (j : R.shape.Idx) (a : Fin 2), (![(tbM1.view.readAt (Elt F) R (tbl m 1) j).toNat, 0] : Fin 2 → Nat) a + S1x64.size a ≤ S500000x64.size a
  j : ∀ (R : LoadRect S16384) (j : R.shape.Idx) (a : Fin 2), (![(tbM2.view.readAt (Elt F) R (tbl m 2) j).toNat, 0] : Fin 2 → Nat) a + S1x64.size a ≤ S500000x64.size a

/-! ## What the run leaves in each result window's staging buffer -/

/-- One staging buffer of a result window, through which its contents are stated (the choice does not matter). -/
abbrev VO : View sig .tc .vmem S128x1 .f32 := (Memref.whole cc0_stg0_0 : Memref sig .tc .vmem S128x1 .f32).view

/-- One store of the whole 128 × 1 block covers the block, whatever it stores. -/
theorem cover_whole (w : (Rect.whole S128x1).shape.Idx → Elt F .f32) (y : S128x1.Idx) :
    ∃ pc ∈ ([⟨Rect.whole S128x1, w⟩] : List (View.Piece (Elt F) S128x1 .f32)), y ∈ pc.1.set :=
  ⟨⟨Rect.whole S128x1, w⟩, List.mem_singleton.mpr rfl, by
    show y ∈ (Rect.whole S128x1).set
    rw [Rect.set_whole]; exact Finset.mem_univ y⟩

/-- The run lists one store for result window 0, of its whole 128 × 1 block: it covers the block. -/
theorem cover0 (c : Dev nD) (i : grid0.Coords)
    (xt0 : BufOf (F := F) c tbM0) (xt1 : BufOf (F := F) c tbM1) (xt2 : BufOf (F := F) c tbM2) (fh0 : BufOf (F := F) c hbM0) (fh1 : BufOf (F := F) c hbM1) (y : S128x1.Idx) :
    ∃ pc ∈ (runL c i xt0 xt1 xt2 fh0 fh1).1, y ∈ pc.1.set :=
  cover_whole (k0_pay2 (gU c i xt0 fh0) (gVi c i xt1 fh1)) y

/-- What the run leaves in result window 0's staging buffer: its store read back over junk. -/
def out0 (c : Dev nD) (i : grid0.Coords)
    (xt0 : BufOf (F := F) c tbM0) (xt1 : BufOf (F := F) c tbM1) (xt2 : BufOf (F := F) c tbM2) (fh0 : BufOf (F := F) c hbM0) (fh1 : BufOf (F := F) c hbM1) : Vec F S128x1 .f32 :=
  VO.read (Elt F) (VO.writes (Elt F) VO.junk (runL c i xt0 xt1 xt2 fh0 fh1).1)

/-- That is the stored column itself: the row sums of the first gathered block times the second. -/
theorem out0_eq (c : Dev nD) (i : grid0.Coords)
    (xt0 : BufOf (F := F) c tbM0) (xt1 : BufOf (F := F) c tbM1) (xt2 : BufOf (F := F) c tbM2) (fh0 : BufOf (F := F) c hbM0) (fh1 : BufOf (F := F) c hbM1) :
    out0 c i xt0 xt1 xt2 fh0 fh1 = k0_pay2 (gU c i xt0 fh0) (gVi c i xt1 fh1) :=
  View.read_writes_whole (Val := Elt F) VO VO.junk (k0_pay2 (gU c i xt0 fh0) (gVi c i xt1 fh1))

/-- The run lists one store for result window 1, of its whole 128 × 1 block: it covers the block. -/
theorem cover1 (c : Dev nD) (i : grid0.Coords)
    (xt0 : BufOf (F := F) c tbM0) (xt1 : BufOf (F := F) c tbM1) (xt2 : BufOf (F := F) c tbM2) (fh0 : BufOf (F := F) c hbM0) (fh1 : BufOf (F := F) c hbM1) (y : S128x1.Idx) :
    ∃ pc ∈ (runL c i xt0 xt1 xt2 fh0 fh1).2.1, y ∈ pc.1.set :=
  cover_whole (k0_pay3 (gU c i xt0 fh0) (gVj c i xt2 fh1)) y

/-- What the run leaves in result window 1's staging buffer: its store read back over junk. -/
def out1 (c : Dev nD) (i : grid0.Coords)
    (xt0 : BufOf (F := F) c tbM0) (xt1 : BufOf (F := F) c tbM1) (xt2 : BufOf (F := F) c tbM2) (fh0 : BufOf (F := F) c hbM0) (fh1 : BufOf (F := F) c hbM1) : Vec F S128x1 .f32 :=
  VO.read (Elt F) (VO.writes (Elt F) VO.junk (runL c i xt0 xt1 xt2 fh0 fh1).2.1)

/-- That is the stored column itself: the row sums of the first gathered block times the third. -/
theorem out1_eq (c : Dev nD) (i : grid0.Coords)
    (xt0 : BufOf (F := F) c tbM0) (xt1 : BufOf (F := F) c tbM1) (xt2 : BufOf (F := F) c tbM2) (fh0 : BufOf (F := F) c hbM0) (fh1 : BufOf (F := F) c hbM1) :
    out1 c i xt0 xt1 xt2 fh0 fh1 = k0_pay3 (gU c i xt0 fh0) (gVj c i xt2 fh1) :=
  View.read_writes_whole (Val := Elt F) VO VO.junk (k0_pay3 (gU c i xt0 fh0) (gVj c i xt2 fh1))

/-- The run lists one store for result window 2, of its whole 128 × 1 block: it covers the block. -/
theorem cover2 (c : Dev nD) (i : grid0.Coords)
    (xt0 : BufOf (F := F) c tbM0) (xt1 : BufOf (F := F) c tbM1) (xt2 : BufOf (F := F) c tbM2) (fh0 : BufOf (F := F) c hbM0) (fh1 : BufOf (F := F) c hbM1) (y : S128x1.Idx) :
    ∃ pc ∈ (runL c i xt0 xt1 xt2 fh0 fh1).2.2.1, y ∈ pc.1.set :=
  cover_whole (k0_pay4 (gU c i xt0 fh0)) y

/-- What the run leaves in result window 2's staging buffer: its store read back over junk. -/
def out2 (c : Dev nD) (i : grid0.Coords)
    (xt0 : BufOf (F := F) c tbM0) (xt1 : BufOf (F := F) c tbM1) (xt2 : BufOf (F := F) c tbM2) (fh0 : BufOf (F := F) c hbM0) (fh1 : BufOf (F := F) c hbM1) : Vec F S128x1 .f32 :=
  VO.read (Elt F) (VO.writes (Elt F) VO.junk (runL c i xt0 xt1 xt2 fh0 fh1).2.2.1)

/-- That is the stored column itself: the row sums of the first gathered block's squares. -/
theorem out2_eq (c : Dev nD) (i : grid0.Coords)
    (xt0 : BufOf (F := F) c tbM0) (xt1 : BufOf (F := F) c tbM1) (xt2 : BufOf (F := F) c tbM2) (fh0 : BufOf (F := F) c hbM0) (fh1 : BufOf (F := F) c hbM1) :
    out2 c i xt0 xt1 xt2 fh0 fh1 = k0_pay4 (gU c i xt0 fh0) :=
  View.read_writes_whole (Val := Elt F) VO VO.junk (k0_pay4 (gU c i xt0 fh0))

/-- The run lists one store for result window 3, of its whole 128 × 1 block: it covers the block. -/
theorem cover3 (c : Dev nD) (i : grid0.Coords)
    (xt0 : BufOf (F := F) c tbM0) (xt1 : BufOf (F := F) c tbM1) (xt2 : BufOf (F := F) c tbM2) (fh0 : BufOf (F := F) c hbM0) (fh1 : BufOf (F := F) c hbM1) (y : S128x1.Idx) :
    ∃ pc ∈ (runL c i xt0 xt1 xt2 fh0 fh1).2.2.2.1, y ∈ pc.1.set :=
  cover_whole (k0_pay5 (gVi c i xt1 fh1)) y

/-- What the run leaves in result window 3's staging buffer: its store read back over junk. -/
def out3 (c : Dev nD) (i : grid0.Coords)
    (xt0 : BufOf (F := F) c tbM0) (xt1 : BufOf (F := F) c tbM1) (xt2 : BufOf (F := F) c tbM2) (fh0 : BufOf (F := F) c hbM0) (fh1 : BufOf (F := F) c hbM1) : Vec F S128x1 .f32 :=
  VO.read (Elt F) (VO.writes (Elt F) VO.junk (runL c i xt0 xt1 xt2 fh0 fh1).2.2.2.1)

/-- That is the stored column itself: the row sums of the second gathered block's squares. -/
theorem out3_eq (c : Dev nD) (i : grid0.Coords)
    (xt0 : BufOf (F := F) c tbM0) (xt1 : BufOf (F := F) c tbM1) (xt2 : BufOf (F := F) c tbM2) (fh0 : BufOf (F := F) c hbM0) (fh1 : BufOf (F := F) c hbM1) :
    out3 c i xt0 xt1 xt2 fh0 fh1 = k0_pay5 (gVi c i xt1 fh1) :=
  View.read_writes_whole (Val := Elt F) VO VO.junk (k0_pay5 (gVi c i xt1 fh1))

/-- The run lists one store for result window 4, of its whole 128 × 1 block: it covers the block. -/
theorem cover4 (c : Dev nD) (i : grid0.Coords)
    (xt0 : BufOf (F := F) c tbM0) (xt1 : BufOf (F := F) c tbM1) (xt2 : BufOf (F := F) c tbM2) (fh0 : BufOf (F := F) c hbM0) (fh1 : BufOf (F := F) c hbM1) (y : S128x1.Idx) :
    ∃ pc ∈ (runL c i xt0 xt1 xt2 fh0 fh1).2.2.2.2, y ∈ pc.1.set :=
  cover_whole (k0_pay1 (k0_pay6 (gVj c i xt2 fh1))) y

/-- What the run leaves in result window 4's staging buffer: its store read back over junk. -/
def out4 (c : Dev nD) (i : grid0.Coords)
    (xt0 : BufOf (F := F) c tbM0) (xt1 : BufOf (F := F) c tbM1) (xt2 : BufOf (F := F) c tbM2) (fh0 : BufOf (F := F) c hbM0) (fh1 : BufOf (F := F) c hbM1) : Vec F S128x1 .f32 :=
  VO.read (Elt F) (VO.writes (Elt F) VO.junk (runL c i xt0 xt1 xt2 fh0 fh1).2.2.2.2)

/-- That is the stored column itself: the row sums of the third gathered block's squares. -/
theorem out4_eq (c : Dev nD) (i : grid0.Coords)
    (xt0 : BufOf (F := F) c tbM0) (xt1 : BufOf (F := F) c tbM1) (xt2 : BufOf (F := F) c tbM2) (fh0 : BufOf (F := F) c hbM0) (fh1 : BufOf (F := F) c hbM1) :
    out4 c i xt0 xt1 xt2 fh0 fh1 = k0_pay1 (k0_pay6 (gVj c i xt2 fh1)) :=
  View.read_writes_whole (Val := Elt F) VO VO.junk (k0_pay1 (k0_pay6 (gVj c i xt2 fh1)))

/-- The certificate's precondition gives the tables' hypothesis: every entry of each index vector, read as a natural
    number, is below the row count of the table it indexes, so every word the body reads addresses a row. -/
theorem tblOk_of_pre [hP : Cert.Pre_finite_inputs.Facts]
    (h : ∀ c : Dev nD, Cert.Pre_finite_inputs.fn (F := F) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) = fun _ => 1#1) :
    TblOk m := by
  obtain ⟨hu, hi, hj⟩ := rows_of_fn (F := F) (0 : Dev nD) (m (((0 : Dev nD).tc : Thread nD τ).loc main_arg0)) (m (((0 : Dev nD).tc : Thread nD τ).loc main_arg1))
    (tbl m 0) (tbl m 1) (tbl m 2) (h 0)
  exact ⟨hu, hi, hj⟩

/-! ## The pipeline's proof data -/

/-- The proof data of the one pipeline on core `c`: the result arrays as the region finds them; after the body at point
    `t` each result window's buffer at what the run left; the invariant — the scratch buffers, the register, the own cells
    at zero, the data tables at their entry contents, and the index tables' halves —; nothing owed; full shares. -/
def dats (hT : TblOk m) (_ : Fin 1) (c : Dev nD) : Dat τ (Elt F) Unit ℕ (Pipeline.UD sig nD τ) ℕ (cfgM m) c where
  A w := V m c (Pipeline.arrRef spec0 w)
  after w t := match w with
    | ⟨0, _⟩ => out0 c (grid0.coords t) (tbl m 0) (tbl m 1) (tbl m 2) (V m c main_arg0) (V m c main_arg1)
    | ⟨1, _⟩ => out1 c (grid0.coords t) (tbl m 0) (tbl m 1) (tbl m 2) (V m c main_arg0) (V m c main_arg1)
    | ⟨2, _⟩ => out2 c (grid0.coords t) (tbl m 0) (tbl m 1) (tbl m 2) (V m c main_arg0) (V m c main_arg1)
    | ⟨3, _⟩ => out3 c (grid0.coords t) (tbl m 0) (tbl m 1) (tbl m 2) (V m c main_arg0) (V m c main_arg1)
    | ⟨4, _⟩ => out4 c (grid0.coords t) (tbl m 0) (tbl m 1) (tbl m 2) (V m c main_arg0) (V m c main_arg1)
  Φ _ := iprop(Pipeline.ΦD osem0 spec0 H0 (V m) c ∗ Pipeline.ΦT pre0 (tbl m) c)
  q _ := fullShare
  owed _ := 0

-- from here on everything is stated under the tables' hypothesis: the proof data is, and the body's run needs it at every point
variable (hT : TblOk m)
include hT

/-- The proof data's arrays are the region-entry contents. -/
theorem A_eq (c : Dev nD) (w : Fin (cfgM m).W) : (dats m hT 0 c).A w = V m c (Pipeline.arrRef spec0 w) := by
  dsimp only [dats]

/-- What the body leaves, window by window. -/
theorem after0 (c : Dev nD) (t : Fin (cfgM m).N) : (dats m hT 0 c).after 0 t = out0 c (grid0.coords t) (tbl m 0) (tbl m 1) (tbl m 2) (V m c main_arg0) (V m c main_arg1) := by dsimp only [dats]; try rfl
theorem after1 (c : Dev nD) (t : Fin (cfgM m).N) : (dats m hT 0 c).after 1 t = out1 c (grid0.coords t) (tbl m 0) (tbl m 1) (tbl m 2) (V m c main_arg0) (V m c main_arg1) := by dsimp only [dats]; try rfl
theorem after2 (c : Dev nD) (t : Fin (cfgM m).N) : (dats m hT 0 c).after 2 t = out2 c (grid0.coords t) (tbl m 0) (tbl m 1) (tbl m 2) (V m c main_arg0) (V m c main_arg1) := by dsimp only [dats]; try rfl
theorem after3 (c : Dev nD) (t : Fin (cfgM m).N) : (dats m hT 0 c).after 3 t = out3 c (grid0.coords t) (tbl m 0) (tbl m 1) (tbl m 2) (V m c main_arg0) (V m c main_arg1) := by dsimp only [dats]; try rfl
theorem after4 (c : Dev nD) (t : Fin (cfgM m).N) : (dats m hT 0 c).after 4 t = out4 c (grid0.coords t) (tbl m 0) (tbl m 1) (tbl m 2) (V m c main_arg0) (V m c main_arg1) := by dsimp only [dats]; try rfl

/-! ## The body obligation, at a generic point -/

/-- What the body is called with at point `t`, the windows one by one, -/
def bodyPre (c : Dev nD) (t : Fin (cfgM m).N) : sProp 𝕄 :=
  iprop((dats m hT 0 c).Φ t.castSucc ∗ (dats m hT 0 c).owesAt () t.castSucc
    ∗ (∃ d, owns (c : Thread nD τ) (ms0_0 m t) fullShare ((dats m hT 0 c).before 0 t d))
    ∗ (∃ d, owns (c : Thread nD τ) (ms0_1 m t) fullShare ((dats m hT 0 c).before 1 t d))
    ∗ (∃ d, owns (c : Thread nD τ) (ms0_2 m t) fullShare ((dats m hT 0 c).before 2 t d))
    ∗ (∃ d, owns (c : Thread nD τ) (ms0_3 m t) fullShare ((dats m hT 0 c).before 3 t d))
    ∗ (∃ d, owns (c : Thread nD τ) (ms0_4 m t) fullShare ((dats m hT 0 c).before 4 t d)))

/-- and what it returns. -/
def bodyPost (c : Dev nD) (t : Fin (cfgM m).N) : sProp 𝕄 :=
  iprop((dats m hT 0 c).Φ t.succ ∗ (dats m hT 0 c).owesAt () t.succ
    ∗ owns (c : Thread nD τ) (ms0_0 m t) fullShare ((dats m hT 0 c).after 0 t)
    ∗ owns (c : Thread nD τ) (ms0_1 m t) fullShare ((dats m hT 0 c).after 1 t)
    ∗ owns (c : Thread nD τ) (ms0_2 m t) fullShare ((dats m hT 0 c).after 2 t)
    ∗ owns (c : Thread nD τ) (ms0_3 m t) fullShare ((dats m hT 0 c).after 3 t)
    ∗ owns (c : Thread nD τ) (ms0_4 m t) fullShare ((dats m hT 0 c).after 4 t))

/-- The body at any point, run to any continuation that takes what it returns: whatever the result windows' buffers hold,
    the run applies; the invariant hands the body its scratch, the register, its cells at zero, the data tables and the index
    tables' halves, and takes them back as they were; the core's record of waits goes in at whatever the points before left
    and comes back with this point's waits. -/
theorem sound_body (c : Dev nD) (t : Fin (cfgM m).N) (K : PUnit → sProp 𝕄) :
    iprop(bodyPre m hT c t ∗ (bodyPost m hT c t -∗ K ⟨⟩))
      ⊢ wp frame (wpE (defs₀ (F := F)) Variants.none c none) Set.univ (bodyAt0 m t) K := by
  unfold bodyPre bodyPost bodyAt0
  rw [show (dats m hT 0 c).Φ t.succ = (dats m hT 0 c).Φ t.castSucc from rfl,
    after0, after1, after2, after3, after4]
  rw [show (dats m hT 0 c).Φ t.castSucc = iprop(Pipeline.ΦD osem0 spec0 H0 (V m) c ∗ Pipeline.ΦT pre0 (tbl m) c) from rfl, PhiD0_eq, PhiT0_eq]
  unfold Dat.owesAt Pipeline.owesWithin
  rw [show (dats m hT 0 c).owed t.castSucc = 0 from rfl, show (dats m hT 0 c).owed t.succ = 0 from rfl]
  unfold out0 out1 out2 out3 out4
  iintro ⟨⟨⟨⟨⟨HS0, HS1, HS2⟩, Hg, Hq, ⟨Hh0, Hh1⟩⟩, ⟨HT0, HT1, HT2⟩⟩, ⟨%W, -, HW⟩, ⟨%d0, H0⟩, ⟨%d1, H1⟩, ⟨%d2, H2⟩, ⟨%d3, H3⟩, ⟨%d4, H4⟩⟩, Hk⟩
  iapply (kernelRun_spec c (grid0.coords t) (ms0_0 m t) (hs0_0 m t) (ms0_1 m t) (hs0_1 m t) (ms0_2 m t) (hs0_2 m t) (ms0_3 m t) (hs0_3 m t) (ms0_4 m t) (hs0_4 m t) (tbl m 0) (tbl m 1) (tbl m 2) (V m c main_arg0) (V m c main_arg1) hT.u hT.i hT.j W K)
  isplitl [H0]; · iexists _; iexact H0
  isplitl [H1]; · iexists _; iexact H1
  isplitl [H2]; · iexists _; iexact H2
  isplitl [H3]; · iexists _; iexact H3
  isplitl [H4]; · iexists _; iexact H4
  isplitl [HS0]; · iexact HS0
  isplitl [HS1]; · iexact HS1
  isplitl [HS2]; · iexact HS2
  isplitl [Hq]; · iexact Hq
  isplitl [HT0]; · iexact HT0
  isplitl [HT1]; · iexact HT1
  isplitl [HT2]; · iexact HT2
  isplitl [Hh0]; · iexact Hh0
  isplitl [Hh1]; · iexact Hh1
  isplitl [HW]; · iexact HW
  iintro ⟨⟨%e0, H0⟩, ⟨%e1, H1⟩, ⟨%e2, H2⟩, ⟨%e3, H3⟩, ⟨%e4, H4⟩, HS0, HS1, HS2, Hq, HT0, HT1, HT2, Hh0, Hh1, ⟨%W', HW'⟩⟩
  iapply Hk
  isplitl [HS0 HS1 HS2 Hg Hq Hh0 Hh1 HT0 HT1 HT2]
  · isplitl [HS0 HS1 HS2 Hg Hq Hh0 Hh1]
    · isplitl [HS0 HS1 HS2]
      · isplitl [HS0]; · iexact HS0
        isplitl [HS1]; · iexact HS1
        iexact HS2
      isplitl [Hg]; · iexact Hg
      isplitl [Hq]; · iexact Hq
      isplitl [Hh0]; · iexact Hh0
      iexact Hh1
    isplitl [HT0]; · iexact HT0
    isplitl [HT1]; · iexact HT1
    iexact HT2
  isplitl [HW']
  · iexists W'; isplitr; · ipureintro; exact fun _ _ => Or.inl trivial
    iexact HW'
  isplitl [H0]
  · unfold owns; iexists _; isplitr
    swap; · iexact H0
    ipureintro; exact View.read_writes_of_cover _ _ _ _ _ (cover0 c _ _ _ _ _ _)
  isplitl [H1]
  · unfold owns; iexists _; isplitr
    swap; · iexact H1
    ipureintro; exact View.read_writes_of_cover _ _ _ _ _ (cover1 c _ _ _ _ _ _)
  isplitl [H2]
  · unfold owns; iexists _; isplitr
    swap; · iexact H2
    ipureintro; exact View.read_writes_of_cover _ _ _ _ _ (cover2 c _ _ _ _ _ _)
  isplitl [H3]
  · unfold owns; iexists _; isplitr
    swap; · iexact H3
    ipureintro; exact View.read_writes_of_cover _ _ _ _ _ (cover3 c _ _ _ _ _ _)
  unfold owns; iexists _; isplitr
  swap; · iexact H4
  ipureintro; exact View.read_writes_of_cover _ _ _ _ _ (cover4 c _ _ _ _ _ _)

omit hT in
/-- The body the pipeline calls at point `t` — its label's program on the point and the current staging slots — is the
    kernel body on the operands named above. -/
theorem bodyAt0_eq (t : Fin (cfgM m).N) :
    (defs₀ (F := F)) .tc (cfgM m).body ((cfgM m).bodyArgs t ((cfgM m).slots t)) = bodyAt0 m t := rfl

/-- The library's body obligation, at every point. -/
theorem body_obligation (c : Dev nD) : BodyObligation (dats (F := F) m hT 0 c) (defs₀ (F := F)) Variants.none () Set.univ := fun t => by
  rw [bigSep_W0, bigSep_W0, bodyAt0_eq]
  -- the windows' conjuncts are the stated ones case by case: no window is forgotten and no point is idle
  iintro H
  iapply (sound_body m hT c t _)
  isplitl [H]
  · unfold bodyPre; iexact H
  iintro H
  unfold bodyPost; iexact H

/-! ## The run -/

set_option backward.isDefEq.respectTransparency.types false in
/-- At the compiled mesh, for any values, from any memory with zero counters whose index tables address rows: every weakly
    fair execution of @main on the TensorCores terminates, and every final state has every result array of the pipeline at
    what the library computes from the proof data and every other unscoped buffer as the host stretches after the region
    leave it — the two data tables and the index tables as the region found them. -/
theorem run_main : θ_run defs (onTc (τ := τ) (main (F := F))) (s₀ m ρ)
    (Pipeline.FramePost (Pipeline.pin pcfgs fun _ => adm m) (dats m hT) 0
      (Pipeline.afterTail pcfgs (fun _ => adm m) (dats m hT) 0 (V0 m) [hostOps1, hostOps1_1, hostOps1_2])) :=
  Pipeline.θ_run_frameP_dma_around pcfgs (fun _ => adm m) (dats m hT) (0 : Fin 1) launch0 osem0 defs₀ Variants.none ownSemFacts0 H0 H0_sub m ρ main
    (hbody := fun c => (body_obligation m hT c).loose) (hshare := fun c => (dats m hT 0 c).share_full fun _ => rfl)
    (howed := fun _ _ => rfl) (V₀ := V0 m) (opss := [hostOps1, hostOps1_1, hostOps1_2]) (hsub := sfx_sub) (hfresh := sfx_fresh) (hkeep := sfx_keeps)
    (hmain := hmain m Variants.none) (hA := A_eq m hT) (hpf := V_pre m)
    (hin := fun _ => .rfl) (hout := fun c => by change iprop(_ ∗ _) ⊢ _; iintro ⟨H, -⟩; iexact H)

/-- THE FRAME: every weakly fair execution terminates, nothing faulting, and the five argument arrays end as they were —
    none of them is a result array, and no host stretch after the region writes one. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_arg0 (by decide : main_arg0 ∈ Pipeline.restRefs sig spec0)).trans (afterTail_arg0 m c (dats m hT)),
     ((h c).2 main_arg1 (by decide : main_arg1 ∈ Pipeline.restRefs sig spec0)).trans (afterTail_arg1 m c (dats m hT)),
     ((h c).2 main_arg2 (by decide : main_arg2 ∈ Pipeline.restRefs sig spec0)).trans (afterTail_arg2 m c (dats m hT)),
     ((h c).2 main_arg3 (by decide : main_arg3 ∈ Pipeline.restRefs sig spec0)).trans (afterTail_arg3 m c (dats m hT)),
     ((h c).2 main_arg4 (by decide : main_arg4 ∈ Pipeline.restRefs sig spec0)).trans (afterTail_arg4 m c (dats m hT))⟩)
    (run_main m ρ hT)

end Cert.KernelIdeal.Hand

end
-- ==== Proof.KICover.lean ====
/-
  From blocks to the array, for the five result windows.  Each has blocks of 128 rows over its array of 16384 rows and
  one column, block index `(t, 0)` at grid point `t` of 128, written back at every point.  So the element at
  `(y₀, 0)` of block `t` is the array's element `(128·t + y₀, 0)`; row `r` lies in block `r / 128`, so the blocks cover
  the array; hence, if after every point `t` the written-back block is block `t` of one whole-array function `G`, the
  array ends at `G`.  No block overhangs the array (16384 = 128·128), so what is written back is all of what the body left.
  Every fact is proved at any admissible contents of the index tables and read at the launch contents last.
-/
import proofs.«414929_j28089086116333_1_alg».proof.Proof.KIKit
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx

variable {F : FTy → Type} [FloatOps F]

/-! ## The grid and the rows of a block -/

/-- The grid has 128 points, at any contents of the index tables. -/
theorem N_at (a : (pcfg0 (F := F)).Adm) : (cfg0 a).N = 128 := N_0

/-- Row `y₀` of block `t` is a row of the array: `128·t + y₀ < 16384 = 128·128`. -/
theorem rowLt (a : (pcfg0 (F := F)).Adm) (t : Fin (cfg0 a).N) (y : S128x1.Idx) : 128 * t.val + (y 0).val < 16384 := by
  have ht : t.val < 128 := (N_at a) ▸ t.isLt
  have hy : (y 0).val < 128 := (y 0).isLt
  omega

/-! ## Result window 0 -/

/-- Its index map at point `t` is `(t, 0)`, decided over the grid. -/
theorem idx_rows0 : ∀ t : Fin grid0.N, cc0_transform_2 (grid0.coords t) (0 : Fin 2) = t.val ∧ cc0_transform_2 (grid0.coords t) (1 : Fin 2) = 0 := by
  decide +kernel
theorem index0_at (a : (pcfg0 (F := F)).Adm) (t : Fin (cfg0 a).N) :
    ((cfg0 a).win 0).index t (0 : Fin 2) = t.val ∧ ((cfg0 a).win 0).index t (1 : Fin 2) = 0 := idx_rows0 t

/-- The element at `y = (y₀, 0)` of block `t` is the array's element `(128·t + y₀, 0)`. -/
theorem blk_emb0_at (a : (pcfg0 (F := F)).Adm) (t : Fin (cfg0 a).N) (y : S128x1.Idx) :
    (((cfg0 a).win 0).blk t).view.emb y = ix2 ⟨128 * t.val + (y 0).val, rowLt a t y⟩ (0 : Fin 1) := by
  obtain ⟨e0, e1⟩ := index0_at a t
  funext d; apply Fin.ext
  match d with
  | ⟨0, _⟩ => show ((cfg0 a).win 0).index t (0 : Fin 2) * 128 + 1 * (y 0).val = 128 * t.val + (y 0).val; omega
  | ⟨1, _⟩ => show ((cfg0 a).win 0).index t (1 : Fin 2) * 1 + 1 * (y 1).val = 0; have hy : (y 1).val < 1 := (y 1).isLt; omega

/-- What block `t` of a whole-array function holds, at any contents of the tables. -/
theorem blk_read0_at (a : (pcfg0 (F := F)).Adm) (t : Fin (cfg0 a).N) (G : S16384x1.Idx → Elt F .f32) (y : S128x1.Idx) :
    (((cfg0 a).win 0).blk t).view.read (Elt F) G y = G (ix2 ⟨128 * t.val + (y 0).val, rowLt a t y⟩ (0 : Fin 1)) := by
  show G ((((cfg0 a).win 0).blk t).view.emb y) = _
  exact congrArg G (blk_emb0_at a t y)

/-- An index of the array is in block `t` iff its row is one of the block's 128. -/
theorem mem_blk0_at (a : (pcfg0 (F := F)).Adm) (t : Fin (cfg0 a).N) (i : S16384x1.Idx) :
    i ∈ (((cfg0 a).win 0).blk t).view.set ↔ 128 * t.val ≤ (i 0).val ∧ (i 0).val < 128 * t.val + 128 := by
  have hset : (((cfg0 a).win 0).blk t).view.set = (((cfg0 a).win 0).rect t).set :=
    View.set_slice_whole main_v0_0 (((cfg0 a).win 0).rect t)
  refine (Finset.ext_iff.mp hset i).trans (Rect.mem_set_unit.trans ?_)
  obtain ⟨e0, e1⟩ := index0_at a t
  have hi1 : (i 1).val < 1 := (i 1).isLt
  constructor
  · intro h
    have b0 : ((cfg0 a).win 0).index t (0 : Fin 2) * 128 ≤ (i 0).val ∧ (i 0).val < ((cfg0 a).win 0).index t (0 : Fin 2) * 128 + 128 := h (0 : Fin 2)
    omega
  · intro h d
    match d with
    | ⟨0, _⟩ => show ((cfg0 a).win 0).index t (0 : Fin 2) * 128 ≤ (i 0).val ∧ (i 0).val < ((cfg0 a).win 0).index t (0 : Fin 2) * 128 + 128; omega
    | ⟨1, _⟩ => show ((cfg0 a).win 0).index t (1 : Fin 2) * 1 ≤ (i 1).val ∧ (i 1).val < ((cfg0 a).win 0).index t (1 : Fin 2) * 1 + 1; omega

/-- The blocks cover the array: row `r` lies in block `r / 128`, which is written back. -/
theorem cover0_at (a : (pcfg0 (F := F)).Adm) (i : S16384x1.Idx) :
    ∃ t : Fin (cfg0 a).N, ((cfg0 a).win 0).flush t = true ∧ i ∈ (((cfg0 a).win 0).blk t).view.set := by
  have hi0 : (i 0).val < 16384 := (i 0).isLt
  refine ⟨⟨(i 0).val / 128, by rw [N_at a]; omega⟩, flush0_0_at a _, ?_⟩
  rw [mem_blk0_at]
  show 128 * ((i 0).val / 128) ≤ (i 0).val ∧ (i 0).val < 128 * ((i 0).val / 128) + 128
  omega

/-- If every point's written-back block is block `t` of one whole-array function `G`, the array ends at `G`. -/
theorem arrAt_of_flushed0_at (a : (pcfg0 (F := F)).Adm) (c : Dev nD) (dat : Dat τ (Elt F) Unit ℕ (Pipeline.UD sig nD τ) ℕ (cfg0 a) c)
    (G : S16384x1.Idx → Elt F .f32)
    (h : ∀ t : Fin (cfg0 a).N, dat.flushed 0 t = fun y : S128x1.Idx => G (ix2 ⟨128 * t.val + (y 0).val, rowLt a t y⟩ (0 : Fin 1))) :
    dat.arrAt 0 (cfg0 a).N = G :=
  dat.arrAt_eq_of_cover 0 G (fun t _ => (h t).trans (funext fun y => (blk_read0_at a t G y).symm)) (cover0_at a)

/-- No block overhangs the array, so what is written back is all of what the body left. -/
theorem flushed0_eq_at (a : (pcfg0 (F := F)).Adm) (c : Dev nD) (dat : Dat τ (Elt F) Unit ℕ (Pipeline.UD sig nD τ) ℕ (cfg0 a) c)
    (t : Fin (cfg0 a).N) : dat.flushed 0 t = dat.after 0 t := rfl

/-! ## Result window 1 -/

/-- Its index map at point `t` is `(t, 0)`, decided over the grid. -/
theorem idx_rows1 : ∀ t : Fin grid0.N, cc0_transform_3 (grid0.coords t) (0 : Fin 2) = t.val ∧ cc0_transform_3 (grid0.coords t) (1 : Fin 2) = 0 := by
  decide +kernel
theorem index1_at (a : (pcfg0 (F := F)).Adm) (t : Fin (cfg0 a).N) :
    ((cfg0 a).win 1).index t (0 : Fin 2) = t.val ∧ ((cfg0 a).win 1).index t (1 : Fin 2) = 0 := idx_rows1 t

/-- The element at `y = (y₀, 0)` of block `t` is the array's element `(128·t + y₀, 0)`. -/
theorem blk_emb1_at (a : (pcfg0 (F := F)).Adm) (t : Fin (cfg0 a).N) (y : S128x1.Idx) :
    (((cfg0 a).win 1).blk t).view.emb y = ix2 ⟨128 * t.val + (y 0).val, rowLt a t y⟩ (0 : Fin 1) := by
  obtain ⟨e0, e1⟩ := index1_at a t
  funext d; apply Fin.ext
  match d with
  | ⟨0, _⟩ => show ((cfg0 a).win 1).index t (0 : Fin 2) * 128 + 1 * (y 0).val = 128 * t.val + (y 0).val; omega
  | ⟨1, _⟩ => show ((cfg0 a).win 1).index t (1 : Fin 2) * 1 + 1 * (y 1).val = 0; have hy : (y 1).val < 1 := (y 1).isLt; omega

/-- What block `t` of a whole-array function holds, at any contents of the tables. -/
theorem blk_read1_at (a : (pcfg0 (F := F)).Adm) (t : Fin (cfg0 a).N) (G : S16384x1.Idx → Elt F .f32) (y : S128x1.Idx) :
    (((cfg0 a).win 1).blk t).view.read (Elt F) G y = G (ix2 ⟨128 * t.val + (y 0).val, rowLt a t y⟩ (0 : Fin 1)) := by
  show G ((((cfg0 a).win 1).blk t).view.emb y) = _
  exact congrArg G (blk_emb1_at a t y)

/-- An index of the array is in block `t` iff its row is one of the block's 128. -/
theorem mem_blk1_at (a : (pcfg0 (F := F)).Adm) (t : Fin (cfg0 a).N) (i : S16384x1.Idx) :
    i ∈ (((cfg0 a).win 1).blk t).view.set ↔ 128 * t.val ≤ (i 0).val ∧ (i 0).val < 128 * t.val + 128 := by
  have hset : (((cfg0 a).win 1).blk t).view.set = (((cfg0 a).win 1).rect t).set :=
    View.set_slice_whole main_v0_1 (((cfg0 a).win 1).rect t)
  refine (Finset.ext_iff.mp hset i).trans (Rect.mem_set_unit.trans ?_)
  obtain ⟨e0, e1⟩ := index1_at a t
  have hi1 : (i 1).val < 1 := (i 1).isLt
  constructor
  · intro h
    have b0 : ((cfg0 a).win 1).index t (0 : Fin 2) * 128 ≤ (i 0).val ∧ (i 0).val < ((cfg0 a).win 1).index t (0 : Fin 2) * 128 + 128 := h (0 : Fin 2)
    omega
  · intro h d
    match d with
    | ⟨0, _⟩ => show ((cfg0 a).win 1).index t (0 : Fin 2) * 128 ≤ (i 0).val ∧ (i 0).val < ((cfg0 a).win 1).index t (0 : Fin 2) * 128 + 128; omega
    | ⟨1, _⟩ => show ((cfg0 a).win 1).index t (1 : Fin 2) * 1 ≤ (i 1).val ∧ (i 1).val < ((cfg0 a).win 1).index t (1 : Fin 2) * 1 + 1; omega

/-- The blocks cover the array: row `r` lies in block `r / 128`, which is written back. -/
theorem cover1_at (a : (pcfg0 (F := F)).Adm) (i : S16384x1.Idx) :
    ∃ t : Fin (cfg0 a).N, ((cfg0 a).win 1).flush t = true ∧ i ∈ (((cfg0 a).win 1).blk t).view.set := by
  have hi0 : (i 0).val < 16384 := (i 0).isLt
  refine ⟨⟨(i 0).val / 128, by rw [N_at a]; omega⟩, flush0_1_at a _, ?_⟩
  rw [mem_blk1_at]
  show 128 * ((i 0).val / 128) ≤ (i 0).val ∧ (i 0).val < 128 * ((i 0).val / 128) + 128
  omega

/-- If every point's written-back block is block `t` of one whole-array function `G`, the array ends at `G`. -/
theorem arrAt_of_flushed1_at (a : (pcfg0 (F := F)).Adm) (c : Dev nD) (dat : Dat τ (Elt F) Unit ℕ (Pipeline.UD sig nD τ) ℕ (cfg0 a) c)
    (G : S16384x1.Idx → Elt F .f32)
    (h : ∀ t : Fin (cfg0 a).N, dat.flushed 1 t = fun y : S128x1.Idx => G (ix2 ⟨128 * t.val + (y 0).val, rowLt a t y⟩ (0 : Fin 1))) :
    dat.arrAt 1 (cfg0 a).N = G :=
  dat.arrAt_eq_of_cover 1 G (fun t _ => (h t).trans (funext fun y => (blk_read1_at a t G y).symm)) (cover1_at a)

/-- No block overhangs the array, so what is written back is all of what the body left. -/
theorem flushed1_eq_at (a : (pcfg0 (F := F)).Adm) (c : Dev nD) (dat : Dat τ (Elt F) Unit ℕ (Pipeline.UD sig nD τ) ℕ (cfg0 a) c)
    (t : Fin (cfg0 a).N) : dat.flushed 1 t = dat.after 1 t := rfl

/-! ## Result window 2 -/

/-- Its index map at point `t` is `(t, 0)`, decided over the grid. -/
theorem idx_rows2 : ∀ t : Fin grid0.N, cc0_transform_4 (grid0.coords t) (0 : Fin 2) = t.val ∧ cc0_transform_4 (grid0.coords t) (1 : Fin 2) = 0 := by
  decide +kernel
theorem index2_at (a : (pcfg0 (F := F)).Adm) (t : Fin (cfg0 a).N) :
    ((cfg0 a).win 2).index t (0 : Fin 2) = t.val ∧ ((cfg0 a).win 2).index t (1 : Fin 2) = 0 := idx_rows2 t

/-- The element at `y = (y₀, 0)` of block `t` is the array's element `(128·t + y₀, 0)`. -/
theorem blk_emb2_at (a : (pcfg0 (F := F)).Adm) (t : Fin (cfg0 a).N) (y : S128x1.Idx) :
    (((cfg0 a).win 2).blk t).view.emb y = ix2 ⟨128 * t.val + (y 0).val, rowLt a t y⟩ (0 : Fin 1) := by
  obtain ⟨e0, e1⟩ := index2_at a t
  funext d; apply Fin.ext
  match d with
  | ⟨0, _⟩ => show ((cfg0 a).win 2).index t (0 : Fin 2) * 128 + 1 * (y 0).val = 128 * t.val + (y 0).val; omega
  | ⟨1, _⟩ => show ((cfg0 a).win 2).index t (1 : Fin 2) * 1 + 1 * (y 1).val = 0; have hy : (y 1).val < 1 := (y 1).isLt; omega

/-- What block `t` of a whole-array function holds, at any contents of the tables. -/
theorem blk_read2_at (a : (pcfg0 (F := F)).Adm) (t : Fin (cfg0 a).N) (G : S16384x1.Idx → Elt F .f32) (y : S128x1.Idx) :
    (((cfg0 a).win 2).blk t).view.read (Elt F) G y = G (ix2 ⟨128 * t.val + (y 0).val, rowLt a t y⟩ (0 : Fin 1)) := by
  show G ((((cfg0 a).win 2).blk t).view.emb y) = _
  exact congrArg G (blk_emb2_at a t y)

/-- An index of the array is in block `t` iff its row is one of the block's 128. -/
theorem mem_blk2_at (a : (pcfg0 (F := F)).Adm) (t : Fin (cfg0 a).N) (i : S16384x1.Idx) :
    i ∈ (((cfg0 a).win 2).blk t).view.set ↔ 128 * t.val ≤ (i 0).val ∧ (i 0).val < 128 * t.val + 128 := by
  have hset : (((cfg0 a).win 2).blk t).view.set = (((cfg0 a).win 2).rect t).set :=
    View.set_slice_whole main_v0_2 (((cfg0 a).win 2).rect t)
  refine (Finset.ext_iff.mp hset i).trans (Rect.mem_set_unit.trans ?_)
  obtain ⟨e0, e1⟩ := index2_at a t
  have hi1 : (i 1).val < 1 := (i 1).isLt
  constructor
  · intro h
    have b0 : ((cfg0 a).win 2).index t (0 : Fin 2) * 128 ≤ (i 0).val ∧ (i 0).val < ((cfg0 a).win 2).index t (0 : Fin 2) * 128 + 128 := h (0 : Fin 2)
    omega
  · intro h d
    match d with
    | ⟨0, _⟩ => show ((cfg0 a).win 2).index t (0 : Fin 2) * 128 ≤ (i 0).val ∧ (i 0).val < ((cfg0 a).win 2).index t (0 : Fin 2) * 128 + 128; omega
    | ⟨1, _⟩ => show ((cfg0 a).win 2).index t (1 : Fin 2) * 1 ≤ (i 1).val ∧ (i 1).val < ((cfg0 a).win 2).index t (1 : Fin 2) * 1 + 1; omega

/-- The blocks cover the array: row `r` lies in block `r / 128`, which is written back. -/
theorem cover2_at (a : (pcfg0 (F := F)).Adm) (i : S16384x1.Idx) :
    ∃ t : Fin (cfg0 a).N, ((cfg0 a).win 2).flush t = true ∧ i ∈ (((cfg0 a).win 2).blk t).view.set := by
  have hi0 : (i 0).val < 16384 := (i 0).isLt
  refine ⟨⟨(i 0).val / 128, by rw [N_at a]; omega⟩, flush0_2_at a _, ?_⟩
  rw [mem_blk2_at]
  show 128 * ((i 0).val / 128) ≤ (i 0).val ∧ (i 0).val < 128 * ((i 0).val / 128) + 128
  omega

/-- If every point's written-back block is block `t` of one whole-array function `G`, the array ends at `G`. -/
theorem arrAt_of_flushed2_at (a : (pcfg0 (F := F)).Adm) (c : Dev nD) (dat : Dat τ (Elt F) Unit ℕ (Pipeline.UD sig nD τ) ℕ (cfg0 a) c)
    (G : S16384x1.Idx → Elt F .f32)
    (h : ∀ t : Fin (cfg0 a).N, dat.flushed 2 t = fun y : S128x1.Idx => G (ix2 ⟨128 * t.val + (y 0).val, rowLt a t y⟩ (0 : Fin 1))) :
    dat.arrAt 2 (cfg0 a).N = G :=
  dat.arrAt_eq_of_cover 2 G (fun t _ => (h t).trans (funext fun y => (blk_read2_at a t G y).symm)) (cover2_at a)

/-- No block overhangs the array, so what is written back is all of what the body left. -/
theorem flushed2_eq_at (a : (pcfg0 (F := F)).Adm) (c : Dev nD) (dat : Dat τ (Elt F) Unit ℕ (Pipeline.UD sig nD τ) ℕ (cfg0 a) c)
    (t : Fin (cfg0 a).N) : dat.flushed 2 t = dat.after 2 t := rfl

/-! ## Result window 3 -/

/-- Its index map at point `t` is `(t, 0)`, decided over the grid. -/
theorem idx_rows3 : ∀ t : Fin grid0.N, cc0_transform_5 (grid0.coords t) (0 : Fin 2) = t.val ∧ cc0_transform_5 (grid0.coords t) (1 : Fin 2) = 0 := by
  decide +kernel
theorem index3_at (a : (pcfg0 (F := F)).Adm) (t : Fin (cfg0 a).N) :
    ((cfg0 a).win 3).index t (0 : Fin 2) = t.val ∧ ((cfg0 a).win 3).index t (1 : Fin 2) = 0 := idx_rows3 t

/-- The element at `y = (y₀, 0)` of block `t` is the array's element `(128·t + y₀, 0)`. -/
theorem blk_emb3_at (a : (pcfg0 (F := F)).Adm) (t : Fin (cfg0 a).N) (y : S128x1.Idx) :
    (((cfg0 a).win 3).blk t).view.emb y = ix2 ⟨128 * t.val + (y 0).val, rowLt a t y⟩ (0 : Fin 1) := by
  obtain ⟨e0, e1⟩ := index3_at a t
  funext d; apply Fin.ext
  match d with
  | ⟨0, _⟩ => show ((cfg0 a).win 3).index t (0 : Fin 2) * 128 + 1 * (y 0).val = 128 * t.val + (y 0).val; omega
  | ⟨1, _⟩ => show ((cfg0 a).win 3).index t (1 : Fin 2) * 1 + 1 * (y 1).val = 0; have hy : (y 1).val < 1 := (y 1).isLt; omega

/-- What block `t` of a whole-array function holds, at any contents of the tables. -/
theorem blk_read3_at (a : (pcfg0 (F := F)).Adm) (t : Fin (cfg0 a).N) (G : S16384x1.Idx → Elt F .f32) (y : S128x1.Idx) :
    (((cfg0 a).win 3).blk t).view.read (Elt F) G y = G (ix2 ⟨128 * t.val + (y 0).val, rowLt a t y⟩ (0 : Fin 1)) := by
  show G ((((cfg0 a).win 3).blk t).view.emb y) = _
  exact congrArg G (blk_emb3_at a t y)

/-- An index of the array is in block `t` iff its row is one of the block's 128. -/
theorem mem_blk3_at (a : (pcfg0 (F := F)).Adm) (t : Fin (cfg0 a).N) (i : S16384x1.Idx) :
    i ∈ (((cfg0 a).win 3).blk t).view.set ↔ 128 * t.val ≤ (i 0).val ∧ (i 0).val < 128 * t.val + 128 := by
  have hset : (((cfg0 a).win 3).blk t).view.set = (((cfg0 a).win 3).rect t).set :=
    View.set_slice_whole main_v0_3 (((cfg0 a).win 3).rect t)
  refine (Finset.ext_iff.mp hset i).trans (Rect.mem_set_unit.trans ?_)
  obtain ⟨e0, e1⟩ := index3_at a t
  have hi1 : (i 1).val < 1 := (i 1).isLt
  constructor
  · intro h
    have b0 : ((cfg0 a).win 3).index t (0 : Fin 2) * 128 ≤ (i 0).val ∧ (i 0).val < ((cfg0 a).win 3).index t (0 : Fin 2) * 128 + 128 := h (0 : Fin 2)
    omega
  · intro h d
    match d with
    | ⟨0, _⟩ => show ((cfg0 a).win 3).index t (0 : Fin 2) * 128 ≤ (i 0).val ∧ (i 0).val < ((cfg0 a).win 3).index t (0 : Fin 2) * 128 + 128; omega
    | ⟨1, _⟩ => show ((cfg0 a).win 3).index t (1 : Fin 2) * 1 ≤ (i 1).val ∧ (i 1).val < ((cfg0 a).win 3).index t (1 : Fin 2) * 1 + 1; omega

/-- The blocks cover the array: row `r` lies in block `r / 128`, which is written back. -/
theorem cover3_at (a : (pcfg0 (F := F)).Adm) (i : S16384x1.Idx) :
    ∃ t : Fin (cfg0 a).N, ((cfg0 a).win 3).flush t = true ∧ i ∈ (((cfg0 a).win 3).blk t).view.set := by
  have hi0 : (i 0).val < 16384 := (i 0).isLt
  refine ⟨⟨(i 0).val / 128, by rw [N_at a]; omega⟩, flush0_3_at a _, ?_⟩
  rw [mem_blk3_at]
  show 128 * ((i 0).val / 128) ≤ (i 0).val ∧ (i 0).val < 128 * ((i 0).val / 128) + 128
  omega

/-- If every point's written-back block is block `t` of one whole-array function `G`, the array ends at `G`. -/
theorem arrAt_of_flushed3_at (a : (pcfg0 (F := F)).Adm) (c : Dev nD) (dat : Dat τ (Elt F) Unit ℕ (Pipeline.UD sig nD τ) ℕ (cfg0 a) c)
    (G : S16384x1.Idx → Elt F .f32)
    (h : ∀ t : Fin (cfg0 a).N, dat.flushed 3 t = fun y : S128x1.Idx => G (ix2 ⟨128 * t.val + (y 0).val, rowLt a t y⟩ (0 : Fin 1))) :
    dat.arrAt 3 (cfg0 a).N = G :=
  dat.arrAt_eq_of_cover 3 G (fun t _ => (h t).trans (funext fun y => (blk_read3_at a t G y).symm)) (cover3_at a)

/-- No block overhangs the array, so what is written back is all of what the body left. -/
theorem flushed3_eq_at (a : (pcfg0 (F := F)).Adm) (c : Dev nD) (dat : Dat τ (Elt F) Unit ℕ (Pipeline.UD sig nD τ) ℕ (cfg0 a) c)
    (t : Fin (cfg0 a).N) : dat.flushed 3 t = dat.after 3 t := rfl

/-! ## Result window 4 -/

/-- Its index map at point `t` is `(t, 0)`, decided over the grid. -/
theorem idx_rows4 : ∀ t : Fin grid0.N, cc0_transform_6 (grid0.coords t) (0 : Fin 2) = t.val ∧ cc0_transform_6 (grid0.coords t) (1 : Fin 2) = 0 := by
  decide +kernel
theorem index4_at (a : (pcfg0 (F := F)).Adm) (t : Fin (cfg0 a).N) :
    ((cfg0 a).win 4).index t (0 : Fin 2) = t.val ∧ ((cfg0 a).win 4).index t (1 : Fin 2) = 0 := idx_rows4 t

/-- The element at `y = (y₀, 0)` of block `t` is the array's element `(128·t + y₀, 0)`. -/
theorem blk_emb4_at (a : (pcfg0 (F := F)).Adm) (t : Fin (cfg0 a).N) (y : S128x1.Idx) :
    (((cfg0 a).win 4).blk t).view.emb y = ix2 ⟨128 * t.val + (y 0).val, rowLt a t y⟩ (0 : Fin 1) := by
  obtain ⟨e0, e1⟩ := index4_at a t
  funext d; apply Fin.ext
  match d with
  | ⟨0, _⟩ => show ((cfg0 a).win 4).index t (0 : Fin 2) * 128 + 1 * (y 0).val = 128 * t.val + (y 0).val; omega
  | ⟨1, _⟩ => show ((cfg0 a).win 4).index t (1 : Fin 2) * 1 + 1 * (y 1).val = 0; have hy : (y 1).val < 1 := (y 1).isLt; omega

/-- What block `t` of a whole-array function holds, at any contents of the tables. -/
theorem blk_read4_at (a : (pcfg0 (F := F)).Adm) (t : Fin (cfg0 a).N) (G : S16384x1.Idx → Elt F .f32) (y : S128x1.Idx) :
    (((cfg0 a).win 4).blk t).view.read (Elt F) G y = G (ix2 ⟨128 * t.val + (y 0).val, rowLt a t y⟩ (0 : Fin 1)) := by
  show G ((((cfg0 a).win 4).blk t).view.emb y) = _
  exact congrArg G (blk_emb4_at a t y)

/-- An index of the array is in block `t` iff its row is one of the block's 128. -/
theorem mem_blk4_at (a : (pcfg0 (F := F)).Adm) (t : Fin (cfg0 a).N) (i : S16384x1.Idx) :
    i ∈ (((cfg0 a).win 4).blk t).view.set ↔ 128 * t.val ≤ (i 0).val ∧ (i 0).val < 128 * t.val + 128 := by
  have hset : (((cfg0 a).win 4).blk t).view.set = (((cfg0 a).win 4).rect t).set :=
    View.set_slice_whole main_v0_4 (((cfg0 a).win 4).rect t)
  refine (Finset.ext_iff.mp hset i).trans (Rect.mem_set_unit.trans ?_)
  obtain ⟨e0, e1⟩ := index4_at a t
  have hi1 : (i 1).val < 1 := (i 1).isLt
  constructor
  · intro h
    have b0 : ((cfg0 a).win 4).index t (0 : Fin 2) * 128 ≤ (i 0).val ∧ (i 0).val < ((cfg0 a).win 4).index t (0 : Fin 2) * 128 + 128 := h (0 : Fin 2)
    omega
  · intro h d
    match d with
    | ⟨0, _⟩ => show ((cfg0 a).win 4).index t (0 : Fin 2) * 128 ≤ (i 0).val ∧ (i 0).val < ((cfg0 a).win 4).index t (0 : Fin 2) * 128 + 128; omega
    | ⟨1, _⟩ => show ((cfg0 a).win 4).index t (1 : Fin 2) * 1 ≤ (i 1).val ∧ (i 1).val < ((cfg0 a).win 4).index t (1 : Fin 2) * 1 + 1; omega

/-- The blocks cover the array: row `r` lies in block `r / 128`, which is written back. -/
theorem cover4_at (a : (pcfg0 (F := F)).Adm) (i : S16384x1.Idx) :
    ∃ t : Fin (cfg0 a).N, ((cfg0 a).win 4).flush t = true ∧ i ∈ (((cfg0 a).win 4).blk t).view.set := by
  have hi0 : (i 0).val < 16384 := (i 0).isLt
  refine ⟨⟨(i 0).val / 128, by rw [N_at a]; omega⟩, flush0_4_at a _, ?_⟩
  rw [mem_blk4_at]
  show 128 * ((i 0).val / 128) ≤ (i 0).val ∧ (i 0).val < 128 * ((i 0).val / 128) + 128
  omega

/-- If every point's written-back block is block `t` of one whole-array function `G`, the array ends at `G`. -/
theorem arrAt_of_flushed4_at (a : (pcfg0 (F := F)).Adm) (c : Dev nD) (dat : Dat τ (Elt F) Unit ℕ (Pipeline.UD sig nD τ) ℕ (cfg0 a) c)
    (G : S16384x1.Idx → Elt F .f32)
    (h : ∀ t : Fin (cfg0 a).N, dat.flushed 4 t = fun y : S128x1.Idx => G (ix2 ⟨128 * t.val + (y 0).val, rowLt a t y⟩ (0 : Fin 1))) :
    dat.arrAt 4 (cfg0 a).N = G :=
  dat.arrAt_eq_of_cover 4 G (fun t _ => (h t).trans (funext fun y => (blk_read4_at a t G y).symm)) (cover4_at a)

/-- No block overhangs the array, so what is written back is all of what the body left. -/
theorem flushed4_eq_at (a : (pcfg0 (F := F)).Adm) (c : Dev nD) (dat : Dat τ (Elt F) Unit ℕ (Pipeline.UD sig nD τ) ℕ (cfg0 a) c)
    (t : Fin (cfg0 a).N) : dat.flushed 4 t = dat.after 4 t := rfl

/-! ## At the launch contents of the index tables -/

variable (m : (ℓ : Loc nD τ sig) → Buf (Elt F) ℓ)

theorem blk_read0 (t : Fin (cfgM m).N) (G : S16384x1.Idx → Elt F .f32) (y : S128x1.Idx) :
    (((cfgM m).win 0).blk t).view.read (Elt F) G y = G (ix2 ⟨128 * t.val + (y 0).val, rowLt (adm m) t y⟩ (0 : Fin 1)) :=
  blk_read0_at (adm m) t G y
theorem arrAt_of_flushed0 (c : Dev nD) (dat : Dat τ (Elt F) Unit ℕ (Pipeline.UD sig nD τ) ℕ (cfgM m) c) (G : S16384x1.Idx → Elt F .f32)
    (h : ∀ t : Fin (cfgM m).N, dat.flushed 0 t = fun y : S128x1.Idx => G (ix2 ⟨128 * t.val + (y 0).val, rowLt (adm m) t y⟩ (0 : Fin 1))) :
    dat.arrAt 0 (cfgM m).N = G :=
  arrAt_of_flushed0_at (adm m) c dat G h
theorem flushed0_eq (c : Dev nD) (dat : Dat τ (Elt F) Unit ℕ (Pipeline.UD sig nD τ) ℕ (cfgM m) c) (t : Fin (cfgM m).N) :
    dat.flushed 0 t = dat.after 0 t :=
  flushed0_eq_at (adm m) c dat t

theorem blk_read1 (t : Fin (cfgM m).N) (G : S16384x1.Idx → Elt F .f32) (y : S128x1.Idx) :
    (((cfgM m).win 1).blk t).view.read (Elt F) G y = G (ix2 ⟨128 * t.val + (y 0).val, rowLt (adm m) t y⟩ (0 : Fin 1)) :=
  blk_read1_at (adm m) t G y
theorem arrAt_of_flushed1 (c : Dev nD) (dat : Dat τ (Elt F) Unit ℕ (Pipeline.UD sig nD τ) ℕ (cfgM m) c) (G : S16384x1.Idx → Elt F .f32)
    (h : ∀ t : Fin (cfgM m).N, dat.flushed 1 t = fun y : S128x1.Idx => G (ix2 ⟨128 * t.val + (y 0).val, rowLt (adm m) t y⟩ (0 : Fin 1))) :
    dat.arrAt 1 (cfgM m).N = G :=
  arrAt_of_flushed1_at (adm m) c dat G h
theorem flushed1_eq (c : Dev nD) (dat : Dat τ (Elt F) Unit ℕ (Pipeline.UD sig nD τ) ℕ (cfgM m) c) (t : Fin (cfgM m).N) :
    dat.flushed 1 t = dat.after 1 t :=
  flushed1_eq_at (adm m) c dat t

theorem blk_read2 (t : Fin (cfgM m).N) (G : S16384x1.Idx → Elt F .f32) (y : S128x1.Idx) :
    (((cfgM m).win 2).blk t).view.read (Elt F) G y = G (ix2 ⟨128 * t.val + (y 0).val, rowLt (adm m) t y⟩ (0 : Fin 1)) :=
  blk_read2_at (adm m) t G y
theorem arrAt_of_flushed2 (c : Dev nD) (dat : Dat τ (Elt F) Unit ℕ (Pipeline.UD sig nD τ) ℕ (cfgM m) c) (G : S16384x1.Idx → Elt F .f32)
    (h : ∀ t : Fin (cfgM m).N, dat.flushed 2 t = fun y : S128x1.Idx => G (ix2 ⟨128 * t.val + (y 0).val, rowLt (adm m) t y⟩ (0 : Fin 1))) :
    dat.arrAt 2 (cfgM m).N = G :=
  arrAt_of_flushed2_at (adm m) c dat G h
theorem flushed2_eq (c : Dev nD) (dat : Dat τ (Elt F) Unit ℕ (Pipeline.UD sig nD τ) ℕ (cfgM m) c) (t : Fin (cfgM m).N) :
    dat.flushed 2 t = dat.after 2 t :=
  flushed2_eq_at (adm m) c dat t

theorem blk_read3 (t : Fin (cfgM m).N) (G : S16384x1.Idx → Elt F .f32) (y : S128x1.Idx) :
    (((cfgM m).win 3).blk t).view.read (Elt F) G y = G (ix2 ⟨128 * t.val + (y 0).val, rowLt (adm m) t y⟩ (0 : Fin 1)) :=
  blk_read3_at (adm m) t G y
theorem arrAt_of_flushed3 (c : Dev nD) (dat : Dat τ (Elt F) Unit ℕ (Pipeline.UD sig nD τ) ℕ (cfgM m) c) (G : S16384x1.Idx → Elt F .f32)
    (h : ∀ t : Fin (cfgM m).N, dat.flushed 3 t = fun y : S128x1.Idx => G (ix2 ⟨128 * t.val + (y 0).val, rowLt (adm m) t y⟩ (0 : Fin 1))) :
    dat.arrAt 3 (cfgM m).N = G :=
  arrAt_of_flushed3_at (adm m) c dat G h
theorem flushed3_eq (c : Dev nD) (dat : Dat τ (Elt F) Unit ℕ (Pipeline.UD sig nD τ) ℕ (cfgM m) c) (t : Fin (cfgM m).N) :
    dat.flushed 3 t = dat.after 3 t :=
  flushed3_eq_at (adm m) c dat t

theorem blk_read4 (t : Fin (cfgM m).N) (G : S16384x1.Idx → Elt F .f32) (y : S128x1.Idx) :
    (((cfgM m).win 4).blk t).view.read (Elt F) G y = G (ix2 ⟨128 * t.val + (y 0).val, rowLt (adm m) t y⟩ (0 : Fin 1)) :=
  blk_read4_at (adm m) t G y
theorem arrAt_of_flushed4 (c : Dev nD) (dat : Dat τ (Elt F) Unit ℕ (Pipeline.UD sig nD τ) ℕ (cfgM m) c) (G : S16384x1.Idx → Elt F .f32)
    (h : ∀ t : Fin (cfgM m).N, dat.flushed 4 t = fun y : S128x1.Idx => G (ix2 ⟨128 * t.val + (y 0).val, rowLt (adm m) t y⟩ (0 : Fin 1))) :
    dat.arrAt 4 (cfgM m).N = G :=
  arrAt_of_flushed4_at (adm m) c dat G h
theorem flushed4_eq (c : Dev nD) (dat : Dat τ (Elt F) Unit ℕ (Pipeline.UD sig nD τ) ℕ (cfgM m) c) (t : Fin (cfgM m).N) :
    dat.flushed 4 t = dat.after 4 t :=
  flushed4_eq_at (adm m) c dat t

end Cert.KernelIdeal.Hand

end
-- ==== Proof.KIPay.lean ====
/-
  The kernel's arithmetic at an index, at the ideal instance (floats are extended reals).

  At one grid point the kernel's body holds three 128 × 64 blocks and stores five 128 × 1 columns.  Each column is
  the lane sum, over the 64 columns of a block-sized entrywise product, into a zero accumulator, then laid out as a
  column: at row `r` it is `∑ f, a[r, f] · b[r, f]`.

    * a lane sum over axis 1 of a 128 × 64 array, read at `r`, is the sum over `f : Fin 64` of the array at `(r, f)`:
      the source index over `r` with `f` inserted on the summed axis is `(r, f)`;
    * a vector laid out as a column, and a column read back as a vector, keep row-major positions:
      `r · 1 + 0 = r`.

  Then the host side of the kernel's program: each 16384 × 1 result array is read back as a vector (position `g` of
  the vector is entry `(g, 0)` of the column), and a host sum of a vector over its one axis from zero is the sum of
  its entries.
-/
import proofs.«414929_j28089086116333_1_alg».proof.Proof.Gen.KernelIdeal.Skeleton
import Idealize.ShloMosaic.Lib.ValueIdx
import Idealize.ShloMosaic.Lib.Pipeline.Value
import Idealize.ShloMosaic.PureOps.Ideal.Laws

noncomputable section

open scoped BigOperators

namespace Cert.KIPay

open Idealize.ShloMosaic Idealize.ShloMosaic.ValueIdx Cert.KernelIdeal Cert.KernelIdeal.Gen

/-! ## A vector as a column, a column as a vector; a sum over a vector's index -/

section Layout
variable {α : Type}

/-- An `[a]` array cast to `[a, 1]` reads, at `(i, u)`, the operand at `i`, whatever the unit coordinate `u`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- An `[a, 1]` array cast to `[a]` reads, at `i`, the operand at `(i, 0)`. -/
theorem shapeCast_a1_a_apply {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- A rank-1 index is its one coordinate … -/
def idxEquiv1 {n : Nat} : (⟨1, ![n]⟩ : Shape).Idx ≃ Fin n where
  toFun i := i 0
  invFun p := ix1 p
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

end Layout

/-! ## The lane sum -/

/-- A lane sum over the 64 columns of a 128 × 64 array into a zero accumulator, read at row `r`. -/
theorem lane_sum (v : FVec Ideal S128x64 .f32) (hφ : FKind.Formats .f32)
    (hacc : (0x00000000#32 : BitVec 32) = FKind.add.neutral .f32 hφ) (r : Fin 128) :
    multiReduction (F := Ideal) .add [1] S128 v 0x00000000#32 reduces_S128x64_S128 hφ hacc (ix1 r)
      = ∑ f : Fin 64, v (ix2 r f) := by
  refine (Ideal.multiReduction_add_single v 0x00000000#32 reduces_S128x64_S128 hφ hacc (ix1 r)).trans ?_
  refine Finset.sum_congr rfl fun k _ => ?_
  have hl : reduces_S128x64_S128.lift (ix1 r) k = ix2 r k := by
    funext c
    refine Fin.ext ?_
    rw [Shape.Reduces.lift_val]
    match c with
    | ⟨0, _⟩ => rfl
    | ⟨1, _⟩ => rfl
  rw [hl]
  rfl

/-- The lane sum of an entrywise product, laid out as a column, read at row `r`. -/
theorem col_of_products (a b : FVec Ideal S128x64 .f32) (hφ : FKind.Formats .f32)
    (hacc : (0x00000000#32 : BitVec 32) = FKind.add.neutral .f32 hφ) (r : Fin 128) :
    shapeCast S128x1 (multiReduction (F := Ideal) .add [1] S128 (mulf a b) 0x00000000#32 reduces_S128x64_S128 hφ hacc)
        shapeCasts_S128_S128x1 (ix2 r (0 : Fin 1))
      = ∑ f : Fin 64, a (ix2 r f) * b (ix2 r f) := by
  refine (shapeCast_a_a1_apply _ shapeCasts_S128_S128x1 r 0).trans ?_
  refine (lane_sum _ hφ hacc r).trans ?_
  rfl

/-! ## The five stored columns -/

theorem pay2_apply (x y : Vec Ideal S128x64 .f32) (r : Fin 128) :
    k0_pay2 (F := Ideal) x y (ix2 r (0 : Fin 1)) = ∑ f : Fin 64, x (ix2 r f) * y (ix2 r f) := by
  unfold k0_pay2
  exact col_of_products x y _ _ r

theorem pay3_apply (x z : Vec Ideal S128x64 .f32) (r : Fin 128) :
    k0_pay3 (F := Ideal) x z (ix2 r (0 : Fin 1)) = ∑ f : Fin 64, x (ix2 r f) * z (ix2 r f) := by
  unfold k0_pay3
  exact col_of_products x z _ _ r

theorem pay4_apply (x : Vec Ideal S128x64 .f32) (r : Fin 128) :
    k0_pay4 (F := Ideal) x (ix2 r (0 : Fin 1)) = ∑ f : Fin 64, x (ix2 r f) * x (ix2 r f) := by
  unfold k0_pay4
  exact col_of_products x x _ _ r

theorem pay5_apply (y : Vec Ideal S128x64 .f32) (r : Fin 128) :
    k0_pay5 (F := Ideal) y (ix2 r (0 : Fin 1)) = ∑ f : Fin 64, y (ix2 r f) * y (ix2 r f) := by
  unfold k0_pay5
  exact col_of_products y y _ _ r

theorem pay16_apply (z : Vec Ideal S128x64 .f32) (r : Fin 128) :
    k0_pay1 (F := Ideal) (k0_pay6 (F := Ideal) z) (ix2 r (0 : Fin 1)) = ∑ f : Fin 64, z (ix2 r f) * z (ix2 r f) := by
  unfold k0_pay1 k0_pay6
  exact col_of_products z z _ _ r

/-! ## The host side: a result column read back as a vector, and a vector's sum -/

/-- The program's reshape of a 16384 × 1 result array to a vector reads, at `g`, the column at `(g, 0)`. -/
theorem col_to_vec (a : FVec Ideal S16384x1 .f32) (g : Fin 16384) :
    shapeCast S16384 a shapeCasts_S16384x1_S16384 (ix1 g) = a (ix2 g (0 : Fin 1)) :=
  shapeCast_a1_a_apply a shapeCasts_S16384x1_S16384 g

/-- A host sum of a vector over its one axis, from zero, is the sum of its entries. -/
theorem sum_vec (v : FVec Ideal S16384 .f32) :
    Host.reduceAdd (F := Ideal) v (constant (F := Ideal) S_ .f32 0x00000000#32) reducesTo_S16384_S_d0 h_S_
      = fun _ => ∑ g : Fin 16384, v (ix1 g) := by
  funext j
  show Ideal.hostReduceAdd reducesTo_S16384_S_d0 v (Ideal.ofBits .f32 0x00000000#32) j = _
  rw [Ideal.hostReduceAdd_total _ (fun b => b.elim0), Ideal.ofBits_zero_f32, zero_add, sum_idx1]

end Cert.KIPay

end
-- ==== Proof.Tail.lean ====
/-
  The last stretch of both programs, as ONE function.

  Once the two row dot products `yui`, `yuj` (vectors of length 16384) and the three sums of squares `sa`, `sb`, `sc`
  (scalars) are in hand, both programs finish with the same host operations in the same order, with the same literals:

    regulariser  = c₁ · ((sa + sb) + sc)                      (c₁ the binary32 literal nearest one tenth)
    d            = yui − yuj
    logsig(d)    = −softplus(−d),  softplus(x) = if x − 0 ≠ x − 0 then x + 0 else max(x, 0) + log1p(exp(−|x − 0|))
    loss         = regulariser − (∑ g, logsig(d) g) / c₂      (c₂ the binary32 literal nearest ln 2)

  Stated once here, over the extended reals, the two programs' results are compared by comparing what goes INTO it;
  the function itself is never opened.
-/
import Idealize.ShloMosaic.PureOps.Ideal

noncomputable section

namespace Cert.Tail

open Idealize.ShloMosaic

abbrev SB : Shape := ⟨1, ![16384]⟩
abbrev S0 : Shape := ⟨0, ![]⟩

/-- `softplus` as both programs spell it, over a vector of length 16384. -/
def softplus (hb : S0.BroadcastsInDim SB (![] : Fin 0 → Fin SB.rank)) (x : FVec Ideal SB .f32) : FVec Ideal SB .f32 :=
  let z : FVec Ideal SB .f32 := broadcastInDim SB ![] hb (constant (F := Ideal) S0 .f32 0x00000000#32)
  let x0 : FVec Ideal SB .f32 := subf x z
  select (cmpf .une x0 x0) (addf x z)
    (addf (maximumf x z) (Host.log1p (F := Ideal) (Host.exp (F := Ideal) (Host.negf (F := Ideal) (Host.absf (F := Ideal) x0)))))

/-- `log_sigmoid d = −softplus(−d)`. -/
def logSigmoid (hb : S0.BroadcastsInDim SB (![] : Fin 0 → Fin SB.rank)) (d : FVec Ideal SB .f32) : FVec Ideal SB .f32 :=
  Host.negf (F := Ideal) (softplus hb (Host.negf (F := Ideal) d))

/-- The scalar result from the two dot-product vectors and the three sums of squares. -/
def loss (hb : S0.BroadcastsInDim SB (![] : Fin 0 → Fin SB.rank)) (hr : SB.ReducesTo [0] S0) (h0 : 0 < S0.numel)
    (yui yuj : FVec Ideal SB .f32) (sa sb sc : FVec Ideal S0 .f32) : FVec Ideal S0 .f32 :=
  let reg : FVec Ideal S0 .f32 := mulf (constant (F := Ideal) S0 .f32 0x3DCCCCCD#32) (addf (addf sa sb) sc)
  let ls : FVec Ideal SB .f32 := logSigmoid hb (subf yui yuj)
  let s : FVec Ideal S0 .f32 := Host.reduceAdd (F := Ideal) ls (constant (F := Ideal) S0 .f32 0x00000000#32) hr h0
  subf reg (Host.divf (F := Ideal) s (constant (F := Ideal) S0 .f32 0x3F317218#32))

end Cert.Tail

end
-- ==== Proof.KITail.lean ====
/-
  The host operations after the kernel's one region, read at the buffers that matter, at the ideal instance.

  After its region the kernel's program runs 37 host operations: each of the five 16384 × 1 result arrays is read
  back as a vector; the last three vectors are summed, the three sums added and multiplied by a constant; the
  difference of the first two vectors goes through log-sigmoid, is summed, divided by a constant and subtracted.
  A buffer's contents after a straight line of operations is a computation: each operation rewrites the buffer it
  writes to its function of the buffers it reads and leaves every other buffer alone.  So

    * the first two vectors are the first two result arrays read back as vectors;
    * the scalar result is the common last stretch applied to those two vectors and to the sums of the other three:
      the operations spell that function, operation by operation, in its own order and with its own literals;
    * no operation writes an argument: the five arguments keep their contents.

  All for an arbitrary valuation of the buffers when the region is left.
-/
import proofs.«414929_j28089086116333_1_alg».proof.Proof.Gen.KernelIdeal.Launch
import proofs.«414929_j28089086116333_1_alg».proof.Proof.Tail
import Idealize.ShloMosaic.Lib.StableHlo.Run

noncomputable section

namespace Cert.KITail

open Idealize.ShloMosaic Idealize.SL.Sem Cert.KernelIdeal Cert.KernelIdeal.Gen

/-- The host operations after the region, in order. -/
abbrev ops : List (HloOp τ sig (Elt Ideal)) :=
  List.flatten [hostOps1 (F := Ideal), hostOps1_1 (F := Ideal), hostOps1_2 (F := Ideal)]

/-- A 16384 × 1 result array read back as a vector. -/
abbrev vec (a : FVec Ideal S16384x1 .f32) : FVec Ideal S16384 .f32 :=
  shapeCast S16384 a shapeCasts_S16384x1_S16384

/-- A host sum of a vector over its one axis, from zero. -/
abbrev total (v : FVec Ideal S16384 .f32) : FVec Ideal S_ .f32 :=
  Host.reduceAdd (F := Ideal) v (constant (F := Ideal) S_ .f32 0x00000000#32) reducesTo_S16384_S_d0 h_S_

/-- The first vector is the first result array read back. -/
theorem after_v1 (W : Valuation τ sig (Elt Ideal)) :
    StableHlo.after ops W (Proc.devRef .tc main_v1) = vec (W (Proc.devRef .tc main_v0_0)) := by
  simp only [ops, hostOps1, hostOps1_1, hostOps1_2, List.flatten_cons, List.flatten_nil, List.append_nil,
    List.cons_append, List.nil_append]
  after_results_simp
  rfl

/-- The second vector is the second result array read back. -/
theorem after_v2 (W : Valuation τ sig (Elt Ideal)) :
    StableHlo.after ops W (Proc.devRef .tc main_v2) = vec (W (Proc.devRef .tc main_v0_1)) := by
  simp only [ops, hostOps1, hostOps1_1, hostOps1_2, List.flatten_cons, List.flatten_nil, List.append_nil,
    List.cons_append, List.nil_append]
  after_results_simp
  rfl

/-- The scalar result is the common last stretch applied to the first two vectors and the sums of the other three. -/
theorem after_v16 (W : Valuation τ sig (Elt Ideal)) :
    StableHlo.after ops W (Proc.devRef .tc main_v16)
      = Cert.Tail.loss bcast_S_S16384 reducesTo_S16384_S_d0 h_S_
          (vec (W (Proc.devRef .tc main_v0_0))) (vec (W (Proc.devRef .tc main_v0_1)))
          (total (vec (W (Proc.devRef .tc main_v0_2)))) (total (vec (W (Proc.devRef .tc main_v0_3))))
          (total (vec (W (Proc.devRef .tc main_v0_4)))) := by
  simp only [ops, hostOps1, hostOps1_1, hostOps1_2, List.flatten_cons, List.flatten_nil, List.append_nil,
    List.cons_append, List.nil_append]
  after_results_simp
  rfl

/-- No operation writes the first table. -/
theorem after_arg0 (W : Valuation τ sig (Elt Ideal)) :
    StableHlo.after ops W (Proc.devRef .tc main_arg0) = W (Proc.devRef .tc main_arg0) := by
  simp only [ops, hostOps1, hostOps1_1, hostOps1_2, List.flatten_cons, List.flatten_nil, List.append_nil,
    List.cons_append, List.nil_append]
  after_results_simp

/-- No operation writes the second table. -/
theorem after_arg1 (W : Valuation τ sig (Elt Ideal)) :
    StableHlo.after ops W (Proc.devRef .tc main_arg1) = W (Proc.devRef .tc main_arg1) := by
  simp only [ops, hostOps1, hostOps1_1, hostOps1_2, List.flatten_cons, List.flatten_nil, List.append_nil,
    List.cons_append, List.nil_append]
  after_results_simp

/-- No operation writes the first index vector. -/
theorem after_arg2 (W : Valuation τ sig (Elt Ideal)) :
    StableHlo.after ops W (Proc.devRef .tc main_arg2) = W (Proc.devRef .tc main_arg2) := by
  simp only [ops, hostOps1, hostOps1_1, hostOps1_2, List.flatten_cons, List.flatten_nil, List.append_nil,
    List.cons_append, List.nil_append]
  after_results_simp

/-- No operation writes the second index vector. -/
theorem after_arg3 (W : Valuation τ sig (Elt Ideal)) :
    StableHlo.after ops W (Proc.devRef .tc main_arg3) = W (Proc.devRef .tc main_arg3) := by
  simp only [ops, hostOps1, hostOps1_1, hostOps1_2, List.flatten_cons, List.flatten_nil, List.append_nil,
    List.cons_append, List.nil_append]
  after_results_simp

/-- No operation writes the third index vector. -/
theorem after_arg4 (W : Valuation τ sig (Elt Ideal)) :
    StableHlo.after ops W (Proc.devRef .tc main_arg4) = W (Proc.devRef .tc main_arg4) := by
  simp only [ops, hostOps1, hostOps1_1, hostOps1_2, List.flatten_cons, List.flatten_nil, List.append_nil,
    List.cons_append, List.nil_append]
  after_results_simp

/-- The five arguments keep their contents. -/
theorem after_arg (W : Valuation τ sig (Elt Ideal)) (b : Ref sig .tc)
    (hb : b = main_arg0 ∨ b = main_arg1 ∨ b = main_arg2 ∨ b = main_arg3 ∨ b = main_arg4) :
    StableHlo.after ops W (Proc.devRef .tc b) = W (Proc.devRef .tc b) := by
  rcases hb with rfl | rfl | rfl | rfl | rfl
  · exact after_arg0 W
  · exact after_arg1 W
  · exact after_arg2 W
  · exact after_arg3 W
  · exact after_arg4 W

end Cert.KITail

end
-- ==== Proof.Spec.lean ====
/-
  What both programs compute, as functions of the five argument arrays over the extended reals.

  The two tables `U : 1000000 × 64` and `V : 500000 × 64` are read at rows chosen by three index vectors
  `u`, `i`, `j` of length 16384.  For each position `g` the results are the two row dot products
  `∑ f, U[u g, f] · V[i g, f]` and `∑ f, U[u g, f] · V[j g, f]`, and one scalar: a regulariser, one tenth of the
  sum of the squares of all gathered entries, less the sum over `g` of the log-sigmoid of the difference of the
  two dot products divided by a constant.

  A row is selected by an index WORD.  `row n w` reads the word as a natural number and clamps it to the last row;
  for a word below `n` (which is what the precondition gives of every entry of `u`, `i`, `j`) it is the word itself,
  so both programs' ways of addressing a row agree with it.
-/
import Idealize.ShloMosaic.PureOps.Ideal
import Idealize.ShloMosaic.Lib.ValueIdx

noncomputable section

open scoped BigOperators

namespace Cert.Spec

open Idealize.ShloMosaic Idealize.ShloMosaic.ValueIdx

/-- The shapes of the argument arrays and of the results. -/
abbrev SU : Shape := ⟨2, ![1000000, 64]⟩
abbrev SV : Shape := ⟨2, ![500000, 64]⟩
abbrev SB : Shape := ⟨1, ![16384]⟩
abbrev S0 : Shape := ⟨0, ![]⟩

/-- The row of an `n`-row table that an index word selects: the word as a natural number, clamped to the last row. -/
def row (n : Nat) (hn : 0 < n) (w : BitVec 32) : Fin n := ⟨min w.toNat (n - 1), by omega⟩

/-- For a word below `n` the selected row is the word. -/
theorem row_val_of_lt {n : Nat} (hn : 0 < n) {w : BitVec 32} (h : w.toNat < n) : (row n hn w).val = w.toNat := by
  show min w.toNat (n - 1) = w.toNat
  omega

/-- Entry `f` of the row of `A` that position `g` of the index vector `a` selects. -/
def gathered {n : Nat} (hn : 0 < n) (A : (⟨2, ![n, 64]⟩ : Shape).Idx → EReal) (a : SB.Idx → BitVec 32)
    (g : Fin 16384) (f : Fin 64) : EReal :=
  A (ix2 (row n hn (a (ix1 g))) f)

/-- The dot product of two gathered rows, position by position. -/
def rowDot (X Y : Fin 16384 → Fin 64 → EReal) : SB.Idx → EReal :=
  fun g => ∑ f : Fin 64, X (g 0) f * Y (g 0) f

/-- The sum of the squares of all gathered entries: row sums first, then the sum of those. -/
def sqSum (X : Fin 16384 → Fin 64 → EReal) : EReal :=
  ∑ g : Fin 16384, ∑ f : Fin 64, X g f * X g f

/-- The first result: `∑ f, U[u g, f] · V[i g, f]`. -/
def yui (U : SU.Idx → EReal) (V : SV.Idx → EReal) (u i : SB.Idx → BitVec 32) : SB.Idx → EReal :=
  rowDot (gathered (by decide) U u) (gathered (by decide) V i)

/-- The second result: `∑ f, U[u g, f] · V[j g, f]`. -/
def yuj (U : SU.Idx → EReal) (V : SV.Idx → EReal) (u j : SB.Idx → BitVec 32) : SB.Idx → EReal :=
  rowDot (gathered (by decide) U u) (gathered (by decide) V j)

/-- The three sums of squares, of the rows of `U` at `u` and of `V` at `i` and at `j`. -/
def squ (U : SU.Idx → EReal) (u : SB.Idx → BitVec 32) : EReal := sqSum (gathered (by decide) U u)
def sqi (V : SV.Idx → EReal) (i : SB.Idx → BitVec 32) : EReal := sqSum (gathered (by decide) V i)
def sqj (V : SV.Idx → EReal) (j : SB.Idx → BitVec 32) : EReal := sqSum (gathered (by decide) V j)

end Cert.Spec

end
-- ==== Proof.KIValue.lean ====
/-
  The kernel's three results as the specification's functions (at the ideal instance).

  After the body at grid point t, result window k's 128 × 1 block holds, at row r, a sum over the 64 columns of
  products of gathered entries — position g = 128·t + r of: U[u g]·V[i g], U[u g]·V[j g], U[u g]·U[u g],
  V[i g]·V[i g], V[j g]·V[j g].  The blocks tile the 16384 × 1 result arrays, so each array ends at one function
  of the tables.  The host stretches after the region reshape the arrays to vectors, sum three of them, and apply the common
  last stretch: the first two vectors are the specification's row dot products and the three sums its sums of squares.
-/
import proofs.«414929_j28089086116333_1_alg».proof.Proof.KIFrame
import proofs.«414929_j28089086116333_1_alg».proof.Proof.KICover
import proofs.«414929_j28089086116333_1_alg».proof.Proof.KIPay
import proofs.«414929_j28089086116333_1_alg».proof.Proof.KITail
import proofs.«414929_j28089086116333_1_alg».proof.Proof.KIGath
import proofs.«414929_j28089086116333_1_alg».proof.Proof.Spec

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat)

/-! ## Words that address rows, and the gathered blocks as the specification's gathered rows -/

/-- If the one-row, 64-column rectangle at the row every word addresses lies inside an n × 64 table, every word is below n:
    read the hypothesis at the one-entry load of position g. -/
theorem lt_of_rowRect {n : ℕ} (xt : S16384.Idx → BitVec 32)
    (h : ∀ (R : LoadRect S16384) (j : R.shape.Idx) (a : Fin 2),
      (![(xt (R.idx j)).toNat, 0] : Fin 2 → Nat) a + S1x64.size a ≤ (⟨2, ![n, 64]⟩ : Shape).size a)
    (g : S16384.Idx) : (xt g).toNat < n := by
  have hg : (g 0).val < 16384 := (g 0).isLt
  let R : LoadRect S16384 := ⟨fun _ => (g 0).val, fun _ => 1, fun _ => 1, fun a => Or.inr (by match a with | ⟨0, _⟩ => show (g 0).val + 1 * (1 - 1) < 16384; omega)⟩
  have e : R.idx (fun _ => ⟨0, Nat.one_pos⟩) = g := by
    funext a
    match a with
    | ⟨0, _⟩ => exact Fin.ext (by show (g 0).val + 1 * 0 = (g 0).val; omega)
  have h0 := h R (fun _ => ⟨0, Nat.one_pos⟩) 0
  rw [e] at h0
  have h1 : (xt g).toNat + 1 ≤ n := h0
  omega

/-- The grid's one coordinate at point t is t. -/
theorem coords0_val : ∀ t : Fin grid0.N, ((grid0.coords t) 0).val = t.val := by
  decide +kernel

/-- The block gathered at point t, at (r, q), is the specification's gathered row of position 128·t + r at column q,
    every word addressing a row of the table. -/
theorem gath_spec {n : ℕ} (hn : 0 < n) (tab : (⟨2, ![n, 64]⟩ : Shape).Idx → EReal) (words : S16384.Idx → BitVec 32)
    (hw : ∀ g, (words g).toNat < n) (t : Fin grid0.N) (r : Fin 128) (q : Fin 64) (hg : 128 * t.val + r.val < 16384) :
    gath (F := Ideal) hn tab words (grid0.coords t) (ix2 r q) = Cert.Spec.gathered hn tab words ⟨128 * t.val + r.val, hg⟩ q := by
  have e1 : rowIdx (grid0.coords t) r = ⟨128 * t.val + r.val, hg⟩ :=
    Fin.ext (by rw [rowIdx_val _ _ (by rw [coords0_val]; exact hg), coords0_val])
  have e2 : ∀ (w : BitVec 32) (h : w.toNat < n), (⟨w.toNat, h⟩ : Fin n) = Cert.Spec.row n hn w :=
    fun w h => Fin.ext (Cert.Spec.row_val_of_lt hn h).symm
  rw [gath_apply (F := Ideal) hn tab words _ r q (hw _), e2, e1]
  rfl

/-- Every index of a 128 × 1 block is (its row, 0). -/
theorem eq_col (y : S128x1.Idx) : y = ix2 (y 0) (0 : Fin 1) := by
  funext d
  match d with
  | ⟨0, _⟩ => rfl
  | ⟨1, _⟩ => exact Fin.ext (by have h : (y 1).val < 1 := (y 1).isLt; show (y 1).val = 0; omega)

variable (m : (ℓ : Loc nD τ sig) → Buf (Elt Ideal) ℓ) (ρ : Dev nD → PrngReg) (hT : TblOk (F := Ideal) m)

/-- The tables as the region finds them, on core c. -/
abbrev tU (c : Dev nD) : Cert.Spec.SU.Idx → EReal := V m c main_arg0
abbrev tV (c : Dev nD) : Cert.Spec.SV.Idx → EReal := V m c main_arg1
abbrev iu : Cert.Spec.SB.Idx → BitVec 32 := tbl m 0
abbrev ii : Cert.Spec.SB.Idx → BitVec 32 := tbl m 1
abbrev ij : Cert.Spec.SB.Idx → BitVec 32 := tbl m 2

include hT in
theorem word_lt0 (g : S16384.Idx) : (iu m g).toNat < 1000000 := lt_of_rowRect (iu m) hT.u g
include hT in
theorem word_lt1 (g : S16384.Idx) : (ii m g).toNat < 500000 := lt_of_rowRect (ii m) hT.i g
include hT in
theorem word_lt2 (g : S16384.Idx) : (ij m g).toNat < 500000 := lt_of_rowRect (ij m) hT.j g

include hT in
theorem gU_at (c : Dev nD) (t : Fin (cfgM m).N) (r : Fin 128) (q : Fin 64) (hg : 128 * t.val + r.val < 16384) :
    gU (F := Ideal) c (grid0.coords t) (tbl m 0) (V m c main_arg0) (ix2 r q)
      = Cert.Spec.gathered (by decide) (tU m c) (iu m) ⟨128 * t.val + r.val, hg⟩ q :=
  gath_spec (by decide) (tU m c) (iu m) (word_lt0 m hT) t r q hg
include hT in
theorem gVi_at (c : Dev nD) (t : Fin (cfgM m).N) (r : Fin 128) (q : Fin 64) (hg : 128 * t.val + r.val < 16384) :
    gVi (F := Ideal) c (grid0.coords t) (tbl m 1) (V m c main_arg1) (ix2 r q)
      = Cert.Spec.gathered (by decide) (tV m c) (ii m) ⟨128 * t.val + r.val, hg⟩ q :=
  gath_spec (by decide) (tV m c) (ii m) (word_lt1 m hT) t r q hg
include hT in
theorem gVj_at (c : Dev nD) (t : Fin (cfgM m).N) (r : Fin 128) (q : Fin 64) (hg : 128 * t.val + r.val < 16384) :
    gVj (F := Ideal) c (grid0.coords t) (tbl m 2) (V m c main_arg1) (ix2 r q)
      = Cert.Spec.gathered (by decide) (tV m c) (ij m) ⟨128 * t.val + r.val, hg⟩ q :=
  gath_spec (by decide) (tV m c) (ij m) (word_lt2 m hT) t r q hg

/-! ## The five result arrays as whole-array functions -/

/-- The five result arrays as whole-array functions: row g of each is a sum over the columns of products of the rows
    gathered at position g. -/
def Gyui (c : Dev nD) : S16384x1.Idx → EReal := fun i => Cert.Spec.yui (tU m c) (tV m c) (iu m) (ii m) (ix1 ⟨(i 0).val, (i 0).isLt⟩)
def Gyuj (c : Dev nD) : S16384x1.Idx → EReal := fun i => Cert.Spec.yuj (tU m c) (tV m c) (iu m) (ij m) (ix1 ⟨(i 0).val, (i 0).isLt⟩)
def Gsq {n : Nat} (hn : 0 < n) (A : (⟨2, ![n, 64]⟩ : Shape).Idx → EReal) (a : Cert.Spec.SB.Idx → BitVec 32) : S16384x1.Idx → EReal :=
  fun i => ∑ f : Fin 64, Cert.Spec.gathered hn A a ⟨(i 0).val, (i 0).isLt⟩ f * Cert.Spec.gathered hn A a ⟨(i 0).val, (i 0).isLt⟩ f

theorem Gyui_apply (c : Dev nD) (g : Fin 16384) : Gyui m c (ix2 g (0 : Fin 1))
    = ∑ f : Fin 64, Cert.Spec.gathered (by decide) (tU m c) (iu m) g f * Cert.Spec.gathered (by decide) (tV m c) (ii m) g f := rfl
theorem Gyuj_apply (c : Dev nD) (g : Fin 16384) : Gyuj m c (ix2 g (0 : Fin 1))
    = ∑ f : Fin 64, Cert.Spec.gathered (by decide) (tU m c) (iu m) g f * Cert.Spec.gathered (by decide) (tV m c) (ij m) g f := rfl
theorem Gsq_apply {n : Nat} (hn : 0 < n) (A : (⟨2, ![n, 64]⟩ : Shape).Idx → EReal) (a : Cert.Spec.SB.Idx → BitVec 32) (g : Fin 16384) :
    Gsq hn A a (ix2 g (0 : Fin 1)) = ∑ f : Fin 64, Cert.Spec.gathered hn A a g f * Cert.Spec.gathered hn A a g f := rfl

/-! ## What the body stores at point t is block t of those functions -/

include hT in
theorem blk0 (c : Dev nD) (t : Fin (cfgM m).N) (y : S128x1.Idx) :
    k0_pay2 (F := Ideal) (gU c (grid0.coords t) (tbl m 0) (V m c main_arg0)) (gVi c (grid0.coords t) (tbl m 1) (V m c main_arg1)) y
      = Gyui m c (ix2 ⟨128 * t.val + (y 0).val, rowLt (adm m) t y⟩ (0 : Fin 1)) := by
  obtain ⟨r, rfl⟩ : ∃ r, y = ix2 r (0 : Fin 1) := ⟨y 0, eq_col y⟩
  rw [Cert.KIPay.pay2_apply]
  refine (Finset.sum_congr rfl fun f _ => ?_).trans (Gyui_apply m c _).symm
  rw [gU_at m hT c t r f (rowLt (adm m) t (ix2 r (0 : Fin 1))), gVi_at m hT c t r f (rowLt (adm m) t (ix2 r (0 : Fin 1)))]
include hT in
theorem blk1 (c : Dev nD) (t : Fin (cfgM m).N) (y : S128x1.Idx) :
    k0_pay3 (F := Ideal) (gU c (grid0.coords t) (tbl m 0) (V m c main_arg0)) (gVj c (grid0.coords t) (tbl m 2) (V m c main_arg1)) y
      = Gyuj m c (ix2 ⟨128 * t.val + (y 0).val, rowLt (adm m) t y⟩ (0 : Fin 1)) := by
  obtain ⟨r, rfl⟩ : ∃ r, y = ix2 r (0 : Fin 1) := ⟨y 0, eq_col y⟩
  rw [Cert.KIPay.pay3_apply]
  refine (Finset.sum_congr rfl fun f _ => ?_).trans (Gyuj_apply m c _).symm
  rw [gU_at m hT c t r f (rowLt (adm m) t (ix2 r (0 : Fin 1))), gVj_at m hT c t r f (rowLt (adm m) t (ix2 r (0 : Fin 1)))]
include hT in
theorem blk2 (c : Dev nD) (t : Fin (cfgM m).N) (y : S128x1.Idx) :
    k0_pay4 (F := Ideal) (gU c (grid0.coords t) (tbl m 0) (V m c main_arg0)) y
      = Gsq (by decide) (tU m c) (iu m) (ix2 ⟨128 * t.val + (y 0).val, rowLt (adm m) t y⟩ (0 : Fin 1)) := by
  obtain ⟨r, rfl⟩ : ∃ r, y = ix2 r (0 : Fin 1) := ⟨y 0, eq_col y⟩
  rw [Cert.KIPay.pay4_apply]
  refine (Finset.sum_congr rfl fun f _ => ?_).trans (Gsq_apply _ _ _ _).symm
  rw [gU_at m hT c t r f (rowLt (adm m) t (ix2 r (0 : Fin 1)))]
include hT in
theorem blk3 (c : Dev nD) (t : Fin (cfgM m).N) (y : S128x1.Idx) :
    k0_pay5 (F := Ideal) (gVi c (grid0.coords t) (tbl m 1) (V m c main_arg1)) y
      = Gsq (by decide) (tV m c) (ii m) (ix2 ⟨128 * t.val + (y 0).val, rowLt (adm m) t y⟩ (0 : Fin 1)) := by
  obtain ⟨r, rfl⟩ : ∃ r, y = ix2 r (0 : Fin 1) := ⟨y 0, eq_col y⟩
  rw [Cert.KIPay.pay5_apply]
  refine (Finset.sum_congr rfl fun f _ => ?_).trans (Gsq_apply _ _ _ _).symm
  rw [gVi_at m hT c t r f (rowLt (adm m) t (ix2 r (0 : Fin 1)))]
include hT in
theorem blk4 (c : Dev nD) (t : Fin (cfgM m).N) (y : S128x1.Idx) :
    k0_pay1 (F := Ideal) (k0_pay6 (F := Ideal) (gVj c (grid0.coords t) (tbl m 2) (V m c main_arg1))) y
      = Gsq (by decide) (tV m c) (ij m) (ix2 ⟨128 * t.val + (y 0).val, rowLt (adm m) t y⟩ (0 : Fin 1)) := by
  obtain ⟨r, rfl⟩ : ∃ r, y = ix2 r (0 : Fin 1) := ⟨y 0, eq_col y⟩
  rw [Cert.KIPay.pay16_apply]
  refine (Finset.sum_congr rfl fun f _ => ?_).trans (Gsq_apply _ _ _ _).symm
  rw [gVj_at m hT c t r f (rowLt (adm m) t (ix2 r (0 : Fin 1)))]

/-! ## The arrays end at those functions -/

/-- The arrays end at those functions: each flushed block is what the body left (the windows are uncut), and the body
    left one store of the whole block, which reads back as the stored column. -/
theorem arr0 (c : Dev nD) : (dats m hT 0 c).arrAt 0 (cfgM m).N = Gyui m c :=
  arrAt_of_flushed0 m c (dats m hT 0 c) (Gyui m c) fun t =>
    (flushed0_eq m c _ t).trans ((after0 m hT c t).trans ((out0_eq c (grid0.coords t) (tbl m 0) (tbl m 1) (tbl m 2) (V m c main_arg0) (V m c main_arg1)).trans (funext fun y => blk0 m hT c t y)))
theorem arr1 (c : Dev nD) : (dats m hT 0 c).arrAt 1 (cfgM m).N = Gyuj m c :=
  arrAt_of_flushed1 m c (dats m hT 0 c) (Gyuj m c) fun t =>
    (flushed1_eq m c _ t).trans ((after1 m hT c t).trans ((out1_eq c (grid0.coords t) (tbl m 0) (tbl m 1) (tbl m 2) (V m c main_arg0) (V m c main_arg1)).trans (funext fun y => blk1 m hT c t y)))
theorem arr2 (c : Dev nD) : (dats m hT 0 c).arrAt 2 (cfgM m).N = Gsq (by decide) (tU m c) (iu m) :=
  arrAt_of_flushed2 m c (dats m hT 0 c) _ fun t =>
    (flushed2_eq m c _ t).trans ((after2 m hT c t).trans ((out2_eq c (grid0.coords t) (tbl m 0) (tbl m 1) (tbl m 2) (V m c main_arg0) (V m c main_arg1)).trans (funext fun y => blk2 m hT c t y)))
theorem arr3 (c : Dev nD) : (dats m hT 0 c).arrAt 3 (cfgM m).N = Gsq (by decide) (tV m c) (ii m) :=
  arrAt_of_flushed3 m c (dats m hT 0 c) _ fun t =>
    (flushed3_eq m c _ t).trans ((after3 m hT c t).trans ((out3_eq c (grid0.coords t) (tbl m 0) (tbl m 1) (tbl m 2) (V m c main_arg0) (V m c main_arg1)).trans (funext fun y => blk3 m hT c t y)))
theorem arr4 (c : Dev nD) : (dats m hT 0 c).arrAt 4 (cfgM m).N = Gsq (by decide) (tV m c) (ij m) :=
  arrAt_of_flushed4 m c (dats m hT 0 c) _ fun t =>
    (flushed4_eq m c _ t).trans ((after4 m hT c t).trans ((out4_eq c (grid0.coords t) (tbl m 0) (tbl m 1) (tbl m 2) (V m c main_arg0) (V m c main_arg1)).trans (funext fun y => blk4 m hT c t y)))

/-! ## The host stretch after the region -/

/-- A result array reshaped to a vector, position by position. -/
theorem vec_Gyui (c : Dev nD) : Cert.KITail.vec (Gyui m c) = Cert.Spec.yui (tU m c) (tV m c) (iu m) (ii m) := by
  funext g; rw [eq_ix1 g]; exact Cert.KIPay.col_to_vec (Gyui m c) (g 0)
theorem vec_Gyuj (c : Dev nD) : Cert.KITail.vec (Gyuj m c) = Cert.Spec.yuj (tU m c) (tV m c) (iu m) (ij m) := by
  funext g; rw [eq_ix1 g]; exact Cert.KIPay.col_to_vec (Gyuj m c) (g 0)
/-- The sum of a reshaped sums-of-squares array is the specification's sum of squares. -/
theorem total_Gsq {n : Nat} (hn : 0 < n) (A : (⟨2, ![n, 64]⟩ : Shape).Idx → EReal) (a : Cert.Spec.SB.Idx → BitVec 32) :
    Cert.KITail.total (Cert.KITail.vec (Gsq hn A a)) = fun _ => Cert.Spec.sqSum (Cert.Spec.gathered hn A a) := by
  rw [show Cert.KITail.total (Cert.KITail.vec (Gsq hn A a)) = _ from Cert.KIPay.sum_vec _]
  funext _
  refine Finset.sum_congr rfl fun g _ => ?_
  exact Cert.KIPay.col_to_vec (Gsq hn A a) g

/-- The region's exit contents hold result array w at what the pipeline computes from the proof data. -/
theorem exit_arr (c : Dev nD) (w : Fin 5) :
    Pipeline.withArrays (Pipeline.pin pcfgs (fun _ => adm m) 0).spec c (V0 m c)
        (fun w => (dats m hT 0 c).arrAt w (Pipeline.pin pcfgs (fun _ => adm m) 0).N) (Proc.devRef .tc (Pipeline.arrRef spec0 w))
      = (dats m hT 0 c).arrAt w (cfgM m).N :=
  Pipeline.withArrays_arr _ winFacts0.arr_inj c _ _ w

/-- The first result vector after the host lines is the specification's first row dot product. -/
theorem afterTail_v1 (c : Dev nD) :
    Pipeline.afterTail pcfgs (fun _ => adm m) (dats m hT) 0 (V0 m) [hostOps1, hostOps1_1, hostOps1_2] c main_v1
      = Cert.Spec.yui (tU m c) (tV m c) (iu m) (ii m) := by
  unfold Pipeline.afterTail
  refine (Cert.KITail.after_v1 _).trans ?_
  exact (congrArg Cert.KITail.vec ((exit_arr m hT c 0).trans (arr0 m hT c))).trans (vec_Gyui m c)

/-- The second result vector after the host lines is the specification's second row dot product. -/
theorem afterTail_v2 (c : Dev nD) :
    Pipeline.afterTail pcfgs (fun _ => adm m) (dats m hT) 0 (V0 m) [hostOps1, hostOps1_1, hostOps1_2] c main_v2
      = Cert.Spec.yuj (tU m c) (tV m c) (iu m) (ij m) := by
  unfold Pipeline.afterTail
  refine (Cert.KITail.after_v2 _).trans ?_
  exact (congrArg Cert.KITail.vec ((exit_arr m hT c 1).trans (arr1 m hT c))).trans (vec_Gyuj m c)

/-- The scalar result after the host lines is the common last stretch at the specification's values. -/
theorem afterTail_v16 (c : Dev nD) :
    Pipeline.afterTail pcfgs (fun _ => adm m) (dats m hT) 0 (V0 m) [hostOps1, hostOps1_1, hostOps1_2] c main_v16
      = Cert.Tail.loss bcast_S_S16384 reducesTo_S16384_S_d0 h_S_
          (Cert.Spec.yui (tU m c) (tV m c) (iu m) (ii m)) (Cert.Spec.yuj (tU m c) (tV m c) (iu m) (ij m))
          (fun _ => Cert.Spec.squ (tU m c) (iu m)) (fun _ => Cert.Spec.sqi (tV m c) (ii m)) (fun _ => Cert.Spec.sqj (tV m c) (ij m)) := by
  unfold Pipeline.afterTail
  refine (Cert.KITail.after_v16 _).trans ?_
  have h0 := (congrArg Cert.KITail.vec ((exit_arr m hT c 0).trans (arr0 m hT c))).trans (vec_Gyui m c)
  have h1 := (congrArg Cert.KITail.vec ((exit_arr m hT c 1).trans (arr1 m hT c))).trans (vec_Gyuj m c)
  have h2 := (congrArg (fun a => Cert.KITail.total (Cert.KITail.vec a)) ((exit_arr m hT c 2).trans (arr2 m hT c))).trans (total_Gsq _ _ _)
  have h3 := (congrArg (fun a => Cert.KITail.total (Cert.KITail.vec a)) ((exit_arr m hT c 3).trans (arr3 m hT c))).trans (total_Gsq _ _ _)
  have h4 := (congrArg (fun a => Cert.KITail.total (Cert.KITail.vec a)) ((exit_arr m hT c 4).trans (arr4 m hT c))).trans (total_Gsq _ _ _)
  exact congr (congr (congr (congr (congrArg (Cert.Tail.loss bcast_S_S16384 reducesTo_S16384_S_d0 h_S_) h0) h1) h2) h3) h4

/-! ## The run, its results named as the specification's -/

/-- The tables and the index vectors as the region finds them are the launch contents. -/
theorem tU_eq (c : Dev nD) : tU m c = m ((c.tc : Thread nD τ).loc main_arg0) := rfl
theorem tV_eq (c : Dev nD) : tV m c = m ((c.tc : Thread nD τ).loc main_arg1) := rfl
theorem iu_eq (c : Dev nD) : iu m = m ((c.tc : Thread nD τ).loc main_arg2) := (V_pre m c 0).symm
theorem ii_eq (c : Dev nD) : ii m = m ((c.tc : Thread nD τ).loc main_arg3) := (V_pre m c 1).symm
theorem ij_eq (c : Dev nD) : ij m = m ((c.tc : Thread nD τ).loc main_arg4) := (V_pre m c 2).symm

include hT in
/-- The kernel's program runs, its three results the specification's functions of its arguments, its arguments unchanged. -/
theorem run : θ_run defs (onTc (τ := τ) (main (F := Ideal))) ⟨m, fun _ => 0, ρ⟩ (fun r => ∀ c : Dev nD,
      r.2.mem ((c.tc : Thread nD τ).loc main_v1) = Cert.Spec.yui (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v2) = Cert.Spec.yuj (m ((c.tc : Thread nD τ).loc main_arg0)) (m ((c.tc : Thread nD τ).loc main_arg1)) (m ((c.tc : Thread nD τ).loc main_arg2)) (m ((c.tc : Thread nD τ).loc main_arg4))
      ∧ r.2.mem ((c.tc : Thread nD τ).loc main_v16)
          = Cert.Tail.loss bcast_S_S16384 reducesTo_S16384_S_d0 h_S_
              (Cert.Spec.yui (m ((c.tc : Thread nD τ).loc main_arg0)) (m ((c.tc : Thread nD τ).loc main_arg1)) (m ((c.tc : Thread nD τ).loc main_arg2)) (m ((c.tc : Thread nD τ).loc main_arg3)))
              (Cert.Spec.yuj (m ((c.tc : Thread nD τ).loc main_arg0)) (m ((c.tc : Thread nD τ).loc main_arg1)) (m ((c.tc : Thread nD τ).loc main_arg2)) (m ((c.tc : Thread nD τ).loc main_arg4)))
              (fun _ => Cert.Spec.squ (m ((c.tc : Thread nD τ).loc main_arg0)) (m ((c.tc : Thread nD τ).loc main_arg2)))
              (fun _ => Cert.Spec.sqi (m ((c.tc : Thread nD τ).loc main_arg1)) (m ((c.tc : Thread nD τ).loc main_arg3)))
              (fun _ => Cert.Spec.sqj (m ((c.tc : Thread nD τ).loc main_arg1)) (m ((c.tc : Thread nD τ).loc main_arg4)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine (θ_run defs _ _).mono (fun r h c => ?_) (run_main m ρ hT)
  have e1 := ((h c).2 main_v1 (by decide : main_v1 ∈ Pipeline.restRefs sig spec0)).trans (afterTail_v1 m hT c)
  have e2 := ((h c).2 main_v2 (by decide : main_v2 ∈ Pipeline.restRefs sig spec0)).trans (afterTail_v2 m hT c)
  have e3 := ((h c).2 main_v16 (by decide : main_v16 ∈ Pipeline.restRefs sig spec0)).trans (afterTail_v16 m hT c)
  rw [tU_eq m c, tV_eq m c, iu_eq m c, ii_eq m c] at e1
  rw [tU_eq m c, tV_eq m c, iu_eq m c, ij_eq m c] at e2
  rw [tU_eq m c, tV_eq m c, iu_eq m c, ii_eq m c, ij_eq m c] at e3
  exact ⟨e1, e2, e3,
    ((h c).2 main_arg0 (by decide : main_arg0 ∈ Pipeline.restRefs sig spec0)).trans (afterTail_arg0 m c (dats m hT)),
    ((h c).2 main_arg1 (by decide : main_arg1 ∈ Pipeline.restRefs sig spec0)).trans (afterTail_arg1 m c (dats m hT)),
    ((h c).2 main_arg2 (by decide : main_arg2 ∈ Pipeline.restRefs sig spec0)).trans (afterTail_arg2 m c (dats m hT)),
    ((h c).2 main_arg3 (by decide : main_arg3 ∈ Pipeline.restRefs sig spec0)).trans (afterTail_arg3 m c (dats m hT)),
    ((h c).2 main_arg4 (by decide : main_arg4 ∈ Pipeline.restRefs sig spec0)).trans (afterTail_arg4 m c (dats m hT))⟩

end Cert.KernelIdeal.Hand

end
-- ==== Proof.RefStages.lean ====
/-
  The reference's intermediate values, each as a function of the argument arrays, spelt with the reference's own
  operations in its own order:

    idx n a   the index vector as the reference prepares it: a negative entry is raised by the table's row count `n`,
              and the vector becomes a column (16384 × 1);
    Uu, Vi, Vj  the gathered rows (16384 × 64), each a row gather of a table at such a column;
    yui, yuj  the row sums of `Uu · Vi` and `Uu · Vj`, each from an initial zero;
    sq X      the sum of ALL entries of `X · X` from an initial zero (a scalar);
    loss      the common last stretch applied to those.

  Stated at the ideal instance, where the reference is read.
-/
import proofs.«414929_j28089086116333_1_alg».proof.ReferenceIdeal
import proofs.«414929_j28089086116333_1_alg».proof.Proof.Tail

noncomputable section

namespace Cert.RefStages

open Idealize.ShloMosaic Cert.ReferenceIdeal
open Cert.ReferenceIdeal.Facts₀

variable [Cert.ReferenceIdeal.Facts]

/-- The index vector as the gather takes it: entries below zero raised by `n`, laid out as a column. -/
def idx (n : BitVec 32) (a : IVec S16384 32) : IVec S16384x1 32 :=
  broadcastInDim S16384x1 ![0] bcast_S16384_S16384x1_0
    (select (cmpi .slt a (broadcastInDim S16384 ![] bcast_S_S16384 (constantI S_ 32 0#32)))
      (addi a (broadcastInDim S16384 ![] bcast_S_S16384 (constantI S_ 32 n))) a)

/-- The rows of the first table at `u`. -/
def Uu (A0 : FVec Ideal S1000000x64 .f32) (u : IVec S16384 32) : FVec Ideal S16384x64 .f32 :=
  Host.gather gather_S1000000x64_S16384x1_S16384x64_1_0_n_n_0_1_164 A0 (idx 1000000#32 u)

/-- The rows of the second table at an index vector. -/
def Vrows (A1 : FVec Ideal S500000x64 .f32) (a : IVec S16384 32) : FVec Ideal S16384x64 .f32 :=
  Host.gather gather_S500000x64_S16384x1_S16384x64_1_0_n_n_0_1_164 A1 (idx 500000#32 a)

/-- A row-by-row dot product: the row sums of the entrywise product, from zero. -/
def dots (X Y : FVec Ideal S16384x64 .f32) : FVec Ideal S16384 .f32 :=
  Host.reduceAdd (F := Ideal) (mulf X Y) (constant (F := Ideal) S_ .f32 0x00000000#32) reducesTo_S16384x64_S16384_d1 h_S_

/-- The sum of all entries of `X · X`, from zero. -/
def sq (X : FVec Ideal S16384x64 .f32) : FVec Ideal S_ .f32 :=
  Host.reduceAdd (F := Ideal) (mulf X X) (constant (F := Ideal) S_ .f32 0x00000000#32) reducesTo_S16384x64_S_d0_1 h_S_

/-- The reference's three results. -/
def yui (A0 : FVec Ideal S1000000x64 .f32) (A1 : FVec Ideal S500000x64 .f32) (u i : IVec S16384 32) : FVec Ideal S16384 .f32 :=
  dots (Uu A0 u) (Vrows A1 i)
def yuj (A0 : FVec Ideal S1000000x64 .f32) (A1 : FVec Ideal S500000x64 .f32) (u j : IVec S16384 32) : FVec Ideal S16384 .f32 :=
  dots (Uu A0 u) (Vrows A1 j)
def loss (A0 : FVec Ideal S1000000x64 .f32) (A1 : FVec Ideal S500000x64 .f32) (u i j : IVec S16384 32) : FVec Ideal S_ .f32 :=
  Cert.Tail.loss bcast_S_S16384 reducesTo_S16384_S_d0 h_S_ (yui A0 A1 u i) (yuj A0 A1 u j)
    (sq (Uu A0 u)) (sq (Vrows A1 i)) (sq (Vrows A1 j))

end Cert.RefStages

end
-- ==== Proof.RefRun.lean ====
/-
  The reference's run.

  The reference is a straight line of host operations on each device's TensorCore: it prepares the three index vectors
  (a negative entry raised by its table's row count, the vector laid out as a column), gathers a row of a table at every
  index, multiplies the gathered arrays entrywise and sums the products — along each row for the two dot-product vectors,
  over all entries for the three sums of squares —, and ends with the common last stretch (the regulariser, the difference
  of the two vectors, `log_sigmoid` of it, the sum over it, the division and the final difference).  No kernel is
  launched and nothing loops; the one call, `log_sigmoid`, whose body calls `softplus`, runs as the callee's operations
  in place, over the buffers that call names.

  So the program is the sequence of its sixty-eight operations, and what a buffer holds once they have run is a fold:
  each operation writes its function's value of its operands' contents into its own result buffer and leaves every
  other buffer as it was.  Read at the three result buffers the fold is the composition of the operations' functions in
  the program's order, which is how the stage functions (the index column, the gathered rows, the row sums, the sums of
  squares, the last stretch) are spelt; read at an argument buffer, which no operation writes, it is what the buffer
  held at launch.

  Proved: from any memory with zero counters every weakly fair execution terminates without a fault, the three result
  buffers end at those compositions of the argument arrays' launch contents, and the five argument arrays end unchanged.
-/
import proofs.«414929_j28089086116333_1_alg».proof.ReferenceIdeal
import proofs.«414929_j28089086116333_1_alg».proof.Proof.Gen.ReferenceIdeal
import proofs.«414929_j28089086116333_1_alg».proof.Proof.RefStages
import Idealize.ShloMosaic.Lib.StableHlo.Run

noncomputable section

namespace Cert.RefRun

open Idealize.ShloMosaic Idealize.SL.Sem Cert.ReferenceIdeal
open Idealize.ShloMosaic.TcCoe Idealize.ShloMosaic.StableHlo
open Cert.ReferenceIdeal.Facts₀

/-! ## The program as a line of operations -/

section Line

variable [hR : Cert.ReferenceIdeal.Facts] {F : FTy → Type} [FloatOps F]

/-- The reference's sixty-eight host operations in the order they run: the forty-seven of @main up to the
    difference of the two dot-product vectors, the sixteen of `log_sigmoid` (its negation, the fourteen of
    `softplus`, its closing negation) over the buffers of that call, and @main's last five. -/
abbrev ops : List (HloOp τ sig (Elt F)) :=
  [ nullary main_c (constantI S_ 32 0#32),
    unary main_c main_v0 (broadcastInDim S16384 ![] bcast_S_S16384 : (⟨S_, .i32⟩ : BufTy).Contents (Elt F) → (⟨S16384, .i32⟩ : BufTy).Contents (Elt F)),
    binary main_arg2 main_v0 main_v1 (cmpi .slt : (⟨S16384, .i32⟩ : BufTy).Contents (Elt F) → (⟨S16384, .i32⟩ : BufTy).Contents (Elt F) → (⟨S16384, .i1⟩ : BufTy).Contents (Elt F)),
    nullary main_c_0 (constantI S_ 32 1000000#32),
    unary main_c_0 main_v2 (broadcastInDim S16384 ![] bcast_S_S16384 : (⟨S_, .i32⟩ : BufTy).Contents (Elt F) → (⟨S16384, .i32⟩ : BufTy).Contents (Elt F)),
    binary main_arg2 main_v2 main_v3 (addi : (⟨S16384, .i32⟩ : BufTy).Contents (Elt F) → (⟨S16384, .i32⟩ : BufTy).Contents (Elt F) → (⟨S16384, .i32⟩ : BufTy).Contents (Elt F)),
    ternary main_v1 main_v3 main_arg2 main_v4 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    unary main_v4 main_v5 (broadcastInDim S16384x1 ![0] bcast_S16384_S16384x1_0 : (⟨S16384, .i32⟩ : BufTy).Contents (Elt F) → (⟨S16384x1, .i32⟩ : BufTy).Contents (Elt F)),
    binary main_arg0 main_v5 main_v6 ((fun x i => Host.gather gather_S1000000x64_S16384x1_S16384x64_1_0_n_n_0_1_164 x i) : (⟨S1000000x64, .f32⟩ : BufTy).Contents (Elt F) → (⟨S16384x1, .i32⟩ : BufTy).Contents (Elt F) → (⟨S16384x64, .f32⟩ : BufTy).Contents (Elt F)),
    nullary main_c_1 (constantI S_ 32 0#32),
    unary main_c_1 main_v7 (broadcastInDim S16384 ![] bcast_S_S16384 : (⟨S_, .i32⟩ : BufTy).Contents (Elt F) → (⟨S16384, .i32⟩ : BufTy).Contents (Elt F)),
    binary main_arg3 main_v7 main_v8 (cmpi .slt : (⟨S16384, .i32⟩ : BufTy).Contents (Elt F) → (⟨S16384, .i32⟩ : BufTy).Contents (Elt F) → (⟨S16384, .i1⟩ : BufTy).Contents (Elt F)),
    nullary main_c_2 (constantI S_ 32 500000#32),
    unary main_c_2 main_v9 (broadcastInDim S16384 ![] bcast_S_S16384 : (⟨S_, .i32⟩ : BufTy).Contents (Elt F) → (⟨S16384, .i32⟩ : BufTy).Contents (Elt F)),
    binary main_arg3 main_v9 main_v10 (addi : (⟨S16384, .i32⟩ : BufTy).Contents (Elt F) → (⟨S16384, .i32⟩ : BufTy).Contents (Elt F) → (⟨S16384, .i32⟩ : BufTy).Contents (Elt F)),
    ternary main_v8 main_v10 main_arg3 main_v11 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    unary main_v11 main_v12 (broadcastInDim S16384x1 ![0] bcast_S16384_S16384x1_0 : (⟨S16384, .i32⟩ : BufTy).Contents (Elt F) → (⟨S16384x1, .i32⟩ : BufTy).Contents (Elt F)),
    binary main_arg1 main_v12 main_v13 ((fun x i => Host.gather gather_S500000x64_S16384x1_S16384x64_1_0_n_n_0_1_164 x i) : (⟨S500000x64, .f32⟩ : BufTy).Contents (Elt F) → (⟨S16384x1, .i32⟩ : BufTy).Contents (Elt F) → (⟨S16384x64, .f32⟩ : BufTy).Contents (Elt F)),
    nullary main_c_3 (constantI S_ 32 0#32),
    unary main_c_3 main_v14 (broadcastInDim S16384 ![] bcast_S_S16384 : (⟨S_, .i32⟩ : BufTy).Contents (Elt F) → (⟨S16384, .i32⟩ : BufTy).Contents (Elt F)),
    binary main_arg4 main_v14 main_v15 (cmpi .slt : (⟨S16384, .i32⟩ : BufTy).Contents (Elt F) → (⟨S16384, .i32⟩ : BufTy).Contents (Elt F) → (⟨S16384, .i1⟩ : BufTy).Contents (Elt F)),
    nullary main_c_4 (constantI S_ 32 500000#32),
    unary main_c_4 main_v16 (broadcastInDim S16384 ![] bcast_S_S16384 : (⟨S_, .i32⟩ : BufTy).Contents (Elt F) → (⟨S16384, .i32⟩ : BufTy).Contents (Elt F)),
    binary main_arg4 main_v16 main_v17 (addi : (⟨S16384, .i32⟩ : BufTy).Contents (Elt F) → (⟨S16384, .i32⟩ : BufTy).Contents (Elt F) → (⟨S16384, .i32⟩ : BufTy).Contents (Elt F)),
    ternary main_v15 main_v17 main_arg4 main_v18 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    unary main_v18 main_v19 (broadcastInDim S16384x1 ![0] bcast_S16384_S16384x1_0 : (⟨S16384, .i32⟩ : BufTy).Contents (Elt F) → (⟨S16384x1, .i32⟩ : BufTy).Contents (Elt F)),
    binary main_arg1 main_v19 main_v20 ((fun x i => Host.gather gather_S500000x64_S16384x1_S16384x64_1_0_n_n_0_1_164 x i) : (⟨S500000x64, .f32⟩ : BufTy).Contents (Elt F) → (⟨S16384x1, .i32⟩ : BufTy).Contents (Elt F) → (⟨S16384x64, .f32⟩ : BufTy).Contents (Elt F)),
    binary main_v6 main_v13 main_v21 (mulf : (⟨S16384x64, .f32⟩ : BufTy).Contents (Elt F) → (⟨S16384x64, .f32⟩ : BufTy).Contents (Elt F) → (⟨S16384x64, .f32⟩ : BufTy).Contents (Elt F)),
    nullary main_cst (constant S_ .f32 0x00000000#32),
    binary main_v21 main_cst main_v22 ((fun x v => Host.reduceAdd x v reducesTo_S16384x64_S16384_d1 h_S_) : (⟨S16384x64, .f32⟩ : BufTy).Contents (Elt F) → (⟨S_, .f32⟩ : BufTy).Contents (Elt F) → (⟨S16384, .f32⟩ : BufTy).Contents (Elt F)),
    binary main_v6 main_v20 main_v23 (mulf : (⟨S16384x64, .f32⟩ : BufTy).Contents (Elt F) → (⟨S16384x64, .f32⟩ : BufTy).Contents (Elt F) → (⟨S16384x64, .f32⟩ : BufTy).Contents (Elt F)),
    nullary main_cst_5 (constant S_ .f32 0x00000000#32),
    binary main_v23 main_cst_5 main_v24 ((fun x v => Host.reduceAdd x v reducesTo_S16384x64_S16384_d1 h_S_) : (⟨S16384x64, .f32⟩ : BufTy).Contents (Elt F) → (⟨S_, .f32⟩ : BufTy).Contents (Elt F) → (⟨S16384, .f32⟩ : BufTy).Contents (Elt F)),
    binary main_v6 main_v6 main_v25 (mulf : (⟨S16384x64, .f32⟩ : BufTy).Contents (Elt F) → (⟨S16384x64, .f32⟩ : BufTy).Contents (Elt F) → (⟨S16384x64, .f32⟩ : BufTy).Contents (Elt F)),
    nullary main_cst_6 (constant S_ .f32 0x00000000#32),
    binary main_v25 main_cst_6 main_v26 ((fun x v => Host.reduceAdd x v reducesTo_S16384x64_S_d0_1 h_S_) : (⟨S16384x64, .f32⟩ : BufTy).Contents (Elt F) → (⟨S_, .f32⟩ : BufTy).Contents (Elt F) → (⟨S_, .f32⟩ : BufTy).Contents (Elt F)),
    binary main_v13 main_v13 main_v27 (mulf : (⟨S16384x64, .f32⟩ : BufTy).Contents (Elt F) → (⟨S16384x64, .f32⟩ : BufTy).Contents (Elt F) → (⟨S16384x64, .f32⟩ : BufTy).Contents (Elt F)),
    nullary main_cst_7 (constant S_ .f32 0x00000000#32),
    binary main_v27 main_cst_7 main_v28 ((fun x v => Host.reduceAdd x v reducesTo_S16384x64_S_d0_1 h_S_) : (⟨S16384x64, .f32⟩ : BufTy).Contents (Elt F) → (⟨S_, .f32⟩ : BufTy).Contents (Elt F) → (⟨S_, .f32⟩ : BufTy).Contents (Elt F)),
    binary main_v26 main_v28 main_v29 (addf : (⟨S_, .f32⟩ : BufTy).Contents (Elt F) → (⟨S_, .f32⟩ : BufTy).Contents (Elt F) → (⟨S_, .f32⟩ : BufTy).Contents (Elt F)),
    binary main_v20 main_v20 main_v30 (mulf : (⟨S16384x64, .f32⟩ : BufTy).Contents (Elt F) → (⟨S16384x64, .f32⟩ : BufTy).Contents (Elt F) → (⟨S16384x64, .f32⟩ : BufTy).Contents (Elt F)),
    nullary main_cst_8 (constant S_ .f32 0x00000000#32),
    binary main_v30 main_cst_8 main_v31 ((fun x v => Host.reduceAdd x v reducesTo_S16384x64_S_d0_1 h_S_) : (⟨S16384x64, .f32⟩ : BufTy).Contents (Elt F) → (⟨S_, .f32⟩ : BufTy).Contents (Elt F) → (⟨S_, .f32⟩ : BufTy).Contents (Elt F)),
    binary main_v29 main_v31 main_v32 (addf : (⟨S_, .f32⟩ : BufTy).Contents (Elt F) → (⟨S_, .f32⟩ : BufTy).Contents (Elt F) → (⟨S_, .f32⟩ : BufTy).Contents (Elt F)),
    nullary main_cst_9 (constant S_ .f32 0x3DCCCCCD#32),
    binary main_cst_9 main_v32 main_v33 (mulf : (⟨S_, .f32⟩ : BufTy).Contents (Elt F) → (⟨S_, .f32⟩ : BufTy).Contents (Elt F) → (⟨S_, .f32⟩ : BufTy).Contents (Elt F)),
    binary main_v22 main_v24 main_v34 (subf : (⟨S16384, .f32⟩ : BufTy).Contents (Elt F) → (⟨S16384, .f32⟩ : BufTy).Contents (Elt F) → (⟨S16384, .f32⟩ : BufTy).Contents (Elt F)),
    TRef.unary (.of main_v34) main_call0.v0 Host.negf,
    TRef.nullary main_call0.call0.cst (constant S_ .f32 0x00000000#32),
    TRef.unary main_call0.call0.cst main_call0.call0.v0 (broadcastInDim S16384 ![] bcast_S_S16384),
    TRef.binary main_call0.v0 main_call0.call0.v0 main_call0.call0.v1 maximumf,
    TRef.unary main_call0.call0.cst main_call0.call0.v2 (broadcastInDim S16384 ![] bcast_S_S16384),
    TRef.binary main_call0.v0 main_call0.call0.v2 main_call0.call0.v3 subf,
    TRef.binary main_call0.call0.v3 main_call0.call0.v3 main_call0.call0.v4 (cmpf .une),
    TRef.unary main_call0.call0.cst main_call0.call0.v5 (broadcastInDim S16384 ![] bcast_S_S16384),
    TRef.binary main_call0.v0 main_call0.call0.v5 main_call0.call0.v6 addf,
    TRef.unary main_call0.call0.v3 main_call0.call0.v7 Host.absf,
    TRef.unary main_call0.call0.v7 main_call0.call0.v8 Host.negf,
    TRef.unary main_call0.call0.v8 main_call0.call0.v9 Host.exp,
    TRef.unary main_call0.call0.v9 main_call0.call0.v10 Host.log1p,
    TRef.binary main_call0.call0.v1 main_call0.call0.v10 main_call0.call0.v11 addf,
    TRef.ternary main_call0.call0.v4 main_call0.call0.v6 main_call0.call0.v11 main_call0.call0.v12 select,
    TRef.unary main_call0.call0.v12 main_call0.v2 Host.negf,
    nullary main_cst_10 (constant S_ .f32 0x00000000#32),
    binary main_v35 main_cst_10 main_v36 ((fun x v => Host.reduceAdd x v reducesTo_S16384_S_d0 h_S_) : (⟨S16384, .f32⟩ : BufTy).Contents (Elt F) → (⟨S_, .f32⟩ : BufTy).Contents (Elt F) → (⟨S_, .f32⟩ : BufTy).Contents (Elt F)),
    nullary main_cst_11 (constant S_ .f32 0x3F317218#32),
    binary main_v36 main_cst_11 main_v37 (Host.divf : (⟨S_, .f32⟩ : BufTy).Contents (Elt F) → (⟨S_, .f32⟩ : BufTy).Contents (Elt F) → (⟨S_, .f32⟩ : BufTy).Contents (Elt F)),
    binary main_v33 main_v37 main_v38 (subf : (⟨S_, .f32⟩ : BufTy).Contents (Elt F) → (⟨S_, .f32⟩ : BufTy).Contents (Elt F) → (⟨S_, .f32⟩ : BufTy).Contents (Elt F)) ]

set_option maxRecDepth 4096 in
/-- @main is that line: the two functions unfolded at their calls, and sequencing reassociated, both sides are one chain
    of sixty-eight steps and the return. -/
theorem main_eq (c : Dev nD) : main (F := F) c = seq ops := by
  simp only [main, fn_log_sigmoid.body, fn_softplus.body, seq, bind_assoc, pure_bind]

/-- The signature scopes no buffer and no semaphore. -/
theorem scopedRefs_eq : (Finset.univ.filter fun b : Ref sig .tc => b.isScoped) = ∅ := by decide
theorem scopedSems_eq : (Finset.univ.filter fun sm : SemLoc sig => sm.isScoped .tc) = ∅ := by decide

/-- Every operation touches TensorCore references only. -/
theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., binary_bufs_sub .., nullary_bufs_sub .., unary_bufs_sub .., binary_bufs_sub ..,
    nullary_bufs_sub .., unary_bufs_sub .., binary_bufs_sub .., ternary_bufs_sub .., unary_bufs_sub .., binary_bufs_sub ..,
    nullary_bufs_sub .., unary_bufs_sub .., binary_bufs_sub .., nullary_bufs_sub .., unary_bufs_sub .., binary_bufs_sub ..,
    ternary_bufs_sub .., unary_bufs_sub .., binary_bufs_sub .., binary_bufs_sub .., nullary_bufs_sub .., binary_bufs_sub ..,
    binary_bufs_sub .., nullary_bufs_sub .., binary_bufs_sub .., binary_bufs_sub .., nullary_bufs_sub .., binary_bufs_sub ..,
    binary_bufs_sub .., nullary_bufs_sub .., binary_bufs_sub .., binary_bufs_sub .., binary_bufs_sub .., nullary_bufs_sub ..,
    binary_bufs_sub .., binary_bufs_sub .., nullary_bufs_sub .., binary_bufs_sub .., binary_bufs_sub .., unary_bufs_sub ..,
    nullary_bufs_sub .., unary_bufs_sub .., binary_bufs_sub .., unary_bufs_sub .., binary_bufs_sub .., binary_bufs_sub ..,
    unary_bufs_sub .., binary_bufs_sub .., unary_bufs_sub .., unary_bufs_sub .., unary_bufs_sub .., unary_bufs_sub ..,
    binary_bufs_sub .., ternary_bufs_sub .., unary_bufs_sub .., nullary_bufs_sub .., binary_bufs_sub .., nullary_bufs_sub ..,
    binary_bufs_sub .., binary_bufs_sub ..⟩

/-- From any memory with zero counters every weakly fair execution terminates, each TensorCore buffer at the fold of the
    operations' results over the launch contents. -/
theorem run_main (m : (ℓ : Loc nD τ sig) → Buf (Elt F) ℓ) (ρ : Dev nD → PrngReg) :
    θ_run (defs (F := F)) (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Line

/-! ## What the line leaves in the result buffers and in the argument buffers

The fold read at one buffer: at the buffer an operation writes, the operation's function of its operands' contents,
which are read the same way one operation earlier; at any other buffer, what was there. -/

section Results

variable [hR : Cert.ReferenceIdeal.Facts]

/-- The first result: the row sums of the products of the first table's rows at `u` and the second's at `i`. -/
theorem yui_eq (V : Valuation τ sig (Elt Ideal)) :
    after (ops (F := Ideal)) V (main_v22 : DevRef τ sig)
      = Cert.RefStages.yui (V (main_arg0 : DevRef τ sig)) (V (main_arg1 : DevRef τ sig)) (V (main_arg2 : DevRef τ sig)) (V (main_arg3 : DevRef τ sig)) := by
  after_results_simp
  rfl

/-- The second result: the same with the second table's rows at `j`. -/
theorem yuj_eq (V : Valuation τ sig (Elt Ideal)) :
    after (ops (F := Ideal)) V (main_v24 : DevRef τ sig)
      = Cert.RefStages.yuj (V (main_arg0 : DevRef τ sig)) (V (main_arg1 : DevRef τ sig)) (V (main_arg2 : DevRef τ sig)) (V (main_arg4 : DevRef τ sig)) := by
  after_results_simp
  rfl

/-- The third result: the last stretch applied to the two dot-product vectors and the three sums of squares. Inside the
    called functions a buffer's contents are read at the tensor type the function states for it, a transport along an
    equation of types that holds by computation at these buffers: each is the identity and is removed before the two
    compositions are compared. -/
theorem loss_eq (V : Valuation τ sig (Elt Ideal)) :
    after (ops (F := Ideal)) V (main_v38 : DevRef τ sig)
      = Cert.RefStages.loss (V (main_arg0 : DevRef τ sig)) (V (main_arg1 : DevRef τ sig)) (V (main_arg2 : DevRef τ sig)) (V (main_arg3 : DevRef τ sig)) (V (main_arg4 : DevRef τ sig)) := by
  after_results_simp
  simp only [cast_cast, cast_eq]
  rfl

/-- No operation writes an argument buffer. -/
theorem arg0_eq (V : Valuation τ sig (Elt Ideal)) : after (ops (F := Ideal)) V (main_arg0 : DevRef τ sig) = V (main_arg0 : DevRef τ sig) := by
  after_results_simp
theorem arg1_eq (V : Valuation τ sig (Elt Ideal)) : after (ops (F := Ideal)) V (main_arg1 : DevRef τ sig) = V (main_arg1 : DevRef τ sig) := by
  after_results_simp
theorem arg2_eq (V : Valuation τ sig (Elt Ideal)) : after (ops (F := Ideal)) V (main_arg2 : DevRef τ sig) = V (main_arg2 : DevRef τ sig) := by
  after_results_simp
theorem arg3_eq (V : Valuation τ sig (Elt Ideal)) : after (ops (F := Ideal)) V (main_arg3 : DevRef τ sig) = V (main_arg3 : DevRef τ sig) := by
  after_results_simp
theorem arg4_eq (V : Valuation τ sig (Elt Ideal)) : after (ops (F := Ideal)) V (main_arg4 : DevRef τ sig) = V (main_arg4 : DevRef τ sig) := by
  after_results_simp

end Results

/-! ## The run -/

/-- On every device, from any memory with zero counters: every weakly fair execution of the reference terminates without
    a fault, its three results at the stage functions of the argument arrays' launch contents, the arguments unchanged. -/
theorem run [hR : Cert.ReferenceIdeal.Facts]
    (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩
      (fun r => ∀ c : Dev Cert.ReferenceIdeal.nD,
        r.2.mem ((c.tc : Thread nD τ).loc main_v22) = Cert.RefStages.yui (m ((c.tc : Thread nD τ).loc main_arg0)) (m ((c.tc : Thread nD τ).loc main_arg1)) (m ((c.tc : Thread nD τ).loc main_arg2)) (m ((c.tc : Thread nD τ).loc main_arg3))
        ∧ r.2.mem ((c.tc : Thread nD τ).loc main_v24) = Cert.RefStages.yuj (m ((c.tc : Thread nD τ).loc main_arg0)) (m ((c.tc : Thread nD τ).loc main_arg1)) (m ((c.tc : Thread nD τ).loc main_arg2)) (m ((c.tc : Thread nD τ).loc main_arg4))
        ∧ r.2.mem ((c.tc : Thread nD τ).loc main_v38) = Cert.RefStages.loss (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)) :=
  (θ_run (defs (F := Ideal)) _ _).mono
    (fun _ h c => ⟨(h c main_v22).trans (yui_eq (launchContents m c)), (h c main_v24).trans (yuj_eq (launchContents m c)),
      (h c main_v38).trans (loss_eq (launchContents m c)),
      (h c main_arg0).trans (arg0_eq (launchContents m c)), (h c main_arg1).trans (arg1_eq (launchContents m c)),
      (h c main_arg2).trans (arg2_eq (launchContents m c)), (h c main_arg3).trans (arg3_eq (launchContents m c)),
      (h c main_arg4).trans (arg4_eq (launchContents m c))⟩)
    (run_main m g)

end Cert.RefRun

end
-- ==== Proof.RefValue.lean ====
/-
  The reference's stages are the specification.

  When every entry of an index vector, read as an unsigned number, is below its table's row count, the reference's
  gathered rows, its two row dot products and its three sums of squares are the specification's, at the ideal
  instance (floats are extended reals).

  The road:
    * the index column.  An entry below the row count is below 2^31, so it is non-negative as a signed number: the
      reference's "negative entry raised by the row count" leaves it alone, and the column at row `g` is the entry;
    * the row gather.  Result entry `(g, f)` reads the table at row "start index of `g`, read signed, clamped to the
      last row" and column `f`: the row axis is collapsed and start-indexed, the column axis is the one offset axis.
      Under the range hypothesis the signed reading is the unsigned one and the clamp does nothing different from the
      specification's;
    * the sums.  A host sum over the column axis from zero is the sum over the 64 columns; a host sum over both axes
      from zero is the sum over all index pairs, which is the double sum rows-then-columns.
-/
import proofs.«414929_j28089086116333_1_alg».proof.Proof.RefStages
import proofs.«414929_j28089086116333_1_alg».proof.Proof.Spec
import Idealize.ShloMosaic.Lib.ValueIdx
import Idealize.ShloMosaic.Lib.StableHlo.Predicate
import Idealize.ShloMosaic.PureOps.Ideal.Laws

noncomputable section

open scoped BigOperators

namespace Cert.RefValue

open Idealize.ShloMosaic Idealize.ShloMosaic.ValueIdx Cert.ReferenceIdeal
open Cert.ReferenceIdeal.Facts₀

/-! ## A row gather read at an index -/

section Rows
variable {α : Type}

/-- The dimension numbers of "rows of an `[N, C]` table at an `[R, 1]` column of start indices": the row axis collapsed
    and start-indexed, the column axis the one offset axis, slices of one row. -/
abbrev rowDims (N R C : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- Entry `(g, f)` of the gathered rows: the table at the row that start index `g` names, read signed and clamped into
    `[0, N − 1]`, and at column `f`. -/
theorem gather_rows_apply {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (g : Fin R) (f : Fin C) :
    Host.gather (rowDims N R C wf) x idx (ix2 g f)
      = x (ix2 ⟨min (idx (ix2 g (0 : Fin 1))).toInt.toNat (N - 1), by omega⟩ f) := by
  unfold Host.gather
  congr 1
  funext a
  refine Fin.ext ?_
  show (rowDims N R C wf).start (ix2 g f) idx a + (rowDims N R C wf).batchCoord (ix2 g f) a
      + (rowDims N R C wf).offCoord (ix2 g f) a = _
  rw [GatherDims.batchCoord_eq_zero _ _ _ List.not_mem_nil, Nat.add_zero]
  have ha : a = (0 : Fin 2) ∨ a = (1 : Fin 2) := by
    have h2 : a.val < 2 := a.isLt
    rcases Nat.lt_or_ge a.val 1 with h | h
    · exact Or.inl (Fin.ext (by show a.val = 0; omega))
    · exact Or.inr (Fin.ext (by show a.val = 1; omega))
  rcases ha with rfl | rfl
  · -- the row axis: collapsed (no offset), start-indexed; the start index is read at `(g, 0)` of the column
    rw [GatherDims.offCoord_eq_zero _ _ _
      (fun h => ((GatherDims.mem_sKept _ _).mp h).1 (List.mem_singleton.mpr rfl)), Nat.add_zero]
    unfold GatherDims.start
    rw [dif_pos (show (0 : Fin 2) ∈ (rowDims N R C wf).startIndexMap from List.mem_singleton.mpr rfl)]
    have hsi : (rowDims N R C wf).siIdx (ix2 g f) ⟨List.idxOf (0 : Fin 2) (rowDims N R C wf).startIndexMap,
        List.idxOf_lt_length_iff.2 (List.mem_singleton.mpr rfl)⟩ = ix2 g (0 : Fin 1) := by
      funext b
      refine Fin.ext ?_
      match b with
      | ⟨0, _⟩ => rfl
      | ⟨1, _⟩ => rfl
    rw [hsi]
    rfl
  · -- the column axis: not start-indexed (start 0), the one offset axis, reading the result's coordinate 1
    have hne : (1 : Fin 2) ≠ (0 : Fin 2) := by decide
    unfold GatherDims.start
    rw [dif_neg (show (1 : Fin 2) ∉ (rowDims N R C wf).startIndexMap from
      fun h => hne (List.mem_singleton.mp h)), Nat.zero_add]
    unfold GatherDims.offCoord
    rw [dif_pos (show (1 : Fin 2) ∈ (rowDims N R C wf).sKept from
      (GatherDims.mem_sKept _ _).mpr ⟨fun h => hne (List.mem_singleton.mp h), List.not_mem_nil⟩)]
    rfl

end Rows

/-! ## The index column -/

variable [hR : Cert.ReferenceIdeal.Facts]

/-- A vector laid out as a column reads, at row `g`, the vector at `g`. -/
theorem col_apply {α : Type} (x : S16384.Idx → α) (g : Fin 16384) :
    broadcastInDim S16384x1 ![0] bcast_S16384_S16384x1_0 x (ix2 g (0 : Fin 1)) = x (ix1 g) := by
  unfold broadcastInDim
  congr 1
  funext a
  obtain rfl : a = 0 := Subsingleton.elim _ _
  refine Fin.ext ?_
  split
  · next h1 =>
    have h1' : (16384 : Nat) = 1 := h1
    omega
  · rfl

/-- An entry below 2^31 is non-negative as a signed number, so the reference leaves it as it is: the prepared column
    at row `g` is the entry at `g`. -/
theorem idx_apply (n : BitVec 32) (a : IVec S16384 32) (g : Fin 16384) (ha : (a (ix1 g)).toNat < 2 ^ 31) :
    Cert.RefStages.idx n a (ix2 g (0 : Fin 1)) = a (ix1 g) := by
  unfold Cert.RefStages.idx
  rw [col_apply]
  show Scalar.select (IntOp.cmpi .slt (a (ix1 g)) 0#32) (IntOp.addi (a (ix1 g)) n) (a (ix1 g)) = a (ix1 g)
  have hc : IntOp.cmpi .slt (a (ix1 g)) 0#32 = 0#1 := by
    refine eq_zero_of_ne_one fun h => ?_
    have hlt := (StableHlo.Predicate.slt_iff_toNat ha (by decide)).mp h
    have h0 : (0#32 : BitVec 32).toNat = 0 := rfl
    omega
  rw [hc, select_zero]

/-- The row a start index names, read signed and clamped, is the specification's row when the entry is in range. -/
theorem clamp_eq_row {n : Nat} (hn : 0 < n) (hn' : n ≤ 2 ^ 31) {w : BitVec 32} (hw : w.toNat < n) :
    min w.toInt.toNat (n - 1) = (Cert.Spec.row n hn w).val := by
  rw [StableHlo.Predicate.toInt_eq_toNat_of_lt (by omega), Int.toNat_natCast]
  rfl

/-! ## The gathered rows -/

/-- The rows of the first table at `u` are the specification's. -/
theorem Uu_apply (A0 : FVec Ideal S1000000x64 .f32) (u : IVec S16384 32) (hu : ∀ g, (u g).toNat < 1000000)
    (g : Fin 16384) (f : Fin 64) :
    Cert.RefStages.Uu A0 u (ix2 g f) = Cert.Spec.gathered (by decide) A0 u g f := by
  unfold Cert.RefStages.Uu Cert.Spec.gathered
  refine (gather_rows_apply (N := 1000000) (R := 16384) (C := 64) (by decide)
    gather_S1000000x64_S16384x1_S16384x64_1_0_n_n_0_1_164_wf A0 (Cert.RefStages.idx 1000000#32 u) g f).trans ?_
  have hg := hu (ix1 g)
  congr 1
  funext c
  refine Fin.ext ?_
  match c with
  | ⟨0, _⟩ =>
    show min (Cert.RefStages.idx 1000000#32 u (ix2 g (0 : Fin 1))).toInt.toNat (1000000 - 1)
      = (Cert.Spec.row 1000000 (by decide) (u (ix1 g))).val
    rw [idx_apply _ _ _ (by omega)]
    exact clamp_eq_row _ (by decide) hg
  | ⟨1, _⟩ => rfl

/-- The rows of the second table at an index vector are the specification's. -/
theorem Vrows_apply (A1 : FVec Ideal S500000x64 .f32) (a : IVec S16384 32) (ha : ∀ g, (a g).toNat < 500000)
    (g : Fin 16384) (f : Fin 64) :
    Cert.RefStages.Vrows A1 a (ix2 g f) = Cert.Spec.gathered (by decide) A1 a g f := by
  unfold Cert.RefStages.Vrows Cert.Spec.gathered
  refine (gather_rows_apply (N := 500000) (R := 16384) (C := 64) (by decide)
    gather_S500000x64_S16384x1_S16384x64_1_0_n_n_0_1_164_wf A1 (Cert.RefStages.idx 500000#32 a) g f).trans ?_
  have hg := ha (ix1 g)
  congr 1
  funext c
  refine Fin.ext ?_
  match c with
  | ⟨0, _⟩ =>
    show min (Cert.RefStages.idx 500000#32 a (ix2 g (0 : Fin 1))).toInt.toNat (500000 - 1)
      = (Cert.Spec.row 500000 (by decide) (a (ix1 g))).val
    rw [idx_apply _ _ _ (by omega)]
    exact clamp_eq_row _ (by decide) hg
  | ⟨1, _⟩ => rfl

/-! ## The sums -/

/-- A row dot product of the reference, from zero: the sum over the 64 columns of the products. -/
theorem dots_apply (X Y : FVec Ideal S16384x64 .f32) (g : Fin 16384) :
    Cert.RefStages.dots X Y (ix1 g) = ∑ f : Fin 64, X (ix2 g f) * Y (ix2 g f) := by
  unfold Cert.RefStages.dots
  have hred : S16384x64.Reduces [1] S16384 :=
    ⟨reducesTo_S16384x64_S16384_d1.1, Nat.one_pos, reducesTo_S16384x64_S16384_d1.2⟩
  show Ideal.hostReduceAdd reducesTo_S16384x64_S16384_d1 (mulf X Y) (Ideal.ofBits .f32 0x00000000#32) (ix1 g) = _
  rw [Ideal.hostReduceAdd_single _ hred, Ideal.ofBits_zero_f32, zero_add]
  refine Finset.sum_congr rfl fun k _ => ?_
  have hl : hred.lift (ix1 g) k = ix2 g k := by
    funext c
    refine Fin.ext ?_
    rw [Shape.Reduces.lift_val]
    match c with
    | ⟨0, _⟩ => rfl
    | ⟨1, _⟩ => rfl
  rw [hl]
  rfl

/-- The reference's sum of all entries of `X · X`, from zero: the double sum, rows then columns. -/
theorem sq_apply (X : FVec Ideal S16384x64 .f32) (j : S_.Idx) :
    Cert.RefStages.sq X j = ∑ g : Fin 16384, ∑ f : Fin 64, X (ix2 g f) * X (ix2 g f) := by
  unfold Cert.RefStages.sq
  show Ideal.hostReduceAdd reducesTo_S16384x64_S_d0_1 (mulf X X) (Ideal.ofBits .f32 0x00000000#32) j = _
  rw [Ideal.hostReduceAdd_total _ (fun b => b.elim0), Ideal.ofBits_zero_f32, zero_add, sum_idx2]
  rfl

/-! ## The stages are the specification -/

/-- The first result. -/
theorem yui_eq (A0 : FVec Ideal S1000000x64 .f32) (A1 : FVec Ideal S500000x64 .f32) (u i : IVec S16384 32)
    (hu : ∀ g, (u g).toNat < 1000000) (hi : ∀ g, (i g).toNat < 500000) :
    Cert.RefStages.yui A0 A1 u i = Cert.Spec.yui A0 A1 u i := by
  funext j
  obtain ⟨g, rfl⟩ : ∃ g : Fin 16384, j = ix1 g := ⟨j 0, eq_ix1 j⟩
  unfold Cert.RefStages.yui Cert.Spec.yui Cert.Spec.rowDot
  rw [dots_apply]
  refine Finset.sum_congr rfl fun f _ => ?_
  rw [Uu_apply A0 u hu, Vrows_apply A1 i hi]

/-- The second result. -/
theorem yuj_eq (A0 : FVec Ideal S1000000x64 .f32) (A1 : FVec Ideal S500000x64 .f32) (u j : IVec S16384 32)
    (hu : ∀ g, (u g).toNat < 1000000) (hj : ∀ g, (j g).toNat < 500000) :
    Cert.RefStages.yuj A0 A1 u j = Cert.Spec.yuj A0 A1 u j := by
  funext p
  obtain ⟨g, rfl⟩ : ∃ g : Fin 16384, p = ix1 g := ⟨p 0, eq_ix1 p⟩
  unfold Cert.RefStages.yuj Cert.Spec.yuj Cert.Spec.rowDot
  rw [dots_apply]
  refine Finset.sum_congr rfl fun f _ => ?_
  rw [Uu_apply A0 u hu, Vrows_apply A1 j hj]

/-- The sum of squares of the rows of the first table at `u`. -/
theorem sqU_eq (A0 : FVec Ideal S1000000x64 .f32) (u : IVec S16384 32) (hu : ∀ g, (u g).toNat < 1000000) :
    Cert.RefStages.sq (Cert.RefStages.Uu A0 u) = fun _ => Cert.Spec.squ A0 u := by
  funext p
  rw [sq_apply]
  unfold Cert.Spec.squ Cert.Spec.sqSum
  refine Finset.sum_congr rfl fun g _ => Finset.sum_congr rfl fun f _ => ?_
  rw [Uu_apply A0 u hu]

/-- The sum of squares of the rows of the second table at an index vector. -/
theorem sqV_eq (A1 : FVec Ideal S500000x64 .f32) (a : IVec S16384 32) (ha : ∀ g, (a g).toNat < 500000) :
    Cert.RefStages.sq (Cert.RefStages.Vrows A1 a)
      = fun _ => Cert.Spec.sqSum (Cert.Spec.gathered (by decide) A1 a) := by
  funext p
  rw [sq_apply]
  unfold Cert.Spec.sqSum
  refine Finset.sum_congr rfl fun g _ => Finset.sum_congr rfl fun f _ => ?_
  rw [Vrows_apply A1 a ha]

end Cert.RefValue

end
-- ==== Proof.RefSide.lean ====
/-
  The reference program's results as the specification's functions.

  The reference's run ends with its three results at its own stages' terms of the argument arrays; when every index
  entry addresses a row of the table it indexes, those stages are the specification: the two vectors of row dot
  products, and the common last stretch applied to them and to the three sums of squares.
-/
import proofs.«414929_j28089086116333_1_alg».proof.Proof.RefRun
import proofs.«414929_j28089086116333_1_alg».proof.Proof.RefValue

noncomputable section

namespace Cert.RefSide

open Idealize.ShloMosaic Idealize.SL.Sem Cert.ReferenceIdeal
open Cert.ReferenceIdeal.Facts₀

variable [hR : Cert.ReferenceIdeal.Facts]

/-- The scalar result as the common last stretch applied to the specification's values. -/
theorem loss_eq (A0 : FVec Ideal S1000000x64 .f32) (A1 : FVec Ideal S500000x64 .f32) (u i j : IVec S16384 32)
    (hu : ∀ g, (u g).toNat < 1000000) (hi : ∀ g, (i g).toNat < 500000) (hj : ∀ g, (j g).toNat < 500000) :
    Cert.RefStages.loss A0 A1 u i j
      = Cert.Tail.loss bcast_S_S16384 reducesTo_S16384_S_d0 h_S_ (Cert.Spec.yui A0 A1 u i) (Cert.Spec.yuj A0 A1 u j)
          (fun _ => Cert.Spec.squ A0 u) (fun _ => Cert.Spec.sqi A1 i) (fun _ => Cert.Spec.sqj A1 j) := by
  unfold Cert.RefStages.loss
  rw [Cert.RefValue.yui_eq A0 A1 u i hu hi, Cert.RefValue.yuj_eq A0 A1 u j hu hj, Cert.RefValue.sqU_eq A0 u hu,
    Cert.RefValue.sqV_eq A1 i hi, Cert.RefValue.sqV_eq A1 j hj]
  rfl

/-- The reference runs, its results the specification's, its arguments unchanged. -/
theorem run (m : (ℓ : Loc Cert.ReferenceIdeal.nD Cert.ReferenceIdeal.τ Cert.ReferenceIdeal.sig) → Buf (Elt Ideal) ℓ)
    (g : Dev Cert.ReferenceIdeal.nD → PrngReg)
    (hu : ∀ (c : Dev nD) x, ((m ((c.tc : Thread nD τ).loc main_arg2) : IVec S16384 32) x).toNat < 1000000)
    (hi : ∀ (c : Dev nD) x, ((m ((c.tc : Thread nD τ).loc main_arg3) : IVec S16384 32) x).toNat < 500000)
    (hj : ∀ (c : Dev nD) x, ((m ((c.tc : Thread nD τ).loc main_arg4) : IVec S16384 32) x).toNat < 500000) :
    θ_run (Cert.ReferenceIdeal.defs (F := Ideal)) (onTc (τ := Cert.ReferenceIdeal.τ) (Cert.ReferenceIdeal.main (F := Ideal))) ⟨m, fun _ => 0, g⟩
      (fun r => ∀ c : Dev Cert.ReferenceIdeal.nD,
        r.2.mem ((c.tc : Thread nD τ).loc main_v22) = Cert.Spec.yui (m ((c.tc : Thread nD τ).loc main_arg0)) (m ((c.tc : Thread nD τ).loc main_arg1)) (m ((c.tc : Thread nD τ).loc main_arg2)) (m ((c.tc : Thread nD τ).loc main_arg3))
        ∧ r.2.mem ((c.tc : Thread nD τ).loc main_v24) = Cert.Spec.yuj (m ((c.tc : Thread nD τ).loc main_arg0)) (m ((c.tc : Thread nD τ).loc main_arg1)) (m ((c.tc : Thread nD τ).loc main_arg2)) (m ((c.tc : Thread nD τ).loc main_arg4))
        ∧ r.2.mem ((c.tc : Thread nD τ).loc main_v38)
            = Cert.Tail.loss bcast_S_S16384 reducesTo_S16384_S_d0 h_S_
                (Cert.Spec.yui (m ((c.tc : Thread nD τ).loc main_arg0)) (m ((c.tc : Thread nD τ).loc main_arg1)) (m ((c.tc : Thread nD τ).loc main_arg2)) (m ((c.tc : Thread nD τ).loc main_arg3)))
                (Cert.Spec.yuj (m ((c.tc : Thread nD τ).loc main_arg0)) (m ((c.tc : Thread nD τ).loc main_arg1)) (m ((c.tc : Thread nD τ).loc main_arg2)) (m ((c.tc : Thread nD τ).loc main_arg4)))
                (fun _ => Cert.Spec.squ (m ((c.tc : Thread nD τ).loc main_arg0)) (m ((c.tc : Thread nD τ).loc main_arg2)))
                (fun _ => Cert.Spec.sqi (m ((c.tc : Thread nD τ).loc main_arg1)) (m ((c.tc : Thread nD τ).loc main_arg3)))
                (fun _ => Cert.Spec.sqj (m ((c.tc : Thread nD τ).loc main_arg1)) (m ((c.tc : Thread nD τ).loc main_arg4)))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)) := by
  refine (θ_run Cert.ReferenceIdeal.defs _ _).mono (fun r h c => ?_) (Cert.RefRun.run m g)
  obtain ⟨h1, h2, h3, h4⟩ := h c
  refine ⟨h1.trans (Cert.RefValue.yui_eq _ _ _ _ (hu c) (hi c)), h2.trans (Cert.RefValue.yuj_eq _ _ _ _ (hu c) (hj c)),
    h3.trans (loss_eq _ _ _ _ _ (hu c) (hi c) (hj c)), h4⟩

end Cert.RefSide

end
-- ==== Proof.lean ====
/- The proof of `Cert.Claim` (proofs.«414929_j28089086116333_1_alg».proof.Defs) — frame_Kernel ∧ frame_KernelIdeal ∧ frame_ReferenceIdeal ∧ preserves_Kernel_KernelIdeal ∧ algebraic_KernelIdeal_ReferenceIdeal —: hand-written, untrusted.

   Both programs gather rows of the two tables at the three index vectors and compute, position by position, the two row dot
   products, and one scalar: the common last stretch applied to the two vectors of dot products and to the three sums of the
   squares of the gathered entries.  The precondition makes every index entry address a row of the table it indexes.
   Each program's run is stated with its three results NAMED as those functions of its own arguments (Proof/Spec.lean,
   Proof/Tail.lean): the kernel's in Proof/KIValue.lean, the reference's in Proof/RefSide.lean.  The arguments agreeing, the
   results are the same terms.  The kernel as printed (word level) runs and leaves its arguments alone by the same frame
   argument; its idealization rewrote no operation. -/
import proofs.«414929_j28089086116333_1_alg».proof.Defs
import proofs.«414929_j28089086116333_1_alg».proof.Proof.Gen.Kernel
import proofs.«414929_j28089086116333_1_alg».proof.Proof.Gen.Kernel.Skeleton
import proofs.«414929_j28089086116333_1_alg».proof.Proof.Gen.Kernel.Launch
import proofs.«414929_j28089086116333_1_alg».proof.Proof.Gen.Kernel.Flash
import proofs.«414929_j28089086116333_1_alg».proof.Proof.Gen.KernelIdeal
import proofs.«414929_j28089086116333_1_alg».proof.Proof.Gen.KernelIdeal.Skeleton
import proofs.«414929_j28089086116333_1_alg».proof.Proof.Gen.KernelIdeal.Launch
import proofs.«414929_j28089086116333_1_alg».proof.Proof.Gen.KernelIdeal.Flash
import proofs.«414929_j28089086116333_1_alg».proof.Proof.Gen.ReferenceIdeal
import proofs.«414929_j28089086116333_1_alg».proof.Proof.Gen.Pre_finite_inputs
import proofs.«414929_j28089086116333_1_alg».proof.Proof.PreRange
import proofs.«414929_j28089086116333_1_alg».proof.Proof.KFrame
import proofs.«414929_j28089086116333_1_alg».proof.Proof.KIFrame
import proofs.«414929_j28089086116333_1_alg».proof.Proof.KIValue
import proofs.«414929_j28089086116333_1_alg».proof.Proof.RefSide
import Idealize.ShloMosaic.Adequacy
import Idealize.ShloMosaic.Init

noncomputable section

namespace Cert.Proof

open Idealize.ShloMosaic Idealize.SL.Sem Cert.Kernel

/-- The specification's three results are functions of the five arguments: equal arguments, equal results. -/
theorem spec_congr {U U' : Cert.Spec.SU.Idx → EReal} {V V' : Cert.Spec.SV.Idx → EReal} {u u' i i' j j' : Cert.Spec.SB.Idx → BitVec 32}
    (hb hb' : Cert.Tail.S0.BroadcastsInDim Cert.Tail.SB (![] : Fin 0 → Fin Cert.Tail.SB.rank)) (hr hr' : Cert.Tail.SB.ReducesTo [0] Cert.Tail.S0)
    (h0 h0' : 0 < Cert.Tail.S0.numel)
    (hU : U' = U) (hV : V' = V) (hu : u' = u) (hi : i' = i) (hj : j' = j) :
    Cert.Spec.yui U' V' u' i' = Cert.Spec.yui U V u i
    ∧ Cert.Spec.yuj U' V' u' j' = Cert.Spec.yuj U V u j
    ∧ Cert.Tail.loss hb' hr' h0' (Cert.Spec.yui U' V' u' i') (Cert.Spec.yuj U' V' u' j') (fun _ => Cert.Spec.squ U' u') (fun _ => Cert.Spec.sqi V' i') (fun _ => Cert.Spec.sqj V' j')
        = Cert.Tail.loss hb hr h0 (Cert.Spec.yui U V u i) (Cert.Spec.yuj U V u j) (fun _ => Cert.Spec.squ U u) (fun _ => Cert.Spec.sqi V i) (fun _ => Cert.Spec.sqj V j) := by
  subst hU hV hu hi hj
  exact ⟨rfl, rfl, rfl⟩

/-- The kernel as printed runs, its arguments unchanged: the precondition gives that every index word addresses a row. -/
theorem frame_k : Cert.frame_Kernel := fun m ρ hpre =>
  Cert.Kernel.Hand.frame m ρ (Cert.Kernel.Hand.tblOk_of_pre m hpre)

/-- The same of the kernel read at the ideal instance. -/
theorem frame_ki : Cert.frame_KernelIdeal := fun m ρ hpre =>
  Cert.KernelIdeal.Hand.frame m ρ (Cert.KernelIdeal.Hand.tblOk_of_pre m hpre)

/-- The reference runs, its arguments unchanged: the last clauses of its run with the results named. -/
theorem frame_ri : Cert.frame_ReferenceIdeal := fun m g hpre =>
  (θ_run Cert.ReferenceIdeal.defs _ _).mono (fun _ h c => (h c).2.2.2)
    (Cert.RefSide.run m g
      (fun c => (Cert.PreRange.range_of_pre _ _ _ _ _ (hpre c)).1)
      (fun c => (Cert.PreRange.range_of_pre _ _ _ _ _ (hpre c)).2.1)
      (fun c => (Cert.PreRange.range_of_pre _ _ _ _ _ (hpre c)).2.2))

/-- The ideal pass rewrote no operation. -/
theorem preserves : Cert.preserves_Kernel_KernelIdeal := trivial

/-- At the ideal instance both runs end at the specification's three functions, each of its own arguments; the arguments
    agree, so the results do. -/
theorem algebraic : Cert.algebraic_KernelIdeal_ReferenceIdeal := by
  intro m g m' g' hpre hagree
  have hr := fun c => Cert.PreRange.range_of_pre _ _ _ _ _ (hpre c)
  refine ⟨_, _, _, Cert.KernelIdeal.Hand.run m g (Cert.KernelIdeal.Hand.tblOk_of_pre m hpre), ?_⟩
  refine (θ_run Cert.ReferenceIdeal.defs _ _).mono (fun r h c => ?_)
    (Cert.RefSide.run m' g'
      (fun c x => (congrArg (fun a : Cert.Spec.SB.Idx → BitVec 32 => (a x).toNat) (hagree c).2.2.1).trans_lt ((hr c).1 x))
      (fun c x => (congrArg (fun a : Cert.Spec.SB.Idx → BitVec 32 => (a x).toNat) (hagree c).2.2.2.1).trans_lt ((hr c).2.1 x))
      (fun c x => (congrArg (fun a : Cert.Spec.SB.Idx → BitVec 32 => (a x).toNat) (hagree c).2.2.2.2).trans_lt ((hr c).2.2 x)))
  obtain ⟨a0, a1, a2, a3, a4⟩ := hagree c
  obtain ⟨h1, h2, h3, h4⟩ := h c
  obtain ⟨e1, e2, e3⟩ := spec_congr Cert.KernelIdeal.Gen.bcast_S_S16384 Cert.ReferenceIdeal.Gen.bcast_S_S16384
    Cert.KernelIdeal.Gen.reducesTo_S16384_S_d0 Cert.ReferenceIdeal.Gen.reducesTo_S16384_S_d0
    Cert.KernelIdeal.Gen.h_S_ Cert.ReferenceIdeal.Gen.h_S_ a0 a1 a2 a3 a4
  exact ⟨h1.trans e1, h2.trans e2, h3.trans e3, h4⟩

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
